-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![8192, 2048]⟩ ⟨2, ![16384, 2048]⟩ (Layout.meshBlock [2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![16384, 1024]⟩ ⟨2, ![16384, 2048]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S8192x2048 : Shape := ⟨2, ![8192, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel

variable [Facts]

def fn {F : FTy → Type} [FloatOps F] (main_arg0 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  main_v3
-- ==== Pre_finite_inputs_ReferenceIdeal.lean ====
abbrev S16384x2048 : Shape := ⟨2, ![16384, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel

variable [Facts]

def fn {F : FTy → Type} [FloatOps F] (main_arg0 : FVec F S16384x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  main_v3
-- ==== Kernel.lean ====
abbrev S8192x2048 : Shape := ⟨2, ![8192, 2048]⟩
abbrev S16384x1024 : Shape := ⟨2, ![16384, 1024]⟩
abbrev S64 : Shape := ⟨1, ![64]⟩
abbrev S2x512x1024 : Shape := ⟨3, ![2, 512, 1024]⟩
abbrev S4 : Shape := ⟨1, ![4]⟩
abbrev S_ : Shape := ⟨0, ![]⟩
abbrev S1 : Shape := ⟨1, ![1]⟩
abbrev S64x1024 : Shape := ⟨2, ![64, 1024]⟩
abbrev S1x512x1024 : Shape := ⟨3, ![1, 512, 1024]⟩
abbrev S512x1024 : Shape := ⟨2, ![512, 1024]⟩

abbrev nBuf : Space → Nat
  | .hbm => 2
  | .vmem => 1
  | .smem => 0
  | _ => 0

abbrev bufTy : (tb : Table) → Fin (tcTables nBuf tb) → BufTy
  | .hbm, ⟨0, _⟩ => ⟨S8192x2048, .f32⟩
  | .hbm, ⟨1, _⟩ => ⟨S16384x1024, .f32⟩
  | .local _ .vmem, ⟨0, _⟩ => ⟨S2x512x1024, .f32⟩
  | _, _ => ⟨S8192x2048, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | _, _ => false

abbrev semScoped : Fin 1 → Bool
  | ⟨0, _⟩ => false
  | _ => false

abbrev dmaSemScoped : Fin 260 → Bool
  | ⟨i, _⟩ => dmaSemScopedAt i

abbrev sig : RefSig :=
  (ofTc nBuf bufTy 1 260 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch4 : Ref sig .tc := ⟨.vmem, 0, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v9 : BitVec 32 := Scalar.addi c0_i32 v8
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_2 v5
  let c1_i32_5 : BitVec 32 := 1#32
  let v10 : BitVec 32 := Scalar.muli v7 c1_i32_5
  let v11 : BitVec 32 := Scalar.addi v9 v10
  v11.toNat
def k0_dev2 (d0 : Dev nD) : Nat :=
  let c0_i32_9 : BitVec 32 := 0#32
  let c1_i32_6 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v12 : BitVec 32 := Scalar.subi c1_i32_6 v2
  let c2_i32_8 : BitVec 32 := 2#32
  let v13 : BitVec 32 := Scalar.muli v12 c2_i32_8
  let v14 : BitVec 32 := Scalar.addi c0_i32_9 v13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_10 : BitVec 32 := 1#32
  let v15 : BitVec 32 := Scalar.muli v5 c1_i32_10
  let v16 : BitVec 32 := Scalar.addi v14 v15
  v16.toNat
def k0_off1 (d0 : Dev nD) (c0_i32_15 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8192_i32 : BitVec 32 := 8192#32
  let v21 : BitVec 32 := Scalar.muli v5 c8192_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32_14 : BitVec 32 := 4096#32
  let v22 : BitVec 32 := Scalar.muli v2 c4096_i32_14
  let v23 : BitVec 32 := Scalar.addi v21 v22
  let v24 : BitVec 32 := Scalar.addi v23 c0_i32_15
  let c0_i32_22 : BitVec 32 := 0#32
  ![v24.toNat, 0]
def k0_off2 (d0 : Dev nD) (c0_i32_12 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32 : BitVec 32 := 4096#32
  let v17 : BitVec 32 := Scalar.muli v2 c4096_i32
  let v18 : BitVec 32 := Scalar.addi v17 c0_i32_12
  let c1_i32_13 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v19 : BitVec 32 := Scalar.subi c1_i32_13 v5
  let c1024_i32 : BitVec 32 := 1024#32
  let v20 : BitVec 32 := Scalar.muli v19 c1024_i32
  ![v18.toNat, v20.toNat]
def k0_dev3 (d0 : Dev nD) : Nat :=
  let c0_i32_20 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_19 : BitVec 32 := 2#32
  let v26 : BitVec 32 := Scalar.muli v2 c2_i32_19
  let v27 : BitVec 32 := Scalar.addi c0_i32_20 v26
  let c1_i32_16 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v25 : BitVec 32 := Scalar.subi c1_i32_16 v5
  let c1_i32_21 : BitVec 32 := 1#32
  let v28 : BitVec 32 := Scalar.muli v25 c1_i32_21
  let v29 : BitVec 32 := Scalar.addi v27 v28
  v29.toNat
def k0_dev4 (d0 : Dev nD) : Nat :=
  let c0_i32_33 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_32 : BitVec 32 := 2#32
  let v45 : BitVec 32 := Scalar.muli v2 c2_i32_32
  let v46 : BitVec 32 := Scalar.addi c0_i32_33 v45
  let c1_i32_29 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v44 : BitVec 32 := Scalar.subi c1_i32_29 v5
  let c1_i32_34 : BitVec 32 := 1#32
  let v47 : BitVec 32 := Scalar.muli v44 c1_i32_34
  let v48 : BitVec 32 := Scalar.addi v46 v47
  v48.toNat
def k0_dev5 (d0 : Dev nD) : Nat :=
  let c0_i32_46 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_45 : BitVec 32 := 2#32
  let v64 : BitVec 32 := Scalar.muli v2 c2_i32_45
  let v65 : BitVec 32 := Scalar.addi c0_i32_46 v64
  let c1_i32_42 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v63 : BitVec 32 := Scalar.subi c1_i32_42 v5
  let c1_i32_47 : BitVec 32 := 1#32
  let v66 : BitVec 32 := Scalar.muli v63 c1_i32_47
  let v67 : BitVec 32 := Scalar.addi v65 v66
  v67.toNat
def k0_dev6 (d0 : Dev nD) : Nat :=
  let c0_i32_58 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_57 : BitVec 32 := 2#32
  let v83 : BitVec 32 := Scalar.muli v2 c2_i32_57
  let v84 : BitVec 32 := Scalar.addi c0_i32_58 v83
  let c1_i32_55 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v82 : BitVec 32 := Scalar.subi c1_i32_55 v5
  let c1_i32_59 : BitVec 32 := 1#32
  let v85 : BitVec 32 := Scalar.muli v82 c1_i32_59
  let v86 : BitVec 32 := Scalar.addi v84 v85
  v86.toNat
def k0_dev7 (d0 : Dev nD) : Nat :=
  let c0_i32_70 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_69 : BitVec 32 := 2#32
  let v102 : BitVec 32 := Scalar.muli v2 c2_i32_69
  let v103 : BitVec 32 := Scalar.addi c0_i32_70 v102
  let c1_i32_67 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v101 : BitVec 32 := Scalar.subi c1_i32_67 v5
  let c1_i32_71 : BitVec 32 := 1#32
  let v104 : BitVec 32 := Scalar.muli v101 c1_i32_71
  let v105 : BitVec 32 := Scalar.addi v103 v104
  v105.toNat
def k0_dev8 (d0 : Dev nD) : Nat :=
  let c0_i32_82 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_81 : BitVec 32 := 2#32
  let v121 : BitVec 32 := Scalar.muli v2 c2_i32_81
  let v122 : BitVec 32 := Scalar.addi c0_i32_82 v121
  let c1_i32_79 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v120 : BitVec 32 := Scalar.subi c1_i32_79 v5
  let c1_i32_83 : BitVec 32 := 1#32
  let v123 : BitVec 32 := Scalar.muli v120 c1_i32_83
  let v124 : BitVec 32 := Scalar.addi v122 v123
  v124.toNat
def k0_dev9 (d0 : Dev nD) : Nat :=
  let c0_i32_94 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_93 : BitVec 32 := 2#32
  let v140 : BitVec 32 := Scalar.muli v2 c2_i32_93
  let v141 : BitVec 32 := Scalar.addi c0_i32_94 v140
  let c1_i32_91 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v139 : BitVec 32 := Scalar.subi c1_i32_91 v5
  let c1_i32_95 : BitVec 32 := 1#32
  let v142 : BitVec 32 := Scalar.muli v139 c1_i32_95
  let v143 : BitVec 32 := Scalar.addi v141 v142
  v143.toNat
def k0_dev10 (d0 : Dev nD) : Nat :=
  let c0_i32_106 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_105 : BitVec 32 := 2#32
  let v159 : BitVec 32 := Scalar.muli v2 c2_i32_105
  let v160 : BitVec 32 := Scalar.addi c0_i32_106 v159
  let c1_i32_103 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v158 : BitVec 32 := Scalar.subi c1_i32_103 v5
  let c1_i32_107 : BitVec 32 := 1#32
  let v161 : BitVec 32 := Scalar.muli v158 c1_i32_107
  let v162 : BitVec 32 := Scalar.addi v160 v161
  v162.toNat
def k0_dev11 (d0 : Dev nD) : Nat :=
  let c0_i32_118 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_117 : BitVec 32 := 2#32
  let v178 : BitVec 32 := Scalar.muli v2 c2_i32_117
  let v179 : BitVec 32 := Scalar.addi c0_i32_118 v178
  let c1_i32_115 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v177 : BitVec 32 := Scalar.subi c1_i32_115 v5
  let c1_i32_119 : BitVec 32 := 1#32
  let v180 : BitVec 32 := Scalar.muli v177 c1_i32_119
  let v181 : BitVec 32 := Scalar.addi v179 v180
  v181.toNat
def k0_dev12 (d0 : Dev nD) : Nat :=
  let c0_i32_130 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_129 : BitVec 32 := 2#32
  let v197 : BitVec 32 := Scalar.muli v2 c2_i32_129
  let v198 : BitVec 32 := Scalar.addi c0_i32_130 v197
  let c1_i32_127 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v196 : BitVec 32 := Scalar.subi c1_i32_127 v5
  let c1_i32_131 : BitVec 32 := 1#32
  let v199 : BitVec 32 := Scalar.muli v196 c1_i32_131
  let v200 : BitVec 32 := Scalar.addi v198 v199
  v200.toNat
def k0_dev13 (d0 : Dev nD) : Nat :=
  let c0_i32_142 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_141 : BitVec 32 := 2#32
  let v216 : BitVec 32 := Scalar.muli v2 c2_i32_141
  let v217 : BitVec 32 := Scalar.addi c0_i32_142 v216
  let c1_i32_139 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v215 : BitVec 32 := Scalar.subi c1_i32_139 v5
  let c1_i32_143 : BitVec 32 := 1#32
  let v218 : BitVec 32 := Scalar.muli v215 c1_i32_143
  let v219 : BitVec 32 := Scalar.addi v217 v218
  v219.toNat
def k0_dev14 (d0 : Dev nD) : Nat :=
  let c0_i32_154 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_153 : BitVec 32 := 2#32
  let v235 : BitVec 32 := Scalar.muli v2 c2_i32_153
  let v236 : BitVec 32 := Scalar.addi c0_i32_154 v235
  let c1_i32_151 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v234 : BitVec 32 := Scalar.subi c1_i32_151 v5
  let c1_i32_155 : BitVec 32 := 1#32
  let v237 : BitVec 32 := Scalar.muli v234 c1_i32_155
  let v238 : BitVec 32 := Scalar.addi v236 v237
  v238.toNat
def k0_dev15 (d0 : Dev nD) : Nat :=
  let c0_i32_166 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_165 : BitVec 32 := 2#32
  let v254 : BitVec 32 := Scalar.muli v2 c2_i32_165
  let v255 : BitVec 32 := Scalar.addi c0_i32_166 v254
  let c1_i32_163 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v253 : BitVec 32 := Scalar.subi c1_i32_163 v5
  let c1_i32_167 : BitVec 32 := 1#32
  let v256 : BitVec 32 := Scalar.muli v253 c1_i32_167
  let v257 : BitVec 32 := Scalar.addi v255 v256
  v257.toNat
def k0_dev16 (d0 : Dev nD) : Nat :=
  let c0_i32_178 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_177 : BitVec 32 := 2#32
  let v273 : BitVec 32 := Scalar.muli v2 c2_i32_177
  let v274 : BitVec 32 := Scalar.addi c0_i32_178 v273
  let c1_i32_175 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v272 : BitVec 32 := Scalar.subi c1_i32_175 v5
  let c1_i32_179 : BitVec 32 := 1#32
  let v275 : BitVec 32 := Scalar.muli v272 c1_i32_179
  let v276 : BitVec 32 := Scalar.addi v274 v275
  v276.toNat
def k0_dev17 (d0 : Dev nD) : Nat :=
  let c0_i32_190 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_189 : BitVec 32 := 2#32
  let v292 : BitVec 32 := Scalar.muli v2 c2_i32_189
  let v293 : BitVec 32 := Scalar.addi c0_i32_190 v292
  let c1_i32_187 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v291 : BitVec 32 := Scalar.subi c1_i32_187 v5
  let c1_i32_191 : BitVec 32 := 1#32
  let v294 : BitVec 32 := Scalar.muli v291 c1_i32_191
  let v295 : BitVec 32 := Scalar.addi v293 v294
  v295.toNat
def k0_dev18 (d0 : Dev nD) : Nat :=
  let c0_i32_202 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_201 : BitVec 32 := 2#32
  let v311 : BitVec 32 := Scalar.muli v2 c2_i32_201
  let v312 : BitVec 32 := Scalar.addi c0_i32_202 v311
  let c1_i32_199 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v310 : BitVec 32 := Scalar.subi c1_i32_199 v5
  let c1_i32_203 : BitVec 32 := 1#32
  let v313 : BitVec 32 := Scalar.muli v310 c1_i32_203
  let v314 : BitVec 32 := Scalar.addi v312 v313
  v314.toNat
def k0_dev19 (d0 : Dev nD) : Nat :=
  let c0_i32_215 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_214 : BitVec 32 := 2#32
  let v330 : BitVec 32 := Scalar.muli v2 c2_i32_214
  let v331 : BitVec 32 := Scalar.addi c0_i32_215 v330
  let c1_i32_212 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v329 : BitVec 32 := Scalar.subi c1_i32_212 v5
  let c1_i32_216 : BitVec 32 := 1#32
  let v332 : BitVec 32 := Scalar.muli v329 c1_i32_216
  let v333 : BitVec 32 := Scalar.addi v331 v332
  v333.toNat
def k0_dev20 (d0 : Dev nD) : Nat :=
  let c0_i32_227 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_226 : BitVec 32 := 2#32
  let v349 : BitVec 32 := Scalar.muli v2 c2_i32_226
  let v350 : BitVec 32 := Scalar.addi c0_i32_227 v349
  let c1_i32_224 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v348 : BitVec 32 := Scalar.subi c1_i32_224 v5
  let c1_i32_228 : BitVec 32 := 1#32
  let v351 : BitVec 32 := Scalar.muli v348 c1_i32_228
  let v352 : BitVec 32 := Scalar.addi v350 v351
  v352.toNat
def k0_dev21 (d0 : Dev nD) : Nat :=
  let c0_i32_239 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_238 : BitVec 32 := 2#32
  let v368 : BitVec 32 := Scalar.muli v2 c2_i32_238
  let v369 : BitVec 32 := Scalar.addi c0_i32_239 v368
  let c1_i32_236 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v367 : BitVec 32 := Scalar.subi c1_i32_236 v5
  let c1_i32_240 : BitVec 32 := 1#32
  let v370 : BitVec 32 := Scalar.muli v367 c1_i32_240
  let v371 : BitVec 32 := Scalar.addi v369 v370
  v371.toNat
def k0_dev22 (d0 : Dev nD) : Nat :=
  let c0_i32_251 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_250 : BitVec 32 := 2#32
  let v387 : BitVec 32 := Scalar.muli v2 c2_i32_250
  let v388 : BitVec 32 := Scalar.addi c0_i32_251 v387
  let c1_i32_248 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v386 : BitVec 32 := Scalar.subi c1_i32_248 v5
  let c1_i32_252 : BitVec 32 := 1#32
  let v389 : BitVec 32 := Scalar.muli v386 c1_i32_252
  let v390 : BitVec 32 := Scalar.addi v388 v389
  v390.toNat
def k0_dev23 (d0 : Dev nD) : Nat :=
  let c0_i32_263 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_262 : BitVec 32 := 2#32
  let v406 : BitVec 32 := Scalar.muli v2 c2_i32_262
  let v407 : BitVec 32 := Scalar.addi c0_i32_263 v406
  let c1_i32_260 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v405 : BitVec 32 := Scalar.subi c1_i32_260 v5
  let c1_i32_264 : BitVec 32 := 1#32
  let v408 : BitVec 32 := Scalar.muli v405 c1_i32_264
  let v409 : BitVec 32 := Scalar.addi v407 v408
  v409.toNat
def k0_dev24 (d0 : Dev nD) : Nat :=
  let c0_i32_275 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_274 : BitVec 32 := 2#32
  let v425 : BitVec 32 := Scalar.muli v2 c2_i32_274
  let v426 : BitVec 32 := Scalar.addi c0_i32_275 v425
  let c1_i32_272 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v424 : BitVec 32 := Scalar.subi c1_i32_272 v5
  let c1_i32_276 : BitVec 32 := 1#32
  let v427 : BitVec 32 := Scalar.muli v424 c1_i32_276
  let v428 : BitVec 32 := Scalar.addi v426 v427
  v428.toNat
def k0_dev25 (d0 : Dev nD) : Nat :=
  let c0_i32_287 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_286 : BitVec 32 := 2#32
  let v444 : BitVec 32 := Scalar.muli v2 c2_i32_286
  let v445 : BitVec 32 := Scalar.addi c0_i32_287 v444
  let c1_i32_284 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v443 : BitVec 32 := Scalar.subi c1_i32_284 v5
  let c1_i32_288 : BitVec 32 := 1#32
  let v446 : BitVec 32 := Scalar.muli v443 c1_i32_288
  let v447 : BitVec 32 := Scalar.addi v445 v446
  v447.toNat
def k0_dev26 (d0 : Dev nD) : Nat :=
  let c0_i32_299 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_298 : BitVec 32 := 2#32
  let v463 : BitVec 32 := Scalar.muli v2 c2_i32_298
  let v464 : BitVec 32 := Scalar.addi c0_i32_299 v463
  let c1_i32_296 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v462 : BitVec 32 := Scalar.subi c1_i32_296 v5
  let c1_i32_300 : BitVec 32 := 1#32
  let v465 : BitVec 32 := Scalar.muli v462 c1_i32_300
  let v466 : BitVec 32 := Scalar.addi v464 v465
  v466.toNat
def k0_dev27 (d0 : Dev nD) : Nat :=
  let c0_i32_311 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_310 : BitVec 32 := 2#32
  let v482 : BitVec 32 := Scalar.muli v2 c2_i32_310
  let v483 : BitVec 32 := Scalar.addi c0_i32_311 v482
  let c1_i32_308 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v481 : BitVec 32 := Scalar.subi c1_i32_308 v5
  let c1_i32_312 : BitVec 32 := 1#32
  let v484 : BitVec 32 := Scalar.muli v481 c1_i32_312
  let v485 : BitVec 32 := Scalar.addi v483 v484
  v485.toNat
def k0_dev28 (d0 : Dev nD) : Nat :=
  let c0_i32_323 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_322 : BitVec 32 := 2#32
  let v501 : BitVec 32 := Scalar.muli v2 c2_i32_322
  let v502 : BitVec 32 := Scalar.addi c0_i32_323 v501
  let c1_i32_320 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v500 : BitVec 32 := Scalar.subi c1_i32_320 v5
  let c1_i32_324 : BitVec 32 := 1#32
  let v503 : BitVec 32 := Scalar.muli v500 c1_i32_324
  let v504 : BitVec 32 := Scalar.addi v502 v503
  v504.toNat
def k0_dev29 (d0 : Dev nD) : Nat :=
  let c0_i32_335 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_334 : BitVec 32 := 2#32
  let v520 : BitVec 32 := Scalar.muli v2 c2_i32_334
  let v521 : BitVec 32 := Scalar.addi c0_i32_335 v520
  let c1_i32_332 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v519 : BitVec 32 := Scalar.subi c1_i32_332 v5
  let c1_i32_336 : BitVec 32 := 1#32
  let v522 : BitVec 32 := Scalar.muli v519 c1_i32_336
  let v523 : BitVec 32 := Scalar.addi v521 v522
  v523.toNat
def k0_dev30 (d0 : Dev nD) : Nat :=
  let c0_i32_347 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_346 : BitVec 32 := 2#32
  let v539 : BitVec 32 := Scalar.muli v2 c2_i32_346
  let v540 : BitVec 32 := Scalar.addi c0_i32_347 v539
  let c1_i32_344 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v538 : BitVec 32 := Scalar.subi c1_i32_344 v5
  let c1_i32_348 : BitVec 32 := 1#32
  let v541 : BitVec 32 := Scalar.muli v538 c1_i32_348
  let v542 : BitVec 32 := Scalar.addi v540 v541
  v542.toNat
def k0_dev31 (d0 : Dev nD) : Nat :=
  let c0_i32_359 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_358 : BitVec 32 := 2#32
  let v558 : BitVec 32 := Scalar.muli v2 c2_i32_358
  let v559 : BitVec 32 := Scalar.addi c0_i32_359 v558
  let c1_i32_356 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v557 : BitVec 32 := Scalar.subi c1_i32_356 v5
  let c1_i32_360 : BitVec 32 := 1#32
  let v560 : BitVec 32 := Scalar.muli v557 c1_i32_360
  let v561 : BitVec 32 := Scalar.addi v559 v560
  v561.toNat
def k0_dev32 (d0 : Dev nD) : Nat :=
  let c0_i32_371 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_370 : BitVec 32 := 2#32
  let v577 : BitVec 32 := Scalar.muli v2 c2_i32_370
  let v578 : BitVec 32 := Scalar.addi c0_i32_371 v577
  let c1_i32_368 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v576 : BitVec 32 := Scalar.subi c1_i32_368 v5
  let c1_i32_372 : BitVec 32 := 1#32
  let v579 : BitVec 32 := Scalar.muli v576 c1_i32_372
  let v580 : BitVec 32 := Scalar.addi v578 v579
  v580.toNat
def k0_dev33 (d0 : Dev nD) : Nat :=
  let c0_i32_383 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_382 : BitVec 32 := 2#32
  let v596 : BitVec 32 := Scalar.muli v2 c2_i32_382
  let v597 : BitVec 32 := Scalar.addi c0_i32_383 v596
  let c1_i32_380 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v595 : BitVec 32 := Scalar.subi c1_i32_380 v5
  let c1_i32_384 : BitVec 32 := 1#32
  let v598 : BitVec 32 := Scalar.muli v595 c1_i32_384
  let v599 : BitVec 32 := Scalar.addi v597 v598
  v599.toNat
def k0_dev34 (d0 : Dev nD) : Nat :=
  let c0_i32_395 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_394 : BitVec 32 := 2#32
  let v615 : BitVec 32 := Scalar.muli v2 c2_i32_394
  let v616 : BitVec 32 := Scalar.addi c0_i32_395 v615
  let c1_i32_392 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v614 : BitVec 32 := Scalar.subi c1_i32_392 v5
  let c1_i32_396 : BitVec 32 := 1#32
  let v617 : BitVec 32 := Scalar.muli v614 c1_i32_396
  let v618 : BitVec 32 := Scalar.addi v616 v617
  v618.toNat
def k0_dev35 (d0 : Dev nD) : Nat :=
  let c0_i32_407 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_406 : BitVec 32 := 2#32
  let v634 : BitVec 32 := Scalar.muli v2 c2_i32_406
  let v635 : BitVec 32 := Scalar.addi c0_i32_407 v634
  let c1_i32_404 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v633 : BitVec 32 := Scalar.subi c1_i32_404 v5
  let c1_i32_408 : BitVec 32 := 1#32
  let v636 : BitVec 32 := Scalar.muli v633 c1_i32_408
  let v637 : BitVec 32 := Scalar.addi v635 v636
  v637.toNat
def k0_dev36 (d0 : Dev nD) : Nat :=
  let c0_i32_419 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_418 : BitVec 32 := 2#32
  let v653 : BitVec 32 := Scalar.muli v2 c2_i32_418
  let v654 : BitVec 32 := Scalar.addi c0_i32_419 v653
  let c1_i32_416 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v652 : BitVec 32 := Scalar.subi c1_i32_416 v5
  let c1_i32_420 : BitVec 32 := 1#32
  let v655 : BitVec 32 := Scalar.muli v652 c1_i32_420
  let v656 : BitVec 32 := Scalar.addi v654 v655
  v656.toNat
def k0_dev37 (d0 : Dev nD) : Nat :=
  let c0_i32_431 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_430 : BitVec 32 := 2#32
  let v672 : BitVec 32 := Scalar.muli v2 c2_i32_430
  let v673 : BitVec 32 := Scalar.addi c0_i32_431 v672
  let c1_i32_428 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v671 : BitVec 32 := Scalar.subi c1_i32_428 v5
  let c1_i32_432 : BitVec 32 := 1#32
  let v674 : BitVec 32 := Scalar.muli v671 c1_i32_432
  let v675 : BitVec 32 := Scalar.addi v673 v674
  v675.toNat
def k0_dev38 (d0 : Dev nD) : Nat :=
  let c0_i32_443 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_442 : BitVec 32 := 2#32
  let v691 : BitVec 32 := Scalar.muli v2 c2_i32_442
  let v692 : BitVec 32 := Scalar.addi c0_i32_443 v691
  let c1_i32_440 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v690 : BitVec 32 := Scalar.subi c1_i32_440 v5
  let c1_i32_444 : BitVec 32 := 1#32
  let v693 : BitVec 32 := Scalar.muli v690 c1_i32_444
  let v694 : BitVec 32 := Scalar.addi v692 v693
  v694.toNat
def k0_dev39 (d0 : Dev nD) : Nat :=
  let c0_i32_455 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_454 : BitVec 32 := 2#32
  let v710 : BitVec 32 := Scalar.muli v2 c2_i32_454
  let v711 : BitVec 32 := Scalar.addi c0_i32_455 v710
  let c1_i32_452 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v709 : BitVec 32 := Scalar.subi c1_i32_452 v5
  let c1_i32_456 : BitVec 32 := 1#32
  let v712 : BitVec 32 := Scalar.muli v709 c1_i32_456
  let v713 : BitVec 32 := Scalar.addi v711 v712
  v713.toNat
def k0_dev40 (d0 : Dev nD) : Nat :=
  let c0_i32_467 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_466 : BitVec 32 := 2#32
  let v729 : BitVec 32 := Scalar.muli v2 c2_i32_466
  let v730 : BitVec 32 := Scalar.addi c0_i32_467 v729
  let c1_i32_464 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v728 : BitVec 32 := Scalar.subi c1_i32_464 v5
  let c1_i32_468 : BitVec 32 := 1#32
  let v731 : BitVec 32 := Scalar.muli v728 c1_i32_468
  let v732 : BitVec 32 := Scalar.addi v730 v731
  v732.toNat
def k0_dev41 (d0 : Dev nD) : Nat :=
  let c0_i32_479 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_478 : BitVec 32 := 2#32
  let v748 : BitVec 32 := Scalar.muli v2 c2_i32_478
  let v749 : BitVec 32 := Scalar.addi c0_i32_479 v748
  let c1_i32_476 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v747 : BitVec 32 := Scalar.subi c1_i32_476 v5
  let c1_i32_480 : BitVec 32 := 1#32
  let v750 : BitVec 32 := Scalar.muli v747 c1_i32_480
  let v751 : BitVec 32 := Scalar.addi v749 v750
  v751.toNat
def k0_dev42 (d0 : Dev nD) : Nat :=
  let c0_i32_491 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_490 : BitVec 32 := 2#32
  let v767 : BitVec 32 := Scalar.muli v2 c2_i32_490
  let v768 : BitVec 32 := Scalar.addi c0_i32_491 v767
  let c1_i32_488 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v766 : BitVec 32 := Scalar.subi c1_i32_488 v5
  let c1_i32_492 : BitVec 32 := 1#32
  let v769 : BitVec 32 := Scalar.muli v766 c1_i32_492
  let v770 : BitVec 32 := Scalar.addi v768 v769
  v770.toNat
def k0_dev43 (d0 : Dev nD) : Nat :=
  let c0_i32_503 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_502 : BitVec 32 := 2#32
  let v786 : BitVec 32 := Scalar.muli v2 c2_i32_502
  let v787 : BitVec 32 := Scalar.addi c0_i32_503 v786
  let c1_i32_500 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v785 : BitVec 32 := Scalar.subi c1_i32_500 v5
  let c1_i32_504 : BitVec 32 := 1#32
  let v788 : BitVec 32 := Scalar.muli v785 c1_i32_504
  let v789 : BitVec 32 := Scalar.addi v787 v788
  v789.toNat
def k0_dev44 (d0 : Dev nD) : Nat :=
  let c0_i32_515 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_514 : BitVec 32 := 2#32
  let v805 : BitVec 32 := Scalar.muli v2 c2_i32_514
  let v806 : BitVec 32 := Scalar.addi c0_i32_515 v805
  let c1_i32_512 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v804 : BitVec 32 := Scalar.subi c1_i32_512 v5
  let c1_i32_516 : BitVec 32 := 1#32
  let v807 : BitVec 32 := Scalar.muli v804 c1_i32_516
  let v808 : BitVec 32 := Scalar.addi v806 v807
  v808.toNat
def k0_dev45 (d0 : Dev nD) : Nat :=
  let c0_i32_527 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_526 : BitVec 32 := 2#32
  let v824 : BitVec 32 := Scalar.muli v2 c2_i32_526
  let v825 : BitVec 32 := Scalar.addi c0_i32_527 v824
  let c1_i32_524 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v823 : BitVec 32 := Scalar.subi c1_i32_524 v5
  let c1_i32_528 : BitVec 32 := 1#32
  let v826 : BitVec 32 := Scalar.muli v823 c1_i32_528
  let v827 : BitVec 32 := Scalar.addi v825 v826
  v827.toNat
def k0_dev46 (d0 : Dev nD) : Nat :=
  let c0_i32_539 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_538 : BitVec 32 := 2#32
  let v843 : BitVec 32 := Scalar.muli v2 c2_i32_538
  let v844 : BitVec 32 := Scalar.addi c0_i32_539 v843
  let c1_i32_536 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v842 : BitVec 32 := Scalar.subi c1_i32_536 v5
  let c1_i32_540 : BitVec 32 := 1#32
  let v845 : BitVec 32 := Scalar.muli v842 c1_i32_540
  let v846 : BitVec 32 := Scalar.addi v844 v845
  v846.toNat
def k0_dev47 (d0 : Dev nD) : Nat :=
  let c0_i32_551 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_550 : BitVec 32 := 2#32
  let v862 : BitVec 32 := Scalar.muli v2 c2_i32_550
  let v863 : BitVec 32 := Scalar.addi c0_i32_551 v862
  let c1_i32_548 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v861 : BitVec 32 := Scalar.subi c1_i32_548 v5
  let c1_i32_552 : BitVec 32 := 1#32
  let v864 : BitVec 32 := Scalar.muli v861 c1_i32_552
  let v865 : BitVec 32 := Scalar.addi v863 v864
  v865.toNat
def k0_dev48 (d0 : Dev nD) : Nat :=
  let c0_i32_563 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_562 : BitVec 32 := 2#32
  let v881 : BitVec 32 := Scalar.muli v2 c2_i32_562
  let v882 : BitVec 32 := Scalar.addi c0_i32_563 v881
  let c1_i32_560 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v880 : BitVec 32 := Scalar.subi c1_i32_560 v5
  let c1_i32_564 : BitVec 32 := 1#32
  let v883 : BitVec 32 := Scalar.muli v880 c1_i32_564
  let v884 : BitVec 32 := Scalar.addi v882 v883
  v884.toNat
def k0_dev49 (d0 : Dev nD) : Nat :=
  let c0_i32_575 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_574 : BitVec 32 := 2#32
  let v900 : BitVec 32 := Scalar.muli v2 c2_i32_574
  let v901 : BitVec 32 := Scalar.addi c0_i32_575 v900
  let c1_i32_572 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v899 : BitVec 32 := Scalar.subi c1_i32_572 v5
  let c1_i32_576 : BitVec 32 := 1#32
  let v902 : BitVec 32 := Scalar.muli v899 c1_i32_576
  let v903 : BitVec 32 := Scalar.addi v901 v902
  v903.toNat
def k0_dev50 (d0 : Dev nD) : Nat :=
  let c0_i32_587 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_586 : BitVec 32 := 2#32
  let v919 : BitVec 32 := Scalar.muli v2 c2_i32_586
  let v920 : BitVec 32 := Scalar.addi c0_i32_587 v919
  let c1_i32_584 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v918 : BitVec 32 := Scalar.subi c1_i32_584 v5
  let c1_i32_588 : BitVec 32 := 1#32
  let v921 : BitVec 32 := Scalar.muli v918 c1_i32_588
  let v922 : BitVec 32 := Scalar.addi v920 v921
  v922.toNat
def k0_dev51 (d0 : Dev nD) : Nat :=
  let c0_i32_599 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_598 : BitVec 32 := 2#32
  let v938 : BitVec 32 := Scalar.muli v2 c2_i32_598
  let v939 : BitVec 32 := Scalar.addi c0_i32_599 v938
  let c1_i32_596 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v937 : BitVec 32 := Scalar.subi c1_i32_596 v5
  let c1_i32_600 : BitVec 32 := 1#32
  let v940 : BitVec 32 := Scalar.muli v937 c1_i32_600
  let v941 : BitVec 32 := Scalar.addi v939 v940
  v941.toNat
def k0_dev52 (d0 : Dev nD) : Nat :=
  let c0_i32_611 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_610 : BitVec 32 := 2#32
  let v957 : BitVec 32 := Scalar.muli v2 c2_i32_610
  let v958 : BitVec 32 := Scalar.addi c0_i32_611 v957
  let c1_i32_608 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v956 : BitVec 32 := Scalar.subi c1_i32_608 v5
  let c1_i32_612 : BitVec 32 := 1#32
  let v959 : BitVec 32 := Scalar.muli v956 c1_i32_612
  let v960 : BitVec 32 := Scalar.addi v958 v959
  v960.toNat
def k0_dev53 (d0 : Dev nD) : Nat :=
  let c0_i32_623 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_622 : BitVec 32 := 2#32
  let v976 : BitVec 32 := Scalar.muli v2 c2_i32_622
  let v977 : BitVec 32 := Scalar.addi c0_i32_623 v976
  let c1_i32_620 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v975 : BitVec 32 := Scalar.subi c1_i32_620 v5
  let c1_i32_624 : BitVec 32 := 1#32
  let v978 : BitVec 32 := Scalar.muli v975 c1_i32_624
  let v979 : BitVec 32 := Scalar.addi v977 v978
  v979.toNat
def k0_dev54 (d0 : Dev nD) : Nat :=
  let c0_i32_635 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_634 : BitVec 32 := 2#32
  let v995 : BitVec 32 := Scalar.muli v2 c2_i32_634
  let v996 : BitVec 32 := Scalar.addi c0_i32_635 v995
  let c1_i32_632 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v994 : BitVec 32 := Scalar.subi c1_i32_632 v5
  let c1_i32_636 : BitVec 32 := 1#32
  let v997 : BitVec 32 := Scalar.muli v994 c1_i32_636
  let v998 : BitVec 32 := Scalar.addi v996 v997
  v998.toNat
def k0_dev55 (d0 : Dev nD) : Nat :=
  let c0_i32_647 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_646 : BitVec 32 := 2#32
  let v1014 : BitVec 32 := Scalar.muli v2 c2_i32_646
  let v1015 : BitVec 32 := Scalar.addi c0_i32_647 v1014
  let c1_i32_644 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1013 : BitVec 32 := Scalar.subi c1_i32_644 v5
  let c1_i32_648 : BitVec 32 := 1#32
  let v1016 : BitVec 32 := Scalar.muli v1013 c1_i32_648
  let v1017 : BitVec 32 := Scalar.addi v1015 v1016
  v1017.toNat
def k0_dev56 (d0 : Dev nD) : Nat :=
  let c0_i32_659 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_658 : BitVec 32 := 2#32
  let v1033 : BitVec 32 := Scalar.muli v2 c2_i32_658
  let v1034 : BitVec 32 := Scalar.addi c0_i32_659 v1033
  let c1_i32_656 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1032 : BitVec 32 := Scalar.subi c1_i32_656 v5
  let c1_i32_660 : BitVec 32 := 1#32
  let v1035 : BitVec 32 := Scalar.muli v1032 c1_i32_660
  let v1036 : BitVec 32 := Scalar.addi v1034 v1035
  v1036.toNat
def k0_dev57 (d0 : Dev nD) : Nat :=
  let c0_i32_671 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_670 : BitVec 32 := 2#32
  let v1052 : BitVec 32 := Scalar.muli v2 c2_i32_670
  let v1053 : BitVec 32 := Scalar.addi c0_i32_671 v1052
  let c1_i32_668 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1051 : BitVec 32 := Scalar.subi c1_i32_668 v5
  let c1_i32_672 : BitVec 32 := 1#32
  let v1054 : BitVec 32 := Scalar.muli v1051 c1_i32_672
  let v1055 : BitVec 32 := Scalar.addi v1053 v1054
  v1055.toNat
def k0_dev58 (d0 : Dev nD) : Nat :=
  let c0_i32_683 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_682 : BitVec 32 := 2#32
  let v1071 : BitVec 32 := Scalar.muli v2 c2_i32_682
  let v1072 : BitVec 32 := Scalar.addi c0_i32_683 v1071
  let c1_i32_680 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1070 : BitVec 32 := Scalar.subi c1_i32_680 v5
  let c1_i32_684 : BitVec 32 := 1#32
  let v1073 : BitVec 32 := Scalar.muli v1070 c1_i32_684
  let v1074 : BitVec 32 := Scalar.addi v1072 v1073
  v1074.toNat
def k0_dev59 (d0 : Dev nD) : Nat :=
  let c0_i32_695 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_694 : BitVec 32 := 2#32
  let v1090 : BitVec 32 := Scalar.muli v2 c2_i32_694
  let v1091 : BitVec 32 := Scalar.addi c0_i32_695 v1090
  let c1_i32_692 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1089 : BitVec 32 := Scalar.subi c1_i32_692 v5
  let c1_i32_696 : BitVec 32 := 1#32
  let v1092 : BitVec 32 := Scalar.muli v1089 c1_i32_696
  let v1093 : BitVec 32 := Scalar.addi v1091 v1092
  v1093.toNat
def k0_dev60 (d0 : Dev nD) : Nat :=
  let c0_i32_707 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_706 : BitVec 32 := 2#32
  let v1109 : BitVec 32 := Scalar.muli v2 c2_i32_706
  let v1110 : BitVec 32 := Scalar.addi c0_i32_707 v1109
  let c1_i32_704 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1108 : BitVec 32 := Scalar.subi c1_i32_704 v5
  let c1_i32_708 : BitVec 32 := 1#32
  let v1111 : BitVec 32 := Scalar.muli v1108 c1_i32_708
  let v1112 : BitVec 32 := Scalar.addi v1110 v1111
  v1112.toNat
def k0_dev61 (d0 : Dev nD) : Nat :=
  let c0_i32_719 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_718 : BitVec 32 := 2#32
  let v1128 : BitVec 32 := Scalar.muli v2 c2_i32_718
  let v1129 : BitVec 32 := Scalar.addi c0_i32_719 v1128
  let c1_i32_716 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1127 : BitVec 32 := Scalar.subi c1_i32_716 v5
  let c1_i32_720 : BitVec 32 := 1#32
  let v1130 : BitVec 32 := Scalar.muli v1127 c1_i32_720
  let v1131 : BitVec 32 := Scalar.addi v1129 v1130
  v1131.toNat
def k0_dev62 (d0 : Dev nD) : Nat :=
  let c0_i32_731 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_730 : BitVec 32 := 2#32
  let v1147 : BitVec 32 := Scalar.muli v2 c2_i32_730
  let v1148 : BitVec 32 := Scalar.addi c0_i32_731 v1147
  let c1_i32_728 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1146 : BitVec 32 := Scalar.subi c1_i32_728 v5
  let c1_i32_732 : BitVec 32 := 1#32
  let v1149 : BitVec 32 := Scalar.muli v1146 c1_i32_732
  let v1150 : BitVec 32 := Scalar.addi v1148 v1149
  v1150.toNat
def k0_dev63 (d0 : Dev nD) : Nat :=
  let c0_i32_743 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_742 : BitVec 32 := 2#32
  let v1166 : BitVec 32 := Scalar.muli v2 c2_i32_742
  let v1167 : BitVec 32 := Scalar.addi c0_i32_743 v1166
  let c1_i32_740 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1165 : BitVec 32 := Scalar.subi c1_i32_740 v5
  let c1_i32_744 : BitVec 32 := 1#32
  let v1168 : BitVec 32 := Scalar.muli v1165 c1_i32_744
  let v1169 : BitVec 32 := Scalar.addi v1167 v1168
  v1169.toNat
def k0_dev64 (d0 : Dev nD) : Nat :=
  let c0_i32_755 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_754 : BitVec 32 := 2#32
  let v1185 : BitVec 32 := Scalar.muli v2 c2_i32_754
  let v1186 : BitVec 32 := Scalar.addi c0_i32_755 v1185
  let c1_i32_752 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1184 : BitVec 32 := Scalar.subi c1_i32_752 v5
  let c1_i32_756 : BitVec 32 := 1#32
  let v1187 : BitVec 32 := Scalar.muli v1184 c1_i32_756
  let v1188 : BitVec 32 := Scalar.addi v1186 v1187
  v1188.toNat
def k0_dev65 (d0 : Dev nD) : Nat :=
  let c0_i32_767 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_766 : BitVec 32 := 2#32
  let v1204 : BitVec 32 := Scalar.muli v2 c2_i32_766
  let v1205 : BitVec 32 := Scalar.addi c0_i32_767 v1204
  let c1_i32_764 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1203 : BitVec 32 := Scalar.subi c1_i32_764 v5
  let c1_i32_768 : BitVec 32 := 1#32
  let v1206 : BitVec 32 := Scalar.muli v1203 c1_i32_768
  let v1207 : BitVec 32 := Scalar.addi v1205 v1206
  v1207.toNat
def k0_dev66 (d0 : Dev nD) : Nat :=
  let c0_i32_779 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_778 : BitVec 32 := 2#32
  let v1223 : BitVec 32 := Scalar.muli v2 c2_i32_778
  let v1224 : BitVec 32 := Scalar.addi c0_i32_779 v1223
  let c1_i32_776 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1222 : BitVec 32 := Scalar.subi c1_i32_776 v5
  let c1_i32_780 : BitVec 32 := 1#32
  let v1225 : BitVec 32 := Scalar.muli v1222 c1_i32_780
  let v1226 : BitVec 32 := Scalar.addi v1224 v1225
  v1226.toNat
def k0_off3 (d0 : Dev nD) (c0_i32_791 : BitVec 32) : Fin 2 → Nat :=
  let c1_i32_788 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1241 : BitVec 32 := Scalar.subi c1_i32_788 v5
  let c8192_i32_789 : BitVec 32 := 8192#32
  let v1242 : BitVec 32 := Scalar.muli v1241 c8192_i32_789
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32_790 : BitVec 32 := 4096#32
  let v1243 : BitVec 32 := Scalar.muli v2 c4096_i32_790
  let v1244 : BitVec 32 := Scalar.addi v1242 v1243
  let v1245 : BitVec 32 := Scalar.addi v1244 c0_i32_791
  let c0_i32_798 : BitVec 32 := 0#32
  ![v1245.toNat, 0]
def k0_dev67 (d0 : Dev nD) : Nat :=
  let c0_i32_796 : BitVec 32 := 0#32
  let c1_i32_792 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1246 : BitVec 32 := Scalar.subi c1_i32_792 v2
  let c2_i32_795 : BitVec 32 := 2#32
  let v1247 : BitVec 32 := Scalar.muli v1246 c2_i32_795
  let v1248 : BitVec 32 := Scalar.addi c0_i32_796 v1247
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_797 : BitVec 32 := 1#32
  let v1249 : BitVec 32 := Scalar.muli v5 c1_i32_797
  let v1250 : BitVec 32 := Scalar.addi v1248 v1249
  v1250.toNat
def k0_off4 (d0 : Dev nD) : Fin 2 → Nat :=
  let c0_i32_805 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_800 : BitVec 32 := 1024#32
  let v1257 : BitVec 32 := Scalar.muli v5 c1024_i32_800
  ![0, v1257.toNat]
def k0_off5 (d0 : Dev nD) (c0_i32_812 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8192_i32_811 : BitVec 32 := 8192#32
  let v1268 : BitVec 32 := Scalar.muli v5 c8192_i32_811
  let v1269 : BitVec 32 := Scalar.addi v1268 c0_i32_812
  let c0_i32_815 : BitVec 32 := 0#32
  ![v1269.toNat, 0]
def k0_dev68 (d0 : Dev nD) : Nat :=
  let c0_i32_832 : BitVec 32 := 0#32
  let c1_i32_828 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1288 : BitVec 32 := Scalar.subi c1_i32_828 v2
  let c2_i32_831 : BitVec 32 := 2#32
  let v1289 : BitVec 32 := Scalar.muli v1288 c2_i32_831
  let v1290 : BitVec 32 := Scalar.addi c0_i32_832 v1289
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_833 : BitVec 32 := 1#32
  let v1291 : BitVec 32 := Scalar.muli v5 c1_i32_833
  let v1292 : BitVec 32 := Scalar.addi v1290 v1291
  v1292.toNat
def k0_dev69 (d0 : Dev nD) : Nat :=
  let c0_i32_850 : BitVec 32 := 0#32
  let c1_i32_846 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1312 : BitVec 32 := Scalar.subi c1_i32_846 v2
  let c2_i32_849 : BitVec 32 := 2#32
  let v1313 : BitVec 32 := Scalar.muli v1312 c2_i32_849
  let v1314 : BitVec 32 := Scalar.addi c0_i32_850 v1313
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_851 : BitVec 32 := 1#32
  let v1315 : BitVec 32 := Scalar.muli v5 c1_i32_851
  let v1316 : BitVec 32 := Scalar.addi v1314 v1315
  v1316.toNat
def k0_dev70 (d0 : Dev nD) : Nat :=
  let c0_i32_868 : BitVec 32 := 0#32
  let c1_i32_864 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1336 : BitVec 32 := Scalar.subi c1_i32_864 v2
  let c2_i32_867 : BitVec 32 := 2#32
  let v1337 : BitVec 32 := Scalar.muli v1336 c2_i32_867
  let v1338 : BitVec 32 := Scalar.addi c0_i32_868 v1337
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_869 : BitVec 32 := 1#32
  let v1339 : BitVec 32 := Scalar.muli v5 c1_i32_869
  let v1340 : BitVec 32 := Scalar.addi v1338 v1339
  v1340.toNat
def k0_dev71 (d0 : Dev nD) : Nat :=
  let c0_i32_886 : BitVec 32 := 0#32
  let c1_i32_882 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1360 : BitVec 32 := Scalar.subi c1_i32_882 v2
  let c2_i32_885 : BitVec 32 := 2#32
  let v1361 : BitVec 32 := Scalar.muli v1360 c2_i32_885
  let v1362 : BitVec 32 := Scalar.addi c0_i32_886 v1361
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_887 : BitVec 32 := 1#32
  let v1363 : BitVec 32 := Scalar.muli v5 c1_i32_887
  let v1364 : BitVec 32 := Scalar.addi v1362 v1363
  v1364.toNat
def k0_off6 (d0 : Dev nD) : Fin 2 → Nat :=
  let c512_i32_895 : BitVec 32 := 512#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_890 : BitVec 32 := 1024#32
  let v1371 : BitVec 32 := Scalar.muli v5 c1024_i32_890
  ![512, v1371.toNat]
def k0_dev72 (d0 : Dev nD) : Nat :=
  let c0_i32_922 : BitVec 32 := 0#32
  let c1_i32_918 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1402 : BitVec 32 := Scalar.subi c1_i32_918 v2
  let c2_i32_921 : BitVec 32 := 2#32
  let v1403 : BitVec 32 := Scalar.muli v1402 c2_i32_921
  let v1404 : BitVec 32 := Scalar.addi c0_i32_922 v1403
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_923 : BitVec 32 := 1#32
  let v1405 : BitVec 32 := Scalar.muli v5 c1_i32_923
  let v1406 : BitVec 32 := Scalar.addi v1404 v1405
  v1406.toNat
def k0_dev73 (d0 : Dev nD) : Nat :=
  let c0_i32_940 : BitVec 32 := 0#32
  let c1_i32_936 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1426 : BitVec 32 := Scalar.subi c1_i32_936 v2
  let c2_i32_939 : BitVec 32 := 2#32
  let v1427 : BitVec 32 := Scalar.muli v1426 c2_i32_939
  let v1428 : BitVec 32 := Scalar.addi c0_i32_940 v1427
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_941 : BitVec 32 := 1#32
  let v1429 : BitVec 32 := Scalar.muli v5 c1_i32_941
  let v1430 : BitVec 32 := Scalar.addi v1428 v1429
  v1430.toNat
def k0_dev74 (d0 : Dev nD) : Nat :=
  let c0_i32_958 : BitVec 32 := 0#32
  let c1_i32_954 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1450 : BitVec 32 := Scalar.subi c1_i32_954 v2
  let c2_i32_957 : BitVec 32 := 2#32
  let v1451 : BitVec 32 := Scalar.muli v1450 c2_i32_957
  let v1452 : BitVec 32 := Scalar.addi c0_i32_958 v1451
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_959 : BitVec 32 := 1#32
  let v1453 : BitVec 32 := Scalar.muli v5 c1_i32_959
  let v1454 : BitVec 32 := Scalar.addi v1452 v1453
  v1454.toNat
def k0_dev75 (d0 : Dev nD) : Nat :=
  let c0_i32_976 : BitVec 32 := 0#32
  let c1_i32_972 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1474 : BitVec 32 := Scalar.subi c1_i32_972 v2
  let c2_i32_975 : BitVec 32 := 2#32
  let v1475 : BitVec 32 := Scalar.muli v1474 c2_i32_975
  let v1476 : BitVec 32 := Scalar.addi c0_i32_976 v1475
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_977 : BitVec 32 := 1#32
  let v1477 : BitVec 32 := Scalar.muli v5 c1_i32_977
  let v1478 : BitVec 32 := Scalar.addi v1476 v1477
  v1478.toNat
def k0_off7 (d0 : Dev nD) : Fin 2 → Nat :=
  let c1024_i32_990 : BitVec 32 := 1024#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_980 : BitVec 32 := 1024#32
  let v1485 : BitVec 32 := Scalar.muli v5 c1024_i32_980
  ![1024, v1485.toNat]
def k0_dev76 (d0 : Dev nD) : Nat :=
  let c0_i32_1017 : BitVec 32 := 0#32
  let c1_i32_1013 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1521 : BitVec 32 := Scalar.subi c1_i32_1013 v2
  let c2_i32_1016 : BitVec 32 := 2#32
  let v1522 : BitVec 32 := Scalar.muli v1521 c2_i32_1016
  let v1523 : BitVec 32 := Scalar.addi c0_i32_1017 v1522
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1018 : BitVec 32 := 1#32
  let v1524 : BitVec 32 := Scalar.muli v5 c1_i32_1018
  let v1525 : BitVec 32 := Scalar.addi v1523 v1524
  v1525.toNat
def k0_dev77 (d0 : Dev nD) : Nat :=
  let c0_i32_1035 : BitVec 32 := 0#32
  let c1_i32_1031 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1545 : BitVec 32 := Scalar.subi c1_i32_1031 v2
  let c2_i32_1034 : BitVec 32 := 2#32
  let v1546 : BitVec 32 := Scalar.muli v1545 c2_i32_1034
  let v1547 : BitVec 32 := Scalar.addi c0_i32_1035 v1546
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1036 : BitVec 32 := 1#32
  let v1548 : BitVec 32 := Scalar.muli v5 c1_i32_1036
  let v1549 : BitVec 32 := Scalar.addi v1547 v1548
  v1549.toNat
def k0_dev78 (d0 : Dev nD) : Nat :=
  let c0_i32_1053 : BitVec 32 := 0#32
  let c1_i32_1049 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1569 : BitVec 32 := Scalar.subi c1_i32_1049 v2
  let c2_i32_1052 : BitVec 32 := 2#32
  let v1570 : BitVec 32 := Scalar.muli v1569 c2_i32_1052
  let v1571 : BitVec 32 := Scalar.addi c0_i32_1053 v1570
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1054 : BitVec 32 := 1#32
  let v1572 : BitVec 32 := Scalar.muli v5 c1_i32_1054
  let v1573 : BitVec 32 := Scalar.addi v1571 v1572
  v1573.toNat
def k0_dev79 (d0 : Dev nD) : Nat :=
  let c0_i32_1071 : BitVec 32 := 0#32
  let c1_i32_1067 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1593 : BitVec 32 := Scalar.subi c1_i32_1067 v2
  let c2_i32_1070 : BitVec 32 := 2#32
  let v1594 : BitVec 32 := Scalar.muli v1593 c2_i32_1070
  let v1595 : BitVec 32 := Scalar.addi c0_i32_1071 v1594
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1072 : BitVec 32 := 1#32
  let v1596 : BitVec 32 := Scalar.muli v5 c1_i32_1072
  let v1597 : BitVec 32 := Scalar.addi v1595 v1596
  v1597.toNat
def k0_off8 (d0 : Dev nD) : Fin 2 → Nat :=
  let c1536_i32_1085 : BitVec 32 := 1536#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_1075 : BitVec 32 := 1024#32
  let v1604 : BitVec 32 := Scalar.muli v5 c1024_i32_1075
  ![1536, v1604.toNat]
def k0_dev80 (d0 : Dev nD) : Nat :=
  let c0_i32_1112 : BitVec 32 := 0#32
  let c1_i32_1108 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1640 : BitVec 32 := Scalar.subi c1_i32_1108 v2
  let c2_i32_1111 : BitVec 32 := 2#32
  let v1641 : BitVec 32 := Scalar.muli v1640 c2_i32_1111
  let v1642 : BitVec 32 := Scalar.addi c0_i32_1112 v1641
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1113 : BitVec 32 := 1#32
  let v1643 : BitVec 32 := Scalar.muli v5 c1_i32_1113
  let v1644 : BitVec 32 := Scalar.addi v1642 v1643
  v1644.toNat
def k0_dev81 (d0 : Dev nD) : Nat :=
  let c0_i32_1130 : BitVec 32 := 0#32
  let c1_i32_1126 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1664 : BitVec 32 := Scalar.subi c1_i32_1126 v2
  let c2_i32_1129 : BitVec 32 := 2#32
  let v1665 : BitVec 32 := Scalar.muli v1664 c2_i32_1129
  let v1666 : BitVec 32 := Scalar.addi c0_i32_1130 v1665
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1131 : BitVec 32 := 1#32
  let v1667 : BitVec 32 := Scalar.muli v5 c1_i32_1131
  let v1668 : BitVec 32 := Scalar.addi v1666 v1667
  v1668.toNat
def k0_dev82 (d0 : Dev nD) : Nat :=
  let c0_i32_1148 : BitVec 32 := 0#32
  let c1_i32_1144 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1688 : BitVec 32 := Scalar.subi c1_i32_1144 v2
  let c2_i32_1147 : BitVec 32 := 2#32
  let v1689 : BitVec 32 := Scalar.muli v1688 c2_i32_1147
  let v1690 : BitVec 32 := Scalar.addi c0_i32_1148 v1689
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1149 : BitVec 32 := 1#32
  let v1691 : BitVec 32 := Scalar.muli v5 c1_i32_1149
  let v1692 : BitVec 32 := Scalar.addi v1690 v1691
  v1692.toNat
def k0_dev83 (d0 : Dev nD) : Nat :=
  let c0_i32_1166 : BitVec 32 := 0#32
  let c1_i32_1162 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1712 : BitVec 32 := Scalar.subi c1_i32_1162 v2
  let c2_i32_1165 : BitVec 32 := 2#32
  let v1713 : BitVec 32 := Scalar.muli v1712 c2_i32_1165
  let v1714 : BitVec 32 := Scalar.addi c0_i32_1166 v1713
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1167 : BitVec 32 := 1#32
  let v1715 : BitVec 32 := Scalar.muli v5 c1_i32_1167
  let v1716 : BitVec 32 := Scalar.addi v1714 v1715
  v1716.toNat
def k0_off9 (d0 : Dev nD) : Fin 2 → Nat :=
  let c2048_i32_1180 : BitVec 32 := 2048#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_1170 : BitVec 32 := 1024#32
  let v1723 : BitVec 32 := Scalar.muli v5 c1024_i32_1170
  ![2048, v1723.toNat]
def k0_dev84 (d0 : Dev nD) : Nat :=
  let c0_i32_1207 : BitVec 32 := 0#32
  let c1_i32_1203 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1759 : BitVec 32 := Scalar.subi c1_i32_1203 v2
  let c2_i32_1206 : BitVec 32 := 2#32
  let v1760 : BitVec 32 := Scalar.muli v1759 c2_i32_1206
  let v1761 : BitVec 32 := Scalar.addi c0_i32_1207 v1760
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1208 : BitVec 32 := 1#32
  let v1762 : BitVec 32 := Scalar.muli v5 c1_i32_1208
  let v1763 : BitVec 32 := Scalar.addi v1761 v1762
  v1763.toNat
def k0_dev85 (d0 : Dev nD) : Nat :=
  let c0_i32_1225 : BitVec 32 := 0#32
  let c1_i32_1221 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1783 : BitVec 32 := Scalar.subi c1_i32_1221 v2
  let c2_i32_1224 : BitVec 32 := 2#32
  let v1784 : BitVec 32 := Scalar.muli v1783 c2_i32_1224
  let v1785 : BitVec 32 := Scalar.addi c0_i32_1225 v1784
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1226 : BitVec 32 := 1#32
  let v1786 : BitVec 32 := Scalar.muli v5 c1_i32_1226
  let v1787 : BitVec 32 := Scalar.addi v1785 v1786
  v1787.toNat
def k0_dev86 (d0 : Dev nD) : Nat :=
  let c0_i32_1243 : BitVec 32 := 0#32
  let c1_i32_1239 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1807 : BitVec 32 := Scalar.subi c1_i32_1239 v2
  let c2_i32_1242 : BitVec 32 := 2#32
  let v1808 : BitVec 32 := Scalar.muli v1807 c2_i32_1242
  let v1809 : BitVec 32 := Scalar.addi c0_i32_1243 v1808
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1244 : BitVec 32 := 1#32
  let v1810 : BitVec 32 := Scalar.muli v5 c1_i32_1244
  let v1811 : BitVec 32 := Scalar.addi v1809 v1810
  v1811.toNat
def k0_dev87 (d0 : Dev nD) : Nat :=
  let c0_i32_1261 : BitVec 32 := 0#32
  let c1_i32_1257 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1831 : BitVec 32 := Scalar.subi c1_i32_1257 v2
  let c2_i32_1260 : BitVec 32 := 2#32
  let v1832 : BitVec 32 := Scalar.muli v1831 c2_i32_1260
  let v1833 : BitVec 32 := Scalar.addi c0_i32_1261 v1832
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1262 : BitVec 32 := 1#32
  let v1834 : BitVec 32 := Scalar.muli v5 c1_i32_1262
  let v1835 : BitVec 32 := Scalar.addi v1833 v1834
  v1835.toNat
def k0_off10 (d0 : Dev nD) : Fin 2 → Nat :=
  let c2560_i32_1275 : BitVec 32 := 2560#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_1265 : BitVec 32 := 1024#32
  let v1842 : BitVec 32 := Scalar.muli v5 c1024_i32_1265
  ![2560, v1842.toNat]
def k0_dev88 (d0 : Dev nD) : Nat :=
  let c0_i32_1302 : BitVec 32 := 0#32
  let c1_i32_1298 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1878 : BitVec 32 := Scalar.subi c1_i32_1298 v2
  let c2_i32_1301 : BitVec 32 := 2#32
  let v1879 : BitVec 32 := Scalar.muli v1878 c2_i32_1301
  let v1880 : BitVec 32 := Scalar.addi c0_i32_1302 v1879
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1303 : BitVec 32 := 1#32
  let v1881 : BitVec 32 := Scalar.muli v5 c1_i32_1303
  let v1882 : BitVec 32 := Scalar.addi v1880 v1881
  v1882.toNat
def k0_dev89 (d0 : Dev nD) : Nat :=
  let c0_i32_1320 : BitVec 32 := 0#32
  let c1_i32_1316 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1902 : BitVec 32 := Scalar.subi c1_i32_1316 v2
  let c2_i32_1319 : BitVec 32 := 2#32
  let v1903 : BitVec 32 := Scalar.muli v1902 c2_i32_1319
  let v1904 : BitVec 32 := Scalar.addi c0_i32_1320 v1903
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1321 : BitVec 32 := 1#32
  let v1905 : BitVec 32 := Scalar.muli v5 c1_i32_1321
  let v1906 : BitVec 32 := Scalar.addi v1904 v1905
  v1906.toNat
def k0_dev90 (d0 : Dev nD) : Nat :=
  let c0_i32_1338 : BitVec 32 := 0#32
  let c1_i32_1334 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1926 : BitVec 32 := Scalar.subi c1_i32_1334 v2
  let c2_i32_1337 : BitVec 32 := 2#32
  let v1927 : BitVec 32 := Scalar.muli v1926 c2_i32_1337
  let v1928 : BitVec 32 := Scalar.addi c0_i32_1338 v1927
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1339 : BitVec 32 := 1#32
  let v1929 : BitVec 32 := Scalar.muli v5 c1_i32_1339
  let v1930 : BitVec 32 := Scalar.addi v1928 v1929
  v1930.toNat
def k0_dev91 (d0 : Dev nD) : Nat :=
  let c0_i32_1356 : BitVec 32 := 0#32
  let c1_i32_1352 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1950 : BitVec 32 := Scalar.subi c1_i32_1352 v2
  let c2_i32_1355 : BitVec 32 := 2#32
  let v1951 : BitVec 32 := Scalar.muli v1950 c2_i32_1355
  let v1952 : BitVec 32 := Scalar.addi c0_i32_1356 v1951
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1357 : BitVec 32 := 1#32
  let v1953 : BitVec 32 := Scalar.muli v5 c1_i32_1357
  let v1954 : BitVec 32 := Scalar.addi v1952 v1953
  v1954.toNat
def k0_off11 (d0 : Dev nD) : Fin 2 → Nat :=
  let c3072_i32_1370 : BitVec 32 := 3072#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_1360 : BitVec 32 := 1024#32
  let v1961 : BitVec 32 := Scalar.muli v5 c1024_i32_1360
  ![3072, v1961.toNat]
def k0_dev92 (d0 : Dev nD) : Nat :=
  let c0_i32_1397 : BitVec 32 := 0#32
  let c1_i32_1393 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1997 : BitVec 32 := Scalar.subi c1_i32_1393 v2
  let c2_i32_1396 : BitVec 32 := 2#32
  let v1998 : BitVec 32 := Scalar.muli v1997 c2_i32_1396
  let v1999 : BitVec 32 := Scalar.addi c0_i32_1397 v1998
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1398 : BitVec 32 := 1#32
  let v2000 : BitVec 32 := Scalar.muli v5 c1_i32_1398
  let v2001 : BitVec 32 := Scalar.addi v1999 v2000
  v2001.toNat
def k0_dev93 (d0 : Dev nD) : Nat :=
  let c0_i32_1415 : BitVec 32 := 0#32
  let c1_i32_1411 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2021 : BitVec 32 := Scalar.subi c1_i32_1411 v2
  let c2_i32_1414 : BitVec 32 := 2#32
  let v2022 : BitVec 32 := Scalar.muli v2021 c2_i32_1414
  let v2023 : BitVec 32 := Scalar.addi c0_i32_1415 v2022
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1416 : BitVec 32 := 1#32
  let v2024 : BitVec 32 := Scalar.muli v5 c1_i32_1416
  let v2025 : BitVec 32 := Scalar.addi v2023 v2024
  v2025.toNat
def k0_dev94 (d0 : Dev nD) : Nat :=
  let c0_i32_1433 : BitVec 32 := 0#32
  let c1_i32_1429 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2045 : BitVec 32 := Scalar.subi c1_i32_1429 v2
  let c2_i32_1432 : BitVec 32 := 2#32
  let v2046 : BitVec 32 := Scalar.muli v2045 c2_i32_1432
  let v2047 : BitVec 32 := Scalar.addi c0_i32_1433 v2046
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1434 : BitVec 32 := 1#32
  let v2048 : BitVec 32 := Scalar.muli v5 c1_i32_1434
  let v2049 : BitVec 32 := Scalar.addi v2047 v2048
  v2049.toNat
def k0_dev95 (d0 : Dev nD) : Nat :=
  let c0_i32_1451 : BitVec 32 := 0#32
  let c1_i32_1447 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2069 : BitVec 32 := Scalar.subi c1_i32_1447 v2
  let c2_i32_1450 : BitVec 32 := 2#32
  let v2070 : BitVec 32 := Scalar.muli v2069 c2_i32_1450
  let v2071 : BitVec 32 := Scalar.addi c0_i32_1451 v2070
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1452 : BitVec 32 := 1#32
  let v2072 : BitVec 32 := Scalar.muli v5 c1_i32_1452
  let v2073 : BitVec 32 := Scalar.addi v2071 v2072
  v2073.toNat
def k0_off12 (d0 : Dev nD) : Fin 2 → Nat :=
  let c3584_i32_1465 : BitVec 32 := 3584#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_1455 : BitVec 32 := 1024#32
  let v2080 : BitVec 32 := Scalar.muli v5 c1024_i32_1455
  ![3584, v2080.toNat]
def k0_dev96 (d0 : Dev nD) : Nat :=
  let c0_i32_1492 : BitVec 32 := 0#32
  let c1_i32_1488 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2116 : BitVec 32 := Scalar.subi c1_i32_1488 v2
  let c2_i32_1491 : BitVec 32 := 2#32
  let v2117 : BitVec 32 := Scalar.muli v2116 c2_i32_1491
  let v2118 : BitVec 32 := Scalar.addi c0_i32_1492 v2117
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1493 : BitVec 32 := 1#32
  let v2119 : BitVec 32 := Scalar.muli v5 c1_i32_1493
  let v2120 : BitVec 32 := Scalar.addi v2118 v2119
  v2120.toNat
def k0_dev97 (d0 : Dev nD) : Nat :=
  let c0_i32_1510 : BitVec 32 := 0#32
  let c1_i32_1506 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2140 : BitVec 32 := Scalar.subi c1_i32_1506 v2
  let c2_i32_1509 : BitVec 32 := 2#32
  let v2141 : BitVec 32 := Scalar.muli v2140 c2_i32_1509
  let v2142 : BitVec 32 := Scalar.addi c0_i32_1510 v2141
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1511 : BitVec 32 := 1#32
  let v2143 : BitVec 32 := Scalar.muli v5 c1_i32_1511
  let v2144 : BitVec 32 := Scalar.addi v2142 v2143
  v2144.toNat
def k0_dev98 (d0 : Dev nD) : Nat :=
  let c0_i32_1528 : BitVec 32 := 0#32
  let c1_i32_1524 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2164 : BitVec 32 := Scalar.subi c1_i32_1524 v2
  let c2_i32_1527 : BitVec 32 := 2#32
  let v2165 : BitVec 32 := Scalar.muli v2164 c2_i32_1527
  let v2166 : BitVec 32 := Scalar.addi c0_i32_1528 v2165
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1529 : BitVec 32 := 1#32
  let v2167 : BitVec 32 := Scalar.muli v5 c1_i32_1529
  let v2168 : BitVec 32 := Scalar.addi v2166 v2167
  v2168.toNat
def k0_dev99 (d0 : Dev nD) : Nat :=
  let c0_i32_1546 : BitVec 32 := 0#32
  let c1_i32_1542 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2188 : BitVec 32 := Scalar.subi c1_i32_1542 v2
  let c2_i32_1545 : BitVec 32 := 2#32
  let v2189 : BitVec 32 := Scalar.muli v2188 c2_i32_1545
  let v2190 : BitVec 32 := Scalar.addi c0_i32_1546 v2189
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1547 : BitVec 32 := 1#32
  let v2191 : BitVec 32 := Scalar.muli v5 c1_i32_1547
  let v2192 : BitVec 32 := Scalar.addi v2190 v2191
  v2192.toNat
def k0_off13 (d0 : Dev nD) : Fin 2 → Nat :=
  let c4096_i32_1560 : BitVec 32 := 4096#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_1550 : BitVec 32 := 1024#32
  let v2199 : BitVec 32 := Scalar.muli v5 c1024_i32_1550
  ![4096, v2199.toNat]
def k0_dev100 (d0 : Dev nD) : Nat :=
  let c0_i32_1587 : BitVec 32 := 0#32
  let c1_i32_1583 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2235 : BitVec 32 := Scalar.subi c1_i32_1583 v2
  let c2_i32_1586 : BitVec 32 := 2#32
  let v2236 : BitVec 32 := Scalar.muli v2235 c2_i32_1586
  let v2237 : BitVec 32 := Scalar.addi c0_i32_1587 v2236
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1588 : BitVec 32 := 1#32
  let v2238 : BitVec 32 := Scalar.muli v5 c1_i32_1588
  let v2239 : BitVec 32 := Scalar.addi v2237 v2238
  v2239.toNat
def k0_dev101 (d0 : Dev nD) : Nat :=
  let c0_i32_1605 : BitVec 32 := 0#32
  let c1_i32_1601 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2259 : BitVec 32 := Scalar.subi c1_i32_1601 v2
  let c2_i32_1604 : BitVec 32 := 2#32
  let v2260 : BitVec 32 := Scalar.muli v2259 c2_i32_1604
  let v2261 : BitVec 32 := Scalar.addi c0_i32_1605 v2260
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1606 : BitVec 32 := 1#32
  let v2262 : BitVec 32 := Scalar.muli v5 c1_i32_1606
  let v2263 : BitVec 32 := Scalar.addi v2261 v2262
  v2263.toNat
def k0_dev102 (d0 : Dev nD) : Nat :=
  let c0_i32_1623 : BitVec 32 := 0#32
  let c1_i32_1619 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2283 : BitVec 32 := Scalar.subi c1_i32_1619 v2
  let c2_i32_1622 : BitVec 32 := 2#32
  let v2284 : BitVec 32 := Scalar.muli v2283 c2_i32_1622
  let v2285 : BitVec 32 := Scalar.addi c0_i32_1623 v2284
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1624 : BitVec 32 := 1#32
  let v2286 : BitVec 32 := Scalar.muli v5 c1_i32_1624
  let v2287 : BitVec 32 := Scalar.addi v2285 v2286
  v2287.toNat
def k0_dev103 (d0 : Dev nD) : Nat :=
  let c0_i32_1641 : BitVec 32 := 0#32
  let c1_i32_1637 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2307 : BitVec 32 := Scalar.subi c1_i32_1637 v2
  let c2_i32_1640 : BitVec 32 := 2#32
  let v2308 : BitVec 32 := Scalar.muli v2307 c2_i32_1640
  let v2309 : BitVec 32 := Scalar.addi c0_i32_1641 v2308
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1642 : BitVec 32 := 1#32
  let v2310 : BitVec 32 := Scalar.muli v5 c1_i32_1642
  let v2311 : BitVec 32 := Scalar.addi v2309 v2310
  v2311.toNat
def k0_off14 (d0 : Dev nD) : Fin 2 → Nat :=
  let c4608_i32 : BitVec 32 := 4608#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_1645 : BitVec 32 := 1024#32
  let v2318 : BitVec 32 := Scalar.muli v5 c1024_i32_1645
  ![4608, v2318.toNat]
def k0_dev104 (d0 : Dev nD) : Nat :=
  let c0_i32_1681 : BitVec 32 := 0#32
  let c1_i32_1677 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2354 : BitVec 32 := Scalar.subi c1_i32_1677 v2
  let c2_i32_1680 : BitVec 32 := 2#32
  let v2355 : BitVec 32 := Scalar.muli v2354 c2_i32_1680
  let v2356 : BitVec 32 := Scalar.addi c0_i32_1681 v2355
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1682 : BitVec 32 := 1#32
  let v2357 : BitVec 32 := Scalar.muli v5 c1_i32_1682
  let v2358 : BitVec 32 := Scalar.addi v2356 v2357
  v2358.toNat
def k0_dev105 (d0 : Dev nD) : Nat :=
  let c0_i32_1699 : BitVec 32 := 0#32
  let c1_i32_1695 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2378 : BitVec 32 := Scalar.subi c1_i32_1695 v2
  let c2_i32_1698 : BitVec 32 := 2#32
  let v2379 : BitVec 32 := Scalar.muli v2378 c2_i32_1698
  let v2380 : BitVec 32 := Scalar.addi c0_i32_1699 v2379
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1700 : BitVec 32 := 1#32
  let v2381 : BitVec 32 := Scalar.muli v5 c1_i32_1700
  let v2382 : BitVec 32 := Scalar.addi v2380 v2381
  v2382.toNat
def k0_dev106 (d0 : Dev nD) : Nat :=
  let c0_i32_1717 : BitVec 32 := 0#32
  let c1_i32_1713 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2402 : BitVec 32 := Scalar.subi c1_i32_1713 v2
  let c2_i32_1716 : BitVec 32 := 2#32
  let v2403 : BitVec 32 := Scalar.muli v2402 c2_i32_1716
  let v2404 : BitVec 32 := Scalar.addi c0_i32_1717 v2403
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1718 : BitVec 32 := 1#32
  let v2405 : BitVec 32 := Scalar.muli v5 c1_i32_1718
  let v2406 : BitVec 32 := Scalar.addi v2404 v2405
  v2406.toNat
def k0_dev107 (d0 : Dev nD) : Nat :=
  let c0_i32_1735 : BitVec 32 := 0#32
  let c1_i32_1731 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2426 : BitVec 32 := Scalar.subi c1_i32_1731 v2
  let c2_i32_1734 : BitVec 32 := 2#32
  let v2427 : BitVec 32 := Scalar.muli v2426 c2_i32_1734
  let v2428 : BitVec 32 := Scalar.addi c0_i32_1735 v2427
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1736 : BitVec 32 := 1#32
  let v2429 : BitVec 32 := Scalar.muli v5 c1_i32_1736
  let v2430 : BitVec 32 := Scalar.addi v2428 v2429
  v2430.toNat
def k0_off15 (d0 : Dev nD) : Fin 2 → Nat :=
  let c5120_i32 : BitVec 32 := 5120#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_1739 : BitVec 32 := 1024#32
  let v2437 : BitVec 32 := Scalar.muli v5 c1024_i32_1739
  ![5120, v2437.toNat]
def k0_dev108 (d0 : Dev nD) : Nat :=
  let c0_i32_1775 : BitVec 32 := 0#32
  let c1_i32_1771 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2473 : BitVec 32 := Scalar.subi c1_i32_1771 v2
  let c2_i32_1774 : BitVec 32 := 2#32
  let v2474 : BitVec 32 := Scalar.muli v2473 c2_i32_1774
  let v2475 : BitVec 32 := Scalar.addi c0_i32_1775 v2474
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1776 : BitVec 32 := 1#32
  let v2476 : BitVec 32 := Scalar.muli v5 c1_i32_1776
  let v2477 : BitVec 32 := Scalar.addi v2475 v2476
  v2477.toNat
def k0_dev109 (d0 : Dev nD) : Nat :=
  let c0_i32_1793 : BitVec 32 := 0#32
  let c1_i32_1789 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2497 : BitVec 32 := Scalar.subi c1_i32_1789 v2
  let c2_i32_1792 : BitVec 32 := 2#32
  let v2498 : BitVec 32 := Scalar.muli v2497 c2_i32_1792
  let v2499 : BitVec 32 := Scalar.addi c0_i32_1793 v2498
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1794 : BitVec 32 := 1#32
  let v2500 : BitVec 32 := Scalar.muli v5 c1_i32_1794
  let v2501 : BitVec 32 := Scalar.addi v2499 v2500
  v2501.toNat
def k0_dev110 (d0 : Dev nD) : Nat :=
  let c0_i32_1811 : BitVec 32 := 0#32
  let c1_i32_1807 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2521 : BitVec 32 := Scalar.subi c1_i32_1807 v2
  let c2_i32_1810 : BitVec 32 := 2#32
  let v2522 : BitVec 32 := Scalar.muli v2521 c2_i32_1810
  let v2523 : BitVec 32 := Scalar.addi c0_i32_1811 v2522
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1812 : BitVec 32 := 1#32
  let v2524 : BitVec 32 := Scalar.muli v5 c1_i32_1812
  let v2525 : BitVec 32 := Scalar.addi v2523 v2524
  v2525.toNat
def k0_dev111 (d0 : Dev nD) : Nat :=
  let c0_i32_1829 : BitVec 32 := 0#32
  let c1_i32_1825 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2545 : BitVec 32 := Scalar.subi c1_i32_1825 v2
  let c2_i32_1828 : BitVec 32 := 2#32
  let v2546 : BitVec 32 := Scalar.muli v2545 c2_i32_1828
  let v2547 : BitVec 32 := Scalar.addi c0_i32_1829 v2546
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1830 : BitVec 32 := 1#32
  let v2548 : BitVec 32 := Scalar.muli v5 c1_i32_1830
  let v2549 : BitVec 32 := Scalar.addi v2547 v2548
  v2549.toNat
def k0_off16 (d0 : Dev nD) : Fin 2 → Nat :=
  let c5632_i32 : BitVec 32 := 5632#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_1833 : BitVec 32 := 1024#32
  let v2556 : BitVec 32 := Scalar.muli v5 c1024_i32_1833
  ![5632, v2556.toNat]
def k0_dev112 (d0 : Dev nD) : Nat :=
  let c0_i32_1869 : BitVec 32 := 0#32
  let c1_i32_1865 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2592 : BitVec 32 := Scalar.subi c1_i32_1865 v2
  let c2_i32_1868 : BitVec 32 := 2#32
  let v2593 : BitVec 32 := Scalar.muli v2592 c2_i32_1868
  let v2594 : BitVec 32 := Scalar.addi c0_i32_1869 v2593
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1870 : BitVec 32 := 1#32
  let v2595 : BitVec 32 := Scalar.muli v5 c1_i32_1870
  let v2596 : BitVec 32 := Scalar.addi v2594 v2595
  v2596.toNat
def k0_dev113 (d0 : Dev nD) : Nat :=
  let c0_i32_1887 : BitVec 32 := 0#32
  let c1_i32_1883 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2616 : BitVec 32 := Scalar.subi c1_i32_1883 v2
  let c2_i32_1886 : BitVec 32 := 2#32
  let v2617 : BitVec 32 := Scalar.muli v2616 c2_i32_1886
  let v2618 : BitVec 32 := Scalar.addi c0_i32_1887 v2617
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1888 : BitVec 32 := 1#32
  let v2619 : BitVec 32 := Scalar.muli v5 c1_i32_1888
  let v2620 : BitVec 32 := Scalar.addi v2618 v2619
  v2620.toNat
def k0_dev114 (d0 : Dev nD) : Nat :=
  let c0_i32_1905 : BitVec 32 := 0#32
  let c1_i32_1901 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2640 : BitVec 32 := Scalar.subi c1_i32_1901 v2
  let c2_i32_1904 : BitVec 32 := 2#32
  let v2641 : BitVec 32 := Scalar.muli v2640 c2_i32_1904
  let v2642 : BitVec 32 := Scalar.addi c0_i32_1905 v2641
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1906 : BitVec 32 := 1#32
  let v2643 : BitVec 32 := Scalar.muli v5 c1_i32_1906
  let v2644 : BitVec 32 := Scalar.addi v2642 v2643
  v2644.toNat
def k0_dev115 (d0 : Dev nD) : Nat :=
  let c0_i32_1923 : BitVec 32 := 0#32
  let c1_i32_1919 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2664 : BitVec 32 := Scalar.subi c1_i32_1919 v2
  let c2_i32_1922 : BitVec 32 := 2#32
  let v2665 : BitVec 32 := Scalar.muli v2664 c2_i32_1922
  let v2666 : BitVec 32 := Scalar.addi c0_i32_1923 v2665
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1924 : BitVec 32 := 1#32
  let v2667 : BitVec 32 := Scalar.muli v5 c1_i32_1924
  let v2668 : BitVec 32 := Scalar.addi v2666 v2667
  v2668.toNat
def k0_off17 (d0 : Dev nD) : Fin 2 → Nat :=
  let c6144_i32 : BitVec 32 := 6144#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_1927 : BitVec 32 := 1024#32
  let v2675 : BitVec 32 := Scalar.muli v5 c1024_i32_1927
  ![6144, v2675.toNat]
def k0_dev116 (d0 : Dev nD) : Nat :=
  let c0_i32_1963 : BitVec 32 := 0#32
  let c1_i32_1959 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2711 : BitVec 32 := Scalar.subi c1_i32_1959 v2
  let c2_i32_1962 : BitVec 32 := 2#32
  let v2712 : BitVec 32 := Scalar.muli v2711 c2_i32_1962
  let v2713 : BitVec 32 := Scalar.addi c0_i32_1963 v2712
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1964 : BitVec 32 := 1#32
  let v2714 : BitVec 32 := Scalar.muli v5 c1_i32_1964
  let v2715 : BitVec 32 := Scalar.addi v2713 v2714
  v2715.toNat
def k0_dev117 (d0 : Dev nD) : Nat :=
  let c0_i32_1981 : BitVec 32 := 0#32
  let c1_i32_1977 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2735 : BitVec 32 := Scalar.subi c1_i32_1977 v2
  let c2_i32_1980 : BitVec 32 := 2#32
  let v2736 : BitVec 32 := Scalar.muli v2735 c2_i32_1980
  let v2737 : BitVec 32 := Scalar.addi c0_i32_1981 v2736
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1982 : BitVec 32 := 1#32
  let v2738 : BitVec 32 := Scalar.muli v5 c1_i32_1982
  let v2739 : BitVec 32 := Scalar.addi v2737 v2738
  v2739.toNat
def k0_dev118 (d0 : Dev nD) : Nat :=
  let c0_i32_1999 : BitVec 32 := 0#32
  let c1_i32_1995 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2759 : BitVec 32 := Scalar.subi c1_i32_1995 v2
  let c2_i32_1998 : BitVec 32 := 2#32
  let v2760 : BitVec 32 := Scalar.muli v2759 c2_i32_1998
  let v2761 : BitVec 32 := Scalar.addi c0_i32_1999 v2760
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2000 : BitVec 32 := 1#32
  let v2762 : BitVec 32 := Scalar.muli v5 c1_i32_2000
  let v2763 : BitVec 32 := Scalar.addi v2761 v2762
  v2763.toNat
def k0_dev119 (d0 : Dev nD) : Nat :=
  let c0_i32_2017 : BitVec 32 := 0#32
  let c1_i32_2013 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2783 : BitVec 32 := Scalar.subi c1_i32_2013 v2
  let c2_i32_2016 : BitVec 32 := 2#32
  let v2784 : BitVec 32 := Scalar.muli v2783 c2_i32_2016
  let v2785 : BitVec 32 := Scalar.addi c0_i32_2017 v2784
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2018 : BitVec 32 := 1#32
  let v2786 : BitVec 32 := Scalar.muli v5 c1_i32_2018
  let v2787 : BitVec 32 := Scalar.addi v2785 v2786
  v2787.toNat
def k0_off18 (d0 : Dev nD) : Fin 2 → Nat :=
  let c6656_i32 : BitVec 32 := 6656#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_2021 : BitVec 32 := 1024#32
  let v2794 : BitVec 32 := Scalar.muli v5 c1024_i32_2021
  ![6656, v2794.toNat]
def k0_dev120 (d0 : Dev nD) : Nat :=
  let c0_i32_2057 : BitVec 32 := 0#32
  let c1_i32_2053 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2830 : BitVec 32 := Scalar.subi c1_i32_2053 v2
  let c2_i32_2056 : BitVec 32 := 2#32
  let v2831 : BitVec 32 := Scalar.muli v2830 c2_i32_2056
  let v2832 : BitVec 32 := Scalar.addi c0_i32_2057 v2831
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2058 : BitVec 32 := 1#32
  let v2833 : BitVec 32 := Scalar.muli v5 c1_i32_2058
  let v2834 : BitVec 32 := Scalar.addi v2832 v2833
  v2834.toNat
def k0_dev121 (d0 : Dev nD) : Nat :=
  let c0_i32_2075 : BitVec 32 := 0#32
  let c1_i32_2071 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2854 : BitVec 32 := Scalar.subi c1_i32_2071 v2
  let c2_i32_2074 : BitVec 32 := 2#32
  let v2855 : BitVec 32 := Scalar.muli v2854 c2_i32_2074
  let v2856 : BitVec 32 := Scalar.addi c0_i32_2075 v2855
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2076 : BitVec 32 := 1#32
  let v2857 : BitVec 32 := Scalar.muli v5 c1_i32_2076
  let v2858 : BitVec 32 := Scalar.addi v2856 v2857
  v2858.toNat
def k0_dev122 (d0 : Dev nD) : Nat :=
  let c0_i32_2093 : BitVec 32 := 0#32
  let c1_i32_2089 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2878 : BitVec 32 := Scalar.subi c1_i32_2089 v2
  let c2_i32_2092 : BitVec 32 := 2#32
  let v2879 : BitVec 32 := Scalar.muli v2878 c2_i32_2092
  let v2880 : BitVec 32 := Scalar.addi c0_i32_2093 v2879
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2094 : BitVec 32 := 1#32
  let v2881 : BitVec 32 := Scalar.muli v5 c1_i32_2094
  let v2882 : BitVec 32 := Scalar.addi v2880 v2881
  v2882.toNat
def k0_dev123 (d0 : Dev nD) : Nat :=
  let c0_i32_2111 : BitVec 32 := 0#32
  let c1_i32_2107 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2902 : BitVec 32 := Scalar.subi c1_i32_2107 v2
  let c2_i32_2110 : BitVec 32 := 2#32
  let v2903 : BitVec 32 := Scalar.muli v2902 c2_i32_2110
  let v2904 : BitVec 32 := Scalar.addi c0_i32_2111 v2903
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2112 : BitVec 32 := 1#32
  let v2905 : BitVec 32 := Scalar.muli v5 c1_i32_2112
  let v2906 : BitVec 32 := Scalar.addi v2904 v2905
  v2906.toNat
def k0_off19 (d0 : Dev nD) : Fin 2 → Nat :=
  let c7168_i32 : BitVec 32 := 7168#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_2115 : BitVec 32 := 1024#32
  let v2913 : BitVec 32 := Scalar.muli v5 c1024_i32_2115
  ![7168, v2913.toNat]
def k0_dev124 (d0 : Dev nD) : Nat :=
  let c0_i32_2151 : BitVec 32 := 0#32
  let c1_i32_2147 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2949 : BitVec 32 := Scalar.subi c1_i32_2147 v2
  let c2_i32_2150 : BitVec 32 := 2#32
  let v2950 : BitVec 32 := Scalar.muli v2949 c2_i32_2150
  let v2951 : BitVec 32 := Scalar.addi c0_i32_2151 v2950
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2152 : BitVec 32 := 1#32
  let v2952 : BitVec 32 := Scalar.muli v5 c1_i32_2152
  let v2953 : BitVec 32 := Scalar.addi v2951 v2952
  v2953.toNat
def k0_dev125 (d0 : Dev nD) : Nat :=
  let c0_i32_2169 : BitVec 32 := 0#32
  let c1_i32_2165 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2973 : BitVec 32 := Scalar.subi c1_i32_2165 v2
  let c2_i32_2168 : BitVec 32 := 2#32
  let v2974 : BitVec 32 := Scalar.muli v2973 c2_i32_2168
  let v2975 : BitVec 32 := Scalar.addi c0_i32_2169 v2974
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2170 : BitVec 32 := 1#32
  let v2976 : BitVec 32 := Scalar.muli v5 c1_i32_2170
  let v2977 : BitVec 32 := Scalar.addi v2975 v2976
  v2977.toNat
def k0_dev126 (d0 : Dev nD) : Nat :=
  let c0_i32_2187 : BitVec 32 := 0#32
  let c1_i32_2183 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v2997 : BitVec 32 := Scalar.subi c1_i32_2183 v2
  let c2_i32_2186 : BitVec 32 := 2#32
  let v2998 : BitVec 32 := Scalar.muli v2997 c2_i32_2186
  let v2999 : BitVec 32 := Scalar.addi c0_i32_2187 v2998
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2188 : BitVec 32 := 1#32
  let v3000 : BitVec 32 := Scalar.muli v5 c1_i32_2188
  let v3001 : BitVec 32 := Scalar.addi v2999 v3000
  v3001.toNat
def k0_dev127 (d0 : Dev nD) : Nat :=
  let c0_i32_2205 : BitVec 32 := 0#32
  let c1_i32_2201 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v3021 : BitVec 32 := Scalar.subi c1_i32_2201 v2
  let c2_i32_2204 : BitVec 32 := 2#32
  let v3022 : BitVec 32 := Scalar.muli v3021 c2_i32_2204
  let v3023 : BitVec 32 := Scalar.addi c0_i32_2205 v3022
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2206 : BitVec 32 := 1#32
  let v3024 : BitVec 32 := Scalar.muli v5 c1_i32_2206
  let v3025 : BitVec 32 := Scalar.addi v3023 v3024
  v3025.toNat
def k0_off20 (d0 : Dev nD) : Fin 2 → Nat :=
  let c7680_i32 : BitVec 32 := 7680#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_2209 : BitVec 32 := 1024#32
  let v3032 : BitVec 32 := Scalar.muli v5 c1024_i32_2209
  ![7680, v3032.toNat]
def k0_dev128 (d0 : Dev nD) : Nat :=
  let c0_i32_2245 : BitVec 32 := 0#32
  let c1_i32_2241 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v3068 : BitVec 32 := Scalar.subi c1_i32_2241 v2
  let c2_i32_2244 : BitVec 32 := 2#32
  let v3069 : BitVec 32 := Scalar.muli v3068 c2_i32_2244
  let v3070 : BitVec 32 := Scalar.addi c0_i32_2245 v3069
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2246 : BitVec 32 := 1#32
  let v3071 : BitVec 32 := Scalar.muli v5 c1_i32_2246
  let v3072 : BitVec 32 := Scalar.addi v3070 v3071
  v3072.toNat
def k0_dev129 (d0 : Dev nD) : Nat :=
  let c0_i32_2263 : BitVec 32 := 0#32
  let c1_i32_2259 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v3092 : BitVec 32 := Scalar.subi c1_i32_2259 v2
  let c2_i32_2262 : BitVec 32 := 2#32
  let v3093 : BitVec 32 := Scalar.muli v3092 c2_i32_2262
  let v3094 : BitVec 32 := Scalar.addi c0_i32_2263 v3093
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2264 : BitVec 32 := 1#32
  let v3095 : BitVec 32 := Scalar.muli v5 c1_i32_2264
  let v3096 : BitVec 32 := Scalar.addi v3094 v3095
  v3096.toNat
def k0_dev130 (d0 : Dev nD) : Nat :=
  let c0_i32_2281 : BitVec 32 := 0#32
  let c1_i32_2277 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v3116 : BitVec 32 := Scalar.subi c1_i32_2277 v2
  let c2_i32_2280 : BitVec 32 := 2#32
  let v3117 : BitVec 32 := Scalar.muli v3116 c2_i32_2280
  let v3118 : BitVec 32 := Scalar.addi c0_i32_2281 v3117
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2282 : BitVec 32 := 1#32
  let v3119 : BitVec 32 := Scalar.muli v5 c1_i32_2282
  let v3120 : BitVec 32 := Scalar.addi v3118 v3119
  v3120.toNat

class Facts₀ : Prop where
  hamt_1 : (1#32 : BitVec 32).msb = false
  hamt_2 : (2#32 : BitVec 32).msb = false
  inb_S64_S1_0 : ∀ a, (![0] : Fin 1 → Nat) a + S1.size a ≤ S64.size a
  squeezes_S1_S_ : S1.Squeezes S_
  inb_S64_S1_1 : ∀ a, (![1] : Fin 1 → Nat) a + S1.size a ≤ S64.size a
  inb_S64_S1_2 : ∀ a, (![2] : Fin 1 → Nat) a + S1.size a ≤ S64.size a
  inb_S64_S1_3 : ∀ a, (![3] : Fin 1 → Nat) a + S1.size a ≤ S64.size a
  inb_S64_S1_4 : ∀ a, (![4] : Fin 1 → Nat) a + S1.size a ≤ S64.size a
  inb_S64_S1_5 : ∀ a, (![5] : Fin 1 → Nat) a + S1.size a ≤ S64.size a
  inb_S64_S1_6 : ∀ a, (![6] : Fin 1 → Nat) a + S1.size a ≤ S64.size a
  inb_S64_S1_7 : ∀ a, (![7] : Fin 1 → Nat) a + S1.size a ≤ S64.size a
  inb_S64_S1_8 : ∀ a, (![8] : Fin 1 → Nat) a + S1.size a ≤ S64.size a
  inb_S64_S1_9 : ∀ a, (![9] : Fin 1 → Nat) a + S1.size a ≤ S64.size a
  inb_S64_S1_10 : ∀ a, (![10] : Fin 1 → Nat) a + S1.size a ≤ S64.size a
  inb_S64_S1_11 : ∀ a, (![11] : Fin 1 → Nat) a + S1.size a ≤ S64.size a
  inb_S64_S1_12 : ∀ a, (![12] : Fin 1 → Nat) a + S1.size a ≤ S64.size a
  inb_S64_S1_13 : ∀ a, (![13] : Fin 1 → Nat) a + S1.size a ≤ S64.size a
  inb_S64_S1_14 : ∀ a, (![14] : Fin 1 → Nat) a + S1.size a ≤ S64.size a
  inb_S64_S1_15 : ∀ a, (![15] : Fin 1 → Nat) a + S1.size a ≤ S64.size a
  inb_S64_S1_16 : ∀ a, (![16] : Fin 1 → Nat) a + S1.size a ≤ S64.size a
  inb_S64_S1_17 : ∀ a, (![17] : Fin 1 → Nat) a + S1.size a ≤ S64.size a
  inb_S64_S1_18 : ∀ a, (![18] : Fin 1 → Nat) a + S1.size a ≤ S64.size a
  inb_S64_S1_19 : ∀ a, (![19] : Fin 1 → Nat) a + S1.size a ≤ S64.size a
  inb_S64_S1_20 : ∀ a, (![20] : Fin 1 → Nat) a + S1.size a ≤ S64.size a
  inb_S64_S1_21 : ∀ a, (![21] : Fin 1 → Nat) a + S1.size a ≤ S64.size a
  inb_S64_S1_22 : ∀ a, (![22] : Fin 1 → Nat) a + S1.size a ≤ S64.size a
  inb_S64_S1_23 : ∀ a, (![23] : Fin 1 → Nat) a + S1.size a ≤ S64.size a
  inb_S64_S1_24 : ∀ a, (![24] : Fin 1 → Nat) a + S1.size a ≤ S64.size a
  inb_S64_S1_25 : ∀ a, (![25] : Fin 1 → Nat) a + S1.size a ≤ S64.size a
  inb_S64_S1_26 : ∀ a, (![26] : Fin 1 → Nat) a + S1.size a ≤ S64.size a
  inb_S64_S1_27 : ∀ a, (![27] : Fin 1 → Nat) a + S1.size a ≤ S64.size a
  inb_S64_S1_28 : ∀ a, (![28] : Fin 1 → Nat) a + S1.size a ≤ S64.size a
  inb_S64_S1_29 : ∀ a, (![29] : Fin 1 → Nat) a + S1.size a ≤ S64.size a
  inb_S64_S1_30 : ∀ a, (![30] : Fin 1 → Nat) a + S1.size a ≤ S64.size a
  inb_S64_S1_31 : ∀ a, (![31] : Fin 1 → Nat) a + S1.size a ≤ S64.size a
  inb_S64_S1_32 : ∀ a, (![32] : Fin 1 → Nat) a + S1.size a ≤ S64.size a
  inb_S64_S1_33 : ∀ a, (![33] : Fin 1 → Nat) a + S1.size a ≤ S64.size a
  inb_S64_S1_34 : ∀ a, (![34] : Fin 1 → Nat) a + S1.size a ≤ S64.size a
  inb_S64_S1_35 : ∀ a, (![35] : Fin 1 → Nat) a + S1.size a ≤ S64.size a
  inb_S64_S1_36 : ∀ a, (![36] : Fin 1 → Nat) a + S1.size a ≤ S64.size a
  inb_S64_S1_37 : ∀ a, (![37] : Fin 1 → Nat) a + S1.size a ≤ S64.size a
  inb_S64_S1_38 : ∀ a, (![38] : Fin 1 → Nat) a + S1.size a ≤ S64.size a
  inb_S64_S1_39 : ∀ a, (![39] : Fin 1 → Nat) a + S1.size a ≤ S64.size a
  inb_S64_S1_40 : ∀ a, (![40] : Fin 1 → Nat) a + S1.size a ≤ S64.size a
  inb_S64_S1_41 : ∀ a, (![41] : Fin 1 → Nat) a + S1.size a ≤ S64.size a
  inb_S64_S1_42 : ∀ a, (![42] : Fin 1 → Nat) a + S1.size a ≤ S64.size a
  inb_S64_S1_43 : ∀ a, (![43] : Fin 1 → Nat) a + S1.size a ≤ S64.size a
  inb_S64_S1_44 : ∀ a, (![44] : Fin 1 → Nat) a + S1.size a ≤ S64.size a
  inb_S64_S1_45 : ∀ a, (![45] : Fin 1 → Nat) a + S1.size a ≤ S64.size a
  inb_S64_S1_46 : ∀ a, (![46] : Fin 1 → Nat) a + S1.size a ≤ S64.size a
  inb_S64_S1_47 : ∀ a, (![47] : Fin 1 → Nat) a + S1.size a ≤ S64.size a
  inb_S64_S1_48 : ∀ a, (![48] : Fin 1 → Nat) a + S1.size a ≤ S64.size a
  inb_S64_S1_49 : ∀ a, (![49] : Fin 1 → Nat) a + S1.size a ≤ S64.size a
  inb_S64_S1_50 : ∀ a, (![50] : Fin 1 → Nat) a + S1.size a ≤ S64.size a
  inb_S64_S1_51 : ∀ a, (![51] : Fin 1 → Nat) a + S1.size a ≤ S64.size a
  inb_S64_S1_52 : ∀ a, (![52] : Fin 1 → Nat) a + S1.size a ≤ S64.size a
  inb_S64_S1_53 : ∀ a, (![53] : Fin 1 → Nat) a + S1.size a ≤ S64.size a
  inb_S64_S1_54 : ∀ a, (![54] : Fin 1 → Nat) a + S1.size a ≤ S64.size a
  inb_S64_S1_55 : ∀ a, (![55] : Fin 1 → Nat) a + S1.size a ≤ S64.size a
  inb_S64_S1_56 : ∀ a, (![56] : Fin 1 → Nat) a + S1.size a ≤ S64.size a
  inb_S64_S1_57 : ∀ a, (![57] : Fin 1 → Nat) a + S1.size a ≤ S64.size a
  inb_S64_S1_58 : ∀ a, (![58] : Fin 1 → Nat) a + S1.size a ≤ S64.size a
  inb_S64_S1_59 : ∀ a, (![59] : Fin 1 → Nat) a + S1.size a ≤ S64.size a
  inb_S64_S1_60 : ∀ a, (![60] : Fin 1 → Nat) a + S1.size a ≤ S64.size a
  inb_S64_S1_61 : ∀ a, (![61] : Fin 1 → Nat) a + S1.size a ≤ S64.size a
  inb_S64_S1_62 : ∀ a, (![62] : Fin 1 → Nat) a + S1.size a ≤ S64.size a
  inb_S64_S1_63 : ∀ a, (![63] : Fin 1 → Nat) a + S1.size a ≤ S64.size a
  inb_S4_S1_0 : ∀ a, (![0] : Fin 1 → Nat) a + S1.size a ≤ S4.size a
  inb_S2x512x1024_S1x512x1024_0_0_0 : ∀ a, (![0, 0, 0] : Fin 3 → Nat) a + S1x512x1024.size a ≤ S2x512x1024.size a
  squeezes_S1x512x1024_S512x1024 : S1x512x1024.Squeezes S512x1024
  inb_S4_S1_2 : ∀ a, (![2] : Fin 1 → Nat) a + S1.size a ≤ S4.size a
  inb_S4_S1_1 : ∀ a, (![1] : Fin 1 → Nat) a + S1.size a ≤ S4.size a
  inb_S2x512x1024_S1x512x1024_1_0_0 : ∀ a, (![1, 0, 0] : Fin 3 → Nat) a + S1x512x1024.size a ≤ S2x512x1024.size a
  inb_S4_S1_3 : ∀ a, (![3] : Fin 1 → Nat) a + S1.size a ≤ S4.size a
  hcc0_scratch0 : 0 + S64.numel ≤ 260
  hcc0_scratch1 : 64 + S64.numel ≤ 260
  hcc0_scratch2 : 128 + S64.numel ≤ 260
  hcc0_scratch3 : 192 + S64.numel ≤ 260
  hcc0_scratch5 : 256 + S4.numel ≤ 260
  k0_dev1_lt : ∀ d0 : Dev nD, (k0_dev1 d0) < nD
  k0_dev2_lt : ∀ d0 : Dev nD, (k0_dev2 d0) < nD
  k0_off1_inb : ∀ d0 : Dev nD, ∀ (r : Fin 64), ∀ a, (k0_off1 d0 (BitVec.ofNat 32 (64 * r.val))) a + S64x1024.size a ≤ S16384x1024.size a
  k0_off2_inb : ∀ d0 : Dev nD, ∀ (r : Fin 64), ∀ a, (k0_off2 d0 (BitVec.ofNat 32 (64 * r.val))) a + S64x1024.size a ≤ S8192x2048.size a
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  k0_dev63_lt : ∀ d0 : Dev nD, (k0_dev63 d0) < nD
  k0_dev64_lt : ∀ d0 : Dev nD, (k0_dev64 d0) < nD
  k0_dev65_lt : ∀ d0 : Dev nD, (k0_dev65 d0) < nD
  k0_dev66_lt : ∀ d0 : Dev nD, (k0_dev66 d0) < nD
  k0_off3_inb : ∀ d0 : Dev nD, ∀ (r : Fin 64), ∀ a, (k0_off3 d0 (BitVec.ofNat 32 (64 * r.val))) a + S64x1024.size a ≤ S16384x1024.size a
  k0_dev67_lt : ∀ d0 : Dev nD, (k0_dev67 d0) < nD
  k0_off4_inb : ∀ d0 : Dev nD, ∀ a, (k0_off4 d0) a + S512x1024.size a ≤ S8192x2048.size a
  k0_off5_inb : ∀ d0 : Dev nD, ∀ (r : Fin 16), ∀ a, (k0_off5 d0 (BitVec.ofNat 32 (512 * r.val))) a + S512x1024.size a ≤ S16384x1024.size a
  k0_dev68_lt : ∀ d0 : Dev nD, (k0_dev68 d0) < nD
  k0_dev69_lt : ∀ d0 : Dev nD, (k0_dev69 d0) < nD
  k0_dev70_lt : ∀ d0 : Dev nD, (k0_dev70 d0) < nD
  k0_dev71_lt : ∀ d0 : Dev nD, (k0_dev71 d0) < nD
  k0_off6_inb : ∀ d0 : Dev nD, ∀ a, (k0_off6 d0) a + S512x1024.size a ≤ S8192x2048.size a
  k0_dev72_lt : ∀ d0 : Dev nD, (k0_dev72 d0) < nD
  k0_dev73_lt : ∀ d0 : Dev nD, (k0_dev73 d0) < nD
  k0_dev74_lt : ∀ d0 : Dev nD, (k0_dev74 d0) < nD
  k0_dev75_lt : ∀ d0 : Dev nD, (k0_dev75 d0) < nD
  k0_off7_inb : ∀ d0 : Dev nD, ∀ a, (k0_off7 d0) a + S512x1024.size a ≤ S8192x2048.size a
  k0_dev76_lt : ∀ d0 : Dev nD, (k0_dev76 d0) < nD
  k0_dev77_lt : ∀ d0 : Dev nD, (k0_dev77 d0) < nD
  k0_dev78_lt : ∀ d0 : Dev nD, (k0_dev78 d0) < nD
  k0_dev79_lt : ∀ d0 : Dev nD, (k0_dev79 d0) < nD
  k0_off8_inb : ∀ d0 : Dev nD, ∀ a, (k0_off8 d0) a + S512x1024.size a ≤ S8192x2048.size a
  k0_dev80_lt : ∀ d0 : Dev nD, (k0_dev80 d0) < nD
  k0_dev81_lt : ∀ d0 : Dev nD, (k0_dev81 d0) < nD
  k0_dev82_lt : ∀ d0 : Dev nD, (k0_dev82 d0) < nD
  k0_dev83_lt : ∀ d0 : Dev nD, (k0_dev83 d0) < nD
  k0_off9_inb : ∀ d0 : Dev nD, ∀ a, (k0_off9 d0) a + S512x1024.size a ≤ S8192x2048.size a
  k0_dev84_lt : ∀ d0 : Dev nD, (k0_dev84 d0) < nD
  k0_dev85_lt : ∀ d0 : Dev nD, (k0_dev85 d0) < nD
  k0_dev86_lt : ∀ d0 : Dev nD, (k0_dev86 d0) < nD
  k0_dev87_lt : ∀ d0 : Dev nD, (k0_dev87 d0) < nD
  k0_off10_inb : ∀ d0 : Dev nD, ∀ a, (k0_off10 d0) a + S512x1024.size a ≤ S8192x2048.size a
  k0_dev88_lt : ∀ d0 : Dev nD, (k0_dev88 d0) < nD
  k0_dev89_lt : ∀ d0 : Dev nD, (k0_dev89 d0) < nD
  k0_dev90_lt : ∀ d0 : Dev nD, (k0_dev90 d0) < nD
  k0_dev91_lt : ∀ d0 : Dev nD, (k0_dev91 d0) < nD
  k0_off11_inb : ∀ d0 : Dev nD, ∀ a, (k0_off11 d0) a + S512x1024.size a ≤ S8192x2048.size a
  k0_dev92_lt : ∀ d0 : Dev nD, (k0_dev92 d0) < nD
  k0_dev93_lt : ∀ d0 : Dev nD, (k0_dev93 d0) < nD
  k0_dev94_lt : ∀ d0 : Dev nD, (k0_dev94 d0) < nD
  k0_dev95_lt : ∀ d0 : Dev nD, (k0_dev95 d0) < nD
  k0_off12_inb : ∀ d0 : Dev nD, ∀ a, (k0_off12 d0) a + S512x1024.size a ≤ S8192x2048.size a
  k0_dev96_lt : ∀ d0 : Dev nD, (k0_dev96 d0) < nD
  k0_dev97_lt : ∀ d0 : Dev nD, (k0_dev97 d0) < nD
  k0_dev98_lt : ∀ d0 : Dev nD, (k0_dev98 d0) < nD
  k0_dev99_lt : ∀ d0 : Dev nD, (k0_dev99 d0) < nD
  k0_off13_inb : ∀ d0 : Dev nD, ∀ a, (k0_off13 d0) a + S512x1024.size a ≤ S8192x2048.size a
  k0_dev100_lt : ∀ d0 : Dev nD, (k0_dev100 d0) < nD
  k0_dev101_lt : ∀ d0 : Dev nD, (k0_dev101 d0) < nD
  k0_dev102_lt : ∀ d0 : Dev nD, (k0_dev102 d0) < nD
  k0_dev103_lt : ∀ d0 : Dev nD, (k0_dev103 d0) < nD
  k0_off14_inb : ∀ d0 : Dev nD, ∀ a, (k0_off14 d0) a + S512x1024.size a ≤ S8192x2048.size a
  k0_dev104_lt : ∀ d0 : Dev nD, (k0_dev104 d0) < nD
  k0_dev105_lt : ∀ d0 : Dev nD, (k0_dev105 d0) < nD
  k0_dev106_lt : ∀ d0 : Dev nD, (k0_dev106 d0) < nD
  k0_dev107_lt : ∀ d0 : Dev nD, (k0_dev107 d0) < nD
  k0_off15_inb : ∀ d0 : Dev nD, ∀ a, (k0_off15 d0) a + S512x1024.size a ≤ S8192x2048.size a
  k0_dev108_lt : ∀ d0 : Dev nD, (k0_dev108 d0) < nD
  k0_dev109_lt : ∀ d0 : Dev nD, (k0_dev109 d0) < nD
  k0_dev110_lt : ∀ d0 : Dev nD, (k0_dev110 d0) < nD
  k0_dev111_lt : ∀ d0 : Dev nD, (k0_dev111 d0) < nD
  k0_off16_inb : ∀ d0 : Dev nD, ∀ a, (k0_off16 d0) a + S512x1024.size a ≤ S8192x2048.size a
  k0_dev112_lt : ∀ d0 : Dev nD, (k0_dev112 d0) < nD
  k0_dev113_lt : ∀ d0 : Dev nD, (k0_dev113 d0) < nD
  k0_dev114_lt : ∀ d0 : Dev nD, (k0_dev114 d0) < nD
  k0_dev115_lt : ∀ d0 : Dev nD, (k0_dev115 d0) < nD
  k0_off17_inb : ∀ d0 : Dev nD, ∀ a, (k0_off17 d0) a + S512x1024.size a ≤ S8192x2048.size a
  k0_dev116_lt : ∀ d0 : Dev nD, (k0_dev116 d0) < nD
  k0_dev117_lt : ∀ d0 : Dev nD, (k0_dev117 d0) < nD
  k0_dev118_lt : ∀ d0 : Dev nD, (k0_dev118 d0) < nD
  k0_dev119_lt : ∀ d0 : Dev nD, (k0_dev119 d0) < nD
  k0_off18_inb : ∀ d0 : Dev nD, ∀ a, (k0_off18 d0) a + S512x1024.size a ≤ S8192x2048.size a
  k0_dev120_lt : ∀ d0 : Dev nD, (k0_dev120 d0) < nD
  k0_dev121_lt : ∀ d0 : Dev nD, (k0_dev121 d0) < nD
  k0_dev122_lt : ∀ d0 : Dev nD, (k0_dev122 d0) < nD
  k0_dev123_lt : ∀ d0 : Dev nD, (k0_dev123 d0) < nD
  k0_off19_inb : ∀ d0 : Dev nD, ∀ a, (k0_off19 d0) a + S512x1024.size a ≤ S8192x2048.size a
  k0_dev124_lt : ∀ d0 : Dev nD, (k0_dev124 d0) < nD
  k0_dev125_lt : ∀ d0 : Dev nD, (k0_dev125 d0) < nD
  k0_dev126_lt : ∀ d0 : Dev nD, (k0_dev126 d0) < nD
  k0_dev127_lt : ∀ d0 : Dev nD, (k0_dev127 d0) < nD
  k0_off20_inb : ∀ d0 : Dev nD, ∀ a, (k0_off20 d0) a + S512x1024.size a ≤ S8192x2048.size a
  k0_dev128_lt : ∀ d0 : Dev nD, (k0_dev128 d0) < nD
  k0_dev129_lt : ∀ d0 : Dev nD, (k0_dev129 d0) < nD
  k0_dev130_lt : ∀ d0 : Dev nD, (k0_dev130 d0) < nD

variable [Facts₀]

abbrev cc0_scratch0 : DmaSems sig S64 := SemArray.consecutive 0 S64 hcc0_scratch0
abbrev cc0_scratch1 : DmaSems sig S64 := SemArray.consecutive 64 S64 hcc0_scratch1
abbrev cc0_scratch2 : DmaSems sig S64 := SemArray.consecutive 128 S64 hcc0_scratch2
abbrev cc0_scratch3 : DmaSems sig S64 := SemArray.consecutive 192 S64 hcc0_scratch3
abbrev cc0_scratch5 : DmaSems sig S4 := SemArray.consecutive 256 S4 hcc0_scratch5

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S16384x2048 : Shape := ⟨2, ![16384, 2048]⟩

abbrev nBuf : Space → Nat
  | .hbm => 1
  | .vmem => 0
  | .smem => 0
  | _ => 0

abbrev bufTy : (tb : Table) → Fin (tcTables nBuf tb) → BufTy
  | .hbm, ⟨0, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.RefRun.lean ====
import proofs.«900037_g7700000000000038_dist_a2a_v7x_xy2x2_y_m8192_n1024_f32_1_alg».proof.Defs
import proofs.«900037_g7700000000000038_dist_a2a_v7x_xy2x2_y_m8192_n1024_f32_1_alg».proof.Proof.Gen.ReferenceIdeal
import proofs.«900037_g7700000000000038_dist_a2a_v7x_xy2x2_y_m8192_n1024_f32_1_alg».proof.Proof.Gen.Pre_finite_inputs_ReferenceIdeal
import Idealize.ShloMosaic.Lib.StableHlo.Run

noncomputable section

namespace Cert.RefRun

open Idealize.ShloMosaic Idealize.SL.Sem Idealize.ShloMosaic.StableHlo
open Cert.ReferenceIdeal

/-- The reference's signature scopes no buffer -/
theorem scopedRefs_eq : (Finset.univ.filter fun b : Ref sig .tc => b.isScoped) = ∅ := by decide
/-- and no semaphore. -/
theorem scopedSems_eq : (Finset.univ.filter fun sm : SemLoc sig => sm.isScoped .tc) = ∅ := by decide

/-- @main is the empty line of host operations: it returns at once. -/
theorem main_eq (d : Dev nD) : main (F := Ideal) d = seq [] := rfl

/-- Every weakly fair execution of the reference terminates with every TensorCore buffer at its launch contents. -/
theorem ref_run_tc (m' : (ℓ : Loc nD τ sig) → Buf (Elt Ideal) ℓ) (g' : Dev nD → PrngReg) :
    θ_run (defs (F := Ideal)) (onTc (τ := τ) (main (F := Ideal))) ⟨m', fun _ => 0, g'⟩
      (fun r => ∀ (d : Dev nD) (b : Ref sig .tc), r.2.mem ((d.tc : Thread nD τ).loc b) = m' ((d.tc : Thread nD τ).loc b)) :=
  run_seq scopedRefs_eq scopedSems_eq defs main (fun _ => []) main_eq (fun _ => trivial) m' g'

/-- The reference's signature declares one HBM buffer and nothing else: every buffer of a device is a
    TensorCore reference. -/
theorem all_tc (dr : DevRef τ sig) : dr ∈ tcRefs τ sig := by
  revert dr; decide

/-- So every location is a device's TensorCore's view of a reference. -/
theorem loc_tc (ℓ : Loc nD τ sig) : ∃ (d : Dev nD) (b : Ref sig .tc), ℓ = (d.tc : Thread nD τ).loc b := by
  obtain ⟨d, dr⟩ := ℓ
  obtain ⟨b, _, rfl⟩ := Finset.mem_map.mp (all_tc dr)
  exact ⟨d, b, rfl⟩

theorem ref_run (m' : (ℓ : Loc nD τ sig) → Buf (Elt Ideal) ℓ) (g' : Dev nD → PrngReg) :
    θ_run (defs (F := Ideal)) (onTc (τ := τ) (main (F := Ideal))) ⟨m', fun _ => 0, g'⟩ (fun r => ∀ ℓ, r.2.mem ℓ = m' ℓ) :=
  (θ_run _ _ _).mono (fun _ h ℓ => by obtain ⟨d, b, rfl⟩ := loc_tc ℓ; exact h d b) (ref_run_tc m' g')

theorem frame_ref : Cert.frame_ReferenceIdeal (hReferenceIdeal := Cert.ReferenceIdeal.Gen.facts)
    (hPre_finite_inputs_ReferenceIdeal := Cert.Pre_finite_inputs_ReferenceIdeal.Gen.facts) :=
  fun m g _ => (θ_run _ _ _).mono (fun _ h c => h _) (ref_run m g)

/-- info: 'Cert.RefRun.ref_run' depends on axioms: [propext, Classical.choice, Quot.sound] -/
#guard_msgs in #print axioms ref_run
/-- info: 'Cert.RefRun.frame_ref' depends on axioms: [propext, Classical.choice, Quot.sound] -/
#guard_msgs in #print axioms frame_ref
end Cert.RefRun
-- ==== Proof.Proto.lean ====
/-
  The mesh and the memory regions of the two-hop exchange.

  Four devices on a 2 × 2 mesh, device d = 2·mx + my.  Every device holds the row block `my` of the whole array x
  (8192 × 2048) and must end with the column block `my` of the whole array (16384 × 1024).  Its own row block it copies
  locally, 512 rows at a time.  The other row block reaches it in two hops: the half of the rows numbered by its own mx
  straight from its y-neighbour (mx, 1 - my), the other half from its x-neighbour (1 - mx, my), which forwards what IT
  received from ITS y-neighbour.  The neighbours, the 64-row slices the transfers move, and how the slices one device
  writes on another are the slices that device names itself, are stated here.
-/
import proofs.«900037_g7700000000000038_dist_a2a_v7x_xy2x2_y_m8192_n1024_f32_1_alg».proof.Proof.Gen.KernelIdeal
import proofs.«900037_g7700000000000038_dist_a2a_v7x_xy2x2_y_m8192_n1024_f32_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The neighbours -/

/-- The neighbour along the mesh's y axis: (mx, 1 - my). -/
def yp (c : Dev nD) : Dev nD := ⟨(2 * (c.val / 2) + 1) - (c.val % 2), by have : c.val < 4 := c.isLt; show _ < 4; omega⟩
/-- The neighbour along the mesh's x axis: (1 - mx, my). -/
def xp (c : Dev nD) : Dev nD := ⟨((c.val % 2) + 2) - 2 * (c.val / 2), by have : c.val < 4 := c.isLt; show _ < 4; omega⟩

theorem yp_yp (c : Dev nD) : yp (yp c) = c := by revert c; decide
theorem xp_xp (c : Dev nD) : xp (xp c) = c := by revert c; decide
theorem yp_xp (c : Dev nD) : yp (xp c) = xp (yp c) := by revert c; decide
theorem yp_ne (c : Dev nD) : yp c ≠ c := by revert c; decide
theorem xp_ne (c : Dev nD) : xp c ≠ c := by revert c; decide
theorem yp_ne_xp (c : Dev nD) : yp c ≠ xp c := by revert c; decide

def ypEquiv : Dev nD ≃ Dev nD := ⟨yp, yp, yp_yp, yp_yp⟩
def xpEquiv : Dev nD ≃ Dev nD := ⟨xp, xp, xp_xp, xp_xp⟩

/-! ## The buffers and the slices -/

abbrev xM : Memref sig .tc .hbm S8192x2048 .f32 := Memref.whole main_arg0
abbrev oM : Memref sig .tc .hbm S16384x1024 .f32 := Memref.whole main_v1
abbrev vM : Memref sig .tc .vmem S2x512x1024 .f32 := Memref.whole cc0_scratch4

/-- Slice k of x that device d sends to its y-neighbour: rows 4096·mx + 64k …, columns of the OTHER column block. -/
abbrev ySrc (d : Dev nD) (k : Fin 64) : Memref sig .tc .hbm S64x1024 .f32 :=
  xM.slice (Rect.unit (s := S8192x2048) (k0_off2 d (BitVec.ofNat 32 (64 * k.val))) S64x1024.size (k0_off2_inb d k)) (fun _ => rfl)
/-- Where device d's slice k lands in its y-neighbour's result, as d computes the rows. -/
abbrev yDst (d : Dev nD) (k : Fin 64) : Memref sig .tc .hbm S64x1024 .f32 :=
  oM.slice (Rect.unit (s := S16384x1024) (k0_off1 d (BitVec.ofNat 32 (64 * k.val))) S64x1024.size (k0_off1_inb d k)) (fun _ => rfl)
/-- Slice k of the result that device d forwards: the rows its y-neighbour's slice k landed in; the same rows of the
    x-neighbour's result are where the forwarded copy lands. -/
abbrev fSl (d : Dev nD) (k : Fin 64) : Memref sig .tc .hbm S64x1024 .f32 :=
  oM.slice (Rect.unit (s := S16384x1024) (k0_off3 d (BitVec.ofNat 32 (64 * k.val))) S64x1024.size (k0_off3_inb d k)) (fun _ => rfl)
/-- Chunk j (512 rows) of the device's own row block in the result. -/
abbrev lDst (d : Dev nD) (j : Fin 16) : Memref sig .tc .hbm S512x1024 .f32 :=
  oM.slice (Rect.unit (s := S16384x1024) (k0_off5 d (BitVec.ofNat 32 (512 * j.val))) S512x1024.size (k0_off5_inb d j)) (fun _ => rfl)

/-- The rows a device writes on its y-neighbour are the rows that neighbour forwards. -/
theorem off1_eq_off3 (c : Dev nD) (k : Fin 64) :
    k0_off1 c (BitVec.ofNat 32 (64 * k.val)) = k0_off3 (yp c) (BitVec.ofNat 32 (64 * k.val)) := by
  rw [k0_off1_eq, k0_off3_eq]
  have hk := k.isLt
  have hc : c.val < 4 := c.isLt
  have : (c.val = 0 ∨ c.val = 1) ∨ (c.val = 2 ∨ c.val = 3) := by omega
  funext a
  rcases this with (h | h) | (h | h) <;> fin_cases a <;> simp [yp, h] <;> omega

theorem yDst_eq (c : Dev nD) (k : Fin 64) : yDst c k = fSl (yp c) k := by
  unfold yDst fSl
  exact Memref.slice_unit_congr _ (off1_eq_off3 c k) _ _ _ _

end Cert.KernelIdealProof

end
-- ==== Proof.Spec.lean ====
import proofs.«900037_g7700000000000038_dist_a2a_v7x_xy2x2_y_m8192_n1024_f32_1_alg».proof.Defs
import Idealize.ShloMosaic.Lib.Layout
import Idealize.ShloMosaic.Lib.ValueIdx

noncomputable section

namespace Cert.Spec

open Idealize.ShloMosaic Idealize.SL.Sem Idealize.ShloMosaic.ValueIdx
open Cert.KernelIdeal

variable {F : FTy → Type} [FloatOps F]

/-- As seen from device `c` of the 2 × 2 mesh (device `2·mx + my`), the device whose argument block holds
    whole-array row `r` (of 16384) among those that send to `c`: the argument is cut along its rows by the
    mesh's second axis, so row block `r / 8192` lies on the devices whose second coordinate it is; `c` itself
    when that is `c`'s own, and otherwise the device of the other second coordinate whose first coordinate is
    the half `(r % 8192) / 4096` of the block the row falls in. -/
def srcDev (c : Dev nD) (r : Nat) : Dev nD :=
  if r / 8192 = c.val % 2 then c else ⟨2 * ((r % 8192) / 4096) + (1 - c.val % 2), by show _ < 4; omega⟩

/-- What device `c`'s result buffer holds at the end, in terms of the argument buffers at launch: row `r`,
    column `j` is entry `(r % 8192, (c % 2) · 1024 + j)` of the argument block of `srcDev c r`. -/
def outFinal (m : (ℓ : Loc nD τ sig) → Buf (Elt F) ℓ) (c : Dev nD) :
    Buf (Elt F) ((c.tc : Thread nD τ).loc main_v1) :=
  fun i => m (((srcDev c (i 0).val).tc : Thread nD τ).loc main_arg0)
    (ix2 (n0 := 8192) (n1 := 2048) ⟨(i 0).val % 8192, by omega⟩
      ⟨(c.val % 2) * 1024 + (i 1).val, by have := idx2_lt1 i; omega⟩)

/-- A dimension cut along the mesh's second axis alone: the device's block is its second coordinate. -/
theorem meshLin_y (n : Nat) : Layout.meshLin [2, 2] n [1] = n % 2 := by
  simp [Layout.meshLin, Layout.meshCoord, Layout.cutSize]

/-- The source device of row `r` has second coordinate the row block `r / 8192`. -/
theorem srcDev_mod (c : Dev nD) (r : Nat) (hr : r < 16384) : (srcDev c r).val % 2 = r / 8192 := by
  unfold srcDev
  split
  · next h => exact h.symm
  · next h =>
    show (2 * ((r % 8192) / 4096) + (1 - c.val % 2)) % 2 = r / 8192
    omega

theorem outFinal_eq_block (m : (ℓ : Loc nD τ sig) → Buf (Elt F) ℓ) (X : (⟨2, ![16384, 2048]⟩ : Shape).Idx → Elt F .f32)
    (hagree : ∀ d : Dev nD, m ((d.tc : Thread nD τ).loc main_arg0) = Layout.blockN ⟨2, ![8192, 2048]⟩ ⟨2, ![16384, 2048]⟩ (Layout.meshBlock [2, 2] ![[1], []] d) X) (c : Dev nD) :
    outFinal m c = Layout.blockN ⟨2, ![16384, 1024]⟩ ⟨2, ![16384, 2048]⟩ (Layout.meshBlock [2, 2] ![[], [1]] c) X := by
  funext i
  have h0 := idx2_lt0 i
  have h1 := idx2_lt1 i
  unfold outFinal
  rw [hagree]
  simp only [Layout.blockN_apply]
  congr 1
  funext b
  apply Fin.ext
  rw [Layout.TilesN.idx_val, Layout.TilesN.idx_val]
  rcases b with ⟨_ | _ | n, hb⟩
  · -- rows: the source device's block of the argument starts at row (r / 8192) · 8192
    show Layout.meshLin [2, 2] (srcDev c (i 0).val).val [1] * 8192 + (i 0).val % 8192
        = Layout.meshLin [2, 2] c.val [] * 16384 + (i 0).val
    rw [meshLin_y, srcDev_mod c _ h0]
    show _ = 0 * 16384 + (i 0).val
    omega
  · -- columns: the argument is not cut along them, the result is cut by the second mesh coordinate
    show Layout.meshLin [2, 2] (srcDev c (i 0).val).val [] * 2048 + (c.val % 2 * 1024 + (i 1).val)
        = Layout.meshLin [2, 2] c.val [1] * 1024 + (i 1).val
    rw [meshLin_y]
    show 0 * 2048 + _ = _
    omega
  · exact absurd hb (by simp)

/-- info: 'Cert.Spec.outFinal_eq_block' depends on axioms: [propext, Classical.choice, Quot.sound] -/
#guard_msgs in #print axioms outFinal_eq_block

end Cert.Spec
-- ==== Proof.Local.lean ====
/-
  The slices of the local copy: the 16 chunks of the device's own column block of its argument, the two slots of the
  scratch buffer they pass through, and what a slot holds once a chunk has been loaded into it.
-/
import proofs.«900037_g7700000000000038_dist_a2a_v7x_xy2x2_y_m8192_n1024_f32_1_alg».proof.Proof.Proto
import proofs.«900037_g7700000000000038_dist_a2a_v7x_xy2x2_y_m8192_n1024_f32_1_alg».proof.Proof.Spec

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ)

/-- The offsets, in the device's argument, of chunk `j` (512 rows) of its own column block: those the program
    computes for the local copy's load `j`. -/
def lOff (d : Dev nD) : Fin 16 → Fin 2 → Nat
  | ⟨0, _⟩ => k0_off4 d
  | ⟨1, _⟩ => k0_off6 d
  | ⟨2, _⟩ => k0_off7 d
  | ⟨3, _⟩ => k0_off8 d
  | ⟨4, _⟩ => k0_off9 d
  | ⟨5, _⟩ => k0_off10 d
  | ⟨6, _⟩ => k0_off11 d
  | ⟨7, _⟩ => k0_off12 d
  | ⟨8, _⟩ => k0_off13 d
  | ⟨9, _⟩ => k0_off14 d
  | ⟨10, _⟩ => k0_off15 d
  | ⟨11, _⟩ => k0_off16 d
  | ⟨12, _⟩ => k0_off17 d
  | ⟨13, _⟩ => k0_off18 d
  | ⟨14, _⟩ => k0_off19 d
  | ⟨15, _⟩ => k0_off20 d
  | ⟨n + 16, h⟩ => absurd h (by omega)

theorem lOff_inb (d : Dev nD) : ∀ (j : Fin 16) (a : Fin 2), lOff d j a + S512x1024.size a ≤ S8192x2048.size a
  | ⟨0, _⟩ => k0_off4_inb d
  | ⟨1, _⟩ => k0_off6_inb d
  | ⟨2, _⟩ => k0_off7_inb d
  | ⟨3, _⟩ => k0_off8_inb d
  | ⟨4, _⟩ => k0_off9_inb d
  | ⟨5, _⟩ => k0_off10_inb d
  | ⟨6, _⟩ => k0_off11_inb d
  | ⟨7, _⟩ => k0_off12_inb d
  | ⟨8, _⟩ => k0_off13_inb d
  | ⟨9, _⟩ => k0_off14_inb d
  | ⟨10, _⟩ => k0_off15_inb d
  | ⟨11, _⟩ => k0_off16_inb d
  | ⟨12, _⟩ => k0_off17_inb d
  | ⟨13, _⟩ => k0_off18_inb d
  | ⟨14, _⟩ => k0_off19_inb d
  | ⟨15, _⟩ => k0_off20_inb d
  | ⟨n + 16, h⟩ => absurd h (by omega)

/-- Chunk `j` starts at row 512·j and at the column block of the device's second coordinate. -/
theorem lOff_eq (d : Dev nD) : ∀ j : Fin 16, lOff d j = ![512 * j.val, 1024 * (d.val % 2)]
  | ⟨0, _⟩ => k0_off4_eq d
  | ⟨1, _⟩ => k0_off6_eq d
  | ⟨2, _⟩ => k0_off7_eq d
  | ⟨3, _⟩ => k0_off8_eq d
  | ⟨4, _⟩ => k0_off9_eq d
  | ⟨5, _⟩ => k0_off10_eq d
  | ⟨6, _⟩ => k0_off11_eq d
  | ⟨7, _⟩ => k0_off12_eq d
  | ⟨8, _⟩ => k0_off13_eq d
  | ⟨9, _⟩ => k0_off14_eq d
  | ⟨10, _⟩ => k0_off15_eq d
  | ⟨11, _⟩ => k0_off16_eq d
  | ⟨12, _⟩ => k0_off17_eq d
  | ⟨13, _⟩ => k0_off18_eq d
  | ⟨14, _⟩ => k0_off19_eq d
  | ⟨15, _⟩ => k0_off20_eq d
  | ⟨n + 16, h⟩ => absurd h (by omega)

/-- Chunk `j` of the device's own column block of its argument: the source of the local copy's load `j`. -/
abbrev lSrc (d : Dev nD) (j : Fin 16) : Memref sig .tc .hbm S512x1024 .f32 :=
  xM.slice (Rect.unit (s := S8192x2048) (lOff d j) S512x1024.size (lOff_inb d j)) (fun _ => rfl)

theorem inbSlot (s : Fin 2) : ∀ a, (![s.val, 0, 0] : Fin 3 → Nat) a + S1x512x1024.size a ≤ S2x512x1024.size a := fun a => by
  have := s.isLt
  fin_cases a
  · show s.val + 1 ≤ 2; omega
  · show 0 + 512 ≤ 512; omega
  · show 0 + 1024 ≤ 1024; omega

/-- Slot `s` of the scratch buffer, as a 512 × 1024 array. -/
abbrev vSlot (s : Fin 2) : Memref sig .tc .vmem S512x1024 .f32 :=
  (vM.slice (Rect.unit (s := S2x512x1024) ![s.val, 0, 0] S1x512x1024.size (inbSlot s)) (fun _ => rfl)).squeeze S512x1024 squeezes_S1x512x1024_S512x1024

/-- What a slot of the scratch buffer holds once chunk `q` of the device's own column block of its argument has been
    loaded into it: entry (r, j) of either slot is entry (512·q + r, 1024·my + j) of the argument. It does not read the
    slot coordinate, so it is one function for both slots. -/
def VC (c : Dev nD) (q : Fin 16) : Buf (Elt F) ((c : Thread nD τ).loc cc0_scratch4) :=
  fun i => m ((c : Thread nD τ).loc main_arg0)
    (ValueIdx.ix2 (n0 := 8192) (n1 := 2048)
      ⟨512 * q.val + (i 1).val, by have h1 : (i 1).val < 512 := (i 1).isLt; have := q.isLt; omega⟩
      ⟨1024 * (c.val % 2) + (i 2).val, by have h2 : (i 2).val < 1024 := (i 2).isLt; omega⟩)

theorem VC_apply (c : Dev nD) (q : Fin 16) (i : S2x512x1024.Idx) (x : S8192x2048.Idx)
    (h0 : (x 0).val = 512 * q.val + (i 1).val) (h1 : (x 1).val = 1024 * (c.val % 2) + (i 2).val) :
    VC m c q i = m ((c : Thread nD τ).loc main_arg0) x := by
  unfold VC
  congr 1
  funext a
  apply Fin.ext
  match a with
  | ⟨0, _⟩ => exact h0.symm
  | ⟨1, _⟩ => exact h1.symm

end Cert.KernelIdealProof

end
-- ==== Proof.Sched.lean ====
/-
  The protocol of the two-hop exchange, as a schedule of rounds.

  Per device: one cell for the entry barrier and, for each of the 64 slices, four cells — the y-transfer's send and
  receive cells and the forwarding transfer's send and receive cells.  The barrier and the transfer cells have one round.  (The four cells of the local copies, which move the device's
  own row block through a two-slot scratch buffer, have eight rounds each, one per chunk.)  The barrier's round
  has two duties of one unit: the y-neighbour's signal, which hands over the 64 slices of ITS result that this device's
  y-transfers will write, at the contents it found them with (and the fact that it has reached round 0 of the matching receive cells), and the
  x-neighbour's, which hands over the 64 slices the forwarded copies will write.  A transfer cell's one duty is the
  slice's credit: a send cell gives the source slice back, a receive cell gives the landed slice at its final contents.
-/
import proofs.«900037_g7700000000000038_dist_a2a_v7x_xy2x2_y_m8192_n1024_f32_1_alg».proof.Proof.Proto
import proofs.«900037_g7700000000000038_dist_a2a_v7x_xy2x2_y_m8192_n1024_f32_1_alg».proof.Proof.Spec
import proofs.«900037_g7700000000000038_dist_a2a_v7x_xy2x2_y_m8192_n1024_f32_1_alg».proof.Proof.Local

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The cells -/

theorem inb64 (k : Fin 64) : ∀ a, (![k.val] : Fin 1 → Nat) a + S1.size a ≤ S64.size a := fun a => by
  have := k.isLt; fin_cases a; show k.val + 1 ≤ 64; omega

/-- Semaphore k of an array of 64. -/
abbrev semOf (A : DmaSems sig S64) (k : Fin 64) : DmaSem sig :=
  ((A.slice (Rect.unit (s := S64) ![k.val] S1.size (inb64 k))).squeeze S_ squeezes_S1_S_).sem

abbrev barS : Sem sig := (SemArray.scalar (sig.barrier 0 rfl) : Sems sig S_).sem
abbrev ysS (k : Fin 64) : DmaSem sig := semOf cc0_scratch0 k
abbrev yrS (k : Fin 64) : DmaSem sig := semOf cc0_scratch1 k
abbrev fsS (k : Fin 64) : DmaSem sig := semOf cc0_scratch2 k
abbrev frS (k : Fin 64) : DmaSem sig := semOf cc0_scratch3 k

theorem ysS_val : ∀ k : Fin 64, (ysS k).val = k.val := by decide
theorem yrS_val : ∀ k : Fin 64, (yrS k).val = 64 + k.val := by decide
theorem fsS_val : ∀ k : Fin 64, (fsS k).val = 128 + k.val := by decide
theorem frS_val : ∀ k : Fin 64, (frS k).val = 192 + k.val := by decide

theorem inb4 (j : Fin 4) : ∀ a, (![j.val] : Fin 1 → Nat) a + S1.size a ≤ S4.size a := fun a => by
  have := j.isLt; fin_cases a; show j.val + 1 ≤ 4; omega
/-- The four semaphores of the local copies: loads of the two scratch slots on 0 and 1, stores from them on 2 and 3. -/
abbrev lsS (j : Fin 4) : DmaSem sig :=
  ((cc0_scratch5.slice (Rect.unit (s := S4) ![j.val] S1.size (inb4 j))).squeeze S_ squeezes_S1_S_).sem
theorem lsS_val : ∀ j : Fin 4, (lsS j).val = 256 + j.val := by decide

abbrev barCell (c : Dev nD) : GSem nD τ sig := ((c : Thread nD τ), .reg barS)
abbrev ysCell (c : Dev nD) (k : Fin 64) : GSem nD τ sig := ((c : Thread nD τ), .dma (ysS k))
abbrev yrCell (c : Dev nD) (k : Fin 64) : GSem nD τ sig := ((c : Thread nD τ), .dma (yrS k))
abbrev fsCell (c : Dev nD) (k : Fin 64) : GSem nD τ sig := ((c : Thread nD τ), .dma (fsS k))
abbrev frCell (c : Dev nD) (k : Fin 64) : GSem nD τ sig := ((c : Thread nD τ), .dma (frS k))

abbrev lsCell (c : Dev nD) (j : Fin 4) : GSem nD τ sig := ((c : Thread nD τ), .dma (lsS j))

/-- What a cell is for. -/
inductive CK where
  | bar | ys (k : Fin 64) | yr (k : Fin 64) | fs (k : Fin 64) | fr (k : Fin 64) | ls (j : Fin 4)
  deriving DecidableEq

/-- The cell's role, read off the semaphore's number. -/
def kindOf : SemLoc sig → Option CK
  | .reg s => if s = barS then some .bar else none
  | .dma s =>
    if h : s.val < 64 then some (.ys ⟨s.val, h⟩)
    else if h : s.val < 128 then some (.yr ⟨s.val - 64, by omega⟩)
    else if h : s.val < 192 then some (.fs ⟨s.val - 128, by omega⟩)
    else if h : s.val < 256 then some (.fr ⟨s.val - 192, by omega⟩)
    else if h : s.val < 260 then some (.ls ⟨s.val - 256, by omega⟩)
    else none

theorem kindOf_bar : kindOf (.reg barS) = some .bar := by
  show (if barS = barS then some CK.bar else none) = _
  exact if_pos rfl
theorem kindOf_ys (k : Fin 64) : kindOf (.dma (ysS k)) = some (.ys k) := by
  have h := ysS_val k; have := k.isLt
  show (if h : (ysS k).val < 64 then some (CK.ys ⟨(ysS k).val, h⟩) else _) = _
  rw [dif_pos (by omega)]
  simp only [h]
theorem kindOf_yr (k : Fin 64) : kindOf (.dma (yrS k)) = some (.yr k) := by
  have h := yrS_val k; have := k.isLt
  unfold kindOf; dsimp only
  rw [dif_neg (by omega), dif_pos (by omega)]
  simp only [h, Nat.add_sub_cancel_left]
theorem kindOf_fs (k : Fin 64) : kindOf (.dma (fsS k)) = some (.fs k) := by
  have h := fsS_val k; have := k.isLt
  unfold kindOf; dsimp only
  rw [dif_neg (by omega), dif_neg (by omega), dif_pos (by omega)]
  simp only [h, Nat.add_sub_cancel_left]
theorem kindOf_fr (k : Fin 64) : kindOf (.dma (frS k)) = some (.fr k) := by
  have h := frS_val k; have := k.isLt
  unfold kindOf; dsimp only
  rw [dif_neg (by omega), dif_neg (by omega), dif_neg (by omega), dif_pos (by omega)]
  simp only [h, Nat.add_sub_cancel_left]

theorem kindOf_ls (j : Fin 4) : kindOf (.dma (lsS j)) = some (.ls j) := by
  have h := lsS_val j; have := j.isLt
  unfold kindOf; dsimp only
  rw [dif_neg (by omega), dif_neg (by omega), dif_neg (by omega), dif_neg (by omega), dif_pos (by omega)]
  simp only [h, Nat.add_sub_cancel_left]

/-- The credit of a 64 × 1024 slice. -/
abbrev N64 : ℕ := (fSl (0 : Dev nD) (0 : Fin 64)).view.dmaCredit
theorem N64_pos : 0 < N64 := View.dmaCredit_pos _ (by decide)

/-! ## Contents and payloads -/

/-- What device `c`'s result holds in the end (the specification's function of every device's x). -/
abbrev outC (c : Dev nD) : Buf (Elt F) ((c : Thread nD τ).loc main_v1) := Cert.Spec.outFinal m c
abbrev xC (c : Dev nD) : Buf (Elt F) ((c : Thread nD τ).loc main_arg0) := m ((c : Thread nD τ).loc main_arg0)

/-- What device `c`'s result holds when the kernel starts. -/
abbrev o0 (c : Dev nD) : Buf (Elt F) ((c : Thread nD τ).loc main_v1) := m ((c : Thread nD τ).loc main_v1)

/-- A 64-row slice of the result on device `c`, held whole, at contents `f`. -/
abbrev slPts (c : Dev nD) (M : Memref sig .tc .hbm S64x1024 .f32) (f : Buf (Elt F) (M.view.loc (c : Thread nD τ))) : sProp 𝕄 :=
  M.view.loc (c : Thread nD τ) ↦[M.view.set]{fullShare} f

/-- Device `c`'s result once its y-neighbour's slice k has landed in it: the start contents overwritten, on the
    slice, by the neighbour's slice of x. -/
abbrev YCont (c : Dev nD) (k : Fin 64) : Buf (Elt F) ((c : Thread nD τ).loc main_v1) :=
  (fSl c k).view.write (Elt F) (o0 m c) ((ySrc (yp c) k).view.read (Elt F) (xC m (yp c))) Finset.univ
/-- Device `c`'s result once its x-neighbour's forwarded slice k has landed in it. -/
abbrev FCont (c : Dev nD) (k : Fin 64) : Buf (Elt F) ((c : Thread nD τ).loc main_v1) :=
  (fSl (xp c) k).view.write (Elt F) (o0 m c) ((fSl (xp c) k).view.read (Elt F) (YCont m (xp c) k)) Finset.univ

/-- The y-neighbour's signal hands over its own slices for this device's y-transfers, as it found them; -/
def barPayY (c : Dev nD) : sProp 𝕄 :=
  iprop((bigSep Finset.univ fun k : Fin 64 => ((fSl (yp c) k).view.loc ((yp c : Dev nD) : Thread nD τ) ↦[(fSl (yp c) k).view.set]{fullShare} o0 m (yp c)))
    ∗ bigSep Finset.univ fun k : Fin 64 => reached ER (yrCell (yp c) k) 0)
/-- the x-neighbour's its slices for the forwarded copies. -/
def barPayX (c : Dev nD) : sProp 𝕄 :=
  iprop((bigSep Finset.univ fun k : Fin 64 => ((fSl c k).view.loc ((xp c : Dev nD) : Thread nD τ) ↦[(fSl c k).view.set]{fullShare} o0 m (xp c)))
    ∗ bigSep Finset.univ fun k : Fin 64 => reached ER (frCell (xp c) k) 0)
def ysPay (c : Dev nD) (k : Fin 64) : sProp 𝕄 :=
  (ySrc c k).view.loc (c : Thread nD τ) ↦[(ySrc c k).view.set]{fullShare} xC m c
def yrPay (c : Dev nD) (k : Fin 64) : sProp 𝕄 :=
  (fSl c k).view.loc (c : Thread nD τ) ↦[(fSl c k).view.set]{fullShare} YCont m c k
def fsPay (c : Dev nD) (k : Fin 64) : sProp 𝕄 :=
  (fSl c k).view.loc (c : Thread nD τ) ↦[(fSl c k).view.set]{fullShare} YCont m c k
def frPay (c : Dev nD) (k : Fin 64) : sProp 𝕄 :=
  (fSl (xp c) k).view.loc (c : Thread nD τ) ↦[(fSl (xp c) k).view.set]{fullShare} FCont m c k

/-- The credit of a 512 × 1024 block in the scratch buffer and in the result. -/
abbrev NV : ℕ := (vSlot (0 : Fin 2)).view.dmaCredit
abbrev NO : ℕ := (lDst (0 : Dev nD) (0 : Fin 16)).view.dmaCredit
theorem NV_pos : 0 < NV := View.dmaCredit_pos _ (by decide)
theorem NO_pos : 0 < NO := View.dmaCredit_pos _ (by decide)

/-- The chunk a local copy on slot `s` moves in its round `r`: chunk 2r + s. -/
def chunkOf (s : Fin 2) (r : ℕ) : Fin 16 := ⟨(2 * r + s.val) % 16, Nat.mod_lt _ (by decide)⟩

/-- What round `r` of a load's cell hands back: the scratch slot holding the chunk of x, and the slice of x read. -/
def ldPay (c : Dev nD) (s : Fin 2) (r : ℕ) : sProp 𝕄 :=
  iprop(((vSlot s).view.loc (c : Thread nD τ) ↦[(vSlot s).view.set]{fullShare} VC m c (chunkOf s r))
    ∗ ((lSrc c (chunkOf s r)).view.loc (c : Thread nD τ) ↦[(lSrc c (chunkOf s r)).view.set]{fullShare} xC m c))
/-- What round `r` of a store's cell hands back: the chunk of the result at its final contents, and the slot. -/
def stPay (c : Dev nD) (s : Fin 2) (r : ℕ) : sProp 𝕄 :=
  iprop(((lDst c (chunkOf s r)).view.loc (c : Thread nD τ) ↦[(lDst c (chunkOf s r)).view.set]{fullShare} outC m c)
    ∗ ((vSlot s).view.loc (c : Thread nD τ) ↦[(vSlot s).view.set]{fullShare} VC m c (chunkOf s r)))
/-- Cells 0 and 1 are the loads of slots 0 and 1, cells 2 and 3 the stores from them. -/
def lsPay (c : Dev nD) (j : Fin 4) (r : ℕ) : sProp 𝕄 :=
  match j with
  | ⟨0, _⟩ => ldPay m c 0 r
  | ⟨1, _⟩ => ldPay m c 1 r
  | ⟨2, _⟩ => stPay m c 0 r
  | ⟨_ + 3, _⟩ => stPay m c 1 r

/-- The schedule: one round for the barrier and the transfer cells, eight for each local copy's cell. -/
def rd : Rounds.Schedule (GSem nD τ sig) Bool 𝕄 where
  duties g r :=
    if g.1.2 = .tc then
      (match kindOf g.2 with
        | some .bar => if r = 0 then Finset.univ else ∅
        | some (.ls _) => if r < 8 then {false} else ∅
        | some _ => if r = 0 then {false} else ∅
        | none => ∅)
    else ∅
  unitless _ := False
  amount g _ _ := match kindOf g.2 with
    | some .bar => 1
    | some (.ls j) => if j.val < 2 then NV else NO
    | _ => N64
  payload g r d := match kindOf g.2 with
    | some .bar => if d then barPayX m g.1.1 else barPayY m g.1.1
    | some (.ys k) => ysPay m g.1.1 k
    | some (.yr k) => yrPay m g.1.1 k
    | some (.fs k) => fsPay m g.1.1 k
    | some (.fr k) => frPay m g.1.1 k
    | some (.ls j) => lsPay m g.1.1 j r
    | none => iprop(emp)
  amount_pos g _ _ _ := by
    split
    · exact Nat.one_pos
    · split
      · exact NV_pos
      · exact NO_pos
    · exact N64_pos

instance rd_payload_storable (g : GSem nD τ sig) (r : ℕ) (d : Bool) :
    BI.Storable (upEmb : UEmb _ 𝕄) ((rd (F := F) m).payload g r d) := by
  show BI.Storable upEmb (match kindOf g.2 with
    | some .bar => if d then barPayX m g.1.1 else barPayY m g.1.1
    | some (.ys k) => ysPay m g.1.1 k
    | some (.yr k) => yrPay m g.1.1 k
    | some (.fs k) => fsPay m g.1.1 k
    | some (.fr k) => frPay m g.1.1 k
    | some (.ls j) => lsPay m g.1.1 j r
    | none => iprop(emp))
  unfold barPayX barPayY ysPay yrPay fsPay frPay lsPay ldPay stPay
  (repeat' split) <;> infer_instance

end Cert.KernelIdealProof

end
-- ==== Proof.Data.lean ====
/-
  What each device starts from and ends with: the protocol's ghost state, the levels that order the waits, what a
  device owes its neighbours' cells at launch, and the pipeline's proof data (the kernel has no staged window: its one
  grid point runs the body on the whole arrays).
-/
import proofs.«900037_g7700000000000038_dist_a2a_v7x_xy2x2_y_m8192_n1024_f32_1_alg».proof.Proof.Sched
import proofs.«900037_g7700000000000038_dist_a2a_v7x_xy2x2_y_m8192_n1024_f32_1_alg».proof.Proof.Gen.KernelIdeal.Skeleton
import proofs.«900037_g7700000000000038_dist_a2a_v7x_xy2x2_y_m8192_n1024_f32_1_alg».proof.Proof.Gen.KernelIdeal.Points

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## All the protocol's cells, indexed -/

/-- A device's cells: the barrier (`none`) and, for j = 0 … 3 and each slice k, the y-send, y-receive, forward-send
    and forward-receive cell. -/
abbrev CIx : Type := Option (Fin 4 × Fin 64)

abbrev kcell (d : Dev nD) : CIx → GSem nD τ sig
  | none => barCell d
  | some (⟨0, _⟩, k) => ysCell d k
  | some (⟨1, _⟩, k) => yrCell d k
  | some (⟨2, _⟩, k) => fsCell d k
  | some (⟨_ + 3, _⟩, k) => frCell d k

/-! ## Ghost state -/

def invs (K : Dev nD × CIx → ℕ) : sProp 𝕄 :=
  bigSep Finset.univ fun dk : Dev nD × CIx => cellInv ER (rd m) (K dk) (kcell dk.1 dk.2)
def reachedAll : sProp 𝕄 :=
  bigSep Finset.univ fun dk : Dev nD × CIx => (reached ER (kcell dk.1 dk.2) 0 : sProp 𝕄)
def positions (c : Dev nD) : sProp 𝕄 :=
  bigSep Finset.univ fun i : CIx => (atPos ER (kcell c i) 0 ∅ 0 : sProp 𝕄)
/-- The tokens of the duties device `c` pays: both neighbours' barrier duties; per slice, its own two send duties, the
    y-neighbour's receive duty and the x-neighbour's forward-receive duty. -/
def payToks (c : Dev nD) : sProp 𝕄 :=
  iprop(dutyTok ER (barCell (yp c)) 0 false ∗ dutyTok ER (barCell (xp c)) 0 true
    ∗ bigSep Finset.univ fun k : Fin 64 =>
        iprop(dutyTok ER (ysCell c k) 0 false ∗ dutyTok ER (yrCell (yp c) k) 0 false
          ∗ dutyTok ER (fsCell c k) 0 false ∗ dutyTok ER (frCell (xp c) k) 0 false))

/-- The local copies' four cells, on every device: their invariants; -/
def lsInvs (KL : Dev nD × Fin 4 → ℕ) : sProp 𝕄 :=
  bigSep Finset.univ fun dj : Dev nD × Fin 4 => cellInv ER (rd m) (KL dj) (lsCell dj.1 dj.2)
/-- and what their owner starts from: its position, round 0 reached, the tokens of the eight rounds' duties (it pays them
    itself, one local copy a round). -/
def lsState (c : Dev nD) : sProp 𝕄 :=
  bigSep Finset.univ fun j : Fin 4 =>
    iprop((atPos ER (lsCell c j) 0 ∅ 0 : sProp 𝕄) ∗ reached ER (lsCell c j) 0 ∗ bigSep (Finset.range 8) fun r => dutyTok ER (lsCell c j) r false)

def ghost (K : Dev nD × CIx → ℕ) (KL : Dev nD × Fin 4 → ℕ) (c : Dev nD) : sProp 𝕄 :=
  iprop(invs m K ∗ reachedAll ∗ positions c ∗ payToks c ∗ lsInvs m KL ∗ lsState c)

/-- The launch credit: what the neighbours owe this device's cells. -/
def creds (c : Dev nD) : sProp 𝕄 :=
  iprop(cred (tallyAt (barCell c) () 2)
    ∗ bigSep Finset.univ fun k : Fin 64 => iprop(cred (tallyAt (yrCell c k) () N64) ∗ cred (tallyAt (frCell c k) () N64)))

/-! ## What a device owes at launch; the levels -/

def O₀ (c : Dev nD) : CellTallies nD τ sig Unit :=
  (∑ k : Fin 64, tallyAt (yrCell (yp c) k) () N64) + (∑ k : Fin 64, tallyAt (frCell (xp c) k) () N64)
    + tallyAt (barCell (xp c)) () 1 + tallyAt (barCell (yp c)) () 1

def L (g : GSem nD τ sig) : Finset Unit := if g.1.2 = .tc then {()} else ∅
/-- Barrier cells at 1, y-receive cells at 2, forward-receive cells at 3, everything else at 0: a device waits on a
    cell only while everything it still owes lies strictly above it. -/
def lv (g : GSem nD τ sig) (_ : Unit) : ℕ := match kindOf g.2 with
  | some .bar => 1
  | some (.yr _) => 2
  | some (.fr _) => 3
  | _ => 0

/-! ## Buffers -/

abbrev xWhole (c : Dev nD) : sProp 𝕄 := ((c : Thread nD τ).loc main_arg0) ↦{fullShare} xC m c
abbrev oWhole (c : Dev nD) (f : Buf (Elt F) ((c : Thread nD τ).loc main_v1)) : sProp 𝕄 := ((c : Thread nD τ).loc main_v1) ↦{fullShare} f
abbrev vWhole (c : Dev nD) (f : Buf (Elt F) ((c : Thread nD τ).loc cc0_scratch4)) : sProp 𝕄 := ((c : Thread nD τ).loc cc0_scratch4) ↦{fullShare} f
/-- The local copies' four cells of device `c`, closed, their counters at zero. -/
def lsems (c : Dev nD) : sProp 𝕄 := bigSep Finset.univ fun j : Fin 4 => semVal (lsCell c j) 0
/-- The protocol's 256 transfer cells of device `c`, closed, their counters at zero. -/
def xferZero (c : Dev nD) : sProp 𝕄 := bigSep Finset.univ fun jk : Fin 4 × Fin 64 => semVal (kcell c (some jk)) 0

def start (c : Dev nD) : sProp 𝕄 :=
  iprop((∃ K KL, ghost m K KL c) ∗ creds c ∗ levAts L lv ∗ xWhole m c ∗ oWhole c (o0 m c))

def Φ₀ (c : Dev nD) : sProp 𝕄 := iprop(start m c ∗ ∃ f, vWhole c f)
/-- After the point: x as it was, the result at its final contents, the scratch buffer, every own semaphore at zero. -/
def Φ₁ (c : Dev nD) : sProp 𝕄 :=
  iprop(xWhole m c ∗ oWhole c (outC m c) ∗ (∃ f, vWhole c f) ∗ lsems c ∗ xferZero c)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## The body's contract -/

def bodyPre (K : Dev nD × CIx → ℕ) (KL : Dev nD × Fin 4 → ℕ) (c : Dev nD) : sProp 𝕄 :=
  iprop(ghost m K KL c ∗ creds c ∗ levAts L lv ∗ xWhole m c ∗ oWhole c (o0 m c) ∗ (∃ f, vWhole c f)
    ∗ (dats m 0 c).owesAt () t₀.castSucc)

def bodyPost (c : Dev nD) : sProp 𝕄 := iprop(Φ₁ m c ∗ (dats m 0 c).owesAt () t₀.succ)

end Cert.KernelIdealProof

end
-- ==== Proof.Launch.lean ====
/-
  The launch of the two-hop exchange.

  The kernel's own semaphores are the 256 transfer cells of the protocol and the four cells of the local copies; the
  runtime's barrier semaphore is the one unscoped semaphore.  At launch every cell of every device gets its invariant
  from its counter at zero and its round state.  The duty tokens minted at a protocol cell's owner travel to the device
  that pays the duty (the y-neighbour, the x-neighbour, or the owner itself for a send cell); the tokens of a local
  copy's eight rounds stay with the owner, which pays them itself.  What the neighbours owe a device's cells is that
  device's launch credit.  The body's contract is taken as a hypothesis.
-/
import proofs.«900037_g7700000000000038_dist_a2a_v7x_xy2x2_y_m8192_n1024_f32_1_alg».proof.Proof.Data

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

/-- The transfer cell (j, k) as a DMA semaphore: j = 0 … 3 the y-send, y-receive, forward-send, forward-receive array. -/
def dsem : Fin 4 × Fin 64 → DmaSem sig
  | (⟨0, _⟩, k) => ysS k
  | (⟨1, _⟩, k) => yrS k
  | (⟨2, _⟩, k) => fsS k
  | (⟨_ + 3, _⟩, k) => frS k

omit [FloatOps F] in
theorem kcell_some (d : Dev nD) (jk : Fin 4 × Fin 64) : kcell d (some jk) = ((d : Thread nD τ), SemLoc.dma (dsem jk)) := by
  obtain ⟨j, k⟩ := jk
  match j with
  | ⟨0, _⟩ => rfl
  | ⟨1, _⟩ => rfl
  | ⟨2, _⟩ => rfl
  | ⟨_ + 3, _⟩ => rfl

theorem dsem_val (jk : Fin 4 × Fin 64) : (dsem jk).val = 64 * jk.1.val + jk.2.val := by
  obtain ⟨j, k⟩ := jk
  match j with
  | ⟨0, _⟩ => exact (ysS_val k).trans (by simp)
  | ⟨1, _⟩ => exact (yrS_val k).trans (by simp)
  | ⟨2, _⟩ => exact (fsS_val k).trans (by simp)
  | ⟨n + 3, h⟩ =>
    have hn : n = 0 := by omega
    subst hn
    exact (frS_val k).trans (by simp)

/-- The own semaphores, indexed: the 256 transfer cells, then the four of the local copies. -/
abbrev OIx : Type := (Fin 4 × Fin 64) ⊕ Fin 4
def osem : OIx → SemLoc sig := Sum.elim (fun jk => .dma (dsem jk)) (fun j => .dma (lsS j))

theorem dma_scoped : ∀ s : DmaSem sig, (SemLoc.dma s : SemLoc sig).isScoped .tc = true := by decide

theorem osem_injective : Function.Injective osem := by
  rintro (a | a) (b | b) h
  · have h' : dsem a = dsem b := SemLoc.dma.inj h
    have hv := congrArg Fin.val h'
    rw [dsem_val, dsem_val] at hv
    have ha := a.2.isLt; have hb := b.2.isLt
    exact congrArg Sum.inl (Prod.ext (Fin.ext (by omega)) (Fin.ext (by omega)))
  · have h' : dsem a = lsS b := SemLoc.dma.inj h
    have hv := congrArg Fin.val h'
    rw [dsem_val, lsS_val] at hv
    have ha := a.2.isLt; have ha' := a.1.isLt
    omega
  · have h' : lsS a = dsem b := SemLoc.dma.inj h
    have hv := congrArg Fin.val h'
    rw [dsem_val, lsS_val] at hv
    have hb := b.2.isLt; have hb' := b.1.isLt
    omega
  · have h' : lsS a = lsS b := SemLoc.dma.inj h
    have hv := congrArg Fin.val h'
    rw [lsS_val, lsS_val] at hv
    exact congrArg Sum.inr (Fin.ext (by omega))

theorem ownSemFacts : Pipeline.OwnSemFacts cfg0.spec osem :=
  ⟨fun k => by rcases k with k | k <;> exact dma_scoped _, osem_injective, fun _ w => w.elim0⟩

omit [FloatOps F] in
/-- The own semaphores at zero are the transfer cells and the local copies' semaphores at zero; -/
theorem ownSems0_eq (c : Dev nD) : (Pipeline.ownSems0 (Ix := Unit) (Name := ℕ) (U := UU) (Lvl := ℕ) (Val := Elt F) (τ := τ) osem c : sProp 𝕄)
    = iprop(xferZero c ∗ lsems c) := by
  unfold Pipeline.ownSems0 xferZero lsems
  rw [bigSep_univ_sum]
  congr 1

omit [FloatOps F] in
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem bigSep_option {α : Type} [Fintype α] [DecidableEq α] (Φ : Option α → sProp 𝕄) :
    bigSep Finset.univ Φ = iprop(Φ none ∗ bigSep Finset.univ fun a => Φ (some a)) := by
  have h : (Finset.univ.erase none : Finset (Option α)) = Finset.univ.map Function.Embedding.some := by
    ext x; cases x <;> simp
  rw [bigSep_univ_at Φ none, h, bigSep_map]; rfl

omit [FloatOps F] in
/-- All of a device's protocol cells closed at zero. -/
theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun i : CIx => semVal (kcell c i) 0) ∗ bigSep Finset.univ fun j : Fin 4 => semVal (lsCell c j) 0 : sProp 𝕄) := by
  rw [ownSems0_eq, unscopedSems0_eq, bigSep_option]
  unfold xferZero lsems
  iintro ⟨⟨HX, HL⟩, HB⟩
  isplitr [HL]
  · isplitl [HB] <;> iassumption
  · iexact HL

/-! ## The cells and their duty tokens -/

/-- The role of a device's protocol cell number. -/
def ckOf : CIx → CK
  | none => .bar
  | some (⟨0, _⟩, k) => .ys k
  | some (⟨1, _⟩, k) => .yr k
  | some (⟨2, _⟩, k) => .fs k
  | some (⟨_ + 3, _⟩, k) => .fr k

theorem kindOf_kcell (d : Dev nD) (i : CIx) : kindOf (kcell d i).2 = some (ckOf i) := by
  rcases i with _ | ⟨j, k⟩
  · exact kindOf_bar
  · match j with
    | ⟨0, _⟩ => exact kindOf_ys k
    | ⟨1, _⟩ => exact kindOf_yr k
    | ⟨2, _⟩ => exact kindOf_fs k
    | ⟨_ + 3, _⟩ => exact kindOf_fr k

theorem ckOf_injective : Function.Injective ckOf := by
  intro a b h
  rcases a with _ | ⟨ja, ka⟩ <;> rcases b with _ | ⟨jb, kb⟩
  · rfl
  · match jb with
    | ⟨0, _⟩ | ⟨1, _⟩ | ⟨2, _⟩ | ⟨_ + 3, _⟩ => cases h
  · match ja with
    | ⟨0, _⟩ | ⟨1, _⟩ | ⟨2, _⟩ | ⟨_ + 3, _⟩ => cases h
  · match ja, jb with
    | ⟨0, _⟩, ⟨0, _⟩ | ⟨1, _⟩, ⟨1, _⟩ | ⟨2, _⟩, ⟨2, _⟩ => cases h; rfl
    | ⟨na + 3, ha⟩, ⟨nb + 3, hb⟩ =>
      cases h
      have : na = nb := by omega
      subst this; rfl
    | ⟨0, _⟩, ⟨1, _⟩ | ⟨0, _⟩, ⟨2, _⟩ | ⟨0, _⟩, ⟨_ + 3, _⟩ | ⟨1, _⟩, ⟨0, _⟩ | ⟨1, _⟩, ⟨2, _⟩ | ⟨1, _⟩, ⟨_ + 3, _⟩
    | ⟨2, _⟩, ⟨0, _⟩ | ⟨2, _⟩, ⟨1, _⟩ | ⟨2, _⟩, ⟨_ + 3, _⟩ | ⟨_ + 3, _⟩, ⟨0, _⟩ | ⟨_ + 3, _⟩, ⟨1, _⟩ | ⟨_ + 3, _⟩, ⟨2, _⟩ => cases h

/-- No protocol cell is a local copy's cell. -/
theorem ckOf_ne_ls (i : CIx) (j : Fin 4) : ckOf i ≠ .ls j := by
  rcases i with _ | ⟨ji, k⟩
  · intro h; cases h
  · match ji with
    | ⟨0, _⟩ | ⟨1, _⟩ | ⟨2, _⟩ | ⟨_ + 3, _⟩ => intro h; cases h

omit [FloatOps F] in
theorem kcell_dev (d : Dev nD) (i : CIx) : (kcell d i).1 = (d : Thread nD τ) := by
  rcases i with _ | jk
  · rfl
  · rw [kcell_some]

/-- All of a device's cells: the protocol's, then the four of the local copies. -/
abbrev XIx : Type := CIx ⊕ Fin 4
abbrev xcell (d : Dev nD) : XIx → GSem nD τ sig
  | .inl i => kcell d i
  | .inr j => lsCell d j
def xkOf : XIx → CK
  | .inl i => ckOf i
  | .inr j => .ls j

theorem kindOf_xcell (d : Dev nD) (x : XIx) : kindOf (xcell d x).2 = some (xkOf x) := by
  rcases x with i | j
  · exact kindOf_kcell d i
  · exact kindOf_ls j

theorem xkOf_injective : Function.Injective xkOf := by
  rintro (a | a) (b | b) h
  · exact congrArg Sum.inl (ckOf_injective h)
  · exact absurd h (ckOf_ne_ls a b)
  · exact absurd h.symm (ckOf_ne_ls b a)
  · exact congrArg Sum.inr (CK.ls.inj h)

omit [FloatOps F] in
theorem xcell_dev (d : Dev nD) (x : XIx) : (xcell d x).1 = (d : Thread nD τ) := by
  rcases x with i | j
  · exact kcell_dev d i
  · rfl

theorem xcell_injective : Function.Injective (fun dx : Dev nD × XIx => xcell dx.1 dx.2) := by
  rintro ⟨d, x⟩ ⟨d', x'⟩ h
  have h1 : d = d' := by
    have := congrArg (fun g : GSem nD τ sig => g.1.1) h
    simp only [xcell_dev] at this
    exact this
  subst h1
  have h2 : some (xkOf x) = some (xkOf x') := by
    rw [← kindOf_xcell d x, ← kindOf_xcell d x']
    exact congrArg (fun g : GSem nD τ sig => kindOf g.2) h
  rw [xkOf_injective (Option.some.inj h2)]

/-- Every device's cells. -/
def allCells : Finset (GSem nD τ sig) := Finset.univ.map ⟨fun dx : Dev nD × XIx => xcell dx.1 dx.2, xcell_injective⟩

/-- A protocol cell's duties: the barrier's two, a transfer cell's one. -/
abbrev TIx : Type := Bool ⊕ (Fin 4 × Fin 64)
abbrev tcell : TIx → CIx := Sum.elim (fun _ => none) some
abbrev tduty : TIx → Bool := Sum.elim id (fun _ => false)
/-- All the duties minted at launch: the protocol cells', and one a round for each of the eight rounds of a local
    copy's cell. -/
abbrev YIx : Type := TIx ⊕ (Fin 4 × Fin 8)
def tokOf : Dev nD × YIx → GSem nD τ sig × ℕ × Bool
  | (d, .inl t) => (kcell d (tcell t), 0, tduty t)
  | (d, .inr jr) => (lsCell d jr.1, jr.2.val, false)

theorem tokOf_injective : Function.Injective (tokOf : Dev nD × YIx → GSem nD τ sig × ℕ × Bool) := by
  rintro ⟨d, y⟩ ⟨d', y'⟩ h
  rcases y with t | jr <;> rcases y' with t' | jr'
  · have hc := xcell_injective (a₁ := (d, Sum.inl (tcell t))) (a₂ := (d', Sum.inl (tcell t'))) (congrArg (fun x : GSem nD τ sig × ℕ × Bool => x.1) h)
    have hb : tduty t = tduty t' := congrArg (fun x : GSem nD τ sig × ℕ × Bool => x.2.2) h
    have h1 : d = d' := congrArg Prod.fst hc
    have h2 : tcell t = tcell t' := Sum.inl.inj (congrArg Prod.snd hc)
    subst h1
    rcases t with b | jk <;> rcases t' with b' | jk'
    · cases (show b = b' from hb); rfl
    · cases h2
    · cases h2
    · cases (show jk = jk' from Option.some.inj h2); rfl
  · have hc := xcell_injective (a₁ := (d, Sum.inl (tcell t))) (a₂ := (d', Sum.inr jr'.1)) (congrArg (fun x : GSem nD τ sig × ℕ × Bool => x.1) h)
    have h2 : (Sum.inl (tcell t) : XIx) = Sum.inr jr'.1 := congrArg Prod.snd hc
    cases h2
  · have hc := xcell_injective (a₁ := (d, Sum.inr jr.1)) (a₂ := (d', Sum.inl (tcell t'))) (congrArg (fun x : GSem nD τ sig × ℕ × Bool => x.1) h)
    have h2 : (Sum.inr jr.1 : XIx) = Sum.inl (tcell t') := congrArg Prod.snd hc
    cases h2
  · have hc := xcell_injective (a₁ := (d, Sum.inr jr.1)) (a₂ := (d', Sum.inr jr'.1)) (congrArg (fun x : GSem nD τ sig × ℕ × Bool => x.1) h)
    have hr : jr.2.val = jr'.2.val := congrArg (fun x : GSem nD τ sig × ℕ × Bool => x.2.1) h
    have h1 : d = d' := congrArg Prod.fst hc
    have h2 : jr.1 = jr'.1 := Sum.inr.inj (congrArg Prod.snd hc)
    subst h1
    obtain ⟨j, r⟩ := jr; obtain ⟨j', r'⟩ := jr'
    cases (show j = j' from h2); cases (show r = r' from Fin.ext hr); rfl

def allToks : Finset (GSem nD τ sig × ℕ × Bool) := Finset.univ.map ⟨tokOf, tokOf_injective⟩

def u₀ : UU :=
  (initOf (Pipeline.cells cfgs cellOf_inj) (Pipeline.launchToks cfgs cellOf_inj), initOf allCells allToks)

/-- The duty tokens of device `c`'s own protocol cells, as minted; -/
def toks (c : Dev nD) : sProp 𝕄 :=
  bigSep Finset.univ fun t : TIx => dutyTok ER (kcell c (tcell t)) 0 (tduty t)
/-- those of its local copies' cells, a round each. -/
def lstoks (c : Dev nD) : sProp 𝕄 :=
  bigSep Finset.univ fun jr : Fin 4 × Fin 8 => dutyTok ER (lsCell c jr.1) jr.2.val false

/-- What the launch element deals device `c`: round states, reached facts, positions and tokens of its own cells. -/
def G (c : Dev nD) : sProp 𝕄 :=
  iprop((bigSep Finset.univ fun i : CIx => roundState ER (rd m) (kcell c i) 0)
    ∗ (bigSep Finset.univ fun j : Fin 4 => roundState ER (rd m) (lsCell c j) 0)
    ∗ (bigSep Finset.univ fun i : CIx => reached ER (kcell c i) 0)
    ∗ (bigSep Finset.univ fun j : Fin 4 => reached ER (lsCell c j) 0)
    ∗ (bigSep Finset.univ fun i : CIx => atPos ER (kcell c i) 0 ∅ 0)
    ∗ (bigSep Finset.univ fun j : Fin 4 => atPos ER (lsCell c j) 0 ∅ 0)
    ∗ toks c ∗ lstoks c)

/-- What the global step makes of it: the ghost state. -/
def G' (c : Dev nD) : sProp 𝕄 := iprop(∃ K KL, ghost m K KL c)

omit [FloatOps F] in
/-- Over every device's cells: the protocol cells device by device, and the local copies' cells device by device. -/
theorem bigSep_cells (Φ : GSem nD τ sig → sProp 𝕄) :
    bigSep allCells Φ = iprop((bigSep Finset.univ fun c : Dev nD => bigSep Finset.univ fun i : CIx => Φ (kcell c i))
      ∗ bigSep Finset.univ fun c : Dev nD => bigSep Finset.univ fun j : Fin 4 => Φ (lsCell c j)) := by
  unfold allCells
  rw [bigSep_map, bigSep_univ_prod, ← bigSep_sep']
  exact bigSep_congr fun c _ => bigSep_univ_sum _

omit [FloatOps F] in
theorem bigSep_toks : bigSep allToks (fun x => (dutyTok ER x.1 x.2.1 x.2.2 : sProp 𝕄))
    = iprop((bigSep Finset.univ fun c : Dev nD => toks c) ∗ bigSep Finset.univ fun c : Dev nD => lstoks c) := by
  unfold allToks
  rw [bigSep_map, bigSep_univ_prod, ← bigSep_sep']
  exact bigSep_congr fun c _ => bigSep_univ_sum _

omit [FloatOps F] in
theorem bigSep_prod (Φ : Dev nD → CIx → sProp 𝕄) :
    (bigSep Finset.univ fun dk : Dev nD × CIx => Φ dk.1 dk.2) = bigSep Finset.univ fun c : Dev nD => bigSep Finset.univ fun i : CIx => Φ c i :=
  bigSep_univ_prod _
omit [FloatOps F] in
theorem bigSep_prodL (Φ : Dev nD → Fin 4 → sProp 𝕄) :
    (bigSep Finset.univ fun dj : Dev nD × Fin 4 => Φ dj.1 dj.2) = bigSep Finset.univ fun c : Dev nD => bigSep Finset.univ fun j : Fin 4 => Φ c j :=
  bigSep_univ_prod _

omit [FloatOps F] in
theorem fund_all : BI.own (ER (initOf allCells allToks)) ⊢ (|==> bigSep Finset.univ (G m) : sProp 𝕄) := by
  iintro HX
  imod (Rounds.fund ER (rd m) allCells allToks) $$ HX with ⟨Hst, Hr, Hat, Htok⟩
  imodintro
  ihave Hst' := (Entails.of_eq (bigSep_cells fun g => roundState ER (rd m) g 0)) $$ Hst
  ihave Hr' := (Entails.of_eq (bigSep_cells fun g => reached ER g 0)) $$ Hr
  ihave Hat' := (Entails.of_eq (bigSep_cells fun g => atPos ER g 0 ∅ 0)) $$ Hat
  ihave Htok' := (Entails.of_eq (bigSep_toks (F := F))) $$ Htok
  icases Hst' with ⟨Hst1, Hst2⟩
  icases Hr' with ⟨Hr1, Hr2⟩
  icases Hat' with ⟨Hat1, Hat2⟩
  icases Htok' with ⟨Htok1, Htok2⟩
  unfold G; simp only [bigSep_sep']
  isplitl [Hst1]; · iexact Hst1
  isplitl [Hst2]; · iexact Hst2
  isplitl [Hr1]; · iexact Hr1
  isplitl [Hr2]; · iexact Hr2
  isplitl [Hat1]; · iexact Hat1
  isplitl [Hat2]; · iexact Hat2
  isplitl [Htok1]; · iexact Htok1
  iexact Htok2

omit [FloatOps F] in
/-- A family of cells closed at zero, each with its round state, gets its invariants. -/
theorem alloc_cells {I : Type} [Fintype I] (g : I → GSem nD τ sig) :
    iprop((bigSep Finset.univ fun i : I => semVal (g i) 0) ∗ bigSep Finset.univ fun i : I => roundState ER (rd m) (g i) 0)
      ⊢ (|={Set.univ}=> bigSep Finset.univ fun i : I => iprop(∃ κ : ℕ, cellInv ER (rd m) κ (g i)) : sProp 𝕄) := by
  rw [← bigSep_sep']
  exact (bigSep_mono fun i _ => (Rounds.body_intro ER (rd m) (g i)).trans inv_alloc).trans (bigSep_fupd _ _)

omit [FloatOps F] in
/-- The eight rounds' tokens of a cell, over the rounds' numbers. -/
theorem bigSep_range8 (Φ : ℕ → sProp 𝕄) : (bigSep Finset.univ fun r : Fin 8 => Φ r.val) = bigSep (Finset.range 8) Φ := by
  rw [show Finset.range 8 = (Finset.univ : Finset (Fin 8)).map Fin.valEmbedding from by decide, bigSep_map]; rfl

omit [FloatOps F] in
theorem lstoks_eq (c : Dev nD) : (lstoks c : sProp 𝕄)
    = bigSep Finset.univ fun j : Fin 4 => bigSep (Finset.range 8) fun r => dutyTok ER (lsCell c j) r false := by
  unfold lstoks
  rw [bigSep_univ_prod]
  exact bigSep_congr fun j _ => bigSep_range8 fun r => (dutyTok ER (lsCell c j) r false : sProp 𝕄)

omit [FloatOps F] in
/-- What the owner of the local copies' cells starts from, piece by piece. -/
theorem lsState_of (c : Dev nD) : (lsState c : sProp 𝕄) = iprop((bigSep Finset.univ fun j : Fin 4 => atPos ER (lsCell c j) 0 ∅ 0)
    ∗ (bigSep Finset.univ fun j : Fin 4 => reached ER (lsCell c j) 0) ∗ lstoks c) := by
  rw [lstoks_eq]; unfold lsState; rw [bigSep_sep', bigSep_sep']

omit [FloatOps F] in
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : CIx => iprop(∃ κ : ℕ, cellInv ER (rd m) κ (kcell c i)))
          ∗ (bigSep Finset.univ fun j : Fin 4 => iprop(∃ κ : ℕ, cellInv ER (rd m) κ (lsCell c j)))
          ∗ (bigSep Finset.univ fun i : CIx => reached ER (kcell c i) 0) ∗ (bigSep Finset.univ fun i : CIx => atPos ER (kcell c i) 0 ∅ 0)
          ∗ toks c ∗ lsState c) := by
  unfold G
  rw [lsState_of]
  iintro ⟨Hos, Hus, Hst1, Hst2, Hr1, Hr2, Hat1, Hat2, Htok, Hltok⟩
  ihave Hv := (sems0_eq (F := F) c) $$ [Hos Hus]
  · isplitl [Hos] <;> iassumption
  icases Hv with ⟨Hv1, Hv2⟩
  imod (alloc_cells m (kcell c)) $$ [Hv1 Hst1] with Hinv1
  · isplitl [Hv1] <;> iassumption
  imod (alloc_cells m (lsCell c)) $$ [Hv2 Hst2] with Hinv2
  · isplitl [Hv2] <;> iassumption
  imodintro
  isplitl [Hinv1]; · iexact Hinv1
  isplitl [Hinv2]; · iexact Hinv2
  isplitl [Hr1]; · iexact Hr1
  isplitl [Hat1]; · iexact Hat1
  isplitl [Htok]; · iexact Htok
  isplitl [Hat2]; · iexact Hat2
  isplitl [Hr2]; · iexact Hr2
  iexact Hltok

def records (K : Dev nD × CIx → ℕ) (KL : Dev nD × Fin 4 → ℕ) : sProp 𝕄 := iprop(invs m K ∗ reachedAll ∗ lsInvs m KL)

instance records_persistent (K : Dev nD × CIx → ℕ) (KL : Dev nD × Fin 4 → ℕ) : BI.Persistent (records m K KL) := by
  unfold records invs reachedAll lsInvs; infer_instance

/-- What stays with device `c`: its positions, the tokens of the duties it pays, its local copies' cells' state. -/
def linear (c : Dev nD) : sProp 𝕄 := iprop(positions c ∗ payToks c ∗ lsState c)

omit [FloatOps F] in
theorem ghost_intro (K : Dev nD × CIx → ℕ) (KL : Dev nD × Fin 4 → ℕ) (c : Dev nD) : iprop(records m K KL ∗ linear c) ⊢ G' m c := by
  unfold records linear G' ghost
  iintro ⟨⟨HI, HR, HIL⟩, Hp, Ht, Hl⟩
  iexists K; iexists KL
  isplitl [HI]; · iexact HI
  isplitl [HR]; · iexact HR
  isplitl [Hp]; · iexact Hp
  isplitl [Ht]; · iexact Ht
  isplitl [HIL]; · iexact HIL
  iexact Hl

omit [FloatOps F] in
theorem bigSep_four (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in
/-- A device's own protocol tokens, by kind. -/
theorem toks_eq (c : Dev nD) : (toks c : sProp 𝕄) = iprop((dutyTok ER (barCell c) 0 false ∗ dutyTok ER (barCell c) 0 true)
    ∗ (bigSep Finset.univ fun k : Fin 64 => dutyTok ER (ysCell c k) 0 false) ∗ (bigSep Finset.univ fun k : Fin 64 => dutyTok ER (yrCell c k) 0 false)
    ∗ (bigSep Finset.univ fun k : Fin 64 => dutyTok ER (fsCell c k) 0 false) ∗ (bigSep Finset.univ fun k : Fin 64 => dutyTok ER (frCell c k) 0 false)) := by
  unfold toks
  rw [bigSep_univ_sum, bigSep_univ_prod, bigSep_four]
  congr 1
  exact bigSep_univ_eq_bigSepL [false, true] (by decide) (by decide) _

omit [FloatOps F] in
theorem bigSep_yp (Φ : Dev nD → sProp 𝕄) : bigSep Finset.univ Φ = bigSep Finset.univ fun c => Φ (yp c) := bigSep_univ_equiv ypEquiv Φ
omit [FloatOps F] in
theorem bigSep_xp (Φ : Dev nD → sProp 𝕄) : bigSep Finset.univ Φ = bigSep Finset.univ fun c => Φ (xp c) := bigSep_univ_equiv xpEquiv Φ

omit [FloatOps F] in
/-- The tokens travel to the payers: a barrier's two to the two neighbours, a receive cell's to the sending neighbour. -/
theorem toks_around : (bigSep Finset.univ fun c : Dev nD => (toks c : sProp 𝕄)) ⊢ bigSep Finset.univ fun c : Dev nD => payToks c := by
  unfold payToks
  simp only [toks_eq, bigSep_sep']
  iintro ⟨⟨HBf, HBt⟩, HYS, HYR, HFS, HFR⟩
  isplitl [HBf]
  · iapply (Entails.of_eq (bigSep_yp fun c : Dev nD => (dutyTok ER (barCell c) 0 false : sProp 𝕄)))
    iexact HBf
  isplitl [HBt]
  · iapply (Entails.of_eq (bigSep_xp fun c : Dev nD => (dutyTok ER (barCell c) 0 true : sProp 𝕄)))
    iexact HBt
  isplitl [HYS]; · iexact HYS
  isplitl [HYR]
  · iapply (Entails.of_eq (bigSep_yp fun c : Dev nD => (bigSep Finset.univ fun k : Fin 64 => dutyTok ER (yrCell c k) 0 false : sProp 𝕄)))
    iexact HYR
  isplitl [HFS]; · iexact HFS
  iapply (Entails.of_eq (bigSep_xp fun c : Dev nD => (bigSep Finset.univ fun k : Fin 64 => dutyTok ER (frCell c k) 0 false : sProp 𝕄)))
  iexact HFR

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun i : CIx => iprop(∃ κ : ℕ, cellInv ER (rd m) κ (kcell c i)))
          ∗ (bigSep Finset.univ fun j : Fin 4 => iprop(∃ κ : ℕ, cellInv ER (rd m) κ (lsCell c j)))
          ∗ (bigSep Finset.univ fun i : CIx => reached ER (kcell c i) 0) ∗ (bigSep Finset.univ fun i : CIx => atPos ER (kcell c i) 0 ∅ 0)
          ∗ toks c ∗ lsState c) : sProp 𝕄)
      ⊢ bigSep Finset.univ (G' m) := by
  simp only [bigSep_sep']
  rw [← bigSep_prod (fun c i => iprop(∃ κ : ℕ, cellInv ER (rd m) κ (kcell c i))), ← bigSep_prodL (fun c j => iprop(∃ κ : ℕ, cellInv ER (rd m) κ (lsCell c j))),
    ← bigSep_prod (fun c i => (reached ER (kcell c i) 0 : sProp 𝕄))]
  iintro ⟨HI, HIL, #HR, Hat, Htok, Hls⟩
  ihave HK := (BI.bigSep_exists_pi Finset.univ (fun (dk : Dev nD × CIx) (κ : ℕ) => (cellInv ER (rd m) κ (kcell dk.1 dk.2) : sProp 𝕄))) $$ HI
  icases HK with ⟨%K, #HI⟩
  ihave HKL := (BI.bigSep_exists_pi Finset.univ (fun (dj : Dev nD × Fin 4) (κ : ℕ) => (cellInv ER (rd m) κ (lsCell dj.1 dj.2) : sProp 𝕄))) $$ HIL
  icases HKL with ⟨%KL, #HIL⟩
  ihave Htk := (toks_around (F := F)) $$ Htok
  iapply (bigSep_with_persistent (R := records m K KL) fun c _ => ghost_intro m K KL c)
  isplitr
  · unfold records invs reachedAll lsInvs
    isplitl; · iexact HI
    isplitl; · iexact HR
    iexact HIL
  · unfold linear positions
    simp only [bigSep_sep']
    isplitl [Hat]; · iexact Hat
    isplitl [Htk]; · iexact Htk
    iexact Hls

omit [FloatOps F] in
/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
/-- The barrier's two units, one from each neighbour, are the barrier's credit. -/
theorem bar_two (c : Dev nD) :
    iprop(cred (tallyAt (barCell c) () 1) ∗ cred (tallyAt (barCell c) () 1)) ⊢ (cred (tallyAt (barCell c) () 2) : sProp 𝕄) := by
  rw [← tallyAt_add (barCell c) () 1 1]
  exact (cred_add _ _).2

omit [FloatOps F] in
/-- What the neighbours owe a device's cells: a unit each at its barrier, a slice's credit at each receive cell from the
    y-neighbour and at each forward-receive cell from the x-neighbour. -/
theorem creds_intro (c : Dev nD) : (Pipeline.launchCred O₀ c : sProp 𝕄) ⊢ creds c := by
  have hO : (O₀ : Dev nD → CellTallies nD τ sig Unit) = fun d => (((∑ k : Fin 64, tallyAt (yrCell (yp d) k) () N64) + (∑ k : Fin 64, tallyAt (frCell (xp d) k) () N64))
      + tallyAt (barCell (xp d)) () 1) + tallyAt (barCell (yp d)) () 1 := by funext d; rfl
  rw [hO, Pipeline.launchCred_add, Pipeline.launchCred_add, Pipeline.launchCred_add, Pipeline.launchCred_sum, Pipeline.launchCred_sum]
  unfold creds
  iintro ⟨⟨⟨HA, HB⟩, HC⟩, HD⟩
  isplitl [HC HD]
  · ihave HC' := (Pipeline.launchCred_tallyAt (SemLoc.reg barS) xp xp xp_xp xp_xp () 1 c) $$ HC
    ihave HD' := (Pipeline.launchCred_tallyAt (SemLoc.reg barS) yp yp yp_yp yp_yp () 1 c) $$ HD
    iapply (bar_two (F := F) c)
    isplitl [HC'] <;> iassumption
  · have hA : (bigSep Finset.univ fun k : Fin 64 => Pipeline.launchCred (fun d => tallyAt (yrCell (yp d) k) () N64) c : sProp 𝕄)
        ⊢ bigSep Finset.univ fun k : Fin 64 => cred (tallyAt (yrCell c k) () N64) :=
      bigSep_mono fun k _ => Pipeline.launchCred_tallyAt (SemLoc.dma (yrS k)) yp yp yp_yp yp_yp () N64 c
    have hB : (bigSep Finset.univ fun k : Fin 64 => Pipeline.launchCred (fun d => tallyAt (frCell (xp d) k) () N64) c : sProp 𝕄)
        ⊢ bigSep Finset.univ fun k : Fin 64 => cred (tallyAt (frCell c k) () N64) :=
      bigSep_mono fun k _ => Pipeline.launchCred_tallyAt (SemLoc.dma (frS k)) xp xp xp_xp xp_xp () N64 c
    rw [bigSep_sep']
    isplitl [HA]
    · iapply hA; iexact HA
    · iapply hB; iexact HB

/-! ## The theorem's side conditions -/

theorem L_of_ne (g : GSem nD τ sig) (h : g.1.2 ≠ .tc) : L g = ∅ := if_neg h

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hx, Ho⟩, Hlev, Hcr, -, HG⟩
  ihave Hc := (creds_intro (F := F) c) $$ Hcr
  imodintro
  unfold start G'
  isplitl
  · isplitl [HG]; · iexact HG
    isplitl [Hc]; · iexact Hc
    isplitl [Hlev]; · iexact Hlev
    isplitl [Hx]; · iexact Hx
    iexact Ho
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs] <;> iassumption

theorem phi1_exit (c : Dev nD) :
    (dats m 0 c).Φ (Fin.last cfg0.N) ⊢ iprop(iprop(xWhole m c ∗ oWhole c (outC m c)) ∗ Pipeline.ownSems0 osem c ∗ Pipeline.scopedRest cfg0.spec c) := by
  rw [show (dats m 0 c).Φ (Fin.last cfg0.N) = Φ₁ m c from rfl, scopedRest0_eq, ownSems0_eq]
  unfold Φ₁
  iintro ⟨Hx, Ho, Hv, Hl, Hz⟩
  isplitl [Hx Ho]
  · isplitl [Hx] <;> iassumption
  isplitl [Hl Hz]
  · isplitl [Hz] <;> iassumption
  iexact Hv

theorem waits (c : Dev nD) : (levAts L lv : sProp 𝕄) ⊢ Pipeline.cellsWaits cfgs (dats m) () 0 c :=
  Pipeline.cellsWaits_intro cfgs (dats m) () 0 c fun w _ _ => w.elim0

/-! ## The body's obligation -/

set_option maxRecDepth 100000 in
/-- The library's body obligation on device `c`, from the body's contract. -/
theorem body_obligation
    (hbody : ∀ (K : Dev nD × CIx → ℕ) (KL : Dev nD × Fin 4 → ℕ) (c : Dev nD) (Kt : PUnit → sProp 𝕄), iprop(bodyPre m K KL c ∗ (bodyPost m c -∗ Kt ⟨⟩))
      ⊢ wp frame (wpE (defs₀ (F := F)) 𝒱₀ c none) Set.univ
          (cc0_body (Memref.whole main_arg0) (Memref.isWhole_whole _) (Memref.whole main_v1) (Memref.isWhole_whole _) cc0_scratch0 cc0_scratch1 cc0_scratch2 cc0_scratch3 (Memref.whole cc0_scratch4) (Memref.isWhole_whole _) cc0_scratch5) Kt)
    (c : Dev nD) : BodyObligation (dats (F := F) m 0 c) (defs₀ (F := F)) 𝒱₀ () Set.univ := fun t => by
  rw [fin_N t]
  show iprop(Φ₀ m c ∗ (dats m 0 c).owesAt () t₀.castSucc ∗ emp) ⊢ wp frame (wpE (defs₀ (F := F)) 𝒱₀ c none) Set.univ
    (cc0_body (Memref.whole main_arg0) (Memref.isWhole_whole _) (Memref.whole main_v1) (Memref.isWhole_whole _) cc0_scratch0 cc0_scratch1 cc0_scratch2 cc0_scratch3 (Memref.whole cc0_scratch4) (Memref.isWhole_whole _) cc0_scratch5)
    (fun _ => iprop(Φ₁ m c ∗ (dats m 0 c).owesAt () t₀.succ ∗ emp))
  unfold Φ₀ start
  iintro ⟨⟨⟨⟨%K, %KL, Hg⟩, Hcr, Hlev, Hx, Ho⟩, Hv⟩, Howes, -⟩
  iapply (hbody K KL c fun _ => iprop(Φ₁ m c ∗ (dats m 0 c).owesAt () t₀.succ ∗ emp))
  unfold bodyPre bodyPost
  isplitr []
  · isplitl [Hg]; · iexact Hg
    isplitl [Hcr]; · iexact Hcr
    isplitl [Hlev]; · iexact Hlev
    isplitl [Hx]; · iexact Hx
    isplitl [Ho]; · iexact Ho
    isplitl [Hv]; · iexact Hv
    iexact Howes
  · iintro ⟨H1, H2⟩
    isplitl [H1]; · iexact H1
    isplitl [H2]; · iexact H2
    iempintro

/-! ## The run -/

set_option maxRecDepth 100000 in
/-- At the compiled mesh of four devices, for any float values, from any memory with zero counters: every weakly fair
    execution of @main terminates, and every final state has each device's result at the specified contents and its
    argument unchanged. -/
theorem run_main
    (hbody : ∀ (K : Dev nD × CIx → ℕ) (KL : Dev nD × Fin 4 → ℕ) (c : Dev nD) (Kt : PUnit → sProp 𝕄), iprop(bodyPre m K KL c ∗ (bodyPost m c -∗ Kt ⟨⟩))
      ⊢ wp frame (wpE (defs₀ (F := F)) 𝒱₀ c none) Set.univ
          (cc0_body (Memref.whole main_arg0) (Memref.isWhole_whole _) (Memref.whole main_v1) (Memref.isWhole_whole _) cc0_scratch0 cc0_scratch1 cc0_scratch2 cc0_scratch3 (Memref.whole cc0_scratch4) (Memref.isWhole_whole _) cc0_scratch5) Kt) :
    θ_run defs (onTc (τ := τ) (main (F := F))) ⟨m, fun _ => 0, ρ⟩
      (fun r => ∀ c : Dev nD, r.2.mem ((c : Thread nD τ).loc main_v1) = outC m c
        ∧ r.2.mem ((c : Thread nD τ).loc main_arg0) = m ((c : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m hbody) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ w => w.elim0) (hpf := fun _ k => k.elim0)
    (X := start m) (Y := fun c => iprop(xWhole m c ∗ oWhole c (outC m c))) (Z := fun _ => iprop(emp))
    (hX := start_intro m ρ) (hin := phi0_intro m) (hout := phi1_exit m)
    (QY := fun c s => s.mem ((c : Thread nD τ).loc main_v1) = outC m c
      ∧ s.mem ((c : Thread nD τ).loc main_arg0) = m ((c : Thread nD τ).loc main_arg0))
    (hY := fun c s' => by
      iintro ⟨⟨Hx, Ho⟩, -, HSI⟩
      icombine HSI Hx gives %hx
      icombine HSI Ho gives %ho
      imodintro
      isplitr
      · ipureintro; exact ⟨Buf.eq_of_forall_mem_univ ho, Buf.eq_of_forall_mem_univ hx⟩
      iexact HSI)
    (hQ := fun _ h c => (h c).2.2)

/-- info: 'Cert.KernelIdealProof.run_main' depends on axioms: [propext, Classical.choice, Quot.sound] -/
#guard_msgs in #print axioms run_main

end Cert.KernelIdealProof

end
-- ==== Proof.Tables.lean ====
/-
  The schedule's tables, cell by cell: which duties a cell's round has, their amounts, what they hand over.
-/
import proofs.«900037_g7700000000000038_dist_a2a_v7x_xy2x2_y_m8192_n1024_f32_1_alg».proof.Proof.Data

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

section Tables
variable (c : Dev nD) (k : Fin 64)

theorem duties_bar : (rd (F := F) m).duties (barCell c) 0 = Finset.univ := by
  unfold rd; dsimp only; rw [kindOf_bar]; dsimp only; rw [if_pos rfl, if_pos rfl]
theorem duties_ys : (rd (F := F) m).duties (ysCell c k) 0 = {false} := by
  unfold rd; dsimp only; rw [kindOf_ys]; dsimp only; rw [if_pos rfl, if_pos rfl]
theorem duties_yr : (rd (F := F) m).duties (yrCell c k) 0 = {false} := by
  unfold rd; dsimp only; rw [kindOf_yr]; dsimp only; rw [if_pos rfl, if_pos rfl]
theorem duties_fs : (rd (F := F) m).duties (fsCell c k) 0 = {false} := by
  unfold rd; dsimp only; rw [kindOf_fs]; dsimp only; rw [if_pos rfl, if_pos rfl]
theorem duties_fr : (rd (F := F) m).duties (frCell c k) 0 = {false} := by
  unfold rd; dsimp only; rw [kindOf_fr]; dsimp only; rw [if_pos rfl, if_pos rfl]
theorem duties_ls (j : Fin 4) (r : ℕ) (hr : r < 8) : (rd (F := F) m).duties (lsCell c j) r = {false} := by
  unfold rd; dsimp only; rw [kindOf_ls]; dsimp only; rw [if_pos rfl, if_pos hr]
theorem duties_bar_later : ∀ r, 1 ≤ r → (rd (F := F) m).duties (barCell c) r = ∅ := fun r hr => by
  unfold rd; dsimp only; rw [kindOf_bar]; dsimp only; rw [if_pos rfl, if_neg (by omega)]
theorem duties_ys_later : ∀ r, 1 ≤ r → (rd (F := F) m).duties (ysCell c k) r = ∅ := fun r hr => by
  unfold rd; dsimp only; rw [kindOf_ys]; dsimp only; rw [if_pos rfl, if_neg (by omega)]
theorem duties_yr_later : ∀ r, 1 ≤ r → (rd (F := F) m).duties (yrCell c k) r = ∅ := fun r hr => by
  unfold rd; dsimp only; rw [kindOf_yr]; dsimp only; rw [if_pos rfl, if_neg (by omega)]
theorem duties_fs_later : ∀ r, 1 ≤ r → (rd (F := F) m).duties (fsCell c k) r = ∅ := fun r hr => by
  unfold rd; dsimp only; rw [kindOf_fs]; dsimp only; rw [if_pos rfl, if_neg (by omega)]
theorem duties_fr_later : ∀ r, 1 ≤ r → (rd (F := F) m).duties (frCell c k) r = ∅ := fun r hr => by
  unfold rd; dsimp only; rw [kindOf_fr]; dsimp only; rw [if_pos rfl, if_neg (by omega)]
theorem duties_ls_later (j : Fin 4) : ∀ r, 8 ≤ r → (rd (F := F) m).duties (lsCell c j) r = ∅ := fun r hr => by
  unfold rd; dsimp only; rw [kindOf_ls]; dsimp only; rw [if_pos rfl, if_neg (by omega)]

theorem amount_bar (d : Bool) : (rd (F := F) m).amount (barCell c) 0 d = 1 := by
  unfold rd; dsimp only; rw [kindOf_bar]
theorem amount_ys (d : Bool) : (rd (F := F) m).amount (ysCell c k) 0 d = N64 := by
  unfold rd; dsimp only; rw [kindOf_ys]
theorem amount_yr (d : Bool) : (rd (F := F) m).amount (yrCell c k) 0 d = N64 := by
  unfold rd; dsimp only; rw [kindOf_yr]
theorem amount_fs (d : Bool) : (rd (F := F) m).amount (fsCell c k) 0 d = N64 := by
  unfold rd; dsimp only; rw [kindOf_fs]
theorem amount_fr (d : Bool) : (rd (F := F) m).amount (frCell c k) 0 d = N64 := by
  unfold rd; dsimp only; rw [kindOf_fr]

theorem amount_ld (s : Fin 2) (r : ℕ) (d : Bool) : (rd (F := F) m).amount (lsCell c ⟨s.val, by omega⟩) r d = NV := by
  unfold rd; dsimp only; rw [kindOf_ls]; dsimp only; rw [if_pos (by show s.val < 2; omega)]
theorem amount_st (s : Fin 2) (r : ℕ) (d : Bool) : (rd (F := F) m).amount (lsCell c ⟨s.val + 2, by omega⟩) r d = NO := by
  unfold rd; dsimp only; rw [kindOf_ls]; dsimp only; rw [if_neg (by show ¬ s.val + 2 < 2; omega)]
theorem payload_ls (j : Fin 4) (r : ℕ) (d : Bool) : (rd (F := F) m).payload (lsCell c j) r d = lsPay m c j r := by
  unfold rd; dsimp only; rw [kindOf_ls]

theorem payload_bar_false : (rd (F := F) m).payload (barCell c) 0 false = barPayY m c := by
  unfold rd; dsimp only; rw [kindOf_bar]; rfl
theorem payload_bar_true : (rd (F := F) m).payload (barCell c) 0 true = barPayX m c := by
  unfold rd; dsimp only; rw [kindOf_bar]; rfl
theorem payload_ys (d : Bool) : (rd (F := F) m).payload (ysCell c k) 0 d = ysPay m c k := by
  unfold rd; dsimp only; rw [kindOf_ys]
theorem payload_yr (d : Bool) : (rd (F := F) m).payload (yrCell c k) 0 d = yrPay m c k := by
  unfold rd; dsimp only; rw [kindOf_yr]
theorem payload_fs (d : Bool) : (rd (F := F) m).payload (fsCell c k) 0 d = fsPay m c k := by
  unfold rd; dsimp only; rw [kindOf_fs]
theorem payload_fr (d : Bool) : (rd (F := F) m).payload (frCell c k) 0 d = frPay m c k := by
  unfold rd; dsimp only; rw [kindOf_fr]

theorem expect_bar : (rd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_ys : (rd (F := F) m).expect (ysCell c k) 0 = N64 := by
  unfold Schedule.expect Schedule.amountOf; rw [duties_ys, Finset.sum_singleton, amount_ys]
theorem expect_yr : (rd (F := F) m).expect (yrCell c k) 0 = N64 := by
  unfold Schedule.expect Schedule.amountOf; rw [duties_yr, Finset.sum_singleton, amount_yr]
theorem expect_fs : (rd (F := F) m).expect (fsCell c k) 0 = N64 := by
  unfold Schedule.expect Schedule.amountOf; rw [duties_fs, Finset.sum_singleton, amount_fs]
theorem expect_fr : (rd (F := F) m).expect (frCell c k) 0 = N64 := by
  unfold Schedule.expect Schedule.amountOf; rw [duties_fr, Finset.sum_singleton, amount_fr]

/-- The rest of the barrier's round with nothing taken: both neighbours' payloads. -/
theorem rest_bar : bigSep ((rd (F := F) m).duties (barCell c) 0 \ ∅) (fun d => (rd (F := F) m).payload (barCell c) 0 d) = iprop(barPayY m c ∗ barPayX m c) := by
  rw [Finset.sdiff_empty, duties_bar, bigSep_univ_eq_bigSepL [false, true] (by decide) (by decide), bigSepL_cons_cons, bigSepL_singleton,
    payload_bar_false, payload_bar_true]
  rfl
theorem rest_ys : bigSep ((rd (F := F) m).duties (ysCell c k) 0 \ ∅) (fun d => (rd (F := F) m).payload (ysCell c k) 0 d) = ysPay m c k := by
  rw [Finset.sdiff_empty, duties_ys, bigSep_singleton, payload_ys]
theorem rest_yr : bigSep ((rd (F := F) m).duties (yrCell c k) 0 \ ∅) (fun d => (rd (F := F) m).payload (yrCell c k) 0 d) = yrPay m c k := by
  rw [Finset.sdiff_empty, duties_yr, bigSep_singleton, payload_yr]
theorem rest_fs : bigSep ((rd (F := F) m).duties (fsCell c k) 0 \ ∅) (fun d => (rd (F := F) m).payload (fsCell c k) 0 d) = fsPay m c k := by
  rw [Finset.sdiff_empty, duties_fs, bigSep_singleton, payload_fs]
theorem rest_fr : bigSep ((rd (F := F) m).duties (frCell c k) 0 \ ∅) (fun d => (rd (F := F) m).payload (frCell c k) 0 d) = frPay m c k := by
  rw [Finset.sdiff_empty, duties_fr, bigSep_singleton, payload_fr]

end Tables

end Cert.KernelIdealProof

end
-- ==== Proof.Tables2.lean ====
import proofs.«900037_g7700000000000038_dist_a2a_v7x_xy2x2_y_m8192_n1024_f32_1_alg».proof.Proof.Tables

noncomputable section

namespace Cert.KernelIdealProof

open Cert.KernelIdeal Cert.KernelIdeal.Gen
open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Finite products written out -/

theorem bigSep_fin64 (Φ : Fin 64 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32 ∗ Φ 33 ∗ Φ 34 ∗ Φ 35 ∗ Φ 36 ∗ Φ 37 ∗ Φ 38 ∗ Φ 39 ∗ Φ 40 ∗ Φ 41 ∗ Φ 42 ∗ Φ 43 ∗ Φ 44 ∗ Φ 45 ∗ Φ 46 ∗ Φ 47 ∗ Φ 48 ∗ Φ 49 ∗ Φ 50 ∗ Φ 51 ∗ Φ 52 ∗ Φ 53 ∗ Φ 54 ∗ Φ 55 ∗ Φ 56 ∗ Φ 57 ∗ Φ 58 ∗ Φ 59 ∗ Φ 60 ∗ Φ 61 ∗ Φ 62 ∗ Φ 63) :=
  bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63] (by decide) (by decide) Φ

theorem bigSep_fin16 (Φ : Fin 16 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-! ## The payloads as the rules spell them, resolved at the neighbours -/

theorem payload_ys' (c : Dev nD) (k : Fin 64) (d : Bool) : (rd (F := F) m).payload (ysCell c k) 0 d
    = ((ySrc c k).view.loc (c : Thread nD τ) ↦[(ySrc c k).view.set]{fullShare} xC m c) := payload_ys m c k d
theorem payload_yr' (c : Dev nD) (k : Fin 64) (d : Bool) : (rd (F := F) m).payload (yrCell c k) 0 d
    = ((fSl c k).view.loc (c : Thread nD τ) ↦[(fSl c k).view.set]{fullShare} YCont m c k) := payload_yr m c k d
theorem payload_fs' (c : Dev nD) (k : Fin 64) (d : Bool) : (rd (F := F) m).payload (fsCell c k) 0 d
    = ((fSl c k).view.loc (c : Thread nD τ) ↦[(fSl c k).view.set]{fullShare} YCont m c k) := payload_fs m c k d
theorem payload_fr' (c : Dev nD) (k : Fin 64) (d : Bool) : (rd (F := F) m).payload (frCell c k) 0 d
    = ((fSl (xp c) k).view.loc (c : Thread nD τ) ↦[(fSl (xp c) k).view.set]{fullShare} FCont m c k) := payload_fr m c k d

theorem YCont_yp (c : Dev nD) (k : Fin 64) : YCont m (yp c) k
    = (fSl (yp c) k).view.write (Elt F) (o0 m (yp c)) ((ySrc c k).view.read (Elt F) (xC m c)) Finset.univ := by
  show (fSl (yp c) k).view.write (Elt F) (o0 m (yp c)) ((ySrc (yp (yp c)) k).view.read (Elt F) (xC m (yp (yp c)))) Finset.univ = _
  rw [yp_yp]
theorem FCont_xp (c : Dev nD) (k : Fin 64) : FCont m (xp c) k
    = (fSl c k).view.write (Elt F) (o0 m (xp c)) ((fSl c k).view.read (Elt F) (YCont m c k)) Finset.univ := by
  show (fSl (xp (xp c)) k).view.write (Elt F) (o0 m (xp c)) ((fSl (xp (xp c)) k).view.read (Elt F) (YCont m (xp (xp c)) k)) Finset.univ = _
  rw [xp_xp]

theorem payload_yr_yp (c : Dev nD) (k : Fin 64) (d : Bool) : (rd (F := F) m).payload (yrCell (yp c) k) 0 d
    = ((fSl (yp c) k).view.loc ((yp c : Dev nD) : Thread nD τ) ↦[(fSl (yp c) k).view.set]{fullShare}
        (fSl (yp c) k).view.write (Elt F) (o0 m (yp c)) ((ySrc c k).view.read (Elt F) (xC m c)) Finset.univ) := by
  rw [payload_yr]; unfold yrPay; rw [YCont_yp]
theorem payload_fr_xp (c : Dev nD) (k : Fin 64) (d : Bool) : (rd (F := F) m).payload (frCell (xp c) k) 0 d
    = ((fSl c k).view.loc ((xp c : Dev nD) : Thread nD τ) ↦[(fSl c k).view.set]{fullShare}
        (fSl c k).view.write (Elt F) (o0 m (xp c)) ((fSl c k).view.read (Elt F) (YCont m c k)) Finset.univ) := by
  rw [payload_fr]; unfold frPay
  have key : ∀ c' : Dev nD, c' = c →
      (((fSl c' k).view.loc ((xp c : Dev nD) : Thread nD τ) ↦[(fSl c' k).view.set]{fullShare}
        (fSl c' k).view.write (Elt F) (o0 m (xp c)) ((fSl c' k).view.read (Elt F) (YCont m c' k)) Finset.univ) : sProp 𝕄)
      = ((fSl c k).view.loc ((xp c : Dev nD) : Thread nD τ) ↦[(fSl c k).view.set]{fullShare}
        (fSl c k).view.write (Elt F) (o0 m (xp c)) ((fSl c k).view.read (Elt F) (YCont m c k)) Finset.univ) := by
    intro c' h; subst h; rfl
  exact key (xp (xp c)) (xp_xp c)

theorem payload_bar_false_yp (c : Dev nD) : (rd (F := F) m).payload (barCell (yp c)) 0 false
    = iprop((bigSep Finset.univ fun k : Fin 64 => ((fSl c k).view.loc (c : Thread nD τ) ↦[(fSl c k).view.set]{fullShare} o0 m c))
        ∗ bigSep Finset.univ fun k : Fin 64 => reached ER (yrCell c k) 0) := by
  rw [payload_bar_false]; unfold barPayY; rw [yp_yp]
theorem payload_bar_true_xp (c : Dev nD) : (rd (F := F) m).payload (barCell (xp c)) 0 true
    = iprop((bigSep Finset.univ fun k : Fin 64 => ((fSl (xp c) k).view.loc (c : Thread nD τ) ↦[(fSl (xp c) k).view.set]{fullShare} o0 m c))
        ∗ bigSep Finset.univ fun k : Fin 64 => reached ER (frCell c k) 0) := by
  rw [payload_bar_true]; unfold barPayX; rw [xp_xp]

end Cert.KernelIdealProof

end
-- ==== Proof.Owed.lean ====
import proofs.«900037_g7700000000000038_dist_a2a_v7x_xy2x2_y_m8192_n1024_f32_1_alg».proof.Proof.Tables2

noncomputable section

namespace Cert.KernelIdealProof

open Cert.KernelIdeal Cert.KernelIdeal.Gen
open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What a device still owes, by phase -/

/-- The y-receive credits of slices j, j+1, … that device `c` still owes its y-neighbour. -/
def owedY (c : Dev nD) (j : ℕ) : CellTallies nD τ sig Unit :=
  ∑ k ∈ Finset.univ.filter (fun k : Fin 64 => j ≤ k.val), tallyAt (yrCell (yp c) k) () N64
/-- The forward-receive credits of slices j, j+1, … it still owes its x-neighbour. -/
def owedF (c : Dev nD) (j : ℕ) : CellTallies nD τ sig Unit :=
  ∑ k ∈ Finset.univ.filter (fun k : Fin 64 => j ≤ k.val), tallyAt (frCell (xp c) k) () N64

theorem filter_succ (k : Fin 64) :
    Finset.univ.filter (fun k' : Fin 64 => k.val ≤ k'.val) = insert k (Finset.univ.filter (fun k' : Fin 64 => k.val + 1 ≤ k'.val)) := by
  ext k'
  simp only [Finset.mem_filter, Finset.mem_univ, true_and, Finset.mem_insert]
  constructor
  · intro h
    by_cases hk : k' = k
    · exact Or.inl hk
    · exact Or.inr (by have : k'.val ≠ k.val := fun h' => hk (Fin.ext h'); omega)
  · rintro (rfl | h)
    · exact le_rfl
    · omega

theorem owedY_succ (c : Dev nD) (k : Fin 64) : owedY c k.val = owedY c (k.val + 1) + tallyAt (yrCell (yp c) k) () N64 := by
  unfold owedY
  rw [filter_succ k, Finset.sum_insert (by simp), add_comm]
theorem owedF_succ (c : Dev nD) (k : Fin 64) : owedF c k.val = owedF c (k.val + 1) + tallyAt (frCell (xp c) k) () N64 := by
  unfold owedF
  rw [filter_succ k, Finset.sum_insert (by simp), add_comm]
theorem owedY_succ' (c : Dev nD) (j : ℕ) (hj : j < 64) : owedY c j = owedY c (j + 1) + tallyAt (yrCell (yp c) ⟨j, hj⟩) () N64 :=
  owedY_succ c ⟨j, hj⟩
theorem owedF_succ' (c : Dev nD) (j : ℕ) (hj : j < 64) : owedF c j = owedF c (j + 1) + tallyAt (frCell (xp c) ⟨j, hj⟩) () N64 :=
  owedF_succ c ⟨j, hj⟩
theorem owedY_top (c : Dev nD) : owedY c 64 = 0 := by
  unfold owedY
  rw [Finset.filter_false_of_mem (fun k _ => by have := k.isLt; omega), Finset.sum_empty]
theorem owedF_top (c : Dev nD) : owedF c 64 = 0 := by
  unfold owedF
  rw [Finset.filter_false_of_mem (fun k _ => by have := k.isLt; omega), Finset.sum_empty]
theorem O₀_eq (c : Dev nD) : O₀ c = owedF c 0 + owedY c 0 + tallyAt (barCell (xp c)) () 1 + tallyAt (barCell (yp c)) () 1 := by
  unfold O₀ owedY owedF
  rw [Finset.filter_true_of_mem (fun k _ => Nat.zero_le _), add_comm (∑ k : Fin 64, tallyAt (yrCell (yp c) k) () N64)]

/-! ## The levels let every wait through -/

/-- Everything owed in `O` lies on a TensorCore cell strictly above level `n`. -/
def Above (n : ℕ) (O : CellTallies nD τ sig Unit) : Prop := ∀ (g : GSem nD τ sig) (i : Unit), 0 < O g i → g.1.2 = .tc ∧ n < lv g i

theorem Above.zero (n : ℕ) : Above n (0 : CellTallies nD τ sig Unit) := fun g i h => absurd h (by simp)
theorem Above.add {n : ℕ} {O₁ O₂ : CellTallies nD τ sig Unit} (h₁ : Above n O₁) (h₂ : Above n O₂) : Above n (O₁ + O₂) :=
  fun g i h => (Pipeline.add_pos_cases h).elim (h₁ g i) (h₂ g i)
theorem Above.tally {n : ℕ} {g₀ : GSem nD τ sig} {a : ℕ} (htc : g₀.1.2 = .tc) (hl : n < lv g₀ ()) : Above n (tallyAt g₀ () a) := by
  intro g i h
  rw [tallyAt_apply] at h
  by_cases hg : g = g₀ ∧ i = ()
  · obtain ⟨rfl, rfl⟩ := hg; exact ⟨htc, hl⟩
  · rw [if_neg hg] at h; exact absurd h (Nat.lt_irrefl 0)
theorem Above.sum {n : ℕ} {α : Type} {s : Finset α} {D : α → CellTallies nD τ sig Unit} (h : ∀ x ∈ s, Above n (D x)) : Above n (∑ x ∈ s, D x) :=
  fun g i hg => by obtain ⟨x, hx, hpos⟩ := Pipeline.sum_pos_exists hg; exact h x hx g i hpos

theorem lv_yr (c : Dev nD) (k : Fin 64) : lv (yrCell c k) () = 2 := by unfold lv; rw [kindOf_yr]
theorem lv_fr (c : Dev nD) (k : Fin 64) : lv (frCell c k) () = 3 := by unfold lv; rw [kindOf_fr]
theorem lv_bar (c : Dev nD) : lv (barCell c) () = 1 := by unfold lv; rw [kindOf_bar]
theorem lv_ys (c : Dev nD) (k : Fin 64) : lv (ysCell c k) () = 0 := by unfold lv; rw [kindOf_ys]
theorem lv_fs (c : Dev nD) (k : Fin 64) : lv (fsCell c k) () = 0 := by unfold lv; rw [kindOf_fs]

theorem above_owedY (c : Dev nD) (j : ℕ) {n : ℕ} (hn : n < 2) : Above n (owedY c j) :=
  Above.sum fun k _ => Above.tally rfl (by rw [lv_yr]; exact hn)
theorem above_owedF (c : Dev nD) (j : ℕ) {n : ℕ} (hn : n < 3) : Above n (owedF c j) :=
  Above.sum fun k _ => Above.tally rfl (by rw [lv_fr]; exact hn)

theorem mayWait_of_above (c : Dev nD) (s : SemLoc sig) (O : CellTallies nD τ sig Unit) (h : Above (lv ((c : Thread nD τ), s) ()) O) :
    (levAts L lv : sProp 𝕄) ⊢ MayWait (c : Thread nD τ) s () O :=
  Pipeline.mayWait_of_levAts (by show () ∈ L ((c : Thread nD τ), s); unfold L; rw [if_pos rfl]; exact Finset.mem_singleton_self _)
    (fun g i hg => by
      obtain ⟨htc, hl⟩ := h g i hg
      refine ⟨?_, hl⟩
      unfold L; rw [if_pos htc]; cases i; exact Finset.mem_singleton_self _)

end Cert.KernelIdealProof

end
-- ==== Proof.Steps.lean ====
import proofs.«900037_g7700000000000038_dist_a2a_v7x_xy2x2_y_m8192_n1024_f32_1_alg».proof.Proof.Owed

noncomputable section

namespace Cert.KernelIdealProof

open Cert.KernelIdeal Cert.KernelIdeal.Gen
open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The two addressed transfers, at the protocol's cells -/

set_option maxHeartbeats 1000000 in
/-- The y-transfer of slice k: device `c` sends its slice of x into its y-neighbour's result (addressed as `n`, the
    destination spelt `D`), paying its own send cell and the neighbour's receive cell. -/
theorem wp_ysend (c n : Dev nD) (hn : n = yp c) (k : Fin 64) (D : Memref sig .tc .hbm S64x1024 .f32) (hD : D = fSl (yp c) k)
    {hsc : (D : Memref sig (Dev.tc n : Thread nD τ).2.kind .hbm S64x1024 .f32).view.ref.isScScratch = false}
    {hsrc : (ySrc c k).view.WordExact} {hdst : D.view.WordExact}
    {hsem : DmaTarget.Typed .hbm (.dma (yrS k)) (.remote (Dev.tc n : Thread nD τ) D (.dma (ysS k)) hsc)}
    {α : Type} {Q : α → sProp 𝕄} {kont : PUnit → Prog (TpuEff nD τ sig (Elt F) Λ₀ .tc) α}
    (κ₁ κ₂ : ℕ) (O₁ O : CellTallies nD τ sig Unit) (hO : O₁ = O + tallyAt (yrCell (yp c) k) () N64) (W : Waits sig Unit) :
    iprop(cellInv ER (rd (F := F) m) κ₁ (ysCell c k) ∗ cellInv ER (rd (F := F) m) κ₂ (yrCell (yp c) k)
        ∗ ((ySrc c k).view.loc (c : Thread nD τ) ↦[(ySrc c k).view.set]{fullShare} xC m c)
        ∗ ((fSl (yp c) k).view.loc ((yp c : Dev nD) : Thread nD τ) ↦[(fSl (yp c) k).view.set]{fullShare} o0 m (yp c))
        ∗ owes (c : Thread nD τ) O₁ W
        ∗ dutyTok ER (ysCell c k) 0 false ∗ reached ER (ysCell c k) 0
        ∗ dutyTok ER (yrCell (yp c) k) 0 false ∗ reached ER (yrCell (yp c) k) 0)
      ⊢ iprop(((cred (tallyAt (ysCell c k) () N64) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (ySrc c k) (.remote (Dev.tc n : Thread nD τ) D (.dma (ysS k)) hsc) (.dma (yrS k)) hsrc hdst hsem) kont) Q) := by
  subst hn; subst hD
  exact Rounds.wp_send_pointsTo 𝒱₀ ER (rd m) (c : Thread nD τ) none (κ₁ := κ₁) (κ₂ := κ₂)
    (c' := ((yp c : Dev nD) : Thread nD τ)) (src := ySrc c k) (dst := fSl (yp c) k) (sS := .dma (ysS k)) (sem := .dma (yrS k)) (q := fullShare) (fs := xC m c)
    (r₁ := 0) (r₂ := 0) (d₁ := false) (d₂ := false) (fd := o0 m (yp c))
    (by rw [duties_ys]; exact Finset.mem_singleton_self _) (by rw [duties_yr]; exact Finset.mem_singleton_self _)
    () () N64 rfl (amount_ys m c k false) (amount_yr m (yp c) k false) O hO (W := W)
    (by rw [payload_ys'])
    (by rw [payload_yr_yp])

set_option maxHeartbeats 1000000 in
/-- The forwarding transfer of slice k: device `c` sends the slice its y-neighbour's transfer landed in its result to
    the same rows of its x-neighbour's result. -/
theorem wp_fsend (c n : Dev nD) (hn : n = xp c) (k : Fin 64)
    {hsc : (fSl c k : Memref sig (Dev.tc n : Thread nD τ).2.kind .hbm S64x1024 .f32).view.ref.isScScratch = false}
    {hsrc : (fSl c k).view.WordExact} {hdst : (fSl c k).view.WordExact}
    {hsem : DmaTarget.Typed .hbm (.dma (frS k)) (.remote (Dev.tc n : Thread nD τ) (fSl c k) (.dma (fsS k)) hsc)}
    {α : Type} {Q : α → sProp 𝕄} {kont : PUnit → Prog (TpuEff nD τ sig (Elt F) Λ₀ .tc) α}
    (κ₁ κ₂ : ℕ) (O₁ O : CellTallies nD τ sig Unit) (hO : O₁ = O + tallyAt (frCell (xp c) k) () N64) (W : Waits sig Unit) :
    iprop(cellInv ER (rd (F := F) m) κ₁ (fsCell c k) ∗ cellInv ER (rd (F := F) m) κ₂ (frCell (xp c) k)
        ∗ ((fSl c k).view.loc (c : Thread nD τ) ↦[(fSl c k).view.set]{fullShare} YCont m c k)
        ∗ ((fSl c k).view.loc ((xp c : Dev nD) : Thread nD τ) ↦[(fSl c k).view.set]{fullShare} o0 m (xp c))
        ∗ owes (c : Thread nD τ) O₁ W
        ∗ dutyTok ER (fsCell c k) 0 false ∗ reached ER (fsCell c k) 0
        ∗ dutyTok ER (frCell (xp c) k) 0 false ∗ reached ER (frCell (xp c) k) 0)
      ⊢ iprop(((cred (tallyAt (fsCell c k) () N64) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (fSl c k) (.remote (Dev.tc n : Thread nD τ) (fSl c k) (.dma (fsS k)) hsc) (.dma (frS k)) hsrc hdst hsem) kont) Q) := by
  subst hn
  exact Rounds.wp_send_pointsTo 𝒱₀ ER (rd m) (c : Thread nD τ) none (κ₁ := κ₁) (κ₂ := κ₂)
    (c' := ((xp c : Dev nD) : Thread nD τ)) (src := fSl c k) (dst := fSl c k) (sS := .dma (fsS k)) (sem := .dma (frS k)) (q := fullShare) (fs := YCont m c k)
    (r₁ := 0) (r₂ := 0) (d₁ := false) (d₂ := false) (fd := o0 m (xp c))
    (by rw [duties_fs]; exact Finset.mem_singleton_self _) (by rw [duties_fr]; exact Finset.mem_singleton_self _)
    () () N64 rfl (amount_fs m c k false) (amount_fr m (xp c) k false) O hO (W := W)
    (by rw [payload_fs'])
    (by rw [payload_fr_xp])

end Cert.KernelIdealProof

end
-- ==== Proof.Regions.lean ====
/-
  How a device's buffers split into the slices the transfers move, and that what lands in a slice is the
  specification's contents there.
-/
import proofs.«900037_g7700000000000038_dist_a2a_v7x_xy2x2_y_m8192_n1024_f32_1_alg».proof.Proof.Data

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## A unit-stride slice of a whole buffer, at an index -/

section Slice

variable {Val : EltTy → Type} (b : Ref sig .tc) {sz : Fin b.ty.shape.rank → Nat} (off : Fin b.ty.shape.rank → Nat)
  (inb : ∀ a, off a + sz a ≤ b.ty.shape.size a)

/-- The slice's index `x` sits in the buffer at `off + x` on every axis. -/
theorem slice_emb_val (x : (Rect.unit (s := b.ty.shape) off sz inb).shape.Idx) (a : Fin b.ty.shape.rank) :
    ((((Memref.whole b).slice (Rect.unit (s := b.ty.shape) off sz inb) (fun _ => rfl)).view.emb x) a).val = off a + (x a).val := by
  show ((Rect.unit (s := b.ty.shape) off sz inb).emb x a).val = _
  rw [Rect.emb_apply]
  show off a + 1 * (x a).val = _
  omega

/-- What the slice reads off contents `f`, at its index `x`: the element of `f` at `off + x`. -/
theorem slice_read_apply (f : b.ty.Contents Val) (x : (Rect.unit (s := b.ty.shape) off sz inb).shape.Idx) :
    ((Memref.whole b).slice (Rect.unit (s := b.ty.shape) off sz inb) (fun _ => rfl)).view.read Val f x
      = f (fun a => ⟨off a + (x a).val, by have := inb a; have := (x a).isLt; show _ < b.ty.shape.size a; change (x a).val < sz a at this; omega⟩) := by
  rw [View.read_apply]
  rw [cast_eq]
  congr 1
  funext a
  exact Fin.ext (slice_emb_val b off inb x a)

/-- A whole payload `w` written through the slice, at a buffer index `i` inside the slice's rectangle: `w` at `i - off`. -/
theorem slice_write_apply (fd : b.ty.Contents Val) (w : (Rect.unit (s := b.ty.shape) off sz inb).shape.Idx → Val b.ty.elt)
    (i : b.ty.shape.Idx) (hi : ∀ a, off a ≤ (i a).val ∧ (i a).val < off a + sz a) :
    ((Memref.whole b).slice (Rect.unit (s := b.ty.shape) off sz inb) (fun _ => rfl)).view.write Val fd w Finset.univ i
      = w (fun a => ⟨(i a).val - off a, by have := hi a; show _ < sz a; omega⟩) := by
  have hx : ((Memref.whole b).slice (Rect.unit (s := b.ty.shape) off sz inb) (fun _ => rfl)).view.emb
      (fun a => ⟨(i a).val - off a, by have := hi a; show _ < sz a; omega⟩) = i := by
    funext a
    apply Fin.ext
    rw [slice_emb_val]
    have := hi a
    show off a + ((i a).val - off a) = _
    omega
  conv_lhs => rw [← hx]
  rw [View.write_emb_of_mem _ _ (Finset.mem_univ _), cast_eq]

end Slice

/-- Writing through the slice what the slice reads off `f` leaves `f` on the slice's rectangle. -/
theorem slice_write_read_apply {Val : EltTy → Type} (b : Ref sig .tc) {sz : Fin b.ty.shape.rank → Nat} (off : Fin b.ty.shape.rank → Nat)
    (inb : ∀ a, off a + sz a ≤ b.ty.shape.size a) (fd f : b.ty.Contents Val)
    (i : b.ty.shape.Idx) (hi : ∀ a, off a ≤ (i a).val ∧ (i a).val < off a + sz a) :
    ((Memref.whole b).slice (Rect.unit (s := b.ty.shape) off sz inb) (fun _ => rfl)).view.write Val fd
        (((Memref.whole b).slice (Rect.unit (s := b.ty.shape) off sz inb) (fun _ => rfl)).view.read Val f) Finset.univ i = f i := by
  rw [slice_write_apply b off inb fd _ i hi, slice_read_apply]
  congr 1
  funext a
  apply Fin.ext
  have := hi a
  show off a + ((i a).val - off a) = _
  omega

/-! ## What lands in a slice -/

theorem yp_val (c : Dev nD) : (yp c).val = (2 * (c.val / 2) + 1) - (c.val % 2) := rfl
theorem xp_val (c : Dev nD) : (xp c).val = ((c.val % 2) + 2) - 2 * (c.val / 2) := rfl

/-- A row outside the device's own row block comes from the device of the other second coordinate whose first
    coordinate is the half of the block the row falls in. -/
theorem srcDev_val_of_ne (c' : Dev nD) (r : Nat) (h : r / 8192 ≠ c'.val % 2) :
    (Cert.Spec.srcDev c' r).val = 2 * ((r % 8192) / 4096) + (1 - c'.val % 2) := by
  unfold Cert.Spec.srcDev; rw [if_neg h]
/-- A row of the device's own row block comes from the device itself. -/
theorem srcDev_of_eq (c' : Dev nD) (r : Nat) (h : r / 8192 = c'.val % 2) : Cert.Spec.srcDev c' r = c' := by
  unfold Cert.Spec.srcDev; rw [if_pos h]

/-- The specification's contents of device `c'`'s result at `i`, once the source device `d` of row `i 0` and the
    coordinates of the entry of `d`'s argument are known. -/
theorem outC_apply_of_src (c' d : Dev nD) (i : S16384x1024.Idx) (x : S8192x2048.Idx)
    (hd : (Cert.Spec.srcDev c' (i 0).val).val = d.val)
    (h0 : (x 0).val = (i 0).val % 8192) (h1 : (x 1).val = (c'.val % 2) * 1024 + (i 1).val) :
    outC m c' i = xC m d x := by
  have hd' : Cert.Spec.srcDev c' (i 0).val = d := Fin.ext hd
  show m (((Cert.Spec.srcDev c' (i 0).val).tc : Thread nD τ).loc main_arg0) _ = m ((d.tc : Thread nD τ).loc main_arg0) x
  rw [hd']
  congr 1
  funext a
  apply Fin.ext
  match a with
  | ⟨0, _⟩ => exact h0.symm
  | ⟨1, _⟩ => exact h1.symm

/-- The y-transfer of slice `k`: rows 4096·mx + 64k … of the sender's argument, columns of the other column block,
    are what the specification puts in the rows of the y-neighbour's result they land in. -/
theorem yLand (c : Dev nD) (k : Fin 64) (fd : Buf (Elt F) ((fSl (yp c) k).view.loc ((yp c : Dev nD) : Thread nD τ))) :
    ∀ i ∈ (fSl (yp c) k).view.set,
      (fSl (yp c) k).view.write (Elt F) fd ((ySrc c k).view.read (Elt F) (xC m c)) Finset.univ i = outC m (yp c) i := by
  intro i hi
  rw [View.set_slice_whole, Rect.mem_set_unit] at hi
  have e3 := k0_off3_eq (yp c) k
  have e2 := k0_off2_eq c k
  have e30 : k0_off3 (yp c) (BitVec.ofNat 32 (64 * k.val)) 0 = (4096 * ((yp c).val / 2) + 64 * k.val + 8192) - 8192 * ((yp c).val % 2) := by rw [e3]; rfl
  have e31 : k0_off3 (yp c) (BitVec.ofNat 32 (64 * k.val)) 1 = 0 := by rw [e3]; rfl
  have e20 : k0_off2 c (BitVec.ofNat 32 (64 * k.val)) 0 = 4096 * (c.val / 2) + 64 * k.val := by rw [e2]; rfl
  have e21 : k0_off2 c (BitVec.ofNat 32 (64 * k.val)) 1 = 1024 - 1024 * (c.val % 2) := by rw [e2]; rfl
  have hi0 := hi 0
  have hi1 := hi 1
  have hc : c.val < 4 := c.isLt
  have hk := k.isLt
  have hy := yp_val c
  have ha : c.val / 2 ≤ 1 := by omega
  have hn : (yp c).val / 2 = c.val / 2 := by omega
  have hm : (yp c).val % 2 = 1 - c.val % 2 := by omega
  rw [hn, hm] at e30
  have s0 : S64x1024.size 0 = 64 := rfl
  have s1 : S64x1024.size 1 = 1024 := rfl
  rw [slice_write_apply main_v1 _ _ fd _ i hi, slice_read_apply main_arg0]
  symm
  apply outC_apply_of_src
  · rw [srcDev_val_of_ne _ _ (by omega)]; omega
  · show k0_off2 c (BitVec.ofNat 32 (64 * k.val)) 0 + ((i 0).val - k0_off3 (yp c) (BitVec.ofNat 32 (64 * k.val)) 0) = _
    omega
  · show k0_off2 c (BitVec.ofNat 32 (64 * k.val)) 1 + ((i 1).val - k0_off3 (yp c) (BitVec.ofNat 32 (64 * k.val)) 1) = _
    omega

/-- Outside a device's own row block the specification puts the same contents on it and on its x-neighbour: both
    read the same entries of the same source device. -/
theorem outC_xp (c : Dev nD) (i : S16384x1024.Idx) (h : (i 0).val / 8192 ≠ c.val % 2) : outC m c i = outC m (xp c) i := by
  have hc : c.val < 4 := c.isLt
  have hx := xp_val c
  have hm : (xp c).val % 2 = c.val % 2 := by omega
  have hs : (Cert.Spec.srcDev (xp c) (i 0).val).val = (Cert.Spec.srcDev c (i 0).val).val := by
    rw [srcDev_val_of_ne _ _ h, srcDev_val_of_ne _ _ (by omega), hm]
  exact (outC_apply_of_src m c (Cert.Spec.srcDev c (i 0).val) i
      (ValueIdx.ix2 (n0 := 8192) (n1 := 2048) ⟨(i 0).val % 8192, by omega⟩
        ⟨(c.val % 2) * 1024 + (i 1).val, by have := ValueIdx.idx2_lt1 i; omega⟩) rfl rfl rfl).trans
    (outC_apply_of_src m (xp c) (Cert.Spec.srcDev c (i 0).val) i _ hs rfl (by show (c.val % 2) * 1024 + (i 1).val = _; rw [hm])).symm

/-- The forwarding transfer of slice `k`: the rows of the device's result the y-transfer landed in are what the
    specification puts in the same rows of the x-neighbour's result. -/
theorem fLand (c : Dev nD) (k : Fin 64) (fd : Buf (Elt F) ((fSl c k).view.loc ((xp c : Dev nD) : Thread nD τ))) :
    ∀ i ∈ (fSl c k).view.set,
      (fSl c k).view.write (Elt F) fd ((fSl c k).view.read (Elt F) (outC m c)) Finset.univ i = outC m (xp c) i := by
  intro i hi
  rw [View.set_slice_whole, Rect.mem_set_unit] at hi
  have e3 := k0_off3_eq c k
  have e30 : k0_off3 c (BitVec.ofNat 32 (64 * k.val)) 0 = (4096 * (c.val / 2) + 64 * k.val + 8192) - 8192 * (c.val % 2) := by rw [e3]; rfl
  have hi0 := hi 0
  have hc : c.val < 4 := c.isLt
  have hk := k.isLt
  have s0 : S64x1024.size 0 = 64 := rfl
  rw [slice_write_read_apply main_v1 _ _ fd (outC m c) i hi]
  exact outC_xp m c i (by omega)

theorem yLand_pts (c : Dev nD) (k : Fin 64) (fd : Buf (Elt F) ((fSl (yp c) k).view.loc ((yp c : Dev nD) : Thread nD τ))) :
    slPts (F := F) (yp c) (fSl (yp c) k) ((fSl (yp c) k).view.write (Elt F) fd ((ySrc c k).view.read (Elt F) (xC m c)) Finset.univ)
      = slPts (yp c) (fSl (yp c) k) (outC m (yp c)) :=
  Region.is_congr (yLand m c k fd)

theorem fLand_pts (c : Dev nD) (k : Fin 64) (fd : Buf (Elt F) ((fSl c k).view.loc ((xp c : Dev nD) : Thread nD τ))) :
    slPts (F := F) (xp c) (fSl c k) ((fSl c k).view.write (Elt F) fd ((fSl c k).view.read (Elt F) (outC m c)) Finset.univ)
      = slPts (xp c) (fSl c k) (outC m (xp c)) :=
  Region.is_congr (fLand m c k fd)

/-! ## The result's rows, tiled by the slices -/

section Rows

/-- Membership in a unit slice of the result, by coordinates. -/
theorem mem_oSlice {sz : Fin 2 → Nat} (off : Fin 2 → Nat) (inb : ∀ a, off a + sz a ≤ S16384x1024.size a) (i : S16384x1024.Idx) :
    i ∈ (oM.slice (Rect.unit (s := S16384x1024) off sz inb) (fun _ => rfl)).view.set ↔ ∀ a, off a ≤ (i a).val ∧ (i a).val < off a + sz a := by
  rw [View.set_slice_whole, Rect.mem_set_unit]; exact Iff.rfl

/-- Two unit slices of the result whose rows do not meet are disjoint. -/
theorem disj_oSlice {sz sz' : Fin 2 → Nat} (off off' : Fin 2 → Nat) (inb : ∀ a, off a + sz a ≤ S16384x1024.size a)
    (inb' : ∀ a, off' a + sz' a ≤ S16384x1024.size a) (h : off 0 + sz 0 ≤ off' 0 ∨ off' 0 + sz' 0 ≤ off 0) :
    Disjoint (oM.slice (Rect.unit (s := S16384x1024) off sz inb) (fun _ => rfl)).view.set
      (oM.slice (Rect.unit (s := S16384x1024) off' sz' inb') (fun _ => rfl)).view.set := by
  rw [View.set_slice_whole, View.set_slice_whole]
  exact Rect.unit_disjoint 0 h

/-- Chunk `j` of the device's own row block starts at row 8192·my + 512·j, -/
theorem lDst_row (c : Dev nD) (j : Fin 16) :
    k0_off5 c (BitVec.ofNat 32 (512 * j.val)) 0 = 8192 * (c.val % 2) + 512 * j.val ∧ k0_off5 c (BitVec.ofNat 32 (512 * j.val)) 1 = 0 := by
  rw [k0_off5_eq]; exact ⟨rfl, rfl⟩
/-- slice `k` of what the y-neighbour sends at row 8192·(1 - my) + 4096·mx + 64·k, -/
theorem fSl_row (c : Dev nD) (k : Fin 64) :
    k0_off3 c (BitVec.ofNat 32 (64 * k.val)) 0 = 8192 * (1 - c.val % 2) + 4096 * (c.val / 2) + 64 * k.val ∧ k0_off3 c (BitVec.ofNat 32 (64 * k.val)) 1 = 0 := by
  rw [k0_off3_eq]
  refine ⟨?_, rfl⟩
  show (4096 * (c.val / 2) + 64 * k.val + 8192) - 8192 * (c.val % 2) = _
  omega
/-- and slice `k` of what the x-neighbour forwards at row 8192·(1 - my) + 4096·(1 - mx) + 64·k. -/
theorem fSlx_row (c : Dev nD) (k : Fin 64) :
    k0_off3 (xp c) (BitVec.ofNat 32 (64 * k.val)) 0 = 8192 * (1 - c.val % 2) + 4096 * (1 - c.val / 2) + 64 * k.val ∧ k0_off3 (xp c) (BitVec.ofNat 32 (64 * k.val)) 1 = 0 := by
  have hc : c.val < 4 := c.isLt
  have hx := xp_val c
  obtain ⟨h0, h1⟩ := fSl_row (xp c) k
  refine ⟨?_, h1⟩
  rw [h0]
  omega

theorem xp_mod (c : Dev nD) : (xp c).val % 2 = c.val % 2 := by
  have hc : c.val < 4 := c.isLt
  have := xp_val c
  omega

end Rows

/-- `yLand`, stated at the receiving device. -/
theorem yLand' (c c' : Dev nD) (h : c' = yp c) (k : Fin 64) (fd : Buf (Elt F) ((fSl c' k).view.loc ((c' : Dev nD) : Thread nD τ))) :
    ∀ i ∈ (fSl c' k).view.set,
      (fSl c' k).view.write (Elt F) fd ((ySrc c k).view.read (Elt F) (xC m c)) Finset.univ i = outC m c' i := by
  subst h; exact yLand m c k fd

/-- Once the y-neighbour's slice `k` has landed, the slice holds the specification's contents; -/
theorem YCont_eq (c : Dev nD) (k : Fin 64) : ∀ i ∈ (fSl c k).view.set, YCont m c k i = outC m c i :=
  yLand' m (yp c) c (yp_yp c).symm k (o0 m c)

/-- and once the x-neighbour's forwarded slice `k` has landed, so does that slice. -/
theorem FCont_eq (c : Dev nD) (k : Fin 64) : ∀ i ∈ (fSl (xp c) k).view.set, FCont m c k i = outC m c i := by
  intro i hi
  have hY := YCont_eq m (xp c) k i hi
  rw [View.set_slice_whole, Rect.mem_set_unit] at hi
  have hi0 := hi 0
  obtain ⟨e0, _⟩ := fSlx_row c k
  have hc : c.val < 4 := c.isLt
  have hk := k.isLt
  have hm := xp_mod c
  have s0 : S64x1024.size 0 = 64 := rfl
  show (fSl (xp c) k).view.write (Elt F) (o0 m c) ((fSl (xp c) k).view.read (Elt F) (YCont m (xp c) k)) Finset.univ i = _
  rw [slice_write_read_apply main_v1 _ _ (o0 m c) (YCont m (xp c) k) i hi, hY, outC_xp m (xp c) i (by omega), xp_xp]

theorem YCont_pts (c : Dev nD) (k : Fin 64) :
    (((fSl c k).view.loc (c : Thread nD τ) ↦[(fSl c k).view.set]{fullShare} YCont m c k) : sProp 𝕄)
      = ((fSl c k).view.loc (c : Thread nD τ) ↦[(fSl c k).view.set]{fullShare} outC m c) :=
  Region.is_congr (YCont_eq m c k)

theorem FCont_pts (c : Dev nD) (k : Fin 64) :
    (((fSl (xp c) k).view.loc (c : Thread nD τ) ↦[(fSl (xp c) k).view.set]{fullShare} FCont m c k) : sProp 𝕄)
      = ((fSl (xp c) k).view.loc (c : Thread nD τ) ↦[(fSl (xp c) k).view.set]{fullShare} outC m c) :=
  Region.is_congr (FCont_eq m c k)

section OutSplit

/-- The elements of chunk `j` of the own row block, and of slice `k` of device `c'`'s forwarded rows, as sets of
    indices of the result. -/
abbrev lSet (c : Dev nD) (j : Fin 16) : Finset S16384x1024.Idx := (lDst c j).view.set
abbrev fSet (c' : Dev nD) (k : Fin 64) : Finset S16384x1024.Idx := (fSl c' k).view.set

/-- Every element of the result lies in one of the 16 + 64 + 64 row blocks. -/
theorem rows_cover (c : Dev nD) :
    (Finset.univ : Finset S16384x1024.Idx)
      = (Finset.univ.biUnion (lSet c))
        ∪ ((Finset.univ.biUnion (fSet c)) ∪ (Finset.univ.biUnion (fSet (xp c)))) := by
  refine Finset.ext fun i => ⟨fun _ => ?_, fun _ => Finset.mem_univ _⟩
  have hc : c.val < 4 := c.isLt
  have h0 := ValueIdx.idx2_lt0 i
  have h1 := ValueIdx.idx2_lt1 i
  by_cases hA : (i 0).val / 8192 = c.val % 2
  · -- the device's own row block
    apply Finset.mem_union_left
    obtain ⟨j, hj⟩ : ∃ j : Fin 16, j.val = ((i 0).val % 8192) / 512 := ⟨⟨_, by omega⟩, rfl⟩
    refine Finset.mem_biUnion.mpr ⟨j, Finset.mem_univ _, ?_⟩
    rw [mem_oSlice]
    obtain ⟨e0, e1⟩ := lDst_row c j
    refine Fin.forall_fin_two.mpr ⟨?_, ?_⟩
    · show k0_off5 c (BitVec.ofNat 32 (512 * j.val)) 0 ≤ (i 0).val ∧ (i 0).val < k0_off5 c (BitVec.ofNat 32 (512 * j.val)) 0 + 512
      rw [e0]; omega
    · show k0_off5 c (BitVec.ofNat 32 (512 * j.val)) 1 ≤ (i 1).val ∧ (i 1).val < k0_off5 c (BitVec.ofNat 32 (512 * j.val)) 1 + 1024
      rw [e1]; omega
  · apply Finset.mem_union_right
    obtain ⟨k, hk⟩ : ∃ k : Fin 64, k.val = ((i 0).val % 4096) / 64 := ⟨⟨_, by omega⟩, rfl⟩
    by_cases hB : ((i 0).val % 8192) / 4096 = c.val / 2
    · -- the half the y-neighbour sends
      apply Finset.mem_union_left
      refine Finset.mem_biUnion.mpr ⟨k, Finset.mem_univ _, ?_⟩
      rw [mem_oSlice]
      obtain ⟨e0, e1⟩ := fSl_row c k
      refine Fin.forall_fin_two.mpr ⟨?_, ?_⟩
      · show k0_off3 c (BitVec.ofNat 32 (64 * k.val)) 0 ≤ (i 0).val ∧ (i 0).val < k0_off3 c (BitVec.ofNat 32 (64 * k.val)) 0 + 64
        rw [e0]; omega
      · show k0_off3 c (BitVec.ofNat 32 (64 * k.val)) 1 ≤ (i 1).val ∧ (i 1).val < k0_off3 c (BitVec.ofNat 32 (64 * k.val)) 1 + 1024
        rw [e1]; omega
    · -- the half the x-neighbour forwards
      apply Finset.mem_union_right
      refine Finset.mem_biUnion.mpr ⟨k, Finset.mem_univ _, ?_⟩
      rw [mem_oSlice]
      obtain ⟨e0, e1⟩ := fSlx_row c k
      refine Fin.forall_fin_two.mpr ⟨?_, ?_⟩
      · show k0_off3 (xp c) (BitVec.ofNat 32 (64 * k.val)) 0 ≤ (i 0).val ∧ (i 0).val < k0_off3 (xp c) (BitVec.ofNat 32 (64 * k.val)) 0 + 64
        rw [e0]; omega
      · show k0_off3 (xp c) (BitVec.ofNat 32 (64 * k.val)) 1 ≤ (i 1).val ∧ (i 1).val < k0_off3 (xp c) (BitVec.ofNat 32 (64 * k.val)) 1 + 1024
        rw [e1]; omega

theorem lDst_disj (c : Dev nD) (j j' : Fin 16) (h : j ≠ j') : Disjoint (lDst c j).view.set (lDst c j').view.set := by
  apply disj_oSlice
  rw [(lDst_row c j).1, (lDst_row c j').1]
  show _ + 512 ≤ _ ∨ _ + 512 ≤ _
  have : j.val ≠ j'.val := fun e => h (Fin.ext e)
  omega
theorem fSl_disj (c : Dev nD) (k k' : Fin 64) (h : k ≠ k') : Disjoint (fSl c k).view.set (fSl c k').view.set := by
  apply disj_oSlice
  rw [(fSl_row c k).1, (fSl_row c k').1]
  show _ + 64 ≤ _ ∨ _ + 64 ≤ _
  have : k.val ≠ k'.val := fun e => h (Fin.ext e)
  omega
theorem lDst_fSl_disj (c c' : Dev nD) (hcc : c'.val % 2 = c.val % 2) (j : Fin 16) (k : Fin 64) : Disjoint (lDst c j).view.set (fSl c' k).view.set := by
  apply disj_oSlice
  rw [(lDst_row c j).1, (fSl_row c' k).1]
  show _ + 512 ≤ _ ∨ _ + 64 ≤ _
  have := j.isLt; have := k.isLt; have : c'.val < 4 := c'.isLt
  omega
theorem fSl_fSlx_disj (c : Dev nD) (k k' : Fin 64) : Disjoint (fSl c k).view.set (fSl (xp c) k').view.set := by
  apply disj_oSlice
  rw [(fSl_row c k).1, (fSlx_row c k').1]
  show _ + 64 ≤ _ ∨ _ + 64 ≤ _
  have := k.isLt; have := k'.isLt; have : c.val < 4 := c.isLt
  omega

/-- The whole result buffer at contents `f` is its 16 chunks of the own row block, the 64 slices the y-neighbour's
    transfers write and the 64 slices the x-neighbour's forwarded copies write, each at `f`. -/
theorem out_split_eq (c : Dev nD) (f : Buf (Elt F) ((c : Thread nD τ).loc main_v1)) :
    oWhole c f = (iprop((bigSep Finset.univ fun j : Fin 16 => ((lDst c j).view.loc (c : Thread nD τ) ↦[(lDst c j).view.set]{fullShare} f))
      ∗ (bigSep Finset.univ fun k : Fin 64 => slPts c (fSl c k) f) ∗ bigSep Finset.univ fun k : Fin 64 => slPts c (fSl (xp c) k) f) : sProp 𝕄) := by
  have hdLF : Disjoint (Finset.univ.biUnion (lSet c)) (Finset.univ.biUnion (fSet c)) := by
    rw [Finset.disjoint_biUnion_left]; intro j _; rw [Finset.disjoint_biUnion_right]; intro k _
    exact lDst_fSl_disj c c rfl j k
  have hdLX : Disjoint (Finset.univ.biUnion (lSet c)) (Finset.univ.biUnion (fSet (xp c))) := by
    rw [Finset.disjoint_biUnion_left]; intro j _; rw [Finset.disjoint_biUnion_right]; intro k _
    exact lDst_fSl_disj c (xp c) (xp_mod c) j k
  have hdA : Disjoint (Finset.univ.biUnion (lSet c))
      ((Finset.univ.biUnion (fSet c)) ∪ (Finset.univ.biUnion (fSet (xp c)))) :=
    Finset.disjoint_union_right.mpr ⟨hdLF, hdLX⟩
  have hdB : Disjoint (Finset.univ.biUnion (fSet c)) (Finset.univ.biUnion (fSet (xp c))) := by
    rw [Finset.disjoint_biUnion_left]; intro k _; rw [Finset.disjoint_biUnion_right]; intro k' _
    exact fSl_fSlx_disj c k k'
  have huA := pointsTo_union (ℓ := (c : Thread nD τ).loc main_v1) (q := fullShare) (f := f) (Val := Elt F) (Ix := Unit) (Name := ℕ) (U := UU) (Lvl := ℕ) hdA
  have huB := pointsTo_union (ℓ := (c : Thread nD τ).loc main_v1) (q := fullShare) (f := f) (Val := Elt F) (Ix := Unit) (Name := ℕ) (U := UU) (Lvl := ℕ) hdB
  show (((c : Thread nD τ).loc main_v1) ↦[Finset.univ]{fullShare} f : sProp 𝕄) = _
  rw [rows_cover c, BI.equiv_iff.mp ⟨huA.1, huA.2⟩, BI.equiv_iff.mp ⟨huB.1, huB.2⟩,
    pointsTo_biUnion _ _ (fun j _ j' _ h => lDst_disj c j j' h),
    pointsTo_biUnion _ _ (fun k _ k' _ h => fSl_disj c k k' h),
    pointsTo_biUnion _ _ (fun k _ k' _ h => fSl_disj (xp c) k k' h)]

theorem out_split (c : Dev nD) (f : Buf (Elt F) ((c : Thread nD τ).loc main_v1)) :
    oWhole c f ⊣⊢ (iprop((bigSep Finset.univ fun j : Fin 16 => ((lDst c j).view.loc (c : Thread nD τ) ↦[(lDst c j).view.set]{fullShare} f))
      ∗ (bigSep Finset.univ fun k : Fin 64 => slPts c (fSl c k) f) ∗ bigSep Finset.univ fun k : Fin 64 => slPts c (fSl (xp c) k) f) : sProp 𝕄) :=
  ⟨Entails.of_eq (out_split_eq c f), Entails.of_eq (out_split_eq c f).symm⟩

end OutSplit

/-! ## The local copy -/

section Local

/-- Chunk `j` of the device's own column block of its argument, stored in the chunk's rows of the result, is what the
    specification puts there — the device's own rows, its own column block. -/
theorem lLand0 (c : Dev nD) (j : Fin 16) (fd : Buf (Elt F) ((lDst c j).view.loc (c : Thread nD τ))) :
    ∀ i ∈ (lDst c j).view.set,
      (lDst c j).view.write (Elt F) fd ((lSrc c j).view.read (Elt F) (xC m c)) Finset.univ i = outC m c i := by
  intro i hi
  rw [View.set_slice_whole, Rect.mem_set_unit] at hi
  have hoff := lOff_eq c j
  obtain ⟨e0, e1⟩ := lDst_row c j
  have o0' : lOff c j 0 = 512 * j.val := by rw [hoff]; rfl
  have o1' : lOff c j 1 = 1024 * (c.val % 2) := by rw [hoff]; rfl
  have hi0 := hi 0
  have hi1 := hi 1
  have hc : c.val < 4 := c.isLt
  have hj := j.isLt
  have s0 : S512x1024.size 0 = 512 := rfl
  have s1 : S512x1024.size 1 = 1024 := rfl
  rw [slice_write_apply main_v1 _ _ fd _ i hi, slice_read_apply main_arg0]
  symm
  apply outC_apply_of_src
  · rw [srcDev_of_eq _ _ (by omega)]
  · show lOff c j 0 + ((i 0).val - k0_off5 c (BitVec.ofNat 32 (512 * j.val)) 0) = _
    omega
  · show lOff c j 1 + ((i 1).val - k0_off5 c (BitVec.ofNat 32 (512 * j.val)) 1) = _
    omega

/-- The local copy of chunk `j`, through any slot of the scratch buffer and whatever the slot held. -/
theorem lLand (c : Dev nD) (j : Fin 16) (s : Fin 2) (fv : Buf (Elt F) ((vSlot s).view.loc (c : Thread nD τ)))
    (fd : Buf (Elt F) ((lDst c j).view.loc (c : Thread nD τ))) :
    ∀ i ∈ (lDst c j).view.set,
      (lDst c j).view.write (Elt F) fd ((vSlot s).view.read (Elt F) ((vSlot s).view.write (Elt F) fv
        ((lSrc c j).view.read (Elt F) (xC m c)) Finset.univ)) Finset.univ i = outC m c i := by
  intro i hi
  rw [View.read_write_univ]
  exact lLand0 m c j fd i hi

/-- At a literal chunk number the source is the slice the program names. -/
example (d : Dev nD) : lSrc d 0 = xM.slice (Rect.unit (s := S8192x2048) (k0_off4 d) S512x1024.size (k0_off4_inb d)) (fun _ => rfl) := rfl
example (d : Dev nD) : lSrc d 15 = xM.slice (Rect.unit (s := S8192x2048) (k0_off20 d) S512x1024.size (k0_off20_inb d)) (fun _ => rfl) := rfl

/-! ### The scratch buffer's slots -/

/-- Entry `y` of slot `s`, read as a 512 × 1024 array, is entry (s, y 0, y 1) of the scratch buffer. -/
theorem vSlot_emb_val (s : Fin 2) (y : S512x1024.Idx) :
    (((vSlot s).view.emb y) 0).val = s.val ∧ (((vSlot s).view.emb y) 1).val = (y 0).val ∧ (((vSlot s).view.emb y) 2).val = (y 1).val := by
  have hk : Shape.reshapeEquiv (squeezes_S1x512x1024_S512x1024.numel_eq) y
      = ValueIdx.ix3 (n0 := 1) (n1 := 512) (n2 := 1024) ⟨0, by omega⟩ ⟨(y 0).val, (y 0).isLt⟩ ⟨(y 1).val, (y 1).isLt⟩ := by
    apply Shape.reshapeEquiv_eq_of_rowMajor
    rw [Shape.rowMajor_val_three, Shape.rowMajor_val_two]
    show ((0 * 512 + (y 0).val) * 1024 + (y 1).val) = (y 0).val * 1024 + (y 1).val
    omega
  have he : ∀ a : Fin 3, (((vSlot s).view.emb y) a).val
      = (![s.val, 0, 0] : Fin 3 → Nat) a + 1 * ((Shape.reshapeEquiv (squeezes_S1x512x1024_S512x1024.numel_eq) y) a).val := fun a => rfl
  refine ⟨?_, ?_, ?_⟩
  · rw [he, hk]; show s.val + 1 * 0 = _; omega
  · rw [he, hk]; show 0 + 1 * (y 0).val = _; omega
  · rw [he, hk]; show 0 + 1 * (y 1).val = _; omega

/-- Reading the loaded contents through a slot gives back chunk `q` of the argument. -/
theorem vSlot_read_VC (c : Dev nD) (q : Fin 16) (s : Fin 2) :
    (vSlot s).view.read (Elt F) (VC m c q) = (lSrc c q).view.read (Elt F) (xC m c) := by
  funext y
  obtain ⟨_, e1, e2⟩ := vSlot_emb_val s y
  obtain ⟨o0', o1'⟩ : lOff c q 0 = 512 * q.val ∧ lOff c q 1 = 1024 * (c.val % 2) := by rw [lOff_eq]; exact ⟨rfl, rfl⟩
  rw [View.read_apply, cast_eq, slice_read_apply main_arg0]
  apply VC_apply
  · show lOff c q 0 + (y 0).val = _; rw [e1, o0']
  · show lOff c q 1 + (y 1).val = _; rw [e2, o1']

/-- The elements of slot `s`: those of first coordinate `s`. -/
theorem vSlot_set (s : Fin 2) :
    ((vSlot s).view.set : Finset S2x512x1024.Idx)
      = (Rect.unit (s := S2x512x1024) ![s.val, 0, 0] S1x512x1024.size (inbSlot s)).set :=
  (View.set_reshape _ _).trans (View.set_slice_whole _ _)

theorem mem_vSlot (s : Fin 2) (i : S2x512x1024.Idx) : i ∈ (vSlot s).view.set ↔ (i 0).val = s.val := by
  rw [vSlot_set, Rect.mem_set_unit]
  constructor
  · intro h; have := h 0
    have e : (![s.val, 0, 0] : Fin 3 → Nat) 0 = s.val := rfl
    have e' : S1x512x1024.size 0 = 1 := rfl
    omega
  · intro h a
    have h1 : (i 1).val < 512 := (i 1).isLt
    have h2 : (i 2).val < 1024 := (i 2).isLt
    fin_cases a
    · show s.val ≤ (i 0).val ∧ (i 0).val < s.val + 1; omega
    · show 0 ≤ (i 1).val ∧ (i 1).val < 0 + 512; omega
    · show 0 ≤ (i 2).val ∧ (i 2).val < 0 + 1024; omega

/-- The load of chunk `q` into slot `s` leaves the slot at `VC`. -/
theorem vLand (c : Dev nD) (q : Fin 16) (s : Fin 2) (fd : Buf (Elt F) ((vSlot s).view.loc (c : Thread nD τ))) :
    ∀ i ∈ (vSlot s).view.set,
      (vSlot s).view.write (Elt F) fd ((lSrc c q).view.read (Elt F) (xC m c)) Finset.univ i = VC m c q i := by
  intro i hi
  rw [mem_vSlot] at hi
  have hx : (vSlot s).view.emb (ValueIdx.ix2 (n0 := 512) (n1 := 1024) ⟨(i 1).val, (i 1).isLt⟩ ⟨(i 2).val, (i 2).isLt⟩) = i := by
    obtain ⟨e0, e1, e2⟩ := vSlot_emb_val s (ValueIdx.ix2 (n0 := 512) (n1 := 1024) ⟨(i 1).val, (i 1).isLt⟩ ⟨(i 2).val, (i 2).isLt⟩)
    funext a
    apply Fin.ext
    fin_cases a
    · exact e0.trans hi.symm
    · exact e1
    · exact e2
  rw [← vSlot_read_VC m c q s]
  conv_lhs => rw [← hx]
  rw [View.write_emb_of_mem _ _ (Finset.mem_univ _), cast_eq, View.read_apply, cast_eq, hx]

/-- The store of slot `s`, holding chunk `q`, into the chunk's rows of the result leaves the specification's contents there. -/
theorem lLandV (c : Dev nD) (q : Fin 16) (s : Fin 2) (fd : Buf (Elt F) ((lDst c q).view.loc (c : Thread nD τ))) :
    ∀ i ∈ (lDst c q).view.set,
      (lDst c q).view.write (Elt F) fd ((vSlot s).view.read (Elt F) (VC m c q)) Finset.univ i = outC m c i := by
  intro i hi
  rw [vSlot_read_VC]
  exact lLand0 m c q fd i hi

theorem vLand_pts (c : Dev nD) (q : Fin 16) (s : Fin 2) (fd : Buf (Elt F) ((vSlot s).view.loc (c : Thread nD τ))) :
    (((vSlot s).view.loc (c : Thread nD τ) ↦[(vSlot s).view.set]{fullShare}
        (vSlot s).view.write (Elt F) fd ((lSrc c q).view.read (Elt F) (xC m c)) Finset.univ) : sProp 𝕄)
      = ((vSlot s).view.loc (c : Thread nD τ) ↦[(vSlot s).view.set]{fullShare} VC m c q) :=
  Region.is_congr (vLand m c q s fd)

theorem lLandV_pts (c : Dev nD) (q : Fin 16) (s : Fin 2) (fd : Buf (Elt F) ((lDst c q).view.loc (c : Thread nD τ))) :
    (((lDst c q).view.loc (c : Thread nD τ) ↦[(lDst c q).view.set]{fullShare}
        (lDst c q).view.write (Elt F) fd ((vSlot s).view.read (Elt F) (VC m c q)) Finset.univ) : sProp 𝕄)
      = ((lDst c q).view.loc (c : Thread nD τ) ↦[(lDst c q).view.set]{fullShare} outC m c) :=
  Region.is_congr (lLandV m c q s fd)

/-- The two slots tile the scratch buffer: every element lies in one, -/
theorem vSlot_cover : (Finset.univ : Finset S2x512x1024.Idx)
    = ((vSlot 0).view.set : Finset S2x512x1024.Idx) ∪ ((vSlot 1).view.set : Finset S2x512x1024.Idx) := by
  refine Finset.ext fun i => ⟨fun _ => ?_, fun _ => Finset.mem_univ _⟩
  have h0 : (i 0).val < 2 := (i 0).isLt
  rw [Finset.mem_union, mem_vSlot, mem_vSlot]
  show (i 0).val = 0 ∨ (i 0).val = 1
  omega

/-- and none in both. -/
theorem vSlot_disj : Disjoint ((vSlot 0).view.set : Finset S2x512x1024.Idx) ((vSlot 1).view.set : Finset S2x512x1024.Idx) := by
  rw [Finset.disjoint_left]
  intro i h0 h1
  rw [mem_vSlot] at h0 h1
  have : ((0 : Fin 2).val) = 0 := rfl
  have : ((1 : Fin 2).val) = 1 := rfl
  omega

/-- The whole scratch buffer at contents `f` is its two slots at `f`. -/
theorem v_split_eq (c : Dev nD) (f : Buf (Elt F) ((c : Thread nD τ).loc cc0_scratch4)) :
    vWhole c f = (iprop(((vSlot 0).view.loc (c : Thread nD τ) ↦[(vSlot 0).view.set]{fullShare} f)
      ∗ ((vSlot 1).view.loc (c : Thread nD τ) ↦[(vSlot 1).view.set]{fullShare} f)) : sProp 𝕄) := by
  have hu := pointsTo_union (ℓ := (c : Thread nD τ).loc cc0_scratch4) (q := fullShare) (f := f) (Val := Elt F) (Ix := Unit)
    (Name := ℕ) (U := UU) (Lvl := ℕ) vSlot_disj
  show (((c : Thread nD τ).loc cc0_scratch4) ↦[Finset.univ]{fullShare} f : sProp 𝕄) = _
  rw [vSlot_cover, BI.equiv_iff.mp ⟨hu.1, hu.2⟩]

/-- The two slots, each at its own contents, are the whole scratch buffer at some contents. -/
theorem v_join (c : Dev nD) (f0 f1 : Buf (Elt F) ((c : Thread nD τ).loc cc0_scratch4)) :
    (iprop(((vSlot 0).view.loc (c : Thread nD τ) ↦[(vSlot 0).view.set]{fullShare} f0)
      ∗ ((vSlot 1).view.loc (c : Thread nD τ) ↦[(vSlot 1).view.set]{fullShare} f1)) : sProp 𝕄) ⊢ iprop(∃ f, vWhole c f) := by
  have hj := pointsTo_join (ℓ := (c : Thread nD τ).loc cc0_scratch4) (q := fullShare) (f := f0) (g := f1) (Val := Elt F) (Ix := Unit)
    (Name := ℕ) (U := UU) (Lvl := ℕ) vSlot_disj
  rw [← vSlot_cover] at hj
  refine hj.trans ?_
  iintro H
  iexists (((vSlot 1).view.set : Finset S2x512x1024.Idx).piecewise f1 f0)
  iexact H

end Local

/-! ## The argument's elements the transfers read -/

section XSplit

/-- Two unit slices of the argument that do not meet on one axis are disjoint. -/
theorem disj_xSlice {sz sz' : Fin 2 → Nat} (off off' : Fin 2 → Nat) (inb : ∀ a, off a + sz a ≤ S8192x2048.size a)
    (inb' : ∀ a, off' a + sz' a ≤ S8192x2048.size a) (a : Fin 2) (h : off a + sz a ≤ off' a ∨ off' a + sz' a ≤ off a) :
    Disjoint (xM.slice (Rect.unit (s := S8192x2048) off sz inb) (fun _ => rfl)).view.set
      (xM.slice (Rect.unit (s := S8192x2048) off' sz' inb') (fun _ => rfl)).view.set := by
  rw [View.set_slice_whole, View.set_slice_whole]
  exact Rect.unit_disjoint a h

/-- The elements of slice `k` the device sends, and of chunk `j` it copies locally, as sets of indices of the argument. -/
abbrev ySet (c : Dev nD) (k : Fin 64) : Finset S8192x2048.Idx := (ySrc c k).view.set
abbrev lsSet (c : Dev nD) (j : Fin 16) : Finset S8192x2048.Idx := (lSrc c j).view.set

/-- Slice `k` the device sends starts at row 4096·mx + 64·k, in the other column block. -/
theorem ySrc_row (c : Dev nD) (k : Fin 64) :
    k0_off2 c (BitVec.ofNat 32 (64 * k.val)) 0 = 4096 * (c.val / 2) + 64 * k.val
      ∧ k0_off2 c (BitVec.ofNat 32 (64 * k.val)) 1 = 1024 - 1024 * (c.val % 2) := by
  rw [k0_off2_eq]; exact ⟨rfl, rfl⟩

theorem lOff_row (c : Dev nD) (j : Fin 16) : lOff c j 0 = 512 * j.val ∧ lOff c j 1 = 1024 * (c.val % 2) := by
  rw [lOff_eq]; exact ⟨rfl, rfl⟩

theorem ySrc_disj (c : Dev nD) (k k' : Fin 64) (h : k ≠ k') : Disjoint (ySet c k) (ySet c k') := by
  apply disj_xSlice _ _ _ _ 0
  rw [(ySrc_row c k).1, (ySrc_row c k').1]
  show _ + 64 ≤ _ ∨ _ + 64 ≤ _
  have : k.val ≠ k'.val := fun e => h (Fin.ext e)
  omega

theorem lSrc_disj (c : Dev nD) (j j' : Fin 16) (h : j ≠ j') : Disjoint (lsSet c j) (lsSet c j') := by
  apply disj_xSlice _ _ _ _ 0
  rw [(lOff_row c j).1, (lOff_row c j').1]
  show _ + 512 ≤ _ ∨ _ + 512 ≤ _
  have : j.val ≠ j'.val := fun e => h (Fin.ext e)
  omega

/-- What is sent lies in the other column block, what is copied locally in the device's own. -/
theorem ySrc_lSrc_disj (c : Dev nD) (k : Fin 64) (j : Fin 16) : Disjoint (ySet c k) (lsSet c j) := by
  apply disj_xSlice _ _ _ _ 1
  rw [(ySrc_row c k).2, (lOff_row c j).2]
  show _ + 1024 ≤ _ ∨ _ + 1024 ≤ _
  omega

/-- The elements of the argument no transfer reads. -/
abbrev xRest (c : Dev nD) : Finset S8192x2048.Idx :=
  Finset.univ \ (Finset.univ.biUnion (ySet c) ∪ Finset.univ.biUnion (lsSet c))

theorem sep_assoc_eq (P Q R : sProp 𝕄) : (iprop((P ∗ Q) ∗ R) : sProp 𝕄) = iprop(P ∗ Q ∗ R) :=
  BI.Entails.antisymm BI.sep_assoc BI.sep_assoc'

/-- The whole argument buffer is the 64 slices the device sends, the 16 chunks it copies locally, and the rest. -/
theorem x_split_eq (c : Dev nD) :
    xWhole m c = (iprop((bigSep Finset.univ fun k : Fin 64 => ysPay m c k)
      ∗ (bigSep Finset.univ fun j : Fin 16 => ((lSrc c j).view.loc (c : Thread nD τ) ↦[(lSrc c j).view.set]{fullShare} xC m c))
      ∗ (((c : Thread nD τ).loc main_arg0) ↦[xRest c]{fullShare} xC m c)) : sProp 𝕄) := by
  have hd : Disjoint (Finset.univ.biUnion (ySet c)) (Finset.univ.biUnion (lsSet c)) := by
    rw [Finset.disjoint_biUnion_left]; intro k _; rw [Finset.disjoint_biUnion_right]; intro j _
    exact ySrc_lSrc_disj c k j
  have hs := pointsTo_split_subset (ℓ := (c : Thread nD τ).loc main_arg0) (q := fullShare) (f := xC m c) (Val := Elt F) (Ix := Unit)
    (Name := ℕ) (U := UU) (Lvl := ℕ) (Finset.subset_univ (Finset.univ.biUnion (ySet c) ∪ Finset.univ.biUnion (lsSet c)))
  have hu := pointsTo_union (ℓ := (c : Thread nD τ).loc main_arg0) (q := fullShare) (f := xC m c) (Val := Elt F) (Ix := Unit)
    (Name := ℕ) (U := UU) (Lvl := ℕ) hd
  show (((c : Thread nD τ).loc main_arg0) ↦[Finset.univ]{fullShare} xC m c : sProp 𝕄) = _
  rw [BI.equiv_iff.mp ⟨hs.1, hs.2⟩, BI.equiv_iff.mp ⟨hu.1, hu.2⟩,
    pointsTo_biUnion _ _ (fun k _ k' _ h => ySrc_disj c k k' h),
    pointsTo_biUnion _ _ (fun j _ j' _ h => lSrc_disj c j j' h), sep_assoc_eq]
  rfl

theorem x_split (c : Dev nD) :
    xWhole m c ⊣⊢ (iprop((bigSep Finset.univ fun k : Fin 64 => ysPay m c k)
      ∗ (bigSep Finset.univ fun j : Fin 16 => ((lSrc c j).view.loc (c : Thread nD τ) ↦[(lSrc c j).view.set]{fullShare} xC m c))
      ∗ (((c : Thread nD τ).loc main_arg0) ↦[xRest c]{fullShare} xC m c)) : sProp 𝕄) :=
  ⟨Entails.of_eq (x_split_eq m c), Entails.of_eq (x_split_eq m c).symm⟩

end XSplit

/-- info: 'Cert.KernelIdealProof.yLand' depends on axioms: [propext, Classical.choice, Quot.sound] -/
#guard_msgs in #print axioms yLand
/-- info: 'Cert.KernelIdealProof.fLand' depends on axioms: [propext, Classical.choice, Quot.sound] -/
#guard_msgs in #print axioms fLand
/-- info: 'Cert.KernelIdealProof.YCont_eq' depends on axioms: [propext, Classical.choice, Quot.sound] -/
#guard_msgs in #print axioms YCont_eq
/-- info: 'Cert.KernelIdealProof.FCont_eq' depends on axioms: [propext, Classical.choice, Quot.sound] -/
#guard_msgs in #print axioms FCont_eq
/-- info: 'Cert.KernelIdealProof.lLand' depends on axioms: [propext, Classical.choice, Quot.sound] -/
#guard_msgs in #print axioms lLand
/-- info: 'Cert.KernelIdealProof.vLand' depends on axioms: [propext, Classical.choice, Quot.sound] -/
#guard_msgs in #print axioms vLand
/-- info: 'Cert.KernelIdealProof.lLandV' depends on axioms: [propext, Classical.choice, Quot.sound] -/
#guard_msgs in #print axioms lLandV
/-- info: 'Cert.KernelIdealProof.out_split' depends on axioms: [propext, Classical.choice, Quot.sound] -/
#guard_msgs in #print axioms out_split
/-- info: 'Cert.KernelIdealProof.x_split' depends on axioms: [propext, Classical.choice, Quot.sound] -/
#guard_msgs in #print axioms x_split
/-- info: 'Cert.KernelIdealProof.v_split_eq' depends on axioms: [propext, Classical.choice, Quot.sound] -/
#guard_msgs in #print axioms v_split_eq
/-- info: 'Cert.KernelIdealProof.v_join' depends on axioms: [propext, Classical.choice, Quot.sound] -/
#guard_msgs in #print axioms v_join

end Cert.KernelIdealProof

end
-- ==== Proof.Prep.lean ====
/-
  The ghost state of the two-hop exchange, regrouped by kind of cell.

  A device's cells are numbered by `CIx`: the barrier, and for each of the 64 slices the y-send, y-receive,
  forward-send and forward-receive cell.  Every iterated conjunction over that numbering is the barrier's conjunct and
  four conjunctions over the slices; the positions, the payers' tokens, the launch credit, the closed transfer cells and
  the local copies' semaphores are stated in that form, and each cell's invariant and reached fact is read out of the
  persistent bundles.
-/
import proofs.«900037_g7700000000000038_dist_a2a_v7x_xy2x2_y_m8192_n1024_f32_1_alg».proof.Proof.Data

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Prep

variable {F : FTy → Type} [FloatOps F]

local notation "𝕄" => MT nD τ sig Unit (Elt F) ℕ UU ℕ

variable (m : (ℓ : Loc nD τ sig) → Buf (Elt F) ℓ) (ρ : Dev nD → PrngReg)

/-! ## Reindexing -/

omit [FloatOps F] in
theorem bigSep_option {α : Type} [Fintype α] [DecidableEq α] (Φ : Option α → sProp 𝕄) :
    bigSep Finset.univ Φ = iprop(Φ none ∗ bigSep Finset.univ fun a => Φ (some a)) := by
  have h : (Finset.univ.erase none : Finset (Option α)) = Finset.univ.map Function.Embedding.some := by
    ext x; cases x <;> simp
  rw [bigSep_univ_at Φ none, h, bigSep_map]; rfl

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
/-- Over the four arrays of 64: one conjunction per array. -/
theorem bigSep_xfer (Φ : Fin 4 × Fin 64 → sProp 𝕄) :
    bigSep Finset.univ Φ = iprop((bigSep Finset.univ fun k : Fin 64 => Φ (0, k)) ∗ (bigSep Finset.univ fun k : Fin 64 => Φ (1, k))
      ∗ (bigSep Finset.univ fun k : Fin 64 => Φ (2, k)) ∗ bigSep Finset.univ fun k : Fin 64 => Φ (3, k)) := by
  rw [bigSep_univ_prod, bigSep_fin4]

omit [FloatOps F] in
/-- Over a device's cells: the barrier's conjunct, then one conjunction per array. -/
theorem bigSep_cix (Φ : CIx → sProp 𝕄) :
    bigSep Finset.univ Φ = iprop(Φ none ∗ (bigSep Finset.univ fun k : Fin 64 => Φ (some (0, k))) ∗ (bigSep Finset.univ fun k : Fin 64 => Φ (some (1, k)))
      ∗ (bigSep Finset.univ fun k : Fin 64 => Φ (some (2, k))) ∗ bigSep Finset.univ fun k : Fin 64 => Φ (some (3, k))) := by
  rw [bigSep_option, bigSep_xfer]

/-! ## The linear pieces, by kind of cell -/

omit [FloatOps F] in
/-- (P1) -/
theorem positions_eq (c : Dev nD) : (positions c : sProp 𝕄) = iprop(atPos ER (barCell c) 0 ∅ 0
    ∗ (bigSep Finset.univ fun k : Fin 64 => atPos ER (ysCell c k) 0 ∅ 0) ∗ (bigSep Finset.univ fun k : Fin 64 => atPos ER (yrCell c k) 0 ∅ 0)
    ∗ (bigSep Finset.univ fun k : Fin 64 => atPos ER (fsCell c k) 0 ∅ 0) ∗ bigSep Finset.univ fun k : Fin 64 => atPos ER (frCell c k) 0 ∅ 0) := by
  unfold positions; rw [bigSep_cix]

omit [FloatOps F] in
/-- (P2) -/
theorem payToks_eq (c : Dev nD) : (payToks c : sProp 𝕄) = iprop(dutyTok ER (barCell (yp c)) 0 false ∗ dutyTok ER (barCell (xp c)) 0 true
    ∗ (bigSep Finset.univ fun k : Fin 64 => dutyTok ER (ysCell c k) 0 false) ∗ (bigSep Finset.univ fun k : Fin 64 => dutyTok ER (yrCell (yp c) k) 0 false)
    ∗ (bigSep Finset.univ fun k : Fin 64 => dutyTok ER (fsCell c k) 0 false) ∗ bigSep Finset.univ fun k : Fin 64 => dutyTok ER (frCell (xp c) k) 0 false) := by
  unfold payToks; rw [bigSep_sep', bigSep_sep', bigSep_sep']

omit [FloatOps F] in
/-- (P3) -/
theorem creds_eq (c : Dev nD) : (creds c : sProp 𝕄) = iprop(cred (tallyAt (barCell c) () 2)
    ∗ (bigSep Finset.univ fun k : Fin 64 => cred (tallyAt (yrCell c k) () N64)) ∗ bigSep Finset.univ fun k : Fin 64 => cred (tallyAt (frCell c k) () N64)) := by
  unfold creds; rw [bigSep_sep']

omit [FloatOps F] in
/-- (P5), as an equation, -/
theorem xferZero_eq (c : Dev nD) : (xferZero c : sProp 𝕄) = iprop((bigSep Finset.univ fun k : Fin 64 => semVal (ysCell c k) 0)
    ∗ (bigSep Finset.univ fun k : Fin 64 => semVal (yrCell c k) 0) ∗ (bigSep Finset.univ fun k : Fin 64 => semVal (fsCell c k) 0)
    ∗ bigSep Finset.univ fun k : Fin 64 => semVal (frCell c k) 0) := by
  unfold xferZero; rw [bigSep_xfer]

omit [FloatOps F] in
/-- and as the step that closes the transfer cells from the pieces. -/
theorem xferZero_intro (c : Dev nD) : iprop((bigSep Finset.univ fun k : Fin 64 => semVal (ysCell c k) 0)
    ∗ (bigSep Finset.univ fun k : Fin 64 => semVal (yrCell c k) 0) ∗ (bigSep Finset.univ fun k : Fin 64 => semVal (fsCell c k) 0)
    ∗ bigSep Finset.univ fun k : Fin 64 => semVal (frCell c k) 0) ⊢ (xferZero c : sProp 𝕄) :=
  Entails.of_eq (xferZero_eq c).symm

/-! ## The local copies' cells -/

omit [FloatOps F] in
/-- (P6) -/
theorem lsems_eq (c : Dev nD) : (lsems c : sProp 𝕄) = iprop(semVal (lsCell c 0) 0 ∗ semVal (lsCell c 1) 0 ∗ semVal (lsCell c 2) 0 ∗ semVal (lsCell c 3) 0) := by
  unfold lsems; rw [bigSep_fin4]

omit [FloatOps F] in
/-- A conjunction over the eight rounds' numbers, written out. -/
theorem range8_eq (Φ : ℕ → sProp 𝕄) : bigSep (Finset.range 8) Φ = iprop(Φ 0 ∗ Φ 1 ∗ Φ 2 ∗ Φ 3 ∗ Φ 4 ∗ Φ 5 ∗ Φ 6 ∗ Φ 7) :=
  bigSep_eq_bigSepL_of_eq [0, 1, 2, 3, 4, 5, 6, 7] (by decide) (by decide) Φ

omit [FloatOps F] in
/-- What the owner of the local copies' cells starts from, cell by cell; -/
theorem lsState_j (c : Dev nD) : (lsState c : sProp 𝕄) = iprop(iprop(atPos ER (lsCell c 0) 0 ∅ 0 ∗ reached ER (lsCell c 0) 0 ∗ bigSep (Finset.range 8) fun r => dutyTok ER (lsCell c 0) r false)
    ∗ iprop(atPos ER (lsCell c 1) 0 ∅ 0 ∗ reached ER (lsCell c 1) 0 ∗ bigSep (Finset.range 8) fun r => dutyTok ER (lsCell c 1) r false)
    ∗ iprop(atPos ER (lsCell c 2) 0 ∅ 0 ∗ reached ER (lsCell c 2) 0 ∗ bigSep (Finset.range 8) fun r => dutyTok ER (lsCell c 2) r false)
    ∗ iprop(atPos ER (lsCell c 3) 0 ∅ 0 ∗ reached ER (lsCell c 3) 0 ∗ bigSep (Finset.range 8) fun r => dutyTok ER (lsCell c 3) r false)) := by
  unfold lsState; rw [bigSep_fin4]

omit [FloatOps F] in
/-- and with each cell's eight tokens written out. -/
theorem lsState_eq (c : Dev nD) : (lsState c : sProp 𝕄) = iprop((atPos ER (lsCell c 0) 0 ∅ 0 ∗ reached ER (lsCell c 0) 0
      ∗ dutyTok ER (lsCell c 0) 0 false ∗ dutyTok ER (lsCell c 0) 1 false ∗ dutyTok ER (lsCell c 0) 2 false ∗ dutyTok ER (lsCell c 0) 3 false ∗ dutyTok ER (lsCell c 0) 4 false ∗ dutyTok ER (lsCell c 0) 5 false ∗ dutyTok ER (lsCell c 0) 6 false ∗ dutyTok ER (lsCell c 0) 7 false)
    ∗ (atPos ER (lsCell c 1) 0 ∅ 0 ∗ reached ER (lsCell c 1) 0
      ∗ dutyTok ER (lsCell c 1) 0 false ∗ dutyTok ER (lsCell c 1) 1 false ∗ dutyTok ER (lsCell c 1) 2 false ∗ dutyTok ER (lsCell c 1) 3 false ∗ dutyTok ER (lsCell c 1) 4 false ∗ dutyTok ER (lsCell c 1) 5 false ∗ dutyTok ER (lsCell c 1) 6 false ∗ dutyTok ER (lsCell c 1) 7 false)
    ∗ (atPos ER (lsCell c 2) 0 ∅ 0 ∗ reached ER (lsCell c 2) 0
      ∗ dutyTok ER (lsCell c 2) 0 false ∗ dutyTok ER (lsCell c 2) 1 false ∗ dutyTok ER (lsCell c 2) 2 false ∗ dutyTok ER (lsCell c 2) 3 false ∗ dutyTok ER (lsCell c 2) 4 false ∗ dutyTok ER (lsCell c 2) 5 false ∗ dutyTok ER (lsCell c 2) 6 false ∗ dutyTok ER (lsCell c 2) 7 false)
    ∗ (atPos ER (lsCell c 3) 0 ∅ 0 ∗ reached ER (lsCell c 3) 0
      ∗ dutyTok ER (lsCell c 3) 0 false ∗ dutyTok ER (lsCell c 3) 1 false ∗ dutyTok ER (lsCell c 3) 2 false ∗ dutyTok ER (lsCell c 3) 3 false ∗ dutyTok ER (lsCell c 3) 4 false ∗ dutyTok ER (lsCell c 3) 5 false ∗ dutyTok ER (lsCell c 3) 6 false ∗ dutyTok ER (lsCell c 3) 7 false)) := by
  rw [lsState_j]; simp only [range8_eq]

theorem inv_ls (KL : Dev nD × Fin 4 → ℕ) (d : Dev nD) (j : Fin 4) : lsInvs m KL ⊢ cellInv ER (rd m) (KL (d, j)) (lsCell d j) := by
  unfold lsInvs; exact bigSep_elim (Finset.mem_univ ((d, j) : Dev nD × Fin 4))

/-! ## (P4) Reading the persistent bundles -/

theorem inv_bar (K : Dev nD × CIx → ℕ) (d : Dev nD) : invs m K ⊢ cellInv ER (rd m) (K (d, none)) (barCell d) := by
  unfold invs; exact bigSep_elim (Finset.mem_univ ((d, none) : Dev nD × CIx))
theorem inv_ys (K : Dev nD × CIx → ℕ) (d : Dev nD) (k : Fin 64) : invs m K ⊢ cellInv ER (rd m) (K (d, some (0, k))) (ysCell d k) := by
  unfold invs; exact bigSep_elim (Finset.mem_univ ((d, some (0, k)) : Dev nD × CIx))
theorem inv_yr (K : Dev nD × CIx → ℕ) (d : Dev nD) (k : Fin 64) : invs m K ⊢ cellInv ER (rd m) (K (d, some (1, k))) (yrCell d k) := by
  unfold invs; exact bigSep_elim (Finset.mem_univ ((d, some (1, k)) : Dev nD × CIx))
theorem inv_fs (K : Dev nD × CIx → ℕ) (d : Dev nD) (k : Fin 64) : invs m K ⊢ cellInv ER (rd m) (K (d, some (2, k))) (fsCell d k) := by
  unfold invs; exact bigSep_elim (Finset.mem_univ ((d, some (2, k)) : Dev nD × CIx))
theorem inv_fr (K : Dev nD × CIx → ℕ) (d : Dev nD) (k : Fin 64) : invs m K ⊢ cellInv ER (rd m) (K (d, some (3, k))) (frCell d k) := by
  unfold invs; exact bigSep_elim (Finset.mem_univ ((d, some (3, k)) : Dev nD × CIx))

omit [FloatOps F] in
theorem reached_bar (d : Dev nD) : (reachedAll : sProp 𝕄) ⊢ reached ER (barCell d) 0 := by
  unfold reachedAll; exact bigSep_elim (Finset.mem_univ ((d, none) : Dev nD × CIx))
omit [FloatOps F] in
theorem reached_ys (d : Dev nD) (k : Fin 64) : (reachedAll : sProp 𝕄) ⊢ reached ER (ysCell d k) 0 := by
  unfold reachedAll; exact bigSep_elim (Finset.mem_univ ((d, some (0, k)) : Dev nD × CIx))
omit [FloatOps F] in
theorem reached_yr (d : Dev nD) (k : Fin 64) : (reachedAll : sProp 𝕄) ⊢ reached ER (yrCell d k) 0 := by
  unfold reachedAll; exact bigSep_elim (Finset.mem_univ ((d, some (1, k)) : Dev nD × CIx))
omit [FloatOps F] in
theorem reached_fs (d : Dev nD) (k : Fin 64) : (reachedAll : sProp 𝕄) ⊢ reached ER (fsCell d k) 0 := by
  unfold reachedAll; exact bigSep_elim (Finset.mem_univ ((d, some (2, k)) : Dev nD × CIx))
omit [FloatOps F] in
theorem reached_fr (d : Dev nD) (k : Fin 64) : (reachedAll : sProp 𝕄) ⊢ reached ER (frCell d k) 0 := by
  unfold reachedAll; exact bigSep_elim (Finset.mem_univ ((d, some (3, k)) : Dev nD × CIx))

omit [FloatOps F] in
/-- Every y-receive cell of a device has reached round 0; -/
theorem reached_yr_all (c : Dev nD) : (reachedAll : sProp 𝕄) ⊢ bigSep Finset.univ fun k : Fin 64 => reached ER (yrCell c k) 0 := by
  haveI : BI.Persistent (reachedAll : sProp 𝕄) := by unfold reachedAll; infer_instance
  exact BI.bigSep_intro_persistent fun k _ => reached_yr c k
omit [FloatOps F] in
/-- every forward-receive cell likewise. -/
theorem reached_fr_all (c : Dev nD) : (reachedAll : sProp 𝕄) ⊢ bigSep Finset.univ fun k : Fin 64 => reached ER (frCell c k) 0 := by
  haveI : BI.Persistent (reachedAll : sProp 𝕄) := by unfold reachedAll; infer_instance
  exact BI.bigSep_intro_persistent fun k _ => reached_fr c k

end Prep

end Cert.KernelIdealProof

end
-- ==== Proof.Tables3.lean ====
import proofs.«900037_g7700000000000038_dist_a2a_v7x_xy2x2_y_m8192_n1024_f32_1_alg».proof.Proof.Steps
import proofs.«900037_g7700000000000038_dist_a2a_v7x_xy2x2_y_m8192_n1024_f32_1_alg».proof.Proof.Regions
import proofs.«900037_g7700000000000038_dist_a2a_v7x_xy2x2_y_m8192_n1024_f32_1_alg».proof.Proof.Prep

noncomputable section

namespace Cert.KernelIdealProof

open Cert.KernelIdeal Cert.KernelIdeal.Gen
open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What a finished round hands back, in the spelling the next step uses -/

theorem rest_ys' (c : Dev nD) (k : Fin 64) : bigSep ((rd (F := F) m).duties (ysCell c k) 0 \ ∅) (fun d => (rd (F := F) m).payload (ysCell c k) 0 d)
    = ((ySrc c k).view.loc (c : Thread nD τ) ↦[(ySrc c k).view.set]{fullShare} xC m c) := rest_ys m c k
theorem rest_yr' (c : Dev nD) (k : Fin 64) : bigSep ((rd (F := F) m).duties (yrCell c k) 0 \ ∅) (fun d => (rd (F := F) m).payload (yrCell c k) 0 d)
    = ((fSl c k).view.loc (c : Thread nD τ) ↦[(fSl c k).view.set]{fullShare} YCont m c k) := rest_yr m c k
theorem rest_fs' (c : Dev nD) (k : Fin 64) : bigSep ((rd (F := F) m).duties (fsCell c k) 0 \ ∅) (fun d => (rd (F := F) m).payload (fsCell c k) 0 d)
    = ((fSl c k).view.loc (c : Thread nD τ) ↦[(fSl c k).view.set]{fullShare} outC m c) := (rest_fs m c k).trans (YCont_pts m c k)
theorem rest_fr' (c : Dev nD) (k : Fin 64) : bigSep ((rd (F := F) m).duties (frCell c k) 0 \ ∅) (fun d => (rd (F := F) m).payload (frCell c k) 0 d)
    = ((fSl (xp c) k).view.loc (c : Thread nD τ) ↦[(fSl (xp c) k).view.set]{fullShare} outC m c) := (rest_fr m c k).trans (FCont_pts m c k)

/-! ## The local copies' cells -/

theorem lv_ls (c : Dev nD) (j : Fin 4) : lv (lsCell c j) () = 0 := by unfold lv; rw [kindOf_ls]

theorem expect_ls (c : Dev nD) (j : Fin 4) (r : ℕ) (hr : r < 8) : (rd (F := F) m).expect (lsCell c j) r = (rd (F := F) m).amount (lsCell c j) r false := by
  unfold Schedule.expect Schedule.amountOf; rw [duties_ls m c j r hr, Finset.sum_singleton]
theorem expect_ld (c : Dev nD) (s : Fin 2) (r : ℕ) (hr : r < 8) : (rd (F := F) m).expect (lsCell c ⟨s.val, by omega⟩) r = NV := by
  rw [expect_ls m c _ r hr]; exact amount_ld m c s r false
theorem expect_st (c : Dev nD) (s : Fin 2) (r : ℕ) (hr : r < 8) : (rd (F := F) m).expect (lsCell c ⟨s.val + 2, by omega⟩) r = NO := by
  rw [expect_ls m c _ r hr]; exact amount_st m c s r false
theorem rest_ls (c : Dev nD) (j : Fin 4) (r : ℕ) (hr : r < 8) :
    bigSep ((rd (F := F) m).duties (lsCell c j) r \ ∅) (fun d => (rd (F := F) m).payload (lsCell c j) r d) = lsPay m c j r := by
  rw [Finset.sdiff_empty, duties_ls m c j r hr, bigSep_singleton, payload_ls]

theorem rest_ld (c : Dev nD) (s : Fin 2) (r : ℕ) (hr : r < 8) :
    bigSep ((rd (F := F) m).duties (lsCell c ⟨s.val, by omega⟩) r \ ∅) (fun d => (rd (F := F) m).payload (lsCell c ⟨s.val, by omega⟩) r d)
      = iprop(((vSlot s).view.loc (c : Thread nD τ) ↦[(vSlot s).view.set]{fullShare} VC m c (chunkOf s r))
          ∗ ((lSrc c (chunkOf s r)).view.loc (c : Thread nD τ) ↦[(lSrc c (chunkOf s r)).view.set]{fullShare} xC m c)) := by
  rw [rest_ls m c _ r hr]
  fin_cases s <;> rfl
theorem rest_st (c : Dev nD) (s : Fin 2) (r : ℕ) (hr : r < 8) :
    bigSep ((rd (F := F) m).duties (lsCell c ⟨s.val + 2, by omega⟩) r \ ∅) (fun d => (rd (F := F) m).payload (lsCell c ⟨s.val + 2, by omega⟩) r d)
      = iprop(((lDst c (chunkOf s r)).view.loc (c : Thread nD τ) ↦[(lDst c (chunkOf s r)).view.set]{fullShare} outC m c)
          ∗ ((vSlot s).view.loc (c : Thread nD τ) ↦[(vSlot s).view.set]{fullShare} VC m c (chunkOf s r))) := by
  rw [rest_ls m c _ r hr]
  fin_cases s <;> rfl

theorem rest_ld0 (c : Dev nD) (r : ℕ) (hr : r < 8) :
    bigSep ((rd (F := F) m).duties (lsCell c 0) r \ ∅) (fun d => (rd (F := F) m).payload (lsCell c 0) r d)
      = iprop(((vSlot 0).view.loc (c : Thread nD τ) ↦[(vSlot 0).view.set]{fullShare} VC m c (chunkOf 0 r))
          ∗ ((lSrc c (chunkOf 0 r)).view.loc (c : Thread nD τ) ↦[(lSrc c (chunkOf 0 r)).view.set]{fullShare} xC m c)) := by
  rw [rest_ls m c _ r hr]; rfl
theorem rest_ld1 (c : Dev nD) (r : ℕ) (hr : r < 8) :
    bigSep ((rd (F := F) m).duties (lsCell c 1) r \ ∅) (fun d => (rd (F := F) m).payload (lsCell c 1) r d)
      = iprop(((vSlot 1).view.loc (c : Thread nD τ) ↦[(vSlot 1).view.set]{fullShare} VC m c (chunkOf 1 r))
          ∗ ((lSrc c (chunkOf 1 r)).view.loc (c : Thread nD τ) ↦[(lSrc c (chunkOf 1 r)).view.set]{fullShare} xC m c)) := by
  rw [rest_ls m c _ r hr]; rfl
theorem rest_st0 (c : Dev nD) (r : ℕ) (hr : r < 8) :
    bigSep ((rd (F := F) m).duties (lsCell c 2) r \ ∅) (fun d => (rd (F := F) m).payload (lsCell c 2) r d)
      = iprop(((lDst c (chunkOf 0 r)).view.loc (c : Thread nD τ) ↦[(lDst c (chunkOf 0 r)).view.set]{fullShare} outC m c)
          ∗ ((vSlot 0).view.loc (c : Thread nD τ) ↦[(vSlot 0).view.set]{fullShare} VC m c (chunkOf 0 r))) := by
  rw [rest_ls m c _ r hr]; rfl
theorem rest_st1 (c : Dev nD) (r : ℕ) (hr : r < 8) :
    bigSep ((rd (F := F) m).duties (lsCell c 3) r \ ∅) (fun d => (rd (F := F) m).payload (lsCell c 3) r d)
      = iprop(((lDst c (chunkOf 1 r)).view.loc (c : Thread nD τ) ↦[(lDst c (chunkOf 1 r)).view.set]{fullShare} outC m c)
          ∗ ((vSlot 1).view.loc (c : Thread nD τ) ↦[(vSlot 1).view.set]{fullShare} VC m c (chunkOf 1 r))) := by
  rw [rest_ls m c _ r hr]; rfl

/-! ## Taking pieces one at a time -/

/-- The indices from `k` on. -/
def fromK (n k : ℕ) : Finset (Fin n) := Finset.univ.filter fun i => k ≤ i.val

theorem fromK_zero (n : ℕ) : fromK n 0 = Finset.univ := by ext i; simp [fromK]
theorem fromK_eq_insert {n k : ℕ} (hk : k < n) : fromK n k = insert ⟨k, hk⟩ (fromK n (k + 1)) := by
  ext i
  simp only [fromK, Finset.mem_filter, Finset.mem_univ, true_and, Finset.mem_insert]
  constructor
  · intro h
    by_cases hi : i.val = k
    · exact Or.inl (Fin.ext hi)
    · exact Or.inr (by omega)
  · rintro (rfl | h)
    · exact le_rfl
    · omega
theorem not_mem_fromK_succ {n k : ℕ} (hk : k < n) : (⟨k, hk⟩ : Fin n) ∉ fromK n (k + 1) := by
  simp [fromK]

/-- The next piece out of those from `k` on; -/
theorem take_step {n : ℕ} (Φ : Fin n → sProp 𝕄) (k : ℕ) (hk : k < n) : bigSep (fromK n k) Φ = iprop(Φ ⟨k, hk⟩ ∗ bigSep (fromK n (k + 1)) Φ) := by
  rw [fromK_eq_insert hk, bigSep_insert (not_mem_fromK_succ hk)]
  rfl
/-- the first piece out of the whole family. -/
theorem take_zero {n : ℕ} (Φ : Fin n → sProp 𝕄) (h0 : 0 < n) : bigSep Finset.univ Φ = iprop(Φ ⟨0, h0⟩ ∗ bigSep (fromK n 1) Φ) := by
  rw [← fromK_zero n, take_step Φ 0 h0]

/-- The families the body takes its pieces from. -/
abbrev famAtYS (c : Dev nD) : Fin 64 → sProp 𝕄 := fun k => atPos ER (ysCell c k) 0 ∅ 0
abbrev famAtYR (c : Dev nD) : Fin 64 → sProp 𝕄 := fun k => atPos ER (yrCell c k) 0 ∅ 0
abbrev famAtFS (c : Dev nD) : Fin 64 → sProp 𝕄 := fun k => atPos ER (fsCell c k) 0 ∅ 0
abbrev famAtFR (c : Dev nD) : Fin 64 → sProp 𝕄 := fun k => atPos ER (frCell c k) 0 ∅ 0
abbrev famTYS (c : Dev nD) : Fin 64 → sProp 𝕄 := fun k => dutyTok ER (ysCell c k) 0 false
abbrev famTYRP (c : Dev nD) : Fin 64 → sProp 𝕄 := fun k => dutyTok ER (yrCell (yp c) k) 0 false
abbrev famTFS (c : Dev nD) : Fin 64 → sProp 𝕄 := fun k => dutyTok ER (fsCell c k) 0 false
abbrev famTFRP (c : Dev nD) : Fin 64 → sProp 𝕄 := fun k => dutyTok ER (frCell (xp c) k) 0 false
abbrev famCYR (c : Dev nD) : Fin 64 → sProp 𝕄 := fun k => cred (tallyAt (yrCell c k) () N64)
abbrev famCFR (c : Dev nD) : Fin 64 → sProp 𝕄 := fun k => cred (tallyAt (frCell c k) () N64)
abbrev famCYS (c : Dev nD) : Fin 64 → sProp 𝕄 := fun k => cred (tallyAt (ysCell c k) () N64)
abbrev famCFS (c : Dev nD) : Fin 64 → sProp 𝕄 := fun k => cred (tallyAt (fsCell c k) () N64)
abbrev famOL0 (c : Dev nD) : Fin 16 → sProp 𝕄 := fun j => ((lDst c j).view.loc (c : Thread nD τ) ↦[(lDst c j).view.set]{fullShare} o0 m c)
abbrev famDY (c : Dev nD) : Fin 64 → sProp 𝕄 := fun k => ((fSl (yp c) k).view.loc ((yp c : Dev nD) : Thread nD τ) ↦[(fSl (yp c) k).view.set]{fullShare} o0 m (yp c))
abbrev famDF (c : Dev nD) : Fin 64 → sProp 𝕄 := fun k => ((fSl c k).view.loc ((xp c : Dev nD) : Thread nD τ) ↦[(fSl c k).view.set]{fullShare} o0 m (xp c))

/-! ## Collecting pieces one at a time -/

/-- The first `k` indices. -/
def upTo (n k : ℕ) : Finset (Fin n) := Finset.univ.filter fun i => i.val < k

theorem upTo_succ {n k : ℕ} (hk : k < n) : upTo n (k + 1) = insert ⟨k, hk⟩ (upTo n k) := by
  ext i
  simp only [upTo, Finset.mem_filter, Finset.mem_univ, true_and, Finset.mem_insert]
  constructor
  · intro h
    by_cases hi : i.val = k
    · exact Or.inl (Fin.ext hi)
    · exact Or.inr (by omega)
  · rintro (rfl | h)
    · exact Nat.lt_succ_self _
    · omega
theorem not_mem_upTo {n k : ℕ} (hk : k < n) : (⟨k, hk⟩ : Fin n) ∉ upTo n k := by
  simp [upTo]
theorem upTo_full (n : ℕ) : upTo n n = Finset.univ := by
  ext i; simp [upTo, i.isLt]

/-- One piece starts the collection; -/
theorem acc_one {n : ℕ} (Φ : Fin n → sProp 𝕄) (h0 : 0 < n) : Φ ⟨0, h0⟩ ⊢ bigSep (upTo n 1) Φ := by
  rw [upTo_succ h0, bigSep_insert (not_mem_upTo h0)]
  have : upTo n 0 = ∅ := by ext i; simp [upTo]
  rw [this, bigSep_empty]
  exact (sep_emp (PROP := sProp 𝕄)).2
/-- the next piece joins the first `k`; -/
theorem acc_step {n : ℕ} (Φ : Fin n → sProp 𝕄) (k : ℕ) (hk : k < n) : iprop(bigSep (upTo n k) Φ ∗ Φ ⟨k, hk⟩) ⊢ bigSep (upTo n (k + 1)) Φ := by
  rw [upTo_succ hk, bigSep_insert (not_mem_upTo hk)]
  exact (sep_comm (PROP := sProp 𝕄)).1
/-- all of them are the whole family. -/
theorem acc_full {n : ℕ} (Φ : Fin n → sProp 𝕄) : bigSep (upTo n n) Φ = bigSep Finset.univ Φ := by rw [upTo_full]

/-- The families of pieces the body collects. -/
abbrev famXY (c : Dev nD) : Fin 64 → sProp 𝕄 := fun k => ysPay m c k
theorem famXY_at (c : Dev nD) (k : ℕ) (hk : k < 64) :
    famXY m c ⟨k, hk⟩ = ((ySrc c ⟨k, hk⟩).view.loc (c : Thread nD τ) ↦[(ySrc c ⟨k, hk⟩).view.set]{fullShare} xC m c) := rfl
abbrev famXL (c : Dev nD) : Fin 16 → sProp 𝕄 := fun j => ((lSrc c j).view.loc (c : Thread nD τ) ↦[(lSrc c j).view.set]{fullShare} xC m c)
abbrev famOL (c : Dev nD) : Fin 16 → sProp 𝕄 := fun j => ((lDst c j).view.loc (c : Thread nD τ) ↦[(lDst c j).view.set]{fullShare} outC m c)
abbrev famY (c : Dev nD) : Fin 64 → sProp 𝕄 := fun k => slPts c (fSl c k) (outC m c)
abbrev famF (c : Dev nD) : Fin 64 → sProp 𝕄 := fun k => slPts c (fSl (xp c) k) (outC m c)
abbrev famZys (c : Dev nD) : Fin 64 → sProp 𝕄 := fun k => semVal (ysCell c k) 0
abbrev famZyr (c : Dev nD) : Fin 64 → sProp 𝕄 := fun k => semVal (yrCell c k) 0
abbrev famZfs (c : Dev nD) : Fin 64 → sProp 𝕄 := fun k => semVal (fsCell c k) 0
abbrev famZfr (c : Dev nD) : Fin 64 → sProp 𝕄 := fun k => semVal (frCell c k) 0

/-! ## The body's post from its pieces -/

/-- Every slice of x back, every chunk and slice of the result at its final contents, the two scratch slots, every own
    cell closed at zero, and nothing owed: the body's post. -/
theorem post_intro (c : Dev nD) (W : Waits sig Unit) (f0 f1 : Buf (Elt F) ((c : Thread nD τ).loc cc0_scratch4)) :
    iprop(((bigSep Finset.univ fun k : Fin 64 => ysPay m c k)
          ∗ (bigSep Finset.univ fun j : Fin 16 => ((lSrc c j).view.loc (c : Thread nD τ) ↦[(lSrc c j).view.set]{fullShare} xC m c))
          ∗ (((c : Thread nD τ).loc main_arg0) ↦[xRest c]{fullShare} xC m c))
        ∗ ((bigSep Finset.univ fun j : Fin 16 => ((lDst c j).view.loc (c : Thread nD τ) ↦[(lDst c j).view.set]{fullShare} outC m c))
          ∗ (bigSep Finset.univ fun k : Fin 64 => slPts c (fSl c k) (outC m c))
          ∗ bigSep Finset.univ fun k : Fin 64 => slPts c (fSl (xp c) k) (outC m c))
        ∗ (((vSlot 0).view.loc (c : Thread nD τ) ↦[(vSlot 0).view.set]{fullShare} f0) ∗ ((vSlot 1).view.loc (c : Thread nD τ) ↦[(vSlot 1).view.set]{fullShare} f1))
        ∗ lsems c
        ∗ ((bigSep Finset.univ fun k : Fin 64 => semVal (ysCell c k) 0) ∗ (bigSep Finset.univ fun k : Fin 64 => semVal (yrCell c k) 0)
          ∗ (bigSep Finset.univ fun k : Fin 64 => semVal (fsCell c k) 0) ∗ bigSep Finset.univ fun k : Fin 64 => semVal (frCell c k) 0)
        ∗ owes (c : Thread nD τ) 0 W)
      ⊢ bodyPost m c := by
  unfold bodyPost Φ₁ Dat.owesAt Pipeline.owesWithin
  rw [x_split_eq m c, out_split_eq c (outC m c), Prep.xferZero_eq]
  iintro ⟨HX, HOut, HV, HLs, HZ, HO⟩
  isplitl [HX HOut HV HLs HZ]
  · isplitl [HX]; · iexact HX
    isplitl [HOut]; · iexact HOut
    isplitl [HV]; · iapply (v_join c f0 f1); iexact HV
    isplitl [HLs]; · iexact HLs
    iexact HZ
  · iexists W
    isplitr; · ipureintro; exact fun _ _ => Or.inl trivial
    iexact HO

/-- The post from the collected pieces. -/
theorem post_intro' (c : Dev nD) (W : Waits sig Unit) (f0 f1 : Buf (Elt F) ((c : Thread nD τ).loc cc0_scratch4)) :
    iprop((bigSep (upTo 64 64) (famXY m c) ∗ bigSep (upTo 16 16) (famXL m c) ∗ (((c : Thread nD τ).loc main_arg0) ↦[xRest c]{fullShare} xC m c))
        ∗ (bigSep (upTo 16 16) (famOL m c) ∗ bigSep (upTo 64 64) (famY m c) ∗ bigSep (upTo 64 64) (famF m c))
        ∗ (((vSlot 0).view.loc (c : Thread nD τ) ↦[(vSlot 0).view.set]{fullShare} f0) ∗ ((vSlot 1).view.loc (c : Thread nD τ) ↦[(vSlot 1).view.set]{fullShare} f1))
        ∗ (semVal (lsCell c 0) 0 ∗ semVal (lsCell c 1) 0 ∗ semVal (lsCell c 2) 0 ∗ semVal (lsCell c 3) 0)
        ∗ (bigSep (upTo 64 64) (famZys (F := F) c) ∗ bigSep (upTo 64 64) (famZyr (F := F) c) ∗ bigSep (upTo 64 64) (famZfs (F := F) c) ∗ bigSep (upTo 64 64) (famZfr (F := F) c))
        ∗ owes (c : Thread nD τ) 0 W)
      ⊢ bodyPost m c := by
  rw [acc_full, acc_full, acc_full, acc_full, acc_full, acc_full, acc_full, acc_full, acc_full, ← Prep.lsems_eq]
  exact post_intro m c W f0 f1

end Cert.KernelIdealProof

end
-- ==== Proof.Canon.lean ====
import proofs.«900037_g7700000000000038_dist_a2a_v7x_xy2x2_y_m8192_n1024_f32_1_alg».proof.Proof.Proto

noncomputable section

namespace Cert.KernelIdealProof

open Cert.KernelIdeal Cert.KernelIdeal.Gen
open Idealize.ShloMosaic
open Idealize.ShloMosaic.TcCoe

/-! Every device the body addresses is the y-neighbour or the x-neighbour. -/
theorem dev1_eq (c : Dev nD) : (⟨k0_dev1 c, k0_dev1_lt c⟩ : Dev nD) = yp c := Fin.ext (k0_dev1_eq c)
theorem dev3_eq (c : Dev nD) : (⟨k0_dev3 c, k0_dev3_lt c⟩ : Dev nD) = yp c := Fin.ext (k0_dev3_eq c)
theorem dev4_eq (c : Dev nD) : (⟨k0_dev4 c, k0_dev4_lt c⟩ : Dev nD) = yp c := Fin.ext (k0_dev4_eq c)
theorem dev5_eq (c : Dev nD) : (⟨k0_dev5 c, k0_dev5_lt c⟩ : Dev nD) = yp c := Fin.ext (k0_dev5_eq c)
theorem dev6_eq (c : Dev nD) : (⟨k0_dev6 c, k0_dev6_lt c⟩ : Dev nD) = yp c := Fin.ext (k0_dev6_eq c)
theorem dev7_eq (c : Dev nD) : (⟨k0_dev7 c, k0_dev7_lt c⟩ : Dev nD) = yp c := Fin.ext (k0_dev7_eq c)
theorem dev8_eq (c : Dev nD) : (⟨k0_dev8 c, k0_dev8_lt c⟩ : Dev nD) = yp c := Fin.ext (k0_dev8_eq c)
theorem dev9_eq (c : Dev nD) : (⟨k0_dev9 c, k0_dev9_lt c⟩ : Dev nD) = yp c := Fin.ext (k0_dev9_eq c)
theorem dev10_eq (c : Dev nD) : (⟨k0_dev10 c, k0_dev10_lt c⟩ : Dev nD) = yp c := Fin.ext (k0_dev10_eq c)
theorem dev11_eq (c : Dev nD) : (⟨k0_dev11 c, k0_dev11_lt c⟩ : Dev nD) = yp c := Fin.ext (k0_dev11_eq c)
theorem dev12_eq (c : Dev nD) : (⟨k0_dev12 c, k0_dev12_lt c⟩ : Dev nD) = yp c := Fin.ext (k0_dev12_eq c)
theorem dev13_eq (c : Dev nD) : (⟨k0_dev13 c, k0_dev13_lt c⟩ : Dev nD) = yp c := Fin.ext (k0_dev13_eq c)
theorem dev14_eq (c : Dev nD) : (⟨k0_dev14 c, k0_dev14_lt c⟩ : Dev nD) = yp c := Fin.ext (k0_dev14_eq c)
theorem dev15_eq (c : Dev nD) : (⟨k0_dev15 c, k0_dev15_lt c⟩ : Dev nD) = yp c := Fin.ext (k0_dev15_eq c)
theorem dev16_eq (c : Dev nD) : (⟨k0_dev16 c, k0_dev16_lt c⟩ : Dev nD) = yp c := Fin.ext (k0_dev16_eq c)
theorem dev17_eq (c : Dev nD) : (⟨k0_dev17 c, k0_dev17_lt c⟩ : Dev nD) = yp c := Fin.ext (k0_dev17_eq c)
theorem dev18_eq (c : Dev nD) : (⟨k0_dev18 c, k0_dev18_lt c⟩ : Dev nD) = yp c := Fin.ext (k0_dev18_eq c)
theorem dev19_eq (c : Dev nD) : (⟨k0_dev19 c, k0_dev19_lt c⟩ : Dev nD) = yp c := Fin.ext (k0_dev19_eq c)
theorem dev20_eq (c : Dev nD) : (⟨k0_dev20 c, k0_dev20_lt c⟩ : Dev nD) = yp c := Fin.ext (k0_dev20_eq c)
theorem dev21_eq (c : Dev nD) : (⟨k0_dev21 c, k0_dev21_lt c⟩ : Dev nD) = yp c := Fin.ext (k0_dev21_eq c)
theorem dev22_eq (c : Dev nD) : (⟨k0_dev22 c, k0_dev22_lt c⟩ : Dev nD) = yp c := Fin.ext (k0_dev22_eq c)
theorem dev23_eq (c : Dev nD) : (⟨k0_dev23 c, k0_dev23_lt c⟩ : Dev nD) = yp c := Fin.ext (k0_dev23_eq c)
theorem dev24_eq (c : Dev nD) : (⟨k0_dev24 c, k0_dev24_lt c⟩ : Dev nD) = yp c := Fin.ext (k0_dev24_eq c)
theorem dev25_eq (c : Dev nD) : (⟨k0_dev25 c, k0_dev25_lt c⟩ : Dev nD) = yp c := Fin.ext (k0_dev25_eq c)
theorem dev26_eq (c : Dev nD) : (⟨k0_dev26 c, k0_dev26_lt c⟩ : Dev nD) = yp c := Fin.ext (k0_dev26_eq c)
theorem dev27_eq (c : Dev nD) : (⟨k0_dev27 c, k0_dev27_lt c⟩ : Dev nD) = yp c := Fin.ext (k0_dev27_eq c)
theorem dev28_eq (c : Dev nD) : (⟨k0_dev28 c, k0_dev28_lt c⟩ : Dev nD) = yp c := Fin.ext (k0_dev28_eq c)
theorem dev29_eq (c : Dev nD) : (⟨k0_dev29 c, k0_dev29_lt c⟩ : Dev nD) = yp c := Fin.ext (k0_dev29_eq c)
theorem dev30_eq (c : Dev nD) : (⟨k0_dev30 c, k0_dev30_lt c⟩ : Dev nD) = yp c := Fin.ext (k0_dev30_eq c)
theorem dev31_eq (c : Dev nD) : (⟨k0_dev31 c, k0_dev31_lt c⟩ : Dev nD) = yp c := Fin.ext (k0_dev31_eq c)
theorem dev32_eq (c : Dev nD) : (⟨k0_dev32 c, k0_dev32_lt c⟩ : Dev nD) = yp c := Fin.ext (k0_dev32_eq c)
theorem dev33_eq (c : Dev nD) : (⟨k0_dev33 c, k0_dev33_lt c⟩ : Dev nD) = yp c := Fin.ext (k0_dev33_eq c)
theorem dev34_eq (c : Dev nD) : (⟨k0_dev34 c, k0_dev34_lt c⟩ : Dev nD) = yp c := Fin.ext (k0_dev34_eq c)
theorem dev35_eq (c : Dev nD) : (⟨k0_dev35 c, k0_dev35_lt c⟩ : Dev nD) = yp c := Fin.ext (k0_dev35_eq c)
theorem dev36_eq (c : Dev nD) : (⟨k0_dev36 c, k0_dev36_lt c⟩ : Dev nD) = yp c := Fin.ext (k0_dev36_eq c)
theorem dev37_eq (c : Dev nD) : (⟨k0_dev37 c, k0_dev37_lt c⟩ : Dev nD) = yp c := Fin.ext (k0_dev37_eq c)
theorem dev38_eq (c : Dev nD) : (⟨k0_dev38 c, k0_dev38_lt c⟩ : Dev nD) = yp c := Fin.ext (k0_dev38_eq c)
theorem dev39_eq (c : Dev nD) : (⟨k0_dev39 c, k0_dev39_lt c⟩ : Dev nD) = yp c := Fin.ext (k0_dev39_eq c)
theorem dev40_eq (c : Dev nD) : (⟨k0_dev40 c, k0_dev40_lt c⟩ : Dev nD) = yp c := Fin.ext (k0_dev40_eq c)
theorem dev41_eq (c : Dev nD) : (⟨k0_dev41 c, k0_dev41_lt c⟩ : Dev nD) = yp c := Fin.ext (k0_dev41_eq c)
theorem dev42_eq (c : Dev nD) : (⟨k0_dev42 c, k0_dev42_lt c⟩ : Dev nD) = yp c := Fin.ext (k0_dev42_eq c)
theorem dev43_eq (c : Dev nD) : (⟨k0_dev43 c, k0_dev43_lt c⟩ : Dev nD) = yp c := Fin.ext (k0_dev43_eq c)
theorem dev44_eq (c : Dev nD) : (⟨k0_dev44 c, k0_dev44_lt c⟩ : Dev nD) = yp c := Fin.ext (k0_dev44_eq c)
theorem dev45_eq (c : Dev nD) : (⟨k0_dev45 c, k0_dev45_lt c⟩ : Dev nD) = yp c := Fin.ext (k0_dev45_eq c)
theorem dev46_eq (c : Dev nD) : (⟨k0_dev46 c, k0_dev46_lt c⟩ : Dev nD) = yp c := Fin.ext (k0_dev46_eq c)
theorem dev47_eq (c : Dev nD) : (⟨k0_dev47 c, k0_dev47_lt c⟩ : Dev nD) = yp c := Fin.ext (k0_dev47_eq c)
theorem dev48_eq (c : Dev nD) : (⟨k0_dev48 c, k0_dev48_lt c⟩ : Dev nD) = yp c := Fin.ext (k0_dev48_eq c)
theorem dev49_eq (c : Dev nD) : (⟨k0_dev49 c, k0_dev49_lt c⟩ : Dev nD) = yp c := Fin.ext (k0_dev49_eq c)
theorem dev50_eq (c : Dev nD) : (⟨k0_dev50 c, k0_dev50_lt c⟩ : Dev nD) = yp c := Fin.ext (k0_dev50_eq c)
theorem dev51_eq (c : Dev nD) : (⟨k0_dev51 c, k0_dev51_lt c⟩ : Dev nD) = yp c := Fin.ext (k0_dev51_eq c)
theorem dev52_eq (c : Dev nD) : (⟨k0_dev52 c, k0_dev52_lt c⟩ : Dev nD) = yp c := Fin.ext (k0_dev52_eq c)
theorem dev53_eq (c : Dev nD) : (⟨k0_dev53 c, k0_dev53_lt c⟩ : Dev nD) = yp c := Fin.ext (k0_dev53_eq c)
theorem dev54_eq (c : Dev nD) : (⟨k0_dev54 c, k0_dev54_lt c⟩ : Dev nD) = yp c := Fin.ext (k0_dev54_eq c)
theorem dev55_eq (c : Dev nD) : (⟨k0_dev55 c, k0_dev55_lt c⟩ : Dev nD) = yp c := Fin.ext (k0_dev55_eq c)
theorem dev56_eq (c : Dev nD) : (⟨k0_dev56 c, k0_dev56_lt c⟩ : Dev nD) = yp c := Fin.ext (k0_dev56_eq c)
theorem dev57_eq (c : Dev nD) : (⟨k0_dev57 c, k0_dev57_lt c⟩ : Dev nD) = yp c := Fin.ext (k0_dev57_eq c)
theorem dev58_eq (c : Dev nD) : (⟨k0_dev58 c, k0_dev58_lt c⟩ : Dev nD) = yp c := Fin.ext (k0_dev58_eq c)
theorem dev59_eq (c : Dev nD) : (⟨k0_dev59 c, k0_dev59_lt c⟩ : Dev nD) = yp c := Fin.ext (k0_dev59_eq c)
theorem dev60_eq (c : Dev nD) : (⟨k0_dev60 c, k0_dev60_lt c⟩ : Dev nD) = yp c := Fin.ext (k0_dev60_eq c)
theorem dev61_eq (c : Dev nD) : (⟨k0_dev61 c, k0_dev61_lt c⟩ : Dev nD) = yp c := Fin.ext (k0_dev61_eq c)
theorem dev62_eq (c : Dev nD) : (⟨k0_dev62 c, k0_dev62_lt c⟩ : Dev nD) = yp c := Fin.ext (k0_dev62_eq c)
theorem dev63_eq (c : Dev nD) : (⟨k0_dev63 c, k0_dev63_lt c⟩ : Dev nD) = yp c := Fin.ext (k0_dev63_eq c)
theorem dev64_eq (c : Dev nD) : (⟨k0_dev64 c, k0_dev64_lt c⟩ : Dev nD) = yp c := Fin.ext (k0_dev64_eq c)
theorem dev65_eq (c : Dev nD) : (⟨k0_dev65 c, k0_dev65_lt c⟩ : Dev nD) = yp c := Fin.ext (k0_dev65_eq c)
theorem dev66_eq (c : Dev nD) : (⟨k0_dev66 c, k0_dev66_lt c⟩ : Dev nD) = yp c := Fin.ext (k0_dev66_eq c)
theorem dev2_eq (c : Dev nD) : (⟨k0_dev2 c, k0_dev2_lt c⟩ : Dev nD) = xp c := Fin.ext (k0_dev2_eq c)
theorem dev67_eq (c : Dev nD) : (⟨k0_dev67 c, k0_dev67_lt c⟩ : Dev nD) = xp c := Fin.ext (k0_dev67_eq c)
theorem dev68_eq (c : Dev nD) : (⟨k0_dev68 c, k0_dev68_lt c⟩ : Dev nD) = xp c := Fin.ext (k0_dev68_eq c)
theorem dev69_eq (c : Dev nD) : (⟨k0_dev69 c, k0_dev69_lt c⟩ : Dev nD) = xp c := Fin.ext (k0_dev69_eq c)
theorem dev70_eq (c : Dev nD) : (⟨k0_dev70 c, k0_dev70_lt c⟩ : Dev nD) = xp c := Fin.ext (k0_dev70_eq c)
theorem dev71_eq (c : Dev nD) : (⟨k0_dev71 c, k0_dev71_lt c⟩ : Dev nD) = xp c := Fin.ext (k0_dev71_eq c)
theorem dev72_eq (c : Dev nD) : (⟨k0_dev72 c, k0_dev72_lt c⟩ : Dev nD) = xp c := Fin.ext (k0_dev72_eq c)
theorem dev73_eq (c : Dev nD) : (⟨k0_dev73 c, k0_dev73_lt c⟩ : Dev nD) = xp c := Fin.ext (k0_dev73_eq c)
theorem dev74_eq (c : Dev nD) : (⟨k0_dev74 c, k0_dev74_lt c⟩ : Dev nD) = xp c := Fin.ext (k0_dev74_eq c)
theorem dev75_eq (c : Dev nD) : (⟨k0_dev75 c, k0_dev75_lt c⟩ : Dev nD) = xp c := Fin.ext (k0_dev75_eq c)
theorem dev76_eq (c : Dev nD) : (⟨k0_dev76 c, k0_dev76_lt c⟩ : Dev nD) = xp c := Fin.ext (k0_dev76_eq c)
theorem dev77_eq (c : Dev nD) : (⟨k0_dev77 c, k0_dev77_lt c⟩ : Dev nD) = xp c := Fin.ext (k0_dev77_eq c)
theorem dev78_eq (c : Dev nD) : (⟨k0_dev78 c, k0_dev78_lt c⟩ : Dev nD) = xp c := Fin.ext (k0_dev78_eq c)
theorem dev79_eq (c : Dev nD) : (⟨k0_dev79 c, k0_dev79_lt c⟩ : Dev nD) = xp c := Fin.ext (k0_dev79_eq c)
theorem dev80_eq (c : Dev nD) : (⟨k0_dev80 c, k0_dev80_lt c⟩ : Dev nD) = xp c := Fin.ext (k0_dev80_eq c)
theorem dev81_eq (c : Dev nD) : (⟨k0_dev81 c, k0_dev81_lt c⟩ : Dev nD) = xp c := Fin.ext (k0_dev81_eq c)
theorem dev82_eq (c : Dev nD) : (⟨k0_dev82 c, k0_dev82_lt c⟩ : Dev nD) = xp c := Fin.ext (k0_dev82_eq c)
theorem dev83_eq (c : Dev nD) : (⟨k0_dev83 c, k0_dev83_lt c⟩ : Dev nD) = xp c := Fin.ext (k0_dev83_eq c)
theorem dev84_eq (c : Dev nD) : (⟨k0_dev84 c, k0_dev84_lt c⟩ : Dev nD) = xp c := Fin.ext (k0_dev84_eq c)
theorem dev85_eq (c : Dev nD) : (⟨k0_dev85 c, k0_dev85_lt c⟩ : Dev nD) = xp c := Fin.ext (k0_dev85_eq c)
theorem dev86_eq (c : Dev nD) : (⟨k0_dev86 c, k0_dev86_lt c⟩ : Dev nD) = xp c := Fin.ext (k0_dev86_eq c)
theorem dev87_eq (c : Dev nD) : (⟨k0_dev87 c, k0_dev87_lt c⟩ : Dev nD) = xp c := Fin.ext (k0_dev87_eq c)
theorem dev88_eq (c : Dev nD) : (⟨k0_dev88 c, k0_dev88_lt c⟩ : Dev nD) = xp c := Fin.ext (k0_dev88_eq c)
theorem dev89_eq (c : Dev nD) : (⟨k0_dev89 c, k0_dev89_lt c⟩ : Dev nD) = xp c := Fin.ext (k0_dev89_eq c)
theorem dev90_eq (c : Dev nD) : (⟨k0_dev90 c, k0_dev90_lt c⟩ : Dev nD) = xp c := Fin.ext (k0_dev90_eq c)
theorem dev91_eq (c : Dev nD) : (⟨k0_dev91 c, k0_dev91_lt c⟩ : Dev nD) = xp c := Fin.ext (k0_dev91_eq c)
theorem dev92_eq (c : Dev nD) : (⟨k0_dev92 c, k0_dev92_lt c⟩ : Dev nD) = xp c := Fin.ext (k0_dev92_eq c)
theorem dev93_eq (c : Dev nD) : (⟨k0_dev93 c, k0_dev93_lt c⟩ : Dev nD) = xp c := Fin.ext (k0_dev93_eq c)
theorem dev94_eq (c : Dev nD) : (⟨k0_dev94 c, k0_dev94_lt c⟩ : Dev nD) = xp c := Fin.ext (k0_dev94_eq c)
theorem dev95_eq (c : Dev nD) : (⟨k0_dev95 c, k0_dev95_lt c⟩ : Dev nD) = xp c := Fin.ext (k0_dev95_eq c)
theorem dev96_eq (c : Dev nD) : (⟨k0_dev96 c, k0_dev96_lt c⟩ : Dev nD) = xp c := Fin.ext (k0_dev96_eq c)
theorem dev97_eq (c : Dev nD) : (⟨k0_dev97 c, k0_dev97_lt c⟩ : Dev nD) = xp c := Fin.ext (k0_dev97_eq c)
theorem dev98_eq (c : Dev nD) : (⟨k0_dev98 c, k0_dev98_lt c⟩ : Dev nD) = xp c := Fin.ext (k0_dev98_eq c)
theorem dev99_eq (c : Dev nD) : (⟨k0_dev99 c, k0_dev99_lt c⟩ : Dev nD) = xp c := Fin.ext (k0_dev99_eq c)
theorem dev100_eq (c : Dev nD) : (⟨k0_dev100 c, k0_dev100_lt c⟩ : Dev nD) = xp c := Fin.ext (k0_dev100_eq c)
theorem dev101_eq (c : Dev nD) : (⟨k0_dev101 c, k0_dev101_lt c⟩ : Dev nD) = xp c := Fin.ext (k0_dev101_eq c)
theorem dev102_eq (c : Dev nD) : (⟨k0_dev102 c, k0_dev102_lt c⟩ : Dev nD) = xp c := Fin.ext (k0_dev102_eq c)
theorem dev103_eq (c : Dev nD) : (⟨k0_dev103 c, k0_dev103_lt c⟩ : Dev nD) = xp c := Fin.ext (k0_dev103_eq c)
theorem dev104_eq (c : Dev nD) : (⟨k0_dev104 c, k0_dev104_lt c⟩ : Dev nD) = xp c := Fin.ext (k0_dev104_eq c)
theorem dev105_eq (c : Dev nD) : (⟨k0_dev105 c, k0_dev105_lt c⟩ : Dev nD) = xp c := Fin.ext (k0_dev105_eq c)
theorem dev106_eq (c : Dev nD) : (⟨k0_dev106 c, k0_dev106_lt c⟩ : Dev nD) = xp c := Fin.ext (k0_dev106_eq c)
theorem dev107_eq (c : Dev nD) : (⟨k0_dev107 c, k0_dev107_lt c⟩ : Dev nD) = xp c := Fin.ext (k0_dev107_eq c)
theorem dev108_eq (c : Dev nD) : (⟨k0_dev108 c, k0_dev108_lt c⟩ : Dev nD) = xp c := Fin.ext (k0_dev108_eq c)
theorem dev109_eq (c : Dev nD) : (⟨k0_dev109 c, k0_dev109_lt c⟩ : Dev nD) = xp c := Fin.ext (k0_dev109_eq c)
theorem dev110_eq (c : Dev nD) : (⟨k0_dev110 c, k0_dev110_lt c⟩ : Dev nD) = xp c := Fin.ext (k0_dev110_eq c)
theorem dev111_eq (c : Dev nD) : (⟨k0_dev111 c, k0_dev111_lt c⟩ : Dev nD) = xp c := Fin.ext (k0_dev111_eq c)
theorem dev112_eq (c : Dev nD) : (⟨k0_dev112 c, k0_dev112_lt c⟩ : Dev nD) = xp c := Fin.ext (k0_dev112_eq c)
theorem dev113_eq (c : Dev nD) : (⟨k0_dev113 c, k0_dev113_lt c⟩ : Dev nD) = xp c := Fin.ext (k0_dev113_eq c)
theorem dev114_eq (c : Dev nD) : (⟨k0_dev114 c, k0_dev114_lt c⟩ : Dev nD) = xp c := Fin.ext (k0_dev114_eq c)
theorem dev115_eq (c : Dev nD) : (⟨k0_dev115 c, k0_dev115_lt c⟩ : Dev nD) = xp c := Fin.ext (k0_dev115_eq c)
theorem dev116_eq (c : Dev nD) : (⟨k0_dev116 c, k0_dev116_lt c⟩ : Dev nD) = xp c := Fin.ext (k0_dev116_eq c)
theorem dev117_eq (c : Dev nD) : (⟨k0_dev117 c, k0_dev117_lt c⟩ : Dev nD) = xp c := Fin.ext (k0_dev117_eq c)
theorem dev118_eq (c : Dev nD) : (⟨k0_dev118 c, k0_dev118_lt c⟩ : Dev nD) = xp c := Fin.ext (k0_dev118_eq c)
theorem dev119_eq (c : Dev nD) : (⟨k0_dev119 c, k0_dev119_lt c⟩ : Dev nD) = xp c := Fin.ext (k0_dev119_eq c)
theorem dev120_eq (c : Dev nD) : (⟨k0_dev120 c, k0_dev120_lt c⟩ : Dev nD) = xp c := Fin.ext (k0_dev120_eq c)
theorem dev121_eq (c : Dev nD) : (⟨k0_dev121 c, k0_dev121_lt c⟩ : Dev nD) = xp c := Fin.ext (k0_dev121_eq c)
theorem dev122_eq (c : Dev nD) : (⟨k0_dev122 c, k0_dev122_lt c⟩ : Dev nD) = xp c := Fin.ext (k0_dev122_eq c)
theorem dev123_eq (c : Dev nD) : (⟨k0_dev123 c, k0_dev123_lt c⟩ : Dev nD) = xp c := Fin.ext (k0_dev123_eq c)
theorem dev124_eq (c : Dev nD) : (⟨k0_dev124 c, k0_dev124_lt c⟩ : Dev nD) = xp c := Fin.ext (k0_dev124_eq c)
theorem dev125_eq (c : Dev nD) : (⟨k0_dev125 c, k0_dev125_lt c⟩ : Dev nD) = xp c := Fin.ext (k0_dev125_eq c)
theorem dev126_eq (c : Dev nD) : (⟨k0_dev126 c, k0_dev126_lt c⟩ : Dev nD) = xp c := Fin.ext (k0_dev126_eq c)
theorem dev127_eq (c : Dev nD) : (⟨k0_dev127 c, k0_dev127_lt c⟩ : Dev nD) = xp c := Fin.ext (k0_dev127_eq c)
theorem dev128_eq (c : Dev nD) : (⟨k0_dev128 c, k0_dev128_lt c⟩ : Dev nD) = xp c := Fin.ext (k0_dev128_eq c)
theorem dev129_eq (c : Dev nD) : (⟨k0_dev129 c, k0_dev129_lt c⟩ : Dev nD) = xp c := Fin.ext (k0_dev129_eq c)
theorem dev130_eq (c : Dev nD) : (⟨k0_dev130 c, k0_dev130_lt c⟩ : Dev nD) = xp c := Fin.ext (k0_dev130_eq c)

/-! The slice of the y-neighbour's result a y-transfer writes is the slice that neighbour forwards. -/
theorem yDst_canon_0 (c : Dev nD) (h) (h') : (Memref.whole main_v1 : Memref sig .tc .hbm S16384x1024 .f32).slice (Rect.unit (s := S16384x1024) (k0_off1 c 0#32) S64x1024.size h) h' = fSl (yp c) 0 := yDst_eq c 0
theorem yDst_canon_1 (c : Dev nD) (h) (h') : (Memref.whole main_v1 : Memref sig .tc .hbm S16384x1024 .f32).slice (Rect.unit (s := S16384x1024) (k0_off1 c 64#32) S64x1024.size h) h' = fSl (yp c) 1 := yDst_eq c 1
theorem yDst_canon_2 (c : Dev nD) (h) (h') : (Memref.whole main_v1 : Memref sig .tc .hbm S16384x1024 .f32).slice (Rect.unit (s := S16384x1024) (k0_off1 c 128#32) S64x1024.size h) h' = fSl (yp c) 2 := yDst_eq c 2
theorem yDst_canon_3 (c : Dev nD) (h) (h') : (Memref.whole main_v1 : Memref sig .tc .hbm S16384x1024 .f32).slice (Rect.unit (s := S16384x1024) (k0_off1 c 192#32) S64x1024.size h) h' = fSl (yp c) 3 := yDst_eq c 3
theorem yDst_canon_4 (c : Dev nD) (h) (h') : (Memref.whole main_v1 : Memref sig .tc .hbm S16384x1024 .f32).slice (Rect.unit (s := S16384x1024) (k0_off1 c 256#32) S64x1024.size h) h' = fSl (yp c) 4 := yDst_eq c 4
theorem yDst_canon_5 (c : Dev nD) (h) (h') : (Memref.whole main_v1 : Memref sig .tc .hbm S16384x1024 .f32).slice (Rect.unit (s := S16384x1024) (k0_off1 c 320#32) S64x1024.size h) h' = fSl (yp c) 5 := yDst_eq c 5
theorem yDst_canon_6 (c : Dev nD) (h) (h') : (Memref.whole main_v1 : Memref sig .tc .hbm S16384x1024 .f32).slice (Rect.unit (s := S16384x1024) (k0_off1 c 384#32) S64x1024.size h) h' = fSl (yp c) 6 := yDst_eq c 6
theorem yDst_canon_7 (c : Dev nD) (h) (h') : (Memref.whole main_v1 : Memref sig .tc .hbm S16384x1024 .f32).slice (Rect.unit (s := S16384x1024) (k0_off1 c 448#32) S64x1024.size h) h' = fSl (yp c) 7 := yDst_eq c 7
theorem yDst_canon_8 (c : Dev nD) (h) (h') : (Memref.whole main_v1 : Memref sig .tc .hbm S16384x1024 .f32).slice (Rect.unit (s := S16384x1024) (k0_off1 c 512#32) S64x1024.size h) h' = fSl (yp c) 8 := yDst_eq c 8
theorem yDst_canon_9 (c : Dev nD) (h) (h') : (Memref.whole main_v1 : Memref sig .tc .hbm S16384x1024 .f32).slice (Rect.unit (s := S16384x1024) (k0_off1 c 576#32) S64x1024.size h) h' = fSl (yp c) 9 := yDst_eq c 9
theorem yDst_canon_10 (c : Dev nD) (h) (h') : (Memref.whole main_v1 : Memref sig .tc .hbm S16384x1024 .f32).slice (Rect.unit (s := S16384x1024) (k0_off1 c 640#32) S64x1024.size h) h' = fSl (yp c) 10 := yDst_eq c 10
theorem yDst_canon_11 (c : Dev nD) (h) (h') : (Memref.whole main_v1 : Memref sig .tc .hbm S16384x1024 .f32).slice (Rect.unit (s := S16384x1024) (k0_off1 c 704#32) S64x1024.size h) h' = fSl (yp c) 11 := yDst_eq c 11
theorem yDst_canon_12 (c : Dev nD) (h) (h') : (Memref.whole main_v1 : Memref sig .tc .hbm S16384x1024 .f32).slice (Rect.unit (s := S16384x1024) (k0_off1 c 768#32) S64x1024.size h) h' = fSl (yp c) 12 := yDst_eq c 12
theorem yDst_canon_13 (c : Dev nD) (h) (h') : (Memref.whole main_v1 : Memref sig .tc .hbm S16384x1024 .f32).slice (Rect.unit (s := S16384x1024) (k0_off1 c 832#32) S64x1024.size h) h' = fSl (yp c) 13 := yDst_eq c 13
theorem yDst_canon_14 (c : Dev nD) (h) (h') : (Memref.whole main_v1 : Memref sig .tc .hbm S16384x1024 .f32).slice (Rect.unit (s := S16384x1024) (k0_off1 c 896#32) S64x1024.size h) h' = fSl (yp c) 14 := yDst_eq c 14
theorem yDst_canon_15 (c : Dev nD) (h) (h') : (Memref.whole main_v1 : Memref sig .tc .hbm S16384x1024 .f32).slice (Rect.unit (s := S16384x1024) (k0_off1 c 960#32) S64x1024.size h) h' = fSl (yp c) 15 := yDst_eq c 15
theorem yDst_canon_16 (c : Dev nD) (h) (h') : (Memref.whole main_v1 : Memref sig .tc .hbm S16384x1024 .f32).slice (Rect.unit (s := S16384x1024) (k0_off1 c 1024#32) S64x1024.size h) h' = fSl (yp c) 16 := yDst_eq c 16
theorem yDst_canon_17 (c : Dev nD) (h) (h') : (Memref.whole main_v1 : Memref sig .tc .hbm S16384x1024 .f32).slice (Rect.unit (s := S16384x1024) (k0_off1 c 1088#32) S64x1024.size h) h' = fSl (yp c) 17 := yDst_eq c 17
theorem yDst_canon_18 (c : Dev nD) (h) (h') : (Memref.whole main_v1 : Memref sig .tc .hbm S16384x1024 .f32).slice (Rect.unit (s := S16384x1024) (k0_off1 c 1152#32) S64x1024.size h) h' = fSl (yp c) 18 := yDst_eq c 18
theorem yDst_canon_19 (c : Dev nD) (h) (h') : (Memref.whole main_v1 : Memref sig .tc .hbm S16384x1024 .f32).slice (Rect.unit (s := S16384x1024) (k0_off1 c 1216#32) S64x1024.size h) h' = fSl (yp c) 19 := yDst_eq c 19
theorem yDst_canon_20 (c : Dev nD) (h) (h') : (Memref.whole main_v1 : Memref sig .tc .hbm S16384x1024 .f32).slice (Rect.unit (s := S16384x1024) (k0_off1 c 1280#32) S64x1024.size h) h' = fSl (yp c) 20 := yDst_eq c 20
theorem yDst_canon_21 (c : Dev nD) (h) (h') : (Memref.whole main_v1 : Memref sig .tc .hbm S16384x1024 .f32).slice (Rect.unit (s := S16384x1024) (k0_off1 c 1344#32) S64x1024.size h) h' = fSl (yp c) 21 := yDst_eq c 21
theorem yDst_canon_22 (c : Dev nD) (h) (h') : (Memref.whole main_v1 : Memref sig .tc .hbm S16384x1024 .f32).slice (Rect.unit (s := S16384x1024) (k0_off1 c 1408#32) S64x1024.size h) h' = fSl (yp c) 22 := yDst_eq c 22
theorem yDst_canon_23 (c : Dev nD) (h) (h') : (Memref.whole main_v1 : Memref sig .tc .hbm S16384x1024 .f32).slice (Rect.unit (s := S16384x1024) (k0_off1 c 1472#32) S64x1024.size h) h' = fSl (yp c) 23 := yDst_eq c 23
theorem yDst_canon_24 (c : Dev nD) (h) (h') : (Memref.whole main_v1 : Memref sig .tc .hbm S16384x1024 .f32).slice (Rect.unit (s := S16384x1024) (k0_off1 c 1536#32) S64x1024.size h) h' = fSl (yp c) 24 := yDst_eq c 24
theorem yDst_canon_25 (c : Dev nD) (h) (h') : (Memref.whole main_v1 : Memref sig .tc .hbm S16384x1024 .f32).slice (Rect.unit (s := S16384x1024) (k0_off1 c 1600#32) S64x1024.size h) h' = fSl (yp c) 25 := yDst_eq c 25
theorem yDst_canon_26 (c : Dev nD) (h) (h') : (Memref.whole main_v1 : Memref sig .tc .hbm S16384x1024 .f32).slice (Rect.unit (s := S16384x1024) (k0_off1 c 1664#32) S64x1024.size h) h' = fSl (yp c) 26 := yDst_eq c 26
theorem yDst_canon_27 (c : Dev nD) (h) (h') : (Memref.whole main_v1 : Memref sig .tc .hbm S16384x1024 .f32).slice (Rect.unit (s := S16384x1024) (k0_off1 c 1728#32) S64x1024.size h) h' = fSl (yp c) 27 := yDst_eq c 27
theorem yDst_canon_28 (c : Dev nD) (h) (h') : (Memref.whole main_v1 : Memref sig .tc .hbm S16384x1024 .f32).slice (Rect.unit (s := S16384x1024) (k0_off1 c 1792#32) S64x1024.size h) h' = fSl (yp c) 28 := yDst_eq c 28
theorem yDst_canon_29 (c : Dev nD) (h) (h') : (Memref.whole main_v1 : Memref sig .tc .hbm S16384x1024 .f32).slice (Rect.unit (s := S16384x1024) (k0_off1 c 1856#32) S64x1024.size h) h' = fSl (yp c) 29 := yDst_eq c 29
theorem yDst_canon_30 (c : Dev nD) (h) (h') : (Memref.whole main_v1 : Memref sig .tc .hbm S16384x1024 .f32).slice (Rect.unit (s := S16384x1024) (k0_off1 c 1920#32) S64x1024.size h) h' = fSl (yp c) 30 := yDst_eq c 30
theorem yDst_canon_31 (c : Dev nD) (h) (h') : (Memref.whole main_v1 : Memref sig .tc .hbm S16384x1024 .f32).slice (Rect.unit (s := S16384x1024) (k0_off1 c 1984#32) S64x1024.size h) h' = fSl (yp c) 31 := yDst_eq c 31
theorem yDst_canon_32 (c : Dev nD) (h) (h') : (Memref.whole main_v1 : Memref sig .tc .hbm S16384x1024 .f32).slice (Rect.unit (s := S16384x1024) (k0_off1 c 2048#32) S64x1024.size h) h' = fSl (yp c) 32 := yDst_eq c 32
theorem yDst_canon_33 (c : Dev nD) (h) (h') : (Memref.whole main_v1 : Memref sig .tc .hbm S16384x1024 .f32).slice (Rect.unit (s := S16384x1024) (k0_off1 c 2112#32) S64x1024.size h) h' = fSl (yp c) 33 := yDst_eq c 33
theorem yDst_canon_34 (c : Dev nD) (h) (h') : (Memref.whole main_v1 : Memref sig .tc .hbm S16384x1024 .f32).slice (Rect.unit (s := S16384x1024) (k0_off1 c 2176#32) S64x1024.size h) h' = fSl (yp c) 34 := yDst_eq c 34
theorem yDst_canon_35 (c : Dev nD) (h) (h') : (Memref.whole main_v1 : Memref sig .tc .hbm S16384x1024 .f32).slice (Rect.unit (s := S16384x1024) (k0_off1 c 2240#32) S64x1024.size h) h' = fSl (yp c) 35 := yDst_eq c 35
theorem yDst_canon_36 (c : Dev nD) (h) (h') : (Memref.whole main_v1 : Memref sig .tc .hbm S16384x1024 .f32).slice (Rect.unit (s := S16384x1024) (k0_off1 c 2304#32) S64x1024.size h) h' = fSl (yp c) 36 := yDst_eq c 36
theorem yDst_canon_37 (c : Dev nD) (h) (h') : (Memref.whole main_v1 : Memref sig .tc .hbm S16384x1024 .f32).slice (Rect.unit (s := S16384x1024) (k0_off1 c 2368#32) S64x1024.size h) h' = fSl (yp c) 37 := yDst_eq c 37
theorem yDst_canon_38 (c : Dev nD) (h) (h') : (Memref.whole main_v1 : Memref sig .tc .hbm S16384x1024 .f32).slice (Rect.unit (s := S16384x1024) (k0_off1 c 2432#32) S64x1024.size h) h' = fSl (yp c) 38 := yDst_eq c 38
theorem yDst_canon_39 (c : Dev nD) (h) (h') : (Memref.whole main_v1 : Memref sig .tc .hbm S16384x1024 .f32).slice (Rect.unit (s := S16384x1024) (k0_off1 c 2496#32) S64x1024.size h) h' = fSl (yp c) 39 := yDst_eq c 39
theorem yDst_canon_40 (c : Dev nD) (h) (h') : (Memref.whole main_v1 : Memref sig .tc .hbm S16384x1024 .f32).slice (Rect.unit (s := S16384x1024) (k0_off1 c 2560#32) S64x1024.size h) h' = fSl (yp c) 40 := yDst_eq c 40
theorem yDst_canon_41 (c : Dev nD) (h) (h') : (Memref.whole main_v1 : Memref sig .tc .hbm S16384x1024 .f32).slice (Rect.unit (s := S16384x1024) (k0_off1 c 2624#32) S64x1024.size h) h' = fSl (yp c) 41 := yDst_eq c 41
theorem yDst_canon_42 (c : Dev nD) (h) (h') : (Memref.whole main_v1 : Memref sig .tc .hbm S16384x1024 .f32).slice (Rect.unit (s := S16384x1024) (k0_off1 c 2688#32) S64x1024.size h) h' = fSl (yp c) 42 := yDst_eq c 42
theorem yDst_canon_43 (c : Dev nD) (h) (h') : (Memref.whole main_v1 : Memref sig .tc .hbm S16384x1024 .f32).slice (Rect.unit (s := S16384x1024) (k0_off1 c 2752#32) S64x1024.size h) h' = fSl (yp c) 43 := yDst_eq c 43
theorem yDst_canon_44 (c : Dev nD) (h) (h') : (Memref.whole main_v1 : Memref sig .tc .hbm S16384x1024 .f32).slice (Rect.unit (s := S16384x1024) (k0_off1 c 2816#32) S64x1024.size h) h' = fSl (yp c) 44 := yDst_eq c 44
theorem yDst_canon_45 (c : Dev nD) (h) (h') : (Memref.whole main_v1 : Memref sig .tc .hbm S16384x1024 .f32).slice (Rect.unit (s := S16384x1024) (k0_off1 c 2880#32) S64x1024.size h) h' = fSl (yp c) 45 := yDst_eq c 45
theorem yDst_canon_46 (c : Dev nD) (h) (h') : (Memref.whole main_v1 : Memref sig .tc .hbm S16384x1024 .f32).slice (Rect.unit (s := S16384x1024) (k0_off1 c 2944#32) S64x1024.size h) h' = fSl (yp c) 46 := yDst_eq c 46
theorem yDst_canon_47 (c : Dev nD) (h) (h') : (Memref.whole main_v1 : Memref sig .tc .hbm S16384x1024 .f32).slice (Rect.unit (s := S16384x1024) (k0_off1 c 3008#32) S64x1024.size h) h' = fSl (yp c) 47 := yDst_eq c 47
theorem yDst_canon_48 (c : Dev nD) (h) (h') : (Memref.whole main_v1 : Memref sig .tc .hbm S16384x1024 .f32).slice (Rect.unit (s := S16384x1024) (k0_off1 c 3072#32) S64x1024.size h) h' = fSl (yp c) 48 := yDst_eq c 48
theorem yDst_canon_49 (c : Dev nD) (h) (h') : (Memref.whole main_v1 : Memref sig .tc .hbm S16384x1024 .f32).slice (Rect.unit (s := S16384x1024) (k0_off1 c 3136#32) S64x1024.size h) h' = fSl (yp c) 49 := yDst_eq c 49
theorem yDst_canon_50 (c : Dev nD) (h) (h') : (Memref.whole main_v1 : Memref sig .tc .hbm S16384x1024 .f32).slice (Rect.unit (s := S16384x1024) (k0_off1 c 3200#32) S64x1024.size h) h' = fSl (yp c) 50 := yDst_eq c 50
theorem yDst_canon_51 (c : Dev nD) (h) (h') : (Memref.whole main_v1 : Memref sig .tc .hbm S16384x1024 .f32).slice (Rect.unit (s := S16384x1024) (k0_off1 c 3264#32) S64x1024.size h) h' = fSl (yp c) 51 := yDst_eq c 51
theorem yDst_canon_52 (c : Dev nD) (h) (h') : (Memref.whole main_v1 : Memref sig .tc .hbm S16384x1024 .f32).slice (Rect.unit (s := S16384x1024) (k0_off1 c 3328#32) S64x1024.size h) h' = fSl (yp c) 52 := yDst_eq c 52
theorem yDst_canon_53 (c : Dev nD) (h) (h') : (Memref.whole main_v1 : Memref sig .tc .hbm S16384x1024 .f32).slice (Rect.unit (s := S16384x1024) (k0_off1 c 3392#32) S64x1024.size h) h' = fSl (yp c) 53 := yDst_eq c 53
theorem yDst_canon_54 (c : Dev nD) (h) (h') : (Memref.whole main_v1 : Memref sig .tc .hbm S16384x1024 .f32).slice (Rect.unit (s := S16384x1024) (k0_off1 c 3456#32) S64x1024.size h) h' = fSl (yp c) 54 := yDst_eq c 54
theorem yDst_canon_55 (c : Dev nD) (h) (h') : (Memref.whole main_v1 : Memref sig .tc .hbm S16384x1024 .f32).slice (Rect.unit (s := S16384x1024) (k0_off1 c 3520#32) S64x1024.size h) h' = fSl (yp c) 55 := yDst_eq c 55
theorem yDst_canon_56 (c : Dev nD) (h) (h') : (Memref.whole main_v1 : Memref sig .tc .hbm S16384x1024 .f32).slice (Rect.unit (s := S16384x1024) (k0_off1 c 3584#32) S64x1024.size h) h' = fSl (yp c) 56 := yDst_eq c 56
theorem yDst_canon_57 (c : Dev nD) (h) (h') : (Memref.whole main_v1 : Memref sig .tc .hbm S16384x1024 .f32).slice (Rect.unit (s := S16384x1024) (k0_off1 c 3648#32) S64x1024.size h) h' = fSl (yp c) 57 := yDst_eq c 57
theorem yDst_canon_58 (c : Dev nD) (h) (h') : (Memref.whole main_v1 : Memref sig .tc .hbm S16384x1024 .f32).slice (Rect.unit (s := S16384x1024) (k0_off1 c 3712#32) S64x1024.size h) h' = fSl (yp c) 58 := yDst_eq c 58
theorem yDst_canon_59 (c : Dev nD) (h) (h') : (Memref.whole main_v1 : Memref sig .tc .hbm S16384x1024 .f32).slice (Rect.unit (s := S16384x1024) (k0_off1 c 3776#32) S64x1024.size h) h' = fSl (yp c) 59 := yDst_eq c 59
theorem yDst_canon_60 (c : Dev nD) (h) (h') : (Memref.whole main_v1 : Memref sig .tc .hbm S16384x1024 .f32).slice (Rect.unit (s := S16384x1024) (k0_off1 c 3840#32) S64x1024.size h) h' = fSl (yp c) 60 := yDst_eq c 60
theorem yDst_canon_61 (c : Dev nD) (h) (h') : (Memref.whole main_v1 : Memref sig .tc .hbm S16384x1024 .f32).slice (Rect.unit (s := S16384x1024) (k0_off1 c 3904#32) S64x1024.size h) h' = fSl (yp c) 61 := yDst_eq c 61
theorem yDst_canon_62 (c : Dev nD) (h) (h') : (Memref.whole main_v1 : Memref sig .tc .hbm S16384x1024 .f32).slice (Rect.unit (s := S16384x1024) (k0_off1 c 3968#32) S64x1024.size h) h' = fSl (yp c) 62 := yDst_eq c 62
theorem yDst_canon_63 (c : Dev nD) (h) (h') : (Memref.whole main_v1 : Memref sig .tc .hbm S16384x1024 .f32).slice (Rect.unit (s := S16384x1024) (k0_off1 c 4032#32) S64x1024.size h) h' = fSl (yp c) 63 := yDst_eq c 63

end Cert.KernelIdealProof

end
-- ==== Proof.Body.lean ====
import proofs.«900037_g7700000000000038_dist_a2a_v7x_xy2x2_y_m8192_n1024_f32_1_alg».proof.Proof.Tables3
import proofs.«900037_g7700000000000038_dist_a2a_v7x_xy2x2_y_m8192_n1024_f32_1_alg».proof.Proof.Canon
import proofs.«900037_g7700000000000038_dist_a2a_v7x_xy2x2_y_m8192_n1024_f32_1_alg».proof.Proof.Prep

noncomputable section

namespace Cert.KernelIdealProof

open Cert.KernelIdeal Cert.KernelIdeal.Gen
open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-!
  The body of the two-hop exchange, on one device, from what the launch hands it to the result at its final contents.

  In program order: the two barrier signals hand the neighbours this device's slices of the result; the barrier wait brings
  theirs; 64 y-transfers send the slices of x; then, slice by slice, the wait for the y-neighbour's slice and its forwarding
  to the x-neighbour, with the device's own row block copied locally through the two scratch slots in between; at the end
  the waits that bring every slice back.  Each statement is one rule of the rounds discipline at the protocol's cells; what is
  still owed is the y- and forward-receive credits of the slices not yet sent, which lie above every cell waited on.
-/

instance invs_persistent (K : Dev nD × CIx → ℕ) : BI.Persistent (invs (F := F) m K) := by unfold invs; infer_instance
instance reachedAll_persistent : BI.Persistent (reachedAll (F := F)) := by unfold reachedAll; infer_instance
instance lsInvs_persistent (KL : Dev nD × Fin 4 → ℕ) : BI.Persistent (lsInvs (F := F) m KL) := by unfold lsInvs; infer_instance

set_option maxHeartbeats 400000000 in
set_option maxRecDepth 100000 in
theorem sound_body (K : Dev nD × CIx → ℕ) (KL : Dev nD × Fin 4 → ℕ) (c : Dev nD) (Kt : PUnit → sProp 𝕄) :
    iprop(bodyPre m K KL c ∗ (bodyPost m c -∗ Kt ⟨⟩))
      ⊢ wp frame (wpE (defs₀ (F := F)) 𝒱₀ c none) Set.univ
          (cc0_body (Memref.whole main_arg0) (Memref.isWhole_whole _) (Memref.whole main_v1) (Memref.isWhole_whole _)
            cc0_scratch0 cc0_scratch1 cc0_scratch2 cc0_scratch3 (Memref.whole cc0_scratch4) (Memref.isWhole_whole _) cc0_scratch5) Kt := by
  unfold bodyPre ghost
  rw [Prep.positions_eq, Prep.payToks_eq, Prep.creds_eq, Prep.lsState_eq, x_split_eq m c, out_split_eq c (o0 m c)]
  iintro ⟨⟨⟨#HI, #HR, ⟨Hat_b, FatYS, FatYR, FatFS, FatFR⟩, ⟨HtY, HtX, FtYS, FtYRP, FtFS, FtFRP⟩, #HIL, ⟨⟨Hat_l0, #HRl0, Htl0_0, Htl0_1, Htl0_2, Htl0_3, Htl0_4, Htl0_5, Htl0_6, Htl0_7⟩, ⟨Hat_l1, #HRl1, Htl1_0, Htl1_1, Htl1_2, Htl1_3, Htl1_4, Htl1_5, Htl1_6, Htl1_7⟩, ⟨Hat_l2, #HRl2, Htl2_0, Htl2_1, Htl2_2, Htl2_3, Htl2_4, Htl2_5, Htl2_6, Htl2_7⟩, ⟨Hat_l3, #HRl3, Htl3_0, Htl3_1, Htl3_2, Htl3_3, Htl3_4, Htl3_5, Htl3_6, Htl3_7⟩⟩⟩, ⟨HcB, FcYR, FcFR⟩, #Hlev, ⟨FxY, FxL, HxR⟩, ⟨FoL, HoY, HoF⟩, ⟨%fv, Hv⟩, Howes⟩, Hk⟩
  ihave Hv := (Entails.of_eq (v_split_eq c fv)) $$ Hv
  icases Hv with ⟨Hv0, Hv1⟩
  unfold Dat.owesAt Pipeline.owesWithin
  icases Howes with ⟨%W0, %hW0, HO⟩
  rw [show (dats m 0 c).owed t₀.castSucc = O₀ c from rfl, O₀_eq c]
  -- step 0: signal k0_dev1
  first | sl_exec | skip
  simp only [dev1_eq c]
  ihave #HIby := (Prep.inv_bar m K (yp c)) $$ HI
  ihave #HRby := (Prep.reached_bar (F := F) (yp c)) $$ HR
  iapply (Rounds.wp_signal 𝒱₀ ER (rd m) (c : Thread nD τ) none (dst := ((yp c : Dev nD) : Thread nD τ)) (κ := K (yp c, none)) (d := false)
      (by rw [duties_bar]; exact Finset.mem_univ _) ((amount_bar m (yp c) false).trans (by decide)) () (owedF c 0 + owedY c 0 + tallyAt (barCell (xp c)) () 1) rfl) $$ [HO HtY HoY]
  · isplitr; · iexact HIby
    isplitl [HO]; · iexact HO
    isplitl [HtY]; · iexact HtY
    isplitl [HoY]
    · rw [payload_bar_false_yp]
      isplitl [HoY]; · iexact HoY
      iapply (Prep.reached_yr_all (F := F) c); iexact HR
    iexact HRby
  iintro HO
  -- step 1: signal k0_dev2
  first | sl_exec | skip
  simp only [dev2_eq c]
  ihave #HIbx := (Prep.inv_bar m K (xp c)) $$ HI
  ihave #HRbx := (Prep.reached_bar (F := F) (xp c)) $$ HR
  iapply (Rounds.wp_signal 𝒱₀ ER (rd m) (c : Thread nD τ) none (dst := ((xp c : Dev nD) : Thread nD τ)) (κ := K (xp c, none)) (d := true)
      (by rw [duties_bar]; exact Finset.mem_univ _) ((amount_bar m (xp c) true).trans (by decide)) () (owedF c 0 + owedY c 0) rfl) $$ [HO HtX HoF]
  · isplitr; · iexact HIbx
    isplitl [HO]; · iexact HO
    isplitl [HtX]; · iexact HtX
    isplitl [HoF]
    · rw [payload_bar_true_xp]
      isplitl [HoF]; · iexact HoF
      iapply (Prep.reached_fr_all (F := F) c); iexact HR
    iexact HRbx
  iintro HO
  -- step 2: semwait 2
  first | sl_exec | skip
  ihave #HIbc := (Prep.inv_bar m K c) $$ HI
  iapply (Rounds.wp_wait_rest_token 𝒱₀ ER (rd m) (c : Thread nD τ) none (κ := K (c, none))
      (wpE_semWait_eq 𝒱₀ (c : Thread nD τ) none Set.univ) (Set.mem_univ _) () (O := owedF c 0 + owedY c 0) (W := W0) (R := 0) (m := 0) (T := ∅)
      (by rw [expect_bar]; decide)) $$ [HcB HO Hat_b]
  · isplitr; · iexact HIbc
    isplitl [HcB]; · iexact HcB
    isplitl [HO]; · iexact HO
    isplitr
    · iapply (mayWait_of_above c (.reg barS) _ (by rw [show lv ((c : Thread nD τ), SemLoc.reg barS) () = 1 from lv_bar c]; exact (above_owedF c 0 (by decide)).add (above_owedY c 0 (by decide))))
      iexact Hlev
    iexact Hat_b
  iintro ⟨HO, Hat_b, -, Hpay⟩
  ihave Hp := (Entails.of_eq (rest_bar m c)) $$ Hpay
  unfold barPayY barPayX
  icases Hp with ⟨⟨FdY, -⟩, ⟨FdF, -⟩⟩
  ihave HOe : iprop(∃ W' : Waits sig Unit, owes (c : Thread nD τ) _ W') $$ [HO]
  · iexists _; iexact HO
  icases HOe with ⟨%W1, HO⟩
  -- step 3: send k0_dev3 src=arg0[(k0_off2 d0 0#32)] dst=arg1[(k0_off1 d0 0#32)] ssem=arg2[0] rsem=arg3[0]
  first | sl_exec | skip
  ihave Hs := (Entails.of_eq (take_zero (famTYS (F := F) c) (by decide))) $$ [FtYS]
  · iexact FtYS
  icases Hs with ⟨Ht1, FtYS⟩
  ihave Hs := (Entails.of_eq (take_zero (famTYRP (F := F) c) (by decide))) $$ [FtYRP]
  · iexact FtYRP
  icases Hs with ⟨Ht2, FtYRP⟩
  ihave Hs := (Entails.of_eq (take_zero (famXY m c) (by decide))) $$ [FxY]
  · iexact FxY
  icases Hs with ⟨Hx, FxY⟩
  ihave Hs := (Entails.of_eq (take_zero (famDY m c) (by decide))) $$ [FdY]
  · iexact FdY
  icases Hs with ⟨Hd, FdY⟩
  ihave Hx := (Entails.of_eq (famXY_at m c 0 (by decide))) $$ [Hx]
  · iexact Hx
  ihave #HI1 := (Prep.inv_ys m K c 0) $$ HI
  ihave #HI2 := (Prep.inv_yr m K (yp c) 0) $$ HI
  ihave #HR1 := (Prep.reached_ys (F := F) c 0) $$ HR
  ihave #HR2 := (Prep.reached_yr (F := F) (yp c) 0) $$ HR
  iapply (wp_ysend m c _ (dev3_eq c) 0 _ (yDst_eq c 0) (K (c, some (0, 0))) (K (yp c, some (1, 0))) (owedF c 0 + owedY c 0) (owedF c 0 + owedY c 1)
      (by rw [owedY_succ' c 0 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_one (famCYS (F := F) c) (by decide)) $$ [Hc]
  · iexact Hc
  -- step 4: send k0_dev4 src=arg0[(k0_off2 d0 64#32)] dst=arg1[(k0_off1 d0 64#32)] ssem=arg2[1] rsem=arg3[1]
  first | sl_exec | skip
  ihave Hs := (Entails.of_eq (take_step (famTYS (F := F) c) 1 (by decide))) $$ [FtYS]
  · iexact FtYS
  icases Hs with ⟨Ht1, FtYS⟩
  ihave Hs := (Entails.of_eq (take_step (famTYRP (F := F) c) 1 (by decide))) $$ [FtYRP]
  · iexact FtYRP
  icases Hs with ⟨Ht2, FtYRP⟩
  ihave Hs := (Entails.of_eq (take_step (famXY m c) 1 (by decide))) $$ [FxY]
  · iexact FxY
  icases Hs with ⟨Hx, FxY⟩
  ihave Hs := (Entails.of_eq (take_step (famDY m c) 1 (by decide))) $$ [FdY]
  · iexact FdY
  icases Hs with ⟨Hd, FdY⟩
  ihave Hx := (Entails.of_eq (famXY_at m c 1 (by decide))) $$ [Hx]
  · iexact Hx
  ihave #HI1 := (Prep.inv_ys m K c 1) $$ HI
  ihave #HI2 := (Prep.inv_yr m K (yp c) 1) $$ HI
  ihave #HR1 := (Prep.reached_ys (F := F) c 1) $$ HR
  ihave #HR2 := (Prep.reached_yr (F := F) (yp c) 1) $$ HR
  iapply (wp_ysend m c _ (dev4_eq c) 1 _ (yDst_eq c 1) (K (c, some (0, 1))) (K (yp c, some (1, 1))) (owedF c 0 + owedY c 1) (owedF c 0 + owedY c 2)
      (by rw [owedY_succ' c 1 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 1 (by decide)) $$ [AccCYS Hc]
  · isplitl [AccCYS]; · iexact AccCYS
    iexact Hc
  -- step 5: send k0_dev5 src=arg0[(k0_off2 d0 128#32)] dst=arg1[(k0_off1 d0 128#32)] ssem=arg2[2] rsem=arg3[2]
  first | sl_exec | skip
  ihave Hs := (Entails.of_eq (take_step (famTYS (F := F) c) 2 (by decide))) $$ [FtYS]
  · iexact FtYS
  icases Hs with ⟨Ht1, FtYS⟩
  ihave Hs := (Entails.of_eq (take_step (famTYRP (F := F) c) 2 (by decide))) $$ [FtYRP]
  · iexact FtYRP
  icases Hs with ⟨Ht2, FtYRP⟩
  ihave Hs := (Entails.of_eq (take_step (famXY m c) 2 (by decide))) $$ [FxY]
  · iexact FxY
  icases Hs with ⟨Hx, FxY⟩
  ihave Hs := (Entails.of_eq (take_step (famDY m c) 2 (by decide))) $$ [FdY]
  · iexact FdY
  icases Hs with ⟨Hd, FdY⟩
  ihave Hx := (Entails.of_eq (famXY_at m c 2 (by decide))) $$ [Hx]
  · iexact Hx
  ihave #HI1 := (Prep.inv_ys m K c 2) $$ HI
  ihave #HI2 := (Prep.inv_yr m K (yp c) 2) $$ HI
  ihave #HR1 := (Prep.reached_ys (F := F) c 2) $$ HR
  ihave #HR2 := (Prep.reached_yr (F := F) (yp c) 2) $$ HR
  iapply (wp_ysend m c _ (dev5_eq c) 2 _ (yDst_eq c 2) (K (c, some (0, 2))) (K (yp c, some (1, 2))) (owedF c 0 + owedY c 2) (owedF c 0 + owedY c 3)
      (by rw [owedY_succ' c 2 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 2 (by decide)) $$ [AccCYS Hc]
  · isplitl [AccCYS]; · iexact AccCYS
    iexact Hc
  -- step 6: send k0_dev6 src=arg0[(k0_off2 d0 192#32)] dst=arg1[(k0_off1 d0 192#32)] ssem=arg2[3] rsem=arg3[3]
  first | sl_exec | skip
  ihave Hs := (Entails.of_eq (take_step (famTYS (F := F) c) 3 (by decide))) $$ [FtYS]
  · iexact FtYS
  icases Hs with ⟨Ht1, FtYS⟩
  ihave Hs := (Entails.of_eq (take_step (famTYRP (F := F) c) 3 (by decide))) $$ [FtYRP]
  · iexact FtYRP
  icases Hs with ⟨Ht2, FtYRP⟩
  ihave Hs := (Entails.of_eq (take_step (famXY m c) 3 (by decide))) $$ [FxY]
  · iexact FxY
  icases Hs with ⟨Hx, FxY⟩
  ihave Hs := (Entails.of_eq (take_step (famDY m c) 3 (by decide))) $$ [FdY]
  · iexact FdY
  icases Hs with ⟨Hd, FdY⟩
  ihave Hx := (Entails.of_eq (famXY_at m c 3 (by decide))) $$ [Hx]
  · iexact Hx
  ihave #HI1 := (Prep.inv_ys m K c 3) $$ HI
  ihave #HI2 := (Prep.inv_yr m K (yp c) 3) $$ HI
  ihave #HR1 := (Prep.reached_ys (F := F) c 3) $$ HR
  ihave #HR2 := (Prep.reached_yr (F := F) (yp c) 3) $$ HR
  iapply (wp_ysend m c _ (dev6_eq c) 3 _ (yDst_eq c 3) (K (c, some (0, 3))) (K (yp c, some (1, 3))) (owedF c 0 + owedY c 3) (owedF c 0 + owedY c 4)
      (by rw [owedY_succ' c 3 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 3 (by decide)) $$ [AccCYS Hc]
  · isplitl [AccCYS]; · iexact AccCYS
    iexact Hc
  -- step 7: send k0_dev7 src=arg0[(k0_off2 d0 256#32)] dst=arg1[(k0_off1 d0 256#32)] ssem=arg2[4] rsem=arg3[4]
  first | sl_exec | skip
  ihave Hs := (Entails.of_eq (take_step (famTYS (F := F) c) 4 (by decide))) $$ [FtYS]
  · iexact FtYS
  icases Hs with ⟨Ht1, FtYS⟩
  ihave Hs := (Entails.of_eq (take_step (famTYRP (F := F) c) 4 (by decide))) $$ [FtYRP]
  · iexact FtYRP
  icases Hs with ⟨Ht2, FtYRP⟩
  ihave Hs := (Entails.of_eq (take_step (famXY m c) 4 (by decide))) $$ [FxY]
  · iexact FxY
  icases Hs with ⟨Hx, FxY⟩
  ihave Hs := (Entails.of_eq (take_step (famDY m c) 4 (by decide))) $$ [FdY]
  · iexact FdY
  icases Hs with ⟨Hd, FdY⟩
  ihave Hx := (Entails.of_eq (famXY_at m c 4 (by decide))) $$ [Hx]
  · iexact Hx
  ihave #HI1 := (Prep.inv_ys m K c 4) $$ HI
  ihave #HI2 := (Prep.inv_yr m K (yp c) 4) $$ HI
  ihave #HR1 := (Prep.reached_ys (F := F) c 4) $$ HR
  ihave #HR2 := (Prep.reached_yr (F := F) (yp c) 4) $$ HR
  iapply (wp_ysend m c _ (dev7_eq c) 4 _ (yDst_eq c 4) (K (c, some (0, 4))) (K (yp c, some (1, 4))) (owedF c 0 + owedY c 4) (owedF c 0 + owedY c 5)
      (by rw [owedY_succ' c 4 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 4 (by decide)) $$ [AccCYS Hc]
  · isplitl [AccCYS]; · iexact AccCYS
    iexact Hc
  -- step 8: send k0_dev8 src=arg0[(k0_off2 d0 320#32)] dst=arg1[(k0_off1 d0 320#32)] ssem=arg2[5] rsem=arg3[5]
  first | sl_exec | skip
  ihave Hs := (Entails.of_eq (take_step (famTYS (F := F) c) 5 (by decide))) $$ [FtYS]
  · iexact FtYS
  icases Hs with ⟨Ht1, FtYS⟩
  ihave Hs := (Entails.of_eq (take_step (famTYRP (F := F) c) 5 (by decide))) $$ [FtYRP]
  · iexact FtYRP
  icases Hs with ⟨Ht2, FtYRP⟩
  ihave Hs := (Entails.of_eq (take_step (famXY m c) 5 (by decide))) $$ [FxY]
  · iexact FxY
  icases Hs with ⟨Hx, FxY⟩
  ihave Hs := (Entails.of_eq (take_step (famDY m c) 5 (by decide))) $$ [FdY]
  · iexact FdY
  icases Hs with ⟨Hd, FdY⟩
  ihave Hx := (Entails.of_eq (famXY_at m c 5 (by decide))) $$ [Hx]
  · iexact Hx
  ihave #HI1 := (Prep.inv_ys m K c 5) $$ HI
  ihave #HI2 := (Prep.inv_yr m K (yp c) 5) $$ HI
  ihave #HR1 := (Prep.reached_ys (F := F) c 5) $$ HR
  ihave #HR2 := (Prep.reached_yr (F := F) (yp c) 5) $$ HR
  iapply (wp_ysend m c _ (dev8_eq c) 5 _ (yDst_eq c 5) (K (c, some (0, 5))) (K (yp c, some (1, 5))) (owedF c 0 + owedY c 5) (owedF c 0 + owedY c 6)
      (by rw [owedY_succ' c 5 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 5 (by decide)) $$ [AccCYS Hc]
  · isplitl [AccCYS]; · iexact AccCYS
    iexact Hc
  -- step 9: send k0_dev9 src=arg0[(k0_off2 d0 384#32)] dst=arg1[(k0_off1 d0 384#32)] ssem=arg2[6] rsem=arg3[6]
  first | sl_exec | skip
  ihave Hs := (Entails.of_eq (take_step (famTYS (F := F) c) 6 (by decide))) $$ [FtYS]
  · iexact FtYS
  icases Hs with ⟨Ht1, FtYS⟩
  ihave Hs := (Entails.of_eq (take_step (famTYRP (F := F) c) 6 (by decide))) $$ [FtYRP]
  · iexact FtYRP
  icases Hs with ⟨Ht2, FtYRP⟩
  ihave Hs := (Entails.of_eq (take_step (famXY m c) 6 (by decide))) $$ [FxY]
  · iexact FxY
  icases Hs with ⟨Hx, FxY⟩
  ihave Hs := (Entails.of_eq (take_step (famDY m c) 6 (by decide))) $$ [FdY]
  · iexact FdY
  icases Hs with ⟨Hd, FdY⟩
  ihave Hx := (Entails.of_eq (famXY_at m c 6 (by decide))) $$ [Hx]
  · iexact Hx
  ihave #HI1 := (Prep.inv_ys m K c 6) $$ HI
  ihave #HI2 := (Prep.inv_yr m K (yp c) 6) $$ HI
  ihave #HR1 := (Prep.reached_ys (F := F) c 6) $$ HR
  ihave #HR2 := (Prep.reached_yr (F := F) (yp c) 6) $$ HR
  iapply (wp_ysend m c _ (dev9_eq c) 6 _ (yDst_eq c 6) (K (c, some (0, 6))) (K (yp c, some (1, 6))) (owedF c 0 + owedY c 6) (owedF c 0 + owedY c 7)
      (by rw [owedY_succ' c 6 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 6 (by decide)) $$ [AccCYS Hc]
  · isplitl [AccCYS]; · iexact AccCYS
    iexact Hc
  -- step 10: send k0_dev10 src=arg0[(k0_off2 d0 448#32)] dst=arg1[(k0_off1 d0 448#32)] ssem=arg2[7] rsem=arg3[7]
  first | sl_exec | skip
  ihave Hs := (Entails.of_eq (take_step (famTYS (F := F) c) 7 (by decide))) $$ [FtYS]
  · iexact FtYS
  icases Hs with ⟨Ht1, FtYS⟩
  ihave Hs := (Entails.of_eq (take_step (famTYRP (F := F) c) 7 (by decide))) $$ [FtYRP]
  · iexact FtYRP
  icases Hs with ⟨Ht2, FtYRP⟩
  ihave Hs := (Entails.of_eq (take_step (famXY m c) 7 (by decide))) $$ [FxY]
  · iexact FxY
  icases Hs with ⟨Hx, FxY⟩
  ihave Hs := (Entails.of_eq (take_step (famDY m c) 7 (by decide))) $$ [FdY]
  · iexact FdY
  icases Hs with ⟨Hd, FdY⟩
  ihave Hx := (Entails.of_eq (famXY_at m c 7 (by decide))) $$ [Hx]
  · iexact Hx
  ihave #HI1 := (Prep.inv_ys m K c 7) $$ HI
  ihave #HI2 := (Prep.inv_yr m K (yp c) 7) $$ HI
  ihave #HR1 := (Prep.reached_ys (F := F) c 7) $$ HR
  ihave #HR2 := (Prep.reached_yr (F := F) (yp c) 7) $$ HR
  iapply (wp_ysend m c _ (dev10_eq c) 7 _ (yDst_eq c 7) (K (c, some (0, 7))) (K (yp c, some (1, 7))) (owedF c 0 + owedY c 7) (owedF c 0 + owedY c 8)
      (by rw [owedY_succ' c 7 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 7 (by decide)) $$ [AccCYS Hc]
  · isplitl [AccCYS]; · iexact AccCYS
    iexact Hc
  -- step 11: send k0_dev11 src=arg0[(k0_off2 d0 512#32)] dst=arg1[(k0_off1 d0 512#32)] ssem=arg2[8] rsem=arg3[8]
  first | sl_exec | skip
  ihave Hs := (Entails.of_eq (take_step (famTYS (F := F) c) 8 (by decide))) $$ [FtYS]
  · iexact FtYS
  icases Hs with ⟨Ht1, FtYS⟩
  ihave Hs := (Entails.of_eq (take_step (famTYRP (F := F) c) 8 (by decide))) $$ [FtYRP]
  · iexact FtYRP
  icases Hs with ⟨Ht2, FtYRP⟩
  ihave Hs := (Entails.of_eq (take_step (famXY m c) 8 (by decide))) $$ [FxY]
  · iexact FxY
  icases Hs with ⟨Hx, FxY⟩
  ihave Hs := (Entails.of_eq (take_step (famDY m c) 8 (by decide))) $$ [FdY]
  · iexact FdY
  icases Hs with ⟨Hd, FdY⟩
  ihave Hx := (Entails.of_eq (famXY_at m c 8 (by decide))) $$ [Hx]
  · iexact Hx
  ihave #HI1 := (Prep.inv_ys m K c 8) $$ HI
  ihave #HI2 := (Prep.inv_yr m K (yp c) 8) $$ HI
  ihave #HR1 := (Prep.reached_ys (F := F) c 8) $$ HR
  ihave #HR2 := (Prep.reached_yr (F := F) (yp c) 8) $$ HR
  iapply (wp_ysend m c _ (dev11_eq c) 8 _ (yDst_eq c 8) (K (c, some (0, 8))) (K (yp c, some (1, 8))) (owedF c 0 + owedY c 8) (owedF c 0 + owedY c 9)
      (by rw [owedY_succ' c 8 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 8 (by decide)) $$ [AccCYS Hc]
  · isplitl [AccCYS]; · iexact AccCYS
    iexact Hc
  -- step 12: send k0_dev12 src=arg0[(k0_off2 d0 576#32)] dst=arg1[(k0_off1 d0 576#32)] ssem=arg2[9] rsem=arg3[9]
  first | sl_exec | skip
  ihave Hs := (Entails.of_eq (take_step (famTYS (F := F) c) 9 (by decide))) $$ [FtYS]
  · iexact FtYS
  icases Hs with ⟨Ht1, FtYS⟩
  ihave Hs := (Entails.of_eq (take_step (famTYRP (F := F) c) 9 (by decide))) $$ [FtYRP]
  · iexact FtYRP
  icases Hs with ⟨Ht2, FtYRP⟩
  ihave Hs := (Entails.of_eq (take_step (famXY m c) 9 (by decide))) $$ [FxY]
  · iexact FxY
  icases Hs with ⟨Hx, FxY⟩
  ihave Hs := (Entails.of_eq (take_step (famDY m c) 9 (by decide))) $$ [FdY]
  · iexact FdY
  icases Hs with ⟨Hd, FdY⟩
  ihave Hx := (Entails.of_eq (famXY_at m c 9 (by decide))) $$ [Hx]
  · iexact Hx
  ihave #HI1 := (Prep.inv_ys m K c 9) $$ HI
  ihave #HI2 := (Prep.inv_yr m K (yp c) 9) $$ HI
  ihave #HR1 := (Prep.reached_ys (F := F) c 9) $$ HR
  ihave #HR2 := (Prep.reached_yr (F := F) (yp c) 9) $$ HR
  iapply (wp_ysend m c _ (dev12_eq c) 9 _ (yDst_eq c 9) (K (c, some (0, 9))) (K (yp c, some (1, 9))) (owedF c 0 + owedY c 9) (owedF c 0 + owedY c 10)
      (by rw [owedY_succ' c 9 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 9 (by decide)) $$ [AccCYS Hc]
  · isplitl [AccCYS]; · iexact AccCYS
    iexact Hc
  -- step 13: send k0_dev13 src=arg0[(k0_off2 d0 640#32)] dst=arg1[(k0_off1 d0 640#32)] ssem=arg2[10] rsem=arg3[10]
  first | sl_exec | skip
  ihave Hs := (Entails.of_eq (take_step (famTYS (F := F) c) 10 (by decide))) $$ [FtYS]
  · iexact FtYS
  icases Hs with ⟨Ht1, FtYS⟩
  ihave Hs := (Entails.of_eq (take_step (famTYRP (F := F) c) 10 (by decide))) $$ [FtYRP]
  · iexact FtYRP
  icases Hs with ⟨Ht2, FtYRP⟩
  ihave Hs := (Entails.of_eq (take_step (famXY m c) 10 (by decide))) $$ [FxY]
  · iexact FxY
  icases Hs with ⟨Hx, FxY⟩
  ihave Hs := (Entails.of_eq (take_step (famDY m c) 10 (by decide))) $$ [FdY]
  · iexact FdY
  icases Hs with ⟨Hd, FdY⟩
  ihave Hx := (Entails.of_eq (famXY_at m c 10 (by decide))) $$ [Hx]
  · iexact Hx
  ihave #HI1 := (Prep.inv_ys m K c 10) $$ HI
  ihave #HI2 := (Prep.inv_yr m K (yp c) 10) $$ HI
  ihave #HR1 := (Prep.reached_ys (F := F) c 10) $$ HR
  ihave #HR2 := (Prep.reached_yr (F := F) (yp c) 10) $$ HR
  iapply (wp_ysend m c _ (dev13_eq c) 10 _ (yDst_eq c 10) (K (c, some (0, 10))) (K (yp c, some (1, 10))) (owedF c 0 + owedY c 10) (owedF c 0 + owedY c 11)
      (by rw [owedY_succ' c 10 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 10 (by decide)) $$ [AccCYS Hc]
  · isplitl [AccCYS]; · iexact AccCYS
    iexact Hc
  -- step 14: send k0_dev14 src=arg0[(k0_off2 d0 704#32)] dst=arg1[(k0_off1 d0 704#32)] ssem=arg2[11] rsem=arg3[11]
  first | sl_exec | skip
  ihave Hs := (Entails.of_eq (take_step (famTYS (F := F) c) 11 (by decide))) $$ [FtYS]
  · iexact FtYS
  icases Hs with ⟨Ht1, FtYS⟩
  ihave Hs := (Entails.of_eq (take_step (famTYRP (F := F) c) 11 (by decide))) $$ [FtYRP]
  · iexact FtYRP
  icases Hs with ⟨Ht2, FtYRP⟩
  ihave Hs := (Entails.of_eq (take_step (famXY m c) 11 (by decide))) $$ [FxY]
  · iexact FxY
  icases Hs with ⟨Hx, FxY⟩
  ihave Hs := (Entails.of_eq (take_step (famDY m c) 11 (by decide))) $$ [FdY]
  · iexact FdY
  icases Hs with ⟨Hd, FdY⟩
  ihave Hx := (Entails.of_eq (famXY_at m c 11 (by decide))) $$ [Hx]
  · iexact Hx
  ihave #HI1 := (Prep.inv_ys m K c 11) $$ HI
  ihave #HI2 := (Prep.inv_yr m K (yp c) 11) $$ HI
  ihave #HR1 := (Prep.reached_ys (F := F) c 11) $$ HR
  ihave #HR2 := (Prep.reached_yr (F := F) (yp c) 11) $$ HR
  iapply (wp_ysend m c _ (dev14_eq c) 11 _ (yDst_eq c 11) (K (c, some (0, 11))) (K (yp c, some (1, 11))) (owedF c 0 + owedY c 11) (owedF c 0 + owedY c 12)
      (by rw [owedY_succ' c 11 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 11 (by decide)) $$ [AccCYS Hc]
  · isplitl [AccCYS]; · iexact AccCYS
    iexact Hc
  -- step 15: send k0_dev15 src=arg0[(k0_off2 d0 768#32)] dst=arg1[(k0_off1 d0 768#32)] ssem=arg2[12] rsem=arg3[12]
  first | sl_exec | skip
  ihave Hs := (Entails.of_eq (take_step (famTYS (F := F) c) 12 (by decide))) $$ [FtYS]
  · iexact FtYS
  icases Hs with ⟨Ht1, FtYS⟩
  ihave Hs := (Entails.of_eq (take_step (famTYRP (F := F) c) 12 (by decide))) $$ [FtYRP]
  · iexact FtYRP
  icases Hs with ⟨Ht2, FtYRP⟩
  ihave Hs := (Entails.of_eq (take_step (famXY m c) 12 (by decide))) $$ [FxY]
  · iexact FxY
  icases Hs with ⟨Hx, FxY⟩
  ihave Hs := (Entails.of_eq (take_step (famDY m c) 12 (by decide))) $$ [FdY]
  · iexact FdY
  icases Hs with ⟨Hd, FdY⟩
  ihave Hx := (Entails.of_eq (famXY_at m c 12 (by decide))) $$ [Hx]
  · iexact Hx
  ihave #HI1 := (Prep.inv_ys m K c 12) $$ HI
  ihave #HI2 := (Prep.inv_yr m K (yp c) 12) $$ HI
  ihave #HR1 := (Prep.reached_ys (F := F) c 12) $$ HR
  ihave #HR2 := (Prep.reached_yr (F := F) (yp c) 12) $$ HR
  iapply (wp_ysend m c _ (dev15_eq c) 12 _ (yDst_eq c 12) (K (c, some (0, 12))) (K (yp c, some (1, 12))) (owedF c 0 + owedY c 12) (owedF c 0 + owedY c 13)
      (by rw [owedY_succ' c 12 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 12 (by decide)) $$ [AccCYS Hc]
  · isplitl [AccCYS]; · iexact AccCYS
    iexact Hc
  -- step 16: send k0_dev16 src=arg0[(k0_off2 d0 832#32)] dst=arg1[(k0_off1 d0 832#32)] ssem=arg2[13] rsem=arg3[13]
  first | sl_exec | skip
  ihave Hs := (Entails.of_eq (take_step (famTYS (F := F) c) 13 (by decide))) $$ [FtYS]
  · iexact FtYS
  icases Hs with ⟨Ht1, FtYS⟩
  ihave Hs := (Entails.of_eq (take_step (famTYRP (F := F) c) 13 (by decide))) $$ [FtYRP]
  · iexact FtYRP
  icases Hs with ⟨Ht2, FtYRP⟩
  ihave Hs := (Entails.of_eq (take_step (famXY m c) 13 (by decide))) $$ [FxY]
  · iexact FxY
  icases Hs with ⟨Hx, FxY⟩
  ihave Hs := (Entails.of_eq (take_step (famDY m c) 13 (by decide))) $$ [FdY]
  · iexact FdY
  icases Hs with ⟨Hd, FdY⟩
  ihave Hx := (Entails.of_eq (famXY_at m c 13 (by decide))) $$ [Hx]
  · iexact Hx
  ihave #HI1 := (Prep.inv_ys m K c 13) $$ HI
  ihave #HI2 := (Prep.inv_yr m K (yp c) 13) $$ HI
  ihave #HR1 := (Prep.reached_ys (F := F) c 13) $$ HR
  ihave #HR2 := (Prep.reached_yr (F := F) (yp c) 13) $$ HR
  iapply (wp_ysend m c _ (dev16_eq c) 13 _ (yDst_eq c 13) (K (c, some (0, 13))) (K (yp c, some (1, 13))) (owedF c 0 + owedY c 13) (owedF c 0 + owedY c 14)
      (by rw [owedY_succ' c 13 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 13 (by decide)) $$ [AccCYS Hc]
  · isplitl [AccCYS]; · iexact AccCYS
    iexact Hc
  -- step 17: send k0_dev17 src=arg0[(k0_off2 d0 896#32)] dst=arg1[(k0_off1 d0 896#32)] ssem=arg2[14] rsem=arg3[14]
  first | sl_exec | skip
  ihave Hs := (Entails.of_eq (take_step (famTYS (F := F) c) 14 (by decide))) $$ [FtYS]
  · iexact FtYS
  icases Hs with ⟨Ht1, FtYS⟩
  ihave Hs := (Entails.of_eq (take_step (famTYRP (F := F) c) 14 (by decide))) $$ [FtYRP]
  · iexact FtYRP
  icases Hs with ⟨Ht2, FtYRP⟩
  ihave Hs := (Entails.of_eq (take_step (famXY m c) 14 (by decide))) $$ [FxY]
  · iexact FxY
  icases Hs with ⟨Hx, FxY⟩
  ihave Hs := (Entails.of_eq (take_step (famDY m c) 14 (by decide))) $$ [FdY]
  · iexact FdY
  icases Hs with ⟨Hd, FdY⟩
  ihave Hx := (Entails.of_eq (famXY_at m c 14 (by decide))) $$ [Hx]
  · iexact Hx
  ihave #HI1 := (Prep.inv_ys m K c 14) $$ HI
  ihave #HI2 := (Prep.inv_yr m K (yp c) 14) $$ HI
  ihave #HR1 := (Prep.reached_ys (F := F) c 14) $$ HR
  ihave #HR2 := (Prep.reached_yr (F := F) (yp c) 14) $$ HR
  iapply (wp_ysend m c _ (dev17_eq c) 14 _ (yDst_eq c 14) (K (c, some (0, 14))) (K (yp c, some (1, 14))) (owedF c 0 + owedY c 14) (owedF c 0 + owedY c 15)
      (by rw [owedY_succ' c 14 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 14 (by decide)) $$ [AccCYS Hc]
  · isplitl [AccCYS]; · iexact AccCYS
    iexact Hc
  -- step 18: send k0_dev18 src=arg0[(k0_off2 d0 960#32)] dst=arg1[(k0_off1 d0 960#32)] ssem=arg2[15] rsem=arg3[15]
  first | sl_exec | skip
  ihave Hs := (Entails.of_eq (take_step (famTYS (F := F) c) 15 (by decide))) $$ [FtYS]
  · iexact FtYS
  icases Hs with ⟨Ht1, FtYS⟩
  ihave Hs := (Entails.of_eq (take_step (famTYRP (F := F) c) 15 (by decide))) $$ [FtYRP]
  · iexact FtYRP
  icases Hs with ⟨Ht2, FtYRP⟩
  ihave Hs := (Entails.of_eq (take_step (famXY m c) 15 (by decide))) $$ [FxY]
  · iexact FxY
  icases Hs with ⟨Hx, FxY⟩
  ihave Hs := (Entails.of_eq (take_step (famDY m c) 15 (by decide))) $$ [FdY]
  · iexact FdY
  icases Hs with ⟨Hd, FdY⟩
  ihave Hx := (Entails.of_eq (famXY_at m c 15 (by decide))) $$ [Hx]
  · iexact Hx
  ihave #HI1 := (Prep.inv_ys m K c 15) $$ HI
  ihave #HI2 := (Prep.inv_yr m K (yp c) 15) $$ HI
  ihave #HR1 := (Prep.reached_ys (F := F) c 15) $$ HR
  ihave #HR2 := (Prep.reached_yr (F := F) (yp c) 15) $$ HR
  iapply (wp_ysend m c _ (dev18_eq c) 15 _ (yDst_eq c 15) (K (c, some (0, 15))) (K (yp c, some (1, 15))) (owedF c 0 + owedY c 15) (owedF c 0 + owedY c 16)
      (by rw [owedY_succ' c 15 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 15 (by decide)) $$ [AccCYS Hc]
  · isplitl [AccCYS]; · iexact AccCYS
    iexact Hc
  -- step 19: send k0_dev19 src=arg0[(k0_off2 d0 1024#32)] dst=arg1[(k0_off1 d0 1024#32)] ssem=arg2[16] rsem=arg3[16]
  first | sl_exec | skip
  ihave Hs := (Entails.of_eq (take_step (famTYS (F := F) c) 16 (by decide))) $$ [FtYS]
  · iexact FtYS
  icases Hs with ⟨Ht1, FtYS⟩
  ihave Hs := (Entails.of_eq (take_step (famTYRP (F := F) c) 16 (by decide))) $$ [FtYRP]
  · iexact FtYRP
  icases Hs with ⟨Ht2, FtYRP⟩
  ihave Hs := (Entails.of_eq (take_step (famXY m c) 16 (by decide))) $$ [FxY]
  · iexact FxY
  icases Hs with ⟨Hx, FxY⟩
  ihave Hs := (Entails.of_eq (take_step (famDY m c) 16 (by decide))) $$ [FdY]
  · iexact FdY
  icases Hs with ⟨Hd, FdY⟩
  ihave Hx := (Entails.of_eq (famXY_at m c 16 (by decide))) $$ [Hx]
  · iexact Hx
  ihave #HI1 := (Prep.inv_ys m K c 16) $$ HI
  ihave #HI2 := (Prep.inv_yr m K (yp c) 16) $$ HI
  ihave #HR1 := (Prep.reached_ys (F := F) c 16) $$ HR
  ihave #HR2 := (Prep.reached_yr (F := F) (yp c) 16) $$ HR
  iapply (wp_ysend m c _ (dev19_eq c) 16 _ (yDst_eq c 16) (K (c, some (0, 16))) (K (yp c, some (1, 16))) (owedF c 0 + owedY c 16) (owedF c 0 + owedY c 17)
      (by rw [owedY_succ' c 16 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 16 (by decide)) $$ [AccCYS Hc]
  · isplitl [AccCYS]; · iexact AccCYS
    iexact Hc
  -- step 20: send k0_dev20 src=arg0[(k0_off2 d0 1088#32)] dst=arg1[(k0_off1 d0 1088#32)] ssem=arg2[17] rsem=arg3[17]
  first | sl_exec | skip
  ihave Hs := (Entails.of_eq (take_step (famTYS (F := F) c) 17 (by decide))) $$ [FtYS]
  · iexact FtYS
  icases Hs with ⟨Ht1, FtYS⟩
  ihave Hs := (Entails.of_eq (take_step (famTYRP (F := F) c) 17 (by decide))) $$ [FtYRP]
  · iexact FtYRP
  icases Hs with ⟨Ht2, FtYRP⟩
  ihave Hs := (Entails.of_eq (take_step (famXY m c) 17 (by decide))) $$ [FxY]
  · iexact FxY
  icases Hs with ⟨Hx, FxY⟩
  ihave Hs := (Entails.of_eq (take_step (famDY m c) 17 (by decide))) $$ [FdY]
  · iexact FdY
  icases Hs with ⟨Hd, FdY⟩
  ihave Hx := (Entails.of_eq (famXY_at m c 17 (by decide))) $$ [Hx]
  · iexact Hx
  ihave #HI1 := (Prep.inv_ys m K c 17) $$ HI
  ihave #HI2 := (Prep.inv_yr m K (yp c) 17) $$ HI
  ihave #HR1 := (Prep.reached_ys (F := F) c 17) $$ HR
  ihave #HR2 := (Prep.reached_yr (F := F) (yp c) 17) $$ HR
  iapply (wp_ysend m c _ (dev20_eq c) 17 _ (yDst_eq c 17) (K (c, some (0, 17))) (K (yp c, some (1, 17))) (owedF c 0 + owedY c 17) (owedF c 0 + owedY c 18)
      (by rw [owedY_succ' c 17 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 17 (by decide)) $$ [AccCYS Hc]
  · isplitl [AccCYS]; · iexact AccCYS
    iexact Hc
  -- step 21: send k0_dev21 src=arg0[(k0_off2 d0 1152#32)] dst=arg1[(k0_off1 d0 1152#32)] ssem=arg2[18] rsem=arg3[18]
  first | sl_exec | skip
  ihave Hs := (Entails.of_eq (take_step (famTYS (F := F) c) 18 (by decide))) $$ [FtYS]
  · iexact FtYS
  icases Hs with ⟨Ht1, FtYS⟩
  ihave Hs := (Entails.of_eq (take_step (famTYRP (F := F) c) 18 (by decide))) $$ [FtYRP]
  · iexact FtYRP
  icases Hs with ⟨Ht2, FtYRP⟩
  ihave Hs := (Entails.of_eq (take_step (famXY m c) 18 (by decide))) $$ [FxY]
  · iexact FxY
  icases Hs with ⟨Hx, FxY⟩
  ihave Hs := (Entails.of_eq (take_step (famDY m c) 18 (by decide))) $$ [FdY]
  · iexact FdY
  icases Hs with ⟨Hd, FdY⟩
  ihave Hx := (Entails.of_eq (famXY_at m c 18 (by decide))) $$ [Hx]
  · iexact Hx
  ihave #HI1 := (Prep.inv_ys m K c 18) $$ HI
  ihave #HI2 := (Prep.inv_yr m K (yp c) 18) $$ HI
  ihave #HR1 := (Prep.reached_ys (F := F) c 18) $$ HR
  ihave #HR2 := (Prep.reached_yr (F := F) (yp c) 18) $$ HR
  iapply (wp_ysend m c _ (dev21_eq c) 18 _ (yDst_eq c 18) (K (c, some (0, 18))) (K (yp c, some (1, 18))) (owedF c 0 + owedY c 18) (owedF c 0 + owedY c 19)
      (by rw [owedY_succ' c 18 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 18 (by decide)) $$ [AccCYS Hc]
  · isplitl [AccCYS]; · iexact AccCYS
    iexact Hc
  -- step 22: send k0_dev22 src=arg0[(k0_off2 d0 1216#32)] dst=arg1[(k0_off1 d0 1216#32)] ssem=arg2[19] rsem=arg3[19]
  first | sl_exec | skip
  ihave Hs := (Entails.of_eq (take_step (famTYS (F := F) c) 19 (by decide))) $$ [FtYS]
  · iexact FtYS
  icases Hs with ⟨Ht1, FtYS⟩
  ihave Hs := (Entails.of_eq (take_step (famTYRP (F := F) c) 19 (by decide))) $$ [FtYRP]
  · iexact FtYRP
  icases Hs with ⟨Ht2, FtYRP⟩
  ihave Hs := (Entails.of_eq (take_step (famXY m c) 19 (by decide))) $$ [FxY]
  · iexact FxY
  icases Hs with ⟨Hx, FxY⟩
  ihave Hs := (Entails.of_eq (take_step (famDY m c) 19 (by decide))) $$ [FdY]
  · iexact FdY
  icases Hs with ⟨Hd, FdY⟩
  ihave Hx := (Entails.of_eq (famXY_at m c 19 (by decide))) $$ [Hx]
  · iexact Hx
  ihave #HI1 := (Prep.inv_ys m K c 19) $$ HI
  ihave #HI2 := (Prep.inv_yr m K (yp c) 19) $$ HI
  ihave #HR1 := (Prep.reached_ys (F := F) c 19) $$ HR
  ihave #HR2 := (Prep.reached_yr (F := F) (yp c) 19) $$ HR
  iapply (wp_ysend m c _ (dev22_eq c) 19 _ (yDst_eq c 19) (K (c, some (0, 19))) (K (yp c, some (1, 19))) (owedF c 0 + owedY c 19) (owedF c 0 + owedY c 20)
      (by rw [owedY_succ' c 19 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 19 (by decide)) $$ [AccCYS Hc]
  · isplitl [AccCYS]; · iexact AccCYS
    iexact Hc
  -- step 23: send k0_dev23 src=arg0[(k0_off2 d0 1280#32)] dst=arg1[(k0_off1 d0 1280#32)] ssem=arg2[20] rsem=arg3[20]
  first | sl_exec | skip
  ihave Hs := (Entails.of_eq (take_step (famTYS (F := F) c) 20 (by decide))) $$ [FtYS]
  · iexact FtYS
  icases Hs with ⟨Ht1, FtYS⟩
  ihave Hs := (Entails.of_eq (take_step (famTYRP (F := F) c) 20 (by decide))) $$ [FtYRP]
  · iexact FtYRP
  icases Hs with ⟨Ht2, FtYRP⟩
  ihave Hs := (Entails.of_eq (take_step (famXY m c) 20 (by decide))) $$ [FxY]
  · iexact FxY
  icases Hs with ⟨Hx, FxY⟩
  ihave Hs := (Entails.of_eq (take_step (famDY m c) 20 (by decide))) $$ [FdY]
  · iexact FdY
  icases Hs with ⟨Hd, FdY⟩
  ihave Hx := (Entails.of_eq (famXY_at m c 20 (by decide))) $$ [Hx]
  · iexact Hx
  ihave #HI1 := (Prep.inv_ys m K c 20) $$ HI
  ihave #HI2 := (Prep.inv_yr m K (yp c) 20) $$ HI
  ihave #HR1 := (Prep.reached_ys (F := F) c 20) $$ HR
  ihave #HR2 := (Prep.reached_yr (F := F) (yp c) 20) $$ HR
  iapply (wp_ysend m c _ (dev23_eq c) 20 _ (yDst_eq c 20) (K (c, some (0, 20))) (K (yp c, some (1, 20))) (owedF c 0 + owedY c 20) (owedF c 0 + owedY c 21)
      (by rw [owedY_succ' c 20 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 20 (by decide)) $$ [AccCYS Hc]
  · isplitl [AccCYS]; · iexact AccCYS
    iexact Hc
  -- step 24: send k0_dev24 src=arg0[(k0_off2 d0 1344#32)] dst=arg1[(k0_off1 d0 1344#32)] ssem=arg2[21] rsem=arg3[21]
  first | sl_exec | skip
  ihave Hs := (Entails.of_eq (take_step (famTYS (F := F) c) 21 (by decide))) $$ [FtYS]
  · iexact FtYS
  icases Hs with ⟨Ht1, FtYS⟩
  ihave Hs := (Entails.of_eq (take_step (famTYRP (F := F) c) 21 (by decide))) $$ [FtYRP]
  · iexact FtYRP
  icases Hs with ⟨Ht2, FtYRP⟩
  ihave Hs := (Entails.of_eq (take_step (famXY m c) 21 (by decide))) $$ [FxY]
  · iexact FxY
  icases Hs with ⟨Hx, FxY⟩
  ihave Hs := (Entails.of_eq (take_step (famDY m c) 21 (by decide))) $$ [FdY]
  · iexact FdY
  icases Hs with ⟨Hd, FdY⟩
  ihave Hx := (Entails.of_eq (famXY_at m c 21 (by decide))) $$ [Hx]
  · iexact Hx
  ihave #HI1 := (Prep.inv_ys m K c 21) $$ HI
  ihave #HI2 := (Prep.inv_yr m K (yp c) 21) $$ HI
  ihave #HR1 := (Prep.reached_ys (F := F) c 21) $$ HR
  ihave #HR2 := (Prep.reached_yr (F := F) (yp c) 21) $$ HR
  iapply (wp_ysend m c _ (dev24_eq c) 21 _ (yDst_eq c 21) (K (c, some (0, 21))) (K (yp c, some (1, 21))) (owedF c 0 + owedY c 21) (owedF c 0 + owedY c 22)
      (by rw [owedY_succ' c 21 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 21 (by decide)) $$ [AccCYS Hc]
  · isplitl [AccCYS]; · iexact AccCYS
    iexact Hc
  -- step 25: send k0_dev25 src=arg0[(k0_off2 d0 1408#32)] dst=arg1[(k0_off1 d0 1408#32)] ssem=arg2[22] rsem=arg3[22]
  first | sl_exec | skip
  ihave Hs := (Entails.of_eq (take_step (famTYS (F := F) c) 22 (by decide))) $$ [FtYS]
  · iexact FtYS
  icases Hs with ⟨Ht1, FtYS⟩
  ihave Hs := (Entails.of_eq (take_step (famTYRP (F := F) c) 22 (by decide))) $$ [FtYRP]
  · iexact FtYRP
  icases Hs with ⟨Ht2, FtYRP⟩
  ihave Hs := (Entails.of_eq (take_step (famXY m c) 22 (by decide))) $$ [FxY]
  · iexact FxY
  icases Hs with ⟨Hx, FxY⟩
  ihave Hs := (Entails.of_eq (take_step (famDY m c) 22 (by decide))) $$ [FdY]
  · iexact FdY
  icases Hs with ⟨Hd, FdY⟩
  ihave Hx := (Entails.of_eq (famXY_at m c 22 (by decide))) $$ [Hx]
  · iexact Hx
  ihave #HI1 := (Prep.inv_ys m K c 22) $$ HI
  ihave #HI2 := (Prep.inv_yr m K (yp c) 22) $$ HI
  ihave #HR1 := (Prep.reached_ys (F := F) c 22) $$ HR
  ihave #HR2 := (Prep.reached_yr (F := F) (yp c) 22) $$ HR
  iapply (wp_ysend m c _ (dev25_eq c) 22 _ (yDst_eq c 22) (K (c, some (0, 22))) (K (yp c, some (1, 22))) (owedF c 0 + owedY c 22) (owedF c 0 + owedY c 23)
      (by rw [owedY_succ' c 22 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 22 (by decide)) $$ [AccCYS Hc]
  · isplitl [AccCYS]; · iexact AccCYS
    iexact Hc
  -- step 26: send k0_dev26 src=arg0[(k0_off2 d0 1472#32)] dst=arg1[(k0_off1 d0 1472#32)] ssem=arg2[23] rsem=arg3[23]
  first | sl_exec | skip
  ihave Hs := (Entails.of_eq (take_step (famTYS (F := F) c) 23 (by decide))) $$ [FtYS]
  · iexact FtYS
  icases Hs with ⟨Ht1, FtYS⟩
  ihave Hs := (Entails.of_eq (take_step (famTYRP (F := F) c) 23 (by decide))) $$ [FtYRP]
  · iexact FtYRP
  icases Hs with ⟨Ht2, FtYRP⟩
  ihave Hs := (Entails.of_eq (take_step (famXY m c) 23 (by decide))) $$ [FxY]
  · iexact FxY
  icases Hs with ⟨Hx, FxY⟩
  ihave Hs := (Entails.of_eq (take_step (famDY m c) 23 (by decide))) $$ [FdY]
  · iexact FdY
  icases Hs with ⟨Hd, FdY⟩
  ihave Hx := (Entails.of_eq (famXY_at m c 23 (by decide))) $$ [Hx]
  · iexact Hx
  ihave #HI1 := (Prep.inv_ys m K c 23) $$ HI
  ihave #HI2 := (Prep.inv_yr m K (yp c) 23) $$ HI
  ihave #HR1 := (Prep.reached_ys (F := F) c 23) $$ HR
  ihave #HR2 := (Prep.reached_yr (F := F) (yp c) 23) $$ HR
  iapply (wp_ysend m c _ (dev26_eq c) 23 _ (yDst_eq c 23) (K (c, some (0, 23))) (K (yp c, some (1, 23))) (owedF c 0 + owedY c 23) (owedF c 0 + owedY c 24)
      (by rw [owedY_succ' c 23 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 23 (by decide)) $$ [AccCYS Hc]
  · isplitl [AccCYS]; · iexact AccCYS
    iexact Hc
  -- step 27: send k0_dev27 src=arg0[(k0_off2 d0 1536#32)] dst=arg1[(k0_off1 d0 1536#32)] ssem=arg2[24] rsem=arg3[24]
  first | sl_exec | skip
  ihave Hs := (Entails.of_eq (take_step (famTYS (F := F) c) 24 (by decide))) $$ [FtYS]
  · iexact FtYS
  icases Hs with ⟨Ht1, FtYS⟩
  ihave Hs := (Entails.of_eq (take_step (famTYRP (F := F) c) 24 (by decide))) $$ [FtYRP]
  · iexact FtYRP
  icases Hs with ⟨Ht2, FtYRP⟩
  ihave Hs := (Entails.of_eq (take_step (famXY m c) 24 (by decide))) $$ [FxY]
  · iexact FxY
  icases Hs with ⟨Hx, FxY⟩
  ihave Hs := (Entails.of_eq (take_step (famDY m c) 24 (by decide))) $$ [FdY]
  · iexact FdY
  icases Hs with ⟨Hd, FdY⟩
  ihave Hx := (Entails.of_eq (famXY_at m c 24 (by decide))) $$ [Hx]
  · iexact Hx
  ihave #HI1 := (Prep.inv_ys m K c 24) $$ HI
  ihave #HI2 := (Prep.inv_yr m K (yp c) 24) $$ HI
  ihave #HR1 := (Prep.reached_ys (F := F) c 24) $$ HR
  ihave #HR2 := (Prep.reached_yr (F := F) (yp c) 24) $$ HR
  iapply (wp_ysend m c _ (dev27_eq c) 24 _ (yDst_eq c 24) (K (c, some (0, 24))) (K (yp c, some (1, 24))) (owedF c 0 + owedY c 24) (owedF c 0 + owedY c 25)
      (by rw [owedY_succ' c 24 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 24 (by decide)) $$ [AccCYS Hc]
  · isplitl [AccCYS]; · iexact AccCYS
    iexact Hc
  -- step 28: send k0_dev28 src=arg0[(k0_off2 d0 1600#32)] dst=arg1[(k0_off1 d0 1600#32)] ssem=arg2[25] rsem=arg3[25]
  first | sl_exec | skip
  ihave Hs := (Entails.of_eq (take_step (famTYS (F := F) c) 25 (by decide))) $$ [FtYS]
  · iexact FtYS
  icases Hs with ⟨Ht1, FtYS⟩
  ihave Hs := (Entails.of_eq (take_step (famTYRP (F := F) c) 25 (by decide))) $$ [FtYRP]
  · iexact FtYRP
  icases Hs with ⟨Ht2, FtYRP⟩
  ihave Hs := (Entails.of_eq (take_step (famXY m c) 25 (by decide))) $$ [FxY]
  · iexact FxY
  icases Hs with ⟨Hx, FxY⟩
  ihave Hs := (Entails.of_eq (take_step (famDY m c) 25 (by decide))) $$ [FdY]
  · iexact FdY
  icases Hs with ⟨Hd, FdY⟩
  ihave Hx := (Entails.of_eq (famXY_at m c 25 (by decide))) $$ [Hx]
  · iexact Hx
  ihave #HI1 := (Prep.inv_ys m K c 25) $$ HI
  ihave #HI2 := (Prep.inv_yr m K (yp c) 25) $$ HI
  ihave #HR1 := (Prep.reached_ys (F := F) c 25) $$ HR
  ihave #HR2 := (Prep.reached_yr (F := F) (yp c) 25) $$ HR
  iapply (wp_ysend m c _ (dev28_eq c) 25 _ (yDst_eq c 25) (K (c, some (0, 25))) (K (yp c, some (1, 25))) (owedF c 0 + owedY c 25) (owedF c 0 + owedY c 26)
      (by rw [owedY_succ' c 25 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 25 (by decide)) $$ [AccCYS Hc]
  · isplitl [AccCYS]; · iexact AccCYS
    iexact Hc
  -- step 29: send k0_dev29 src=arg0[(k0_off2 d0 1664#32)] dst=arg1[(k0_off1 d0 1664#32)] ssem=arg2[26] rsem=arg3[26]
  first | sl_exec | skip
  ihave Hs := (Entails.of_eq (take_step (famTYS (F := F) c) 26 (by decide))) $$ [FtYS]
  · iexact FtYS
  icases Hs with ⟨Ht1, FtYS⟩
  ihave Hs := (Entails.of_eq (take_step (famTYRP (F := F) c) 26 (by decide))) $$ [FtYRP]
  · iexact FtYRP
  icases Hs with ⟨Ht2, FtYRP⟩
  ihave Hs := (Entails.of_eq (take_step (famXY m c) 26 (by decide))) $$ [FxY]
  · iexact FxY
  icases Hs with ⟨Hx, FxY⟩
  ihave Hs := (Entails.of_eq (take_step (famDY m c) 26 (by decide))) $$ [FdY]
  · iexact FdY
  icases Hs with ⟨Hd, FdY⟩
  ihave Hx := (Entails.of_eq (famXY_at m c 26 (by decide))) $$ [Hx]
  · iexact Hx
  ihave #HI1 := (Prep.inv_ys m K c 26) $$ HI
  ihave #HI2 := (Prep.inv_yr m K (yp c) 26) $$ HI
  ihave #HR1 := (Prep.reached_ys (F := F) c 26) $$ HR
  ihave #HR2 := (Prep.reached_yr (F := F) (yp c) 26) $$ HR
  iapply (wp_ysend m c _ (dev29_eq c) 26 _ (yDst_eq c 26) (K (c, some (0, 26))) (K (yp c, some (1, 26))) (owedF c 0 + owedY c 26) (owedF c 0 + owedY c 27)
      (by rw [owedY_succ' c 26 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 26 (by decide)) $$ [AccCYS Hc]
  · isplitl [AccCYS]; · iexact AccCYS
    iexact Hc
  -- step 30: send k0_dev30 src=arg0[(k0_off2 d0 1728#32)] dst=arg1[(k0_off1 d0 1728#32)] ssem=arg2[27] rsem=arg3[27]
  first | sl_exec | skip
  ihave Hs := (Entails.of_eq (take_step (famTYS (F := F) c) 27 (by decide))) $$ [FtYS]
  · iexact FtYS
  icases Hs with ⟨Ht1, FtYS⟩
  ihave Hs := (Entails.of_eq (take_step (famTYRP (F := F) c) 27 (by decide))) $$ [FtYRP]
  · iexact FtYRP
  icases Hs with ⟨Ht2, FtYRP⟩
  ihave Hs := (Entails.of_eq (take_step (famXY m c) 27 (by decide))) $$ [FxY]
  · iexact FxY
  icases Hs with ⟨Hx, FxY⟩
  ihave Hs := (Entails.of_eq (take_step (famDY m c) 27 (by decide))) $$ [FdY]
  · iexact FdY
  icases Hs with ⟨Hd, FdY⟩
  ihave Hx := (Entails.of_eq (famXY_at m c 27 (by decide))) $$ [Hx]
  · iexact Hx
  ihave #HI1 := (Prep.inv_ys m K c 27) $$ HI
  ihave #HI2 := (Prep.inv_yr m K (yp c) 27) $$ HI
  ihave #HR1 := (Prep.reached_ys (F := F) c 27) $$ HR
  ihave #HR2 := (Prep.reached_yr (F := F) (yp c) 27) $$ HR
  iapply (wp_ysend m c _ (dev30_eq c) 27 _ (yDst_eq c 27) (K (c, some (0, 27))) (K (yp c, some (1, 27))) (owedF c 0 + owedY c 27) (owedF c 0 + owedY c 28)
      (by rw [owedY_succ' c 27 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 27 (by decide)) $$ [AccCYS Hc]
  · isplitl [AccCYS]; · iexact AccCYS
    iexact Hc
  -- step 31: send k0_dev31 src=arg0[(k0_off2 d0 1792#32)] dst=arg1[(k0_off1 d0 1792#32)] ssem=arg2[28] rsem=arg3[28]
  first | sl_exec | skip
  ihave Hs := (Entails.of_eq (take_step (famTYS (F := F) c) 28 (by decide))) $$ [FtYS]
  · iexact FtYS
  icases Hs with ⟨Ht1, FtYS⟩
  ihave Hs := (Entails.of_eq (take_step (famTYRP (F := F) c) 28 (by decide))) $$ [FtYRP]
  · iexact FtYRP
  icases Hs with ⟨Ht2, FtYRP⟩
  ihave Hs := (Entails.of_eq (take_step (famXY m c) 28 (by decide))) $$ [FxY]
  · iexact FxY
  icases Hs with ⟨Hx, FxY⟩
  ihave Hs := (Entails.of_eq (take_step (famDY m c) 28 (by decide))) $$ [FdY]
  · iexact FdY
  icases Hs with ⟨Hd, FdY⟩
  ihave Hx := (Entails.of_eq (famXY_at m c 28 (by decide))) $$ [Hx]
  · iexact Hx
  ihave #HI1 := (Prep.inv_ys m K c 28) $$ HI
  ihave #HI2 := (Prep.inv_yr m K (yp c) 28) $$ HI
  ihave #HR1 := (Prep.reached_ys (F := F) c 28) $$ HR
  ihave #HR2 := (Prep.reached_yr (F := F) (yp c) 28) $$ HR
  iapply (wp_ysend m c _ (dev31_eq c) 28 _ (yDst_eq c 28) (K (c, some (0, 28))) (K (yp c, some (1, 28))) (owedF c 0 + owedY c 28) (owedF c 0 + owedY c 29)
      (by rw [owedY_succ' c 28 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 28 (by decide)) $$ [AccCYS Hc]
  · isplitl [AccCYS]; · iexact AccCYS
    iexact Hc
  -- step 32: send k0_dev32 src=arg0[(k0_off2 d0 1856#32)] dst=arg1[(k0_off1 d0 1856#32)] ssem=arg2[29] rsem=arg3[29]
  first | sl_exec | skip
  ihave Hs := (Entails.of_eq (take_step (famTYS (F := F) c) 29 (by decide))) $$ [FtYS]
  · iexact FtYS
  icases Hs with ⟨Ht1, FtYS⟩
  ihave Hs := (Entails.of_eq (take_step (famTYRP (F := F) c) 29 (by decide))) $$ [FtYRP]
  · iexact FtYRP
  icases Hs with ⟨Ht2, FtYRP⟩
  ihave Hs := (Entails.of_eq (take_step (famXY m c) 29 (by decide))) $$ [FxY]
  · iexact FxY
  icases Hs with ⟨Hx, FxY⟩
  ihave Hs := (Entails.of_eq (take_step (famDY m c) 29 (by decide))) $$ [FdY]
  · iexact FdY
  icases Hs with ⟨Hd, FdY⟩
  ihave Hx := (Entails.of_eq (famXY_at m c 29 (by decide))) $$ [Hx]
  · iexact Hx
  ihave #HI1 := (Prep.inv_ys m K c 29) $$ HI
  ihave #HI2 := (Prep.inv_yr m K (yp c) 29) $$ HI
  ihave #HR1 := (Prep.reached_ys (F := F) c 29) $$ HR
  ihave #HR2 := (Prep.reached_yr (F := F) (yp c) 29) $$ HR
  iapply (wp_ysend m c _ (dev32_eq c) 29 _ (yDst_eq c 29) (K (c, some (0, 29))) (K (yp c, some (1, 29))) (owedF c 0 + owedY c 29) (owedF c 0 + owedY c 30)
      (by rw [owedY_succ' c 29 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 29 (by decide)) $$ [AccCYS Hc]
  · isplitl [AccCYS]; · iexact AccCYS
    iexact Hc
  -- step 33: send k0_dev33 src=arg0[(k0_off2 d0 1920#32)] dst=arg1[(k0_off1 d0 1920#32)] ssem=arg2[30] rsem=arg3[30]
  first | sl_exec | skip
  ihave Hs := (Entails.of_eq (take_step (famTYS (F := F) c) 30 (by decide))) $$ [FtYS]
  · iexact FtYS
  icases Hs with ⟨Ht1, FtYS⟩
  ihave Hs := (Entails.of_eq (take_step (famTYRP (F := F) c) 30 (by decide))) $$ [FtYRP]
  · iexact FtYRP
  icases Hs with ⟨Ht2, FtYRP⟩
  ihave Hs := (Entails.of_eq (take_step (famXY m c) 30 (by decide))) $$ [FxY]
  · iexact FxY
  icases Hs with ⟨Hx, FxY⟩
  ihave Hs := (Entails.of_eq (take_step (famDY m c) 30 (by decide))) $$ [FdY]
  · iexact FdY
  icases Hs with ⟨Hd, FdY⟩
  ihave Hx := (Entails.of_eq (famXY_at m c 30 (by decide))) $$ [Hx]
  · iexact Hx
  ihave #HI1 := (Prep.inv_ys m K c 30) $$ HI
  ihave #HI2 := (Prep.inv_yr m K (yp c) 30) $$ HI
  ihave #HR1 := (Prep.reached_ys (F := F) c 30) $$ HR
  ihave #HR2 := (Prep.reached_yr (F := F) (yp c) 30) $$ HR
  iapply (wp_ysend m c _ (dev33_eq c) 30 _ (yDst_eq c 30) (K (c, some (0, 30))) (K (yp c, some (1, 30))) (owedF c 0 + owedY c 30) (owedF c 0 + owedY c 31)
      (by rw [owedY_succ' c 30 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 30 (by decide)) $$ [AccCYS Hc]
  · isplitl [AccCYS]; · iexact AccCYS
    iexact Hc
  -- step 34: send k0_dev34 src=arg0[(k0_off2 d0 1984#32)] dst=arg1[(k0_off1 d0 1984#32)] ssem=arg2[31] rsem=arg3[31]
  first | sl_exec | skip
  ihave Hs := (Entails.of_eq (take_step (famTYS (F := F) c) 31 (by decide))) $$ [FtYS]
  · iexact FtYS
  icases Hs with ⟨Ht1, FtYS⟩
  ihave Hs := (Entails.of_eq (take_step (famTYRP (F := F) c) 31 (by decide))) $$ [FtYRP]
  · iexact FtYRP
  icases Hs with ⟨Ht2, FtYRP⟩
  ihave Hs := (Entails.of_eq (take_step (famXY m c) 31 (by decide))) $$ [FxY]
  · iexact FxY
  icases Hs with ⟨Hx, FxY⟩
  ihave Hs := (Entails.of_eq (take_step (famDY m c) 31 (by decide))) $$ [FdY]
  · iexact FdY
  icases Hs with ⟨Hd, FdY⟩
  ihave Hx := (Entails.of_eq (famXY_at m c 31 (by decide))) $$ [Hx]
  · iexact Hx
  ihave #HI1 := (Prep.inv_ys m K c 31) $$ HI
  ihave #HI2 := (Prep.inv_yr m K (yp c) 31) $$ HI
  ihave #HR1 := (Prep.reached_ys (F := F) c 31) $$ HR
  ihave #HR2 := (Prep.reached_yr (F := F) (yp c) 31) $$ HR
  iapply (wp_ysend m c _ (dev34_eq c) 31 _ (yDst_eq c 31) (K (c, some (0, 31))) (K (yp c, some (1, 31))) (owedF c 0 + owedY c 31) (owedF c 0 + owedY c 32)
      (by rw [owedY_succ' c 31 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 31 (by decide)) $$ [AccCYS Hc]
  · isplitl [AccCYS]; · iexact AccCYS
    iexact Hc
  -- step 35: send k0_dev35 src=arg0[(k0_off2 d0 2048#32)] dst=arg1[(k0_off1 d0 2048#32)] ssem=arg2[32] rsem=arg3[32]
  first | sl_exec | skip
  ihave Hs := (Entails.of_eq (take_step (famTYS (F := F) c) 32 (by decide))) $$ [FtYS]
  · iexact FtYS
  icases Hs with ⟨Ht1, FtYS⟩
  ihave Hs := (Entails.of_eq (take_step (famTYRP (F := F) c) 32 (by decide))) $$ [FtYRP]
  · iexact FtYRP
  icases Hs with ⟨Ht2, FtYRP⟩
  ihave Hs := (Entails.of_eq (take_step (famXY m c) 32 (by decide))) $$ [FxY]
  · iexact FxY
  icases Hs with ⟨Hx, FxY⟩
  ihave Hs := (Entails.of_eq (take_step (famDY m c) 32 (by decide))) $$ [FdY]
  · iexact FdY
  icases Hs with ⟨Hd, FdY⟩
  ihave Hx := (Entails.of_eq (famXY_at m c 32 (by decide))) $$ [Hx]
  · iexact Hx
  ihave #HI1 := (Prep.inv_ys m K c 32) $$ HI
  ihave #HI2 := (Prep.inv_yr m K (yp c) 32) $$ HI
  ihave #HR1 := (Prep.reached_ys (F := F) c 32) $$ HR
  ihave #HR2 := (Prep.reached_yr (F := F) (yp c) 32) $$ HR
  iapply (wp_ysend m c _ (dev35_eq c) 32 _ (yDst_eq c 32) (K (c, some (0, 32))) (K (yp c, some (1, 32))) (owedF c 0 + owedY c 32) (owedF c 0 + owedY c 33)
      (by rw [owedY_succ' c 32 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 32 (by decide)) $$ [AccCYS Hc]
  · isplitl [AccCYS]; · iexact AccCYS
    iexact Hc
  -- step 36: send k0_dev36 src=arg0[(k0_off2 d0 2112#32)] dst=arg1[(k0_off1 d0 2112#32)] ssem=arg2[33] rsem=arg3[33]
  first | sl_exec | skip
  ihave Hs := (Entails.of_eq (take_step (famTYS (F := F) c) 33 (by decide))) $$ [FtYS]
  · iexact FtYS
  icases Hs with ⟨Ht1, FtYS⟩
  ihave Hs := (Entails.of_eq (take_step (famTYRP (F := F) c) 33 (by decide))) $$ [FtYRP]
  · iexact FtYRP
  icases Hs with ⟨Ht2, FtYRP⟩
  ihave Hs := (Entails.of_eq (take_step (famXY m c) 33 (by decide))) $$ [FxY]
  · iexact FxY
  icases Hs with ⟨Hx, FxY⟩
  ihave Hs := (Entails.of_eq (take_step (famDY m c) 33 (by decide))) $$ [FdY]
  · iexact FdY
  icases Hs with ⟨Hd, FdY⟩
  ihave Hx := (Entails.of_eq (famXY_at m c 33 (by decide))) $$ [Hx]
  · iexact Hx
  ihave #HI1 := (Prep.inv_ys m K c 33) $$ HI
  ihave #HI2 := (Prep.inv_yr m K (yp c) 33) $$ HI
  ihave #HR1 := (Prep.reached_ys (F := F) c 33) $$ HR
  ihave #HR2 := (Prep.reached_yr (F := F) (yp c) 33) $$ HR
  iapply (wp_ysend m c _ (dev36_eq c) 33 _ (yDst_eq c 33) (K (c, some (0, 33))) (K (yp c, some (1, 33))) (owedF c 0 + owedY c 33) (owedF c 0 + owedY c 34)
      (by rw [owedY_succ' c 33 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 33 (by decide)) $$ [AccCYS Hc]
  · isplitl [AccCYS]; · iexact AccCYS
    iexact Hc
  -- step 37: send k0_dev37 src=arg0[(k0_off2 d0 2176#32)] dst=arg1[(k0_off1 d0 2176#32)] ssem=arg2[34] rsem=arg3[34]
  first | sl_exec | skip
  ihave Hs := (Entails.of_eq (take_step (famTYS (F := F) c) 34 (by decide))) $$ [FtYS]
  · iexact FtYS
  icases Hs with ⟨Ht1, FtYS⟩
  ihave Hs := (Entails.of_eq (take_step (famTYRP (F := F) c) 34 (by decide))) $$ [FtYRP]
  · iexact FtYRP
  icases Hs with ⟨Ht2, FtYRP⟩
  ihave Hs := (Entails.of_eq (take_step (famXY m c) 34 (by decide))) $$ [FxY]
  · iexact FxY
  icases Hs with ⟨Hx, FxY⟩
  ihave Hs := (Entails.of_eq (take_step (famDY m c) 34 (by decide))) $$ [FdY]
  · iexact FdY
  icases Hs with ⟨Hd, FdY⟩
  ihave Hx := (Entails.of_eq (famXY_at m c 34 (by decide))) $$ [Hx]
  · iexact Hx
  ihave #HI1 := (Prep.inv_ys m K c 34) $$ HI
  ihave #HI2 := (Prep.inv_yr m K (yp c) 34) $$ HI
  ihave #HR1 := (Prep.reached_ys (F := F) c 34) $$ HR
  ihave #HR2 := (Prep.reached_yr (F := F) (yp c) 34) $$ HR
  iapply (wp_ysend m c _ (dev37_eq c) 34 _ (yDst_eq c 34) (K (c, some (0, 34))) (K (yp c, some (1, 34))) (owedF c 0 + owedY c 34) (owedF c 0 + owedY c 35)
      (by rw [owedY_succ' c 34 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 34 (by decide)) $$ [AccCYS Hc]
  · isplitl [AccCYS]; · iexact AccCYS
    iexact Hc
  -- step 38: send k0_dev38 src=arg0[(k0_off2 d0 2240#32)] dst=arg1[(k0_off1 d0 2240#32)] ssem=arg2[35] rsem=arg3[35]
  first | sl_exec | skip
  ihave Hs := (Entails.of_eq (take_step (famTYS (F := F) c) 35 (by decide))) $$ [FtYS]
  · iexact FtYS
  icases Hs with ⟨Ht1, FtYS⟩
  ihave Hs := (Entails.of_eq (take_step (famTYRP (F := F) c) 35 (by decide))) $$ [FtYRP]
  · iexact FtYRP
  icases Hs with ⟨Ht2, FtYRP⟩
  ihave Hs := (Entails.of_eq (take_step (famXY m c) 35 (by decide))) $$ [FxY]
  · iexact FxY
  icases Hs with ⟨Hx, FxY⟩
  ihave Hs := (Entails.of_eq (take_step (famDY m c) 35 (by decide))) $$ [FdY]
  · iexact FdY
  icases Hs with ⟨Hd, FdY⟩
  ihave Hx := (Entails.of_eq (famXY_at m c 35 (by decide))) $$ [Hx]
  · iexact Hx
  ihave #HI1 := (Prep.inv_ys m K c 35) $$ HI
  ihave #HI2 := (Prep.inv_yr m K (yp c) 35) $$ HI
  ihave #HR1 := (Prep.reached_ys (F := F) c 35) $$ HR
  ihave #HR2 := (Prep.reached_yr (F := F) (yp c) 35) $$ HR
  iapply (wp_ysend m c _ (dev38_eq c) 35 _ (yDst_eq c 35) (K (c, some (0, 35))) (K (yp c, some (1, 35))) (owedF c 0 + owedY c 35) (owedF c 0 + owedY c 36)
      (by rw [owedY_succ' c 35 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 35 (by decide)) $$ [AccCYS Hc]
  · isplitl [AccCYS]; · iexact AccCYS
    iexact Hc
  -- step 39: send k0_dev39 src=arg0[(k0_off2 d0 2304#32)] dst=arg1[(k0_off1 d0 2304#32)] ssem=arg2[36] rsem=arg3[36]
  first | sl_exec | skip
  ihave Hs := (Entails.of_eq (take_step (famTYS (F := F) c) 36 (by decide))) $$ [FtYS]
  · iexact FtYS
  icases Hs with ⟨Ht1, FtYS⟩
  ihave Hs := (Entails.of_eq (take_step (famTYRP (F := F) c) 36 (by decide))) $$ [FtYRP]
  · iexact FtYRP
  icases Hs with ⟨Ht2, FtYRP⟩
  ihave Hs := (Entails.of_eq (take_step (famXY m c) 36 (by decide))) $$ [FxY]
  · iexact FxY
  icases Hs with ⟨Hx, FxY⟩
  ihave Hs := (Entails.of_eq (take_step (famDY m c) 36 (by decide))) $$ [FdY]
  · iexact FdY
  icases Hs with ⟨Hd, FdY⟩
  ihave Hx := (Entails.of_eq (famXY_at m c 36 (by decide))) $$ [Hx]
  · iexact Hx
  ihave #HI1 := (Prep.inv_ys m K c 36) $$ HI
  ihave #HI2 := (Prep.inv_yr m K (yp c) 36) $$ HI
  ihave #HR1 := (Prep.reached_ys (F := F) c 36) $$ HR
  ihave #HR2 := (Prep.reached_yr (F := F) (yp c) 36) $$ HR
  iapply (wp_ysend m c _ (dev39_eq c) 36 _ (yDst_eq c 36) (K (c, some (0, 36))) (K (yp c, some (1, 36))) (owedF c 0 + owedY c 36) (owedF c 0 + owedY c 37)
      (by rw [owedY_succ' c 36 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 36 (by decide)) $$ [AccCYS Hc]
  · isplitl [AccCYS]; · iexact AccCYS
    iexact Hc
  -- step 40: send k0_dev40 src=arg0[(k0_off2 d0 2368#32)] dst=arg1[(k0_off1 d0 2368#32)] ssem=arg2[37] rsem=arg3[37]
  first | sl_exec | skip
  ihave Hs := (Entails.of_eq (take_step (famTYS (F := F) c) 37 (by decide))) $$ [FtYS]
  · iexact FtYS
  icases Hs with ⟨Ht1, FtYS⟩
  ihave Hs := (Entails.of_eq (take_step (famTYRP (F := F) c) 37 (by decide))) $$ [FtYRP]
  · iexact FtYRP
  icases Hs with ⟨Ht2, FtYRP⟩
  ihave Hs := (Entails.of_eq (take_step (famXY m c) 37 (by decide))) $$ [FxY]
  · iexact FxY
  icases Hs with ⟨Hx, FxY⟩
  ihave Hs := (Entails.of_eq (take_step (famDY m c) 37 (by decide))) $$ [FdY]
  · iexact FdY
  icases Hs with ⟨Hd, FdY⟩
  ihave Hx := (Entails.of_eq (famXY_at m c 37 (by decide))) $$ [Hx]
  · iexact Hx
  ihave #HI1 := (Prep.inv_ys m K c 37) $$ HI
  ihave #HI2 := (Prep.inv_yr m K (yp c) 37) $$ HI
  ihave #HR1 := (Prep.reached_ys (F := F) c 37) $$ HR
  ihave #HR2 := (Prep.reached_yr (F := F) (yp c) 37) $$ HR
  iapply (wp_ysend m c _ (dev40_eq c) 37 _ (yDst_eq c 37) (K (c, some (0, 37))) (K (yp c, some (1, 37))) (owedF c 0 + owedY c 37) (owedF c 0 + owedY c 38)
      (by rw [owedY_succ' c 37 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 37 (by decide)) $$ [AccCYS Hc]
  · isplitl [AccCYS]; · iexact AccCYS
    iexact Hc
  -- step 41: send k0_dev41 src=arg0[(k0_off2 d0 2432#32)] dst=arg1[(k0_off1 d0 2432#32)] ssem=arg2[38] rsem=arg3[38]
  first | sl_exec | skip
  ihave Hs := (Entails.of_eq (take_step (famTYS (F := F) c) 38 (by decide))) $$ [FtYS]
  · iexact FtYS
  icases Hs with ⟨Ht1, FtYS⟩
  ihave Hs := (Entails.of_eq (take_step (famTYRP (F := F) c) 38 (by decide))) $$ [FtYRP]
  · iexact FtYRP
  icases Hs with ⟨Ht2, FtYRP⟩
  ihave Hs := (Entails.of_eq (take_step (famXY m c) 38 (by decide))) $$ [FxY]
  · iexact FxY
  icases Hs with ⟨Hx, FxY⟩
  ihave Hs := (Entails.of_eq (take_step (famDY m c) 38 (by decide))) $$ [FdY]
  · iexact FdY
  icases Hs with ⟨Hd, FdY⟩
  ihave Hx := (Entails.of_eq (famXY_at m c 38 (by decide))) $$ [Hx]
  · iexact Hx
  ihave #HI1 := (Prep.inv_ys m K c 38) $$ HI
  ihave #HI2 := (Prep.inv_yr m K (yp c) 38) $$ HI
  ihave #HR1 := (Prep.reached_ys (F := F) c 38) $$ HR
  ihave #HR2 := (Prep.reached_yr (F := F) (yp c) 38) $$ HR
  iapply (wp_ysend m c _ (dev41_eq c) 38 _ (yDst_eq c 38) (K (c, some (0, 38))) (K (yp c, some (1, 38))) (owedF c 0 + owedY c 38) (owedF c 0 + owedY c 39)
      (by rw [owedY_succ' c 38 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 38 (by decide)) $$ [AccCYS Hc]
  · isplitl [AccCYS]; · iexact AccCYS
    iexact Hc
  -- step 42: send k0_dev42 src=arg0[(k0_off2 d0 2496#32)] dst=arg1[(k0_off1 d0 2496#32)] ssem=arg2[39] rsem=arg3[39]
  first | sl_exec | skip
  ihave Hs := (Entails.of_eq (take_step (famTYS (F := F) c) 39 (by decide))) $$ [FtYS]
  · iexact FtYS
  icases Hs with ⟨Ht1, FtYS⟩
  ihave Hs := (Entails.of_eq (take_step (famTYRP (F := F) c) 39 (by decide))) $$ [FtYRP]
  · iexact FtYRP
  icases Hs with ⟨Ht2, FtYRP⟩
  ihave Hs := (Entails.of_eq (take_step (famXY m c) 39 (by decide))) $$ [FxY]
  · iexact FxY
  icases Hs with ⟨Hx, FxY⟩
  ihave Hs := (Entails.of_eq (take_step (famDY m c) 39 (by decide))) $$ [FdY]
  · iexact FdY
  icases Hs with ⟨Hd, FdY⟩
  ihave Hx := (Entails.of_eq (famXY_at m c 39 (by decide))) $$ [Hx]
  · iexact Hx
  ihave #HI1 := (Prep.inv_ys m K c 39) $$ HI
  ihave #HI2 := (Prep.inv_yr m K (yp c) 39) $$ HI
  ihave #HR1 := (Prep.reached_ys (F := F) c 39) $$ HR
  ihave #HR2 := (Prep.reached_yr (F := F) (yp c) 39) $$ HR
  iapply (wp_ysend m c _ (dev42_eq c) 39 _ (yDst_eq c 39) (K (c, some (0, 39))) (K (yp c, some (1, 39))) (owedF c 0 + owedY c 39) (owedF c 0 + owedY c 40)
      (by rw [owedY_succ' c 39 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 39 (by decide)) $$ [AccCYS Hc]
  · isplitl [AccCYS]; · iexact AccCYS
    iexact Hc
  -- step 43: send k0_dev43 src=arg0[(k0_off2 d0 2560#32)] dst=arg1[(k0_off1 d0 2560#32)] ssem=arg2[40] rsem=arg3[40]
  first | sl_exec | skip
  ihave Hs := (Entails.of_eq (take_step (famTYS (F := F) c) 40 (by decide))) $$ [FtYS]
  · iexact FtYS
  icases Hs with ⟨Ht1, FtYS⟩
  ihave Hs := (Entails.of_eq (take_step (famTYRP (F := F) c) 40 (by decide))) $$ [FtYRP]
  · iexact FtYRP
  icases Hs with ⟨Ht2, FtYRP⟩
  ihave Hs := (Entails.of_eq (take_step (famXY m c) 40 (by decide))) $$ [FxY]
  · iexact FxY
  icases Hs with ⟨Hx, FxY⟩
  ihave Hs := (Entails.of_eq (take_step (famDY m c) 40 (by decide))) $$ [FdY]
  · iexact FdY
  icases Hs with ⟨Hd, FdY⟩
  ihave Hx := (Entails.of_eq (famXY_at m c 40 (by decide))) $$ [Hx]
  · iexact Hx
  ihave #HI1 := (Prep.inv_ys m K c 40) $$ HI
  ihave #HI2 := (Prep.inv_yr m K (yp c) 40) $$ HI
  ihave #HR1 := (Prep.reached_ys (F := F) c 40) $$ HR
  ihave #HR2 := (Prep.reached_yr (F := F) (yp c) 40) $$ HR
  iapply (wp_ysend m c _ (dev43_eq c) 40 _ (yDst_eq c 40) (K (c, some (0, 40))) (K (yp c, some (1, 40))) (owedF c 0 + owedY c 40) (owedF c 0 + owedY c 41)
      (by rw [owedY_succ' c 40 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 40 (by decide)) $$ [AccCYS Hc]
  · isplitl [AccCYS]; · iexact AccCYS
    iexact Hc
  -- step 44: send k0_dev44 src=arg0[(k0_off2 d0 2624#32)] dst=arg1[(k0_off1 d0 2624#32)] ssem=arg2[41] rsem=arg3[41]
  first | sl_exec | skip
  ihave Hs := (Entails.of_eq (take_step (famTYS (F := F) c) 41 (by decide))) $$ [FtYS]
  · iexact FtYS
  icases Hs with ⟨Ht1, FtYS⟩
  ihave Hs := (Entails.of_eq (take_step (famTYRP (F := F) c) 41 (by decide))) $$ [FtYRP]
  · iexact FtYRP
  icases Hs with ⟨Ht2, FtYRP⟩
  ihave Hs := (Entails.of_eq (take_step (famXY m c) 41 (by decide))) $$ [FxY]
  · iexact FxY
  icases Hs with ⟨Hx, FxY⟩
  ihave Hs := (Entails.of_eq (take_step (famDY m c) 41 (by decide))) $$ [FdY]
  · iexact FdY
  icases Hs with ⟨Hd, FdY⟩
  ihave Hx := (Entails.of_eq (famXY_at m c 41 (by decide))) $$ [Hx]
  · iexact Hx
  ihave #HI1 := (Prep.inv_ys m K c 41) $$ HI
  ihave #HI2 := (Prep.inv_yr m K (yp c) 41) $$ HI
  ihave #HR1 := (Prep.reached_ys (F := F) c 41) $$ HR
  ihave #HR2 := (Prep.reached_yr (F := F) (yp c) 41) $$ HR
  iapply (wp_ysend m c _ (dev44_eq c) 41 _ (yDst_eq c 41) (K (c, some (0, 41))) (K (yp c, some (1, 41))) (owedF c 0 + owedY c 41) (owedF c 0 + owedY c 42)
      (by rw [owedY_succ' c 41 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 41 (by decide)) $$ [AccCYS Hc]
  · isplitl [AccCYS]; · iexact AccCYS
    iexact Hc
  -- step 45: send k0_dev45 src=arg0[(k0_off2 d0 2688#32)] dst=arg1[(k0_off1 d0 2688#32)] ssem=arg2[42] rsem=arg3[42]
  first | sl_exec | skip
  ihave Hs := (Entails.of_eq (take_step (famTYS (F := F) c) 42 (by decide))) $$ [FtYS]
  · iexact FtYS
  icases Hs with ⟨Ht1, FtYS⟩
  ihave Hs := (Entails.of_eq (take_step (famTYRP (F := F) c) 42 (by decide))) $$ [FtYRP]
  · iexact FtYRP
  icases Hs with ⟨Ht2, FtYRP⟩
  ihave Hs := (Entails.of_eq (take_step (famXY m c) 42 (by decide))) $$ [FxY]
  · iexact FxY
  icases Hs with ⟨Hx, FxY⟩
  ihave Hs := (Entails.of_eq (take_step (famDY m c) 42 (by decide))) $$ [FdY]
  · iexact FdY
  icases Hs with ⟨Hd, FdY⟩
  ihave Hx := (Entails.of_eq (famXY_at m c 42 (by decide))) $$ [Hx]
  · iexact Hx
  ihave #HI1 := (Prep.inv_ys m K c 42) $$ HI
  ihave #HI2 := (Prep.inv_yr m K (yp c) 42) $$ HI
  ihave #HR1 := (Prep.reached_ys (F := F) c 42) $$ HR
  ihave #HR2 := (Prep.reached_yr (F := F) (yp c) 42) $$ HR
  iapply (wp_ysend m c _ (dev45_eq c) 42 _ (yDst_eq c 42) (K (c, some (0, 42))) (K (yp c, some (1, 42))) (owedF c 0 + owedY c 42) (owedF c 0 + owedY c 43)
      (by rw [owedY_succ' c 42 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 42 (by decide)) $$ [AccCYS Hc]
  · isplitl [AccCYS]; · iexact AccCYS
    iexact Hc
  -- step 46: send k0_dev46 src=arg0[(k0_off2 d0 2752#32)] dst=arg1[(k0_off1 d0 2752#32)] ssem=arg2[43] rsem=arg3[43]
  first | sl_exec | skip
  ihave Hs := (Entails.of_eq (take_step (famTYS (F := F) c) 43 (by decide))) $$ [FtYS]
  · iexact FtYS
  icases Hs with ⟨Ht1, FtYS⟩
  ihave Hs := (Entails.of_eq (take_step (famTYRP (F := F) c) 43 (by decide))) $$ [FtYRP]
  · iexact FtYRP
  icases Hs with ⟨Ht2, FtYRP⟩
  ihave Hs := (Entails.of_eq (take_step (famXY m c) 43 (by decide))) $$ [FxY]
  · iexact FxY
  icases Hs with ⟨Hx, FxY⟩
  ihave Hs := (Entails.of_eq (take_step (famDY m c) 43 (by decide))) $$ [FdY]
  · iexact FdY
  icases Hs with ⟨Hd, FdY⟩
  ihave Hx := (Entails.of_eq (famXY_at m c 43 (by decide))) $$ [Hx]
  · iexact Hx
  ihave #HI1 := (Prep.inv_ys m K c 43) $$ HI
  ihave #HI2 := (Prep.inv_yr m K (yp c) 43) $$ HI
  ihave #HR1 := (Prep.reached_ys (F := F) c 43) $$ HR
  ihave #HR2 := (Prep.reached_yr (F := F) (yp c) 43) $$ HR
  iapply (wp_ysend m c _ (dev46_eq c) 43 _ (yDst_eq c 43) (K (c, some (0, 43))) (K (yp c, some (1, 43))) (owedF c 0 + owedY c 43) (owedF c 0 + owedY c 44)
      (by rw [owedY_succ' c 43 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 43 (by decide)) $$ [AccCYS Hc]
  · isplitl [AccCYS]; · iexact AccCYS
    iexact Hc
  -- step 47: send k0_dev47 src=arg0[(k0_off2 d0 2816#32)] dst=arg1[(k0_off1 d0 2816#32)] ssem=arg2[44] rsem=arg3[44]
  first | sl_exec | skip
  ihave Hs := (Entails.of_eq (take_step (famTYS (F := F) c) 44 (by decide))) $$ [FtYS]
  · iexact FtYS
  icases Hs with ⟨Ht1, FtYS⟩
  ihave Hs := (Entails.of_eq (take_step (famTYRP (F := F) c) 44 (by decide))) $$ [FtYRP]
  · iexact FtYRP
  icases Hs with ⟨Ht2, FtYRP⟩
  ihave Hs := (Entails.of_eq (take_step (famXY m c) 44 (by decide))) $$ [FxY]
  · iexact FxY
  icases Hs with ⟨Hx, FxY⟩
  ihave Hs := (Entails.of_eq (take_step (famDY m c) 44 (by decide))) $$ [FdY]
  · iexact FdY
  icases Hs with ⟨Hd, FdY⟩
  ihave Hx := (Entails.of_eq (famXY_at m c 44 (by decide))) $$ [Hx]
  · iexact Hx
  ihave #HI1 := (Prep.inv_ys m K c 44) $$ HI
  ihave #HI2 := (Prep.inv_yr m K (yp c) 44) $$ HI
  ihave #HR1 := (Prep.reached_ys (F := F) c 44) $$ HR
  ihave #HR2 := (Prep.reached_yr (F := F) (yp c) 44) $$ HR
  iapply (wp_ysend m c _ (dev47_eq c) 44 _ (yDst_eq c 44) (K (c, some (0, 44))) (K (yp c, some (1, 44))) (owedF c 0 + owedY c 44) (owedF c 0 + owedY c 45)
      (by rw [owedY_succ' c 44 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 44 (by decide)) $$ [AccCYS Hc]
  · isplitl [AccCYS]; · iexact AccCYS
    iexact Hc
  -- step 48: send k0_dev48 src=arg0[(k0_off2 d0 2880#32)] dst=arg1[(k0_off1 d0 2880#32)] ssem=arg2[45] rsem=arg3[45]
  first | sl_exec | skip
  ihave Hs := (Entails.of_eq (take_step (famTYS (F := F) c) 45 (by decide))) $$ [FtYS]
  · iexact FtYS
  icases Hs with ⟨Ht1, FtYS⟩
  ihave Hs := (Entails.of_eq (take_step (famTYRP (F := F) c) 45 (by decide))) $$ [FtYRP]
  · iexact FtYRP
  icases Hs with ⟨Ht2, FtYRP⟩
  ihave Hs := (Entails.of_eq (take_step (famXY m c) 45 (by decide))) $$ [FxY]
  · iexact FxY
  icases Hs with ⟨Hx, FxY⟩
  ihave Hs := (Entails.of_eq (take_step (famDY m c) 45 (by decide))) $$ [FdY]
  · iexact FdY
  icases Hs with ⟨Hd, FdY⟩
  ihave Hx := (Entails.of_eq (famXY_at m c 45 (by decide))) $$ [Hx]
  · iexact Hx
  ihave #HI1 := (Prep.inv_ys m K c 45) $$ HI
  ihave #HI2 := (Prep.inv_yr m K (yp c) 45) $$ HI
  ihave #HR1 := (Prep.reached_ys (F := F) c 45) $$ HR
  ihave #HR2 := (Prep.reached_yr (F := F) (yp c) 45) $$ HR
  iapply (wp_ysend m c _ (dev48_eq c) 45 _ (yDst_eq c 45) (K (c, some (0, 45))) (K (yp c, some (1, 45))) (owedF c 0 + owedY c 45) (owedF c 0 + owedY c 46)
      (by rw [owedY_succ' c 45 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 45 (by decide)) $$ [AccCYS Hc]
  · isplitl [AccCYS]; · iexact AccCYS
    iexact Hc
  -- step 49: send k0_dev49 src=arg0[(k0_off2 d0 2944#32)] dst=arg1[(k0_off1 d0 2944#32)] ssem=arg2[46] rsem=arg3[46]
  first | sl_exec | skip
  ihave Hs := (Entails.of_eq (take_step (famTYS (F := F) c) 46 (by decide))) $$ [FtYS]
  · iexact FtYS
  icases Hs with ⟨Ht1, FtYS⟩
  ihave Hs := (Entails.of_eq (take_step (famTYRP (F := F) c) 46 (by decide))) $$ [FtYRP]
  · iexact FtYRP
  icases Hs with ⟨Ht2, FtYRP⟩
  ihave Hs := (Entails.of_eq (take_step (famXY m c) 46 (by decide))) $$ [FxY]
  · iexact FxY
  icases Hs with ⟨Hx, FxY⟩
  ihave Hs := (Entails.of_eq (take_step (famDY m c) 46 (by decide))) $$ [FdY]
  · iexact FdY
  icases Hs with ⟨Hd, FdY⟩
  ihave Hx := (Entails.of_eq (famXY_at m c 46 (by decide))) $$ [Hx]
  · iexact Hx
  ihave #HI1 := (Prep.inv_ys m K c 46) $$ HI
  ihave #HI2 := (Prep.inv_yr m K (yp c) 46) $$ HI
  ihave #HR1 := (Prep.reached_ys (F := F) c 46) $$ HR
  ihave #HR2 := (Prep.reached_yr (F := F) (yp c) 46) $$ HR
  iapply (wp_ysend m c _ (dev49_eq c) 46 _ (yDst_eq c 46) (K (c, some (0, 46))) (K (yp c, some (1, 46))) (owedF c 0 + owedY c 46) (owedF c 0 + owedY c 47)
      (by rw [owedY_succ' c 46 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 46 (by decide)) $$ [AccCYS Hc]
  · isplitl [AccCYS]; · iexact AccCYS
    iexact Hc
  -- step 50: send k0_dev50 src=arg0[(k0_off2 d0 3008#32)] dst=arg1[(k0_off1 d0 3008#32)] ssem=arg2[47] rsem=arg3[47]
  first | sl_exec | skip
  ihave Hs := (Entails.of_eq (take_step (famTYS (F := F) c) 47 (by decide))) $$ [FtYS]
  · iexact FtYS
  icases Hs with ⟨Ht1, FtYS⟩
  ihave Hs := (Entails.of_eq (take_step (famTYRP (F := F) c) 47 (by decide))) $$ [FtYRP]
  · iexact FtYRP
  icases Hs with ⟨Ht2, FtYRP⟩
  ihave Hs := (Entails.of_eq (take_step (famXY m c) 47 (by decide))) $$ [FxY]
  · iexact FxY
  icases Hs with ⟨Hx, FxY⟩
  ihave Hs := (Entails.of_eq (take_step (famDY m c) 47 (by decide))) $$ [FdY]
  · iexact FdY
  icases Hs with ⟨Hd, FdY⟩
  ihave Hx := (Entails.of_eq (famXY_at m c 47 (by decide))) $$ [Hx]
  · iexact Hx
  ihave #HI1 := (Prep.inv_ys m K c 47) $$ HI
  ihave #HI2 := (Prep.inv_yr m K (yp c) 47) $$ HI
  ihave #HR1 := (Prep.reached_ys (F := F) c 47) $$ HR
  ihave #HR2 := (Prep.reached_yr (F := F) (yp c) 47) $$ HR
  iapply (wp_ysend m c _ (dev50_eq c) 47 _ (yDst_eq c 47) (K (c, some (0, 47))) (K (yp c, some (1, 47))) (owedF c 0 + owedY c 47) (owedF c 0 + owedY c 48)
      (by rw [owedY_succ' c 47 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 47 (by decide)) $$ [AccCYS Hc]
  · isplitl [AccCYS]; · iexact AccCYS
    iexact Hc
  -- step 51: send k0_dev51 src=arg0[(k0_off2 d0 3072#32)] dst=arg1[(k0_off1 d0 3072#32)] ssem=arg2[48] rsem=arg3[48]
  first | sl_exec | skip
  ihave Hs := (Entails.of_eq (take_step (famTYS (F := F) c) 48 (by decide))) $$ [FtYS]
  · iexact FtYS
  icases Hs with ⟨Ht1, FtYS⟩
  ihave Hs := (Entails.of_eq (take_step (famTYRP (F := F) c) 48 (by decide))) $$ [FtYRP]
  · iexact FtYRP
  icases Hs with ⟨Ht2, FtYRP⟩
  ihave Hs := (Entails.of_eq (take_step (famXY m c) 48 (by decide))) $$ [FxY]
  · iexact FxY
  icases Hs with ⟨Hx, FxY⟩
  ihave Hs := (Entails.of_eq (take_step (famDY m c) 48 (by decide))) $$ [FdY]
  · iexact FdY
  icases Hs with ⟨Hd, FdY⟩
  ihave Hx := (Entails.of_eq (famXY_at m c 48 (by decide))) $$ [Hx]
  · iexact Hx
  ihave #HI1 := (Prep.inv_ys m K c 48) $$ HI
  ihave #HI2 := (Prep.inv_yr m K (yp c) 48) $$ HI
  ihave #HR1 := (Prep.reached_ys (F := F) c 48) $$ HR
  ihave #HR2 := (Prep.reached_yr (F := F) (yp c) 48) $$ HR
  iapply (wp_ysend m c _ (dev51_eq c) 48 _ (yDst_eq c 48) (K (c, some (0, 48))) (K (yp c, some (1, 48))) (owedF c 0 + owedY c 48) (owedF c 0 + owedY c 49)
      (by rw [owedY_succ' c 48 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 48 (by decide)) $$ [AccCYS Hc]
  · isplitl [AccCYS]; · iexact AccCYS
    iexact Hc
  -- step 52: send k0_dev52 src=arg0[(k0_off2 d0 3136#32)] dst=arg1[(k0_off1 d0 3136#32)] ssem=arg2[49] rsem=arg3[49]
  first | sl_exec | skip
  ihave Hs := (Entails.of_eq (take_step (famTYS (F := F) c) 49 (by decide))) $$ [FtYS]
  · iexact FtYS
  icases Hs with ⟨Ht1, FtYS⟩
  ihave Hs := (Entails.of_eq (take_step (famTYRP (F := F) c) 49 (by decide))) $$ [FtYRP]
  · iexact FtYRP
  icases Hs with ⟨Ht2, FtYRP⟩
  ihave Hs := (Entails.of_eq (take_step (famXY m c) 49 (by decide))) $$ [FxY]
  · iexact FxY
  icases Hs with ⟨Hx, FxY⟩
  ihave Hs := (Entails.of_eq (take_step (famDY m c) 49 (by decide))) $$ [FdY]
  · iexact FdY
  icases Hs with ⟨Hd, FdY⟩
  ihave Hx := (Entails.of_eq (famXY_at m c 49 (by decide))) $$ [Hx]
  · iexact Hx
  ihave #HI1 := (Prep.inv_ys m K c 49) $$ HI
  ihave #HI2 := (Prep.inv_yr m K (yp c) 49) $$ HI
  ihave #HR1 := (Prep.reached_ys (F := F) c 49) $$ HR
  ihave #HR2 := (Prep.reached_yr (F := F) (yp c) 49) $$ HR
  iapply (wp_ysend m c _ (dev52_eq c) 49 _ (yDst_eq c 49) (K (c, some (0, 49))) (K (yp c, some (1, 49))) (owedF c 0 + owedY c 49) (owedF c 0 + owedY c 50)
      (by rw [owedY_succ' c 49 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 49 (by decide)) $$ [AccCYS Hc]
  · isplitl [AccCYS]; · iexact AccCYS
    iexact Hc
  -- step 53: send k0_dev53 src=arg0[(k0_off2 d0 3200#32)] dst=arg1[(k0_off1 d0 3200#32)] ssem=arg2[50] rsem=arg3[50]
  first | sl_exec | skip
  ihave Hs := (Entails.of_eq (take_step (famTYS (F := F) c) 50 (by decide))) $$ [FtYS]
  · iexact FtYS
  icases Hs with ⟨Ht1, FtYS⟩
  ihave Hs := (Entails.of_eq (take_step (famTYRP (F := F) c) 50 (by decide))) $$ [FtYRP]
  · iexact FtYRP
  icases Hs with ⟨Ht2, FtYRP⟩
  ihave Hs := (Entails.of_eq (take_step (famXY m c) 50 (by decide))) $$ [FxY]
  · iexact FxY
  icases Hs with ⟨Hx, FxY⟩
  ihave Hs := (Entails.of_eq (take_step (famDY m c) 50 (by decide))) $$ [FdY]
  · iexact FdY
  icases Hs with ⟨Hd, FdY⟩
  ihave Hx := (Entails.of_eq (famXY_at m c 50 (by decide))) $$ [Hx]
  · iexact Hx
  ihave #HI1 := (Prep.inv_ys m K c 50) $$ HI
  ihave #HI2 := (Prep.inv_yr m K (yp c) 50) $$ HI
  ihave #HR1 := (Prep.reached_ys (F := F) c 50) $$ HR
  ihave #HR2 := (Prep.reached_yr (F := F) (yp c) 50) $$ HR
  iapply (wp_ysend m c _ (dev53_eq c) 50 _ (yDst_eq c 50) (K (c, some (0, 50))) (K (yp c, some (1, 50))) (owedF c 0 + owedY c 50) (owedF c 0 + owedY c 51)
      (by rw [owedY_succ' c 50 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 50 (by decide)) $$ [AccCYS Hc]
  · isplitl [AccCYS]; · iexact AccCYS
    iexact Hc
  -- step 54: send k0_dev54 src=arg0[(k0_off2 d0 3264#32)] dst=arg1[(k0_off1 d0 3264#32)] ssem=arg2[51] rsem=arg3[51]
  first | sl_exec | skip
  ihave Hs := (Entails.of_eq (take_step (famTYS (F := F) c) 51 (by decide))) $$ [FtYS]
  · iexact FtYS
  icases Hs with ⟨Ht1, FtYS⟩
  ihave Hs := (Entails.of_eq (take_step (famTYRP (F := F) c) 51 (by decide))) $$ [FtYRP]
  · iexact FtYRP
  icases Hs with ⟨Ht2, FtYRP⟩
  ihave Hs := (Entails.of_eq (take_step (famXY m c) 51 (by decide))) $$ [FxY]
  · iexact FxY
  icases Hs with ⟨Hx, FxY⟩
  ihave Hs := (Entails.of_eq (take_step (famDY m c) 51 (by decide))) $$ [FdY]
  · iexact FdY
  icases Hs with ⟨Hd, FdY⟩
  ihave Hx := (Entails.of_eq (famXY_at m c 51 (by decide))) $$ [Hx]
  · iexact Hx
  ihave #HI1 := (Prep.inv_ys m K c 51) $$ HI
  ihave #HI2 := (Prep.inv_yr m K (yp c) 51) $$ HI
  ihave #HR1 := (Prep.reached_ys (F := F) c 51) $$ HR
  ihave #HR2 := (Prep.reached_yr (F := F) (yp c) 51) $$ HR
  iapply (wp_ysend m c _ (dev54_eq c) 51 _ (yDst_eq c 51) (K (c, some (0, 51))) (K (yp c, some (1, 51))) (owedF c 0 + owedY c 51) (owedF c 0 + owedY c 52)
      (by rw [owedY_succ' c 51 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 51 (by decide)) $$ [AccCYS Hc]
  · isplitl [AccCYS]; · iexact AccCYS
    iexact Hc
  -- step 55: send k0_dev55 src=arg0[(k0_off2 d0 3328#32)] dst=arg1[(k0_off1 d0 3328#32)] ssem=arg2[52] rsem=arg3[52]
  first | sl_exec | skip
  ihave Hs := (Entails.of_eq (take_step (famTYS (F := F) c) 52 (by decide))) $$ [FtYS]
  · iexact FtYS
  icases Hs with ⟨Ht1, FtYS⟩
  ihave Hs := (Entails.of_eq (take_step (famTYRP (F := F) c) 52 (by decide))) $$ [FtYRP]
  · iexact FtYRP
  icases Hs with ⟨Ht2, FtYRP⟩
  ihave Hs := (Entails.of_eq (take_step (famXY m c) 52 (by decide))) $$ [FxY]
  · iexact FxY
  icases Hs with ⟨Hx, FxY⟩
  ihave Hs := (Entails.of_eq (take_step (famDY m c) 52 (by decide))) $$ [FdY]
  · iexact FdY
  icases Hs with ⟨Hd, FdY⟩
  ihave Hx := (Entails.of_eq (famXY_at m c 52 (by decide))) $$ [Hx]
  · iexact Hx
  ihave #HI1 := (Prep.inv_ys m K c 52) $$ HI
  ihave #HI2 := (Prep.inv_yr m K (yp c) 52) $$ HI
  ihave #HR1 := (Prep.reached_ys (F := F) c 52) $$ HR
  ihave #HR2 := (Prep.reached_yr (F := F) (yp c) 52) $$ HR
  iapply (wp_ysend m c _ (dev55_eq c) 52 _ (yDst_eq c 52) (K (c, some (0, 52))) (K (yp c, some (1, 52))) (owedF c 0 + owedY c 52) (owedF c 0 + owedY c 53)
      (by rw [owedY_succ' c 52 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 52 (by decide)) $$ [AccCYS Hc]
  · isplitl [AccCYS]; · iexact AccCYS
    iexact Hc
  -- step 56: send k0_dev56 src=arg0[(k0_off2 d0 3392#32)] dst=arg1[(k0_off1 d0 3392#32)] ssem=arg2[53] rsem=arg3[53]
  first | sl_exec | skip
  ihave Hs := (Entails.of_eq (take_step (famTYS (F := F) c) 53 (by decide))) $$ [FtYS]
  · iexact FtYS
  icases Hs with ⟨Ht1, FtYS⟩
  ihave Hs := (Entails.of_eq (take_step (famTYRP (F := F) c) 53 (by decide))) $$ [FtYRP]
  · iexact FtYRP
  icases Hs with ⟨Ht2, FtYRP⟩
  ihave Hs := (Entails.of_eq (take_step (famXY m c) 53 (by decide))) $$ [FxY]
  · iexact FxY
  icases Hs with ⟨Hx, FxY⟩
  ihave Hs := (Entails.of_eq (take_step (famDY m c) 53 (by decide))) $$ [FdY]
  · iexact FdY
  icases Hs with ⟨Hd, FdY⟩
  ihave Hx := (Entails.of_eq (famXY_at m c 53 (by decide))) $$ [Hx]
  · iexact Hx
  ihave #HI1 := (Prep.inv_ys m K c 53) $$ HI
  ihave #HI2 := (Prep.inv_yr m K (yp c) 53) $$ HI
  ihave #HR1 := (Prep.reached_ys (F := F) c 53) $$ HR
  ihave #HR2 := (Prep.reached_yr (F := F) (yp c) 53) $$ HR
  iapply (wp_ysend m c _ (dev56_eq c) 53 _ (yDst_eq c 53) (K (c, some (0, 53))) (K (yp c, some (1, 53))) (owedF c 0 + owedY c 53) (owedF c 0 + owedY c 54)
      (by rw [owedY_succ' c 53 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 53 (by decide)) $$ [AccCYS Hc]
  · isplitl [AccCYS]; · iexact AccCYS
    iexact Hc
  -- step 57: send k0_dev57 src=arg0[(k0_off2 d0 3456#32)] dst=arg1[(k0_off1 d0 3456#32)] ssem=arg2[54] rsem=arg3[54]
  first | sl_exec | skip
  ihave Hs := (Entails.of_eq (take_step (famTYS (F := F) c) 54 (by decide))) $$ [FtYS]
  · iexact FtYS
  icases Hs with ⟨Ht1, FtYS⟩
  ihave Hs := (Entails.of_eq (take_step (famTYRP (F := F) c) 54 (by decide))) $$ [FtYRP]
  · iexact FtYRP
  icases Hs with ⟨Ht2, FtYRP⟩
  ihave Hs := (Entails.of_eq (take_step (famXY m c) 54 (by decide))) $$ [FxY]
  · iexact FxY
  icases Hs with ⟨Hx, FxY⟩
  ihave Hs := (Entails.of_eq (take_step (famDY m c) 54 (by decide))) $$ [FdY]
  · iexact FdY
  icases Hs with ⟨Hd, FdY⟩
  ihave Hx := (Entails.of_eq (famXY_at m c 54 (by decide))) $$ [Hx]
  · iexact Hx
  ihave #HI1 := (Prep.inv_ys m K c 54) $$ HI
  ihave #HI2 := (Prep.inv_yr m K (yp c) 54) $$ HI
  ihave #HR1 := (Prep.reached_ys (F := F) c 54) $$ HR
  ihave #HR2 := (Prep.reached_yr (F := F) (yp c) 54) $$ HR
  iapply (wp_ysend m c _ (dev57_eq c) 54 _ (yDst_eq c 54) (K (c, some (0, 54))) (K (yp c, some (1, 54))) (owedF c 0 + owedY c 54) (owedF c 0 + owedY c 55)
      (by rw [owedY_succ' c 54 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 54 (by decide)) $$ [AccCYS Hc]
  · isplitl [AccCYS]; · iexact AccCYS
    iexact Hc
  -- step 58: send k0_dev58 src=arg0[(k0_off2 d0 3520#32)] dst=arg1[(k0_off1 d0 3520#32)] ssem=arg2[55] rsem=arg3[55]
  first | sl_exec | skip
  ihave Hs := (Entails.of_eq (take_step (famTYS (F := F) c) 55 (by decide))) $$ [FtYS]
  · iexact FtYS
  icases Hs with ⟨Ht1, FtYS⟩
  ihave Hs := (Entails.of_eq (take_step (famTYRP (F := F) c) 55 (by decide))) $$ [FtYRP]
  · iexact FtYRP
  icases Hs with ⟨Ht2, FtYRP⟩
  ihave Hs := (Entails.of_eq (take_step (famXY m c) 55 (by decide))) $$ [FxY]
  · iexact FxY
  icases Hs with ⟨Hx, FxY⟩
  ihave Hs := (Entails.of_eq (take_step (famDY m c) 55 (by decide))) $$ [FdY]
  · iexact FdY
  icases Hs with ⟨Hd, FdY⟩
  ihave Hx := (Entails.of_eq (famXY_at m c 55 (by decide))) $$ [Hx]
  · iexact Hx
  ihave #HI1 := (Prep.inv_ys m K c 55) $$ HI
  ihave #HI2 := (Prep.inv_yr m K (yp c) 55) $$ HI
  ihave #HR1 := (Prep.reached_ys (F := F) c 55) $$ HR
  ihave #HR2 := (Prep.reached_yr (F := F) (yp c) 55) $$ HR
  iapply (wp_ysend m c _ (dev58_eq c) 55 _ (yDst_eq c 55) (K (c, some (0, 55))) (K (yp c, some (1, 55))) (owedF c 0 + owedY c 55) (owedF c 0 + owedY c 56)
      (by rw [owedY_succ' c 55 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 55 (by decide)) $$ [AccCYS Hc]
  · isplitl [AccCYS]; · iexact AccCYS
    iexact Hc
  -- step 59: send k0_dev59 src=arg0[(k0_off2 d0 3584#32)] dst=arg1[(k0_off1 d0 3584#32)] ssem=arg2[56] rsem=arg3[56]
  first | sl_exec | skip
  ihave Hs := (Entails.of_eq (take_step (famTYS (F := F) c) 56 (by decide))) $$ [FtYS]
  · iexact FtYS
  icases Hs with ⟨Ht1, FtYS⟩
  ihave Hs := (Entails.of_eq (take_step (famTYRP (F := F) c) 56 (by decide))) $$ [FtYRP]
  · iexact FtYRP
  icases Hs with ⟨Ht2, FtYRP⟩
  ihave Hs := (Entails.of_eq (take_step (famXY m c) 56 (by decide))) $$ [FxY]
  · iexact FxY
  icases Hs with ⟨Hx, FxY⟩
  ihave Hs := (Entails.of_eq (take_step (famDY m c) 56 (by decide))) $$ [FdY]
  · iexact FdY
  icases Hs with ⟨Hd, FdY⟩
  ihave Hx := (Entails.of_eq (famXY_at m c 56 (by decide))) $$ [Hx]
  · iexact Hx
  ihave #HI1 := (Prep.inv_ys m K c 56) $$ HI
  ihave #HI2 := (Prep.inv_yr m K (yp c) 56) $$ HI
  ihave #HR1 := (Prep.reached_ys (F := F) c 56) $$ HR
  ihave #HR2 := (Prep.reached_yr (F := F) (yp c) 56) $$ HR
  iapply (wp_ysend m c _ (dev59_eq c) 56 _ (yDst_eq c 56) (K (c, some (0, 56))) (K (yp c, some (1, 56))) (owedF c 0 + owedY c 56) (owedF c 0 + owedY c 57)
      (by rw [owedY_succ' c 56 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 56 (by decide)) $$ [AccCYS Hc]
  · isplitl [AccCYS]; · iexact AccCYS
    iexact Hc
  -- step 60: send k0_dev60 src=arg0[(k0_off2 d0 3648#32)] dst=arg1[(k0_off1 d0 3648#32)] ssem=arg2[57] rsem=arg3[57]
  first | sl_exec | skip
  ihave Hs := (Entails.of_eq (take_step (famTYS (F := F) c) 57 (by decide))) $$ [FtYS]
  · iexact FtYS
  icases Hs with ⟨Ht1, FtYS⟩
  ihave Hs := (Entails.of_eq (take_step (famTYRP (F := F) c) 57 (by decide))) $$ [FtYRP]
  · iexact FtYRP
  icases Hs with ⟨Ht2, FtYRP⟩
  ihave Hs := (Entails.of_eq (take_step (famXY m c) 57 (by decide))) $$ [FxY]
  · iexact FxY
  icases Hs with ⟨Hx, FxY⟩
  ihave Hs := (Entails.of_eq (take_step (famDY m c) 57 (by decide))) $$ [FdY]
  · iexact FdY
  icases Hs with ⟨Hd, FdY⟩
  ihave Hx := (Entails.of_eq (famXY_at m c 57 (by decide))) $$ [Hx]
  · iexact Hx
  ihave #HI1 := (Prep.inv_ys m K c 57) $$ HI
  ihave #HI2 := (Prep.inv_yr m K (yp c) 57) $$ HI
  ihave #HR1 := (Prep.reached_ys (F := F) c 57) $$ HR
  ihave #HR2 := (Prep.reached_yr (F := F) (yp c) 57) $$ HR
  iapply (wp_ysend m c _ (dev60_eq c) 57 _ (yDst_eq c 57) (K (c, some (0, 57))) (K (yp c, some (1, 57))) (owedF c 0 + owedY c 57) (owedF c 0 + owedY c 58)
      (by rw [owedY_succ' c 57 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 57 (by decide)) $$ [AccCYS Hc]
  · isplitl [AccCYS]; · iexact AccCYS
    iexact Hc
  -- step 61: send k0_dev61 src=arg0[(k0_off2 d0 3712#32)] dst=arg1[(k0_off1 d0 3712#32)] ssem=arg2[58] rsem=arg3[58]
  first | sl_exec | skip
  ihave Hs := (Entails.of_eq (take_step (famTYS (F := F) c) 58 (by decide))) $$ [FtYS]
  · iexact FtYS
  icases Hs with ⟨Ht1, FtYS⟩
  ihave Hs := (Entails.of_eq (take_step (famTYRP (F := F) c) 58 (by decide))) $$ [FtYRP]
  · iexact FtYRP
  icases Hs with ⟨Ht2, FtYRP⟩
  ihave Hs := (Entails.of_eq (take_step (famXY m c) 58 (by decide))) $$ [FxY]
  · iexact FxY
  icases Hs with ⟨Hx, FxY⟩
  ihave Hs := (Entails.of_eq (take_step (famDY m c) 58 (by decide))) $$ [FdY]
  · iexact FdY
  icases Hs with ⟨Hd, FdY⟩
  ihave Hx := (Entails.of_eq (famXY_at m c 58 (by decide))) $$ [Hx]
  · iexact Hx
  ihave #HI1 := (Prep.inv_ys m K c 58) $$ HI
  ihave #HI2 := (Prep.inv_yr m K (yp c) 58) $$ HI
  ihave #HR1 := (Prep.reached_ys (F := F) c 58) $$ HR
  ihave #HR2 := (Prep.reached_yr (F := F) (yp c) 58) $$ HR
  iapply (wp_ysend m c _ (dev61_eq c) 58 _ (yDst_eq c 58) (K (c, some (0, 58))) (K (yp c, some (1, 58))) (owedF c 0 + owedY c 58) (owedF c 0 + owedY c 59)
      (by rw [owedY_succ' c 58 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 58 (by decide)) $$ [AccCYS Hc]
  · isplitl [AccCYS]; · iexact AccCYS
    iexact Hc
  -- step 62: send k0_dev62 src=arg0[(k0_off2 d0 3776#32)] dst=arg1[(k0_off1 d0 3776#32)] ssem=arg2[59] rsem=arg3[59]
  first | sl_exec | skip
  ihave Hs := (Entails.of_eq (take_step (famTYS (F := F) c) 59 (by decide))) $$ [FtYS]
  · iexact FtYS
  icases Hs with ⟨Ht1, FtYS⟩
  ihave Hs := (Entails.of_eq (take_step (famTYRP (F := F) c) 59 (by decide))) $$ [FtYRP]
  · iexact FtYRP
  icases Hs with ⟨Ht2, FtYRP⟩
  ihave Hs := (Entails.of_eq (take_step (famXY m c) 59 (by decide))) $$ [FxY]
  · iexact FxY
  icases Hs with ⟨Hx, FxY⟩
  ihave Hs := (Entails.of_eq (take_step (famDY m c) 59 (by decide))) $$ [FdY]
  · iexact FdY
  icases Hs with ⟨Hd, FdY⟩
  ihave Hx := (Entails.of_eq (famXY_at m c 59 (by decide))) $$ [Hx]
  · iexact Hx
  ihave #HI1 := (Prep.inv_ys m K c 59) $$ HI
  ihave #HI2 := (Prep.inv_yr m K (yp c) 59) $$ HI
  ihave #HR1 := (Prep.reached_ys (F := F) c 59) $$ HR
  ihave #HR2 := (Prep.reached_yr (F := F) (yp c) 59) $$ HR
  iapply (wp_ysend m c _ (dev62_eq c) 59 _ (yDst_eq c 59) (K (c, some (0, 59))) (K (yp c, some (1, 59))) (owedF c 0 + owedY c 59) (owedF c 0 + owedY c 60)
      (by rw [owedY_succ' c 59 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 59 (by decide)) $$ [AccCYS Hc]
  · isplitl [AccCYS]; · iexact AccCYS
    iexact Hc
  -- step 63: send k0_dev63 src=arg0[(k0_off2 d0 3840#32)] dst=arg1[(k0_off1 d0 3840#32)] ssem=arg2[60] rsem=arg3[60]
  first | sl_exec | skip
  ihave Hs := (Entails.of_eq (take_step (famTYS (F := F) c) 60 (by decide))) $$ [FtYS]
  · iexact FtYS
  icases Hs with ⟨Ht1, FtYS⟩
  ihave Hs := (Entails.of_eq (take_step (famTYRP (F := F) c) 60 (by decide))) $$ [FtYRP]
  · iexact FtYRP
  icases Hs with ⟨Ht2, FtYRP⟩
  ihave Hs := (Entails.of_eq (take_step (famXY m c) 60 (by decide))) $$ [FxY]
  · iexact FxY
  icases Hs with ⟨Hx, FxY⟩
  ihave Hs := (Entails.of_eq (take_step (famDY m c) 60 (by decide))) $$ [FdY]
  · iexact FdY
  icases Hs with ⟨Hd, FdY⟩
  ihave Hx := (Entails.of_eq (famXY_at m c 60 (by decide))) $$ [Hx]
  · iexact Hx
  ihave #HI1 := (Prep.inv_ys m K c 60) $$ HI
  ihave #HI2 := (Prep.inv_yr m K (yp c) 60) $$ HI
  ihave #HR1 := (Prep.reached_ys (F := F) c 60) $$ HR
  ihave #HR2 := (Prep.reached_yr (F := F) (yp c) 60) $$ HR
  iapply (wp_ysend m c _ (dev63_eq c) 60 _ (yDst_eq c 60) (K (c, some (0, 60))) (K (yp c, some (1, 60))) (owedF c 0 + owedY c 60) (owedF c 0 + owedY c 61)
      (by rw [owedY_succ' c 60 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 60 (by decide)) $$ [AccCYS Hc]
  · isplitl [AccCYS]; · iexact AccCYS
    iexact Hc
  -- step 64: send k0_dev64 src=arg0[(k0_off2 d0 3904#32)] dst=arg1[(k0_off1 d0 3904#32)] ssem=arg2[61] rsem=arg3[61]
  first | sl_exec | skip
  ihave Hs := (Entails.of_eq (take_step (famTYS (F := F) c) 61 (by decide))) $$ [FtYS]
  · iexact FtYS
  icases Hs with ⟨Ht1, FtYS⟩
  ihave Hs := (Entails.of_eq (take_step (famTYRP (F := F) c) 61 (by decide))) $$ [FtYRP]
  · iexact FtYRP
  icases Hs with ⟨Ht2, FtYRP⟩
  ihave Hs := (Entails.of_eq (take_step (famXY m c) 61 (by decide))) $$ [FxY]
  · iexact FxY
  icases Hs with ⟨Hx, FxY⟩
  ihave Hs := (Entails.of_eq (take_step (famDY m c) 61 (by decide))) $$ [FdY]
  · iexact FdY
  icases Hs with ⟨Hd, FdY⟩
  ihave Hx := (Entails.of_eq (famXY_at m c 61 (by decide))) $$ [Hx]
  · iexact Hx
  ihave #HI1 := (Prep.inv_ys m K c 61) $$ HI
  ihave #HI2 := (Prep.inv_yr m K (yp c) 61) $$ HI
  ihave #HR1 := (Prep.reached_ys (F := F) c 61) $$ HR
  ihave #HR2 := (Prep.reached_yr (F := F) (yp c) 61) $$ HR
  iapply (wp_ysend m c _ (dev64_eq c) 61 _ (yDst_eq c 61) (K (c, some (0, 61))) (K (yp c, some (1, 61))) (owedF c 0 + owedY c 61) (owedF c 0 + owedY c 62)
      (by rw [owedY_succ' c 61 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 61 (by decide)) $$ [AccCYS Hc]
  · isplitl [AccCYS]; · iexact AccCYS
    iexact Hc
  -- step 65: send k0_dev65 src=arg0[(k0_off2 d0 3968#32)] dst=arg1[(k0_off1 d0 3968#32)] ssem=arg2[62] rsem=arg3[62]
  first | sl_exec | skip
  ihave Hs := (Entails.of_eq (take_step (famTYS (F := F) c) 62 (by decide))) $$ [FtYS]
  · iexact FtYS
  icases Hs with ⟨Ht1, FtYS⟩
  ihave Hs := (Entails.of_eq (take_step (famTYRP (F := F) c) 62 (by decide))) $$ [FtYRP]
  · iexact FtYRP
  icases Hs with ⟨Ht2, FtYRP⟩
  ihave Hs := (Entails.of_eq (take_step (famXY m c) 62 (by decide))) $$ [FxY]
  · iexact FxY
  icases Hs with ⟨Hx, FxY⟩
  ihave Hs := (Entails.of_eq (take_step (famDY m c) 62 (by decide))) $$ [FdY]
  · iexact FdY
  icases Hs with ⟨Hd, FdY⟩
  ihave Hx := (Entails.of_eq (famXY_at m c 62 (by decide))) $$ [Hx]
  · iexact Hx
  ihave #HI1 := (Prep.inv_ys m K c 62) $$ HI
  ihave #HI2 := (Prep.inv_yr m K (yp c) 62) $$ HI
  ihave #HR1 := (Prep.reached_ys (F := F) c 62) $$ HR
  ihave #HR2 := (Prep.reached_yr (F := F) (yp c) 62) $$ HR
  iapply (wp_ysend m c _ (dev65_eq c) 62 _ (yDst_eq c 62) (K (c, some (0, 62))) (K (yp c, some (1, 62))) (owedF c 0 + owedY c 62) (owedF c 0 + owedY c 63)
      (by rw [owedY_succ' c 62 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 62 (by decide)) $$ [AccCYS Hc]
  · isplitl [AccCYS]; · iexact AccCYS
    iexact Hc
  -- step 66: send k0_dev66 src=arg0[(k0_off2 d0 4032#32)] dst=arg1[(k0_off1 d0 4032#32)] ssem=arg2[63] rsem=arg3[63]
  first | sl_exec | skip
  ihave Hs := (Entails.of_eq (take_step (famTYS (F := F) c) 63 (by decide))) $$ [FtYS]
  · iexact FtYS
  icases Hs with ⟨Ht1, FtYS⟩
  ihave Hs := (Entails.of_eq (take_step (famTYRP (F := F) c) 63 (by decide))) $$ [FtYRP]
  · iexact FtYRP
  icases Hs with ⟨Ht2, FtYRP⟩
  ihave Hs := (Entails.of_eq (take_step (famXY m c) 63 (by decide))) $$ [FxY]
  · iexact FxY
  icases Hs with ⟨Hx, FxY⟩
  ihave Hs := (Entails.of_eq (take_step (famDY m c) 63 (by decide))) $$ [FdY]
  · iexact FdY
  icases Hs with ⟨Hd, FdY⟩
  ihave Hx := (Entails.of_eq (famXY_at m c 63 (by decide))) $$ [Hx]
  · iexact Hx
  ihave #HI1 := (Prep.inv_ys m K c 63) $$ HI
  ihave #HI2 := (Prep.inv_yr m K (yp c) 63) $$ HI
  ihave #HR1 := (Prep.reached_ys (F := F) c 63) $$ HR
  ihave #HR2 := (Prep.reached_yr (F := F) (yp c) 63) $$ HR
  iapply (wp_ysend m c _ (dev66_eq c) 63 _ (yDst_eq c 63) (K (c, some (0, 63))) (K (yp c, some (1, 63))) (owedF c 0 + owedY c 63) (owedF c 0 + owedY c 64)
      (by rw [owedY_succ' c 63 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 63 (by decide)) $$ [AccCYS Hc]
  · isplitl [AccCYS]; · iexact AccCYS
    iexact Hc
  ihave HO := (Entails.of_eq (congrArg (fun O => owes (c : Thread nD τ) O W1) (show owedF c 0 + owedY c 64 = owedF c 0 by rw [owedY_top, add_zero]))) $$ HO
  -- step 67: wait arg3[0] (arg0[(k0_off2 d0 0#32)], arg1[(k0_off1 d0 0#32)])
  first | sl_exec | skip
  ihave Hs := (Entails.of_eq (take_zero (famCYR (F := F) c) (by decide))) $$ [FcYR]
  · iexact FcYR
  icases Hs with ⟨Hc, FcYR⟩
  ihave Hs := (Entails.of_eq (take_zero (famAtYR (F := F) c) (by decide))) $$ [FatYR]
  · iexact FatYR
  icases Hs with ⟨Hat, FatYR⟩
  ihave #HIw := (Prep.inv_yr m K c 0) $$ HI
  iapply (Rounds.wp_wait_rest_token 𝒱₀ ER (rd m) (c : Thread nD τ) none (κ := K (c, some (1, 0))) (sm := .dma (yrS 0))
      (wpE_waitDma2_eq 𝒱₀ (c : Thread nD τ) none Set.univ (src := ySrc c 0) (dst := yDst c 0)) (Set.mem_univ _) () (O := owedF c 0) (W := W1) (R := 0) (m := 0) (T := ∅)
      (by rw [Nat.zero_add]; exact (expect_yr m c 0).symm)) $$ [Hc HO Hat]
  · isplitr; · iexact HIw
    isplitl [Hc]; · iexact Hc
    isplitl [HO]; · iexact HO
    isplitr
    · iapply (mayWait_of_above c (.dma (yrS 0)) _ (by rw [show lv ((c : Thread nD τ), SemLoc.dma (yrS 0)) () = 2 from lv_yr c 0]; exact above_owedF c 0 (by decide)))
      iexact Hlev
    iexact Hat
  iclear HIw
  iintro ⟨HO, Hat, -, Hpay⟩
  ihave HYk := (Entails.of_eq (rest_yr' m c 0)) $$ Hpay
  ihave #HIx := (Prep.inv_yr m K c 0) $$ HI
  imod (Rounds.cell_close ER (rd m) (Set.mem_univ (K (c, some (1, 0)))) (fun h => h) (R := 0 + 1) (duties_yr_later m c 0)) $$ [Hat] with Hz
  · isplitr; · iexact HIx
    iexact Hat
  iclear HIx
  ihave AccZyr := (acc_one (famZyr (F := F) c) (by decide)) $$ [Hz]
  · iexact Hz
  ihave HOe : iprop(∃ W' : Waits sig Unit, owes (c : Thread nD τ) _ W') $$ [HO]
  · iexists _; iexact HO
  icases HOe with ⟨%W2, HO⟩
  -- step 68: send k0_dev67 src=arg1[(k0_off3 d0 0#32)] dst=arg1[(k0_off3 d0 0#32)] ssem=arg4[0] rsem=arg5[0]
  first | sl_exec | skip
  ihave Hs := (Entails.of_eq (take_zero (famTFS (F := F) c) (by decide))) $$ [FtFS]
  · iexact FtFS
  icases Hs with ⟨Ht1, FtFS⟩
  ihave Hs := (Entails.of_eq (take_zero (famTFRP (F := F) c) (by decide))) $$ [FtFRP]
  · iexact FtFRP
  icases Hs with ⟨Ht2, FtFRP⟩
  ihave Hs := (Entails.of_eq (take_zero (famDF m c) (by decide))) $$ [FdF]
  · iexact FdF
  icases Hs with ⟨Hd, FdF⟩
  ihave #HI1 := (Prep.inv_fs m K c 0) $$ HI
  ihave #HI2 := (Prep.inv_fr m K (xp c) 0) $$ HI
  ihave #HR1 := (Prep.reached_fs (F := F) c 0) $$ HR
  ihave #HR2 := (Prep.reached_fr (F := F) (xp c) 0) $$ HR
  iapply (wp_fsend m c _ (dev67_eq c) 0 (K (c, some (2, 0))) (K (xp c, some (3, 0))) (owedF c 0) (owedF c 1)
      (by rw [owedF_succ' c 0 (by decide)]; rfl) W2) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_one (famCFS (F := F) c) (by decide)) $$ [Hc]
  · iexact Hc
  -- step 69: copy src=arg0[(k0_off4 d0)] dst=arg6[![0, 0, 0]] sem=arg7[0]
  first | sl_exec | skip
  ihave Hs := (Entails.of_eq (take_zero (famXL m c) (by decide))) $$ [FxL]
  · iexact FxL
  icases Hs with ⟨Hxl, FxL⟩
  ihave #HIl := (Prep.inv_ls m KL c 0) $$ HIL
  iapply (Rounds.wp_copy_pointsTo 𝒱₀ ER (rd m) (c : Thread nD τ) none (src := lSrc c 0) (dst := vSlot 0) (sem := .dma (lsS 0)) (q := fullShare) (fs := xC m c) (fd := fv)
      (r := 0) (d := false) (κ := KL (c, 0)) (by rw [duties_ls m c 0 0 (by decide)]; exact Finset.mem_singleton_self _) () NV rfl (amount_ld m c 0 0 false)
      (by rw [payload_ls, vLand_pts m c 0 0 (fv)]; exact BI.Entails.refl _)) $$ [Hxl Hv0 Htl0_0]
  · isplitr; · iexact HIl
    isplitl [Hxl]; · iexact Hxl
    isplitl [Hv0]; · iexact Hv0
    isplitl [Htl0_0]; · iexact Htl0_0
    iexact HRl0
  iclear HIl
  iintro Hc_l0
  -- step 70: wait arg7[0] (arg0[(k0_off4 d0)], arg6[![0, 0, 0]])
  first | sl_exec | skip
  ihave #HIw := (Prep.inv_ls m KL c 0) $$ HIL
  iapply (Rounds.wp_wait_rest_token 𝒱₀ ER (rd m) (c : Thread nD τ) none (κ := KL (c, 0)) (sm := .dma (lsS 0))
      (wpE_waitDma2_eq 𝒱₀ (c : Thread nD τ) none Set.univ (src := lSrc c 0) (dst := vSlot 0)) (Set.mem_univ _) () (O := owedF c 1) (W := W2) (R := 0) (m := 0) (T := ∅)
      (by rw [Nat.zero_add]; exact (expect_ld m c 0 0 (by decide)).symm)) $$ [Hc_l0 HO Hat_l0]
  · isplitr; · iexact HIw
    isplitl [Hc_l0]; · iexact Hc_l0
    isplitl [HO]; · iexact HO
    isplitr
    · iapply (mayWait_of_above c (.dma (lsS 0)) _ (by rw [show lv ((c : Thread nD τ), SemLoc.dma (lsS 0)) () = 0 from lv_ls c 0]; exact above_owedF c 1 (by decide)))
      iexact Hlev
    iexact Hat_l0
  iclear HIw
  iclear HRl0
  iintro ⟨HO, Hat_l0, #HRl0, Hpay⟩
  ihave Hp := (Entails.of_eq (rest_ld0 m c 0 (by decide))) $$ Hpay
  icases Hp with ⟨Hv0, Hxlq⟩
  ihave AccXL := (acc_one (famXL m c) (by decide)) $$ [Hxlq]
  · iexact Hxlq
  ihave HOe : iprop(∃ W' : Waits sig Unit, owes (c : Thread nD τ) _ W') $$ [HO]
  · iexists _; iexact HO
  icases HOe with ⟨%W3, HO⟩
  -- step 71: copy src=arg6[![0, 0, 0]] dst=arg1[(k0_off5 d0 0#32)] sem=arg7[2]
  first | sl_exec | skip
  ihave Hs := (Entails.of_eq (take_zero (famOL0 m c) (by decide))) $$ [FoL]
  · iexact FoL
  icases Hs with ⟨Hol, FoL⟩
  ihave #HIl := (Prep.inv_ls m KL c 2) $$ HIL
  iapply (Rounds.wp_copy_pointsTo 𝒱₀ ER (rd m) (c : Thread nD τ) none (src := vSlot 0) (dst := lDst c 0) (sem := .dma (lsS 2)) (q := fullShare) (fs := VC m c 0) (fd := o0 m c)
      (r := 0) (d := false) (κ := KL (c, 2)) (by rw [duties_ls m c 2 0 (by decide)]; exact Finset.mem_singleton_self _) () NO rfl (amount_st m c 0 0 false)
      (by rw [payload_ls, lLandV_pts m c 0 0 (o0 m c)]; exact BI.Entails.refl _)) $$ [Hv0 Hol Htl2_0]
  · isplitr; · iexact HIl
    isplitl [Hv0]; · iexact Hv0
    isplitl [Hol]; · iexact Hol
    isplitl [Htl2_0]; · iexact Htl2_0
    iexact HRl2
  iclear HIl
  iintro Hc_l2
  -- step 72: wait arg3[1] (arg0[(k0_off2 d0 64#32)], arg1[(k0_off1 d0 64#32)])
  first | sl_exec | skip
  ihave Hs := (Entails.of_eq (take_step (famCYR (F := F) c) 1 (by decide))) $$ [FcYR]
  · iexact FcYR
  icases Hs with ⟨Hc, FcYR⟩
  ihave Hs := (Entails.of_eq (take_step (famAtYR (F := F) c) 1 (by decide))) $$ [FatYR]
  · iexact FatYR
  icases Hs with ⟨Hat, FatYR⟩
  ihave #HIw := (Prep.inv_yr m K c 1) $$ HI
  iapply (Rounds.wp_wait_rest_token 𝒱₀ ER (rd m) (c : Thread nD τ) none (κ := K (c, some (1, 1))) (sm := .dma (yrS 1))
      (wpE_waitDma2_eq 𝒱₀ (c : Thread nD τ) none Set.univ (src := ySrc c 1) (dst := yDst c 1)) (Set.mem_univ _) () (O := owedF c 1) (W := W3) (R := 0) (m := 0) (T := ∅)
      (by rw [Nat.zero_add]; exact (expect_yr m c 1).symm)) $$ [Hc HO Hat]
  · isplitr; · iexact HIw
    isplitl [Hc]; · iexact Hc
    isplitl [HO]; · iexact HO
    isplitr
    · iapply (mayWait_of_above c (.dma (yrS 1)) _ (by rw [show lv ((c : Thread nD τ), SemLoc.dma (yrS 1)) () = 2 from lv_yr c 1]; exact above_owedF c 1 (by decide)))
      iexact Hlev
    iexact Hat
  iclear HIw
  iintro ⟨HO, Hat, -, Hpay⟩
  ihave HYk := (Entails.of_eq (rest_yr' m c 1)) $$ Hpay
  ihave #HIx := (Prep.inv_yr m K c 1) $$ HI
  imod (Rounds.cell_close ER (rd m) (Set.mem_univ (K (c, some (1, 1)))) (fun h => h) (R := 0 + 1) (duties_yr_later m c 1)) $$ [Hat] with Hz
  · isplitr; · iexact HIx
    iexact Hat
  iclear HIx
  ihave AccZyr := (acc_step (famZyr (F := F) c) 1 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W4, HO⟩
  -- step 73: send k0_dev68 src=arg1[(k0_off3 d0 64#32)] dst=arg1[(k0_off3 d0 64#32)] ssem=arg4[1] rsem=arg5[1]
  first | sl_exec | skip
  ihave Hs := (Entails.of_eq (take_step (famTFS (F := F) c) 1 (by decide))) $$ [FtFS]
  · iexact FtFS
  icases Hs with ⟨Ht1, FtFS⟩
  ihave Hs := (Entails.of_eq (take_step (famTFRP (F := F) c) 1 (by decide))) $$ [FtFRP]
  · iexact FtFRP
  icases Hs with ⟨Ht2, FtFRP⟩
  ihave Hs := (Entails.of_eq (take_step (famDF m c) 1 (by decide))) $$ [FdF]
  · iexact FdF
  icases Hs with ⟨Hd, FdF⟩
  ihave #HI1 := (Prep.inv_fs m K c 1) $$ HI
  ihave #HI2 := (Prep.inv_fr m K (xp c) 1) $$ HI
  ihave #HR1 := (Prep.reached_fs (F := F) c 1) $$ HR
  ihave #HR2 := (Prep.reached_fr (F := F) (xp c) 1) $$ HR
  iapply (wp_fsend m c _ (dev68_eq c) 1 (K (c, some (2, 1))) (K (xp c, some (3, 1))) (owedF c 1) (owedF c 2)
      (by rw [owedF_succ' c 1 (by decide)]; rfl) W4) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 1 (by decide)) $$ [AccCFS Hc]
  · isplitl [AccCFS]; · iexact AccCFS
    iexact Hc
  -- step 74: wait arg3[2] (arg0[(k0_off2 d0 128#32)], arg1[(k0_off1 d0 128#32)])
  first | sl_exec | skip
  ihave Hs := (Entails.of_eq (take_step (famCYR (F := F) c) 2 (by decide))) $$ [FcYR]
  · iexact FcYR
  icases Hs with ⟨Hc, FcYR⟩
  ihave Hs := (Entails.of_eq (take_step (famAtYR (F := F) c) 2 (by decide))) $$ [FatYR]
  · iexact FatYR
  icases Hs with ⟨Hat, FatYR⟩
  ihave #HIw := (Prep.inv_yr m K c 2) $$ HI
  iapply (Rounds.wp_wait_rest_token 𝒱₀ ER (rd m) (c : Thread nD τ) none (κ := K (c, some (1, 2))) (sm := .dma (yrS 2))
      (wpE_waitDma2_eq 𝒱₀ (c : Thread nD τ) none Set.univ (src := ySrc c 2) (dst := yDst c 2)) (Set.mem_univ _) () (O := owedF c 2) (W := W4) (R := 0) (m := 0) (T := ∅)
      (by rw [Nat.zero_add]; exact (expect_yr m c 2).symm)) $$ [Hc HO Hat]
  · isplitr; · iexact HIw
    isplitl [Hc]; · iexact Hc
    isplitl [HO]; · iexact HO
    isplitr
    · iapply (mayWait_of_above c (.dma (yrS 2)) _ (by rw [show lv ((c : Thread nD τ), SemLoc.dma (yrS 2)) () = 2 from lv_yr c 2]; exact above_owedF c 2 (by decide)))
      iexact Hlev
    iexact Hat
  iclear HIw
  iintro ⟨HO, Hat, -, Hpay⟩
  ihave HYk := (Entails.of_eq (rest_yr' m c 2)) $$ Hpay
  ihave #HIx := (Prep.inv_yr m K c 2) $$ HI
  imod (Rounds.cell_close ER (rd m) (Set.mem_univ (K (c, some (1, 2)))) (fun h => h) (R := 0 + 1) (duties_yr_later m c 2)) $$ [Hat] with Hz
  · isplitr; · iexact HIx
    iexact Hat
  iclear HIx
  ihave AccZyr := (acc_step (famZyr (F := F) c) 2 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W5, HO⟩
  -- step 75: send k0_dev69 src=arg1[(k0_off3 d0 128#32)] dst=arg1[(k0_off3 d0 128#32)] ssem=arg4[2] rsem=arg5[2]
  first | sl_exec | skip
  ihave Hs := (Entails.of_eq (take_step (famTFS (F := F) c) 2 (by decide))) $$ [FtFS]
  · iexact FtFS
  icases Hs with ⟨Ht1, FtFS⟩
  ihave Hs := (Entails.of_eq (take_step (famTFRP (F := F) c) 2 (by decide))) $$ [FtFRP]
  · iexact FtFRP
  icases Hs with ⟨Ht2, FtFRP⟩
  ihave Hs := (Entails.of_eq (take_step (famDF m c) 2 (by decide))) $$ [FdF]
  · iexact FdF
  icases Hs with ⟨Hd, FdF⟩
  ihave #HI1 := (Prep.inv_fs m K c 2) $$ HI
  ihave #HI2 := (Prep.inv_fr m K (xp c) 2) $$ HI
  ihave #HR1 := (Prep.reached_fs (F := F) c 2) $$ HR
  ihave #HR2 := (Prep.reached_fr (F := F) (xp c) 2) $$ HR
  iapply (wp_fsend m c _ (dev69_eq c) 2 (K (c, some (2, 2))) (K (xp c, some (3, 2))) (owedF c 2) (owedF c 3)
      (by rw [owedF_succ' c 2 (by decide)]; rfl) W5) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 2 (by decide)) $$ [AccCFS Hc]
  · isplitl [AccCFS]; · iexact AccCFS
    iexact Hc
  -- step 76: wait arg3[3] (arg0[(k0_off2 d0 192#32)], arg1[(k0_off1 d0 192#32)])
  first | sl_exec | skip
  ihave Hs := (Entails.of_eq (take_step (famCYR (F := F) c) 3 (by decide))) $$ [FcYR]
  · iexact FcYR
  icases Hs with ⟨Hc, FcYR⟩
  ihave Hs := (Entails.of_eq (take_step (famAtYR (F := F) c) 3 (by decide))) $$ [FatYR]
  · iexact FatYR
  icases Hs with ⟨Hat, FatYR⟩
  ihave #HIw := (Prep.inv_yr m K c 3) $$ HI
  iapply (Rounds.wp_wait_rest_token 𝒱₀ ER (rd m) (c : Thread nD τ) none (κ := K (c, some (1, 3))) (sm := .dma (yrS 3))
      (wpE_waitDma2_eq 𝒱₀ (c : Thread nD τ) none Set.univ (src := ySrc c 3) (dst := yDst c 3)) (Set.mem_univ _) () (O := owedF c 3) (W := W5) (R := 0) (m := 0) (T := ∅)
      (by rw [Nat.zero_add]; exact (expect_yr m c 3).symm)) $$ [Hc HO Hat]
  · isplitr; · iexact HIw
    isplitl [Hc]; · iexact Hc
    isplitl [HO]; · iexact HO
    isplitr
    · iapply (mayWait_of_above c (.dma (yrS 3)) _ (by rw [show lv ((c : Thread nD τ), SemLoc.dma (yrS 3)) () = 2 from lv_yr c 3]; exact above_owedF c 3 (by decide)))
      iexact Hlev
    iexact Hat
  iclear HIw
  iintro ⟨HO, Hat, -, Hpay⟩
  ihave HYk := (Entails.of_eq (rest_yr' m c 3)) $$ Hpay
  ihave #HIx := (Prep.inv_yr m K c 3) $$ HI
  imod (Rounds.cell_close ER (rd m) (Set.mem_univ (K (c, some (1, 3)))) (fun h => h) (R := 0 + 1) (duties_yr_later m c 3)) $$ [Hat] with Hz
  · isplitr; · iexact HIx
    iexact Hat
  iclear HIx
  ihave AccZyr := (acc_step (famZyr (F := F) c) 3 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W6, HO⟩
  -- step 77: send k0_dev70 src=arg1[(k0_off3 d0 192#32)] dst=arg1[(k0_off3 d0 192#32)] ssem=arg4[3] rsem=arg5[3]
  first | sl_exec | skip
  ihave Hs := (Entails.of_eq (take_step (famTFS (F := F) c) 3 (by decide))) $$ [FtFS]
  · iexact FtFS
  icases Hs with ⟨Ht1, FtFS⟩
  ihave Hs := (Entails.of_eq (take_step (famTFRP (F := F) c) 3 (by decide))) $$ [FtFRP]
  · iexact FtFRP
  icases Hs with ⟨Ht2, FtFRP⟩
  ihave Hs := (Entails.of_eq (take_step (famDF m c) 3 (by decide))) $$ [FdF]
  · iexact FdF
  icases Hs with ⟨Hd, FdF⟩
  ihave #HI1 := (Prep.inv_fs m K c 3) $$ HI
  ihave #HI2 := (Prep.inv_fr m K (xp c) 3) $$ HI
  ihave #HR1 := (Prep.reached_fs (F := F) c 3) $$ HR
  ihave #HR2 := (Prep.reached_fr (F := F) (xp c) 3) $$ HR
  iapply (wp_fsend m c _ (dev70_eq c) 3 (K (c, some (2, 3))) (K (xp c, some (3, 3))) (owedF c 3) (owedF c 4)
      (by rw [owedF_succ' c 3 (by decide)]; rfl) W6) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 3 (by decide)) $$ [AccCFS Hc]
  · isplitl [AccCFS]; · iexact AccCFS
    iexact Hc
  -- step 78: wait arg3[4] (arg0[(k0_off2 d0 256#32)], arg1[(k0_off1 d0 256#32)])
  first | sl_exec | skip
  ihave Hs := (Entails.of_eq (take_step (famCYR (F := F) c) 4 (by decide))) $$ [FcYR]
  · iexact FcYR
  icases Hs with ⟨Hc, FcYR⟩
  ihave Hs := (Entails.of_eq (take_step (famAtYR (F := F) c) 4 (by decide))) $$ [FatYR]
  · iexact FatYR
  icases Hs with ⟨Hat, FatYR⟩
  ihave #HIw := (Prep.inv_yr m K c 4) $$ HI
  iapply (Rounds.wp_wait_rest_token 𝒱₀ ER (rd m) (c : Thread nD τ) none (κ := K (c, some (1, 4))) (sm := .dma (yrS 4))
      (wpE_waitDma2_eq 𝒱₀ (c : Thread nD τ) none Set.univ (src := ySrc c 4) (dst := yDst c 4)) (Set.mem_univ _) () (O := owedF c 4) (W := W6) (R := 0) (m := 0) (T := ∅)
      (by rw [Nat.zero_add]; exact (expect_yr m c 4).symm)) $$ [Hc HO Hat]
  · isplitr; · iexact HIw
    isplitl [Hc]; · iexact Hc
    isplitl [HO]; · iexact HO
    isplitr
    · iapply (mayWait_of_above c (.dma (yrS 4)) _ (by rw [show lv ((c : Thread nD τ), SemLoc.dma (yrS 4)) () = 2 from lv_yr c 4]; exact above_owedF c 4 (by decide)))
      iexact Hlev
    iexact Hat
  iclear HIw
  iintro ⟨HO, Hat, -, Hpay⟩
  ihave HYk := (Entails.of_eq (rest_yr' m c 4)) $$ Hpay
  ihave #HIx := (Prep.inv_yr m K c 4) $$ HI
  imod (Rounds.cell_close ER (rd m) (Set.mem_univ (K (c, some (1, 4)))) (fun h => h) (R := 0 + 1) (duties_yr_later m c 4)) $$ [Hat] with Hz
  · isplitr; · iexact HIx
    iexact Hat
  iclear HIx
  ihave AccZyr := (acc_step (famZyr (F := F) c) 4 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W7, HO⟩
  -- step 79: send k0_dev71 src=arg1[(k0_off3 d0 256#32)] dst=arg1[(k0_off3 d0 256#32)] ssem=arg4[4] rsem=arg5[4]
  first | sl_exec | skip
  ihave Hs := (Entails.of_eq (take_step (famTFS (F := F) c) 4 (by decide))) $$ [FtFS]
  · iexact FtFS
  icases Hs with ⟨Ht1, FtFS⟩
  ihave Hs := (Entails.of_eq (take_step (famTFRP (F := F) c) 4 (by decide))) $$ [FtFRP]
  · iexact FtFRP
  icases Hs with ⟨Ht2, FtFRP⟩
  ihave Hs := (Entails.of_eq (take_step (famDF m c) 4 (by decide))) $$ [FdF]
  · iexact FdF
  icases Hs with ⟨Hd, FdF⟩
  ihave #HI1 := (Prep.inv_fs m K c 4) $$ HI
  ihave #HI2 := (Prep.inv_fr m K (xp c) 4) $$ HI
  ihave #HR1 := (Prep.reached_fs (F := F) c 4) $$ HR
  ihave #HR2 := (Prep.reached_fr (F := F) (xp c) 4) $$ HR
  iapply (wp_fsend m c _ (dev71_eq c) 4 (K (c, some (2, 4))) (K (xp c, some (3, 4))) (owedF c 4) (owedF c 5)
      (by rw [owedF_succ' c 4 (by decide)]; rfl) W7) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 4 (by decide)) $$ [AccCFS Hc]
  · isplitl [AccCFS]; · iexact AccCFS
    iexact Hc
  -- step 80: copy src=arg0[(k0_off6 d0)] dst=arg6[![1, 0, 0]] sem=arg7[1]
  first | sl_exec | skip
  ihave Hs := (Entails.of_eq (take_step (famXL m c) 1 (by decide))) $$ [FxL]
  · iexact FxL
  icases Hs with ⟨Hxl, FxL⟩
  ihave #HIl := (Prep.inv_ls m KL c 1) $$ HIL
  iapply (Rounds.wp_copy_pointsTo 𝒱₀ ER (rd m) (c : Thread nD τ) none (src := lSrc c 1) (dst := vSlot 1) (sem := .dma (lsS 1)) (q := fullShare) (fs := xC m c) (fd := fv)
      (r := 0) (d := false) (κ := KL (c, 1)) (by rw [duties_ls m c 1 0 (by decide)]; exact Finset.mem_singleton_self _) () NV rfl (amount_ld m c 1 0 false)
      (by rw [payload_ls, vLand_pts m c 1 1 (fv)]; exact BI.Entails.refl _)) $$ [Hxl Hv1 Htl1_0]
  · isplitr; · iexact HIl
    isplitl [Hxl]; · iexact Hxl
    isplitl [Hv1]; · iexact Hv1
    isplitl [Htl1_0]; · iexact Htl1_0
    iexact HRl1
  iclear HIl
  iintro Hc_l1
  -- step 81: wait arg7[1] (arg0[(k0_off6 d0)], arg6[![1, 0, 0]])
  first | sl_exec | skip
  ihave #HIw := (Prep.inv_ls m KL c 1) $$ HIL
  iapply (Rounds.wp_wait_rest_token 𝒱₀ ER (rd m) (c : Thread nD τ) none (κ := KL (c, 1)) (sm := .dma (lsS 1))
      (wpE_waitDma2_eq 𝒱₀ (c : Thread nD τ) none Set.univ (src := lSrc c 1) (dst := vSlot 1)) (Set.mem_univ _) () (O := owedF c 5) (W := W7) (R := 0) (m := 0) (T := ∅)
      (by rw [Nat.zero_add]; exact (expect_ld m c 1 0 (by decide)).symm)) $$ [Hc_l1 HO Hat_l1]
  · isplitr; · iexact HIw
    isplitl [Hc_l1]; · iexact Hc_l1
    isplitl [HO]; · iexact HO
    isplitr
    · iapply (mayWait_of_above c (.dma (lsS 1)) _ (by rw [show lv ((c : Thread nD τ), SemLoc.dma (lsS 1)) () = 0 from lv_ls c 1]; exact above_owedF c 5 (by decide)))
      iexact Hlev
    iexact Hat_l1
  iclear HIw
  iclear HRl1
  iintro ⟨HO, Hat_l1, #HRl1, Hpay⟩
  ihave Hp := (Entails.of_eq (rest_ld1 m c 0 (by decide))) $$ Hpay
  icases Hp with ⟨Hv1, Hxlq⟩
  ihave AccXL := (acc_step (famXL m c) 1 (by decide)) $$ [AccXL Hxlq]
  · isplitl [AccXL]; · iexact AccXL
    iexact Hxlq
  ihave HOe : iprop(∃ W' : Waits sig Unit, owes (c : Thread nD τ) _ W') $$ [HO]
  · iexists _; iexact HO
  icases HOe with ⟨%W8, HO⟩
  -- step 82: copy src=arg6[![1, 0, 0]] dst=arg1[(k0_off5 d0 512#32)] sem=arg7[3]
  first | sl_exec | skip
  ihave Hs := (Entails.of_eq (take_step (famOL0 m c) 1 (by decide))) $$ [FoL]
  · iexact FoL
  icases Hs with ⟨Hol, FoL⟩
  ihave #HIl := (Prep.inv_ls m KL c 3) $$ HIL
  iapply (Rounds.wp_copy_pointsTo 𝒱₀ ER (rd m) (c : Thread nD τ) none (src := vSlot 1) (dst := lDst c 1) (sem := .dma (lsS 3)) (q := fullShare) (fs := VC m c 1) (fd := o0 m c)
      (r := 0) (d := false) (κ := KL (c, 3)) (by rw [duties_ls m c 3 0 (by decide)]; exact Finset.mem_singleton_self _) () NO rfl (amount_st m c 1 0 false)
      (by rw [payload_ls, lLandV_pts m c 1 1 (o0 m c)]; exact BI.Entails.refl _)) $$ [Hv1 Hol Htl3_0]
  · isplitr; · iexact HIl
    isplitl [Hv1]; · iexact Hv1
    isplitl [Hol]; · iexact Hol
    isplitl [Htl3_0]; · iexact Htl3_0
    iexact HRl3
  iclear HIl
  iintro Hc_l3
  -- step 83: wait arg3[5] (arg0[(k0_off2 d0 320#32)], arg1[(k0_off1 d0 320#32)])
  first | sl_exec | skip
  ihave Hs := (Entails.of_eq (take_step (famCYR (F := F) c) 5 (by decide))) $$ [FcYR]
  · iexact FcYR
  icases Hs with ⟨Hc, FcYR⟩
  ihave Hs := (Entails.of_eq (take_step (famAtYR (F := F) c) 5 (by decide))) $$ [FatYR]
  · iexact FatYR
  icases Hs with ⟨Hat, FatYR⟩
  ihave #HIw := (Prep.inv_yr m K c 5) $$ HI
  iapply (Rounds.wp_wait_rest_token 𝒱₀ ER (rd m) (c : Thread nD τ) none (κ := K (c, some (1, 5))) (sm := .dma (yrS 5))
      (wpE_waitDma2_eq 𝒱₀ (c : Thread nD τ) none Set.univ (src := ySrc c 5) (dst := yDst c 5)) (Set.mem_univ _) () (O := owedF c 5) (W := W8) (R := 0) (m := 0) (T := ∅)
      (by rw [Nat.zero_add]; exact (expect_yr m c 5).symm)) $$ [Hc HO Hat]
  · isplitr; · iexact HIw
    isplitl [Hc]; · iexact Hc
    isplitl [HO]; · iexact HO
    isplitr
    · iapply (mayWait_of_above c (.dma (yrS 5)) _ (by rw [show lv ((c : Thread nD τ), SemLoc.dma (yrS 5)) () = 2 from lv_yr c 5]; exact above_owedF c 5 (by decide)))
      iexact Hlev
    iexact Hat
  iclear HIw
  iintro ⟨HO, Hat, -, Hpay⟩
  ihave HYk := (Entails.of_eq (rest_yr' m c 5)) $$ Hpay
  ihave #HIx := (Prep.inv_yr m K c 5) $$ HI
  imod (Rounds.cell_close ER (rd m) (Set.mem_univ (K (c, some (1, 5)))) (fun h => h) (R := 0 + 1) (duties_yr_later m c 5)) $$ [Hat] with Hz
  · isplitr; · iexact HIx
    iexact Hat
  iclear HIx
  ihave AccZyr := (acc_step (famZyr (F := F) c) 5 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W9, HO⟩
  -- step 84: send k0_dev72 src=arg1[(k0_off3 d0 320#32)] dst=arg1[(k0_off3 d0 320#32)] ssem=arg4[5] rsem=arg5[5]
  first | sl_exec | skip
  ihave Hs := (Entails.of_eq (take_step (famTFS (F := F) c) 5 (by decide))) $$ [FtFS]
  · iexact FtFS
  icases Hs with ⟨Ht1, FtFS⟩
  ihave Hs := (Entails.of_eq (take_step (famTFRP (F := F) c) 5 (by decide))) $$ [FtFRP]
  · iexact FtFRP
  icases Hs with ⟨Ht2, FtFRP⟩
  ihave Hs := (Entails.of_eq (take_step (famDF m c) 5 (by decide))) $$ [FdF]
  · iexact FdF
  icases Hs with ⟨Hd, FdF⟩
  ihave #HI1 := (Prep.inv_fs m K c 5) $$ HI
  ihave #HI2 := (Prep.inv_fr m K (xp c) 5) $$ HI
  ihave #HR1 := (Prep.reached_fs (F := F) c 5) $$ HR
  ihave #HR2 := (Prep.reached_fr (F := F) (xp c) 5) $$ HR
  iapply (wp_fsend m c _ (dev72_eq c) 5 (K (c, some (2, 5))) (K (xp c, some (3, 5))) (owedF c 5) (owedF c 6)
      (by rw [owedF_succ' c 5 (by decide)]; rfl) W9) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 5 (by decide)) $$ [AccCFS Hc]
  · isplitl [AccCFS]; · iexact AccCFS
    iexact Hc
  -- step 85: wait arg3[6] (arg0[(k0_off2 d0 384#32)], arg1[(k0_off1 d0 384#32)])
  first | sl_exec | skip
  ihave Hs := (Entails.of_eq (take_step (famCYR (F := F) c) 6 (by decide))) $$ [FcYR]
  · iexact FcYR
  icases Hs with ⟨Hc, FcYR⟩
  ihave Hs := (Entails.of_eq (take_step (famAtYR (F := F) c) 6 (by decide))) $$ [FatYR]
  · iexact FatYR
  icases Hs with ⟨Hat, FatYR⟩
  ihave #HIw := (Prep.inv_yr m K c 6) $$ HI
  iapply (Rounds.wp_wait_rest_token 𝒱₀ ER (rd m) (c : Thread nD τ) none (κ := K (c, some (1, 6))) (sm := .dma (yrS 6))
      (wpE_waitDma2_eq 𝒱₀ (c : Thread nD τ) none Set.univ (src := ySrc c 6) (dst := yDst c 6)) (Set.mem_univ _) () (O := owedF c 6) (W := W9) (R := 0) (m := 0) (T := ∅)
      (by rw [Nat.zero_add]; exact (expect_yr m c 6).symm)) $$ [Hc HO Hat]
  · isplitr; · iexact HIw
    isplitl [Hc]; · iexact Hc
    isplitl [HO]; · iexact HO
    isplitr
    · iapply (mayWait_of_above c (.dma (yrS 6)) _ (by rw [show lv ((c : Thread nD τ), SemLoc.dma (yrS 6)) () = 2 from lv_yr c 6]; exact above_owedF c 6 (by decide)))
      iexact Hlev
    iexact Hat
  iclear HIw
  iintro ⟨HO, Hat, -, Hpay⟩
  ihave HYk := (Entails.of_eq (rest_yr' m c 6)) $$ Hpay
  ihave #HIx := (Prep.inv_yr m K c 6) $$ HI
  imod (Rounds.cell_close ER (rd m) (Set.mem_univ (K (c, some (1, 6)))) (fun h => h) (R := 0 + 1) (duties_yr_later m c 6)) $$ [Hat] with Hz
  · isplitr; · iexact HIx
    iexact Hat
  iclear HIx
  ihave AccZyr := (acc_step (famZyr (F := F) c) 6 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W10, HO⟩
  -- step 86: send k0_dev73 src=arg1[(k0_off3 d0 384#32)] dst=arg1[(k0_off3 d0 384#32)] ssem=arg4[6] rsem=arg5[6]
  first | sl_exec | skip
  ihave Hs := (Entails.of_eq (take_step (famTFS (F := F) c) 6 (by decide))) $$ [FtFS]
  · iexact FtFS
  icases Hs with ⟨Ht1, FtFS⟩
  ihave Hs := (Entails.of_eq (take_step (famTFRP (F := F) c) 6 (by decide))) $$ [FtFRP]
  · iexact FtFRP
  icases Hs with ⟨Ht2, FtFRP⟩
  ihave Hs := (Entails.of_eq (take_step (famDF m c) 6 (by decide))) $$ [FdF]
  · iexact FdF
  icases Hs with ⟨Hd, FdF⟩
  ihave #HI1 := (Prep.inv_fs m K c 6) $$ HI
  ihave #HI2 := (Prep.inv_fr m K (xp c) 6) $$ HI
  ihave #HR1 := (Prep.reached_fs (F := F) c 6) $$ HR
  ihave #HR2 := (Prep.reached_fr (F := F) (xp c) 6) $$ HR
  iapply (wp_fsend m c _ (dev73_eq c) 6 (K (c, some (2, 6))) (K (xp c, some (3, 6))) (owedF c 6) (owedF c 7)
      (by rw [owedF_succ' c 6 (by decide)]; rfl) W10) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 6 (by decide)) $$ [AccCFS Hc]
  · isplitl [AccCFS]; · iexact AccCFS
    iexact Hc
  -- step 87: wait arg3[7] (arg0[(k0_off2 d0 448#32)], arg1[(k0_off1 d0 448#32)])
  first | sl_exec | skip
  ihave Hs := (Entails.of_eq (take_step (famCYR (F := F) c) 7 (by decide))) $$ [FcYR]
  · iexact FcYR
  icases Hs with ⟨Hc, FcYR⟩
  ihave Hs := (Entails.of_eq (take_step (famAtYR (F := F) c) 7 (by decide))) $$ [FatYR]
  · iexact FatYR
  icases Hs with ⟨Hat, FatYR⟩
  ihave #HIw := (Prep.inv_yr m K c 7) $$ HI
  iapply (Rounds.wp_wait_rest_token 𝒱₀ ER (rd m) (c : Thread nD τ) none (κ := K (c, some (1, 7))) (sm := .dma (yrS 7))
      (wpE_waitDma2_eq 𝒱₀ (c : Thread nD τ) none Set.univ (src := ySrc c 7) (dst := yDst c 7)) (Set.mem_univ _) () (O := owedF c 7) (W := W10) (R := 0) (m := 0) (T := ∅)
      (by rw [Nat.zero_add]; exact (expect_yr m c 7).symm)) $$ [Hc HO Hat]
  · isplitr; · iexact HIw
    isplitl [Hc]; · iexact Hc
    isplitl [HO]; · iexact HO
    isplitr
    · iapply (mayWait_of_above c (.dma (yrS 7)) _ (by rw [show lv ((c : Thread nD τ), SemLoc.dma (yrS 7)) () = 2 from lv_yr c 7]; exact above_owedF c 7 (by decide)))
      iexact Hlev
    iexact Hat
  iclear HIw
  iintro ⟨HO, Hat, -, Hpay⟩
  ihave HYk := (Entails.of_eq (rest_yr' m c 7)) $$ Hpay
  ihave #HIx := (Prep.inv_yr m K c 7) $$ HI
  imod (Rounds.cell_close ER (rd m) (Set.mem_univ (K (c, some (1, 7)))) (fun h => h) (R := 0 + 1) (duties_yr_later m c 7)) $$ [Hat] with Hz
  · isplitr; · iexact HIx
    iexact Hat
  iclear HIx
  ihave AccZyr := (acc_step (famZyr (F := F) c) 7 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W11, HO⟩
  -- step 88: send k0_dev74 src=arg1[(k0_off3 d0 448#32)] dst=arg1[(k0_off3 d0 448#32)] ssem=arg4[7] rsem=arg5[7]
  first | sl_exec | skip
  ihave Hs := (Entails.of_eq (take_step (famTFS (F := F) c) 7 (by decide))) $$ [FtFS]
  · iexact FtFS
  icases Hs with ⟨Ht1, FtFS⟩
  ihave Hs := (Entails.of_eq (take_step (famTFRP (F := F) c) 7 (by decide))) $$ [FtFRP]
  · iexact FtFRP
  icases Hs with ⟨Ht2, FtFRP⟩
  ihave Hs := (Entails.of_eq (take_step (famDF m c) 7 (by decide))) $$ [FdF]
  · iexact FdF
  icases Hs with ⟨Hd, FdF⟩
  ihave #HI1 := (Prep.inv_fs m K c 7) $$ HI
  ihave #HI2 := (Prep.inv_fr m K (xp c) 7) $$ HI
  ihave #HR1 := (Prep.reached_fs (F := F) c 7) $$ HR
  ihave #HR2 := (Prep.reached_fr (F := F) (xp c) 7) $$ HR
  iapply (wp_fsend m c _ (dev74_eq c) 7 (K (c, some (2, 7))) (K (xp c, some (3, 7))) (owedF c 7) (owedF c 8)
      (by rw [owedF_succ' c 7 (by decide)]; rfl) W11) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 7 (by decide)) $$ [AccCFS Hc]
  · isplitl [AccCFS]; · iexact AccCFS
    iexact Hc
  -- step 89: wait arg3[8] (arg0[(k0_off2 d0 512#32)], arg1[(k0_off1 d0 512#32)])
  first | sl_exec | skip
  ihave Hs := (Entails.of_eq (take_step (famCYR (F := F) c) 8 (by decide))) $$ [FcYR]
  · iexact FcYR
  icases Hs with ⟨Hc, FcYR⟩
  ihave Hs := (Entails.of_eq (take_step (famAtYR (F := F) c) 8 (by decide))) $$ [FatYR]
  · iexact FatYR
  icases Hs with ⟨Hat, FatYR⟩
  ihave #HIw := (Prep.inv_yr m K c 8) $$ HI
  iapply (Rounds.wp_wait_rest_token 𝒱₀ ER (rd m) (c : Thread nD τ) none (κ := K (c, some (1, 8))) (sm := .dma (yrS 8))
      (wpE_waitDma2_eq 𝒱₀ (c : Thread nD τ) none Set.univ (src := ySrc c 8) (dst := yDst c 8)) (Set.mem_univ _) () (O := owedF c 8) (W := W11) (R := 0) (m := 0) (T := ∅)
      (by rw [Nat.zero_add]; exact (expect_yr m c 8).symm)) $$ [Hc HO Hat]
  · isplitr; · iexact HIw
    isplitl [Hc]; · iexact Hc
    isplitl [HO]; · iexact HO
    isplitr
    · iapply (mayWait_of_above c (.dma (yrS 8)) _ (by rw [show lv ((c : Thread nD τ), SemLoc.dma (yrS 8)) () = 2 from lv_yr c 8]; exact above_owedF c 8 (by decide)))
      iexact Hlev
    iexact Hat
  iclear HIw
  iintro ⟨HO, Hat, -, Hpay⟩
  ihave HYk := (Entails.of_eq (rest_yr' m c 8)) $$ Hpay
  ihave #HIx := (Prep.inv_yr m K c 8) $$ HI
  imod (Rounds.cell_close ER (rd m) (Set.mem_univ (K (c, some (1, 8)))) (fun h => h) (R := 0 + 1) (duties_yr_later m c 8)) $$ [Hat] with Hz
  · isplitr; · iexact HIx
    iexact Hat
  iclear HIx
  ihave AccZyr := (acc_step (famZyr (F := F) c) 8 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W12, HO⟩
  -- step 90: send k0_dev75 src=arg1[(k0_off3 d0 512#32)] dst=arg1[(k0_off3 d0 512#32)] ssem=arg4[8] rsem=arg5[8]
  first | sl_exec | skip
  ihave Hs := (Entails.of_eq (take_step (famTFS (F := F) c) 8 (by decide))) $$ [FtFS]
  · iexact FtFS
  icases Hs with ⟨Ht1, FtFS⟩
  ihave Hs := (Entails.of_eq (take_step (famTFRP (F := F) c) 8 (by decide))) $$ [FtFRP]
  · iexact FtFRP
  icases Hs with ⟨Ht2, FtFRP⟩
  ihave Hs := (Entails.of_eq (take_step (famDF m c) 8 (by decide))) $$ [FdF]
  · iexact FdF
  icases Hs with ⟨Hd, FdF⟩
  ihave #HI1 := (Prep.inv_fs m K c 8) $$ HI
  ihave #HI2 := (Prep.inv_fr m K (xp c) 8) $$ HI
  ihave #HR1 := (Prep.reached_fs (F := F) c 8) $$ HR
  ihave #HR2 := (Prep.reached_fr (F := F) (xp c) 8) $$ HR
  iapply (wp_fsend m c _ (dev75_eq c) 8 (K (c, some (2, 8))) (K (xp c, some (3, 8))) (owedF c 8) (owedF c 9)
      (by rw [owedF_succ' c 8 (by decide)]; rfl) W12) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 8 (by decide)) $$ [AccCFS Hc]
  · isplitl [AccCFS]; · iexact AccCFS
    iexact Hc
  -- step 91: wait arg7[2] (arg6[![0, 0, 0]], arg1[(k0_off5 d0 0#32)])
  first | sl_exec | skip
  ihave #HIw := (Prep.inv_ls m KL c 2) $$ HIL
  iapply (Rounds.wp_wait_rest_token 𝒱₀ ER (rd m) (c : Thread nD τ) none (κ := KL (c, 2)) (sm := .dma (lsS 2))
      (wpE_waitDma2_eq 𝒱₀ (c : Thread nD τ) none Set.univ (src := vSlot 0) (dst := lDst c 0)) (Set.mem_univ _) () (O := owedF c 9) (W := W12) (R := 0) (m := 0) (T := ∅)
      (by rw [Nat.zero_add]; exact (expect_st m c 0 0 (by decide)).symm)) $$ [Hc_l2 HO Hat_l2]
  · isplitr; · iexact HIw
    isplitl [Hc_l2]; · iexact Hc_l2
    isplitl [HO]; · iexact HO
    isplitr
    · iapply (mayWait_of_above c (.dma (lsS 2)) _ (by rw [show lv ((c : Thread nD τ), SemLoc.dma (lsS 2)) () = 0 from lv_ls c 2]; exact above_owedF c 9 (by decide)))
      iexact Hlev
    iexact Hat_l2
  iclear HIw
  iclear HRl2
  iintro ⟨HO, Hat_l2, #HRl2, Hpay⟩
  ihave Hp := (Entails.of_eq (rest_st0 m c 0 (by decide))) $$ Hpay
  icases Hp with ⟨Holq, Hv0⟩
  ihave AccOL := (acc_one (famOL m c) (by decide)) $$ [Holq]
  · iexact Holq
  ihave HOe : iprop(∃ W' : Waits sig Unit, owes (c : Thread nD τ) _ W') $$ [HO]
  · iexists _; iexact HO
  icases HOe with ⟨%W13, HO⟩
  -- step 92: copy src=arg0[(k0_off7 d0)] dst=arg6[![0, 0, 0]] sem=arg7[0]
  first | sl_exec | skip
  ihave Hs := (Entails.of_eq (take_step (famXL m c) 2 (by decide))) $$ [FxL]
  · iexact FxL
  icases Hs with ⟨Hxl, FxL⟩
  ihave #HIl := (Prep.inv_ls m KL c 0) $$ HIL
  iapply (Rounds.wp_copy_pointsTo 𝒱₀ ER (rd m) (c : Thread nD τ) none (src := lSrc c 2) (dst := vSlot 0) (sem := .dma (lsS 0)) (q := fullShare) (fs := xC m c) (fd := VC m c 0)
      (r := 1) (d := false) (κ := KL (c, 0)) (by rw [duties_ls m c 0 1 (by decide)]; exact Finset.mem_singleton_self _) () NV rfl (amount_ld m c 0 1 false)
      (by rw [payload_ls, vLand_pts m c 2 0 (VC m c 0)]; exact BI.Entails.refl _)) $$ [Hxl Hv0 Htl0_1]
  · isplitr; · iexact HIl
    isplitl [Hxl]; · iexact Hxl
    isplitl [Hv0]; · iexact Hv0
    isplitl [Htl0_1]; · iexact Htl0_1
    iexact HRl0
  iclear HIl
  iintro Hc_l0
  -- step 93: wait arg7[0] (arg0[(k0_off7 d0)], arg6[![0, 0, 0]])
  first | sl_exec | skip
  ihave #HIw := (Prep.inv_ls m KL c 0) $$ HIL
  iapply (Rounds.wp_wait_rest_token 𝒱₀ ER (rd m) (c : Thread nD τ) none (κ := KL (c, 0)) (sm := .dma (lsS 0))
      (wpE_waitDma2_eq 𝒱₀ (c : Thread nD τ) none Set.univ (src := lSrc c 2) (dst := vSlot 0)) (Set.mem_univ _) () (O := owedF c 9) (W := W13) (R := 1) (m := 0) (T := ∅)
      (by rw [Nat.zero_add]; exact (expect_ld m c 0 1 (by decide)).symm)) $$ [Hc_l0 HO Hat_l0]
  · isplitr; · iexact HIw
    isplitl [Hc_l0]; · iexact Hc_l0
    isplitl [HO]; · iexact HO
    isplitr
    · iapply (mayWait_of_above c (.dma (lsS 0)) _ (by rw [show lv ((c : Thread nD τ), SemLoc.dma (lsS 0)) () = 0 from lv_ls c 0]; exact above_owedF c 9 (by decide)))
      iexact Hlev
    iexact Hat_l0
  iclear HIw
  iclear HRl0
  iintro ⟨HO, Hat_l0, #HRl0, Hpay⟩
  ihave Hp := (Entails.of_eq (rest_ld0 m c 1 (by decide))) $$ Hpay
  icases Hp with ⟨Hv0, Hxlq⟩
  ihave AccXL := (acc_step (famXL m c) 2 (by decide)) $$ [AccXL Hxlq]
  · isplitl [AccXL]; · iexact AccXL
    iexact Hxlq
  ihave HOe : iprop(∃ W' : Waits sig Unit, owes (c : Thread nD τ) _ W') $$ [HO]
  · iexists _; iexact HO
  icases HOe with ⟨%W14, HO⟩
  -- step 94: copy src=arg6[![0, 0, 0]] dst=arg1[(k0_off5 d0 1024#32)] sem=arg7[2]
  first | sl_exec | skip
  ihave Hs := (Entails.of_eq (take_step (famOL0 m c) 2 (by decide))) $$ [FoL]
  · iexact FoL
  icases Hs with ⟨Hol, FoL⟩
  ihave #HIl := (Prep.inv_ls m KL c 2) $$ HIL
  iapply (Rounds.wp_copy_pointsTo 𝒱₀ ER (rd m) (c : Thread nD τ) none (src := vSlot 0) (dst := lDst c 2) (sem := .dma (lsS 2)) (q := fullShare) (fs := VC m c 2) (fd := o0 m c)
      (r := 1) (d := false) (κ := KL (c, 2)) (by rw [duties_ls m c 2 1 (by decide)]; exact Finset.mem_singleton_self _) () NO rfl (amount_st m c 0 1 false)
      (by rw [payload_ls, lLandV_pts m c 2 0 (o0 m c)]; exact BI.Entails.refl _)) $$ [Hv0 Hol Htl2_1]
  · isplitr; · iexact HIl
    isplitl [Hv0]; · iexact Hv0
    isplitl [Hol]; · iexact Hol
    isplitl [Htl2_1]; · iexact Htl2_1
    iexact HRl2
  iclear HIl
  iintro Hc_l2
  -- step 95: wait arg3[9] (arg0[(k0_off2 d0 576#32)], arg1[(k0_off1 d0 576#32)])
  first | sl_exec | skip
  ihave Hs := (Entails.of_eq (take_step (famCYR (F := F) c) 9 (by decide))) $$ [FcYR]
  · iexact FcYR
  icases Hs with ⟨Hc, FcYR⟩
  ihave Hs := (Entails.of_eq (take_step (famAtYR (F := F) c) 9 (by decide))) $$ [FatYR]
  · iexact FatYR
  icases Hs with ⟨Hat, FatYR⟩
  ihave #HIw := (Prep.inv_yr m K c 9) $$ HI
  iapply (Rounds.wp_wait_rest_token 𝒱₀ ER (rd m) (c : Thread nD τ) none (κ := K (c, some (1, 9))) (sm := .dma (yrS 9))
      (wpE_waitDma2_eq 𝒱₀ (c : Thread nD τ) none Set.univ (src := ySrc c 9) (dst := yDst c 9)) (Set.mem_univ _) () (O := owedF c 9) (W := W14) (R := 0) (m := 0) (T := ∅)
      (by rw [Nat.zero_add]; exact (expect_yr m c 9).symm)) $$ [Hc HO Hat]
  · isplitr; · iexact HIw
    isplitl [Hc]; · iexact Hc
    isplitl [HO]; · iexact HO
    isplitr
    · iapply (mayWait_of_above c (.dma (yrS 9)) _ (by rw [show lv ((c : Thread nD τ), SemLoc.dma (yrS 9)) () = 2 from lv_yr c 9]; exact above_owedF c 9 (by decide)))
      iexact Hlev
    iexact Hat
  iclear HIw
  iintro ⟨HO, Hat, -, Hpay⟩
  ihave HYk := (Entails.of_eq (rest_yr' m c 9)) $$ Hpay
  ihave #HIx := (Prep.inv_yr m K c 9) $$ HI
  imod (Rounds.cell_close ER (rd m) (Set.mem_univ (K (c, some (1, 9)))) (fun h => h) (R := 0 + 1) (duties_yr_later m c 9)) $$ [Hat] with Hz
  · isplitr; · iexact HIx
    iexact Hat
  iclear HIx
  ihave AccZyr := (acc_step (famZyr (F := F) c) 9 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W15, HO⟩
  -- step 96: send k0_dev76 src=arg1[(k0_off3 d0 576#32)] dst=arg1[(k0_off3 d0 576#32)] ssem=arg4[9] rsem=arg5[9]
  first | sl_exec | skip
  ihave Hs := (Entails.of_eq (take_step (famTFS (F := F) c) 9 (by decide))) $$ [FtFS]
  · iexact FtFS
  icases Hs with ⟨Ht1, FtFS⟩
  ihave Hs := (Entails.of_eq (take_step (famTFRP (F := F) c) 9 (by decide))) $$ [FtFRP]
  · iexact FtFRP
  icases Hs with ⟨Ht2, FtFRP⟩
  ihave Hs := (Entails.of_eq (take_step (famDF m c) 9 (by decide))) $$ [FdF]
  · iexact FdF
  icases Hs with ⟨Hd, FdF⟩
  ihave #HI1 := (Prep.inv_fs m K c 9) $$ HI
  ihave #HI2 := (Prep.inv_fr m K (xp c) 9) $$ HI
  ihave #HR1 := (Prep.reached_fs (F := F) c 9) $$ HR
  ihave #HR2 := (Prep.reached_fr (F := F) (xp c) 9) $$ HR
  iapply (wp_fsend m c _ (dev76_eq c) 9 (K (c, some (2, 9))) (K (xp c, some (3, 9))) (owedF c 9) (owedF c 10)
      (by rw [owedF_succ' c 9 (by decide)]; rfl) W15) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 9 (by decide)) $$ [AccCFS Hc]
  · isplitl [AccCFS]; · iexact AccCFS
    iexact Hc
  -- step 97: wait arg3[10] (arg0[(k0_off2 d0 640#32)], arg1[(k0_off1 d0 640#32)])
  first | sl_exec | skip
  ihave Hs := (Entails.of_eq (take_step (famCYR (F := F) c) 10 (by decide))) $$ [FcYR]
  · iexact FcYR
  icases Hs with ⟨Hc, FcYR⟩
  ihave Hs := (Entails.of_eq (take_step (famAtYR (F := F) c) 10 (by decide))) $$ [FatYR]
  · iexact FatYR
  icases Hs with ⟨Hat, FatYR⟩
  ihave #HIw := (Prep.inv_yr m K c 10) $$ HI
  iapply (Rounds.wp_wait_rest_token 𝒱₀ ER (rd m) (c : Thread nD τ) none (κ := K (c, some (1, 10))) (sm := .dma (yrS 10))
      (wpE_waitDma2_eq 𝒱₀ (c : Thread nD τ) none Set.univ (src := ySrc c 10) (dst := yDst c 10)) (Set.mem_univ _) () (O := owedF c 10) (W := W15) (R := 0) (m := 0) (T := ∅)
      (by rw [Nat.zero_add]; exact (expect_yr m c 10).symm)) $$ [Hc HO Hat]
  · isplitr; · iexact HIw
    isplitl [Hc]; · iexact Hc
    isplitl [HO]; · iexact HO
    isplitr
    · iapply (mayWait_of_above c (.dma (yrS 10)) _ (by rw [show lv ((c : Thread nD τ), SemLoc.dma (yrS 10)) () = 2 from lv_yr c 10]; exact above_owedF c 10 (by decide)))
      iexact Hlev
    iexact Hat
  iclear HIw
  iintro ⟨HO, Hat, -, Hpay⟩
  ihave HYk := (Entails.of_eq (rest_yr' m c 10)) $$ Hpay
  ihave #HIx := (Prep.inv_yr m K c 10) $$ HI
  imod (Rounds.cell_close ER (rd m) (Set.mem_univ (K (c, some (1, 10)))) (fun h => h) (R := 0 + 1) (duties_yr_later m c 10)) $$ [Hat] with Hz
  · isplitr; · iexact HIx
    iexact Hat
  iclear HIx
  ihave AccZyr := (acc_step (famZyr (F := F) c) 10 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W16, HO⟩
  -- step 98: send k0_dev77 src=arg1[(k0_off3 d0 640#32)] dst=arg1[(k0_off3 d0 640#32)] ssem=arg4[10] rsem=arg5[10]
  first | sl_exec | skip
  ihave Hs := (Entails.of_eq (take_step (famTFS (F := F) c) 10 (by decide))) $$ [FtFS]
  · iexact FtFS
  icases Hs with ⟨Ht1, FtFS⟩
  ihave Hs := (Entails.of_eq (take_step (famTFRP (F := F) c) 10 (by decide))) $$ [FtFRP]
  · iexact FtFRP
  icases Hs with ⟨Ht2, FtFRP⟩
  ihave Hs := (Entails.of_eq (take_step (famDF m c) 10 (by decide))) $$ [FdF]
  · iexact FdF
  icases Hs with ⟨Hd, FdF⟩
  ihave #HI1 := (Prep.inv_fs m K c 10) $$ HI
  ihave #HI2 := (Prep.inv_fr m K (xp c) 10) $$ HI
  ihave #HR1 := (Prep.reached_fs (F := F) c 10) $$ HR
  ihave #HR2 := (Prep.reached_fr (F := F) (xp c) 10) $$ HR
  iapply (wp_fsend m c _ (dev77_eq c) 10 (K (c, some (2, 10))) (K (xp c, some (3, 10))) (owedF c 10) (owedF c 11)
      (by rw [owedF_succ' c 10 (by decide)]; rfl) W16) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 10 (by decide)) $$ [AccCFS Hc]
  · isplitl [AccCFS]; · iexact AccCFS
    iexact Hc
  -- step 99: wait arg3[11] (arg0[(k0_off2 d0 704#32)], arg1[(k0_off1 d0 704#32)])
  first | sl_exec | skip
  ihave Hs := (Entails.of_eq (take_step (famCYR (F := F) c) 11 (by decide))) $$ [FcYR]
  · iexact FcYR
  icases Hs with ⟨Hc, FcYR⟩
  ihave Hs := (Entails.of_eq (take_step (famAtYR (F := F) c) 11 (by decide))) $$ [FatYR]
  · iexact FatYR
  icases Hs with ⟨Hat, FatYR⟩
  ihave #HIw := (Prep.inv_yr m K c 11) $$ HI
  iapply (Rounds.wp_wait_rest_token 𝒱₀ ER (rd m) (c : Thread nD τ) none (κ := K (c, some (1, 11))) (sm := .dma (yrS 11))
      (wpE_waitDma2_eq 𝒱₀ (c : Thread nD τ) none Set.univ (src := ySrc c 11) (dst := yDst c 11)) (Set.mem_univ _) () (O := owedF c 11) (W := W16) (R := 0) (m := 0) (T := ∅)
      (by rw [Nat.zero_add]; exact (expect_yr m c 11).symm)) $$ [Hc HO Hat]
  · isplitr; · iexact HIw
    isplitl [Hc]; · iexact Hc
    isplitl [HO]; · iexact HO
    isplitr
    · iapply (mayWait_of_above c (.dma (yrS 11)) _ (by rw [show lv ((c : Thread nD τ), SemLoc.dma (yrS 11)) () = 2 from lv_yr c 11]; exact above_owedF c 11 (by decide)))
      iexact Hlev
    iexact Hat
  iclear HIw
  iintro ⟨HO, Hat, -, Hpay⟩
  ihave HYk := (Entails.of_eq (rest_yr' m c 11)) $$ Hpay
  ihave #HIx := (Prep.inv_yr m K c 11) $$ HI
  imod (Rounds.cell_close ER (rd m) (Set.mem_univ (K (c, some (1, 11)))) (fun h => h) (R := 0 + 1) (duties_yr_later m c 11)) $$ [Hat] with Hz
  · isplitr; · iexact HIx
    iexact Hat
  iclear HIx
  ihave AccZyr := (acc_step (famZyr (F := F) c) 11 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W17, HO⟩
  -- step 100: send k0_dev78 src=arg1[(k0_off3 d0 704#32)] dst=arg1[(k0_off3 d0 704#32)] ssem=arg4[11] rsem=arg5[11]
  first | sl_exec | skip
  ihave Hs := (Entails.of_eq (take_step (famTFS (F := F) c) 11 (by decide))) $$ [FtFS]
  · iexact FtFS
  icases Hs with ⟨Ht1, FtFS⟩
  ihave Hs := (Entails.of_eq (take_step (famTFRP (F := F) c) 11 (by decide))) $$ [FtFRP]
  · iexact FtFRP
  icases Hs with ⟨Ht2, FtFRP⟩
  ihave Hs := (Entails.of_eq (take_step (famDF m c) 11 (by decide))) $$ [FdF]
  · iexact FdF
  icases Hs with ⟨Hd, FdF⟩
  ihave #HI1 := (Prep.inv_fs m K c 11) $$ HI
  ihave #HI2 := (Prep.inv_fr m K (xp c) 11) $$ HI
  ihave #HR1 := (Prep.reached_fs (F := F) c 11) $$ HR
  ihave #HR2 := (Prep.reached_fr (F := F) (xp c) 11) $$ HR
  iapply (wp_fsend m c _ (dev78_eq c) 11 (K (c, some (2, 11))) (K (xp c, some (3, 11))) (owedF c 11) (owedF c 12)
      (by rw [owedF_succ' c 11 (by decide)]; rfl) W17) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 11 (by decide)) $$ [AccCFS Hc]
  · isplitl [AccCFS]; · iexact AccCFS
    iexact Hc
  -- step 101: wait arg3[12] (arg0[(k0_off2 d0 768#32)], arg1[(k0_off1 d0 768#32)])
  first | sl_exec | skip
  ihave Hs := (Entails.of_eq (take_step (famCYR (F := F) c) 12 (by decide))) $$ [FcYR]
  · iexact FcYR
  icases Hs with ⟨Hc, FcYR⟩
  ihave Hs := (Entails.of_eq (take_step (famAtYR (F := F) c) 12 (by decide))) $$ [FatYR]
  · iexact FatYR
  icases Hs with ⟨Hat, FatYR⟩
  ihave #HIw := (Prep.inv_yr m K c 12) $$ HI
  iapply (Rounds.wp_wait_rest_token 𝒱₀ ER (rd m) (c : Thread nD τ) none (κ := K (c, some (1, 12))) (sm := .dma (yrS 12))
      (wpE_waitDma2_eq 𝒱₀ (c : Thread nD τ) none Set.univ (src := ySrc c 12) (dst := yDst c 12)) (Set.mem_univ _) () (O := owedF c 12) (W := W17) (R := 0) (m := 0) (T := ∅)
      (by rw [Nat.zero_add]; exact (expect_yr m c 12).symm)) $$ [Hc HO Hat]
  · isplitr; · iexact HIw
    isplitl [Hc]; · iexact Hc
    isplitl [HO]; · iexact HO
    isplitr
    · iapply (mayWait_of_above c (.dma (yrS 12)) _ (by rw [show lv ((c : Thread nD τ), SemLoc.dma (yrS 12)) () = 2 from lv_yr c 12]; exact above_owedF c 12 (by decide)))
      iexact Hlev
    iexact Hat
  iclear HIw
  iintro ⟨HO, Hat, -, Hpay⟩
  ihave HYk := (Entails.of_eq (rest_yr' m c 12)) $$ Hpay
  ihave #HIx := (Prep.inv_yr m K c 12) $$ HI
  imod (Rounds.cell_close ER (rd m) (Set.mem_univ (K (c, some (1, 12)))) (fun h => h) (R := 0 + 1) (duties_yr_later m c 12)) $$ [Hat] with Hz
  · isplitr; · iexact HIx
    iexact Hat
  iclear HIx
  ihave AccZyr := (acc_step (famZyr (F := F) c) 12 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W18, HO⟩
  -- step 102: send k0_dev79 src=arg1[(k0_off3 d0 768#32)] dst=arg1[(k0_off3 d0 768#32)] ssem=arg4[12] rsem=arg5[12]
  first | sl_exec | skip
  ihave Hs := (Entails.of_eq (take_step (famTFS (F := F) c) 12 (by decide))) $$ [FtFS]
  · iexact FtFS
  icases Hs with ⟨Ht1, FtFS⟩
  ihave Hs := (Entails.of_eq (take_step (famTFRP (F := F) c) 12 (by decide))) $$ [FtFRP]
  · iexact FtFRP
  icases Hs with ⟨Ht2, FtFRP⟩
  ihave Hs := (Entails.of_eq (take_step (famDF m c) 12 (by decide))) $$ [FdF]
  · iexact FdF
  icases Hs with ⟨Hd, FdF⟩
  ihave #HI1 := (Prep.inv_fs m K c 12) $$ HI
  ihave #HI2 := (Prep.inv_fr m K (xp c) 12) $$ HI
  ihave #HR1 := (Prep.reached_fs (F := F) c 12) $$ HR
  ihave #HR2 := (Prep.reached_fr (F := F) (xp c) 12) $$ HR
  iapply (wp_fsend m c _ (dev79_eq c) 12 (K (c, some (2, 12))) (K (xp c, some (3, 12))) (owedF c 12) (owedF c 13)
      (by rw [owedF_succ' c 12 (by decide)]; rfl) W18) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 12 (by decide)) $$ [AccCFS Hc]
  · isplitl [AccCFS]; · iexact AccCFS
    iexact Hc
  -- step 103: wait arg7[3] (arg6[![1, 0, 0]], arg1[(k0_off5 d0 512#32)])
  first | sl_exec | skip
  ihave #HIw := (Prep.inv_ls m KL c 3) $$ HIL
  iapply (Rounds.wp_wait_rest_token 𝒱₀ ER (rd m) (c : Thread nD τ) none (κ := KL (c, 3)) (sm := .dma (lsS 3))
      (wpE_waitDma2_eq 𝒱₀ (c : Thread nD τ) none Set.univ (src := vSlot 1) (dst := lDst c 1)) (Set.mem_univ _) () (O := owedF c 13) (W := W18) (R := 0) (m := 0) (T := ∅)
      (by rw [Nat.zero_add]; exact (expect_st m c 1 0 (by decide)).symm)) $$ [Hc_l3 HO Hat_l3]
  · isplitr; · iexact HIw
    isplitl [Hc_l3]; · iexact Hc_l3
    isplitl [HO]; · iexact HO
    isplitr
    · iapply (mayWait_of_above c (.dma (lsS 3)) _ (by rw [show lv ((c : Thread nD τ), SemLoc.dma (lsS 3)) () = 0 from lv_ls c 3]; exact above_owedF c 13 (by decide)))
      iexact Hlev
    iexact Hat_l3
  iclear HIw
  iclear HRl3
  iintro ⟨HO, Hat_l3, #HRl3, Hpay⟩
  ihave Hp := (Entails.of_eq (rest_st1 m c 0 (by decide))) $$ Hpay
  icases Hp with ⟨Holq, Hv1⟩
  ihave AccOL := (acc_step (famOL m c) 1 (by decide)) $$ [AccOL Holq]
  · isplitl [AccOL]; · iexact AccOL
    iexact Holq
  ihave HOe : iprop(∃ W' : Waits sig Unit, owes (c : Thread nD τ) _ W') $$ [HO]
  · iexists _; iexact HO
  icases HOe with ⟨%W19, HO⟩
  -- step 104: copy src=arg0[(k0_off8 d0)] dst=arg6[![1, 0, 0]] sem=arg7[1]
  first | sl_exec | skip
  ihave Hs := (Entails.of_eq (take_step (famXL m c) 3 (by decide))) $$ [FxL]
  · iexact FxL
  icases Hs with ⟨Hxl, FxL⟩
  ihave #HIl := (Prep.inv_ls m KL c 1) $$ HIL
  iapply (Rounds.wp_copy_pointsTo 𝒱₀ ER (rd m) (c : Thread nD τ) none (src := lSrc c 3) (dst := vSlot 1) (sem := .dma (lsS 1)) (q := fullShare) (fs := xC m c) (fd := VC m c 1)
      (r := 1) (d := false) (κ := KL (c, 1)) (by rw [duties_ls m c 1 1 (by decide)]; exact Finset.mem_singleton_self _) () NV rfl (amount_ld m c 1 1 false)
      (by rw [payload_ls, vLand_pts m c 3 1 (VC m c 1)]; exact BI.Entails.refl _)) $$ [Hxl Hv1 Htl1_1]
  · isplitr; · iexact HIl
    isplitl [Hxl]; · iexact Hxl
    isplitl [Hv1]; · iexact Hv1
    isplitl [Htl1_1]; · iexact Htl1_1
    iexact HRl1
  iclear HIl
  iintro Hc_l1
  -- step 105: wait arg7[1] (arg0[(k0_off8 d0)], arg6[![1, 0, 0]])
  first | sl_exec | skip
  ihave #HIw := (Prep.inv_ls m KL c 1) $$ HIL
  iapply (Rounds.wp_wait_rest_token 𝒱₀ ER (rd m) (c : Thread nD τ) none (κ := KL (c, 1)) (sm := .dma (lsS 1))
      (wpE_waitDma2_eq 𝒱₀ (c : Thread nD τ) none Set.univ (src := lSrc c 3) (dst := vSlot 1)) (Set.mem_univ _) () (O := owedF c 13) (W := W19) (R := 1) (m := 0) (T := ∅)
      (by rw [Nat.zero_add]; exact (expect_ld m c 1 1 (by decide)).symm)) $$ [Hc_l1 HO Hat_l1]
  · isplitr; · iexact HIw
    isplitl [Hc_l1]; · iexact Hc_l1
    isplitl [HO]; · iexact HO
    isplitr
    · iapply (mayWait_of_above c (.dma (lsS 1)) _ (by rw [show lv ((c : Thread nD τ), SemLoc.dma (lsS 1)) () = 0 from lv_ls c 1]; exact above_owedF c 13 (by decide)))
      iexact Hlev
    iexact Hat_l1
  iclear HIw
  iclear HRl1
  iintro ⟨HO, Hat_l1, #HRl1, Hpay⟩
  ihave Hp := (Entails.of_eq (rest_ld1 m c 1 (by decide))) $$ Hpay
  icases Hp with ⟨Hv1, Hxlq⟩
  ihave AccXL := (acc_step (famXL m c) 3 (by decide)) $$ [AccXL Hxlq]
  · isplitl [AccXL]; · iexact AccXL
    iexact Hxlq
  ihave HOe : iprop(∃ W' : Waits sig Unit, owes (c : Thread nD τ) _ W') $$ [HO]
  · iexists _; iexact HO
  icases HOe with ⟨%W20, HO⟩
  -- step 106: copy src=arg6[![1, 0, 0]] dst=arg1[(k0_off5 d0 1536#32)] sem=arg7[3]
  first | sl_exec | skip
  ihave Hs := (Entails.of_eq (take_step (famOL0 m c) 3 (by decide))) $$ [FoL]
  · iexact FoL
  icases Hs with ⟨Hol, FoL⟩
  ihave #HIl := (Prep.inv_ls m KL c 3) $$ HIL
  iapply (Rounds.wp_copy_pointsTo 𝒱₀ ER (rd m) (c : Thread nD τ) none (src := vSlot 1) (dst := lDst c 3) (sem := .dma (lsS 3)) (q := fullShare) (fs := VC m c 3) (fd := o0 m c)
      (r := 1) (d := false) (κ := KL (c, 3)) (by rw [duties_ls m c 3 1 (by decide)]; exact Finset.mem_singleton_self _) () NO rfl (amount_st m c 1 1 false)
      (by rw [payload_ls, lLandV_pts m c 3 1 (o0 m c)]; exact BI.Entails.refl _)) $$ [Hv1 Hol Htl3_1]
  · isplitr; · iexact HIl
    isplitl [Hv1]; · iexact Hv1
    isplitl [Hol]; · iexact Hol
    isplitl [Htl3_1]; · iexact Htl3_1
    iexact HRl3
  iclear HIl
  iintro Hc_l3
  -- step 107: wait arg3[13] (arg0[(k0_off2 d0 832#32)], arg1[(k0_off1 d0 832#32)])
  first | sl_exec | skip
  ihave Hs := (Entails.of_eq (take_step (famCYR (F := F) c) 13 (by decide))) $$ [FcYR]
  · iexact FcYR
  icases Hs with ⟨Hc, FcYR⟩
  ihave Hs := (Entails.of_eq (take_step (famAtYR (F := F) c) 13 (by decide))) $$ [FatYR]
  · iexact FatYR
  icases Hs with ⟨Hat, FatYR⟩
  ihave #HIw := (Prep.inv_yr m K c 13) $$ HI
  iapply (Rounds.wp_wait_rest_token 𝒱₀ ER (rd m) (c : Thread nD τ) none (κ := K (c, some (1, 13))) (sm := .dma (yrS 13))
      (wpE_waitDma2_eq 𝒱₀ (c : Thread nD τ) none Set.univ (src := ySrc c 13) (dst := yDst c 13)) (Set.mem_univ _) () (O := owedF c 13) (W := W20) (R := 0) (m := 0) (T := ∅)
      (by rw [Nat.zero_add]; exact (expect_yr m c 13).symm)) $$ [Hc HO Hat]
  · isplitr; · iexact HIw
    isplitl [Hc]; · iexact Hc
    isplitl [HO]; · iexact HO
    isplitr
    · iapply (mayWait_of_above c (.dma (yrS 13)) _ (by rw [show lv ((c : Thread nD τ), SemLoc.dma (yrS 13)) () = 2 from lv_yr c 13]; exact above_owedF c 13 (by decide)))
      iexact Hlev
    iexact Hat
  iclear HIw
  iintro ⟨HO, Hat, -, Hpay⟩
  ihave HYk := (Entails.of_eq (rest_yr' m c 13)) $$ Hpay
  ihave #HIx := (Prep.inv_yr m K c 13) $$ HI
  imod (Rounds.cell_close ER (rd m) (Set.mem_univ (K (c, some (1, 13)))) (fun h => h) (R := 0 + 1) (duties_yr_later m c 13)) $$ [Hat] with Hz
  · isplitr; · iexact HIx
    iexact Hat
  iclear HIx
  ihave AccZyr := (acc_step (famZyr (F := F) c) 13 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W21, HO⟩
  -- step 108: send k0_dev80 src=arg1[(k0_off3 d0 832#32)] dst=arg1[(k0_off3 d0 832#32)] ssem=arg4[13] rsem=arg5[13]
  first | sl_exec | skip
  ihave Hs := (Entails.of_eq (take_step (famTFS (F := F) c) 13 (by decide))) $$ [FtFS]
  · iexact FtFS
  icases Hs with ⟨Ht1, FtFS⟩
  ihave Hs := (Entails.of_eq (take_step (famTFRP (F := F) c) 13 (by decide))) $$ [FtFRP]
  · iexact FtFRP
  icases Hs with ⟨Ht2, FtFRP⟩
  ihave Hs := (Entails.of_eq (take_step (famDF m c) 13 (by decide))) $$ [FdF]
  · iexact FdF
  icases Hs with ⟨Hd, FdF⟩
  ihave #HI1 := (Prep.inv_fs m K c 13) $$ HI
  ihave #HI2 := (Prep.inv_fr m K (xp c) 13) $$ HI
  ihave #HR1 := (Prep.reached_fs (F := F) c 13) $$ HR
  ihave #HR2 := (Prep.reached_fr (F := F) (xp c) 13) $$ HR
  iapply (wp_fsend m c _ (dev80_eq c) 13 (K (c, some (2, 13))) (K (xp c, some (3, 13))) (owedF c 13) (owedF c 14)
      (by rw [owedF_succ' c 13 (by decide)]; rfl) W21) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 13 (by decide)) $$ [AccCFS Hc]
  · isplitl [AccCFS]; · iexact AccCFS
    iexact Hc
  -- step 109: wait arg3[14] (arg0[(k0_off2 d0 896#32)], arg1[(k0_off1 d0 896#32)])
  first | sl_exec | skip
  ihave Hs := (Entails.of_eq (take_step (famCYR (F := F) c) 14 (by decide))) $$ [FcYR]
  · iexact FcYR
  icases Hs with ⟨Hc, FcYR⟩
  ihave Hs := (Entails.of_eq (take_step (famAtYR (F := F) c) 14 (by decide))) $$ [FatYR]
  · iexact FatYR
  icases Hs with ⟨Hat, FatYR⟩
  ihave #HIw := (Prep.inv_yr m K c 14) $$ HI
  iapply (Rounds.wp_wait_rest_token 𝒱₀ ER (rd m) (c : Thread nD τ) none (κ := K (c, some (1, 14))) (sm := .dma (yrS 14))
      (wpE_waitDma2_eq 𝒱₀ (c : Thread nD τ) none Set.univ (src := ySrc c 14) (dst := yDst c 14)) (Set.mem_univ _) () (O := owedF c 14) (W := W21) (R := 0) (m := 0) (T := ∅)
      (by rw [Nat.zero_add]; exact (expect_yr m c 14).symm)) $$ [Hc HO Hat]
  · isplitr; · iexact HIw
    isplitl [Hc]; · iexact Hc
    isplitl [HO]; · iexact HO
    isplitr
    · iapply (mayWait_of_above c (.dma (yrS 14)) _ (by rw [show lv ((c : Thread nD τ), SemLoc.dma (yrS 14)) () = 2 from lv_yr c 14]; exact above_owedF c 14 (by decide)))
      iexact Hlev
    iexact Hat
  iclear HIw
  iintro ⟨HO, Hat, -, Hpay⟩
  ihave HYk := (Entails.of_eq (rest_yr' m c 14)) $$ Hpay
  ihave #HIx := (Prep.inv_yr m K c 14) $$ HI
  imod (Rounds.cell_close ER (rd m) (Set.mem_univ (K (c, some (1, 14)))) (fun h => h) (R := 0 + 1) (duties_yr_later m c 14)) $$ [Hat] with Hz
  · isplitr; · iexact HIx
    iexact Hat
  iclear HIx
  ihave AccZyr := (acc_step (famZyr (F := F) c) 14 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W22, HO⟩
  -- step 110: send k0_dev81 src=arg1[(k0_off3 d0 896#32)] dst=arg1[(k0_off3 d0 896#32)] ssem=arg4[14] rsem=arg5[14]
  first | sl_exec | skip
  ihave Hs := (Entails.of_eq (take_step (famTFS (F := F) c) 14 (by decide))) $$ [FtFS]
  · iexact FtFS
  icases Hs with ⟨Ht1, FtFS⟩
  ihave Hs := (Entails.of_eq (take_step (famTFRP (F := F) c) 14 (by decide))) $$ [FtFRP]
  · iexact FtFRP
  icases Hs with ⟨Ht2, FtFRP⟩
  ihave Hs := (Entails.of_eq (take_step (famDF m c) 14 (by decide))) $$ [FdF]
  · iexact FdF
  icases Hs with ⟨Hd, FdF⟩
  ihave #HI1 := (Prep.inv_fs m K c 14) $$ HI
  ihave #HI2 := (Prep.inv_fr m K (xp c) 14) $$ HI
  ihave #HR1 := (Prep.reached_fs (F := F) c 14) $$ HR
  ihave #HR2 := (Prep.reached_fr (F := F) (xp c) 14) $$ HR
  iapply (wp_fsend m c _ (dev81_eq c) 14 (K (c, some (2, 14))) (K (xp c, some (3, 14))) (owedF c 14) (owedF c 15)
      (by rw [owedF_succ' c 14 (by decide)]; rfl) W22) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 14 (by decide)) $$ [AccCFS Hc]
  · isplitl [AccCFS]; · iexact AccCFS
    iexact Hc
  -- step 111: wait arg3[15] (arg0[(k0_off2 d0 960#32)], arg1[(k0_off1 d0 960#32)])
  first | sl_exec | skip
  ihave Hs := (Entails.of_eq (take_step (famCYR (F := F) c) 15 (by decide))) $$ [FcYR]
  · iexact FcYR
  icases Hs with ⟨Hc, FcYR⟩
  ihave Hs := (Entails.of_eq (take_step (famAtYR (F := F) c) 15 (by decide))) $$ [FatYR]
  · iexact FatYR
  icases Hs with ⟨Hat, FatYR⟩
  ihave #HIw := (Prep.inv_yr m K c 15) $$ HI
  iapply (Rounds.wp_wait_rest_token 𝒱₀ ER (rd m) (c : Thread nD τ) none (κ := K (c, some (1, 15))) (sm := .dma (yrS 15))
      (wpE_waitDma2_eq 𝒱₀ (c : Thread nD τ) none Set.univ (src := ySrc c 15) (dst := yDst c 15)) (Set.mem_univ _) () (O := owedF c 15) (W := W22) (R := 0) (m := 0) (T := ∅)
      (by rw [Nat.zero_add]; exact (expect_yr m c 15).symm)) $$ [Hc HO Hat]
  · isplitr; · iexact HIw
    isplitl [Hc]; · iexact Hc
    isplitl [HO]; · iexact HO
    isplitr
    · iapply (mayWait_of_above c (.dma (yrS 15)) _ (by rw [show lv ((c : Thread nD τ), SemLoc.dma (yrS 15)) () = 2 from lv_yr c 15]; exact above_owedF c 15 (by decide)))
      iexact Hlev
    iexact Hat
  iclear HIw
  iintro ⟨HO, Hat, -, Hpay⟩
  ihave HYk := (Entails.of_eq (rest_yr' m c 15)) $$ Hpay
  ihave #HIx := (Prep.inv_yr m K c 15) $$ HI
  imod (Rounds.cell_close ER (rd m) (Set.mem_univ (K (c, some (1, 15)))) (fun h => h) (R := 0 + 1) (duties_yr_later m c 15)) $$ [Hat] with Hz
  · isplitr; · iexact HIx
    iexact Hat
  iclear HIx
  ihave AccZyr := (acc_step (famZyr (F := F) c) 15 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W23, HO⟩
  -- step 112: send k0_dev82 src=arg1[(k0_off3 d0 960#32)] dst=arg1[(k0_off3 d0 960#32)] ssem=arg4[15] rsem=arg5[15]
  first | sl_exec | skip
  ihave Hs := (Entails.of_eq (take_step (famTFS (F := F) c) 15 (by decide))) $$ [FtFS]
  · iexact FtFS
  icases Hs with ⟨Ht1, FtFS⟩
  ihave Hs := (Entails.of_eq (take_step (famTFRP (F := F) c) 15 (by decide))) $$ [FtFRP]
  · iexact FtFRP
  icases Hs with ⟨Ht2, FtFRP⟩
  ihave Hs := (Entails.of_eq (take_step (famDF m c) 15 (by decide))) $$ [FdF]
  · iexact FdF
  icases Hs with ⟨Hd, FdF⟩
  ihave #HI1 := (Prep.inv_fs m K c 15) $$ HI
  ihave #HI2 := (Prep.inv_fr m K (xp c) 15) $$ HI
  ihave #HR1 := (Prep.reached_fs (F := F) c 15) $$ HR
  ihave #HR2 := (Prep.reached_fr (F := F) (xp c) 15) $$ HR
  iapply (wp_fsend m c _ (dev82_eq c) 15 (K (c, some (2, 15))) (K (xp c, some (3, 15))) (owedF c 15) (owedF c 16)
      (by rw [owedF_succ' c 15 (by decide)]; rfl) W23) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 15 (by decide)) $$ [AccCFS Hc]
  · isplitl [AccCFS]; · iexact AccCFS
    iexact Hc
  -- step 113: wait arg3[16] (arg0[(k0_off2 d0 1024#32)], arg1[(k0_off1 d0 1024#32)])
  first | sl_exec | skip
  ihave Hs := (Entails.of_eq (take_step (famCYR (F := F) c) 16 (by decide))) $$ [FcYR]
  · iexact FcYR
  icases Hs with ⟨Hc, FcYR⟩
  ihave Hs := (Entails.of_eq (take_step (famAtYR (F := F) c) 16 (by decide))) $$ [FatYR]
  · iexact FatYR
  icases Hs with ⟨Hat, FatYR⟩
  ihave #HIw := (Prep.inv_yr m K c 16) $$ HI
  iapply (Rounds.wp_wait_rest_token 𝒱₀ ER (rd m) (c : Thread nD τ) none (κ := K (c, some (1, 16))) (sm := .dma (yrS 16))
      (wpE_waitDma2_eq 𝒱₀ (c : Thread nD τ) none Set.univ (src := ySrc c 16) (dst := yDst c 16)) (Set.mem_univ _) () (O := owedF c 16) (W := W23) (R := 0) (m := 0) (T := ∅)
      (by rw [Nat.zero_add]; exact (expect_yr m c 16).symm)) $$ [Hc HO Hat]
  · isplitr; · iexact HIw
    isplitl [Hc]; · iexact Hc
    isplitl [HO]; · iexact HO
    isplitr
    · iapply (mayWait_of_above c (.dma (yrS 16)) _ (by rw [show lv ((c : Thread nD τ), SemLoc.dma (yrS 16)) () = 2 from lv_yr c 16]; exact above_owedF c 16 (by decide)))
      iexact Hlev
    iexact Hat
  iclear HIw
  iintro ⟨HO, Hat, -, Hpay⟩
  ihave HYk := (Entails.of_eq (rest_yr' m c 16)) $$ Hpay
  ihave #HIx := (Prep.inv_yr m K c 16) $$ HI
  imod (Rounds.cell_close ER (rd m) (Set.mem_univ (K (c, some (1, 16)))) (fun h => h) (R := 0 + 1) (duties_yr_later m c 16)) $$ [Hat] with Hz
  · isplitr; · iexact HIx
    iexact Hat
  iclear HIx
  ihave AccZyr := (acc_step (famZyr (F := F) c) 16 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W24, HO⟩
  -- step 114: send k0_dev83 src=arg1[(k0_off3 d0 1024#32)] dst=arg1[(k0_off3 d0 1024#32)] ssem=arg4[16] rsem=arg5[16]
  first | sl_exec | skip
  ihave Hs := (Entails.of_eq (take_step (famTFS (F := F) c) 16 (by decide))) $$ [FtFS]
  · iexact FtFS
  icases Hs with ⟨Ht1, FtFS⟩
  ihave Hs := (Entails.of_eq (take_step (famTFRP (F := F) c) 16 (by decide))) $$ [FtFRP]
  · iexact FtFRP
  icases Hs with ⟨Ht2, FtFRP⟩
  ihave Hs := (Entails.of_eq (take_step (famDF m c) 16 (by decide))) $$ [FdF]
  · iexact FdF
  icases Hs with ⟨Hd, FdF⟩
  ihave #HI1 := (Prep.inv_fs m K c 16) $$ HI
  ihave #HI2 := (Prep.inv_fr m K (xp c) 16) $$ HI
  ihave #HR1 := (Prep.reached_fs (F := F) c 16) $$ HR
  ihave #HR2 := (Prep.reached_fr (F := F) (xp c) 16) $$ HR
  iapply (wp_fsend m c _ (dev83_eq c) 16 (K (c, some (2, 16))) (K (xp c, some (3, 16))) (owedF c 16) (owedF c 17)
      (by rw [owedF_succ' c 16 (by decide)]; rfl) W24) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 16 (by decide)) $$ [AccCFS Hc]
  · isplitl [AccCFS]; · iexact AccCFS
    iexact Hc
  -- step 115: wait arg7[2] (arg6[![0, 0, 0]], arg1[(k0_off5 d0 1024#32)])
  first | sl_exec | skip
  ihave #HIw := (Prep.inv_ls m KL c 2) $$ HIL
  iapply (Rounds.wp_wait_rest_token 𝒱₀ ER (rd m) (c : Thread nD τ) none (κ := KL (c, 2)) (sm := .dma (lsS 2))
      (wpE_waitDma2_eq 𝒱₀ (c : Thread nD τ) none Set.univ (src := vSlot 0) (dst := lDst c 2)) (Set.mem_univ _) () (O := owedF c 17) (W := W24) (R := 1) (m := 0) (T := ∅)
      (by rw [Nat.zero_add]; exact (expect_st m c 0 1 (by decide)).symm)) $$ [Hc_l2 HO Hat_l2]
  · isplitr; · iexact HIw
    isplitl [Hc_l2]; · iexact Hc_l2
    isplitl [HO]; · iexact HO
    isplitr
    · iapply (mayWait_of_above c (.dma (lsS 2)) _ (by rw [show lv ((c : Thread nD τ), SemLoc.dma (lsS 2)) () = 0 from lv_ls c 2]; exact above_owedF c 17 (by decide)))
      iexact Hlev
    iexact Hat_l2
  iclear HIw
  iclear HRl2
  iintro ⟨HO, Hat_l2, #HRl2, Hpay⟩
  ihave Hp := (Entails.of_eq (rest_st0 m c 1 (by decide))) $$ Hpay
  icases Hp with ⟨Holq, Hv0⟩
  ihave AccOL := (acc_step (famOL m c) 2 (by decide)) $$ [AccOL Holq]
  · isplitl [AccOL]; · iexact AccOL
    iexact Holq
  ihave HOe : iprop(∃ W' : Waits sig Unit, owes (c : Thread nD τ) _ W') $$ [HO]
  · iexists _; iexact HO
  icases HOe with ⟨%W25, HO⟩
  -- step 116: copy src=arg0[(k0_off9 d0)] dst=arg6[![0, 0, 0]] sem=arg7[0]
  first | sl_exec | skip
  ihave Hs := (Entails.of_eq (take_step (famXL m c) 4 (by decide))) $$ [FxL]
  · iexact FxL
  icases Hs with ⟨Hxl, FxL⟩
  ihave #HIl := (Prep.inv_ls m KL c 0) $$ HIL
  iapply (Rounds.wp_copy_pointsTo 𝒱₀ ER (rd m) (c : Thread nD τ) none (src := lSrc c 4) (dst := vSlot 0) (sem := .dma (lsS 0)) (q := fullShare) (fs := xC m c) (fd := VC m c 2)
      (r := 2) (d := false) (κ := KL (c, 0)) (by rw [duties_ls m c 0 2 (by decide)]; exact Finset.mem_singleton_self _) () NV rfl (amount_ld m c 0 2 false)
      (by rw [payload_ls, vLand_pts m c 4 0 (VC m c 2)]; exact BI.Entails.refl _)) $$ [Hxl Hv0 Htl0_2]
  · isplitr; · iexact HIl
    isplitl [Hxl]; · iexact Hxl
    isplitl [Hv0]; · iexact Hv0
    isplitl [Htl0_2]; · iexact Htl0_2
    iexact HRl0
  iclear HIl
  iintro Hc_l0
  -- step 117: wait arg7[0] (arg0[(k0_off9 d0)], arg6[![0, 0, 0]])
  first | sl_exec | skip
  ihave #HIw := (Prep.inv_ls m KL c 0) $$ HIL
  iapply (Rounds.wp_wait_rest_token 𝒱₀ ER (rd m) (c : Thread nD τ) none (κ := KL (c, 0)) (sm := .dma (lsS 0))
      (wpE_waitDma2_eq 𝒱₀ (c : Thread nD τ) none Set.univ (src := lSrc c 4) (dst := vSlot 0)) (Set.mem_univ _) () (O := owedF c 17) (W := W25) (R := 2) (m := 0) (T := ∅)
      (by rw [Nat.zero_add]; exact (expect_ld m c 0 2 (by decide)).symm)) $$ [Hc_l0 HO Hat_l0]
  · isplitr; · iexact HIw
    isplitl [Hc_l0]; · iexact Hc_l0
    isplitl [HO]; · iexact HO
    isplitr
    · iapply (mayWait_of_above c (.dma (lsS 0)) _ (by rw [show lv ((c : Thread nD τ), SemLoc.dma (lsS 0)) () = 0 from lv_ls c 0]; exact above_owedF c 17 (by decide)))
      iexact Hlev
    iexact Hat_l0
  iclear HIw
  iclear HRl0
  iintro ⟨HO, Hat_l0, #HRl0, Hpay⟩
  ihave Hp := (Entails.of_eq (rest_ld0 m c 2 (by decide))) $$ Hpay
  icases Hp with ⟨Hv0, Hxlq⟩
  ihave AccXL := (acc_step (famXL m c) 4 (by decide)) $$ [AccXL Hxlq]
  · isplitl [AccXL]; · iexact AccXL
    iexact Hxlq
  ihave HOe : iprop(∃ W' : Waits sig Unit, owes (c : Thread nD τ) _ W') $$ [HO]
  · iexists _; iexact HO
  icases HOe with ⟨%W26, HO⟩
  -- step 118: copy src=arg6[![0, 0, 0]] dst=arg1[(k0_off5 d0 2048#32)] sem=arg7[2]
  first | sl_exec | skip
  ihave Hs := (Entails.of_eq (take_step (famOL0 m c) 4 (by decide))) $$ [FoL]
  · iexact FoL
  icases Hs with ⟨Hol, FoL⟩
  ihave #HIl := (Prep.inv_ls m KL c 2) $$ HIL
  iapply (Rounds.wp_copy_pointsTo 𝒱₀ ER (rd m) (c : Thread nD τ) none (src := vSlot 0) (dst := lDst c 4) (sem := .dma (lsS 2)) (q := fullShare) (fs := VC m c 4) (fd := o0 m c)
      (r := 2) (d := false) (κ := KL (c, 2)) (by rw [duties_ls m c 2 2 (by decide)]; exact Finset.mem_singleton_self _) () NO rfl (amount_st m c 0 2 false)
      (by rw [payload_ls, lLandV_pts m c 4 0 (o0 m c)]; exact BI.Entails.refl _)) $$ [Hv0 Hol Htl2_2]
  · isplitr; · iexact HIl
    isplitl [Hv0]; · iexact Hv0
    isplitl [Hol]; · iexact Hol
    isplitl [Htl2_2]; · iexact Htl2_2
    iexact HRl2
  iclear HIl
  iintro Hc_l2
  -- step 119: wait arg3[17] (arg0[(k0_off2 d0 1088#32)], arg1[(k0_off1 d0 1088#32)])
  first | sl_exec | skip
  ihave Hs := (Entails.of_eq (take_step (famCYR (F := F) c) 17 (by decide))) $$ [FcYR]
  · iexact FcYR
  icases Hs with ⟨Hc, FcYR⟩
  ihave Hs := (Entails.of_eq (take_step (famAtYR (F := F) c) 17 (by decide))) $$ [FatYR]
  · iexact FatYR
  icases Hs with ⟨Hat, FatYR⟩
  ihave #HIw := (Prep.inv_yr m K c 17) $$ HI
  iapply (Rounds.wp_wait_rest_token 𝒱₀ ER (rd m) (c : Thread nD τ) none (κ := K (c, some (1, 17))) (sm := .dma (yrS 17))
      (wpE_waitDma2_eq 𝒱₀ (c : Thread nD τ) none Set.univ (src := ySrc c 17) (dst := yDst c 17)) (Set.mem_univ _) () (O := owedF c 17) (W := W26) (R := 0) (m := 0) (T := ∅)
      (by rw [Nat.zero_add]; exact (expect_yr m c 17).symm)) $$ [Hc HO Hat]
  · isplitr; · iexact HIw
    isplitl [Hc]; · iexact Hc
    isplitl [HO]; · iexact HO
    isplitr
    · iapply (mayWait_of_above c (.dma (yrS 17)) _ (by rw [show lv ((c : Thread nD τ), SemLoc.dma (yrS 17)) () = 2 from lv_yr c 17]; exact above_owedF c 17 (by decide)))
      iexact Hlev
    iexact Hat
  iclear HIw
  iintro ⟨HO, Hat, -, Hpay⟩
  ihave HYk := (Entails.of_eq (rest_yr' m c 17)) $$ Hpay
  ihave #HIx := (Prep.inv_yr m K c 17) $$ HI
  imod (Rounds.cell_close ER (rd m) (Set.mem_univ (K (c, some (1, 17)))) (fun h => h) (R := 0 + 1) (duties_yr_later m c 17)) $$ [Hat] with Hz
  · isplitr; · iexact HIx
    iexact Hat
  iclear HIx
  ihave AccZyr := (acc_step (famZyr (F := F) c) 17 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W27, HO⟩
  -- step 120: send k0_dev84 src=arg1[(k0_off3 d0 1088#32)] dst=arg1[(k0_off3 d0 1088#32)] ssem=arg4[17] rsem=arg5[17]
  first | sl_exec | skip
  ihave Hs := (Entails.of_eq (take_step (famTFS (F := F) c) 17 (by decide))) $$ [FtFS]
  · iexact FtFS
  icases Hs with ⟨Ht1, FtFS⟩
  ihave Hs := (Entails.of_eq (take_step (famTFRP (F := F) c) 17 (by decide))) $$ [FtFRP]
  · iexact FtFRP
  icases Hs with ⟨Ht2, FtFRP⟩
  ihave Hs := (Entails.of_eq (take_step (famDF m c) 17 (by decide))) $$ [FdF]
  · iexact FdF
  icases Hs with ⟨Hd, FdF⟩
  ihave #HI1 := (Prep.inv_fs m K c 17) $$ HI
  ihave #HI2 := (Prep.inv_fr m K (xp c) 17) $$ HI
  ihave #HR1 := (Prep.reached_fs (F := F) c 17) $$ HR
  ihave #HR2 := (Prep.reached_fr (F := F) (xp c) 17) $$ HR
  iapply (wp_fsend m c _ (dev84_eq c) 17 (K (c, some (2, 17))) (K (xp c, some (3, 17))) (owedF c 17) (owedF c 18)
      (by rw [owedF_succ' c 17 (by decide)]; rfl) W27) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 17 (by decide)) $$ [AccCFS Hc]
  · isplitl [AccCFS]; · iexact AccCFS
    iexact Hc
  -- step 121: wait arg3[18] (arg0[(k0_off2 d0 1152#32)], arg1[(k0_off1 d0 1152#32)])
  first | sl_exec | skip
  ihave Hs := (Entails.of_eq (take_step (famCYR (F := F) c) 18 (by decide))) $$ [FcYR]
  · iexact FcYR
  icases Hs with ⟨Hc, FcYR⟩
  ihave Hs := (Entails.of_eq (take_step (famAtYR (F := F) c) 18 (by decide))) $$ [FatYR]
  · iexact FatYR
  icases Hs with ⟨Hat, FatYR⟩
  ihave #HIw := (Prep.inv_yr m K c 18) $$ HI
  iapply (Rounds.wp_wait_rest_token 𝒱₀ ER (rd m) (c : Thread nD τ) none (κ := K (c, some (1, 18))) (sm := .dma (yrS 18))
      (wpE_waitDma2_eq 𝒱₀ (c : Thread nD τ) none Set.univ (src := ySrc c 18) (dst := yDst c 18)) (Set.mem_univ _) () (O := owedF c 18) (W := W27) (R := 0) (m := 0) (T := ∅)
      (by rw [Nat.zero_add]; exact (expect_yr m c 18).symm)) $$ [Hc HO Hat]
  · isplitr; · iexact HIw
    isplitl [Hc]; · iexact Hc
    isplitl [HO]; · iexact HO
    isplitr
    · iapply (mayWait_of_above c (.dma (yrS 18)) _ (by rw [show lv ((c : Thread nD τ), SemLoc.dma (yrS 18)) () = 2 from lv_yr c 18]; exact above_owedF c 18 (by decide)))
      iexact Hlev
    iexact Hat
  iclear HIw
  iintro ⟨HO, Hat, -, Hpay⟩
  ihave HYk := (Entails.of_eq (rest_yr' m c 18)) $$ Hpay
  ihave #HIx := (Prep.inv_yr m K c 18) $$ HI
  imod (Rounds.cell_close ER (rd m) (Set.mem_univ (K (c, some (1, 18)))) (fun h => h) (R := 0 + 1) (duties_yr_later m c 18)) $$ [Hat] with Hz
  · isplitr; · iexact HIx
    iexact Hat
  iclear HIx
  ihave AccZyr := (acc_step (famZyr (F := F) c) 18 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W28, HO⟩
  -- step 122: send k0_dev85 src=arg1[(k0_off3 d0 1152#32)] dst=arg1[(k0_off3 d0 1152#32)] ssem=arg4[18] rsem=arg5[18]
  first | sl_exec | skip
  ihave Hs := (Entails.of_eq (take_step (famTFS (F := F) c) 18 (by decide))) $$ [FtFS]
  · iexact FtFS
  icases Hs with ⟨Ht1, FtFS⟩
  ihave Hs := (Entails.of_eq (take_step (famTFRP (F := F) c) 18 (by decide))) $$ [FtFRP]
  · iexact FtFRP
  icases Hs with ⟨Ht2, FtFRP⟩
  ihave Hs := (Entails.of_eq (take_step (famDF m c) 18 (by decide))) $$ [FdF]
  · iexact FdF
  icases Hs with ⟨Hd, FdF⟩
  ihave #HI1 := (Prep.inv_fs m K c 18) $$ HI
  ihave #HI2 := (Prep.inv_fr m K (xp c) 18) $$ HI
  ihave #HR1 := (Prep.reached_fs (F := F) c 18) $$ HR
  ihave #HR2 := (Prep.reached_fr (F := F) (xp c) 18) $$ HR
  iapply (wp_fsend m c _ (dev85_eq c) 18 (K (c, some (2, 18))) (K (xp c, some (3, 18))) (owedF c 18) (owedF c 19)
      (by rw [owedF_succ' c 18 (by decide)]; rfl) W28) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 18 (by decide)) $$ [AccCFS Hc]
  · isplitl [AccCFS]; · iexact AccCFS
    iexact Hc
  -- step 123: wait arg3[19] (arg0[(k0_off2 d0 1216#32)], arg1[(k0_off1 d0 1216#32)])
  first | sl_exec | skip
  ihave Hs := (Entails.of_eq (take_step (famCYR (F := F) c) 19 (by decide))) $$ [FcYR]
  · iexact FcYR
  icases Hs with ⟨Hc, FcYR⟩
  ihave Hs := (Entails.of_eq (take_step (famAtYR (F := F) c) 19 (by decide))) $$ [FatYR]
  · iexact FatYR
  icases Hs with ⟨Hat, FatYR⟩
  ihave #HIw := (Prep.inv_yr m K c 19) $$ HI
  iapply (Rounds.wp_wait_rest_token 𝒱₀ ER (rd m) (c : Thread nD τ) none (κ := K (c, some (1, 19))) (sm := .dma (yrS 19))
      (wpE_waitDma2_eq 𝒱₀ (c : Thread nD τ) none Set.univ (src := ySrc c 19) (dst := yDst c 19)) (Set.mem_univ _) () (O := owedF c 19) (W := W28) (R := 0) (m := 0) (T := ∅)
      (by rw [Nat.zero_add]; exact (expect_yr m c 19).symm)) $$ [Hc HO Hat]
  · isplitr; · iexact HIw
    isplitl [Hc]; · iexact Hc
    isplitl [HO]; · iexact HO
    isplitr
    · iapply (mayWait_of_above c (.dma (yrS 19)) _ (by rw [show lv ((c : Thread nD τ), SemLoc.dma (yrS 19)) () = 2 from lv_yr c 19]; exact above_owedF c 19 (by decide)))
      iexact Hlev
    iexact Hat
  iclear HIw
  iintro ⟨HO, Hat, -, Hpay⟩
  ihave HYk := (Entails.of_eq (rest_yr' m c 19)) $$ Hpay
  ihave #HIx := (Prep.inv_yr m K c 19) $$ HI
  imod (Rounds.cell_close ER (rd m) (Set.mem_univ (K (c, some (1, 19)))) (fun h => h) (R := 0 + 1) (duties_yr_later m c 19)) $$ [Hat] with Hz
  · isplitr; · iexact HIx
    iexact Hat
  iclear HIx
  ihave AccZyr := (acc_step (famZyr (F := F) c) 19 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W29, HO⟩
  -- step 124: send k0_dev86 src=arg1[(k0_off3 d0 1216#32)] dst=arg1[(k0_off3 d0 1216#32)] ssem=arg4[19] rsem=arg5[19]
  first | sl_exec | skip
  ihave Hs := (Entails.of_eq (take_step (famTFS (F := F) c) 19 (by decide))) $$ [FtFS]
  · iexact FtFS
  icases Hs with ⟨Ht1, FtFS⟩
  ihave Hs := (Entails.of_eq (take_step (famTFRP (F := F) c) 19 (by decide))) $$ [FtFRP]
  · iexact FtFRP
  icases Hs with ⟨Ht2, FtFRP⟩
  ihave Hs := (Entails.of_eq (take_step (famDF m c) 19 (by decide))) $$ [FdF]
  · iexact FdF
  icases Hs with ⟨Hd, FdF⟩
  ihave #HI1 := (Prep.inv_fs m K c 19) $$ HI
  ihave #HI2 := (Prep.inv_fr m K (xp c) 19) $$ HI
  ihave #HR1 := (Prep.reached_fs (F := F) c 19) $$ HR
  ihave #HR2 := (Prep.reached_fr (F := F) (xp c) 19) $$ HR
  iapply (wp_fsend m c _ (dev86_eq c) 19 (K (c, some (2, 19))) (K (xp c, some (3, 19))) (owedF c 19) (owedF c 20)
      (by rw [owedF_succ' c 19 (by decide)]; rfl) W29) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 19 (by decide)) $$ [AccCFS Hc]
  · isplitl [AccCFS]; · iexact AccCFS
    iexact Hc
  -- step 125: wait arg3[20] (arg0[(k0_off2 d0 1280#32)], arg1[(k0_off1 d0 1280#32)])
  first | sl_exec | skip
  ihave Hs := (Entails.of_eq (take_step (famCYR (F := F) c) 20 (by decide))) $$ [FcYR]
  · iexact FcYR
  icases Hs with ⟨Hc, FcYR⟩
  ihave Hs := (Entails.of_eq (take_step (famAtYR (F := F) c) 20 (by decide))) $$ [FatYR]
  · iexact FatYR
  icases Hs with ⟨Hat, FatYR⟩
  ihave #HIw := (Prep.inv_yr m K c 20) $$ HI
  iapply (Rounds.wp_wait_rest_token 𝒱₀ ER (rd m) (c : Thread nD τ) none (κ := K (c, some (1, 20))) (sm := .dma (yrS 20))
      (wpE_waitDma2_eq 𝒱₀ (c : Thread nD τ) none Set.univ (src := ySrc c 20) (dst := yDst c 20)) (Set.mem_univ _) () (O := owedF c 20) (W := W29) (R := 0) (m := 0) (T := ∅)
      (by rw [Nat.zero_add]; exact (expect_yr m c 20).symm)) $$ [Hc HO Hat]
  · isplitr; · iexact HIw
    isplitl [Hc]; · iexact Hc
    isplitl [HO]; · iexact HO
    isplitr
    · iapply (mayWait_of_above c (.dma (yrS 20)) _ (by rw [show lv ((c : Thread nD τ), SemLoc.dma (yrS 20)) () = 2 from lv_yr c 20]; exact above_owedF c 20 (by decide)))
      iexact Hlev
    iexact Hat
  iclear HIw
  iintro ⟨HO, Hat, -, Hpay⟩
  ihave HYk := (Entails.of_eq (rest_yr' m c 20)) $$ Hpay
  ihave #HIx := (Prep.inv_yr m K c 20) $$ HI
  imod (Rounds.cell_close ER (rd m) (Set.mem_univ (K (c, some (1, 20)))) (fun h => h) (R := 0 + 1) (duties_yr_later m c 20)) $$ [Hat] with Hz
  · isplitr; · iexact HIx
    iexact Hat
  iclear HIx
  ihave AccZyr := (acc_step (famZyr (F := F) c) 20 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W30, HO⟩
  -- step 126: send k0_dev87 src=arg1[(k0_off3 d0 1280#32)] dst=arg1[(k0_off3 d0 1280#32)] ssem=arg4[20] rsem=arg5[20]
  first | sl_exec | skip
  ihave Hs := (Entails.of_eq (take_step (famTFS (F := F) c) 20 (by decide))) $$ [FtFS]
  · iexact FtFS
  icases Hs with ⟨Ht1, FtFS⟩
  ihave Hs := (Entails.of_eq (take_step (famTFRP (F := F) c) 20 (by decide))) $$ [FtFRP]
  · iexact FtFRP
  icases Hs with ⟨Ht2, FtFRP⟩
  ihave Hs := (Entails.of_eq (take_step (famDF m c) 20 (by decide))) $$ [FdF]
  · iexact FdF
  icases Hs with ⟨Hd, FdF⟩
  ihave #HI1 := (Prep.inv_fs m K c 20) $$ HI
  ihave #HI2 := (Prep.inv_fr m K (xp c) 20) $$ HI
  ihave #HR1 := (Prep.reached_fs (F := F) c 20) $$ HR
  ihave #HR2 := (Prep.reached_fr (F := F) (xp c) 20) $$ HR
  iapply (wp_fsend m c _ (dev87_eq c) 20 (K (c, some (2, 20))) (K (xp c, some (3, 20))) (owedF c 20) (owedF c 21)
      (by rw [owedF_succ' c 20 (by decide)]; rfl) W30) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 20 (by decide)) $$ [AccCFS Hc]
  · isplitl [AccCFS]; · iexact AccCFS
    iexact Hc
  -- step 127: wait arg7[3] (arg6[![1, 0, 0]], arg1[(k0_off5 d0 1536#32)])
  first | sl_exec | skip
  ihave #HIw := (Prep.inv_ls m KL c 3) $$ HIL
  iapply (Rounds.wp_wait_rest_token 𝒱₀ ER (rd m) (c : Thread nD τ) none (κ := KL (c, 3)) (sm := .dma (lsS 3))
      (wpE_waitDma2_eq 𝒱₀ (c : Thread nD τ) none Set.univ (src := vSlot 1) (dst := lDst c 3)) (Set.mem_univ _) () (O := owedF c 21) (W := W30) (R := 1) (m := 0) (T := ∅)
      (by rw [Nat.zero_add]; exact (expect_st m c 1 1 (by decide)).symm)) $$ [Hc_l3 HO Hat_l3]
  · isplitr; · iexact HIw
    isplitl [Hc_l3]; · iexact Hc_l3
    isplitl [HO]; · iexact HO
    isplitr
    · iapply (mayWait_of_above c (.dma (lsS 3)) _ (by rw [show lv ((c : Thread nD τ), SemLoc.dma (lsS 3)) () = 0 from lv_ls c 3]; exact above_owedF c 21 (by decide)))
      iexact Hlev
    iexact Hat_l3
  iclear HIw
  iclear HRl3
  iintro ⟨HO, Hat_l3, #HRl3, Hpay⟩
  ihave Hp := (Entails.of_eq (rest_st1 m c 1 (by decide))) $$ Hpay
  icases Hp with ⟨Holq, Hv1⟩
  ihave AccOL := (acc_step (famOL m c) 3 (by decide)) $$ [AccOL Holq]
  · isplitl [AccOL]; · iexact AccOL
    iexact Holq
  ihave HOe : iprop(∃ W' : Waits sig Unit, owes (c : Thread nD τ) _ W') $$ [HO]
  · iexists _; iexact HO
  icases HOe with ⟨%W31, HO⟩
  -- step 128: copy src=arg0[(k0_off10 d0)] dst=arg6[![1, 0, 0]] sem=arg7[1]
  first | sl_exec | skip
  ihave Hs := (Entails.of_eq (take_step (famXL m c) 5 (by decide))) $$ [FxL]
  · iexact FxL
  icases Hs with ⟨Hxl, FxL⟩
  ihave #HIl := (Prep.inv_ls m KL c 1) $$ HIL
  iapply (Rounds.wp_copy_pointsTo 𝒱₀ ER (rd m) (c : Thread nD τ) none (src := lSrc c 5) (dst := vSlot 1) (sem := .dma (lsS 1)) (q := fullShare) (fs := xC m c) (fd := VC m c 3)
      (r := 2) (d := false) (κ := KL (c, 1)) (by rw [duties_ls m c 1 2 (by decide)]; exact Finset.mem_singleton_self _) () NV rfl (amount_ld m c 1 2 false)
      (by rw [payload_ls, vLand_pts m c 5 1 (VC m c 3)]; exact BI.Entails.refl _)) $$ [Hxl Hv1 Htl1_2]
  · isplitr; · iexact HIl
    isplitl [Hxl]; · iexact Hxl
    isplitl [Hv1]; · iexact Hv1
    isplitl [Htl1_2]; · iexact Htl1_2
    iexact HRl1
  iclear HIl
  iintro Hc_l1
  -- step 129: wait arg7[1] (arg0[(k0_off10 d0)], arg6[![1, 0, 0]])
  first | sl_exec | skip
  ihave #HIw := (Prep.inv_ls m KL c 1) $$ HIL
  iapply (Rounds.wp_wait_rest_token 𝒱₀ ER (rd m) (c : Thread nD τ) none (κ := KL (c, 1)) (sm := .dma (lsS 1))
      (wpE_waitDma2_eq 𝒱₀ (c : Thread nD τ) none Set.univ (src := lSrc c 5) (dst := vSlot 1)) (Set.mem_univ _) () (O := owedF c 21) (W := W31) (R := 2) (m := 0) (T := ∅)
      (by rw [Nat.zero_add]; exact (expect_ld m c 1 2 (by decide)).symm)) $$ [Hc_l1 HO Hat_l1]
  · isplitr; · iexact HIw
    isplitl [Hc_l1]; · iexact Hc_l1
    isplitl [HO]; · iexact HO
    isplitr
    · iapply (mayWait_of_above c (.dma (lsS 1)) _ (by rw [show lv ((c : Thread nD τ), SemLoc.dma (lsS 1)) () = 0 from lv_ls c 1]; exact above_owedF c 21 (by decide)))
      iexact Hlev
    iexact Hat_l1
  iclear HIw
  iclear HRl1
  iintro ⟨HO, Hat_l1, #HRl1, Hpay⟩
  ihave Hp := (Entails.of_eq (rest_ld1 m c 2 (by decide))) $$ Hpay
  icases Hp with ⟨Hv1, Hxlq⟩
  ihave AccXL := (acc_step (famXL m c) 5 (by decide)) $$ [AccXL Hxlq]
  · isplitl [AccXL]; · iexact AccXL
    iexact Hxlq
  ihave HOe : iprop(∃ W' : Waits sig Unit, owes (c : Thread nD τ) _ W') $$ [HO]
  · iexists _; iexact HO
  icases HOe with ⟨%W32, HO⟩
  -- step 130: copy src=arg6[![1, 0, 0]] dst=arg1[(k0_off5 d0 2560#32)] sem=arg7[3]
  first | sl_exec | skip
  ihave Hs := (Entails.of_eq (take_step (famOL0 m c) 5 (by decide))) $$ [FoL]
  · iexact FoL
  icases Hs with ⟨Hol, FoL⟩
  ihave #HIl := (Prep.inv_ls m KL c 3) $$ HIL
  iapply (Rounds.wp_copy_pointsTo 𝒱₀ ER (rd m) (c : Thread nD τ) none (src := vSlot 1) (dst := lDst c 5) (sem := .dma (lsS 3)) (q := fullShare) (fs := VC m c 5) (fd := o0 m c)
      (r := 2) (d := false) (κ := KL (c, 3)) (by rw [duties_ls m c 3 2 (by decide)]; exact Finset.mem_singleton_self _) () NO rfl (amount_st m c 1 2 false)
      (by rw [payload_ls, lLandV_pts m c 5 1 (o0 m c)]; exact BI.Entails.refl _)) $$ [Hv1 Hol Htl3_2]
  · isplitr; · iexact HIl
    isplitl [Hv1]; · iexact Hv1
    isplitl [Hol]; · iexact Hol
    isplitl [Htl3_2]; · iexact Htl3_2
    iexact HRl3
  iclear HIl
  iintro Hc_l3
  -- step 131: wait arg3[21] (arg0[(k0_off2 d0 1344#32)], arg1[(k0_off1 d0 1344#32)])
  first | sl_exec | skip
  ihave Hs := (Entails.of_eq (take_step (famCYR (F := F) c) 21 (by decide))) $$ [FcYR]
  · iexact FcYR
  icases Hs with ⟨Hc, FcYR⟩
  ihave Hs := (Entails.of_eq (take_step (famAtYR (F := F) c) 21 (by decide))) $$ [FatYR]
  · iexact FatYR
  icases Hs with ⟨Hat, FatYR⟩
  ihave #HIw := (Prep.inv_yr m K c 21) $$ HI
  iapply (Rounds.wp_wait_rest_token 𝒱₀ ER (rd m) (c : Thread nD τ) none (κ := K (c, some (1, 21))) (sm := .dma (yrS 21))
      (wpE_waitDma2_eq 𝒱₀ (c : Thread nD τ) none Set.univ (src := ySrc c 21) (dst := yDst c 21)) (Set.mem_univ _) () (O := owedF c 21) (W := W32) (R := 0) (m := 0) (T := ∅)
      (by rw [Nat.zero_add]; exact (expect_yr m c 21).symm)) $$ [Hc HO Hat]
  · isplitr; · iexact HIw
    isplitl [Hc]; · iexact Hc
    isplitl [HO]; · iexact HO
    isplitr
    · iapply (mayWait_of_above c (.dma (yrS 21)) _ (by rw [show lv ((c : Thread nD τ), SemLoc.dma (yrS 21)) () = 2 from lv_yr c 21]; exact above_owedF c 21 (by decide)))
      iexact Hlev
    iexact Hat
  iclear HIw
  iintro ⟨HO, Hat, -, Hpay⟩
  ihave HYk := (Entails.of_eq (rest_yr' m c 21)) $$ Hpay
  ihave #HIx := (Prep.inv_yr m K c 21) $$ HI
  imod (Rounds.cell_close ER (rd m) (Set.mem_univ (K (c, some (1, 21)))) (fun h => h) (R := 0 + 1) (duties_yr_later m c 21)) $$ [Hat] with Hz
  · isplitr; · iexact HIx
    iexact Hat
  iclear HIx
  ihave AccZyr := (acc_step (famZyr (F := F) c) 21 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W33, HO⟩
  -- step 132: send k0_dev88 src=arg1[(k0_off3 d0 1344#32)] dst=arg1[(k0_off3 d0 1344#32)] ssem=arg4[21] rsem=arg5[21]
  first | sl_exec | skip
  ihave Hs := (Entails.of_eq (take_step (famTFS (F := F) c) 21 (by decide))) $$ [FtFS]
  · iexact FtFS
  icases Hs with ⟨Ht1, FtFS⟩
  ihave Hs := (Entails.of_eq (take_step (famTFRP (F := F) c) 21 (by decide))) $$ [FtFRP]
  · iexact FtFRP
  icases Hs with ⟨Ht2, FtFRP⟩
  ihave Hs := (Entails.of_eq (take_step (famDF m c) 21 (by decide))) $$ [FdF]
  · iexact FdF
  icases Hs with ⟨Hd, FdF⟩
  ihave #HI1 := (Prep.inv_fs m K c 21) $$ HI
  ihave #HI2 := (Prep.inv_fr m K (xp c) 21) $$ HI
  ihave #HR1 := (Prep.reached_fs (F := F) c 21) $$ HR
  ihave #HR2 := (Prep.reached_fr (F := F) (xp c) 21) $$ HR
  iapply (wp_fsend m c _ (dev88_eq c) 21 (K (c, some (2, 21))) (K (xp c, some (3, 21))) (owedF c 21) (owedF c 22)
      (by rw [owedF_succ' c 21 (by decide)]; rfl) W33) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 21 (by decide)) $$ [AccCFS Hc]
  · isplitl [AccCFS]; · iexact AccCFS
    iexact Hc
  -- step 133: wait arg3[22] (arg0[(k0_off2 d0 1408#32)], arg1[(k0_off1 d0 1408#32)])
  first | sl_exec | skip
  ihave Hs := (Entails.of_eq (take_step (famCYR (F := F) c) 22 (by decide))) $$ [FcYR]
  · iexact FcYR
  icases Hs with ⟨Hc, FcYR⟩
  ihave Hs := (Entails.of_eq (take_step (famAtYR (F := F) c) 22 (by decide))) $$ [FatYR]
  · iexact FatYR
  icases Hs with ⟨Hat, FatYR⟩
  ihave #HIw := (Prep.inv_yr m K c 22) $$ HI
  iapply (Rounds.wp_wait_rest_token 𝒱₀ ER (rd m) (c : Thread nD τ) none (κ := K (c, some (1, 22))) (sm := .dma (yrS 22))
      (wpE_waitDma2_eq 𝒱₀ (c : Thread nD τ) none Set.univ (src := ySrc c 22) (dst := yDst c 22)) (Set.mem_univ _) () (O := owedF c 22) (W := W33) (R := 0) (m := 0) (T := ∅)
      (by rw [Nat.zero_add]; exact (expect_yr m c 22).symm)) $$ [Hc HO Hat]
  · isplitr; · iexact HIw
    isplitl [Hc]; · iexact Hc
    isplitl [HO]; · iexact HO
    isplitr
    · iapply (mayWait_of_above c (.dma (yrS 22)) _ (by rw [show lv ((c : Thread nD τ), SemLoc.dma (yrS 22)) () = 2 from lv_yr c 22]; exact above_owedF c 22 (by decide)))
      iexact Hlev
    iexact Hat
  iclear HIw
  iintro ⟨HO, Hat, -, Hpay⟩
  ihave HYk := (Entails.of_eq (rest_yr' m c 22)) $$ Hpay
  ihave #HIx := (Prep.inv_yr m K c 22) $$ HI
  imod (Rounds.cell_close ER (rd m) (Set.mem_univ (K (c, some (1, 22)))) (fun h => h) (R := 0 + 1) (duties_yr_later m c 22)) $$ [Hat] with Hz
  · isplitr; · iexact HIx
    iexact Hat
  iclear HIx
  ihave AccZyr := (acc_step (famZyr (F := F) c) 22 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W34, HO⟩
  -- step 134: send k0_dev89 src=arg1[(k0_off3 d0 1408#32)] dst=arg1[(k0_off3 d0 1408#32)] ssem=arg4[22] rsem=arg5[22]
  first | sl_exec | skip
  ihave Hs := (Entails.of_eq (take_step (famTFS (F := F) c) 22 (by decide))) $$ [FtFS]
  · iexact FtFS
  icases Hs with ⟨Ht1, FtFS⟩
  ihave Hs := (Entails.of_eq (take_step (famTFRP (F := F) c) 22 (by decide))) $$ [FtFRP]
  · iexact FtFRP
  icases Hs with ⟨Ht2, FtFRP⟩
  ihave Hs := (Entails.of_eq (take_step (famDF m c) 22 (by decide))) $$ [FdF]
  · iexact FdF
  icases Hs with ⟨Hd, FdF⟩
  ihave #HI1 := (Prep.inv_fs m K c 22) $$ HI
  ihave #HI2 := (Prep.inv_fr m K (xp c) 22) $$ HI
  ihave #HR1 := (Prep.reached_fs (F := F) c 22) $$ HR
  ihave #HR2 := (Prep.reached_fr (F := F) (xp c) 22) $$ HR
  iapply (wp_fsend m c _ (dev89_eq c) 22 (K (c, some (2, 22))) (K (xp c, some (3, 22))) (owedF c 22) (owedF c 23)
      (by rw [owedF_succ' c 22 (by decide)]; rfl) W34) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 22 (by decide)) $$ [AccCFS Hc]
  · isplitl [AccCFS]; · iexact AccCFS
    iexact Hc
  -- step 135: wait arg3[23] (arg0[(k0_off2 d0 1472#32)], arg1[(k0_off1 d0 1472#32)])
  first | sl_exec | skip
  ihave Hs := (Entails.of_eq (take_step (famCYR (F := F) c) 23 (by decide))) $$ [FcYR]
  · iexact FcYR
  icases Hs with ⟨Hc, FcYR⟩
  ihave Hs := (Entails.of_eq (take_step (famAtYR (F := F) c) 23 (by decide))) $$ [FatYR]
  · iexact FatYR
  icases Hs with ⟨Hat, FatYR⟩
  ihave #HIw := (Prep.inv_yr m K c 23) $$ HI
  iapply (Rounds.wp_wait_rest_token 𝒱₀ ER (rd m) (c : Thread nD τ) none (κ := K (c, some (1, 23))) (sm := .dma (yrS 23))
      (wpE_waitDma2_eq 𝒱₀ (c : Thread nD τ) none Set.univ (src := ySrc c 23) (dst := yDst c 23)) (Set.mem_univ _) () (O := owedF c 23) (W := W34) (R := 0) (m := 0) (T := ∅)
      (by rw [Nat.zero_add]; exact (expect_yr m c 23).symm)) $$ [Hc HO Hat]
  · isplitr; · iexact HIw
    isplitl [Hc]; · iexact Hc
    isplitl [HO]; · iexact HO
    isplitr
    · iapply (mayWait_of_above c (.dma (yrS 23)) _ (by rw [show lv ((c : Thread nD τ), SemLoc.dma (yrS 23)) () = 2 from lv_yr c 23]; exact above_owedF c 23 (by decide)))
      iexact Hlev
    iexact Hat
  iclear HIw
  iintro ⟨HO, Hat, -, Hpay⟩
  ihave HYk := (Entails.of_eq (rest_yr' m c 23)) $$ Hpay
  ihave #HIx := (Prep.inv_yr m K c 23) $$ HI
  imod (Rounds.cell_close ER (rd m) (Set.mem_univ (K (c, some (1, 23)))) (fun h => h) (R := 0 + 1) (duties_yr_later m c 23)) $$ [Hat] with Hz
  · isplitr; · iexact HIx
    iexact Hat
  iclear HIx
  ihave AccZyr := (acc_step (famZyr (F := F) c) 23 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W35, HO⟩
  -- step 136: send k0_dev90 src=arg1[(k0_off3 d0 1472#32)] dst=arg1[(k0_off3 d0 1472#32)] ssem=arg4[23] rsem=arg5[23]
  first | sl_exec | skip
  ihave Hs := (Entails.of_eq (take_step (famTFS (F := F) c) 23 (by decide))) $$ [FtFS]
  · iexact FtFS
  icases Hs with ⟨Ht1, FtFS⟩
  ihave Hs := (Entails.of_eq (take_step (famTFRP (F := F) c) 23 (by decide))) $$ [FtFRP]
  · iexact FtFRP
  icases Hs with ⟨Ht2, FtFRP⟩
  ihave Hs := (Entails.of_eq (take_step (famDF m c) 23 (by decide))) $$ [FdF]
  · iexact FdF
  icases Hs with ⟨Hd, FdF⟩
  ihave #HI1 := (Prep.inv_fs m K c 23) $$ HI
  ihave #HI2 := (Prep.inv_fr m K (xp c) 23) $$ HI
  ihave #HR1 := (Prep.reached_fs (F := F) c 23) $$ HR
  ihave #HR2 := (Prep.reached_fr (F := F) (xp c) 23) $$ HR
  iapply (wp_fsend m c _ (dev90_eq c) 23 (K (c, some (2, 23))) (K (xp c, some (3, 23))) (owedF c 23) (owedF c 24)
      (by rw [owedF_succ' c 23 (by decide)]; rfl) W35) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 23 (by decide)) $$ [AccCFS Hc]
  · isplitl [AccCFS]; · iexact AccCFS
    iexact Hc
  -- step 137: wait arg3[24] (arg0[(k0_off2 d0 1536#32)], arg1[(k0_off1 d0 1536#32)])
  first | sl_exec | skip
  ihave Hs := (Entails.of_eq (take_step (famCYR (F := F) c) 24 (by decide))) $$ [FcYR]
  · iexact FcYR
  icases Hs with ⟨Hc, FcYR⟩
  ihave Hs := (Entails.of_eq (take_step (famAtYR (F := F) c) 24 (by decide))) $$ [FatYR]
  · iexact FatYR
  icases Hs with ⟨Hat, FatYR⟩
  ihave #HIw := (Prep.inv_yr m K c 24) $$ HI
  iapply (Rounds.wp_wait_rest_token 𝒱₀ ER (rd m) (c : Thread nD τ) none (κ := K (c, some (1, 24))) (sm := .dma (yrS 24))
      (wpE_waitDma2_eq 𝒱₀ (c : Thread nD τ) none Set.univ (src := ySrc c 24) (dst := yDst c 24)) (Set.mem_univ _) () (O := owedF c 24) (W := W35) (R := 0) (m := 0) (T := ∅)
      (by rw [Nat.zero_add]; exact (expect_yr m c 24).symm)) $$ [Hc HO Hat]
  · isplitr; · iexact HIw
    isplitl [Hc]; · iexact Hc
    isplitl [HO]; · iexact HO
    isplitr
    · iapply (mayWait_of_above c (.dma (yrS 24)) _ (by rw [show lv ((c : Thread nD τ), SemLoc.dma (yrS 24)) () = 2 from lv_yr c 24]; exact above_owedF c 24 (by decide)))
      iexact Hlev
    iexact Hat
  iclear HIw
  iintro ⟨HO, Hat, -, Hpay⟩
  ihave HYk := (Entails.of_eq (rest_yr' m c 24)) $$ Hpay
  ihave #HIx := (Prep.inv_yr m K c 24) $$ HI
  imod (Rounds.cell_close ER (rd m) (Set.mem_univ (K (c, some (1, 24)))) (fun h => h) (R := 0 + 1) (duties_yr_later m c 24)) $$ [Hat] with Hz
  · isplitr; · iexact HIx
    iexact Hat
  iclear HIx
  ihave AccZyr := (acc_step (famZyr (F := F) c) 24 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W36, HO⟩
  -- step 138: send k0_dev91 src=arg1[(k0_off3 d0 1536#32)] dst=arg1[(k0_off3 d0 1536#32)] ssem=arg4[24] rsem=arg5[24]
  first | sl_exec | skip
  ihave Hs := (Entails.of_eq (take_step (famTFS (F := F) c) 24 (by decide))) $$ [FtFS]
  · iexact FtFS
  icases Hs with ⟨Ht1, FtFS⟩
  ihave Hs := (Entails.of_eq (take_step (famTFRP (F := F) c) 24 (by decide))) $$ [FtFRP]
  · iexact FtFRP
  icases Hs with ⟨Ht2, FtFRP⟩
  ihave Hs := (Entails.of_eq (take_step (famDF m c) 24 (by decide))) $$ [FdF]
  · iexact FdF
  icases Hs with ⟨Hd, FdF⟩
  ihave #HI1 := (Prep.inv_fs m K c 24) $$ HI
  ihave #HI2 := (Prep.inv_fr m K (xp c) 24) $$ HI
  ihave #HR1 := (Prep.reached_fs (F := F) c 24) $$ HR
  ihave #HR2 := (Prep.reached_fr (F := F) (xp c) 24) $$ HR
  iapply (wp_fsend m c _ (dev91_eq c) 24 (K (c, some (2, 24))) (K (xp c, some (3, 24))) (owedF c 24) (owedF c 25)
      (by rw [owedF_succ' c 24 (by decide)]; rfl) W36) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 24 (by decide)) $$ [AccCFS Hc]
  · isplitl [AccCFS]; · iexact AccCFS
    iexact Hc
  -- step 139: wait arg7[2] (arg6[![0, 0, 0]], arg1[(k0_off5 d0 2048#32)])
  first | sl_exec | skip
  ihave #HIw := (Prep.inv_ls m KL c 2) $$ HIL
  iapply (Rounds.wp_wait_rest_token 𝒱₀ ER (rd m) (c : Thread nD τ) none (κ := KL (c, 2)) (sm := .dma (lsS 2))
      (wpE_waitDma2_eq 𝒱₀ (c : Thread nD τ) none Set.univ (src := vSlot 0) (dst := lDst c 4)) (Set.mem_univ _) () (O := owedF c 25) (W := W36) (R := 2) (m := 0) (T := ∅)
      (by rw [Nat.zero_add]; exact (expect_st m c 0 2 (by decide)).symm)) $$ [Hc_l2 HO Hat_l2]
  · isplitr; · iexact HIw
    isplitl [Hc_l2]; · iexact Hc_l2
    isplitl [HO]; · iexact HO
    isplitr
    · iapply (mayWait_of_above c (.dma (lsS 2)) _ (by rw [show lv ((c : Thread nD τ), SemLoc.dma (lsS 2)) () = 0 from lv_ls c 2]; exact above_owedF c 25 (by decide)))
      iexact Hlev
    iexact Hat_l2
  iclear HIw
  iclear HRl2
  iintro ⟨HO, Hat_l2, #HRl2, Hpay⟩
  ihave Hp := (Entails.of_eq (rest_st0 m c 2 (by decide))) $$ Hpay
  icases Hp with ⟨Holq, Hv0⟩
  ihave AccOL := (acc_step (famOL m c) 4 (by decide)) $$ [AccOL Holq]
  · isplitl [AccOL]; · iexact AccOL
    iexact Holq
  ihave HOe : iprop(∃ W' : Waits sig Unit, owes (c : Thread nD τ) _ W') $$ [HO]
  · iexists _; iexact HO
  icases HOe with ⟨%W37, HO⟩
  -- step 140: copy src=arg0[(k0_off11 d0)] dst=arg6[![0, 0, 0]] sem=arg7[0]
  first | sl_exec | skip
  ihave Hs := (Entails.of_eq (take_step (famXL m c) 6 (by decide))) $$ [FxL]
  · iexact FxL
  icases Hs with ⟨Hxl, FxL⟩
  ihave #HIl := (Prep.inv_ls m KL c 0) $$ HIL
  iapply (Rounds.wp_copy_pointsTo 𝒱₀ ER (rd m) (c : Thread nD τ) none (src := lSrc c 6) (dst := vSlot 0) (sem := .dma (lsS 0)) (q := fullShare) (fs := xC m c) (fd := VC m c 4)
      (r := 3) (d := false) (κ := KL (c, 0)) (by rw [duties_ls m c 0 3 (by decide)]; exact Finset.mem_singleton_self _) () NV rfl (amount_ld m c 0 3 false)
      (by rw [payload_ls, vLand_pts m c 6 0 (VC m c 4)]; exact BI.Entails.refl _)) $$ [Hxl Hv0 Htl0_3]
  · isplitr; · iexact HIl
    isplitl [Hxl]; · iexact Hxl
    isplitl [Hv0]; · iexact Hv0
    isplitl [Htl0_3]; · iexact Htl0_3
    iexact HRl0
  iclear HIl
  iintro Hc_l0
  -- step 141: wait arg7[0] (arg0[(k0_off11 d0)], arg6[![0, 0, 0]])
  first | sl_exec | skip
  ihave #HIw := (Prep.inv_ls m KL c 0) $$ HIL
  iapply (Rounds.wp_wait_rest_token 𝒱₀ ER (rd m) (c : Thread nD τ) none (κ := KL (c, 0)) (sm := .dma (lsS 0))
      (wpE_waitDma2_eq 𝒱₀ (c : Thread nD τ) none Set.univ (src := lSrc c 6) (dst := vSlot 0)) (Set.mem_univ _) () (O := owedF c 25) (W := W37) (R := 3) (m := 0) (T := ∅)
      (by rw [Nat.zero_add]; exact (expect_ld m c 0 3 (by decide)).symm)) $$ [Hc_l0 HO Hat_l0]
  · isplitr; · iexact HIw
    isplitl [Hc_l0]; · iexact Hc_l0
    isplitl [HO]; · iexact HO
    isplitr
    · iapply (mayWait_of_above c (.dma (lsS 0)) _ (by rw [show lv ((c : Thread nD τ), SemLoc.dma (lsS 0)) () = 0 from lv_ls c 0]; exact above_owedF c 25 (by decide)))
      iexact Hlev
    iexact Hat_l0
  iclear HIw
  iclear HRl0
  iintro ⟨HO, Hat_l0, #HRl0, Hpay⟩
  ihave Hp := (Entails.of_eq (rest_ld0 m c 3 (by decide))) $$ Hpay
  icases Hp with ⟨Hv0, Hxlq⟩
  ihave AccXL := (acc_step (famXL m c) 6 (by decide)) $$ [AccXL Hxlq]
  · isplitl [AccXL]; · iexact AccXL
    iexact Hxlq
  ihave HOe : iprop(∃ W' : Waits sig Unit, owes (c : Thread nD τ) _ W') $$ [HO]
  · iexists _; iexact HO
  icases HOe with ⟨%W38, HO⟩
  -- step 142: copy src=arg6[![0, 0, 0]] dst=arg1[(k0_off5 d0 3072#32)] sem=arg7[2]
  first | sl_exec | skip
  ihave Hs := (Entails.of_eq (take_step (famOL0 m c) 6 (by decide))) $$ [FoL]
  · iexact FoL
  icases Hs with ⟨Hol, FoL⟩
  ihave #HIl := (Prep.inv_ls m KL c 2) $$ HIL
  iapply (Rounds.wp_copy_pointsTo 𝒱₀ ER (rd m) (c : Thread nD τ) none (src := vSlot 0) (dst := lDst c 6) (sem := .dma (lsS 2)) (q := fullShare) (fs := VC m c 6) (fd := o0 m c)
      (r := 3) (d := false) (κ := KL (c, 2)) (by rw [duties_ls m c 2 3 (by decide)]; exact Finset.mem_singleton_self _) () NO rfl (amount_st m c 0 3 false)
      (by rw [payload_ls, lLandV_pts m c 6 0 (o0 m c)]; exact BI.Entails.refl _)) $$ [Hv0 Hol Htl2_3]
  · isplitr; · iexact HIl
    isplitl [Hv0]; · iexact Hv0
    isplitl [Hol]; · iexact Hol
    isplitl [Htl2_3]; · iexact Htl2_3
    iexact HRl2
  iclear HIl
  iintro Hc_l2
  -- step 143: wait arg3[25] (arg0[(k0_off2 d0 1600#32)], arg1[(k0_off1 d0 1600#32)])
  first | sl_exec | skip
  ihave Hs := (Entails.of_eq (take_step (famCYR (F := F) c) 25 (by decide))) $$ [FcYR]
  · iexact FcYR
  icases Hs with ⟨Hc, FcYR⟩
  ihave Hs := (Entails.of_eq (take_step (famAtYR (F := F) c) 25 (by decide))) $$ [FatYR]
  · iexact FatYR
  icases Hs with ⟨Hat, FatYR⟩
  ihave #HIw := (Prep.inv_yr m K c 25) $$ HI
  iapply (Rounds.wp_wait_rest_token 𝒱₀ ER (rd m) (c : Thread nD τ) none (κ := K (c, some (1, 25))) (sm := .dma (yrS 25))
      (wpE_waitDma2_eq 𝒱₀ (c : Thread nD τ) none Set.univ (src := ySrc c 25) (dst := yDst c 25)) (Set.mem_univ _) () (O := owedF c 25) (W := W38) (R := 0) (m := 0) (T := ∅)
      (by rw [Nat.zero_add]; exact (expect_yr m c 25).symm)) $$ [Hc HO Hat]
  · isplitr; · iexact HIw
    isplitl [Hc]; · iexact Hc
    isplitl [HO]; · iexact HO
    isplitr
    · iapply (mayWait_of_above c (.dma (yrS 25)) _ (by rw [show lv ((c : Thread nD τ), SemLoc.dma (yrS 25)) () = 2 from lv_yr c 25]; exact above_owedF c 25 (by decide)))
      iexact Hlev
    iexact Hat
  iclear HIw
  iintro ⟨HO, Hat, -, Hpay⟩
  ihave HYk := (Entails.of_eq (rest_yr' m c 25)) $$ Hpay
  ihave #HIx := (Prep.inv_yr m K c 25) $$ HI
  imod (Rounds.cell_close ER (rd m) (Set.mem_univ (K (c, some (1, 25)))) (fun h => h) (R := 0 + 1) (duties_yr_later m c 25)) $$ [Hat] with Hz
  · isplitr; · iexact HIx
    iexact Hat
  iclear HIx
  ihave AccZyr := (acc_step (famZyr (F := F) c) 25 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W39, HO⟩
  -- step 144: send k0_dev92 src=arg1[(k0_off3 d0 1600#32)] dst=arg1[(k0_off3 d0 1600#32)] ssem=arg4[25] rsem=arg5[25]
  first | sl_exec | skip
  ihave Hs := (Entails.of_eq (take_step (famTFS (F := F) c) 25 (by decide))) $$ [FtFS]
  · iexact FtFS
  icases Hs with ⟨Ht1, FtFS⟩
  ihave Hs := (Entails.of_eq (take_step (famTFRP (F := F) c) 25 (by decide))) $$ [FtFRP]
  · iexact FtFRP
  icases Hs with ⟨Ht2, FtFRP⟩
  ihave Hs := (Entails.of_eq (take_step (famDF m c) 25 (by decide))) $$ [FdF]
  · iexact FdF
  icases Hs with ⟨Hd, FdF⟩
  ihave #HI1 := (Prep.inv_fs m K c 25) $$ HI
  ihave #HI2 := (Prep.inv_fr m K (xp c) 25) $$ HI
  ihave #HR1 := (Prep.reached_fs (F := F) c 25) $$ HR
  ihave #HR2 := (Prep.reached_fr (F := F) (xp c) 25) $$ HR
  iapply (wp_fsend m c _ (dev92_eq c) 25 (K (c, some (2, 25))) (K (xp c, some (3, 25))) (owedF c 25) (owedF c 26)
      (by rw [owedF_succ' c 25 (by decide)]; rfl) W39) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 25 (by decide)) $$ [AccCFS Hc]
  · isplitl [AccCFS]; · iexact AccCFS
    iexact Hc
  -- step 145: wait arg3[26] (arg0[(k0_off2 d0 1664#32)], arg1[(k0_off1 d0 1664#32)])
  first | sl_exec | skip
  ihave Hs := (Entails.of_eq (take_step (famCYR (F := F) c) 26 (by decide))) $$ [FcYR]
  · iexact FcYR
  icases Hs with ⟨Hc, FcYR⟩
  ihave Hs := (Entails.of_eq (take_step (famAtYR (F := F) c) 26 (by decide))) $$ [FatYR]
  · iexact FatYR
  icases Hs with ⟨Hat, FatYR⟩
  ihave #HIw := (Prep.inv_yr m K c 26) $$ HI
  iapply (Rounds.wp_wait_rest_token 𝒱₀ ER (rd m) (c : Thread nD τ) none (κ := K (c, some (1, 26))) (sm := .dma (yrS 26))
      (wpE_waitDma2_eq 𝒱₀ (c : Thread nD τ) none Set.univ (src := ySrc c 26) (dst := yDst c 26)) (Set.mem_univ _) () (O := owedF c 26) (W := W39) (R := 0) (m := 0) (T := ∅)
      (by rw [Nat.zero_add]; exact (expect_yr m c 26).symm)) $$ [Hc HO Hat]
  · isplitr; · iexact HIw
    isplitl [Hc]; · iexact Hc
    isplitl [HO]; · iexact HO
    isplitr
    · iapply (mayWait_of_above c (.dma (yrS 26)) _ (by rw [show lv ((c : Thread nD τ), SemLoc.dma (yrS 26)) () = 2 from lv_yr c 26]; exact above_owedF c 26 (by decide)))
      iexact Hlev
    iexact Hat
  iclear HIw
  iintro ⟨HO, Hat, -, Hpay⟩
  ihave HYk := (Entails.of_eq (rest_yr' m c 26)) $$ Hpay
  ihave #HIx := (Prep.inv_yr m K c 26) $$ HI
  imod (Rounds.cell_close ER (rd m) (Set.mem_univ (K (c, some (1, 26)))) (fun h => h) (R := 0 + 1) (duties_yr_later m c 26)) $$ [Hat] with Hz
  · isplitr; · iexact HIx
    iexact Hat
  iclear HIx
  ihave AccZyr := (acc_step (famZyr (F := F) c) 26 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W40, HO⟩
  -- step 146: send k0_dev93 src=arg1[(k0_off3 d0 1664#32)] dst=arg1[(k0_off3 d0 1664#32)] ssem=arg4[26] rsem=arg5[26]
  first | sl_exec | skip
  ihave Hs := (Entails.of_eq (take_step (famTFS (F := F) c) 26 (by decide))) $$ [FtFS]
  · iexact FtFS
  icases Hs with ⟨Ht1, FtFS⟩
  ihave Hs := (Entails.of_eq (take_step (famTFRP (F := F) c) 26 (by decide))) $$ [FtFRP]
  · iexact FtFRP
  icases Hs with ⟨Ht2, FtFRP⟩
  ihave Hs := (Entails.of_eq (take_step (famDF m c) 26 (by decide))) $$ [FdF]
  · iexact FdF
  icases Hs with ⟨Hd, FdF⟩
  ihave #HI1 := (Prep.inv_fs m K c 26) $$ HI
  ihave #HI2 := (Prep.inv_fr m K (xp c) 26) $$ HI
  ihave #HR1 := (Prep.reached_fs (F := F) c 26) $$ HR
  ihave #HR2 := (Prep.reached_fr (F := F) (xp c) 26) $$ HR
  iapply (wp_fsend m c _ (dev93_eq c) 26 (K (c, some (2, 26))) (K (xp c, some (3, 26))) (owedF c 26) (owedF c 27)
      (by rw [owedF_succ' c 26 (by decide)]; rfl) W40) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 26 (by decide)) $$ [AccCFS Hc]
  · isplitl [AccCFS]; · iexact AccCFS
    iexact Hc
  -- step 147: wait arg3[27] (arg0[(k0_off2 d0 1728#32)], arg1[(k0_off1 d0 1728#32)])
  first | sl_exec | skip
  ihave Hs := (Entails.of_eq (take_step (famCYR (F := F) c) 27 (by decide))) $$ [FcYR]
  · iexact FcYR
  icases Hs with ⟨Hc, FcYR⟩
  ihave Hs := (Entails.of_eq (take_step (famAtYR (F := F) c) 27 (by decide))) $$ [FatYR]
  · iexact FatYR
  icases Hs with ⟨Hat, FatYR⟩
  ihave #HIw := (Prep.inv_yr m K c 27) $$ HI
  iapply (Rounds.wp_wait_rest_token 𝒱₀ ER (rd m) (c : Thread nD τ) none (κ := K (c, some (1, 27))) (sm := .dma (yrS 27))
      (wpE_waitDma2_eq 𝒱₀ (c : Thread nD τ) none Set.univ (src := ySrc c 27) (dst := yDst c 27)) (Set.mem_univ _) () (O := owedF c 27) (W := W40) (R := 0) (m := 0) (T := ∅)
      (by rw [Nat.zero_add]; exact (expect_yr m c 27).symm)) $$ [Hc HO Hat]
  · isplitr; · iexact HIw
    isplitl [Hc]; · iexact Hc
    isplitl [HO]; · iexact HO
    isplitr
    · iapply (mayWait_of_above c (.dma (yrS 27)) _ (by rw [show lv ((c : Thread nD τ), SemLoc.dma (yrS 27)) () = 2 from lv_yr c 27]; exact above_owedF c 27 (by decide)))
      iexact Hlev
    iexact Hat
  iclear HIw
  iintro ⟨HO, Hat, -, Hpay⟩
  ihave HYk := (Entails.of_eq (rest_yr' m c 27)) $$ Hpay
  ihave #HIx := (Prep.inv_yr m K c 27) $$ HI
  imod (Rounds.cell_close ER (rd m) (Set.mem_univ (K (c, some (1, 27)))) (fun h => h) (R := 0 + 1) (duties_yr_later m c 27)) $$ [Hat] with Hz
  · isplitr; · iexact HIx
    iexact Hat
  iclear HIx
  ihave AccZyr := (acc_step (famZyr (F := F) c) 27 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W41, HO⟩
  -- step 148: send k0_dev94 src=arg1[(k0_off3 d0 1728#32)] dst=arg1[(k0_off3 d0 1728#32)] ssem=arg4[27] rsem=arg5[27]
  first | sl_exec | skip
  ihave Hs := (Entails.of_eq (take_step (famTFS (F := F) c) 27 (by decide))) $$ [FtFS]
  · iexact FtFS
  icases Hs with ⟨Ht1, FtFS⟩
  ihave Hs := (Entails.of_eq (take_step (famTFRP (F := F) c) 27 (by decide))) $$ [FtFRP]
  · iexact FtFRP
  icases Hs with ⟨Ht2, FtFRP⟩
  ihave Hs := (Entails.of_eq (take_step (famDF m c) 27 (by decide))) $$ [FdF]
  · iexact FdF
  icases Hs with ⟨Hd, FdF⟩
  ihave #HI1 := (Prep.inv_fs m K c 27) $$ HI
  ihave #HI2 := (Prep.inv_fr m K (xp c) 27) $$ HI
  ihave #HR1 := (Prep.reached_fs (F := F) c 27) $$ HR
  ihave #HR2 := (Prep.reached_fr (F := F) (xp c) 27) $$ HR
  iapply (wp_fsend m c _ (dev94_eq c) 27 (K (c, some (2, 27))) (K (xp c, some (3, 27))) (owedF c 27) (owedF c 28)
      (by rw [owedF_succ' c 27 (by decide)]; rfl) W41) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 27 (by decide)) $$ [AccCFS Hc]
  · isplitl [AccCFS]; · iexact AccCFS
    iexact Hc
  -- step 149: wait arg3[28] (arg0[(k0_off2 d0 1792#32)], arg1[(k0_off1 d0 1792#32)])
  first | sl_exec | skip
  ihave Hs := (Entails.of_eq (take_step (famCYR (F := F) c) 28 (by decide))) $$ [FcYR]
  · iexact FcYR
  icases Hs with ⟨Hc, FcYR⟩
  ihave Hs := (Entails.of_eq (take_step (famAtYR (F := F) c) 28 (by decide))) $$ [FatYR]
  · iexact FatYR
  icases Hs with ⟨Hat, FatYR⟩
  ihave #HIw := (Prep.inv_yr m K c 28) $$ HI
  iapply (Rounds.wp_wait_rest_token 𝒱₀ ER (rd m) (c : Thread nD τ) none (κ := K (c, some (1, 28))) (sm := .dma (yrS 28))
      (wpE_waitDma2_eq 𝒱₀ (c : Thread nD τ) none Set.univ (src := ySrc c 28) (dst := yDst c 28)) (Set.mem_univ _) () (O := owedF c 28) (W := W41) (R := 0) (m := 0) (T := ∅)
      (by rw [Nat.zero_add]; exact (expect_yr m c 28).symm)) $$ [Hc HO Hat]
  · isplitr; · iexact HIw
    isplitl [Hc]; · iexact Hc
    isplitl [HO]; · iexact HO
    isplitr
    · iapply (mayWait_of_above c (.dma (yrS 28)) _ (by rw [show lv ((c : Thread nD τ), SemLoc.dma (yrS 28)) () = 2 from lv_yr c 28]; exact above_owedF c 28 (by decide)))
      iexact Hlev
    iexact Hat
  iclear HIw
  iintro ⟨HO, Hat, -, Hpay⟩
  ihave HYk := (Entails.of_eq (rest_yr' m c 28)) $$ Hpay
  ihave #HIx := (Prep.inv_yr m K c 28) $$ HI
  imod (Rounds.cell_close ER (rd m) (Set.mem_univ (K (c, some (1, 28)))) (fun h => h) (R := 0 + 1) (duties_yr_later m c 28)) $$ [Hat] with Hz
  · isplitr; · iexact HIx
    iexact Hat
  iclear HIx
  ihave AccZyr := (acc_step (famZyr (F := F) c) 28 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W42, HO⟩
  -- step 150: send k0_dev95 src=arg1[(k0_off3 d0 1792#32)] dst=arg1[(k0_off3 d0 1792#32)] ssem=arg4[28] rsem=arg5[28]
  first | sl_exec | skip
  ihave Hs := (Entails.of_eq (take_step (famTFS (F := F) c) 28 (by decide))) $$ [FtFS]
  · iexact FtFS
  icases Hs with ⟨Ht1, FtFS⟩
  ihave Hs := (Entails.of_eq (take_step (famTFRP (F := F) c) 28 (by decide))) $$ [FtFRP]
  · iexact FtFRP
  icases Hs with ⟨Ht2, FtFRP⟩
  ihave Hs := (Entails.of_eq (take_step (famDF m c) 28 (by decide))) $$ [FdF]
  · iexact FdF
  icases Hs with ⟨Hd, FdF⟩
  ihave #HI1 := (Prep.inv_fs m K c 28) $$ HI
  ihave #HI2 := (Prep.inv_fr m K (xp c) 28) $$ HI
  ihave #HR1 := (Prep.reached_fs (F := F) c 28) $$ HR
  ihave #HR2 := (Prep.reached_fr (F := F) (xp c) 28) $$ HR
  iapply (wp_fsend m c _ (dev95_eq c) 28 (K (c, some (2, 28))) (K (xp c, some (3, 28))) (owedF c 28) (owedF c 29)
      (by rw [owedF_succ' c 28 (by decide)]; rfl) W42) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 28 (by decide)) $$ [AccCFS Hc]
  · isplitl [AccCFS]; · iexact AccCFS
    iexact Hc
  -- step 151: wait arg7[3] (arg6[![1, 0, 0]], arg1[(k0_off5 d0 2560#32)])
  first | sl_exec | skip
  ihave #HIw := (Prep.inv_ls m KL c 3) $$ HIL
  iapply (Rounds.wp_wait_rest_token 𝒱₀ ER (rd m) (c : Thread nD τ) none (κ := KL (c, 3)) (sm := .dma (lsS 3))
      (wpE_waitDma2_eq 𝒱₀ (c : Thread nD τ) none Set.univ (src := vSlot 1) (dst := lDst c 5)) (Set.mem_univ _) () (O := owedF c 29) (W := W42) (R := 2) (m := 0) (T := ∅)
      (by rw [Nat.zero_add]; exact (expect_st m c 1 2 (by decide)).symm)) $$ [Hc_l3 HO Hat_l3]
  · isplitr; · iexact HIw
    isplitl [Hc_l3]; · iexact Hc_l3
    isplitl [HO]; · iexact HO
    isplitr
    · iapply (mayWait_of_above c (.dma (lsS 3)) _ (by rw [show lv ((c : Thread nD τ), SemLoc.dma (lsS 3)) () = 0 from lv_ls c 3]; exact above_owedF c 29 (by decide)))
      iexact Hlev
    iexact Hat_l3
  iclear HIw
  iclear HRl3
  iintro ⟨HO, Hat_l3, #HRl3, Hpay⟩
  ihave Hp := (Entails.of_eq (rest_st1 m c 2 (by decide))) $$ Hpay
  icases Hp with ⟨Holq, Hv1⟩
  ihave AccOL := (acc_step (famOL m c) 5 (by decide)) $$ [AccOL Holq]
  · isplitl [AccOL]; · iexact AccOL
    iexact Holq
  ihave HOe : iprop(∃ W' : Waits sig Unit, owes (c : Thread nD τ) _ W') $$ [HO]
  · iexists _; iexact HO
  icases HOe with ⟨%W43, HO⟩
  -- step 152: copy src=arg0[(k0_off12 d0)] dst=arg6[![1, 0, 0]] sem=arg7[1]
  first | sl_exec | skip
  ihave Hs := (Entails.of_eq (take_step (famXL m c) 7 (by decide))) $$ [FxL]
  · iexact FxL
  icases Hs with ⟨Hxl, FxL⟩
  ihave #HIl := (Prep.inv_ls m KL c 1) $$ HIL
  iapply (Rounds.wp_copy_pointsTo 𝒱₀ ER (rd m) (c : Thread nD τ) none (src := lSrc c 7) (dst := vSlot 1) (sem := .dma (lsS 1)) (q := fullShare) (fs := xC m c) (fd := VC m c 5)
      (r := 3) (d := false) (κ := KL (c, 1)) (by rw [duties_ls m c 1 3 (by decide)]; exact Finset.mem_singleton_self _) () NV rfl (amount_ld m c 1 3 false)
      (by rw [payload_ls, vLand_pts m c 7 1 (VC m c 5)]; exact BI.Entails.refl _)) $$ [Hxl Hv1 Htl1_3]
  · isplitr; · iexact HIl
    isplitl [Hxl]; · iexact Hxl
    isplitl [Hv1]; · iexact Hv1
    isplitl [Htl1_3]; · iexact Htl1_3
    iexact HRl1
  iclear HIl
  iintro Hc_l1
  -- step 153: wait arg7[1] (arg0[(k0_off12 d0)], arg6[![1, 0, 0]])
  first | sl_exec | skip
  ihave #HIw := (Prep.inv_ls m KL c 1) $$ HIL
  iapply (Rounds.wp_wait_rest_token 𝒱₀ ER (rd m) (c : Thread nD τ) none (κ := KL (c, 1)) (sm := .dma (lsS 1))
      (wpE_waitDma2_eq 𝒱₀ (c : Thread nD τ) none Set.univ (src := lSrc c 7) (dst := vSlot 1)) (Set.mem_univ _) () (O := owedF c 29) (W := W43) (R := 3) (m := 0) (T := ∅)
      (by rw [Nat.zero_add]; exact (expect_ld m c 1 3 (by decide)).symm)) $$ [Hc_l1 HO Hat_l1]
  · isplitr; · iexact HIw
    isplitl [Hc_l1]; · iexact Hc_l1
    isplitl [HO]; · iexact HO
    isplitr
    · iapply (mayWait_of_above c (.dma (lsS 1)) _ (by rw [show lv ((c : Thread nD τ), SemLoc.dma (lsS 1)) () = 0 from lv_ls c 1]; exact above_owedF c 29 (by decide)))
      iexact Hlev
    iexact Hat_l1
  iclear HIw
  iclear HRl1
  iintro ⟨HO, Hat_l1, #HRl1, Hpay⟩
  ihave Hp := (Entails.of_eq (rest_ld1 m c 3 (by decide))) $$ Hpay
  icases Hp with ⟨Hv1, Hxlq⟩
  ihave AccXL := (acc_step (famXL m c) 7 (by decide)) $$ [AccXL Hxlq]
  · isplitl [AccXL]; · iexact AccXL
    iexact Hxlq
  ihave HOe : iprop(∃ W' : Waits sig Unit, owes (c : Thread nD τ) _ W') $$ [HO]
  · iexists _; iexact HO
  icases HOe with ⟨%W44, HO⟩
  -- step 154: copy src=arg6[![1, 0, 0]] dst=arg1[(k0_off5 d0 3584#32)] sem=arg7[3]
  first | sl_exec | skip
  ihave Hs := (Entails.of_eq (take_step (famOL0 m c) 7 (by decide))) $$ [FoL]
  · iexact FoL
  icases Hs with ⟨Hol, FoL⟩
  ihave #HIl := (Prep.inv_ls m KL c 3) $$ HIL
  iapply (Rounds.wp_copy_pointsTo 𝒱₀ ER (rd m) (c : Thread nD τ) none (src := vSlot 1) (dst := lDst c 7) (sem := .dma (lsS 3)) (q := fullShare) (fs := VC m c 7) (fd := o0 m c)
      (r := 3) (d := false) (κ := KL (c, 3)) (by rw [duties_ls m c 3 3 (by decide)]; exact Finset.mem_singleton_self _) () NO rfl (amount_st m c 1 3 false)
      (by rw [payload_ls, lLandV_pts m c 7 1 (o0 m c)]; exact BI.Entails.refl _)) $$ [Hv1 Hol Htl3_3]
  · isplitr; · iexact HIl
    isplitl [Hv1]; · iexact Hv1
    isplitl [Hol]; · iexact Hol
    isplitl [Htl3_3]; · iexact Htl3_3
    iexact HRl3
  iclear HIl
  iintro Hc_l3
  -- step 155: wait arg3[29] (arg0[(k0_off2 d0 1856#32)], arg1[(k0_off1 d0 1856#32)])
  first | sl_exec | skip
  ihave Hs := (Entails.of_eq (take_step (famCYR (F := F) c) 29 (by decide))) $$ [FcYR]
  · iexact FcYR
  icases Hs with ⟨Hc, FcYR⟩
  ihave Hs := (Entails.of_eq (take_step (famAtYR (F := F) c) 29 (by decide))) $$ [FatYR]
  · iexact FatYR
  icases Hs with ⟨Hat, FatYR⟩
  ihave #HIw := (Prep.inv_yr m K c 29) $$ HI
  iapply (Rounds.wp_wait_rest_token 𝒱₀ ER (rd m) (c : Thread nD τ) none (κ := K (c, some (1, 29))) (sm := .dma (yrS 29))
      (wpE_waitDma2_eq 𝒱₀ (c : Thread nD τ) none Set.univ (src := ySrc c 29) (dst := yDst c 29)) (Set.mem_univ _) () (O := owedF c 29) (W := W44) (R := 0) (m := 0) (T := ∅)
      (by rw [Nat.zero_add]; exact (expect_yr m c 29).symm)) $$ [Hc HO Hat]
  · isplitr; · iexact HIw
    isplitl [Hc]; · iexact Hc
    isplitl [HO]; · iexact HO
    isplitr
    · iapply (mayWait_of_above c (.dma (yrS 29)) _ (by rw [show lv ((c : Thread nD τ), SemLoc.dma (yrS 29)) () = 2 from lv_yr c 29]; exact above_owedF c 29 (by decide)))
      iexact Hlev
    iexact Hat
  iclear HIw
  iintro ⟨HO, Hat, -, Hpay⟩
  ihave HYk := (Entails.of_eq (rest_yr' m c 29)) $$ Hpay
  ihave #HIx := (Prep.inv_yr m K c 29) $$ HI
  imod (Rounds.cell_close ER (rd m) (Set.mem_univ (K (c, some (1, 29)))) (fun h => h) (R := 0 + 1) (duties_yr_later m c 29)) $$ [Hat] with Hz
  · isplitr; · iexact HIx
    iexact Hat
  iclear HIx
  ihave AccZyr := (acc_step (famZyr (F := F) c) 29 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W45, HO⟩
  -- step 156: send k0_dev96 src=arg1[(k0_off3 d0 1856#32)] dst=arg1[(k0_off3 d0 1856#32)] ssem=arg4[29] rsem=arg5[29]
  first | sl_exec | skip
  ihave Hs := (Entails.of_eq (take_step (famTFS (F := F) c) 29 (by decide))) $$ [FtFS]
  · iexact FtFS
  icases Hs with ⟨Ht1, FtFS⟩
  ihave Hs := (Entails.of_eq (take_step (famTFRP (F := F) c) 29 (by decide))) $$ [FtFRP]
  · iexact FtFRP
  icases Hs with ⟨Ht2, FtFRP⟩
  ihave Hs := (Entails.of_eq (take_step (famDF m c) 29 (by decide))) $$ [FdF]
  · iexact FdF
  icases Hs with ⟨Hd, FdF⟩
  ihave #HI1 := (Prep.inv_fs m K c 29) $$ HI
  ihave #HI2 := (Prep.inv_fr m K (xp c) 29) $$ HI
  ihave #HR1 := (Prep.reached_fs (F := F) c 29) $$ HR
  ihave #HR2 := (Prep.reached_fr (F := F) (xp c) 29) $$ HR
  iapply (wp_fsend m c _ (dev96_eq c) 29 (K (c, some (2, 29))) (K (xp c, some (3, 29))) (owedF c 29) (owedF c 30)
      (by rw [owedF_succ' c 29 (by decide)]; rfl) W45) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 29 (by decide)) $$ [AccCFS Hc]
  · isplitl [AccCFS]; · iexact AccCFS
    iexact Hc
  -- step 157: wait arg3[30] (arg0[(k0_off2 d0 1920#32)], arg1[(k0_off1 d0 1920#32)])
  first | sl_exec | skip
  ihave Hs := (Entails.of_eq (take_step (famCYR (F := F) c) 30 (by decide))) $$ [FcYR]
  · iexact FcYR
  icases Hs with ⟨Hc, FcYR⟩
  ihave Hs := (Entails.of_eq (take_step (famAtYR (F := F) c) 30 (by decide))) $$ [FatYR]
  · iexact FatYR
  icases Hs with ⟨Hat, FatYR⟩
  ihave #HIw := (Prep.inv_yr m K c 30) $$ HI
  iapply (Rounds.wp_wait_rest_token 𝒱₀ ER (rd m) (c : Thread nD τ) none (κ := K (c, some (1, 30))) (sm := .dma (yrS 30))
      (wpE_waitDma2_eq 𝒱₀ (c : Thread nD τ) none Set.univ (src := ySrc c 30) (dst := yDst c 30)) (Set.mem_univ _) () (O := owedF c 30) (W := W45) (R := 0) (m := 0) (T := ∅)
      (by rw [Nat.zero_add]; exact (expect_yr m c 30).symm)) $$ [Hc HO Hat]
  · isplitr; · iexact HIw
    isplitl [Hc]; · iexact Hc
    isplitl [HO]; · iexact HO
    isplitr
    · iapply (mayWait_of_above c (.dma (yrS 30)) _ (by rw [show lv ((c : Thread nD τ), SemLoc.dma (yrS 30)) () = 2 from lv_yr c 30]; exact above_owedF c 30 (by decide)))
      iexact Hlev
    iexact Hat
  iclear HIw
  iintro ⟨HO, Hat, -, Hpay⟩
  ihave HYk := (Entails.of_eq (rest_yr' m c 30)) $$ Hpay
  ihave #HIx := (Prep.inv_yr m K c 30) $$ HI
  imod (Rounds.cell_close ER (rd m) (Set.mem_univ (K (c, some (1, 30)))) (fun h => h) (R := 0 + 1) (duties_yr_later m c 30)) $$ [Hat] with Hz
  · isplitr; · iexact HIx
    iexact Hat
  iclear HIx
  ihave AccZyr := (acc_step (famZyr (F := F) c) 30 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W46, HO⟩
  -- step 158: send k0_dev97 src=arg1[(k0_off3 d0 1920#32)] dst=arg1[(k0_off3 d0 1920#32)] ssem=arg4[30] rsem=arg5[30]
  first | sl_exec | skip
  ihave Hs := (Entails.of_eq (take_step (famTFS (F := F) c) 30 (by decide))) $$ [FtFS]
  · iexact FtFS
  icases Hs with ⟨Ht1, FtFS⟩
  ihave Hs := (Entails.of_eq (take_step (famTFRP (F := F) c) 30 (by decide))) $$ [FtFRP]
  · iexact FtFRP
  icases Hs with ⟨Ht2, FtFRP⟩
  ihave Hs := (Entails.of_eq (take_step (famDF m c) 30 (by decide))) $$ [FdF]
  · iexact FdF
  icases Hs with ⟨Hd, FdF⟩
  ihave #HI1 := (Prep.inv_fs m K c 30) $$ HI
  ihave #HI2 := (Prep.inv_fr m K (xp c) 30) $$ HI
  ihave #HR1 := (Prep.reached_fs (F := F) c 30) $$ HR
  ihave #HR2 := (Prep.reached_fr (F := F) (xp c) 30) $$ HR
  iapply (wp_fsend m c _ (dev97_eq c) 30 (K (c, some (2, 30))) (K (xp c, some (3, 30))) (owedF c 30) (owedF c 31)
      (by rw [owedF_succ' c 30 (by decide)]; rfl) W46) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 30 (by decide)) $$ [AccCFS Hc]
  · isplitl [AccCFS]; · iexact AccCFS
    iexact Hc
  -- step 159: wait arg3[31] (arg0[(k0_off2 d0 1984#32)], arg1[(k0_off1 d0 1984#32)])
  first | sl_exec | skip
  ihave Hs := (Entails.of_eq (take_step (famCYR (F := F) c) 31 (by decide))) $$ [FcYR]
  · iexact FcYR
  icases Hs with ⟨Hc, FcYR⟩
  ihave Hs := (Entails.of_eq (take_step (famAtYR (F := F) c) 31 (by decide))) $$ [FatYR]
  · iexact FatYR
  icases Hs with ⟨Hat, FatYR⟩
  ihave #HIw := (Prep.inv_yr m K c 31) $$ HI
  iapply (Rounds.wp_wait_rest_token 𝒱₀ ER (rd m) (c : Thread nD τ) none (κ := K (c, some (1, 31))) (sm := .dma (yrS 31))
      (wpE_waitDma2_eq 𝒱₀ (c : Thread nD τ) none Set.univ (src := ySrc c 31) (dst := yDst c 31)) (Set.mem_univ _) () (O := owedF c 31) (W := W46) (R := 0) (m := 0) (T := ∅)
      (by rw [Nat.zero_add]; exact (expect_yr m c 31).symm)) $$ [Hc HO Hat]
  · isplitr; · iexact HIw
    isplitl [Hc]; · iexact Hc
    isplitl [HO]; · iexact HO
    isplitr
    · iapply (mayWait_of_above c (.dma (yrS 31)) _ (by rw [show lv ((c : Thread nD τ), SemLoc.dma (yrS 31)) () = 2 from lv_yr c 31]; exact above_owedF c 31 (by decide)))
      iexact Hlev
    iexact Hat
  iclear HIw
  iintro ⟨HO, Hat, -, Hpay⟩
  ihave HYk := (Entails.of_eq (rest_yr' m c 31)) $$ Hpay
  ihave #HIx := (Prep.inv_yr m K c 31) $$ HI
  imod (Rounds.cell_close ER (rd m) (Set.mem_univ (K (c, some (1, 31)))) (fun h => h) (R := 0 + 1) (duties_yr_later m c 31)) $$ [Hat] with Hz
  · isplitr; · iexact HIx
    iexact Hat
  iclear HIx
  ihave AccZyr := (acc_step (famZyr (F := F) c) 31 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W47, HO⟩
  -- step 160: send k0_dev98 src=arg1[(k0_off3 d0 1984#32)] dst=arg1[(k0_off3 d0 1984#32)] ssem=arg4[31] rsem=arg5[31]
  first | sl_exec | skip
  ihave Hs := (Entails.of_eq (take_step (famTFS (F := F) c) 31 (by decide))) $$ [FtFS]
  · iexact FtFS
  icases Hs with ⟨Ht1, FtFS⟩
  ihave Hs := (Entails.of_eq (take_step (famTFRP (F := F) c) 31 (by decide))) $$ [FtFRP]
  · iexact FtFRP
  icases Hs with ⟨Ht2, FtFRP⟩
  ihave Hs := (Entails.of_eq (take_step (famDF m c) 31 (by decide))) $$ [FdF]
  · iexact FdF
  icases Hs with ⟨Hd, FdF⟩
  ihave #HI1 := (Prep.inv_fs m K c 31) $$ HI
  ihave #HI2 := (Prep.inv_fr m K (xp c) 31) $$ HI
  ihave #HR1 := (Prep.reached_fs (F := F) c 31) $$ HR
  ihave #HR2 := (Prep.reached_fr (F := F) (xp c) 31) $$ HR
  iapply (wp_fsend m c _ (dev98_eq c) 31 (K (c, some (2, 31))) (K (xp c, some (3, 31))) (owedF c 31) (owedF c 32)
      (by rw [owedF_succ' c 31 (by decide)]; rfl) W47) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 31 (by decide)) $$ [AccCFS Hc]
  · isplitl [AccCFS]; · iexact AccCFS
    iexact Hc
  -- step 161: wait arg3[32] (arg0[(k0_off2 d0 2048#32)], arg1[(k0_off1 d0 2048#32)])
  first | sl_exec | skip
  ihave Hs := (Entails.of_eq (take_step (famCYR (F := F) c) 32 (by decide))) $$ [FcYR]
  · iexact FcYR
  icases Hs with ⟨Hc, FcYR⟩
  ihave Hs := (Entails.of_eq (take_step (famAtYR (F := F) c) 32 (by decide))) $$ [FatYR]
  · iexact FatYR
  icases Hs with ⟨Hat, FatYR⟩
  ihave #HIw := (Prep.inv_yr m K c 32) $$ HI
  iapply (Rounds.wp_wait_rest_token 𝒱₀ ER (rd m) (c : Thread nD τ) none (κ := K (c, some (1, 32))) (sm := .dma (yrS 32))
      (wpE_waitDma2_eq 𝒱₀ (c : Thread nD τ) none Set.univ (src := ySrc c 32) (dst := yDst c 32)) (Set.mem_univ _) () (O := owedF c 32) (W := W47) (R := 0) (m := 0) (T := ∅)
      (by rw [Nat.zero_add]; exact (expect_yr m c 32).symm)) $$ [Hc HO Hat]
  · isplitr; · iexact HIw
    isplitl [Hc]; · iexact Hc
    isplitl [HO]; · iexact HO
    isplitr
    · iapply (mayWait_of_above c (.dma (yrS 32)) _ (by rw [show lv ((c : Thread nD τ), SemLoc.dma (yrS 32)) () = 2 from lv_yr c 32]; exact above_owedF c 32 (by decide)))
      iexact Hlev
    iexact Hat
  iclear HIw
  iintro ⟨HO, Hat, -, Hpay⟩
  ihave HYk := (Entails.of_eq (rest_yr' m c 32)) $$ Hpay
  ihave #HIx := (Prep.inv_yr m K c 32) $$ HI
  imod (Rounds.cell_close ER (rd m) (Set.mem_univ (K (c, some (1, 32)))) (fun h => h) (R := 0 + 1) (duties_yr_later m c 32)) $$ [Hat] with Hz
  · isplitr; · iexact HIx
    iexact Hat
  iclear HIx
  ihave AccZyr := (acc_step (famZyr (F := F) c) 32 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W48, HO⟩
  -- step 162: send k0_dev99 src=arg1[(k0_off3 d0 2048#32)] dst=arg1[(k0_off3 d0 2048#32)] ssem=arg4[32] rsem=arg5[32]
  first | sl_exec | skip
  ihave Hs := (Entails.of_eq (take_step (famTFS (F := F) c) 32 (by decide))) $$ [FtFS]
  · iexact FtFS
  icases Hs with ⟨Ht1, FtFS⟩
  ihave Hs := (Entails.of_eq (take_step (famTFRP (F := F) c) 32 (by decide))) $$ [FtFRP]
  · iexact FtFRP
  icases Hs with ⟨Ht2, FtFRP⟩
  ihave Hs := (Entails.of_eq (take_step (famDF m c) 32 (by decide))) $$ [FdF]
  · iexact FdF
  icases Hs with ⟨Hd, FdF⟩
  ihave #HI1 := (Prep.inv_fs m K c 32) $$ HI
  ihave #HI2 := (Prep.inv_fr m K (xp c) 32) $$ HI
  ihave #HR1 := (Prep.reached_fs (F := F) c 32) $$ HR
  ihave #HR2 := (Prep.reached_fr (F := F) (xp c) 32) $$ HR
  iapply (wp_fsend m c _ (dev99_eq c) 32 (K (c, some (2, 32))) (K (xp c, some (3, 32))) (owedF c 32) (owedF c 33)
      (by rw [owedF_succ' c 32 (by decide)]; rfl) W48) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 32 (by decide)) $$ [AccCFS Hc]
  · isplitl [AccCFS]; · iexact AccCFS
    iexact Hc
  -- step 163: wait arg7[2] (arg6[![0, 0, 0]], arg1[(k0_off5 d0 3072#32)])
  first | sl_exec | skip
  ihave #HIw := (Prep.inv_ls m KL c 2) $$ HIL
  iapply (Rounds.wp_wait_rest_token 𝒱₀ ER (rd m) (c : Thread nD τ) none (κ := KL (c, 2)) (sm := .dma (lsS 2))
      (wpE_waitDma2_eq 𝒱₀ (c : Thread nD τ) none Set.univ (src := vSlot 0) (dst := lDst c 6)) (Set.mem_univ _) () (O := owedF c 33) (W := W48) (R := 3) (m := 0) (T := ∅)
      (by rw [Nat.zero_add]; exact (expect_st m c 0 3 (by decide)).symm)) $$ [Hc_l2 HO Hat_l2]
  · isplitr; · iexact HIw
    isplitl [Hc_l2]; · iexact Hc_l2
    isplitl [HO]; · iexact HO
    isplitr
    · iapply (mayWait_of_above c (.dma (lsS 2)) _ (by rw [show lv ((c : Thread nD τ), SemLoc.dma (lsS 2)) () = 0 from lv_ls c 2]; exact above_owedF c 33 (by decide)))
      iexact Hlev
    iexact Hat_l2
  iclear HIw
  iclear HRl2
  iintro ⟨HO, Hat_l2, #HRl2, Hpay⟩
  ihave Hp := (Entails.of_eq (rest_st0 m c 3 (by decide))) $$ Hpay
  icases Hp with ⟨Holq, Hv0⟩
  ihave AccOL := (acc_step (famOL m c) 6 (by decide)) $$ [AccOL Holq]
  · isplitl [AccOL]; · iexact AccOL
    iexact Holq
  ihave HOe : iprop(∃ W' : Waits sig Unit, owes (c : Thread nD τ) _ W') $$ [HO]
  · iexists _; iexact HO
  icases HOe with ⟨%W49, HO⟩
  -- step 164: copy src=arg0[(k0_off13 d0)] dst=arg6[![0, 0, 0]] sem=arg7[0]
  first | sl_exec | skip
  ihave Hs := (Entails.of_eq (take_step (famXL m c) 8 (by decide))) $$ [FxL]
  · iexact FxL
  icases Hs with ⟨Hxl, FxL⟩
  ihave #HIl := (Prep.inv_ls m KL c 0) $$ HIL
  iapply (Rounds.wp_copy_pointsTo 𝒱₀ ER (rd m) (c : Thread nD τ) none (src := lSrc c 8) (dst := vSlot 0) (sem := .dma (lsS 0)) (q := fullShare) (fs := xC m c) (fd := VC m c 6)
      (r := 4) (d := false) (κ := KL (c, 0)) (by rw [duties_ls m c 0 4 (by decide)]; exact Finset.mem_singleton_self _) () NV rfl (amount_ld m c 0 4 false)
      (by rw [payload_ls, vLand_pts m c 8 0 (VC m c 6)]; exact BI.Entails.refl _)) $$ [Hxl Hv0 Htl0_4]
  · isplitr; · iexact HIl
    isplitl [Hxl]; · iexact Hxl
    isplitl [Hv0]; · iexact Hv0
    isplitl [Htl0_4]; · iexact Htl0_4
    iexact HRl0
  iclear HIl
  iintro Hc_l0
  -- step 165: wait arg7[0] (arg0[(k0_off13 d0)], arg6[![0, 0, 0]])
  first | sl_exec | skip
  ihave #HIw := (Prep.inv_ls m KL c 0) $$ HIL
  iapply (Rounds.wp_wait_rest_token 𝒱₀ ER (rd m) (c : Thread nD τ) none (κ := KL (c, 0)) (sm := .dma (lsS 0))
      (wpE_waitDma2_eq 𝒱₀ (c : Thread nD τ) none Set.univ (src := lSrc c 8) (dst := vSlot 0)) (Set.mem_univ _) () (O := owedF c 33) (W := W49) (R := 4) (m := 0) (T := ∅)
      (by rw [Nat.zero_add]; exact (expect_ld m c 0 4 (by decide)).symm)) $$ [Hc_l0 HO Hat_l0]
  · isplitr; · iexact HIw
    isplitl [Hc_l0]; · iexact Hc_l0
    isplitl [HO]; · iexact HO
    isplitr
    · iapply (mayWait_of_above c (.dma (lsS 0)) _ (by rw [show lv ((c : Thread nD τ), SemLoc.dma (lsS 0)) () = 0 from lv_ls c 0]; exact above_owedF c 33 (by decide)))
      iexact Hlev
    iexact Hat_l0
  iclear HIw
  iclear HRl0
  iintro ⟨HO, Hat_l0, #HRl0, Hpay⟩
  ihave Hp := (Entails.of_eq (rest_ld0 m c 4 (by decide))) $$ Hpay
  icases Hp with ⟨Hv0, Hxlq⟩
  ihave AccXL := (acc_step (famXL m c) 8 (by decide)) $$ [AccXL Hxlq]
  · isplitl [AccXL]; · iexact AccXL
    iexact Hxlq
  ihave HOe : iprop(∃ W' : Waits sig Unit, owes (c : Thread nD τ) _ W') $$ [HO]
  · iexists _; iexact HO
  icases HOe with ⟨%W50, HO⟩
  -- step 166: copy src=arg6[![0, 0, 0]] dst=arg1[(k0_off5 d0 4096#32)] sem=arg7[2]
  first | sl_exec | skip
  ihave Hs := (Entails.of_eq (take_step (famOL0 m c) 8 (by decide))) $$ [FoL]
  · iexact FoL
  icases Hs with ⟨Hol, FoL⟩
  ihave #HIl := (Prep.inv_ls m KL c 2) $$ HIL
  iapply (Rounds.wp_copy_pointsTo 𝒱₀ ER (rd m) (c : Thread nD τ) none (src := vSlot 0) (dst := lDst c 8) (sem := .dma (lsS 2)) (q := fullShare) (fs := VC m c 8) (fd := o0 m c)
      (r := 4) (d := false) (κ := KL (c, 2)) (by rw [duties_ls m c 2 4 (by decide)]; exact Finset.mem_singleton_self _) () NO rfl (amount_st m c 0 4 false)
      (by rw [payload_ls, lLandV_pts m c 8 0 (o0 m c)]; exact BI.Entails.refl _)) $$ [Hv0 Hol Htl2_4]
  · isplitr; · iexact HIl
    isplitl [Hv0]; · iexact Hv0
    isplitl [Hol]; · iexact Hol
    isplitl [Htl2_4]; · iexact Htl2_4
    iexact HRl2
  iclear HIl
  iintro Hc_l2
  -- step 167: wait arg3[33] (arg0[(k0_off2 d0 2112#32)], arg1[(k0_off1 d0 2112#32)])
  first | sl_exec | skip
  ihave Hs := (Entails.of_eq (take_step (famCYR (F := F) c) 33 (by decide))) $$ [FcYR]
  · iexact FcYR
  icases Hs with ⟨Hc, FcYR⟩
  ihave Hs := (Entails.of_eq (take_step (famAtYR (F := F) c) 33 (by decide))) $$ [FatYR]
  · iexact FatYR
  icases Hs with ⟨Hat, FatYR⟩
  ihave #HIw := (Prep.inv_yr m K c 33) $$ HI
  iapply (Rounds.wp_wait_rest_token 𝒱₀ ER (rd m) (c : Thread nD τ) none (κ := K (c, some (1, 33))) (sm := .dma (yrS 33))
      (wpE_waitDma2_eq 𝒱₀ (c : Thread nD τ) none Set.univ (src := ySrc c 33) (dst := yDst c 33)) (Set.mem_univ _) () (O := owedF c 33) (W := W50) (R := 0) (m := 0) (T := ∅)
      (by rw [Nat.zero_add]; exact (expect_yr m c 33).symm)) $$ [Hc HO Hat]
  · isplitr; · iexact HIw
    isplitl [Hc]; · iexact Hc
    isplitl [HO]; · iexact HO
    isplitr
    · iapply (mayWait_of_above c (.dma (yrS 33)) _ (by rw [show lv ((c : Thread nD τ), SemLoc.dma (yrS 33)) () = 2 from lv_yr c 33]; exact above_owedF c 33 (by decide)))
      iexact Hlev
    iexact Hat
  iclear HIw
  iintro ⟨HO, Hat, -, Hpay⟩
  ihave HYk := (Entails.of_eq (rest_yr' m c 33)) $$ Hpay
  ihave #HIx := (Prep.inv_yr m K c 33) $$ HI
  imod (Rounds.cell_close ER (rd m) (Set.mem_univ (K (c, some (1, 33)))) (fun h => h) (R := 0 + 1) (duties_yr_later m c 33)) $$ [Hat] with Hz
  · isplitr; · iexact HIx
    iexact Hat
  iclear HIx
  ihave AccZyr := (acc_step (famZyr (F := F) c) 33 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W51, HO⟩
  -- step 168: send k0_dev100 src=arg1[(k0_off3 d0 2112#32)] dst=arg1[(k0_off3 d0 2112#32)] ssem=arg4[33] rsem=arg5[33]
  first | sl_exec | skip
  ihave Hs := (Entails.of_eq (take_step (famTFS (F := F) c) 33 (by decide))) $$ [FtFS]
  · iexact FtFS
  icases Hs with ⟨Ht1, FtFS⟩
  ihave Hs := (Entails.of_eq (take_step (famTFRP (F := F) c) 33 (by decide))) $$ [FtFRP]
  · iexact FtFRP
  icases Hs with ⟨Ht2, FtFRP⟩
  ihave Hs := (Entails.of_eq (take_step (famDF m c) 33 (by decide))) $$ [FdF]
  · iexact FdF
  icases Hs with ⟨Hd, FdF⟩
  ihave #HI1 := (Prep.inv_fs m K c 33) $$ HI
  ihave #HI2 := (Prep.inv_fr m K (xp c) 33) $$ HI
  ihave #HR1 := (Prep.reached_fs (F := F) c 33) $$ HR
  ihave #HR2 := (Prep.reached_fr (F := F) (xp c) 33) $$ HR
  iapply (wp_fsend m c _ (dev100_eq c) 33 (K (c, some (2, 33))) (K (xp c, some (3, 33))) (owedF c 33) (owedF c 34)
      (by rw [owedF_succ' c 33 (by decide)]; rfl) W51) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 33 (by decide)) $$ [AccCFS Hc]
  · isplitl [AccCFS]; · iexact AccCFS
    iexact Hc
  -- step 169: wait arg3[34] (arg0[(k0_off2 d0 2176#32)], arg1[(k0_off1 d0 2176#32)])
  first | sl_exec | skip
  ihave Hs := (Entails.of_eq (take_step (famCYR (F := F) c) 34 (by decide))) $$ [FcYR]
  · iexact FcYR
  icases Hs with ⟨Hc, FcYR⟩
  ihave Hs := (Entails.of_eq (take_step (famAtYR (F := F) c) 34 (by decide))) $$ [FatYR]
  · iexact FatYR
  icases Hs with ⟨Hat, FatYR⟩
  ihave #HIw := (Prep.inv_yr m K c 34) $$ HI
  iapply (Rounds.wp_wait_rest_token 𝒱₀ ER (rd m) (c : Thread nD τ) none (κ := K (c, some (1, 34))) (sm := .dma (yrS 34))
      (wpE_waitDma2_eq 𝒱₀ (c : Thread nD τ) none Set.univ (src := ySrc c 34) (dst := yDst c 34)) (Set.mem_univ _) () (O := owedF c 34) (W := W51) (R := 0) (m := 0) (T := ∅)
      (by rw [Nat.zero_add]; exact (expect_yr m c 34).symm)) $$ [Hc HO Hat]
  · isplitr; · iexact HIw
    isplitl [Hc]; · iexact Hc
    isplitl [HO]; · iexact HO
    isplitr
    · iapply (mayWait_of_above c (.dma (yrS 34)) _ (by rw [show lv ((c : Thread nD τ), SemLoc.dma (yrS 34)) () = 2 from lv_yr c 34]; exact above_owedF c 34 (by decide)))
      iexact Hlev
    iexact Hat
  iclear HIw
  iintro ⟨HO, Hat, -, Hpay⟩
  ihave HYk := (Entails.of_eq (rest_yr' m c 34)) $$ Hpay
  ihave #HIx := (Prep.inv_yr m K c 34) $$ HI
  imod (Rounds.cell_close ER (rd m) (Set.mem_univ (K (c, some (1, 34)))) (fun h => h) (R := 0 + 1) (duties_yr_later m c 34)) $$ [Hat] with Hz
  · isplitr; · iexact HIx
    iexact Hat
  iclear HIx
  ihave AccZyr := (acc_step (famZyr (F := F) c) 34 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W52, HO⟩
  -- step 170: send k0_dev101 src=arg1[(k0_off3 d0 2176#32)] dst=arg1[(k0_off3 d0 2176#32)] ssem=arg4[34] rsem=arg5[34]
  first | sl_exec | skip
  ihave Hs := (Entails.of_eq (take_step (famTFS (F := F) c) 34 (by decide))) $$ [FtFS]
  · iexact FtFS
  icases Hs with ⟨Ht1, FtFS⟩
  ihave Hs := (Entails.of_eq (take_step (famTFRP (F := F) c) 34 (by decide))) $$ [FtFRP]
  · iexact FtFRP
  icases Hs with ⟨Ht2, FtFRP⟩
  ihave Hs := (Entails.of_eq (take_step (famDF m c) 34 (by decide))) $$ [FdF]
  · iexact FdF
  icases Hs with ⟨Hd, FdF⟩
  ihave #HI1 := (Prep.inv_fs m K c 34) $$ HI
  ihave #HI2 := (Prep.inv_fr m K (xp c) 34) $$ HI
  ihave #HR1 := (Prep.reached_fs (F := F) c 34) $$ HR
  ihave #HR2 := (Prep.reached_fr (F := F) (xp c) 34) $$ HR
  iapply (wp_fsend m c _ (dev101_eq c) 34 (K (c, some (2, 34))) (K (xp c, some (3, 34))) (owedF c 34) (owedF c 35)
      (by rw [owedF_succ' c 34 (by decide)]; rfl) W52) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 34 (by decide)) $$ [AccCFS Hc]
  · isplitl [AccCFS]; · iexact AccCFS
    iexact Hc
  -- step 171: wait arg3[35] (arg0[(k0_off2 d0 2240#32)], arg1[(k0_off1 d0 2240#32)])
  first | sl_exec | skip
  ihave Hs := (Entails.of_eq (take_step (famCYR (F := F) c) 35 (by decide))) $$ [FcYR]
  · iexact FcYR
  icases Hs with ⟨Hc, FcYR⟩
  ihave Hs := (Entails.of_eq (take_step (famAtYR (F := F) c) 35 (by decide))) $$ [FatYR]
  · iexact FatYR
  icases Hs with ⟨Hat, FatYR⟩
  ihave #HIw := (Prep.inv_yr m K c 35) $$ HI
  iapply (Rounds.wp_wait_rest_token 𝒱₀ ER (rd m) (c : Thread nD τ) none (κ := K (c, some (1, 35))) (sm := .dma (yrS 35))
      (wpE_waitDma2_eq 𝒱₀ (c : Thread nD τ) none Set.univ (src := ySrc c 35) (dst := yDst c 35)) (Set.mem_univ _) () (O := owedF c 35) (W := W52) (R := 0) (m := 0) (T := ∅)
      (by rw [Nat.zero_add]; exact (expect_yr m c 35).symm)) $$ [Hc HO Hat]
  · isplitr; · iexact HIw
    isplitl [Hc]; · iexact Hc
    isplitl [HO]; · iexact HO
    isplitr
    · iapply (mayWait_of_above c (.dma (yrS 35)) _ (by rw [show lv ((c : Thread nD τ), SemLoc.dma (yrS 35)) () = 2 from lv_yr c 35]; exact above_owedF c 35 (by decide)))
      iexact Hlev
    iexact Hat
  iclear HIw
  iintro ⟨HO, Hat, -, Hpay⟩
  ihave HYk := (Entails.of_eq (rest_yr' m c 35)) $$ Hpay
  ihave #HIx := (Prep.inv_yr m K c 35) $$ HI
  imod (Rounds.cell_close ER (rd m) (Set.mem_univ (K (c, some (1, 35)))) (fun h => h) (R := 0 + 1) (duties_yr_later m c 35)) $$ [Hat] with Hz
  · isplitr; · iexact HIx
    iexact Hat
  iclear HIx
  ihave AccZyr := (acc_step (famZyr (F := F) c) 35 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W53, HO⟩
  -- step 172: send k0_dev102 src=arg1[(k0_off3 d0 2240#32)] dst=arg1[(k0_off3 d0 2240#32)] ssem=arg4[35] rsem=arg5[35]
  first | sl_exec | skip
  ihave Hs := (Entails.of_eq (take_step (famTFS (F := F) c) 35 (by decide))) $$ [FtFS]
  · iexact FtFS
  icases Hs with ⟨Ht1, FtFS⟩
  ihave Hs := (Entails.of_eq (take_step (famTFRP (F := F) c) 35 (by decide))) $$ [FtFRP]
  · iexact FtFRP
  icases Hs with ⟨Ht2, FtFRP⟩
  ihave Hs := (Entails.of_eq (take_step (famDF m c) 35 (by decide))) $$ [FdF]
  · iexact FdF
  icases Hs with ⟨Hd, FdF⟩
  ihave #HI1 := (Prep.inv_fs m K c 35) $$ HI
  ihave #HI2 := (Prep.inv_fr m K (xp c) 35) $$ HI
  ihave #HR1 := (Prep.reached_fs (F := F) c 35) $$ HR
  ihave #HR2 := (Prep.reached_fr (F := F) (xp c) 35) $$ HR
  iapply (wp_fsend m c _ (dev102_eq c) 35 (K (c, some (2, 35))) (K (xp c, some (3, 35))) (owedF c 35) (owedF c 36)
      (by rw [owedF_succ' c 35 (by decide)]; rfl) W53) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 35 (by decide)) $$ [AccCFS Hc]
  · isplitl [AccCFS]; · iexact AccCFS
    iexact Hc
  -- step 173: wait arg3[36] (arg0[(k0_off2 d0 2304#32)], arg1[(k0_off1 d0 2304#32)])
  first | sl_exec | skip
  ihave Hs := (Entails.of_eq (take_step (famCYR (F := F) c) 36 (by decide))) $$ [FcYR]
  · iexact FcYR
  icases Hs with ⟨Hc, FcYR⟩
  ihave Hs := (Entails.of_eq (take_step (famAtYR (F := F) c) 36 (by decide))) $$ [FatYR]
  · iexact FatYR
  icases Hs with ⟨Hat, FatYR⟩
  ihave #HIw := (Prep.inv_yr m K c 36) $$ HI
  iapply (Rounds.wp_wait_rest_token 𝒱₀ ER (rd m) (c : Thread nD τ) none (κ := K (c, some (1, 36))) (sm := .dma (yrS 36))
      (wpE_waitDma2_eq 𝒱₀ (c : Thread nD τ) none Set.univ (src := ySrc c 36) (dst := yDst c 36)) (Set.mem_univ _) () (O := owedF c 36) (W := W53) (R := 0) (m := 0) (T := ∅)
      (by rw [Nat.zero_add]; exact (expect_yr m c 36).symm)) $$ [Hc HO Hat]
  · isplitr; · iexact HIw
    isplitl [Hc]; · iexact Hc
    isplitl [HO]; · iexact HO
    isplitr
    · iapply (mayWait_of_above c (.dma (yrS 36)) _ (by rw [show lv ((c : Thread nD τ), SemLoc.dma (yrS 36)) () = 2 from lv_yr c 36]; exact above_owedF c 36 (by decide)))
      iexact Hlev
    iexact Hat
  iclear HIw
  iintro ⟨HO, Hat, -, Hpay⟩
  ihave HYk := (Entails.of_eq (rest_yr' m c 36)) $$ Hpay
  ihave #HIx := (Prep.inv_yr m K c 36) $$ HI
  imod (Rounds.cell_close ER (rd m) (Set.mem_univ (K (c, some (1, 36)))) (fun h => h) (R := 0 + 1) (duties_yr_later m c 36)) $$ [Hat] with Hz
  · isplitr; · iexact HIx
    iexact Hat
  iclear HIx
  ihave AccZyr := (acc_step (famZyr (F := F) c) 36 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W54, HO⟩
  -- step 174: send k0_dev103 src=arg1[(k0_off3 d0 2304#32)] dst=arg1[(k0_off3 d0 2304#32)] ssem=arg4[36] rsem=arg5[36]
  first | sl_exec | skip
  ihave Hs := (Entails.of_eq (take_step (famTFS (F := F) c) 36 (by decide))) $$ [FtFS]
  · iexact FtFS
  icases Hs with ⟨Ht1, FtFS⟩
  ihave Hs := (Entails.of_eq (take_step (famTFRP (F := F) c) 36 (by decide))) $$ [FtFRP]
  · iexact FtFRP
  icases Hs with ⟨Ht2, FtFRP⟩
  ihave Hs := (Entails.of_eq (take_step (famDF m c) 36 (by decide))) $$ [FdF]
  · iexact FdF
  icases Hs with ⟨Hd, FdF⟩
  ihave #HI1 := (Prep.inv_fs m K c 36) $$ HI
  ihave #HI2 := (Prep.inv_fr m K (xp c) 36) $$ HI
  ihave #HR1 := (Prep.reached_fs (F := F) c 36) $$ HR
  ihave #HR2 := (Prep.reached_fr (F := F) (xp c) 36) $$ HR
  iapply (wp_fsend m c _ (dev103_eq c) 36 (K (c, some (2, 36))) (K (xp c, some (3, 36))) (owedF c 36) (owedF c 37)
      (by rw [owedF_succ' c 36 (by decide)]; rfl) W54) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 36 (by decide)) $$ [AccCFS Hc]
  · isplitl [AccCFS]; · iexact AccCFS
    iexact Hc
  -- step 175: wait arg7[3] (arg6[![1, 0, 0]], arg1[(k0_off5 d0 3584#32)])
  first | sl_exec | skip
  ihave #HIw := (Prep.inv_ls m KL c 3) $$ HIL
  iapply (Rounds.wp_wait_rest_token 𝒱₀ ER (rd m) (c : Thread nD τ) none (κ := KL (c, 3)) (sm := .dma (lsS 3))
      (wpE_waitDma2_eq 𝒱₀ (c : Thread nD τ) none Set.univ (src := vSlot 1) (dst := lDst c 7)) (Set.mem_univ _) () (O := owedF c 37) (W := W54) (R := 3) (m := 0) (T := ∅)
      (by rw [Nat.zero_add]; exact (expect_st m c 1 3 (by decide)).symm)) $$ [Hc_l3 HO Hat_l3]
  · isplitr; · iexact HIw
    isplitl [Hc_l3]; · iexact Hc_l3
    isplitl [HO]; · iexact HO
    isplitr
    · iapply (mayWait_of_above c (.dma (lsS 3)) _ (by rw [show lv ((c : Thread nD τ), SemLoc.dma (lsS 3)) () = 0 from lv_ls c 3]; exact above_owedF c 37 (by decide)))
      iexact Hlev
    iexact Hat_l3
  iclear HIw
  iclear HRl3
  iintro ⟨HO, Hat_l3, #HRl3, Hpay⟩
  ihave Hp := (Entails.of_eq (rest_st1 m c 3 (by decide))) $$ Hpay
  icases Hp with ⟨Holq, Hv1⟩
  ihave AccOL := (acc_step (famOL m c) 7 (by decide)) $$ [AccOL Holq]
  · isplitl [AccOL]; · iexact AccOL
    iexact Holq
  ihave HOe : iprop(∃ W' : Waits sig Unit, owes (c : Thread nD τ) _ W') $$ [HO]
  · iexists _; iexact HO
  icases HOe with ⟨%W55, HO⟩
  -- step 176: copy src=arg0[(k0_off14 d0)] dst=arg6[![1, 0, 0]] sem=arg7[1]
  first | sl_exec | skip
  ihave Hs := (Entails.of_eq (take_step (famXL m c) 9 (by decide))) $$ [FxL]
  · iexact FxL
  icases Hs with ⟨Hxl, FxL⟩
  ihave #HIl := (Prep.inv_ls m KL c 1) $$ HIL
  iapply (Rounds.wp_copy_pointsTo 𝒱₀ ER (rd m) (c : Thread nD τ) none (src := lSrc c 9) (dst := vSlot 1) (sem := .dma (lsS 1)) (q := fullShare) (fs := xC m c) (fd := VC m c 7)
      (r := 4) (d := false) (κ := KL (c, 1)) (by rw [duties_ls m c 1 4 (by decide)]; exact Finset.mem_singleton_self _) () NV rfl (amount_ld m c 1 4 false)
      (by rw [payload_ls, vLand_pts m c 9 1 (VC m c 7)]; exact BI.Entails.refl _)) $$ [Hxl Hv1 Htl1_4]
  · isplitr; · iexact HIl
    isplitl [Hxl]; · iexact Hxl
    isplitl [Hv1]; · iexact Hv1
    isplitl [Htl1_4]; · iexact Htl1_4
    iexact HRl1
  iclear HIl
  iintro Hc_l1
  -- step 177: wait arg7[1] (arg0[(k0_off14 d0)], arg6[![1, 0, 0]])
  first | sl_exec | skip
  ihave #HIw := (Prep.inv_ls m KL c 1) $$ HIL
  iapply (Rounds.wp_wait_rest_token 𝒱₀ ER (rd m) (c : Thread nD τ) none (κ := KL (c, 1)) (sm := .dma (lsS 1))
      (wpE_waitDma2_eq 𝒱₀ (c : Thread nD τ) none Set.univ (src := lSrc c 9) (dst := vSlot 1)) (Set.mem_univ _) () (O := owedF c 37) (W := W55) (R := 4) (m := 0) (T := ∅)
      (by rw [Nat.zero_add]; exact (expect_ld m c 1 4 (by decide)).symm)) $$ [Hc_l1 HO Hat_l1]
  · isplitr; · iexact HIw
    isplitl [Hc_l1]; · iexact Hc_l1
    isplitl [HO]; · iexact HO
    isplitr
    · iapply (mayWait_of_above c (.dma (lsS 1)) _ (by rw [show lv ((c : Thread nD τ), SemLoc.dma (lsS 1)) () = 0 from lv_ls c 1]; exact above_owedF c 37 (by decide)))
      iexact Hlev
    iexact Hat_l1
  iclear HIw
  iclear HRl1
  iintro ⟨HO, Hat_l1, #HRl1, Hpay⟩
  ihave Hp := (Entails.of_eq (rest_ld1 m c 4 (by decide))) $$ Hpay
  icases Hp with ⟨Hv1, Hxlq⟩
  ihave AccXL := (acc_step (famXL m c) 9 (by decide)) $$ [AccXL Hxlq]
  · isplitl [AccXL]; · iexact AccXL
    iexact Hxlq
  ihave HOe : iprop(∃ W' : Waits sig Unit, owes (c : Thread nD τ) _ W') $$ [HO]
  · iexists _; iexact HO
  icases HOe with ⟨%W56, HO⟩
  -- step 178: copy src=arg6[![1, 0, 0]] dst=arg1[(k0_off5 d0 4608#32)] sem=arg7[3]
  first | sl_exec | skip
  ihave Hs := (Entails.of_eq (take_step (famOL0 m c) 9 (by decide))) $$ [FoL]
  · iexact FoL
  icases Hs with ⟨Hol, FoL⟩
  ihave #HIl := (Prep.inv_ls m KL c 3) $$ HIL
  iapply (Rounds.wp_copy_pointsTo 𝒱₀ ER (rd m) (c : Thread nD τ) none (src := vSlot 1) (dst := lDst c 9) (sem := .dma (lsS 3)) (q := fullShare) (fs := VC m c 9) (fd := o0 m c)
      (r := 4) (d := false) (κ := KL (c, 3)) (by rw [duties_ls m c 3 4 (by decide)]; exact Finset.mem_singleton_self _) () NO rfl (amount_st m c 1 4 false)
      (by rw [payload_ls, lLandV_pts m c 9 1 (o0 m c)]; exact BI.Entails.refl _)) $$ [Hv1 Hol Htl3_4]
  · isplitr; · iexact HIl
    isplitl [Hv1]; · iexact Hv1
    isplitl [Hol]; · iexact Hol
    isplitl [Htl3_4]; · iexact Htl3_4
    iexact HRl3
  iclear HIl
  iintro Hc_l3
  -- step 179: wait arg3[37] (arg0[(k0_off2 d0 2368#32)], arg1[(k0_off1 d0 2368#32)])
  first | sl_exec | skip
  ihave Hs := (Entails.of_eq (take_step (famCYR (F := F) c) 37 (by decide))) $$ [FcYR]
  · iexact FcYR
  icases Hs with ⟨Hc, FcYR⟩
  ihave Hs := (Entails.of_eq (take_step (famAtYR (F := F) c) 37 (by decide))) $$ [FatYR]
  · iexact FatYR
  icases Hs with ⟨Hat, FatYR⟩
  ihave #HIw := (Prep.inv_yr m K c 37) $$ HI
  iapply (Rounds.wp_wait_rest_token 𝒱₀ ER (rd m) (c : Thread nD τ) none (κ := K (c, some (1, 37))) (sm := .dma (yrS 37))
      (wpE_waitDma2_eq 𝒱₀ (c : Thread nD τ) none Set.univ (src := ySrc c 37) (dst := yDst c 37)) (Set.mem_univ _) () (O := owedF c 37) (W := W56) (R := 0) (m := 0) (T := ∅)
      (by rw [Nat.zero_add]; exact (expect_yr m c 37).symm)) $$ [Hc HO Hat]
  · isplitr; · iexact HIw
    isplitl [Hc]; · iexact Hc
    isplitl [HO]; · iexact HO
    isplitr
    · iapply (mayWait_of_above c (.dma (yrS 37)) _ (by rw [show lv ((c : Thread nD τ), SemLoc.dma (yrS 37)) () = 2 from lv_yr c 37]; exact above_owedF c 37 (by decide)))
      iexact Hlev
    iexact Hat
  iclear HIw
  iintro ⟨HO, Hat, -, Hpay⟩
  ihave HYk := (Entails.of_eq (rest_yr' m c 37)) $$ Hpay
  ihave #HIx := (Prep.inv_yr m K c 37) $$ HI
  imod (Rounds.cell_close ER (rd m) (Set.mem_univ (K (c, some (1, 37)))) (fun h => h) (R := 0 + 1) (duties_yr_later m c 37)) $$ [Hat] with Hz
  · isplitr; · iexact HIx
    iexact Hat
  iclear HIx
  ihave AccZyr := (acc_step (famZyr (F := F) c) 37 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W57, HO⟩
  -- step 180: send k0_dev104 src=arg1[(k0_off3 d0 2368#32)] dst=arg1[(k0_off3 d0 2368#32)] ssem=arg4[37] rsem=arg5[37]
  first | sl_exec | skip
  ihave Hs := (Entails.of_eq (take_step (famTFS (F := F) c) 37 (by decide))) $$ [FtFS]
  · iexact FtFS
  icases Hs with ⟨Ht1, FtFS⟩
  ihave Hs := (Entails.of_eq (take_step (famTFRP (F := F) c) 37 (by decide))) $$ [FtFRP]
  · iexact FtFRP
  icases Hs with ⟨Ht2, FtFRP⟩
  ihave Hs := (Entails.of_eq (take_step (famDF m c) 37 (by decide))) $$ [FdF]
  · iexact FdF
  icases Hs with ⟨Hd, FdF⟩
  ihave #HI1 := (Prep.inv_fs m K c 37) $$ HI
  ihave #HI2 := (Prep.inv_fr m K (xp c) 37) $$ HI
  ihave #HR1 := (Prep.reached_fs (F := F) c 37) $$ HR
  ihave #HR2 := (Prep.reached_fr (F := F) (xp c) 37) $$ HR
  iapply (wp_fsend m c _ (dev104_eq c) 37 (K (c, some (2, 37))) (K (xp c, some (3, 37))) (owedF c 37) (owedF c 38)
      (by rw [owedF_succ' c 37 (by decide)]; rfl) W57) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 37 (by decide)) $$ [AccCFS Hc]
  · isplitl [AccCFS]; · iexact AccCFS
    iexact Hc
  -- step 181: wait arg3[38] (arg0[(k0_off2 d0 2432#32)], arg1[(k0_off1 d0 2432#32)])
  first | sl_exec | skip
  ihave Hs := (Entails.of_eq (take_step (famCYR (F := F) c) 38 (by decide))) $$ [FcYR]
  · iexact FcYR
  icases Hs with ⟨Hc, FcYR⟩
  ihave Hs := (Entails.of_eq (take_step (famAtYR (F := F) c) 38 (by decide))) $$ [FatYR]
  · iexact FatYR
  icases Hs with ⟨Hat, FatYR⟩
  ihave #HIw := (Prep.inv_yr m K c 38) $$ HI
  iapply (Rounds.wp_wait_rest_token 𝒱₀ ER (rd m) (c : Thread nD τ) none (κ := K (c, some (1, 38))) (sm := .dma (yrS 38))
      (wpE_waitDma2_eq 𝒱₀ (c : Thread nD τ) none Set.univ (src := ySrc c 38) (dst := yDst c 38)) (Set.mem_univ _) () (O := owedF c 38) (W := W57) (R := 0) (m := 0) (T := ∅)
      (by rw [Nat.zero_add]; exact (expect_yr m c 38).symm)) $$ [Hc HO Hat]
  · isplitr; · iexact HIw
    isplitl [Hc]; · iexact Hc
    isplitl [HO]; · iexact HO
    isplitr
    · iapply (mayWait_of_above c (.dma (yrS 38)) _ (by rw [show lv ((c : Thread nD τ), SemLoc.dma (yrS 38)) () = 2 from lv_yr c 38]; exact above_owedF c 38 (by decide)))
      iexact Hlev
    iexact Hat
  iclear HIw
  iintro ⟨HO, Hat, -, Hpay⟩
  ihave HYk := (Entails.of_eq (rest_yr' m c 38)) $$ Hpay
  ihave #HIx := (Prep.inv_yr m K c 38) $$ HI
  imod (Rounds.cell_close ER (rd m) (Set.mem_univ (K (c, some (1, 38)))) (fun h => h) (R := 0 + 1) (duties_yr_later m c 38)) $$ [Hat] with Hz
  · isplitr; · iexact HIx
    iexact Hat
  iclear HIx
  ihave AccZyr := (acc_step (famZyr (F := F) c) 38 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W58, HO⟩
  -- step 182: send k0_dev105 src=arg1[(k0_off3 d0 2432#32)] dst=arg1[(k0_off3 d0 2432#32)] ssem=arg4[38] rsem=arg5[38]
  first | sl_exec | skip
  ihave Hs := (Entails.of_eq (take_step (famTFS (F := F) c) 38 (by decide))) $$ [FtFS]
  · iexact FtFS
  icases Hs with ⟨Ht1, FtFS⟩
  ihave Hs := (Entails.of_eq (take_step (famTFRP (F := F) c) 38 (by decide))) $$ [FtFRP]
  · iexact FtFRP
  icases Hs with ⟨Ht2, FtFRP⟩
  ihave Hs := (Entails.of_eq (take_step (famDF m c) 38 (by decide))) $$ [FdF]
  · iexact FdF
  icases Hs with ⟨Hd, FdF⟩
  ihave #HI1 := (Prep.inv_fs m K c 38) $$ HI
  ihave #HI2 := (Prep.inv_fr m K (xp c) 38) $$ HI
  ihave #HR1 := (Prep.reached_fs (F := F) c 38) $$ HR
  ihave #HR2 := (Prep.reached_fr (F := F) (xp c) 38) $$ HR
  iapply (wp_fsend m c _ (dev105_eq c) 38 (K (c, some (2, 38))) (K (xp c, some (3, 38))) (owedF c 38) (owedF c 39)
      (by rw [owedF_succ' c 38 (by decide)]; rfl) W58) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 38 (by decide)) $$ [AccCFS Hc]
  · isplitl [AccCFS]; · iexact AccCFS
    iexact Hc
  -- step 183: wait arg3[39] (arg0[(k0_off2 d0 2496#32)], arg1[(k0_off1 d0 2496#32)])
  first | sl_exec | skip
  ihave Hs := (Entails.of_eq (take_step (famCYR (F := F) c) 39 (by decide))) $$ [FcYR]
  · iexact FcYR
  icases Hs with ⟨Hc, FcYR⟩
  ihave Hs := (Entails.of_eq (take_step (famAtYR (F := F) c) 39 (by decide))) $$ [FatYR]
  · iexact FatYR
  icases Hs with ⟨Hat, FatYR⟩
  ihave #HIw := (Prep.inv_yr m K c 39) $$ HI
  iapply (Rounds.wp_wait_rest_token 𝒱₀ ER (rd m) (c : Thread nD τ) none (κ := K (c, some (1, 39))) (sm := .dma (yrS 39))
      (wpE_waitDma2_eq 𝒱₀ (c : Thread nD τ) none Set.univ (src := ySrc c 39) (dst := yDst c 39)) (Set.mem_univ _) () (O := owedF c 39) (W := W58) (R := 0) (m := 0) (T := ∅)
      (by rw [Nat.zero_add]; exact (expect_yr m c 39).symm)) $$ [Hc HO Hat]
  · isplitr; · iexact HIw
    isplitl [Hc]; · iexact Hc
    isplitl [HO]; · iexact HO
    isplitr
    · iapply (mayWait_of_above c (.dma (yrS 39)) _ (by rw [show lv ((c : Thread nD τ), SemLoc.dma (yrS 39)) () = 2 from lv_yr c 39]; exact above_owedF c 39 (by decide)))
      iexact Hlev
    iexact Hat
  iclear HIw
  iintro ⟨HO, Hat, -, Hpay⟩
  ihave HYk := (Entails.of_eq (rest_yr' m c 39)) $$ Hpay
  ihave #HIx := (Prep.inv_yr m K c 39) $$ HI
  imod (Rounds.cell_close ER (rd m) (Set.mem_univ (K (c, some (1, 39)))) (fun h => h) (R := 0 + 1) (duties_yr_later m c 39)) $$ [Hat] with Hz
  · isplitr; · iexact HIx
    iexact Hat
  iclear HIx
  ihave AccZyr := (acc_step (famZyr (F := F) c) 39 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W59, HO⟩
  -- step 184: send k0_dev106 src=arg1[(k0_off3 d0 2496#32)] dst=arg1[(k0_off3 d0 2496#32)] ssem=arg4[39] rsem=arg5[39]
  first | sl_exec | skip
  ihave Hs := (Entails.of_eq (take_step (famTFS (F := F) c) 39 (by decide))) $$ [FtFS]
  · iexact FtFS
  icases Hs with ⟨Ht1, FtFS⟩
  ihave Hs := (Entails.of_eq (take_step (famTFRP (F := F) c) 39 (by decide))) $$ [FtFRP]
  · iexact FtFRP
  icases Hs with ⟨Ht2, FtFRP⟩
  ihave Hs := (Entails.of_eq (take_step (famDF m c) 39 (by decide))) $$ [FdF]
  · iexact FdF
  icases Hs with ⟨Hd, FdF⟩
  ihave #HI1 := (Prep.inv_fs m K c 39) $$ HI
  ihave #HI2 := (Prep.inv_fr m K (xp c) 39) $$ HI
  ihave #HR1 := (Prep.reached_fs (F := F) c 39) $$ HR
  ihave #HR2 := (Prep.reached_fr (F := F) (xp c) 39) $$ HR
  iapply (wp_fsend m c _ (dev106_eq c) 39 (K (c, some (2, 39))) (K (xp c, some (3, 39))) (owedF c 39) (owedF c 40)
      (by rw [owedF_succ' c 39 (by decide)]; rfl) W59) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 39 (by decide)) $$ [AccCFS Hc]
  · isplitl [AccCFS]; · iexact AccCFS
    iexact Hc
  -- step 185: wait arg3[40] (arg0[(k0_off2 d0 2560#32)], arg1[(k0_off1 d0 2560#32)])
  first | sl_exec | skip
  ihave Hs := (Entails.of_eq (take_step (famCYR (F := F) c) 40 (by decide))) $$ [FcYR]
  · iexact FcYR
  icases Hs with ⟨Hc, FcYR⟩
  ihave Hs := (Entails.of_eq (take_step (famAtYR (F := F) c) 40 (by decide))) $$ [FatYR]
  · iexact FatYR
  icases Hs with ⟨Hat, FatYR⟩
  ihave #HIw := (Prep.inv_yr m K c 40) $$ HI
  iapply (Rounds.wp_wait_rest_token 𝒱₀ ER (rd m) (c : Thread nD τ) none (κ := K (c, some (1, 40))) (sm := .dma (yrS 40))
      (wpE_waitDma2_eq 𝒱₀ (c : Thread nD τ) none Set.univ (src := ySrc c 40) (dst := yDst c 40)) (Set.mem_univ _) () (O := owedF c 40) (W := W59) (R := 0) (m := 0) (T := ∅)
      (by rw [Nat.zero_add]; exact (expect_yr m c 40).symm)) $$ [Hc HO Hat]
  · isplitr; · iexact HIw
    isplitl [Hc]; · iexact Hc
    isplitl [HO]; · iexact HO
    isplitr
    · iapply (mayWait_of_above c (.dma (yrS 40)) _ (by rw [show lv ((c : Thread nD τ), SemLoc.dma (yrS 40)) () = 2 from lv_yr c 40]; exact above_owedF c 40 (by decide)))
      iexact Hlev
    iexact Hat
  iclear HIw
  iintro ⟨HO, Hat, -, Hpay⟩
  ihave HYk := (Entails.of_eq (rest_yr' m c 40)) $$ Hpay
  ihave #HIx := (Prep.inv_yr m K c 40) $$ HI
  imod (Rounds.cell_close ER (rd m) (Set.mem_univ (K (c, some (1, 40)))) (fun h => h) (R := 0 + 1) (duties_yr_later m c 40)) $$ [Hat] with Hz
  · isplitr; · iexact HIx
    iexact Hat
  iclear HIx
  ihave AccZyr := (acc_step (famZyr (F := F) c) 40 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W60, HO⟩
  -- step 186: send k0_dev107 src=arg1[(k0_off3 d0 2560#32)] dst=arg1[(k0_off3 d0 2560#32)] ssem=arg4[40] rsem=arg5[40]
  first | sl_exec | skip
  ihave Hs := (Entails.of_eq (take_step (famTFS (F := F) c) 40 (by decide))) $$ [FtFS]
  · iexact FtFS
  icases Hs with ⟨Ht1, FtFS⟩
  ihave Hs := (Entails.of_eq (take_step (famTFRP (F := F) c) 40 (by decide))) $$ [FtFRP]
  · iexact FtFRP
  icases Hs with ⟨Ht2, FtFRP⟩
  ihave Hs := (Entails.of_eq (take_step (famDF m c) 40 (by decide))) $$ [FdF]
  · iexact FdF
  icases Hs with ⟨Hd, FdF⟩
  ihave #HI1 := (Prep.inv_fs m K c 40) $$ HI
  ihave #HI2 := (Prep.inv_fr m K (xp c) 40) $$ HI
  ihave #HR1 := (Prep.reached_fs (F := F) c 40) $$ HR
  ihave #HR2 := (Prep.reached_fr (F := F) (xp c) 40) $$ HR
  iapply (wp_fsend m c _ (dev107_eq c) 40 (K (c, some (2, 40))) (K (xp c, some (3, 40))) (owedF c 40) (owedF c 41)
      (by rw [owedF_succ' c 40 (by decide)]; rfl) W60) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 40 (by decide)) $$ [AccCFS Hc]
  · isplitl [AccCFS]; · iexact AccCFS
    iexact Hc
  -- step 187: wait arg7[2] (arg6[![0, 0, 0]], arg1[(k0_off5 d0 4096#32)])
  first | sl_exec | skip
  ihave #HIw := (Prep.inv_ls m KL c 2) $$ HIL
  iapply (Rounds.wp_wait_rest_token 𝒱₀ ER (rd m) (c : Thread nD τ) none (κ := KL (c, 2)) (sm := .dma (lsS 2))
      (wpE_waitDma2_eq 𝒱₀ (c : Thread nD τ) none Set.univ (src := vSlot 0) (dst := lDst c 8)) (Set.mem_univ _) () (O := owedF c 41) (W := W60) (R := 4) (m := 0) (T := ∅)
      (by rw [Nat.zero_add]; exact (expect_st m c 0 4 (by decide)).symm)) $$ [Hc_l2 HO Hat_l2]
  · isplitr; · iexact HIw
    isplitl [Hc_l2]; · iexact Hc_l2
    isplitl [HO]; · iexact HO
    isplitr
    · iapply (mayWait_of_above c (.dma (lsS 2)) _ (by rw [show lv ((c : Thread nD τ), SemLoc.dma (lsS 2)) () = 0 from lv_ls c 2]; exact above_owedF c 41 (by decide)))
      iexact Hlev
    iexact Hat_l2
  iclear HIw
  iclear HRl2
  iintro ⟨HO, Hat_l2, #HRl2, Hpay⟩
  ihave Hp := (Entails.of_eq (rest_st0 m c 4 (by decide))) $$ Hpay
  icases Hp with ⟨Holq, Hv0⟩
  ihave AccOL := (acc_step (famOL m c) 8 (by decide)) $$ [AccOL Holq]
  · isplitl [AccOL]; · iexact AccOL
    iexact Holq
  ihave HOe : iprop(∃ W' : Waits sig Unit, owes (c : Thread nD τ) _ W') $$ [HO]
  · iexists _; iexact HO
  icases HOe with ⟨%W61, HO⟩
  -- step 188: copy src=arg0[(k0_off15 d0)] dst=arg6[![0, 0, 0]] sem=arg7[0]
  first | sl_exec | skip
  ihave Hs := (Entails.of_eq (take_step (famXL m c) 10 (by decide))) $$ [FxL]
  · iexact FxL
  icases Hs with ⟨Hxl, FxL⟩
  ihave #HIl := (Prep.inv_ls m KL c 0) $$ HIL
  iapply (Rounds.wp_copy_pointsTo 𝒱₀ ER (rd m) (c : Thread nD τ) none (src := lSrc c 10) (dst := vSlot 0) (sem := .dma (lsS 0)) (q := fullShare) (fs := xC m c) (fd := VC m c 8)
      (r := 5) (d := false) (κ := KL (c, 0)) (by rw [duties_ls m c 0 5 (by decide)]; exact Finset.mem_singleton_self _) () NV rfl (amount_ld m c 0 5 false)
      (by rw [payload_ls, vLand_pts m c 10 0 (VC m c 8)]; exact BI.Entails.refl _)) $$ [Hxl Hv0 Htl0_5]
  · isplitr; · iexact HIl
    isplitl [Hxl]; · iexact Hxl
    isplitl [Hv0]; · iexact Hv0
    isplitl [Htl0_5]; · iexact Htl0_5
    iexact HRl0
  iclear HIl
  iintro Hc_l0
  -- step 189: wait arg7[0] (arg0[(k0_off15 d0)], arg6[![0, 0, 0]])
  first | sl_exec | skip
  ihave #HIw := (Prep.inv_ls m KL c 0) $$ HIL
  iapply (Rounds.wp_wait_rest_token 𝒱₀ ER (rd m) (c : Thread nD τ) none (κ := KL (c, 0)) (sm := .dma (lsS 0))
      (wpE_waitDma2_eq 𝒱₀ (c : Thread nD τ) none Set.univ (src := lSrc c 10) (dst := vSlot 0)) (Set.mem_univ _) () (O := owedF c 41) (W := W61) (R := 5) (m := 0) (T := ∅)
      (by rw [Nat.zero_add]; exact (expect_ld m c 0 5 (by decide)).symm)) $$ [Hc_l0 HO Hat_l0]
  · isplitr; · iexact HIw
    isplitl [Hc_l0]; · iexact Hc_l0
    isplitl [HO]; · iexact HO
    isplitr
    · iapply (mayWait_of_above c (.dma (lsS 0)) _ (by rw [show lv ((c : Thread nD τ), SemLoc.dma (lsS 0)) () = 0 from lv_ls c 0]; exact above_owedF c 41 (by decide)))
      iexact Hlev
    iexact Hat_l0
  iclear HIw
  iclear HRl0
  iintro ⟨HO, Hat_l0, #HRl0, Hpay⟩
  ihave Hp := (Entails.of_eq (rest_ld0 m c 5 (by decide))) $$ Hpay
  icases Hp with ⟨Hv0, Hxlq⟩
  ihave AccXL := (acc_step (famXL m c) 10 (by decide)) $$ [AccXL Hxlq]
  · isplitl [AccXL]; · iexact AccXL
    iexact Hxlq
  ihave HOe : iprop(∃ W' : Waits sig Unit, owes (c : Thread nD τ) _ W') $$ [HO]
  · iexists _; iexact HO
  icases HOe with ⟨%W62, HO⟩
  -- step 190: copy src=arg6[![0, 0, 0]] dst=arg1[(k0_off5 d0 5120#32)] sem=arg7[2]
  first | sl_exec | skip
  ihave Hs := (Entails.of_eq (take_step (famOL0 m c) 10 (by decide))) $$ [FoL]
  · iexact FoL
  icases Hs with ⟨Hol, FoL⟩
  ihave #HIl := (Prep.inv_ls m KL c 2) $$ HIL
  iapply (Rounds.wp_copy_pointsTo 𝒱₀ ER (rd m) (c : Thread nD τ) none (src := vSlot 0) (dst := lDst c 10) (sem := .dma (lsS 2)) (q := fullShare) (fs := VC m c 10) (fd := o0 m c)
      (r := 5) (d := false) (κ := KL (c, 2)) (by rw [duties_ls m c 2 5 (by decide)]; exact Finset.mem_singleton_self _) () NO rfl (amount_st m c 0 5 false)
      (by rw [payload_ls, lLandV_pts m c 10 0 (o0 m c)]; exact BI.Entails.refl _)) $$ [Hv0 Hol Htl2_5]
  · isplitr; · iexact HIl
    isplitl [Hv0]; · iexact Hv0
    isplitl [Hol]; · iexact Hol
    isplitl [Htl2_5]; · iexact Htl2_5
    iexact HRl2
  iclear HIl
  iintro Hc_l2
  -- step 191: wait arg3[41] (arg0[(k0_off2 d0 2624#32)], arg1[(k0_off1 d0 2624#32)])
  first | sl_exec | skip
  ihave Hs := (Entails.of_eq (take_step (famCYR (F := F) c) 41 (by decide))) $$ [FcYR]
  · iexact FcYR
  icases Hs with ⟨Hc, FcYR⟩
  ihave Hs := (Entails.of_eq (take_step (famAtYR (F := F) c) 41 (by decide))) $$ [FatYR]
  · iexact FatYR
  icases Hs with ⟨Hat, FatYR⟩
  ihave #HIw := (Prep.inv_yr m K c 41) $$ HI
  iapply (Rounds.wp_wait_rest_token 𝒱₀ ER (rd m) (c : Thread nD τ) none (κ := K (c, some (1, 41))) (sm := .dma (yrS 41))
      (wpE_waitDma2_eq 𝒱₀ (c : Thread nD τ) none Set.univ (src := ySrc c 41) (dst := yDst c 41)) (Set.mem_univ _) () (O := owedF c 41) (W := W62) (R := 0) (m := 0) (T := ∅)
      (by rw [Nat.zero_add]; exact (expect_yr m c 41).symm)) $$ [Hc HO Hat]
  · isplitr; · iexact HIw
    isplitl [Hc]; · iexact Hc
    isplitl [HO]; · iexact HO
    isplitr
    · iapply (mayWait_of_above c (.dma (yrS 41)) _ (by rw [show lv ((c : Thread nD τ), SemLoc.dma (yrS 41)) () = 2 from lv_yr c 41]; exact above_owedF c 41 (by decide)))
      iexact Hlev
    iexact Hat
  iclear HIw
  iintro ⟨HO, Hat, -, Hpay⟩
  ihave HYk := (Entails.of_eq (rest_yr' m c 41)) $$ Hpay
  ihave #HIx := (Prep.inv_yr m K c 41) $$ HI
  imod (Rounds.cell_close ER (rd m) (Set.mem_univ (K (c, some (1, 41)))) (fun h => h) (R := 0 + 1) (duties_yr_later m c 41)) $$ [Hat] with Hz
  · isplitr; · iexact HIx
    iexact Hat
  iclear HIx
  ihave AccZyr := (acc_step (famZyr (F := F) c) 41 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W63, HO⟩
  -- step 192: send k0_dev108 src=arg1[(k0_off3 d0 2624#32)] dst=arg1[(k0_off3 d0 2624#32)] ssem=arg4[41] rsem=arg5[41]
  first | sl_exec | skip
  ihave Hs := (Entails.of_eq (take_step (famTFS (F := F) c) 41 (by decide))) $$ [FtFS]
  · iexact FtFS
  icases Hs with ⟨Ht1, FtFS⟩
  ihave Hs := (Entails.of_eq (take_step (famTFRP (F := F) c) 41 (by decide))) $$ [FtFRP]
  · iexact FtFRP
  icases Hs with ⟨Ht2, FtFRP⟩
  ihave Hs := (Entails.of_eq (take_step (famDF m c) 41 (by decide))) $$ [FdF]
  · iexact FdF
  icases Hs with ⟨Hd, FdF⟩
  ihave #HI1 := (Prep.inv_fs m K c 41) $$ HI
  ihave #HI2 := (Prep.inv_fr m K (xp c) 41) $$ HI
  ihave #HR1 := (Prep.reached_fs (F := F) c 41) $$ HR
  ihave #HR2 := (Prep.reached_fr (F := F) (xp c) 41) $$ HR
  iapply (wp_fsend m c _ (dev108_eq c) 41 (K (c, some (2, 41))) (K (xp c, some (3, 41))) (owedF c 41) (owedF c 42)
      (by rw [owedF_succ' c 41 (by decide)]; rfl) W63) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 41 (by decide)) $$ [AccCFS Hc]
  · isplitl [AccCFS]; · iexact AccCFS
    iexact Hc
  -- step 193: wait arg3[42] (arg0[(k0_off2 d0 2688#32)], arg1[(k0_off1 d0 2688#32)])
  first | sl_exec | skip
  ihave Hs := (Entails.of_eq (take_step (famCYR (F := F) c) 42 (by decide))) $$ [FcYR]
  · iexact FcYR
  icases Hs with ⟨Hc, FcYR⟩
  ihave Hs := (Entails.of_eq (take_step (famAtYR (F := F) c) 42 (by decide))) $$ [FatYR]
  · iexact FatYR
  icases Hs with ⟨Hat, FatYR⟩
  ihave #HIw := (Prep.inv_yr m K c 42) $$ HI
  iapply (Rounds.wp_wait_rest_token 𝒱₀ ER (rd m) (c : Thread nD τ) none (κ := K (c, some (1, 42))) (sm := .dma (yrS 42))
      (wpE_waitDma2_eq 𝒱₀ (c : Thread nD τ) none Set.univ (src := ySrc c 42) (dst := yDst c 42)) (Set.mem_univ _) () (O := owedF c 42) (W := W63) (R := 0) (m := 0) (T := ∅)
      (by rw [Nat.zero_add]; exact (expect_yr m c 42).symm)) $$ [Hc HO Hat]
  · isplitr; · iexact HIw
    isplitl [Hc]; · iexact Hc
    isplitl [HO]; · iexact HO
    isplitr
    · iapply (mayWait_of_above c (.dma (yrS 42)) _ (by rw [show lv ((c : Thread nD τ), SemLoc.dma (yrS 42)) () = 2 from lv_yr c 42]; exact above_owedF c 42 (by decide)))
      iexact Hlev
    iexact Hat
  iclear HIw
  iintro ⟨HO, Hat, -, Hpay⟩
  ihave HYk := (Entails.of_eq (rest_yr' m c 42)) $$ Hpay
  ihave #HIx := (Prep.inv_yr m K c 42) $$ HI
  imod (Rounds.cell_close ER (rd m) (Set.mem_univ (K (c, some (1, 42)))) (fun h => h) (R := 0 + 1) (duties_yr_later m c 42)) $$ [Hat] with Hz
  · isplitr; · iexact HIx
    iexact Hat
  iclear HIx
  ihave AccZyr := (acc_step (famZyr (F := F) c) 42 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W64, HO⟩
  -- step 194: send k0_dev109 src=arg1[(k0_off3 d0 2688#32)] dst=arg1[(k0_off3 d0 2688#32)] ssem=arg4[42] rsem=arg5[42]
  first | sl_exec | skip
  ihave Hs := (Entails.of_eq (take_step (famTFS (F := F) c) 42 (by decide))) $$ [FtFS]
  · iexact FtFS
  icases Hs with ⟨Ht1, FtFS⟩
  ihave Hs := (Entails.of_eq (take_step (famTFRP (F := F) c) 42 (by decide))) $$ [FtFRP]
  · iexact FtFRP
  icases Hs with ⟨Ht2, FtFRP⟩
  ihave Hs := (Entails.of_eq (take_step (famDF m c) 42 (by decide))) $$ [FdF]
  · iexact FdF
  icases Hs with ⟨Hd, FdF⟩
  ihave #HI1 := (Prep.inv_fs m K c 42) $$ HI
  ihave #HI2 := (Prep.inv_fr m K (xp c) 42) $$ HI
  ihave #HR1 := (Prep.reached_fs (F := F) c 42) $$ HR
  ihave #HR2 := (Prep.reached_fr (F := F) (xp c) 42) $$ HR
  iapply (wp_fsend m c _ (dev109_eq c) 42 (K (c, some (2, 42))) (K (xp c, some (3, 42))) (owedF c 42) (owedF c 43)
      (by rw [owedF_succ' c 42 (by decide)]; rfl) W64) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 42 (by decide)) $$ [AccCFS Hc]
  · isplitl [AccCFS]; · iexact AccCFS
    iexact Hc
  -- step 195: wait arg3[43] (arg0[(k0_off2 d0 2752#32)], arg1[(k0_off1 d0 2752#32)])
  first | sl_exec | skip
  ihave Hs := (Entails.of_eq (take_step (famCYR (F := F) c) 43 (by decide))) $$ [FcYR]
  · iexact FcYR
  icases Hs with ⟨Hc, FcYR⟩
  ihave Hs := (Entails.of_eq (take_step (famAtYR (F := F) c) 43 (by decide))) $$ [FatYR]
  · iexact FatYR
  icases Hs with ⟨Hat, FatYR⟩
  ihave #HIw := (Prep.inv_yr m K c 43) $$ HI
  iapply (Rounds.wp_wait_rest_token 𝒱₀ ER (rd m) (c : Thread nD τ) none (κ := K (c, some (1, 43))) (sm := .dma (yrS 43))
      (wpE_waitDma2_eq 𝒱₀ (c : Thread nD τ) none Set.univ (src := ySrc c 43) (dst := yDst c 43)) (Set.mem_univ _) () (O := owedF c 43) (W := W64) (R := 0) (m := 0) (T := ∅)
      (by rw [Nat.zero_add]; exact (expect_yr m c 43).symm)) $$ [Hc HO Hat]
  · isplitr; · iexact HIw
    isplitl [Hc]; · iexact Hc
    isplitl [HO]; · iexact HO
    isplitr
    · iapply (mayWait_of_above c (.dma (yrS 43)) _ (by rw [show lv ((c : Thread nD τ), SemLoc.dma (yrS 43)) () = 2 from lv_yr c 43]; exact above_owedF c 43 (by decide)))
      iexact Hlev
    iexact Hat
  iclear HIw
  iintro ⟨HO, Hat, -, Hpay⟩
  ihave HYk := (Entails.of_eq (rest_yr' m c 43)) $$ Hpay
  ihave #HIx := (Prep.inv_yr m K c 43) $$ HI
  imod (Rounds.cell_close ER (rd m) (Set.mem_univ (K (c, some (1, 43)))) (fun h => h) (R := 0 + 1) (duties_yr_later m c 43)) $$ [Hat] with Hz
  · isplitr; · iexact HIx
    iexact Hat
  iclear HIx
  ihave AccZyr := (acc_step (famZyr (F := F) c) 43 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W65, HO⟩
  -- step 196: send k0_dev110 src=arg1[(k0_off3 d0 2752#32)] dst=arg1[(k0_off3 d0 2752#32)] ssem=arg4[43] rsem=arg5[43]
  first | sl_exec | skip
  ihave Hs := (Entails.of_eq (take_step (famTFS (F := F) c) 43 (by decide))) $$ [FtFS]
  · iexact FtFS
  icases Hs with ⟨Ht1, FtFS⟩
  ihave Hs := (Entails.of_eq (take_step (famTFRP (F := F) c) 43 (by decide))) $$ [FtFRP]
  · iexact FtFRP
  icases Hs with ⟨Ht2, FtFRP⟩
  ihave Hs := (Entails.of_eq (take_step (famDF m c) 43 (by decide))) $$ [FdF]
  · iexact FdF
  icases Hs with ⟨Hd, FdF⟩
  ihave #HI1 := (Prep.inv_fs m K c 43) $$ HI
  ihave #HI2 := (Prep.inv_fr m K (xp c) 43) $$ HI
  ihave #HR1 := (Prep.reached_fs (F := F) c 43) $$ HR
  ihave #HR2 := (Prep.reached_fr (F := F) (xp c) 43) $$ HR
  iapply (wp_fsend m c _ (dev110_eq c) 43 (K (c, some (2, 43))) (K (xp c, some (3, 43))) (owedF c 43) (owedF c 44)
      (by rw [owedF_succ' c 43 (by decide)]; rfl) W65) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 43 (by decide)) $$ [AccCFS Hc]
  · isplitl [AccCFS]; · iexact AccCFS
    iexact Hc
  -- step 197: wait arg3[44] (arg0[(k0_off2 d0 2816#32)], arg1[(k0_off1 d0 2816#32)])
  first | sl_exec | skip
  ihave Hs := (Entails.of_eq (take_step (famCYR (F := F) c) 44 (by decide))) $$ [FcYR]
  · iexact FcYR
  icases Hs with ⟨Hc, FcYR⟩
  ihave Hs := (Entails.of_eq (take_step (famAtYR (F := F) c) 44 (by decide))) $$ [FatYR]
  · iexact FatYR
  icases Hs with ⟨Hat, FatYR⟩
  ihave #HIw := (Prep.inv_yr m K c 44) $$ HI
  iapply (Rounds.wp_wait_rest_token 𝒱₀ ER (rd m) (c : Thread nD τ) none (κ := K (c, some (1, 44))) (sm := .dma (yrS 44))
      (wpE_waitDma2_eq 𝒱₀ (c : Thread nD τ) none Set.univ (src := ySrc c 44) (dst := yDst c 44)) (Set.mem_univ _) () (O := owedF c 44) (W := W65) (R := 0) (m := 0) (T := ∅)
      (by rw [Nat.zero_add]; exact (expect_yr m c 44).symm)) $$ [Hc HO Hat]
  · isplitr; · iexact HIw
    isplitl [Hc]; · iexact Hc
    isplitl [HO]; · iexact HO
    isplitr
    · iapply (mayWait_of_above c (.dma (yrS 44)) _ (by rw [show lv ((c : Thread nD τ), SemLoc.dma (yrS 44)) () = 2 from lv_yr c 44]; exact above_owedF c 44 (by decide)))
      iexact Hlev
    iexact Hat
  iclear HIw
  iintro ⟨HO, Hat, -, Hpay⟩
  ihave HYk := (Entails.of_eq (rest_yr' m c 44)) $$ Hpay
  ihave #HIx := (Prep.inv_yr m K c 44) $$ HI
  imod (Rounds.cell_close ER (rd m) (Set.mem_univ (K (c, some (1, 44)))) (fun h => h) (R := 0 + 1) (duties_yr_later m c 44)) $$ [Hat] with Hz
  · isplitr; · iexact HIx
    iexact Hat
  iclear HIx
  ihave AccZyr := (acc_step (famZyr (F := F) c) 44 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W66, HO⟩
  -- step 198: send k0_dev111 src=arg1[(k0_off3 d0 2816#32)] dst=arg1[(k0_off3 d0 2816#32)] ssem=arg4[44] rsem=arg5[44]
  first | sl_exec | skip
  ihave Hs := (Entails.of_eq (take_step (famTFS (F := F) c) 44 (by decide))) $$ [FtFS]
  · iexact FtFS
  icases Hs with ⟨Ht1, FtFS⟩
  ihave Hs := (Entails.of_eq (take_step (famTFRP (F := F) c) 44 (by decide))) $$ [FtFRP]
  · iexact FtFRP
  icases Hs with ⟨Ht2, FtFRP⟩
  ihave Hs := (Entails.of_eq (take_step (famDF m c) 44 (by decide))) $$ [FdF]
  · iexact FdF
  icases Hs with ⟨Hd, FdF⟩
  ihave #HI1 := (Prep.inv_fs m K c 44) $$ HI
  ihave #HI2 := (Prep.inv_fr m K (xp c) 44) $$ HI
  ihave #HR1 := (Prep.reached_fs (F := F) c 44) $$ HR
  ihave #HR2 := (Prep.reached_fr (F := F) (xp c) 44) $$ HR
  iapply (wp_fsend m c _ (dev111_eq c) 44 (K (c, some (2, 44))) (K (xp c, some (3, 44))) (owedF c 44) (owedF c 45)
      (by rw [owedF_succ' c 44 (by decide)]; rfl) W66) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 44 (by decide)) $$ [AccCFS Hc]
  · isplitl [AccCFS]; · iexact AccCFS
    iexact Hc
  -- step 199: wait arg7[3] (arg6[![1, 0, 0]], arg1[(k0_off5 d0 4608#32)])
  first | sl_exec | skip
  ihave #HIw := (Prep.inv_ls m KL c 3) $$ HIL
  iapply (Rounds.wp_wait_rest_token 𝒱₀ ER (rd m) (c : Thread nD τ) none (κ := KL (c, 3)) (sm := .dma (lsS 3))
      (wpE_waitDma2_eq 𝒱₀ (c : Thread nD τ) none Set.univ (src := vSlot 1) (dst := lDst c 9)) (Set.mem_univ _) () (O := owedF c 45) (W := W66) (R := 4) (m := 0) (T := ∅)
      (by rw [Nat.zero_add]; exact (expect_st m c 1 4 (by decide)).symm)) $$ [Hc_l3 HO Hat_l3]
  · isplitr; · iexact HIw
    isplitl [Hc_l3]; · iexact Hc_l3
    isplitl [HO]; · iexact HO
    isplitr
    · iapply (mayWait_of_above c (.dma (lsS 3)) _ (by rw [show lv ((c : Thread nD τ), SemLoc.dma (lsS 3)) () = 0 from lv_ls c 3]; exact above_owedF c 45 (by decide)))
      iexact Hlev
    iexact Hat_l3
  iclear HIw
  iclear HRl3
  iintro ⟨HO, Hat_l3, #HRl3, Hpay⟩
  ihave Hp := (Entails.of_eq (rest_st1 m c 4 (by decide))) $$ Hpay
  icases Hp with ⟨Holq, Hv1⟩
  ihave AccOL := (acc_step (famOL m c) 9 (by decide)) $$ [AccOL Holq]
  · isplitl [AccOL]; · iexact AccOL
    iexact Holq
  ihave HOe : iprop(∃ W' : Waits sig Unit, owes (c : Thread nD τ) _ W') $$ [HO]
  · iexists _; iexact HO
  icases HOe with ⟨%W67, HO⟩
  -- step 200: copy src=arg0[(k0_off16 d0)] dst=arg6[![1, 0, 0]] sem=arg7[1]
  first | sl_exec | skip
  ihave Hs := (Entails.of_eq (take_step (famXL m c) 11 (by decide))) $$ [FxL]
  · iexact FxL
  icases Hs with ⟨Hxl, FxL⟩
  ihave #HIl := (Prep.inv_ls m KL c 1) $$ HIL
  iapply (Rounds.wp_copy_pointsTo 𝒱₀ ER (rd m) (c : Thread nD τ) none (src := lSrc c 11) (dst := vSlot 1) (sem := .dma (lsS 1)) (q := fullShare) (fs := xC m c) (fd := VC m c 9)
      (r := 5) (d := false) (κ := KL (c, 1)) (by rw [duties_ls m c 1 5 (by decide)]; exact Finset.mem_singleton_self _) () NV rfl (amount_ld m c 1 5 false)
      (by rw [payload_ls, vLand_pts m c 11 1 (VC m c 9)]; exact BI.Entails.refl _)) $$ [Hxl Hv1 Htl1_5]
  · isplitr; · iexact HIl
    isplitl [Hxl]; · iexact Hxl
    isplitl [Hv1]; · iexact Hv1
    isplitl [Htl1_5]; · iexact Htl1_5
    iexact HRl1
  iclear HIl
  iintro Hc_l1
  -- step 201: wait arg7[1] (arg0[(k0_off16 d0)], arg6[![1, 0, 0]])
  first | sl_exec | skip
  ihave #HIw := (Prep.inv_ls m KL c 1) $$ HIL
  iapply (Rounds.wp_wait_rest_token 𝒱₀ ER (rd m) (c : Thread nD τ) none (κ := KL (c, 1)) (sm := .dma (lsS 1))
      (wpE_waitDma2_eq 𝒱₀ (c : Thread nD τ) none Set.univ (src := lSrc c 11) (dst := vSlot 1)) (Set.mem_univ _) () (O := owedF c 45) (W := W67) (R := 5) (m := 0) (T := ∅)
      (by rw [Nat.zero_add]; exact (expect_ld m c 1 5 (by decide)).symm)) $$ [Hc_l1 HO Hat_l1]
  · isplitr; · iexact HIw
    isplitl [Hc_l1]; · iexact Hc_l1
    isplitl [HO]; · iexact HO
    isplitr
    · iapply (mayWait_of_above c (.dma (lsS 1)) _ (by rw [show lv ((c : Thread nD τ), SemLoc.dma (lsS 1)) () = 0 from lv_ls c 1]; exact above_owedF c 45 (by decide)))
      iexact Hlev
    iexact Hat_l1
  iclear HIw
  iclear HRl1
  iintro ⟨HO, Hat_l1, #HRl1, Hpay⟩
  ihave Hp := (Entails.of_eq (rest_ld1 m c 5 (by decide))) $$ Hpay
  icases Hp with ⟨Hv1, Hxlq⟩
  ihave AccXL := (acc_step (famXL m c) 11 (by decide)) $$ [AccXL Hxlq]
  · isplitl [AccXL]; · iexact AccXL
    iexact Hxlq
  ihave HOe : iprop(∃ W' : Waits sig Unit, owes (c : Thread nD τ) _ W') $$ [HO]
  · iexists _; iexact HO
  icases HOe with ⟨%W68, HO⟩
  -- step 202: copy src=arg6[![1, 0, 0]] dst=arg1[(k0_off5 d0 5632#32)] sem=arg7[3]
  first | sl_exec | skip
  ihave Hs := (Entails.of_eq (take_step (famOL0 m c) 11 (by decide))) $$ [FoL]
  · iexact FoL
  icases Hs with ⟨Hol, FoL⟩
  ihave #HIl := (Prep.inv_ls m KL c 3) $$ HIL
  iapply (Rounds.wp_copy_pointsTo 𝒱₀ ER (rd m) (c : Thread nD τ) none (src := vSlot 1) (dst := lDst c 11) (sem := .dma (lsS 3)) (q := fullShare) (fs := VC m c 11) (fd := o0 m c)
      (r := 5) (d := false) (κ := KL (c, 3)) (by rw [duties_ls m c 3 5 (by decide)]; exact Finset.mem_singleton_self _) () NO rfl (amount_st m c 1 5 false)
      (by rw [payload_ls, lLandV_pts m c 11 1 (o0 m c)]; exact BI.Entails.refl _)) $$ [Hv1 Hol Htl3_5]
  · isplitr; · iexact HIl
    isplitl [Hv1]; · iexact Hv1
    isplitl [Hol]; · iexact Hol
    isplitl [Htl3_5]; · iexact Htl3_5
    iexact HRl3
  iclear HIl
  iintro Hc_l3
  -- step 203: wait arg3[45] (arg0[(k0_off2 d0 2880#32)], arg1[(k0_off1 d0 2880#32)])
  first | sl_exec | skip
  ihave Hs := (Entails.of_eq (take_step (famCYR (F := F) c) 45 (by decide))) $$ [FcYR]
  · iexact FcYR
  icases Hs with ⟨Hc, FcYR⟩
  ihave Hs := (Entails.of_eq (take_step (famAtYR (F := F) c) 45 (by decide))) $$ [FatYR]
  · iexact FatYR
  icases Hs with ⟨Hat, FatYR⟩
  ihave #HIw := (Prep.inv_yr m K c 45) $$ HI
  iapply (Rounds.wp_wait_rest_token 𝒱₀ ER (rd m) (c : Thread nD τ) none (κ := K (c, some (1, 45))) (sm := .dma (yrS 45))
      (wpE_waitDma2_eq 𝒱₀ (c : Thread nD τ) none Set.univ (src := ySrc c 45) (dst := yDst c 45)) (Set.mem_univ _) () (O := owedF c 45) (W := W68) (R := 0) (m := 0) (T := ∅)
      (by rw [Nat.zero_add]; exact (expect_yr m c 45).symm)) $$ [Hc HO Hat]
  · isplitr; · iexact HIw
    isplitl [Hc]; · iexact Hc
    isplitl [HO]; · iexact HO
    isplitr
    · iapply (mayWait_of_above c (.dma (yrS 45)) _ (by rw [show lv ((c : Thread nD τ), SemLoc.dma (yrS 45)) () = 2 from lv_yr c 45]; exact above_owedF c 45 (by decide)))
      iexact Hlev
    iexact Hat
  iclear HIw
  iintro ⟨HO, Hat, -, Hpay⟩
  ihave HYk := (Entails.of_eq (rest_yr' m c 45)) $$ Hpay
  ihave #HIx := (Prep.inv_yr m K c 45) $$ HI
  imod (Rounds.cell_close ER (rd m) (Set.mem_univ (K (c, some (1, 45)))) (fun h => h) (R := 0 + 1) (duties_yr_later m c 45)) $$ [Hat] with Hz
  · isplitr; · iexact HIx
    iexact Hat
  iclear HIx
  ihave AccZyr := (acc_step (famZyr (F := F) c) 45 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W69, HO⟩
  -- step 204: send k0_dev112 src=arg1[(k0_off3 d0 2880#32)] dst=arg1[(k0_off3 d0 2880#32)] ssem=arg4[45] rsem=arg5[45]
  first | sl_exec | skip
  ihave Hs := (Entails.of_eq (take_step (famTFS (F := F) c) 45 (by decide))) $$ [FtFS]
  · iexact FtFS
  icases Hs with ⟨Ht1, FtFS⟩
  ihave Hs := (Entails.of_eq (take_step (famTFRP (F := F) c) 45 (by decide))) $$ [FtFRP]
  · iexact FtFRP
  icases Hs with ⟨Ht2, FtFRP⟩
  ihave Hs := (Entails.of_eq (take_step (famDF m c) 45 (by decide))) $$ [FdF]
  · iexact FdF
  icases Hs with ⟨Hd, FdF⟩
  ihave #HI1 := (Prep.inv_fs m K c 45) $$ HI
  ihave #HI2 := (Prep.inv_fr m K (xp c) 45) $$ HI
  ihave #HR1 := (Prep.reached_fs (F := F) c 45) $$ HR
  ihave #HR2 := (Prep.reached_fr (F := F) (xp c) 45) $$ HR
  iapply (wp_fsend m c _ (dev112_eq c) 45 (K (c, some (2, 45))) (K (xp c, some (3, 45))) (owedF c 45) (owedF c 46)
      (by rw [owedF_succ' c 45 (by decide)]; rfl) W69) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 45 (by decide)) $$ [AccCFS Hc]
  · isplitl [AccCFS]; · iexact AccCFS
    iexact Hc
  -- step 205: wait arg3[46] (arg0[(k0_off2 d0 2944#32)], arg1[(k0_off1 d0 2944#32)])
  first | sl_exec | skip
  ihave Hs := (Entails.of_eq (take_step (famCYR (F := F) c) 46 (by decide))) $$ [FcYR]
  · iexact FcYR
  icases Hs with ⟨Hc, FcYR⟩
  ihave Hs := (Entails.of_eq (take_step (famAtYR (F := F) c) 46 (by decide))) $$ [FatYR]
  · iexact FatYR
  icases Hs with ⟨Hat, FatYR⟩
  ihave #HIw := (Prep.inv_yr m K c 46) $$ HI
  iapply (Rounds.wp_wait_rest_token 𝒱₀ ER (rd m) (c : Thread nD τ) none (κ := K (c, some (1, 46))) (sm := .dma (yrS 46))
      (wpE_waitDma2_eq 𝒱₀ (c : Thread nD τ) none Set.univ (src := ySrc c 46) (dst := yDst c 46)) (Set.mem_univ _) () (O := owedF c 46) (W := W69) (R := 0) (m := 0) (T := ∅)
      (by rw [Nat.zero_add]; exact (expect_yr m c 46).symm)) $$ [Hc HO Hat]
  · isplitr; · iexact HIw
    isplitl [Hc]; · iexact Hc
    isplitl [HO]; · iexact HO
    isplitr
    · iapply (mayWait_of_above c (.dma (yrS 46)) _ (by rw [show lv ((c : Thread nD τ), SemLoc.dma (yrS 46)) () = 2 from lv_yr c 46]; exact above_owedF c 46 (by decide)))
      iexact Hlev
    iexact Hat
  iclear HIw
  iintro ⟨HO, Hat, -, Hpay⟩
  ihave HYk := (Entails.of_eq (rest_yr' m c 46)) $$ Hpay
  ihave #HIx := (Prep.inv_yr m K c 46) $$ HI
  imod (Rounds.cell_close ER (rd m) (Set.mem_univ (K (c, some (1, 46)))) (fun h => h) (R := 0 + 1) (duties_yr_later m c 46)) $$ [Hat] with Hz
  · isplitr; · iexact HIx
    iexact Hat
  iclear HIx
  ihave AccZyr := (acc_step (famZyr (F := F) c) 46 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W70, HO⟩
  -- step 206: send k0_dev113 src=arg1[(k0_off3 d0 2944#32)] dst=arg1[(k0_off3 d0 2944#32)] ssem=arg4[46] rsem=arg5[46]
  first | sl_exec | skip
  ihave Hs := (Entails.of_eq (take_step (famTFS (F := F) c) 46 (by decide))) $$ [FtFS]
  · iexact FtFS
  icases Hs with ⟨Ht1, FtFS⟩
  ihave Hs := (Entails.of_eq (take_step (famTFRP (F := F) c) 46 (by decide))) $$ [FtFRP]
  · iexact FtFRP
  icases Hs with ⟨Ht2, FtFRP⟩
  ihave Hs := (Entails.of_eq (take_step (famDF m c) 46 (by decide))) $$ [FdF]
  · iexact FdF
  icases Hs with ⟨Hd, FdF⟩
  ihave #HI1 := (Prep.inv_fs m K c 46) $$ HI
  ihave #HI2 := (Prep.inv_fr m K (xp c) 46) $$ HI
  ihave #HR1 := (Prep.reached_fs (F := F) c 46) $$ HR
  ihave #HR2 := (Prep.reached_fr (F := F) (xp c) 46) $$ HR
  iapply (wp_fsend m c _ (dev113_eq c) 46 (K (c, some (2, 46))) (K (xp c, some (3, 46))) (owedF c 46) (owedF c 47)
      (by rw [owedF_succ' c 46 (by decide)]; rfl) W70) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 46 (by decide)) $$ [AccCFS Hc]
  · isplitl [AccCFS]; · iexact AccCFS
    iexact Hc
  -- step 207: wait arg3[47] (arg0[(k0_off2 d0 3008#32)], arg1[(k0_off1 d0 3008#32)])
  first | sl_exec | skip
  ihave Hs := (Entails.of_eq (take_step (famCYR (F := F) c) 47 (by decide))) $$ [FcYR]
  · iexact FcYR
  icases Hs with ⟨Hc, FcYR⟩
  ihave Hs := (Entails.of_eq (take_step (famAtYR (F := F) c) 47 (by decide))) $$ [FatYR]
  · iexact FatYR
  icases Hs with ⟨Hat, FatYR⟩
  ihave #HIw := (Prep.inv_yr m K c 47) $$ HI
  iapply (Rounds.wp_wait_rest_token 𝒱₀ ER (rd m) (c : Thread nD τ) none (κ := K (c, some (1, 47))) (sm := .dma (yrS 47))
      (wpE_waitDma2_eq 𝒱₀ (c : Thread nD τ) none Set.univ (src := ySrc c 47) (dst := yDst c 47)) (Set.mem_univ _) () (O := owedF c 47) (W := W70) (R := 0) (m := 0) (T := ∅)
      (by rw [Nat.zero_add]; exact (expect_yr m c 47).symm)) $$ [Hc HO Hat]
  · isplitr; · iexact HIw
    isplitl [Hc]; · iexact Hc
    isplitl [HO]; · iexact HO
    isplitr
    · iapply (mayWait_of_above c (.dma (yrS 47)) _ (by rw [show lv ((c : Thread nD τ), SemLoc.dma (yrS 47)) () = 2 from lv_yr c 47]; exact above_owedF c 47 (by decide)))
      iexact Hlev
    iexact Hat
  iclear HIw
  iintro ⟨HO, Hat, -, Hpay⟩
  ihave HYk := (Entails.of_eq (rest_yr' m c 47)) $$ Hpay
  ihave #HIx := (Prep.inv_yr m K c 47) $$ HI
  imod (Rounds.cell_close ER (rd m) (Set.mem_univ (K (c, some (1, 47)))) (fun h => h) (R := 0 + 1) (duties_yr_later m c 47)) $$ [Hat] with Hz
  · isplitr; · iexact HIx
    iexact Hat
  iclear HIx
  ihave AccZyr := (acc_step (famZyr (F := F) c) 47 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W71, HO⟩
  -- step 208: send k0_dev114 src=arg1[(k0_off3 d0 3008#32)] dst=arg1[(k0_off3 d0 3008#32)] ssem=arg4[47] rsem=arg5[47]
  first | sl_exec | skip
  ihave Hs := (Entails.of_eq (take_step (famTFS (F := F) c) 47 (by decide))) $$ [FtFS]
  · iexact FtFS
  icases Hs with ⟨Ht1, FtFS⟩
  ihave Hs := (Entails.of_eq (take_step (famTFRP (F := F) c) 47 (by decide))) $$ [FtFRP]
  · iexact FtFRP
  icases Hs with ⟨Ht2, FtFRP⟩
  ihave Hs := (Entails.of_eq (take_step (famDF m c) 47 (by decide))) $$ [FdF]
  · iexact FdF
  icases Hs with ⟨Hd, FdF⟩
  ihave #HI1 := (Prep.inv_fs m K c 47) $$ HI
  ihave #HI2 := (Prep.inv_fr m K (xp c) 47) $$ HI
  ihave #HR1 := (Prep.reached_fs (F := F) c 47) $$ HR
  ihave #HR2 := (Prep.reached_fr (F := F) (xp c) 47) $$ HR
  iapply (wp_fsend m c _ (dev114_eq c) 47 (K (c, some (2, 47))) (K (xp c, some (3, 47))) (owedF c 47) (owedF c 48)
      (by rw [owedF_succ' c 47 (by decide)]; rfl) W71) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 47 (by decide)) $$ [AccCFS Hc]
  · isplitl [AccCFS]; · iexact AccCFS
    iexact Hc
  -- step 209: wait arg3[48] (arg0[(k0_off2 d0 3072#32)], arg1[(k0_off1 d0 3072#32)])
  first | sl_exec | skip
  ihave Hs := (Entails.of_eq (take_step (famCYR (F := F) c) 48 (by decide))) $$ [FcYR]
  · iexact FcYR
  icases Hs with ⟨Hc, FcYR⟩
  ihave Hs := (Entails.of_eq (take_step (famAtYR (F := F) c) 48 (by decide))) $$ [FatYR]
  · iexact FatYR
  icases Hs with ⟨Hat, FatYR⟩
  ihave #HIw := (Prep.inv_yr m K c 48) $$ HI
  iapply (Rounds.wp_wait_rest_token 𝒱₀ ER (rd m) (c : Thread nD τ) none (κ := K (c, some (1, 48))) (sm := .dma (yrS 48))
      (wpE_waitDma2_eq 𝒱₀ (c : Thread nD τ) none Set.univ (src := ySrc c 48) (dst := yDst c 48)) (Set.mem_univ _) () (O := owedF c 48) (W := W71) (R := 0) (m := 0) (T := ∅)
      (by rw [Nat.zero_add]; exact (expect_yr m c 48).symm)) $$ [Hc HO Hat]
  · isplitr; · iexact HIw
    isplitl [Hc]; · iexact Hc
    isplitl [HO]; · iexact HO
    isplitr
    · iapply (mayWait_of_above c (.dma (yrS 48)) _ (by rw [show lv ((c : Thread nD τ), SemLoc.dma (yrS 48)) () = 2 from lv_yr c 48]; exact above_owedF c 48 (by decide)))
      iexact Hlev
    iexact Hat
  iclear HIw
  iintro ⟨HO, Hat, -, Hpay⟩
  ihave HYk := (Entails.of_eq (rest_yr' m c 48)) $$ Hpay
  ihave #HIx := (Prep.inv_yr m K c 48) $$ HI
  imod (Rounds.cell_close ER (rd m) (Set.mem_univ (K (c, some (1, 48)))) (fun h => h) (R := 0 + 1) (duties_yr_later m c 48)) $$ [Hat] with Hz
  · isplitr; · iexact HIx
    iexact Hat
  iclear HIx
  ihave AccZyr := (acc_step (famZyr (F := F) c) 48 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W72, HO⟩
  -- step 210: send k0_dev115 src=arg1[(k0_off3 d0 3072#32)] dst=arg1[(k0_off3 d0 3072#32)] ssem=arg4[48] rsem=arg5[48]
  first | sl_exec | skip
  ihave Hs := (Entails.of_eq (take_step (famTFS (F := F) c) 48 (by decide))) $$ [FtFS]
  · iexact FtFS
  icases Hs with ⟨Ht1, FtFS⟩
  ihave Hs := (Entails.of_eq (take_step (famTFRP (F := F) c) 48 (by decide))) $$ [FtFRP]
  · iexact FtFRP
  icases Hs with ⟨Ht2, FtFRP⟩
  ihave Hs := (Entails.of_eq (take_step (famDF m c) 48 (by decide))) $$ [FdF]
  · iexact FdF
  icases Hs with ⟨Hd, FdF⟩
  ihave #HI1 := (Prep.inv_fs m K c 48) $$ HI
  ihave #HI2 := (Prep.inv_fr m K (xp c) 48) $$ HI
  ihave #HR1 := (Prep.reached_fs (F := F) c 48) $$ HR
  ihave #HR2 := (Prep.reached_fr (F := F) (xp c) 48) $$ HR
  iapply (wp_fsend m c _ (dev115_eq c) 48 (K (c, some (2, 48))) (K (xp c, some (3, 48))) (owedF c 48) (owedF c 49)
      (by rw [owedF_succ' c 48 (by decide)]; rfl) W72) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 48 (by decide)) $$ [AccCFS Hc]
  · isplitl [AccCFS]; · iexact AccCFS
    iexact Hc
  -- step 211: wait arg7[2] (arg6[![0, 0, 0]], arg1[(k0_off5 d0 5120#32)])
  first | sl_exec | skip
  ihave #HIw := (Prep.inv_ls m KL c 2) $$ HIL
  iapply (Rounds.wp_wait_rest_token 𝒱₀ ER (rd m) (c : Thread nD τ) none (κ := KL (c, 2)) (sm := .dma (lsS 2))
      (wpE_waitDma2_eq 𝒱₀ (c : Thread nD τ) none Set.univ (src := vSlot 0) (dst := lDst c 10)) (Set.mem_univ _) () (O := owedF c 49) (W := W72) (R := 5) (m := 0) (T := ∅)
      (by rw [Nat.zero_add]; exact (expect_st m c 0 5 (by decide)).symm)) $$ [Hc_l2 HO Hat_l2]
  · isplitr; · iexact HIw
    isplitl [Hc_l2]; · iexact Hc_l2
    isplitl [HO]; · iexact HO
    isplitr
    · iapply (mayWait_of_above c (.dma (lsS 2)) _ (by rw [show lv ((c : Thread nD τ), SemLoc.dma (lsS 2)) () = 0 from lv_ls c 2]; exact above_owedF c 49 (by decide)))
      iexact Hlev
    iexact Hat_l2
  iclear HIw
  iclear HRl2
  iintro ⟨HO, Hat_l2, #HRl2, Hpay⟩
  ihave Hp := (Entails.of_eq (rest_st0 m c 5 (by decide))) $$ Hpay
  icases Hp with ⟨Holq, Hv0⟩
  ihave AccOL := (acc_step (famOL m c) 10 (by decide)) $$ [AccOL Holq]
  · isplitl [AccOL]; · iexact AccOL
    iexact Holq
  ihave HOe : iprop(∃ W' : Waits sig Unit, owes (c : Thread nD τ) _ W') $$ [HO]
  · iexists _; iexact HO
  icases HOe with ⟨%W73, HO⟩
  -- step 212: copy src=arg0[(k0_off17 d0)] dst=arg6[![0, 0, 0]] sem=arg7[0]
  first | sl_exec | skip
  ihave Hs := (Entails.of_eq (take_step (famXL m c) 12 (by decide))) $$ [FxL]
  · iexact FxL
  icases Hs with ⟨Hxl, FxL⟩
  ihave #HIl := (Prep.inv_ls m KL c 0) $$ HIL
  iapply (Rounds.wp_copy_pointsTo 𝒱₀ ER (rd m) (c : Thread nD τ) none (src := lSrc c 12) (dst := vSlot 0) (sem := .dma (lsS 0)) (q := fullShare) (fs := xC m c) (fd := VC m c 10)
      (r := 6) (d := false) (κ := KL (c, 0)) (by rw [duties_ls m c 0 6 (by decide)]; exact Finset.mem_singleton_self _) () NV rfl (amount_ld m c 0 6 false)
      (by rw [payload_ls, vLand_pts m c 12 0 (VC m c 10)]; exact BI.Entails.refl _)) $$ [Hxl Hv0 Htl0_6]
  · isplitr; · iexact HIl
    isplitl [Hxl]; · iexact Hxl
    isplitl [Hv0]; · iexact Hv0
    isplitl [Htl0_6]; · iexact Htl0_6
    iexact HRl0
  iclear HIl
  iintro Hc_l0
  -- step 213: wait arg7[0] (arg0[(k0_off17 d0)], arg6[![0, 0, 0]])
  first | sl_exec | skip
  ihave #HIw := (Prep.inv_ls m KL c 0) $$ HIL
  iapply (Rounds.wp_wait_rest_token 𝒱₀ ER (rd m) (c : Thread nD τ) none (κ := KL (c, 0)) (sm := .dma (lsS 0))
      (wpE_waitDma2_eq 𝒱₀ (c : Thread nD τ) none Set.univ (src := lSrc c 12) (dst := vSlot 0)) (Set.mem_univ _) () (O := owedF c 49) (W := W73) (R := 6) (m := 0) (T := ∅)
      (by rw [Nat.zero_add]; exact (expect_ld m c 0 6 (by decide)).symm)) $$ [Hc_l0 HO Hat_l0]
  · isplitr; · iexact HIw
    isplitl [Hc_l0]; · iexact Hc_l0
    isplitl [HO]; · iexact HO
    isplitr
    · iapply (mayWait_of_above c (.dma (lsS 0)) _ (by rw [show lv ((c : Thread nD τ), SemLoc.dma (lsS 0)) () = 0 from lv_ls c 0]; exact above_owedF c 49 (by decide)))
      iexact Hlev
    iexact Hat_l0
  iclear HIw
  iclear HRl0
  iintro ⟨HO, Hat_l0, #HRl0, Hpay⟩
  ihave Hp := (Entails.of_eq (rest_ld0 m c 6 (by decide))) $$ Hpay
  icases Hp with ⟨Hv0, Hxlq⟩
  ihave AccXL := (acc_step (famXL m c) 12 (by decide)) $$ [AccXL Hxlq]
  · isplitl [AccXL]; · iexact AccXL
    iexact Hxlq
  ihave HOe : iprop(∃ W' : Waits sig Unit, owes (c : Thread nD τ) _ W') $$ [HO]
  · iexists _; iexact HO
  icases HOe with ⟨%W74, HO⟩
  -- step 214: copy src=arg6[![0, 0, 0]] dst=arg1[(k0_off5 d0 6144#32)] sem=arg7[2]
  first | sl_exec | skip
  ihave Hs := (Entails.of_eq (take_step (famOL0 m c) 12 (by decide))) $$ [FoL]
  · iexact FoL
  icases Hs with ⟨Hol, FoL⟩
  ihave #HIl := (Prep.inv_ls m KL c 2) $$ HIL
  iapply (Rounds.wp_copy_pointsTo 𝒱₀ ER (rd m) (c : Thread nD τ) none (src := vSlot 0) (dst := lDst c 12) (sem := .dma (lsS 2)) (q := fullShare) (fs := VC m c 12) (fd := o0 m c)
      (r := 6) (d := false) (κ := KL (c, 2)) (by rw [duties_ls m c 2 6 (by decide)]; exact Finset.mem_singleton_self _) () NO rfl (amount_st m c 0 6 false)
      (by rw [payload_ls, lLandV_pts m c 12 0 (o0 m c)]; exact BI.Entails.refl _)) $$ [Hv0 Hol Htl2_6]
  · isplitr; · iexact HIl
    isplitl [Hv0]; · iexact Hv0
    isplitl [Hol]; · iexact Hol
    isplitl [Htl2_6]; · iexact Htl2_6
    iexact HRl2
  iclear HIl
  iintro Hc_l2
  -- step 215: wait arg3[49] (arg0[(k0_off2 d0 3136#32)], arg1[(k0_off1 d0 3136#32)])
  first | sl_exec | skip
  ihave Hs := (Entails.of_eq (take_step (famCYR (F := F) c) 49 (by decide))) $$ [FcYR]
  · iexact FcYR
  icases Hs with ⟨Hc, FcYR⟩
  ihave Hs := (Entails.of_eq (take_step (famAtYR (F := F) c) 49 (by decide))) $$ [FatYR]
  · iexact FatYR
  icases Hs with ⟨Hat, FatYR⟩
  ihave #HIw := (Prep.inv_yr m K c 49) $$ HI
  iapply (Rounds.wp_wait_rest_token 𝒱₀ ER (rd m) (c : Thread nD τ) none (κ := K (c, some (1, 49))) (sm := .dma (yrS 49))
      (wpE_waitDma2_eq 𝒱₀ (c : Thread nD τ) none Set.univ (src := ySrc c 49) (dst := yDst c 49)) (Set.mem_univ _) () (O := owedF c 49) (W := W74) (R := 0) (m := 0) (T := ∅)
      (by rw [Nat.zero_add]; exact (expect_yr m c 49).symm)) $$ [Hc HO Hat]
  · isplitr; · iexact HIw
    isplitl [Hc]; · iexact Hc
    isplitl [HO]; · iexact HO
    isplitr
    · iapply (mayWait_of_above c (.dma (yrS 49)) _ (by rw [show lv ((c : Thread nD τ), SemLoc.dma (yrS 49)) () = 2 from lv_yr c 49]; exact above_owedF c 49 (by decide)))
      iexact Hlev
    iexact Hat
  iclear HIw
  iintro ⟨HO, Hat, -, Hpay⟩
  ihave HYk := (Entails.of_eq (rest_yr' m c 49)) $$ Hpay
  ihave #HIx := (Prep.inv_yr m K c 49) $$ HI
  imod (Rounds.cell_close ER (rd m) (Set.mem_univ (K (c, some (1, 49)))) (fun h => h) (R := 0 + 1) (duties_yr_later m c 49)) $$ [Hat] with Hz
  · isplitr; · iexact HIx
    iexact Hat
  iclear HIx
  ihave AccZyr := (acc_step (famZyr (F := F) c) 49 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W75, HO⟩
  -- step 216: send k0_dev116 src=arg1[(k0_off3 d0 3136#32)] dst=arg1[(k0_off3 d0 3136#32)] ssem=arg4[49] rsem=arg5[49]
  first | sl_exec | skip
  ihave Hs := (Entails.of_eq (take_step (famTFS (F := F) c) 49 (by decide))) $$ [FtFS]
  · iexact FtFS
  icases Hs with ⟨Ht1, FtFS⟩
  ihave Hs := (Entails.of_eq (take_step (famTFRP (F := F) c) 49 (by decide))) $$ [FtFRP]
  · iexact FtFRP
  icases Hs with ⟨Ht2, FtFRP⟩
  ihave Hs := (Entails.of_eq (take_step (famDF m c) 49 (by decide))) $$ [FdF]
  · iexact FdF
  icases Hs with ⟨Hd, FdF⟩
  ihave #HI1 := (Prep.inv_fs m K c 49) $$ HI
  ihave #HI2 := (Prep.inv_fr m K (xp c) 49) $$ HI
  ihave #HR1 := (Prep.reached_fs (F := F) c 49) $$ HR
  ihave #HR2 := (Prep.reached_fr (F := F) (xp c) 49) $$ HR
  iapply (wp_fsend m c _ (dev116_eq c) 49 (K (c, some (2, 49))) (K (xp c, some (3, 49))) (owedF c 49) (owedF c 50)
      (by rw [owedF_succ' c 49 (by decide)]; rfl) W75) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 49 (by decide)) $$ [AccCFS Hc]
  · isplitl [AccCFS]; · iexact AccCFS
    iexact Hc
  -- step 217: wait arg3[50] (arg0[(k0_off2 d0 3200#32)], arg1[(k0_off1 d0 3200#32)])
  first | sl_exec | skip
  ihave Hs := (Entails.of_eq (take_step (famCYR (F := F) c) 50 (by decide))) $$ [FcYR]
  · iexact FcYR
  icases Hs with ⟨Hc, FcYR⟩
  ihave Hs := (Entails.of_eq (take_step (famAtYR (F := F) c) 50 (by decide))) $$ [FatYR]
  · iexact FatYR
  icases Hs with ⟨Hat, FatYR⟩
  ihave #HIw := (Prep.inv_yr m K c 50) $$ HI
  iapply (Rounds.wp_wait_rest_token 𝒱₀ ER (rd m) (c : Thread nD τ) none (κ := K (c, some (1, 50))) (sm := .dma (yrS 50))
      (wpE_waitDma2_eq 𝒱₀ (c : Thread nD τ) none Set.univ (src := ySrc c 50) (dst := yDst c 50)) (Set.mem_univ _) () (O := owedF c 50) (W := W75) (R := 0) (m := 0) (T := ∅)
      (by rw [Nat.zero_add]; exact (expect_yr m c 50).symm)) $$ [Hc HO Hat]
  · isplitr; · iexact HIw
    isplitl [Hc]; · iexact Hc
    isplitl [HO]; · iexact HO
    isplitr
    · iapply (mayWait_of_above c (.dma (yrS 50)) _ (by rw [show lv ((c : Thread nD τ), SemLoc.dma (yrS 50)) () = 2 from lv_yr c 50]; exact above_owedF c 50 (by decide)))
      iexact Hlev
    iexact Hat
  iclear HIw
  iintro ⟨HO, Hat, -, Hpay⟩
  ihave HYk := (Entails.of_eq (rest_yr' m c 50)) $$ Hpay
  ihave #HIx := (Prep.inv_yr m K c 50) $$ HI
  imod (Rounds.cell_close ER (rd m) (Set.mem_univ (K (c, some (1, 50)))) (fun h => h) (R := 0 + 1) (duties_yr_later m c 50)) $$ [Hat] with Hz
  · isplitr; · iexact HIx
    iexact Hat
  iclear HIx
  ihave AccZyr := (acc_step (famZyr (F := F) c) 50 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W76, HO⟩
  -- step 218: send k0_dev117 src=arg1[(k0_off3 d0 3200#32)] dst=arg1[(k0_off3 d0 3200#32)] ssem=arg4[50] rsem=arg5[50]
  first | sl_exec | skip
  ihave Hs := (Entails.of_eq (take_step (famTFS (F := F) c) 50 (by decide))) $$ [FtFS]
  · iexact FtFS
  icases Hs with ⟨Ht1, FtFS⟩
  ihave Hs := (Entails.of_eq (take_step (famTFRP (F := F) c) 50 (by decide))) $$ [FtFRP]
  · iexact FtFRP
  icases Hs with ⟨Ht2, FtFRP⟩
  ihave Hs := (Entails.of_eq (take_step (famDF m c) 50 (by decide))) $$ [FdF]
  · iexact FdF
  icases Hs with ⟨Hd, FdF⟩
  ihave #HI1 := (Prep.inv_fs m K c 50) $$ HI
  ihave #HI2 := (Prep.inv_fr m K (xp c) 50) $$ HI
  ihave #HR1 := (Prep.reached_fs (F := F) c 50) $$ HR
  ihave #HR2 := (Prep.reached_fr (F := F) (xp c) 50) $$ HR
  iapply (wp_fsend m c _ (dev117_eq c) 50 (K (c, some (2, 50))) (K (xp c, some (3, 50))) (owedF c 50) (owedF c 51)
      (by rw [owedF_succ' c 50 (by decide)]; rfl) W76) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 50 (by decide)) $$ [AccCFS Hc]
  · isplitl [AccCFS]; · iexact AccCFS
    iexact Hc
  -- step 219: wait arg3[51] (arg0[(k0_off2 d0 3264#32)], arg1[(k0_off1 d0 3264#32)])
  first | sl_exec | skip
  ihave Hs := (Entails.of_eq (take_step (famCYR (F := F) c) 51 (by decide))) $$ [FcYR]
  · iexact FcYR
  icases Hs with ⟨Hc, FcYR⟩
  ihave Hs := (Entails.of_eq (take_step (famAtYR (F := F) c) 51 (by decide))) $$ [FatYR]
  · iexact FatYR
  icases Hs with ⟨Hat, FatYR⟩
  ihave #HIw := (Prep.inv_yr m K c 51) $$ HI
  iapply (Rounds.wp_wait_rest_token 𝒱₀ ER (rd m) (c : Thread nD τ) none (κ := K (c, some (1, 51))) (sm := .dma (yrS 51))
      (wpE_waitDma2_eq 𝒱₀ (c : Thread nD τ) none Set.univ (src := ySrc c 51) (dst := yDst c 51)) (Set.mem_univ _) () (O := owedF c 51) (W := W76) (R := 0) (m := 0) (T := ∅)
      (by rw [Nat.zero_add]; exact (expect_yr m c 51).symm)) $$ [Hc HO Hat]
  · isplitr; · iexact HIw
    isplitl [Hc]; · iexact Hc
    isplitl [HO]; · iexact HO
    isplitr
    · iapply (mayWait_of_above c (.dma (yrS 51)) _ (by rw [show lv ((c : Thread nD τ), SemLoc.dma (yrS 51)) () = 2 from lv_yr c 51]; exact above_owedF c 51 (by decide)))
      iexact Hlev
    iexact Hat
  iclear HIw
  iintro ⟨HO, Hat, -, Hpay⟩
  ihave HYk := (Entails.of_eq (rest_yr' m c 51)) $$ Hpay
  ihave #HIx := (Prep.inv_yr m K c 51) $$ HI
  imod (Rounds.cell_close ER (rd m) (Set.mem_univ (K (c, some (1, 51)))) (fun h => h) (R := 0 + 1) (duties_yr_later m c 51)) $$ [Hat] with Hz
  · isplitr; · iexact HIx
    iexact Hat
  iclear HIx
  ihave AccZyr := (acc_step (famZyr (F := F) c) 51 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W77, HO⟩
  -- step 220: send k0_dev118 src=arg1[(k0_off3 d0 3264#32)] dst=arg1[(k0_off3 d0 3264#32)] ssem=arg4[51] rsem=arg5[51]
  first | sl_exec | skip
  ihave Hs := (Entails.of_eq (take_step (famTFS (F := F) c) 51 (by decide))) $$ [FtFS]
  · iexact FtFS
  icases Hs with ⟨Ht1, FtFS⟩
  ihave Hs := (Entails.of_eq (take_step (famTFRP (F := F) c) 51 (by decide))) $$ [FtFRP]
  · iexact FtFRP
  icases Hs with ⟨Ht2, FtFRP⟩
  ihave Hs := (Entails.of_eq (take_step (famDF m c) 51 (by decide))) $$ [FdF]
  · iexact FdF
  icases Hs with ⟨Hd, FdF⟩
  ihave #HI1 := (Prep.inv_fs m K c 51) $$ HI
  ihave #HI2 := (Prep.inv_fr m K (xp c) 51) $$ HI
  ihave #HR1 := (Prep.reached_fs (F := F) c 51) $$ HR
  ihave #HR2 := (Prep.reached_fr (F := F) (xp c) 51) $$ HR
  iapply (wp_fsend m c _ (dev118_eq c) 51 (K (c, some (2, 51))) (K (xp c, some (3, 51))) (owedF c 51) (owedF c 52)
      (by rw [owedF_succ' c 51 (by decide)]; rfl) W77) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 51 (by decide)) $$ [AccCFS Hc]
  · isplitl [AccCFS]; · iexact AccCFS
    iexact Hc
  -- step 221: wait arg3[52] (arg0[(k0_off2 d0 3328#32)], arg1[(k0_off1 d0 3328#32)])
  first | sl_exec | skip
  ihave Hs := (Entails.of_eq (take_step (famCYR (F := F) c) 52 (by decide))) $$ [FcYR]
  · iexact FcYR
  icases Hs with ⟨Hc, FcYR⟩
  ihave Hs := (Entails.of_eq (take_step (famAtYR (F := F) c) 52 (by decide))) $$ [FatYR]
  · iexact FatYR
  icases Hs with ⟨Hat, FatYR⟩
  ihave #HIw := (Prep.inv_yr m K c 52) $$ HI
  iapply (Rounds.wp_wait_rest_token 𝒱₀ ER (rd m) (c : Thread nD τ) none (κ := K (c, some (1, 52))) (sm := .dma (yrS 52))
      (wpE_waitDma2_eq 𝒱₀ (c : Thread nD τ) none Set.univ (src := ySrc c 52) (dst := yDst c 52)) (Set.mem_univ _) () (O := owedF c 52) (W := W77) (R := 0) (m := 0) (T := ∅)
      (by rw [Nat.zero_add]; exact (expect_yr m c 52).symm)) $$ [Hc HO Hat]
  · isplitr; · iexact HIw
    isplitl [Hc]; · iexact Hc
    isplitl [HO]; · iexact HO
    isplitr
    · iapply (mayWait_of_above c (.dma (yrS 52)) _ (by rw [show lv ((c : Thread nD τ), SemLoc.dma (yrS 52)) () = 2 from lv_yr c 52]; exact above_owedF c 52 (by decide)))
      iexact Hlev
    iexact Hat
  iclear HIw
  iintro ⟨HO, Hat, -, Hpay⟩
  ihave HYk := (Entails.of_eq (rest_yr' m c 52)) $$ Hpay
  ihave #HIx := (Prep.inv_yr m K c 52) $$ HI
  imod (Rounds.cell_close ER (rd m) (Set.mem_univ (K (c, some (1, 52)))) (fun h => h) (R := 0 + 1) (duties_yr_later m c 52)) $$ [Hat] with Hz
  · isplitr; · iexact HIx
    iexact Hat
  iclear HIx
  ihave AccZyr := (acc_step (famZyr (F := F) c) 52 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W78, HO⟩
  -- step 222: send k0_dev119 src=arg1[(k0_off3 d0 3328#32)] dst=arg1[(k0_off3 d0 3328#32)] ssem=arg4[52] rsem=arg5[52]
  first | sl_exec | skip
  ihave Hs := (Entails.of_eq (take_step (famTFS (F := F) c) 52 (by decide))) $$ [FtFS]
  · iexact FtFS
  icases Hs with ⟨Ht1, FtFS⟩
  ihave Hs := (Entails.of_eq (take_step (famTFRP (F := F) c) 52 (by decide))) $$ [FtFRP]
  · iexact FtFRP
  icases Hs with ⟨Ht2, FtFRP⟩
  ihave Hs := (Entails.of_eq (take_step (famDF m c) 52 (by decide))) $$ [FdF]
  · iexact FdF
  icases Hs with ⟨Hd, FdF⟩
  ihave #HI1 := (Prep.inv_fs m K c 52) $$ HI
  ihave #HI2 := (Prep.inv_fr m K (xp c) 52) $$ HI
  ihave #HR1 := (Prep.reached_fs (F := F) c 52) $$ HR
  ihave #HR2 := (Prep.reached_fr (F := F) (xp c) 52) $$ HR
  iapply (wp_fsend m c _ (dev119_eq c) 52 (K (c, some (2, 52))) (K (xp c, some (3, 52))) (owedF c 52) (owedF c 53)
      (by rw [owedF_succ' c 52 (by decide)]; rfl) W78) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 52 (by decide)) $$ [AccCFS Hc]
  · isplitl [AccCFS]; · iexact AccCFS
    iexact Hc
  -- step 223: wait arg7[3] (arg6[![1, 0, 0]], arg1[(k0_off5 d0 5632#32)])
  first | sl_exec | skip
  ihave #HIw := (Prep.inv_ls m KL c 3) $$ HIL
  iapply (Rounds.wp_wait_rest_token 𝒱₀ ER (rd m) (c : Thread nD τ) none (κ := KL (c, 3)) (sm := .dma (lsS 3))
      (wpE_waitDma2_eq 𝒱₀ (c : Thread nD τ) none Set.univ (src := vSlot 1) (dst := lDst c 11)) (Set.mem_univ _) () (O := owedF c 53) (W := W78) (R := 5) (m := 0) (T := ∅)
      (by rw [Nat.zero_add]; exact (expect_st m c 1 5 (by decide)).symm)) $$ [Hc_l3 HO Hat_l3]
  · isplitr; · iexact HIw
    isplitl [Hc_l3]; · iexact Hc_l3
    isplitl [HO]; · iexact HO
    isplitr
    · iapply (mayWait_of_above c (.dma (lsS 3)) _ (by rw [show lv ((c : Thread nD τ), SemLoc.dma (lsS 3)) () = 0 from lv_ls c 3]; exact above_owedF c 53 (by decide)))
      iexact Hlev
    iexact Hat_l3
  iclear HIw
  iclear HRl3
  iintro ⟨HO, Hat_l3, #HRl3, Hpay⟩
  ihave Hp := (Entails.of_eq (rest_st1 m c 5 (by decide))) $$ Hpay
  icases Hp with ⟨Holq, Hv1⟩
  ihave AccOL := (acc_step (famOL m c) 11 (by decide)) $$ [AccOL Holq]
  · isplitl [AccOL]; · iexact AccOL
    iexact Holq
  ihave HOe : iprop(∃ W' : Waits sig Unit, owes (c : Thread nD τ) _ W') $$ [HO]
  · iexists _; iexact HO
  icases HOe with ⟨%W79, HO⟩
  -- step 224: copy src=arg0[(k0_off18 d0)] dst=arg6[![1, 0, 0]] sem=arg7[1]
  first | sl_exec | skip
  ihave Hs := (Entails.of_eq (take_step (famXL m c) 13 (by decide))) $$ [FxL]
  · iexact FxL
  icases Hs with ⟨Hxl, FxL⟩
  ihave #HIl := (Prep.inv_ls m KL c 1) $$ HIL
  iapply (Rounds.wp_copy_pointsTo 𝒱₀ ER (rd m) (c : Thread nD τ) none (src := lSrc c 13) (dst := vSlot 1) (sem := .dma (lsS 1)) (q := fullShare) (fs := xC m c) (fd := VC m c 11)
      (r := 6) (d := false) (κ := KL (c, 1)) (by rw [duties_ls m c 1 6 (by decide)]; exact Finset.mem_singleton_self _) () NV rfl (amount_ld m c 1 6 false)
      (by rw [payload_ls, vLand_pts m c 13 1 (VC m c 11)]; exact BI.Entails.refl _)) $$ [Hxl Hv1 Htl1_6]
  · isplitr; · iexact HIl
    isplitl [Hxl]; · iexact Hxl
    isplitl [Hv1]; · iexact Hv1
    isplitl [Htl1_6]; · iexact Htl1_6
    iexact HRl1
  iclear HIl
  iintro Hc_l1
  -- step 225: wait arg7[1] (arg0[(k0_off18 d0)], arg6[![1, 0, 0]])
  first | sl_exec | skip
  ihave #HIw := (Prep.inv_ls m KL c 1) $$ HIL
  iapply (Rounds.wp_wait_rest_token 𝒱₀ ER (rd m) (c : Thread nD τ) none (κ := KL (c, 1)) (sm := .dma (lsS 1))
      (wpE_waitDma2_eq 𝒱₀ (c : Thread nD τ) none Set.univ (src := lSrc c 13) (dst := vSlot 1)) (Set.mem_univ _) () (O := owedF c 53) (W := W79) (R := 6) (m := 0) (T := ∅)
      (by rw [Nat.zero_add]; exact (expect_ld m c 1 6 (by decide)).symm)) $$ [Hc_l1 HO Hat_l1]
  · isplitr; · iexact HIw
    isplitl [Hc_l1]; · iexact Hc_l1
    isplitl [HO]; · iexact HO
    isplitr
    · iapply (mayWait_of_above c (.dma (lsS 1)) _ (by rw [show lv ((c : Thread nD τ), SemLoc.dma (lsS 1)) () = 0 from lv_ls c 1]; exact above_owedF c 53 (by decide)))
      iexact Hlev
    iexact Hat_l1
  iclear HIw
  iclear HRl1
  iintro ⟨HO, Hat_l1, #HRl1, Hpay⟩
  ihave Hp := (Entails.of_eq (rest_ld1 m c 6 (by decide))) $$ Hpay
  icases Hp with ⟨Hv1, Hxlq⟩
  ihave AccXL := (acc_step (famXL m c) 13 (by decide)) $$ [AccXL Hxlq]
  · isplitl [AccXL]; · iexact AccXL
    iexact Hxlq
  ihave HOe : iprop(∃ W' : Waits sig Unit, owes (c : Thread nD τ) _ W') $$ [HO]
  · iexists _; iexact HO
  icases HOe with ⟨%W80, HO⟩
  -- step 226: copy src=arg6[![1, 0, 0]] dst=arg1[(k0_off5 d0 6656#32)] sem=arg7[3]
  first | sl_exec | skip
  ihave Hs := (Entails.of_eq (take_step (famOL0 m c) 13 (by decide))) $$ [FoL]
  · iexact FoL
  icases Hs with ⟨Hol, FoL⟩
  ihave #HIl := (Prep.inv_ls m KL c 3) $$ HIL
  iapply (Rounds.wp_copy_pointsTo 𝒱₀ ER (rd m) (c : Thread nD τ) none (src := vSlot 1) (dst := lDst c 13) (sem := .dma (lsS 3)) (q := fullShare) (fs := VC m c 13) (fd := o0 m c)
      (r := 6) (d := false) (κ := KL (c, 3)) (by rw [duties_ls m c 3 6 (by decide)]; exact Finset.mem_singleton_self _) () NO rfl (amount_st m c 1 6 false)
      (by rw [payload_ls, lLandV_pts m c 13 1 (o0 m c)]; exact BI.Entails.refl _)) $$ [Hv1 Hol Htl3_6]
  · isplitr; · iexact HIl
    isplitl [Hv1]; · iexact Hv1
    isplitl [Hol]; · iexact Hol
    isplitl [Htl3_6]; · iexact Htl3_6
    iexact HRl3
  iclear HIl
  iintro Hc_l3
  -- step 227: wait arg3[53] (arg0[(k0_off2 d0 3392#32)], arg1[(k0_off1 d0 3392#32)])
  first | sl_exec | skip
  ihave Hs := (Entails.of_eq (take_step (famCYR (F := F) c) 53 (by decide))) $$ [FcYR]
  · iexact FcYR
  icases Hs with ⟨Hc, FcYR⟩
  ihave Hs := (Entails.of_eq (take_step (famAtYR (F := F) c) 53 (by decide))) $$ [FatYR]
  · iexact FatYR
  icases Hs with ⟨Hat, FatYR⟩
  ihave #HIw := (Prep.inv_yr m K c 53) $$ HI
  iapply (Rounds.wp_wait_rest_token 𝒱₀ ER (rd m) (c : Thread nD τ) none (κ := K (c, some (1, 53))) (sm := .dma (yrS 53))
      (wpE_waitDma2_eq 𝒱₀ (c : Thread nD τ) none Set.univ (src := ySrc c 53) (dst := yDst c 53)) (Set.mem_univ _) () (O := owedF c 53) (W := W80) (R := 0) (m := 0) (T := ∅)
      (by rw [Nat.zero_add]; exact (expect_yr m c 53).symm)) $$ [Hc HO Hat]
  · isplitr; · iexact HIw
    isplitl [Hc]; · iexact Hc
    isplitl [HO]; · iexact HO
    isplitr
    · iapply (mayWait_of_above c (.dma (yrS 53)) _ (by rw [show lv ((c : Thread nD τ), SemLoc.dma (yrS 53)) () = 2 from lv_yr c 53]; exact above_owedF c 53 (by decide)))
      iexact Hlev
    iexact Hat
  iclear HIw
  iintro ⟨HO, Hat, -, Hpay⟩
  ihave HYk := (Entails.of_eq (rest_yr' m c 53)) $$ Hpay
  ihave #HIx := (Prep.inv_yr m K c 53) $$ HI
  imod (Rounds.cell_close ER (rd m) (Set.mem_univ (K (c, some (1, 53)))) (fun h => h) (R := 0 + 1) (duties_yr_later m c 53)) $$ [Hat] with Hz
  · isplitr; · iexact HIx
    iexact Hat
  iclear HIx
  ihave AccZyr := (acc_step (famZyr (F := F) c) 53 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W81, HO⟩
  -- step 228: send k0_dev120 src=arg1[(k0_off3 d0 3392#32)] dst=arg1[(k0_off3 d0 3392#32)] ssem=arg4[53] rsem=arg5[53]
  first | sl_exec | skip
  ihave Hs := (Entails.of_eq (take_step (famTFS (F := F) c) 53 (by decide))) $$ [FtFS]
  · iexact FtFS
  icases Hs with ⟨Ht1, FtFS⟩
  ihave Hs := (Entails.of_eq (take_step (famTFRP (F := F) c) 53 (by decide))) $$ [FtFRP]
  · iexact FtFRP
  icases Hs with ⟨Ht2, FtFRP⟩
  ihave Hs := (Entails.of_eq (take_step (famDF m c) 53 (by decide))) $$ [FdF]
  · iexact FdF
  icases Hs with ⟨Hd, FdF⟩
  ihave #HI1 := (Prep.inv_fs m K c 53) $$ HI
  ihave #HI2 := (Prep.inv_fr m K (xp c) 53) $$ HI
  ihave #HR1 := (Prep.reached_fs (F := F) c 53) $$ HR
  ihave #HR2 := (Prep.reached_fr (F := F) (xp c) 53) $$ HR
  iapply (wp_fsend m c _ (dev120_eq c) 53 (K (c, some (2, 53))) (K (xp c, some (3, 53))) (owedF c 53) (owedF c 54)
      (by rw [owedF_succ' c 53 (by decide)]; rfl) W81) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 53 (by decide)) $$ [AccCFS Hc]
  · isplitl [AccCFS]; · iexact AccCFS
    iexact Hc
  -- step 229: wait arg3[54] (arg0[(k0_off2 d0 3456#32)], arg1[(k0_off1 d0 3456#32)])
  first | sl_exec | skip
  ihave Hs := (Entails.of_eq (take_step (famCYR (F := F) c) 54 (by decide))) $$ [FcYR]
  · iexact FcYR
  icases Hs with ⟨Hc, FcYR⟩
  ihave Hs := (Entails.of_eq (take_step (famAtYR (F := F) c) 54 (by decide))) $$ [FatYR]
  · iexact FatYR
  icases Hs with ⟨Hat, FatYR⟩
  ihave #HIw := (Prep.inv_yr m K c 54) $$ HI
  iapply (Rounds.wp_wait_rest_token 𝒱₀ ER (rd m) (c : Thread nD τ) none (κ := K (c, some (1, 54))) (sm := .dma (yrS 54))
      (wpE_waitDma2_eq 𝒱₀ (c : Thread nD τ) none Set.univ (src := ySrc c 54) (dst := yDst c 54)) (Set.mem_univ _) () (O := owedF c 54) (W := W81) (R := 0) (m := 0) (T := ∅)
      (by rw [Nat.zero_add]; exact (expect_yr m c 54).symm)) $$ [Hc HO Hat]
  · isplitr; · iexact HIw
    isplitl [Hc]; · iexact Hc
    isplitl [HO]; · iexact HO
    isplitr
    · iapply (mayWait_of_above c (.dma (yrS 54)) _ (by rw [show lv ((c : Thread nD τ), SemLoc.dma (yrS 54)) () = 2 from lv_yr c 54]; exact above_owedF c 54 (by decide)))
      iexact Hlev
    iexact Hat
  iclear HIw
  iintro ⟨HO, Hat, -, Hpay⟩
  ihave HYk := (Entails.of_eq (rest_yr' m c 54)) $$ Hpay
  ihave #HIx := (Prep.inv_yr m K c 54) $$ HI
  imod (Rounds.cell_close ER (rd m) (Set.mem_univ (K (c, some (1, 54)))) (fun h => h) (R := 0 + 1) (duties_yr_later m c 54)) $$ [Hat] with Hz
  · isplitr; · iexact HIx
    iexact Hat
  iclear HIx
  ihave AccZyr := (acc_step (famZyr (F := F) c) 54 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W82, HO⟩
  -- step 230: send k0_dev121 src=arg1[(k0_off3 d0 3456#32)] dst=arg1[(k0_off3 d0 3456#32)] ssem=arg4[54] rsem=arg5[54]
  first | sl_exec | skip
  ihave Hs := (Entails.of_eq (take_step (famTFS (F := F) c) 54 (by decide))) $$ [FtFS]
  · iexact FtFS
  icases Hs with ⟨Ht1, FtFS⟩
  ihave Hs := (Entails.of_eq (take_step (famTFRP (F := F) c) 54 (by decide))) $$ [FtFRP]
  · iexact FtFRP
  icases Hs with ⟨Ht2, FtFRP⟩
  ihave Hs := (Entails.of_eq (take_step (famDF m c) 54 (by decide))) $$ [FdF]
  · iexact FdF
  icases Hs with ⟨Hd, FdF⟩
  ihave #HI1 := (Prep.inv_fs m K c 54) $$ HI
  ihave #HI2 := (Prep.inv_fr m K (xp c) 54) $$ HI
  ihave #HR1 := (Prep.reached_fs (F := F) c 54) $$ HR
  ihave #HR2 := (Prep.reached_fr (F := F) (xp c) 54) $$ HR
  iapply (wp_fsend m c _ (dev121_eq c) 54 (K (c, some (2, 54))) (K (xp c, some (3, 54))) (owedF c 54) (owedF c 55)
      (by rw [owedF_succ' c 54 (by decide)]; rfl) W82) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 54 (by decide)) $$ [AccCFS Hc]
  · isplitl [AccCFS]; · iexact AccCFS
    iexact Hc
  -- step 231: wait arg3[55] (arg0[(k0_off2 d0 3520#32)], arg1[(k0_off1 d0 3520#32)])
  first | sl_exec | skip
  ihave Hs := (Entails.of_eq (take_step (famCYR (F := F) c) 55 (by decide))) $$ [FcYR]
  · iexact FcYR
  icases Hs with ⟨Hc, FcYR⟩
  ihave Hs := (Entails.of_eq (take_step (famAtYR (F := F) c) 55 (by decide))) $$ [FatYR]
  · iexact FatYR
  icases Hs with ⟨Hat, FatYR⟩
  ihave #HIw := (Prep.inv_yr m K c 55) $$ HI
  iapply (Rounds.wp_wait_rest_token 𝒱₀ ER (rd m) (c : Thread nD τ) none (κ := K (c, some (1, 55))) (sm := .dma (yrS 55))
      (wpE_waitDma2_eq 𝒱₀ (c : Thread nD τ) none Set.univ (src := ySrc c 55) (dst := yDst c 55)) (Set.mem_univ _) () (O := owedF c 55) (W := W82) (R := 0) (m := 0) (T := ∅)
      (by rw [Nat.zero_add]; exact (expect_yr m c 55).symm)) $$ [Hc HO Hat]
  · isplitr; · iexact HIw
    isplitl [Hc]; · iexact Hc
    isplitl [HO]; · iexact HO
    isplitr
    · iapply (mayWait_of_above c (.dma (yrS 55)) _ (by rw [show lv ((c : Thread nD τ), SemLoc.dma (yrS 55)) () = 2 from lv_yr c 55]; exact above_owedF c 55 (by decide)))
      iexact Hlev
    iexact Hat
  iclear HIw
  iintro ⟨HO, Hat, -, Hpay⟩
  ihave HYk := (Entails.of_eq (rest_yr' m c 55)) $$ Hpay
  ihave #HIx := (Prep.inv_yr m K c 55) $$ HI
  imod (Rounds.cell_close ER (rd m) (Set.mem_univ (K (c, some (1, 55)))) (fun h => h) (R := 0 + 1) (duties_yr_later m c 55)) $$ [Hat] with Hz
  · isplitr; · iexact HIx
    iexact Hat
  iclear HIx
  ihave AccZyr := (acc_step (famZyr (F := F) c) 55 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W83, HO⟩
  -- step 232: send k0_dev122 src=arg1[(k0_off3 d0 3520#32)] dst=arg1[(k0_off3 d0 3520#32)] ssem=arg4[55] rsem=arg5[55]
  first | sl_exec | skip
  ihave Hs := (Entails.of_eq (take_step (famTFS (F := F) c) 55 (by decide))) $$ [FtFS]
  · iexact FtFS
  icases Hs with ⟨Ht1, FtFS⟩
  ihave Hs := (Entails.of_eq (take_step (famTFRP (F := F) c) 55 (by decide))) $$ [FtFRP]
  · iexact FtFRP
  icases Hs with ⟨Ht2, FtFRP⟩
  ihave Hs := (Entails.of_eq (take_step (famDF m c) 55 (by decide))) $$ [FdF]
  · iexact FdF
  icases Hs with ⟨Hd, FdF⟩
  ihave #HI1 := (Prep.inv_fs m K c 55) $$ HI
  ihave #HI2 := (Prep.inv_fr m K (xp c) 55) $$ HI
  ihave #HR1 := (Prep.reached_fs (F := F) c 55) $$ HR
  ihave #HR2 := (Prep.reached_fr (F := F) (xp c) 55) $$ HR
  iapply (wp_fsend m c _ (dev122_eq c) 55 (K (c, some (2, 55))) (K (xp c, some (3, 55))) (owedF c 55) (owedF c 56)
      (by rw [owedF_succ' c 55 (by decide)]; rfl) W83) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 55 (by decide)) $$ [AccCFS Hc]
  · isplitl [AccCFS]; · iexact AccCFS
    iexact Hc
  -- step 233: wait arg3[56] (arg0[(k0_off2 d0 3584#32)], arg1[(k0_off1 d0 3584#32)])
  first | sl_exec | skip
  ihave Hs := (Entails.of_eq (take_step (famCYR (F := F) c) 56 (by decide))) $$ [FcYR]
  · iexact FcYR
  icases Hs with ⟨Hc, FcYR⟩
  ihave Hs := (Entails.of_eq (take_step (famAtYR (F := F) c) 56 (by decide))) $$ [FatYR]
  · iexact FatYR
  icases Hs with ⟨Hat, FatYR⟩
  ihave #HIw := (Prep.inv_yr m K c 56) $$ HI
  iapply (Rounds.wp_wait_rest_token 𝒱₀ ER (rd m) (c : Thread nD τ) none (κ := K (c, some (1, 56))) (sm := .dma (yrS 56))
      (wpE_waitDma2_eq 𝒱₀ (c : Thread nD τ) none Set.univ (src := ySrc c 56) (dst := yDst c 56)) (Set.mem_univ _) () (O := owedF c 56) (W := W83) (R := 0) (m := 0) (T := ∅)
      (by rw [Nat.zero_add]; exact (expect_yr m c 56).symm)) $$ [Hc HO Hat]
  · isplitr; · iexact HIw
    isplitl [Hc]; · iexact Hc
    isplitl [HO]; · iexact HO
    isplitr
    · iapply (mayWait_of_above c (.dma (yrS 56)) _ (by rw [show lv ((c : Thread nD τ), SemLoc.dma (yrS 56)) () = 2 from lv_yr c 56]; exact above_owedF c 56 (by decide)))
      iexact Hlev
    iexact Hat
  iclear HIw
  iintro ⟨HO, Hat, -, Hpay⟩
  ihave HYk := (Entails.of_eq (rest_yr' m c 56)) $$ Hpay
  ihave #HIx := (Prep.inv_yr m K c 56) $$ HI
  imod (Rounds.cell_close ER (rd m) (Set.mem_univ (K (c, some (1, 56)))) (fun h => h) (R := 0 + 1) (duties_yr_later m c 56)) $$ [Hat] with Hz
  · isplitr; · iexact HIx
    iexact Hat
  iclear HIx
  ihave AccZyr := (acc_step (famZyr (F := F) c) 56 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W84, HO⟩
  -- step 234: send k0_dev123 src=arg1[(k0_off3 d0 3584#32)] dst=arg1[(k0_off3 d0 3584#32)] ssem=arg4[56] rsem=arg5[56]
  first | sl_exec | skip
  ihave Hs := (Entails.of_eq (take_step (famTFS (F := F) c) 56 (by decide))) $$ [FtFS]
  · iexact FtFS
  icases Hs with ⟨Ht1, FtFS⟩
  ihave Hs := (Entails.of_eq (take_step (famTFRP (F := F) c) 56 (by decide))) $$ [FtFRP]
  · iexact FtFRP
  icases Hs with ⟨Ht2, FtFRP⟩
  ihave Hs := (Entails.of_eq (take_step (famDF m c) 56 (by decide))) $$ [FdF]
  · iexact FdF
  icases Hs with ⟨Hd, FdF⟩
  ihave #HI1 := (Prep.inv_fs m K c 56) $$ HI
  ihave #HI2 := (Prep.inv_fr m K (xp c) 56) $$ HI
  ihave #HR1 := (Prep.reached_fs (F := F) c 56) $$ HR
  ihave #HR2 := (Prep.reached_fr (F := F) (xp c) 56) $$ HR
  iapply (wp_fsend m c _ (dev123_eq c) 56 (K (c, some (2, 56))) (K (xp c, some (3, 56))) (owedF c 56) (owedF c 57)
      (by rw [owedF_succ' c 56 (by decide)]; rfl) W84) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 56 (by decide)) $$ [AccCFS Hc]
  · isplitl [AccCFS]; · iexact AccCFS
    iexact Hc
  -- step 235: wait arg7[2] (arg6[![0, 0, 0]], arg1[(k0_off5 d0 6144#32)])
  first | sl_exec | skip
  ihave #HIw := (Prep.inv_ls m KL c 2) $$ HIL
  iapply (Rounds.wp_wait_rest_token 𝒱₀ ER (rd m) (c : Thread nD τ) none (κ := KL (c, 2)) (sm := .dma (lsS 2))
      (wpE_waitDma2_eq 𝒱₀ (c : Thread nD τ) none Set.univ (src := vSlot 0) (dst := lDst c 12)) (Set.mem_univ _) () (O := owedF c 57) (W := W84) (R := 6) (m := 0) (T := ∅)
      (by rw [Nat.zero_add]; exact (expect_st m c 0 6 (by decide)).symm)) $$ [Hc_l2 HO Hat_l2]
  · isplitr; · iexact HIw
    isplitl [Hc_l2]; · iexact Hc_l2
    isplitl [HO]; · iexact HO
    isplitr
    · iapply (mayWait_of_above c (.dma (lsS 2)) _ (by rw [show lv ((c : Thread nD τ), SemLoc.dma (lsS 2)) () = 0 from lv_ls c 2]; exact above_owedF c 57 (by decide)))
      iexact Hlev
    iexact Hat_l2
  iclear HIw
  iclear HRl2
  iintro ⟨HO, Hat_l2, #HRl2, Hpay⟩
  ihave Hp := (Entails.of_eq (rest_st0 m c 6 (by decide))) $$ Hpay
  icases Hp with ⟨Holq, Hv0⟩
  ihave AccOL := (acc_step (famOL m c) 12 (by decide)) $$ [AccOL Holq]
  · isplitl [AccOL]; · iexact AccOL
    iexact Holq
  ihave HOe : iprop(∃ W' : Waits sig Unit, owes (c : Thread nD τ) _ W') $$ [HO]
  · iexists _; iexact HO
  icases HOe with ⟨%W85, HO⟩
  -- step 236: copy src=arg0[(k0_off19 d0)] dst=arg6[![0, 0, 0]] sem=arg7[0]
  first | sl_exec | skip
  ihave Hs := (Entails.of_eq (take_step (famXL m c) 14 (by decide))) $$ [FxL]
  · iexact FxL
  icases Hs with ⟨Hxl, FxL⟩
  ihave #HIl := (Prep.inv_ls m KL c 0) $$ HIL
  iapply (Rounds.wp_copy_pointsTo 𝒱₀ ER (rd m) (c : Thread nD τ) none (src := lSrc c 14) (dst := vSlot 0) (sem := .dma (lsS 0)) (q := fullShare) (fs := xC m c) (fd := VC m c 12)
      (r := 7) (d := false) (κ := KL (c, 0)) (by rw [duties_ls m c 0 7 (by decide)]; exact Finset.mem_singleton_self _) () NV rfl (amount_ld m c 0 7 false)
      (by rw [payload_ls, vLand_pts m c 14 0 (VC m c 12)]; exact BI.Entails.refl _)) $$ [Hxl Hv0 Htl0_7]
  · isplitr; · iexact HIl
    isplitl [Hxl]; · iexact Hxl
    isplitl [Hv0]; · iexact Hv0
    isplitl [Htl0_7]; · iexact Htl0_7
    iexact HRl0
  iclear HIl
  iintro Hc_l0
  -- step 237: wait arg7[0] (arg0[(k0_off19 d0)], arg6[![0, 0, 0]])
  first | sl_exec | skip
  ihave #HIw := (Prep.inv_ls m KL c 0) $$ HIL
  iapply (Rounds.wp_wait_rest_token 𝒱₀ ER (rd m) (c : Thread nD τ) none (κ := KL (c, 0)) (sm := .dma (lsS 0))
      (wpE_waitDma2_eq 𝒱₀ (c : Thread nD τ) none Set.univ (src := lSrc c 14) (dst := vSlot 0)) (Set.mem_univ _) () (O := owedF c 57) (W := W85) (R := 7) (m := 0) (T := ∅)
      (by rw [Nat.zero_add]; exact (expect_ld m c 0 7 (by decide)).symm)) $$ [Hc_l0 HO Hat_l0]
  · isplitr; · iexact HIw
    isplitl [Hc_l0]; · iexact Hc_l0
    isplitl [HO]; · iexact HO
    isplitr
    · iapply (mayWait_of_above c (.dma (lsS 0)) _ (by rw [show lv ((c : Thread nD τ), SemLoc.dma (lsS 0)) () = 0 from lv_ls c 0]; exact above_owedF c 57 (by decide)))
      iexact Hlev
    iexact Hat_l0
  iclear HIw
  iclear HRl0
  iintro ⟨HO, Hat_l0, #HRl0, Hpay⟩
  ihave Hp := (Entails.of_eq (rest_ld0 m c 7 (by decide))) $$ Hpay
  icases Hp with ⟨Hv0, Hxlq⟩
  ihave AccXL := (acc_step (famXL m c) 14 (by decide)) $$ [AccXL Hxlq]
  · isplitl [AccXL]; · iexact AccXL
    iexact Hxlq
  ihave HOe : iprop(∃ W' : Waits sig Unit, owes (c : Thread nD τ) _ W') $$ [HO]
  · iexists _; iexact HO
  icases HOe with ⟨%W86, HO⟩
  -- step 238: copy src=arg6[![0, 0, 0]] dst=arg1[(k0_off5 d0 7168#32)] sem=arg7[2]
  first | sl_exec | skip
  ihave Hs := (Entails.of_eq (take_step (famOL0 m c) 14 (by decide))) $$ [FoL]
  · iexact FoL
  icases Hs with ⟨Hol, FoL⟩
  ihave #HIl := (Prep.inv_ls m KL c 2) $$ HIL
  iapply (Rounds.wp_copy_pointsTo 𝒱₀ ER (rd m) (c : Thread nD τ) none (src := vSlot 0) (dst := lDst c 14) (sem := .dma (lsS 2)) (q := fullShare) (fs := VC m c 14) (fd := o0 m c)
      (r := 7) (d := false) (κ := KL (c, 2)) (by rw [duties_ls m c 2 7 (by decide)]; exact Finset.mem_singleton_self _) () NO rfl (amount_st m c 0 7 false)
      (by rw [payload_ls, lLandV_pts m c 14 0 (o0 m c)]; exact BI.Entails.refl _)) $$ [Hv0 Hol Htl2_7]
  · isplitr; · iexact HIl
    isplitl [Hv0]; · iexact Hv0
    isplitl [Hol]; · iexact Hol
    isplitl [Htl2_7]; · iexact Htl2_7
    iexact HRl2
  iclear HIl
  iintro Hc_l2
  -- step 239: wait arg3[57] (arg0[(k0_off2 d0 3648#32)], arg1[(k0_off1 d0 3648#32)])
  first | sl_exec | skip
  ihave Hs := (Entails.of_eq (take_step (famCYR (F := F) c) 57 (by decide))) $$ [FcYR]
  · iexact FcYR
  icases Hs with ⟨Hc, FcYR⟩
  ihave Hs := (Entails.of_eq (take_step (famAtYR (F := F) c) 57 (by decide))) $$ [FatYR]
  · iexact FatYR
  icases Hs with ⟨Hat, FatYR⟩
  ihave #HIw := (Prep.inv_yr m K c 57) $$ HI
  iapply (Rounds.wp_wait_rest_token 𝒱₀ ER (rd m) (c : Thread nD τ) none (κ := K (c, some (1, 57))) (sm := .dma (yrS 57))
      (wpE_waitDma2_eq 𝒱₀ (c : Thread nD τ) none Set.univ (src := ySrc c 57) (dst := yDst c 57)) (Set.mem_univ _) () (O := owedF c 57) (W := W86) (R := 0) (m := 0) (T := ∅)
      (by rw [Nat.zero_add]; exact (expect_yr m c 57).symm)) $$ [Hc HO Hat]
  · isplitr; · iexact HIw
    isplitl [Hc]; · iexact Hc
    isplitl [HO]; · iexact HO
    isplitr
    · iapply (mayWait_of_above c (.dma (yrS 57)) _ (by rw [show lv ((c : Thread nD τ), SemLoc.dma (yrS 57)) () = 2 from lv_yr c 57]; exact above_owedF c 57 (by decide)))
      iexact Hlev
    iexact Hat
  iclear HIw
  iintro ⟨HO, Hat, -, Hpay⟩
  ihave HYk := (Entails.of_eq (rest_yr' m c 57)) $$ Hpay
  ihave #HIx := (Prep.inv_yr m K c 57) $$ HI
  imod (Rounds.cell_close ER (rd m) (Set.mem_univ (K (c, some (1, 57)))) (fun h => h) (R := 0 + 1) (duties_yr_later m c 57)) $$ [Hat] with Hz
  · isplitr; · iexact HIx
    iexact Hat
  iclear HIx
  ihave AccZyr := (acc_step (famZyr (F := F) c) 57 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W87, HO⟩
  -- step 240: send k0_dev124 src=arg1[(k0_off3 d0 3648#32)] dst=arg1[(k0_off3 d0 3648#32)] ssem=arg4[57] rsem=arg5[57]
  first | sl_exec | skip
  ihave Hs := (Entails.of_eq (take_step (famTFS (F := F) c) 57 (by decide))) $$ [FtFS]
  · iexact FtFS
  icases Hs with ⟨Ht1, FtFS⟩
  ihave Hs := (Entails.of_eq (take_step (famTFRP (F := F) c) 57 (by decide))) $$ [FtFRP]
  · iexact FtFRP
  icases Hs with ⟨Ht2, FtFRP⟩
  ihave Hs := (Entails.of_eq (take_step (famDF m c) 57 (by decide))) $$ [FdF]
  · iexact FdF
  icases Hs with ⟨Hd, FdF⟩
  ihave #HI1 := (Prep.inv_fs m K c 57) $$ HI
  ihave #HI2 := (Prep.inv_fr m K (xp c) 57) $$ HI
  ihave #HR1 := (Prep.reached_fs (F := F) c 57) $$ HR
  ihave #HR2 := (Prep.reached_fr (F := F) (xp c) 57) $$ HR
  iapply (wp_fsend m c _ (dev124_eq c) 57 (K (c, some (2, 57))) (K (xp c, some (3, 57))) (owedF c 57) (owedF c 58)
      (by rw [owedF_succ' c 57 (by decide)]; rfl) W87) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 57 (by decide)) $$ [AccCFS Hc]
  · isplitl [AccCFS]; · iexact AccCFS
    iexact Hc
  -- step 241: wait arg3[58] (arg0[(k0_off2 d0 3712#32)], arg1[(k0_off1 d0 3712#32)])
  first | sl_exec | skip
  ihave Hs := (Entails.of_eq (take_step (famCYR (F := F) c) 58 (by decide))) $$ [FcYR]
  · iexact FcYR
  icases Hs with ⟨Hc, FcYR⟩
  ihave Hs := (Entails.of_eq (take_step (famAtYR (F := F) c) 58 (by decide))) $$ [FatYR]
  · iexact FatYR
  icases Hs with ⟨Hat, FatYR⟩
  ihave #HIw := (Prep.inv_yr m K c 58) $$ HI
  iapply (Rounds.wp_wait_rest_token 𝒱₀ ER (rd m) (c : Thread nD τ) none (κ := K (c, some (1, 58))) (sm := .dma (yrS 58))
      (wpE_waitDma2_eq 𝒱₀ (c : Thread nD τ) none Set.univ (src := ySrc c 58) (dst := yDst c 58)) (Set.mem_univ _) () (O := owedF c 58) (W := W87) (R := 0) (m := 0) (T := ∅)
      (by rw [Nat.zero_add]; exact (expect_yr m c 58).symm)) $$ [Hc HO Hat]
  · isplitr; · iexact HIw
    isplitl [Hc]; · iexact Hc
    isplitl [HO]; · iexact HO
    isplitr
    · iapply (mayWait_of_above c (.dma (yrS 58)) _ (by rw [show lv ((c : Thread nD τ), SemLoc.dma (yrS 58)) () = 2 from lv_yr c 58]; exact above_owedF c 58 (by decide)))
      iexact Hlev
    iexact Hat
  iclear HIw
  iintro ⟨HO, Hat, -, Hpay⟩
  ihave HYk := (Entails.of_eq (rest_yr' m c 58)) $$ Hpay
  ihave #HIx := (Prep.inv_yr m K c 58) $$ HI
  imod (Rounds.cell_close ER (rd m) (Set.mem_univ (K (c, some (1, 58)))) (fun h => h) (R := 0 + 1) (duties_yr_later m c 58)) $$ [Hat] with Hz
  · isplitr; · iexact HIx
    iexact Hat
  iclear HIx
  ihave AccZyr := (acc_step (famZyr (F := F) c) 58 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W88, HO⟩
  -- step 242: send k0_dev125 src=arg1[(k0_off3 d0 3712#32)] dst=arg1[(k0_off3 d0 3712#32)] ssem=arg4[58] rsem=arg5[58]
  first | sl_exec | skip
  ihave Hs := (Entails.of_eq (take_step (famTFS (F := F) c) 58 (by decide))) $$ [FtFS]
  · iexact FtFS
  icases Hs with ⟨Ht1, FtFS⟩
  ihave Hs := (Entails.of_eq (take_step (famTFRP (F := F) c) 58 (by decide))) $$ [FtFRP]
  · iexact FtFRP
  icases Hs with ⟨Ht2, FtFRP⟩
  ihave Hs := (Entails.of_eq (take_step (famDF m c) 58 (by decide))) $$ [FdF]
  · iexact FdF
  icases Hs with ⟨Hd, FdF⟩
  ihave #HI1 := (Prep.inv_fs m K c 58) $$ HI
  ihave #HI2 := (Prep.inv_fr m K (xp c) 58) $$ HI
  ihave #HR1 := (Prep.reached_fs (F := F) c 58) $$ HR
  ihave #HR2 := (Prep.reached_fr (F := F) (xp c) 58) $$ HR
  iapply (wp_fsend m c _ (dev125_eq c) 58 (K (c, some (2, 58))) (K (xp c, some (3, 58))) (owedF c 58) (owedF c 59)
      (by rw [owedF_succ' c 58 (by decide)]; rfl) W88) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 58 (by decide)) $$ [AccCFS Hc]
  · isplitl [AccCFS]; · iexact AccCFS
    iexact Hc
  -- step 243: wait arg3[59] (arg0[(k0_off2 d0 3776#32)], arg1[(k0_off1 d0 3776#32)])
  first | sl_exec | skip
  ihave Hs := (Entails.of_eq (take_step (famCYR (F := F) c) 59 (by decide))) $$ [FcYR]
  · iexact FcYR
  icases Hs with ⟨Hc, FcYR⟩
  ihave Hs := (Entails.of_eq (take_step (famAtYR (F := F) c) 59 (by decide))) $$ [FatYR]
  · iexact FatYR
  icases Hs with ⟨Hat, FatYR⟩
  ihave #HIw := (Prep.inv_yr m K c 59) $$ HI
  iapply (Rounds.wp_wait_rest_token 𝒱₀ ER (rd m) (c : Thread nD τ) none (κ := K (c, some (1, 59))) (sm := .dma (yrS 59))
      (wpE_waitDma2_eq 𝒱₀ (c : Thread nD τ) none Set.univ (src := ySrc c 59) (dst := yDst c 59)) (Set.mem_univ _) () (O := owedF c 59) (W := W88) (R := 0) (m := 0) (T := ∅)
      (by rw [Nat.zero_add]; exact (expect_yr m c 59).symm)) $$ [Hc HO Hat]
  · isplitr; · iexact HIw
    isplitl [Hc]; · iexact Hc
    isplitl [HO]; · iexact HO
    isplitr
    · iapply (mayWait_of_above c (.dma (yrS 59)) _ (by rw [show lv ((c : Thread nD τ), SemLoc.dma (yrS 59)) () = 2 from lv_yr c 59]; exact above_owedF c 59 (by decide)))
      iexact Hlev
    iexact Hat
  iclear HIw
  iintro ⟨HO, Hat, -, Hpay⟩
  ihave HYk := (Entails.of_eq (rest_yr' m c 59)) $$ Hpay
  ihave #HIx := (Prep.inv_yr m K c 59) $$ HI
  imod (Rounds.cell_close ER (rd m) (Set.mem_univ (K (c, some (1, 59)))) (fun h => h) (R := 0 + 1) (duties_yr_later m c 59)) $$ [Hat] with Hz
  · isplitr; · iexact HIx
    iexact Hat
  iclear HIx
  ihave AccZyr := (acc_step (famZyr (F := F) c) 59 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W89, HO⟩
  -- step 244: send k0_dev126 src=arg1[(k0_off3 d0 3776#32)] dst=arg1[(k0_off3 d0 3776#32)] ssem=arg4[59] rsem=arg5[59]
  first | sl_exec | skip
  ihave Hs := (Entails.of_eq (take_step (famTFS (F := F) c) 59 (by decide))) $$ [FtFS]
  · iexact FtFS
  icases Hs with ⟨Ht1, FtFS⟩
  ihave Hs := (Entails.of_eq (take_step (famTFRP (F := F) c) 59 (by decide))) $$ [FtFRP]
  · iexact FtFRP
  icases Hs with ⟨Ht2, FtFRP⟩
  ihave Hs := (Entails.of_eq (take_step (famDF m c) 59 (by decide))) $$ [FdF]
  · iexact FdF
  icases Hs with ⟨Hd, FdF⟩
  ihave #HI1 := (Prep.inv_fs m K c 59) $$ HI
  ihave #HI2 := (Prep.inv_fr m K (xp c) 59) $$ HI
  ihave #HR1 := (Prep.reached_fs (F := F) c 59) $$ HR
  ihave #HR2 := (Prep.reached_fr (F := F) (xp c) 59) $$ HR
  iapply (wp_fsend m c _ (dev126_eq c) 59 (K (c, some (2, 59))) (K (xp c, some (3, 59))) (owedF c 59) (owedF c 60)
      (by rw [owedF_succ' c 59 (by decide)]; rfl) W89) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 59 (by decide)) $$ [AccCFS Hc]
  · isplitl [AccCFS]; · iexact AccCFS
    iexact Hc
  -- step 245: wait arg3[60] (arg0[(k0_off2 d0 3840#32)], arg1[(k0_off1 d0 3840#32)])
  first | sl_exec | skip
  ihave Hs := (Entails.of_eq (take_step (famCYR (F := F) c) 60 (by decide))) $$ [FcYR]
  · iexact FcYR
  icases Hs with ⟨Hc, FcYR⟩
  ihave Hs := (Entails.of_eq (take_step (famAtYR (F := F) c) 60 (by decide))) $$ [FatYR]
  · iexact FatYR
  icases Hs with ⟨Hat, FatYR⟩
  ihave #HIw := (Prep.inv_yr m K c 60) $$ HI
  iapply (Rounds.wp_wait_rest_token 𝒱₀ ER (rd m) (c : Thread nD τ) none (κ := K (c, some (1, 60))) (sm := .dma (yrS 60))
      (wpE_waitDma2_eq 𝒱₀ (c : Thread nD τ) none Set.univ (src := ySrc c 60) (dst := yDst c 60)) (Set.mem_univ _) () (O := owedF c 60) (W := W89) (R := 0) (m := 0) (T := ∅)
      (by rw [Nat.zero_add]; exact (expect_yr m c 60).symm)) $$ [Hc HO Hat]
  · isplitr; · iexact HIw
    isplitl [Hc]; · iexact Hc
    isplitl [HO]; · iexact HO
    isplitr
    · iapply (mayWait_of_above c (.dma (yrS 60)) _ (by rw [show lv ((c : Thread nD τ), SemLoc.dma (yrS 60)) () = 2 from lv_yr c 60]; exact above_owedF c 60 (by decide)))
      iexact Hlev
    iexact Hat
  iclear HIw
  iintro ⟨HO, Hat, -, Hpay⟩
  ihave HYk := (Entails.of_eq (rest_yr' m c 60)) $$ Hpay
  ihave #HIx := (Prep.inv_yr m K c 60) $$ HI
  imod (Rounds.cell_close ER (rd m) (Set.mem_univ (K (c, some (1, 60)))) (fun h => h) (R := 0 + 1) (duties_yr_later m c 60)) $$ [Hat] with Hz
  · isplitr; · iexact HIx
    iexact Hat
  iclear HIx
  ihave AccZyr := (acc_step (famZyr (F := F) c) 60 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W90, HO⟩
  -- step 246: send k0_dev127 src=arg1[(k0_off3 d0 3840#32)] dst=arg1[(k0_off3 d0 3840#32)] ssem=arg4[60] rsem=arg5[60]
  first | sl_exec | skip
  ihave Hs := (Entails.of_eq (take_step (famTFS (F := F) c) 60 (by decide))) $$ [FtFS]
  · iexact FtFS
  icases Hs with ⟨Ht1, FtFS⟩
  ihave Hs := (Entails.of_eq (take_step (famTFRP (F := F) c) 60 (by decide))) $$ [FtFRP]
  · iexact FtFRP
  icases Hs with ⟨Ht2, FtFRP⟩
  ihave Hs := (Entails.of_eq (take_step (famDF m c) 60 (by decide))) $$ [FdF]
  · iexact FdF
  icases Hs with ⟨Hd, FdF⟩
  ihave #HI1 := (Prep.inv_fs m K c 60) $$ HI
  ihave #HI2 := (Prep.inv_fr m K (xp c) 60) $$ HI
  ihave #HR1 := (Prep.reached_fs (F := F) c 60) $$ HR
  ihave #HR2 := (Prep.reached_fr (F := F) (xp c) 60) $$ HR
  iapply (wp_fsend m c _ (dev127_eq c) 60 (K (c, some (2, 60))) (K (xp c, some (3, 60))) (owedF c 60) (owedF c 61)
      (by rw [owedF_succ' c 60 (by decide)]; rfl) W90) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 60 (by decide)) $$ [AccCFS Hc]
  · isplitl [AccCFS]; · iexact AccCFS
    iexact Hc
  -- step 247: wait arg7[3] (arg6[![1, 0, 0]], arg1[(k0_off5 d0 6656#32)])
  first | sl_exec | skip
  ihave #HIw := (Prep.inv_ls m KL c 3) $$ HIL
  iapply (Rounds.wp_wait_rest_token 𝒱₀ ER (rd m) (c : Thread nD τ) none (κ := KL (c, 3)) (sm := .dma (lsS 3))
      (wpE_waitDma2_eq 𝒱₀ (c : Thread nD τ) none Set.univ (src := vSlot 1) (dst := lDst c 13)) (Set.mem_univ _) () (O := owedF c 61) (W := W90) (R := 6) (m := 0) (T := ∅)
      (by rw [Nat.zero_add]; exact (expect_st m c 1 6 (by decide)).symm)) $$ [Hc_l3 HO Hat_l3]
  · isplitr; · iexact HIw
    isplitl [Hc_l3]; · iexact Hc_l3
    isplitl [HO]; · iexact HO
    isplitr
    · iapply (mayWait_of_above c (.dma (lsS 3)) _ (by rw [show lv ((c : Thread nD τ), SemLoc.dma (lsS 3)) () = 0 from lv_ls c 3]; exact above_owedF c 61 (by decide)))
      iexact Hlev
    iexact Hat_l3
  iclear HIw
  iclear HRl3
  iintro ⟨HO, Hat_l3, #HRl3, Hpay⟩
  ihave Hp := (Entails.of_eq (rest_st1 m c 6 (by decide))) $$ Hpay
  icases Hp with ⟨Holq, Hv1⟩
  ihave AccOL := (acc_step (famOL m c) 13 (by decide)) $$ [AccOL Holq]
  · isplitl [AccOL]; · iexact AccOL
    iexact Holq
  ihave HOe : iprop(∃ W' : Waits sig Unit, owes (c : Thread nD τ) _ W') $$ [HO]
  · iexists _; iexact HO
  icases HOe with ⟨%W91, HO⟩
  -- step 248: copy src=arg0[(k0_off20 d0)] dst=arg6[![1, 0, 0]] sem=arg7[1]
  first | sl_exec | skip
  ihave Hs := (Entails.of_eq (take_step (famXL m c) 15 (by decide))) $$ [FxL]
  · iexact FxL
  icases Hs with ⟨Hxl, FxL⟩
  ihave #HIl := (Prep.inv_ls m KL c 1) $$ HIL
  iapply (Rounds.wp_copy_pointsTo 𝒱₀ ER (rd m) (c : Thread nD τ) none (src := lSrc c 15) (dst := vSlot 1) (sem := .dma (lsS 1)) (q := fullShare) (fs := xC m c) (fd := VC m c 13)
      (r := 7) (d := false) (κ := KL (c, 1)) (by rw [duties_ls m c 1 7 (by decide)]; exact Finset.mem_singleton_self _) () NV rfl (amount_ld m c 1 7 false)
      (by rw [payload_ls, vLand_pts m c 15 1 (VC m c 13)]; exact BI.Entails.refl _)) $$ [Hxl Hv1 Htl1_7]
  · isplitr; · iexact HIl
    isplitl [Hxl]; · iexact Hxl
    isplitl [Hv1]; · iexact Hv1
    isplitl [Htl1_7]; · iexact Htl1_7
    iexact HRl1
  iclear HIl
  iintro Hc_l1
  -- step 249: wait arg7[1] (arg0[(k0_off20 d0)], arg6[![1, 0, 0]])
  first | sl_exec | skip
  ihave #HIw := (Prep.inv_ls m KL c 1) $$ HIL
  iapply (Rounds.wp_wait_rest_token 𝒱₀ ER (rd m) (c : Thread nD τ) none (κ := KL (c, 1)) (sm := .dma (lsS 1))
      (wpE_waitDma2_eq 𝒱₀ (c : Thread nD τ) none Set.univ (src := lSrc c 15) (dst := vSlot 1)) (Set.mem_univ _) () (O := owedF c 61) (W := W91) (R := 7) (m := 0) (T := ∅)
      (by rw [Nat.zero_add]; exact (expect_ld m c 1 7 (by decide)).symm)) $$ [Hc_l1 HO Hat_l1]
  · isplitr; · iexact HIw
    isplitl [Hc_l1]; · iexact Hc_l1
    isplitl [HO]; · iexact HO
    isplitr
    · iapply (mayWait_of_above c (.dma (lsS 1)) _ (by rw [show lv ((c : Thread nD τ), SemLoc.dma (lsS 1)) () = 0 from lv_ls c 1]; exact above_owedF c 61 (by decide)))
      iexact Hlev
    iexact Hat_l1
  iclear HIw
  iclear HRl1
  iintro ⟨HO, Hat_l1, #HRl1, Hpay⟩
  ihave Hp := (Entails.of_eq (rest_ld1 m c 7 (by decide))) $$ Hpay
  icases Hp with ⟨Hv1, Hxlq⟩
  ihave AccXL := (acc_step (famXL m c) 15 (by decide)) $$ [AccXL Hxlq]
  · isplitl [AccXL]; · iexact AccXL
    iexact Hxlq
  ihave HOe : iprop(∃ W' : Waits sig Unit, owes (c : Thread nD τ) _ W') $$ [HO]
  · iexists _; iexact HO
  icases HOe with ⟨%W92, HO⟩
  -- step 250: copy src=arg6[![1, 0, 0]] dst=arg1[(k0_off5 d0 7680#32)] sem=arg7[3]
  first | sl_exec | skip
  ihave Hs := (Entails.of_eq (take_step (famOL0 m c) 15 (by decide))) $$ [FoL]
  · iexact FoL
  icases Hs with ⟨Hol, FoL⟩
  ihave #HIl := (Prep.inv_ls m KL c 3) $$ HIL
  iapply (Rounds.wp_copy_pointsTo 𝒱₀ ER (rd m) (c : Thread nD τ) none (src := vSlot 1) (dst := lDst c 15) (sem := .dma (lsS 3)) (q := fullShare) (fs := VC m c 15) (fd := o0 m c)
      (r := 7) (d := false) (κ := KL (c, 3)) (by rw [duties_ls m c 3 7 (by decide)]; exact Finset.mem_singleton_self _) () NO rfl (amount_st m c 1 7 false)
      (by rw [payload_ls, lLandV_pts m c 15 1 (o0 m c)]; exact BI.Entails.refl _)) $$ [Hv1 Hol Htl3_7]
  · isplitr; · iexact HIl
    isplitl [Hv1]; · iexact Hv1
    isplitl [Hol]; · iexact Hol
    isplitl [Htl3_7]; · iexact Htl3_7
    iexact HRl3
  iclear HIl
  iintro Hc_l3
  -- step 251: wait arg3[61] (arg0[(k0_off2 d0 3904#32)], arg1[(k0_off1 d0 3904#32)])
  first | sl_exec | skip
  ihave Hs := (Entails.of_eq (take_step (famCYR (F := F) c) 61 (by decide))) $$ [FcYR]
  · iexact FcYR
  icases Hs with ⟨Hc, FcYR⟩
  ihave Hs := (Entails.of_eq (take_step (famAtYR (F := F) c) 61 (by decide))) $$ [FatYR]
  · iexact FatYR
  icases Hs with ⟨Hat, FatYR⟩
  ihave #HIw := (Prep.inv_yr m K c 61) $$ HI
  iapply (Rounds.wp_wait_rest_token 𝒱₀ ER (rd m) (c : Thread nD τ) none (κ := K (c, some (1, 61))) (sm := .dma (yrS 61))
      (wpE_waitDma2_eq 𝒱₀ (c : Thread nD τ) none Set.univ (src := ySrc c 61) (dst := yDst c 61)) (Set.mem_univ _) () (O := owedF c 61) (W := W92) (R := 0) (m := 0) (T := ∅)
      (by rw [Nat.zero_add]; exact (expect_yr m c 61).symm)) $$ [Hc HO Hat]
  · isplitr; · iexact HIw
    isplitl [Hc]; · iexact Hc
    isplitl [HO]; · iexact HO
    isplitr
    · iapply (mayWait_of_above c (.dma (yrS 61)) _ (by rw [show lv ((c : Thread nD τ), SemLoc.dma (yrS 61)) () = 2 from lv_yr c 61]; exact above_owedF c 61 (by decide)))
      iexact Hlev
    iexact Hat
  iclear HIw
  iintro ⟨HO, Hat, -, Hpay⟩
  ihave HYk := (Entails.of_eq (rest_yr' m c 61)) $$ Hpay
  ihave #HIx := (Prep.inv_yr m K c 61) $$ HI
  imod (Rounds.cell_close ER (rd m) (Set.mem_univ (K (c, some (1, 61)))) (fun h => h) (R := 0 + 1) (duties_yr_later m c 61)) $$ [Hat] with Hz
  · isplitr; · iexact HIx
    iexact Hat
  iclear HIx
  ihave AccZyr := (acc_step (famZyr (F := F) c) 61 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W93, HO⟩
  -- step 252: send k0_dev128 src=arg1[(k0_off3 d0 3904#32)] dst=arg1[(k0_off3 d0 3904#32)] ssem=arg4[61] rsem=arg5[61]
  first | sl_exec | skip
  ihave Hs := (Entails.of_eq (take_step (famTFS (F := F) c) 61 (by decide))) $$ [FtFS]
  · iexact FtFS
  icases Hs with ⟨Ht1, FtFS⟩
  ihave Hs := (Entails.of_eq (take_step (famTFRP (F := F) c) 61 (by decide))) $$ [FtFRP]
  · iexact FtFRP
  icases Hs with ⟨Ht2, FtFRP⟩
  ihave Hs := (Entails.of_eq (take_step (famDF m c) 61 (by decide))) $$ [FdF]
  · iexact FdF
  icases Hs with ⟨Hd, FdF⟩
  ihave #HI1 := (Prep.inv_fs m K c 61) $$ HI
  ihave #HI2 := (Prep.inv_fr m K (xp c) 61) $$ HI
  ihave #HR1 := (Prep.reached_fs (F := F) c 61) $$ HR
  ihave #HR2 := (Prep.reached_fr (F := F) (xp c) 61) $$ HR
  iapply (wp_fsend m c _ (dev128_eq c) 61 (K (c, some (2, 61))) (K (xp c, some (3, 61))) (owedF c 61) (owedF c 62)
      (by rw [owedF_succ' c 61 (by decide)]; rfl) W93) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 61 (by decide)) $$ [AccCFS Hc]
  · isplitl [AccCFS]; · iexact AccCFS
    iexact Hc
  -- step 253: wait arg3[62] (arg0[(k0_off2 d0 3968#32)], arg1[(k0_off1 d0 3968#32)])
  first | sl_exec | skip
  ihave Hs := (Entails.of_eq (take_step (famCYR (F := F) c) 62 (by decide))) $$ [FcYR]
  · iexact FcYR
  icases Hs with ⟨Hc, FcYR⟩
  ihave Hs := (Entails.of_eq (take_step (famAtYR (F := F) c) 62 (by decide))) $$ [FatYR]
  · iexact FatYR
  icases Hs with ⟨Hat, FatYR⟩
  ihave #HIw := (Prep.inv_yr m K c 62) $$ HI
  iapply (Rounds.wp_wait_rest_token 𝒱₀ ER (rd m) (c : Thread nD τ) none (κ := K (c, some (1, 62))) (sm := .dma (yrS 62))
      (wpE_waitDma2_eq 𝒱₀ (c : Thread nD τ) none Set.univ (src := ySrc c 62) (dst := yDst c 62)) (Set.mem_univ _) () (O := owedF c 62) (W := W93) (R := 0) (m := 0) (T := ∅)
      (by rw [Nat.zero_add]; exact (expect_yr m c 62).symm)) $$ [Hc HO Hat]
  · isplitr; · iexact HIw
    isplitl [Hc]; · iexact Hc
    isplitl [HO]; · iexact HO
    isplitr
    · iapply (mayWait_of_above c (.dma (yrS 62)) _ (by rw [show lv ((c : Thread nD τ), SemLoc.dma (yrS 62)) () = 2 from lv_yr c 62]; exact above_owedF c 62 (by decide)))
      iexact Hlev
    iexact Hat
  iclear HIw
  iintro ⟨HO, Hat, -, Hpay⟩
  ihave HYk := (Entails.of_eq (rest_yr' m c 62)) $$ Hpay
  ihave #HIx := (Prep.inv_yr m K c 62) $$ HI
  imod (Rounds.cell_close ER (rd m) (Set.mem_univ (K (c, some (1, 62)))) (fun h => h) (R := 0 + 1) (duties_yr_later m c 62)) $$ [Hat] with Hz
  · isplitr; · iexact HIx
    iexact Hat
  iclear HIx
  ihave AccZyr := (acc_step (famZyr (F := F) c) 62 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W94, HO⟩
  -- step 254: send k0_dev129 src=arg1[(k0_off3 d0 3968#32)] dst=arg1[(k0_off3 d0 3968#32)] ssem=arg4[62] rsem=arg5[62]
  first | sl_exec | skip
  ihave Hs := (Entails.of_eq (take_step (famTFS (F := F) c) 62 (by decide))) $$ [FtFS]
  · iexact FtFS
  icases Hs with ⟨Ht1, FtFS⟩
  ihave Hs := (Entails.of_eq (take_step (famTFRP (F := F) c) 62 (by decide))) $$ [FtFRP]
  · iexact FtFRP
  icases Hs with ⟨Ht2, FtFRP⟩
  ihave Hs := (Entails.of_eq (take_step (famDF m c) 62 (by decide))) $$ [FdF]
  · iexact FdF
  icases Hs with ⟨Hd, FdF⟩
  ihave #HI1 := (Prep.inv_fs m K c 62) $$ HI
  ihave #HI2 := (Prep.inv_fr m K (xp c) 62) $$ HI
  ihave #HR1 := (Prep.reached_fs (F := F) c 62) $$ HR
  ihave #HR2 := (Prep.reached_fr (F := F) (xp c) 62) $$ HR
  iapply (wp_fsend m c _ (dev129_eq c) 62 (K (c, some (2, 62))) (K (xp c, some (3, 62))) (owedF c 62) (owedF c 63)
      (by rw [owedF_succ' c 62 (by decide)]; rfl) W94) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 62 (by decide)) $$ [AccCFS Hc]
  · isplitl [AccCFS]; · iexact AccCFS
    iexact Hc
  -- step 255: wait arg3[63] (arg0[(k0_off2 d0 4032#32)], arg1[(k0_off1 d0 4032#32)])
  first | sl_exec | skip
  ihave Hs := (Entails.of_eq (take_step (famCYR (F := F) c) 63 (by decide))) $$ [FcYR]
  · iexact FcYR
  icases Hs with ⟨Hc, FcYR⟩
  ihave Hs := (Entails.of_eq (take_step (famAtYR (F := F) c) 63 (by decide))) $$ [FatYR]
  · iexact FatYR
  icases Hs with ⟨Hat, FatYR⟩
  ihave #HIw := (Prep.inv_yr m K c 63) $$ HI
  iapply (Rounds.wp_wait_rest_token 𝒱₀ ER (rd m) (c : Thread nD τ) none (κ := K (c, some (1, 63))) (sm := .dma (yrS 63))
      (wpE_waitDma2_eq 𝒱₀ (c : Thread nD τ) none Set.univ (src := ySrc c 63) (dst := yDst c 63)) (Set.mem_univ _) () (O := owedF c 63) (W := W94) (R := 0) (m := 0) (T := ∅)
      (by rw [Nat.zero_add]; exact (expect_yr m c 63).symm)) $$ [Hc HO Hat]
  · isplitr; · iexact HIw
    isplitl [Hc]; · iexact Hc
    isplitl [HO]; · iexact HO
    isplitr
    · iapply (mayWait_of_above c (.dma (yrS 63)) _ (by rw [show lv ((c : Thread nD τ), SemLoc.dma (yrS 63)) () = 2 from lv_yr c 63]; exact above_owedF c 63 (by decide)))
      iexact Hlev
    iexact Hat
  iclear HIw
  iintro ⟨HO, Hat, -, Hpay⟩
  ihave HYk := (Entails.of_eq (rest_yr' m c 63)) $$ Hpay
  ihave #HIx := (Prep.inv_yr m K c 63) $$ HI
  imod (Rounds.cell_close ER (rd m) (Set.mem_univ (K (c, some (1, 63)))) (fun h => h) (R := 0 + 1) (duties_yr_later m c 63)) $$ [Hat] with Hz
  · isplitr; · iexact HIx
    iexact Hat
  iclear HIx
  ihave AccZyr := (acc_step (famZyr (F := F) c) 63 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W95, HO⟩
  -- step 256: send k0_dev130 src=arg1[(k0_off3 d0 4032#32)] dst=arg1[(k0_off3 d0 4032#32)] ssem=arg4[63] rsem=arg5[63]
  first | sl_exec | skip
  ihave Hs := (Entails.of_eq (take_step (famTFS (F := F) c) 63 (by decide))) $$ [FtFS]
  · iexact FtFS
  icases Hs with ⟨Ht1, FtFS⟩
  ihave Hs := (Entails.of_eq (take_step (famTFRP (F := F) c) 63 (by decide))) $$ [FtFRP]
  · iexact FtFRP
  icases Hs with ⟨Ht2, FtFRP⟩
  ihave Hs := (Entails.of_eq (take_step (famDF m c) 63 (by decide))) $$ [FdF]
  · iexact FdF
  icases Hs with ⟨Hd, FdF⟩
  ihave #HI1 := (Prep.inv_fs m K c 63) $$ HI
  ihave #HI2 := (Prep.inv_fr m K (xp c) 63) $$ HI
  ihave #HR1 := (Prep.reached_fs (F := F) c 63) $$ HR
  ihave #HR2 := (Prep.reached_fr (F := F) (xp c) 63) $$ HR
  iapply (wp_fsend m c _ (dev130_eq c) 63 (K (c, some (2, 63))) (K (xp c, some (3, 63))) (owedF c 63) (owedF c 64)
      (by rw [owedF_succ' c 63 (by decide)]; rfl) W95) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 63 (by decide)) $$ [AccCFS Hc]
  · isplitl [AccCFS]; · iexact AccCFS
    iexact Hc
  ihave HO := (Entails.of_eq (congrArg (fun O => owes (c : Thread nD τ) O W95) (owedF_top c))) $$ HO
  -- step 257: wait arg2[0] (arg1[(k0_off1 d0 0#32)], arg0[(k0_off2 d0 0#32)])
  first | sl_exec | skip
  ihave FcYS := (Entails.of_eq (acc_full (famCYS (F := F) c))) $$ [AccCYS]
  · iexact AccCYS
  ihave FcFS := (Entails.of_eq (acc_full (famCFS (F := F) c))) $$ [AccCFS]
  · iexact AccCFS
  ihave Hs := (Entails.of_eq (take_zero (famCYS (F := F) c) (by decide))) $$ [FcYS]
  · iexact FcYS
  icases Hs with ⟨Hc, FcYS⟩
  ihave Hs := (Entails.of_eq (take_zero (famAtYS (F := F) c) (by decide))) $$ [FatYS]
  · iexact FatYS
  icases Hs with ⟨Hat, FatYS⟩
  ihave #HIw := (Prep.inv_ys m K c 0) $$ HI
  iapply (Rounds.wp_wait_rest_token 𝒱₀ ER (rd m) (c : Thread nD τ) none (κ := K (c, some (0, 0))) (sm := .dma (ysS 0))
      (wpE_waitDma2_eq 𝒱₀ (c : Thread nD τ) none Set.univ (src := yDst c 0) (dst := ySrc c 0)) (Set.mem_univ _) () (O := 0) (W := W95) (R := 0) (m := 0) (T := ∅)
      (by rw [Nat.zero_add]; exact (expect_ys m c 0).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 0)) $$ Hpay
  ihave AccXY := (acc_one (famXY m c) (by decide)) $$ [Hxy]
  · iexact Hxy
  ihave #HIx := (Prep.inv_ys m K c 0) $$ HI
  imod (Rounds.cell_close ER (rd m) (Set.mem_univ (K (c, some (0, 0)))) (fun h => h) (R := 0 + 1) (duties_ys_later m c 0)) $$ [Hat] with Hz
  · isplitr; · iexact HIx
    iexact Hat
  iclear HIx
  ihave AccZys := (acc_one (famZys (F := F) c) (by decide)) $$ [Hz]
  · iexact Hz
  ihave HOe : iprop(∃ W' : Waits sig Unit, owes (c : Thread nD τ) _ W') $$ [HO]
  · iexists _; iexact HO
  icases HOe with ⟨%W96, HO⟩
  -- step 258: wait arg4[0] (arg1[(k0_off3 d0 0#32)], arg1[(k0_off3 d0 0#32)])
  first | sl_exec | skip
  ihave Hs := (Entails.of_eq (take_zero (famCFS (F := F) c) (by decide))) $$ [FcFS]
  · iexact FcFS
  icases Hs with ⟨Hc, FcFS⟩
  ihave Hs := (Entails.of_eq (take_zero (famAtFS (F := F) c) (by decide))) $$ [FatFS]
  · iexact FatFS
  icases Hs with ⟨Hat, FatFS⟩
  ihave #HIw := (Prep.inv_fs m K c 0) $$ HI
  iapply (Rounds.wp_wait_rest_token 𝒱₀ ER (rd m) (c : Thread nD τ) none (κ := K (c, some (2, 0))) (sm := .dma (fsS 0))
      (wpE_waitDma2_eq 𝒱₀ (c : Thread nD τ) none Set.univ (src := fSl c 0) (dst := fSl c 0)) (Set.mem_univ _) () (O := 0) (W := W96) (R := 0) (m := 0) (T := ∅)
      (by rw [Nat.zero_add]; exact (expect_fs m c 0).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 0)) $$ Hpay
  ihave AccY := (acc_one (famY m c) (by decide)) $$ [HYk]
  · iexact HYk
  ihave #HIx := (Prep.inv_fs m K c 0) $$ HI
  imod (Rounds.cell_close ER (rd m) (Set.mem_univ (K (c, some (2, 0)))) (fun h => h) (R := 0 + 1) (duties_fs_later m c 0)) $$ [Hat] with Hz
  · isplitr; · iexact HIx
    iexact Hat
  iclear HIx
  ihave AccZfs := (acc_one (famZfs (F := F) c) (by decide)) $$ [Hz]
  · iexact Hz
  ihave HOe : iprop(∃ W' : Waits sig Unit, owes (c : Thread nD τ) _ W') $$ [HO]
  · iexists _; iexact HO
  icases HOe with ⟨%W97, HO⟩
  -- step 259: wait arg5[0] (arg1[(k0_off3 d0 0#32)], arg1[(k0_off3 d0 0#32)])
  first | sl_exec | skip
  ihave Hs := (Entails.of_eq (take_zero (famCFR (F := F) c) (by decide))) $$ [FcFR]
  · iexact FcFR
  icases Hs with ⟨Hc, FcFR⟩
  ihave Hs := (Entails.of_eq (take_zero (famAtFR (F := F) c) (by decide))) $$ [FatFR]
  · iexact FatFR
  icases Hs with ⟨Hat, FatFR⟩
  ihave #HIw := (Prep.inv_fr m K c 0) $$ HI
  iapply (Rounds.wp_wait_rest_token 𝒱₀ ER (rd m) (c : Thread nD τ) none (κ := K (c, some (3, 0))) (sm := .dma (frS 0))
      (wpE_waitDma2_eq 𝒱₀ (c : Thread nD τ) none Set.univ (src := fSl c 0) (dst := fSl c 0)) (Set.mem_univ _) () (O := 0) (W := W97) (R := 0) (m := 0) (T := ∅)
      (by rw [Nat.zero_add]; exact (expect_fr m c 0).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 0)) $$ Hpay
  ihave AccF := (acc_one (famF m c) (by decide)) $$ [HFk]
  · iexact HFk
  ihave #HIx := (Prep.inv_fr m K c 0) $$ HI
  imod (Rounds.cell_close ER (rd m) (Set.mem_univ (K (c, some (3, 0)))) (fun h => h) (R := 0 + 1) (duties_fr_later m c 0)) $$ [Hat] with Hz
  · isplitr; · iexact HIx
    iexact Hat
  iclear HIx
  ihave AccZfr := (acc_one (famZfr (F := F) c) (by decide)) $$ [Hz]
  · iexact Hz
  ihave HOe : iprop(∃ W' : Waits sig Unit, owes (c : Thread nD τ) _ W') $$ [HO]
  · iexists _; iexact HO
  icases HOe with ⟨%W98, HO⟩
  -- step 260: wait arg2[1] (arg1[(k0_off1 d0 64#32)], arg0[(k0_off2 d0 64#32)])
  first | sl_exec | skip
  ihave Hs := (Entails.of_eq (take_step (famCYS (F := F) c) 1 (by decide))) $$ [FcYS]
  · iexact FcYS
  icases Hs with ⟨Hc, FcYS⟩
  ihave Hs := (Entails.of_eq (take_step (famAtYS (F := F) c) 1 (by decide))) $$ [FatYS]
  · iexact FatYS
  icases Hs with ⟨Hat, FatYS⟩
  ihave #HIw := (Prep.inv_ys m K c 1) $$ HI
  iapply (Rounds.wp_wait_rest_token 𝒱₀ ER (rd m) (c : Thread nD τ) none (κ := K (c, some (0, 1))) (sm := .dma (ysS 1))
      (wpE_waitDma2_eq 𝒱₀ (c : Thread nD τ) none Set.univ (src := yDst c 1) (dst := ySrc c 1)) (Set.mem_univ _) () (O := 0) (W := W98) (R := 0) (m := 0) (T := ∅)
      (by rw [Nat.zero_add]; exact (expect_ys m c 1).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 1)) $$ Hpay
  ihave AccXY := (acc_step (famXY m c) 1 (by decide)) $$ [AccXY Hxy]
  · isplitl [AccXY]; · iexact AccXY
    iexact Hxy
  ihave #HIx := (Prep.inv_ys m K c 1) $$ HI
  imod (Rounds.cell_close ER (rd m) (Set.mem_univ (K (c, some (0, 1)))) (fun h => h) (R := 0 + 1) (duties_ys_later m c 1)) $$ [Hat] with Hz
  · isplitr; · iexact HIx
    iexact Hat
  iclear HIx
  ihave AccZys := (acc_step (famZys (F := F) c) 1 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W99, HO⟩
  -- step 261: wait arg4[1] (arg1[(k0_off3 d0 64#32)], arg1[(k0_off3 d0 64#32)])
  first | sl_exec | skip
  ihave Hs := (Entails.of_eq (take_step (famCFS (F := F) c) 1 (by decide))) $$ [FcFS]
  · iexact FcFS
  icases Hs with ⟨Hc, FcFS⟩
  ihave Hs := (Entails.of_eq (take_step (famAtFS (F := F) c) 1 (by decide))) $$ [FatFS]
  · iexact FatFS
  icases Hs with ⟨Hat, FatFS⟩
  ihave #HIw := (Prep.inv_fs m K c 1) $$ HI
  iapply (Rounds.wp_wait_rest_token 𝒱₀ ER (rd m) (c : Thread nD τ) none (κ := K (c, some (2, 1))) (sm := .dma (fsS 1))
      (wpE_waitDma2_eq 𝒱₀ (c : Thread nD τ) none Set.univ (src := fSl c 1) (dst := fSl c 1)) (Set.mem_univ _) () (O := 0) (W := W99) (R := 0) (m := 0) (T := ∅)
      (by rw [Nat.zero_add]; exact (expect_fs m c 1).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 1)) $$ Hpay
  ihave AccY := (acc_step (famY m c) 1 (by decide)) $$ [AccY HYk]
  · isplitl [AccY]; · iexact AccY
    iexact HYk
  ihave #HIx := (Prep.inv_fs m K c 1) $$ HI
  imod (Rounds.cell_close ER (rd m) (Set.mem_univ (K (c, some (2, 1)))) (fun h => h) (R := 0 + 1) (duties_fs_later m c 1)) $$ [Hat] with Hz
  · isplitr; · iexact HIx
    iexact Hat
  iclear HIx
  ihave AccZfs := (acc_step (famZfs (F := F) c) 1 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W100, HO⟩
  -- step 262: wait arg5[1] (arg1[(k0_off3 d0 64#32)], arg1[(k0_off3 d0 64#32)])
  first | sl_exec | skip
  ihave Hs := (Entails.of_eq (take_step (famCFR (F := F) c) 1 (by decide))) $$ [FcFR]
  · iexact FcFR
  icases Hs with ⟨Hc, FcFR⟩
  ihave Hs := (Entails.of_eq (take_step (famAtFR (F := F) c) 1 (by decide))) $$ [FatFR]
  · iexact FatFR
  icases Hs with ⟨Hat, FatFR⟩
  ihave #HIw := (Prep.inv_fr m K c 1) $$ HI
  iapply (Rounds.wp_wait_rest_token 𝒱₀ ER (rd m) (c : Thread nD τ) none (κ := K (c, some (3, 1))) (sm := .dma (frS 1))
      (wpE_waitDma2_eq 𝒱₀ (c : Thread nD τ) none Set.univ (src := fSl c 1) (dst := fSl c 1)) (Set.mem_univ _) () (O := 0) (W := W100) (R := 0) (m := 0) (T := ∅)
      (by rw [Nat.zero_add]; exact (expect_fr m c 1).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 1)) $$ Hpay
  ihave AccF := (acc_step (famF m c) 1 (by decide)) $$ [AccF HFk]
  · isplitl [AccF]; · iexact AccF
    iexact HFk
  ihave #HIx := (Prep.inv_fr m K c 1) $$ HI
  imod (Rounds.cell_close ER (rd m) (Set.mem_univ (K (c, some (3, 1)))) (fun h => h) (R := 0 + 1) (duties_fr_later m c 1)) $$ [Hat] with Hz
  · isplitr; · iexact HIx
    iexact Hat
  iclear HIx
  ihave AccZfr := (acc_step (famZfr (F := F) c) 1 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W101, HO⟩
  -- step 263: wait arg2[2] (arg1[(k0_off1 d0 128#32)], arg0[(k0_off2 d0 128#32)])
  first | sl_exec | skip
  ihave Hs := (Entails.of_eq (take_step (famCYS (F := F) c) 2 (by decide))) $$ [FcYS]
  · iexact FcYS
  icases Hs with ⟨Hc, FcYS⟩
  ihave Hs := (Entails.of_eq (take_step (famAtYS (F := F) c) 2 (by decide))) $$ [FatYS]
  · iexact FatYS
  icases Hs with ⟨Hat, FatYS⟩
  ihave #HIw := (Prep.inv_ys m K c 2) $$ HI
  iapply (Rounds.wp_wait_rest_token 𝒱₀ ER (rd m) (c : Thread nD τ) none (κ := K (c, some (0, 2))) (sm := .dma (ysS 2))
      (wpE_waitDma2_eq 𝒱₀ (c : Thread nD τ) none Set.univ (src := yDst c 2) (dst := ySrc c 2)) (Set.mem_univ _) () (O := 0) (W := W101) (R := 0) (m := 0) (T := ∅)
      (by rw [Nat.zero_add]; exact (expect_ys m c 2).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 2)) $$ Hpay
  ihave AccXY := (acc_step (famXY m c) 2 (by decide)) $$ [AccXY Hxy]
  · isplitl [AccXY]; · iexact AccXY
    iexact Hxy
  ihave #HIx := (Prep.inv_ys m K c 2) $$ HI
  imod (Rounds.cell_close ER (rd m) (Set.mem_univ (K (c, some (0, 2)))) (fun h => h) (R := 0 + 1) (duties_ys_later m c 2)) $$ [Hat] with Hz
  · isplitr; · iexact HIx
    iexact Hat
  iclear HIx
  ihave AccZys := (acc_step (famZys (F := F) c) 2 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W102, HO⟩
  -- step 264: wait arg4[2] (arg1[(k0_off3 d0 128#32)], arg1[(k0_off3 d0 128#32)])
  first | sl_exec | skip
  ihave Hs := (Entails.of_eq (take_step (famCFS (F := F) c) 2 (by decide))) $$ [FcFS]
  · iexact FcFS
  icases Hs with ⟨Hc, FcFS⟩
  ihave Hs := (Entails.of_eq (take_step (famAtFS (F := F) c) 2 (by decide))) $$ [FatFS]
  · iexact FatFS
  icases Hs with ⟨Hat, FatFS⟩
  ihave #HIw := (Prep.inv_fs m K c 2) $$ HI
  iapply (Rounds.wp_wait_rest_token 𝒱₀ ER (rd m) (c : Thread nD τ) none (κ := K (c, some (2, 2))) (sm := .dma (fsS 2))
      (wpE_waitDma2_eq 𝒱₀ (c : Thread nD τ) none Set.univ (src := fSl c 2) (dst := fSl c 2)) (Set.mem_univ _) () (O := 0) (W := W102) (R := 0) (m := 0) (T := ∅)
      (by rw [Nat.zero_add]; exact (expect_fs m c 2).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 2)) $$ Hpay
  ihave AccY := (acc_step (famY m c) 2 (by decide)) $$ [AccY HYk]
  · isplitl [AccY]; · iexact AccY
    iexact HYk
  ihave #HIx := (Prep.inv_fs m K c 2) $$ HI
  imod (Rounds.cell_close ER (rd m) (Set.mem_univ (K (c, some (2, 2)))) (fun h => h) (R := 0 + 1) (duties_fs_later m c 2)) $$ [Hat] with Hz
  · isplitr; · iexact HIx
    iexact Hat
  iclear HIx
  ihave AccZfs := (acc_step (famZfs (F := F) c) 2 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W103, HO⟩
  -- step 265: wait arg5[2] (arg1[(k0_off3 d0 128#32)], arg1[(k0_off3 d0 128#32)])
  first | sl_exec | skip
  ihave Hs := (Entails.of_eq (take_step (famCFR (F := F) c) 2 (by decide))) $$ [FcFR]
  · iexact FcFR
  icases Hs with ⟨Hc, FcFR⟩
  ihave Hs := (Entails.of_eq (take_step (famAtFR (F := F) c) 2 (by decide))) $$ [FatFR]
  · iexact FatFR
  icases Hs with ⟨Hat, FatFR⟩
  ihave #HIw := (Prep.inv_fr m K c 2) $$ HI
  iapply (Rounds.wp_wait_rest_token 𝒱₀ ER (rd m) (c : Thread nD τ) none (κ := K (c, some (3, 2))) (sm := .dma (frS 2))
      (wpE_waitDma2_eq 𝒱₀ (c : Thread nD τ) none Set.univ (src := fSl c 2) (dst := fSl c 2)) (Set.mem_univ _) () (O := 0) (W := W103) (R := 0) (m := 0) (T := ∅)
      (by rw [Nat.zero_add]; exact (expect_fr m c 2).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 2)) $$ Hpay
  ihave AccF := (acc_step (famF m c) 2 (by decide)) $$ [AccF HFk]
  · isplitl [AccF]; · iexact AccF
    iexact HFk
  ihave #HIx := (Prep.inv_fr m K c 2) $$ HI
  imod (Rounds.cell_close ER (rd m) (Set.mem_univ (K (c, some (3, 2)))) (fun h => h) (R := 0 + 1) (duties_fr_later m c 2)) $$ [Hat] with Hz
  · isplitr; · iexact HIx
    iexact Hat
  iclear HIx
  ihave AccZfr := (acc_step (famZfr (F := F) c) 2 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W104, HO⟩
  -- step 266: wait arg2[3] (arg1[(k0_off1 d0 192#32)], arg0[(k0_off2 d0 192#32)])
  first | sl_exec | skip
  ihave Hs := (Entails.of_eq (take_step (famCYS (F := F) c) 3 (by decide))) $$ [FcYS]
  · iexact FcYS
  icases Hs with ⟨Hc, FcYS⟩
  ihave Hs := (Entails.of_eq (take_step (famAtYS (F := F) c) 3 (by decide))) $$ [FatYS]
  · iexact FatYS
  icases Hs with ⟨Hat, FatYS⟩
  ihave #HIw := (Prep.inv_ys m K c 3) $$ HI
  iapply (Rounds.wp_wait_rest_token 𝒱₀ ER (rd m) (c : Thread nD τ) none (κ := K (c, some (0, 3))) (sm := .dma (ysS 3))
      (wpE_waitDma2_eq 𝒱₀ (c : Thread nD τ) none Set.univ (src := yDst c 3) (dst := ySrc c 3)) (Set.mem_univ _) () (O := 0) (W := W104) (R := 0) (m := 0) (T := ∅)
      (by rw [Nat.zero_add]; exact (expect_ys m c 3).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 3)) $$ Hpay
  ihave AccXY := (acc_step (famXY m c) 3 (by decide)) $$ [AccXY Hxy]
  · isplitl [AccXY]; · iexact AccXY
    iexact Hxy
  ihave #HIx := (Prep.inv_ys m K c 3) $$ HI
  imod (Rounds.cell_close ER (rd m) (Set.mem_univ (K (c, some (0, 3)))) (fun h => h) (R := 0 + 1) (duties_ys_later m c 3)) $$ [Hat] with Hz
  · isplitr; · iexact HIx
    iexact Hat
  iclear HIx
  ihave AccZys := (acc_step (famZys (F := F) c) 3 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W105, HO⟩
  -- step 267: wait arg4[3] (arg1[(k0_off3 d0 192#32)], arg1[(k0_off3 d0 192#32)])
  first | sl_exec | skip
  ihave Hs := (Entails.of_eq (take_step (famCFS (F := F) c) 3 (by decide))) $$ [FcFS]
  · iexact FcFS
  icases Hs with ⟨Hc, FcFS⟩
  ihave Hs := (Entails.of_eq (take_step (famAtFS (F := F) c) 3 (by decide))) $$ [FatFS]
  · iexact FatFS
  icases Hs with ⟨Hat, FatFS⟩
  ihave #HIw := (Prep.inv_fs m K c 3) $$ HI
  iapply (Rounds.wp_wait_rest_token 𝒱₀ ER (rd m) (c : Thread nD τ) none (κ := K (c, some (2, 3))) (sm := .dma (fsS 3))
      (wpE_waitDma2_eq 𝒱₀ (c : Thread nD τ) none Set.univ (src := fSl c 3) (dst := fSl c 3)) (Set.mem_univ _) () (O := 0) (W := W105) (R := 0) (m := 0) (T := ∅)
      (by rw [Nat.zero_add]; exact (expect_fs m c 3).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 3)) $$ Hpay
  ihave AccY := (acc_step (famY m c) 3 (by decide)) $$ [AccY HYk]
  · isplitl [AccY]; · iexact AccY
    iexact HYk
  ihave #HIx := (Prep.inv_fs m K c 3) $$ HI
  imod (Rounds.cell_close ER (rd m) (Set.mem_univ (K (c, some (2, 3)))) (fun h => h) (R := 0 + 1) (duties_fs_later m c 3)) $$ [Hat] with Hz
  · isplitr; · iexact HIx
    iexact Hat
  iclear HIx
  ihave AccZfs := (acc_step (famZfs (F := F) c) 3 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W106, HO⟩
  -- step 268: wait arg5[3] (arg1[(k0_off3 d0 192#32)], arg1[(k0_off3 d0 192#32)])
  first | sl_exec | skip
  ihave Hs := (Entails.of_eq (take_step (famCFR (F := F) c) 3 (by decide))) $$ [FcFR]
  · iexact FcFR
  icases Hs with ⟨Hc, FcFR⟩
  ihave Hs := (Entails.of_eq (take_step (famAtFR (F := F) c) 3 (by decide))) $$ [FatFR]
  · iexact FatFR
  icases Hs with ⟨Hat, FatFR⟩
  ihave #HIw := (Prep.inv_fr m K c 3) $$ HI
  iapply (Rounds.wp_wait_rest_token 𝒱₀ ER (rd m) (c : Thread nD τ) none (κ := K (c, some (3, 3))) (sm := .dma (frS 3))
      (wpE_waitDma2_eq 𝒱₀ (c : Thread nD τ) none Set.univ (src := fSl c 3) (dst := fSl c 3)) (Set.mem_univ _) () (O := 0) (W := W106) (R := 0) (m := 0) (T := ∅)
      (by rw [Nat.zero_add]; exact (expect_fr m c 3).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 3)) $$ Hpay
  ihave AccF := (acc_step (famF m c) 3 (by decide)) $$ [AccF HFk]
  · isplitl [AccF]; · iexact AccF
    iexact HFk
  ihave #HIx := (Prep.inv_fr m K c 3) $$ HI
  imod (Rounds.cell_close ER (rd m) (Set.mem_univ (K (c, some (3, 3)))) (fun h => h) (R := 0 + 1) (duties_fr_later m c 3)) $$ [Hat] with Hz
  · isplitr; · iexact HIx
    iexact Hat
  iclear HIx
  ihave AccZfr := (acc_step (famZfr (F := F) c) 3 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W107, HO⟩
  -- step 269: wait arg2[4] (arg1[(k0_off1 d0 256#32)], arg0[(k0_off2 d0 256#32)])
  first | sl_exec | skip
  ihave Hs := (Entails.of_eq (take_step (famCYS (F := F) c) 4 (by decide))) $$ [FcYS]
  · iexact FcYS
  icases Hs with ⟨Hc, FcYS⟩
  ihave Hs := (Entails.of_eq (take_step (famAtYS (F := F) c) 4 (by decide))) $$ [FatYS]
  · iexact FatYS
  icases Hs with ⟨Hat, FatYS⟩
  ihave #HIw := (Prep.inv_ys m K c 4) $$ HI
  iapply (Rounds.wp_wait_rest_token 𝒱₀ ER (rd m) (c : Thread nD τ) none (κ := K (c, some (0, 4))) (sm := .dma (ysS 4))
      (wpE_waitDma2_eq 𝒱₀ (c : Thread nD τ) none Set.univ (src := yDst c 4) (dst := ySrc c 4)) (Set.mem_univ _) () (O := 0) (W := W107) (R := 0) (m := 0) (T := ∅)
      (by rw [Nat.zero_add]; exact (expect_ys m c 4).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 4)) $$ Hpay
  ihave AccXY := (acc_step (famXY m c) 4 (by decide)) $$ [AccXY Hxy]
  · isplitl [AccXY]; · iexact AccXY
    iexact Hxy
  ihave #HIx := (Prep.inv_ys m K c 4) $$ HI
  imod (Rounds.cell_close ER (rd m) (Set.mem_univ (K (c, some (0, 4)))) (fun h => h) (R := 0 + 1) (duties_ys_later m c 4)) $$ [Hat] with Hz
  · isplitr; · iexact HIx
    iexact Hat
  iclear HIx
  ihave AccZys := (acc_step (famZys (F := F) c) 4 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W108, HO⟩
  -- step 270: wait arg4[4] (arg1[(k0_off3 d0 256#32)], arg1[(k0_off3 d0 256#32)])
  first | sl_exec | skip
  ihave Hs := (Entails.of_eq (take_step (famCFS (F := F) c) 4 (by decide))) $$ [FcFS]
  · iexact FcFS
  icases Hs with ⟨Hc, FcFS⟩
  ihave Hs := (Entails.of_eq (take_step (famAtFS (F := F) c) 4 (by decide))) $$ [FatFS]
  · iexact FatFS
  icases Hs with ⟨Hat, FatFS⟩
  ihave #HIw := (Prep.inv_fs m K c 4) $$ HI
  iapply (Rounds.wp_wait_rest_token 𝒱₀ ER (rd m) (c : Thread nD τ) none (κ := K (c, some (2, 4))) (sm := .dma (fsS 4))
      (wpE_waitDma2_eq 𝒱₀ (c : Thread nD τ) none Set.univ (src := fSl c 4) (dst := fSl c 4)) (Set.mem_univ _) () (O := 0) (W := W108) (R := 0) (m := 0) (T := ∅)
      (by rw [Nat.zero_add]; exact (expect_fs m c 4).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 4)) $$ Hpay
  ihave AccY := (acc_step (famY m c) 4 (by decide)) $$ [AccY HYk]
  · isplitl [AccY]; · iexact AccY
    iexact HYk
  ihave #HIx := (Prep.inv_fs m K c 4) $$ HI
  imod (Rounds.cell_close ER (rd m) (Set.mem_univ (K (c, some (2, 4)))) (fun h => h) (R := 0 + 1) (duties_fs_later m c 4)) $$ [Hat] with Hz
  · isplitr; · iexact HIx
    iexact Hat
  iclear HIx
  ihave AccZfs := (acc_step (famZfs (F := F) c) 4 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W109, HO⟩
  -- step 271: wait arg5[4] (arg1[(k0_off3 d0 256#32)], arg1[(k0_off3 d0 256#32)])
  first | sl_exec | skip
  ihave Hs := (Entails.of_eq (take_step (famCFR (F := F) c) 4 (by decide))) $$ [FcFR]
  · iexact FcFR
  icases Hs with ⟨Hc, FcFR⟩
  ihave Hs := (Entails.of_eq (take_step (famAtFR (F := F) c) 4 (by decide))) $$ [FatFR]
  · iexact FatFR
  icases Hs with ⟨Hat, FatFR⟩
  ihave #HIw := (Prep.inv_fr m K c 4) $$ HI
  iapply (Rounds.wp_wait_rest_token 𝒱₀ ER (rd m) (c : Thread nD τ) none (κ := K (c, some (3, 4))) (sm := .dma (frS 4))
      (wpE_waitDma2_eq 𝒱₀ (c : Thread nD τ) none Set.univ (src := fSl c 4) (dst := fSl c 4)) (Set.mem_univ _) () (O := 0) (W := W109) (R := 0) (m := 0) (T := ∅)
      (by rw [Nat.zero_add]; exact (expect_fr m c 4).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 4)) $$ Hpay
  ihave AccF := (acc_step (famF m c) 4 (by decide)) $$ [AccF HFk]
  · isplitl [AccF]; · iexact AccF
    iexact HFk
  ihave #HIx := (Prep.inv_fr m K c 4) $$ HI
  imod (Rounds.cell_close ER (rd m) (Set.mem_univ (K (c, some (3, 4)))) (fun h => h) (R := 0 + 1) (duties_fr_later m c 4)) $$ [Hat] with Hz
  · isplitr; · iexact HIx
    iexact Hat
  iclear HIx
  ihave AccZfr := (acc_step (famZfr (F := F) c) 4 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W110, HO⟩
  -- step 272: wait arg2[5] (arg1[(k0_off1 d0 320#32)], arg0[(k0_off2 d0 320#32)])
  first | sl_exec | skip
  ihave Hs := (Entails.of_eq (take_step (famCYS (F := F) c) 5 (by decide))) $$ [FcYS]
  · iexact FcYS
  icases Hs with ⟨Hc, FcYS⟩
  ihave Hs := (Entails.of_eq (take_step (famAtYS (F := F) c) 5 (by decide))) $$ [FatYS]
  · iexact FatYS
  icases Hs with ⟨Hat, FatYS⟩
  ihave #HIw := (Prep.inv_ys m K c 5) $$ HI
  iapply (Rounds.wp_wait_rest_token 𝒱₀ ER (rd m) (c : Thread nD τ) none (κ := K (c, some (0, 5))) (sm := .dma (ysS 5))
      (wpE_waitDma2_eq 𝒱₀ (c : Thread nD τ) none Set.univ (src := yDst c 5) (dst := ySrc c 5)) (Set.mem_univ _) () (O := 0) (W := W110) (R := 0) (m := 0) (T := ∅)
      (by rw [Nat.zero_add]; exact (expect_ys m c 5).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 5)) $$ Hpay
  ihave AccXY := (acc_step (famXY m c) 5 (by decide)) $$ [AccXY Hxy]
  · isplitl [AccXY]; · iexact AccXY
    iexact Hxy
  ihave #HIx := (Prep.inv_ys m K c 5) $$ HI
  imod (Rounds.cell_close ER (rd m) (Set.mem_univ (K (c, some (0, 5)))) (fun h => h) (R := 0 + 1) (duties_ys_later m c 5)) $$ [Hat] with Hz
  · isplitr; · iexact HIx
    iexact Hat
  iclear HIx
  ihave AccZys := (acc_step (famZys (F := F) c) 5 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W111, HO⟩
  -- step 273: wait arg4[5] (arg1[(k0_off3 d0 320#32)], arg1[(k0_off3 d0 320#32)])
  first | sl_exec | skip
  ihave Hs := (Entails.of_eq (take_step (famCFS (F := F) c) 5 (by decide))) $$ [FcFS]
  · iexact FcFS
  icases Hs with ⟨Hc, FcFS⟩
  ihave Hs := (Entails.of_eq (take_step (famAtFS (F := F) c) 5 (by decide))) $$ [FatFS]
  · iexact FatFS
  icases Hs with ⟨Hat, FatFS⟩
  ihave #HIw := (Prep.inv_fs m K c 5) $$ HI
  iapply (Rounds.wp_wait_rest_token 𝒱₀ ER (rd m) (c : Thread nD τ) none (κ := K (c, some (2, 5))) (sm := .dma (fsS 5))
      (wpE_waitDma2_eq 𝒱₀ (c : Thread nD τ) none Set.univ (src := fSl c 5) (dst := fSl c 5)) (Set.mem_univ _) () (O := 0) (W := W111) (R := 0) (m := 0) (T := ∅)
      (by rw [Nat.zero_add]; exact (expect_fs m c 5).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 5)) $$ Hpay
  ihave AccY := (acc_step (famY m c) 5 (by decide)) $$ [AccY HYk]
  · isplitl [AccY]; · iexact AccY
    iexact HYk
  ihave #HIx := (Prep.inv_fs m K c 5) $$ HI
  imod (Rounds.cell_close ER (rd m) (Set.mem_univ (K (c, some (2, 5)))) (fun h => h) (R := 0 + 1) (duties_fs_later m c 5)) $$ [Hat] with Hz
  · isplitr; · iexact HIx
    iexact Hat
  iclear HIx
  ihave AccZfs := (acc_step (famZfs (F := F) c) 5 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W112, HO⟩
  -- step 274: wait arg5[5] (arg1[(k0_off3 d0 320#32)], arg1[(k0_off3 d0 320#32)])
  first | sl_exec | skip
  ihave Hs := (Entails.of_eq (take_step (famCFR (F := F) c) 5 (by decide))) $$ [FcFR]
  · iexact FcFR
  icases Hs with ⟨Hc, FcFR⟩
  ihave Hs := (Entails.of_eq (take_step (famAtFR (F := F) c) 5 (by decide))) $$ [FatFR]
  · iexact FatFR
  icases Hs with ⟨Hat, FatFR⟩
  ihave #HIw := (Prep.inv_fr m K c 5) $$ HI
  iapply (Rounds.wp_wait_rest_token 𝒱₀ ER (rd m) (c : Thread nD τ) none (κ := K (c, some (3, 5))) (sm := .dma (frS 5))
      (wpE_waitDma2_eq 𝒱₀ (c : Thread nD τ) none Set.univ (src := fSl c 5) (dst := fSl c 5)) (Set.mem_univ _) () (O := 0) (W := W112) (R := 0) (m := 0) (T := ∅)
      (by rw [Nat.zero_add]; exact (expect_fr m c 5).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 5)) $$ Hpay
  ihave AccF := (acc_step (famF m c) 5 (by decide)) $$ [AccF HFk]
  · isplitl [AccF]; · iexact AccF
    iexact HFk
  ihave #HIx := (Prep.inv_fr m K c 5) $$ HI
  imod (Rounds.cell_close ER (rd m) (Set.mem_univ (K (c, some (3, 5)))) (fun h => h) (R := 0 + 1) (duties_fr_later m c 5)) $$ [Hat] with Hz
  · isplitr; · iexact HIx
    iexact Hat
  iclear HIx
  ihave AccZfr := (acc_step (famZfr (F := F) c) 5 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W113, HO⟩
  -- step 275: wait arg2[6] (arg1[(k0_off1 d0 384#32)], arg0[(k0_off2 d0 384#32)])
  first | sl_exec | skip
  ihave Hs := (Entails.of_eq (take_step (famCYS (F := F) c) 6 (by decide))) $$ [FcYS]
  · iexact FcYS
  icases Hs with ⟨Hc, FcYS⟩
  ihave Hs := (Entails.of_eq (take_step (famAtYS (F := F) c) 6 (by decide))) $$ [FatYS]
  · iexact FatYS
  icases Hs with ⟨Hat, FatYS⟩
  ihave #HIw := (Prep.inv_ys m K c 6) $$ HI
  iapply (Rounds.wp_wait_rest_token 𝒱₀ ER (rd m) (c : Thread nD τ) none (κ := K (c, some (0, 6))) (sm := .dma (ysS 6))
      (wpE_waitDma2_eq 𝒱₀ (c : Thread nD τ) none Set.univ (src := yDst c 6) (dst := ySrc c 6)) (Set.mem_univ _) () (O := 0) (W := W113) (R := 0) (m := 0) (T := ∅)
      (by rw [Nat.zero_add]; exact (expect_ys m c 6).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 6)) $$ Hpay
  ihave AccXY := (acc_step (famXY m c) 6 (by decide)) $$ [AccXY Hxy]
  · isplitl [AccXY]; · iexact AccXY
    iexact Hxy
  ihave #HIx := (Prep.inv_ys m K c 6) $$ HI
  imod (Rounds.cell_close ER (rd m) (Set.mem_univ (K (c, some (0, 6)))) (fun h => h) (R := 0 + 1) (duties_ys_later m c 6)) $$ [Hat] with Hz
  · isplitr; · iexact HIx
    iexact Hat
  iclear HIx
  ihave AccZys := (acc_step (famZys (F := F) c) 6 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W114, HO⟩
  -- step 276: wait arg4[6] (arg1[(k0_off3 d0 384#32)], arg1[(k0_off3 d0 384#32)])
  first | sl_exec | skip
  ihave Hs := (Entails.of_eq (take_step (famCFS (F := F) c) 6 (by decide))) $$ [FcFS]
  · iexact FcFS
  icases Hs with ⟨Hc, FcFS⟩
  ihave Hs := (Entails.of_eq (take_step (famAtFS (F := F) c) 6 (by decide))) $$ [FatFS]
  · iexact FatFS
  icases Hs with ⟨Hat, FatFS⟩
  ihave #HIw := (Prep.inv_fs m K c 6) $$ HI
  iapply (Rounds.wp_wait_rest_token 𝒱₀ ER (rd m) (c : Thread nD τ) none (κ := K (c, some (2, 6))) (sm := .dma (fsS 6))
      (wpE_waitDma2_eq 𝒱₀ (c : Thread nD τ) none Set.univ (src := fSl c 6) (dst := fSl c 6)) (Set.mem_univ _) () (O := 0) (W := W114) (R := 0) (m := 0) (T := ∅)
      (by rw [Nat.zero_add]; exact (expect_fs m c 6).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 6)) $$ Hpay
  ihave AccY := (acc_step (famY m c) 6 (by decide)) $$ [AccY HYk]
  · isplitl [AccY]; · iexact AccY
    iexact HYk
  ihave #HIx := (Prep.inv_fs m K c 6) $$ HI
  imod (Rounds.cell_close ER (rd m) (Set.mem_univ (K (c, some (2, 6)))) (fun h => h) (R := 0 + 1) (duties_fs_later m c 6)) $$ [Hat] with Hz
  · isplitr; · iexact HIx
    iexact Hat
  iclear HIx
  ihave AccZfs := (acc_step (famZfs (F := F) c) 6 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W115, HO⟩
  -- step 277: wait arg5[6] (arg1[(k0_off3 d0 384#32)], arg1[(k0_off3 d0 384#32)])
  first | sl_exec | skip
  ihave Hs := (Entails.of_eq (take_step (famCFR (F := F) c) 6 (by decide))) $$ [FcFR]
  · iexact FcFR
  icases Hs with ⟨Hc, FcFR⟩
  ihave Hs := (Entails.of_eq (take_step (famAtFR (F := F) c) 6 (by decide))) $$ [FatFR]
  · iexact FatFR
  icases Hs with ⟨Hat, FatFR⟩
  ihave #HIw := (Prep.inv_fr m K c 6) $$ HI
  iapply (Rounds.wp_wait_rest_token 𝒱₀ ER (rd m) (c : Thread nD τ) none (κ := K (c, some (3, 6))) (sm := .dma (frS 6))
      (wpE_waitDma2_eq 𝒱₀ (c : Thread nD τ) none Set.univ (src := fSl c 6) (dst := fSl c 6)) (Set.mem_univ _) () (O := 0) (W := W115) (R := 0) (m := 0) (T := ∅)
      (by rw [Nat.zero_add]; exact (expect_fr m c 6).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 6)) $$ Hpay
  ihave AccF := (acc_step (famF m c) 6 (by decide)) $$ [AccF HFk]
  · isplitl [AccF]; · iexact AccF
    iexact HFk
  ihave #HIx := (Prep.inv_fr m K c 6) $$ HI
  imod (Rounds.cell_close ER (rd m) (Set.mem_univ (K (c, some (3, 6)))) (fun h => h) (R := 0 + 1) (duties_fr_later m c 6)) $$ [Hat] with Hz
  · isplitr; · iexact HIx
    iexact Hat
  iclear HIx
  ihave AccZfr := (acc_step (famZfr (F := F) c) 6 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W116, HO⟩
  -- step 278: wait arg2[7] (arg1[(k0_off1 d0 448#32)], arg0[(k0_off2 d0 448#32)])
  first | sl_exec | skip
  ihave Hs := (Entails.of_eq (take_step (famCYS (F := F) c) 7 (by decide))) $$ [FcYS]
  · iexact FcYS
  icases Hs with ⟨Hc, FcYS⟩
  ihave Hs := (Entails.of_eq (take_step (famAtYS (F := F) c) 7 (by decide))) $$ [FatYS]
  · iexact FatYS
  icases Hs with ⟨Hat, FatYS⟩
  ihave #HIw := (Prep.inv_ys m K c 7) $$ HI
  iapply (Rounds.wp_wait_rest_token 𝒱₀ ER (rd m) (c : Thread nD τ) none (κ := K (c, some (0, 7))) (sm := .dma (ysS 7))
      (wpE_waitDma2_eq 𝒱₀ (c : Thread nD τ) none Set.univ (src := yDst c 7) (dst := ySrc c 7)) (Set.mem_univ _) () (O := 0) (W := W116) (R := 0) (m := 0) (T := ∅)
      (by rw [Nat.zero_add]; exact (expect_ys m c 7).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 7)) $$ Hpay
  ihave AccXY := (acc_step (famXY m c) 7 (by decide)) $$ [AccXY Hxy]
  · isplitl [AccXY]; · iexact AccXY
    iexact Hxy
  ihave #HIx := (Prep.inv_ys m K c 7) $$ HI
  imod (Rounds.cell_close ER (rd m) (Set.mem_univ (K (c, some (0, 7)))) (fun h => h) (R := 0 + 1) (duties_ys_later m c 7)) $$ [Hat] with Hz
  · isplitr; · iexact HIx
    iexact Hat
  iclear HIx
  ihave AccZys := (acc_step (famZys (F := F) c) 7 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W117, HO⟩
  -- step 279: wait arg4[7] (arg1[(k0_off3 d0 448#32)], arg1[(k0_off3 d0 448#32)])
  first | sl_exec | skip
  ihave Hs := (Entails.of_eq (take_step (famCFS (F := F) c) 7 (by decide))) $$ [FcFS]
  · iexact FcFS
  icases Hs with ⟨Hc, FcFS⟩
  ihave Hs := (Entails.of_eq (take_step (famAtFS (F := F) c) 7 (by decide))) $$ [FatFS]
  · iexact FatFS
  icases Hs with ⟨Hat, FatFS⟩
  ihave #HIw := (Prep.inv_fs m K c 7) $$ HI
  iapply (Rounds.wp_wait_rest_token 𝒱₀ ER (rd m) (c : Thread nD τ) none (κ := K (c, some (2, 7))) (sm := .dma (fsS 7))
      (wpE_waitDma2_eq 𝒱₀ (c : Thread nD τ) none Set.univ (src := fSl c 7) (dst := fSl c 7)) (Set.mem_univ _) () (O := 0) (W := W117) (R := 0) (m := 0) (T := ∅)
      (by rw [Nat.zero_add]; exact (expect_fs m c 7).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 7)) $$ Hpay
  ihave AccY := (acc_step (famY m c) 7 (by decide)) $$ [AccY HYk]
  · isplitl [AccY]; · iexact AccY
    iexact HYk
  ihave #HIx := (Prep.inv_fs m K c 7) $$ HI
  imod (Rounds.cell_close ER (rd m) (Set.mem_univ (K (c, some (2, 7)))) (fun h => h) (R := 0 + 1) (duties_fs_later m c 7)) $$ [Hat] with Hz
  · isplitr; · iexact HIx
    iexact Hat
  iclear HIx
  ihave AccZfs := (acc_step (famZfs (F := F) c) 7 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W118, HO⟩
  -- step 280: wait arg5[7] (arg1[(k0_off3 d0 448#32)], arg1[(k0_off3 d0 448#32)])
  first | sl_exec | skip
  ihave Hs := (Entails.of_eq (take_step (famCFR (F := F) c) 7 (by decide))) $$ [FcFR]
  · iexact FcFR
  icases Hs with ⟨Hc, FcFR⟩
  ihave Hs := (Entails.of_eq (take_step (famAtFR (F := F) c) 7 (by decide))) $$ [FatFR]
  · iexact FatFR
  icases Hs with ⟨Hat, FatFR⟩
  ihave #HIw := (Prep.inv_fr m K c 7) $$ HI
  iapply (Rounds.wp_wait_rest_token 𝒱₀ ER (rd m) (c : Thread nD τ) none (κ := K (c, some (3, 7))) (sm := .dma (frS 7))
      (wpE_waitDma2_eq 𝒱₀ (c : Thread nD τ) none Set.univ (src := fSl c 7) (dst := fSl c 7)) (Set.mem_univ _) () (O := 0) (W := W118) (R := 0) (m := 0) (T := ∅)
      (by rw [Nat.zero_add]; exact (expect_fr m c 7).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 7)) $$ Hpay
  ihave AccF := (acc_step (famF m c) 7 (by decide)) $$ [AccF HFk]
  · isplitl [AccF]; · iexact AccF
    iexact HFk
  ihave #HIx := (Prep.inv_fr m K c 7) $$ HI
  imod (Rounds.cell_close ER (rd m) (Set.mem_univ (K (c, some (3, 7)))) (fun h => h) (R := 0 + 1) (duties_fr_later m c 7)) $$ [Hat] with Hz
  · isplitr; · iexact HIx
    iexact Hat
  iclear HIx
  ihave AccZfr := (acc_step (famZfr (F := F) c) 7 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W119, HO⟩
  -- step 281: wait arg2[8] (arg1[(k0_off1 d0 512#32)], arg0[(k0_off2 d0 512#32)])
  first | sl_exec | skip
  ihave Hs := (Entails.of_eq (take_step (famCYS (F := F) c) 8 (by decide))) $$ [FcYS]
  · iexact FcYS
  icases Hs with ⟨Hc, FcYS⟩
  ihave Hs := (Entails.of_eq (take_step (famAtYS (F := F) c) 8 (by decide))) $$ [FatYS]
  · iexact FatYS
  icases Hs with ⟨Hat, FatYS⟩
  ihave #HIw := (Prep.inv_ys m K c 8) $$ HI
  iapply (Rounds.wp_wait_rest_token 𝒱₀ ER (rd m) (c : Thread nD τ) none (κ := K (c, some (0, 8))) (sm := .dma (ysS 8))
      (wpE_waitDma2_eq 𝒱₀ (c : Thread nD τ) none Set.univ (src := yDst c 8) (dst := ySrc c 8)) (Set.mem_univ _) () (O := 0) (W := W119) (R := 0) (m := 0) (T := ∅)
      (by rw [Nat.zero_add]; exact (expect_ys m c 8).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 8)) $$ Hpay
  ihave AccXY := (acc_step (famXY m c) 8 (by decide)) $$ [AccXY Hxy]
  · isplitl [AccXY]; · iexact AccXY
    iexact Hxy
  ihave #HIx := (Prep.inv_ys m K c 8) $$ HI
  imod (Rounds.cell_close ER (rd m) (Set.mem_univ (K (c, some (0, 8)))) (fun h => h) (R := 0 + 1) (duties_ys_later m c 8)) $$ [Hat] with Hz
  · isplitr; · iexact HIx
    iexact Hat
  iclear HIx
  ihave AccZys := (acc_step (famZys (F := F) c) 8 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W120, HO⟩
  -- step 282: wait arg4[8] (arg1[(k0_off3 d0 512#32)], arg1[(k0_off3 d0 512#32)])
  first | sl_exec | skip
  ihave Hs := (Entails.of_eq (take_step (famCFS (F := F) c) 8 (by decide))) $$ [FcFS]
  · iexact FcFS
  icases Hs with ⟨Hc, FcFS⟩
  ihave Hs := (Entails.of_eq (take_step (famAtFS (F := F) c) 8 (by decide))) $$ [FatFS]
  · iexact FatFS
  icases Hs with ⟨Hat, FatFS⟩
  ihave #HIw := (Prep.inv_fs m K c 8) $$ HI
  iapply (Rounds.wp_wait_rest_token 𝒱₀ ER (rd m) (c : Thread nD τ) none (κ := K (c, some (2, 8))) (sm := .dma (fsS 8))
      (wpE_waitDma2_eq 𝒱₀ (c : Thread nD τ) none Set.univ (src := fSl c 8) (dst := fSl c 8)) (Set.mem_univ _) () (O := 0) (W := W120) (R := 0) (m := 0) (T := ∅)
      (by rw [Nat.zero_add]; exact (expect_fs m c 8).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 8)) $$ Hpay
  ihave AccY := (acc_step (famY m c) 8 (by decide)) $$ [AccY HYk]
  · isplitl [AccY]; · iexact AccY
    iexact HYk
  ihave #HIx := (Prep.inv_fs m K c 8) $$ HI
  imod (Rounds.cell_close ER (rd m) (Set.mem_univ (K (c, some (2, 8)))) (fun h => h) (R := 0 + 1) (duties_fs_later m c 8)) $$ [Hat] with Hz
  · isplitr; · iexact HIx
    iexact Hat
  iclear HIx
  ihave AccZfs := (acc_step (famZfs (F := F) c) 8 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W121, HO⟩
  -- step 283: wait arg5[8] (arg1[(k0_off3 d0 512#32)], arg1[(k0_off3 d0 512#32)])
  first | sl_exec | skip
  ihave Hs := (Entails.of_eq (take_step (famCFR (F := F) c) 8 (by decide))) $$ [FcFR]
  · iexact FcFR
  icases Hs with ⟨Hc, FcFR⟩
  ihave Hs := (Entails.of_eq (take_step (famAtFR (F := F) c) 8 (by decide))) $$ [FatFR]
  · iexact FatFR
  icases Hs with ⟨Hat, FatFR⟩
  ihave #HIw := (Prep.inv_fr m K c 8) $$ HI
  iapply (Rounds.wp_wait_rest_token 𝒱₀ ER (rd m) (c : Thread nD τ) none (κ := K (c, some (3, 8))) (sm := .dma (frS 8))
      (wpE_waitDma2_eq 𝒱₀ (c : Thread nD τ) none Set.univ (src := fSl c 8) (dst := fSl c 8)) (Set.mem_univ _) () (O := 0) (W := W121) (R := 0) (m := 0) (T := ∅)
      (by rw [Nat.zero_add]; exact (expect_fr m c 8).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 8)) $$ Hpay
  ihave AccF := (acc_step (famF m c) 8 (by decide)) $$ [AccF HFk]
  · isplitl [AccF]; · iexact AccF
    iexact HFk
  ihave #HIx := (Prep.inv_fr m K c 8) $$ HI
  imod (Rounds.cell_close ER (rd m) (Set.mem_univ (K (c, some (3, 8)))) (fun h => h) (R := 0 + 1) (duties_fr_later m c 8)) $$ [Hat] with Hz
  · isplitr; · iexact HIx
    iexact Hat
  iclear HIx
  ihave AccZfr := (acc_step (famZfr (F := F) c) 8 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W122, HO⟩
  -- step 284: wait arg2[9] (arg1[(k0_off1 d0 576#32)], arg0[(k0_off2 d0 576#32)])
  first | sl_exec | skip
  ihave Hs := (Entails.of_eq (take_step (famCYS (F := F) c) 9 (by decide))) $$ [FcYS]
  · iexact FcYS
  icases Hs with ⟨Hc, FcYS⟩
  ihave Hs := (Entails.of_eq (take_step (famAtYS (F := F) c) 9 (by decide))) $$ [FatYS]
  · iexact FatYS
  icases Hs with ⟨Hat, FatYS⟩
  ihave #HIw := (Prep.inv_ys m K c 9) $$ HI
  iapply (Rounds.wp_wait_rest_token 𝒱₀ ER (rd m) (c : Thread nD τ) none (κ := K (c, some (0, 9))) (sm := .dma (ysS 9))
      (wpE_waitDma2_eq 𝒱₀ (c : Thread nD τ) none Set.univ (src := yDst c 9) (dst := ySrc c 9)) (Set.mem_univ _) () (O := 0) (W := W122) (R := 0) (m := 0) (T := ∅)
      (by rw [Nat.zero_add]; exact (expect_ys m c 9).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 9)) $$ Hpay
  ihave AccXY := (acc_step (famXY m c) 9 (by decide)) $$ [AccXY Hxy]
  · isplitl [AccXY]; · iexact AccXY
    iexact Hxy
  ihave #HIx := (Prep.inv_ys m K c 9) $$ HI
  imod (Rounds.cell_close ER (rd m) (Set.mem_univ (K (c, some (0, 9)))) (fun h => h) (R := 0 + 1) (duties_ys_later m c 9)) $$ [Hat] with Hz
  · isplitr; · iexact HIx
    iexact Hat
  iclear HIx
  ihave AccZys := (acc_step (famZys (F := F) c) 9 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W123, HO⟩
  -- step 285: wait arg4[9] (arg1[(k0_off3 d0 576#32)], arg1[(k0_off3 d0 576#32)])
  first | sl_exec | skip
  ihave Hs := (Entails.of_eq (take_step (famCFS (F := F) c) 9 (by decide))) $$ [FcFS]
  · iexact FcFS
  icases Hs with ⟨Hc, FcFS⟩
  ihave Hs := (Entails.of_eq (take_step (famAtFS (F := F) c) 9 (by decide))) $$ [FatFS]
  · iexact FatFS
  icases Hs with ⟨Hat, FatFS⟩
  ihave #HIw := (Prep.inv_fs m K c 9) $$ HI
  iapply (Rounds.wp_wait_rest_token 𝒱₀ ER (rd m) (c : Thread nD τ) none (κ := K (c, some (2, 9))) (sm := .dma (fsS 9))
      (wpE_waitDma2_eq 𝒱₀ (c : Thread nD τ) none Set.univ (src := fSl c 9) (dst := fSl c 9)) (Set.mem_univ _) () (O := 0) (W := W123) (R := 0) (m := 0) (T := ∅)
      (by rw [Nat.zero_add]; exact (expect_fs m c 9).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 9)) $$ Hpay
  ihave AccY := (acc_step (famY m c) 9 (by decide)) $$ [AccY HYk]
  · isplitl [AccY]; · iexact AccY
    iexact HYk
  ihave #HIx := (Prep.inv_fs m K c 9) $$ HI
  imod (Rounds.cell_close ER (rd m) (Set.mem_univ (K (c, some (2, 9)))) (fun h => h) (R := 0 + 1) (duties_fs_later m c 9)) $$ [Hat] with Hz
  · isplitr; · iexact HIx
    iexact Hat
  iclear HIx
  ihave AccZfs := (acc_step (famZfs (F := F) c) 9 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W124, HO⟩
  -- step 286: wait arg5[9] (arg1[(k0_off3 d0 576#32)], arg1[(k0_off3 d0 576#32)])
  first | sl_exec | skip
  ihave Hs := (Entails.of_eq (take_step (famCFR (F := F) c) 9 (by decide))) $$ [FcFR]
  · iexact FcFR
  icases Hs with ⟨Hc, FcFR⟩
  ihave Hs := (Entails.of_eq (take_step (famAtFR (F := F) c) 9 (by decide))) $$ [FatFR]
  · iexact FatFR
  icases Hs with ⟨Hat, FatFR⟩
  ihave #HIw := (Prep.inv_fr m K c 9) $$ HI
  iapply (Rounds.wp_wait_rest_token 𝒱₀ ER (rd m) (c : Thread nD τ) none (κ := K (c, some (3, 9))) (sm := .dma (frS 9))
      (wpE_waitDma2_eq 𝒱₀ (c : Thread nD τ) none Set.univ (src := fSl c 9) (dst := fSl c 9)) (Set.mem_univ _) () (O := 0) (W := W124) (R := 0) (m := 0) (T := ∅)
      (by rw [Nat.zero_add]; exact (expect_fr m c 9).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 9)) $$ Hpay
  ihave AccF := (acc_step (famF m c) 9 (by decide)) $$ [AccF HFk]
  · isplitl [AccF]; · iexact AccF
    iexact HFk
  ihave #HIx := (Prep.inv_fr m K c 9) $$ HI
  imod (Rounds.cell_close ER (rd m) (Set.mem_univ (K (c, some (3, 9)))) (fun h => h) (R := 0 + 1) (duties_fr_later m c 9)) $$ [Hat] with Hz
  · isplitr; · iexact HIx
    iexact Hat
  iclear HIx
  ihave AccZfr := (acc_step (famZfr (F := F) c) 9 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W125, HO⟩
  -- step 287: wait arg2[10] (arg1[(k0_off1 d0 640#32)], arg0[(k0_off2 d0 640#32)])
  first | sl_exec | skip
  ihave Hs := (Entails.of_eq (take_step (famCYS (F := F) c) 10 (by decide))) $$ [FcYS]
  · iexact FcYS
  icases Hs with ⟨Hc, FcYS⟩
  ihave Hs := (Entails.of_eq (take_step (famAtYS (F := F) c) 10 (by decide))) $$ [FatYS]
  · iexact FatYS
  icases Hs with ⟨Hat, FatYS⟩
  ihave #HIw := (Prep.inv_ys m K c 10) $$ HI
  iapply (Rounds.wp_wait_rest_token 𝒱₀ ER (rd m) (c : Thread nD τ) none (κ := K (c, some (0, 10))) (sm := .dma (ysS 10))
      (wpE_waitDma2_eq 𝒱₀ (c : Thread nD τ) none Set.univ (src := yDst c 10) (dst := ySrc c 10)) (Set.mem_univ _) () (O := 0) (W := W125) (R := 0) (m := 0) (T := ∅)
      (by rw [Nat.zero_add]; exact (expect_ys m c 10).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 10)) $$ Hpay
  ihave AccXY := (acc_step (famXY m c) 10 (by decide)) $$ [AccXY Hxy]
  · isplitl [AccXY]; · iexact AccXY
    iexact Hxy
  ihave #HIx := (Prep.inv_ys m K c 10) $$ HI
  imod (Rounds.cell_close ER (rd m) (Set.mem_univ (K (c, some (0, 10)))) (fun h => h) (R := 0 + 1) (duties_ys_later m c 10)) $$ [Hat] with Hz
  · isplitr; · iexact HIx
    iexact Hat
  iclear HIx
  ihave AccZys := (acc_step (famZys (F := F) c) 10 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W126, HO⟩
  -- step 288: wait arg4[10] (arg1[(k0_off3 d0 640#32)], arg1[(k0_off3 d0 640#32)])
  first | sl_exec | skip
  ihave Hs := (Entails.of_eq (take_step (famCFS (F := F) c) 10 (by decide))) $$ [FcFS]
  · iexact FcFS
  icases Hs with ⟨Hc, FcFS⟩
  ihave Hs := (Entails.of_eq (take_step (famAtFS (F := F) c) 10 (by decide))) $$ [FatFS]
  · iexact FatFS
  icases Hs with ⟨Hat, FatFS⟩
  ihave #HIw := (Prep.inv_fs m K c 10) $$ HI
  iapply (Rounds.wp_wait_rest_token 𝒱₀ ER (rd m) (c : Thread nD τ) none (κ := K (c, some (2, 10))) (sm := .dma (fsS 10))
      (wpE_waitDma2_eq 𝒱₀ (c : Thread nD τ) none Set.univ (src := fSl c 10) (dst := fSl c 10)) (Set.mem_univ _) () (O := 0) (W := W126) (R := 0) (m := 0) (T := ∅)
      (by rw [Nat.zero_add]; exact (expect_fs m c 10).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 10)) $$ Hpay
  ihave AccY := (acc_step (famY m c) 10 (by decide)) $$ [AccY HYk]
  · isplitl [AccY]; · iexact AccY
    iexact HYk
  ihave #HIx := (Prep.inv_fs m K c 10) $$ HI
  imod (Rounds.cell_close ER (rd m) (Set.mem_univ (K (c, some (2, 10)))) (fun h => h) (R := 0 + 1) (duties_fs_later m c 10)) $$ [Hat] with Hz
  · isplitr; · iexact HIx
    iexact Hat
  iclear HIx
  ihave AccZfs := (acc_step (famZfs (F := F) c) 10 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W127, HO⟩
  -- step 289: wait arg5[10] (arg1[(k0_off3 d0 640#32)], arg1[(k0_off3 d0 640#32)])
  first | sl_exec | skip
  ihave Hs := (Entails.of_eq (take_step (famCFR (F := F) c) 10 (by decide))) $$ [FcFR]
  · iexact FcFR
  icases Hs with ⟨Hc, FcFR⟩
  ihave Hs := (Entails.of_eq (take_step (famAtFR (F := F) c) 10 (by decide))) $$ [FatFR]
  · iexact FatFR
  icases Hs with ⟨Hat, FatFR⟩
  ihave #HIw := (Prep.inv_fr m K c 10) $$ HI
  iapply (Rounds.wp_wait_rest_token 𝒱₀ ER (rd m) (c : Thread nD τ) none (κ := K (c, some (3, 10))) (sm := .dma (frS 10))
      (wpE_waitDma2_eq 𝒱₀ (c : Thread nD τ) none Set.univ (src := fSl c 10) (dst := fSl c 10)) (Set.mem_univ _) () (O := 0) (W := W127) (R := 0) (m := 0) (T := ∅)
      (by rw [Nat.zero_add]; exact (expect_fr m c 10).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 10)) $$ Hpay
  ihave AccF := (acc_step (famF m c) 10 (by decide)) $$ [AccF HFk]
  · isplitl [AccF]; · iexact AccF
    iexact HFk
  ihave #HIx := (Prep.inv_fr m K c 10) $$ HI
  imod (Rounds.cell_close ER (rd m) (Set.mem_univ (K (c, some (3, 10)))) (fun h => h) (R := 0 + 1) (duties_fr_later m c 10)) $$ [Hat] with Hz
  · isplitr; · iexact HIx
    iexact Hat
  iclear HIx
  ihave AccZfr := (acc_step (famZfr (F := F) c) 10 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W128, HO⟩
  -- step 290: wait arg2[11] (arg1[(k0_off1 d0 704#32)], arg0[(k0_off2 d0 704#32)])
  first | sl_exec | skip
  ihave Hs := (Entails.of_eq (take_step (famCYS (F := F) c) 11 (by decide))) $$ [FcYS]
  · iexact FcYS
  icases Hs with ⟨Hc, FcYS⟩
  ihave Hs := (Entails.of_eq (take_step (famAtYS (F := F) c) 11 (by decide))) $$ [FatYS]
  · iexact FatYS
  icases Hs with ⟨Hat, FatYS⟩
  ihave #HIw := (Prep.inv_ys m K c 11) $$ HI
  iapply (Rounds.wp_wait_rest_token 𝒱₀ ER (rd m) (c : Thread nD τ) none (κ := K (c, some (0, 11))) (sm := .dma (ysS 11))
      (wpE_waitDma2_eq 𝒱₀ (c : Thread nD τ) none Set.univ (src := yDst c 11) (dst := ySrc c 11)) (Set.mem_univ _) () (O := 0) (W := W128) (R := 0) (m := 0) (T := ∅)
      (by rw [Nat.zero_add]; exact (expect_ys m c 11).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 11)) $$ Hpay
  ihave AccXY := (acc_step (famXY m c) 11 (by decide)) $$ [AccXY Hxy]
  · isplitl [AccXY]; · iexact AccXY
    iexact Hxy
  ihave #HIx := (Prep.inv_ys m K c 11) $$ HI
  imod (Rounds.cell_close ER (rd m) (Set.mem_univ (K (c, some (0, 11)))) (fun h => h) (R := 0 + 1) (duties_ys_later m c 11)) $$ [Hat] with Hz
  · isplitr; · iexact HIx
    iexact Hat
  iclear HIx
  ihave AccZys := (acc_step (famZys (F := F) c) 11 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W129, HO⟩
  -- step 291: wait arg4[11] (arg1[(k0_off3 d0 704#32)], arg1[(k0_off3 d0 704#32)])
  first | sl_exec | skip
  ihave Hs := (Entails.of_eq (take_step (famCFS (F := F) c) 11 (by decide))) $$ [FcFS]
  · iexact FcFS
  icases Hs with ⟨Hc, FcFS⟩
  ihave Hs := (Entails.of_eq (take_step (famAtFS (F := F) c) 11 (by decide))) $$ [FatFS]
  · iexact FatFS
  icases Hs with ⟨Hat, FatFS⟩
  ihave #HIw := (Prep.inv_fs m K c 11) $$ HI
  iapply (Rounds.wp_wait_rest_token 𝒱₀ ER (rd m) (c : Thread nD τ) none (κ := K (c, some (2, 11))) (sm := .dma (fsS 11))
      (wpE_waitDma2_eq 𝒱₀ (c : Thread nD τ) none Set.univ (src := fSl c 11) (dst := fSl c 11)) (Set.mem_univ _) () (O := 0) (W := W129) (R := 0) (m := 0) (T := ∅)
      (by rw [Nat.zero_add]; exact (expect_fs m c 11).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 11)) $$ Hpay
  ihave AccY := (acc_step (famY m c) 11 (by decide)) $$ [AccY HYk]
  · isplitl [AccY]; · iexact AccY
    iexact HYk
  ihave #HIx := (Prep.inv_fs m K c 11) $$ HI
  imod (Rounds.cell_close ER (rd m) (Set.mem_univ (K (c, some (2, 11)))) (fun h => h) (R := 0 + 1) (duties_fs_later m c 11)) $$ [Hat] with Hz
  · isplitr; · iexact HIx
    iexact Hat
  iclear HIx
  ihave AccZfs := (acc_step (famZfs (F := F) c) 11 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W130, HO⟩
  -- step 292: wait arg5[11] (arg1[(k0_off3 d0 704#32)], arg1[(k0_off3 d0 704#32)])
  first | sl_exec | skip
  ihave Hs := (Entails.of_eq (take_step (famCFR (F := F) c) 11 (by decide))) $$ [FcFR]
  · iexact FcFR
  icases Hs with ⟨Hc, FcFR⟩
  ihave Hs := (Entails.of_eq (take_step (famAtFR (F := F) c) 11 (by decide))) $$ [FatFR]
  · iexact FatFR
  icases Hs with ⟨Hat, FatFR⟩
  ihave #HIw := (Prep.inv_fr m K c 11) $$ HI
  iapply (Rounds.wp_wait_rest_token 𝒱₀ ER (rd m) (c : Thread nD τ) none (κ := K (c, some (3, 11))) (sm := .dma (frS 11))
      (wpE_waitDma2_eq 𝒱₀ (c : Thread nD τ) none Set.univ (src := fSl c 11) (dst := fSl c 11)) (Set.mem_univ _) () (O := 0) (W := W130) (R := 0) (m := 0) (T := ∅)
      (by rw [Nat.zero_add]; exact (expect_fr m c 11).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 11)) $$ Hpay
  ihave AccF := (acc_step (famF m c) 11 (by decide)) $$ [AccF HFk]
  · isplitl [AccF]; · iexact AccF
    iexact HFk
  ihave #HIx := (Prep.inv_fr m K c 11) $$ HI
  imod (Rounds.cell_close ER (rd m) (Set.mem_univ (K (c, some (3, 11)))) (fun h => h) (R := 0 + 1) (duties_fr_later m c 11)) $$ [Hat] with Hz
  · isplitr; · iexact HIx
    iexact Hat
  iclear HIx
  ihave AccZfr := (acc_step (famZfr (F := F) c) 11 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W131, HO⟩
  -- step 293: wait arg2[12] (arg1[(k0_off1 d0 768#32)], arg0[(k0_off2 d0 768#32)])
  first | sl_exec | skip
  ihave Hs := (Entails.of_eq (take_step (famCYS (F := F) c) 12 (by decide))) $$ [FcYS]
  · iexact FcYS
  icases Hs with ⟨Hc, FcYS⟩
  ihave Hs := (Entails.of_eq (take_step (famAtYS (F := F) c) 12 (by decide))) $$ [FatYS]
  · iexact FatYS
  icases Hs with ⟨Hat, FatYS⟩
  ihave #HIw := (Prep.inv_ys m K c 12) $$ HI
  iapply (Rounds.wp_wait_rest_token 𝒱₀ ER (rd m) (c : Thread nD τ) none (κ := K (c, some (0, 12))) (sm := .dma (ysS 12))
      (wpE_waitDma2_eq 𝒱₀ (c : Thread nD τ) none Set.univ (src := yDst c 12) (dst := ySrc c 12)) (Set.mem_univ _) () (O := 0) (W := W131) (R := 0) (m := 0) (T := ∅)
      (by rw [Nat.zero_add]; exact (expect_ys m c 12).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 12)) $$ Hpay
  ihave AccXY := (acc_step (famXY m c) 12 (by decide)) $$ [AccXY Hxy]
  · isplitl [AccXY]; · iexact AccXY
    iexact Hxy
  ihave #HIx := (Prep.inv_ys m K c 12) $$ HI
  imod (Rounds.cell_close ER (rd m) (Set.mem_univ (K (c, some (0, 12)))) (fun h => h) (R := 0 + 1) (duties_ys_later m c 12)) $$ [Hat] with Hz
  · isplitr; · iexact HIx
    iexact Hat
  iclear HIx
  ihave AccZys := (acc_step (famZys (F := F) c) 12 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W132, HO⟩
  -- step 294: wait arg4[12] (arg1[(k0_off3 d0 768#32)], arg1[(k0_off3 d0 768#32)])
  first | sl_exec | skip
  ihave Hs := (Entails.of_eq (take_step (famCFS (F := F) c) 12 (by decide))) $$ [FcFS]
  · iexact FcFS
  icases Hs with ⟨Hc, FcFS⟩
  ihave Hs := (Entails.of_eq (take_step (famAtFS (F := F) c) 12 (by decide))) $$ [FatFS]
  · iexact FatFS
  icases Hs with ⟨Hat, FatFS⟩
  ihave #HIw := (Prep.inv_fs m K c 12) $$ HI
  iapply (Rounds.wp_wait_rest_token 𝒱₀ ER (rd m) (c : Thread nD τ) none (κ := K (c, some (2, 12))) (sm := .dma (fsS 12))
      (wpE_waitDma2_eq 𝒱₀ (c : Thread nD τ) none Set.univ (src := fSl c 12) (dst := fSl c 12)) (Set.mem_univ _) () (O := 0) (W := W132) (R := 0) (m := 0) (T := ∅)
      (by rw [Nat.zero_add]; exact (expect_fs m c 12).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 12)) $$ Hpay
  ihave AccY := (acc_step (famY m c) 12 (by decide)) $$ [AccY HYk]
  · isplitl [AccY]; · iexact AccY
    iexact HYk
  ihave #HIx := (Prep.inv_fs m K c 12) $$ HI
  imod (Rounds.cell_close ER (rd m) (Set.mem_univ (K (c, some (2, 12)))) (fun h => h) (R := 0 + 1) (duties_fs_later m c 12)) $$ [Hat] with Hz
  · isplitr; · iexact HIx
    iexact Hat
  iclear HIx
  ihave AccZfs := (acc_step (famZfs (F := F) c) 12 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W133, HO⟩
  -- step 295: wait arg5[12] (arg1[(k0_off3 d0 768#32)], arg1[(k0_off3 d0 768#32)])
  first | sl_exec | skip
  ihave Hs := (Entails.of_eq (take_step (famCFR (F := F) c) 12 (by decide))) $$ [FcFR]
  · iexact FcFR
  icases Hs with ⟨Hc, FcFR⟩
  ihave Hs := (Entails.of_eq (take_step (famAtFR (F := F) c) 12 (by decide))) $$ [FatFR]
  · iexact FatFR
  icases Hs with ⟨Hat, FatFR⟩
  ihave #HIw := (Prep.inv_fr m K c 12) $$ HI
  iapply (Rounds.wp_wait_rest_token 𝒱₀ ER (rd m) (c : Thread nD τ) none (κ := K (c, some (3, 12))) (sm := .dma (frS 12))
      (wpE_waitDma2_eq 𝒱₀ (c : Thread nD τ) none Set.univ (src := fSl c 12) (dst := fSl c 12)) (Set.mem_univ _) () (O := 0) (W := W133) (R := 0) (m := 0) (T := ∅)
      (by rw [Nat.zero_add]; exact (expect_fr m c 12).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 12)) $$ Hpay
  ihave AccF := (acc_step (famF m c) 12 (by decide)) $$ [AccF HFk]
  · isplitl [AccF]; · iexact AccF
    iexact HFk
  ihave #HIx := (Prep.inv_fr m K c 12) $$ HI
  imod (Rounds.cell_close ER (rd m) (Set.mem_univ (K (c, some (3, 12)))) (fun h => h) (R := 0 + 1) (duties_fr_later m c 12)) $$ [Hat] with Hz
  · isplitr; · iexact HIx
    iexact Hat
  iclear HIx
  ihave AccZfr := (acc_step (famZfr (F := F) c) 12 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W134, HO⟩
  -- step 296: wait arg2[13] (arg1[(k0_off1 d0 832#32)], arg0[(k0_off2 d0 832#32)])
  first | sl_exec | skip
  ihave Hs := (Entails.of_eq (take_step (famCYS (F := F) c) 13 (by decide))) $$ [FcYS]
  · iexact FcYS
  icases Hs with ⟨Hc, FcYS⟩
  ihave Hs := (Entails.of_eq (take_step (famAtYS (F := F) c) 13 (by decide))) $$ [FatYS]
  · iexact FatYS
  icases Hs with ⟨Hat, FatYS⟩
  ihave #HIw := (Prep.inv_ys m K c 13) $$ HI
  iapply (Rounds.wp_wait_rest_token 𝒱₀ ER (rd m) (c : Thread nD τ) none (κ := K (c, some (0, 13))) (sm := .dma (ysS 13))
      (wpE_waitDma2_eq 𝒱₀ (c : Thread nD τ) none Set.univ (src := yDst c 13) (dst := ySrc c 13)) (Set.mem_univ _) () (O := 0) (W := W134) (R := 0) (m := 0) (T := ∅)
      (by rw [Nat.zero_add]; exact (expect_ys m c 13).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 13)) $$ Hpay
  ihave AccXY := (acc_step (famXY m c) 13 (by decide)) $$ [AccXY Hxy]
  · isplitl [AccXY]; · iexact AccXY
    iexact Hxy
  ihave #HIx := (Prep.inv_ys m K c 13) $$ HI
  imod (Rounds.cell_close ER (rd m) (Set.mem_univ (K (c, some (0, 13)))) (fun h => h) (R := 0 + 1) (duties_ys_later m c 13)) $$ [Hat] with Hz
  · isplitr; · iexact HIx
    iexact Hat
  iclear HIx
  ihave AccZys := (acc_step (famZys (F := F) c) 13 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W135, HO⟩
  -- step 297: wait arg4[13] (arg1[(k0_off3 d0 832#32)], arg1[(k0_off3 d0 832#32)])
  first | sl_exec | skip
  ihave Hs := (Entails.of_eq (take_step (famCFS (F := F) c) 13 (by decide))) $$ [FcFS]
  · iexact FcFS
  icases Hs with ⟨Hc, FcFS⟩
  ihave Hs := (Entails.of_eq (take_step (famAtFS (F := F) c) 13 (by decide))) $$ [FatFS]
  · iexact FatFS
  icases Hs with ⟨Hat, FatFS⟩
  ihave #HIw := (Prep.inv_fs m K c 13) $$ HI
  iapply (Rounds.wp_wait_rest_token 𝒱₀ ER (rd m) (c : Thread nD τ) none (κ := K (c, some (2, 13))) (sm := .dma (fsS 13))
      (wpE_waitDma2_eq 𝒱₀ (c : Thread nD τ) none Set.univ (src := fSl c 13) (dst := fSl c 13)) (Set.mem_univ _) () (O := 0) (W := W135) (R := 0) (m := 0) (T := ∅)
      (by rw [Nat.zero_add]; exact (expect_fs m c 13).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 13)) $$ Hpay
  ihave AccY := (acc_step (famY m c) 13 (by decide)) $$ [AccY HYk]
  · isplitl [AccY]; · iexact AccY
    iexact HYk
  ihave #HIx := (Prep.inv_fs m K c 13) $$ HI
  imod (Rounds.cell_close ER (rd m) (Set.mem_univ (K (c, some (2, 13)))) (fun h => h) (R := 0 + 1) (duties_fs_later m c 13)) $$ [Hat] with Hz
  · isplitr; · iexact HIx
    iexact Hat
  iclear HIx
  ihave AccZfs := (acc_step (famZfs (F := F) c) 13 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W136, HO⟩
  -- step 298: wait arg5[13] (arg1[(k0_off3 d0 832#32)], arg1[(k0_off3 d0 832#32)])
  first | sl_exec | skip
  ihave Hs := (Entails.of_eq (take_step (famCFR (F := F) c) 13 (by decide))) $$ [FcFR]
  · iexact FcFR
  icases Hs with ⟨Hc, FcFR⟩
  ihave Hs := (Entails.of_eq (take_step (famAtFR (F := F) c) 13 (by decide))) $$ [FatFR]
  · iexact FatFR
  icases Hs with ⟨Hat, FatFR⟩
  ihave #HIw := (Prep.inv_fr m K c 13) $$ HI
  iapply (Rounds.wp_wait_rest_token 𝒱₀ ER (rd m) (c : Thread nD τ) none (κ := K (c, some (3, 13))) (sm := .dma (frS 13))
      (wpE_waitDma2_eq 𝒱₀ (c : Thread nD τ) none Set.univ (src := fSl c 13) (dst := fSl c 13)) (Set.mem_univ _) () (O := 0) (W := W136) (R := 0) (m := 0) (T := ∅)
      (by rw [Nat.zero_add]; exact (expect_fr m c 13).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 13)) $$ Hpay
  ihave AccF := (acc_step (famF m c) 13 (by decide)) $$ [AccF HFk]
  · isplitl [AccF]; · iexact AccF
    iexact HFk
  ihave #HIx := (Prep.inv_fr m K c 13) $$ HI
  imod (Rounds.cell_close ER (rd m) (Set.mem_univ (K (c, some (3, 13)))) (fun h => h) (R := 0 + 1) (duties_fr_later m c 13)) $$ [Hat] with Hz
  · isplitr; · iexact HIx
    iexact Hat
  iclear HIx
  ihave AccZfr := (acc_step (famZfr (F := F) c) 13 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W137, HO⟩
  -- step 299: wait arg2[14] (arg1[(k0_off1 d0 896#32)], arg0[(k0_off2 d0 896#32)])
  first | sl_exec | skip
  ihave Hs := (Entails.of_eq (take_step (famCYS (F := F) c) 14 (by decide))) $$ [FcYS]
  · iexact FcYS
  icases Hs with ⟨Hc, FcYS⟩
  ihave Hs := (Entails.of_eq (take_step (famAtYS (F := F) c) 14 (by decide))) $$ [FatYS]
  · iexact FatYS
  icases Hs with ⟨Hat, FatYS⟩
  ihave #HIw := (Prep.inv_ys m K c 14) $$ HI
  iapply (Rounds.wp_wait_rest_token 𝒱₀ ER (rd m) (c : Thread nD τ) none (κ := K (c, some (0, 14))) (sm := .dma (ysS 14))
      (wpE_waitDma2_eq 𝒱₀ (c : Thread nD τ) none Set.univ (src := yDst c 14) (dst := ySrc c 14)) (Set.mem_univ _) () (O := 0) (W := W137) (R := 0) (m := 0) (T := ∅)
      (by rw [Nat.zero_add]; exact (expect_ys m c 14).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 14)) $$ Hpay
  ihave AccXY := (acc_step (famXY m c) 14 (by decide)) $$ [AccXY Hxy]
  · isplitl [AccXY]; · iexact AccXY
    iexact Hxy
  ihave #HIx := (Prep.inv_ys m K c 14) $$ HI
  imod (Rounds.cell_close ER (rd m) (Set.mem_univ (K (c, some (0, 14)))) (fun h => h) (R := 0 + 1) (duties_ys_later m c 14)) $$ [Hat] with Hz
  · isplitr; · iexact HIx
    iexact Hat
  iclear HIx
  ihave AccZys := (acc_step (famZys (F := F) c) 14 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W138, HO⟩
  -- step 300: wait arg4[14] (arg1[(k0_off3 d0 896#32)], arg1[(k0_off3 d0 896#32)])
  first | sl_exec | skip
  ihave Hs := (Entails.of_eq (take_step (famCFS (F := F) c) 14 (by decide))) $$ [FcFS]
  · iexact FcFS
  icases Hs with ⟨Hc, FcFS⟩
  ihave Hs := (Entails.of_eq (take_step (famAtFS (F := F) c) 14 (by decide))) $$ [FatFS]
  · iexact FatFS
  icases Hs with ⟨Hat, FatFS⟩
  ihave #HIw := (Prep.inv_fs m K c 14) $$ HI
  iapply (Rounds.wp_wait_rest_token 𝒱₀ ER (rd m) (c : Thread nD τ) none (κ := K (c, some (2, 14))) (sm := .dma (fsS 14))
      (wpE_waitDma2_eq 𝒱₀ (c : Thread nD τ) none Set.univ (src := fSl c 14) (dst := fSl c 14)) (Set.mem_univ _) () (O := 0) (W := W138) (R := 0) (m := 0) (T := ∅)
      (by rw [Nat.zero_add]; exact (expect_fs m c 14).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 14)) $$ Hpay
  ihave AccY := (acc_step (famY m c) 14 (by decide)) $$ [AccY HYk]
  · isplitl [AccY]; · iexact AccY
    iexact HYk
  ihave #HIx := (Prep.inv_fs m K c 14) $$ HI
  imod (Rounds.cell_close ER (rd m) (Set.mem_univ (K (c, some (2, 14)))) (fun h => h) (R := 0 + 1) (duties_fs_later m c 14)) $$ [Hat] with Hz
  · isplitr; · iexact HIx
    iexact Hat
  iclear HIx
  ihave AccZfs := (acc_step (famZfs (F := F) c) 14 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W139, HO⟩
  -- step 301: wait arg5[14] (arg1[(k0_off3 d0 896#32)], arg1[(k0_off3 d0 896#32)])
  first | sl_exec | skip
  ihave Hs := (Entails.of_eq (take_step (famCFR (F := F) c) 14 (by decide))) $$ [FcFR]
  · iexact FcFR
  icases Hs with ⟨Hc, FcFR⟩
  ihave Hs := (Entails.of_eq (take_step (famAtFR (F := F) c) 14 (by decide))) $$ [FatFR]
  · iexact FatFR
  icases Hs with ⟨Hat, FatFR⟩
  ihave #HIw := (Prep.inv_fr m K c 14) $$ HI
  iapply (Rounds.wp_wait_rest_token 𝒱₀ ER (rd m) (c : Thread nD τ) none (κ := K (c, some (3, 14))) (sm := .dma (frS 14))
      (wpE_waitDma2_eq 𝒱₀ (c : Thread nD τ) none Set.univ (src := fSl c 14) (dst := fSl c 14)) (Set.mem_univ _) () (O := 0) (W := W139) (R := 0) (m := 0) (T := ∅)
      (by rw [Nat.zero_add]; exact (expect_fr m c 14).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 14)) $$ Hpay
  ihave AccF := (acc_step (famF m c) 14 (by decide)) $$ [AccF HFk]
  · isplitl [AccF]; · iexact AccF
    iexact HFk
  ihave #HIx := (Prep.inv_fr m K c 14) $$ HI
  imod (Rounds.cell_close ER (rd m) (Set.mem_univ (K (c, some (3, 14)))) (fun h => h) (R := 0 + 1) (duties_fr_later m c 14)) $$ [Hat] with Hz
  · isplitr; · iexact HIx
    iexact Hat
  iclear HIx
  ihave AccZfr := (acc_step (famZfr (F := F) c) 14 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W140, HO⟩
  -- step 302: wait arg2[15] (arg1[(k0_off1 d0 960#32)], arg0[(k0_off2 d0 960#32)])
  first | sl_exec | skip
  ihave Hs := (Entails.of_eq (take_step (famCYS (F := F) c) 15 (by decide))) $$ [FcYS]
  · iexact FcYS
  icases Hs with ⟨Hc, FcYS⟩
  ihave Hs := (Entails.of_eq (take_step (famAtYS (F := F) c) 15 (by decide))) $$ [FatYS]
  · iexact FatYS
  icases Hs with ⟨Hat, FatYS⟩
  ihave #HIw := (Prep.inv_ys m K c 15) $$ HI
  iapply (Rounds.wp_wait_rest_token 𝒱₀ ER (rd m) (c : Thread nD τ) none (κ := K (c, some (0, 15))) (sm := .dma (ysS 15))
      (wpE_waitDma2_eq 𝒱₀ (c : Thread nD τ) none Set.univ (src := yDst c 15) (dst := ySrc c 15)) (Set.mem_univ _) () (O := 0) (W := W140) (R := 0) (m := 0) (T := ∅)
      (by rw [Nat.zero_add]; exact (expect_ys m c 15).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 15)) $$ Hpay
  ihave AccXY := (acc_step (famXY m c) 15 (by decide)) $$ [AccXY Hxy]
  · isplitl [AccXY]; · iexact AccXY
    iexact Hxy
  ihave #HIx := (Prep.inv_ys m K c 15) $$ HI
  imod (Rounds.cell_close ER (rd m) (Set.mem_univ (K (c, some (0, 15)))) (fun h => h) (R := 0 + 1) (duties_ys_later m c 15)) $$ [Hat] with Hz
  · isplitr; · iexact HIx
    iexact Hat
  iclear HIx
  ihave AccZys := (acc_step (famZys (F := F) c) 15 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W141, HO⟩
  -- step 303: wait arg4[15] (arg1[(k0_off3 d0 960#32)], arg1[(k0_off3 d0 960#32)])
  first | sl_exec | skip
  ihave Hs := (Entails.of_eq (take_step (famCFS (F := F) c) 15 (by decide))) $$ [FcFS]
  · iexact FcFS
  icases Hs with ⟨Hc, FcFS⟩
  ihave Hs := (Entails.of_eq (take_step (famAtFS (F := F) c) 15 (by decide))) $$ [FatFS]
  · iexact FatFS
  icases Hs with ⟨Hat, FatFS⟩
  ihave #HIw := (Prep.inv_fs m K c 15) $$ HI
  iapply (Rounds.wp_wait_rest_token 𝒱₀ ER (rd m) (c : Thread nD τ) none (κ := K (c, some (2, 15))) (sm := .dma (fsS 15))
      (wpE_waitDma2_eq 𝒱₀ (c : Thread nD τ) none Set.univ (src := fSl c 15) (dst := fSl c 15)) (Set.mem_univ _) () (O := 0) (W := W141) (R := 0) (m := 0) (T := ∅)
      (by rw [Nat.zero_add]; exact (expect_fs m c 15).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 15)) $$ Hpay
  ihave AccY := (acc_step (famY m c) 15 (by decide)) $$ [AccY HYk]
  · isplitl [AccY]; · iexact AccY
    iexact HYk
  ihave #HIx := (Prep.inv_fs m K c 15) $$ HI
  imod (Rounds.cell_close ER (rd m) (Set.mem_univ (K (c, some (2, 15)))) (fun h => h) (R := 0 + 1) (duties_fs_later m c 15)) $$ [Hat] with Hz
  · isplitr; · iexact HIx
    iexact Hat
  iclear HIx
  ihave AccZfs := (acc_step (famZfs (F := F) c) 15 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W142, HO⟩
  -- step 304: wait arg5[15] (arg1[(k0_off3 d0 960#32)], arg1[(k0_off3 d0 960#32)])
  first | sl_exec | skip
  ihave Hs := (Entails.of_eq (take_step (famCFR (F := F) c) 15 (by decide))) $$ [FcFR]
  · iexact FcFR
  icases Hs with ⟨Hc, FcFR⟩
  ihave Hs := (Entails.of_eq (take_step (famAtFR (F := F) c) 15 (by decide))) $$ [FatFR]
  · iexact FatFR
  icases Hs with ⟨Hat, FatFR⟩
  ihave #HIw := (Prep.inv_fr m K c 15) $$ HI
  iapply (Rounds.wp_wait_rest_token 𝒱₀ ER (rd m) (c : Thread nD τ) none (κ := K (c, some (3, 15))) (sm := .dma (frS 15))
      (wpE_waitDma2_eq 𝒱₀ (c : Thread nD τ) none Set.univ (src := fSl c 15) (dst := fSl c 15)) (Set.mem_univ _) () (O := 0) (W := W142) (R := 0) (m := 0) (T := ∅)
      (by rw [Nat.zero_add]; exact (expect_fr m c 15).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 15)) $$ Hpay
  ihave AccF := (acc_step (famF m c) 15 (by decide)) $$ [AccF HFk]
  · isplitl [AccF]; · iexact AccF
    iexact HFk
  ihave #HIx := (Prep.inv_fr m K c 15) $$ HI
  imod (Rounds.cell_close ER (rd m) (Set.mem_univ (K (c, some (3, 15)))) (fun h => h) (R := 0 + 1) (duties_fr_later m c 15)) $$ [Hat] with Hz
  · isplitr; · iexact HIx
    iexact Hat
  iclear HIx
  ihave AccZfr := (acc_step (famZfr (F := F) c) 15 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W143, HO⟩
  -- step 305: wait arg2[16] (arg1[(k0_off1 d0 1024#32)], arg0[(k0_off2 d0 1024#32)])
  first | sl_exec | skip
  ihave Hs := (Entails.of_eq (take_step (famCYS (F := F) c) 16 (by decide))) $$ [FcYS]
  · iexact FcYS
  icases Hs with ⟨Hc, FcYS⟩
  ihave Hs := (Entails.of_eq (take_step (famAtYS (F := F) c) 16 (by decide))) $$ [FatYS]
  · iexact FatYS
  icases Hs with ⟨Hat, FatYS⟩
  ihave #HIw := (Prep.inv_ys m K c 16) $$ HI
  iapply (Rounds.wp_wait_rest_token 𝒱₀ ER (rd m) (c : Thread nD τ) none (κ := K (c, some (0, 16))) (sm := .dma (ysS 16))
      (wpE_waitDma2_eq 𝒱₀ (c : Thread nD τ) none Set.univ (src := yDst c 16) (dst := ySrc c 16)) (Set.mem_univ _) () (O := 0) (W := W143) (R := 0) (m := 0) (T := ∅)
      (by rw [Nat.zero_add]; exact (expect_ys m c 16).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 16)) $$ Hpay
  ihave AccXY := (acc_step (famXY m c) 16 (by decide)) $$ [AccXY Hxy]
  · isplitl [AccXY]; · iexact AccXY
    iexact Hxy
  ihave #HIx := (Prep.inv_ys m K c 16) $$ HI
  imod (Rounds.cell_close ER (rd m) (Set.mem_univ (K (c, some (0, 16)))) (fun h => h) (R := 0 + 1) (duties_ys_later m c 16)) $$ [Hat] with Hz
  · isplitr; · iexact HIx
    iexact Hat
  iclear HIx
  ihave AccZys := (acc_step (famZys (F := F) c) 16 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W144, HO⟩
  -- step 306: wait arg4[16] (arg1[(k0_off3 d0 1024#32)], arg1[(k0_off3 d0 1024#32)])
  first | sl_exec | skip
  ihave Hs := (Entails.of_eq (take_step (famCFS (F := F) c) 16 (by decide))) $$ [FcFS]
  · iexact FcFS
  icases Hs with ⟨Hc, FcFS⟩
  ihave Hs := (Entails.of_eq (take_step (famAtFS (F := F) c) 16 (by decide))) $$ [FatFS]
  · iexact FatFS
  icases Hs with ⟨Hat, FatFS⟩
  ihave #HIw := (Prep.inv_fs m K c 16) $$ HI
  iapply (Rounds.wp_wait_rest_token 𝒱₀ ER (rd m) (c : Thread nD τ) none (κ := K (c, some (2, 16))) (sm := .dma (fsS 16))
      (wpE_waitDma2_eq 𝒱₀ (c : Thread nD τ) none Set.univ (src := fSl c 16) (dst := fSl c 16)) (Set.mem_univ _) () (O := 0) (W := W144) (R := 0) (m := 0) (T := ∅)
      (by rw [Nat.zero_add]; exact (expect_fs m c 16).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 16)) $$ Hpay
  ihave AccY := (acc_step (famY m c) 16 (by decide)) $$ [AccY HYk]
  · isplitl [AccY]; · iexact AccY
    iexact HYk
  ihave #HIx := (Prep.inv_fs m K c 16) $$ HI
  imod (Rounds.cell_close ER (rd m) (Set.mem_univ (K (c, some (2, 16)))) (fun h => h) (R := 0 + 1) (duties_fs_later m c 16)) $$ [Hat] with Hz
  · isplitr; · iexact HIx
    iexact Hat
  iclear HIx
  ihave AccZfs := (acc_step (famZfs (F := F) c) 16 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W145, HO⟩
  -- step 307: wait arg5[16] (arg1[(k0_off3 d0 1024#32)], arg1[(k0_off3 d0 1024#32)])
  first | sl_exec | skip
  ihave Hs := (Entails.of_eq (take_step (famCFR (F := F) c) 16 (by decide))) $$ [FcFR]
  · iexact FcFR
  icases Hs with ⟨Hc, FcFR⟩
  ihave Hs := (Entails.of_eq (take_step (famAtFR (F := F) c) 16 (by decide))) $$ [FatFR]
  · iexact FatFR
  icases Hs with ⟨Hat, FatFR⟩
  ihave #HIw := (Prep.inv_fr m K c 16) $$ HI
  iapply (Rounds.wp_wait_rest_token 𝒱₀ ER (rd m) (c : Thread nD τ) none (κ := K (c, some (3, 16))) (sm := .dma (frS 16))
      (wpE_waitDma2_eq 𝒱₀ (c : Thread nD τ) none Set.univ (src := fSl c 16) (dst := fSl c 16)) (Set.mem_univ _) () (O := 0) (W := W145) (R := 0) (m := 0) (T := ∅)
      (by rw [Nat.zero_add]; exact (expect_fr m c 16).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 16)) $$ Hpay
  ihave AccF := (acc_step (famF m c) 16 (by decide)) $$ [AccF HFk]
  · isplitl [AccF]; · iexact AccF
    iexact HFk
  ihave #HIx := (Prep.inv_fr m K c 16) $$ HI
  imod (Rounds.cell_close ER (rd m) (Set.mem_univ (K (c, some (3, 16)))) (fun h => h) (R := 0 + 1) (duties_fr_later m c 16)) $$ [Hat] with Hz
  · isplitr; · iexact HIx
    iexact Hat
  iclear HIx
  ihave AccZfr := (acc_step (famZfr (F := F) c) 16 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W146, HO⟩
  -- step 308: wait arg2[17] (arg1[(k0_off1 d0 1088#32)], arg0[(k0_off2 d0 1088#32)])
  first | sl_exec | skip
  ihave Hs := (Entails.of_eq (take_step (famCYS (F := F) c) 17 (by decide))) $$ [FcYS]
  · iexact FcYS
  icases Hs with ⟨Hc, FcYS⟩
  ihave Hs := (Entails.of_eq (take_step (famAtYS (F := F) c) 17 (by decide))) $$ [FatYS]
  · iexact FatYS
  icases Hs with ⟨Hat, FatYS⟩
  ihave #HIw := (Prep.inv_ys m K c 17) $$ HI
  iapply (Rounds.wp_wait_rest_token 𝒱₀ ER (rd m) (c : Thread nD τ) none (κ := K (c, some (0, 17))) (sm := .dma (ysS 17))
      (wpE_waitDma2_eq 𝒱₀ (c : Thread nD τ) none Set.univ (src := yDst c 17) (dst := ySrc c 17)) (Set.mem_univ _) () (O := 0) (W := W146) (R := 0) (m := 0) (T := ∅)
      (by rw [Nat.zero_add]; exact (expect_ys m c 17).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 17)) $$ Hpay
  ihave AccXY := (acc_step (famXY m c) 17 (by decide)) $$ [AccXY Hxy]
  · isplitl [AccXY]; · iexact AccXY
    iexact Hxy
  ihave #HIx := (Prep.inv_ys m K c 17) $$ HI
  imod (Rounds.cell_close ER (rd m) (Set.mem_univ (K (c, some (0, 17)))) (fun h => h) (R := 0 + 1) (duties_ys_later m c 17)) $$ [Hat] with Hz
  · isplitr; · iexact HIx
    iexact Hat
  iclear HIx
  ihave AccZys := (acc_step (famZys (F := F) c) 17 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W147, HO⟩
  -- step 309: wait arg4[17] (arg1[(k0_off3 d0 1088#32)], arg1[(k0_off3 d0 1088#32)])
  first | sl_exec | skip
  ihave Hs := (Entails.of_eq (take_step (famCFS (F := F) c) 17 (by decide))) $$ [FcFS]
  · iexact FcFS
  icases Hs with ⟨Hc, FcFS⟩
  ihave Hs := (Entails.of_eq (take_step (famAtFS (F := F) c) 17 (by decide))) $$ [FatFS]
  · iexact FatFS
  icases Hs with ⟨Hat, FatFS⟩
  ihave #HIw := (Prep.inv_fs m K c 17) $$ HI
  iapply (Rounds.wp_wait_rest_token 𝒱₀ ER (rd m) (c : Thread nD τ) none (κ := K (c, some (2, 17))) (sm := .dma (fsS 17))
      (wpE_waitDma2_eq 𝒱₀ (c : Thread nD τ) none Set.univ (src := fSl c 17) (dst := fSl c 17)) (Set.mem_univ _) () (O := 0) (W := W147) (R := 0) (m := 0) (T := ∅)
      (by rw [Nat.zero_add]; exact (expect_fs m c 17).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 17)) $$ Hpay
  ihave AccY := (acc_step (famY m c) 17 (by decide)) $$ [AccY HYk]
  · isplitl [AccY]; · iexact AccY
    iexact HYk
  ihave #HIx := (Prep.inv_fs m K c 17) $$ HI
  imod (Rounds.cell_close ER (rd m) (Set.mem_univ (K (c, some (2, 17)))) (fun h => h) (R := 0 + 1) (duties_fs_later m c 17)) $$ [Hat] with Hz
  · isplitr; · iexact HIx
    iexact Hat
  iclear HIx
  ihave AccZfs := (acc_step (famZfs (F := F) c) 17 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W148, HO⟩
  -- step 310: wait arg5[17] (arg1[(k0_off3 d0 1088#32)], arg1[(k0_off3 d0 1088#32)])
  first | sl_exec | skip
  ihave Hs := (Entails.of_eq (take_step (famCFR (F := F) c) 17 (by decide))) $$ [FcFR]
  · iexact FcFR
  icases Hs with ⟨Hc, FcFR⟩
  ihave Hs := (Entails.of_eq (take_step (famAtFR (F := F) c) 17 (by decide))) $$ [FatFR]
  · iexact FatFR
  icases Hs with ⟨Hat, FatFR⟩
  ihave #HIw := (Prep.inv_fr m K c 17) $$ HI
  iapply (Rounds.wp_wait_rest_token 𝒱₀ ER (rd m) (c : Thread nD τ) none (κ := K (c, some (3, 17))) (sm := .dma (frS 17))
      (wpE_waitDma2_eq 𝒱₀ (c : Thread nD τ) none Set.univ (src := fSl c 17) (dst := fSl c 17)) (Set.mem_univ _) () (O := 0) (W := W148) (R := 0) (m := 0) (T := ∅)
      (by rw [Nat.zero_add]; exact (expect_fr m c 17).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 17)) $$ Hpay
  ihave AccF := (acc_step (famF m c) 17 (by decide)) $$ [AccF HFk]
  · isplitl [AccF]; · iexact AccF
    iexact HFk
  ihave #HIx := (Prep.inv_fr m K c 17) $$ HI
  imod (Rounds.cell_close ER (rd m) (Set.mem_univ (K (c, some (3, 17)))) (fun h => h) (R := 0 + 1) (duties_fr_later m c 17)) $$ [Hat] with Hz
  · isplitr; · iexact HIx
    iexact Hat
  iclear HIx
  ihave AccZfr := (acc_step (famZfr (F := F) c) 17 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W149, HO⟩
  -- step 311: wait arg2[18] (arg1[(k0_off1 d0 1152#32)], arg0[(k0_off2 d0 1152#32)])
  first | sl_exec | skip
  ihave Hs := (Entails.of_eq (take_step (famCYS (F := F) c) 18 (by decide))) $$ [FcYS]
  · iexact FcYS
  icases Hs with ⟨Hc, FcYS⟩
  ihave Hs := (Entails.of_eq (take_step (famAtYS (F := F) c) 18 (by decide))) $$ [FatYS]
  · iexact FatYS
  icases Hs with ⟨Hat, FatYS⟩
  ihave #HIw := (Prep.inv_ys m K c 18) $$ HI
  iapply (Rounds.wp_wait_rest_token 𝒱₀ ER (rd m) (c : Thread nD τ) none (κ := K (c, some (0, 18))) (sm := .dma (ysS 18))
      (wpE_waitDma2_eq 𝒱₀ (c : Thread nD τ) none Set.univ (src := yDst c 18) (dst := ySrc c 18)) (Set.mem_univ _) () (O := 0) (W := W149) (R := 0) (m := 0) (T := ∅)
      (by rw [Nat.zero_add]; exact (expect_ys m c 18).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 18)) $$ Hpay
  ihave AccXY := (acc_step (famXY m c) 18 (by decide)) $$ [AccXY Hxy]
  · isplitl [AccXY]; · iexact AccXY
    iexact Hxy
  ihave #HIx := (Prep.inv_ys m K c 18) $$ HI
  imod (Rounds.cell_close ER (rd m) (Set.mem_univ (K (c, some (0, 18)))) (fun h => h) (R := 0 + 1) (duties_ys_later m c 18)) $$ [Hat] with Hz
  · isplitr; · iexact HIx
    iexact Hat
  iclear HIx
  ihave AccZys := (acc_step (famZys (F := F) c) 18 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W150, HO⟩
  -- step 312: wait arg4[18] (arg1[(k0_off3 d0 1152#32)], arg1[(k0_off3 d0 1152#32)])
  first | sl_exec | skip
  ihave Hs := (Entails.of_eq (take_step (famCFS (F := F) c) 18 (by decide))) $$ [FcFS]
  · iexact FcFS
  icases Hs with ⟨Hc, FcFS⟩
  ihave Hs := (Entails.of_eq (take_step (famAtFS (F := F) c) 18 (by decide))) $$ [FatFS]
  · iexact FatFS
  icases Hs with ⟨Hat, FatFS⟩
  ihave #HIw := (Prep.inv_fs m K c 18) $$ HI
  iapply (Rounds.wp_wait_rest_token 𝒱₀ ER (rd m) (c : Thread nD τ) none (κ := K (c, some (2, 18))) (sm := .dma (fsS 18))
      (wpE_waitDma2_eq 𝒱₀ (c : Thread nD τ) none Set.univ (src := fSl c 18) (dst := fSl c 18)) (Set.mem_univ _) () (O := 0) (W := W150) (R := 0) (m := 0) (T := ∅)
      (by rw [Nat.zero_add]; exact (expect_fs m c 18).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 18)) $$ Hpay
  ihave AccY := (acc_step (famY m c) 18 (by decide)) $$ [AccY HYk]
  · isplitl [AccY]; · iexact AccY
    iexact HYk
  ihave #HIx := (Prep.inv_fs m K c 18) $$ HI
  imod (Rounds.cell_close ER (rd m) (Set.mem_univ (K (c, some (2, 18)))) (fun h => h) (R := 0 + 1) (duties_fs_later m c 18)) $$ [Hat] with Hz
  · isplitr; · iexact HIx
    iexact Hat
  iclear HIx
  ihave AccZfs := (acc_step (famZfs (F := F) c) 18 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W151, HO⟩
  -- step 313: wait arg5[18] (arg1[(k0_off3 d0 1152#32)], arg1[(k0_off3 d0 1152#32)])
  first | sl_exec | skip
  ihave Hs := (Entails.of_eq (take_step (famCFR (F := F) c) 18 (by decide))) $$ [FcFR]
  · iexact FcFR
  icases Hs with ⟨Hc, FcFR⟩
  ihave Hs := (Entails.of_eq (take_step (famAtFR (F := F) c) 18 (by decide))) $$ [FatFR]
  · iexact FatFR
  icases Hs with ⟨Hat, FatFR⟩
  ihave #HIw := (Prep.inv_fr m K c 18) $$ HI
  iapply (Rounds.wp_wait_rest_token 𝒱₀ ER (rd m) (c : Thread nD τ) none (κ := K (c, some (3, 18))) (sm := .dma (frS 18))
      (wpE_waitDma2_eq 𝒱₀ (c : Thread nD τ) none Set.univ (src := fSl c 18) (dst := fSl c 18)) (Set.mem_univ _) () (O := 0) (W := W151) (R := 0) (m := 0) (T := ∅)
      (by rw [Nat.zero_add]; exact (expect_fr m c 18).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 18)) $$ Hpay
  ihave AccF := (acc_step (famF m c) 18 (by decide)) $$ [AccF HFk]
  · isplitl [AccF]; · iexact AccF
    iexact HFk
  ihave #HIx := (Prep.inv_fr m K c 18) $$ HI
  imod (Rounds.cell_close ER (rd m) (Set.mem_univ (K (c, some (3, 18)))) (fun h => h) (R := 0 + 1) (duties_fr_later m c 18)) $$ [Hat] with Hz
  · isplitr; · iexact HIx
    iexact Hat
  iclear HIx
  ihave AccZfr := (acc_step (famZfr (F := F) c) 18 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W152, HO⟩
  -- step 314: wait arg2[19] (arg1[(k0_off1 d0 1216#32)], arg0[(k0_off2 d0 1216#32)])
  first | sl_exec | skip
  ihave Hs := (Entails.of_eq (take_step (famCYS (F := F) c) 19 (by decide))) $$ [FcYS]
  · iexact FcYS
  icases Hs with ⟨Hc, FcYS⟩
  ihave Hs := (Entails.of_eq (take_step (famAtYS (F := F) c) 19 (by decide))) $$ [FatYS]
  · iexact FatYS
  icases Hs with ⟨Hat, FatYS⟩
  ihave #HIw := (Prep.inv_ys m K c 19) $$ HI
  iapply (Rounds.wp_wait_rest_token 𝒱₀ ER (rd m) (c : Thread nD τ) none (κ := K (c, some (0, 19))) (sm := .dma (ysS 19))
      (wpE_waitDma2_eq 𝒱₀ (c : Thread nD τ) none Set.univ (src := yDst c 19) (dst := ySrc c 19)) (Set.mem_univ _) () (O := 0) (W := W152) (R := 0) (m := 0) (T := ∅)
      (by rw [Nat.zero_add]; exact (expect_ys m c 19).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 19)) $$ Hpay
  ihave AccXY := (acc_step (famXY m c) 19 (by decide)) $$ [AccXY Hxy]
  · isplitl [AccXY]; · iexact AccXY
    iexact Hxy
  ihave #HIx := (Prep.inv_ys m K c 19) $$ HI
  imod (Rounds.cell_close ER (rd m) (Set.mem_univ (K (c, some (0, 19)))) (fun h => h) (R := 0 + 1) (duties_ys_later m c 19)) $$ [Hat] with Hz
  · isplitr; · iexact HIx
    iexact Hat
  iclear HIx
  ihave AccZys := (acc_step (famZys (F := F) c) 19 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W153, HO⟩
  -- step 315: wait arg4[19] (arg1[(k0_off3 d0 1216#32)], arg1[(k0_off3 d0 1216#32)])
  first | sl_exec | skip
  ihave Hs := (Entails.of_eq (take_step (famCFS (F := F) c) 19 (by decide))) $$ [FcFS]
  · iexact FcFS
  icases Hs with ⟨Hc, FcFS⟩
  ihave Hs := (Entails.of_eq (take_step (famAtFS (F := F) c) 19 (by decide))) $$ [FatFS]
  · iexact FatFS
  icases Hs with ⟨Hat, FatFS⟩
  ihave #HIw := (Prep.inv_fs m K c 19) $$ HI
  iapply (Rounds.wp_wait_rest_token 𝒱₀ ER (rd m) (c : Thread nD τ) none (κ := K (c, some (2, 19))) (sm := .dma (fsS 19))
      (wpE_waitDma2_eq 𝒱₀ (c : Thread nD τ) none Set.univ (src := fSl c 19) (dst := fSl c 19)) (Set.mem_univ _) () (O := 0) (W := W153) (R := 0) (m := 0) (T := ∅)
      (by rw [Nat.zero_add]; exact (expect_fs m c 19).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 19)) $$ Hpay
  ihave AccY := (acc_step (famY m c) 19 (by decide)) $$ [AccY HYk]
  · isplitl [AccY]; · iexact AccY
    iexact HYk
  ihave #HIx := (Prep.inv_fs m K c 19) $$ HI
  imod (Rounds.cell_close ER (rd m) (Set.mem_univ (K (c, some (2, 19)))) (fun h => h) (R := 0 + 1) (duties_fs_later m c 19)) $$ [Hat] with Hz
  · isplitr; · iexact HIx
    iexact Hat
  iclear HIx
  ihave AccZfs := (acc_step (famZfs (F := F) c) 19 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W154, HO⟩
  -- step 316: wait arg5[19] (arg1[(k0_off3 d0 1216#32)], arg1[(k0_off3 d0 1216#32)])
  first | sl_exec | skip
  ihave Hs := (Entails.of_eq (take_step (famCFR (F := F) c) 19 (by decide))) $$ [FcFR]
  · iexact FcFR
  icases Hs with ⟨Hc, FcFR⟩
  ihave Hs := (Entails.of_eq (take_step (famAtFR (F := F) c) 19 (by decide))) $$ [FatFR]
  · iexact FatFR
  icases Hs with ⟨Hat, FatFR⟩
  ihave #HIw := (Prep.inv_fr m K c 19) $$ HI
  iapply (Rounds.wp_wait_rest_token 𝒱₀ ER (rd m) (c : Thread nD τ) none (κ := K (c, some (3, 19))) (sm := .dma (frS 19))
      (wpE_waitDma2_eq 𝒱₀ (c : Thread nD τ) none Set.univ (src := fSl c 19) (dst := fSl c 19)) (Set.mem_univ _) () (O := 0) (W := W154) (R := 0) (m := 0) (T := ∅)
      (by rw [Nat.zero_add]; exact (expect_fr m c 19).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 19)) $$ Hpay
  ihave AccF := (acc_step (famF m c) 19 (by decide)) $$ [AccF HFk]
  · isplitl [AccF]; · iexact AccF
    iexact HFk
  ihave #HIx := (Prep.inv_fr m K c 19) $$ HI
  imod (Rounds.cell_close ER (rd m) (Set.mem_univ (K (c, some (3, 19)))) (fun h => h) (R := 0 + 1) (duties_fr_later m c 19)) $$ [Hat] with Hz
  · isplitr; · iexact HIx
    iexact Hat
  iclear HIx
  ihave AccZfr := (acc_step (famZfr (F := F) c) 19 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W155, HO⟩
  -- step 317: wait arg2[20] (arg1[(k0_off1 d0 1280#32)], arg0[(k0_off2 d0 1280#32)])
  first | sl_exec | skip
  ihave Hs := (Entails.of_eq (take_step (famCYS (F := F) c) 20 (by decide))) $$ [FcYS]
  · iexact FcYS
  icases Hs with ⟨Hc, FcYS⟩
  ihave Hs := (Entails.of_eq (take_step (famAtYS (F := F) c) 20 (by decide))) $$ [FatYS]
  · iexact FatYS
  icases Hs with ⟨Hat, FatYS⟩
  ihave #HIw := (Prep.inv_ys m K c 20) $$ HI
  iapply (Rounds.wp_wait_rest_token 𝒱₀ ER (rd m) (c : Thread nD τ) none (κ := K (c, some (0, 20))) (sm := .dma (ysS 20))
      (wpE_waitDma2_eq 𝒱₀ (c : Thread nD τ) none Set.univ (src := yDst c 20) (dst := ySrc c 20)) (Set.mem_univ _) () (O := 0) (W := W155) (R := 0) (m := 0) (T := ∅)
      (by rw [Nat.zero_add]; exact (expect_ys m c 20).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 20)) $$ Hpay
  ihave AccXY := (acc_step (famXY m c) 20 (by decide)) $$ [AccXY Hxy]
  · isplitl [AccXY]; · iexact AccXY
    iexact Hxy
  ihave #HIx := (Prep.inv_ys m K c 20) $$ HI
  imod (Rounds.cell_close ER (rd m) (Set.mem_univ (K (c, some (0, 20)))) (fun h => h) (R := 0 + 1) (duties_ys_later m c 20)) $$ [Hat] with Hz
  · isplitr; · iexact HIx
    iexact Hat
  iclear HIx
  ihave AccZys := (acc_step (famZys (F := F) c) 20 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W156, HO⟩
  -- step 318: wait arg4[20] (arg1[(k0_off3 d0 1280#32)], arg1[(k0_off3 d0 1280#32)])
  first | sl_exec | skip
  ihave Hs := (Entails.of_eq (take_step (famCFS (F := F) c) 20 (by decide))) $$ [FcFS]
  · iexact FcFS
  icases Hs with ⟨Hc, FcFS⟩
  ihave Hs := (Entails.of_eq (take_step (famAtFS (F := F) c) 20 (by decide))) $$ [FatFS]
  · iexact FatFS
  icases Hs with ⟨Hat, FatFS⟩
  ihave #HIw := (Prep.inv_fs m K c 20) $$ HI
  iapply (Rounds.wp_wait_rest_token 𝒱₀ ER (rd m) (c : Thread nD τ) none (κ := K (c, some (2, 20))) (sm := .dma (fsS 20))
      (wpE_waitDma2_eq 𝒱₀ (c : Thread nD τ) none Set.univ (src := fSl c 20) (dst := fSl c 20)) (Set.mem_univ _) () (O := 0) (W := W156) (R := 0) (m := 0) (T := ∅)
      (by rw [Nat.zero_add]; exact (expect_fs m c 20).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 20)) $$ Hpay
  ihave AccY := (acc_step (famY m c) 20 (by decide)) $$ [AccY HYk]
  · isplitl [AccY]; · iexact AccY
    iexact HYk
  ihave #HIx := (Prep.inv_fs m K c 20) $$ HI
  imod (Rounds.cell_close ER (rd m) (Set.mem_univ (K (c, some (2, 20)))) (fun h => h) (R := 0 + 1) (duties_fs_later m c 20)) $$ [Hat] with Hz
  · isplitr; · iexact HIx
    iexact Hat
  iclear HIx
  ihave AccZfs := (acc_step (famZfs (F := F) c) 20 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W157, HO⟩
  -- step 319: wait arg5[20] (arg1[(k0_off3 d0 1280#32)], arg1[(k0_off3 d0 1280#32)])
  first | sl_exec | skip
  ihave Hs := (Entails.of_eq (take_step (famCFR (F := F) c) 20 (by decide))) $$ [FcFR]
  · iexact FcFR
  icases Hs with ⟨Hc, FcFR⟩
  ihave Hs := (Entails.of_eq (take_step (famAtFR (F := F) c) 20 (by decide))) $$ [FatFR]
  · iexact FatFR
  icases Hs with ⟨Hat, FatFR⟩
  ihave #HIw := (Prep.inv_fr m K c 20) $$ HI
  iapply (Rounds.wp_wait_rest_token 𝒱₀ ER (rd m) (c : Thread nD τ) none (κ := K (c, some (3, 20))) (sm := .dma (frS 20))
      (wpE_waitDma2_eq 𝒱₀ (c : Thread nD τ) none Set.univ (src := fSl c 20) (dst := fSl c 20)) (Set.mem_univ _) () (O := 0) (W := W157) (R := 0) (m := 0) (T := ∅)
      (by rw [Nat.zero_add]; exact (expect_fr m c 20).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 20)) $$ Hpay
  ihave AccF := (acc_step (famF m c) 20 (by decide)) $$ [AccF HFk]
  · isplitl [AccF]; · iexact AccF
    iexact HFk
  ihave #HIx := (Prep.inv_fr m K c 20) $$ HI
  imod (Rounds.cell_close ER (rd m) (Set.mem_univ (K (c, some (3, 20)))) (fun h => h) (R := 0 + 1) (duties_fr_later m c 20)) $$ [Hat] with Hz
  · isplitr; · iexact HIx
    iexact Hat
  iclear HIx
  ihave AccZfr := (acc_step (famZfr (F := F) c) 20 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W158, HO⟩
  -- step 320: wait arg2[21] (arg1[(k0_off1 d0 1344#32)], arg0[(k0_off2 d0 1344#32)])
  first | sl_exec | skip
  ihave Hs := (Entails.of_eq (take_step (famCYS (F := F) c) 21 (by decide))) $$ [FcYS]
  · iexact FcYS
  icases Hs with ⟨Hc, FcYS⟩
  ihave Hs := (Entails.of_eq (take_step (famAtYS (F := F) c) 21 (by decide))) $$ [FatYS]
  · iexact FatYS
  icases Hs with ⟨Hat, FatYS⟩
  ihave #HIw := (Prep.inv_ys m K c 21) $$ HI
  iapply (Rounds.wp_wait_rest_token 𝒱₀ ER (rd m) (c : Thread nD τ) none (κ := K (c, some (0, 21))) (sm := .dma (ysS 21))
      (wpE_waitDma2_eq 𝒱₀ (c : Thread nD τ) none Set.univ (src := yDst c 21) (dst := ySrc c 21)) (Set.mem_univ _) () (O := 0) (W := W158) (R := 0) (m := 0) (T := ∅)
      (by rw [Nat.zero_add]; exact (expect_ys m c 21).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 21)) $$ Hpay
  ihave AccXY := (acc_step (famXY m c) 21 (by decide)) $$ [AccXY Hxy]
  · isplitl [AccXY]; · iexact AccXY
    iexact Hxy
  ihave #HIx := (Prep.inv_ys m K c 21) $$ HI
  imod (Rounds.cell_close ER (rd m) (Set.mem_univ (K (c, some (0, 21)))) (fun h => h) (R := 0 + 1) (duties_ys_later m c 21)) $$ [Hat] with Hz
  · isplitr; · iexact HIx
    iexact Hat
  iclear HIx
  ihave AccZys := (acc_step (famZys (F := F) c) 21 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W159, HO⟩
  -- step 321: wait arg4[21] (arg1[(k0_off3 d0 1344#32)], arg1[(k0_off3 d0 1344#32)])
  first | sl_exec | skip
  ihave Hs := (Entails.of_eq (take_step (famCFS (F := F) c) 21 (by decide))) $$ [FcFS]
  · iexact FcFS
  icases Hs with ⟨Hc, FcFS⟩
  ihave Hs := (Entails.of_eq (take_step (famAtFS (F := F) c) 21 (by decide))) $$ [FatFS]
  · iexact FatFS
  icases Hs with ⟨Hat, FatFS⟩
  ihave #HIw := (Prep.inv_fs m K c 21) $$ HI
  iapply (Rounds.wp_wait_rest_token 𝒱₀ ER (rd m) (c : Thread nD τ) none (κ := K (c, some (2, 21))) (sm := .dma (fsS 21))
      (wpE_waitDma2_eq 𝒱₀ (c : Thread nD τ) none Set.univ (src := fSl c 21) (dst := fSl c 21)) (Set.mem_univ _) () (O := 0) (W := W159) (R := 0) (m := 0) (T := ∅)
      (by rw [Nat.zero_add]; exact (expect_fs m c 21).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 21)) $$ Hpay
  ihave AccY := (acc_step (famY m c) 21 (by decide)) $$ [AccY HYk]
  · isplitl [AccY]; · iexact AccY
    iexact HYk
  ihave #HIx := (Prep.inv_fs m K c 21) $$ HI
  imod (Rounds.cell_close ER (rd m) (Set.mem_univ (K (c, some (2, 21)))) (fun h => h) (R := 0 + 1) (duties_fs_later m c 21)) $$ [Hat] with Hz
  · isplitr; · iexact HIx
    iexact Hat
  iclear HIx
  ihave AccZfs := (acc_step (famZfs (F := F) c) 21 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W160, HO⟩
  -- step 322: wait arg5[21] (arg1[(k0_off3 d0 1344#32)], arg1[(k0_off3 d0 1344#32)])
  first | sl_exec | skip
  ihave Hs := (Entails.of_eq (take_step (famCFR (F := F) c) 21 (by decide))) $$ [FcFR]
  · iexact FcFR
  icases Hs with ⟨Hc, FcFR⟩
  ihave Hs := (Entails.of_eq (take_step (famAtFR (F := F) c) 21 (by decide))) $$ [FatFR]
  · iexact FatFR
  icases Hs with ⟨Hat, FatFR⟩
  ihave #HIw := (Prep.inv_fr m K c 21) $$ HI
  iapply (Rounds.wp_wait_rest_token 𝒱₀ ER (rd m) (c : Thread nD τ) none (κ := K (c, some (3, 21))) (sm := .dma (frS 21))
      (wpE_waitDma2_eq 𝒱₀ (c : Thread nD τ) none Set.univ (src := fSl c 21) (dst := fSl c 21)) (Set.mem_univ _) () (O := 0) (W := W160) (R := 0) (m := 0) (T := ∅)
      (by rw [Nat.zero_add]; exact (expect_fr m c 21).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 21)) $$ Hpay
  ihave AccF := (acc_step (famF m c) 21 (by decide)) $$ [AccF HFk]
  · isplitl [AccF]; · iexact AccF
    iexact HFk
  ihave #HIx := (Prep.inv_fr m K c 21) $$ HI
  imod (Rounds.cell_close ER (rd m) (Set.mem_univ (K (c, some (3, 21)))) (fun h => h) (R := 0 + 1) (duties_fr_later m c 21)) $$ [Hat] with Hz
  · isplitr; · iexact HIx
    iexact Hat
  iclear HIx
  ihave AccZfr := (acc_step (famZfr (F := F) c) 21 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W161, HO⟩
  -- step 323: wait arg2[22] (arg1[(k0_off1 d0 1408#32)], arg0[(k0_off2 d0 1408#32)])
  first | sl_exec | skip
  ihave Hs := (Entails.of_eq (take_step (famCYS (F := F) c) 22 (by decide))) $$ [FcYS]
  · iexact FcYS
  icases Hs with ⟨Hc, FcYS⟩
  ihave Hs := (Entails.of_eq (take_step (famAtYS (F := F) c) 22 (by decide))) $$ [FatYS]
  · iexact FatYS
  icases Hs with ⟨Hat, FatYS⟩
  ihave #HIw := (Prep.inv_ys m K c 22) $$ HI
  iapply (Rounds.wp_wait_rest_token 𝒱₀ ER (rd m) (c : Thread nD τ) none (κ := K (c, some (0, 22))) (sm := .dma (ysS 22))
      (wpE_waitDma2_eq 𝒱₀ (c : Thread nD τ) none Set.univ (src := yDst c 22) (dst := ySrc c 22)) (Set.mem_univ _) () (O := 0) (W := W161) (R := 0) (m := 0) (T := ∅)
      (by rw [Nat.zero_add]; exact (expect_ys m c 22).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 22)) $$ Hpay
  ihave AccXY := (acc_step (famXY m c) 22 (by decide)) $$ [AccXY Hxy]
  · isplitl [AccXY]; · iexact AccXY
    iexact Hxy
  ihave #HIx := (Prep.inv_ys m K c 22) $$ HI
  imod (Rounds.cell_close ER (rd m) (Set.mem_univ (K (c, some (0, 22)))) (fun h => h) (R := 0 + 1) (duties_ys_later m c 22)) $$ [Hat] with Hz
  · isplitr; · iexact HIx
    iexact Hat
  iclear HIx
  ihave AccZys := (acc_step (famZys (F := F) c) 22 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W162, HO⟩
  -- step 324: wait arg4[22] (arg1[(k0_off3 d0 1408#32)], arg1[(k0_off3 d0 1408#32)])
  first | sl_exec | skip
  ihave Hs := (Entails.of_eq (take_step (famCFS (F := F) c) 22 (by decide))) $$ [FcFS]
  · iexact FcFS
  icases Hs with ⟨Hc, FcFS⟩
  ihave Hs := (Entails.of_eq (take_step (famAtFS (F := F) c) 22 (by decide))) $$ [FatFS]
  · iexact FatFS
  icases Hs with ⟨Hat, FatFS⟩
  ihave #HIw := (Prep.inv_fs m K c 22) $$ HI
  iapply (Rounds.wp_wait_rest_token 𝒱₀ ER (rd m) (c : Thread nD τ) none (κ := K (c, some (2, 22))) (sm := .dma (fsS 22))
      (wpE_waitDma2_eq 𝒱₀ (c : Thread nD τ) none Set.univ (src := fSl c 22) (dst := fSl c 22)) (Set.mem_univ _) () (O := 0) (W := W162) (R := 0) (m := 0) (T := ∅)
      (by rw [Nat.zero_add]; exact (expect_fs m c 22).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 22)) $$ Hpay
  ihave AccY := (acc_step (famY m c) 22 (by decide)) $$ [AccY HYk]
  · isplitl [AccY]; · iexact AccY
    iexact HYk
  ihave #HIx := (Prep.inv_fs m K c 22) $$ HI
  imod (Rounds.cell_close ER (rd m) (Set.mem_univ (K (c, some (2, 22)))) (fun h => h) (R := 0 + 1) (duties_fs_later m c 22)) $$ [Hat] with Hz
  · isplitr; · iexact HIx
    iexact Hat
  iclear HIx
  ihave AccZfs := (acc_step (famZfs (F := F) c) 22 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W163, HO⟩
  -- step 325: wait arg5[22] (arg1[(k0_off3 d0 1408#32)], arg1[(k0_off3 d0 1408#32)])
  first | sl_exec | skip
  ihave Hs := (Entails.of_eq (take_step (famCFR (F := F) c) 22 (by decide))) $$ [FcFR]
  · iexact FcFR
  icases Hs with ⟨Hc, FcFR⟩
  ihave Hs := (Entails.of_eq (take_step (famAtFR (F := F) c) 22 (by decide))) $$ [FatFR]
  · iexact FatFR
  icases Hs with ⟨Hat, FatFR⟩
  ihave #HIw := (Prep.inv_fr m K c 22) $$ HI
  iapply (Rounds.wp_wait_rest_token 𝒱₀ ER (rd m) (c : Thread nD τ) none (κ := K (c, some (3, 22))) (sm := .dma (frS 22))
      (wpE_waitDma2_eq 𝒱₀ (c : Thread nD τ) none Set.univ (src := fSl c 22) (dst := fSl c 22)) (Set.mem_univ _) () (O := 0) (W := W163) (R := 0) (m := 0) (T := ∅)
      (by rw [Nat.zero_add]; exact (expect_fr m c 22).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 22)) $$ Hpay
  ihave AccF := (acc_step (famF m c) 22 (by decide)) $$ [AccF HFk]
  · isplitl [AccF]; · iexact AccF
    iexact HFk
  ihave #HIx := (Prep.inv_fr m K c 22) $$ HI
  imod (Rounds.cell_close ER (rd m) (Set.mem_univ (K (c, some (3, 22)))) (fun h => h) (R := 0 + 1) (duties_fr_later m c 22)) $$ [Hat] with Hz
  · isplitr; · iexact HIx
    iexact Hat
  iclear HIx
  ihave AccZfr := (acc_step (famZfr (F := F) c) 22 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W164, HO⟩
  -- step 326: wait arg2[23] (arg1[(k0_off1 d0 1472#32)], arg0[(k0_off2 d0 1472#32)])
  first | sl_exec | skip
  ihave Hs := (Entails.of_eq (take_step (famCYS (F := F) c) 23 (by decide))) $$ [FcYS]
  · iexact FcYS
  icases Hs with ⟨Hc, FcYS⟩
  ihave Hs := (Entails.of_eq (take_step (famAtYS (F := F) c) 23 (by decide))) $$ [FatYS]
  · iexact FatYS
  icases Hs with ⟨Hat, FatYS⟩
  ihave #HIw := (Prep.inv_ys m K c 23) $$ HI
  iapply (Rounds.wp_wait_rest_token 𝒱₀ ER (rd m) (c : Thread nD τ) none (κ := K (c, some (0, 23))) (sm := .dma (ysS 23))
      (wpE_waitDma2_eq 𝒱₀ (c : Thread nD τ) none Set.univ (src := yDst c 23) (dst := ySrc c 23)) (Set.mem_univ _) () (O := 0) (W := W164) (R := 0) (m := 0) (T := ∅)
      (by rw [Nat.zero_add]; exact (expect_ys m c 23).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 23)) $$ Hpay
  ihave AccXY := (acc_step (famXY m c) 23 (by decide)) $$ [AccXY Hxy]
  · isplitl [AccXY]; · iexact AccXY
    iexact Hxy
  ihave #HIx := (Prep.inv_ys m K c 23) $$ HI
  imod (Rounds.cell_close ER (rd m) (Set.mem_univ (K (c, some (0, 23)))) (fun h => h) (R := 0 + 1) (duties_ys_later m c 23)) $$ [Hat] with Hz
  · isplitr; · iexact HIx
    iexact Hat
  iclear HIx
  ihave AccZys := (acc_step (famZys (F := F) c) 23 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W165, HO⟩
  -- step 327: wait arg4[23] (arg1[(k0_off3 d0 1472#32)], arg1[(k0_off3 d0 1472#32)])
  first | sl_exec | skip
  ihave Hs := (Entails.of_eq (take_step (famCFS (F := F) c) 23 (by decide))) $$ [FcFS]
  · iexact FcFS
  icases Hs with ⟨Hc, FcFS⟩
  ihave Hs := (Entails.of_eq (take_step (famAtFS (F := F) c) 23 (by decide))) $$ [FatFS]
  · iexact FatFS
  icases Hs with ⟨Hat, FatFS⟩
  ihave #HIw := (Prep.inv_fs m K c 23) $$ HI
  iapply (Rounds.wp_wait_rest_token 𝒱₀ ER (rd m) (c : Thread nD τ) none (κ := K (c, some (2, 23))) (sm := .dma (fsS 23))
      (wpE_waitDma2_eq 𝒱₀ (c : Thread nD τ) none Set.univ (src := fSl c 23) (dst := fSl c 23)) (Set.mem_univ _) () (O := 0) (W := W165) (R := 0) (m := 0) (T := ∅)
      (by rw [Nat.zero_add]; exact (expect_fs m c 23).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 23)) $$ Hpay
  ihave AccY := (acc_step (famY m c) 23 (by decide)) $$ [AccY HYk]
  · isplitl [AccY]; · iexact AccY
    iexact HYk
  ihave #HIx := (Prep.inv_fs m K c 23) $$ HI
  imod (Rounds.cell_close ER (rd m) (Set.mem_univ (K (c, some (2, 23)))) (fun h => h) (R := 0 + 1) (duties_fs_later m c 23)) $$ [Hat] with Hz
  · isplitr; · iexact HIx
    iexact Hat
  iclear HIx
  ihave AccZfs := (acc_step (famZfs (F := F) c) 23 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W166, HO⟩
  -- step 328: wait arg5[23] (arg1[(k0_off3 d0 1472#32)], arg1[(k0_off3 d0 1472#32)])
  first | sl_exec | skip
  ihave Hs := (Entails.of_eq (take_step (famCFR (F := F) c) 23 (by decide))) $$ [FcFR]
  · iexact FcFR
  icases Hs with ⟨Hc, FcFR⟩
  ihave Hs := (Entails.of_eq (take_step (famAtFR (F := F) c) 23 (by decide))) $$ [FatFR]
  · iexact FatFR
  icases Hs with ⟨Hat, FatFR⟩
  ihave #HIw := (Prep.inv_fr m K c 23) $$ HI
  iapply (Rounds.wp_wait_rest_token 𝒱₀ ER (rd m) (c : Thread nD τ) none (κ := K (c, some (3, 23))) (sm := .dma (frS 23))
      (wpE_waitDma2_eq 𝒱₀ (c : Thread nD τ) none Set.univ (src := fSl c 23) (dst := fSl c 23)) (Set.mem_univ _) () (O := 0) (W := W166) (R := 0) (m := 0) (T := ∅)
      (by rw [Nat.zero_add]; exact (expect_fr m c 23).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 23)) $$ Hpay
  ihave AccF := (acc_step (famF m c) 23 (by decide)) $$ [AccF HFk]
  · isplitl [AccF]; · iexact AccF
    iexact HFk
  ihave #HIx := (Prep.inv_fr m K c 23) $$ HI
  imod (Rounds.cell_close ER (rd m) (Set.mem_univ (K (c, some (3, 23)))) (fun h => h) (R := 0 + 1) (duties_fr_later m c 23)) $$ [Hat] with Hz
  · isplitr; · iexact HIx
    iexact Hat
  iclear HIx
  ihave AccZfr := (acc_step (famZfr (F := F) c) 23 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W167, HO⟩
  -- step 329: wait arg2[24] (arg1[(k0_off1 d0 1536#32)], arg0[(k0_off2 d0 1536#32)])
  first | sl_exec | skip
  ihave Hs := (Entails.of_eq (take_step (famCYS (F := F) c) 24 (by decide))) $$ [FcYS]
  · iexact FcYS
  icases Hs with ⟨Hc, FcYS⟩
  ihave Hs := (Entails.of_eq (take_step (famAtYS (F := F) c) 24 (by decide))) $$ [FatYS]
  · iexact FatYS
  icases Hs with ⟨Hat, FatYS⟩
  ihave #HIw := (Prep.inv_ys m K c 24) $$ HI
  iapply (Rounds.wp_wait_rest_token 𝒱₀ ER (rd m) (c : Thread nD τ) none (κ := K (c, some (0, 24))) (sm := .dma (ysS 24))
      (wpE_waitDma2_eq 𝒱₀ (c : Thread nD τ) none Set.univ (src := yDst c 24) (dst := ySrc c 24)) (Set.mem_univ _) () (O := 0) (W := W167) (R := 0) (m := 0) (T := ∅)
      (by rw [Nat.zero_add]; exact (expect_ys m c 24).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 24)) $$ Hpay
  ihave AccXY := (acc_step (famXY m c) 24 (by decide)) $$ [AccXY Hxy]
  · isplitl [AccXY]; · iexact AccXY
    iexact Hxy
  ihave #HIx := (Prep.inv_ys m K c 24) $$ HI
  imod (Rounds.cell_close ER (rd m) (Set.mem_univ (K (c, some (0, 24)))) (fun h => h) (R := 0 + 1) (duties_ys_later m c 24)) $$ [Hat] with Hz
  · isplitr; · iexact HIx
    iexact Hat
  iclear HIx
  ihave AccZys := (acc_step (famZys (F := F) c) 24 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W168, HO⟩
  -- step 330: wait arg4[24] (arg1[(k0_off3 d0 1536#32)], arg1[(k0_off3 d0 1536#32)])
  first | sl_exec | skip
  ihave Hs := (Entails.of_eq (take_step (famCFS (F := F) c) 24 (by decide))) $$ [FcFS]
  · iexact FcFS
  icases Hs with ⟨Hc, FcFS⟩
  ihave Hs := (Entails.of_eq (take_step (famAtFS (F := F) c) 24 (by decide))) $$ [FatFS]
  · iexact FatFS
  icases Hs with ⟨Hat, FatFS⟩
  ihave #HIw := (Prep.inv_fs m K c 24) $$ HI
  iapply (Rounds.wp_wait_rest_token 𝒱₀ ER (rd m) (c : Thread nD τ) none (κ := K (c, some (2, 24))) (sm := .dma (fsS 24))
      (wpE_waitDma2_eq 𝒱₀ (c : Thread nD τ) none Set.univ (src := fSl c 24) (dst := fSl c 24)) (Set.mem_univ _) () (O := 0) (W := W168) (R := 0) (m := 0) (T := ∅)
      (by rw [Nat.zero_add]; exact (expect_fs m c 24).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 24)) $$ Hpay
  ihave AccY := (acc_step (famY m c) 24 (by decide)) $$ [AccY HYk]
  · isplitl [AccY]; · iexact AccY
    iexact HYk
  ihave #HIx := (Prep.inv_fs m K c 24) $$ HI
  imod (Rounds.cell_close ER (rd m) (Set.mem_univ (K (c, some (2, 24)))) (fun h => h) (R := 0 + 1) (duties_fs_later m c 24)) $$ [Hat] with Hz
  · isplitr; · iexact HIx
    iexact Hat
  iclear HIx
  ihave AccZfs := (acc_step (famZfs (F := F) c) 24 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W169, HO⟩
  -- step 331: wait arg5[24] (arg1[(k0_off3 d0 1536#32)], arg1[(k0_off3 d0 1536#32)])
  first | sl_exec | skip
  ihave Hs := (Entails.of_eq (take_step (famCFR (F := F) c) 24 (by decide))) $$ [FcFR]
  · iexact FcFR
  icases Hs with ⟨Hc, FcFR⟩
  ihave Hs := (Entails.of_eq (take_step (famAtFR (F := F) c) 24 (by decide))) $$ [FatFR]
  · iexact FatFR
  icases Hs with ⟨Hat, FatFR⟩
  ihave #HIw := (Prep.inv_fr m K c 24) $$ HI
  iapply (Rounds.wp_wait_rest_token 𝒱₀ ER (rd m) (c : Thread nD τ) none (κ := K (c, some (3, 24))) (sm := .dma (frS 24))
      (wpE_waitDma2_eq 𝒱₀ (c : Thread nD τ) none Set.univ (src := fSl c 24) (dst := fSl c 24)) (Set.mem_univ _) () (O := 0) (W := W169) (R := 0) (m := 0) (T := ∅)
      (by rw [Nat.zero_add]; exact (expect_fr m c 24).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 24)) $$ Hpay
  ihave AccF := (acc_step (famF m c) 24 (by decide)) $$ [AccF HFk]
  · isplitl [AccF]; · iexact AccF
    iexact HFk
  ihave #HIx := (Prep.inv_fr m K c 24) $$ HI
  imod (Rounds.cell_close ER (rd m) (Set.mem_univ (K (c, some (3, 24)))) (fun h => h) (R := 0 + 1) (duties_fr_later m c 24)) $$ [Hat] with Hz
  · isplitr; · iexact HIx
    iexact Hat
  iclear HIx
  ihave AccZfr := (acc_step (famZfr (F := F) c) 24 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W170, HO⟩
  -- step 332: wait arg2[25] (arg1[(k0_off1 d0 1600#32)], arg0[(k0_off2 d0 1600#32)])
  first | sl_exec | skip
  ihave Hs := (Entails.of_eq (take_step (famCYS (F := F) c) 25 (by decide))) $$ [FcYS]
  · iexact FcYS
  icases Hs with ⟨Hc, FcYS⟩
  ihave Hs := (Entails.of_eq (take_step (famAtYS (F := F) c) 25 (by decide))) $$ [FatYS]
  · iexact FatYS
  icases Hs with ⟨Hat, FatYS⟩
  ihave #HIw := (Prep.inv_ys m K c 25) $$ HI
  iapply (Rounds.wp_wait_rest_token 𝒱₀ ER (rd m) (c : Thread nD τ) none (κ := K (c, some (0, 25))) (sm := .dma (ysS 25))
      (wpE_waitDma2_eq 𝒱₀ (c : Thread nD τ) none Set.univ (src := yDst c 25) (dst := ySrc c 25)) (Set.mem_univ _) () (O := 0) (W := W170) (R := 0) (m := 0) (T := ∅)
      (by rw [Nat.zero_add]; exact (expect_ys m c 25).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 25)) $$ Hpay
  ihave AccXY := (acc_step (famXY m c) 25 (by decide)) $$ [AccXY Hxy]
  · isplitl [AccXY]; · iexact AccXY
    iexact Hxy
  ihave #HIx := (Prep.inv_ys m K c 25) $$ HI
  imod (Rounds.cell_close ER (rd m) (Set.mem_univ (K (c, some (0, 25)))) (fun h => h) (R := 0 + 1) (duties_ys_later m c 25)) $$ [Hat] with Hz
  · isplitr; · iexact HIx
    iexact Hat
  iclear HIx
  ihave AccZys := (acc_step (famZys (F := F) c) 25 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W171, HO⟩
  -- step 333: wait arg4[25] (arg1[(k0_off3 d0 1600#32)], arg1[(k0_off3 d0 1600#32)])
  first | sl_exec | skip
  ihave Hs := (Entails.of_eq (take_step (famCFS (F := F) c) 25 (by decide))) $$ [FcFS]
  · iexact FcFS
  icases Hs with ⟨Hc, FcFS⟩
  ihave Hs := (Entails.of_eq (take_step (famAtFS (F := F) c) 25 (by decide))) $$ [FatFS]
  · iexact FatFS
  icases Hs with ⟨Hat, FatFS⟩
  ihave #HIw := (Prep.inv_fs m K c 25) $$ HI
  iapply (Rounds.wp_wait_rest_token 𝒱₀ ER (rd m) (c : Thread nD τ) none (κ := K (c, some (2, 25))) (sm := .dma (fsS 25))
      (wpE_waitDma2_eq 𝒱₀ (c : Thread nD τ) none Set.univ (src := fSl c 25) (dst := fSl c 25)) (Set.mem_univ _) () (O := 0) (W := W171) (R := 0) (m := 0) (T := ∅)
      (by rw [Nat.zero_add]; exact (expect_fs m c 25).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 25)) $$ Hpay
  ihave AccY := (acc_step (famY m c) 25 (by decide)) $$ [AccY HYk]
  · isplitl [AccY]; · iexact AccY
    iexact HYk
  ihave #HIx := (Prep.inv_fs m K c 25) $$ HI
  imod (Rounds.cell_close ER (rd m) (Set.mem_univ (K (c, some (2, 25)))) (fun h => h) (R := 0 + 1) (duties_fs_later m c 25)) $$ [Hat] with Hz
  · isplitr; · iexact HIx
    iexact Hat
  iclear HIx
  ihave AccZfs := (acc_step (famZfs (F := F) c) 25 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W172, HO⟩
  -- step 334: wait arg5[25] (arg1[(k0_off3 d0 1600#32)], arg1[(k0_off3 d0 1600#32)])
  first | sl_exec | skip
  ihave Hs := (Entails.of_eq (take_step (famCFR (F := F) c) 25 (by decide))) $$ [FcFR]
  · iexact FcFR
  icases Hs with ⟨Hc, FcFR⟩
  ihave Hs := (Entails.of_eq (take_step (famAtFR (F := F) c) 25 (by decide))) $$ [FatFR]
  · iexact FatFR
  icases Hs with ⟨Hat, FatFR⟩
  ihave #HIw := (Prep.inv_fr m K c 25) $$ HI
  iapply (Rounds.wp_wait_rest_token 𝒱₀ ER (rd m) (c : Thread nD τ) none (κ := K (c, some (3, 25))) (sm := .dma (frS 25))
      (wpE_waitDma2_eq 𝒱₀ (c : Thread nD τ) none Set.univ (src := fSl c 25) (dst := fSl c 25)) (Set.mem_univ _) () (O := 0) (W := W172) (R := 0) (m := 0) (T := ∅)
      (by rw [Nat.zero_add]; exact (expect_fr m c 25).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 25)) $$ Hpay
  ihave AccF := (acc_step (famF m c) 25 (by decide)) $$ [AccF HFk]
  · isplitl [AccF]; · iexact AccF
    iexact HFk
  ihave #HIx := (Prep.inv_fr m K c 25) $$ HI
  imod (Rounds.cell_close ER (rd m) (Set.mem_univ (K (c, some (3, 25)))) (fun h => h) (R := 0 + 1) (duties_fr_later m c 25)) $$ [Hat] with Hz
  · isplitr; · iexact HIx
    iexact Hat
  iclear HIx
  ihave AccZfr := (acc_step (famZfr (F := F) c) 25 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W173, HO⟩
  -- step 335: wait arg2[26] (arg1[(k0_off1 d0 1664#32)], arg0[(k0_off2 d0 1664#32)])
  first | sl_exec | skip
  ihave Hs := (Entails.of_eq (take_step (famCYS (F := F) c) 26 (by decide))) $$ [FcYS]
  · iexact FcYS
  icases Hs with ⟨Hc, FcYS⟩
  ihave Hs := (Entails.of_eq (take_step (famAtYS (F := F) c) 26 (by decide))) $$ [FatYS]
  · iexact FatYS
  icases Hs with ⟨Hat, FatYS⟩
  ihave #HIw := (Prep.inv_ys m K c 26) $$ HI
  iapply (Rounds.wp_wait_rest_token 𝒱₀ ER (rd m) (c : Thread nD τ) none (κ := K (c, some (0, 26))) (sm := .dma (ysS 26))
      (wpE_waitDma2_eq 𝒱₀ (c : Thread nD τ) none Set.univ (src := yDst c 26) (dst := ySrc c 26)) (Set.mem_univ _) () (O := 0) (W := W173) (R := 0) (m := 0) (T := ∅)
      (by rw [Nat.zero_add]; exact (expect_ys m c 26).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 26)) $$ Hpay
  ihave AccXY := (acc_step (famXY m c) 26 (by decide)) $$ [AccXY Hxy]
  · isplitl [AccXY]; · iexact AccXY
    iexact Hxy
  ihave #HIx := (Prep.inv_ys m K c 26) $$ HI
  imod (Rounds.cell_close ER (rd m) (Set.mem_univ (K (c, some (0, 26)))) (fun h => h) (R := 0 + 1) (duties_ys_later m c 26)) $$ [Hat] with Hz
  · isplitr; · iexact HIx
    iexact Hat
  iclear HIx
  ihave AccZys := (acc_step (famZys (F := F) c) 26 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W174, HO⟩
  -- step 336: wait arg4[26] (arg1[(k0_off3 d0 1664#32)], arg1[(k0_off3 d0 1664#32)])
  first | sl_exec | skip
  ihave Hs := (Entails.of_eq (take_step (famCFS (F := F) c) 26 (by decide))) $$ [FcFS]
  · iexact FcFS
  icases Hs with ⟨Hc, FcFS⟩
  ihave Hs := (Entails.of_eq (take_step (famAtFS (F := F) c) 26 (by decide))) $$ [FatFS]
  · iexact FatFS
  icases Hs with ⟨Hat, FatFS⟩
  ihave #HIw := (Prep.inv_fs m K c 26) $$ HI
  iapply (Rounds.wp_wait_rest_token 𝒱₀ ER (rd m) (c : Thread nD τ) none (κ := K (c, some (2, 26))) (sm := .dma (fsS 26))
      (wpE_waitDma2_eq 𝒱₀ (c : Thread nD τ) none Set.univ (src := fSl c 26) (dst := fSl c 26)) (Set.mem_univ _) () (O := 0) (W := W174) (R := 0) (m := 0) (T := ∅)
      (by rw [Nat.zero_add]; exact (expect_fs m c 26).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 26)) $$ Hpay
  ihave AccY := (acc_step (famY m c) 26 (by decide)) $$ [AccY HYk]
  · isplitl [AccY]; · iexact AccY
    iexact HYk
  ihave #HIx := (Prep.inv_fs m K c 26) $$ HI
  imod (Rounds.cell_close ER (rd m) (Set.mem_univ (K (c, some (2, 26)))) (fun h => h) (R := 0 + 1) (duties_fs_later m c 26)) $$ [Hat] with Hz
  · isplitr; · iexact HIx
    iexact Hat
  iclear HIx
  ihave AccZfs := (acc_step (famZfs (F := F) c) 26 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W175, HO⟩
  -- step 337: wait arg5[26] (arg1[(k0_off3 d0 1664#32)], arg1[(k0_off3 d0 1664#32)])
  first | sl_exec | skip
  ihave Hs := (Entails.of_eq (take_step (famCFR (F := F) c) 26 (by decide))) $$ [FcFR]
  · iexact FcFR
  icases Hs with ⟨Hc, FcFR⟩
  ihave Hs := (Entails.of_eq (take_step (famAtFR (F := F) c) 26 (by decide))) $$ [FatFR]
  · iexact FatFR
  icases Hs with ⟨Hat, FatFR⟩
  ihave #HIw := (Prep.inv_fr m K c 26) $$ HI
  iapply (Rounds.wp_wait_rest_token 𝒱₀ ER (rd m) (c : Thread nD τ) none (κ := K (c, some (3, 26))) (sm := .dma (frS 26))
      (wpE_waitDma2_eq 𝒱₀ (c : Thread nD τ) none Set.univ (src := fSl c 26) (dst := fSl c 26)) (Set.mem_univ _) () (O := 0) (W := W175) (R := 0) (m := 0) (T := ∅)
      (by rw [Nat.zero_add]; exact (expect_fr m c 26).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 26)) $$ Hpay
  ihave AccF := (acc_step (famF m c) 26 (by decide)) $$ [AccF HFk]
  · isplitl [AccF]; · iexact AccF
    iexact HFk
  ihave #HIx := (Prep.inv_fr m K c 26) $$ HI
  imod (Rounds.cell_close ER (rd m) (Set.mem_univ (K (c, some (3, 26)))) (fun h => h) (R := 0 + 1) (duties_fr_later m c 26)) $$ [Hat] with Hz
  · isplitr; · iexact HIx
    iexact Hat
  iclear HIx
  ihave AccZfr := (acc_step (famZfr (F := F) c) 26 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W176, HO⟩
  -- step 338: wait arg2[27] (arg1[(k0_off1 d0 1728#32)], arg0[(k0_off2 d0 1728#32)])
  first | sl_exec | skip
  ihave Hs := (Entails.of_eq (take_step (famCYS (F := F) c) 27 (by decide))) $$ [FcYS]
  · iexact FcYS
  icases Hs with ⟨Hc, FcYS⟩
  ihave Hs := (Entails.of_eq (take_step (famAtYS (F := F) c) 27 (by decide))) $$ [FatYS]
  · iexact FatYS
  icases Hs with ⟨Hat, FatYS⟩
  ihave #HIw := (Prep.inv_ys m K c 27) $$ HI
  iapply (Rounds.wp_wait_rest_token 𝒱₀ ER (rd m) (c : Thread nD τ) none (κ := K (c, some (0, 27))) (sm := .dma (ysS 27))
      (wpE_waitDma2_eq 𝒱₀ (c : Thread nD τ) none Set.univ (src := yDst c 27) (dst := ySrc c 27)) (Set.mem_univ _) () (O := 0) (W := W176) (R := 0) (m := 0) (T := ∅)
      (by rw [Nat.zero_add]; exact (expect_ys m c 27).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 27)) $$ Hpay
  ihave AccXY := (acc_step (famXY m c) 27 (by decide)) $$ [AccXY Hxy]
  · isplitl [AccXY]; · iexact AccXY
    iexact Hxy
  ihave #HIx := (Prep.inv_ys m K c 27) $$ HI
  imod (Rounds.cell_close ER (rd m) (Set.mem_univ (K (c, some (0, 27)))) (fun h => h) (R := 0 + 1) (duties_ys_later m c 27)) $$ [Hat] with Hz
  · isplitr; · iexact HIx
    iexact Hat
  iclear HIx
  ihave AccZys := (acc_step (famZys (F := F) c) 27 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W177, HO⟩
  -- step 339: wait arg4[27] (arg1[(k0_off3 d0 1728#32)], arg1[(k0_off3 d0 1728#32)])
  first | sl_exec | skip
  ihave Hs := (Entails.of_eq (take_step (famCFS (F := F) c) 27 (by decide))) $$ [FcFS]
  · iexact FcFS
  icases Hs with ⟨Hc, FcFS⟩
  ihave Hs := (Entails.of_eq (take_step (famAtFS (F := F) c) 27 (by decide))) $$ [FatFS]
  · iexact FatFS
  icases Hs with ⟨Hat, FatFS⟩
  ihave #HIw := (Prep.inv_fs m K c 27) $$ HI
  iapply (Rounds.wp_wait_rest_token 𝒱₀ ER (rd m) (c : Thread nD τ) none (κ := K (c, some (2, 27))) (sm := .dma (fsS 27))
      (wpE_waitDma2_eq 𝒱₀ (c : Thread nD τ) none Set.univ (src := fSl c 27) (dst := fSl c 27)) (Set.mem_univ _) () (O := 0) (W := W177) (R := 0) (m := 0) (T := ∅)
      (by rw [Nat.zero_add]; exact (expect_fs m c 27).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 27)) $$ Hpay
  ihave AccY := (acc_step (famY m c) 27 (by decide)) $$ [AccY HYk]
  · isplitl [AccY]; · iexact AccY
    iexact HYk
  ihave #HIx := (Prep.inv_fs m K c 27) $$ HI
  imod (Rounds.cell_close ER (rd m) (Set.mem_univ (K (c, some (2, 27)))) (fun h => h) (R := 0 + 1) (duties_fs_later m c 27)) $$ [Hat] with Hz
  · isplitr; · iexact HIx
    iexact Hat
  iclear HIx
  ihave AccZfs := (acc_step (famZfs (F := F) c) 27 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W178, HO⟩
  -- step 340: wait arg5[27] (arg1[(k0_off3 d0 1728#32)], arg1[(k0_off3 d0 1728#32)])
  first | sl_exec | skip
  ihave Hs := (Entails.of_eq (take_step (famCFR (F := F) c) 27 (by decide))) $$ [FcFR]
  · iexact FcFR
  icases Hs with ⟨Hc, FcFR⟩
  ihave Hs := (Entails.of_eq (take_step (famAtFR (F := F) c) 27 (by decide))) $$ [FatFR]
  · iexact FatFR
  icases Hs with ⟨Hat, FatFR⟩
  ihave #HIw := (Prep.inv_fr m K c 27) $$ HI
  iapply (Rounds.wp_wait_rest_token 𝒱₀ ER (rd m) (c : Thread nD τ) none (κ := K (c, some (3, 27))) (sm := .dma (frS 27))
      (wpE_waitDma2_eq 𝒱₀ (c : Thread nD τ) none Set.univ (src := fSl c 27) (dst := fSl c 27)) (Set.mem_univ _) () (O := 0) (W := W178) (R := 0) (m := 0) (T := ∅)
      (by rw [Nat.zero_add]; exact (expect_fr m c 27).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 27)) $$ Hpay
  ihave AccF := (acc_step (famF m c) 27 (by decide)) $$ [AccF HFk]
  · isplitl [AccF]; · iexact AccF
    iexact HFk
  ihave #HIx := (Prep.inv_fr m K c 27) $$ HI
  imod (Rounds.cell_close ER (rd m) (Set.mem_univ (K (c, some (3, 27)))) (fun h => h) (R := 0 + 1) (duties_fr_later m c 27)) $$ [Hat] with Hz
  · isplitr; · iexact HIx
    iexact Hat
  iclear HIx
  ihave AccZfr := (acc_step (famZfr (F := F) c) 27 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W179, HO⟩
  -- step 341: wait arg2[28] (arg1[(k0_off1 d0 1792#32)], arg0[(k0_off2 d0 1792#32)])
  first | sl_exec | skip
  ihave Hs := (Entails.of_eq (take_step (famCYS (F := F) c) 28 (by decide))) $$ [FcYS]
  · iexact FcYS
  icases Hs with ⟨Hc, FcYS⟩
  ihave Hs := (Entails.of_eq (take_step (famAtYS (F := F) c) 28 (by decide))) $$ [FatYS]
  · iexact FatYS
  icases Hs with ⟨Hat, FatYS⟩
  ihave #HIw := (Prep.inv_ys m K c 28) $$ HI
  iapply (Rounds.wp_wait_rest_token 𝒱₀ ER (rd m) (c : Thread nD τ) none (κ := K (c, some (0, 28))) (sm := .dma (ysS 28))
      (wpE_waitDma2_eq 𝒱₀ (c : Thread nD τ) none Set.univ (src := yDst c 28) (dst := ySrc c 28)) (Set.mem_univ _) () (O := 0) (W := W179) (R := 0) (m := 0) (T := ∅)
      (by rw [Nat.zero_add]; exact (expect_ys m c 28).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 28)) $$ Hpay
  ihave AccXY := (acc_step (famXY m c) 28 (by decide)) $$ [AccXY Hxy]
  · isplitl [AccXY]; · iexact AccXY
    iexact Hxy
  ihave #HIx := (Prep.inv_ys m K c 28) $$ HI
  imod (Rounds.cell_close ER (rd m) (Set.mem_univ (K (c, some (0, 28)))) (fun h => h) (R := 0 + 1) (duties_ys_later m c 28)) $$ [Hat] with Hz
  · isplitr; · iexact HIx
    iexact Hat
  iclear HIx
  ihave AccZys := (acc_step (famZys (F := F) c) 28 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W180, HO⟩
  -- step 342: wait arg4[28] (arg1[(k0_off3 d0 1792#32)], arg1[(k0_off3 d0 1792#32)])
  first | sl_exec | skip
  ihave Hs := (Entails.of_eq (take_step (famCFS (F := F) c) 28 (by decide))) $$ [FcFS]
  · iexact FcFS
  icases Hs with ⟨Hc, FcFS⟩
  ihave Hs := (Entails.of_eq (take_step (famAtFS (F := F) c) 28 (by decide))) $$ [FatFS]
  · iexact FatFS
  icases Hs with ⟨Hat, FatFS⟩
  ihave #HIw := (Prep.inv_fs m K c 28) $$ HI
  iapply (Rounds.wp_wait_rest_token 𝒱₀ ER (rd m) (c : Thread nD τ) none (κ := K (c, some (2, 28))) (sm := .dma (fsS 28))
      (wpE_waitDma2_eq 𝒱₀ (c : Thread nD τ) none Set.univ (src := fSl c 28) (dst := fSl c 28)) (Set.mem_univ _) () (O := 0) (W := W180) (R := 0) (m := 0) (T := ∅)
      (by rw [Nat.zero_add]; exact (expect_fs m c 28).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 28)) $$ Hpay
  ihave AccY := (acc_step (famY m c) 28 (by decide)) $$ [AccY HYk]
  · isplitl [AccY]; · iexact AccY
    iexact HYk
  ihave #HIx := (Prep.inv_fs m K c 28) $$ HI
  imod (Rounds.cell_close ER (rd m) (Set.mem_univ (K (c, some (2, 28)))) (fun h => h) (R := 0 + 1) (duties_fs_later m c 28)) $$ [Hat] with Hz
  · isplitr; · iexact HIx
    iexact Hat
  iclear HIx
  ihave AccZfs := (acc_step (famZfs (F := F) c) 28 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W181, HO⟩
  -- step 343: wait arg5[28] (arg1[(k0_off3 d0 1792#32)], arg1[(k0_off3 d0 1792#32)])
  first | sl_exec | skip
  ihave Hs := (Entails.of_eq (take_step (famCFR (F := F) c) 28 (by decide))) $$ [FcFR]
  · iexact FcFR
  icases Hs with ⟨Hc, FcFR⟩
  ihave Hs := (Entails.of_eq (take_step (famAtFR (F := F) c) 28 (by decide))) $$ [FatFR]
  · iexact FatFR
  icases Hs with ⟨Hat, FatFR⟩
  ihave #HIw := (Prep.inv_fr m K c 28) $$ HI
  iapply (Rounds.wp_wait_rest_token 𝒱₀ ER (rd m) (c : Thread nD τ) none (κ := K (c, some (3, 28))) (sm := .dma (frS 28))
      (wpE_waitDma2_eq 𝒱₀ (c : Thread nD τ) none Set.univ (src := fSl c 28) (dst := fSl c 28)) (Set.mem_univ _) () (O := 0) (W := W181) (R := 0) (m := 0) (T := ∅)
      (by rw [Nat.zero_add]; exact (expect_fr m c 28).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 28)) $$ Hpay
  ihave AccF := (acc_step (famF m c) 28 (by decide)) $$ [AccF HFk]
  · isplitl [AccF]; · iexact AccF
    iexact HFk
  ihave #HIx := (Prep.inv_fr m K c 28) $$ HI
  imod (Rounds.cell_close ER (rd m) (Set.mem_univ (K (c, some (3, 28)))) (fun h => h) (R := 0 + 1) (duties_fr_later m c 28)) $$ [Hat] with Hz
  · isplitr; · iexact HIx
    iexact Hat
  iclear HIx
  ihave AccZfr := (acc_step (famZfr (F := F) c) 28 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W182, HO⟩
  -- step 344: wait arg2[29] (arg1[(k0_off1 d0 1856#32)], arg0[(k0_off2 d0 1856#32)])
  first | sl_exec | skip
  ihave Hs := (Entails.of_eq (take_step (famCYS (F := F) c) 29 (by decide))) $$ [FcYS]
  · iexact FcYS
  icases Hs with ⟨Hc, FcYS⟩
  ihave Hs := (Entails.of_eq (take_step (famAtYS (F := F) c) 29 (by decide))) $$ [FatYS]
  · iexact FatYS
  icases Hs with ⟨Hat, FatYS⟩
  ihave #HIw := (Prep.inv_ys m K c 29) $$ HI
  iapply (Rounds.wp_wait_rest_token 𝒱₀ ER (rd m) (c : Thread nD τ) none (κ := K (c, some (0, 29))) (sm := .dma (ysS 29))
      (wpE_waitDma2_eq 𝒱₀ (c : Thread nD τ) none Set.univ (src := yDst c 29) (dst := ySrc c 29)) (Set.mem_univ _) () (O := 0) (W := W182) (R := 0) (m := 0) (T := ∅)
      (by rw [Nat.zero_add]; exact (expect_ys m c 29).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 29)) $$ Hpay
  ihave AccXY := (acc_step (famXY m c) 29 (by decide)) $$ [AccXY Hxy]
  · isplitl [AccXY]; · iexact AccXY
    iexact Hxy
  ihave #HIx := (Prep.inv_ys m K c 29) $$ HI
  imod (Rounds.cell_close ER (rd m) (Set.mem_univ (K (c, some (0, 29)))) (fun h => h) (R := 0 + 1) (duties_ys_later m c 29)) $$ [Hat] with Hz
  · isplitr; · iexact HIx
    iexact Hat
  iclear HIx
  ihave AccZys := (acc_step (famZys (F := F) c) 29 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W183, HO⟩
  -- step 345: wait arg4[29] (arg1[(k0_off3 d0 1856#32)], arg1[(k0_off3 d0 1856#32)])
  first | sl_exec | skip
  ihave Hs := (Entails.of_eq (take_step (famCFS (F := F) c) 29 (by decide))) $$ [FcFS]
  · iexact FcFS
  icases Hs with ⟨Hc, FcFS⟩
  ihave Hs := (Entails.of_eq (take_step (famAtFS (F := F) c) 29 (by decide))) $$ [FatFS]
  · iexact FatFS
  icases Hs with ⟨Hat, FatFS⟩
  ihave #HIw := (Prep.inv_fs m K c 29) $$ HI
  iapply (Rounds.wp_wait_rest_token 𝒱₀ ER (rd m) (c : Thread nD τ) none (κ := K (c, some (2, 29))) (sm := .dma (fsS 29))
      (wpE_waitDma2_eq 𝒱₀ (c : Thread nD τ) none Set.univ (src := fSl c 29) (dst := fSl c 29)) (Set.mem_univ _) () (O := 0) (W := W183) (R := 0) (m := 0) (T := ∅)
      (by rw [Nat.zero_add]; exact (expect_fs m c 29).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 29)) $$ Hpay
  ihave AccY := (acc_step (famY m c) 29 (by decide)) $$ [AccY HYk]
  · isplitl [AccY]; · iexact AccY
    iexact HYk
  ihave #HIx := (Prep.inv_fs m K c 29) $$ HI
  imod (Rounds.cell_close ER (rd m) (Set.mem_univ (K (c, some (2, 29)))) (fun h => h) (R := 0 + 1) (duties_fs_later m c 29)) $$ [Hat] with Hz
  · isplitr; · iexact HIx
    iexact Hat
  iclear HIx
  ihave AccZfs := (acc_step (famZfs (F := F) c) 29 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W184, HO⟩
  -- step 346: wait arg5[29] (arg1[(k0_off3 d0 1856#32)], arg1[(k0_off3 d0 1856#32)])
  first | sl_exec | skip
  ihave Hs := (Entails.of_eq (take_step (famCFR (F := F) c) 29 (by decide))) $$ [FcFR]
  · iexact FcFR
  icases Hs with ⟨Hc, FcFR⟩
  ihave Hs := (Entails.of_eq (take_step (famAtFR (F := F) c) 29 (by decide))) $$ [FatFR]
  · iexact FatFR
  icases Hs with ⟨Hat, FatFR⟩
  ihave #HIw := (Prep.inv_fr m K c 29) $$ HI
  iapply (Rounds.wp_wait_rest_token 𝒱₀ ER (rd m) (c : Thread nD τ) none (κ := K (c, some (3, 29))) (sm := .dma (frS 29))
      (wpE_waitDma2_eq 𝒱₀ (c : Thread nD τ) none Set.univ (src := fSl c 29) (dst := fSl c 29)) (Set.mem_univ _) () (O := 0) (W := W184) (R := 0) (m := 0) (T := ∅)
      (by rw [Nat.zero_add]; exact (expect_fr m c 29).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 29)) $$ Hpay
  ihave AccF := (acc_step (famF m c) 29 (by decide)) $$ [AccF HFk]
  · isplitl [AccF]; · iexact AccF
    iexact HFk
  ihave #HIx := (Prep.inv_fr m K c 29) $$ HI
  imod (Rounds.cell_close ER (rd m) (Set.mem_univ (K (c, some (3, 29)))) (fun h => h) (R := 0 + 1) (duties_fr_later m c 29)) $$ [Hat] with Hz
  · isplitr; · iexact HIx
    iexact Hat
  iclear HIx
  ihave AccZfr := (acc_step (famZfr (F := F) c) 29 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W185, HO⟩
  -- step 347: wait arg2[30] (arg1[(k0_off1 d0 1920#32)], arg0[(k0_off2 d0 1920#32)])
  first | sl_exec | skip
  ihave Hs := (Entails.of_eq (take_step (famCYS (F := F) c) 30 (by decide))) $$ [FcYS]
  · iexact FcYS
  icases Hs with ⟨Hc, FcYS⟩
  ihave Hs := (Entails.of_eq (take_step (famAtYS (F := F) c) 30 (by decide))) $$ [FatYS]
  · iexact FatYS
  icases Hs with ⟨Hat, FatYS⟩
  ihave #HIw := (Prep.inv_ys m K c 30) $$ HI
  iapply (Rounds.wp_wait_rest_token 𝒱₀ ER (rd m) (c : Thread nD τ) none (κ := K (c, some (0, 30))) (sm := .dma (ysS 30))
      (wpE_waitDma2_eq 𝒱₀ (c : Thread nD τ) none Set.univ (src := yDst c 30) (dst := ySrc c 30)) (Set.mem_univ _) () (O := 0) (W := W185) (R := 0) (m := 0) (T := ∅)
      (by rw [Nat.zero_add]; exact (expect_ys m c 30).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 30)) $$ Hpay
  ihave AccXY := (acc_step (famXY m c) 30 (by decide)) $$ [AccXY Hxy]
  · isplitl [AccXY]; · iexact AccXY
    iexact Hxy
  ihave #HIx := (Prep.inv_ys m K c 30) $$ HI
  imod (Rounds.cell_close ER (rd m) (Set.mem_univ (K (c, some (0, 30)))) (fun h => h) (R := 0 + 1) (duties_ys_later m c 30)) $$ [Hat] with Hz
  · isplitr; · iexact HIx
    iexact Hat
  iclear HIx
  ihave AccZys := (acc_step (famZys (F := F) c) 30 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W186, HO⟩
  -- step 348: wait arg4[30] (arg1[(k0_off3 d0 1920#32)], arg1[(k0_off3 d0 1920#32)])
  first | sl_exec | skip
  ihave Hs := (Entails.of_eq (take_step (famCFS (F := F) c) 30 (by decide))) $$ [FcFS]
  · iexact FcFS
  icases Hs with ⟨Hc, FcFS⟩
  ihave Hs := (Entails.of_eq (take_step (famAtFS (F := F) c) 30 (by decide))) $$ [FatFS]
  · iexact FatFS
  icases Hs with ⟨Hat, FatFS⟩
  ihave #HIw := (Prep.inv_fs m K c 30) $$ HI
  iapply (Rounds.wp_wait_rest_token 𝒱₀ ER (rd m) (c : Thread nD τ) none (κ := K (c, some (2, 30))) (sm := .dma (fsS 30))
      (wpE_waitDma2_eq 𝒱₀ (c : Thread nD τ) none Set.univ (src := fSl c 30) (dst := fSl c 30)) (Set.mem_univ _) () (O := 0) (W := W186) (R := 0) (m := 0) (T := ∅)
      (by rw [Nat.zero_add]; exact (expect_fs m c 30).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 30)) $$ Hpay
  ihave AccY := (acc_step (famY m c) 30 (by decide)) $$ [AccY HYk]
  · isplitl [AccY]; · iexact AccY
    iexact HYk
  ihave #HIx := (Prep.inv_fs m K c 30) $$ HI
  imod (Rounds.cell_close ER (rd m) (Set.mem_univ (K (c, some (2, 30)))) (fun h => h) (R := 0 + 1) (duties_fs_later m c 30)) $$ [Hat] with Hz
  · isplitr; · iexact HIx
    iexact Hat
  iclear HIx
  ihave AccZfs := (acc_step (famZfs (F := F) c) 30 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W187, HO⟩
  -- step 349: wait arg5[30] (arg1[(k0_off3 d0 1920#32)], arg1[(k0_off3 d0 1920#32)])
  first | sl_exec | skip
  ihave Hs := (Entails.of_eq (take_step (famCFR (F := F) c) 30 (by decide))) $$ [FcFR]
  · iexact FcFR
  icases Hs with ⟨Hc, FcFR⟩
  ihave Hs := (Entails.of_eq (take_step (famAtFR (F := F) c) 30 (by decide))) $$ [FatFR]
  · iexact FatFR
  icases Hs with ⟨Hat, FatFR⟩
  ihave #HIw := (Prep.inv_fr m K c 30) $$ HI
  iapply (Rounds.wp_wait_rest_token 𝒱₀ ER (rd m) (c : Thread nD τ) none (κ := K (c, some (3, 30))) (sm := .dma (frS 30))
      (wpE_waitDma2_eq 𝒱₀ (c : Thread nD τ) none Set.univ (src := fSl c 30) (dst := fSl c 30)) (Set.mem_univ _) () (O := 0) (W := W187) (R := 0) (m := 0) (T := ∅)
      (by rw [Nat.zero_add]; exact (expect_fr m c 30).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 30)) $$ Hpay
  ihave AccF := (acc_step (famF m c) 30 (by decide)) $$ [AccF HFk]
  · isplitl [AccF]; · iexact AccF
    iexact HFk
  ihave #HIx := (Prep.inv_fr m K c 30) $$ HI
  imod (Rounds.cell_close ER (rd m) (Set.mem_univ (K (c, some (3, 30)))) (fun h => h) (R := 0 + 1) (duties_fr_later m c 30)) $$ [Hat] with Hz
  · isplitr; · iexact HIx
    iexact Hat
  iclear HIx
  ihave AccZfr := (acc_step (famZfr (F := F) c) 30 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W188, HO⟩
  -- step 350: wait arg2[31] (arg1[(k0_off1 d0 1984#32)], arg0[(k0_off2 d0 1984#32)])
  first | sl_exec | skip
  ihave Hs := (Entails.of_eq (take_step (famCYS (F := F) c) 31 (by decide))) $$ [FcYS]
  · iexact FcYS
  icases Hs with ⟨Hc, FcYS⟩
  ihave Hs := (Entails.of_eq (take_step (famAtYS (F := F) c) 31 (by decide))) $$ [FatYS]
  · iexact FatYS
  icases Hs with ⟨Hat, FatYS⟩
  ihave #HIw := (Prep.inv_ys m K c 31) $$ HI
  iapply (Rounds.wp_wait_rest_token 𝒱₀ ER (rd m) (c : Thread nD τ) none (κ := K (c, some (0, 31))) (sm := .dma (ysS 31))
      (wpE_waitDma2_eq 𝒱₀ (c : Thread nD τ) none Set.univ (src := yDst c 31) (dst := ySrc c 31)) (Set.mem_univ _) () (O := 0) (W := W188) (R := 0) (m := 0) (T := ∅)
      (by rw [Nat.zero_add]; exact (expect_ys m c 31).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 31)) $$ Hpay
  ihave AccXY := (acc_step (famXY m c) 31 (by decide)) $$ [AccXY Hxy]
  · isplitl [AccXY]; · iexact AccXY
    iexact Hxy
  ihave #HIx := (Prep.inv_ys m K c 31) $$ HI
  imod (Rounds.cell_close ER (rd m) (Set.mem_univ (K (c, some (0, 31)))) (fun h => h) (R := 0 + 1) (duties_ys_later m c 31)) $$ [Hat] with Hz
  · isplitr; · iexact HIx
    iexact Hat
  iclear HIx
  ihave AccZys := (acc_step (famZys (F := F) c) 31 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W189, HO⟩
  -- step 351: wait arg4[31] (arg1[(k0_off3 d0 1984#32)], arg1[(k0_off3 d0 1984#32)])
  first | sl_exec | skip
  ihave Hs := (Entails.of_eq (take_step (famCFS (F := F) c) 31 (by decide))) $$ [FcFS]
  · iexact FcFS
  icases Hs with ⟨Hc, FcFS⟩
  ihave Hs := (Entails.of_eq (take_step (famAtFS (F := F) c) 31 (by decide))) $$ [FatFS]
  · iexact FatFS
  icases Hs with ⟨Hat, FatFS⟩
  ihave #HIw := (Prep.inv_fs m K c 31) $$ HI
  iapply (Rounds.wp_wait_rest_token 𝒱₀ ER (rd m) (c : Thread nD τ) none (κ := K (c, some (2, 31))) (sm := .dma (fsS 31))
      (wpE_waitDma2_eq 𝒱₀ (c : Thread nD τ) none Set.univ (src := fSl c 31) (dst := fSl c 31)) (Set.mem_univ _) () (O := 0) (W := W189) (R := 0) (m := 0) (T := ∅)
      (by rw [Nat.zero_add]; exact (expect_fs m c 31).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 31)) $$ Hpay
  ihave AccY := (acc_step (famY m c) 31 (by decide)) $$ [AccY HYk]
  · isplitl [AccY]; · iexact AccY
    iexact HYk
  ihave #HIx := (Prep.inv_fs m K c 31) $$ HI
  imod (Rounds.cell_close ER (rd m) (Set.mem_univ (K (c, some (2, 31)))) (fun h => h) (R := 0 + 1) (duties_fs_later m c 31)) $$ [Hat] with Hz
  · isplitr; · iexact HIx
    iexact Hat
  iclear HIx
  ihave AccZfs := (acc_step (famZfs (F := F) c) 31 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W190, HO⟩
  -- step 352: wait arg5[31] (arg1[(k0_off3 d0 1984#32)], arg1[(k0_off3 d0 1984#32)])
  first | sl_exec | skip
  ihave Hs := (Entails.of_eq (take_step (famCFR (F := F) c) 31 (by decide))) $$ [FcFR]
  · iexact FcFR
  icases Hs with ⟨Hc, FcFR⟩
  ihave Hs := (Entails.of_eq (take_step (famAtFR (F := F) c) 31 (by decide))) $$ [FatFR]
  · iexact FatFR
  icases Hs with ⟨Hat, FatFR⟩
  ihave #HIw := (Prep.inv_fr m K c 31) $$ HI
  iapply (Rounds.wp_wait_rest_token 𝒱₀ ER (rd m) (c : Thread nD τ) none (κ := K (c, some (3, 31))) (sm := .dma (frS 31))
      (wpE_waitDma2_eq 𝒱₀ (c : Thread nD τ) none Set.univ (src := fSl c 31) (dst := fSl c 31)) (Set.mem_univ _) () (O := 0) (W := W190) (R := 0) (m := 0) (T := ∅)
      (by rw [Nat.zero_add]; exact (expect_fr m c 31).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 31)) $$ Hpay
  ihave AccF := (acc_step (famF m c) 31 (by decide)) $$ [AccF HFk]
  · isplitl [AccF]; · iexact AccF
    iexact HFk
  ihave #HIx := (Prep.inv_fr m K c 31) $$ HI
  imod (Rounds.cell_close ER (rd m) (Set.mem_univ (K (c, some (3, 31)))) (fun h => h) (R := 0 + 1) (duties_fr_later m c 31)) $$ [Hat] with Hz
  · isplitr; · iexact HIx
    iexact Hat
  iclear HIx
  ihave AccZfr := (acc_step (famZfr (F := F) c) 31 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W191, HO⟩
  -- step 353: wait arg2[32] (arg1[(k0_off1 d0 2048#32)], arg0[(k0_off2 d0 2048#32)])
  first | sl_exec | skip
  ihave Hs := (Entails.of_eq (take_step (famCYS (F := F) c) 32 (by decide))) $$ [FcYS]
  · iexact FcYS
  icases Hs with ⟨Hc, FcYS⟩
  ihave Hs := (Entails.of_eq (take_step (famAtYS (F := F) c) 32 (by decide))) $$ [FatYS]
  · iexact FatYS
  icases Hs with ⟨Hat, FatYS⟩
  ihave #HIw := (Prep.inv_ys m K c 32) $$ HI
  iapply (Rounds.wp_wait_rest_token 𝒱₀ ER (rd m) (c : Thread nD τ) none (κ := K (c, some (0, 32))) (sm := .dma (ysS 32))
      (wpE_waitDma2_eq 𝒱₀ (c : Thread nD τ) none Set.univ (src := yDst c 32) (dst := ySrc c 32)) (Set.mem_univ _) () (O := 0) (W := W191) (R := 0) (m := 0) (T := ∅)
      (by rw [Nat.zero_add]; exact (expect_ys m c 32).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 32)) $$ Hpay
  ihave AccXY := (acc_step (famXY m c) 32 (by decide)) $$ [AccXY Hxy]
  · isplitl [AccXY]; · iexact AccXY
    iexact Hxy
  ihave #HIx := (Prep.inv_ys m K c 32) $$ HI
  imod (Rounds.cell_close ER (rd m) (Set.mem_univ (K (c, some (0, 32)))) (fun h => h) (R := 0 + 1) (duties_ys_later m c 32)) $$ [Hat] with Hz
  · isplitr; · iexact HIx
    iexact Hat
  iclear HIx
  ihave AccZys := (acc_step (famZys (F := F) c) 32 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W192, HO⟩
  -- step 354: wait arg4[32] (arg1[(k0_off3 d0 2048#32)], arg1[(k0_off3 d0 2048#32)])
  first | sl_exec | skip
  ihave Hs := (Entails.of_eq (take_step (famCFS (F := F) c) 32 (by decide))) $$ [FcFS]
  · iexact FcFS
  icases Hs with ⟨Hc, FcFS⟩
  ihave Hs := (Entails.of_eq (take_step (famAtFS (F := F) c) 32 (by decide))) $$ [FatFS]
  · iexact FatFS
  icases Hs with ⟨Hat, FatFS⟩
  ihave #HIw := (Prep.inv_fs m K c 32) $$ HI
  iapply (Rounds.wp_wait_rest_token 𝒱₀ ER (rd m) (c : Thread nD τ) none (κ := K (c, some (2, 32))) (sm := .dma (fsS 32))
      (wpE_waitDma2_eq 𝒱₀ (c : Thread nD τ) none Set.univ (src := fSl c 32) (dst := fSl c 32)) (Set.mem_univ _) () (O := 0) (W := W192) (R := 0) (m := 0) (T := ∅)
      (by rw [Nat.zero_add]; exact (expect_fs m c 32).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 32)) $$ Hpay
  ihave AccY := (acc_step (famY m c) 32 (by decide)) $$ [AccY HYk]
  · isplitl [AccY]; · iexact AccY
    iexact HYk
  ihave #HIx := (Prep.inv_fs m K c 32) $$ HI
  imod (Rounds.cell_close ER (rd m) (Set.mem_univ (K (c, some (2, 32)))) (fun h => h) (R := 0 + 1) (duties_fs_later m c 32)) $$ [Hat] with Hz
  · isplitr; · iexact HIx
    iexact Hat
  iclear HIx
  ihave AccZfs := (acc_step (famZfs (F := F) c) 32 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W193, HO⟩
  -- step 355: wait arg5[32] (arg1[(k0_off3 d0 2048#32)], arg1[(k0_off3 d0 2048#32)])
  first | sl_exec | skip
  ihave Hs := (Entails.of_eq (take_step (famCFR (F := F) c) 32 (by decide))) $$ [FcFR]
  · iexact FcFR
  icases Hs with ⟨Hc, FcFR⟩
  ihave Hs := (Entails.of_eq (take_step (famAtFR (F := F) c) 32 (by decide))) $$ [FatFR]
  · iexact FatFR
  icases Hs with ⟨Hat, FatFR⟩
  ihave #HIw := (Prep.inv_fr m K c 32) $$ HI
  iapply (Rounds.wp_wait_rest_token 𝒱₀ ER (rd m) (c : Thread nD τ) none (κ := K (c, some (3, 32))) (sm := .dma (frS 32))
      (wpE_waitDma2_eq 𝒱₀ (c : Thread nD τ) none Set.univ (src := fSl c 32) (dst := fSl c 32)) (Set.mem_univ _) () (O := 0) (W := W193) (R := 0) (m := 0) (T := ∅)
      (by rw [Nat.zero_add]; exact (expect_fr m c 32).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 32)) $$ Hpay
  ihave AccF := (acc_step (famF m c) 32 (by decide)) $$ [AccF HFk]
  · isplitl [AccF]; · iexact AccF
    iexact HFk
  ihave #HIx := (Prep.inv_fr m K c 32) $$ HI
  imod (Rounds.cell_close ER (rd m) (Set.mem_univ (K (c, some (3, 32)))) (fun h => h) (R := 0 + 1) (duties_fr_later m c 32)) $$ [Hat] with Hz
  · isplitr; · iexact HIx
    iexact Hat
  iclear HIx
  ihave AccZfr := (acc_step (famZfr (F := F) c) 32 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W194, HO⟩
  -- step 356: wait arg2[33] (arg1[(k0_off1 d0 2112#32)], arg0[(k0_off2 d0 2112#32)])
  first | sl_exec | skip
  ihave Hs := (Entails.of_eq (take_step (famCYS (F := F) c) 33 (by decide))) $$ [FcYS]
  · iexact FcYS
  icases Hs with ⟨Hc, FcYS⟩
  ihave Hs := (Entails.of_eq (take_step (famAtYS (F := F) c) 33 (by decide))) $$ [FatYS]
  · iexact FatYS
  icases Hs with ⟨Hat, FatYS⟩
  ihave #HIw := (Prep.inv_ys m K c 33) $$ HI
  iapply (Rounds.wp_wait_rest_token 𝒱₀ ER (rd m) (c : Thread nD τ) none (κ := K (c, some (0, 33))) (sm := .dma (ysS 33))
      (wpE_waitDma2_eq 𝒱₀ (c : Thread nD τ) none Set.univ (src := yDst c 33) (dst := ySrc c 33)) (Set.mem_univ _) () (O := 0) (W := W194) (R := 0) (m := 0) (T := ∅)
      (by rw [Nat.zero_add]; exact (expect_ys m c 33).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 33)) $$ Hpay
  ihave AccXY := (acc_step (famXY m c) 33 (by decide)) $$ [AccXY Hxy]
  · isplitl [AccXY]; · iexact AccXY
    iexact Hxy
  ihave #HIx := (Prep.inv_ys m K c 33) $$ HI
  imod (Rounds.cell_close ER (rd m) (Set.mem_univ (K (c, some (0, 33)))) (fun h => h) (R := 0 + 1) (duties_ys_later m c 33)) $$ [Hat] with Hz
  · isplitr; · iexact HIx
    iexact Hat
  iclear HIx
  ihave AccZys := (acc_step (famZys (F := F) c) 33 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W195, HO⟩
  -- step 357: wait arg4[33] (arg1[(k0_off3 d0 2112#32)], arg1[(k0_off3 d0 2112#32)])
  first | sl_exec | skip
  ihave Hs := (Entails.of_eq (take_step (famCFS (F := F) c) 33 (by decide))) $$ [FcFS]
  · iexact FcFS
  icases Hs with ⟨Hc, FcFS⟩
  ihave Hs := (Entails.of_eq (take_step (famAtFS (F := F) c) 33 (by decide))) $$ [FatFS]
  · iexact FatFS
  icases Hs with ⟨Hat, FatFS⟩
  ihave #HIw := (Prep.inv_fs m K c 33) $$ HI
  iapply (Rounds.wp_wait_rest_token 𝒱₀ ER (rd m) (c : Thread nD τ) none (κ := K (c, some (2, 33))) (sm := .dma (fsS 33))
      (wpE_waitDma2_eq 𝒱₀ (c : Thread nD τ) none Set.univ (src := fSl c 33) (dst := fSl c 33)) (Set.mem_univ _) () (O := 0) (W := W195) (R := 0) (m := 0) (T := ∅)
      (by rw [Nat.zero_add]; exact (expect_fs m c 33).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 33)) $$ Hpay
  ihave AccY := (acc_step (famY m c) 33 (by decide)) $$ [AccY HYk]
  · isplitl [AccY]; · iexact AccY
    iexact HYk
  ihave #HIx := (Prep.inv_fs m K c 33) $$ HI
  imod (Rounds.cell_close ER (rd m) (Set.mem_univ (K (c, some (2, 33)))) (fun h => h) (R := 0 + 1) (duties_fs_later m c 33)) $$ [Hat] with Hz
  · isplitr; · iexact HIx
    iexact Hat
  iclear HIx
  ihave AccZfs := (acc_step (famZfs (F := F) c) 33 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W196, HO⟩
  -- step 358: wait arg5[33] (arg1[(k0_off3 d0 2112#32)], arg1[(k0_off3 d0 2112#32)])
  first | sl_exec | skip
  ihave Hs := (Entails.of_eq (take_step (famCFR (F := F) c) 33 (by decide))) $$ [FcFR]
  · iexact FcFR
  icases Hs with ⟨Hc, FcFR⟩
  ihave Hs := (Entails.of_eq (take_step (famAtFR (F := F) c) 33 (by decide))) $$ [FatFR]
  · iexact FatFR
  icases Hs with ⟨Hat, FatFR⟩
  ihave #HIw := (Prep.inv_fr m K c 33) $$ HI
  iapply (Rounds.wp_wait_rest_token 𝒱₀ ER (rd m) (c : Thread nD τ) none (κ := K (c, some (3, 33))) (sm := .dma (frS 33))
      (wpE_waitDma2_eq 𝒱₀ (c : Thread nD τ) none Set.univ (src := fSl c 33) (dst := fSl c 33)) (Set.mem_univ _) () (O := 0) (W := W196) (R := 0) (m := 0) (T := ∅)
      (by rw [Nat.zero_add]; exact (expect_fr m c 33).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 33)) $$ Hpay
  ihave AccF := (acc_step (famF m c) 33 (by decide)) $$ [AccF HFk]
  · isplitl [AccF]; · iexact AccF
    iexact HFk
  ihave #HIx := (Prep.inv_fr m K c 33) $$ HI
  imod (Rounds.cell_close ER (rd m) (Set.mem_univ (K (c, some (3, 33)))) (fun h => h) (R := 0 + 1) (duties_fr_later m c 33)) $$ [Hat] with Hz
  · isplitr; · iexact HIx
    iexact Hat
  iclear HIx
  ihave AccZfr := (acc_step (famZfr (F := F) c) 33 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W197, HO⟩
  -- step 359: wait arg2[34] (arg1[(k0_off1 d0 2176#32)], arg0[(k0_off2 d0 2176#32)])
  first | sl_exec | skip
  ihave Hs := (Entails.of_eq (take_step (famCYS (F := F) c) 34 (by decide))) $$ [FcYS]
  · iexact FcYS
  icases Hs with ⟨Hc, FcYS⟩
  ihave Hs := (Entails.of_eq (take_step (famAtYS (F := F) c) 34 (by decide))) $$ [FatYS]
  · iexact FatYS
  icases Hs with ⟨Hat, FatYS⟩
  ihave #HIw := (Prep.inv_ys m K c 34) $$ HI
  iapply (Rounds.wp_wait_rest_token 𝒱₀ ER (rd m) (c : Thread nD τ) none (κ := K (c, some (0, 34))) (sm := .dma (ysS 34))
      (wpE_waitDma2_eq 𝒱₀ (c : Thread nD τ) none Set.univ (src := yDst c 34) (dst := ySrc c 34)) (Set.mem_univ _) () (O := 0) (W := W197) (R := 0) (m := 0) (T := ∅)
      (by rw [Nat.zero_add]; exact (expect_ys m c 34).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 34)) $$ Hpay
  ihave AccXY := (acc_step (famXY m c) 34 (by decide)) $$ [AccXY Hxy]
  · isplitl [AccXY]; · iexact AccXY
    iexact Hxy
  ihave #HIx := (Prep.inv_ys m K c 34) $$ HI
  imod (Rounds.cell_close ER (rd m) (Set.mem_univ (K (c, some (0, 34)))) (fun h => h) (R := 0 + 1) (duties_ys_later m c 34)) $$ [Hat] with Hz
  · isplitr; · iexact HIx
    iexact Hat
  iclear HIx
  ihave AccZys := (acc_step (famZys (F := F) c) 34 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W198, HO⟩
  -- step 360: wait arg4[34] (arg1[(k0_off3 d0 2176#32)], arg1[(k0_off3 d0 2176#32)])
  first | sl_exec | skip
  ihave Hs := (Entails.of_eq (take_step (famCFS (F := F) c) 34 (by decide))) $$ [FcFS]
  · iexact FcFS
  icases Hs with ⟨Hc, FcFS⟩
  ihave Hs := (Entails.of_eq (take_step (famAtFS (F := F) c) 34 (by decide))) $$ [FatFS]
  · iexact FatFS
  icases Hs with ⟨Hat, FatFS⟩
  ihave #HIw := (Prep.inv_fs m K c 34) $$ HI
  iapply (Rounds.wp_wait_rest_token 𝒱₀ ER (rd m) (c : Thread nD τ) none (κ := K (c, some (2, 34))) (sm := .dma (fsS 34))
      (wpE_waitDma2_eq 𝒱₀ (c : Thread nD τ) none Set.univ (src := fSl c 34) (dst := fSl c 34)) (Set.mem_univ _) () (O := 0) (W := W198) (R := 0) (m := 0) (T := ∅)
      (by rw [Nat.zero_add]; exact (expect_fs m c 34).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 34)) $$ Hpay
  ihave AccY := (acc_step (famY m c) 34 (by decide)) $$ [AccY HYk]
  · isplitl [AccY]; · iexact AccY
    iexact HYk
  ihave #HIx := (Prep.inv_fs m K c 34) $$ HI
  imod (Rounds.cell_close ER (rd m) (Set.mem_univ (K (c, some (2, 34)))) (fun h => h) (R := 0 + 1) (duties_fs_later m c 34)) $$ [Hat] with Hz
  · isplitr; · iexact HIx
    iexact Hat
  iclear HIx
  ihave AccZfs := (acc_step (famZfs (F := F) c) 34 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W199, HO⟩
  -- step 361: wait arg5[34] (arg1[(k0_off3 d0 2176#32)], arg1[(k0_off3 d0 2176#32)])
  first | sl_exec | skip
  ihave Hs := (Entails.of_eq (take_step (famCFR (F := F) c) 34 (by decide))) $$ [FcFR]
  · iexact FcFR
  icases Hs with ⟨Hc, FcFR⟩
  ihave Hs := (Entails.of_eq (take_step (famAtFR (F := F) c) 34 (by decide))) $$ [FatFR]
  · iexact FatFR
  icases Hs with ⟨Hat, FatFR⟩
  ihave #HIw := (Prep.inv_fr m K c 34) $$ HI
  iapply (Rounds.wp_wait_rest_token 𝒱₀ ER (rd m) (c : Thread nD τ) none (κ := K (c, some (3, 34))) (sm := .dma (frS 34))
      (wpE_waitDma2_eq 𝒱₀ (c : Thread nD τ) none Set.univ (src := fSl c 34) (dst := fSl c 34)) (Set.mem_univ _) () (O := 0) (W := W199) (R := 0) (m := 0) (T := ∅)
      (by rw [Nat.zero_add]; exact (expect_fr m c 34).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 34)) $$ Hpay
  ihave AccF := (acc_step (famF m c) 34 (by decide)) $$ [AccF HFk]
  · isplitl [AccF]; · iexact AccF
    iexact HFk
  ihave #HIx := (Prep.inv_fr m K c 34) $$ HI
  imod (Rounds.cell_close ER (rd m) (Set.mem_univ (K (c, some (3, 34)))) (fun h => h) (R := 0 + 1) (duties_fr_later m c 34)) $$ [Hat] with Hz
  · isplitr; · iexact HIx
    iexact Hat
  iclear HIx
  ihave AccZfr := (acc_step (famZfr (F := F) c) 34 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W200, HO⟩
  -- step 362: wait arg2[35] (arg1[(k0_off1 d0 2240#32)], arg0[(k0_off2 d0 2240#32)])
  first | sl_exec | skip
  ihave Hs := (Entails.of_eq (take_step (famCYS (F := F) c) 35 (by decide))) $$ [FcYS]
  · iexact FcYS
  icases Hs with ⟨Hc, FcYS⟩
  ihave Hs := (Entails.of_eq (take_step (famAtYS (F := F) c) 35 (by decide))) $$ [FatYS]
  · iexact FatYS
  icases Hs with ⟨Hat, FatYS⟩
  ihave #HIw := (Prep.inv_ys m K c 35) $$ HI
  iapply (Rounds.wp_wait_rest_token 𝒱₀ ER (rd m) (c : Thread nD τ) none (κ := K (c, some (0, 35))) (sm := .dma (ysS 35))
      (wpE_waitDma2_eq 𝒱₀ (c : Thread nD τ) none Set.univ (src := yDst c 35) (dst := ySrc c 35)) (Set.mem_univ _) () (O := 0) (W := W200) (R := 0) (m := 0) (T := ∅)
      (by rw [Nat.zero_add]; exact (expect_ys m c 35).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 35)) $$ Hpay
  ihave AccXY := (acc_step (famXY m c) 35 (by decide)) $$ [AccXY Hxy]
  · isplitl [AccXY]; · iexact AccXY
    iexact Hxy
  ihave #HIx := (Prep.inv_ys m K c 35) $$ HI
  imod (Rounds.cell_close ER (rd m) (Set.mem_univ (K (c, some (0, 35)))) (fun h => h) (R := 0 + 1) (duties_ys_later m c 35)) $$ [Hat] with Hz
  · isplitr; · iexact HIx
    iexact Hat
  iclear HIx
  ihave AccZys := (acc_step (famZys (F := F) c) 35 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W201, HO⟩
  -- step 363: wait arg4[35] (arg1[(k0_off3 d0 2240#32)], arg1[(k0_off3 d0 2240#32)])
  first | sl_exec | skip
  ihave Hs := (Entails.of_eq (take_step (famCFS (F := F) c) 35 (by decide))) $$ [FcFS]
  · iexact FcFS
  icases Hs with ⟨Hc, FcFS⟩
  ihave Hs := (Entails.of_eq (take_step (famAtFS (F := F) c) 35 (by decide))) $$ [FatFS]
  · iexact FatFS
  icases Hs with ⟨Hat, FatFS⟩
  ihave #HIw := (Prep.inv_fs m K c 35) $$ HI
  iapply (Rounds.wp_wait_rest_token 𝒱₀ ER (rd m) (c : Thread nD τ) none (κ := K (c, some (2, 35))) (sm := .dma (fsS 35))
      (wpE_waitDma2_eq 𝒱₀ (c : Thread nD τ) none Set.univ (src := fSl c 35) (dst := fSl c 35)) (Set.mem_univ _) () (O := 0) (W := W201) (R := 0) (m := 0) (T := ∅)
      (by rw [Nat.zero_add]; exact (expect_fs m c 35).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 35)) $$ Hpay
  ihave AccY := (acc_step (famY m c) 35 (by decide)) $$ [AccY HYk]
  · isplitl [AccY]; · iexact AccY
    iexact HYk
  ihave #HIx := (Prep.inv_fs m K c 35) $$ HI
  imod (Rounds.cell_close ER (rd m) (Set.mem_univ (K (c, some (2, 35)))) (fun h => h) (R := 0 + 1) (duties_fs_later m c 35)) $$ [Hat] with Hz
  · isplitr; · iexact HIx
    iexact Hat
  iclear HIx
  ihave AccZfs := (acc_step (famZfs (F := F) c) 35 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W202, HO⟩
  -- step 364: wait arg5[35] (arg1[(k0_off3 d0 2240#32)], arg1[(k0_off3 d0 2240#32)])
  first | sl_exec | skip
  ihave Hs := (Entails.of_eq (take_step (famCFR (F := F) c) 35 (by decide))) $$ [FcFR]
  · iexact FcFR
  icases Hs with ⟨Hc, FcFR⟩
  ihave Hs := (Entails.of_eq (take_step (famAtFR (F := F) c) 35 (by decide))) $$ [FatFR]
  · iexact FatFR
  icases Hs with ⟨Hat, FatFR⟩
  ihave #HIw := (Prep.inv_fr m K c 35) $$ HI
  iapply (Rounds.wp_wait_rest_token 𝒱₀ ER (rd m) (c : Thread nD τ) none (κ := K (c, some (3, 35))) (sm := .dma (frS 35))
      (wpE_waitDma2_eq 𝒱₀ (c : Thread nD τ) none Set.univ (src := fSl c 35) (dst := fSl c 35)) (Set.mem_univ _) () (O := 0) (W := W202) (R := 0) (m := 0) (T := ∅)
      (by rw [Nat.zero_add]; exact (expect_fr m c 35).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 35)) $$ Hpay
  ihave AccF := (acc_step (famF m c) 35 (by decide)) $$ [AccF HFk]
  · isplitl [AccF]; · iexact AccF
    iexact HFk
  ihave #HIx := (Prep.inv_fr m K c 35) $$ HI
  imod (Rounds.cell_close ER (rd m) (Set.mem_univ (K (c, some (3, 35)))) (fun h => h) (R := 0 + 1) (duties_fr_later m c 35)) $$ [Hat] with Hz
  · isplitr; · iexact HIx
    iexact Hat
  iclear HIx
  ihave AccZfr := (acc_step (famZfr (F := F) c) 35 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W203, HO⟩
  -- step 365: wait arg2[36] (arg1[(k0_off1 d0 2304#32)], arg0[(k0_off2 d0 2304#32)])
  first | sl_exec | skip
  ihave Hs := (Entails.of_eq (take_step (famCYS (F := F) c) 36 (by decide))) $$ [FcYS]
  · iexact FcYS
  icases Hs with ⟨Hc, FcYS⟩
  ihave Hs := (Entails.of_eq (take_step (famAtYS (F := F) c) 36 (by decide))) $$ [FatYS]
  · iexact FatYS
  icases Hs with ⟨Hat, FatYS⟩
  ihave #HIw := (Prep.inv_ys m K c 36) $$ HI
  iapply (Rounds.wp_wait_rest_token 𝒱₀ ER (rd m) (c : Thread nD τ) none (κ := K (c, some (0, 36))) (sm := .dma (ysS 36))
      (wpE_waitDma2_eq 𝒱₀ (c : Thread nD τ) none Set.univ (src := yDst c 36) (dst := ySrc c 36)) (Set.mem_univ _) () (O := 0) (W := W203) (R := 0) (m := 0) (T := ∅)
      (by rw [Nat.zero_add]; exact (expect_ys m c 36).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 36)) $$ Hpay
  ihave AccXY := (acc_step (famXY m c) 36 (by decide)) $$ [AccXY Hxy]
  · isplitl [AccXY]; · iexact AccXY
    iexact Hxy
  ihave #HIx := (Prep.inv_ys m K c 36) $$ HI
  imod (Rounds.cell_close ER (rd m) (Set.mem_univ (K (c, some (0, 36)))) (fun h => h) (R := 0 + 1) (duties_ys_later m c 36)) $$ [Hat] with Hz
  · isplitr; · iexact HIx
    iexact Hat
  iclear HIx
  ihave AccZys := (acc_step (famZys (F := F) c) 36 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W204, HO⟩
  -- step 366: wait arg4[36] (arg1[(k0_off3 d0 2304#32)], arg1[(k0_off3 d0 2304#32)])
  first | sl_exec | skip
  ihave Hs := (Entails.of_eq (take_step (famCFS (F := F) c) 36 (by decide))) $$ [FcFS]
  · iexact FcFS
  icases Hs with ⟨Hc, FcFS⟩
  ihave Hs := (Entails.of_eq (take_step (famAtFS (F := F) c) 36 (by decide))) $$ [FatFS]
  · iexact FatFS
  icases Hs with ⟨Hat, FatFS⟩
  ihave #HIw := (Prep.inv_fs m K c 36) $$ HI
  iapply (Rounds.wp_wait_rest_token 𝒱₀ ER (rd m) (c : Thread nD τ) none (κ := K (c, some (2, 36))) (sm := .dma (fsS 36))
      (wpE_waitDma2_eq 𝒱₀ (c : Thread nD τ) none Set.univ (src := fSl c 36) (dst := fSl c 36)) (Set.mem_univ _) () (O := 0) (W := W204) (R := 0) (m := 0) (T := ∅)
      (by rw [Nat.zero_add]; exact (expect_fs m c 36).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 36)) $$ Hpay
  ihave AccY := (acc_step (famY m c) 36 (by decide)) $$ [AccY HYk]
  · isplitl [AccY]; · iexact AccY
    iexact HYk
  ihave #HIx := (Prep.inv_fs m K c 36) $$ HI
  imod (Rounds.cell_close ER (rd m) (Set.mem_univ (K (c, some (2, 36)))) (fun h => h) (R := 0 + 1) (duties_fs_later m c 36)) $$ [Hat] with Hz
  · isplitr; · iexact HIx
    iexact Hat
  iclear HIx
  ihave AccZfs := (acc_step (famZfs (F := F) c) 36 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W205, HO⟩
  -- step 367: wait arg5[36] (arg1[(k0_off3 d0 2304#32)], arg1[(k0_off3 d0 2304#32)])
  first | sl_exec | skip
  ihave Hs := (Entails.of_eq (take_step (famCFR (F := F) c) 36 (by decide))) $$ [FcFR]
  · iexact FcFR
  icases Hs with ⟨Hc, FcFR⟩
  ihave Hs := (Entails.of_eq (take_step (famAtFR (F := F) c) 36 (by decide))) $$ [FatFR]
  · iexact FatFR
  icases Hs with ⟨Hat, FatFR⟩
  ihave #HIw := (Prep.inv_fr m K c 36) $$ HI
  iapply (Rounds.wp_wait_rest_token 𝒱₀ ER (rd m) (c : Thread nD τ) none (κ := K (c, some (3, 36))) (sm := .dma (frS 36))
      (wpE_waitDma2_eq 𝒱₀ (c : Thread nD τ) none Set.univ (src := fSl c 36) (dst := fSl c 36)) (Set.mem_univ _) () (O := 0) (W := W205) (R := 0) (m := 0) (T := ∅)
      (by rw [Nat.zero_add]; exact (expect_fr m c 36).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 36)) $$ Hpay
  ihave AccF := (acc_step (famF m c) 36 (by decide)) $$ [AccF HFk]
  · isplitl [AccF]; · iexact AccF
    iexact HFk
  ihave #HIx := (Prep.inv_fr m K c 36) $$ HI
  imod (Rounds.cell_close ER (rd m) (Set.mem_univ (K (c, some (3, 36)))) (fun h => h) (R := 0 + 1) (duties_fr_later m c 36)) $$ [Hat] with Hz
  · isplitr; · iexact HIx
    iexact Hat
  iclear HIx
  ihave AccZfr := (acc_step (famZfr (F := F) c) 36 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W206, HO⟩
  -- step 368: wait arg2[37] (arg1[(k0_off1 d0 2368#32)], arg0[(k0_off2 d0 2368#32)])
  first | sl_exec | skip
  ihave Hs := (Entails.of_eq (take_step (famCYS (F := F) c) 37 (by decide))) $$ [FcYS]
  · iexact FcYS
  icases Hs with ⟨Hc, FcYS⟩
  ihave Hs := (Entails.of_eq (take_step (famAtYS (F := F) c) 37 (by decide))) $$ [FatYS]
  · iexact FatYS
  icases Hs with ⟨Hat, FatYS⟩
  ihave #HIw := (Prep.inv_ys m K c 37) $$ HI
  iapply (Rounds.wp_wait_rest_token 𝒱₀ ER (rd m) (c : Thread nD τ) none (κ := K (c, some (0, 37))) (sm := .dma (ysS 37))
      (wpE_waitDma2_eq 𝒱₀ (c : Thread nD τ) none Set.univ (src := yDst c 37) (dst := ySrc c 37)) (Set.mem_univ _) () (O := 0) (W := W206) (R := 0) (m := 0) (T := ∅)
      (by rw [Nat.zero_add]; exact (expect_ys m c 37).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 37)) $$ Hpay
  ihave AccXY := (acc_step (famXY m c) 37 (by decide)) $$ [AccXY Hxy]
  · isplitl [AccXY]; · iexact AccXY
    iexact Hxy
  ihave #HIx := (Prep.inv_ys m K c 37) $$ HI
  imod (Rounds.cell_close ER (rd m) (Set.mem_univ (K (c, some (0, 37)))) (fun h => h) (R := 0 + 1) (duties_ys_later m c 37)) $$ [Hat] with Hz
  · isplitr; · iexact HIx
    iexact Hat
  iclear HIx
  ihave AccZys := (acc_step (famZys (F := F) c) 37 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W207, HO⟩
  -- step 369: wait arg4[37] (arg1[(k0_off3 d0 2368#32)], arg1[(k0_off3 d0 2368#32)])
  first | sl_exec | skip
  ihave Hs := (Entails.of_eq (take_step (famCFS (F := F) c) 37 (by decide))) $$ [FcFS]
  · iexact FcFS
  icases Hs with ⟨Hc, FcFS⟩
  ihave Hs := (Entails.of_eq (take_step (famAtFS (F := F) c) 37 (by decide))) $$ [FatFS]
  · iexact FatFS
  icases Hs with ⟨Hat, FatFS⟩
  ihave #HIw := (Prep.inv_fs m K c 37) $$ HI
  iapply (Rounds.wp_wait_rest_token 𝒱₀ ER (rd m) (c : Thread nD τ) none (κ := K (c, some (2, 37))) (sm := .dma (fsS 37))
      (wpE_waitDma2_eq 𝒱₀ (c : Thread nD τ) none Set.univ (src := fSl c 37) (dst := fSl c 37)) (Set.mem_univ _) () (O := 0) (W := W207) (R := 0) (m := 0) (T := ∅)
      (by rw [Nat.zero_add]; exact (expect_fs m c 37).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 37)) $$ Hpay
  ihave AccY := (acc_step (famY m c) 37 (by decide)) $$ [AccY HYk]
  · isplitl [AccY]; · iexact AccY
    iexact HYk
  ihave #HIx := (Prep.inv_fs m K c 37) $$ HI
  imod (Rounds.cell_close ER (rd m) (Set.mem_univ (K (c, some (2, 37)))) (fun h => h) (R := 0 + 1) (duties_fs_later m c 37)) $$ [Hat] with Hz
  · isplitr; · iexact HIx
    iexact Hat
  iclear HIx
  ihave AccZfs := (acc_step (famZfs (F := F) c) 37 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W208, HO⟩
  -- step 370: wait arg5[37] (arg1[(k0_off3 d0 2368#32)], arg1[(k0_off3 d0 2368#32)])
  first | sl_exec | skip
  ihave Hs := (Entails.of_eq (take_step (famCFR (F := F) c) 37 (by decide))) $$ [FcFR]
  · iexact FcFR
  icases Hs with ⟨Hc, FcFR⟩
  ihave Hs := (Entails.of_eq (take_step (famAtFR (F := F) c) 37 (by decide))) $$ [FatFR]
  · iexact FatFR
  icases Hs with ⟨Hat, FatFR⟩
  ihave #HIw := (Prep.inv_fr m K c 37) $$ HI
  iapply (Rounds.wp_wait_rest_token 𝒱₀ ER (rd m) (c : Thread nD τ) none (κ := K (c, some (3, 37))) (sm := .dma (frS 37))
      (wpE_waitDma2_eq 𝒱₀ (c : Thread nD τ) none Set.univ (src := fSl c 37) (dst := fSl c 37)) (Set.mem_univ _) () (O := 0) (W := W208) (R := 0) (m := 0) (T := ∅)
      (by rw [Nat.zero_add]; exact (expect_fr m c 37).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 37)) $$ Hpay
  ihave AccF := (acc_step (famF m c) 37 (by decide)) $$ [AccF HFk]
  · isplitl [AccF]; · iexact AccF
    iexact HFk
  ihave #HIx := (Prep.inv_fr m K c 37) $$ HI
  imod (Rounds.cell_close ER (rd m) (Set.mem_univ (K (c, some (3, 37)))) (fun h => h) (R := 0 + 1) (duties_fr_later m c 37)) $$ [Hat] with Hz
  · isplitr; · iexact HIx
    iexact Hat
  iclear HIx
  ihave AccZfr := (acc_step (famZfr (F := F) c) 37 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W209, HO⟩
  -- step 371: wait arg2[38] (arg1[(k0_off1 d0 2432#32)], arg0[(k0_off2 d0 2432#32)])
  first | sl_exec | skip
  ihave Hs := (Entails.of_eq (take_step (famCYS (F := F) c) 38 (by decide))) $$ [FcYS]
  · iexact FcYS
  icases Hs with ⟨Hc, FcYS⟩
  ihave Hs := (Entails.of_eq (take_step (famAtYS (F := F) c) 38 (by decide))) $$ [FatYS]
  · iexact FatYS
  icases Hs with ⟨Hat, FatYS⟩
  ihave #HIw := (Prep.inv_ys m K c 38) $$ HI
  iapply (Rounds.wp_wait_rest_token 𝒱₀ ER (rd m) (c : Thread nD τ) none (κ := K (c, some (0, 38))) (sm := .dma (ysS 38))
      (wpE_waitDma2_eq 𝒱₀ (c : Thread nD τ) none Set.univ (src := yDst c 38) (dst := ySrc c 38)) (Set.mem_univ _) () (O := 0) (W := W209) (R := 0) (m := 0) (T := ∅)
      (by rw [Nat.zero_add]; exact (expect_ys m c 38).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 38)) $$ Hpay
  ihave AccXY := (acc_step (famXY m c) 38 (by decide)) $$ [AccXY Hxy]
  · isplitl [AccXY]; · iexact AccXY
    iexact Hxy
  ihave #HIx := (Prep.inv_ys m K c 38) $$ HI
  imod (Rounds.cell_close ER (rd m) (Set.mem_univ (K (c, some (0, 38)))) (fun h => h) (R := 0 + 1) (duties_ys_later m c 38)) $$ [Hat] with Hz
  · isplitr; · iexact HIx
    iexact Hat
  iclear HIx
  ihave AccZys := (acc_step (famZys (F := F) c) 38 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W210, HO⟩
  -- step 372: wait arg4[38] (arg1[(k0_off3 d0 2432#32)], arg1[(k0_off3 d0 2432#32)])
  first | sl_exec | skip
  ihave Hs := (Entails.of_eq (take_step (famCFS (F := F) c) 38 (by decide))) $$ [FcFS]
  · iexact FcFS
  icases Hs with ⟨Hc, FcFS⟩
  ihave Hs := (Entails.of_eq (take_step (famAtFS (F := F) c) 38 (by decide))) $$ [FatFS]
  · iexact FatFS
  icases Hs with ⟨Hat, FatFS⟩
  ihave #HIw := (Prep.inv_fs m K c 38) $$ HI
  iapply (Rounds.wp_wait_rest_token 𝒱₀ ER (rd m) (c : Thread nD τ) none (κ := K (c, some (2, 38))) (sm := .dma (fsS 38))
      (wpE_waitDma2_eq 𝒱₀ (c : Thread nD τ) none Set.univ (src := fSl c 38) (dst := fSl c 38)) (Set.mem_univ _) () (O := 0) (W := W210) (R := 0) (m := 0) (T := ∅)
      (by rw [Nat.zero_add]; exact (expect_fs m c 38).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 38)) $$ Hpay
  ihave AccY := (acc_step (famY m c) 38 (by decide)) $$ [AccY HYk]
  · isplitl [AccY]; · iexact AccY
    iexact HYk
  ihave #HIx := (Prep.inv_fs m K c 38) $$ HI
  imod (Rounds.cell_close ER (rd m) (Set.mem_univ (K (c, some (2, 38)))) (fun h => h) (R := 0 + 1) (duties_fs_later m c 38)) $$ [Hat] with Hz
  · isplitr; · iexact HIx
    iexact Hat
  iclear HIx
  ihave AccZfs := (acc_step (famZfs (F := F) c) 38 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W211, HO⟩
  -- step 373: wait arg5[38] (arg1[(k0_off3 d0 2432#32)], arg1[(k0_off3 d0 2432#32)])
  first | sl_exec | skip
  ihave Hs := (Entails.of_eq (take_step (famCFR (F := F) c) 38 (by decide))) $$ [FcFR]
  · iexact FcFR
  icases Hs with ⟨Hc, FcFR⟩
  ihave Hs := (Entails.of_eq (take_step (famAtFR (F := F) c) 38 (by decide))) $$ [FatFR]
  · iexact FatFR
  icases Hs with ⟨Hat, FatFR⟩
  ihave #HIw := (Prep.inv_fr m K c 38) $$ HI
  iapply (Rounds.wp_wait_rest_token 𝒱₀ ER (rd m) (c : Thread nD τ) none (κ := K (c, some (3, 38))) (sm := .dma (frS 38))
      (wpE_waitDma2_eq 𝒱₀ (c : Thread nD τ) none Set.univ (src := fSl c 38) (dst := fSl c 38)) (Set.mem_univ _) () (O := 0) (W := W211) (R := 0) (m := 0) (T := ∅)
      (by rw [Nat.zero_add]; exact (expect_fr m c 38).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 38)) $$ Hpay
  ihave AccF := (acc_step (famF m c) 38 (by decide)) $$ [AccF HFk]
  · isplitl [AccF]; · iexact AccF
    iexact HFk
  ihave #HIx := (Prep.inv_fr m K c 38) $$ HI
  imod (Rounds.cell_close ER (rd m) (Set.mem_univ (K (c, some (3, 38)))) (fun h => h) (R := 0 + 1) (duties_fr_later m c 38)) $$ [Hat] with Hz
  · isplitr; · iexact HIx
    iexact Hat
  iclear HIx
  ihave AccZfr := (acc_step (famZfr (F := F) c) 38 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W212, HO⟩
  -- step 374: wait arg2[39] (arg1[(k0_off1 d0 2496#32)], arg0[(k0_off2 d0 2496#32)])
  first | sl_exec | skip
  ihave Hs := (Entails.of_eq (take_step (famCYS (F := F) c) 39 (by decide))) $$ [FcYS]
  · iexact FcYS
  icases Hs with ⟨Hc, FcYS⟩
  ihave Hs := (Entails.of_eq (take_step (famAtYS (F := F) c) 39 (by decide))) $$ [FatYS]
  · iexact FatYS
  icases Hs with ⟨Hat, FatYS⟩
  ihave #HIw := (Prep.inv_ys m K c 39) $$ HI
  iapply (Rounds.wp_wait_rest_token 𝒱₀ ER (rd m) (c : Thread nD τ) none (κ := K (c, some (0, 39))) (sm := .dma (ysS 39))
      (wpE_waitDma2_eq 𝒱₀ (c : Thread nD τ) none Set.univ (src := yDst c 39) (dst := ySrc c 39)) (Set.mem_univ _) () (O := 0) (W := W212) (R := 0) (m := 0) (T := ∅)
      (by rw [Nat.zero_add]; exact (expect_ys m c 39).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 39)) $$ Hpay
  ihave AccXY := (acc_step (famXY m c) 39 (by decide)) $$ [AccXY Hxy]
  · isplitl [AccXY]; · iexact AccXY
    iexact Hxy
  ihave #HIx := (Prep.inv_ys m K c 39) $$ HI
  imod (Rounds.cell_close ER (rd m) (Set.mem_univ (K (c, some (0, 39)))) (fun h => h) (R := 0 + 1) (duties_ys_later m c 39)) $$ [Hat] with Hz
  · isplitr; · iexact HIx
    iexact Hat
  iclear HIx
  ihave AccZys := (acc_step (famZys (F := F) c) 39 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W213, HO⟩
  -- step 375: wait arg4[39] (arg1[(k0_off3 d0 2496#32)], arg1[(k0_off3 d0 2496#32)])
  first | sl_exec | skip
  ihave Hs := (Entails.of_eq (take_step (famCFS (F := F) c) 39 (by decide))) $$ [FcFS]
  · iexact FcFS
  icases Hs with ⟨Hc, FcFS⟩
  ihave Hs := (Entails.of_eq (take_step (famAtFS (F := F) c) 39 (by decide))) $$ [FatFS]
  · iexact FatFS
  icases Hs with ⟨Hat, FatFS⟩
  ihave #HIw := (Prep.inv_fs m K c 39) $$ HI
  iapply (Rounds.wp_wait_rest_token 𝒱₀ ER (rd m) (c : Thread nD τ) none (κ := K (c, some (2, 39))) (sm := .dma (fsS 39))
      (wpE_waitDma2_eq 𝒱₀ (c : Thread nD τ) none Set.univ (src := fSl c 39) (dst := fSl c 39)) (Set.mem_univ _) () (O := 0) (W := W213) (R := 0) (m := 0) (T := ∅)
      (by rw [Nat.zero_add]; exact (expect_fs m c 39).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 39)) $$ Hpay
  ihave AccY := (acc_step (famY m c) 39 (by decide)) $$ [AccY HYk]
  · isplitl [AccY]; · iexact AccY
    iexact HYk
  ihave #HIx := (Prep.inv_fs m K c 39) $$ HI
  imod (Rounds.cell_close ER (rd m) (Set.mem_univ (K (c, some (2, 39)))) (fun h => h) (R := 0 + 1) (duties_fs_later m c 39)) $$ [Hat] with Hz
  · isplitr; · iexact HIx
    iexact Hat
  iclear HIx
  ihave AccZfs := (acc_step (famZfs (F := F) c) 39 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W214, HO⟩
  -- step 376: wait arg5[39] (arg1[(k0_off3 d0 2496#32)], arg1[(k0_off3 d0 2496#32)])
  first | sl_exec | skip
  ihave Hs := (Entails.of_eq (take_step (famCFR (F := F) c) 39 (by decide))) $$ [FcFR]
  · iexact FcFR
  icases Hs with ⟨Hc, FcFR⟩
  ihave Hs := (Entails.of_eq (take_step (famAtFR (F := F) c) 39 (by decide))) $$ [FatFR]
  · iexact FatFR
  icases Hs with ⟨Hat, FatFR⟩
  ihave #HIw := (Prep.inv_fr m K c 39) $$ HI
  iapply (Rounds.wp_wait_rest_token 𝒱₀ ER (rd m) (c : Thread nD τ) none (κ := K (c, some (3, 39))) (sm := .dma (frS 39))
      (wpE_waitDma2_eq 𝒱₀ (c : Thread nD τ) none Set.univ (src := fSl c 39) (dst := fSl c 39)) (Set.mem_univ _) () (O := 0) (W := W214) (R := 0) (m := 0) (T := ∅)
      (by rw [Nat.zero_add]; exact (expect_fr m c 39).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 39)) $$ Hpay
  ihave AccF := (acc_step (famF m c) 39 (by decide)) $$ [AccF HFk]
  · isplitl [AccF]; · iexact AccF
    iexact HFk
  ihave #HIx := (Prep.inv_fr m K c 39) $$ HI
  imod (Rounds.cell_close ER (rd m) (Set.mem_univ (K (c, some (3, 39)))) (fun h => h) (R := 0 + 1) (duties_fr_later m c 39)) $$ [Hat] with Hz
  · isplitr; · iexact HIx
    iexact Hat
  iclear HIx
  ihave AccZfr := (acc_step (famZfr (F := F) c) 39 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W215, HO⟩
  -- step 377: wait arg2[40] (arg1[(k0_off1 d0 2560#32)], arg0[(k0_off2 d0 2560#32)])
  first | sl_exec | skip
  ihave Hs := (Entails.of_eq (take_step (famCYS (F := F) c) 40 (by decide))) $$ [FcYS]
  · iexact FcYS
  icases Hs with ⟨Hc, FcYS⟩
  ihave Hs := (Entails.of_eq (take_step (famAtYS (F := F) c) 40 (by decide))) $$ [FatYS]
  · iexact FatYS
  icases Hs with ⟨Hat, FatYS⟩
  ihave #HIw := (Prep.inv_ys m K c 40) $$ HI
  iapply (Rounds.wp_wait_rest_token 𝒱₀ ER (rd m) (c : Thread nD τ) none (κ := K (c, some (0, 40))) (sm := .dma (ysS 40))
      (wpE_waitDma2_eq 𝒱₀ (c : Thread nD τ) none Set.univ (src := yDst c 40) (dst := ySrc c 40)) (Set.mem_univ _) () (O := 0) (W := W215) (R := 0) (m := 0) (T := ∅)
      (by rw [Nat.zero_add]; exact (expect_ys m c 40).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 40)) $$ Hpay
  ihave AccXY := (acc_step (famXY m c) 40 (by decide)) $$ [AccXY Hxy]
  · isplitl [AccXY]; · iexact AccXY
    iexact Hxy
  ihave #HIx := (Prep.inv_ys m K c 40) $$ HI
  imod (Rounds.cell_close ER (rd m) (Set.mem_univ (K (c, some (0, 40)))) (fun h => h) (R := 0 + 1) (duties_ys_later m c 40)) $$ [Hat] with Hz
  · isplitr; · iexact HIx
    iexact Hat
  iclear HIx
  ihave AccZys := (acc_step (famZys (F := F) c) 40 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W216, HO⟩
  -- step 378: wait arg4[40] (arg1[(k0_off3 d0 2560#32)], arg1[(k0_off3 d0 2560#32)])
  first | sl_exec | skip
  ihave Hs := (Entails.of_eq (take_step (famCFS (F := F) c) 40 (by decide))) $$ [FcFS]
  · iexact FcFS
  icases Hs with ⟨Hc, FcFS⟩
  ihave Hs := (Entails.of_eq (take_step (famAtFS (F := F) c) 40 (by decide))) $$ [FatFS]
  · iexact FatFS
  icases Hs with ⟨Hat, FatFS⟩
  ihave #HIw := (Prep.inv_fs m K c 40) $$ HI
  iapply (Rounds.wp_wait_rest_token 𝒱₀ ER (rd m) (c : Thread nD τ) none (κ := K (c, some (2, 40))) (sm := .dma (fsS 40))
      (wpE_waitDma2_eq 𝒱₀ (c : Thread nD τ) none Set.univ (src := fSl c 40) (dst := fSl c 40)) (Set.mem_univ _) () (O := 0) (W := W216) (R := 0) (m := 0) (T := ∅)
      (by rw [Nat.zero_add]; exact (expect_fs m c 40).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 40)) $$ Hpay
  ihave AccY := (acc_step (famY m c) 40 (by decide)) $$ [AccY HYk]
  · isplitl [AccY]; · iexact AccY
    iexact HYk
  ihave #HIx := (Prep.inv_fs m K c 40) $$ HI
  imod (Rounds.cell_close ER (rd m) (Set.mem_univ (K (c, some (2, 40)))) (fun h => h) (R := 0 + 1) (duties_fs_later m c 40)) $$ [Hat] with Hz
  · isplitr; · iexact HIx
    iexact Hat
  iclear HIx
  ihave AccZfs := (acc_step (famZfs (F := F) c) 40 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W217, HO⟩
  -- step 379: wait arg5[40] (arg1[(k0_off3 d0 2560#32)], arg1[(k0_off3 d0 2560#32)])
  first | sl_exec | skip
  ihave Hs := (Entails.of_eq (take_step (famCFR (F := F) c) 40 (by decide))) $$ [FcFR]
  · iexact FcFR
  icases Hs with ⟨Hc, FcFR⟩
  ihave Hs := (Entails.of_eq (take_step (famAtFR (F := F) c) 40 (by decide))) $$ [FatFR]
  · iexact FatFR
  icases Hs with ⟨Hat, FatFR⟩
  ihave #HIw := (Prep.inv_fr m K c 40) $$ HI
  iapply (Rounds.wp_wait_rest_token 𝒱₀ ER (rd m) (c : Thread nD τ) none (κ := K (c, some (3, 40))) (sm := .dma (frS 40))
      (wpE_waitDma2_eq 𝒱₀ (c : Thread nD τ) none Set.univ (src := fSl c 40) (dst := fSl c 40)) (Set.mem_univ _) () (O := 0) (W := W217) (R := 0) (m := 0) (T := ∅)
      (by rw [Nat.zero_add]; exact (expect_fr m c 40).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 40)) $$ Hpay
  ihave AccF := (acc_step (famF m c) 40 (by decide)) $$ [AccF HFk]
  · isplitl [AccF]; · iexact AccF
    iexact HFk
  ihave #HIx := (Prep.inv_fr m K c 40) $$ HI
  imod (Rounds.cell_close ER (rd m) (Set.mem_univ (K (c, some (3, 40)))) (fun h => h) (R := 0 + 1) (duties_fr_later m c 40)) $$ [Hat] with Hz
  · isplitr; · iexact HIx
    iexact Hat
  iclear HIx
  ihave AccZfr := (acc_step (famZfr (F := F) c) 40 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W218, HO⟩
  -- step 380: wait arg2[41] (arg1[(k0_off1 d0 2624#32)], arg0[(k0_off2 d0 2624#32)])
  first | sl_exec | skip
  ihave Hs := (Entails.of_eq (take_step (famCYS (F := F) c) 41 (by decide))) $$ [FcYS]
  · iexact FcYS
  icases Hs with ⟨Hc, FcYS⟩
  ihave Hs := (Entails.of_eq (take_step (famAtYS (F := F) c) 41 (by decide))) $$ [FatYS]
  · iexact FatYS
  icases Hs with ⟨Hat, FatYS⟩
  ihave #HIw := (Prep.inv_ys m K c 41) $$ HI
  iapply (Rounds.wp_wait_rest_token 𝒱₀ ER (rd m) (c : Thread nD τ) none (κ := K (c, some (0, 41))) (sm := .dma (ysS 41))
      (wpE_waitDma2_eq 𝒱₀ (c : Thread nD τ) none Set.univ (src := yDst c 41) (dst := ySrc c 41)) (Set.mem_univ _) () (O := 0) (W := W218) (R := 0) (m := 0) (T := ∅)
      (by rw [Nat.zero_add]; exact (expect_ys m c 41).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 41)) $$ Hpay
  ihave AccXY := (acc_step (famXY m c) 41 (by decide)) $$ [AccXY Hxy]
  · isplitl [AccXY]; · iexact AccXY
    iexact Hxy
  ihave #HIx := (Prep.inv_ys m K c 41) $$ HI
  imod (Rounds.cell_close ER (rd m) (Set.mem_univ (K (c, some (0, 41)))) (fun h => h) (R := 0 + 1) (duties_ys_later m c 41)) $$ [Hat] with Hz
  · isplitr; · iexact HIx
    iexact Hat
  iclear HIx
  ihave AccZys := (acc_step (famZys (F := F) c) 41 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W219, HO⟩
  -- step 381: wait arg4[41] (arg1[(k0_off3 d0 2624#32)], arg1[(k0_off3 d0 2624#32)])
  first | sl_exec | skip
  ihave Hs := (Entails.of_eq (take_step (famCFS (F := F) c) 41 (by decide))) $$ [FcFS]
  · iexact FcFS
  icases Hs with ⟨Hc, FcFS⟩
  ihave Hs := (Entails.of_eq (take_step (famAtFS (F := F) c) 41 (by decide))) $$ [FatFS]
  · iexact FatFS
  icases Hs with ⟨Hat, FatFS⟩
  ihave #HIw := (Prep.inv_fs m K c 41) $$ HI
  iapply (Rounds.wp_wait_rest_token 𝒱₀ ER (rd m) (c : Thread nD τ) none (κ := K (c, some (2, 41))) (sm := .dma (fsS 41))
      (wpE_waitDma2_eq 𝒱₀ (c : Thread nD τ) none Set.univ (src := fSl c 41) (dst := fSl c 41)) (Set.mem_univ _) () (O := 0) (W := W219) (R := 0) (m := 0) (T := ∅)
      (by rw [Nat.zero_add]; exact (expect_fs m c 41).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 41)) $$ Hpay
  ihave AccY := (acc_step (famY m c) 41 (by decide)) $$ [AccY HYk]
  · isplitl [AccY]; · iexact AccY
    iexact HYk
  ihave #HIx := (Prep.inv_fs m K c 41) $$ HI
  imod (Rounds.cell_close ER (rd m) (Set.mem_univ (K (c, some (2, 41)))) (fun h => h) (R := 0 + 1) (duties_fs_later m c 41)) $$ [Hat] with Hz
  · isplitr; · iexact HIx
    iexact Hat
  iclear HIx
  ihave AccZfs := (acc_step (famZfs (F := F) c) 41 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W220, HO⟩
  -- step 382: wait arg5[41] (arg1[(k0_off3 d0 2624#32)], arg1[(k0_off3 d0 2624#32)])
  first | sl_exec | skip
  ihave Hs := (Entails.of_eq (take_step (famCFR (F := F) c) 41 (by decide))) $$ [FcFR]
  · iexact FcFR
  icases Hs with ⟨Hc, FcFR⟩
  ihave Hs := (Entails.of_eq (take_step (famAtFR (F := F) c) 41 (by decide))) $$ [FatFR]
  · iexact FatFR
  icases Hs with ⟨Hat, FatFR⟩
  ihave #HIw := (Prep.inv_fr m K c 41) $$ HI
  iapply (Rounds.wp_wait_rest_token 𝒱₀ ER (rd m) (c : Thread nD τ) none (κ := K (c, some (3, 41))) (sm := .dma (frS 41))
      (wpE_waitDma2_eq 𝒱₀ (c : Thread nD τ) none Set.univ (src := fSl c 41) (dst := fSl c 41)) (Set.mem_univ _) () (O := 0) (W := W220) (R := 0) (m := 0) (T := ∅)
      (by rw [Nat.zero_add]; exact (expect_fr m c 41).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 41)) $$ Hpay
  ihave AccF := (acc_step (famF m c) 41 (by decide)) $$ [AccF HFk]
  · isplitl [AccF]; · iexact AccF
    iexact HFk
  ihave #HIx := (Prep.inv_fr m K c 41) $$ HI
  imod (Rounds.cell_close ER (rd m) (Set.mem_univ (K (c, some (3, 41)))) (fun h => h) (R := 0 + 1) (duties_fr_later m c 41)) $$ [Hat] with Hz
  · isplitr; · iexact HIx
    iexact Hat
  iclear HIx
  ihave AccZfr := (acc_step (famZfr (F := F) c) 41 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W221, HO⟩
  -- step 383: wait arg2[42] (arg1[(k0_off1 d0 2688#32)], arg0[(k0_off2 d0 2688#32)])
  first | sl_exec | skip
  ihave Hs := (Entails.of_eq (take_step (famCYS (F := F) c) 42 (by decide))) $$ [FcYS]
  · iexact FcYS
  icases Hs with ⟨Hc, FcYS⟩
  ihave Hs := (Entails.of_eq (take_step (famAtYS (F := F) c) 42 (by decide))) $$ [FatYS]
  · iexact FatYS
  icases Hs with ⟨Hat, FatYS⟩
  ihave #HIw := (Prep.inv_ys m K c 42) $$ HI
  iapply (Rounds.wp_wait_rest_token 𝒱₀ ER (rd m) (c : Thread nD τ) none (κ := K (c, some (0, 42))) (sm := .dma (ysS 42))
      (wpE_waitDma2_eq 𝒱₀ (c : Thread nD τ) none Set.univ (src := yDst c 42) (dst := ySrc c 42)) (Set.mem_univ _) () (O := 0) (W := W221) (R := 0) (m := 0) (T := ∅)
      (by rw [Nat.zero_add]; exact (expect_ys m c 42).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 42)) $$ Hpay
  ihave AccXY := (acc_step (famXY m c) 42 (by decide)) $$ [AccXY Hxy]
  · isplitl [AccXY]; · iexact AccXY
    iexact Hxy
  ihave #HIx := (Prep.inv_ys m K c 42) $$ HI
  imod (Rounds.cell_close ER (rd m) (Set.mem_univ (K (c, some (0, 42)))) (fun h => h) (R := 0 + 1) (duties_ys_later m c 42)) $$ [Hat] with Hz
  · isplitr; · iexact HIx
    iexact Hat
  iclear HIx
  ihave AccZys := (acc_step (famZys (F := F) c) 42 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W222, HO⟩
  -- step 384: wait arg4[42] (arg1[(k0_off3 d0 2688#32)], arg1[(k0_off3 d0 2688#32)])
  first | sl_exec | skip
  ihave Hs := (Entails.of_eq (take_step (famCFS (F := F) c) 42 (by decide))) $$ [FcFS]
  · iexact FcFS
  icases Hs with ⟨Hc, FcFS⟩
  ihave Hs := (Entails.of_eq (take_step (famAtFS (F := F) c) 42 (by decide))) $$ [FatFS]
  · iexact FatFS
  icases Hs with ⟨Hat, FatFS⟩
  ihave #HIw := (Prep.inv_fs m K c 42) $$ HI
  iapply (Rounds.wp_wait_rest_token 𝒱₀ ER (rd m) (c : Thread nD τ) none (κ := K (c, some (2, 42))) (sm := .dma (fsS 42))
      (wpE_waitDma2_eq 𝒱₀ (c : Thread nD τ) none Set.univ (src := fSl c 42) (dst := fSl c 42)) (Set.mem_univ _) () (O := 0) (W := W222) (R := 0) (m := 0) (T := ∅)
      (by rw [Nat.zero_add]; exact (expect_fs m c 42).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 42)) $$ Hpay
  ihave AccY := (acc_step (famY m c) 42 (by decide)) $$ [AccY HYk]
  · isplitl [AccY]; · iexact AccY
    iexact HYk
  ihave #HIx := (Prep.inv_fs m K c 42) $$ HI
  imod (Rounds.cell_close ER (rd m) (Set.mem_univ (K (c, some (2, 42)))) (fun h => h) (R := 0 + 1) (duties_fs_later m c 42)) $$ [Hat] with Hz
  · isplitr; · iexact HIx
    iexact Hat
  iclear HIx
  ihave AccZfs := (acc_step (famZfs (F := F) c) 42 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W223, HO⟩
  -- step 385: wait arg5[42] (arg1[(k0_off3 d0 2688#32)], arg1[(k0_off3 d0 2688#32)])
  first | sl_exec | skip
  ihave Hs := (Entails.of_eq (take_step (famCFR (F := F) c) 42 (by decide))) $$ [FcFR]
  · iexact FcFR
  icases Hs with ⟨Hc, FcFR⟩
  ihave Hs := (Entails.of_eq (take_step (famAtFR (F := F) c) 42 (by decide))) $$ [FatFR]
  · iexact FatFR
  icases Hs with ⟨Hat, FatFR⟩
  ihave #HIw := (Prep.inv_fr m K c 42) $$ HI
  iapply (Rounds.wp_wait_rest_token 𝒱₀ ER (rd m) (c : Thread nD τ) none (κ := K (c, some (3, 42))) (sm := .dma (frS 42))
      (wpE_waitDma2_eq 𝒱₀ (c : Thread nD τ) none Set.univ (src := fSl c 42) (dst := fSl c 42)) (Set.mem_univ _) () (O := 0) (W := W223) (R := 0) (m := 0) (T := ∅)
      (by rw [Nat.zero_add]; exact (expect_fr m c 42).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 42)) $$ Hpay
  ihave AccF := (acc_step (famF m c) 42 (by decide)) $$ [AccF HFk]
  · isplitl [AccF]; · iexact AccF
    iexact HFk
  ihave #HIx := (Prep.inv_fr m K c 42) $$ HI
  imod (Rounds.cell_close ER (rd m) (Set.mem_univ (K (c, some (3, 42)))) (fun h => h) (R := 0 + 1) (duties_fr_later m c 42)) $$ [Hat] with Hz
  · isplitr; · iexact HIx
    iexact Hat
  iclear HIx
  ihave AccZfr := (acc_step (famZfr (F := F) c) 42 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W224, HO⟩
  -- step 386: wait arg2[43] (arg1[(k0_off1 d0 2752#32)], arg0[(k0_off2 d0 2752#32)])
  first | sl_exec | skip
  ihave Hs := (Entails.of_eq (take_step (famCYS (F := F) c) 43 (by decide))) $$ [FcYS]
  · iexact FcYS
  icases Hs with ⟨Hc, FcYS⟩
  ihave Hs := (Entails.of_eq (take_step (famAtYS (F := F) c) 43 (by decide))) $$ [FatYS]
  · iexact FatYS
  icases Hs with ⟨Hat, FatYS⟩
  ihave #HIw := (Prep.inv_ys m K c 43) $$ HI
  iapply (Rounds.wp_wait_rest_token 𝒱₀ ER (rd m) (c : Thread nD τ) none (κ := K (c, some (0, 43))) (sm := .dma (ysS 43))
      (wpE_waitDma2_eq 𝒱₀ (c : Thread nD τ) none Set.univ (src := yDst c 43) (dst := ySrc c 43)) (Set.mem_univ _) () (O := 0) (W := W224) (R := 0) (m := 0) (T := ∅)
      (by rw [Nat.zero_add]; exact (expect_ys m c 43).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 43)) $$ Hpay
  ihave AccXY := (acc_step (famXY m c) 43 (by decide)) $$ [AccXY Hxy]
  · isplitl [AccXY]; · iexact AccXY
    iexact Hxy
  ihave #HIx := (Prep.inv_ys m K c 43) $$ HI
  imod (Rounds.cell_close ER (rd m) (Set.mem_univ (K (c, some (0, 43)))) (fun h => h) (R := 0 + 1) (duties_ys_later m c 43)) $$ [Hat] with Hz
  · isplitr; · iexact HIx
    iexact Hat
  iclear HIx
  ihave AccZys := (acc_step (famZys (F := F) c) 43 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W225, HO⟩
  -- step 387: wait arg4[43] (arg1[(k0_off3 d0 2752#32)], arg1[(k0_off3 d0 2752#32)])
  first | sl_exec | skip
  ihave Hs := (Entails.of_eq (take_step (famCFS (F := F) c) 43 (by decide))) $$ [FcFS]
  · iexact FcFS
  icases Hs with ⟨Hc, FcFS⟩
  ihave Hs := (Entails.of_eq (take_step (famAtFS (F := F) c) 43 (by decide))) $$ [FatFS]
  · iexact FatFS
  icases Hs with ⟨Hat, FatFS⟩
  ihave #HIw := (Prep.inv_fs m K c 43) $$ HI
  iapply (Rounds.wp_wait_rest_token 𝒱₀ ER (rd m) (c : Thread nD τ) none (κ := K (c, some (2, 43))) (sm := .dma (fsS 43))
      (wpE_waitDma2_eq 𝒱₀ (c : Thread nD τ) none Set.univ (src := fSl c 43) (dst := fSl c 43)) (Set.mem_univ _) () (O := 0) (W := W225) (R := 0) (m := 0) (T := ∅)
      (by rw [Nat.zero_add]; exact (expect_fs m c 43).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 43)) $$ Hpay
  ihave AccY := (acc_step (famY m c) 43 (by decide)) $$ [AccY HYk]
  · isplitl [AccY]; · iexact AccY
    iexact HYk
  ihave #HIx := (Prep.inv_fs m K c 43) $$ HI
  imod (Rounds.cell_close ER (rd m) (Set.mem_univ (K (c, some (2, 43)))) (fun h => h) (R := 0 + 1) (duties_fs_later m c 43)) $$ [Hat] with Hz
  · isplitr; · iexact HIx
    iexact Hat
  iclear HIx
  ihave AccZfs := (acc_step (famZfs (F := F) c) 43 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W226, HO⟩
  -- step 388: wait arg5[43] (arg1[(k0_off3 d0 2752#32)], arg1[(k0_off3 d0 2752#32)])
  first | sl_exec | skip
  ihave Hs := (Entails.of_eq (take_step (famCFR (F := F) c) 43 (by decide))) $$ [FcFR]
  · iexact FcFR
  icases Hs with ⟨Hc, FcFR⟩
  ihave Hs := (Entails.of_eq (take_step (famAtFR (F := F) c) 43 (by decide))) $$ [FatFR]
  · iexact FatFR
  icases Hs with ⟨Hat, FatFR⟩
  ihave #HIw := (Prep.inv_fr m K c 43) $$ HI
  iapply (Rounds.wp_wait_rest_token 𝒱₀ ER (rd m) (c : Thread nD τ) none (κ := K (c, some (3, 43))) (sm := .dma (frS 43))
      (wpE_waitDma2_eq 𝒱₀ (c : Thread nD τ) none Set.univ (src := fSl c 43) (dst := fSl c 43)) (Set.mem_univ _) () (O := 0) (W := W226) (R := 0) (m := 0) (T := ∅)
      (by rw [Nat.zero_add]; exact (expect_fr m c 43).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 43)) $$ Hpay
  ihave AccF := (acc_step (famF m c) 43 (by decide)) $$ [AccF HFk]
  · isplitl [AccF]; · iexact AccF
    iexact HFk
  ihave #HIx := (Prep.inv_fr m K c 43) $$ HI
  imod (Rounds.cell_close ER (rd m) (Set.mem_univ (K (c, some (3, 43)))) (fun h => h) (R := 0 + 1) (duties_fr_later m c 43)) $$ [Hat] with Hz
  · isplitr; · iexact HIx
    iexact Hat
  iclear HIx
  ihave AccZfr := (acc_step (famZfr (F := F) c) 43 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W227, HO⟩
  -- step 389: wait arg2[44] (arg1[(k0_off1 d0 2816#32)], arg0[(k0_off2 d0 2816#32)])
  first | sl_exec | skip
  ihave Hs := (Entails.of_eq (take_step (famCYS (F := F) c) 44 (by decide))) $$ [FcYS]
  · iexact FcYS
  icases Hs with ⟨Hc, FcYS⟩
  ihave Hs := (Entails.of_eq (take_step (famAtYS (F := F) c) 44 (by decide))) $$ [FatYS]
  · iexact FatYS
  icases Hs with ⟨Hat, FatYS⟩
  ihave #HIw := (Prep.inv_ys m K c 44) $$ HI
  iapply (Rounds.wp_wait_rest_token 𝒱₀ ER (rd m) (c : Thread nD τ) none (κ := K (c, some (0, 44))) (sm := .dma (ysS 44))
      (wpE_waitDma2_eq 𝒱₀ (c : Thread nD τ) none Set.univ (src := yDst c 44) (dst := ySrc c 44)) (Set.mem_univ _) () (O := 0) (W := W227) (R := 0) (m := 0) (T := ∅)
      (by rw [Nat.zero_add]; exact (expect_ys m c 44).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 44)) $$ Hpay
  ihave AccXY := (acc_step (famXY m c) 44 (by decide)) $$ [AccXY Hxy]
  · isplitl [AccXY]; · iexact AccXY
    iexact Hxy
  ihave #HIx := (Prep.inv_ys m K c 44) $$ HI
  imod (Rounds.cell_close ER (rd m) (Set.mem_univ (K (c, some (0, 44)))) (fun h => h) (R := 0 + 1) (duties_ys_later m c 44)) $$ [Hat] with Hz
  · isplitr; · iexact HIx
    iexact Hat
  iclear HIx
  ihave AccZys := (acc_step (famZys (F := F) c) 44 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W228, HO⟩
  -- step 390: wait arg4[44] (arg1[(k0_off3 d0 2816#32)], arg1[(k0_off3 d0 2816#32)])
  first | sl_exec | skip
  ihave Hs := (Entails.of_eq (take_step (famCFS (F := F) c) 44 (by decide))) $$ [FcFS]
  · iexact FcFS
  icases Hs with ⟨Hc, FcFS⟩
  ihave Hs := (Entails.of_eq (take_step (famAtFS (F := F) c) 44 (by decide))) $$ [FatFS]
  · iexact FatFS
  icases Hs with ⟨Hat, FatFS⟩
  ihave #HIw := (Prep.inv_fs m K c 44) $$ HI
  iapply (Rounds.wp_wait_rest_token 𝒱₀ ER (rd m) (c : Thread nD τ) none (κ := K (c, some (2, 44))) (sm := .dma (fsS 44))
      (wpE_waitDma2_eq 𝒱₀ (c : Thread nD τ) none Set.univ (src := fSl c 44) (dst := fSl c 44)) (Set.mem_univ _) () (O := 0) (W := W228) (R := 0) (m := 0) (T := ∅)
      (by rw [Nat.zero_add]; exact (expect_fs m c 44).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 44)) $$ Hpay
  ihave AccY := (acc_step (famY m c) 44 (by decide)) $$ [AccY HYk]
  · isplitl [AccY]; · iexact AccY
    iexact HYk
  ihave #HIx := (Prep.inv_fs m K c 44) $$ HI
  imod (Rounds.cell_close ER (rd m) (Set.mem_univ (K (c, some (2, 44)))) (fun h => h) (R := 0 + 1) (duties_fs_later m c 44)) $$ [Hat] with Hz
  · isplitr; · iexact HIx
    iexact Hat
  iclear HIx
  ihave AccZfs := (acc_step (famZfs (F := F) c) 44 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W229, HO⟩
  -- step 391: wait arg5[44] (arg1[(k0_off3 d0 2816#32)], arg1[(k0_off3 d0 2816#32)])
  first | sl_exec | skip
  ihave Hs := (Entails.of_eq (take_step (famCFR (F := F) c) 44 (by decide))) $$ [FcFR]
  · iexact FcFR
  icases Hs with ⟨Hc, FcFR⟩
  ihave Hs := (Entails.of_eq (take_step (famAtFR (F := F) c) 44 (by decide))) $$ [FatFR]
  · iexact FatFR
  icases Hs with ⟨Hat, FatFR⟩
  ihave #HIw := (Prep.inv_fr m K c 44) $$ HI
  iapply (Rounds.wp_wait_rest_token 𝒱₀ ER (rd m) (c : Thread nD τ) none (κ := K (c, some (3, 44))) (sm := .dma (frS 44))
      (wpE_waitDma2_eq 𝒱₀ (c : Thread nD τ) none Set.univ (src := fSl c 44) (dst := fSl c 44)) (Set.mem_univ _) () (O := 0) (W := W229) (R := 0) (m := 0) (T := ∅)
      (by rw [Nat.zero_add]; exact (expect_fr m c 44).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 44)) $$ Hpay
  ihave AccF := (acc_step (famF m c) 44 (by decide)) $$ [AccF HFk]
  · isplitl [AccF]; · iexact AccF
    iexact HFk
  ihave #HIx := (Prep.inv_fr m K c 44) $$ HI
  imod (Rounds.cell_close ER (rd m) (Set.mem_univ (K (c, some (3, 44)))) (fun h => h) (R := 0 + 1) (duties_fr_later m c 44)) $$ [Hat] with Hz
  · isplitr; · iexact HIx
    iexact Hat
  iclear HIx
  ihave AccZfr := (acc_step (famZfr (F := F) c) 44 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W230, HO⟩
  -- step 392: wait arg2[45] (arg1[(k0_off1 d0 2880#32)], arg0[(k0_off2 d0 2880#32)])
  first | sl_exec | skip
  ihave Hs := (Entails.of_eq (take_step (famCYS (F := F) c) 45 (by decide))) $$ [FcYS]
  · iexact FcYS
  icases Hs with ⟨Hc, FcYS⟩
  ihave Hs := (Entails.of_eq (take_step (famAtYS (F := F) c) 45 (by decide))) $$ [FatYS]
  · iexact FatYS
  icases Hs with ⟨Hat, FatYS⟩
  ihave #HIw := (Prep.inv_ys m K c 45) $$ HI
  iapply (Rounds.wp_wait_rest_token 𝒱₀ ER (rd m) (c : Thread nD τ) none (κ := K (c, some (0, 45))) (sm := .dma (ysS 45))
      (wpE_waitDma2_eq 𝒱₀ (c : Thread nD τ) none Set.univ (src := yDst c 45) (dst := ySrc c 45)) (Set.mem_univ _) () (O := 0) (W := W230) (R := 0) (m := 0) (T := ∅)
      (by rw [Nat.zero_add]; exact (expect_ys m c 45).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 45)) $$ Hpay
  ihave AccXY := (acc_step (famXY m c) 45 (by decide)) $$ [AccXY Hxy]
  · isplitl [AccXY]; · iexact AccXY
    iexact Hxy
  ihave #HIx := (Prep.inv_ys m K c 45) $$ HI
  imod (Rounds.cell_close ER (rd m) (Set.mem_univ (K (c, some (0, 45)))) (fun h => h) (R := 0 + 1) (duties_ys_later m c 45)) $$ [Hat] with Hz
  · isplitr; · iexact HIx
    iexact Hat
  iclear HIx
  ihave AccZys := (acc_step (famZys (F := F) c) 45 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W231, HO⟩
  -- step 393: wait arg4[45] (arg1[(k0_off3 d0 2880#32)], arg1[(k0_off3 d0 2880#32)])
  first | sl_exec | skip
  ihave Hs := (Entails.of_eq (take_step (famCFS (F := F) c) 45 (by decide))) $$ [FcFS]
  · iexact FcFS
  icases Hs with ⟨Hc, FcFS⟩
  ihave Hs := (Entails.of_eq (take_step (famAtFS (F := F) c) 45 (by decide))) $$ [FatFS]
  · iexact FatFS
  icases Hs with ⟨Hat, FatFS⟩
  ihave #HIw := (Prep.inv_fs m K c 45) $$ HI
  iapply (Rounds.wp_wait_rest_token 𝒱₀ ER (rd m) (c : Thread nD τ) none (κ := K (c, some (2, 45))) (sm := .dma (fsS 45))
      (wpE_waitDma2_eq 𝒱₀ (c : Thread nD τ) none Set.univ (src := fSl c 45) (dst := fSl c 45)) (Set.mem_univ _) () (O := 0) (W := W231) (R := 0) (m := 0) (T := ∅)
      (by rw [Nat.zero_add]; exact (expect_fs m c 45).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 45)) $$ Hpay
  ihave AccY := (acc_step (famY m c) 45 (by decide)) $$ [AccY HYk]
  · isplitl [AccY]; · iexact AccY
    iexact HYk
  ihave #HIx := (Prep.inv_fs m K c 45) $$ HI
  imod (Rounds.cell_close ER (rd m) (Set.mem_univ (K (c, some (2, 45)))) (fun h => h) (R := 0 + 1) (duties_fs_later m c 45)) $$ [Hat] with Hz
  · isplitr; · iexact HIx
    iexact Hat
  iclear HIx
  ihave AccZfs := (acc_step (famZfs (F := F) c) 45 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W232, HO⟩
  -- step 394: wait arg5[45] (arg1[(k0_off3 d0 2880#32)], arg1[(k0_off3 d0 2880#32)])
  first | sl_exec | skip
  ihave Hs := (Entails.of_eq (take_step (famCFR (F := F) c) 45 (by decide))) $$ [FcFR]
  · iexact FcFR
  icases Hs with ⟨Hc, FcFR⟩
  ihave Hs := (Entails.of_eq (take_step (famAtFR (F := F) c) 45 (by decide))) $$ [FatFR]
  · iexact FatFR
  icases Hs with ⟨Hat, FatFR⟩
  ihave #HIw := (Prep.inv_fr m K c 45) $$ HI
  iapply (Rounds.wp_wait_rest_token 𝒱₀ ER (rd m) (c : Thread nD τ) none (κ := K (c, some (3, 45))) (sm := .dma (frS 45))
      (wpE_waitDma2_eq 𝒱₀ (c : Thread nD τ) none Set.univ (src := fSl c 45) (dst := fSl c 45)) (Set.mem_univ _) () (O := 0) (W := W232) (R := 0) (m := 0) (T := ∅)
      (by rw [Nat.zero_add]; exact (expect_fr m c 45).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 45)) $$ Hpay
  ihave AccF := (acc_step (famF m c) 45 (by decide)) $$ [AccF HFk]
  · isplitl [AccF]; · iexact AccF
    iexact HFk
  ihave #HIx := (Prep.inv_fr m K c 45) $$ HI
  imod (Rounds.cell_close ER (rd m) (Set.mem_univ (K (c, some (3, 45)))) (fun h => h) (R := 0 + 1) (duties_fr_later m c 45)) $$ [Hat] with Hz
  · isplitr; · iexact HIx
    iexact Hat
  iclear HIx
  ihave AccZfr := (acc_step (famZfr (F := F) c) 45 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W233, HO⟩
  -- step 395: wait arg2[46] (arg1[(k0_off1 d0 2944#32)], arg0[(k0_off2 d0 2944#32)])
  first | sl_exec | skip
  ihave Hs := (Entails.of_eq (take_step (famCYS (F := F) c) 46 (by decide))) $$ [FcYS]
  · iexact FcYS
  icases Hs with ⟨Hc, FcYS⟩
  ihave Hs := (Entails.of_eq (take_step (famAtYS (F := F) c) 46 (by decide))) $$ [FatYS]
  · iexact FatYS
  icases Hs with ⟨Hat, FatYS⟩
  ihave #HIw := (Prep.inv_ys m K c 46) $$ HI
  iapply (Rounds.wp_wait_rest_token 𝒱₀ ER (rd m) (c : Thread nD τ) none (κ := K (c, some (0, 46))) (sm := .dma (ysS 46))
      (wpE_waitDma2_eq 𝒱₀ (c : Thread nD τ) none Set.univ (src := yDst c 46) (dst := ySrc c 46)) (Set.mem_univ _) () (O := 0) (W := W233) (R := 0) (m := 0) (T := ∅)
      (by rw [Nat.zero_add]; exact (expect_ys m c 46).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 46)) $$ Hpay
  ihave AccXY := (acc_step (famXY m c) 46 (by decide)) $$ [AccXY Hxy]
  · isplitl [AccXY]; · iexact AccXY
    iexact Hxy
  ihave #HIx := (Prep.inv_ys m K c 46) $$ HI
  imod (Rounds.cell_close ER (rd m) (Set.mem_univ (K (c, some (0, 46)))) (fun h => h) (R := 0 + 1) (duties_ys_later m c 46)) $$ [Hat] with Hz
  · isplitr; · iexact HIx
    iexact Hat
  iclear HIx
  ihave AccZys := (acc_step (famZys (F := F) c) 46 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W234, HO⟩
  -- step 396: wait arg4[46] (arg1[(k0_off3 d0 2944#32)], arg1[(k0_off3 d0 2944#32)])
  first | sl_exec | skip
  ihave Hs := (Entails.of_eq (take_step (famCFS (F := F) c) 46 (by decide))) $$ [FcFS]
  · iexact FcFS
  icases Hs with ⟨Hc, FcFS⟩
  ihave Hs := (Entails.of_eq (take_step (famAtFS (F := F) c) 46 (by decide))) $$ [FatFS]
  · iexact FatFS
  icases Hs with ⟨Hat, FatFS⟩
  ihave #HIw := (Prep.inv_fs m K c 46) $$ HI
  iapply (Rounds.wp_wait_rest_token 𝒱₀ ER (rd m) (c : Thread nD τ) none (κ := K (c, some (2, 46))) (sm := .dma (fsS 46))
      (wpE_waitDma2_eq 𝒱₀ (c : Thread nD τ) none Set.univ (src := fSl c 46) (dst := fSl c 46)) (Set.mem_univ _) () (O := 0) (W := W234) (R := 0) (m := 0) (T := ∅)
      (by rw [Nat.zero_add]; exact (expect_fs m c 46).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 46)) $$ Hpay
  ihave AccY := (acc_step (famY m c) 46 (by decide)) $$ [AccY HYk]
  · isplitl [AccY]; · iexact AccY
    iexact HYk
  ihave #HIx := (Prep.inv_fs m K c 46) $$ HI
  imod (Rounds.cell_close ER (rd m) (Set.mem_univ (K (c, some (2, 46)))) (fun h => h) (R := 0 + 1) (duties_fs_later m c 46)) $$ [Hat] with Hz
  · isplitr; · iexact HIx
    iexact Hat
  iclear HIx
  ihave AccZfs := (acc_step (famZfs (F := F) c) 46 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W235, HO⟩
  -- step 397: wait arg5[46] (arg1[(k0_off3 d0 2944#32)], arg1[(k0_off3 d0 2944#32)])
  first | sl_exec | skip
  ihave Hs := (Entails.of_eq (take_step (famCFR (F := F) c) 46 (by decide))) $$ [FcFR]
  · iexact FcFR
  icases Hs with ⟨Hc, FcFR⟩
  ihave Hs := (Entails.of_eq (take_step (famAtFR (F := F) c) 46 (by decide))) $$ [FatFR]
  · iexact FatFR
  icases Hs with ⟨Hat, FatFR⟩
  ihave #HIw := (Prep.inv_fr m K c 46) $$ HI
  iapply (Rounds.wp_wait_rest_token 𝒱₀ ER (rd m) (c : Thread nD τ) none (κ := K (c, some (3, 46))) (sm := .dma (frS 46))
      (wpE_waitDma2_eq 𝒱₀ (c : Thread nD τ) none Set.univ (src := fSl c 46) (dst := fSl c 46)) (Set.mem_univ _) () (O := 0) (W := W235) (R := 0) (m := 0) (T := ∅)
      (by rw [Nat.zero_add]; exact (expect_fr m c 46).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 46)) $$ Hpay
  ihave AccF := (acc_step (famF m c) 46 (by decide)) $$ [AccF HFk]
  · isplitl [AccF]; · iexact AccF
    iexact HFk
  ihave #HIx := (Prep.inv_fr m K c 46) $$ HI
  imod (Rounds.cell_close ER (rd m) (Set.mem_univ (K (c, some (3, 46)))) (fun h => h) (R := 0 + 1) (duties_fr_later m c 46)) $$ [Hat] with Hz
  · isplitr; · iexact HIx
    iexact Hat
  iclear HIx
  ihave AccZfr := (acc_step (famZfr (F := F) c) 46 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W236, HO⟩
  -- step 398: wait arg2[47] (arg1[(k0_off1 d0 3008#32)], arg0[(k0_off2 d0 3008#32)])
  first | sl_exec | skip
  ihave Hs := (Entails.of_eq (take_step (famCYS (F := F) c) 47 (by decide))) $$ [FcYS]
  · iexact FcYS
  icases Hs with ⟨Hc, FcYS⟩
  ihave Hs := (Entails.of_eq (take_step (famAtYS (F := F) c) 47 (by decide))) $$ [FatYS]
  · iexact FatYS
  icases Hs with ⟨Hat, FatYS⟩
  ihave #HIw := (Prep.inv_ys m K c 47) $$ HI
  iapply (Rounds.wp_wait_rest_token 𝒱₀ ER (rd m) (c : Thread nD τ) none (κ := K (c, some (0, 47))) (sm := .dma (ysS 47))
      (wpE_waitDma2_eq 𝒱₀ (c : Thread nD τ) none Set.univ (src := yDst c 47) (dst := ySrc c 47)) (Set.mem_univ _) () (O := 0) (W := W236) (R := 0) (m := 0) (T := ∅)
      (by rw [Nat.zero_add]; exact (expect_ys m c 47).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 47)) $$ Hpay
  ihave AccXY := (acc_step (famXY m c) 47 (by decide)) $$ [AccXY Hxy]
  · isplitl [AccXY]; · iexact AccXY
    iexact Hxy
  ihave #HIx := (Prep.inv_ys m K c 47) $$ HI
  imod (Rounds.cell_close ER (rd m) (Set.mem_univ (K (c, some (0, 47)))) (fun h => h) (R := 0 + 1) (duties_ys_later m c 47)) $$ [Hat] with Hz
  · isplitr; · iexact HIx
    iexact Hat
  iclear HIx
  ihave AccZys := (acc_step (famZys (F := F) c) 47 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W237, HO⟩
  -- step 399: wait arg4[47] (arg1[(k0_off3 d0 3008#32)], arg1[(k0_off3 d0 3008#32)])
  first | sl_exec | skip
  ihave Hs := (Entails.of_eq (take_step (famCFS (F := F) c) 47 (by decide))) $$ [FcFS]
  · iexact FcFS
  icases Hs with ⟨Hc, FcFS⟩
  ihave Hs := (Entails.of_eq (take_step (famAtFS (F := F) c) 47 (by decide))) $$ [FatFS]
  · iexact FatFS
  icases Hs with ⟨Hat, FatFS⟩
  ihave #HIw := (Prep.inv_fs m K c 47) $$ HI
  iapply (Rounds.wp_wait_rest_token 𝒱₀ ER (rd m) (c : Thread nD τ) none (κ := K (c, some (2, 47))) (sm := .dma (fsS 47))
      (wpE_waitDma2_eq 𝒱₀ (c : Thread nD τ) none Set.univ (src := fSl c 47) (dst := fSl c 47)) (Set.mem_univ _) () (O := 0) (W := W237) (R := 0) (m := 0) (T := ∅)
      (by rw [Nat.zero_add]; exact (expect_fs m c 47).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 47)) $$ Hpay
  ihave AccY := (acc_step (famY m c) 47 (by decide)) $$ [AccY HYk]
  · isplitl [AccY]; · iexact AccY
    iexact HYk
  ihave #HIx := (Prep.inv_fs m K c 47) $$ HI
  imod (Rounds.cell_close ER (rd m) (Set.mem_univ (K (c, some (2, 47)))) (fun h => h) (R := 0 + 1) (duties_fs_later m c 47)) $$ [Hat] with Hz
  · isplitr; · iexact HIx
    iexact Hat
  iclear HIx
  ihave AccZfs := (acc_step (famZfs (F := F) c) 47 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W238, HO⟩
  -- step 400: wait arg5[47] (arg1[(k0_off3 d0 3008#32)], arg1[(k0_off3 d0 3008#32)])
  first | sl_exec | skip
  ihave Hs := (Entails.of_eq (take_step (famCFR (F := F) c) 47 (by decide))) $$ [FcFR]
  · iexact FcFR
  icases Hs with ⟨Hc, FcFR⟩
  ihave Hs := (Entails.of_eq (take_step (famAtFR (F := F) c) 47 (by decide))) $$ [FatFR]
  · iexact FatFR
  icases Hs with ⟨Hat, FatFR⟩
  ihave #HIw := (Prep.inv_fr m K c 47) $$ HI
  iapply (Rounds.wp_wait_rest_token 𝒱₀ ER (rd m) (c : Thread nD τ) none (κ := K (c, some (3, 47))) (sm := .dma (frS 47))
      (wpE_waitDma2_eq 𝒱₀ (c : Thread nD τ) none Set.univ (src := fSl c 47) (dst := fSl c 47)) (Set.mem_univ _) () (O := 0) (W := W238) (R := 0) (m := 0) (T := ∅)
      (by rw [Nat.zero_add]; exact (expect_fr m c 47).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 47)) $$ Hpay
  ihave AccF := (acc_step (famF m c) 47 (by decide)) $$ [AccF HFk]
  · isplitl [AccF]; · iexact AccF
    iexact HFk
  ihave #HIx := (Prep.inv_fr m K c 47) $$ HI
  imod (Rounds.cell_close ER (rd m) (Set.mem_univ (K (c, some (3, 47)))) (fun h => h) (R := 0 + 1) (duties_fr_later m c 47)) $$ [Hat] with Hz
  · isplitr; · iexact HIx
    iexact Hat
  iclear HIx
  ihave AccZfr := (acc_step (famZfr (F := F) c) 47 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W239, HO⟩
  -- step 401: wait arg2[48] (arg1[(k0_off1 d0 3072#32)], arg0[(k0_off2 d0 3072#32)])
  first | sl_exec | skip
  ihave Hs := (Entails.of_eq (take_step (famCYS (F := F) c) 48 (by decide))) $$ [FcYS]
  · iexact FcYS
  icases Hs with ⟨Hc, FcYS⟩
  ihave Hs := (Entails.of_eq (take_step (famAtYS (F := F) c) 48 (by decide))) $$ [FatYS]
  · iexact FatYS
  icases Hs with ⟨Hat, FatYS⟩
  ihave #HIw := (Prep.inv_ys m K c 48) $$ HI
  iapply (Rounds.wp_wait_rest_token 𝒱₀ ER (rd m) (c : Thread nD τ) none (κ := K (c, some (0, 48))) (sm := .dma (ysS 48))
      (wpE_waitDma2_eq 𝒱₀ (c : Thread nD τ) none Set.univ (src := yDst c 48) (dst := ySrc c 48)) (Set.mem_univ _) () (O := 0) (W := W239) (R := 0) (m := 0) (T := ∅)
      (by rw [Nat.zero_add]; exact (expect_ys m c 48).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 48)) $$ Hpay
  ihave AccXY := (acc_step (famXY m c) 48 (by decide)) $$ [AccXY Hxy]
  · isplitl [AccXY]; · iexact AccXY
    iexact Hxy
  ihave #HIx := (Prep.inv_ys m K c 48) $$ HI
  imod (Rounds.cell_close ER (rd m) (Set.mem_univ (K (c, some (0, 48)))) (fun h => h) (R := 0 + 1) (duties_ys_later m c 48)) $$ [Hat] with Hz
  · isplitr; · iexact HIx
    iexact Hat
  iclear HIx
  ihave AccZys := (acc_step (famZys (F := F) c) 48 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W240, HO⟩
  -- step 402: wait arg4[48] (arg1[(k0_off3 d0 3072#32)], arg1[(k0_off3 d0 3072#32)])
  first | sl_exec | skip
  ihave Hs := (Entails.of_eq (take_step (famCFS (F := F) c) 48 (by decide))) $$ [FcFS]
  · iexact FcFS
  icases Hs with ⟨Hc, FcFS⟩
  ihave Hs := (Entails.of_eq (take_step (famAtFS (F := F) c) 48 (by decide))) $$ [FatFS]
  · iexact FatFS
  icases Hs with ⟨Hat, FatFS⟩
  ihave #HIw := (Prep.inv_fs m K c 48) $$ HI
  iapply (Rounds.wp_wait_rest_token 𝒱₀ ER (rd m) (c : Thread nD τ) none (κ := K (c, some (2, 48))) (sm := .dma (fsS 48))
      (wpE_waitDma2_eq 𝒱₀ (c : Thread nD τ) none Set.univ (src := fSl c 48) (dst := fSl c 48)) (Set.mem_univ _) () (O := 0) (W := W240) (R := 0) (m := 0) (T := ∅)
      (by rw [Nat.zero_add]; exact (expect_fs m c 48).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 48)) $$ Hpay
  ihave AccY := (acc_step (famY m c) 48 (by decide)) $$ [AccY HYk]
  · isplitl [AccY]; · iexact AccY
    iexact HYk
  ihave #HIx := (Prep.inv_fs m K c 48) $$ HI
  imod (Rounds.cell_close ER (rd m) (Set.mem_univ (K (c, some (2, 48)))) (fun h => h) (R := 0 + 1) (duties_fs_later m c 48)) $$ [Hat] with Hz
  · isplitr; · iexact HIx
    iexact Hat
  iclear HIx
  ihave AccZfs := (acc_step (famZfs (F := F) c) 48 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W241, HO⟩
  -- step 403: wait arg5[48] (arg1[(k0_off3 d0 3072#32)], arg1[(k0_off3 d0 3072#32)])
  first | sl_exec | skip
  ihave Hs := (Entails.of_eq (take_step (famCFR (F := F) c) 48 (by decide))) $$ [FcFR]
  · iexact FcFR
  icases Hs with ⟨Hc, FcFR⟩
  ihave Hs := (Entails.of_eq (take_step (famAtFR (F := F) c) 48 (by decide))) $$ [FatFR]
  · iexact FatFR
  icases Hs with ⟨Hat, FatFR⟩
  ihave #HIw := (Prep.inv_fr m K c 48) $$ HI
  iapply (Rounds.wp_wait_rest_token 𝒱₀ ER (rd m) (c : Thread nD τ) none (κ := K (c, some (3, 48))) (sm := .dma (frS 48))
      (wpE_waitDma2_eq 𝒱₀ (c : Thread nD τ) none Set.univ (src := fSl c 48) (dst := fSl c 48)) (Set.mem_univ _) () (O := 0) (W := W241) (R := 0) (m := 0) (T := ∅)
      (by rw [Nat.zero_add]; exact (expect_fr m c 48).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 48)) $$ Hpay
  ihave AccF := (acc_step (famF m c) 48 (by decide)) $$ [AccF HFk]
  · isplitl [AccF]; · iexact AccF
    iexact HFk
  ihave #HIx := (Prep.inv_fr m K c 48) $$ HI
  imod (Rounds.cell_close ER (rd m) (Set.mem_univ (K (c, some (3, 48)))) (fun h => h) (R := 0 + 1) (duties_fr_later m c 48)) $$ [Hat] with Hz
  · isplitr; · iexact HIx
    iexact Hat
  iclear HIx
  ihave AccZfr := (acc_step (famZfr (F := F) c) 48 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W242, HO⟩
  -- step 404: wait arg2[49] (arg1[(k0_off1 d0 3136#32)], arg0[(k0_off2 d0 3136#32)])
  first | sl_exec | skip
  ihave Hs := (Entails.of_eq (take_step (famCYS (F := F) c) 49 (by decide))) $$ [FcYS]
  · iexact FcYS
  icases Hs with ⟨Hc, FcYS⟩
  ihave Hs := (Entails.of_eq (take_step (famAtYS (F := F) c) 49 (by decide))) $$ [FatYS]
  · iexact FatYS
  icases Hs with ⟨Hat, FatYS⟩
  ihave #HIw := (Prep.inv_ys m K c 49) $$ HI
  iapply (Rounds.wp_wait_rest_token 𝒱₀ ER (rd m) (c : Thread nD τ) none (κ := K (c, some (0, 49))) (sm := .dma (ysS 49))
      (wpE_waitDma2_eq 𝒱₀ (c : Thread nD τ) none Set.univ (src := yDst c 49) (dst := ySrc c 49)) (Set.mem_univ _) () (O := 0) (W := W242) (R := 0) (m := 0) (T := ∅)
      (by rw [Nat.zero_add]; exact (expect_ys m c 49).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 49)) $$ Hpay
  ihave AccXY := (acc_step (famXY m c) 49 (by decide)) $$ [AccXY Hxy]
  · isplitl [AccXY]; · iexact AccXY
    iexact Hxy
  ihave #HIx := (Prep.inv_ys m K c 49) $$ HI
  imod (Rounds.cell_close ER (rd m) (Set.mem_univ (K (c, some (0, 49)))) (fun h => h) (R := 0 + 1) (duties_ys_later m c 49)) $$ [Hat] with Hz
  · isplitr; · iexact HIx
    iexact Hat
  iclear HIx
  ihave AccZys := (acc_step (famZys (F := F) c) 49 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W243, HO⟩
  -- step 405: wait arg4[49] (arg1[(k0_off3 d0 3136#32)], arg1[(k0_off3 d0 3136#32)])
  first | sl_exec | skip
  ihave Hs := (Entails.of_eq (take_step (famCFS (F := F) c) 49 (by decide))) $$ [FcFS]
  · iexact FcFS
  icases Hs with ⟨Hc, FcFS⟩
  ihave Hs := (Entails.of_eq (take_step (famAtFS (F := F) c) 49 (by decide))) $$ [FatFS]
  · iexact FatFS
  icases Hs with ⟨Hat, FatFS⟩
  ihave #HIw := (Prep.inv_fs m K c 49) $$ HI
  iapply (Rounds.wp_wait_rest_token 𝒱₀ ER (rd m) (c : Thread nD τ) none (κ := K (c, some (2, 49))) (sm := .dma (fsS 49))
      (wpE_waitDma2_eq 𝒱₀ (c : Thread nD τ) none Set.univ (src := fSl c 49) (dst := fSl c 49)) (Set.mem_univ _) () (O := 0) (W := W243) (R := 0) (m := 0) (T := ∅)
      (by rw [Nat.zero_add]; exact (expect_fs m c 49).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 49)) $$ Hpay
  ihave AccY := (acc_step (famY m c) 49 (by decide)) $$ [AccY HYk]
  · isplitl [AccY]; · iexact AccY
    iexact HYk
  ihave #HIx := (Prep.inv_fs m K c 49) $$ HI
  imod (Rounds.cell_close ER (rd m) (Set.mem_univ (K (c, some (2, 49)))) (fun h => h) (R := 0 + 1) (duties_fs_later m c 49)) $$ [Hat] with Hz
  · isplitr; · iexact HIx
    iexact Hat
  iclear HIx
  ihave AccZfs := (acc_step (famZfs (F := F) c) 49 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W244, HO⟩
  -- step 406: wait arg5[49] (arg1[(k0_off3 d0 3136#32)], arg1[(k0_off3 d0 3136#32)])
  first | sl_exec | skip
  ihave Hs := (Entails.of_eq (take_step (famCFR (F := F) c) 49 (by decide))) $$ [FcFR]
  · iexact FcFR
  icases Hs with ⟨Hc, FcFR⟩
  ihave Hs := (Entails.of_eq (take_step (famAtFR (F := F) c) 49 (by decide))) $$ [FatFR]
  · iexact FatFR
  icases Hs with ⟨Hat, FatFR⟩
  ihave #HIw := (Prep.inv_fr m K c 49) $$ HI
  iapply (Rounds.wp_wait_rest_token 𝒱₀ ER (rd m) (c : Thread nD τ) none (κ := K (c, some (3, 49))) (sm := .dma (frS 49))
      (wpE_waitDma2_eq 𝒱₀ (c : Thread nD τ) none Set.univ (src := fSl c 49) (dst := fSl c 49)) (Set.mem_univ _) () (O := 0) (W := W244) (R := 0) (m := 0) (T := ∅)
      (by rw [Nat.zero_add]; exact (expect_fr m c 49).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 49)) $$ Hpay
  ihave AccF := (acc_step (famF m c) 49 (by decide)) $$ [AccF HFk]
  · isplitl [AccF]; · iexact AccF
    iexact HFk
  ihave #HIx := (Prep.inv_fr m K c 49) $$ HI
  imod (Rounds.cell_close ER (rd m) (Set.mem_univ (K (c, some (3, 49)))) (fun h => h) (R := 0 + 1) (duties_fr_later m c 49)) $$ [Hat] with Hz
  · isplitr; · iexact HIx
    iexact Hat
  iclear HIx
  ihave AccZfr := (acc_step (famZfr (F := F) c) 49 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W245, HO⟩
  -- step 407: wait arg2[50] (arg1[(k0_off1 d0 3200#32)], arg0[(k0_off2 d0 3200#32)])
  first | sl_exec | skip
  ihave Hs := (Entails.of_eq (take_step (famCYS (F := F) c) 50 (by decide))) $$ [FcYS]
  · iexact FcYS
  icases Hs with ⟨Hc, FcYS⟩
  ihave Hs := (Entails.of_eq (take_step (famAtYS (F := F) c) 50 (by decide))) $$ [FatYS]
  · iexact FatYS
  icases Hs with ⟨Hat, FatYS⟩
  ihave #HIw := (Prep.inv_ys m K c 50) $$ HI
  iapply (Rounds.wp_wait_rest_token 𝒱₀ ER (rd m) (c : Thread nD τ) none (κ := K (c, some (0, 50))) (sm := .dma (ysS 50))
      (wpE_waitDma2_eq 𝒱₀ (c : Thread nD τ) none Set.univ (src := yDst c 50) (dst := ySrc c 50)) (Set.mem_univ _) () (O := 0) (W := W245) (R := 0) (m := 0) (T := ∅)
      (by rw [Nat.zero_add]; exact (expect_ys m c 50).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 50)) $$ Hpay
  ihave AccXY := (acc_step (famXY m c) 50 (by decide)) $$ [AccXY Hxy]
  · isplitl [AccXY]; · iexact AccXY
    iexact Hxy
  ihave #HIx := (Prep.inv_ys m K c 50) $$ HI
  imod (Rounds.cell_close ER (rd m) (Set.mem_univ (K (c, some (0, 50)))) (fun h => h) (R := 0 + 1) (duties_ys_later m c 50)) $$ [Hat] with Hz
  · isplitr; · iexact HIx
    iexact Hat
  iclear HIx
  ihave AccZys := (acc_step (famZys (F := F) c) 50 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W246, HO⟩
  -- step 408: wait arg4[50] (arg1[(k0_off3 d0 3200#32)], arg1[(k0_off3 d0 3200#32)])
  first | sl_exec | skip
  ihave Hs := (Entails.of_eq (take_step (famCFS (F := F) c) 50 (by decide))) $$ [FcFS]
  · iexact FcFS
  icases Hs with ⟨Hc, FcFS⟩
  ihave Hs := (Entails.of_eq (take_step (famAtFS (F := F) c) 50 (by decide))) $$ [FatFS]
  · iexact FatFS
  icases Hs with ⟨Hat, FatFS⟩
  ihave #HIw := (Prep.inv_fs m K c 50) $$ HI
  iapply (Rounds.wp_wait_rest_token 𝒱₀ ER (rd m) (c : Thread nD τ) none (κ := K (c, some (2, 50))) (sm := .dma (fsS 50))
      (wpE_waitDma2_eq 𝒱₀ (c : Thread nD τ) none Set.univ (src := fSl c 50) (dst := fSl c 50)) (Set.mem_univ _) () (O := 0) (W := W246) (R := 0) (m := 0) (T := ∅)
      (by rw [Nat.zero_add]; exact (expect_fs m c 50).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 50)) $$ Hpay
  ihave AccY := (acc_step (famY m c) 50 (by decide)) $$ [AccY HYk]
  · isplitl [AccY]; · iexact AccY
    iexact HYk
  ihave #HIx := (Prep.inv_fs m K c 50) $$ HI
  imod (Rounds.cell_close ER (rd m) (Set.mem_univ (K (c, some (2, 50)))) (fun h => h) (R := 0 + 1) (duties_fs_later m c 50)) $$ [Hat] with Hz
  · isplitr; · iexact HIx
    iexact Hat
  iclear HIx
  ihave AccZfs := (acc_step (famZfs (F := F) c) 50 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W247, HO⟩
  -- step 409: wait arg5[50] (arg1[(k0_off3 d0 3200#32)], arg1[(k0_off3 d0 3200#32)])
  first | sl_exec | skip
  ihave Hs := (Entails.of_eq (take_step (famCFR (F := F) c) 50 (by decide))) $$ [FcFR]
  · iexact FcFR
  icases Hs with ⟨Hc, FcFR⟩
  ihave Hs := (Entails.of_eq (take_step (famAtFR (F := F) c) 50 (by decide))) $$ [FatFR]
  · iexact FatFR
  icases Hs with ⟨Hat, FatFR⟩
  ihave #HIw := (Prep.inv_fr m K c 50) $$ HI
  iapply (Rounds.wp_wait_rest_token 𝒱₀ ER (rd m) (c : Thread nD τ) none (κ := K (c, some (3, 50))) (sm := .dma (frS 50))
      (wpE_waitDma2_eq 𝒱₀ (c : Thread nD τ) none Set.univ (src := fSl c 50) (dst := fSl c 50)) (Set.mem_univ _) () (O := 0) (W := W247) (R := 0) (m := 0) (T := ∅)
      (by rw [Nat.zero_add]; exact (expect_fr m c 50).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 50)) $$ Hpay
  ihave AccF := (acc_step (famF m c) 50 (by decide)) $$ [AccF HFk]
  · isplitl [AccF]; · iexact AccF
    iexact HFk
  ihave #HIx := (Prep.inv_fr m K c 50) $$ HI
  imod (Rounds.cell_close ER (rd m) (Set.mem_univ (K (c, some (3, 50)))) (fun h => h) (R := 0 + 1) (duties_fr_later m c 50)) $$ [Hat] with Hz
  · isplitr; · iexact HIx
    iexact Hat
  iclear HIx
  ihave AccZfr := (acc_step (famZfr (F := F) c) 50 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W248, HO⟩
  -- step 410: wait arg2[51] (arg1[(k0_off1 d0 3264#32)], arg0[(k0_off2 d0 3264#32)])
  first | sl_exec | skip
  ihave Hs := (Entails.of_eq (take_step (famCYS (F := F) c) 51 (by decide))) $$ [FcYS]
  · iexact FcYS
  icases Hs with ⟨Hc, FcYS⟩
  ihave Hs := (Entails.of_eq (take_step (famAtYS (F := F) c) 51 (by decide))) $$ [FatYS]
  · iexact FatYS
  icases Hs with ⟨Hat, FatYS⟩
  ihave #HIw := (Prep.inv_ys m K c 51) $$ HI
  iapply (Rounds.wp_wait_rest_token 𝒱₀ ER (rd m) (c : Thread nD τ) none (κ := K (c, some (0, 51))) (sm := .dma (ysS 51))
      (wpE_waitDma2_eq 𝒱₀ (c : Thread nD τ) none Set.univ (src := yDst c 51) (dst := ySrc c 51)) (Set.mem_univ _) () (O := 0) (W := W248) (R := 0) (m := 0) (T := ∅)
      (by rw [Nat.zero_add]; exact (expect_ys m c 51).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 51)) $$ Hpay
  ihave AccXY := (acc_step (famXY m c) 51 (by decide)) $$ [AccXY Hxy]
  · isplitl [AccXY]; · iexact AccXY
    iexact Hxy
  ihave #HIx := (Prep.inv_ys m K c 51) $$ HI
  imod (Rounds.cell_close ER (rd m) (Set.mem_univ (K (c, some (0, 51)))) (fun h => h) (R := 0 + 1) (duties_ys_later m c 51)) $$ [Hat] with Hz
  · isplitr; · iexact HIx
    iexact Hat
  iclear HIx
  ihave AccZys := (acc_step (famZys (F := F) c) 51 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W249, HO⟩
  -- step 411: wait arg4[51] (arg1[(k0_off3 d0 3264#32)], arg1[(k0_off3 d0 3264#32)])
  first | sl_exec | skip
  ihave Hs := (Entails.of_eq (take_step (famCFS (F := F) c) 51 (by decide))) $$ [FcFS]
  · iexact FcFS
  icases Hs with ⟨Hc, FcFS⟩
  ihave Hs := (Entails.of_eq (take_step (famAtFS (F := F) c) 51 (by decide))) $$ [FatFS]
  · iexact FatFS
  icases Hs with ⟨Hat, FatFS⟩
  ihave #HIw := (Prep.inv_fs m K c 51) $$ HI
  iapply (Rounds.wp_wait_rest_token 𝒱₀ ER (rd m) (c : Thread nD τ) none (κ := K (c, some (2, 51))) (sm := .dma (fsS 51))
      (wpE_waitDma2_eq 𝒱₀ (c : Thread nD τ) none Set.univ (src := fSl c 51) (dst := fSl c 51)) (Set.mem_univ _) () (O := 0) (W := W249) (R := 0) (m := 0) (T := ∅)
      (by rw [Nat.zero_add]; exact (expect_fs m c 51).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 51)) $$ Hpay
  ihave AccY := (acc_step (famY m c) 51 (by decide)) $$ [AccY HYk]
  · isplitl [AccY]; · iexact AccY
    iexact HYk
  ihave #HIx := (Prep.inv_fs m K c 51) $$ HI
  imod (Rounds.cell_close ER (rd m) (Set.mem_univ (K (c, some (2, 51)))) (fun h => h) (R := 0 + 1) (duties_fs_later m c 51)) $$ [Hat] with Hz
  · isplitr; · iexact HIx
    iexact Hat
  iclear HIx
  ihave AccZfs := (acc_step (famZfs (F := F) c) 51 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W250, HO⟩
  -- step 412: wait arg5[51] (arg1[(k0_off3 d0 3264#32)], arg1[(k0_off3 d0 3264#32)])
  first | sl_exec | skip
  ihave Hs := (Entails.of_eq (take_step (famCFR (F := F) c) 51 (by decide))) $$ [FcFR]
  · iexact FcFR
  icases Hs with ⟨Hc, FcFR⟩
  ihave Hs := (Entails.of_eq (take_step (famAtFR (F := F) c) 51 (by decide))) $$ [FatFR]
  · iexact FatFR
  icases Hs with ⟨Hat, FatFR⟩
  ihave #HIw := (Prep.inv_fr m K c 51) $$ HI
  iapply (Rounds.wp_wait_rest_token 𝒱₀ ER (rd m) (c : Thread nD τ) none (κ := K (c, some (3, 51))) (sm := .dma (frS 51))
      (wpE_waitDma2_eq 𝒱₀ (c : Thread nD τ) none Set.univ (src := fSl c 51) (dst := fSl c 51)) (Set.mem_univ _) () (O := 0) (W := W250) (R := 0) (m := 0) (T := ∅)
      (by rw [Nat.zero_add]; exact (expect_fr m c 51).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 51)) $$ Hpay
  ihave AccF := (acc_step (famF m c) 51 (by decide)) $$ [AccF HFk]
  · isplitl [AccF]; · iexact AccF
    iexact HFk
  ihave #HIx := (Prep.inv_fr m K c 51) $$ HI
  imod (Rounds.cell_close ER (rd m) (Set.mem_univ (K (c, some (3, 51)))) (fun h => h) (R := 0 + 1) (duties_fr_later m c 51)) $$ [Hat] with Hz
  · isplitr; · iexact HIx
    iexact Hat
  iclear HIx
  ihave AccZfr := (acc_step (famZfr (F := F) c) 51 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W251, HO⟩
  -- step 413: wait arg2[52] (arg1[(k0_off1 d0 3328#32)], arg0[(k0_off2 d0 3328#32)])
  first | sl_exec | skip
  ihave Hs := (Entails.of_eq (take_step (famCYS (F := F) c) 52 (by decide))) $$ [FcYS]
  · iexact FcYS
  icases Hs with ⟨Hc, FcYS⟩
  ihave Hs := (Entails.of_eq (take_step (famAtYS (F := F) c) 52 (by decide))) $$ [FatYS]
  · iexact FatYS
  icases Hs with ⟨Hat, FatYS⟩
  ihave #HIw := (Prep.inv_ys m K c 52) $$ HI
  iapply (Rounds.wp_wait_rest_token 𝒱₀ ER (rd m) (c : Thread nD τ) none (κ := K (c, some (0, 52))) (sm := .dma (ysS 52))
      (wpE_waitDma2_eq 𝒱₀ (c : Thread nD τ) none Set.univ (src := yDst c 52) (dst := ySrc c 52)) (Set.mem_univ _) () (O := 0) (W := W251) (R := 0) (m := 0) (T := ∅)
      (by rw [Nat.zero_add]; exact (expect_ys m c 52).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 52)) $$ Hpay
  ihave AccXY := (acc_step (famXY m c) 52 (by decide)) $$ [AccXY Hxy]
  · isplitl [AccXY]; · iexact AccXY
    iexact Hxy
  ihave #HIx := (Prep.inv_ys m K c 52) $$ HI
  imod (Rounds.cell_close ER (rd m) (Set.mem_univ (K (c, some (0, 52)))) (fun h => h) (R := 0 + 1) (duties_ys_later m c 52)) $$ [Hat] with Hz
  · isplitr; · iexact HIx
    iexact Hat
  iclear HIx
  ihave AccZys := (acc_step (famZys (F := F) c) 52 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W252, HO⟩
  -- step 414: wait arg4[52] (arg1[(k0_off3 d0 3328#32)], arg1[(k0_off3 d0 3328#32)])
  first | sl_exec | skip
  ihave Hs := (Entails.of_eq (take_step (famCFS (F := F) c) 52 (by decide))) $$ [FcFS]
  · iexact FcFS
  icases Hs with ⟨Hc, FcFS⟩
  ihave Hs := (Entails.of_eq (take_step (famAtFS (F := F) c) 52 (by decide))) $$ [FatFS]
  · iexact FatFS
  icases Hs with ⟨Hat, FatFS⟩
  ihave #HIw := (Prep.inv_fs m K c 52) $$ HI
  iapply (Rounds.wp_wait_rest_token 𝒱₀ ER (rd m) (c : Thread nD τ) none (κ := K (c, some (2, 52))) (sm := .dma (fsS 52))
      (wpE_waitDma2_eq 𝒱₀ (c : Thread nD τ) none Set.univ (src := fSl c 52) (dst := fSl c 52)) (Set.mem_univ _) () (O := 0) (W := W252) (R := 0) (m := 0) (T := ∅)
      (by rw [Nat.zero_add]; exact (expect_fs m c 52).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 52)) $$ Hpay
  ihave AccY := (acc_step (famY m c) 52 (by decide)) $$ [AccY HYk]
  · isplitl [AccY]; · iexact AccY
    iexact HYk
  ihave #HIx := (Prep.inv_fs m K c 52) $$ HI
  imod (Rounds.cell_close ER (rd m) (Set.mem_univ (K (c, some (2, 52)))) (fun h => h) (R := 0 + 1) (duties_fs_later m c 52)) $$ [Hat] with Hz
  · isplitr; · iexact HIx
    iexact Hat
  iclear HIx
  ihave AccZfs := (acc_step (famZfs (F := F) c) 52 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W253, HO⟩
  -- step 415: wait arg5[52] (arg1[(k0_off3 d0 3328#32)], arg1[(k0_off3 d0 3328#32)])
  first | sl_exec | skip
  ihave Hs := (Entails.of_eq (take_step (famCFR (F := F) c) 52 (by decide))) $$ [FcFR]
  · iexact FcFR
  icases Hs with ⟨Hc, FcFR⟩
  ihave Hs := (Entails.of_eq (take_step (famAtFR (F := F) c) 52 (by decide))) $$ [FatFR]
  · iexact FatFR
  icases Hs with ⟨Hat, FatFR⟩
  ihave #HIw := (Prep.inv_fr m K c 52) $$ HI
  iapply (Rounds.wp_wait_rest_token 𝒱₀ ER (rd m) (c : Thread nD τ) none (κ := K (c, some (3, 52))) (sm := .dma (frS 52))
      (wpE_waitDma2_eq 𝒱₀ (c : Thread nD τ) none Set.univ (src := fSl c 52) (dst := fSl c 52)) (Set.mem_univ _) () (O := 0) (W := W253) (R := 0) (m := 0) (T := ∅)
      (by rw [Nat.zero_add]; exact (expect_fr m c 52).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 52)) $$ Hpay
  ihave AccF := (acc_step (famF m c) 52 (by decide)) $$ [AccF HFk]
  · isplitl [AccF]; · iexact AccF
    iexact HFk
  ihave #HIx := (Prep.inv_fr m K c 52) $$ HI
  imod (Rounds.cell_close ER (rd m) (Set.mem_univ (K (c, some (3, 52)))) (fun h => h) (R := 0 + 1) (duties_fr_later m c 52)) $$ [Hat] with Hz
  · isplitr; · iexact HIx
    iexact Hat
  iclear HIx
  ihave AccZfr := (acc_step (famZfr (F := F) c) 52 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W254, HO⟩
  -- step 416: wait arg2[53] (arg1[(k0_off1 d0 3392#32)], arg0[(k0_off2 d0 3392#32)])
  first | sl_exec | skip
  ihave Hs := (Entails.of_eq (take_step (famCYS (F := F) c) 53 (by decide))) $$ [FcYS]
  · iexact FcYS
  icases Hs with ⟨Hc, FcYS⟩
  ihave Hs := (Entails.of_eq (take_step (famAtYS (F := F) c) 53 (by decide))) $$ [FatYS]
  · iexact FatYS
  icases Hs with ⟨Hat, FatYS⟩
  ihave #HIw := (Prep.inv_ys m K c 53) $$ HI
  iapply (Rounds.wp_wait_rest_token 𝒱₀ ER (rd m) (c : Thread nD τ) none (κ := K (c, some (0, 53))) (sm := .dma (ysS 53))
      (wpE_waitDma2_eq 𝒱₀ (c : Thread nD τ) none Set.univ (src := yDst c 53) (dst := ySrc c 53)) (Set.mem_univ _) () (O := 0) (W := W254) (R := 0) (m := 0) (T := ∅)
      (by rw [Nat.zero_add]; exact (expect_ys m c 53).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 53)) $$ Hpay
  ihave AccXY := (acc_step (famXY m c) 53 (by decide)) $$ [AccXY Hxy]
  · isplitl [AccXY]; · iexact AccXY
    iexact Hxy
  ihave #HIx := (Prep.inv_ys m K c 53) $$ HI
  imod (Rounds.cell_close ER (rd m) (Set.mem_univ (K (c, some (0, 53)))) (fun h => h) (R := 0 + 1) (duties_ys_later m c 53)) $$ [Hat] with Hz
  · isplitr; · iexact HIx
    iexact Hat
  iclear HIx
  ihave AccZys := (acc_step (famZys (F := F) c) 53 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W255, HO⟩
  -- step 417: wait arg4[53] (arg1[(k0_off3 d0 3392#32)], arg1[(k0_off3 d0 3392#32)])
  first | sl_exec | skip
  ihave Hs := (Entails.of_eq (take_step (famCFS (F := F) c) 53 (by decide))) $$ [FcFS]
  · iexact FcFS
  icases Hs with ⟨Hc, FcFS⟩
  ihave Hs := (Entails.of_eq (take_step (famAtFS (F := F) c) 53 (by decide))) $$ [FatFS]
  · iexact FatFS
  icases Hs with ⟨Hat, FatFS⟩
  ihave #HIw := (Prep.inv_fs m K c 53) $$ HI
  iapply (Rounds.wp_wait_rest_token 𝒱₀ ER (rd m) (c : Thread nD τ) none (κ := K (c, some (2, 53))) (sm := .dma (fsS 53))
      (wpE_waitDma2_eq 𝒱₀ (c : Thread nD τ) none Set.univ (src := fSl c 53) (dst := fSl c 53)) (Set.mem_univ _) () (O := 0) (W := W255) (R := 0) (m := 0) (T := ∅)
      (by rw [Nat.zero_add]; exact (expect_fs m c 53).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 53)) $$ Hpay
  ihave AccY := (acc_step (famY m c) 53 (by decide)) $$ [AccY HYk]
  · isplitl [AccY]; · iexact AccY
    iexact HYk
  ihave #HIx := (Prep.inv_fs m K c 53) $$ HI
  imod (Rounds.cell_close ER (rd m) (Set.mem_univ (K (c, some (2, 53)))) (fun h => h) (R := 0 + 1) (duties_fs_later m c 53)) $$ [Hat] with Hz
  · isplitr; · iexact HIx
    iexact Hat
  iclear HIx
  ihave AccZfs := (acc_step (famZfs (F := F) c) 53 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W256, HO⟩
  -- step 418: wait arg5[53] (arg1[(k0_off3 d0 3392#32)], arg1[(k0_off3 d0 3392#32)])
  first | sl_exec | skip
  ihave Hs := (Entails.of_eq (take_step (famCFR (F := F) c) 53 (by decide))) $$ [FcFR]
  · iexact FcFR
  icases Hs with ⟨Hc, FcFR⟩
  ihave Hs := (Entails.of_eq (take_step (famAtFR (F := F) c) 53 (by decide))) $$ [FatFR]
  · iexact FatFR
  icases Hs with ⟨Hat, FatFR⟩
  ihave #HIw := (Prep.inv_fr m K c 53) $$ HI
  iapply (Rounds.wp_wait_rest_token 𝒱₀ ER (rd m) (c : Thread nD τ) none (κ := K (c, some (3, 53))) (sm := .dma (frS 53))
      (wpE_waitDma2_eq 𝒱₀ (c : Thread nD τ) none Set.univ (src := fSl c 53) (dst := fSl c 53)) (Set.mem_univ _) () (O := 0) (W := W256) (R := 0) (m := 0) (T := ∅)
      (by rw [Nat.zero_add]; exact (expect_fr m c 53).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 53)) $$ Hpay
  ihave AccF := (acc_step (famF m c) 53 (by decide)) $$ [AccF HFk]
  · isplitl [AccF]; · iexact AccF
    iexact HFk
  ihave #HIx := (Prep.inv_fr m K c 53) $$ HI
  imod (Rounds.cell_close ER (rd m) (Set.mem_univ (K (c, some (3, 53)))) (fun h => h) (R := 0 + 1) (duties_fr_later m c 53)) $$ [Hat] with Hz
  · isplitr; · iexact HIx
    iexact Hat
  iclear HIx
  ihave AccZfr := (acc_step (famZfr (F := F) c) 53 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W257, HO⟩
  -- step 419: wait arg2[54] (arg1[(k0_off1 d0 3456#32)], arg0[(k0_off2 d0 3456#32)])
  first | sl_exec | skip
  ihave Hs := (Entails.of_eq (take_step (famCYS (F := F) c) 54 (by decide))) $$ [FcYS]
  · iexact FcYS
  icases Hs with ⟨Hc, FcYS⟩
  ihave Hs := (Entails.of_eq (take_step (famAtYS (F := F) c) 54 (by decide))) $$ [FatYS]
  · iexact FatYS
  icases Hs with ⟨Hat, FatYS⟩
  ihave #HIw := (Prep.inv_ys m K c 54) $$ HI
  iapply (Rounds.wp_wait_rest_token 𝒱₀ ER (rd m) (c : Thread nD τ) none (κ := K (c, some (0, 54))) (sm := .dma (ysS 54))
      (wpE_waitDma2_eq 𝒱₀ (c : Thread nD τ) none Set.univ (src := yDst c 54) (dst := ySrc c 54)) (Set.mem_univ _) () (O := 0) (W := W257) (R := 0) (m := 0) (T := ∅)
      (by rw [Nat.zero_add]; exact (expect_ys m c 54).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 54)) $$ Hpay
  ihave AccXY := (acc_step (famXY m c) 54 (by decide)) $$ [AccXY Hxy]
  · isplitl [AccXY]; · iexact AccXY
    iexact Hxy
  ihave #HIx := (Prep.inv_ys m K c 54) $$ HI
  imod (Rounds.cell_close ER (rd m) (Set.mem_univ (K (c, some (0, 54)))) (fun h => h) (R := 0 + 1) (duties_ys_later m c 54)) $$ [Hat] with Hz
  · isplitr; · iexact HIx
    iexact Hat
  iclear HIx
  ihave AccZys := (acc_step (famZys (F := F) c) 54 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W258, HO⟩
  -- step 420: wait arg4[54] (arg1[(k0_off3 d0 3456#32)], arg1[(k0_off3 d0 3456#32)])
  first | sl_exec | skip
  ihave Hs := (Entails.of_eq (take_step (famCFS (F := F) c) 54 (by decide))) $$ [FcFS]
  · iexact FcFS
  icases Hs with ⟨Hc, FcFS⟩
  ihave Hs := (Entails.of_eq (take_step (famAtFS (F := F) c) 54 (by decide))) $$ [FatFS]
  · iexact FatFS
  icases Hs with ⟨Hat, FatFS⟩
  ihave #HIw := (Prep.inv_fs m K c 54) $$ HI
  iapply (Rounds.wp_wait_rest_token 𝒱₀ ER (rd m) (c : Thread nD τ) none (κ := K (c, some (2, 54))) (sm := .dma (fsS 54))
      (wpE_waitDma2_eq 𝒱₀ (c : Thread nD τ) none Set.univ (src := fSl c 54) (dst := fSl c 54)) (Set.mem_univ _) () (O := 0) (W := W258) (R := 0) (m := 0) (T := ∅)
      (by rw [Nat.zero_add]; exact (expect_fs m c 54).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 54)) $$ Hpay
  ihave AccY := (acc_step (famY m c) 54 (by decide)) $$ [AccY HYk]
  · isplitl [AccY]; · iexact AccY
    iexact HYk
  ihave #HIx := (Prep.inv_fs m K c 54) $$ HI
  imod (Rounds.cell_close ER (rd m) (Set.mem_univ (K (c, some (2, 54)))) (fun h => h) (R := 0 + 1) (duties_fs_later m c 54)) $$ [Hat] with Hz
  · isplitr; · iexact HIx
    iexact Hat
  iclear HIx
  ihave AccZfs := (acc_step (famZfs (F := F) c) 54 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W259, HO⟩
  -- step 421: wait arg5[54] (arg1[(k0_off3 d0 3456#32)], arg1[(k0_off3 d0 3456#32)])
  first | sl_exec | skip
  ihave Hs := (Entails.of_eq (take_step (famCFR (F := F) c) 54 (by decide))) $$ [FcFR]
  · iexact FcFR
  icases Hs with ⟨Hc, FcFR⟩
  ihave Hs := (Entails.of_eq (take_step (famAtFR (F := F) c) 54 (by decide))) $$ [FatFR]
  · iexact FatFR
  icases Hs with ⟨Hat, FatFR⟩
  ihave #HIw := (Prep.inv_fr m K c 54) $$ HI
  iapply (Rounds.wp_wait_rest_token 𝒱₀ ER (rd m) (c : Thread nD τ) none (κ := K (c, some (3, 54))) (sm := .dma (frS 54))
      (wpE_waitDma2_eq 𝒱₀ (c : Thread nD τ) none Set.univ (src := fSl c 54) (dst := fSl c 54)) (Set.mem_univ _) () (O := 0) (W := W259) (R := 0) (m := 0) (T := ∅)
      (by rw [Nat.zero_add]; exact (expect_fr m c 54).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 54)) $$ Hpay
  ihave AccF := (acc_step (famF m c) 54 (by decide)) $$ [AccF HFk]
  · isplitl [AccF]; · iexact AccF
    iexact HFk
  ihave #HIx := (Prep.inv_fr m K c 54) $$ HI
  imod (Rounds.cell_close ER (rd m) (Set.mem_univ (K (c, some (3, 54)))) (fun h => h) (R := 0 + 1) (duties_fr_later m c 54)) $$ [Hat] with Hz
  · isplitr; · iexact HIx
    iexact Hat
  iclear HIx
  ihave AccZfr := (acc_step (famZfr (F := F) c) 54 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W260, HO⟩
  -- step 422: wait arg2[55] (arg1[(k0_off1 d0 3520#32)], arg0[(k0_off2 d0 3520#32)])
  first | sl_exec | skip
  ihave Hs := (Entails.of_eq (take_step (famCYS (F := F) c) 55 (by decide))) $$ [FcYS]
  · iexact FcYS
  icases Hs with ⟨Hc, FcYS⟩
  ihave Hs := (Entails.of_eq (take_step (famAtYS (F := F) c) 55 (by decide))) $$ [FatYS]
  · iexact FatYS
  icases Hs with ⟨Hat, FatYS⟩
  ihave #HIw := (Prep.inv_ys m K c 55) $$ HI
  iapply (Rounds.wp_wait_rest_token 𝒱₀ ER (rd m) (c : Thread nD τ) none (κ := K (c, some (0, 55))) (sm := .dma (ysS 55))
      (wpE_waitDma2_eq 𝒱₀ (c : Thread nD τ) none Set.univ (src := yDst c 55) (dst := ySrc c 55)) (Set.mem_univ _) () (O := 0) (W := W260) (R := 0) (m := 0) (T := ∅)
      (by rw [Nat.zero_add]; exact (expect_ys m c 55).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 55)) $$ Hpay
  ihave AccXY := (acc_step (famXY m c) 55 (by decide)) $$ [AccXY Hxy]
  · isplitl [AccXY]; · iexact AccXY
    iexact Hxy
  ihave #HIx := (Prep.inv_ys m K c 55) $$ HI
  imod (Rounds.cell_close ER (rd m) (Set.mem_univ (K (c, some (0, 55)))) (fun h => h) (R := 0 + 1) (duties_ys_later m c 55)) $$ [Hat] with Hz
  · isplitr; · iexact HIx
    iexact Hat
  iclear HIx
  ihave AccZys := (acc_step (famZys (F := F) c) 55 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W261, HO⟩
  -- step 423: wait arg4[55] (arg1[(k0_off3 d0 3520#32)], arg1[(k0_off3 d0 3520#32)])
  first | sl_exec | skip
  ihave Hs := (Entails.of_eq (take_step (famCFS (F := F) c) 55 (by decide))) $$ [FcFS]
  · iexact FcFS
  icases Hs with ⟨Hc, FcFS⟩
  ihave Hs := (Entails.of_eq (take_step (famAtFS (F := F) c) 55 (by decide))) $$ [FatFS]
  · iexact FatFS
  icases Hs with ⟨Hat, FatFS⟩
  ihave #HIw := (Prep.inv_fs m K c 55) $$ HI
  iapply (Rounds.wp_wait_rest_token 𝒱₀ ER (rd m) (c : Thread nD τ) none (κ := K (c, some (2, 55))) (sm := .dma (fsS 55))
      (wpE_waitDma2_eq 𝒱₀ (c : Thread nD τ) none Set.univ (src := fSl c 55) (dst := fSl c 55)) (Set.mem_univ _) () (O := 0) (W := W261) (R := 0) (m := 0) (T := ∅)
      (by rw [Nat.zero_add]; exact (expect_fs m c 55).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 55)) $$ Hpay
  ihave AccY := (acc_step (famY m c) 55 (by decide)) $$ [AccY HYk]
  · isplitl [AccY]; · iexact AccY
    iexact HYk
  ihave #HIx := (Prep.inv_fs m K c 55) $$ HI
  imod (Rounds.cell_close ER (rd m) (Set.mem_univ (K (c, some (2, 55)))) (fun h => h) (R := 0 + 1) (duties_fs_later m c 55)) $$ [Hat] with Hz
  · isplitr; · iexact HIx
    iexact Hat
  iclear HIx
  ihave AccZfs := (acc_step (famZfs (F := F) c) 55 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W262, HO⟩
  -- step 424: wait arg5[55] (arg1[(k0_off3 d0 3520#32)], arg1[(k0_off3 d0 3520#32)])
  first | sl_exec | skip
  ihave Hs := (Entails.of_eq (take_step (famCFR (F := F) c) 55 (by decide))) $$ [FcFR]
  · iexact FcFR
  icases Hs with ⟨Hc, FcFR⟩
  ihave Hs := (Entails.of_eq (take_step (famAtFR (F := F) c) 55 (by decide))) $$ [FatFR]
  · iexact FatFR
  icases Hs with ⟨Hat, FatFR⟩
  ihave #HIw := (Prep.inv_fr m K c 55) $$ HI
  iapply (Rounds.wp_wait_rest_token 𝒱₀ ER (rd m) (c : Thread nD τ) none (κ := K (c, some (3, 55))) (sm := .dma (frS 55))
      (wpE_waitDma2_eq 𝒱₀ (c : Thread nD τ) none Set.univ (src := fSl c 55) (dst := fSl c 55)) (Set.mem_univ _) () (O := 0) (W := W262) (R := 0) (m := 0) (T := ∅)
      (by rw [Nat.zero_add]; exact (expect_fr m c 55).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 55)) $$ Hpay
  ihave AccF := (acc_step (famF m c) 55 (by decide)) $$ [AccF HFk]
  · isplitl [AccF]; · iexact AccF
    iexact HFk
  ihave #HIx := (Prep.inv_fr m K c 55) $$ HI
  imod (Rounds.cell_close ER (rd m) (Set.mem_univ (K (c, some (3, 55)))) (fun h => h) (R := 0 + 1) (duties_fr_later m c 55)) $$ [Hat] with Hz
  · isplitr; · iexact HIx
    iexact Hat
  iclear HIx
  ihave AccZfr := (acc_step (famZfr (F := F) c) 55 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W263, HO⟩
  -- step 425: wait arg2[56] (arg1[(k0_off1 d0 3584#32)], arg0[(k0_off2 d0 3584#32)])
  first | sl_exec | skip
  ihave Hs := (Entails.of_eq (take_step (famCYS (F := F) c) 56 (by decide))) $$ [FcYS]
  · iexact FcYS
  icases Hs with ⟨Hc, FcYS⟩
  ihave Hs := (Entails.of_eq (take_step (famAtYS (F := F) c) 56 (by decide))) $$ [FatYS]
  · iexact FatYS
  icases Hs with ⟨Hat, FatYS⟩
  ihave #HIw := (Prep.inv_ys m K c 56) $$ HI
  iapply (Rounds.wp_wait_rest_token 𝒱₀ ER (rd m) (c : Thread nD τ) none (κ := K (c, some (0, 56))) (sm := .dma (ysS 56))
      (wpE_waitDma2_eq 𝒱₀ (c : Thread nD τ) none Set.univ (src := yDst c 56) (dst := ySrc c 56)) (Set.mem_univ _) () (O := 0) (W := W263) (R := 0) (m := 0) (T := ∅)
      (by rw [Nat.zero_add]; exact (expect_ys m c 56).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 56)) $$ Hpay
  ihave AccXY := (acc_step (famXY m c) 56 (by decide)) $$ [AccXY Hxy]
  · isplitl [AccXY]; · iexact AccXY
    iexact Hxy
  ihave #HIx := (Prep.inv_ys m K c 56) $$ HI
  imod (Rounds.cell_close ER (rd m) (Set.mem_univ (K (c, some (0, 56)))) (fun h => h) (R := 0 + 1) (duties_ys_later m c 56)) $$ [Hat] with Hz
  · isplitr; · iexact HIx
    iexact Hat
  iclear HIx
  ihave AccZys := (acc_step (famZys (F := F) c) 56 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W264, HO⟩
  -- step 426: wait arg4[56] (arg1[(k0_off3 d0 3584#32)], arg1[(k0_off3 d0 3584#32)])
  first | sl_exec | skip
  ihave Hs := (Entails.of_eq (take_step (famCFS (F := F) c) 56 (by decide))) $$ [FcFS]
  · iexact FcFS
  icases Hs with ⟨Hc, FcFS⟩
  ihave Hs := (Entails.of_eq (take_step (famAtFS (F := F) c) 56 (by decide))) $$ [FatFS]
  · iexact FatFS
  icases Hs with ⟨Hat, FatFS⟩
  ihave #HIw := (Prep.inv_fs m K c 56) $$ HI
  iapply (Rounds.wp_wait_rest_token 𝒱₀ ER (rd m) (c : Thread nD τ) none (κ := K (c, some (2, 56))) (sm := .dma (fsS 56))
      (wpE_waitDma2_eq 𝒱₀ (c : Thread nD τ) none Set.univ (src := fSl c 56) (dst := fSl c 56)) (Set.mem_univ _) () (O := 0) (W := W264) (R := 0) (m := 0) (T := ∅)
      (by rw [Nat.zero_add]; exact (expect_fs m c 56).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 56)) $$ Hpay
  ihave AccY := (acc_step (famY m c) 56 (by decide)) $$ [AccY HYk]
  · isplitl [AccY]; · iexact AccY
    iexact HYk
  ihave #HIx := (Prep.inv_fs m K c 56) $$ HI
  imod (Rounds.cell_close ER (rd m) (Set.mem_univ (K (c, some (2, 56)))) (fun h => h) (R := 0 + 1) (duties_fs_later m c 56)) $$ [Hat] with Hz
  · isplitr; · iexact HIx
    iexact Hat
  iclear HIx
  ihave AccZfs := (acc_step (famZfs (F := F) c) 56 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W265, HO⟩
  -- step 427: wait arg5[56] (arg1[(k0_off3 d0 3584#32)], arg1[(k0_off3 d0 3584#32)])
  first | sl_exec | skip
  ihave Hs := (Entails.of_eq (take_step (famCFR (F := F) c) 56 (by decide))) $$ [FcFR]
  · iexact FcFR
  icases Hs with ⟨Hc, FcFR⟩
  ihave Hs := (Entails.of_eq (take_step (famAtFR (F := F) c) 56 (by decide))) $$ [FatFR]
  · iexact FatFR
  icases Hs with ⟨Hat, FatFR⟩
  ihave #HIw := (Prep.inv_fr m K c 56) $$ HI
  iapply (Rounds.wp_wait_rest_token 𝒱₀ ER (rd m) (c : Thread nD τ) none (κ := K (c, some (3, 56))) (sm := .dma (frS 56))
      (wpE_waitDma2_eq 𝒱₀ (c : Thread nD τ) none Set.univ (src := fSl c 56) (dst := fSl c 56)) (Set.mem_univ _) () (O := 0) (W := W265) (R := 0) (m := 0) (T := ∅)
      (by rw [Nat.zero_add]; exact (expect_fr m c 56).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 56)) $$ Hpay
  ihave AccF := (acc_step (famF m c) 56 (by decide)) $$ [AccF HFk]
  · isplitl [AccF]; · iexact AccF
    iexact HFk
  ihave #HIx := (Prep.inv_fr m K c 56) $$ HI
  imod (Rounds.cell_close ER (rd m) (Set.mem_univ (K (c, some (3, 56)))) (fun h => h) (R := 0 + 1) (duties_fr_later m c 56)) $$ [Hat] with Hz
  · isplitr; · iexact HIx
    iexact Hat
  iclear HIx
  ihave AccZfr := (acc_step (famZfr (F := F) c) 56 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W266, HO⟩
  -- step 428: wait arg2[57] (arg1[(k0_off1 d0 3648#32)], arg0[(k0_off2 d0 3648#32)])
  first | sl_exec | skip
  ihave Hs := (Entails.of_eq (take_step (famCYS (F := F) c) 57 (by decide))) $$ [FcYS]
  · iexact FcYS
  icases Hs with ⟨Hc, FcYS⟩
  ihave Hs := (Entails.of_eq (take_step (famAtYS (F := F) c) 57 (by decide))) $$ [FatYS]
  · iexact FatYS
  icases Hs with ⟨Hat, FatYS⟩
  ihave #HIw := (Prep.inv_ys m K c 57) $$ HI
  iapply (Rounds.wp_wait_rest_token 𝒱₀ ER (rd m) (c : Thread nD τ) none (κ := K (c, some (0, 57))) (sm := .dma (ysS 57))
      (wpE_waitDma2_eq 𝒱₀ (c : Thread nD τ) none Set.univ (src := yDst c 57) (dst := ySrc c 57)) (Set.mem_univ _) () (O := 0) (W := W266) (R := 0) (m := 0) (T := ∅)
      (by rw [Nat.zero_add]; exact (expect_ys m c 57).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 57)) $$ Hpay
  ihave AccXY := (acc_step (famXY m c) 57 (by decide)) $$ [AccXY Hxy]
  · isplitl [AccXY]; · iexact AccXY
    iexact Hxy
  ihave #HIx := (Prep.inv_ys m K c 57) $$ HI
  imod (Rounds.cell_close ER (rd m) (Set.mem_univ (K (c, some (0, 57)))) (fun h => h) (R := 0 + 1) (duties_ys_later m c 57)) $$ [Hat] with Hz
  · isplitr; · iexact HIx
    iexact Hat
  iclear HIx
  ihave AccZys := (acc_step (famZys (F := F) c) 57 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W267, HO⟩
  -- step 429: wait arg4[57] (arg1[(k0_off3 d0 3648#32)], arg1[(k0_off3 d0 3648#32)])
  first | sl_exec | skip
  ihave Hs := (Entails.of_eq (take_step (famCFS (F := F) c) 57 (by decide))) $$ [FcFS]
  · iexact FcFS
  icases Hs with ⟨Hc, FcFS⟩
  ihave Hs := (Entails.of_eq (take_step (famAtFS (F := F) c) 57 (by decide))) $$ [FatFS]
  · iexact FatFS
  icases Hs with ⟨Hat, FatFS⟩
  ihave #HIw := (Prep.inv_fs m K c 57) $$ HI
  iapply (Rounds.wp_wait_rest_token 𝒱₀ ER (rd m) (c : Thread nD τ) none (κ := K (c, some (2, 57))) (sm := .dma (fsS 57))
      (wpE_waitDma2_eq 𝒱₀ (c : Thread nD τ) none Set.univ (src := fSl c 57) (dst := fSl c 57)) (Set.mem_univ _) () (O := 0) (W := W267) (R := 0) (m := 0) (T := ∅)
      (by rw [Nat.zero_add]; exact (expect_fs m c 57).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 57)) $$ Hpay
  ihave AccY := (acc_step (famY m c) 57 (by decide)) $$ [AccY HYk]
  · isplitl [AccY]; · iexact AccY
    iexact HYk
  ihave #HIx := (Prep.inv_fs m K c 57) $$ HI
  imod (Rounds.cell_close ER (rd m) (Set.mem_univ (K (c, some (2, 57)))) (fun h => h) (R := 0 + 1) (duties_fs_later m c 57)) $$ [Hat] with Hz
  · isplitr; · iexact HIx
    iexact Hat
  iclear HIx
  ihave AccZfs := (acc_step (famZfs (F := F) c) 57 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W268, HO⟩
  -- step 430: wait arg5[57] (arg1[(k0_off3 d0 3648#32)], arg1[(k0_off3 d0 3648#32)])
  first | sl_exec | skip
  ihave Hs := (Entails.of_eq (take_step (famCFR (F := F) c) 57 (by decide))) $$ [FcFR]
  · iexact FcFR
  icases Hs with ⟨Hc, FcFR⟩
  ihave Hs := (Entails.of_eq (take_step (famAtFR (F := F) c) 57 (by decide))) $$ [FatFR]
  · iexact FatFR
  icases Hs with ⟨Hat, FatFR⟩
  ihave #HIw := (Prep.inv_fr m K c 57) $$ HI
  iapply (Rounds.wp_wait_rest_token 𝒱₀ ER (rd m) (c : Thread nD τ) none (κ := K (c, some (3, 57))) (sm := .dma (frS 57))
      (wpE_waitDma2_eq 𝒱₀ (c : Thread nD τ) none Set.univ (src := fSl c 57) (dst := fSl c 57)) (Set.mem_univ _) () (O := 0) (W := W268) (R := 0) (m := 0) (T := ∅)
      (by rw [Nat.zero_add]; exact (expect_fr m c 57).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 57)) $$ Hpay
  ihave AccF := (acc_step (famF m c) 57 (by decide)) $$ [AccF HFk]
  · isplitl [AccF]; · iexact AccF
    iexact HFk
  ihave #HIx := (Prep.inv_fr m K c 57) $$ HI
  imod (Rounds.cell_close ER (rd m) (Set.mem_univ (K (c, some (3, 57)))) (fun h => h) (R := 0 + 1) (duties_fr_later m c 57)) $$ [Hat] with Hz
  · isplitr; · iexact HIx
    iexact Hat
  iclear HIx
  ihave AccZfr := (acc_step (famZfr (F := F) c) 57 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W269, HO⟩
  -- step 431: wait arg2[58] (arg1[(k0_off1 d0 3712#32)], arg0[(k0_off2 d0 3712#32)])
  first | sl_exec | skip
  ihave Hs := (Entails.of_eq (take_step (famCYS (F := F) c) 58 (by decide))) $$ [FcYS]
  · iexact FcYS
  icases Hs with ⟨Hc, FcYS⟩
  ihave Hs := (Entails.of_eq (take_step (famAtYS (F := F) c) 58 (by decide))) $$ [FatYS]
  · iexact FatYS
  icases Hs with ⟨Hat, FatYS⟩
  ihave #HIw := (Prep.inv_ys m K c 58) $$ HI
  iapply (Rounds.wp_wait_rest_token 𝒱₀ ER (rd m) (c : Thread nD τ) none (κ := K (c, some (0, 58))) (sm := .dma (ysS 58))
      (wpE_waitDma2_eq 𝒱₀ (c : Thread nD τ) none Set.univ (src := yDst c 58) (dst := ySrc c 58)) (Set.mem_univ _) () (O := 0) (W := W269) (R := 0) (m := 0) (T := ∅)
      (by rw [Nat.zero_add]; exact (expect_ys m c 58).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 58)) $$ Hpay
  ihave AccXY := (acc_step (famXY m c) 58 (by decide)) $$ [AccXY Hxy]
  · isplitl [AccXY]; · iexact AccXY
    iexact Hxy
  ihave #HIx := (Prep.inv_ys m K c 58) $$ HI
  imod (Rounds.cell_close ER (rd m) (Set.mem_univ (K (c, some (0, 58)))) (fun h => h) (R := 0 + 1) (duties_ys_later m c 58)) $$ [Hat] with Hz
  · isplitr; · iexact HIx
    iexact Hat
  iclear HIx
  ihave AccZys := (acc_step (famZys (F := F) c) 58 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W270, HO⟩
  -- step 432: wait arg4[58] (arg1[(k0_off3 d0 3712#32)], arg1[(k0_off3 d0 3712#32)])
  first | sl_exec | skip
  ihave Hs := (Entails.of_eq (take_step (famCFS (F := F) c) 58 (by decide))) $$ [FcFS]
  · iexact FcFS
  icases Hs with ⟨Hc, FcFS⟩
  ihave Hs := (Entails.of_eq (take_step (famAtFS (F := F) c) 58 (by decide))) $$ [FatFS]
  · iexact FatFS
  icases Hs with ⟨Hat, FatFS⟩
  ihave #HIw := (Prep.inv_fs m K c 58) $$ HI
  iapply (Rounds.wp_wait_rest_token 𝒱₀ ER (rd m) (c : Thread nD τ) none (κ := K (c, some (2, 58))) (sm := .dma (fsS 58))
      (wpE_waitDma2_eq 𝒱₀ (c : Thread nD τ) none Set.univ (src := fSl c 58) (dst := fSl c 58)) (Set.mem_univ _) () (O := 0) (W := W270) (R := 0) (m := 0) (T := ∅)
      (by rw [Nat.zero_add]; exact (expect_fs m c 58).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 58)) $$ Hpay
  ihave AccY := (acc_step (famY m c) 58 (by decide)) $$ [AccY HYk]
  · isplitl [AccY]; · iexact AccY
    iexact HYk
  ihave #HIx := (Prep.inv_fs m K c 58) $$ HI
  imod (Rounds.cell_close ER (rd m) (Set.mem_univ (K (c, some (2, 58)))) (fun h => h) (R := 0 + 1) (duties_fs_later m c 58)) $$ [Hat] with Hz
  · isplitr; · iexact HIx
    iexact Hat
  iclear HIx
  ihave AccZfs := (acc_step (famZfs (F := F) c) 58 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W271, HO⟩
  -- step 433: wait arg5[58] (arg1[(k0_off3 d0 3712#32)], arg1[(k0_off3 d0 3712#32)])
  first | sl_exec | skip
  ihave Hs := (Entails.of_eq (take_step (famCFR (F := F) c) 58 (by decide))) $$ [FcFR]
  · iexact FcFR
  icases Hs with ⟨Hc, FcFR⟩
  ihave Hs := (Entails.of_eq (take_step (famAtFR (F := F) c) 58 (by decide))) $$ [FatFR]
  · iexact FatFR
  icases Hs with ⟨Hat, FatFR⟩
  ihave #HIw := (Prep.inv_fr m K c 58) $$ HI
  iapply (Rounds.wp_wait_rest_token 𝒱₀ ER (rd m) (c : Thread nD τ) none (κ := K (c, some (3, 58))) (sm := .dma (frS 58))
      (wpE_waitDma2_eq 𝒱₀ (c : Thread nD τ) none Set.univ (src := fSl c 58) (dst := fSl c 58)) (Set.mem_univ _) () (O := 0) (W := W271) (R := 0) (m := 0) (T := ∅)
      (by rw [Nat.zero_add]; exact (expect_fr m c 58).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 58)) $$ Hpay
  ihave AccF := (acc_step (famF m c) 58 (by decide)) $$ [AccF HFk]
  · isplitl [AccF]; · iexact AccF
    iexact HFk
  ihave #HIx := (Prep.inv_fr m K c 58) $$ HI
  imod (Rounds.cell_close ER (rd m) (Set.mem_univ (K (c, some (3, 58)))) (fun h => h) (R := 0 + 1) (duties_fr_later m c 58)) $$ [Hat] with Hz
  · isplitr; · iexact HIx
    iexact Hat
  iclear HIx
  ihave AccZfr := (acc_step (famZfr (F := F) c) 58 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W272, HO⟩
  -- step 434: wait arg2[59] (arg1[(k0_off1 d0 3776#32)], arg0[(k0_off2 d0 3776#32)])
  first | sl_exec | skip
  ihave Hs := (Entails.of_eq (take_step (famCYS (F := F) c) 59 (by decide))) $$ [FcYS]
  · iexact FcYS
  icases Hs with ⟨Hc, FcYS⟩
  ihave Hs := (Entails.of_eq (take_step (famAtYS (F := F) c) 59 (by decide))) $$ [FatYS]
  · iexact FatYS
  icases Hs with ⟨Hat, FatYS⟩
  ihave #HIw := (Prep.inv_ys m K c 59) $$ HI
  iapply (Rounds.wp_wait_rest_token 𝒱₀ ER (rd m) (c : Thread nD τ) none (κ := K (c, some (0, 59))) (sm := .dma (ysS 59))
      (wpE_waitDma2_eq 𝒱₀ (c : Thread nD τ) none Set.univ (src := yDst c 59) (dst := ySrc c 59)) (Set.mem_univ _) () (O := 0) (W := W272) (R := 0) (m := 0) (T := ∅)
      (by rw [Nat.zero_add]; exact (expect_ys m c 59).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 59)) $$ Hpay
  ihave AccXY := (acc_step (famXY m c) 59 (by decide)) $$ [AccXY Hxy]
  · isplitl [AccXY]; · iexact AccXY
    iexact Hxy
  ihave #HIx := (Prep.inv_ys m K c 59) $$ HI
  imod (Rounds.cell_close ER (rd m) (Set.mem_univ (K (c, some (0, 59)))) (fun h => h) (R := 0 + 1) (duties_ys_later m c 59)) $$ [Hat] with Hz
  · isplitr; · iexact HIx
    iexact Hat
  iclear HIx
  ihave AccZys := (acc_step (famZys (F := F) c) 59 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W273, HO⟩
  -- step 435: wait arg4[59] (arg1[(k0_off3 d0 3776#32)], arg1[(k0_off3 d0 3776#32)])
  first | sl_exec | skip
  ihave Hs := (Entails.of_eq (take_step (famCFS (F := F) c) 59 (by decide))) $$ [FcFS]
  · iexact FcFS
  icases Hs with ⟨Hc, FcFS⟩
  ihave Hs := (Entails.of_eq (take_step (famAtFS (F := F) c) 59 (by decide))) $$ [FatFS]
  · iexact FatFS
  icases Hs with ⟨Hat, FatFS⟩
  ihave #HIw := (Prep.inv_fs m K c 59) $$ HI
  iapply (Rounds.wp_wait_rest_token 𝒱₀ ER (rd m) (c : Thread nD τ) none (κ := K (c, some (2, 59))) (sm := .dma (fsS 59))
      (wpE_waitDma2_eq 𝒱₀ (c : Thread nD τ) none Set.univ (src := fSl c 59) (dst := fSl c 59)) (Set.mem_univ _) () (O := 0) (W := W273) (R := 0) (m := 0) (T := ∅)
      (by rw [Nat.zero_add]; exact (expect_fs m c 59).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 59)) $$ Hpay
  ihave AccY := (acc_step (famY m c) 59 (by decide)) $$ [AccY HYk]
  · isplitl [AccY]; · iexact AccY
    iexact HYk
  ihave #HIx := (Prep.inv_fs m K c 59) $$ HI
  imod (Rounds.cell_close ER (rd m) (Set.mem_univ (K (c, some (2, 59)))) (fun h => h) (R := 0 + 1) (duties_fs_later m c 59)) $$ [Hat] with Hz
  · isplitr; · iexact HIx
    iexact Hat
  iclear HIx
  ihave AccZfs := (acc_step (famZfs (F := F) c) 59 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W274, HO⟩
  -- step 436: wait arg5[59] (arg1[(k0_off3 d0 3776#32)], arg1[(k0_off3 d0 3776#32)])
  first | sl_exec | skip
  ihave Hs := (Entails.of_eq (take_step (famCFR (F := F) c) 59 (by decide))) $$ [FcFR]
  · iexact FcFR
  icases Hs with ⟨Hc, FcFR⟩
  ihave Hs := (Entails.of_eq (take_step (famAtFR (F := F) c) 59 (by decide))) $$ [FatFR]
  · iexact FatFR
  icases Hs with ⟨Hat, FatFR⟩
  ihave #HIw := (Prep.inv_fr m K c 59) $$ HI
  iapply (Rounds.wp_wait_rest_token 𝒱₀ ER (rd m) (c : Thread nD τ) none (κ := K (c, some (3, 59))) (sm := .dma (frS 59))
      (wpE_waitDma2_eq 𝒱₀ (c : Thread nD τ) none Set.univ (src := fSl c 59) (dst := fSl c 59)) (Set.mem_univ _) () (O := 0) (W := W274) (R := 0) (m := 0) (T := ∅)
      (by rw [Nat.zero_add]; exact (expect_fr m c 59).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 59)) $$ Hpay
  ihave AccF := (acc_step (famF m c) 59 (by decide)) $$ [AccF HFk]
  · isplitl [AccF]; · iexact AccF
    iexact HFk
  ihave #HIx := (Prep.inv_fr m K c 59) $$ HI
  imod (Rounds.cell_close ER (rd m) (Set.mem_univ (K (c, some (3, 59)))) (fun h => h) (R := 0 + 1) (duties_fr_later m c 59)) $$ [Hat] with Hz
  · isplitr; · iexact HIx
    iexact Hat
  iclear HIx
  ihave AccZfr := (acc_step (famZfr (F := F) c) 59 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W275, HO⟩
  -- step 437: wait arg2[60] (arg1[(k0_off1 d0 3840#32)], arg0[(k0_off2 d0 3840#32)])
  first | sl_exec | skip
  ihave Hs := (Entails.of_eq (take_step (famCYS (F := F) c) 60 (by decide))) $$ [FcYS]
  · iexact FcYS
  icases Hs with ⟨Hc, FcYS⟩
  ihave Hs := (Entails.of_eq (take_step (famAtYS (F := F) c) 60 (by decide))) $$ [FatYS]
  · iexact FatYS
  icases Hs with ⟨Hat, FatYS⟩
  ihave #HIw := (Prep.inv_ys m K c 60) $$ HI
  iapply (Rounds.wp_wait_rest_token 𝒱₀ ER (rd m) (c : Thread nD τ) none (κ := K (c, some (0, 60))) (sm := .dma (ysS 60))
      (wpE_waitDma2_eq 𝒱₀ (c : Thread nD τ) none Set.univ (src := yDst c 60) (dst := ySrc c 60)) (Set.mem_univ _) () (O := 0) (W := W275) (R := 0) (m := 0) (T := ∅)
      (by rw [Nat.zero_add]; exact (expect_ys m c 60).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 60)) $$ Hpay
  ihave AccXY := (acc_step (famXY m c) 60 (by decide)) $$ [AccXY Hxy]
  · isplitl [AccXY]; · iexact AccXY
    iexact Hxy
  ihave #HIx := (Prep.inv_ys m K c 60) $$ HI
  imod (Rounds.cell_close ER (rd m) (Set.mem_univ (K (c, some (0, 60)))) (fun h => h) (R := 0 + 1) (duties_ys_later m c 60)) $$ [Hat] with Hz
  · isplitr; · iexact HIx
    iexact Hat
  iclear HIx
  ihave AccZys := (acc_step (famZys (F := F) c) 60 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W276, HO⟩
  -- step 438: wait arg4[60] (arg1[(k0_off3 d0 3840#32)], arg1[(k0_off3 d0 3840#32)])
  first | sl_exec | skip
  ihave Hs := (Entails.of_eq (take_step (famCFS (F := F) c) 60 (by decide))) $$ [FcFS]
  · iexact FcFS
  icases Hs with ⟨Hc, FcFS⟩
  ihave Hs := (Entails.of_eq (take_step (famAtFS (F := F) c) 60 (by decide))) $$ [FatFS]
  · iexact FatFS
  icases Hs with ⟨Hat, FatFS⟩
  ihave #HIw := (Prep.inv_fs m K c 60) $$ HI
  iapply (Rounds.wp_wait_rest_token 𝒱₀ ER (rd m) (c : Thread nD τ) none (κ := K (c, some (2, 60))) (sm := .dma (fsS 60))
      (wpE_waitDma2_eq 𝒱₀ (c : Thread nD τ) none Set.univ (src := fSl c 60) (dst := fSl c 60)) (Set.mem_univ _) () (O := 0) (W := W276) (R := 0) (m := 0) (T := ∅)
      (by rw [Nat.zero_add]; exact (expect_fs m c 60).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 60)) $$ Hpay
  ihave AccY := (acc_step (famY m c) 60 (by decide)) $$ [AccY HYk]
  · isplitl [AccY]; · iexact AccY
    iexact HYk
  ihave #HIx := (Prep.inv_fs m K c 60) $$ HI
  imod (Rounds.cell_close ER (rd m) (Set.mem_univ (K (c, some (2, 60)))) (fun h => h) (R := 0 + 1) (duties_fs_later m c 60)) $$ [Hat] with Hz
  · isplitr; · iexact HIx
    iexact Hat
  iclear HIx
  ihave AccZfs := (acc_step (famZfs (F := F) c) 60 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W277, HO⟩
  -- step 439: wait arg5[60] (arg1[(k0_off3 d0 3840#32)], arg1[(k0_off3 d0 3840#32)])
  first | sl_exec | skip
  ihave Hs := (Entails.of_eq (take_step (famCFR (F := F) c) 60 (by decide))) $$ [FcFR]
  · iexact FcFR
  icases Hs with ⟨Hc, FcFR⟩
  ihave Hs := (Entails.of_eq (take_step (famAtFR (F := F) c) 60 (by decide))) $$ [FatFR]
  · iexact FatFR
  icases Hs with ⟨Hat, FatFR⟩
  ihave #HIw := (Prep.inv_fr m K c 60) $$ HI
  iapply (Rounds.wp_wait_rest_token 𝒱₀ ER (rd m) (c : Thread nD τ) none (κ := K (c, some (3, 60))) (sm := .dma (frS 60))
      (wpE_waitDma2_eq 𝒱₀ (c : Thread nD τ) none Set.univ (src := fSl c 60) (dst := fSl c 60)) (Set.mem_univ _) () (O := 0) (W := W277) (R := 0) (m := 0) (T := ∅)
      (by rw [Nat.zero_add]; exact (expect_fr m c 60).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 60)) $$ Hpay
  ihave AccF := (acc_step (famF m c) 60 (by decide)) $$ [AccF HFk]
  · isplitl [AccF]; · iexact AccF
    iexact HFk
  ihave #HIx := (Prep.inv_fr m K c 60) $$ HI
  imod (Rounds.cell_close ER (rd m) (Set.mem_univ (K (c, some (3, 60)))) (fun h => h) (R := 0 + 1) (duties_fr_later m c 60)) $$ [Hat] with Hz
  · isplitr; · iexact HIx
    iexact Hat
  iclear HIx
  ihave AccZfr := (acc_step (famZfr (F := F) c) 60 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W278, HO⟩
  -- step 440: wait arg2[61] (arg1[(k0_off1 d0 3904#32)], arg0[(k0_off2 d0 3904#32)])
  first | sl_exec | skip
  ihave Hs := (Entails.of_eq (take_step (famCYS (F := F) c) 61 (by decide))) $$ [FcYS]
  · iexact FcYS
  icases Hs with ⟨Hc, FcYS⟩
  ihave Hs := (Entails.of_eq (take_step (famAtYS (F := F) c) 61 (by decide))) $$ [FatYS]
  · iexact FatYS
  icases Hs with ⟨Hat, FatYS⟩
  ihave #HIw := (Prep.inv_ys m K c 61) $$ HI
  iapply (Rounds.wp_wait_rest_token 𝒱₀ ER (rd m) (c : Thread nD τ) none (κ := K (c, some (0, 61))) (sm := .dma (ysS 61))
      (wpE_waitDma2_eq 𝒱₀ (c : Thread nD τ) none Set.univ (src := yDst c 61) (dst := ySrc c 61)) (Set.mem_univ _) () (O := 0) (W := W278) (R := 0) (m := 0) (T := ∅)
      (by rw [Nat.zero_add]; exact (expect_ys m c 61).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 61)) $$ Hpay
  ihave AccXY := (acc_step (famXY m c) 61 (by decide)) $$ [AccXY Hxy]
  · isplitl [AccXY]; · iexact AccXY
    iexact Hxy
  ihave #HIx := (Prep.inv_ys m K c 61) $$ HI
  imod (Rounds.cell_close ER (rd m) (Set.mem_univ (K (c, some (0, 61)))) (fun h => h) (R := 0 + 1) (duties_ys_later m c 61)) $$ [Hat] with Hz
  · isplitr; · iexact HIx
    iexact Hat
  iclear HIx
  ihave AccZys := (acc_step (famZys (F := F) c) 61 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W279, HO⟩
  -- step 441: wait arg4[61] (arg1[(k0_off3 d0 3904#32)], arg1[(k0_off3 d0 3904#32)])
  first | sl_exec | skip
  ihave Hs := (Entails.of_eq (take_step (famCFS (F := F) c) 61 (by decide))) $$ [FcFS]
  · iexact FcFS
  icases Hs with ⟨Hc, FcFS⟩
  ihave Hs := (Entails.of_eq (take_step (famAtFS (F := F) c) 61 (by decide))) $$ [FatFS]
  · iexact FatFS
  icases Hs with ⟨Hat, FatFS⟩
  ihave #HIw := (Prep.inv_fs m K c 61) $$ HI
  iapply (Rounds.wp_wait_rest_token 𝒱₀ ER (rd m) (c : Thread nD τ) none (κ := K (c, some (2, 61))) (sm := .dma (fsS 61))
      (wpE_waitDma2_eq 𝒱₀ (c : Thread nD τ) none Set.univ (src := fSl c 61) (dst := fSl c 61)) (Set.mem_univ _) () (O := 0) (W := W279) (R := 0) (m := 0) (T := ∅)
      (by rw [Nat.zero_add]; exact (expect_fs m c 61).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 61)) $$ Hpay
  ihave AccY := (acc_step (famY m c) 61 (by decide)) $$ [AccY HYk]
  · isplitl [AccY]; · iexact AccY
    iexact HYk
  ihave #HIx := (Prep.inv_fs m K c 61) $$ HI
  imod (Rounds.cell_close ER (rd m) (Set.mem_univ (K (c, some (2, 61)))) (fun h => h) (R := 0 + 1) (duties_fs_later m c 61)) $$ [Hat] with Hz
  · isplitr; · iexact HIx
    iexact Hat
  iclear HIx
  ihave AccZfs := (acc_step (famZfs (F := F) c) 61 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W280, HO⟩
  -- step 442: wait arg5[61] (arg1[(k0_off3 d0 3904#32)], arg1[(k0_off3 d0 3904#32)])
  first | sl_exec | skip
  ihave Hs := (Entails.of_eq (take_step (famCFR (F := F) c) 61 (by decide))) $$ [FcFR]
  · iexact FcFR
  icases Hs with ⟨Hc, FcFR⟩
  ihave Hs := (Entails.of_eq (take_step (famAtFR (F := F) c) 61 (by decide))) $$ [FatFR]
  · iexact FatFR
  icases Hs with ⟨Hat, FatFR⟩
  ihave #HIw := (Prep.inv_fr m K c 61) $$ HI
  iapply (Rounds.wp_wait_rest_token 𝒱₀ ER (rd m) (c : Thread nD τ) none (κ := K (c, some (3, 61))) (sm := .dma (frS 61))
      (wpE_waitDma2_eq 𝒱₀ (c : Thread nD τ) none Set.univ (src := fSl c 61) (dst := fSl c 61)) (Set.mem_univ _) () (O := 0) (W := W280) (R := 0) (m := 0) (T := ∅)
      (by rw [Nat.zero_add]; exact (expect_fr m c 61).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 61)) $$ Hpay
  ihave AccF := (acc_step (famF m c) 61 (by decide)) $$ [AccF HFk]
  · isplitl [AccF]; · iexact AccF
    iexact HFk
  ihave #HIx := (Prep.inv_fr m K c 61) $$ HI
  imod (Rounds.cell_close ER (rd m) (Set.mem_univ (K (c, some (3, 61)))) (fun h => h) (R := 0 + 1) (duties_fr_later m c 61)) $$ [Hat] with Hz
  · isplitr; · iexact HIx
    iexact Hat
  iclear HIx
  ihave AccZfr := (acc_step (famZfr (F := F) c) 61 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W281, HO⟩
  -- step 443: wait arg2[62] (arg1[(k0_off1 d0 3968#32)], arg0[(k0_off2 d0 3968#32)])
  first | sl_exec | skip
  ihave Hs := (Entails.of_eq (take_step (famCYS (F := F) c) 62 (by decide))) $$ [FcYS]
  · iexact FcYS
  icases Hs with ⟨Hc, FcYS⟩
  ihave Hs := (Entails.of_eq (take_step (famAtYS (F := F) c) 62 (by decide))) $$ [FatYS]
  · iexact FatYS
  icases Hs with ⟨Hat, FatYS⟩
  ihave #HIw := (Prep.inv_ys m K c 62) $$ HI
  iapply (Rounds.wp_wait_rest_token 𝒱₀ ER (rd m) (c : Thread nD τ) none (κ := K (c, some (0, 62))) (sm := .dma (ysS 62))
      (wpE_waitDma2_eq 𝒱₀ (c : Thread nD τ) none Set.univ (src := yDst c 62) (dst := ySrc c 62)) (Set.mem_univ _) () (O := 0) (W := W281) (R := 0) (m := 0) (T := ∅)
      (by rw [Nat.zero_add]; exact (expect_ys m c 62).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 62)) $$ Hpay
  ihave AccXY := (acc_step (famXY m c) 62 (by decide)) $$ [AccXY Hxy]
  · isplitl [AccXY]; · iexact AccXY
    iexact Hxy
  ihave #HIx := (Prep.inv_ys m K c 62) $$ HI
  imod (Rounds.cell_close ER (rd m) (Set.mem_univ (K (c, some (0, 62)))) (fun h => h) (R := 0 + 1) (duties_ys_later m c 62)) $$ [Hat] with Hz
  · isplitr; · iexact HIx
    iexact Hat
  iclear HIx
  ihave AccZys := (acc_step (famZys (F := F) c) 62 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W282, HO⟩
  -- step 444: wait arg4[62] (arg1[(k0_off3 d0 3968#32)], arg1[(k0_off3 d0 3968#32)])
  first | sl_exec | skip
  ihave Hs := (Entails.of_eq (take_step (famCFS (F := F) c) 62 (by decide))) $$ [FcFS]
  · iexact FcFS
  icases Hs with ⟨Hc, FcFS⟩
  ihave Hs := (Entails.of_eq (take_step (famAtFS (F := F) c) 62 (by decide))) $$ [FatFS]
  · iexact FatFS
  icases Hs with ⟨Hat, FatFS⟩
  ihave #HIw := (Prep.inv_fs m K c 62) $$ HI
  iapply (Rounds.wp_wait_rest_token 𝒱₀ ER (rd m) (c : Thread nD τ) none (κ := K (c, some (2, 62))) (sm := .dma (fsS 62))
      (wpE_waitDma2_eq 𝒱₀ (c : Thread nD τ) none Set.univ (src := fSl c 62) (dst := fSl c 62)) (Set.mem_univ _) () (O := 0) (W := W282) (R := 0) (m := 0) (T := ∅)
      (by rw [Nat.zero_add]; exact (expect_fs m c 62).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 62)) $$ Hpay
  ihave AccY := (acc_step (famY m c) 62 (by decide)) $$ [AccY HYk]
  · isplitl [AccY]; · iexact AccY
    iexact HYk
  ihave #HIx := (Prep.inv_fs m K c 62) $$ HI
  imod (Rounds.cell_close ER (rd m) (Set.mem_univ (K (c, some (2, 62)))) (fun h => h) (R := 0 + 1) (duties_fs_later m c 62)) $$ [Hat] with Hz
  · isplitr; · iexact HIx
    iexact Hat
  iclear HIx
  ihave AccZfs := (acc_step (famZfs (F := F) c) 62 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W283, HO⟩
  -- step 445: wait arg5[62] (arg1[(k0_off3 d0 3968#32)], arg1[(k0_off3 d0 3968#32)])
  first | sl_exec | skip
  ihave Hs := (Entails.of_eq (take_step (famCFR (F := F) c) 62 (by decide))) $$ [FcFR]
  · iexact FcFR
  icases Hs with ⟨Hc, FcFR⟩
  ihave Hs := (Entails.of_eq (take_step (famAtFR (F := F) c) 62 (by decide))) $$ [FatFR]
  · iexact FatFR
  icases Hs with ⟨Hat, FatFR⟩
  ihave #HIw := (Prep.inv_fr m K c 62) $$ HI
  iapply (Rounds.wp_wait_rest_token 𝒱₀ ER (rd m) (c : Thread nD τ) none (κ := K (c, some (3, 62))) (sm := .dma (frS 62))
      (wpE_waitDma2_eq 𝒱₀ (c : Thread nD τ) none Set.univ (src := fSl c 62) (dst := fSl c 62)) (Set.mem_univ _) () (O := 0) (W := W283) (R := 0) (m := 0) (T := ∅)
      (by rw [Nat.zero_add]; exact (expect_fr m c 62).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 62)) $$ Hpay
  ihave AccF := (acc_step (famF m c) 62 (by decide)) $$ [AccF HFk]
  · isplitl [AccF]; · iexact AccF
    iexact HFk
  ihave #HIx := (Prep.inv_fr m K c 62) $$ HI
  imod (Rounds.cell_close ER (rd m) (Set.mem_univ (K (c, some (3, 62)))) (fun h => h) (R := 0 + 1) (duties_fr_later m c 62)) $$ [Hat] with Hz
  · isplitr; · iexact HIx
    iexact Hat
  iclear HIx
  ihave AccZfr := (acc_step (famZfr (F := F) c) 62 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W284, HO⟩
  -- step 446: wait arg2[63] (arg1[(k0_off1 d0 4032#32)], arg0[(k0_off2 d0 4032#32)])
  first | sl_exec | skip
  ihave Hs := (Entails.of_eq (take_step (famCYS (F := F) c) 63 (by decide))) $$ [FcYS]
  · iexact FcYS
  icases Hs with ⟨Hc, FcYS⟩
  ihave Hs := (Entails.of_eq (take_step (famAtYS (F := F) c) 63 (by decide))) $$ [FatYS]
  · iexact FatYS
  icases Hs with ⟨Hat, FatYS⟩
  ihave #HIw := (Prep.inv_ys m K c 63) $$ HI
  iapply (Rounds.wp_wait_rest_token 𝒱₀ ER (rd m) (c : Thread nD τ) none (κ := K (c, some (0, 63))) (sm := .dma (ysS 63))
      (wpE_waitDma2_eq 𝒱₀ (c : Thread nD τ) none Set.univ (src := yDst c 63) (dst := ySrc c 63)) (Set.mem_univ _) () (O := 0) (W := W284) (R := 0) (m := 0) (T := ∅)
      (by rw [Nat.zero_add]; exact (expect_ys m c 63).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 63)) $$ Hpay
  ihave AccXY := (acc_step (famXY m c) 63 (by decide)) $$ [AccXY Hxy]
  · isplitl [AccXY]; · iexact AccXY
    iexact Hxy
  ihave #HIx := (Prep.inv_ys m K c 63) $$ HI
  imod (Rounds.cell_close ER (rd m) (Set.mem_univ (K (c, some (0, 63)))) (fun h => h) (R := 0 + 1) (duties_ys_later m c 63)) $$ [Hat] with Hz
  · isplitr; · iexact HIx
    iexact Hat
  iclear HIx
  ihave AccZys := (acc_step (famZys (F := F) c) 63 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W285, HO⟩
  -- step 447: wait arg4[63] (arg1[(k0_off3 d0 4032#32)], arg1[(k0_off3 d0 4032#32)])
  first | sl_exec | skip
  ihave Hs := (Entails.of_eq (take_step (famCFS (F := F) c) 63 (by decide))) $$ [FcFS]
  · iexact FcFS
  icases Hs with ⟨Hc, FcFS⟩
  ihave Hs := (Entails.of_eq (take_step (famAtFS (F := F) c) 63 (by decide))) $$ [FatFS]
  · iexact FatFS
  icases Hs with ⟨Hat, FatFS⟩
  ihave #HIw := (Prep.inv_fs m K c 63) $$ HI
  iapply (Rounds.wp_wait_rest_token 𝒱₀ ER (rd m) (c : Thread nD τ) none (κ := K (c, some (2, 63))) (sm := .dma (fsS 63))
      (wpE_waitDma2_eq 𝒱₀ (c : Thread nD τ) none Set.univ (src := fSl c 63) (dst := fSl c 63)) (Set.mem_univ _) () (O := 0) (W := W285) (R := 0) (m := 0) (T := ∅)
      (by rw [Nat.zero_add]; exact (expect_fs m c 63).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 63)) $$ Hpay
  ihave AccY := (acc_step (famY m c) 63 (by decide)) $$ [AccY HYk]
  · isplitl [AccY]; · iexact AccY
    iexact HYk
  ihave #HIx := (Prep.inv_fs m K c 63) $$ HI
  imod (Rounds.cell_close ER (rd m) (Set.mem_univ (K (c, some (2, 63)))) (fun h => h) (R := 0 + 1) (duties_fs_later m c 63)) $$ [Hat] with Hz
  · isplitr; · iexact HIx
    iexact Hat
  iclear HIx
  ihave AccZfs := (acc_step (famZfs (F := F) c) 63 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W286, HO⟩
  -- step 448: wait arg5[63] (arg1[(k0_off3 d0 4032#32)], arg1[(k0_off3 d0 4032#32)])
  first | sl_exec | skip
  ihave Hs := (Entails.of_eq (take_step (famCFR (F := F) c) 63 (by decide))) $$ [FcFR]
  · iexact FcFR
  icases Hs with ⟨Hc, FcFR⟩
  ihave Hs := (Entails.of_eq (take_step (famAtFR (F := F) c) 63 (by decide))) $$ [FatFR]
  · iexact FatFR
  icases Hs with ⟨Hat, FatFR⟩
  ihave #HIw := (Prep.inv_fr m K c 63) $$ HI
  iapply (Rounds.wp_wait_rest_token 𝒱₀ ER (rd m) (c : Thread nD τ) none (κ := K (c, some (3, 63))) (sm := .dma (frS 63))
      (wpE_waitDma2_eq 𝒱₀ (c : Thread nD τ) none Set.univ (src := fSl c 63) (dst := fSl c 63)) (Set.mem_univ _) () (O := 0) (W := W286) (R := 0) (m := 0) (T := ∅)
      (by rw [Nat.zero_add]; exact (expect_fr m c 63).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 63)) $$ Hpay
  ihave AccF := (acc_step (famF m c) 63 (by decide)) $$ [AccF HFk]
  · isplitl [AccF]; · iexact AccF
    iexact HFk
  ihave #HIx := (Prep.inv_fr m K c 63) $$ HI
  imod (Rounds.cell_close ER (rd m) (Set.mem_univ (K (c, some (3, 63)))) (fun h => h) (R := 0 + 1) (duties_fr_later m c 63)) $$ [Hat] with Hz
  · isplitr; · iexact HIx
    iexact Hat
  iclear HIx
  ihave AccZfr := (acc_step (famZfr (F := F) c) 63 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W287, HO⟩
  -- step 449: wait arg7[2] (arg6[![0, 0, 0]], arg1[(k0_off5 d0 7168#32)])
  first | sl_exec | skip
  ihave #HIw := (Prep.inv_ls m KL c 2) $$ HIL
  iapply (Rounds.wp_wait_rest_token 𝒱₀ ER (rd m) (c : Thread nD τ) none (κ := KL (c, 2)) (sm := .dma (lsS 2))
      (wpE_waitDma2_eq 𝒱₀ (c : Thread nD τ) none Set.univ (src := vSlot 0) (dst := lDst c 14)) (Set.mem_univ _) () (O := 0) (W := W287) (R := 7) (m := 0) (T := ∅)
      (by rw [Nat.zero_add]; exact (expect_st m c 0 7 (by decide)).symm)) $$ [Hc_l2 HO Hat_l2]
  · isplitr; · iexact HIw
    isplitl [Hc_l2]; · iexact Hc_l2
    isplitl [HO]; · iexact HO
    isplitr
    · rw [MayWait_zero]; iempintro
    iexact Hat_l2
  iclear HIw
  iclear HRl2
  iintro ⟨HO, Hat_l2, #HRl2, Hpay⟩
  ihave Hp := (Entails.of_eq (rest_st0 m c 7 (by decide))) $$ Hpay
  icases Hp with ⟨Holq, Hv0⟩
  ihave AccOL := (acc_step (famOL m c) 14 (by decide)) $$ [AccOL Holq]
  · isplitl [AccOL]; · iexact AccOL
    iexact Holq
  ihave HOe : iprop(∃ W' : Waits sig Unit, owes (c : Thread nD τ) _ W') $$ [HO]
  · iexists _; iexact HO
  icases HOe with ⟨%W288, HO⟩
  -- step 450: wait arg7[3] (arg6[![1, 0, 0]], arg1[(k0_off5 d0 7680#32)])
  first | sl_exec | skip
  ihave #HIw := (Prep.inv_ls m KL c 3) $$ HIL
  iapply (Rounds.wp_wait_rest_token 𝒱₀ ER (rd m) (c : Thread nD τ) none (κ := KL (c, 3)) (sm := .dma (lsS 3))
      (wpE_waitDma2_eq 𝒱₀ (c : Thread nD τ) none Set.univ (src := vSlot 1) (dst := lDst c 15)) (Set.mem_univ _) () (O := 0) (W := W288) (R := 7) (m := 0) (T := ∅)
      (by rw [Nat.zero_add]; exact (expect_st m c 1 7 (by decide)).symm)) $$ [Hc_l3 HO Hat_l3]
  · isplitr; · iexact HIw
    isplitl [Hc_l3]; · iexact Hc_l3
    isplitl [HO]; · iexact HO
    isplitr
    · rw [MayWait_zero]; iempintro
    iexact Hat_l3
  iclear HIw
  iclear HRl3
  iintro ⟨HO, Hat_l3, #HRl3, Hpay⟩
  ihave Hp := (Entails.of_eq (rest_st1 m c 7 (by decide))) $$ Hpay
  icases Hp with ⟨Holq, Hv1⟩
  ihave AccOL := (acc_step (famOL m c) 15 (by decide)) $$ [AccOL Holq]
  · isplitl [AccOL]; · iexact AccOL
    iexact Holq
  ihave HOe : iprop(∃ W' : Waits sig Unit, owes (c : Thread nD τ) _ W') $$ [HO]
  · iexists _; iexact HO
  icases HOe with ⟨%W289, HO⟩
  -- the return: the local copies' cells closed, then the post from the collected pieces
  first | sl_exec | skip
  ihave #HIx := (Prep.inv_ls m KL c 0) $$ HIL
  imod (Rounds.cell_close ER (rd m) (Set.mem_univ (KL (c, 0))) (fun h => h) (R := 7 + 1) (duties_ls_later m c 0)) $$ [Hat_l0] with Hz_l0
  · isplitr; · iexact HIx
    iexact Hat_l0
  iclear HIx
  ihave #HIx := (Prep.inv_ls m KL c 1) $$ HIL
  imod (Rounds.cell_close ER (rd m) (Set.mem_univ (KL (c, 1))) (fun h => h) (R := 7 + 1) (duties_ls_later m c 1)) $$ [Hat_l1] with Hz_l1
  · isplitr; · iexact HIx
    iexact Hat_l1
  iclear HIx
  ihave #HIx := (Prep.inv_ls m KL c 2) $$ HIL
  imod (Rounds.cell_close ER (rd m) (Set.mem_univ (KL (c, 2))) (fun h => h) (R := 7 + 1) (duties_ls_later m c 2)) $$ [Hat_l2] with Hz_l2
  · isplitr; · iexact HIx
    iexact Hat_l2
  iclear HIx
  ihave #HIx := (Prep.inv_ls m KL c 3) $$ HIL
  imod (Rounds.cell_close ER (rd m) (Set.mem_univ (KL (c, 3))) (fun h => h) (R := 7 + 1) (duties_ls_later m c 3)) $$ [Hat_l3] with Hz_l3
  · isplitr; · iexact HIx
    iexact Hat_l3
  iclear HIx
  first | simp only [Prog.bind, Prog.pure_eq_ret] | skip
  sl_step
  iapply Hk
  iapply (post_intro' m c W289 (VC m c 14) (VC m c 15))
  isplitl [AccXY AccXL HxR]
  · isplitl [AccXY]; · iexact AccXY
    isplitl [AccXL]; · iexact AccXL
    iexact HxR
  isplitl [AccOL AccY AccF]
  · isplitl [AccOL]; · iexact AccOL
    isplitl [AccY]; · iexact AccY
    iexact AccF
  isplitl [Hv0 Hv1]
  · isplitl [Hv0]; · iexact Hv0
    iexact Hv1
  isplitl [Hz_l0 Hz_l1 Hz_l2 Hz_l3]
  · isplitl [Hz_l0]; · iexact Hz_l0
    isplitl [Hz_l1]; · iexact Hz_l1
    isplitl [Hz_l2]; · iexact Hz_l2
    iexact Hz_l3
  isplitl [AccZys AccZyr AccZfs AccZfr]
  · isplitl [AccZys]; · iexact AccZys
    isplitl [AccZyr]; · iexact AccZyr
    isplitl [AccZfs]; · iexact AccZfs
    iexact AccZfr
  iexact HO

end Cert.KernelIdealProof

end
-- ==== Proof.KProto.lean ====
/-
  The mesh and the memory regions of the two-hop exchange.

  Four devices on a 2 × 2 mesh, device d = 2·mx + my.  Every device holds the row block `my` of the whole array x
  (8192 × 2048) and must end with the column block `my` of the whole array (16384 × 1024).  Its own row block it copies
  locally, 512 rows at a time.  The other row block reaches it in two hops: the half of the rows numbered by its own mx
  straight from its y-neighbour (mx, 1 - my), the other half from its x-neighbour (1 - mx, my), which forwards what IT
  received from ITS y-neighbour.  The neighbours, the 64-row slices the transfers move, and how the slices one device
  writes on another are the slices that device names itself, are stated here.
-/
import proofs.«900037_g7700000000000038_dist_a2a_v7x_xy2x2_y_m8192_n1024_f32_1_alg».proof.Proof.Gen.Kernel
import proofs.«900037_g7700000000000038_dist_a2a_v7x_xy2x2_y_m8192_n1024_f32_1_alg».proof.Proof.Gen.Kernel.Launch
import Idealize.ShloMosaic.Lib.Pipeline.Launch
import Idealize.ShloMosaic.Lib.Pipeline.Kit
import Idealize.ShloMosaic.Lib.Tactic

noncomputable section

namespace Cert.KernelProof

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The neighbours -/

/-- The neighbour along the mesh's y axis: (mx, 1 - my). -/
def yp (c : Dev nD) : Dev nD := ⟨(2 * (c.val / 2) + 1) - (c.val % 2), by have : c.val < 4 := c.isLt; show _ < 4; omega⟩
/-- The neighbour along the mesh's x axis: (1 - mx, my). -/
def xp (c : Dev nD) : Dev nD := ⟨((c.val % 2) + 2) - 2 * (c.val / 2), by have : c.val < 4 := c.isLt; show _ < 4; omega⟩

theorem yp_yp (c : Dev nD) : yp (yp c) = c := by revert c; decide
theorem xp_xp (c : Dev nD) : xp (xp c) = c := by revert c; decide
theorem yp_xp (c : Dev nD) : yp (xp c) = xp (yp c) := by revert c; decide
theorem yp_ne (c : Dev nD) : yp c ≠ c := by revert c; decide
theorem xp_ne (c : Dev nD) : xp c ≠ c := by revert c; decide
theorem yp_ne_xp (c : Dev nD) : yp c ≠ xp c := by revert c; decide

def ypEquiv : Dev nD ≃ Dev nD := ⟨yp, yp, yp_yp, yp_yp⟩
def xpEquiv : Dev nD ≃ Dev nD := ⟨xp, xp, xp_xp, xp_xp⟩

/-! ## The buffers and the slices -/

abbrev xM : Memref sig .tc .hbm S8192x2048 .f32 := Memref.whole main_arg0
abbrev oM : Memref sig .tc .hbm S16384x1024 .f32 := Memref.whole main_v1
abbrev vM : Memref sig .tc .vmem S2x512x1024 .f32 := Memref.whole cc0_scratch4

/-- Slice k of x that device d sends to its y-neighbour: rows 4096·mx + 64k …, columns of the OTHER column block. -/
abbrev ySrc (d : Dev nD) (k : Fin 64) : Memref sig .tc .hbm S64x1024 .f32 :=
  xM.slice (Rect.unit (s := S8192x2048) (k0_off2 d (BitVec.ofNat 32 (64 * k.val))) S64x1024.size (k0_off2_inb d k)) (fun _ => rfl)
/-- Where device d's slice k lands in its y-neighbour's result, as d computes the rows. -/
abbrev yDst (d : Dev nD) (k : Fin 64) : Memref sig .tc .hbm S64x1024 .f32 :=
  oM.slice (Rect.unit (s := S16384x1024) (k0_off1 d (BitVec.ofNat 32 (64 * k.val))) S64x1024.size (k0_off1_inb d k)) (fun _ => rfl)
/-- Slice k of the result that device d forwards: the rows its y-neighbour's slice k landed in; the same rows of the
    x-neighbour's result are where the forwarded copy lands. -/
abbrev fSl (d : Dev nD) (k : Fin 64) : Memref sig .tc .hbm S64x1024 .f32 :=
  oM.slice (Rect.unit (s := S16384x1024) (k0_off3 d (BitVec.ofNat 32 (64 * k.val))) S64x1024.size (k0_off3_inb d k)) (fun _ => rfl)
/-- Chunk j (512 rows) of the device's own row block in the result. -/
abbrev lDst (d : Dev nD) (j : Fin 16) : Memref sig .tc .hbm S512x1024 .f32 :=
  oM.slice (Rect.unit (s := S16384x1024) (k0_off5 d (BitVec.ofNat 32 (512 * j.val))) S512x1024.size (k0_off5_inb d j)) (fun _ => rfl)

/-- The rows a device writes on its y-neighbour are the rows that neighbour forwards. -/
theorem off1_eq_off3 (c : Dev nD) (k : Fin 64) :
    k0_off1 c (BitVec.ofNat 32 (64 * k.val)) = k0_off3 (yp c) (BitVec.ofNat 32 (64 * k.val)) := by
  rw [k0_off1_eq, k0_off3_eq]
  have hk := k.isLt
  have hc : c.val < 4 := c.isLt
  have : (c.val = 0 ∨ c.val = 1) ∨ (c.val = 2 ∨ c.val = 3) := by omega
  funext a
  rcases this with (h | h) | (h | h) <;> fin_cases a <;> simp [yp, h] <;> omega

theorem yDst_eq (c : Dev nD) (k : Fin 64) : yDst c k = fSl (yp c) k := by
  unfold yDst fSl
  exact Memref.slice_unit_congr _ (off1_eq_off3 c k) _ _ _ _

end Cert.KernelProof

end
-- ==== Proof.KSpec.lean ====
import proofs.«900037_g7700000000000038_dist_a2a_v7x_xy2x2_y_m8192_n1024_f32_1_alg».proof.Defs
import Idealize.ShloMosaic.Lib.Layout
import Idealize.ShloMosaic.Lib.ValueIdx

noncomputable section

namespace Cert.SpecK

open Idealize.ShloMosaic Idealize.SL.Sem Idealize.ShloMosaic.ValueIdx
open Cert.Kernel

variable {F : FTy → Type} [FloatOps F]

/-- As seen from device `c` of the 2 × 2 mesh (device `2·mx + my`), the device whose argument block holds
    whole-array row `r` (of 16384) among those that send to `c`: the argument is cut along its rows by the
    mesh's second axis, so row block `r / 8192` lies on the devices whose second coordinate it is; `c` itself
    when that is `c`'s own, and otherwise the device of the other second coordinate whose first coordinate is
    the half `(r % 8192) / 4096` of the block the row falls in. -/
def srcDev (c : Dev nD) (r : Nat) : Dev nD :=
  if r / 8192 = c.val % 2 then c else ⟨2 * ((r % 8192) / 4096) + (1 - c.val % 2), by show _ < 4; omega⟩

/-- What device `c`'s result buffer holds at the end, in terms of the argument buffers at launch: row `r`,
    column `j` is entry `(r % 8192, (c % 2) · 1024 + j)` of the argument block of `srcDev c r`. -/
def outFinal (m : (ℓ : Loc nD τ sig) → Buf (Elt F) ℓ) (c : Dev nD) :
    Buf (Elt F) ((c.tc : Thread nD τ).loc main_v1) :=
  fun i => m (((srcDev c (i 0).val).tc : Thread nD τ).loc main_arg0)
    (ix2 (n0 := 8192) (n1 := 2048) ⟨(i 0).val % 8192, by omega⟩
      ⟨(c.val % 2) * 1024 + (i 1).val, by have := idx2_lt1 i; omega⟩)

/-- A dimension cut along the mesh's second axis alone: the device's block is its second coordinate. -/
theorem meshLin_y (n : Nat) : Layout.meshLin [2, 2] n [1] = n % 2 := by
  simp [Layout.meshLin, Layout.meshCoord, Layout.cutSize]

/-- The source device of row `r` has second coordinate the row block `r / 8192`. -/
theorem srcDev_mod (c : Dev nD) (r : Nat) (hr : r < 16384) : (srcDev c r).val % 2 = r / 8192 := by
  unfold srcDev
  split
  · next h => exact h.symm
  · next h =>
    show (2 * ((r % 8192) / 4096) + (1 - c.val % 2)) % 2 = r / 8192
    omega

theorem outFinal_eq_block (m : (ℓ : Loc nD τ sig) → Buf (Elt F) ℓ) (X : (⟨2, ![16384, 2048]⟩ : Shape).Idx → Elt F .f32)
    (hagree : ∀ d : Dev nD, m ((d.tc : Thread nD τ).loc main_arg0) = Layout.blockN ⟨2, ![8192, 2048]⟩ ⟨2, ![16384, 2048]⟩ (Layout.meshBlock [2, 2] ![[1], []] d) X) (c : Dev nD) :
    outFinal m c = Layout.blockN ⟨2, ![16384, 1024]⟩ ⟨2, ![16384, 2048]⟩ (Layout.meshBlock [2, 2] ![[], [1]] c) X := by
  funext i
  have h0 := idx2_lt0 i
  have h1 := idx2_lt1 i
  unfold outFinal
  rw [hagree]
  simp only [Layout.blockN_apply]
  congr 1
  funext b
  apply Fin.ext
  rw [Layout.TilesN.idx_val, Layout.TilesN.idx_val]
  rcases b with ⟨_ | _ | n, hb⟩
  · -- rows: the source device's block of the argument starts at row (r / 8192) · 8192
    show Layout.meshLin [2, 2] (srcDev c (i 0).val).val [1] * 8192 + (i 0).val % 8192
        = Layout.meshLin [2, 2] c.val [] * 16384 + (i 0).val
    rw [meshLin_y, srcDev_mod c _ h0]
    show _ = 0 * 16384 + (i 0).val
    omega
  · -- columns: the argument is not cut along them, the result is cut by the second mesh coordinate
    show Layout.meshLin [2, 2] (srcDev c (i 0).val).val [] * 2048 + (c.val % 2 * 1024 + (i 1).val)
        = Layout.meshLin [2, 2] c.val [1] * 1024 + (i 1).val
    rw [meshLin_y]
    show 0 * 2048 + _ = _
    omega
  · exact absurd hb (by simp)

/-- info: 'Cert.SpecK.outFinal_eq_block' depends on axioms: [propext, Classical.choice, Quot.sound] -/
#guard_msgs in #print axioms outFinal_eq_block

end Cert.SpecK
-- ==== Proof.KLocal.lean ====
/-
  The slices of the local copy: the 16 chunks of the device's own column block of its argument, the two slots of the
  scratch buffer they pass through, and what a slot holds once a chunk has been loaded into it.
-/
import proofs.«900037_g7700000000000038_dist_a2a_v7x_xy2x2_y_m8192_n1024_f32_1_alg».proof.Proof.KProto
import proofs.«900037_g7700000000000038_dist_a2a_v7x_xy2x2_y_m8192_n1024_f32_1_alg».proof.Proof.KSpec

noncomputable section

namespace Cert.KernelProof

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ)

/-- The offsets, in the device's argument, of chunk `j` (512 rows) of its own column block: those the program
    computes for the local copy's load `j`. -/
def lOff (d : Dev nD) : Fin 16 → Fin 2 → Nat
  | ⟨0, _⟩ => k0_off4 d
  | ⟨1, _⟩ => k0_off6 d
  | ⟨2, _⟩ => k0_off7 d
  | ⟨3, _⟩ => k0_off8 d
  | ⟨4, _⟩ => k0_off9 d
  | ⟨5, _⟩ => k0_off10 d
  | ⟨6, _⟩ => k0_off11 d
  | ⟨7, _⟩ => k0_off12 d
  | ⟨8, _⟩ => k0_off13 d
  | ⟨9, _⟩ => k0_off14 d
  | ⟨10, _⟩ => k0_off15 d
  | ⟨11, _⟩ => k0_off16 d
  | ⟨12, _⟩ => k0_off17 d
  | ⟨13, _⟩ => k0_off18 d
  | ⟨14, _⟩ => k0_off19 d
  | ⟨15, _⟩ => k0_off20 d
  | ⟨n + 16, h⟩ => absurd h (by omega)

theorem lOff_inb (d : Dev nD) : ∀ (j : Fin 16) (a : Fin 2), lOff d j a + S512x1024.size a ≤ S8192x2048.size a
  | ⟨0, _⟩ => k0_off4_inb d
  | ⟨1, _⟩ => k0_off6_inb d
  | ⟨2, _⟩ => k0_off7_inb d
  | ⟨3, _⟩ => k0_off8_inb d
  | ⟨4, _⟩ => k0_off9_inb d
  | ⟨5, _⟩ => k0_off10_inb d
  | ⟨6, _⟩ => k0_off11_inb d
  | ⟨7, _⟩ => k0_off12_inb d
  | ⟨8, _⟩ => k0_off13_inb d
  | ⟨9, _⟩ => k0_off14_inb d
  | ⟨10, _⟩ => k0_off15_inb d
  | ⟨11, _⟩ => k0_off16_inb d
  | ⟨12, _⟩ => k0_off17_inb d
  | ⟨13, _⟩ => k0_off18_inb d
  | ⟨14, _⟩ => k0_off19_inb d
  | ⟨15, _⟩ => k0_off20_inb d
  | ⟨n + 16, h⟩ => absurd h (by omega)

/-- Chunk `j` starts at row 512·j and at the column block of the device's second coordinate. -/
theorem lOff_eq (d : Dev nD) : ∀ j : Fin 16, lOff d j = ![512 * j.val, 1024 * (d.val % 2)]
  | ⟨0, _⟩ => k0_off4_eq d
  | ⟨1, _⟩ => k0_off6_eq d
  | ⟨2, _⟩ => k0_off7_eq d
  | ⟨3, _⟩ => k0_off8_eq d
  | ⟨4, _⟩ => k0_off9_eq d
  | ⟨5, _⟩ => k0_off10_eq d
  | ⟨6, _⟩ => k0_off11_eq d
  | ⟨7, _⟩ => k0_off12_eq d
  | ⟨8, _⟩ => k0_off13_eq d
  | ⟨9, _⟩ => k0_off14_eq d
  | ⟨10, _⟩ => k0_off15_eq d
  | ⟨11, _⟩ => k0_off16_eq d
  | ⟨12, _⟩ => k0_off17_eq d
  | ⟨13, _⟩ => k0_off18_eq d
  | ⟨14, _⟩ => k0_off19_eq d
  | ⟨15, _⟩ => k0_off20_eq d
  | ⟨n + 16, h⟩ => absurd h (by omega)

/-- Chunk `j` of the device's own column block of its argument: the source of the local copy's load `j`. -/
abbrev lSrc (d : Dev nD) (j : Fin 16) : Memref sig .tc .hbm S512x1024 .f32 :=
  xM.slice (Rect.unit (s := S8192x2048) (lOff d j) S512x1024.size (lOff_inb d j)) (fun _ => rfl)

theorem inbSlot (s : Fin 2) : ∀ a, (![s.val, 0, 0] : Fin 3 → Nat) a + S1x512x1024.size a ≤ S2x512x1024.size a := fun a => by
  have := s.isLt
  fin_cases a
  · show s.val + 1 ≤ 2; omega
  · show 0 + 512 ≤ 512; omega
  · show 0 + 1024 ≤ 1024; omega

/-- Slot `s` of the scratch buffer, as a 512 × 1024 array. -/
abbrev vSlot (s : Fin 2) : Memref sig .tc .vmem S512x1024 .f32 :=
  (vM.slice (Rect.unit (s := S2x512x1024) ![s.val, 0, 0] S1x512x1024.size (inbSlot s)) (fun _ => rfl)).squeeze S512x1024 squeezes_S1x512x1024_S512x1024

/-- What a slot of the scratch buffer holds once chunk `q` of the device's own column block of its argument has been
    loaded into it: entry (r, j) of either slot is entry (512·q + r, 1024·my + j) of the argument. It does not read the
    slot coordinate, so it is one function for both slots. -/
def VC (c : Dev nD) (q : Fin 16) : Buf (Elt F) ((c : Thread nD τ).loc cc0_scratch4) :=
  fun i => m ((c : Thread nD τ).loc main_arg0)
    (ValueIdx.ix2 (n0 := 8192) (n1 := 2048)
      ⟨512 * q.val + (i 1).val, by have h1 : (i 1).val < 512 := (i 1).isLt; have := q.isLt; omega⟩
      ⟨1024 * (c.val % 2) + (i 2).val, by have h2 : (i 2).val < 1024 := (i 2).isLt; omega⟩)

theorem VC_apply (c : Dev nD) (q : Fin 16) (i : S2x512x1024.Idx) (x : S8192x2048.Idx)
    (h0 : (x 0).val = 512 * q.val + (i 1).val) (h1 : (x 1).val = 1024 * (c.val % 2) + (i 2).val) :
    VC m c q i = m ((c : Thread nD τ).loc main_arg0) x := by
  unfold VC
  congr 1
  funext a
  apply Fin.ext
  match a with
  | ⟨0, _⟩ => exact h0.symm
  | ⟨1, _⟩ => exact h1.symm

end Cert.KernelProof

end
-- ==== Proof.KSched.lean ====
/-
  The protocol of the two-hop exchange, as a schedule of rounds.

  Per device: one cell for the entry barrier and, for each of the 64 slices, four cells — the y-transfer's send and
  receive cells and the forwarding transfer's send and receive cells.  The barrier and the transfer cells have one round.  (The four cells of the local copies, which move the device's
  own row block through a two-slot scratch buffer, have eight rounds each, one per chunk.)  The barrier's round
  has two duties of one unit: the y-neighbour's signal, which hands over the 64 slices of ITS result that this device's
  y-transfers will write, at the contents it found them with (and the fact that it has reached round 0 of the matching receive cells), and the
  x-neighbour's, which hands over the 64 slices the forwarded copies will write.  A transfer cell's one duty is the
  slice's credit: a send cell gives the source slice back, a receive cell gives the landed slice at its final contents.
-/
import proofs.«900037_g7700000000000038_dist_a2a_v7x_xy2x2_y_m8192_n1024_f32_1_alg».proof.Proof.KProto
import proofs.«900037_g7700000000000038_dist_a2a_v7x_xy2x2_y_m8192_n1024_f32_1_alg».proof.Proof.KSpec
import proofs.«900037_g7700000000000038_dist_a2a_v7x_xy2x2_y_m8192_n1024_f32_1_alg».proof.Proof.KLocal

noncomputable section

namespace Cert.KernelProof

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The cells -/

theorem inb64 (k : Fin 64) : ∀ a, (![k.val] : Fin 1 → Nat) a + S1.size a ≤ S64.size a := fun a => by
  have := k.isLt; fin_cases a; show k.val + 1 ≤ 64; omega

/-- Semaphore k of an array of 64. -/
abbrev semOf (A : DmaSems sig S64) (k : Fin 64) : DmaSem sig :=
  ((A.slice (Rect.unit (s := S64) ![k.val] S1.size (inb64 k))).squeeze S_ squeezes_S1_S_).sem

abbrev barS : Sem sig := (SemArray.scalar (sig.barrier 0 rfl) : Sems sig S_).sem
abbrev ysS (k : Fin 64) : DmaSem sig := semOf cc0_scratch0 k
abbrev yrS (k : Fin 64) : DmaSem sig := semOf cc0_scratch1 k
abbrev fsS (k : Fin 64) : DmaSem sig := semOf cc0_scratch2 k
abbrev frS (k : Fin 64) : DmaSem sig := semOf cc0_scratch3 k

theorem ysS_val : ∀ k : Fin 64, (ysS k).val = k.val := by decide
theorem yrS_val : ∀ k : Fin 64, (yrS k).val = 64 + k.val := by decide
theorem fsS_val : ∀ k : Fin 64, (fsS k).val = 128 + k.val := by decide
theorem frS_val : ∀ k : Fin 64, (frS k).val = 192 + k.val := by decide

theorem inb4 (j : Fin 4) : ∀ a, (![j.val] : Fin 1 → Nat) a + S1.size a ≤ S4.size a := fun a => by
  have := j.isLt; fin_cases a; show j.val + 1 ≤ 4; omega
/-- The four semaphores of the local copies: loads of the two scratch slots on 0 and 1, stores from them on 2 and 3. -/
abbrev lsS (j : Fin 4) : DmaSem sig :=
  ((cc0_scratch5.slice (Rect.unit (s := S4) ![j.val] S1.size (inb4 j))).squeeze S_ squeezes_S1_S_).sem
theorem lsS_val : ∀ j : Fin 4, (lsS j).val = 256 + j.val := by decide

abbrev barCell (c : Dev nD) : GSem nD τ sig := ((c : Thread nD τ), .reg barS)
abbrev ysCell (c : Dev nD) (k : Fin 64) : GSem nD τ sig := ((c : Thread nD τ), .dma (ysS k))
abbrev yrCell (c : Dev nD) (k : Fin 64) : GSem nD τ sig := ((c : Thread nD τ), .dma (yrS k))
abbrev fsCell (c : Dev nD) (k : Fin 64) : GSem nD τ sig := ((c : Thread nD τ), .dma (fsS k))
abbrev frCell (c : Dev nD) (k : Fin 64) : GSem nD τ sig := ((c : Thread nD τ), .dma (frS k))

abbrev lsCell (c : Dev nD) (j : Fin 4) : GSem nD τ sig := ((c : Thread nD τ), .dma (lsS j))

/-- What a cell is for. -/
inductive CK where
  | bar | ys (k : Fin 64) | yr (k : Fin 64) | fs (k : Fin 64) | fr (k : Fin 64) | ls (j : Fin 4)
  deriving DecidableEq

/-- The cell's role, read off the semaphore's number. -/
def kindOf : SemLoc sig → Option CK
  | .reg s => if s = barS then some .bar else none
  | .dma s =>
    if h : s.val < 64 then some (.ys ⟨s.val, h⟩)
    else if h : s.val < 128 then some (.yr ⟨s.val - 64, by omega⟩)
    else if h : s.val < 192 then some (.fs ⟨s.val - 128, by omega⟩)
    else if h : s.val < 256 then some (.fr ⟨s.val - 192, by omega⟩)
    else if h : s.val < 260 then some (.ls ⟨s.val - 256, by omega⟩)
    else none

theorem kindOf_bar : kindOf (.reg barS) = some .bar := by
  show (if barS = barS then some CK.bar else none) = _
  exact if_pos rfl
theorem kindOf_ys (k : Fin 64) : kindOf (.dma (ysS k)) = some (.ys k) := by
  have h := ysS_val k; have := k.isLt
  show (if h : (ysS k).val < 64 then some (CK.ys ⟨(ysS k).val, h⟩) else _) = _
  rw [dif_pos (by omega)]
  simp only [h]
theorem kindOf_yr (k : Fin 64) : kindOf (.dma (yrS k)) = some (.yr k) := by
  have h := yrS_val k; have := k.isLt
  unfold kindOf; dsimp only
  rw [dif_neg (by omega), dif_pos (by omega)]
  simp only [h, Nat.add_sub_cancel_left]
theorem kindOf_fs (k : Fin 64) : kindOf (.dma (fsS k)) = some (.fs k) := by
  have h := fsS_val k; have := k.isLt
  unfold kindOf; dsimp only
  rw [dif_neg (by omega), dif_neg (by omega), dif_pos (by omega)]
  simp only [h, Nat.add_sub_cancel_left]
theorem kindOf_fr (k : Fin 64) : kindOf (.dma (frS k)) = some (.fr k) := by
  have h := frS_val k; have := k.isLt
  unfold kindOf; dsimp only
  rw [dif_neg (by omega), dif_neg (by omega), dif_neg (by omega), dif_pos (by omega)]
  simp only [h, Nat.add_sub_cancel_left]

theorem kindOf_ls (j : Fin 4) : kindOf (.dma (lsS j)) = some (.ls j) := by
  have h := lsS_val j; have := j.isLt
  unfold kindOf; dsimp only
  rw [dif_neg (by omega), dif_neg (by omega), dif_neg (by omega), dif_neg (by omega), dif_pos (by omega)]
  simp only [h, Nat.add_sub_cancel_left]

/-- The credit of a 64 × 1024 slice. -/
abbrev N64 : ℕ := (fSl (0 : Dev nD) (0 : Fin 64)).view.dmaCredit
theorem N64_pos : 0 < N64 := View.dmaCredit_pos _ (by decide)

/-! ## Contents and payloads -/

/-- What device `c`'s result holds in the end (the specification's function of every device's x). -/
abbrev outC (c : Dev nD) : Buf (Elt F) ((c : Thread nD τ).loc main_v1) := Cert.SpecK.outFinal m c
abbrev xC (c : Dev nD) : Buf (Elt F) ((c : Thread nD τ).loc main_arg0) := m ((c : Thread nD τ).loc main_arg0)

/-- What device `c`'s result holds when the kernel starts. -/
abbrev o0 (c : Dev nD) : Buf (Elt F) ((c : Thread nD τ).loc main_v1) := m ((c : Thread nD τ).loc main_v1)

/-- A 64-row slice of the result on device `c`, held whole, at contents `f`. -/
abbrev slPts (c : Dev nD) (M : Memref sig .tc .hbm S64x1024 .f32) (f : Buf (Elt F) (M.view.loc (c : Thread nD τ))) : sProp 𝕄 :=
  M.view.loc (c : Thread nD τ) ↦[M.view.set]{fullShare} f

/-- Device `c`'s result once its y-neighbour's slice k has landed in it: the start contents overwritten, on the
    slice, by the neighbour's slice of x. -/
abbrev YCont (c : Dev nD) (k : Fin 64) : Buf (Elt F) ((c : Thread nD τ).loc main_v1) :=
  (fSl c k).view.write (Elt F) (o0 m c) ((ySrc (yp c) k).view.read (Elt F) (xC m (yp c))) Finset.univ
/-- Device `c`'s result once its x-neighbour's forwarded slice k has landed in it. -/
abbrev FCont (c : Dev nD) (k : Fin 64) : Buf (Elt F) ((c : Thread nD τ).loc main_v1) :=
  (fSl (xp c) k).view.write (Elt F) (o0 m c) ((fSl (xp c) k).view.read (Elt F) (YCont m (xp c) k)) Finset.univ

/-- The y-neighbour's signal hands over its own slices for this device's y-transfers, as it found them; -/
def barPayY (c : Dev nD) : sProp 𝕄 :=
  iprop((bigSep Finset.univ fun k : Fin 64 => ((fSl (yp c) k).view.loc ((yp c : Dev nD) : Thread nD τ) ↦[(fSl (yp c) k).view.set]{fullShare} o0 m (yp c)))
    ∗ bigSep Finset.univ fun k : Fin 64 => reached ER (yrCell (yp c) k) 0)
/-- the x-neighbour's its slices for the forwarded copies. -/
def barPayX (c : Dev nD) : sProp 𝕄 :=
  iprop((bigSep Finset.univ fun k : Fin 64 => ((fSl c k).view.loc ((xp c : Dev nD) : Thread nD τ) ↦[(fSl c k).view.set]{fullShare} o0 m (xp c)))
    ∗ bigSep Finset.univ fun k : Fin 64 => reached ER (frCell (xp c) k) 0)
def ysPay (c : Dev nD) (k : Fin 64) : sProp 𝕄 :=
  (ySrc c k).view.loc (c : Thread nD τ) ↦[(ySrc c k).view.set]{fullShare} xC m c
def yrPay (c : Dev nD) (k : Fin 64) : sProp 𝕄 :=
  (fSl c k).view.loc (c : Thread nD τ) ↦[(fSl c k).view.set]{fullShare} YCont m c k
def fsPay (c : Dev nD) (k : Fin 64) : sProp 𝕄 :=
  (fSl c k).view.loc (c : Thread nD τ) ↦[(fSl c k).view.set]{fullShare} YCont m c k
def frPay (c : Dev nD) (k : Fin 64) : sProp 𝕄 :=
  (fSl (xp c) k).view.loc (c : Thread nD τ) ↦[(fSl (xp c) k).view.set]{fullShare} FCont m c k

/-- The credit of a 512 × 1024 block in the scratch buffer and in the result. -/
abbrev NV : ℕ := (vSlot (0 : Fin 2)).view.dmaCredit
abbrev NO : ℕ := (lDst (0 : Dev nD) (0 : Fin 16)).view.dmaCredit
theorem NV_pos : 0 < NV := View.dmaCredit_pos _ (by decide)
theorem NO_pos : 0 < NO := View.dmaCredit_pos _ (by decide)

/-- The chunk a local copy on slot `s` moves in its round `r`: chunk 2r + s. -/
def chunkOf (s : Fin 2) (r : ℕ) : Fin 16 := ⟨(2 * r + s.val) % 16, Nat.mod_lt _ (by decide)⟩

/-- What round `r` of a load's cell hands back: the scratch slot holding the chunk of x, and the slice of x read. -/
def ldPay (c : Dev nD) (s : Fin 2) (r : ℕ) : sProp 𝕄 :=
  iprop(((vSlot s).view.loc (c : Thread nD τ) ↦[(vSlot s).view.set]{fullShare} VC m c (chunkOf s r))
    ∗ ((lSrc c (chunkOf s r)).view.loc (c : Thread nD τ) ↦[(lSrc c (chunkOf s r)).view.set]{fullShare} xC m c))
/-- What round `r` of a store's cell hands back: the chunk of the result at its final contents, and the slot. -/
def stPay (c : Dev nD) (s : Fin 2) (r : ℕ) : sProp 𝕄 :=
  iprop(((lDst c (chunkOf s r)).view.loc (c : Thread nD τ) ↦[(lDst c (chunkOf s r)).view.set]{fullShare} outC m c)
    ∗ ((vSlot s).view.loc (c : Thread nD τ) ↦[(vSlot s).view.set]{fullShare} VC m c (chunkOf s r)))
/-- Cells 0 and 1 are the loads of slots 0 and 1, cells 2 and 3 the stores from them. -/
def lsPay (c : Dev nD) (j : Fin 4) (r : ℕ) : sProp 𝕄 :=
  match j with
  | ⟨0, _⟩ => ldPay m c 0 r
  | ⟨1, _⟩ => ldPay m c 1 r
  | ⟨2, _⟩ => stPay m c 0 r
  | ⟨_ + 3, _⟩ => stPay m c 1 r

/-- The schedule: one round for the barrier and the transfer cells, eight for each local copy's cell. -/
def rd : Rounds.Schedule (GSem nD τ sig) Bool 𝕄 where
  duties g r :=
    if g.1.2 = .tc then
      (match kindOf g.2 with
        | some .bar => if r = 0 then Finset.univ else ∅
        | some (.ls _) => if r < 8 then {false} else ∅
        | some _ => if r = 0 then {false} else ∅
        | none => ∅)
    else ∅
  unitless _ := False
  amount g _ _ := match kindOf g.2 with
    | some .bar => 1
    | some (.ls j) => if j.val < 2 then NV else NO
    | _ => N64
  payload g r d := match kindOf g.2 with
    | some .bar => if d then barPayX m g.1.1 else barPayY m g.1.1
    | some (.ys k) => ysPay m g.1.1 k
    | some (.yr k) => yrPay m g.1.1 k
    | some (.fs k) => fsPay m g.1.1 k
    | some (.fr k) => frPay m g.1.1 k
    | some (.ls j) => lsPay m g.1.1 j r
    | none => iprop(emp)
  amount_pos g _ _ _ := by
    split
    · exact Nat.one_pos
    · split
      · exact NV_pos
      · exact NO_pos
    · exact N64_pos

instance rd_payload_storable (g : GSem nD τ sig) (r : ℕ) (d : Bool) :
    BI.Storable (upEmb : UEmb _ 𝕄) ((rd (F := F) m).payload g r d) := by
  show BI.Storable upEmb (match kindOf g.2 with
    | some .bar => if d then barPayX m g.1.1 else barPayY m g.1.1
    | some (.ys k) => ysPay m g.1.1 k
    | some (.yr k) => yrPay m g.1.1 k
    | some (.fs k) => fsPay m g.1.1 k
    | some (.fr k) => frPay m g.1.1 k
    | some (.ls j) => lsPay m g.1.1 j r
    | none => iprop(emp))
  unfold barPayX barPayY ysPay yrPay fsPay frPay lsPay ldPay stPay
  (repeat' split) <;> infer_instance

end Cert.KernelProof

end
-- ==== Proof.KData.lean ====
/-
  What each device starts from and ends with: the protocol's ghost state, the levels that order the waits, what a
  device owes its neighbours' cells at launch, and the pipeline's proof data (the kernel has no staged window: its one
  grid point runs the body on the whole arrays).
-/
import proofs.«900037_g7700000000000038_dist_a2a_v7x_xy2x2_y_m8192_n1024_f32_1_alg».proof.Proof.KSched
import proofs.«900037_g7700000000000038_dist_a2a_v7x_xy2x2_y_m8192_n1024_f32_1_alg».proof.Proof.Gen.Kernel.Skeleton
import proofs.«900037_g7700000000000038_dist_a2a_v7x_xy2x2_y_m8192_n1024_f32_1_alg».proof.Proof.Gen.Kernel.Points

noncomputable section

namespace Cert.KernelProof

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## All the protocol's cells, indexed -/

/-- A device's cells: the barrier (`none`) and, for j = 0 … 3 and each slice k, the y-send, y-receive, forward-send
    and forward-receive cell. -/
abbrev CIx : Type := Option (Fin 4 × Fin 64)

abbrev kcell (d : Dev nD) : CIx → GSem nD τ sig
  | none => barCell d
  | some (⟨0, _⟩, k) => ysCell d k
  | some (⟨1, _⟩, k) => yrCell d k
  | some (⟨2, _⟩, k) => fsCell d k
  | some (⟨_ + 3, _⟩, k) => frCell d k

/-! ## Ghost state -/

def invs (K : Dev nD × CIx → ℕ) : sProp 𝕄 :=
  bigSep Finset.univ fun dk : Dev nD × CIx => cellInv ER (rd m) (K dk) (kcell dk.1 dk.2)
def reachedAll : sProp 𝕄 :=
  bigSep Finset.univ fun dk : Dev nD × CIx => (reached ER (kcell dk.1 dk.2) 0 : sProp 𝕄)
def positions (c : Dev nD) : sProp 𝕄 :=
  bigSep Finset.univ fun i : CIx => (atPos ER (kcell c i) 0 ∅ 0 : sProp 𝕄)
/-- The tokens of the duties device `c` pays: both neighbours' barrier duties; per slice, its own two send duties, the
    y-neighbour's receive duty and the x-neighbour's forward-receive duty. -/
def payToks (c : Dev nD) : sProp 𝕄 :=
  iprop(dutyTok ER (barCell (yp c)) 0 false ∗ dutyTok ER (barCell (xp c)) 0 true
    ∗ bigSep Finset.univ fun k : Fin 64 =>
        iprop(dutyTok ER (ysCell c k) 0 false ∗ dutyTok ER (yrCell (yp c) k) 0 false
          ∗ dutyTok ER (fsCell c k) 0 false ∗ dutyTok ER (frCell (xp c) k) 0 false))

/-- The local copies' four cells, on every device: their invariants; -/
def lsInvs (KL : Dev nD × Fin 4 → ℕ) : sProp 𝕄 :=
  bigSep Finset.univ fun dj : Dev nD × Fin 4 => cellInv ER (rd m) (KL dj) (lsCell dj.1 dj.2)
/-- and what their owner starts from: its position, round 0 reached, the tokens of the eight rounds' duties (it pays them
    itself, one local copy a round). -/
def lsState (c : Dev nD) : sProp 𝕄 :=
  bigSep Finset.univ fun j : Fin 4 =>
    iprop((atPos ER (lsCell c j) 0 ∅ 0 : sProp 𝕄) ∗ reached ER (lsCell c j) 0 ∗ bigSep (Finset.range 8) fun r => dutyTok ER (lsCell c j) r false)

def ghost (K : Dev nD × CIx → ℕ) (KL : Dev nD × Fin 4 → ℕ) (c : Dev nD) : sProp 𝕄 :=
  iprop(invs m K ∗ reachedAll ∗ positions c ∗ payToks c ∗ lsInvs m KL ∗ lsState c)

/-- The launch credit: what the neighbours owe this device's cells. -/
def creds (c : Dev nD) : sProp 𝕄 :=
  iprop(cred (tallyAt (barCell c) () 2)
    ∗ bigSep Finset.univ fun k : Fin 64 => iprop(cred (tallyAt (yrCell c k) () N64) ∗ cred (tallyAt (frCell c k) () N64)))

/-! ## What a device owes at launch; the levels -/

def O₀ (c : Dev nD) : CellTallies nD τ sig Unit :=
  (∑ k : Fin 64, tallyAt (yrCell (yp c) k) () N64) + (∑ k : Fin 64, tallyAt (frCell (xp c) k) () N64)
    + tallyAt (barCell (xp c)) () 1 + tallyAt (barCell (yp c)) () 1

def L (g : GSem nD τ sig) : Finset Unit := if g.1.2 = .tc then {()} else ∅
/-- Barrier cells at 1, y-receive cells at 2, forward-receive cells at 3, everything else at 0: a device waits on a
    cell only while everything it still owes lies strictly above it. -/
def lv (g : GSem nD τ sig) (_ : Unit) : ℕ := match kindOf g.2 with
  | some .bar => 1
  | some (.yr _) => 2
  | some (.fr _) => 3
  | _ => 0

/-! ## Buffers -/

abbrev xWhole (c : Dev nD) : sProp 𝕄 := ((c : Thread nD τ).loc main_arg0) ↦{fullShare} xC m c
abbrev oWhole (c : Dev nD) (f : Buf (Elt F) ((c : Thread nD τ).loc main_v1)) : sProp 𝕄 := ((c : Thread nD τ).loc main_v1) ↦{fullShare} f
abbrev vWhole (c : Dev nD) (f : Buf (Elt F) ((c : Thread nD τ).loc cc0_scratch4)) : sProp 𝕄 := ((c : Thread nD τ).loc cc0_scratch4) ↦{fullShare} f
/-- The local copies' four cells of device `c`, closed, their counters at zero. -/
def lsems (c : Dev nD) : sProp 𝕄 := bigSep Finset.univ fun j : Fin 4 => semVal (lsCell c j) 0
/-- The protocol's 256 transfer cells of device `c`, closed, their counters at zero. -/
def xferZero (c : Dev nD) : sProp 𝕄 := bigSep Finset.univ fun jk : Fin 4 × Fin 64 => semVal (kcell c (some jk)) 0

def start (c : Dev nD) : sProp 𝕄 :=
  iprop((∃ K KL, ghost m K KL c) ∗ creds c ∗ levAts L lv ∗ xWhole m c ∗ oWhole c (o0 m c))

def Φ₀ (c : Dev nD) : sProp 𝕄 := iprop(start m c ∗ ∃ f, vWhole c f)
/-- After the point: x as it was, the result at its final contents, the scratch buffer, every own semaphore at zero. -/
def Φ₁ (c : Dev nD) : sProp 𝕄 :=
  iprop(xWhole m c ∗ oWhole c (outC m c) ∗ (∃ f, vWhole c f) ∗ lsems c ∗ xferZero c)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## The body's contract -/

def bodyPre (K : Dev nD × CIx → ℕ) (KL : Dev nD × Fin 4 → ℕ) (c : Dev nD) : sProp 𝕄 :=
  iprop(ghost m K KL c ∗ creds c ∗ levAts L lv ∗ xWhole m c ∗ oWhole c (o0 m c) ∗ (∃ f, vWhole c f)
    ∗ (dats m 0 c).owesAt () t₀.castSucc)

def bodyPost (c : Dev nD) : sProp 𝕄 := iprop(Φ₁ m c ∗ (dats m 0 c).owesAt () t₀.succ)

end Cert.KernelProof

end
-- ==== Proof.KLaunch.lean ====
/-
  The launch of the two-hop exchange.

  The kernel's own semaphores are the 256 transfer cells of the protocol and the four cells of the local copies; the
  runtime's barrier semaphore is the one unscoped semaphore.  At launch every cell of every device gets its invariant
  from its counter at zero and its round state.  The duty tokens minted at a protocol cell's owner travel to the device
  that pays the duty (the y-neighbour, the x-neighbour, or the owner itself for a send cell); the tokens of a local
  copy's eight rounds stay with the owner, which pays them itself.  What the neighbours owe a device's cells is that
  device's launch credit.  The body's contract is taken as a hypothesis.
-/
import proofs.«900037_g7700000000000038_dist_a2a_v7x_xy2x2_y_m8192_n1024_f32_1_alg».proof.Proof.KData

noncomputable section

namespace Cert.KernelProof

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

/-- The transfer cell (j, k) as a DMA semaphore: j = 0 … 3 the y-send, y-receive, forward-send, forward-receive array. -/
def dsem : Fin 4 × Fin 64 → DmaSem sig
  | (⟨0, _⟩, k) => ysS k
  | (⟨1, _⟩, k) => yrS k
  | (⟨2, _⟩, k) => fsS k
  | (⟨_ + 3, _⟩, k) => frS k

omit [FloatOps F] in
theorem kcell_some (d : Dev nD) (jk : Fin 4 × Fin 64) : kcell d (some jk) = ((d : Thread nD τ), SemLoc.dma (dsem jk)) := by
  obtain ⟨j, k⟩ := jk
  match j with
  | ⟨0, _⟩ => rfl
  | ⟨1, _⟩ => rfl
  | ⟨2, _⟩ => rfl
  | ⟨_ + 3, _⟩ => rfl

theorem dsem_val (jk : Fin 4 × Fin 64) : (dsem jk).val = 64 * jk.1.val + jk.2.val := by
  obtain ⟨j, k⟩ := jk
  match j with
  | ⟨0, _⟩ => exact (ysS_val k).trans (by simp)
  | ⟨1, _⟩ => exact (yrS_val k).trans (by simp)
  | ⟨2, _⟩ => exact (fsS_val k).trans (by simp)
  | ⟨n + 3, h⟩ =>
    have hn : n = 0 := by omega
    subst hn
    exact (frS_val k).trans (by simp)

/-- The own semaphores, indexed: the 256 transfer cells, then the four of the local copies. -/
abbrev OIx : Type := (Fin 4 × Fin 64) ⊕ Fin 4
def osem : OIx → SemLoc sig := Sum.elim (fun jk => .dma (dsem jk)) (fun j => .dma (lsS j))

theorem dma_scoped : ∀ s : DmaSem sig, (SemLoc.dma s : SemLoc sig).isScoped .tc = true := by decide

theorem osem_injective : Function.Injective osem := by
  rintro (a | a) (b | b) h
  · have h' : dsem a = dsem b := SemLoc.dma.inj h
    have hv := congrArg Fin.val h'
    rw [dsem_val, dsem_val] at hv
    have ha := a.2.isLt; have hb := b.2.isLt
    exact congrArg Sum.inl (Prod.ext (Fin.ext (by omega)) (Fin.ext (by omega)))
  · have h' : dsem a = lsS b := SemLoc.dma.inj h
    have hv := congrArg Fin.val h'
    rw [dsem_val, lsS_val] at hv
    have ha := a.2.isLt; have ha' := a.1.isLt
    omega
  · have h' : lsS a = dsem b := SemLoc.dma.inj h
    have hv := congrArg Fin.val h'
    rw [dsem_val, lsS_val] at hv
    have hb := b.2.isLt; have hb' := b.1.isLt
    omega
  · have h' : lsS a = lsS b := SemLoc.dma.inj h
    have hv := congrArg Fin.val h'
    rw [lsS_val, lsS_val] at hv
    exact congrArg Sum.inr (Fin.ext (by omega))

theorem ownSemFacts : Pipeline.OwnSemFacts cfg0.spec osem :=
  ⟨fun k => by rcases k with k | k <;> exact dma_scoped _, osem_injective, fun _ w => w.elim0⟩

omit [FloatOps F] in
/-- The own semaphores at zero are the transfer cells and the local copies' semaphores at zero; -/
theorem ownSems0_eq (c : Dev nD) : (Pipeline.ownSems0 (Ix := Unit) (Name := ℕ) (U := UU) (Lvl := ℕ) (Val := Elt F) (τ := τ) osem c : sProp 𝕄)
    = iprop(xferZero c ∗ lsems c) := by
  unfold Pipeline.ownSems0 xferZero lsems
  rw [bigSep_univ_sum]
  congr 1

omit [FloatOps F] in
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem bigSep_option {α : Type} [Fintype α] [DecidableEq α] (Φ : Option α → sProp 𝕄) :
    bigSep Finset.univ Φ = iprop(Φ none ∗ bigSep Finset.univ fun a => Φ (some a)) := by
  have h : (Finset.univ.erase none : Finset (Option α)) = Finset.univ.map Function.Embedding.some := by
    ext x; cases x <;> simp
  rw [bigSep_univ_at Φ none, h, bigSep_map]; rfl

omit [FloatOps F] in
/-- All of a device's protocol cells closed at zero. -/
theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun i : CIx => semVal (kcell c i) 0) ∗ bigSep Finset.univ fun j : Fin 4 => semVal (lsCell c j) 0 : sProp 𝕄) := by
  rw [ownSems0_eq, unscopedSems0_eq, bigSep_option]
  unfold xferZero lsems
  iintro ⟨⟨HX, HL⟩, HB⟩
  isplitr [HL]
  · isplitl [HB] <;> iassumption
  · iexact HL

/-! ## The cells and their duty tokens -/

/-- The role of a device's protocol cell number. -/
def ckOf : CIx → CK
  | none => .bar
  | some (⟨0, _⟩, k) => .ys k
  | some (⟨1, _⟩, k) => .yr k
  | some (⟨2, _⟩, k) => .fs k
  | some (⟨_ + 3, _⟩, k) => .fr k

theorem kindOf_kcell (d : Dev nD) (i : CIx) : kindOf (kcell d i).2 = some (ckOf i) := by
  rcases i with _ | ⟨j, k⟩
  · exact kindOf_bar
  · match j with
    | ⟨0, _⟩ => exact kindOf_ys k
    | ⟨1, _⟩ => exact kindOf_yr k
    | ⟨2, _⟩ => exact kindOf_fs k
    | ⟨_ + 3, _⟩ => exact kindOf_fr k

theorem ckOf_injective : Function.Injective ckOf := by
  intro a b h
  rcases a with _ | ⟨ja, ka⟩ <;> rcases b with _ | ⟨jb, kb⟩
  · rfl
  · match jb with
    | ⟨0, _⟩ | ⟨1, _⟩ | ⟨2, _⟩ | ⟨_ + 3, _⟩ => cases h
  · match ja with
    | ⟨0, _⟩ | ⟨1, _⟩ | ⟨2, _⟩ | ⟨_ + 3, _⟩ => cases h
  · match ja, jb with
    | ⟨0, _⟩, ⟨0, _⟩ | ⟨1, _⟩, ⟨1, _⟩ | ⟨2, _⟩, ⟨2, _⟩ => cases h; rfl
    | ⟨na + 3, ha⟩, ⟨nb + 3, hb⟩ =>
      cases h
      have : na = nb := by omega
      subst this; rfl
    | ⟨0, _⟩, ⟨1, _⟩ | ⟨0, _⟩, ⟨2, _⟩ | ⟨0, _⟩, ⟨_ + 3, _⟩ | ⟨1, _⟩, ⟨0, _⟩ | ⟨1, _⟩, ⟨2, _⟩ | ⟨1, _⟩, ⟨_ + 3, _⟩
    | ⟨2, _⟩, ⟨0, _⟩ | ⟨2, _⟩, ⟨1, _⟩ | ⟨2, _⟩, ⟨_ + 3, _⟩ | ⟨_ + 3, _⟩, ⟨0, _⟩ | ⟨_ + 3, _⟩, ⟨1, _⟩ | ⟨_ + 3, _⟩, ⟨2, _⟩ => cases h

/-- No protocol cell is a local copy's cell. -/
theorem ckOf_ne_ls (i : CIx) (j : Fin 4) : ckOf i ≠ .ls j := by
  rcases i with _ | ⟨ji, k⟩
  · intro h; cases h
  · match ji with
    | ⟨0, _⟩ | ⟨1, _⟩ | ⟨2, _⟩ | ⟨_ + 3, _⟩ => intro h; cases h

omit [FloatOps F] in
theorem kcell_dev (d : Dev nD) (i : CIx) : (kcell d i).1 = (d : Thread nD τ) := by
  rcases i with _ | jk
  · rfl
  · rw [kcell_some]

/-- All of a device's cells: the protocol's, then the four of the local copies. -/
abbrev XIx : Type := CIx ⊕ Fin 4
abbrev xcell (d : Dev nD) : XIx → GSem nD τ sig
  | .inl i => kcell d i
  | .inr j => lsCell d j
def xkOf : XIx → CK
  | .inl i => ckOf i
  | .inr j => .ls j

theorem kindOf_xcell (d : Dev nD) (x : XIx) : kindOf (xcell d x).2 = some (xkOf x) := by
  rcases x with i | j
  · exact kindOf_kcell d i
  · exact kindOf_ls j

theorem xkOf_injective : Function.Injective xkOf := by
  rintro (a | a) (b | b) h
  · exact congrArg Sum.inl (ckOf_injective h)
  · exact absurd h (ckOf_ne_ls a b)
  · exact absurd h.symm (ckOf_ne_ls b a)
  · exact congrArg Sum.inr (CK.ls.inj h)

omit [FloatOps F] in
theorem xcell_dev (d : Dev nD) (x : XIx) : (xcell d x).1 = (d : Thread nD τ) := by
  rcases x with i | j
  · exact kcell_dev d i
  · rfl

theorem xcell_injective : Function.Injective (fun dx : Dev nD × XIx => xcell dx.1 dx.2) := by
  rintro ⟨d, x⟩ ⟨d', x'⟩ h
  have h1 : d = d' := by
    have := congrArg (fun g : GSem nD τ sig => g.1.1) h
    simp only [xcell_dev] at this
    exact this
  subst h1
  have h2 : some (xkOf x) = some (xkOf x') := by
    rw [← kindOf_xcell d x, ← kindOf_xcell d x']
    exact congrArg (fun g : GSem nD τ sig => kindOf g.2) h
  rw [xkOf_injective (Option.some.inj h2)]

/-- Every device's cells. -/
def allCells : Finset (GSem nD τ sig) := Finset.univ.map ⟨fun dx : Dev nD × XIx => xcell dx.1 dx.2, xcell_injective⟩

/-- A protocol cell's duties: the barrier's two, a transfer cell's one. -/
abbrev TIx : Type := Bool ⊕ (Fin 4 × Fin 64)
abbrev tcell : TIx → CIx := Sum.elim (fun _ => none) some
abbrev tduty : TIx → Bool := Sum.elim id (fun _ => false)
/-- All the duties minted at launch: the protocol cells', and one a round for each of the eight rounds of a local
    copy's cell. -/
abbrev YIx : Type := TIx ⊕ (Fin 4 × Fin 8)
def tokOf : Dev nD × YIx → GSem nD τ sig × ℕ × Bool
  | (d, .inl t) => (kcell d (tcell t), 0, tduty t)
  | (d, .inr jr) => (lsCell d jr.1, jr.2.val, false)

theorem tokOf_injective : Function.Injective (tokOf : Dev nD × YIx → GSem nD τ sig × ℕ × Bool) := by
  rintro ⟨d, y⟩ ⟨d', y'⟩ h
  rcases y with t | jr <;> rcases y' with t' | jr'
  · have hc := xcell_injective (a₁ := (d, Sum.inl (tcell t))) (a₂ := (d', Sum.inl (tcell t'))) (congrArg (fun x : GSem nD τ sig × ℕ × Bool => x.1) h)
    have hb : tduty t = tduty t' := congrArg (fun x : GSem nD τ sig × ℕ × Bool => x.2.2) h
    have h1 : d = d' := congrArg Prod.fst hc
    have h2 : tcell t = tcell t' := Sum.inl.inj (congrArg Prod.snd hc)
    subst h1
    rcases t with b | jk <;> rcases t' with b' | jk'
    · cases (show b = b' from hb); rfl
    · cases h2
    · cases h2
    · cases (show jk = jk' from Option.some.inj h2); rfl
  · have hc := xcell_injective (a₁ := (d, Sum.inl (tcell t))) (a₂ := (d', Sum.inr jr'.1)) (congrArg (fun x : GSem nD τ sig × ℕ × Bool => x.1) h)
    have h2 : (Sum.inl (tcell t) : XIx) = Sum.inr jr'.1 := congrArg Prod.snd hc
    cases h2
  · have hc := xcell_injective (a₁ := (d, Sum.inr jr.1)) (a₂ := (d', Sum.inl (tcell t'))) (congrArg (fun x : GSem nD τ sig × ℕ × Bool => x.1) h)
    have h2 : (Sum.inr jr.1 : XIx) = Sum.inl (tcell t') := congrArg Prod.snd hc
    cases h2
  · have hc := xcell_injective (a₁ := (d, Sum.inr jr.1)) (a₂ := (d', Sum.inr jr'.1)) (congrArg (fun x : GSem nD τ sig × ℕ × Bool => x.1) h)
    have hr : jr.2.val = jr'.2.val := congrArg (fun x : GSem nD τ sig × ℕ × Bool => x.2.1) h
    have h1 : d = d' := congrArg Prod.fst hc
    have h2 : jr.1 = jr'.1 := Sum.inr.inj (congrArg Prod.snd hc)
    subst h1
    obtain ⟨j, r⟩ := jr; obtain ⟨j', r'⟩ := jr'
    cases (show j = j' from h2); cases (show r = r' from Fin.ext hr); rfl

def allToks : Finset (GSem nD τ sig × ℕ × Bool) := Finset.univ.map ⟨tokOf, tokOf_injective⟩

def u₀ : UU :=
  (initOf (Pipeline.cells cfgs cellOf_inj) (Pipeline.launchToks cfgs cellOf_inj), initOf allCells allToks)

/-- The duty tokens of device `c`'s own protocol cells, as minted; -/
def toks (c : Dev nD) : sProp 𝕄 :=
  bigSep Finset.univ fun t : TIx => dutyTok ER (kcell c (tcell t)) 0 (tduty t)
/-- those of its local copies' cells, a round each. -/
def lstoks (c : Dev nD) : sProp 𝕄 :=
  bigSep Finset.univ fun jr : Fin 4 × Fin 8 => dutyTok ER (lsCell c jr.1) jr.2.val false

/-- What the launch element deals device `c`: round states, reached facts, positions and tokens of its own cells. -/
def G (c : Dev nD) : sProp 𝕄 :=
  iprop((bigSep Finset.univ fun i : CIx => roundState ER (rd m) (kcell c i) 0)
    ∗ (bigSep Finset.univ fun j : Fin 4 => roundState ER (rd m) (lsCell c j) 0)
    ∗ (bigSep Finset.univ fun i : CIx => reached ER (kcell c i) 0)
    ∗ (bigSep Finset.univ fun j : Fin 4 => reached ER (lsCell c j) 0)
    ∗ (bigSep Finset.univ fun i : CIx => atPos ER (kcell c i) 0 ∅ 0)
    ∗ (bigSep Finset.univ fun j : Fin 4 => atPos ER (lsCell c j) 0 ∅ 0)
    ∗ toks c ∗ lstoks c)

/-- What the global step makes of it: the ghost state. -/
def G' (c : Dev nD) : sProp 𝕄 := iprop(∃ K KL, ghost m K KL c)

omit [FloatOps F] in
/-- Over every device's cells: the protocol cells device by device, and the local copies' cells device by device. -/
theorem bigSep_cells (Φ : GSem nD τ sig → sProp 𝕄) :
    bigSep allCells Φ = iprop((bigSep Finset.univ fun c : Dev nD => bigSep Finset.univ fun i : CIx => Φ (kcell c i))
      ∗ bigSep Finset.univ fun c : Dev nD => bigSep Finset.univ fun j : Fin 4 => Φ (lsCell c j)) := by
  unfold allCells
  rw [bigSep_map, bigSep_univ_prod, ← bigSep_sep']
  exact bigSep_congr fun c _ => bigSep_univ_sum _

omit [FloatOps F] in
theorem bigSep_toks : bigSep allToks (fun x => (dutyTok ER x.1 x.2.1 x.2.2 : sProp 𝕄))
    = iprop((bigSep Finset.univ fun c : Dev nD => toks c) ∗ bigSep Finset.univ fun c : Dev nD => lstoks c) := by
  unfold allToks
  rw [bigSep_map, bigSep_univ_prod, ← bigSep_sep']
  exact bigSep_congr fun c _ => bigSep_univ_sum _

omit [FloatOps F] in
theorem bigSep_prod (Φ : Dev nD → CIx → sProp 𝕄) :
    (bigSep Finset.univ fun dk : Dev nD × CIx => Φ dk.1 dk.2) = bigSep Finset.univ fun c : Dev nD => bigSep Finset.univ fun i : CIx => Φ c i :=
  bigSep_univ_prod _
omit [FloatOps F] in
theorem bigSep_prodL (Φ : Dev nD → Fin 4 → sProp 𝕄) :
    (bigSep Finset.univ fun dj : Dev nD × Fin 4 => Φ dj.1 dj.2) = bigSep Finset.univ fun c : Dev nD => bigSep Finset.univ fun j : Fin 4 => Φ c j :=
  bigSep_univ_prod _

omit [FloatOps F] in
theorem fund_all : BI.own (ER (initOf allCells allToks)) ⊢ (|==> bigSep Finset.univ (G m) : sProp 𝕄) := by
  iintro HX
  imod (Rounds.fund ER (rd m) allCells allToks) $$ HX with ⟨Hst, Hr, Hat, Htok⟩
  imodintro
  ihave Hst' := (Entails.of_eq (bigSep_cells fun g => roundState ER (rd m) g 0)) $$ Hst
  ihave Hr' := (Entails.of_eq (bigSep_cells fun g => reached ER g 0)) $$ Hr
  ihave Hat' := (Entails.of_eq (bigSep_cells fun g => atPos ER g 0 ∅ 0)) $$ Hat
  ihave Htok' := (Entails.of_eq (bigSep_toks (F := F))) $$ Htok
  icases Hst' with ⟨Hst1, Hst2⟩
  icases Hr' with ⟨Hr1, Hr2⟩
  icases Hat' with ⟨Hat1, Hat2⟩
  icases Htok' with ⟨Htok1, Htok2⟩
  unfold G; simp only [bigSep_sep']
  isplitl [Hst1]; · iexact Hst1
  isplitl [Hst2]; · iexact Hst2
  isplitl [Hr1]; · iexact Hr1
  isplitl [Hr2]; · iexact Hr2
  isplitl [Hat1]; · iexact Hat1
  isplitl [Hat2]; · iexact Hat2
  isplitl [Htok1]; · iexact Htok1
  iexact Htok2

omit [FloatOps F] in
/-- A family of cells closed at zero, each with its round state, gets its invariants. -/
theorem alloc_cells {I : Type} [Fintype I] (g : I → GSem nD τ sig) :
    iprop((bigSep Finset.univ fun i : I => semVal (g i) 0) ∗ bigSep Finset.univ fun i : I => roundState ER (rd m) (g i) 0)
      ⊢ (|={Set.univ}=> bigSep Finset.univ fun i : I => iprop(∃ κ : ℕ, cellInv ER (rd m) κ (g i)) : sProp 𝕄) := by
  rw [← bigSep_sep']
  exact (bigSep_mono fun i _ => (Rounds.body_intro ER (rd m) (g i)).trans inv_alloc).trans (bigSep_fupd _ _)

omit [FloatOps F] in
/-- The eight rounds' tokens of a cell, over the rounds' numbers. -/
theorem bigSep_range8 (Φ : ℕ → sProp 𝕄) : (bigSep Finset.univ fun r : Fin 8 => Φ r.val) = bigSep (Finset.range 8) Φ := by
  rw [show Finset.range 8 = (Finset.univ : Finset (Fin 8)).map Fin.valEmbedding from by decide, bigSep_map]; rfl

omit [FloatOps F] in
theorem lstoks_eq (c : Dev nD) : (lstoks c : sProp 𝕄)
    = bigSep Finset.univ fun j : Fin 4 => bigSep (Finset.range 8) fun r => dutyTok ER (lsCell c j) r false := by
  unfold lstoks
  rw [bigSep_univ_prod]
  exact bigSep_congr fun j _ => bigSep_range8 fun r => (dutyTok ER (lsCell c j) r false : sProp 𝕄)

omit [FloatOps F] in
/-- What the owner of the local copies' cells starts from, piece by piece. -/
theorem lsState_of (c : Dev nD) : (lsState c : sProp 𝕄) = iprop((bigSep Finset.univ fun j : Fin 4 => atPos ER (lsCell c j) 0 ∅ 0)
    ∗ (bigSep Finset.univ fun j : Fin 4 => reached ER (lsCell c j) 0) ∗ lstoks c) := by
  rw [lstoks_eq]; unfold lsState; rw [bigSep_sep', bigSep_sep']

omit [FloatOps F] in
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : CIx => iprop(∃ κ : ℕ, cellInv ER (rd m) κ (kcell c i)))
          ∗ (bigSep Finset.univ fun j : Fin 4 => iprop(∃ κ : ℕ, cellInv ER (rd m) κ (lsCell c j)))
          ∗ (bigSep Finset.univ fun i : CIx => reached ER (kcell c i) 0) ∗ (bigSep Finset.univ fun i : CIx => atPos ER (kcell c i) 0 ∅ 0)
          ∗ toks c ∗ lsState c) := by
  unfold G
  rw [lsState_of]
  iintro ⟨Hos, Hus, Hst1, Hst2, Hr1, Hr2, Hat1, Hat2, Htok, Hltok⟩
  ihave Hv := (sems0_eq (F := F) c) $$ [Hos Hus]
  · isplitl [Hos] <;> iassumption
  icases Hv with ⟨Hv1, Hv2⟩
  imod (alloc_cells m (kcell c)) $$ [Hv1 Hst1] with Hinv1
  · isplitl [Hv1] <;> iassumption
  imod (alloc_cells m (lsCell c)) $$ [Hv2 Hst2] with Hinv2
  · isplitl [Hv2] <;> iassumption
  imodintro
  isplitl [Hinv1]; · iexact Hinv1
  isplitl [Hinv2]; · iexact Hinv2
  isplitl [Hr1]; · iexact Hr1
  isplitl [Hat1]; · iexact Hat1
  isplitl [Htok]; · iexact Htok
  isplitl [Hat2]; · iexact Hat2
  isplitl [Hr2]; · iexact Hr2
  iexact Hltok

def records (K : Dev nD × CIx → ℕ) (KL : Dev nD × Fin 4 → ℕ) : sProp 𝕄 := iprop(invs m K ∗ reachedAll ∗ lsInvs m KL)

instance records_persistent (K : Dev nD × CIx → ℕ) (KL : Dev nD × Fin 4 → ℕ) : BI.Persistent (records m K KL) := by
  unfold records invs reachedAll lsInvs; infer_instance

/-- What stays with device `c`: its positions, the tokens of the duties it pays, its local copies' cells' state. -/
def linear (c : Dev nD) : sProp 𝕄 := iprop(positions c ∗ payToks c ∗ lsState c)

omit [FloatOps F] in
theorem ghost_intro (K : Dev nD × CIx → ℕ) (KL : Dev nD × Fin 4 → ℕ) (c : Dev nD) : iprop(records m K KL ∗ linear c) ⊢ G' m c := by
  unfold records linear G' ghost
  iintro ⟨⟨HI, HR, HIL⟩, Hp, Ht, Hl⟩
  iexists K; iexists KL
  isplitl [HI]; · iexact HI
  isplitl [HR]; · iexact HR
  isplitl [Hp]; · iexact Hp
  isplitl [Ht]; · iexact Ht
  isplitl [HIL]; · iexact HIL
  iexact Hl

omit [FloatOps F] in
theorem bigSep_four (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in
/-- A device's own protocol tokens, by kind. -/
theorem toks_eq (c : Dev nD) : (toks c : sProp 𝕄) = iprop((dutyTok ER (barCell c) 0 false ∗ dutyTok ER (barCell c) 0 true)
    ∗ (bigSep Finset.univ fun k : Fin 64 => dutyTok ER (ysCell c k) 0 false) ∗ (bigSep Finset.univ fun k : Fin 64 => dutyTok ER (yrCell c k) 0 false)
    ∗ (bigSep Finset.univ fun k : Fin 64 => dutyTok ER (fsCell c k) 0 false) ∗ (bigSep Finset.univ fun k : Fin 64 => dutyTok ER (frCell c k) 0 false)) := by
  unfold toks
  rw [bigSep_univ_sum, bigSep_univ_prod, bigSep_four]
  congr 1
  exact bigSep_univ_eq_bigSepL [false, true] (by decide) (by decide) _

omit [FloatOps F] in
theorem bigSep_yp (Φ : Dev nD → sProp 𝕄) : bigSep Finset.univ Φ = bigSep Finset.univ fun c => Φ (yp c) := bigSep_univ_equiv ypEquiv Φ
omit [FloatOps F] in
theorem bigSep_xp (Φ : Dev nD → sProp 𝕄) : bigSep Finset.univ Φ = bigSep Finset.univ fun c => Φ (xp c) := bigSep_univ_equiv xpEquiv Φ

omit [FloatOps F] in
/-- The tokens travel to the payers: a barrier's two to the two neighbours, a receive cell's to the sending neighbour. -/
theorem toks_around : (bigSep Finset.univ fun c : Dev nD => (toks c : sProp 𝕄)) ⊢ bigSep Finset.univ fun c : Dev nD => payToks c := by
  unfold payToks
  simp only [toks_eq, bigSep_sep']
  iintro ⟨⟨HBf, HBt⟩, HYS, HYR, HFS, HFR⟩
  isplitl [HBf]
  · iapply (Entails.of_eq (bigSep_yp fun c : Dev nD => (dutyTok ER (barCell c) 0 false : sProp 𝕄)))
    iexact HBf
  isplitl [HBt]
  · iapply (Entails.of_eq (bigSep_xp fun c : Dev nD => (dutyTok ER (barCell c) 0 true : sProp 𝕄)))
    iexact HBt
  isplitl [HYS]; · iexact HYS
  isplitl [HYR]
  · iapply (Entails.of_eq (bigSep_yp fun c : Dev nD => (bigSep Finset.univ fun k : Fin 64 => dutyTok ER (yrCell c k) 0 false : sProp 𝕄)))
    iexact HYR
  isplitl [HFS]; · iexact HFS
  iapply (Entails.of_eq (bigSep_xp fun c : Dev nD => (bigSep Finset.univ fun k : Fin 64 => dutyTok ER (frCell c k) 0 false : sProp 𝕄)))
  iexact HFR

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun i : CIx => iprop(∃ κ : ℕ, cellInv ER (rd m) κ (kcell c i)))
          ∗ (bigSep Finset.univ fun j : Fin 4 => iprop(∃ κ : ℕ, cellInv ER (rd m) κ (lsCell c j)))
          ∗ (bigSep Finset.univ fun i : CIx => reached ER (kcell c i) 0) ∗ (bigSep Finset.univ fun i : CIx => atPos ER (kcell c i) 0 ∅ 0)
          ∗ toks c ∗ lsState c) : sProp 𝕄)
      ⊢ bigSep Finset.univ (G' m) := by
  simp only [bigSep_sep']
  rw [← bigSep_prod (fun c i => iprop(∃ κ : ℕ, cellInv ER (rd m) κ (kcell c i))), ← bigSep_prodL (fun c j => iprop(∃ κ : ℕ, cellInv ER (rd m) κ (lsCell c j))),
    ← bigSep_prod (fun c i => (reached ER (kcell c i) 0 : sProp 𝕄))]
  iintro ⟨HI, HIL, #HR, Hat, Htok, Hls⟩
  ihave HK := (BI.bigSep_exists_pi Finset.univ (fun (dk : Dev nD × CIx) (κ : ℕ) => (cellInv ER (rd m) κ (kcell dk.1 dk.2) : sProp 𝕄))) $$ HI
  icases HK with ⟨%K, #HI⟩
  ihave HKL := (BI.bigSep_exists_pi Finset.univ (fun (dj : Dev nD × Fin 4) (κ : ℕ) => (cellInv ER (rd m) κ (lsCell dj.1 dj.2) : sProp 𝕄))) $$ HIL
  icases HKL with ⟨%KL, #HIL⟩
  ihave Htk := (toks_around (F := F)) $$ Htok
  iapply (bigSep_with_persistent (R := records m K KL) fun c _ => ghost_intro m K KL c)
  isplitr
  · unfold records invs reachedAll lsInvs
    isplitl; · iexact HI
    isplitl; · iexact HR
    iexact HIL
  · unfold linear positions
    simp only [bigSep_sep']
    isplitl [Hat]; · iexact Hat
    isplitl [Htk]; · iexact Htk
    iexact Hls

omit [FloatOps F] in
/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
/-- The barrier's two units, one from each neighbour, are the barrier's credit. -/
theorem bar_two (c : Dev nD) :
    iprop(cred (tallyAt (barCell c) () 1) ∗ cred (tallyAt (barCell c) () 1)) ⊢ (cred (tallyAt (barCell c) () 2) : sProp 𝕄) := by
  rw [← tallyAt_add (barCell c) () 1 1]
  exact (cred_add _ _).2

omit [FloatOps F] in
/-- What the neighbours owe a device's cells: a unit each at its barrier, a slice's credit at each receive cell from the
    y-neighbour and at each forward-receive cell from the x-neighbour. -/
theorem creds_intro (c : Dev nD) : (Pipeline.launchCred O₀ c : sProp 𝕄) ⊢ creds c := by
  have hO : (O₀ : Dev nD → CellTallies nD τ sig Unit) = fun d => (((∑ k : Fin 64, tallyAt (yrCell (yp d) k) () N64) + (∑ k : Fin 64, tallyAt (frCell (xp d) k) () N64))
      + tallyAt (barCell (xp d)) () 1) + tallyAt (barCell (yp d)) () 1 := by funext d; rfl
  rw [hO, Pipeline.launchCred_add, Pipeline.launchCred_add, Pipeline.launchCred_add, Pipeline.launchCred_sum, Pipeline.launchCred_sum]
  unfold creds
  iintro ⟨⟨⟨HA, HB⟩, HC⟩, HD⟩
  isplitl [HC HD]
  · ihave HC' := (Pipeline.launchCred_tallyAt (SemLoc.reg barS) xp xp xp_xp xp_xp () 1 c) $$ HC
    ihave HD' := (Pipeline.launchCred_tallyAt (SemLoc.reg barS) yp yp yp_yp yp_yp () 1 c) $$ HD
    iapply (bar_two (F := F) c)
    isplitl [HC'] <;> iassumption
  · have hA : (bigSep Finset.univ fun k : Fin 64 => Pipeline.launchCred (fun d => tallyAt (yrCell (yp d) k) () N64) c : sProp 𝕄)
        ⊢ bigSep Finset.univ fun k : Fin 64 => cred (tallyAt (yrCell c k) () N64) :=
      bigSep_mono fun k _ => Pipeline.launchCred_tallyAt (SemLoc.dma (yrS k)) yp yp yp_yp yp_yp () N64 c
    have hB : (bigSep Finset.univ fun k : Fin 64 => Pipeline.launchCred (fun d => tallyAt (frCell (xp d) k) () N64) c : sProp 𝕄)
        ⊢ bigSep Finset.univ fun k : Fin 64 => cred (tallyAt (frCell c k) () N64) :=
      bigSep_mono fun k _ => Pipeline.launchCred_tallyAt (SemLoc.dma (frS k)) xp xp xp_xp xp_xp () N64 c
    rw [bigSep_sep']
    isplitl [HA]
    · iapply hA; iexact HA
    · iapply hB; iexact HB

/-! ## The theorem's side conditions -/

theorem L_of_ne (g : GSem nD τ sig) (h : g.1.2 ≠ .tc) : L g = ∅ := if_neg h

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hx, Ho⟩, Hlev, Hcr, -, HG⟩
  ihave Hc := (creds_intro (F := F) c) $$ Hcr
  imodintro
  unfold start G'
  isplitl
  · isplitl [HG]; · iexact HG
    isplitl [Hc]; · iexact Hc
    isplitl [Hlev]; · iexact Hlev
    isplitl [Hx]; · iexact Hx
    iexact Ho
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs] <;> iassumption

theorem phi1_exit (c : Dev nD) :
    (dats m 0 c).Φ (Fin.last cfg0.N) ⊢ iprop(iprop(xWhole m c ∗ oWhole c (outC m c)) ∗ Pipeline.ownSems0 osem c ∗ Pipeline.scopedRest cfg0.spec c) := by
  rw [show (dats m 0 c).Φ (Fin.last cfg0.N) = Φ₁ m c from rfl, scopedRest0_eq, ownSems0_eq]
  unfold Φ₁
  iintro ⟨Hx, Ho, Hv, Hl, Hz⟩
  isplitl [Hx Ho]
  · isplitl [Hx] <;> iassumption
  isplitl [Hl Hz]
  · isplitl [Hz] <;> iassumption
  iexact Hv

theorem waits (c : Dev nD) : (levAts L lv : sProp 𝕄) ⊢ Pipeline.cellsWaits cfgs (dats m) () 0 c :=
  Pipeline.cellsWaits_intro cfgs (dats m) () 0 c fun w _ _ => w.elim0

/-! ## The body's obligation -/

set_option maxRecDepth 100000 in
/-- The library's body obligation on device `c`, from the body's contract. -/
theorem body_obligation
    (hbody : ∀ (K : Dev nD × CIx → ℕ) (KL : Dev nD × Fin 4 → ℕ) (c : Dev nD) (Kt : PUnit → sProp 𝕄), iprop(bodyPre m K KL c ∗ (bodyPost m c -∗ Kt ⟨⟩))
      ⊢ wp frame (wpE (defs₀ (F := F)) 𝒱₀ c none) Set.univ
          (cc0_body (Memref.whole main_arg0) (Memref.isWhole_whole _) (Memref.whole main_v1) (Memref.isWhole_whole _) cc0_scratch0 cc0_scratch1 cc0_scratch2 cc0_scratch3 (Memref.whole cc0_scratch4) (Memref.isWhole_whole _) cc0_scratch5) Kt)
    (c : Dev nD) : BodyObligation (dats (F := F) m 0 c) (defs₀ (F := F)) 𝒱₀ () Set.univ := fun t => by
  rw [fin_N t]
  show iprop(Φ₀ m c ∗ (dats m 0 c).owesAt () t₀.castSucc ∗ emp) ⊢ wp frame (wpE (defs₀ (F := F)) 𝒱₀ c none) Set.univ
    (cc0_body (Memref.whole main_arg0) (Memref.isWhole_whole _) (Memref.whole main_v1) (Memref.isWhole_whole _) cc0_scratch0 cc0_scratch1 cc0_scratch2 cc0_scratch3 (Memref.whole cc0_scratch4) (Memref.isWhole_whole _) cc0_scratch5)
    (fun _ => iprop(Φ₁ m c ∗ (dats m 0 c).owesAt () t₀.succ ∗ emp))
  unfold Φ₀ start
  iintro ⟨⟨⟨⟨%K, %KL, Hg⟩, Hcr, Hlev, Hx, Ho⟩, Hv⟩, Howes, -⟩
  iapply (hbody K KL c fun _ => iprop(Φ₁ m c ∗ (dats m 0 c).owesAt () t₀.succ ∗ emp))
  unfold bodyPre bodyPost
  isplitr []
  · isplitl [Hg]; · iexact Hg
    isplitl [Hcr]; · iexact Hcr
    isplitl [Hlev]; · iexact Hlev
    isplitl [Hx]; · iexact Hx
    isplitl [Ho]; · iexact Ho
    isplitl [Hv]; · iexact Hv
    iexact Howes
  · iintro ⟨H1, H2⟩
    isplitl [H1]; · iexact H1
    isplitl [H2]; · iexact H2
    iempintro

/-! ## The run -/

set_option maxRecDepth 100000 in
/-- At the compiled mesh of four devices, for any float values, from any memory with zero counters: every weakly fair
    execution of @main terminates, and every final state has each device's result at the specified contents and its
    argument unchanged. -/
theorem run_main
    (hbody : ∀ (K : Dev nD × CIx → ℕ) (KL : Dev nD × Fin 4 → ℕ) (c : Dev nD) (Kt : PUnit → sProp 𝕄), iprop(bodyPre m K KL c ∗ (bodyPost m c -∗ Kt ⟨⟩))
      ⊢ wp frame (wpE (defs₀ (F := F)) 𝒱₀ c none) Set.univ
          (cc0_body (Memref.whole main_arg0) (Memref.isWhole_whole _) (Memref.whole main_v1) (Memref.isWhole_whole _) cc0_scratch0 cc0_scratch1 cc0_scratch2 cc0_scratch3 (Memref.whole cc0_scratch4) (Memref.isWhole_whole _) cc0_scratch5) Kt) :
    θ_run defs (onTc (τ := τ) (main (F := F))) ⟨m, fun _ => 0, ρ⟩
      (fun r => ∀ c : Dev nD, r.2.mem ((c : Thread nD τ).loc main_v1) = outC m c
        ∧ r.2.mem ((c : Thread nD τ).loc main_arg0) = m ((c : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m hbody) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ w => w.elim0) (hpf := fun _ k => k.elim0)
    (X := start m) (Y := fun c => iprop(xWhole m c ∗ oWhole c (outC m c))) (Z := fun _ => iprop(emp))
    (hX := start_intro m ρ) (hin := phi0_intro m) (hout := phi1_exit m)
    (QY := fun c s => s.mem ((c : Thread nD τ).loc main_v1) = outC m c
      ∧ s.mem ((c : Thread nD τ).loc main_arg0) = m ((c : Thread nD τ).loc main_arg0))
    (hY := fun c s' => by
      iintro ⟨⟨Hx, Ho⟩, -, HSI⟩
      icombine HSI Hx gives %hx
      icombine HSI Ho gives %ho
      imodintro
      isplitr
      · ipureintro; exact ⟨Buf.eq_of_forall_mem_univ ho, Buf.eq_of_forall_mem_univ hx⟩
      iexact HSI)
    (hQ := fun _ h c => (h c).2.2)

/-- info: 'Cert.KernelProof.run_main' depends on axioms: [propext, Classical.choice, Quot.sound] -/
#guard_msgs in #print axioms run_main

end Cert.KernelProof

end
-- ==== Proof.KTables.lean ====
/-
  The schedule's tables, cell by cell: which duties a cell's round has, their amounts, what they hand over.
-/
import proofs.«900037_g7700000000000038_dist_a2a_v7x_xy2x2_y_m8192_n1024_f32_1_alg».proof.Proof.KData

noncomputable section

namespace Cert.KernelProof

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

section Tables
variable (c : Dev nD) (k : Fin 64)

theorem duties_bar : (rd (F := F) m).duties (barCell c) 0 = Finset.univ := by
  unfold rd; dsimp only; rw [kindOf_bar]; dsimp only; rw [if_pos rfl, if_pos rfl]
theorem duties_ys : (rd (F := F) m).duties (ysCell c k) 0 = {false} := by
  unfold rd; dsimp only; rw [kindOf_ys]; dsimp only; rw [if_pos rfl, if_pos rfl]
theorem duties_yr : (rd (F := F) m).duties (yrCell c k) 0 = {false} := by
  unfold rd; dsimp only; rw [kindOf_yr]; dsimp only; rw [if_pos rfl, if_pos rfl]
theorem duties_fs : (rd (F := F) m).duties (fsCell c k) 0 = {false} := by
  unfold rd; dsimp only; rw [kindOf_fs]; dsimp only; rw [if_pos rfl, if_pos rfl]
theorem duties_fr : (rd (F := F) m).duties (frCell c k) 0 = {false} := by
  unfold rd; dsimp only; rw [kindOf_fr]; dsimp only; rw [if_pos rfl, if_pos rfl]
theorem duties_ls (j : Fin 4) (r : ℕ) (hr : r < 8) : (rd (F := F) m).duties (lsCell c j) r = {false} := by
  unfold rd; dsimp only; rw [kindOf_ls]; dsimp only; rw [if_pos rfl, if_pos hr]
theorem duties_bar_later : ∀ r, 1 ≤ r → (rd (F := F) m).duties (barCell c) r = ∅ := fun r hr => by
  unfold rd; dsimp only; rw [kindOf_bar]; dsimp only; rw [if_pos rfl, if_neg (by omega)]
theorem duties_ys_later : ∀ r, 1 ≤ r → (rd (F := F) m).duties (ysCell c k) r = ∅ := fun r hr => by
  unfold rd; dsimp only; rw [kindOf_ys]; dsimp only; rw [if_pos rfl, if_neg (by omega)]
theorem duties_yr_later : ∀ r, 1 ≤ r → (rd (F := F) m).duties (yrCell c k) r = ∅ := fun r hr => by
  unfold rd; dsimp only; rw [kindOf_yr]; dsimp only; rw [if_pos rfl, if_neg (by omega)]
theorem duties_fs_later : ∀ r, 1 ≤ r → (rd (F := F) m).duties (fsCell c k) r = ∅ := fun r hr => by
  unfold rd; dsimp only; rw [kindOf_fs]; dsimp only; rw [if_pos rfl, if_neg (by omega)]
theorem duties_fr_later : ∀ r, 1 ≤ r → (rd (F := F) m).duties (frCell c k) r = ∅ := fun r hr => by
  unfold rd; dsimp only; rw [kindOf_fr]; dsimp only; rw [if_pos rfl, if_neg (by omega)]
theorem duties_ls_later (j : Fin 4) : ∀ r, 8 ≤ r → (rd (F := F) m).duties (lsCell c j) r = ∅ := fun r hr => by
  unfold rd; dsimp only; rw [kindOf_ls]; dsimp only; rw [if_pos rfl, if_neg (by omega)]

theorem amount_bar (d : Bool) : (rd (F := F) m).amount (barCell c) 0 d = 1 := by
  unfold rd; dsimp only; rw [kindOf_bar]
theorem amount_ys (d : Bool) : (rd (F := F) m).amount (ysCell c k) 0 d = N64 := by
  unfold rd; dsimp only; rw [kindOf_ys]
theorem amount_yr (d : Bool) : (rd (F := F) m).amount (yrCell c k) 0 d = N64 := by
  unfold rd; dsimp only; rw [kindOf_yr]
theorem amount_fs (d : Bool) : (rd (F := F) m).amount (fsCell c k) 0 d = N64 := by
  unfold rd; dsimp only; rw [kindOf_fs]
theorem amount_fr (d : Bool) : (rd (F := F) m).amount (frCell c k) 0 d = N64 := by
  unfold rd; dsimp only; rw [kindOf_fr]

theorem amount_ld (s : Fin 2) (r : ℕ) (d : Bool) : (rd (F := F) m).amount (lsCell c ⟨s.val, by omega⟩) r d = NV := by
  unfold rd; dsimp only; rw [kindOf_ls]; dsimp only; rw [if_pos (by show s.val < 2; omega)]
theorem amount_st (s : Fin 2) (r : ℕ) (d : Bool) : (rd (F := F) m).amount (lsCell c ⟨s.val + 2, by omega⟩) r d = NO := by
  unfold rd; dsimp only; rw [kindOf_ls]; dsimp only; rw [if_neg (by show ¬ s.val + 2 < 2; omega)]
theorem payload_ls (j : Fin 4) (r : ℕ) (d : Bool) : (rd (F := F) m).payload (lsCell c j) r d = lsPay m c j r := by
  unfold rd; dsimp only; rw [kindOf_ls]

theorem payload_bar_false : (rd (F := F) m).payload (barCell c) 0 false = barPayY m c := by
  unfold rd; dsimp only; rw [kindOf_bar]; rfl
theorem payload_bar_true : (rd (F := F) m).payload (barCell c) 0 true = barPayX m c := by
  unfold rd; dsimp only; rw [kindOf_bar]; rfl
theorem payload_ys (d : Bool) : (rd (F := F) m).payload (ysCell c k) 0 d = ysPay m c k := by
  unfold rd; dsimp only; rw [kindOf_ys]
theorem payload_yr (d : Bool) : (rd (F := F) m).payload (yrCell c k) 0 d = yrPay m c k := by
  unfold rd; dsimp only; rw [kindOf_yr]
theorem payload_fs (d : Bool) : (rd (F := F) m).payload (fsCell c k) 0 d = fsPay m c k := by
  unfold rd; dsimp only; rw [kindOf_fs]
theorem payload_fr (d : Bool) : (rd (F := F) m).payload (frCell c k) 0 d = frPay m c k := by
  unfold rd; dsimp only; rw [kindOf_fr]

theorem expect_bar : (rd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_ys : (rd (F := F) m).expect (ysCell c k) 0 = N64 := by
  unfold Schedule.expect Schedule.amountOf; rw [duties_ys, Finset.sum_singleton, amount_ys]
theorem expect_yr : (rd (F := F) m).expect (yrCell c k) 0 = N64 := by
  unfold Schedule.expect Schedule.amountOf; rw [duties_yr, Finset.sum_singleton, amount_yr]
theorem expect_fs : (rd (F := F) m).expect (fsCell c k) 0 = N64 := by
  unfold Schedule.expect Schedule.amountOf; rw [duties_fs, Finset.sum_singleton, amount_fs]
theorem expect_fr : (rd (F := F) m).expect (frCell c k) 0 = N64 := by
  unfold Schedule.expect Schedule.amountOf; rw [duties_fr, Finset.sum_singleton, amount_fr]

/-- The rest of the barrier's round with nothing taken: both neighbours' payloads. -/
theorem rest_bar : bigSep ((rd (F := F) m).duties (barCell c) 0 \ ∅) (fun d => (rd (F := F) m).payload (barCell c) 0 d) = iprop(barPayY m c ∗ barPayX m c) := by
  rw [Finset.sdiff_empty, duties_bar, bigSep_univ_eq_bigSepL [false, true] (by decide) (by decide), bigSepL_cons_cons, bigSepL_singleton,
    payload_bar_false, payload_bar_true]
  rfl
theorem rest_ys : bigSep ((rd (F := F) m).duties (ysCell c k) 0 \ ∅) (fun d => (rd (F := F) m).payload (ysCell c k) 0 d) = ysPay m c k := by
  rw [Finset.sdiff_empty, duties_ys, bigSep_singleton, payload_ys]
theorem rest_yr : bigSep ((rd (F := F) m).duties (yrCell c k) 0 \ ∅) (fun d => (rd (F := F) m).payload (yrCell c k) 0 d) = yrPay m c k := by
  rw [Finset.sdiff_empty, duties_yr, bigSep_singleton, payload_yr]
theorem rest_fs : bigSep ((rd (F := F) m).duties (fsCell c k) 0 \ ∅) (fun d => (rd (F := F) m).payload (fsCell c k) 0 d) = fsPay m c k := by
  rw [Finset.sdiff_empty, duties_fs, bigSep_singleton, payload_fs]
theorem rest_fr : bigSep ((rd (F := F) m).duties (frCell c k) 0 \ ∅) (fun d => (rd (F := F) m).payload (frCell c k) 0 d) = frPay m c k := by
  rw [Finset.sdiff_empty, duties_fr, bigSep_singleton, payload_fr]

end Tables

end Cert.KernelProof

end
-- ==== Proof.KTables2.lean ====
import proofs.«900037_g7700000000000038_dist_a2a_v7x_xy2x2_y_m8192_n1024_f32_1_alg».proof.Proof.KTables

noncomputable section

namespace Cert.KernelProof

open Cert.Kernel Cert.Kernel.Gen
open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Finite products written out -/

theorem bigSep_fin64 (Φ : Fin 64 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32 ∗ Φ 33 ∗ Φ 34 ∗ Φ 35 ∗ Φ 36 ∗ Φ 37 ∗ Φ 38 ∗ Φ 39 ∗ Φ 40 ∗ Φ 41 ∗ Φ 42 ∗ Φ 43 ∗ Φ 44 ∗ Φ 45 ∗ Φ 46 ∗ Φ 47 ∗ Φ 48 ∗ Φ 49 ∗ Φ 50 ∗ Φ 51 ∗ Φ 52 ∗ Φ 53 ∗ Φ 54 ∗ Φ 55 ∗ Φ 56 ∗ Φ 57 ∗ Φ 58 ∗ Φ 59 ∗ Φ 60 ∗ Φ 61 ∗ Φ 62 ∗ Φ 63) :=
  bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63] (by decide) (by decide) Φ

theorem bigSep_fin16 (Φ : Fin 16 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-! ## The payloads as the rules spell them, resolved at the neighbours -/

theorem payload_ys' (c : Dev nD) (k : Fin 64) (d : Bool) : (rd (F := F) m).payload (ysCell c k) 0 d
    = ((ySrc c k).view.loc (c : Thread nD τ) ↦[(ySrc c k).view.set]{fullShare} xC m c) := payload_ys m c k d
theorem payload_yr' (c : Dev nD) (k : Fin 64) (d : Bool) : (rd (F := F) m).payload (yrCell c k) 0 d
    = ((fSl c k).view.loc (c : Thread nD τ) ↦[(fSl c k).view.set]{fullShare} YCont m c k) := payload_yr m c k d
theorem payload_fs' (c : Dev nD) (k : Fin 64) (d : Bool) : (rd (F := F) m).payload (fsCell c k) 0 d
    = ((fSl c k).view.loc (c : Thread nD τ) ↦[(fSl c k).view.set]{fullShare} YCont m c k) := payload_fs m c k d
theorem payload_fr' (c : Dev nD) (k : Fin 64) (d : Bool) : (rd (F := F) m).payload (frCell c k) 0 d
    = ((fSl (xp c) k).view.loc (c : Thread nD τ) ↦[(fSl (xp c) k).view.set]{fullShare} FCont m c k) := payload_fr m c k d

theorem YCont_yp (c : Dev nD) (k : Fin 64) : YCont m (yp c) k
    = (fSl (yp c) k).view.write (Elt F) (o0 m (yp c)) ((ySrc c k).view.read (Elt F) (xC m c)) Finset.univ := by
  show (fSl (yp c) k).view.write (Elt F) (o0 m (yp c)) ((ySrc (yp (yp c)) k).view.read (Elt F) (xC m (yp (yp c)))) Finset.univ = _
  rw [yp_yp]
theorem FCont_xp (c : Dev nD) (k : Fin 64) : FCont m (xp c) k
    = (fSl c k).view.write (Elt F) (o0 m (xp c)) ((fSl c k).view.read (Elt F) (YCont m c k)) Finset.univ := by
  show (fSl (xp (xp c)) k).view.write (Elt F) (o0 m (xp c)) ((fSl (xp (xp c)) k).view.read (Elt F) (YCont m (xp (xp c)) k)) Finset.univ = _
  rw [xp_xp]

theorem payload_yr_yp (c : Dev nD) (k : Fin 64) (d : Bool) : (rd (F := F) m).payload (yrCell (yp c) k) 0 d
    = ((fSl (yp c) k).view.loc ((yp c : Dev nD) : Thread nD τ) ↦[(fSl (yp c) k).view.set]{fullShare}
        (fSl (yp c) k).view.write (Elt F) (o0 m (yp c)) ((ySrc c k).view.read (Elt F) (xC m c)) Finset.univ) := by
  rw [payload_yr]; unfold yrPay; rw [YCont_yp]
theorem payload_fr_xp (c : Dev nD) (k : Fin 64) (d : Bool) : (rd (F := F) m).payload (frCell (xp c) k) 0 d
    = ((fSl c k).view.loc ((xp c : Dev nD) : Thread nD τ) ↦[(fSl c k).view.set]{fullShare}
        (fSl c k).view.write (Elt F) (o0 m (xp c)) ((fSl c k).view.read (Elt F) (YCont m c k)) Finset.univ) := by
  rw [payload_fr]; unfold frPay
  have key : ∀ c' : Dev nD, c' = c →
      (((fSl c' k).view.loc ((xp c : Dev nD) : Thread nD τ) ↦[(fSl c' k).view.set]{fullShare}
        (fSl c' k).view.write (Elt F) (o0 m (xp c)) ((fSl c' k).view.read (Elt F) (YCont m c' k)) Finset.univ) : sProp 𝕄)
      = ((fSl c k).view.loc ((xp c : Dev nD) : Thread nD τ) ↦[(fSl c k).view.set]{fullShare}
        (fSl c k).view.write (Elt F) (o0 m (xp c)) ((fSl c k).view.read (Elt F) (YCont m c k)) Finset.univ) := by
    intro c' h; subst h; rfl
  exact key (xp (xp c)) (xp_xp c)

theorem payload_bar_false_yp (c : Dev nD) : (rd (F := F) m).payload (barCell (yp c)) 0 false
    = iprop((bigSep Finset.univ fun k : Fin 64 => ((fSl c k).view.loc (c : Thread nD τ) ↦[(fSl c k).view.set]{fullShare} o0 m c))
        ∗ bigSep Finset.univ fun k : Fin 64 => reached ER (yrCell c k) 0) := by
  rw [payload_bar_false]; unfold barPayY; rw [yp_yp]
theorem payload_bar_true_xp (c : Dev nD) : (rd (F := F) m).payload (barCell (xp c)) 0 true
    = iprop((bigSep Finset.univ fun k : Fin 64 => ((fSl (xp c) k).view.loc (c : Thread nD τ) ↦[(fSl (xp c) k).view.set]{fullShare} o0 m c))
        ∗ bigSep Finset.univ fun k : Fin 64 => reached ER (frCell c k) 0) := by
  rw [payload_bar_true]; unfold barPayX; rw [xp_xp]

end Cert.KernelProof

end
-- ==== Proof.KOwed.lean ====
import proofs.«900037_g7700000000000038_dist_a2a_v7x_xy2x2_y_m8192_n1024_f32_1_alg».proof.Proof.KTables2

noncomputable section

namespace Cert.KernelProof

open Cert.Kernel Cert.Kernel.Gen
open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What a device still owes, by phase -/

/-- The y-receive credits of slices j, j+1, … that device `c` still owes its y-neighbour. -/
def owedY (c : Dev nD) (j : ℕ) : CellTallies nD τ sig Unit :=
  ∑ k ∈ Finset.univ.filter (fun k : Fin 64 => j ≤ k.val), tallyAt (yrCell (yp c) k) () N64
/-- The forward-receive credits of slices j, j+1, … it still owes its x-neighbour. -/
def owedF (c : Dev nD) (j : ℕ) : CellTallies nD τ sig Unit :=
  ∑ k ∈ Finset.univ.filter (fun k : Fin 64 => j ≤ k.val), tallyAt (frCell (xp c) k) () N64

theorem filter_succ (k : Fin 64) :
    Finset.univ.filter (fun k' : Fin 64 => k.val ≤ k'.val) = insert k (Finset.univ.filter (fun k' : Fin 64 => k.val + 1 ≤ k'.val)) := by
  ext k'
  simp only [Finset.mem_filter, Finset.mem_univ, true_and, Finset.mem_insert]
  constructor
  · intro h
    by_cases hk : k' = k
    · exact Or.inl hk
    · exact Or.inr (by have : k'.val ≠ k.val := fun h' => hk (Fin.ext h'); omega)
  · rintro (rfl | h)
    · exact le_rfl
    · omega

theorem owedY_succ (c : Dev nD) (k : Fin 64) : owedY c k.val = owedY c (k.val + 1) + tallyAt (yrCell (yp c) k) () N64 := by
  unfold owedY
  rw [filter_succ k, Finset.sum_insert (by simp), add_comm]
theorem owedF_succ (c : Dev nD) (k : Fin 64) : owedF c k.val = owedF c (k.val + 1) + tallyAt (frCell (xp c) k) () N64 := by
  unfold owedF
  rw [filter_succ k, Finset.sum_insert (by simp), add_comm]
theorem owedY_succ' (c : Dev nD) (j : ℕ) (hj : j < 64) : owedY c j = owedY c (j + 1) + tallyAt (yrCell (yp c) ⟨j, hj⟩) () N64 :=
  owedY_succ c ⟨j, hj⟩
theorem owedF_succ' (c : Dev nD) (j : ℕ) (hj : j < 64) : owedF c j = owedF c (j + 1) + tallyAt (frCell (xp c) ⟨j, hj⟩) () N64 :=
  owedF_succ c ⟨j, hj⟩
theorem owedY_top (c : Dev nD) : owedY c 64 = 0 := by
  unfold owedY
  rw [Finset.filter_false_of_mem (fun k _ => by have := k.isLt; omega), Finset.sum_empty]
theorem owedF_top (c : Dev nD) : owedF c 64 = 0 := by
  unfold owedF
  rw [Finset.filter_false_of_mem (fun k _ => by have := k.isLt; omega), Finset.sum_empty]
theorem O₀_eq (c : Dev nD) : O₀ c = owedF c 0 + owedY c 0 + tallyAt (barCell (xp c)) () 1 + tallyAt (barCell (yp c)) () 1 := by
  unfold O₀ owedY owedF
  rw [Finset.filter_true_of_mem (fun k _ => Nat.zero_le _), add_comm (∑ k : Fin 64, tallyAt (yrCell (yp c) k) () N64)]

/-! ## The levels let every wait through -/

/-- Everything owed in `O` lies on a TensorCore cell strictly above level `n`. -/
def Above (n : ℕ) (O : CellTallies nD τ sig Unit) : Prop := ∀ (g : GSem nD τ sig) (i : Unit), 0 < O g i → g.1.2 = .tc ∧ n < lv g i

theorem Above.zero (n : ℕ) : Above n (0 : CellTallies nD τ sig Unit) := fun g i h => absurd h (by simp)
theorem Above.add {n : ℕ} {O₁ O₂ : CellTallies nD τ sig Unit} (h₁ : Above n O₁) (h₂ : Above n O₂) : Above n (O₁ + O₂) :=
  fun g i h => (Pipeline.add_pos_cases h).elim (h₁ g i) (h₂ g i)
theorem Above.tally {n : ℕ} {g₀ : GSem nD τ sig} {a : ℕ} (htc : g₀.1.2 = .tc) (hl : n < lv g₀ ()) : Above n (tallyAt g₀ () a) := by
  intro g i h
  rw [tallyAt_apply] at h
  by_cases hg : g = g₀ ∧ i = ()
  · obtain ⟨rfl, rfl⟩ := hg; exact ⟨htc, hl⟩
  · rw [if_neg hg] at h; exact absurd h (Nat.lt_irrefl 0)
theorem Above.sum {n : ℕ} {α : Type} {s : Finset α} {D : α → CellTallies nD τ sig Unit} (h : ∀ x ∈ s, Above n (D x)) : Above n (∑ x ∈ s, D x) :=
  fun g i hg => by obtain ⟨x, hx, hpos⟩ := Pipeline.sum_pos_exists hg; exact h x hx g i hpos

theorem lv_yr (c : Dev nD) (k : Fin 64) : lv (yrCell c k) () = 2 := by unfold lv; rw [kindOf_yr]
theorem lv_fr (c : Dev nD) (k : Fin 64) : lv (frCell c k) () = 3 := by unfold lv; rw [kindOf_fr]
theorem lv_bar (c : Dev nD) : lv (barCell c) () = 1 := by unfold lv; rw [kindOf_bar]
theorem lv_ys (c : Dev nD) (k : Fin 64) : lv (ysCell c k) () = 0 := by unfold lv; rw [kindOf_ys]
theorem lv_fs (c : Dev nD) (k : Fin 64) : lv (fsCell c k) () = 0 := by unfold lv; rw [kindOf_fs]

theorem above_owedY (c : Dev nD) (j : ℕ) {n : ℕ} (hn : n < 2) : Above n (owedY c j) :=
  Above.sum fun k _ => Above.tally rfl (by rw [lv_yr]; exact hn)
theorem above_owedF (c : Dev nD) (j : ℕ) {n : ℕ} (hn : n < 3) : Above n (owedF c j) :=
  Above.sum fun k _ => Above.tally rfl (by rw [lv_fr]; exact hn)

theorem mayWait_of_above (c : Dev nD) (s : SemLoc sig) (O : CellTallies nD τ sig Unit) (h : Above (lv ((c : Thread nD τ), s) ()) O) :
    (levAts L lv : sProp 𝕄) ⊢ MayWait (c : Thread nD τ) s () O :=
  Pipeline.mayWait_of_levAts (by show () ∈ L ((c : Thread nD τ), s); unfold L; rw [if_pos rfl]; exact Finset.mem_singleton_self _)
    (fun g i hg => by
      obtain ⟨htc, hl⟩ := h g i hg
      refine ⟨?_, hl⟩
      unfold L; rw [if_pos htc]; cases i; exact Finset.mem_singleton_self _)

end Cert.KernelProof

end
-- ==== Proof.KSteps.lean ====
import proofs.«900037_g7700000000000038_dist_a2a_v7x_xy2x2_y_m8192_n1024_f32_1_alg».proof.Proof.KOwed

noncomputable section

namespace Cert.KernelProof

open Cert.Kernel Cert.Kernel.Gen
open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The two addressed transfers, at the protocol's cells -/

set_option maxHeartbeats 1000000 in
/-- The y-transfer of slice k: device `c` sends its slice of x into its y-neighbour's result (addressed as `n`, the
    destination spelt `D`), paying its own send cell and the neighbour's receive cell. -/
theorem wp_ysend (c n : Dev nD) (hn : n = yp c) (k : Fin 64) (D : Memref sig .tc .hbm S64x1024 .f32) (hD : D = fSl (yp c) k)
    {hsc : (D : Memref sig (Dev.tc n : Thread nD τ).2.kind .hbm S64x1024 .f32).view.ref.isScScratch = false}
    {hsrc : (ySrc c k).view.WordExact} {hdst : D.view.WordExact}
    {hsem : DmaTarget.Typed .hbm (.dma (yrS k)) (.remote (Dev.tc n : Thread nD τ) D (.dma (ysS k)) hsc)}
    {α : Type} {Q : α → sProp 𝕄} {kont : PUnit → Prog (TpuEff nD τ sig (Elt F) Λ₀ .tc) α}
    (κ₁ κ₂ : ℕ) (O₁ O : CellTallies nD τ sig Unit) (hO : O₁ = O + tallyAt (yrCell (yp c) k) () N64) (W : Waits sig Unit) :
    iprop(cellInv ER (rd (F := F) m) κ₁ (ysCell c k) ∗ cellInv ER (rd (F := F) m) κ₂ (yrCell (yp c) k)
        ∗ ((ySrc c k).view.loc (c : Thread nD τ) ↦[(ySrc c k).view.set]{fullShare} xC m c)
        ∗ ((fSl (yp c) k).view.loc ((yp c : Dev nD) : Thread nD τ) ↦[(fSl (yp c) k).view.set]{fullShare} o0 m (yp c))
        ∗ owes (c : Thread nD τ) O₁ W
        ∗ dutyTok ER (ysCell c k) 0 false ∗ reached ER (ysCell c k) 0
        ∗ dutyTok ER (yrCell (yp c) k) 0 false ∗ reached ER (yrCell (yp c) k) 0)
      ⊢ iprop(((cred (tallyAt (ysCell c k) () N64) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (ySrc c k) (.remote (Dev.tc n : Thread nD τ) D (.dma (ysS k)) hsc) (.dma (yrS k)) hsrc hdst hsem) kont) Q) := by
  subst hn; subst hD
  exact Rounds.wp_send_pointsTo 𝒱₀ ER (rd m) (c : Thread nD τ) none (κ₁ := κ₁) (κ₂ := κ₂)
    (c' := ((yp c : Dev nD) : Thread nD τ)) (src := ySrc c k) (dst := fSl (yp c) k) (sS := .dma (ysS k)) (sem := .dma (yrS k)) (q := fullShare) (fs := xC m c)
    (r₁ := 0) (r₂ := 0) (d₁ := false) (d₂ := false) (fd := o0 m (yp c))
    (by rw [duties_ys]; exact Finset.mem_singleton_self _) (by rw [duties_yr]; exact Finset.mem_singleton_self _)
    () () N64 rfl (amount_ys m c k false) (amount_yr m (yp c) k false) O hO (W := W)
    (by rw [payload_ys'])
    (by rw [payload_yr_yp])

set_option maxHeartbeats 1000000 in
/-- The forwarding transfer of slice k: device `c` sends the slice its y-neighbour's transfer landed in its result to
    the same rows of its x-neighbour's result. -/
theorem wp_fsend (c n : Dev nD) (hn : n = xp c) (k : Fin 64)
    {hsc : (fSl c k : Memref sig (Dev.tc n : Thread nD τ).2.kind .hbm S64x1024 .f32).view.ref.isScScratch = false}
    {hsrc : (fSl c k).view.WordExact} {hdst : (fSl c k).view.WordExact}
    {hsem : DmaTarget.Typed .hbm (.dma (frS k)) (.remote (Dev.tc n : Thread nD τ) (fSl c k) (.dma (fsS k)) hsc)}
    {α : Type} {Q : α → sProp 𝕄} {kont : PUnit → Prog (TpuEff nD τ sig (Elt F) Λ₀ .tc) α}
    (κ₁ κ₂ : ℕ) (O₁ O : CellTallies nD τ sig Unit) (hO : O₁ = O + tallyAt (frCell (xp c) k) () N64) (W : Waits sig Unit) :
    iprop(cellInv ER (rd (F := F) m) κ₁ (fsCell c k) ∗ cellInv ER (rd (F := F) m) κ₂ (frCell (xp c) k)
        ∗ ((fSl c k).view.loc (c : Thread nD τ) ↦[(fSl c k).view.set]{fullShare} YCont m c k)
        ∗ ((fSl c k).view.loc ((xp c : Dev nD) : Thread nD τ) ↦[(fSl c k).view.set]{fullShare} o0 m (xp c))
        ∗ owes (c : Thread nD τ) O₁ W
        ∗ dutyTok ER (fsCell c k) 0 false ∗ reached ER (fsCell c k) 0
        ∗ dutyTok ER (frCell (xp c) k) 0 false ∗ reached ER (frCell (xp c) k) 0)
      ⊢ iprop(((cred (tallyAt (fsCell c k) () N64) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (fSl c k) (.remote (Dev.tc n : Thread nD τ) (fSl c k) (.dma (fsS k)) hsc) (.dma (frS k)) hsrc hdst hsem) kont) Q) := by
  subst hn
  exact Rounds.wp_send_pointsTo 𝒱₀ ER (rd m) (c : Thread nD τ) none (κ₁ := κ₁) (κ₂ := κ₂)
    (c' := ((xp c : Dev nD) : Thread nD τ)) (src := fSl c k) (dst := fSl c k) (sS := .dma (fsS k)) (sem := .dma (frS k)) (q := fullShare) (fs := YCont m c k)
    (r₁ := 0) (r₂ := 0) (d₁ := false) (d₂ := false) (fd := o0 m (xp c))
    (by rw [duties_fs]; exact Finset.mem_singleton_self _) (by rw [duties_fr]; exact Finset.mem_singleton_self _)
    () () N64 rfl (amount_fs m c k false) (amount_fr m (xp c) k false) O hO (W := W)
    (by rw [payload_fs'])
    (by rw [payload_fr_xp])

end Cert.KernelProof

end
-- ==== Proof.KRegions.lean ====
/-
  How a device's buffers split into the slices the transfers move, and that what lands in a slice is the
  specification's contents there.
-/
import proofs.«900037_g7700000000000038_dist_a2a_v7x_xy2x2_y_m8192_n1024_f32_1_alg».proof.Proof.KData

noncomputable section

namespace Cert.KernelProof

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## A unit-stride slice of a whole buffer, at an index -/

section Slice

variable {Val : EltTy → Type} (b : Ref sig .tc) {sz : Fin b.ty.shape.rank → Nat} (off : Fin b.ty.shape.rank → Nat)
  (inb : ∀ a, off a + sz a ≤ b.ty.shape.size a)

/-- The slice's index `x` sits in the buffer at `off + x` on every axis. -/
theorem slice_emb_val (x : (Rect.unit (s := b.ty.shape) off sz inb).shape.Idx) (a : Fin b.ty.shape.rank) :
    ((((Memref.whole b).slice (Rect.unit (s := b.ty.shape) off sz inb) (fun _ => rfl)).view.emb x) a).val = off a + (x a).val := by
  show ((Rect.unit (s := b.ty.shape) off sz inb).emb x a).val = _
  rw [Rect.emb_apply]
  show off a + 1 * (x a).val = _
  omega

/-- What the slice reads off contents `f`, at its index `x`: the element of `f` at `off + x`. -/
theorem slice_read_apply (f : b.ty.Contents Val) (x : (Rect.unit (s := b.ty.shape) off sz inb).shape.Idx) :
    ((Memref.whole b).slice (Rect.unit (s := b.ty.shape) off sz inb) (fun _ => rfl)).view.read Val f x
      = f (fun a => ⟨off a + (x a).val, by have := inb a; have := (x a).isLt; show _ < b.ty.shape.size a; change (x a).val < sz a at this; omega⟩) := by
  rw [View.read_apply]
  rw [cast_eq]
  congr 1
  funext a
  exact Fin.ext (slice_emb_val b off inb x a)

/-- A whole payload `w` written through the slice, at a buffer index `i` inside the slice's rectangle: `w` at `i - off`. -/
theorem slice_write_apply (fd : b.ty.Contents Val) (w : (Rect.unit (s := b.ty.shape) off sz inb).shape.Idx → Val b.ty.elt)
    (i : b.ty.shape.Idx) (hi : ∀ a, off a ≤ (i a).val ∧ (i a).val < off a + sz a) :
    ((Memref.whole b).slice (Rect.unit (s := b.ty.shape) off sz inb) (fun _ => rfl)).view.write Val fd w Finset.univ i
      = w (fun a => ⟨(i a).val - off a, by have := hi a; show _ < sz a; omega⟩) := by
  have hx : ((Memref.whole b).slice (Rect.unit (s := b.ty.shape) off sz inb) (fun _ => rfl)).view.emb
      (fun a => ⟨(i a).val - off a, by have := hi a; show _ < sz a; omega⟩) = i := by
    funext a
    apply Fin.ext
    rw [slice_emb_val]
    have := hi a
    show off a + ((i a).val - off a) = _
    omega
  conv_lhs => rw [← hx]
  rw [View.write_emb_of_mem _ _ (Finset.mem_univ _), cast_eq]

end Slice

/-- Writing through the slice what the slice reads off `f` leaves `f` on the slice's rectangle. -/
theorem slice_write_read_apply {Val : EltTy → Type} (b : Ref sig .tc) {sz : Fin b.ty.shape.rank → Nat} (off : Fin b.ty.shape.rank → Nat)
    (inb : ∀ a, off a + sz a ≤ b.ty.shape.size a) (fd f : b.ty.Contents Val)
    (i : b.ty.shape.Idx) (hi : ∀ a, off a ≤ (i a).val ∧ (i a).val < off a + sz a) :
    ((Memref.whole b).slice (Rect.unit (s := b.ty.shape) off sz inb) (fun _ => rfl)).view.write Val fd
        (((Memref.whole b).slice (Rect.unit (s := b.ty.shape) off sz inb) (fun _ => rfl)).view.read Val f) Finset.univ i = f i := by
  rw [slice_write_apply b off inb fd _ i hi, slice_read_apply]
  congr 1
  funext a
  apply Fin.ext
  have := hi a
  show off a + ((i a).val - off a) = _
  omega

/-! ## What lands in a slice -/

theorem yp_val (c : Dev nD) : (yp c).val = (2 * (c.val / 2) + 1) - (c.val % 2) := rfl
theorem xp_val (c : Dev nD) : (xp c).val = ((c.val % 2) + 2) - 2 * (c.val / 2) := rfl

/-- A row outside the device's own row block comes from the device of the other second coordinate whose first
    coordinate is the half of the block the row falls in. -/
theorem srcDev_val_of_ne (c' : Dev nD) (r : Nat) (h : r / 8192 ≠ c'.val % 2) :
    (Cert.SpecK.srcDev c' r).val = 2 * ((r % 8192) / 4096) + (1 - c'.val % 2) := by
  unfold Cert.SpecK.srcDev; rw [if_neg h]
/-- A row of the device's own row block comes from the device itself. -/
theorem srcDev_of_eq (c' : Dev nD) (r : Nat) (h : r / 8192 = c'.val % 2) : Cert.SpecK.srcDev c' r = c' := by
  unfold Cert.SpecK.srcDev; rw [if_pos h]

/-- The specification's contents of device `c'`'s result at `i`, once the source device `d` of row `i 0` and the
    coordinates of the entry of `d`'s argument are known. -/
theorem outC_apply_of_src (c' d : Dev nD) (i : S16384x1024.Idx) (x : S8192x2048.Idx)
    (hd : (Cert.SpecK.srcDev c' (i 0).val).val = d.val)
    (h0 : (x 0).val = (i 0).val % 8192) (h1 : (x 1).val = (c'.val % 2) * 1024 + (i 1).val) :
    outC m c' i = xC m d x := by
  have hd' : Cert.SpecK.srcDev c' (i 0).val = d := Fin.ext hd
  show m (((Cert.SpecK.srcDev c' (i 0).val).tc : Thread nD τ).loc main_arg0) _ = m ((d.tc : Thread nD τ).loc main_arg0) x
  rw [hd']
  congr 1
  funext a
  apply Fin.ext
  match a with
  | ⟨0, _⟩ => exact h0.symm
  | ⟨1, _⟩ => exact h1.symm

/-- The y-transfer of slice `k`: rows 4096·mx + 64k … of the sender's argument, columns of the other column block,
    are what the specification puts in the rows of the y-neighbour's result they land in. -/
theorem yLand (c : Dev nD) (k : Fin 64) (fd : Buf (Elt F) ((fSl (yp c) k).view.loc ((yp c : Dev nD) : Thread nD τ))) :
    ∀ i ∈ (fSl (yp c) k).view.set,
      (fSl (yp c) k).view.write (Elt F) fd ((ySrc c k).view.read (Elt F) (xC m c)) Finset.univ i = outC m (yp c) i := by
  intro i hi
  rw [View.set_slice_whole, Rect.mem_set_unit] at hi
  have e3 := k0_off3_eq (yp c) k
  have e2 := k0_off2_eq c k
  have e30 : k0_off3 (yp c) (BitVec.ofNat 32 (64 * k.val)) 0 = (4096 * ((yp c).val / 2) + 64 * k.val + 8192) - 8192 * ((yp c).val % 2) := by rw [e3]; rfl
  have e31 : k0_off3 (yp c) (BitVec.ofNat 32 (64 * k.val)) 1 = 0 := by rw [e3]; rfl
  have e20 : k0_off2 c (BitVec.ofNat 32 (64 * k.val)) 0 = 4096 * (c.val / 2) + 64 * k.val := by rw [e2]; rfl
  have e21 : k0_off2 c (BitVec.ofNat 32 (64 * k.val)) 1 = 1024 - 1024 * (c.val % 2) := by rw [e2]; rfl
  have hi0 := hi 0
  have hi1 := hi 1
  have hc : c.val < 4 := c.isLt
  have hk := k.isLt
  have hy := yp_val c
  have ha : c.val / 2 ≤ 1 := by omega
  have hn : (yp c).val / 2 = c.val / 2 := by omega
  have hm : (yp c).val % 2 = 1 - c.val % 2 := by omega
  rw [hn, hm] at e30
  have s0 : S64x1024.size 0 = 64 := rfl
  have s1 : S64x1024.size 1 = 1024 := rfl
  rw [slice_write_apply main_v1 _ _ fd _ i hi, slice_read_apply main_arg0]
  symm
  apply outC_apply_of_src
  · rw [srcDev_val_of_ne _ _ (by omega)]; omega
  · show k0_off2 c (BitVec.ofNat 32 (64 * k.val)) 0 + ((i 0).val - k0_off3 (yp c) (BitVec.ofNat 32 (64 * k.val)) 0) = _
    omega
  · show k0_off2 c (BitVec.ofNat 32 (64 * k.val)) 1 + ((i 1).val - k0_off3 (yp c) (BitVec.ofNat 32 (64 * k.val)) 1) = _
    omega

/-- Outside a device's own row block the specification puts the same contents on it and on its x-neighbour: both
    read the same entries of the same source device. -/
theorem outC_xp (c : Dev nD) (i : S16384x1024.Idx) (h : (i 0).val / 8192 ≠ c.val % 2) : outC m c i = outC m (xp c) i := by
  have hc : c.val < 4 := c.isLt
  have hx := xp_val c
  have hm : (xp c).val % 2 = c.val % 2 := by omega
  have hs : (Cert.SpecK.srcDev (xp c) (i 0).val).val = (Cert.SpecK.srcDev c (i 0).val).val := by
    rw [srcDev_val_of_ne _ _ h, srcDev_val_of_ne _ _ (by omega), hm]
  exact (outC_apply_of_src m c (Cert.SpecK.srcDev c (i 0).val) i
      (ValueIdx.ix2 (n0 := 8192) (n1 := 2048) ⟨(i 0).val % 8192, by omega⟩
        ⟨(c.val % 2) * 1024 + (i 1).val, by have := ValueIdx.idx2_lt1 i; omega⟩) rfl rfl rfl).trans
    (outC_apply_of_src m (xp c) (Cert.SpecK.srcDev c (i 0).val) i _ hs rfl (by show (c.val % 2) * 1024 + (i 1).val = _; rw [hm])).symm

/-- The forwarding transfer of slice `k`: the rows of the device's result the y-transfer landed in are what the
    specification puts in the same rows of the x-neighbour's result. -/
theorem fLand (c : Dev nD) (k : Fin 64) (fd : Buf (Elt F) ((fSl c k).view.loc ((xp c : Dev nD) : Thread nD τ))) :
    ∀ i ∈ (fSl c k).view.set,
      (fSl c k).view.write (Elt F) fd ((fSl c k).view.read (Elt F) (outC m c)) Finset.univ i = outC m (xp c) i := by
  intro i hi
  rw [View.set_slice_whole, Rect.mem_set_unit] at hi
  have e3 := k0_off3_eq c k
  have e30 : k0_off3 c (BitVec.ofNat 32 (64 * k.val)) 0 = (4096 * (c.val / 2) + 64 * k.val + 8192) - 8192 * (c.val % 2) := by rw [e3]; rfl
  have hi0 := hi 0
  have hc : c.val < 4 := c.isLt
  have hk := k.isLt
  have s0 : S64x1024.size 0 = 64 := rfl
  rw [slice_write_read_apply main_v1 _ _ fd (outC m c) i hi]
  exact outC_xp m c i (by omega)

theorem yLand_pts (c : Dev nD) (k : Fin 64) (fd : Buf (Elt F) ((fSl (yp c) k).view.loc ((yp c : Dev nD) : Thread nD τ))) :
    slPts (F := F) (yp c) (fSl (yp c) k) ((fSl (yp c) k).view.write (Elt F) fd ((ySrc c k).view.read (Elt F) (xC m c)) Finset.univ)
      = slPts (yp c) (fSl (yp c) k) (outC m (yp c)) :=
  Region.is_congr (yLand m c k fd)

theorem fLand_pts (c : Dev nD) (k : Fin 64) (fd : Buf (Elt F) ((fSl c k).view.loc ((xp c : Dev nD) : Thread nD τ))) :
    slPts (F := F) (xp c) (fSl c k) ((fSl c k).view.write (Elt F) fd ((fSl c k).view.read (Elt F) (outC m c)) Finset.univ)
      = slPts (xp c) (fSl c k) (outC m (xp c)) :=
  Region.is_congr (fLand m c k fd)

/-! ## The result's rows, tiled by the slices -/

section Rows

/-- Membership in a unit slice of the result, by coordinates. -/
theorem mem_oSlice {sz : Fin 2 → Nat} (off : Fin 2 → Nat) (inb : ∀ a, off a + sz a ≤ S16384x1024.size a) (i : S16384x1024.Idx) :
    i ∈ (oM.slice (Rect.unit (s := S16384x1024) off sz inb) (fun _ => rfl)).view.set ↔ ∀ a, off a ≤ (i a).val ∧ (i a).val < off a + sz a := by
  rw [View.set_slice_whole, Rect.mem_set_unit]; exact Iff.rfl

/-- Two unit slices of the result whose rows do not meet are disjoint. -/
theorem disj_oSlice {sz sz' : Fin 2 → Nat} (off off' : Fin 2 → Nat) (inb : ∀ a, off a + sz a ≤ S16384x1024.size a)
    (inb' : ∀ a, off' a + sz' a ≤ S16384x1024.size a) (h : off 0 + sz 0 ≤ off' 0 ∨ off' 0 + sz' 0 ≤ off 0) :
    Disjoint (oM.slice (Rect.unit (s := S16384x1024) off sz inb) (fun _ => rfl)).view.set
      (oM.slice (Rect.unit (s := S16384x1024) off' sz' inb') (fun _ => rfl)).view.set := by
  rw [View.set_slice_whole, View.set_slice_whole]
  exact Rect.unit_disjoint 0 h

/-- Chunk `j` of the device's own row block starts at row 8192·my + 512·j, -/
theorem lDst_row (c : Dev nD) (j : Fin 16) :
    k0_off5 c (BitVec.ofNat 32 (512 * j.val)) 0 = 8192 * (c.val % 2) + 512 * j.val ∧ k0_off5 c (BitVec.ofNat 32 (512 * j.val)) 1 = 0 := by
  rw [k0_off5_eq]; exact ⟨rfl, rfl⟩
/-- slice `k` of what the y-neighbour sends at row 8192·(1 - my) + 4096·mx + 64·k, -/
theorem fSl_row (c : Dev nD) (k : Fin 64) :
    k0_off3 c (BitVec.ofNat 32 (64 * k.val)) 0 = 8192 * (1 - c.val % 2) + 4096 * (c.val / 2) + 64 * k.val ∧ k0_off3 c (BitVec.ofNat 32 (64 * k.val)) 1 = 0 := by
  rw [k0_off3_eq]
  refine ⟨?_, rfl⟩
  show (4096 * (c.val / 2) + 64 * k.val + 8192) - 8192 * (c.val % 2) = _
  omega
/-- and slice `k` of what the x-neighbour forwards at row 8192·(1 - my) + 4096·(1 - mx) + 64·k. -/
theorem fSlx_row (c : Dev nD) (k : Fin 64) :
    k0_off3 (xp c) (BitVec.ofNat 32 (64 * k.val)) 0 = 8192 * (1 - c.val % 2) + 4096 * (1 - c.val / 2) + 64 * k.val ∧ k0_off3 (xp c) (BitVec.ofNat 32 (64 * k.val)) 1 = 0 := by
  have hc : c.val < 4 := c.isLt
  have hx := xp_val c
  obtain ⟨h0, h1⟩ := fSl_row (xp c) k
  refine ⟨?_, h1⟩
  rw [h0]
  omega

theorem xp_mod (c : Dev nD) : (xp c).val % 2 = c.val % 2 := by
  have hc : c.val < 4 := c.isLt
  have := xp_val c
  omega

end Rows

/-- `yLand`, stated at the receiving device. -/
theorem yLand' (c c' : Dev nD) (h : c' = yp c) (k : Fin 64) (fd : Buf (Elt F) ((fSl c' k).view.loc ((c' : Dev nD) : Thread nD τ))) :
    ∀ i ∈ (fSl c' k).view.set,
      (fSl c' k).view.write (Elt F) fd ((ySrc c k).view.read (Elt F) (xC m c)) Finset.univ i = outC m c' i := by
  subst h; exact yLand m c k fd

/-- Once the y-neighbour's slice `k` has landed, the slice holds the specification's contents; -/
theorem YCont_eq (c : Dev nD) (k : Fin 64) : ∀ i ∈ (fSl c k).view.set, YCont m c k i = outC m c i :=
  yLand' m (yp c) c (yp_yp c).symm k (o0 m c)

/-- and once the x-neighbour's forwarded slice `k` has landed, so does that slice. -/
theorem FCont_eq (c : Dev nD) (k : Fin 64) : ∀ i ∈ (fSl (xp c) k).view.set, FCont m c k i = outC m c i := by
  intro i hi
  have hY := YCont_eq m (xp c) k i hi
  rw [View.set_slice_whole, Rect.mem_set_unit] at hi
  have hi0 := hi 0
  obtain ⟨e0, _⟩ := fSlx_row c k
  have hc : c.val < 4 := c.isLt
  have hk := k.isLt
  have hm := xp_mod c
  have s0 : S64x1024.size 0 = 64 := rfl
  show (fSl (xp c) k).view.write (Elt F) (o0 m c) ((fSl (xp c) k).view.read (Elt F) (YCont m (xp c) k)) Finset.univ i = _
  rw [slice_write_read_apply main_v1 _ _ (o0 m c) (YCont m (xp c) k) i hi, hY, outC_xp m (xp c) i (by omega), xp_xp]

theorem YCont_pts (c : Dev nD) (k : Fin 64) :
    (((fSl c k).view.loc (c : Thread nD τ) ↦[(fSl c k).view.set]{fullShare} YCont m c k) : sProp 𝕄)
      = ((fSl c k).view.loc (c : Thread nD τ) ↦[(fSl c k).view.set]{fullShare} outC m c) :=
  Region.is_congr (YCont_eq m c k)

theorem FCont_pts (c : Dev nD) (k : Fin 64) :
    (((fSl (xp c) k).view.loc (c : Thread nD τ) ↦[(fSl (xp c) k).view.set]{fullShare} FCont m c k) : sProp 𝕄)
      = ((fSl (xp c) k).view.loc (c : Thread nD τ) ↦[(fSl (xp c) k).view.set]{fullShare} outC m c) :=
  Region.is_congr (FCont_eq m c k)

section OutSplit

/-- The elements of chunk `j` of the own row block, and of slice `k` of device `c'`'s forwarded rows, as sets of
    indices of the result. -/
abbrev lSet (c : Dev nD) (j : Fin 16) : Finset S16384x1024.Idx := (lDst c j).view.set
abbrev fSet (c' : Dev nD) (k : Fin 64) : Finset S16384x1024.Idx := (fSl c' k).view.set

/-- Every element of the result lies in one of the 16 + 64 + 64 row blocks. -/
theorem rows_cover (c : Dev nD) :
    (Finset.univ : Finset S16384x1024.Idx)
      = (Finset.univ.biUnion (lSet c))
        ∪ ((Finset.univ.biUnion (fSet c)) ∪ (Finset.univ.biUnion (fSet (xp c)))) := by
  refine Finset.ext fun i => ⟨fun _ => ?_, fun _ => Finset.mem_univ _⟩
  have hc : c.val < 4 := c.isLt
  have h0 := ValueIdx.idx2_lt0 i
  have h1 := ValueIdx.idx2_lt1 i
  by_cases hA : (i 0).val / 8192 = c.val % 2
  · -- the device's own row block
    apply Finset.mem_union_left
    obtain ⟨j, hj⟩ : ∃ j : Fin 16, j.val = ((i 0).val % 8192) / 512 := ⟨⟨_, by omega⟩, rfl⟩
    refine Finset.mem_biUnion.mpr ⟨j, Finset.mem_univ _, ?_⟩
    rw [mem_oSlice]
    obtain ⟨e0, e1⟩ := lDst_row c j
    refine Fin.forall_fin_two.mpr ⟨?_, ?_⟩
    · show k0_off5 c (BitVec.ofNat 32 (512 * j.val)) 0 ≤ (i 0).val ∧ (i 0).val < k0_off5 c (BitVec.ofNat 32 (512 * j.val)) 0 + 512
      rw [e0]; omega
    · show k0_off5 c (BitVec.ofNat 32 (512 * j.val)) 1 ≤ (i 1).val ∧ (i 1).val < k0_off5 c (BitVec.ofNat 32 (512 * j.val)) 1 + 1024
      rw [e1]; omega
  · apply Finset.mem_union_right
    obtain ⟨k, hk⟩ : ∃ k : Fin 64, k.val = ((i 0).val % 4096) / 64 := ⟨⟨_, by omega⟩, rfl⟩
    by_cases hB : ((i 0).val % 8192) / 4096 = c.val / 2
    · -- the half the y-neighbour sends
      apply Finset.mem_union_left
      refine Finset.mem_biUnion.mpr ⟨k, Finset.mem_univ _, ?_⟩
      rw [mem_oSlice]
      obtain ⟨e0, e1⟩ := fSl_row c k
      refine Fin.forall_fin_two.mpr ⟨?_, ?_⟩
      · show k0_off3 c (BitVec.ofNat 32 (64 * k.val)) 0 ≤ (i 0).val ∧ (i 0).val < k0_off3 c (BitVec.ofNat 32 (64 * k.val)) 0 + 64
        rw [e0]; omega
      · show k0_off3 c (BitVec.ofNat 32 (64 * k.val)) 1 ≤ (i 1).val ∧ (i 1).val < k0_off3 c (BitVec.ofNat 32 (64 * k.val)) 1 + 1024
        rw [e1]; omega
    · -- the half the x-neighbour forwards
      apply Finset.mem_union_right
      refine Finset.mem_biUnion.mpr ⟨k, Finset.mem_univ _, ?_⟩
      rw [mem_oSlice]
      obtain ⟨e0, e1⟩ := fSlx_row c k
      refine Fin.forall_fin_two.mpr ⟨?_, ?_⟩
      · show k0_off3 (xp c) (BitVec.ofNat 32 (64 * k.val)) 0 ≤ (i 0).val ∧ (i 0).val < k0_off3 (xp c) (BitVec.ofNat 32 (64 * k.val)) 0 + 64
        rw [e0]; omega
      · show k0_off3 (xp c) (BitVec.ofNat 32 (64 * k.val)) 1 ≤ (i 1).val ∧ (i 1).val < k0_off3 (xp c) (BitVec.ofNat 32 (64 * k.val)) 1 + 1024
        rw [e1]; omega

theorem lDst_disj (c : Dev nD) (j j' : Fin 16) (h : j ≠ j') : Disjoint (lDst c j).view.set (lDst c j').view.set := by
  apply disj_oSlice
  rw [(lDst_row c j).1, (lDst_row c j').1]
  show _ + 512 ≤ _ ∨ _ + 512 ≤ _
  have : j.val ≠ j'.val := fun e => h (Fin.ext e)
  omega
theorem fSl_disj (c : Dev nD) (k k' : Fin 64) (h : k ≠ k') : Disjoint (fSl c k).view.set (fSl c k').view.set := by
  apply disj_oSlice
  rw [(fSl_row c k).1, (fSl_row c k').1]
  show _ + 64 ≤ _ ∨ _ + 64 ≤ _
  have : k.val ≠ k'.val := fun e => h (Fin.ext e)
  omega
theorem lDst_fSl_disj (c c' : Dev nD) (hcc : c'.val % 2 = c.val % 2) (j : Fin 16) (k : Fin 64) : Disjoint (lDst c j).view.set (fSl c' k).view.set := by
  apply disj_oSlice
  rw [(lDst_row c j).1, (fSl_row c' k).1]
  show _ + 512 ≤ _ ∨ _ + 64 ≤ _
  have := j.isLt; have := k.isLt; have : c'.val < 4 := c'.isLt
  omega
theorem fSl_fSlx_disj (c : Dev nD) (k k' : Fin 64) : Disjoint (fSl c k).view.set (fSl (xp c) k').view.set := by
  apply disj_oSlice
  rw [(fSl_row c k).1, (fSlx_row c k').1]
  show _ + 64 ≤ _ ∨ _ + 64 ≤ _
  have := k.isLt; have := k'.isLt; have : c.val < 4 := c.isLt
  omega

/-- The whole result buffer at contents `f` is its 16 chunks of the own row block, the 64 slices the y-neighbour's
    transfers write and the 64 slices the x-neighbour's forwarded copies write, each at `f`. -/
theorem out_split_eq (c : Dev nD) (f : Buf (Elt F) ((c : Thread nD τ).loc main_v1)) :
    oWhole c f = (iprop((bigSep Finset.univ fun j : Fin 16 => ((lDst c j).view.loc (c : Thread nD τ) ↦[(lDst c j).view.set]{fullShare} f))
      ∗ (bigSep Finset.univ fun k : Fin 64 => slPts c (fSl c k) f) ∗ bigSep Finset.univ fun k : Fin 64 => slPts c (fSl (xp c) k) f) : sProp 𝕄) := by
  have hdLF : Disjoint (Finset.univ.biUnion (lSet c)) (Finset.univ.biUnion (fSet c)) := by
    rw [Finset.disjoint_biUnion_left]; intro j _; rw [Finset.disjoint_biUnion_right]; intro k _
    exact lDst_fSl_disj c c rfl j k
  have hdLX : Disjoint (Finset.univ.biUnion (lSet c)) (Finset.univ.biUnion (fSet (xp c))) := by
    rw [Finset.disjoint_biUnion_left]; intro j _; rw [Finset.disjoint_biUnion_right]; intro k _
    exact lDst_fSl_disj c (xp c) (xp_mod c) j k
  have hdA : Disjoint (Finset.univ.biUnion (lSet c))
      ((Finset.univ.biUnion (fSet c)) ∪ (Finset.univ.biUnion (fSet (xp c)))) :=
    Finset.disjoint_union_right.mpr ⟨hdLF, hdLX⟩
  have hdB : Disjoint (Finset.univ.biUnion (fSet c)) (Finset.univ.biUnion (fSet (xp c))) := by
    rw [Finset.disjoint_biUnion_left]; intro k _; rw [Finset.disjoint_biUnion_right]; intro k' _
    exact fSl_fSlx_disj c k k'
  have huA := pointsTo_union (ℓ := (c : Thread nD τ).loc main_v1) (q := fullShare) (f := f) (Val := Elt F) (Ix := Unit) (Name := ℕ) (U := UU) (Lvl := ℕ) hdA
  have huB := pointsTo_union (ℓ := (c : Thread nD τ).loc main_v1) (q := fullShare) (f := f) (Val := Elt F) (Ix := Unit) (Name := ℕ) (U := UU) (Lvl := ℕ) hdB
  show (((c : Thread nD τ).loc main_v1) ↦[Finset.univ]{fullShare} f : sProp 𝕄) = _
  rw [rows_cover c, BI.equiv_iff.mp ⟨huA.1, huA.2⟩, BI.equiv_iff.mp ⟨huB.1, huB.2⟩,
    pointsTo_biUnion _ _ (fun j _ j' _ h => lDst_disj c j j' h),
    pointsTo_biUnion _ _ (fun k _ k' _ h => fSl_disj c k k' h),
    pointsTo_biUnion _ _ (fun k _ k' _ h => fSl_disj (xp c) k k' h)]

theorem out_split (c : Dev nD) (f : Buf (Elt F) ((c : Thread nD τ).loc main_v1)) :
    oWhole c f ⊣⊢ (iprop((bigSep Finset.univ fun j : Fin 16 => ((lDst c j).view.loc (c : Thread nD τ) ↦[(lDst c j).view.set]{fullShare} f))
      ∗ (bigSep Finset.univ fun k : Fin 64 => slPts c (fSl c k) f) ∗ bigSep Finset.univ fun k : Fin 64 => slPts c (fSl (xp c) k) f) : sProp 𝕄) :=
  ⟨Entails.of_eq (out_split_eq c f), Entails.of_eq (out_split_eq c f).symm⟩

end OutSplit

/-! ## The local copy -/

section Local

/-- Chunk `j` of the device's own column block of its argument, stored in the chunk's rows of the result, is what the
    specification puts there — the device's own rows, its own column block. -/
theorem lLand0 (c : Dev nD) (j : Fin 16) (fd : Buf (Elt F) ((lDst c j).view.loc (c : Thread nD τ))) :
    ∀ i ∈ (lDst c j).view.set,
      (lDst c j).view.write (Elt F) fd ((lSrc c j).view.read (Elt F) (xC m c)) Finset.univ i = outC m c i := by
  intro i hi
  rw [View.set_slice_whole, Rect.mem_set_unit] at hi
  have hoff := lOff_eq c j
  obtain ⟨e0, e1⟩ := lDst_row c j
  have o0' : lOff c j 0 = 512 * j.val := by rw [hoff]; rfl
  have o1' : lOff c j 1 = 1024 * (c.val % 2) := by rw [hoff]; rfl
  have hi0 := hi 0
  have hi1 := hi 1
  have hc : c.val < 4 := c.isLt
  have hj := j.isLt
  have s0 : S512x1024.size 0 = 512 := rfl
  have s1 : S512x1024.size 1 = 1024 := rfl
  rw [slice_write_apply main_v1 _ _ fd _ i hi, slice_read_apply main_arg0]
  symm
  apply outC_apply_of_src
  · rw [srcDev_of_eq _ _ (by omega)]
  · show lOff c j 0 + ((i 0).val - k0_off5 c (BitVec.ofNat 32 (512 * j.val)) 0) = _
    omega
  · show lOff c j 1 + ((i 1).val - k0_off5 c (BitVec.ofNat 32 (512 * j.val)) 1) = _
    omega

/-- The local copy of chunk `j`, through any slot of the scratch buffer and whatever the slot held. -/
theorem lLand (c : Dev nD) (j : Fin 16) (s : Fin 2) (fv : Buf (Elt F) ((vSlot s).view.loc (c : Thread nD τ)))
    (fd : Buf (Elt F) ((lDst c j).view.loc (c : Thread nD τ))) :
    ∀ i ∈ (lDst c j).view.set,
      (lDst c j).view.write (Elt F) fd ((vSlot s).view.read (Elt F) ((vSlot s).view.write (Elt F) fv
        ((lSrc c j).view.read (Elt F) (xC m c)) Finset.univ)) Finset.univ i = outC m c i := by
  intro i hi
  rw [View.read_write_univ]
  exact lLand0 m c j fd i hi

/-- At a literal chunk number the source is the slice the program names. -/
example (d : Dev nD) : lSrc d 0 = xM.slice (Rect.unit (s := S8192x2048) (k0_off4 d) S512x1024.size (k0_off4_inb d)) (fun _ => rfl) := rfl
example (d : Dev nD) : lSrc d 15 = xM.slice (Rect.unit (s := S8192x2048) (k0_off20 d) S512x1024.size (k0_off20_inb d)) (fun _ => rfl) := rfl

/-! ### The scratch buffer's slots -/

/-- Entry `y` of slot `s`, read as a 512 × 1024 array, is entry (s, y 0, y 1) of the scratch buffer. -/
theorem vSlot_emb_val (s : Fin 2) (y : S512x1024.Idx) :
    (((vSlot s).view.emb y) 0).val = s.val ∧ (((vSlot s).view.emb y) 1).val = (y 0).val ∧ (((vSlot s).view.emb y) 2).val = (y 1).val := by
  have hk : Shape.reshapeEquiv (squeezes_S1x512x1024_S512x1024.numel_eq) y
      = ValueIdx.ix3 (n0 := 1) (n1 := 512) (n2 := 1024) ⟨0, by omega⟩ ⟨(y 0).val, (y 0).isLt⟩ ⟨(y 1).val, (y 1).isLt⟩ := by
    apply Shape.reshapeEquiv_eq_of_rowMajor
    rw [Shape.rowMajor_val_three, Shape.rowMajor_val_two]
    show ((0 * 512 + (y 0).val) * 1024 + (y 1).val) = (y 0).val * 1024 + (y 1).val
    omega
  have he : ∀ a : Fin 3, (((vSlot s).view.emb y) a).val
      = (![s.val, 0, 0] : Fin 3 → Nat) a + 1 * ((Shape.reshapeEquiv (squeezes_S1x512x1024_S512x1024.numel_eq) y) a).val := fun a => rfl
  refine ⟨?_, ?_, ?_⟩
  · rw [he, hk]; show s.val + 1 * 0 = _; omega
  · rw [he, hk]; show 0 + 1 * (y 0).val = _; omega
  · rw [he, hk]; show 0 + 1 * (y 1).val = _; omega

/-- Reading the loaded contents through a slot gives back chunk `q` of the argument. -/
theorem vSlot_read_VC (c : Dev nD) (q : Fin 16) (s : Fin 2) :
    (vSlot s).view.read (Elt F) (VC m c q) = (lSrc c q).view.read (Elt F) (xC m c) := by
  funext y
  obtain ⟨_, e1, e2⟩ := vSlot_emb_val s y
  obtain ⟨o0', o1'⟩ : lOff c q 0 = 512 * q.val ∧ lOff c q 1 = 1024 * (c.val % 2) := by rw [lOff_eq]; exact ⟨rfl, rfl⟩
  rw [View.read_apply, cast_eq, slice_read_apply main_arg0]
  apply VC_apply
  · show lOff c q 0 + (y 0).val = _; rw [e1, o0']
  · show lOff c q 1 + (y 1).val = _; rw [e2, o1']

/-- The elements of slot `s`: those of first coordinate `s`. -/
theorem vSlot_set (s : Fin 2) :
    ((vSlot s).view.set : Finset S2x512x1024.Idx)
      = (Rect.unit (s := S2x512x1024) ![s.val, 0, 0] S1x512x1024.size (inbSlot s)).set :=
  (View.set_reshape _ _).trans (View.set_slice_whole _ _)

theorem mem_vSlot (s : Fin 2) (i : S2x512x1024.Idx) : i ∈ (vSlot s).view.set ↔ (i 0).val = s.val := by
  rw [vSlot_set, Rect.mem_set_unit]
  constructor
  · intro h; have := h 0
    have e : (![s.val, 0, 0] : Fin 3 → Nat) 0 = s.val := rfl
    have e' : S1x512x1024.size 0 = 1 := rfl
    omega
  · intro h a
    have h1 : (i 1).val < 512 := (i 1).isLt
    have h2 : (i 2).val < 1024 := (i 2).isLt
    fin_cases a
    · show s.val ≤ (i 0).val ∧ (i 0).val < s.val + 1; omega
    · show 0 ≤ (i 1).val ∧ (i 1).val < 0 + 512; omega
    · show 0 ≤ (i 2).val ∧ (i 2).val < 0 + 1024; omega

/-- The load of chunk `q` into slot `s` leaves the slot at `VC`. -/
theorem vLand (c : Dev nD) (q : Fin 16) (s : Fin 2) (fd : Buf (Elt F) ((vSlot s).view.loc (c : Thread nD τ))) :
    ∀ i ∈ (vSlot s).view.set,
      (vSlot s).view.write (Elt F) fd ((lSrc c q).view.read (Elt F) (xC m c)) Finset.univ i = VC m c q i := by
  intro i hi
  rw [mem_vSlot] at hi
  have hx : (vSlot s).view.emb (ValueIdx.ix2 (n0 := 512) (n1 := 1024) ⟨(i 1).val, (i 1).isLt⟩ ⟨(i 2).val, (i 2).isLt⟩) = i := by
    obtain ⟨e0, e1, e2⟩ := vSlot_emb_val s (ValueIdx.ix2 (n0 := 512) (n1 := 1024) ⟨(i 1).val, (i 1).isLt⟩ ⟨(i 2).val, (i 2).isLt⟩)
    funext a
    apply Fin.ext
    fin_cases a
    · exact e0.trans hi.symm
    · exact e1
    · exact e2
  rw [← vSlot_read_VC m c q s]
  conv_lhs => rw [← hx]
  rw [View.write_emb_of_mem _ _ (Finset.mem_univ _), cast_eq, View.read_apply, cast_eq, hx]

/-- The store of slot `s`, holding chunk `q`, into the chunk's rows of the result leaves the specification's contents there. -/
theorem lLandV (c : Dev nD) (q : Fin 16) (s : Fin 2) (fd : Buf (Elt F) ((lDst c q).view.loc (c : Thread nD τ))) :
    ∀ i ∈ (lDst c q).view.set,
      (lDst c q).view.write (Elt F) fd ((vSlot s).view.read (Elt F) (VC m c q)) Finset.univ i = outC m c i := by
  intro i hi
  rw [vSlot_read_VC]
  exact lLand0 m c q fd i hi

theorem vLand_pts (c : Dev nD) (q : Fin 16) (s : Fin 2) (fd : Buf (Elt F) ((vSlot s).view.loc (c : Thread nD τ))) :
    (((vSlot s).view.loc (c : Thread nD τ) ↦[(vSlot s).view.set]{fullShare}
        (vSlot s).view.write (Elt F) fd ((lSrc c q).view.read (Elt F) (xC m c)) Finset.univ) : sProp 𝕄)
      = ((vSlot s).view.loc (c : Thread nD τ) ↦[(vSlot s).view.set]{fullShare} VC m c q) :=
  Region.is_congr (vLand m c q s fd)

theorem lLandV_pts (c : Dev nD) (q : Fin 16) (s : Fin 2) (fd : Buf (Elt F) ((lDst c q).view.loc (c : Thread nD τ))) :
    (((lDst c q).view.loc (c : Thread nD τ) ↦[(lDst c q).view.set]{fullShare}
        (lDst c q).view.write (Elt F) fd ((vSlot s).view.read (Elt F) (VC m c q)) Finset.univ) : sProp 𝕄)
      = ((lDst c q).view.loc (c : Thread nD τ) ↦[(lDst c q).view.set]{fullShare} outC m c) :=
  Region.is_congr (lLandV m c q s fd)

/-- The two slots tile the scratch buffer: every element lies in one, -/
theorem vSlot_cover : (Finset.univ : Finset S2x512x1024.Idx)
    = ((vSlot 0).view.set : Finset S2x512x1024.Idx) ∪ ((vSlot 1).view.set : Finset S2x512x1024.Idx) := by
  refine Finset.ext fun i => ⟨fun _ => ?_, fun _ => Finset.mem_univ _⟩
  have h0 : (i 0).val < 2 := (i 0).isLt
  rw [Finset.mem_union, mem_vSlot, mem_vSlot]
  show (i 0).val = 0 ∨ (i 0).val = 1
  omega

/-- and none in both. -/
theorem vSlot_disj : Disjoint ((vSlot 0).view.set : Finset S2x512x1024.Idx) ((vSlot 1).view.set : Finset S2x512x1024.Idx) := by
  rw [Finset.disjoint_left]
  intro i h0 h1
  rw [mem_vSlot] at h0 h1
  have : ((0 : Fin 2).val) = 0 := rfl
  have : ((1 : Fin 2).val) = 1 := rfl
  omega

/-- The whole scratch buffer at contents `f` is its two slots at `f`. -/
theorem v_split_eq (c : Dev nD) (f : Buf (Elt F) ((c : Thread nD τ).loc cc0_scratch4)) :
    vWhole c f = (iprop(((vSlot 0).view.loc (c : Thread nD τ) ↦[(vSlot 0).view.set]{fullShare} f)
      ∗ ((vSlot 1).view.loc (c : Thread nD τ) ↦[(vSlot 1).view.set]{fullShare} f)) : sProp 𝕄) := by
  have hu := pointsTo_union (ℓ := (c : Thread nD τ).loc cc0_scratch4) (q := fullShare) (f := f) (Val := Elt F) (Ix := Unit)
    (Name := ℕ) (U := UU) (Lvl := ℕ) vSlot_disj
  show (((c : Thread nD τ).loc cc0_scratch4) ↦[Finset.univ]{fullShare} f : sProp 𝕄) = _
  rw [vSlot_cover, BI.equiv_iff.mp ⟨hu.1, hu.2⟩]

/-- The two slots, each at its own contents, are the whole scratch buffer at some contents. -/
theorem v_join (c : Dev nD) (f0 f1 : Buf (Elt F) ((c : Thread nD τ).loc cc0_scratch4)) :
    (iprop(((vSlot 0).view.loc (c : Thread nD τ) ↦[(vSlot 0).view.set]{fullShare} f0)
      ∗ ((vSlot 1).view.loc (c : Thread nD τ) ↦[(vSlot 1).view.set]{fullShare} f1)) : sProp 𝕄) ⊢ iprop(∃ f, vWhole c f) := by
  have hj := pointsTo_join (ℓ := (c : Thread nD τ).loc cc0_scratch4) (q := fullShare) (f := f0) (g := f1) (Val := Elt F) (Ix := Unit)
    (Name := ℕ) (U := UU) (Lvl := ℕ) vSlot_disj
  rw [← vSlot_cover] at hj
  refine hj.trans ?_
  iintro H
  iexists (((vSlot 1).view.set : Finset S2x512x1024.Idx).piecewise f1 f0)
  iexact H

end Local

/-! ## The argument's elements the transfers read -/

section XSplit

/-- Two unit slices of the argument that do not meet on one axis are disjoint. -/
theorem disj_xSlice {sz sz' : Fin 2 → Nat} (off off' : Fin 2 → Nat) (inb : ∀ a, off a + sz a ≤ S8192x2048.size a)
    (inb' : ∀ a, off' a + sz' a ≤ S8192x2048.size a) (a : Fin 2) (h : off a + sz a ≤ off' a ∨ off' a + sz' a ≤ off a) :
    Disjoint (xM.slice (Rect.unit (s := S8192x2048) off sz inb) (fun _ => rfl)).view.set
      (xM.slice (Rect.unit (s := S8192x2048) off' sz' inb') (fun _ => rfl)).view.set := by
  rw [View.set_slice_whole, View.set_slice_whole]
  exact Rect.unit_disjoint a h

/-- The elements of slice `k` the device sends, and of chunk `j` it copies locally, as sets of indices of the argument. -/
abbrev ySet (c : Dev nD) (k : Fin 64) : Finset S8192x2048.Idx := (ySrc c k).view.set
abbrev lsSet (c : Dev nD) (j : Fin 16) : Finset S8192x2048.Idx := (lSrc c j).view.set

/-- Slice `k` the device sends starts at row 4096·mx + 64·k, in the other column block. -/
theorem ySrc_row (c : Dev nD) (k : Fin 64) :
    k0_off2 c (BitVec.ofNat 32 (64 * k.val)) 0 = 4096 * (c.val / 2) + 64 * k.val
      ∧ k0_off2 c (BitVec.ofNat 32 (64 * k.val)) 1 = 1024 - 1024 * (c.val % 2) := by
  rw [k0_off2_eq]; exact ⟨rfl, rfl⟩

theorem lOff_row (c : Dev nD) (j : Fin 16) : lOff c j 0 = 512 * j.val ∧ lOff c j 1 = 1024 * (c.val % 2) := by
  rw [lOff_eq]; exact ⟨rfl, rfl⟩

theorem ySrc_disj (c : Dev nD) (k k' : Fin 64) (h : k ≠ k') : Disjoint (ySet c k) (ySet c k') := by
  apply disj_xSlice _ _ _ _ 0
  rw [(ySrc_row c k).1, (ySrc_row c k').1]
  show _ + 64 ≤ _ ∨ _ + 64 ≤ _
  have : k.val ≠ k'.val := fun e => h (Fin.ext e)
  omega

theorem lSrc_disj (c : Dev nD) (j j' : Fin 16) (h : j ≠ j') : Disjoint (lsSet c j) (lsSet c j') := by
  apply disj_xSlice _ _ _ _ 0
  rw [(lOff_row c j).1, (lOff_row c j').1]
  show _ + 512 ≤ _ ∨ _ + 512 ≤ _
  have : j.val ≠ j'.val := fun e => h (Fin.ext e)
  omega

/-- What is sent lies in the other column block, what is copied locally in the device's own. -/
theorem ySrc_lSrc_disj (c : Dev nD) (k : Fin 64) (j : Fin 16) : Disjoint (ySet c k) (lsSet c j) := by
  apply disj_xSlice _ _ _ _ 1
  rw [(ySrc_row c k).2, (lOff_row c j).2]
  show _ + 1024 ≤ _ ∨ _ + 1024 ≤ _
  omega

/-- The elements of the argument no transfer reads. -/
abbrev xRest (c : Dev nD) : Finset S8192x2048.Idx :=
  Finset.univ \ (Finset.univ.biUnion (ySet c) ∪ Finset.univ.biUnion (lsSet c))

theorem sep_assoc_eq (P Q R : sProp 𝕄) : (iprop((P ∗ Q) ∗ R) : sProp 𝕄) = iprop(P ∗ Q ∗ R) :=
  BI.Entails.antisymm BI.sep_assoc BI.sep_assoc'

/-- The whole argument buffer is the 64 slices the device sends, the 16 chunks it copies locally, and the rest. -/
theorem x_split_eq (c : Dev nD) :
    xWhole m c = (iprop((bigSep Finset.univ fun k : Fin 64 => ysPay m c k)
      ∗ (bigSep Finset.univ fun j : Fin 16 => ((lSrc c j).view.loc (c : Thread nD τ) ↦[(lSrc c j).view.set]{fullShare} xC m c))
      ∗ (((c : Thread nD τ).loc main_arg0) ↦[xRest c]{fullShare} xC m c)) : sProp 𝕄) := by
  have hd : Disjoint (Finset.univ.biUnion (ySet c)) (Finset.univ.biUnion (lsSet c)) := by
    rw [Finset.disjoint_biUnion_left]; intro k _; rw [Finset.disjoint_biUnion_right]; intro j _
    exact ySrc_lSrc_disj c k j
  have hs := pointsTo_split_subset (ℓ := (c : Thread nD τ).loc main_arg0) (q := fullShare) (f := xC m c) (Val := Elt F) (Ix := Unit)
    (Name := ℕ) (U := UU) (Lvl := ℕ) (Finset.subset_univ (Finset.univ.biUnion (ySet c) ∪ Finset.univ.biUnion (lsSet c)))
  have hu := pointsTo_union (ℓ := (c : Thread nD τ).loc main_arg0) (q := fullShare) (f := xC m c) (Val := Elt F) (Ix := Unit)
    (Name := ℕ) (U := UU) (Lvl := ℕ) hd
  show (((c : Thread nD τ).loc main_arg0) ↦[Finset.univ]{fullShare} xC m c : sProp 𝕄) = _
  rw [BI.equiv_iff.mp ⟨hs.1, hs.2⟩, BI.equiv_iff.mp ⟨hu.1, hu.2⟩,
    pointsTo_biUnion _ _ (fun k _ k' _ h => ySrc_disj c k k' h),
    pointsTo_biUnion _ _ (fun j _ j' _ h => lSrc_disj c j j' h), sep_assoc_eq]
  rfl

theorem x_split (c : Dev nD) :
    xWhole m c ⊣⊢ (iprop((bigSep Finset.univ fun k : Fin 64 => ysPay m c k)
      ∗ (bigSep Finset.univ fun j : Fin 16 => ((lSrc c j).view.loc (c : Thread nD τ) ↦[(lSrc c j).view.set]{fullShare} xC m c))
      ∗ (((c : Thread nD τ).loc main_arg0) ↦[xRest c]{fullShare} xC m c)) : sProp 𝕄) :=
  ⟨Entails.of_eq (x_split_eq m c), Entails.of_eq (x_split_eq m c).symm⟩

end XSplit

/-- info: 'Cert.KernelProof.yLand' depends on axioms: [propext, Classical.choice, Quot.sound] -/
#guard_msgs in #print axioms yLand
/-- info: 'Cert.KernelProof.fLand' depends on axioms: [propext, Classical.choice, Quot.sound] -/
#guard_msgs in #print axioms fLand
/-- info: 'Cert.KernelProof.YCont_eq' depends on axioms: [propext, Classical.choice, Quot.sound] -/
#guard_msgs in #print axioms YCont_eq
/-- info: 'Cert.KernelProof.FCont_eq' depends on axioms: [propext, Classical.choice, Quot.sound] -/
#guard_msgs in #print axioms FCont_eq
/-- info: 'Cert.KernelProof.lLand' depends on axioms: [propext, Classical.choice, Quot.sound] -/
#guard_msgs in #print axioms lLand
/-- info: 'Cert.KernelProof.vLand' depends on axioms: [propext, Classical.choice, Quot.sound] -/
#guard_msgs in #print axioms vLand
/-- info: 'Cert.KernelProof.lLandV' depends on axioms: [propext, Classical.choice, Quot.sound] -/
#guard_msgs in #print axioms lLandV
/-- info: 'Cert.KernelProof.out_split' depends on axioms: [propext, Classical.choice, Quot.sound] -/
#guard_msgs in #print axioms out_split
/-- info: 'Cert.KernelProof.x_split' depends on axioms: [propext, Classical.choice, Quot.sound] -/
#guard_msgs in #print axioms x_split
/-- info: 'Cert.KernelProof.v_split_eq' depends on axioms: [propext, Classical.choice, Quot.sound] -/
#guard_msgs in #print axioms v_split_eq
/-- info: 'Cert.KernelProof.v_join' depends on axioms: [propext, Classical.choice, Quot.sound] -/
#guard_msgs in #print axioms v_join

end Cert.KernelProof

end
-- ==== Proof.KPrep.lean ====
/-
  The ghost state of the two-hop exchange, regrouped by kind of cell.

  A device's cells are numbered by `CIx`: the barrier, and for each of the 64 slices the y-send, y-receive,
  forward-send and forward-receive cell.  Every iterated conjunction over that numbering is the barrier's conjunct and
  four conjunctions over the slices; the positions, the payers' tokens, the launch credit, the closed transfer cells and
  the local copies' semaphores are stated in that form, and each cell's invariant and reached fact is read out of the
  persistent bundles.
-/
import proofs.«900037_g7700000000000038_dist_a2a_v7x_xy2x2_y_m8192_n1024_f32_1_alg».proof.Proof.KData

noncomputable section

namespace Cert.KernelProof

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Prep

variable {F : FTy → Type} [FloatOps F]

local notation "𝕄" => MT nD τ sig Unit (Elt F) ℕ UU ℕ

variable (m : (ℓ : Loc nD τ sig) → Buf (Elt F) ℓ) (ρ : Dev nD → PrngReg)

/-! ## Reindexing -/

omit [FloatOps F] in
theorem bigSep_option {α : Type} [Fintype α] [DecidableEq α] (Φ : Option α → sProp 𝕄) :
    bigSep Finset.univ Φ = iprop(Φ none ∗ bigSep Finset.univ fun a => Φ (some a)) := by
  have h : (Finset.univ.erase none : Finset (Option α)) = Finset.univ.map Function.Embedding.some := by
    ext x; cases x <;> simp
  rw [bigSep_univ_at Φ none, h, bigSep_map]; rfl

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
/-- Over the four arrays of 64: one conjunction per array. -/
theorem bigSep_xfer (Φ : Fin 4 × Fin 64 → sProp 𝕄) :
    bigSep Finset.univ Φ = iprop((bigSep Finset.univ fun k : Fin 64 => Φ (0, k)) ∗ (bigSep Finset.univ fun k : Fin 64 => Φ (1, k))
      ∗ (bigSep Finset.univ fun k : Fin 64 => Φ (2, k)) ∗ bigSep Finset.univ fun k : Fin 64 => Φ (3, k)) := by
  rw [bigSep_univ_prod, bigSep_fin4]

omit [FloatOps F] in
/-- Over a device's cells: the barrier's conjunct, then one conjunction per array. -/
theorem bigSep_cix (Φ : CIx → sProp 𝕄) :
    bigSep Finset.univ Φ = iprop(Φ none ∗ (bigSep Finset.univ fun k : Fin 64 => Φ (some (0, k))) ∗ (bigSep Finset.univ fun k : Fin 64 => Φ (some (1, k)))
      ∗ (bigSep Finset.univ fun k : Fin 64 => Φ (some (2, k))) ∗ bigSep Finset.univ fun k : Fin 64 => Φ (some (3, k))) := by
  rw [bigSep_option, bigSep_xfer]

/-! ## The linear pieces, by kind of cell -/

omit [FloatOps F] in
/-- (P1) -/
theorem positions_eq (c : Dev nD) : (positions c : sProp 𝕄) = iprop(atPos ER (barCell c) 0 ∅ 0
    ∗ (bigSep Finset.univ fun k : Fin 64 => atPos ER (ysCell c k) 0 ∅ 0) ∗ (bigSep Finset.univ fun k : Fin 64 => atPos ER (yrCell c k) 0 ∅ 0)
    ∗ (bigSep Finset.univ fun k : Fin 64 => atPos ER (fsCell c k) 0 ∅ 0) ∗ bigSep Finset.univ fun k : Fin 64 => atPos ER (frCell c k) 0 ∅ 0) := by
  unfold positions; rw [bigSep_cix]

omit [FloatOps F] in
/-- (P2) -/
theorem payToks_eq (c : Dev nD) : (payToks c : sProp 𝕄) = iprop(dutyTok ER (barCell (yp c)) 0 false ∗ dutyTok ER (barCell (xp c)) 0 true
    ∗ (bigSep Finset.univ fun k : Fin 64 => dutyTok ER (ysCell c k) 0 false) ∗ (bigSep Finset.univ fun k : Fin 64 => dutyTok ER (yrCell (yp c) k) 0 false)
    ∗ (bigSep Finset.univ fun k : Fin 64 => dutyTok ER (fsCell c k) 0 false) ∗ bigSep Finset.univ fun k : Fin 64 => dutyTok ER (frCell (xp c) k) 0 false) := by
  unfold payToks; rw [bigSep_sep', bigSep_sep', bigSep_sep']

omit [FloatOps F] in
/-- (P3) -/
theorem creds_eq (c : Dev nD) : (creds c : sProp 𝕄) = iprop(cred (tallyAt (barCell c) () 2)
    ∗ (bigSep Finset.univ fun k : Fin 64 => cred (tallyAt (yrCell c k) () N64)) ∗ bigSep Finset.univ fun k : Fin 64 => cred (tallyAt (frCell c k) () N64)) := by
  unfold creds; rw [bigSep_sep']

omit [FloatOps F] in
/-- (P5), as an equation, -/
theorem xferZero_eq (c : Dev nD) : (xferZero c : sProp 𝕄) = iprop((bigSep Finset.univ fun k : Fin 64 => semVal (ysCell c k) 0)
    ∗ (bigSep Finset.univ fun k : Fin 64 => semVal (yrCell c k) 0) ∗ (bigSep Finset.univ fun k : Fin 64 => semVal (fsCell c k) 0)
    ∗ bigSep Finset.univ fun k : Fin 64 => semVal (frCell c k) 0) := by
  unfold xferZero; rw [bigSep_xfer]

omit [FloatOps F] in
/-- and as the step that closes the transfer cells from the pieces. -/
theorem xferZero_intro (c : Dev nD) : iprop((bigSep Finset.univ fun k : Fin 64 => semVal (ysCell c k) 0)
    ∗ (bigSep Finset.univ fun k : Fin 64 => semVal (yrCell c k) 0) ∗ (bigSep Finset.univ fun k : Fin 64 => semVal (fsCell c k) 0)
    ∗ bigSep Finset.univ fun k : Fin 64 => semVal (frCell c k) 0) ⊢ (xferZero c : sProp 𝕄) :=
  Entails.of_eq (xferZero_eq c).symm

/-! ## The local copies' cells -/

omit [FloatOps F] in
/-- (P6) -/
theorem lsems_eq (c : Dev nD) : (lsems c : sProp 𝕄) = iprop(semVal (lsCell c 0) 0 ∗ semVal (lsCell c 1) 0 ∗ semVal (lsCell c 2) 0 ∗ semVal (lsCell c 3) 0) := by
  unfold lsems; rw [bigSep_fin4]

omit [FloatOps F] in
/-- A conjunction over the eight rounds' numbers, written out. -/
theorem range8_eq (Φ : ℕ → sProp 𝕄) : bigSep (Finset.range 8) Φ = iprop(Φ 0 ∗ Φ 1 ∗ Φ 2 ∗ Φ 3 ∗ Φ 4 ∗ Φ 5 ∗ Φ 6 ∗ Φ 7) :=
  bigSep_eq_bigSepL_of_eq [0, 1, 2, 3, 4, 5, 6, 7] (by decide) (by decide) Φ

omit [FloatOps F] in
/-- What the owner of the local copies' cells starts from, cell by cell; -/
theorem lsState_j (c : Dev nD) : (lsState c : sProp 𝕄) = iprop(iprop(atPos ER (lsCell c 0) 0 ∅ 0 ∗ reached ER (lsCell c 0) 0 ∗ bigSep (Finset.range 8) fun r => dutyTok ER (lsCell c 0) r false)
    ∗ iprop(atPos ER (lsCell c 1) 0 ∅ 0 ∗ reached ER (lsCell c 1) 0 ∗ bigSep (Finset.range 8) fun r => dutyTok ER (lsCell c 1) r false)
    ∗ iprop(atPos ER (lsCell c 2) 0 ∅ 0 ∗ reached ER (lsCell c 2) 0 ∗ bigSep (Finset.range 8) fun r => dutyTok ER (lsCell c 2) r false)
    ∗ iprop(atPos ER (lsCell c 3) 0 ∅ 0 ∗ reached ER (lsCell c 3) 0 ∗ bigSep (Finset.range 8) fun r => dutyTok ER (lsCell c 3) r false)) := by
  unfold lsState; rw [bigSep_fin4]

omit [FloatOps F] in
/-- and with each cell's eight tokens written out. -/
theorem lsState_eq (c : Dev nD) : (lsState c : sProp 𝕄) = iprop((atPos ER (lsCell c 0) 0 ∅ 0 ∗ reached ER (lsCell c 0) 0
      ∗ dutyTok ER (lsCell c 0) 0 false ∗ dutyTok ER (lsCell c 0) 1 false ∗ dutyTok ER (lsCell c 0) 2 false ∗ dutyTok ER (lsCell c 0) 3 false ∗ dutyTok ER (lsCell c 0) 4 false ∗ dutyTok ER (lsCell c 0) 5 false ∗ dutyTok ER (lsCell c 0) 6 false ∗ dutyTok ER (lsCell c 0) 7 false)
    ∗ (atPos ER (lsCell c 1) 0 ∅ 0 ∗ reached ER (lsCell c 1) 0
      ∗ dutyTok ER (lsCell c 1) 0 false ∗ dutyTok ER (lsCell c 1) 1 false ∗ dutyTok ER (lsCell c 1) 2 false ∗ dutyTok ER (lsCell c 1) 3 false ∗ dutyTok ER (lsCell c 1) 4 false ∗ dutyTok ER (lsCell c 1) 5 false ∗ dutyTok ER (lsCell c 1) 6 false ∗ dutyTok ER (lsCell c 1) 7 false)
    ∗ (atPos ER (lsCell c 2) 0 ∅ 0 ∗ reached ER (lsCell c 2) 0
      ∗ dutyTok ER (lsCell c 2) 0 false ∗ dutyTok ER (lsCell c 2) 1 false ∗ dutyTok ER (lsCell c 2) 2 false ∗ dutyTok ER (lsCell c 2) 3 false ∗ dutyTok ER (lsCell c 2) 4 false ∗ dutyTok ER (lsCell c 2) 5 false ∗ dutyTok ER (lsCell c 2) 6 false ∗ dutyTok ER (lsCell c 2) 7 false)
    ∗ (atPos ER (lsCell c 3) 0 ∅ 0 ∗ reached ER (lsCell c 3) 0
      ∗ dutyTok ER (lsCell c 3) 0 false ∗ dutyTok ER (lsCell c 3) 1 false ∗ dutyTok ER (lsCell c 3) 2 false ∗ dutyTok ER (lsCell c 3) 3 false ∗ dutyTok ER (lsCell c 3) 4 false ∗ dutyTok ER (lsCell c 3) 5 false ∗ dutyTok ER (lsCell c 3) 6 false ∗ dutyTok ER (lsCell c 3) 7 false)) := by
  rw [lsState_j]; simp only [range8_eq]

theorem inv_ls (KL : Dev nD × Fin 4 → ℕ) (d : Dev nD) (j : Fin 4) : lsInvs m KL ⊢ cellInv ER (rd m) (KL (d, j)) (lsCell d j) := by
  unfold lsInvs; exact bigSep_elim (Finset.mem_univ ((d, j) : Dev nD × Fin 4))

/-! ## (P4) Reading the persistent bundles -/

theorem inv_bar (K : Dev nD × CIx → ℕ) (d : Dev nD) : invs m K ⊢ cellInv ER (rd m) (K (d, none)) (barCell d) := by
  unfold invs; exact bigSep_elim (Finset.mem_univ ((d, none) : Dev nD × CIx))
theorem inv_ys (K : Dev nD × CIx → ℕ) (d : Dev nD) (k : Fin 64) : invs m K ⊢ cellInv ER (rd m) (K (d, some (0, k))) (ysCell d k) := by
  unfold invs; exact bigSep_elim (Finset.mem_univ ((d, some (0, k)) : Dev nD × CIx))
theorem inv_yr (K : Dev nD × CIx → ℕ) (d : Dev nD) (k : Fin 64) : invs m K ⊢ cellInv ER (rd m) (K (d, some (1, k))) (yrCell d k) := by
  unfold invs; exact bigSep_elim (Finset.mem_univ ((d, some (1, k)) : Dev nD × CIx))
theorem inv_fs (K : Dev nD × CIx → ℕ) (d : Dev nD) (k : Fin 64) : invs m K ⊢ cellInv ER (rd m) (K (d, some (2, k))) (fsCell d k) := by
  unfold invs; exact bigSep_elim (Finset.mem_univ ((d, some (2, k)) : Dev nD × CIx))
theorem inv_fr (K : Dev nD × CIx → ℕ) (d : Dev nD) (k : Fin 64) : invs m K ⊢ cellInv ER (rd m) (K (d, some (3, k))) (frCell d k) := by
  unfold invs; exact bigSep_elim (Finset.mem_univ ((d, some (3, k)) : Dev nD × CIx))

omit [FloatOps F] in
theorem reached_bar (d : Dev nD) : (reachedAll : sProp 𝕄) ⊢ reached ER (barCell d) 0 := by
  unfold reachedAll; exact bigSep_elim (Finset.mem_univ ((d, none) : Dev nD × CIx))
omit [FloatOps F] in
theorem reached_ys (d : Dev nD) (k : Fin 64) : (reachedAll : sProp 𝕄) ⊢ reached ER (ysCell d k) 0 := by
  unfold reachedAll; exact bigSep_elim (Finset.mem_univ ((d, some (0, k)) : Dev nD × CIx))
omit [FloatOps F] in
theorem reached_yr (d : Dev nD) (k : Fin 64) : (reachedAll : sProp 𝕄) ⊢ reached ER (yrCell d k) 0 := by
  unfold reachedAll; exact bigSep_elim (Finset.mem_univ ((d, some (1, k)) : Dev nD × CIx))
omit [FloatOps F] in
theorem reached_fs (d : Dev nD) (k : Fin 64) : (reachedAll : sProp 𝕄) ⊢ reached ER (fsCell d k) 0 := by
  unfold reachedAll; exact bigSep_elim (Finset.mem_univ ((d, some (2, k)) : Dev nD × CIx))
omit [FloatOps F] in
theorem reached_fr (d : Dev nD) (k : Fin 64) : (reachedAll : sProp 𝕄) ⊢ reached ER (frCell d k) 0 := by
  unfold reachedAll; exact bigSep_elim (Finset.mem_univ ((d, some (3, k)) : Dev nD × CIx))

omit [FloatOps F] in
/-- Every y-receive cell of a device has reached round 0; -/
theorem reached_yr_all (c : Dev nD) : (reachedAll : sProp 𝕄) ⊢ bigSep Finset.univ fun k : Fin 64 => reached ER (yrCell c k) 0 := by
  haveI : BI.Persistent (reachedAll : sProp 𝕄) := by unfold reachedAll; infer_instance
  exact BI.bigSep_intro_persistent fun k _ => reached_yr c k
omit [FloatOps F] in
/-- every forward-receive cell likewise. -/
theorem reached_fr_all (c : Dev nD) : (reachedAll : sProp 𝕄) ⊢ bigSep Finset.univ fun k : Fin 64 => reached ER (frCell c k) 0 := by
  haveI : BI.Persistent (reachedAll : sProp 𝕄) := by unfold reachedAll; infer_instance
  exact BI.bigSep_intro_persistent fun k _ => reached_fr c k

end Prep

end Cert.KernelProof

end
-- ==== Proof.KTables3.lean ====
import proofs.«900037_g7700000000000038_dist_a2a_v7x_xy2x2_y_m8192_n1024_f32_1_alg».proof.Proof.KSteps
import proofs.«900037_g7700000000000038_dist_a2a_v7x_xy2x2_y_m8192_n1024_f32_1_alg».proof.Proof.KRegions
import proofs.«900037_g7700000000000038_dist_a2a_v7x_xy2x2_y_m8192_n1024_f32_1_alg».proof.Proof.KPrep

noncomputable section

namespace Cert.KernelProof

open Cert.Kernel Cert.Kernel.Gen
open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What a finished round hands back, in the spelling the next step uses -/

theorem rest_ys' (c : Dev nD) (k : Fin 64) : bigSep ((rd (F := F) m).duties (ysCell c k) 0 \ ∅) (fun d => (rd (F := F) m).payload (ysCell c k) 0 d)
    = ((ySrc c k).view.loc (c : Thread nD τ) ↦[(ySrc c k).view.set]{fullShare} xC m c) := rest_ys m c k
theorem rest_yr' (c : Dev nD) (k : Fin 64) : bigSep ((rd (F := F) m).duties (yrCell c k) 0 \ ∅) (fun d => (rd (F := F) m).payload (yrCell c k) 0 d)
    = ((fSl c k).view.loc (c : Thread nD τ) ↦[(fSl c k).view.set]{fullShare} YCont m c k) := rest_yr m c k
theorem rest_fs' (c : Dev nD) (k : Fin 64) : bigSep ((rd (F := F) m).duties (fsCell c k) 0 \ ∅) (fun d => (rd (F := F) m).payload (fsCell c k) 0 d)
    = ((fSl c k).view.loc (c : Thread nD τ) ↦[(fSl c k).view.set]{fullShare} outC m c) := (rest_fs m c k).trans (YCont_pts m c k)
theorem rest_fr' (c : Dev nD) (k : Fin 64) : bigSep ((rd (F := F) m).duties (frCell c k) 0 \ ∅) (fun d => (rd (F := F) m).payload (frCell c k) 0 d)
    = ((fSl (xp c) k).view.loc (c : Thread nD τ) ↦[(fSl (xp c) k).view.set]{fullShare} outC m c) := (rest_fr m c k).trans (FCont_pts m c k)

/-! ## The local copies' cells -/

theorem lv_ls (c : Dev nD) (j : Fin 4) : lv (lsCell c j) () = 0 := by unfold lv; rw [kindOf_ls]

theorem expect_ls (c : Dev nD) (j : Fin 4) (r : ℕ) (hr : r < 8) : (rd (F := F) m).expect (lsCell c j) r = (rd (F := F) m).amount (lsCell c j) r false := by
  unfold Schedule.expect Schedule.amountOf; rw [duties_ls m c j r hr, Finset.sum_singleton]
theorem expect_ld (c : Dev nD) (s : Fin 2) (r : ℕ) (hr : r < 8) : (rd (F := F) m).expect (lsCell c ⟨s.val, by omega⟩) r = NV := by
  rw [expect_ls m c _ r hr]; exact amount_ld m c s r false
theorem expect_st (c : Dev nD) (s : Fin 2) (r : ℕ) (hr : r < 8) : (rd (F := F) m).expect (lsCell c ⟨s.val + 2, by omega⟩) r = NO := by
  rw [expect_ls m c _ r hr]; exact amount_st m c s r false
theorem rest_ls (c : Dev nD) (j : Fin 4) (r : ℕ) (hr : r < 8) :
    bigSep ((rd (F := F) m).duties (lsCell c j) r \ ∅) (fun d => (rd (F := F) m).payload (lsCell c j) r d) = lsPay m c j r := by
  rw [Finset.sdiff_empty, duties_ls m c j r hr, bigSep_singleton, payload_ls]

theorem rest_ld (c : Dev nD) (s : Fin 2) (r : ℕ) (hr : r < 8) :
    bigSep ((rd (F := F) m).duties (lsCell c ⟨s.val, by omega⟩) r \ ∅) (fun d => (rd (F := F) m).payload (lsCell c ⟨s.val, by omega⟩) r d)
      = iprop(((vSlot s).view.loc (c : Thread nD τ) ↦[(vSlot s).view.set]{fullShare} VC m c (chunkOf s r))
          ∗ ((lSrc c (chunkOf s r)).view.loc (c : Thread nD τ) ↦[(lSrc c (chunkOf s r)).view.set]{fullShare} xC m c)) := by
  rw [rest_ls m c _ r hr]
  fin_cases s <;> rfl
theorem rest_st (c : Dev nD) (s : Fin 2) (r : ℕ) (hr : r < 8) :
    bigSep ((rd (F := F) m).duties (lsCell c ⟨s.val + 2, by omega⟩) r \ ∅) (fun d => (rd (F := F) m).payload (lsCell c ⟨s.val + 2, by omega⟩) r d)
      = iprop(((lDst c (chunkOf s r)).view.loc (c : Thread nD τ) ↦[(lDst c (chunkOf s r)).view.set]{fullShare} outC m c)
          ∗ ((vSlot s).view.loc (c : Thread nD τ) ↦[(vSlot s).view.set]{fullShare} VC m c (chunkOf s r))) := by
  rw [rest_ls m c _ r hr]
  fin_cases s <;> rfl

theorem rest_ld0 (c : Dev nD) (r : ℕ) (hr : r < 8) :
    bigSep ((rd (F := F) m).duties (lsCell c 0) r \ ∅) (fun d => (rd (F := F) m).payload (lsCell c 0) r d)
      = iprop(((vSlot 0).view.loc (c : Thread nD τ) ↦[(vSlot 0).view.set]{fullShare} VC m c (chunkOf 0 r))
          ∗ ((lSrc c (chunkOf 0 r)).view.loc (c : Thread nD τ) ↦[(lSrc c (chunkOf 0 r)).view.set]{fullShare} xC m c)) := by
  rw [rest_ls m c _ r hr]; rfl
theorem rest_ld1 (c : Dev nD) (r : ℕ) (hr : r < 8) :
    bigSep ((rd (F := F) m).duties (lsCell c 1) r \ ∅) (fun d => (rd (F := F) m).payload (lsCell c 1) r d)
      = iprop(((vSlot 1).view.loc (c : Thread nD τ) ↦[(vSlot 1).view.set]{fullShare} VC m c (chunkOf 1 r))
          ∗ ((lSrc c (chunkOf 1 r)).view.loc (c : Thread nD τ) ↦[(lSrc c (chunkOf 1 r)).view.set]{fullShare} xC m c)) := by
  rw [rest_ls m c _ r hr]; rfl
theorem rest_st0 (c : Dev nD) (r : ℕ) (hr : r < 8) :
    bigSep ((rd (F := F) m).duties (lsCell c 2) r \ ∅) (fun d => (rd (F := F) m).payload (lsCell c 2) r d)
      = iprop(((lDst c (chunkOf 0 r)).view.loc (c : Thread nD τ) ↦[(lDst c (chunkOf 0 r)).view.set]{fullShare} outC m c)
          ∗ ((vSlot 0).view.loc (c : Thread nD τ) ↦[(vSlot 0).view.set]{fullShare} VC m c (chunkOf 0 r))) := by
  rw [rest_ls m c _ r hr]; rfl
theorem rest_st1 (c : Dev nD) (r : ℕ) (hr : r < 8) :
    bigSep ((rd (F := F) m).duties (lsCell c 3) r \ ∅) (fun d => (rd (F := F) m).payload (lsCell c 3) r d)
      = iprop(((lDst c (chunkOf 1 r)).view.loc (c : Thread nD τ) ↦[(lDst c (chunkOf 1 r)).view.set]{fullShare} outC m c)
          ∗ ((vSlot 1).view.loc (c : Thread nD τ) ↦[(vSlot 1).view.set]{fullShare} VC m c (chunkOf 1 r))) := by
  rw [rest_ls m c _ r hr]; rfl

/-! ## Taking pieces one at a time -/

/-- The indices from `k` on. -/
def fromK (n k : ℕ) : Finset (Fin n) := Finset.univ.filter fun i => k ≤ i.val

theorem fromK_zero (n : ℕ) : fromK n 0 = Finset.univ := by ext i; simp [fromK]
theorem fromK_eq_insert {n k : ℕ} (hk : k < n) : fromK n k = insert ⟨k, hk⟩ (fromK n (k + 1)) := by
  ext i
  simp only [fromK, Finset.mem_filter, Finset.mem_univ, true_and, Finset.mem_insert]
  constructor
  · intro h
    by_cases hi : i.val = k
    · exact Or.inl (Fin.ext hi)
    · exact Or.inr (by omega)
  · rintro (rfl | h)
    · exact le_rfl
    · omega
theorem not_mem_fromK_succ {n k : ℕ} (hk : k < n) : (⟨k, hk⟩ : Fin n) ∉ fromK n (k + 1) := by
  simp [fromK]

/-- The next piece out of those from `k` on; -/
theorem take_step {n : ℕ} (Φ : Fin n → sProp 𝕄) (k : ℕ) (hk : k < n) : bigSep (fromK n k) Φ = iprop(Φ ⟨k, hk⟩ ∗ bigSep (fromK n (k + 1)) Φ) := by
  rw [fromK_eq_insert hk, bigSep_insert (not_mem_fromK_succ hk)]
  rfl
/-- the first piece out of the whole family. -/
theorem take_zero {n : ℕ} (Φ : Fin n → sProp 𝕄) (h0 : 0 < n) : bigSep Finset.univ Φ = iprop(Φ ⟨0, h0⟩ ∗ bigSep (fromK n 1) Φ) := by
  rw [← fromK_zero n, take_step Φ 0 h0]

/-- The families the body takes its pieces from. -/
abbrev famAtYS (c : Dev nD) : Fin 64 → sProp 𝕄 := fun k => atPos ER (ysCell c k) 0 ∅ 0
abbrev famAtYR (c : Dev nD) : Fin 64 → sProp 𝕄 := fun k => atPos ER (yrCell c k) 0 ∅ 0
abbrev famAtFS (c : Dev nD) : Fin 64 → sProp 𝕄 := fun k => atPos ER (fsCell c k) 0 ∅ 0
abbrev famAtFR (c : Dev nD) : Fin 64 → sProp 𝕄 := fun k => atPos ER (frCell c k) 0 ∅ 0
abbrev famTYS (c : Dev nD) : Fin 64 → sProp 𝕄 := fun k => dutyTok ER (ysCell c k) 0 false
abbrev famTYRP (c : Dev nD) : Fin 64 → sProp 𝕄 := fun k => dutyTok ER (yrCell (yp c) k) 0 false
abbrev famTFS (c : Dev nD) : Fin 64 → sProp 𝕄 := fun k => dutyTok ER (fsCell c k) 0 false
abbrev famTFRP (c : Dev nD) : Fin 64 → sProp 𝕄 := fun k => dutyTok ER (frCell (xp c) k) 0 false
abbrev famCYR (c : Dev nD) : Fin 64 → sProp 𝕄 := fun k => cred (tallyAt (yrCell c k) () N64)
abbrev famCFR (c : Dev nD) : Fin 64 → sProp 𝕄 := fun k => cred (tallyAt (frCell c k) () N64)
abbrev famCYS (c : Dev nD) : Fin 64 → sProp 𝕄 := fun k => cred (tallyAt (ysCell c k) () N64)
abbrev famCFS (c : Dev nD) : Fin 64 → sProp 𝕄 := fun k => cred (tallyAt (fsCell c k) () N64)
abbrev famOL0 (c : Dev nD) : Fin 16 → sProp 𝕄 := fun j => ((lDst c j).view.loc (c : Thread nD τ) ↦[(lDst c j).view.set]{fullShare} o0 m c)
abbrev famDY (c : Dev nD) : Fin 64 → sProp 𝕄 := fun k => ((fSl (yp c) k).view.loc ((yp c : Dev nD) : Thread nD τ) ↦[(fSl (yp c) k).view.set]{fullShare} o0 m (yp c))
abbrev famDF (c : Dev nD) : Fin 64 → sProp 𝕄 := fun k => ((fSl c k).view.loc ((xp c : Dev nD) : Thread nD τ) ↦[(fSl c k).view.set]{fullShare} o0 m (xp c))

/-! ## Collecting pieces one at a time -/

/-- The first `k` indices. -/
def upTo (n k : ℕ) : Finset (Fin n) := Finset.univ.filter fun i => i.val < k

theorem upTo_succ {n k : ℕ} (hk : k < n) : upTo n (k + 1) = insert ⟨k, hk⟩ (upTo n k) := by
  ext i
  simp only [upTo, Finset.mem_filter, Finset.mem_univ, true_and, Finset.mem_insert]
  constructor
  · intro h
    by_cases hi : i.val = k
    · exact Or.inl (Fin.ext hi)
    · exact Or.inr (by omega)
  · rintro (rfl | h)
    · exact Nat.lt_succ_self _
    · omega
theorem not_mem_upTo {n k : ℕ} (hk : k < n) : (⟨k, hk⟩ : Fin n) ∉ upTo n k := by
  simp [upTo]
theorem upTo_full (n : ℕ) : upTo n n = Finset.univ := by
  ext i; simp [upTo, i.isLt]

/-- One piece starts the collection; -/
theorem acc_one {n : ℕ} (Φ : Fin n → sProp 𝕄) (h0 : 0 < n) : Φ ⟨0, h0⟩ ⊢ bigSep (upTo n 1) Φ := by
  rw [upTo_succ h0, bigSep_insert (not_mem_upTo h0)]
  have : upTo n 0 = ∅ := by ext i; simp [upTo]
  rw [this, bigSep_empty]
  exact (sep_emp (PROP := sProp 𝕄)).2
/-- the next piece joins the first `k`; -/
theorem acc_step {n : ℕ} (Φ : Fin n → sProp 𝕄) (k : ℕ) (hk : k < n) : iprop(bigSep (upTo n k) Φ ∗ Φ ⟨k, hk⟩) ⊢ bigSep (upTo n (k + 1)) Φ := by
  rw [upTo_succ hk, bigSep_insert (not_mem_upTo hk)]
  exact (sep_comm (PROP := sProp 𝕄)).1
/-- all of them are the whole family. -/
theorem acc_full {n : ℕ} (Φ : Fin n → sProp 𝕄) : bigSep (upTo n n) Φ = bigSep Finset.univ Φ := by rw [upTo_full]

/-- The families of pieces the body collects. -/
abbrev famXY (c : Dev nD) : Fin 64 → sProp 𝕄 := fun k => ysPay m c k
theorem famXY_at (c : Dev nD) (k : ℕ) (hk : k < 64) :
    famXY m c ⟨k, hk⟩ = ((ySrc c ⟨k, hk⟩).view.loc (c : Thread nD τ) ↦[(ySrc c ⟨k, hk⟩).view.set]{fullShare} xC m c) := rfl
abbrev famXL (c : Dev nD) : Fin 16 → sProp 𝕄 := fun j => ((lSrc c j).view.loc (c : Thread nD τ) ↦[(lSrc c j).view.set]{fullShare} xC m c)
abbrev famOL (c : Dev nD) : Fin 16 → sProp 𝕄 := fun j => ((lDst c j).view.loc (c : Thread nD τ) ↦[(lDst c j).view.set]{fullShare} outC m c)
abbrev famY (c : Dev nD) : Fin 64 → sProp 𝕄 := fun k => slPts c (fSl c k) (outC m c)
abbrev famF (c : Dev nD) : Fin 64 → sProp 𝕄 := fun k => slPts c (fSl (xp c) k) (outC m c)
abbrev famZys (c : Dev nD) : Fin 64 → sProp 𝕄 := fun k => semVal (ysCell c k) 0
abbrev famZyr (c : Dev nD) : Fin 64 → sProp 𝕄 := fun k => semVal (yrCell c k) 0
abbrev famZfs (c : Dev nD) : Fin 64 → sProp 𝕄 := fun k => semVal (fsCell c k) 0
abbrev famZfr (c : Dev nD) : Fin 64 → sProp 𝕄 := fun k => semVal (frCell c k) 0

/-! ## The body's post from its pieces -/

/-- Every slice of x back, every chunk and slice of the result at its final contents, the two scratch slots, every own
    cell closed at zero, and nothing owed: the body's post. -/
theorem post_intro (c : Dev nD) (W : Waits sig Unit) (f0 f1 : Buf (Elt F) ((c : Thread nD τ).loc cc0_scratch4)) :
    iprop(((bigSep Finset.univ fun k : Fin 64 => ysPay m c k)
          ∗ (bigSep Finset.univ fun j : Fin 16 => ((lSrc c j).view.loc (c : Thread nD τ) ↦[(lSrc c j).view.set]{fullShare} xC m c))
          ∗ (((c : Thread nD τ).loc main_arg0) ↦[xRest c]{fullShare} xC m c))
        ∗ ((bigSep Finset.univ fun j : Fin 16 => ((lDst c j).view.loc (c : Thread nD τ) ↦[(lDst c j).view.set]{fullShare} outC m c))
          ∗ (bigSep Finset.univ fun k : Fin 64 => slPts c (fSl c k) (outC m c))
          ∗ bigSep Finset.univ fun k : Fin 64 => slPts c (fSl (xp c) k) (outC m c))
        ∗ (((vSlot 0).view.loc (c : Thread nD τ) ↦[(vSlot 0).view.set]{fullShare} f0) ∗ ((vSlot 1).view.loc (c : Thread nD τ) ↦[(vSlot 1).view.set]{fullShare} f1))
        ∗ lsems c
        ∗ ((bigSep Finset.univ fun k : Fin 64 => semVal (ysCell c k) 0) ∗ (bigSep Finset.univ fun k : Fin 64 => semVal (yrCell c k) 0)
          ∗ (bigSep Finset.univ fun k : Fin 64 => semVal (fsCell c k) 0) ∗ bigSep Finset.univ fun k : Fin 64 => semVal (frCell c k) 0)
        ∗ owes (c : Thread nD τ) 0 W)
      ⊢ bodyPost m c := by
  unfold bodyPost Φ₁ Dat.owesAt Pipeline.owesWithin
  rw [x_split_eq m c, out_split_eq c (outC m c), Prep.xferZero_eq]
  iintro ⟨HX, HOut, HV, HLs, HZ, HO⟩
  isplitl [HX HOut HV HLs HZ]
  · isplitl [HX]; · iexact HX
    isplitl [HOut]; · iexact HOut
    isplitl [HV]; · iapply (v_join c f0 f1); iexact HV
    isplitl [HLs]; · iexact HLs
    iexact HZ
  · iexists W
    isplitr; · ipureintro; exact fun _ _ => Or.inl trivial
    iexact HO

/-- The post from the collected pieces. -/
theorem post_intro' (c : Dev nD) (W : Waits sig Unit) (f0 f1 : Buf (Elt F) ((c : Thread nD τ).loc cc0_scratch4)) :
    iprop((bigSep (upTo 64 64) (famXY m c) ∗ bigSep (upTo 16 16) (famXL m c) ∗ (((c : Thread nD τ).loc main_arg0) ↦[xRest c]{fullShare} xC m c))
        ∗ (bigSep (upTo 16 16) (famOL m c) ∗ bigSep (upTo 64 64) (famY m c) ∗ bigSep (upTo 64 64) (famF m c))
        ∗ (((vSlot 0).view.loc (c : Thread nD τ) ↦[(vSlot 0).view.set]{fullShare} f0) ∗ ((vSlot 1).view.loc (c : Thread nD τ) ↦[(vSlot 1).view.set]{fullShare} f1))
        ∗ (semVal (lsCell c 0) 0 ∗ semVal (lsCell c 1) 0 ∗ semVal (lsCell c 2) 0 ∗ semVal (lsCell c 3) 0)
        ∗ (bigSep (upTo 64 64) (famZys (F := F) c) ∗ bigSep (upTo 64 64) (famZyr (F := F) c) ∗ bigSep (upTo 64 64) (famZfs (F := F) c) ∗ bigSep (upTo 64 64) (famZfr (F := F) c))
        ∗ owes (c : Thread nD τ) 0 W)
      ⊢ bodyPost m c := by
  rw [acc_full, acc_full, acc_full, acc_full, acc_full, acc_full, acc_full, acc_full, acc_full, ← Prep.lsems_eq]
  exact post_intro m c W f0 f1

end Cert.KernelProof

end
-- ==== Proof.KCanon.lean ====
import proofs.«900037_g7700000000000038_dist_a2a_v7x_xy2x2_y_m8192_n1024_f32_1_alg».proof.Proof.KProto

noncomputable section

namespace Cert.KernelProof

open Cert.Kernel Cert.Kernel.Gen
open Idealize.ShloMosaic
open Idealize.ShloMosaic.TcCoe

/-! Every device the body addresses is the y-neighbour or the x-neighbour. -/
theorem dev1_eq (c : Dev nD) : (⟨k0_dev1 c, k0_dev1_lt c⟩ : Dev nD) = yp c := Fin.ext (k0_dev1_eq c)
theorem dev3_eq (c : Dev nD) : (⟨k0_dev3 c, k0_dev3_lt c⟩ : Dev nD) = yp c := Fin.ext (k0_dev3_eq c)
theorem dev4_eq (c : Dev nD) : (⟨k0_dev4 c, k0_dev4_lt c⟩ : Dev nD) = yp c := Fin.ext (k0_dev4_eq c)
theorem dev5_eq (c : Dev nD) : (⟨k0_dev5 c, k0_dev5_lt c⟩ : Dev nD) = yp c := Fin.ext (k0_dev5_eq c)
theorem dev6_eq (c : Dev nD) : (⟨k0_dev6 c, k0_dev6_lt c⟩ : Dev nD) = yp c := Fin.ext (k0_dev6_eq c)
theorem dev7_eq (c : Dev nD) : (⟨k0_dev7 c, k0_dev7_lt c⟩ : Dev nD) = yp c := Fin.ext (k0_dev7_eq c)
theorem dev8_eq (c : Dev nD) : (⟨k0_dev8 c, k0_dev8_lt c⟩ : Dev nD) = yp c := Fin.ext (k0_dev8_eq c)
theorem dev9_eq (c : Dev nD) : (⟨k0_dev9 c, k0_dev9_lt c⟩ : Dev nD) = yp c := Fin.ext (k0_dev9_eq c)
theorem dev10_eq (c : Dev nD) : (⟨k0_dev10 c, k0_dev10_lt c⟩ : Dev nD) = yp c := Fin.ext (k0_dev10_eq c)
theorem dev11_eq (c : Dev nD) : (⟨k0_dev11 c, k0_dev11_lt c⟩ : Dev nD) = yp c := Fin.ext (k0_dev11_eq c)
theorem dev12_eq (c : Dev nD) : (⟨k0_dev12 c, k0_dev12_lt c⟩ : Dev nD) = yp c := Fin.ext (k0_dev12_eq c)
theorem dev13_eq (c : Dev nD) : (⟨k0_dev13 c, k0_dev13_lt c⟩ : Dev nD) = yp c := Fin.ext (k0_dev13_eq c)
theorem dev14_eq (c : Dev nD) : (⟨k0_dev14 c, k0_dev14_lt c⟩ : Dev nD) = yp c := Fin.ext (k0_dev14_eq c)
theorem dev15_eq (c : Dev nD) : (⟨k0_dev15 c, k0_dev15_lt c⟩ : Dev nD) = yp c := Fin.ext (k0_dev15_eq c)
theorem dev16_eq (c : Dev nD) : (⟨k0_dev16 c, k0_dev16_lt c⟩ : Dev nD) = yp c := Fin.ext (k0_dev16_eq c)
theorem dev17_eq (c : Dev nD) : (⟨k0_dev17 c, k0_dev17_lt c⟩ : Dev nD) = yp c := Fin.ext (k0_dev17_eq c)
theorem dev18_eq (c : Dev nD) : (⟨k0_dev18 c, k0_dev18_lt c⟩ : Dev nD) = yp c := Fin.ext (k0_dev18_eq c)
theorem dev19_eq (c : Dev nD) : (⟨k0_dev19 c, k0_dev19_lt c⟩ : Dev nD) = yp c := Fin.ext (k0_dev19_eq c)
theorem dev20_eq (c : Dev nD) : (⟨k0_dev20 c, k0_dev20_lt c⟩ : Dev nD) = yp c := Fin.ext (k0_dev20_eq c)
theorem dev21_eq (c : Dev nD) : (⟨k0_dev21 c, k0_dev21_lt c⟩ : Dev nD) = yp c := Fin.ext (k0_dev21_eq c)
theorem dev22_eq (c : Dev nD) : (⟨k0_dev22 c, k0_dev22_lt c⟩ : Dev nD) = yp c := Fin.ext (k0_dev22_eq c)
theorem dev23_eq (c : Dev nD) : (⟨k0_dev23 c, k0_dev23_lt c⟩ : Dev nD) = yp c := Fin.ext (k0_dev23_eq c)
theorem dev24_eq (c : Dev nD) : (⟨k0_dev24 c, k0_dev24_lt c⟩ : Dev nD) = yp c := Fin.ext (k0_dev24_eq c)
theorem dev25_eq (c : Dev nD) : (⟨k0_dev25 c, k0_dev25_lt c⟩ : Dev nD) = yp c := Fin.ext (k0_dev25_eq c)
theorem dev26_eq (c : Dev nD) : (⟨k0_dev26 c, k0_dev26_lt c⟩ : Dev nD) = yp c := Fin.ext (k0_dev26_eq c)
theorem dev27_eq (c : Dev nD) : (⟨k0_dev27 c, k0_dev27_lt c⟩ : Dev nD) = yp c := Fin.ext (k0_dev27_eq c)
theorem dev28_eq (c : Dev nD) : (⟨k0_dev28 c, k0_dev28_lt c⟩ : Dev nD) = yp c := Fin.ext (k0_dev28_eq c)
theorem dev29_eq (c : Dev nD) : (⟨k0_dev29 c, k0_dev29_lt c⟩ : Dev nD) = yp c := Fin.ext (k0_dev29_eq c)
theorem dev30_eq (c : Dev nD) : (⟨k0_dev30 c, k0_dev30_lt c⟩ : Dev nD) = yp c := Fin.ext (k0_dev30_eq c)
theorem dev31_eq (c : Dev nD) : (⟨k0_dev31 c, k0_dev31_lt c⟩ : Dev nD) = yp c := Fin.ext (k0_dev31_eq c)
theorem dev32_eq (c : Dev nD) : (⟨k0_dev32 c, k0_dev32_lt c⟩ : Dev nD) = yp c := Fin.ext (k0_dev32_eq c)
theorem dev33_eq (c : Dev nD) : (⟨k0_dev33 c, k0_dev33_lt c⟩ : Dev nD) = yp c := Fin.ext (k0_dev33_eq c)
theorem dev34_eq (c : Dev nD) : (⟨k0_dev34 c, k0_dev34_lt c⟩ : Dev nD) = yp c := Fin.ext (k0_dev34_eq c)
theorem dev35_eq (c : Dev nD) : (⟨k0_dev35 c, k0_dev35_lt c⟩ : Dev nD) = yp c := Fin.ext (k0_dev35_eq c)
theorem dev36_eq (c : Dev nD) : (⟨k0_dev36 c, k0_dev36_lt c⟩ : Dev nD) = yp c := Fin.ext (k0_dev36_eq c)
theorem dev37_eq (c : Dev nD) : (⟨k0_dev37 c, k0_dev37_lt c⟩ : Dev nD) = yp c := Fin.ext (k0_dev37_eq c)
theorem dev38_eq (c : Dev nD) : (⟨k0_dev38 c, k0_dev38_lt c⟩ : Dev nD) = yp c := Fin.ext (k0_dev38_eq c)
theorem dev39_eq (c : Dev nD) : (⟨k0_dev39 c, k0_dev39_lt c⟩ : Dev nD) = yp c := Fin.ext (k0_dev39_eq c)
theorem dev40_eq (c : Dev nD) : (⟨k0_dev40 c, k0_dev40_lt c⟩ : Dev nD) = yp c := Fin.ext (k0_dev40_eq c)
theorem dev41_eq (c : Dev nD) : (⟨k0_dev41 c, k0_dev41_lt c⟩ : Dev nD) = yp c := Fin.ext (k0_dev41_eq c)
theorem dev42_eq (c : Dev nD) : (⟨k0_dev42 c, k0_dev42_lt c⟩ : Dev nD) = yp c := Fin.ext (k0_dev42_eq c)
theorem dev43_eq (c : Dev nD) : (⟨k0_dev43 c, k0_dev43_lt c⟩ : Dev nD) = yp c := Fin.ext (k0_dev43_eq c)
theorem dev44_eq (c : Dev nD) : (⟨k0_dev44 c, k0_dev44_lt c⟩ : Dev nD) = yp c := Fin.ext (k0_dev44_eq c)
theorem dev45_eq (c : Dev nD) : (⟨k0_dev45 c, k0_dev45_lt c⟩ : Dev nD) = yp c := Fin.ext (k0_dev45_eq c)
theorem dev46_eq (c : Dev nD) : (⟨k0_dev46 c, k0_dev46_lt c⟩ : Dev nD) = yp c := Fin.ext (k0_dev46_eq c)
theorem dev47_eq (c : Dev nD) : (⟨k0_dev47 c, k0_dev47_lt c⟩ : Dev nD) = yp c := Fin.ext (k0_dev47_eq c)
theorem dev48_eq (c : Dev nD) : (⟨k0_dev48 c, k0_dev48_lt c⟩ : Dev nD) = yp c := Fin.ext (k0_dev48_eq c)
theorem dev49_eq (c : Dev nD) : (⟨k0_dev49 c, k0_dev49_lt c⟩ : Dev nD) = yp c := Fin.ext (k0_dev49_eq c)
theorem dev50_eq (c : Dev nD) : (⟨k0_dev50 c, k0_dev50_lt c⟩ : Dev nD) = yp c := Fin.ext (k0_dev50_eq c)
theorem dev51_eq (c : Dev nD) : (⟨k0_dev51 c, k0_dev51_lt c⟩ : Dev nD) = yp c := Fin.ext (k0_dev51_eq c)
theorem dev52_eq (c : Dev nD) : (⟨k0_dev52 c, k0_dev52_lt c⟩ : Dev nD) = yp c := Fin.ext (k0_dev52_eq c)
theorem dev53_eq (c : Dev nD) : (⟨k0_dev53 c, k0_dev53_lt c⟩ : Dev nD) = yp c := Fin.ext (k0_dev53_eq c)
theorem dev54_eq (c : Dev nD) : (⟨k0_dev54 c, k0_dev54_lt c⟩ : Dev nD) = yp c := Fin.ext (k0_dev54_eq c)
theorem dev55_eq (c : Dev nD) : (⟨k0_dev55 c, k0_dev55_lt c⟩ : Dev nD) = yp c := Fin.ext (k0_dev55_eq c)
theorem dev56_eq (c : Dev nD) : (⟨k0_dev56 c, k0_dev56_lt c⟩ : Dev nD) = yp c := Fin.ext (k0_dev56_eq c)
theorem dev57_eq (c : Dev nD) : (⟨k0_dev57 c, k0_dev57_lt c⟩ : Dev nD) = yp c := Fin.ext (k0_dev57_eq c)
theorem dev58_eq (c : Dev nD) : (⟨k0_dev58 c, k0_dev58_lt c⟩ : Dev nD) = yp c := Fin.ext (k0_dev58_eq c)
theorem dev59_eq (c : Dev nD) : (⟨k0_dev59 c, k0_dev59_lt c⟩ : Dev nD) = yp c := Fin.ext (k0_dev59_eq c)
theorem dev60_eq (c : Dev nD) : (⟨k0_dev60 c, k0_dev60_lt c⟩ : Dev nD) = yp c := Fin.ext (k0_dev60_eq c)
theorem dev61_eq (c : Dev nD) : (⟨k0_dev61 c, k0_dev61_lt c⟩ : Dev nD) = yp c := Fin.ext (k0_dev61_eq c)
theorem dev62_eq (c : Dev nD) : (⟨k0_dev62 c, k0_dev62_lt c⟩ : Dev nD) = yp c := Fin.ext (k0_dev62_eq c)
theorem dev63_eq (c : Dev nD) : (⟨k0_dev63 c, k0_dev63_lt c⟩ : Dev nD) = yp c := Fin.ext (k0_dev63_eq c)
theorem dev64_eq (c : Dev nD) : (⟨k0_dev64 c, k0_dev64_lt c⟩ : Dev nD) = yp c := Fin.ext (k0_dev64_eq c)
theorem dev65_eq (c : Dev nD) : (⟨k0_dev65 c, k0_dev65_lt c⟩ : Dev nD) = yp c := Fin.ext (k0_dev65_eq c)
theorem dev66_eq (c : Dev nD) : (⟨k0_dev66 c, k0_dev66_lt c⟩ : Dev nD) = yp c := Fin.ext (k0_dev66_eq c)
theorem dev2_eq (c : Dev nD) : (⟨k0_dev2 c, k0_dev2_lt c⟩ : Dev nD) = xp c := Fin.ext (k0_dev2_eq c)
theorem dev67_eq (c : Dev nD) : (⟨k0_dev67 c, k0_dev67_lt c⟩ : Dev nD) = xp c := Fin.ext (k0_dev67_eq c)
theorem dev68_eq (c : Dev nD) : (⟨k0_dev68 c, k0_dev68_lt c⟩ : Dev nD) = xp c := Fin.ext (k0_dev68_eq c)
theorem dev69_eq (c : Dev nD) : (⟨k0_dev69 c, k0_dev69_lt c⟩ : Dev nD) = xp c := Fin.ext (k0_dev69_eq c)
theorem dev70_eq (c : Dev nD) : (⟨k0_dev70 c, k0_dev70_lt c⟩ : Dev nD) = xp c := Fin.ext (k0_dev70_eq c)
theorem dev71_eq (c : Dev nD) : (⟨k0_dev71 c, k0_dev71_lt c⟩ : Dev nD) = xp c := Fin.ext (k0_dev71_eq c)
theorem dev72_eq (c : Dev nD) : (⟨k0_dev72 c, k0_dev72_lt c⟩ : Dev nD) = xp c := Fin.ext (k0_dev72_eq c)
theorem dev73_eq (c : Dev nD) : (⟨k0_dev73 c, k0_dev73_lt c⟩ : Dev nD) = xp c := Fin.ext (k0_dev73_eq c)
theorem dev74_eq (c : Dev nD) : (⟨k0_dev74 c, k0_dev74_lt c⟩ : Dev nD) = xp c := Fin.ext (k0_dev74_eq c)
theorem dev75_eq (c : Dev nD) : (⟨k0_dev75 c, k0_dev75_lt c⟩ : Dev nD) = xp c := Fin.ext (k0_dev75_eq c)
theorem dev76_eq (c : Dev nD) : (⟨k0_dev76 c, k0_dev76_lt c⟩ : Dev nD) = xp c := Fin.ext (k0_dev76_eq c)
theorem dev77_eq (c : Dev nD) : (⟨k0_dev77 c, k0_dev77_lt c⟩ : Dev nD) = xp c := Fin.ext (k0_dev77_eq c)
theorem dev78_eq (c : Dev nD) : (⟨k0_dev78 c, k0_dev78_lt c⟩ : Dev nD) = xp c := Fin.ext (k0_dev78_eq c)
theorem dev79_eq (c : Dev nD) : (⟨k0_dev79 c, k0_dev79_lt c⟩ : Dev nD) = xp c := Fin.ext (k0_dev79_eq c)
theorem dev80_eq (c : Dev nD) : (⟨k0_dev80 c, k0_dev80_lt c⟩ : Dev nD) = xp c := Fin.ext (k0_dev80_eq c)
theorem dev81_eq (c : Dev nD) : (⟨k0_dev81 c, k0_dev81_lt c⟩ : Dev nD) = xp c := Fin.ext (k0_dev81_eq c)
theorem dev82_eq (c : Dev nD) : (⟨k0_dev82 c, k0_dev82_lt c⟩ : Dev nD) = xp c := Fin.ext (k0_dev82_eq c)
theorem dev83_eq (c : Dev nD) : (⟨k0_dev83 c, k0_dev83_lt c⟩ : Dev nD) = xp c := Fin.ext (k0_dev83_eq c)
theorem dev84_eq (c : Dev nD) : (⟨k0_dev84 c, k0_dev84_lt c⟩ : Dev nD) = xp c := Fin.ext (k0_dev84_eq c)
theorem dev85_eq (c : Dev nD) : (⟨k0_dev85 c, k0_dev85_lt c⟩ : Dev nD) = xp c := Fin.ext (k0_dev85_eq c)
theorem dev86_eq (c : Dev nD) : (⟨k0_dev86 c, k0_dev86_lt c⟩ : Dev nD) = xp c := Fin.ext (k0_dev86_eq c)
theorem dev87_eq (c : Dev nD) : (⟨k0_dev87 c, k0_dev87_lt c⟩ : Dev nD) = xp c := Fin.ext (k0_dev87_eq c)
theorem dev88_eq (c : Dev nD) : (⟨k0_dev88 c, k0_dev88_lt c⟩ : Dev nD) = xp c := Fin.ext (k0_dev88_eq c)
theorem dev89_eq (c : Dev nD) : (⟨k0_dev89 c, k0_dev89_lt c⟩ : Dev nD) = xp c := Fin.ext (k0_dev89_eq c)
theorem dev90_eq (c : Dev nD) : (⟨k0_dev90 c, k0_dev90_lt c⟩ : Dev nD) = xp c := Fin.ext (k0_dev90_eq c)
theorem dev91_eq (c : Dev nD) : (⟨k0_dev91 c, k0_dev91_lt c⟩ : Dev nD) = xp c := Fin.ext (k0_dev91_eq c)
theorem dev92_eq (c : Dev nD) : (⟨k0_dev92 c, k0_dev92_lt c⟩ : Dev nD) = xp c := Fin.ext (k0_dev92_eq c)
theorem dev93_eq (c : Dev nD) : (⟨k0_dev93 c, k0_dev93_lt c⟩ : Dev nD) = xp c := Fin.ext (k0_dev93_eq c)
theorem dev94_eq (c : Dev nD) : (⟨k0_dev94 c, k0_dev94_lt c⟩ : Dev nD) = xp c := Fin.ext (k0_dev94_eq c)
theorem dev95_eq (c : Dev nD) : (⟨k0_dev95 c, k0_dev95_lt c⟩ : Dev nD) = xp c := Fin.ext (k0_dev95_eq c)
theorem dev96_eq (c : Dev nD) : (⟨k0_dev96 c, k0_dev96_lt c⟩ : Dev nD) = xp c := Fin.ext (k0_dev96_eq c)
theorem dev97_eq (c : Dev nD) : (⟨k0_dev97 c, k0_dev97_lt c⟩ : Dev nD) = xp c := Fin.ext (k0_dev97_eq c)
theorem dev98_eq (c : Dev nD) : (⟨k0_dev98 c, k0_dev98_lt c⟩ : Dev nD) = xp c := Fin.ext (k0_dev98_eq c)
theorem dev99_eq (c : Dev nD) : (⟨k0_dev99 c, k0_dev99_lt c⟩ : Dev nD) = xp c := Fin.ext (k0_dev99_eq c)
theorem dev100_eq (c : Dev nD) : (⟨k0_dev100 c, k0_dev100_lt c⟩ : Dev nD) = xp c := Fin.ext (k0_dev100_eq c)
theorem dev101_eq (c : Dev nD) : (⟨k0_dev101 c, k0_dev101_lt c⟩ : Dev nD) = xp c := Fin.ext (k0_dev101_eq c)
theorem dev102_eq (c : Dev nD) : (⟨k0_dev102 c, k0_dev102_lt c⟩ : Dev nD) = xp c := Fin.ext (k0_dev102_eq c)
theorem dev103_eq (c : Dev nD) : (⟨k0_dev103 c, k0_dev103_lt c⟩ : Dev nD) = xp c := Fin.ext (k0_dev103_eq c)
theorem dev104_eq (c : Dev nD) : (⟨k0_dev104 c, k0_dev104_lt c⟩ : Dev nD) = xp c := Fin.ext (k0_dev104_eq c)
theorem dev105_eq (c : Dev nD) : (⟨k0_dev105 c, k0_dev105_lt c⟩ : Dev nD) = xp c := Fin.ext (k0_dev105_eq c)
theorem dev106_eq (c : Dev nD) : (⟨k0_dev106 c, k0_dev106_lt c⟩ : Dev nD) = xp c := Fin.ext (k0_dev106_eq c)
theorem dev107_eq (c : Dev nD) : (⟨k0_dev107 c, k0_dev107_lt c⟩ : Dev nD) = xp c := Fin.ext (k0_dev107_eq c)
theorem dev108_eq (c : Dev nD) : (⟨k0_dev108 c, k0_dev108_lt c⟩ : Dev nD) = xp c := Fin.ext (k0_dev108_eq c)
theorem dev109_eq (c : Dev nD) : (⟨k0_dev109 c, k0_dev109_lt c⟩ : Dev nD) = xp c := Fin.ext (k0_dev109_eq c)
theorem dev110_eq (c : Dev nD) : (⟨k0_dev110 c, k0_dev110_lt c⟩ : Dev nD) = xp c := Fin.ext (k0_dev110_eq c)
theorem dev111_eq (c : Dev nD) : (⟨k0_dev111 c, k0_dev111_lt c⟩ : Dev nD) = xp c := Fin.ext (k0_dev111_eq c)
theorem dev112_eq (c : Dev nD) : (⟨k0_dev112 c, k0_dev112_lt c⟩ : Dev nD) = xp c := Fin.ext (k0_dev112_eq c)
theorem dev113_eq (c : Dev nD) : (⟨k0_dev113 c, k0_dev113_lt c⟩ : Dev nD) = xp c := Fin.ext (k0_dev113_eq c)
theorem dev114_eq (c : Dev nD) : (⟨k0_dev114 c, k0_dev114_lt c⟩ : Dev nD) = xp c := Fin.ext (k0_dev114_eq c)
theorem dev115_eq (c : Dev nD) : (⟨k0_dev115 c, k0_dev115_lt c⟩ : Dev nD) = xp c := Fin.ext (k0_dev115_eq c)
theorem dev116_eq (c : Dev nD) : (⟨k0_dev116 c, k0_dev116_lt c⟩ : Dev nD) = xp c := Fin.ext (k0_dev116_eq c)
theorem dev117_eq (c : Dev nD) : (⟨k0_dev117 c, k0_dev117_lt c⟩ : Dev nD) = xp c := Fin.ext (k0_dev117_eq c)
theorem dev118_eq (c : Dev nD) : (⟨k0_dev118 c, k0_dev118_lt c⟩ : Dev nD) = xp c := Fin.ext (k0_dev118_eq c)
theorem dev119_eq (c : Dev nD) : (⟨k0_dev119 c, k0_dev119_lt c⟩ : Dev nD) = xp c := Fin.ext (k0_dev119_eq c)
theorem dev120_eq (c : Dev nD) : (⟨k0_dev120 c, k0_dev120_lt c⟩ : Dev nD) = xp c := Fin.ext (k0_dev120_eq c)
theorem dev121_eq (c : Dev nD) : (⟨k0_dev121 c, k0_dev121_lt c⟩ : Dev nD) = xp c := Fin.ext (k0_dev121_eq c)
theorem dev122_eq (c : Dev nD) : (⟨k0_dev122 c, k0_dev122_lt c⟩ : Dev nD) = xp c := Fin.ext (k0_dev122_eq c)
theorem dev123_eq (c : Dev nD) : (⟨k0_dev123 c, k0_dev123_lt c⟩ : Dev nD) = xp c := Fin.ext (k0_dev123_eq c)
theorem dev124_eq (c : Dev nD) : (⟨k0_dev124 c, k0_dev124_lt c⟩ : Dev nD) = xp c := Fin.ext (k0_dev124_eq c)
theorem dev125_eq (c : Dev nD) : (⟨k0_dev125 c, k0_dev125_lt c⟩ : Dev nD) = xp c := Fin.ext (k0_dev125_eq c)
theorem dev126_eq (c : Dev nD) : (⟨k0_dev126 c, k0_dev126_lt c⟩ : Dev nD) = xp c := Fin.ext (k0_dev126_eq c)
theorem dev127_eq (c : Dev nD) : (⟨k0_dev127 c, k0_dev127_lt c⟩ : Dev nD) = xp c := Fin.ext (k0_dev127_eq c)
theorem dev128_eq (c : Dev nD) : (⟨k0_dev128 c, k0_dev128_lt c⟩ : Dev nD) = xp c := Fin.ext (k0_dev128_eq c)
theorem dev129_eq (c : Dev nD) : (⟨k0_dev129 c, k0_dev129_lt c⟩ : Dev nD) = xp c := Fin.ext (k0_dev129_eq c)
theorem dev130_eq (c : Dev nD) : (⟨k0_dev130 c, k0_dev130_lt c⟩ : Dev nD) = xp c := Fin.ext (k0_dev130_eq c)

/-! The slice of the y-neighbour's result a y-transfer writes is the slice that neighbour forwards. -/
theorem yDst_canon_0 (c : Dev nD) (h) (h') : (Memref.whole main_v1 : Memref sig .tc .hbm S16384x1024 .f32).slice (Rect.unit (s := S16384x1024) (k0_off1 c 0#32) S64x1024.size h) h' = fSl (yp c) 0 := yDst_eq c 0
theorem yDst_canon_1 (c : Dev nD) (h) (h') : (Memref.whole main_v1 : Memref sig .tc .hbm S16384x1024 .f32).slice (Rect.unit (s := S16384x1024) (k0_off1 c 64#32) S64x1024.size h) h' = fSl (yp c) 1 := yDst_eq c 1
theorem yDst_canon_2 (c : Dev nD) (h) (h') : (Memref.whole main_v1 : Memref sig .tc .hbm S16384x1024 .f32).slice (Rect.unit (s := S16384x1024) (k0_off1 c 128#32) S64x1024.size h) h' = fSl (yp c) 2 := yDst_eq c 2
theorem yDst_canon_3 (c : Dev nD) (h) (h') : (Memref.whole main_v1 : Memref sig .tc .hbm S16384x1024 .f32).slice (Rect.unit (s := S16384x1024) (k0_off1 c 192#32) S64x1024.size h) h' = fSl (yp c) 3 := yDst_eq c 3
theorem yDst_canon_4 (c : Dev nD) (h) (h') : (Memref.whole main_v1 : Memref sig .tc .hbm S16384x1024 .f32).slice (Rect.unit (s := S16384x1024) (k0_off1 c 256#32) S64x1024.size h) h' = fSl (yp c) 4 := yDst_eq c 4
theorem yDst_canon_5 (c : Dev nD) (h) (h') : (Memref.whole main_v1 : Memref sig .tc .hbm S16384x1024 .f32).slice (Rect.unit (s := S16384x1024) (k0_off1 c 320#32) S64x1024.size h) h' = fSl (yp c) 5 := yDst_eq c 5
theorem yDst_canon_6 (c : Dev nD) (h) (h') : (Memref.whole main_v1 : Memref sig .tc .hbm S16384x1024 .f32).slice (Rect.unit (s := S16384x1024) (k0_off1 c 384#32) S64x1024.size h) h' = fSl (yp c) 6 := yDst_eq c 6
theorem yDst_canon_7 (c : Dev nD) (h) (h') : (Memref.whole main_v1 : Memref sig .tc .hbm S16384x1024 .f32).slice (Rect.unit (s := S16384x1024) (k0_off1 c 448#32) S64x1024.size h) h' = fSl (yp c) 7 := yDst_eq c 7
theorem yDst_canon_8 (c : Dev nD) (h) (h') : (Memref.whole main_v1 : Memref sig .tc .hbm S16384x1024 .f32).slice (Rect.unit (s := S16384x1024) (k0_off1 c 512#32) S64x1024.size h) h' = fSl (yp c) 8 := yDst_eq c 8
theorem yDst_canon_9 (c : Dev nD) (h) (h') : (Memref.whole main_v1 : Memref sig .tc .hbm S16384x1024 .f32).slice (Rect.unit (s := S16384x1024) (k0_off1 c 576#32) S64x1024.size h) h' = fSl (yp c) 9 := yDst_eq c 9
theorem yDst_canon_10 (c : Dev nD) (h) (h') : (Memref.whole main_v1 : Memref sig .tc .hbm S16384x1024 .f32).slice (Rect.unit (s := S16384x1024) (k0_off1 c 640#32) S64x1024.size h) h' = fSl (yp c) 10 := yDst_eq c 10
theorem yDst_canon_11 (c : Dev nD) (h) (h') : (Memref.whole main_v1 : Memref sig .tc .hbm S16384x1024 .f32).slice (Rect.unit (s := S16384x1024) (k0_off1 c 704#32) S64x1024.size h) h' = fSl (yp c) 11 := yDst_eq c 11
theorem yDst_canon_12 (c : Dev nD) (h) (h') : (Memref.whole main_v1 : Memref sig .tc .hbm S16384x1024 .f32).slice (Rect.unit (s := S16384x1024) (k0_off1 c 768#32) S64x1024.size h) h' = fSl (yp c) 12 := yDst_eq c 12
theorem yDst_canon_13 (c : Dev nD) (h) (h') : (Memref.whole main_v1 : Memref sig .tc .hbm S16384x1024 .f32).slice (Rect.unit (s := S16384x1024) (k0_off1 c 832#32) S64x1024.size h) h' = fSl (yp c) 13 := yDst_eq c 13
theorem yDst_canon_14 (c : Dev nD) (h) (h') : (Memref.whole main_v1 : Memref sig .tc .hbm S16384x1024 .f32).slice (Rect.unit (s := S16384x1024) (k0_off1 c 896#32) S64x1024.size h) h' = fSl (yp c) 14 := yDst_eq c 14
theorem yDst_canon_15 (c : Dev nD) (h) (h') : (Memref.whole main_v1 : Memref sig .tc .hbm S16384x1024 .f32).slice (Rect.unit (s := S16384x1024) (k0_off1 c 960#32) S64x1024.size h) h' = fSl (yp c) 15 := yDst_eq c 15
theorem yDst_canon_16 (c : Dev nD) (h) (h') : (Memref.whole main_v1 : Memref sig .tc .hbm S16384x1024 .f32).slice (Rect.unit (s := S16384x1024) (k0_off1 c 1024#32) S64x1024.size h) h' = fSl (yp c) 16 := yDst_eq c 16
theorem yDst_canon_17 (c : Dev nD) (h) (h') : (Memref.whole main_v1 : Memref sig .tc .hbm S16384x1024 .f32).slice (Rect.unit (s := S16384x1024) (k0_off1 c 1088#32) S64x1024.size h) h' = fSl (yp c) 17 := yDst_eq c 17
theorem yDst_canon_18 (c : Dev nD) (h) (h') : (Memref.whole main_v1 : Memref sig .tc .hbm S16384x1024 .f32).slice (Rect.unit (s := S16384x1024) (k0_off1 c 1152#32) S64x1024.size h) h' = fSl (yp c) 18 := yDst_eq c 18
theorem yDst_canon_19 (c : Dev nD) (h) (h') : (Memref.whole main_v1 : Memref sig .tc .hbm S16384x1024 .f32).slice (Rect.unit (s := S16384x1024) (k0_off1 c 1216#32) S64x1024.size h) h' = fSl (yp c) 19 := yDst_eq c 19
theorem yDst_canon_20 (c : Dev nD) (h) (h') : (Memref.whole main_v1 : Memref sig .tc .hbm S16384x1024 .f32).slice (Rect.unit (s := S16384x1024) (k0_off1 c 1280#32) S64x1024.size h) h' = fSl (yp c) 20 := yDst_eq c 20
theorem yDst_canon_21 (c : Dev nD) (h) (h') : (Memref.whole main_v1 : Memref sig .tc .hbm S16384x1024 .f32).slice (Rect.unit (s := S16384x1024) (k0_off1 c 1344#32) S64x1024.size h) h' = fSl (yp c) 21 := yDst_eq c 21
theorem yDst_canon_22 (c : Dev nD) (h) (h') : (Memref.whole main_v1 : Memref sig .tc .hbm S16384x1024 .f32).slice (Rect.unit (s := S16384x1024) (k0_off1 c 1408#32) S64x1024.size h) h' = fSl (yp c) 22 := yDst_eq c 22
theorem yDst_canon_23 (c : Dev nD) (h) (h') : (Memref.whole main_v1 : Memref sig .tc .hbm S16384x1024 .f32).slice (Rect.unit (s := S16384x1024) (k0_off1 c 1472#32) S64x1024.size h) h' = fSl (yp c) 23 := yDst_eq c 23
theorem yDst_canon_24 (c : Dev nD) (h) (h') : (Memref.whole main_v1 : Memref sig .tc .hbm S16384x1024 .f32).slice (Rect.unit (s := S16384x1024) (k0_off1 c 1536#32) S64x1024.size h) h' = fSl (yp c) 24 := yDst_eq c 24
theorem yDst_canon_25 (c : Dev nD) (h) (h') : (Memref.whole main_v1 : Memref sig .tc .hbm S16384x1024 .f32).slice (Rect.unit (s := S16384x1024) (k0_off1 c 1600#32) S64x1024.size h) h' = fSl (yp c) 25 := yDst_eq c 25
theorem yDst_canon_26 (c : Dev nD) (h) (h') : (Memref.whole main_v1 : Memref sig .tc .hbm S16384x1024 .f32).slice (Rect.unit (s := S16384x1024) (k0_off1 c 1664#32) S64x1024.size h) h' = fSl (yp c) 26 := yDst_eq c 26
theorem yDst_canon_27 (c : Dev nD) (h) (h') : (Memref.whole main_v1 : Memref sig .tc .hbm S16384x1024 .f32).slice (Rect.unit (s := S16384x1024) (k0_off1 c 1728#32) S64x1024.size h) h' = fSl (yp c) 27 := yDst_eq c 27
theorem yDst_canon_28 (c : Dev nD) (h) (h') : (Memref.whole main_v1 : Memref sig .tc .hbm S16384x1024 .f32).slice (Rect.unit (s := S16384x1024) (k0_off1 c 1792#32) S64x1024.size h) h' = fSl (yp c) 28 := yDst_eq c 28
theorem yDst_canon_29 (c : Dev nD) (h) (h') : (Memref.whole main_v1 : Memref sig .tc .hbm S16384x1024 .f32).slice (Rect.unit (s := S16384x1024) (k0_off1 c 1856#32) S64x1024.size h) h' = fSl (yp c) 29 := yDst_eq c 29
theorem yDst_canon_30 (c : Dev nD) (h) (h') : (Memref.whole main_v1 : Memref sig .tc .hbm S16384x1024 .f32).slice (Rect.unit (s := S16384x1024) (k0_off1 c 1920#32) S64x1024.size h) h' = fSl (yp c) 30 := yDst_eq c 30
theorem yDst_canon_31 (c : Dev nD) (h) (h') : (Memref.whole main_v1 : Memref sig .tc .hbm S16384x1024 .f32).slice (Rect.unit (s := S16384x1024) (k0_off1 c 1984#32) S64x1024.size h) h' = fSl (yp c) 31 := yDst_eq c 31
theorem yDst_canon_32 (c : Dev nD) (h) (h') : (Memref.whole main_v1 : Memref sig .tc .hbm S16384x1024 .f32).slice (Rect.unit (s := S16384x1024) (k0_off1 c 2048#32) S64x1024.size h) h' = fSl (yp c) 32 := yDst_eq c 32
theorem yDst_canon_33 (c : Dev nD) (h) (h') : (Memref.whole main_v1 : Memref sig .tc .hbm S16384x1024 .f32).slice (Rect.unit (s := S16384x1024) (k0_off1 c 2112#32) S64x1024.size h) h' = fSl (yp c) 33 := yDst_eq c 33
theorem yDst_canon_34 (c : Dev nD) (h) (h') : (Memref.whole main_v1 : Memref sig .tc .hbm S16384x1024 .f32).slice (Rect.unit (s := S16384x1024) (k0_off1 c 2176#32) S64x1024.size h) h' = fSl (yp c) 34 := yDst_eq c 34
theorem yDst_canon_35 (c : Dev nD) (h) (h') : (Memref.whole main_v1 : Memref sig .tc .hbm S16384x1024 .f32).slice (Rect.unit (s := S16384x1024) (k0_off1 c 2240#32) S64x1024.size h) h' = fSl (yp c) 35 := yDst_eq c 35
theorem yDst_canon_36 (c : Dev nD) (h) (h') : (Memref.whole main_v1 : Memref sig .tc .hbm S16384x1024 .f32).slice (Rect.unit (s := S16384x1024) (k0_off1 c 2304#32) S64x1024.size h) h' = fSl (yp c) 36 := yDst_eq c 36
theorem yDst_canon_37 (c : Dev nD) (h) (h') : (Memref.whole main_v1 : Memref sig .tc .hbm S16384x1024 .f32).slice (Rect.unit (s := S16384x1024) (k0_off1 c 2368#32) S64x1024.size h) h' = fSl (yp c) 37 := yDst_eq c 37
theorem yDst_canon_38 (c : Dev nD) (h) (h') : (Memref.whole main_v1 : Memref sig .tc .hbm S16384x1024 .f32).slice (Rect.unit (s := S16384x1024) (k0_off1 c 2432#32) S64x1024.size h) h' = fSl (yp c) 38 := yDst_eq c 38
theorem yDst_canon_39 (c : Dev nD) (h) (h') : (Memref.whole main_v1 : Memref sig .tc .hbm S16384x1024 .f32).slice (Rect.unit (s := S16384x1024) (k0_off1 c 2496#32) S64x1024.size h) h' = fSl (yp c) 39 := yDst_eq c 39
theorem yDst_canon_40 (c : Dev nD) (h) (h') : (Memref.whole main_v1 : Memref sig .tc .hbm S16384x1024 .f32).slice (Rect.unit (s := S16384x1024) (k0_off1 c 2560#32) S64x1024.size h) h' = fSl (yp c) 40 := yDst_eq c 40
theorem yDst_canon_41 (c : Dev nD) (h) (h') : (Memref.whole main_v1 : Memref sig .tc .hbm S16384x1024 .f32).slice (Rect.unit (s := S16384x1024) (k0_off1 c 2624#32) S64x1024.size h) h' = fSl (yp c) 41 := yDst_eq c 41
theorem yDst_canon_42 (c : Dev nD) (h) (h') : (Memref.whole main_v1 : Memref sig .tc .hbm S16384x1024 .f32).slice (Rect.unit (s := S16384x1024) (k0_off1 c 2688#32) S64x1024.size h) h' = fSl (yp c) 42 := yDst_eq c 42
theorem yDst_canon_43 (c : Dev nD) (h) (h') : (Memref.whole main_v1 : Memref sig .tc .hbm S16384x1024 .f32).slice (Rect.unit (s := S16384x1024) (k0_off1 c 2752#32) S64x1024.size h) h' = fSl (yp c) 43 := yDst_eq c 43
theorem yDst_canon_44 (c : Dev nD) (h) (h') : (Memref.whole main_v1 : Memref sig .tc .hbm S16384x1024 .f32).slice (Rect.unit (s := S16384x1024) (k0_off1 c 2816#32) S64x1024.size h) h' = fSl (yp c) 44 := yDst_eq c 44
theorem yDst_canon_45 (c : Dev nD) (h) (h') : (Memref.whole main_v1 : Memref sig .tc .hbm S16384x1024 .f32).slice (Rect.unit (s := S16384x1024) (k0_off1 c 2880#32) S64x1024.size h) h' = fSl (yp c) 45 := yDst_eq c 45
theorem yDst_canon_46 (c : Dev nD) (h) (h') : (Memref.whole main_v1 : Memref sig .tc .hbm S16384x1024 .f32).slice (Rect.unit (s := S16384x1024) (k0_off1 c 2944#32) S64x1024.size h) h' = fSl (yp c) 46 := yDst_eq c 46
theorem yDst_canon_47 (c : Dev nD) (h) (h') : (Memref.whole main_v1 : Memref sig .tc .hbm S16384x1024 .f32).slice (Rect.unit (s := S16384x1024) (k0_off1 c 3008#32) S64x1024.size h) h' = fSl (yp c) 47 := yDst_eq c 47
theorem yDst_canon_48 (c : Dev nD) (h) (h') : (Memref.whole main_v1 : Memref sig .tc .hbm S16384x1024 .f32).slice (Rect.unit (s := S16384x1024) (k0_off1 c 3072#32) S64x1024.size h) h' = fSl (yp c) 48 := yDst_eq c 48
theorem yDst_canon_49 (c : Dev nD) (h) (h') : (Memref.whole main_v1 : Memref sig .tc .hbm S16384x1024 .f32).slice (Rect.unit (s := S16384x1024) (k0_off1 c 3136#32) S64x1024.size h) h' = fSl (yp c) 49 := yDst_eq c 49
theorem yDst_canon_50 (c : Dev nD) (h) (h') : (Memref.whole main_v1 : Memref sig .tc .hbm S16384x1024 .f32).slice (Rect.unit (s := S16384x1024) (k0_off1 c 3200#32) S64x1024.size h) h' = fSl (yp c) 50 := yDst_eq c 50
theorem yDst_canon_51 (c : Dev nD) (h) (h') : (Memref.whole main_v1 : Memref sig .tc .hbm S16384x1024 .f32).slice (Rect.unit (s := S16384x1024) (k0_off1 c 3264#32) S64x1024.size h) h' = fSl (yp c) 51 := yDst_eq c 51
theorem yDst_canon_52 (c : Dev nD) (h) (h') : (Memref.whole main_v1 : Memref sig .tc .hbm S16384x1024 .f32).slice (Rect.unit (s := S16384x1024) (k0_off1 c 3328#32) S64x1024.size h) h' = fSl (yp c) 52 := yDst_eq c 52
theorem yDst_canon_53 (c : Dev nD) (h) (h') : (Memref.whole main_v1 : Memref sig .tc .hbm S16384x1024 .f32).slice (Rect.unit (s := S16384x1024) (k0_off1 c 3392#32) S64x1024.size h) h' = fSl (yp c) 53 := yDst_eq c 53
theorem yDst_canon_54 (c : Dev nD) (h) (h') : (Memref.whole main_v1 : Memref sig .tc .hbm S16384x1024 .f32).slice (Rect.unit (s := S16384x1024) (k0_off1 c 3456#32) S64x1024.size h) h' = fSl (yp c) 54 := yDst_eq c 54
theorem yDst_canon_55 (c : Dev nD) (h) (h') : (Memref.whole main_v1 : Memref sig .tc .hbm S16384x1024 .f32).slice (Rect.unit (s := S16384x1024) (k0_off1 c 3520#32) S64x1024.size h) h' = fSl (yp c) 55 := yDst_eq c 55
theorem yDst_canon_56 (c : Dev nD) (h) (h') : (Memref.whole main_v1 : Memref sig .tc .hbm S16384x1024 .f32).slice (Rect.unit (s := S16384x1024) (k0_off1 c 3584#32) S64x1024.size h) h' = fSl (yp c) 56 := yDst_eq c 56
theorem yDst_canon_57 (c : Dev nD) (h) (h') : (Memref.whole main_v1 : Memref sig .tc .hbm S16384x1024 .f32).slice (Rect.unit (s := S16384x1024) (k0_off1 c 3648#32) S64x1024.size h) h' = fSl (yp c) 57 := yDst_eq c 57
theorem yDst_canon_58 (c : Dev nD) (h) (h') : (Memref.whole main_v1 : Memref sig .tc .hbm S16384x1024 .f32).slice (Rect.unit (s := S16384x1024) (k0_off1 c 3712#32) S64x1024.size h) h' = fSl (yp c) 58 := yDst_eq c 58
theorem yDst_canon_59 (c : Dev nD) (h) (h') : (Memref.whole main_v1 : Memref sig .tc .hbm S16384x1024 .f32).slice (Rect.unit (s := S16384x1024) (k0_off1 c 3776#32) S64x1024.size h) h' = fSl (yp c) 59 := yDst_eq c 59
theorem yDst_canon_60 (c : Dev nD) (h) (h') : (Memref.whole main_v1 : Memref sig .tc .hbm S16384x1024 .f32).slice (Rect.unit (s := S16384x1024) (k0_off1 c 3840#32) S64x1024.size h) h' = fSl (yp c) 60 := yDst_eq c 60
theorem yDst_canon_61 (c : Dev nD) (h) (h') : (Memref.whole main_v1 : Memref sig .tc .hbm S16384x1024 .f32).slice (Rect.unit (s := S16384x1024) (k0_off1 c 3904#32) S64x1024.size h) h' = fSl (yp c) 61 := yDst_eq c 61
theorem yDst_canon_62 (c : Dev nD) (h) (h') : (Memref.whole main_v1 : Memref sig .tc .hbm S16384x1024 .f32).slice (Rect.unit (s := S16384x1024) (k0_off1 c 3968#32) S64x1024.size h) h' = fSl (yp c) 62 := yDst_eq c 62
theorem yDst_canon_63 (c : Dev nD) (h) (h') : (Memref.whole main_v1 : Memref sig .tc .hbm S16384x1024 .f32).slice (Rect.unit (s := S16384x1024) (k0_off1 c 4032#32) S64x1024.size h) h' = fSl (yp c) 63 := yDst_eq c 63

end Cert.KernelProof

end
-- ==== Proof.KBody.lean ====
import proofs.«900037_g7700000000000038_dist_a2a_v7x_xy2x2_y_m8192_n1024_f32_1_alg».proof.Proof.KTables3
import proofs.«900037_g7700000000000038_dist_a2a_v7x_xy2x2_y_m8192_n1024_f32_1_alg».proof.Proof.KCanon
import proofs.«900037_g7700000000000038_dist_a2a_v7x_xy2x2_y_m8192_n1024_f32_1_alg».proof.Proof.KPrep

noncomputable section

namespace Cert.KernelProof

open Cert.Kernel Cert.Kernel.Gen
open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-!
  The body of the two-hop exchange, on one device, from what the launch hands it to the result at its final contents.

  In program order: the two barrier signals hand the neighbours this device's slices of the result; the barrier wait brings
  theirs; 64 y-transfers send the slices of x; then, slice by slice, the wait for the y-neighbour's slice and its forwarding
  to the x-neighbour, with the device's own row block copied locally through the two scratch slots in between; at the end
  the waits that bring every slice back.  Each statement is one rule of the rounds discipline at the protocol's cells; what is
  still owed is the y- and forward-receive credits of the slices not yet sent, which lie above every cell waited on.
-/

instance invs_persistent (K : Dev nD × CIx → ℕ) : BI.Persistent (invs (F := F) m K) := by unfold invs; infer_instance
instance reachedAll_persistent : BI.Persistent (reachedAll (F := F)) := by unfold reachedAll; infer_instance
instance lsInvs_persistent (KL : Dev nD × Fin 4 → ℕ) : BI.Persistent (lsInvs (F := F) m KL) := by unfold lsInvs; infer_instance

set_option maxHeartbeats 400000000 in
set_option maxRecDepth 100000 in
theorem sound_body (K : Dev nD × CIx → ℕ) (KL : Dev nD × Fin 4 → ℕ) (c : Dev nD) (Kt : PUnit → sProp 𝕄) :
    iprop(bodyPre m K KL c ∗ (bodyPost m c -∗ Kt ⟨⟩))
      ⊢ wp frame (wpE (defs₀ (F := F)) 𝒱₀ c none) Set.univ
          (cc0_body (Memref.whole main_arg0) (Memref.isWhole_whole _) (Memref.whole main_v1) (Memref.isWhole_whole _)
            cc0_scratch0 cc0_scratch1 cc0_scratch2 cc0_scratch3 (Memref.whole cc0_scratch4) (Memref.isWhole_whole _) cc0_scratch5) Kt := by
  unfold bodyPre ghost
  rw [Prep.positions_eq, Prep.payToks_eq, Prep.creds_eq, Prep.lsState_eq, x_split_eq m c, out_split_eq c (o0 m c)]
  iintro ⟨⟨⟨#HI, #HR, ⟨Hat_b, FatYS, FatYR, FatFS, FatFR⟩, ⟨HtY, HtX, FtYS, FtYRP, FtFS, FtFRP⟩, #HIL, ⟨⟨Hat_l0, #HRl0, Htl0_0, Htl0_1, Htl0_2, Htl0_3, Htl0_4, Htl0_5, Htl0_6, Htl0_7⟩, ⟨Hat_l1, #HRl1, Htl1_0, Htl1_1, Htl1_2, Htl1_3, Htl1_4, Htl1_5, Htl1_6, Htl1_7⟩, ⟨Hat_l2, #HRl2, Htl2_0, Htl2_1, Htl2_2, Htl2_3, Htl2_4, Htl2_5, Htl2_6, Htl2_7⟩, ⟨Hat_l3, #HRl3, Htl3_0, Htl3_1, Htl3_2, Htl3_3, Htl3_4, Htl3_5, Htl3_6, Htl3_7⟩⟩⟩, ⟨HcB, FcYR, FcFR⟩, #Hlev, ⟨FxY, FxL, HxR⟩, ⟨FoL, HoY, HoF⟩, ⟨%fv, Hv⟩, Howes⟩, Hk⟩
  ihave Hv := (Entails.of_eq (v_split_eq c fv)) $$ Hv
  icases Hv with ⟨Hv0, Hv1⟩
  unfold Dat.owesAt Pipeline.owesWithin
  icases Howes with ⟨%W0, %hW0, HO⟩
  rw [show (dats m 0 c).owed t₀.castSucc = O₀ c from rfl, O₀_eq c]
  -- step 0: signal k0_dev1
  first | sl_exec | skip
  simp only [dev1_eq c]
  ihave #HIby := (Prep.inv_bar m K (yp c)) $$ HI
  ihave #HRby := (Prep.reached_bar (F := F) (yp c)) $$ HR
  iapply (Rounds.wp_signal 𝒱₀ ER (rd m) (c : Thread nD τ) none (dst := ((yp c : Dev nD) : Thread nD τ)) (κ := K (yp c, none)) (d := false)
      (by rw [duties_bar]; exact Finset.mem_univ _) ((amount_bar m (yp c) false).trans (by decide)) () (owedF c 0 + owedY c 0 + tallyAt (barCell (xp c)) () 1) rfl) $$ [HO HtY HoY]
  · isplitr; · iexact HIby
    isplitl [HO]; · iexact HO
    isplitl [HtY]; · iexact HtY
    isplitl [HoY]
    · rw [payload_bar_false_yp]
      isplitl [HoY]; · iexact HoY
      iapply (Prep.reached_yr_all (F := F) c); iexact HR
    iexact HRby
  iintro HO
  -- step 1: signal k0_dev2
  first | sl_exec | skip
  simp only [dev2_eq c]
  ihave #HIbx := (Prep.inv_bar m K (xp c)) $$ HI
  ihave #HRbx := (Prep.reached_bar (F := F) (xp c)) $$ HR
  iapply (Rounds.wp_signal 𝒱₀ ER (rd m) (c : Thread nD τ) none (dst := ((xp c : Dev nD) : Thread nD τ)) (κ := K (xp c, none)) (d := true)
      (by rw [duties_bar]; exact Finset.mem_univ _) ((amount_bar m (xp c) true).trans (by decide)) () (owedF c 0 + owedY c 0) rfl) $$ [HO HtX HoF]
  · isplitr; · iexact HIbx
    isplitl [HO]; · iexact HO
    isplitl [HtX]; · iexact HtX
    isplitl [HoF]
    · rw [payload_bar_true_xp]
      isplitl [HoF]; · iexact HoF
      iapply (Prep.reached_fr_all (F := F) c); iexact HR
    iexact HRbx
  iintro HO
  -- step 2: semwait 2
  first | sl_exec | skip
  ihave #HIbc := (Prep.inv_bar m K c) $$ HI
  iapply (Rounds.wp_wait_rest_token 𝒱₀ ER (rd m) (c : Thread nD τ) none (κ := K (c, none))
      (wpE_semWait_eq 𝒱₀ (c : Thread nD τ) none Set.univ) (Set.mem_univ _) () (O := owedF c 0 + owedY c 0) (W := W0) (R := 0) (m := 0) (T := ∅)
      (by rw [expect_bar]; decide)) $$ [HcB HO Hat_b]
  · isplitr; · iexact HIbc
    isplitl [HcB]; · iexact HcB
    isplitl [HO]; · iexact HO
    isplitr
    · iapply (mayWait_of_above c (.reg barS) _ (by rw [show lv ((c : Thread nD τ), SemLoc.reg barS) () = 1 from lv_bar c]; exact (above_owedF c 0 (by decide)).add (above_owedY c 0 (by decide))))
      iexact Hlev
    iexact Hat_b
  iintro ⟨HO, Hat_b, -, Hpay⟩
  ihave Hp := (Entails.of_eq (rest_bar m c)) $$ Hpay
  unfold barPayY barPayX
  icases Hp with ⟨⟨FdY, -⟩, ⟨FdF, -⟩⟩
  ihave HOe : iprop(∃ W' : Waits sig Unit, owes (c : Thread nD τ) _ W') $$ [HO]
  · iexists _; iexact HO
  icases HOe with ⟨%W1, HO⟩
  -- step 3: send k0_dev3 src=arg0[(k0_off2 d0 0#32)] dst=arg1[(k0_off1 d0 0#32)] ssem=arg2[0] rsem=arg3[0]
  first | sl_exec | skip
  ihave Hs := (Entails.of_eq (take_zero (famTYS (F := F) c) (by decide))) $$ [FtYS]
  · iexact FtYS
  icases Hs with ⟨Ht1, FtYS⟩
  ihave Hs := (Entails.of_eq (take_zero (famTYRP (F := F) c) (by decide))) $$ [FtYRP]
  · iexact FtYRP
  icases Hs with ⟨Ht2, FtYRP⟩
  ihave Hs := (Entails.of_eq (take_zero (famXY m c) (by decide))) $$ [FxY]
  · iexact FxY
  icases Hs with ⟨Hx, FxY⟩
  ihave Hs := (Entails.of_eq (take_zero (famDY m c) (by decide))) $$ [FdY]
  · iexact FdY
  icases Hs with ⟨Hd, FdY⟩
  ihave Hx := (Entails.of_eq (famXY_at m c 0 (by decide))) $$ [Hx]
  · iexact Hx
  ihave #HI1 := (Prep.inv_ys m K c 0) $$ HI
  ihave #HI2 := (Prep.inv_yr m K (yp c) 0) $$ HI
  ihave #HR1 := (Prep.reached_ys (F := F) c 0) $$ HR
  ihave #HR2 := (Prep.reached_yr (F := F) (yp c) 0) $$ HR
  iapply (wp_ysend m c _ (dev3_eq c) 0 _ (yDst_eq c 0) (K (c, some (0, 0))) (K (yp c, some (1, 0))) (owedF c 0 + owedY c 0) (owedF c 0 + owedY c 1)
      (by rw [owedY_succ' c 0 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_one (famCYS (F := F) c) (by decide)) $$ [Hc]
  · iexact Hc
  -- step 4: send k0_dev4 src=arg0[(k0_off2 d0 64#32)] dst=arg1[(k0_off1 d0 64#32)] ssem=arg2[1] rsem=arg3[1]
  first | sl_exec | skip
  ihave Hs := (Entails.of_eq (take_step (famTYS (F := F) c) 1 (by decide))) $$ [FtYS]
  · iexact FtYS
  icases Hs with ⟨Ht1, FtYS⟩
  ihave Hs := (Entails.of_eq (take_step (famTYRP (F := F) c) 1 (by decide))) $$ [FtYRP]
  · iexact FtYRP
  icases Hs with ⟨Ht2, FtYRP⟩
  ihave Hs := (Entails.of_eq (take_step (famXY m c) 1 (by decide))) $$ [FxY]
  · iexact FxY
  icases Hs with ⟨Hx, FxY⟩
  ihave Hs := (Entails.of_eq (take_step (famDY m c) 1 (by decide))) $$ [FdY]
  · iexact FdY
  icases Hs with ⟨Hd, FdY⟩
  ihave Hx := (Entails.of_eq (famXY_at m c 1 (by decide))) $$ [Hx]
  · iexact Hx
  ihave #HI1 := (Prep.inv_ys m K c 1) $$ HI
  ihave #HI2 := (Prep.inv_yr m K (yp c) 1) $$ HI
  ihave #HR1 := (Prep.reached_ys (F := F) c 1) $$ HR
  ihave #HR2 := (Prep.reached_yr (F := F) (yp c) 1) $$ HR
  iapply (wp_ysend m c _ (dev4_eq c) 1 _ (yDst_eq c 1) (K (c, some (0, 1))) (K (yp c, some (1, 1))) (owedF c 0 + owedY c 1) (owedF c 0 + owedY c 2)
      (by rw [owedY_succ' c 1 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 1 (by decide)) $$ [AccCYS Hc]
  · isplitl [AccCYS]; · iexact AccCYS
    iexact Hc
  -- step 5: send k0_dev5 src=arg0[(k0_off2 d0 128#32)] dst=arg1[(k0_off1 d0 128#32)] ssem=arg2[2] rsem=arg3[2]
  first | sl_exec | skip
  ihave Hs := (Entails.of_eq (take_step (famTYS (F := F) c) 2 (by decide))) $$ [FtYS]
  · iexact FtYS
  icases Hs with ⟨Ht1, FtYS⟩
  ihave Hs := (Entails.of_eq (take_step (famTYRP (F := F) c) 2 (by decide))) $$ [FtYRP]
  · iexact FtYRP
  icases Hs with ⟨Ht2, FtYRP⟩
  ihave Hs := (Entails.of_eq (take_step (famXY m c) 2 (by decide))) $$ [FxY]
  · iexact FxY
  icases Hs with ⟨Hx, FxY⟩
  ihave Hs := (Entails.of_eq (take_step (famDY m c) 2 (by decide))) $$ [FdY]
  · iexact FdY
  icases Hs with ⟨Hd, FdY⟩
  ihave Hx := (Entails.of_eq (famXY_at m c 2 (by decide))) $$ [Hx]
  · iexact Hx
  ihave #HI1 := (Prep.inv_ys m K c 2) $$ HI
  ihave #HI2 := (Prep.inv_yr m K (yp c) 2) $$ HI
  ihave #HR1 := (Prep.reached_ys (F := F) c 2) $$ HR
  ihave #HR2 := (Prep.reached_yr (F := F) (yp c) 2) $$ HR
  iapply (wp_ysend m c _ (dev5_eq c) 2 _ (yDst_eq c 2) (K (c, some (0, 2))) (K (yp c, some (1, 2))) (owedF c 0 + owedY c 2) (owedF c 0 + owedY c 3)
      (by rw [owedY_succ' c 2 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 2 (by decide)) $$ [AccCYS Hc]
  · isplitl [AccCYS]; · iexact AccCYS
    iexact Hc
  -- step 6: send k0_dev6 src=arg0[(k0_off2 d0 192#32)] dst=arg1[(k0_off1 d0 192#32)] ssem=arg2[3] rsem=arg3[3]
  first | sl_exec | skip
  ihave Hs := (Entails.of_eq (take_step (famTYS (F := F) c) 3 (by decide))) $$ [FtYS]
  · iexact FtYS
  icases Hs with ⟨Ht1, FtYS⟩
  ihave Hs := (Entails.of_eq (take_step (famTYRP (F := F) c) 3 (by decide))) $$ [FtYRP]
  · iexact FtYRP
  icases Hs with ⟨Ht2, FtYRP⟩
  ihave Hs := (Entails.of_eq (take_step (famXY m c) 3 (by decide))) $$ [FxY]
  · iexact FxY
  icases Hs with ⟨Hx, FxY⟩
  ihave Hs := (Entails.of_eq (take_step (famDY m c) 3 (by decide))) $$ [FdY]
  · iexact FdY
  icases Hs with ⟨Hd, FdY⟩
  ihave Hx := (Entails.of_eq (famXY_at m c 3 (by decide))) $$ [Hx]
  · iexact Hx
  ihave #HI1 := (Prep.inv_ys m K c 3) $$ HI
  ihave #HI2 := (Prep.inv_yr m K (yp c) 3) $$ HI
  ihave #HR1 := (Prep.reached_ys (F := F) c 3) $$ HR
  ihave #HR2 := (Prep.reached_yr (F := F) (yp c) 3) $$ HR
  iapply (wp_ysend m c _ (dev6_eq c) 3 _ (yDst_eq c 3) (K (c, some (0, 3))) (K (yp c, some (1, 3))) (owedF c 0 + owedY c 3) (owedF c 0 + owedY c 4)
      (by rw [owedY_succ' c 3 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 3 (by decide)) $$ [AccCYS Hc]
  · isplitl [AccCYS]; · iexact AccCYS
    iexact Hc
  -- step 7: send k0_dev7 src=arg0[(k0_off2 d0 256#32)] dst=arg1[(k0_off1 d0 256#32)] ssem=arg2[4] rsem=arg3[4]
  first | sl_exec | skip
  ihave Hs := (Entails.of_eq (take_step (famTYS (F := F) c) 4 (by decide))) $$ [FtYS]
  · iexact FtYS
  icases Hs with ⟨Ht1, FtYS⟩
  ihave Hs := (Entails.of_eq (take_step (famTYRP (F := F) c) 4 (by decide))) $$ [FtYRP]
  · iexact FtYRP
  icases Hs with ⟨Ht2, FtYRP⟩
  ihave Hs := (Entails.of_eq (take_step (famXY m c) 4 (by decide))) $$ [FxY]
  · iexact FxY
  icases Hs with ⟨Hx, FxY⟩
  ihave Hs := (Entails.of_eq (take_step (famDY m c) 4 (by decide))) $$ [FdY]
  · iexact FdY
  icases Hs with ⟨Hd, FdY⟩
  ihave Hx := (Entails.of_eq (famXY_at m c 4 (by decide))) $$ [Hx]
  · iexact Hx
  ihave #HI1 := (Prep.inv_ys m K c 4) $$ HI
  ihave #HI2 := (Prep.inv_yr m K (yp c) 4) $$ HI
  ihave #HR1 := (Prep.reached_ys (F := F) c 4) $$ HR
  ihave #HR2 := (Prep.reached_yr (F := F) (yp c) 4) $$ HR
  iapply (wp_ysend m c _ (dev7_eq c) 4 _ (yDst_eq c 4) (K (c, some (0, 4))) (K (yp c, some (1, 4))) (owedF c 0 + owedY c 4) (owedF c 0 + owedY c 5)
      (by rw [owedY_succ' c 4 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 4 (by decide)) $$ [AccCYS Hc]
  · isplitl [AccCYS]; · iexact AccCYS
    iexact Hc
  -- step 8: send k0_dev8 src=arg0[(k0_off2 d0 320#32)] dst=arg1[(k0_off1 d0 320#32)] ssem=arg2[5] rsem=arg3[5]
  first | sl_exec | skip
  ihave Hs := (Entails.of_eq (take_step (famTYS (F := F) c) 5 (by decide))) $$ [FtYS]
  · iexact FtYS
  icases Hs with ⟨Ht1, FtYS⟩
  ihave Hs := (Entails.of_eq (take_step (famTYRP (F := F) c) 5 (by decide))) $$ [FtYRP]
  · iexact FtYRP
  icases Hs with ⟨Ht2, FtYRP⟩
  ihave Hs := (Entails.of_eq (take_step (famXY m c) 5 (by decide))) $$ [FxY]
  · iexact FxY
  icases Hs with ⟨Hx, FxY⟩
  ihave Hs := (Entails.of_eq (take_step (famDY m c) 5 (by decide))) $$ [FdY]
  · iexact FdY
  icases Hs with ⟨Hd, FdY⟩
  ihave Hx := (Entails.of_eq (famXY_at m c 5 (by decide))) $$ [Hx]
  · iexact Hx
  ihave #HI1 := (Prep.inv_ys m K c 5) $$ HI
  ihave #HI2 := (Prep.inv_yr m K (yp c) 5) $$ HI
  ihave #HR1 := (Prep.reached_ys (F := F) c 5) $$ HR
  ihave #HR2 := (Prep.reached_yr (F := F) (yp c) 5) $$ HR
  iapply (wp_ysend m c _ (dev8_eq c) 5 _ (yDst_eq c 5) (K (c, some (0, 5))) (K (yp c, some (1, 5))) (owedF c 0 + owedY c 5) (owedF c 0 + owedY c 6)
      (by rw [owedY_succ' c 5 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 5 (by decide)) $$ [AccCYS Hc]
  · isplitl [AccCYS]; · iexact AccCYS
    iexact Hc
  -- step 9: send k0_dev9 src=arg0[(k0_off2 d0 384#32)] dst=arg1[(k0_off1 d0 384#32)] ssem=arg2[6] rsem=arg3[6]
  first | sl_exec | skip
  ihave Hs := (Entails.of_eq (take_step (famTYS (F := F) c) 6 (by decide))) $$ [FtYS]
  · iexact FtYS
  icases Hs with ⟨Ht1, FtYS⟩
  ihave Hs := (Entails.of_eq (take_step (famTYRP (F := F) c) 6 (by decide))) $$ [FtYRP]
  · iexact FtYRP
  icases Hs with ⟨Ht2, FtYRP⟩
  ihave Hs := (Entails.of_eq (take_step (famXY m c) 6 (by decide))) $$ [FxY]
  · iexact FxY
  icases Hs with ⟨Hx, FxY⟩
  ihave Hs := (Entails.of_eq (take_step (famDY m c) 6 (by decide))) $$ [FdY]
  · iexact FdY
  icases Hs with ⟨Hd, FdY⟩
  ihave Hx := (Entails.of_eq (famXY_at m c 6 (by decide))) $$ [Hx]
  · iexact Hx
  ihave #HI1 := (Prep.inv_ys m K c 6) $$ HI
  ihave #HI2 := (Prep.inv_yr m K (yp c) 6) $$ HI
  ihave #HR1 := (Prep.reached_ys (F := F) c 6) $$ HR
  ihave #HR2 := (Prep.reached_yr (F := F) (yp c) 6) $$ HR
  iapply (wp_ysend m c _ (dev9_eq c) 6 _ (yDst_eq c 6) (K (c, some (0, 6))) (K (yp c, some (1, 6))) (owedF c 0 + owedY c 6) (owedF c 0 + owedY c 7)
      (by rw [owedY_succ' c 6 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 6 (by decide)) $$ [AccCYS Hc]
  · isplitl [AccCYS]; · iexact AccCYS
    iexact Hc
  -- step 10: send k0_dev10 src=arg0[(k0_off2 d0 448#32)] dst=arg1[(k0_off1 d0 448#32)] ssem=arg2[7] rsem=arg3[7]
  first | sl_exec | skip
  ihave Hs := (Entails.of_eq (take_step (famTYS (F := F) c) 7 (by decide))) $$ [FtYS]
  · iexact FtYS
  icases Hs with ⟨Ht1, FtYS⟩
  ihave Hs := (Entails.of_eq (take_step (famTYRP (F := F) c) 7 (by decide))) $$ [FtYRP]
  · iexact FtYRP
  icases Hs with ⟨Ht2, FtYRP⟩
  ihave Hs := (Entails.of_eq (take_step (famXY m c) 7 (by decide))) $$ [FxY]
  · iexact FxY
  icases Hs with ⟨Hx, FxY⟩
  ihave Hs := (Entails.of_eq (take_step (famDY m c) 7 (by decide))) $$ [FdY]
  · iexact FdY
  icases Hs with ⟨Hd, FdY⟩
  ihave Hx := (Entails.of_eq (famXY_at m c 7 (by decide))) $$ [Hx]
  · iexact Hx
  ihave #HI1 := (Prep.inv_ys m K c 7) $$ HI
  ihave #HI2 := (Prep.inv_yr m K (yp c) 7) $$ HI
  ihave #HR1 := (Prep.reached_ys (F := F) c 7) $$ HR
  ihave #HR2 := (Prep.reached_yr (F := F) (yp c) 7) $$ HR
  iapply (wp_ysend m c _ (dev10_eq c) 7 _ (yDst_eq c 7) (K (c, some (0, 7))) (K (yp c, some (1, 7))) (owedF c 0 + owedY c 7) (owedF c 0 + owedY c 8)
      (by rw [owedY_succ' c 7 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 7 (by decide)) $$ [AccCYS Hc]
  · isplitl [AccCYS]; · iexact AccCYS
    iexact Hc
  -- step 11: send k0_dev11 src=arg0[(k0_off2 d0 512#32)] dst=arg1[(k0_off1 d0 512#32)] ssem=arg2[8] rsem=arg3[8]
  first | sl_exec | skip
  ihave Hs := (Entails.of_eq (take_step (famTYS (F := F) c) 8 (by decide))) $$ [FtYS]
  · iexact FtYS
  icases Hs with ⟨Ht1, FtYS⟩
  ihave Hs := (Entails.of_eq (take_step (famTYRP (F := F) c) 8 (by decide))) $$ [FtYRP]
  · iexact FtYRP
  icases Hs with ⟨Ht2, FtYRP⟩
  ihave Hs := (Entails.of_eq (take_step (famXY m c) 8 (by decide))) $$ [FxY]
  · iexact FxY
  icases Hs with ⟨Hx, FxY⟩
  ihave Hs := (Entails.of_eq (take_step (famDY m c) 8 (by decide))) $$ [FdY]
  · iexact FdY
  icases Hs with ⟨Hd, FdY⟩
  ihave Hx := (Entails.of_eq (famXY_at m c 8 (by decide))) $$ [Hx]
  · iexact Hx
  ihave #HI1 := (Prep.inv_ys m K c 8) $$ HI
  ihave #HI2 := (Prep.inv_yr m K (yp c) 8) $$ HI
  ihave #HR1 := (Prep.reached_ys (F := F) c 8) $$ HR
  ihave #HR2 := (Prep.reached_yr (F := F) (yp c) 8) $$ HR
  iapply (wp_ysend m c _ (dev11_eq c) 8 _ (yDst_eq c 8) (K (c, some (0, 8))) (K (yp c, some (1, 8))) (owedF c 0 + owedY c 8) (owedF c 0 + owedY c 9)
      (by rw [owedY_succ' c 8 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 8 (by decide)) $$ [AccCYS Hc]
  · isplitl [AccCYS]; · iexact AccCYS
    iexact Hc
  -- step 12: send k0_dev12 src=arg0[(k0_off2 d0 576#32)] dst=arg1[(k0_off1 d0 576#32)] ssem=arg2[9] rsem=arg3[9]
  first | sl_exec | skip
  ihave Hs := (Entails.of_eq (take_step (famTYS (F := F) c) 9 (by decide))) $$ [FtYS]
  · iexact FtYS
  icases Hs with ⟨Ht1, FtYS⟩
  ihave Hs := (Entails.of_eq (take_step (famTYRP (F := F) c) 9 (by decide))) $$ [FtYRP]
  · iexact FtYRP
  icases Hs with ⟨Ht2, FtYRP⟩
  ihave Hs := (Entails.of_eq (take_step (famXY m c) 9 (by decide))) $$ [FxY]
  · iexact FxY
  icases Hs with ⟨Hx, FxY⟩
  ihave Hs := (Entails.of_eq (take_step (famDY m c) 9 (by decide))) $$ [FdY]
  · iexact FdY
  icases Hs with ⟨Hd, FdY⟩
  ihave Hx := (Entails.of_eq (famXY_at m c 9 (by decide))) $$ [Hx]
  · iexact Hx
  ihave #HI1 := (Prep.inv_ys m K c 9) $$ HI
  ihave #HI2 := (Prep.inv_yr m K (yp c) 9) $$ HI
  ihave #HR1 := (Prep.reached_ys (F := F) c 9) $$ HR
  ihave #HR2 := (Prep.reached_yr (F := F) (yp c) 9) $$ HR
  iapply (wp_ysend m c _ (dev12_eq c) 9 _ (yDst_eq c 9) (K (c, some (0, 9))) (K (yp c, some (1, 9))) (owedF c 0 + owedY c 9) (owedF c 0 + owedY c 10)
      (by rw [owedY_succ' c 9 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 9 (by decide)) $$ [AccCYS Hc]
  · isplitl [AccCYS]; · iexact AccCYS
    iexact Hc
  -- step 13: send k0_dev13 src=arg0[(k0_off2 d0 640#32)] dst=arg1[(k0_off1 d0 640#32)] ssem=arg2[10] rsem=arg3[10]
  first | sl_exec | skip
  ihave Hs := (Entails.of_eq (take_step (famTYS (F := F) c) 10 (by decide))) $$ [FtYS]
  · iexact FtYS
  icases Hs with ⟨Ht1, FtYS⟩
  ihave Hs := (Entails.of_eq (take_step (famTYRP (F := F) c) 10 (by decide))) $$ [FtYRP]
  · iexact FtYRP
  icases Hs with ⟨Ht2, FtYRP⟩
  ihave Hs := (Entails.of_eq (take_step (famXY m c) 10 (by decide))) $$ [FxY]
  · iexact FxY
  icases Hs with ⟨Hx, FxY⟩
  ihave Hs := (Entails.of_eq (take_step (famDY m c) 10 (by decide))) $$ [FdY]
  · iexact FdY
  icases Hs with ⟨Hd, FdY⟩
  ihave Hx := (Entails.of_eq (famXY_at m c 10 (by decide))) $$ [Hx]
  · iexact Hx
  ihave #HI1 := (Prep.inv_ys m K c 10) $$ HI
  ihave #HI2 := (Prep.inv_yr m K (yp c) 10) $$ HI
  ihave #HR1 := (Prep.reached_ys (F := F) c 10) $$ HR
  ihave #HR2 := (Prep.reached_yr (F := F) (yp c) 10) $$ HR
  iapply (wp_ysend m c _ (dev13_eq c) 10 _ (yDst_eq c 10) (K (c, some (0, 10))) (K (yp c, some (1, 10))) (owedF c 0 + owedY c 10) (owedF c 0 + owedY c 11)
      (by rw [owedY_succ' c 10 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 10 (by decide)) $$ [AccCYS Hc]
  · isplitl [AccCYS]; · iexact AccCYS
    iexact Hc
  -- step 14: send k0_dev14 src=arg0[(k0_off2 d0 704#32)] dst=arg1[(k0_off1 d0 704#32)] ssem=arg2[11] rsem=arg3[11]
  first | sl_exec | skip
  ihave Hs := (Entails.of_eq (take_step (famTYS (F := F) c) 11 (by decide))) $$ [FtYS]
  · iexact FtYS
  icases Hs with ⟨Ht1, FtYS⟩
  ihave Hs := (Entails.of_eq (take_step (famTYRP (F := F) c) 11 (by decide))) $$ [FtYRP]
  · iexact FtYRP
  icases Hs with ⟨Ht2, FtYRP⟩
  ihave Hs := (Entails.of_eq (take_step (famXY m c) 11 (by decide))) $$ [FxY]
  · iexact FxY
  icases Hs with ⟨Hx, FxY⟩
  ihave Hs := (Entails.of_eq (take_step (famDY m c) 11 (by decide))) $$ [FdY]
  · iexact FdY
  icases Hs with ⟨Hd, FdY⟩
  ihave Hx := (Entails.of_eq (famXY_at m c 11 (by decide))) $$ [Hx]
  · iexact Hx
  ihave #HI1 := (Prep.inv_ys m K c 11) $$ HI
  ihave #HI2 := (Prep.inv_yr m K (yp c) 11) $$ HI
  ihave #HR1 := (Prep.reached_ys (F := F) c 11) $$ HR
  ihave #HR2 := (Prep.reached_yr (F := F) (yp c) 11) $$ HR
  iapply (wp_ysend m c _ (dev14_eq c) 11 _ (yDst_eq c 11) (K (c, some (0, 11))) (K (yp c, some (1, 11))) (owedF c 0 + owedY c 11) (owedF c 0 + owedY c 12)
      (by rw [owedY_succ' c 11 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 11 (by decide)) $$ [AccCYS Hc]
  · isplitl [AccCYS]; · iexact AccCYS
    iexact Hc
  -- step 15: send k0_dev15 src=arg0[(k0_off2 d0 768#32)] dst=arg1[(k0_off1 d0 768#32)] ssem=arg2[12] rsem=arg3[12]
  first | sl_exec | skip
  ihave Hs := (Entails.of_eq (take_step (famTYS (F := F) c) 12 (by decide))) $$ [FtYS]
  · iexact FtYS
  icases Hs with ⟨Ht1, FtYS⟩
  ihave Hs := (Entails.of_eq (take_step (famTYRP (F := F) c) 12 (by decide))) $$ [FtYRP]
  · iexact FtYRP
  icases Hs with ⟨Ht2, FtYRP⟩
  ihave Hs := (Entails.of_eq (take_step (famXY m c) 12 (by decide))) $$ [FxY]
  · iexact FxY
  icases Hs with ⟨Hx, FxY⟩
  ihave Hs := (Entails.of_eq (take_step (famDY m c) 12 (by decide))) $$ [FdY]
  · iexact FdY
  icases Hs with ⟨Hd, FdY⟩
  ihave Hx := (Entails.of_eq (famXY_at m c 12 (by decide))) $$ [Hx]
  · iexact Hx
  ihave #HI1 := (Prep.inv_ys m K c 12) $$ HI
  ihave #HI2 := (Prep.inv_yr m K (yp c) 12) $$ HI
  ihave #HR1 := (Prep.reached_ys (F := F) c 12) $$ HR
  ihave #HR2 := (Prep.reached_yr (F := F) (yp c) 12) $$ HR
  iapply (wp_ysend m c _ (dev15_eq c) 12 _ (yDst_eq c 12) (K (c, some (0, 12))) (K (yp c, some (1, 12))) (owedF c 0 + owedY c 12) (owedF c 0 + owedY c 13)
      (by rw [owedY_succ' c 12 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 12 (by decide)) $$ [AccCYS Hc]
  · isplitl [AccCYS]; · iexact AccCYS
    iexact Hc
  -- step 16: send k0_dev16 src=arg0[(k0_off2 d0 832#32)] dst=arg1[(k0_off1 d0 832#32)] ssem=arg2[13] rsem=arg3[13]
  first | sl_exec | skip
  ihave Hs := (Entails.of_eq (take_step (famTYS (F := F) c) 13 (by decide))) $$ [FtYS]
  · iexact FtYS
  icases Hs with ⟨Ht1, FtYS⟩
  ihave Hs := (Entails.of_eq (take_step (famTYRP (F := F) c) 13 (by decide))) $$ [FtYRP]
  · iexact FtYRP
  icases Hs with ⟨Ht2, FtYRP⟩
  ihave Hs := (Entails.of_eq (take_step (famXY m c) 13 (by decide))) $$ [FxY]
  · iexact FxY
  icases Hs with ⟨Hx, FxY⟩
  ihave Hs := (Entails.of_eq (take_step (famDY m c) 13 (by decide))) $$ [FdY]
  · iexact FdY
  icases Hs with ⟨Hd, FdY⟩
  ihave Hx := (Entails.of_eq (famXY_at m c 13 (by decide))) $$ [Hx]
  · iexact Hx
  ihave #HI1 := (Prep.inv_ys m K c 13) $$ HI
  ihave #HI2 := (Prep.inv_yr m K (yp c) 13) $$ HI
  ihave #HR1 := (Prep.reached_ys (F := F) c 13) $$ HR
  ihave #HR2 := (Prep.reached_yr (F := F) (yp c) 13) $$ HR
  iapply (wp_ysend m c _ (dev16_eq c) 13 _ (yDst_eq c 13) (K (c, some (0, 13))) (K (yp c, some (1, 13))) (owedF c 0 + owedY c 13) (owedF c 0 + owedY c 14)
      (by rw [owedY_succ' c 13 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 13 (by decide)) $$ [AccCYS Hc]
  · isplitl [AccCYS]; · iexact AccCYS
    iexact Hc
  -- step 17: send k0_dev17 src=arg0[(k0_off2 d0 896#32)] dst=arg1[(k0_off1 d0 896#32)] ssem=arg2[14] rsem=arg3[14]
  first | sl_exec | skip
  ihave Hs := (Entails.of_eq (take_step (famTYS (F := F) c) 14 (by decide))) $$ [FtYS]
  · iexact FtYS
  icases Hs with ⟨Ht1, FtYS⟩
  ihave Hs := (Entails.of_eq (take_step (famTYRP (F := F) c) 14 (by decide))) $$ [FtYRP]
  · iexact FtYRP
  icases Hs with ⟨Ht2, FtYRP⟩
  ihave Hs := (Entails.of_eq (take_step (famXY m c) 14 (by decide))) $$ [FxY]
  · iexact FxY
  icases Hs with ⟨Hx, FxY⟩
  ihave Hs := (Entails.of_eq (take_step (famDY m c) 14 (by decide))) $$ [FdY]
  · iexact FdY
  icases Hs with ⟨Hd, FdY⟩
  ihave Hx := (Entails.of_eq (famXY_at m c 14 (by decide))) $$ [Hx]
  · iexact Hx
  ihave #HI1 := (Prep.inv_ys m K c 14) $$ HI
  ihave #HI2 := (Prep.inv_yr m K (yp c) 14) $$ HI
  ihave #HR1 := (Prep.reached_ys (F := F) c 14) $$ HR
  ihave #HR2 := (Prep.reached_yr (F := F) (yp c) 14) $$ HR
  iapply (wp_ysend m c _ (dev17_eq c) 14 _ (yDst_eq c 14) (K (c, some (0, 14))) (K (yp c, some (1, 14))) (owedF c 0 + owedY c 14) (owedF c 0 + owedY c 15)
      (by rw [owedY_succ' c 14 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 14 (by decide)) $$ [AccCYS Hc]
  · isplitl [AccCYS]; · iexact AccCYS
    iexact Hc
  -- step 18: send k0_dev18 src=arg0[(k0_off2 d0 960#32)] dst=arg1[(k0_off1 d0 960#32)] ssem=arg2[15] rsem=arg3[15]
  first | sl_exec | skip
  ihave Hs := (Entails.of_eq (take_step (famTYS (F := F) c) 15 (by decide))) $$ [FtYS]
  · iexact FtYS
  icases Hs with ⟨Ht1, FtYS⟩
  ihave Hs := (Entails.of_eq (take_step (famTYRP (F := F) c) 15 (by decide))) $$ [FtYRP]
  · iexact FtYRP
  icases Hs with ⟨Ht2, FtYRP⟩
  ihave Hs := (Entails.of_eq (take_step (famXY m c) 15 (by decide))) $$ [FxY]
  · iexact FxY
  icases Hs with ⟨Hx, FxY⟩
  ihave Hs := (Entails.of_eq (take_step (famDY m c) 15 (by decide))) $$ [FdY]
  · iexact FdY
  icases Hs with ⟨Hd, FdY⟩
  ihave Hx := (Entails.of_eq (famXY_at m c 15 (by decide))) $$ [Hx]
  · iexact Hx
  ihave #HI1 := (Prep.inv_ys m K c 15) $$ HI
  ihave #HI2 := (Prep.inv_yr m K (yp c) 15) $$ HI
  ihave #HR1 := (Prep.reached_ys (F := F) c 15) $$ HR
  ihave #HR2 := (Prep.reached_yr (F := F) (yp c) 15) $$ HR
  iapply (wp_ysend m c _ (dev18_eq c) 15 _ (yDst_eq c 15) (K (c, some (0, 15))) (K (yp c, some (1, 15))) (owedF c 0 + owedY c 15) (owedF c 0 + owedY c 16)
      (by rw [owedY_succ' c 15 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 15 (by decide)) $$ [AccCYS Hc]
  · isplitl [AccCYS]; · iexact AccCYS
    iexact Hc
  -- step 19: send k0_dev19 src=arg0[(k0_off2 d0 1024#32)] dst=arg1[(k0_off1 d0 1024#32)] ssem=arg2[16] rsem=arg3[16]
  first | sl_exec | skip
  ihave Hs := (Entails.of_eq (take_step (famTYS (F := F) c) 16 (by decide))) $$ [FtYS]
  · iexact FtYS
  icases Hs with ⟨Ht1, FtYS⟩
  ihave Hs := (Entails.of_eq (take_step (famTYRP (F := F) c) 16 (by decide))) $$ [FtYRP]
  · iexact FtYRP
  icases Hs with ⟨Ht2, FtYRP⟩
  ihave Hs := (Entails.of_eq (take_step (famXY m c) 16 (by decide))) $$ [FxY]
  · iexact FxY
  icases Hs with ⟨Hx, FxY⟩
  ihave Hs := (Entails.of_eq (take_step (famDY m c) 16 (by decide))) $$ [FdY]
  · iexact FdY
  icases Hs with ⟨Hd, FdY⟩
  ihave Hx := (Entails.of_eq (famXY_at m c 16 (by decide))) $$ [Hx]
  · iexact Hx
  ihave #HI1 := (Prep.inv_ys m K c 16) $$ HI
  ihave #HI2 := (Prep.inv_yr m K (yp c) 16) $$ HI
  ihave #HR1 := (Prep.reached_ys (F := F) c 16) $$ HR
  ihave #HR2 := (Prep.reached_yr (F := F) (yp c) 16) $$ HR
  iapply (wp_ysend m c _ (dev19_eq c) 16 _ (yDst_eq c 16) (K (c, some (0, 16))) (K (yp c, some (1, 16))) (owedF c 0 + owedY c 16) (owedF c 0 + owedY c 17)
      (by rw [owedY_succ' c 16 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 16 (by decide)) $$ [AccCYS Hc]
  · isplitl [AccCYS]; · iexact AccCYS
    iexact Hc
  -- step 20: send k0_dev20 src=arg0[(k0_off2 d0 1088#32)] dst=arg1[(k0_off1 d0 1088#32)] ssem=arg2[17] rsem=arg3[17]
  first | sl_exec | skip
  ihave Hs := (Entails.of_eq (take_step (famTYS (F := F) c) 17 (by decide))) $$ [FtYS]
  · iexact FtYS
  icases Hs with ⟨Ht1, FtYS⟩
  ihave Hs := (Entails.of_eq (take_step (famTYRP (F := F) c) 17 (by decide))) $$ [FtYRP]
  · iexact FtYRP
  icases Hs with ⟨Ht2, FtYRP⟩
  ihave Hs := (Entails.of_eq (take_step (famXY m c) 17 (by decide))) $$ [FxY]
  · iexact FxY
  icases Hs with ⟨Hx, FxY⟩
  ihave Hs := (Entails.of_eq (take_step (famDY m c) 17 (by decide))) $$ [FdY]
  · iexact FdY
  icases Hs with ⟨Hd, FdY⟩
  ihave Hx := (Entails.of_eq (famXY_at m c 17 (by decide))) $$ [Hx]
  · iexact Hx
  ihave #HI1 := (Prep.inv_ys m K c 17) $$ HI
  ihave #HI2 := (Prep.inv_yr m K (yp c) 17) $$ HI
  ihave #HR1 := (Prep.reached_ys (F := F) c 17) $$ HR
  ihave #HR2 := (Prep.reached_yr (F := F) (yp c) 17) $$ HR
  iapply (wp_ysend m c _ (dev20_eq c) 17 _ (yDst_eq c 17) (K (c, some (0, 17))) (K (yp c, some (1, 17))) (owedF c 0 + owedY c 17) (owedF c 0 + owedY c 18)
      (by rw [owedY_succ' c 17 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 17 (by decide)) $$ [AccCYS Hc]
  · isplitl [AccCYS]; · iexact AccCYS
    iexact Hc
  -- step 21: send k0_dev21 src=arg0[(k0_off2 d0 1152#32)] dst=arg1[(k0_off1 d0 1152#32)] ssem=arg2[18] rsem=arg3[18]
  first | sl_exec | skip
  ihave Hs := (Entails.of_eq (take_step (famTYS (F := F) c) 18 (by decide))) $$ [FtYS]
  · iexact FtYS
  icases Hs with ⟨Ht1, FtYS⟩
  ihave Hs := (Entails.of_eq (take_step (famTYRP (F := F) c) 18 (by decide))) $$ [FtYRP]
  · iexact FtYRP
  icases Hs with ⟨Ht2, FtYRP⟩
  ihave Hs := (Entails.of_eq (take_step (famXY m c) 18 (by decide))) $$ [FxY]
  · iexact FxY
  icases Hs with ⟨Hx, FxY⟩
  ihave Hs := (Entails.of_eq (take_step (famDY m c) 18 (by decide))) $$ [FdY]
  · iexact FdY
  icases Hs with ⟨Hd, FdY⟩
  ihave Hx := (Entails.of_eq (famXY_at m c 18 (by decide))) $$ [Hx]
  · iexact Hx
  ihave #HI1 := (Prep.inv_ys m K c 18) $$ HI
  ihave #HI2 := (Prep.inv_yr m K (yp c) 18) $$ HI
  ihave #HR1 := (Prep.reached_ys (F := F) c 18) $$ HR
  ihave #HR2 := (Prep.reached_yr (F := F) (yp c) 18) $$ HR
  iapply (wp_ysend m c _ (dev21_eq c) 18 _ (yDst_eq c 18) (K (c, some (0, 18))) (K (yp c, some (1, 18))) (owedF c 0 + owedY c 18) (owedF c 0 + owedY c 19)
      (by rw [owedY_succ' c 18 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 18 (by decide)) $$ [AccCYS Hc]
  · isplitl [AccCYS]; · iexact AccCYS
    iexact Hc
  -- step 22: send k0_dev22 src=arg0[(k0_off2 d0 1216#32)] dst=arg1[(k0_off1 d0 1216#32)] ssem=arg2[19] rsem=arg3[19]
  first | sl_exec | skip
  ihave Hs := (Entails.of_eq (take_step (famTYS (F := F) c) 19 (by decide))) $$ [FtYS]
  · iexact FtYS
  icases Hs with ⟨Ht1, FtYS⟩
  ihave Hs := (Entails.of_eq (take_step (famTYRP (F := F) c) 19 (by decide))) $$ [FtYRP]
  · iexact FtYRP
  icases Hs with ⟨Ht2, FtYRP⟩
  ihave Hs := (Entails.of_eq (take_step (famXY m c) 19 (by decide))) $$ [FxY]
  · iexact FxY
  icases Hs with ⟨Hx, FxY⟩
  ihave Hs := (Entails.of_eq (take_step (famDY m c) 19 (by decide))) $$ [FdY]
  · iexact FdY
  icases Hs with ⟨Hd, FdY⟩
  ihave Hx := (Entails.of_eq (famXY_at m c 19 (by decide))) $$ [Hx]
  · iexact Hx
  ihave #HI1 := (Prep.inv_ys m K c 19) $$ HI
  ihave #HI2 := (Prep.inv_yr m K (yp c) 19) $$ HI
  ihave #HR1 := (Prep.reached_ys (F := F) c 19) $$ HR
  ihave #HR2 := (Prep.reached_yr (F := F) (yp c) 19) $$ HR
  iapply (wp_ysend m c _ (dev22_eq c) 19 _ (yDst_eq c 19) (K (c, some (0, 19))) (K (yp c, some (1, 19))) (owedF c 0 + owedY c 19) (owedF c 0 + owedY c 20)
      (by rw [owedY_succ' c 19 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 19 (by decide)) $$ [AccCYS Hc]
  · isplitl [AccCYS]; · iexact AccCYS
    iexact Hc
  -- step 23: send k0_dev23 src=arg0[(k0_off2 d0 1280#32)] dst=arg1[(k0_off1 d0 1280#32)] ssem=arg2[20] rsem=arg3[20]
  first | sl_exec | skip
  ihave Hs := (Entails.of_eq (take_step (famTYS (F := F) c) 20 (by decide))) $$ [FtYS]
  · iexact FtYS
  icases Hs with ⟨Ht1, FtYS⟩
  ihave Hs := (Entails.of_eq (take_step (famTYRP (F := F) c) 20 (by decide))) $$ [FtYRP]
  · iexact FtYRP
  icases Hs with ⟨Ht2, FtYRP⟩
  ihave Hs := (Entails.of_eq (take_step (famXY m c) 20 (by decide))) $$ [FxY]
  · iexact FxY
  icases Hs with ⟨Hx, FxY⟩
  ihave Hs := (Entails.of_eq (take_step (famDY m c) 20 (by decide))) $$ [FdY]
  · iexact FdY
  icases Hs with ⟨Hd, FdY⟩
  ihave Hx := (Entails.of_eq (famXY_at m c 20 (by decide))) $$ [Hx]
  · iexact Hx
  ihave #HI1 := (Prep.inv_ys m K c 20) $$ HI
  ihave #HI2 := (Prep.inv_yr m K (yp c) 20) $$ HI
  ihave #HR1 := (Prep.reached_ys (F := F) c 20) $$ HR
  ihave #HR2 := (Prep.reached_yr (F := F) (yp c) 20) $$ HR
  iapply (wp_ysend m c _ (dev23_eq c) 20 _ (yDst_eq c 20) (K (c, some (0, 20))) (K (yp c, some (1, 20))) (owedF c 0 + owedY c 20) (owedF c 0 + owedY c 21)
      (by rw [owedY_succ' c 20 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 20 (by decide)) $$ [AccCYS Hc]
  · isplitl [AccCYS]; · iexact AccCYS
    iexact Hc
  -- step 24: send k0_dev24 src=arg0[(k0_off2 d0 1344#32)] dst=arg1[(k0_off1 d0 1344#32)] ssem=arg2[21] rsem=arg3[21]
  first | sl_exec | skip
  ihave Hs := (Entails.of_eq (take_step (famTYS (F := F) c) 21 (by decide))) $$ [FtYS]
  · iexact FtYS
  icases Hs with ⟨Ht1, FtYS⟩
  ihave Hs := (Entails.of_eq (take_step (famTYRP (F := F) c) 21 (by decide))) $$ [FtYRP]
  · iexact FtYRP
  icases Hs with ⟨Ht2, FtYRP⟩
  ihave Hs := (Entails.of_eq (take_step (famXY m c) 21 (by decide))) $$ [FxY]
  · iexact FxY
  icases Hs with ⟨Hx, FxY⟩
  ihave Hs := (Entails.of_eq (take_step (famDY m c) 21 (by decide))) $$ [FdY]
  · iexact FdY
  icases Hs with ⟨Hd, FdY⟩
  ihave Hx := (Entails.of_eq (famXY_at m c 21 (by decide))) $$ [Hx]
  · iexact Hx
  ihave #HI1 := (Prep.inv_ys m K c 21) $$ HI
  ihave #HI2 := (Prep.inv_yr m K (yp c) 21) $$ HI
  ihave #HR1 := (Prep.reached_ys (F := F) c 21) $$ HR
  ihave #HR2 := (Prep.reached_yr (F := F) (yp c) 21) $$ HR
  iapply (wp_ysend m c _ (dev24_eq c) 21 _ (yDst_eq c 21) (K (c, some (0, 21))) (K (yp c, some (1, 21))) (owedF c 0 + owedY c 21) (owedF c 0 + owedY c 22)
      (by rw [owedY_succ' c 21 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 21 (by decide)) $$ [AccCYS Hc]
  · isplitl [AccCYS]; · iexact AccCYS
    iexact Hc
  -- step 25: send k0_dev25 src=arg0[(k0_off2 d0 1408#32)] dst=arg1[(k0_off1 d0 1408#32)] ssem=arg2[22] rsem=arg3[22]
  first | sl_exec | skip
  ihave Hs := (Entails.of_eq (take_step (famTYS (F := F) c) 22 (by decide))) $$ [FtYS]
  · iexact FtYS
  icases Hs with ⟨Ht1, FtYS⟩
  ihave Hs := (Entails.of_eq (take_step (famTYRP (F := F) c) 22 (by decide))) $$ [FtYRP]
  · iexact FtYRP
  icases Hs with ⟨Ht2, FtYRP⟩
  ihave Hs := (Entails.of_eq (take_step (famXY m c) 22 (by decide))) $$ [FxY]
  · iexact FxY
  icases Hs with ⟨Hx, FxY⟩
  ihave Hs := (Entails.of_eq (take_step (famDY m c) 22 (by decide))) $$ [FdY]
  · iexact FdY
  icases Hs with ⟨Hd, FdY⟩
  ihave Hx := (Entails.of_eq (famXY_at m c 22 (by decide))) $$ [Hx]
  · iexact Hx
  ihave #HI1 := (Prep.inv_ys m K c 22) $$ HI
  ihave #HI2 := (Prep.inv_yr m K (yp c) 22) $$ HI
  ihave #HR1 := (Prep.reached_ys (F := F) c 22) $$ HR
  ihave #HR2 := (Prep.reached_yr (F := F) (yp c) 22) $$ HR
  iapply (wp_ysend m c _ (dev25_eq c) 22 _ (yDst_eq c 22) (K (c, some (0, 22))) (K (yp c, some (1, 22))) (owedF c 0 + owedY c 22) (owedF c 0 + owedY c 23)
      (by rw [owedY_succ' c 22 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 22 (by decide)) $$ [AccCYS Hc]
  · isplitl [AccCYS]; · iexact AccCYS
    iexact Hc
  -- step 26: send k0_dev26 src=arg0[(k0_off2 d0 1472#32)] dst=arg1[(k0_off1 d0 1472#32)] ssem=arg2[23] rsem=arg3[23]
  first | sl_exec | skip
  ihave Hs := (Entails.of_eq (take_step (famTYS (F := F) c) 23 (by decide))) $$ [FtYS]
  · iexact FtYS
  icases Hs with ⟨Ht1, FtYS⟩
  ihave Hs := (Entails.of_eq (take_step (famTYRP (F := F) c) 23 (by decide))) $$ [FtYRP]
  · iexact FtYRP
  icases Hs with ⟨Ht2, FtYRP⟩
  ihave Hs := (Entails.of_eq (take_step (famXY m c) 23 (by decide))) $$ [FxY]
  · iexact FxY
  icases Hs with ⟨Hx, FxY⟩
  ihave Hs := (Entails.of_eq (take_step (famDY m c) 23 (by decide))) $$ [FdY]
  · iexact FdY
  icases Hs with ⟨Hd, FdY⟩
  ihave Hx := (Entails.of_eq (famXY_at m c 23 (by decide))) $$ [Hx]
  · iexact Hx
  ihave #HI1 := (Prep.inv_ys m K c 23) $$ HI
  ihave #HI2 := (Prep.inv_yr m K (yp c) 23) $$ HI
  ihave #HR1 := (Prep.reached_ys (F := F) c 23) $$ HR
  ihave #HR2 := (Prep.reached_yr (F := F) (yp c) 23) $$ HR
  iapply (wp_ysend m c _ (dev26_eq c) 23 _ (yDst_eq c 23) (K (c, some (0, 23))) (K (yp c, some (1, 23))) (owedF c 0 + owedY c 23) (owedF c 0 + owedY c 24)
      (by rw [owedY_succ' c 23 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 23 (by decide)) $$ [AccCYS Hc]
  · isplitl [AccCYS]; · iexact AccCYS
    iexact Hc
  -- step 27: send k0_dev27 src=arg0[(k0_off2 d0 1536#32)] dst=arg1[(k0_off1 d0 1536#32)] ssem=arg2[24] rsem=arg3[24]
  first | sl_exec | skip
  ihave Hs := (Entails.of_eq (take_step (famTYS (F := F) c) 24 (by decide))) $$ [FtYS]
  · iexact FtYS
  icases Hs with ⟨Ht1, FtYS⟩
  ihave Hs := (Entails.of_eq (take_step (famTYRP (F := F) c) 24 (by decide))) $$ [FtYRP]
  · iexact FtYRP
  icases Hs with ⟨Ht2, FtYRP⟩
  ihave Hs := (Entails.of_eq (take_step (famXY m c) 24 (by decide))) $$ [FxY]
  · iexact FxY
  icases Hs with ⟨Hx, FxY⟩
  ihave Hs := (Entails.of_eq (take_step (famDY m c) 24 (by decide))) $$ [FdY]
  · iexact FdY
  icases Hs with ⟨Hd, FdY⟩
  ihave Hx := (Entails.of_eq (famXY_at m c 24 (by decide))) $$ [Hx]
  · iexact Hx
  ihave #HI1 := (Prep.inv_ys m K c 24) $$ HI
  ihave #HI2 := (Prep.inv_yr m K (yp c) 24) $$ HI
  ihave #HR1 := (Prep.reached_ys (F := F) c 24) $$ HR
  ihave #HR2 := (Prep.reached_yr (F := F) (yp c) 24) $$ HR
  iapply (wp_ysend m c _ (dev27_eq c) 24 _ (yDst_eq c 24) (K (c, some (0, 24))) (K (yp c, some (1, 24))) (owedF c 0 + owedY c 24) (owedF c 0 + owedY c 25)
      (by rw [owedY_succ' c 24 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 24 (by decide)) $$ [AccCYS Hc]
  · isplitl [AccCYS]; · iexact AccCYS
    iexact Hc
  -- step 28: send k0_dev28 src=arg0[(k0_off2 d0 1600#32)] dst=arg1[(k0_off1 d0 1600#32)] ssem=arg2[25] rsem=arg3[25]
  first | sl_exec | skip
  ihave Hs := (Entails.of_eq (take_step (famTYS (F := F) c) 25 (by decide))) $$ [FtYS]
  · iexact FtYS
  icases Hs with ⟨Ht1, FtYS⟩
  ihave Hs := (Entails.of_eq (take_step (famTYRP (F := F) c) 25 (by decide))) $$ [FtYRP]
  · iexact FtYRP
  icases Hs with ⟨Ht2, FtYRP⟩
  ihave Hs := (Entails.of_eq (take_step (famXY m c) 25 (by decide))) $$ [FxY]
  · iexact FxY
  icases Hs with ⟨Hx, FxY⟩
  ihave Hs := (Entails.of_eq (take_step (famDY m c) 25 (by decide))) $$ [FdY]
  · iexact FdY
  icases Hs with ⟨Hd, FdY⟩
  ihave Hx := (Entails.of_eq (famXY_at m c 25 (by decide))) $$ [Hx]
  · iexact Hx
  ihave #HI1 := (Prep.inv_ys m K c 25) $$ HI
  ihave #HI2 := (Prep.inv_yr m K (yp c) 25) $$ HI
  ihave #HR1 := (Prep.reached_ys (F := F) c 25) $$ HR
  ihave #HR2 := (Prep.reached_yr (F := F) (yp c) 25) $$ HR
  iapply (wp_ysend m c _ (dev28_eq c) 25 _ (yDst_eq c 25) (K (c, some (0, 25))) (K (yp c, some (1, 25))) (owedF c 0 + owedY c 25) (owedF c 0 + owedY c 26)
      (by rw [owedY_succ' c 25 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 25 (by decide)) $$ [AccCYS Hc]
  · isplitl [AccCYS]; · iexact AccCYS
    iexact Hc
  -- step 29: send k0_dev29 src=arg0[(k0_off2 d0 1664#32)] dst=arg1[(k0_off1 d0 1664#32)] ssem=arg2[26] rsem=arg3[26]
  first | sl_exec | skip
  ihave Hs := (Entails.of_eq (take_step (famTYS (F := F) c) 26 (by decide))) $$ [FtYS]
  · iexact FtYS
  icases Hs with ⟨Ht1, FtYS⟩
  ihave Hs := (Entails.of_eq (take_step (famTYRP (F := F) c) 26 (by decide))) $$ [FtYRP]
  · iexact FtYRP
  icases Hs with ⟨Ht2, FtYRP⟩
  ihave Hs := (Entails.of_eq (take_step (famXY m c) 26 (by decide))) $$ [FxY]
  · iexact FxY
  icases Hs with ⟨Hx, FxY⟩
  ihave Hs := (Entails.of_eq (take_step (famDY m c) 26 (by decide))) $$ [FdY]
  · iexact FdY
  icases Hs with ⟨Hd, FdY⟩
  ihave Hx := (Entails.of_eq (famXY_at m c 26 (by decide))) $$ [Hx]
  · iexact Hx
  ihave #HI1 := (Prep.inv_ys m K c 26) $$ HI
  ihave #HI2 := (Prep.inv_yr m K (yp c) 26) $$ HI
  ihave #HR1 := (Prep.reached_ys (F := F) c 26) $$ HR
  ihave #HR2 := (Prep.reached_yr (F := F) (yp c) 26) $$ HR
  iapply (wp_ysend m c _ (dev29_eq c) 26 _ (yDst_eq c 26) (K (c, some (0, 26))) (K (yp c, some (1, 26))) (owedF c 0 + owedY c 26) (owedF c 0 + owedY c 27)
      (by rw [owedY_succ' c 26 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 26 (by decide)) $$ [AccCYS Hc]
  · isplitl [AccCYS]; · iexact AccCYS
    iexact Hc
  -- step 30: send k0_dev30 src=arg0[(k0_off2 d0 1728#32)] dst=arg1[(k0_off1 d0 1728#32)] ssem=arg2[27] rsem=arg3[27]
  first | sl_exec | skip
  ihave Hs := (Entails.of_eq (take_step (famTYS (F := F) c) 27 (by decide))) $$ [FtYS]
  · iexact FtYS
  icases Hs with ⟨Ht1, FtYS⟩
  ihave Hs := (Entails.of_eq (take_step (famTYRP (F := F) c) 27 (by decide))) $$ [FtYRP]
  · iexact FtYRP
  icases Hs with ⟨Ht2, FtYRP⟩
  ihave Hs := (Entails.of_eq (take_step (famXY m c) 27 (by decide))) $$ [FxY]
  · iexact FxY
  icases Hs with ⟨Hx, FxY⟩
  ihave Hs := (Entails.of_eq (take_step (famDY m c) 27 (by decide))) $$ [FdY]
  · iexact FdY
  icases Hs with ⟨Hd, FdY⟩
  ihave Hx := (Entails.of_eq (famXY_at m c 27 (by decide))) $$ [Hx]
  · iexact Hx
  ihave #HI1 := (Prep.inv_ys m K c 27) $$ HI
  ihave #HI2 := (Prep.inv_yr m K (yp c) 27) $$ HI
  ihave #HR1 := (Prep.reached_ys (F := F) c 27) $$ HR
  ihave #HR2 := (Prep.reached_yr (F := F) (yp c) 27) $$ HR
  iapply (wp_ysend m c _ (dev30_eq c) 27 _ (yDst_eq c 27) (K (c, some (0, 27))) (K (yp c, some (1, 27))) (owedF c 0 + owedY c 27) (owedF c 0 + owedY c 28)
      (by rw [owedY_succ' c 27 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 27 (by decide)) $$ [AccCYS Hc]
  · isplitl [AccCYS]; · iexact AccCYS
    iexact Hc
  -- step 31: send k0_dev31 src=arg0[(k0_off2 d0 1792#32)] dst=arg1[(k0_off1 d0 1792#32)] ssem=arg2[28] rsem=arg3[28]
  first | sl_exec | skip
  ihave Hs := (Entails.of_eq (take_step (famTYS (F := F) c) 28 (by decide))) $$ [FtYS]
  · iexact FtYS
  icases Hs with ⟨Ht1, FtYS⟩
  ihave Hs := (Entails.of_eq (take_step (famTYRP (F := F) c) 28 (by decide))) $$ [FtYRP]
  · iexact FtYRP
  icases Hs with ⟨Ht2, FtYRP⟩
  ihave Hs := (Entails.of_eq (take_step (famXY m c) 28 (by decide))) $$ [FxY]
  · iexact FxY
  icases Hs with ⟨Hx, FxY⟩
  ihave Hs := (Entails.of_eq (take_step (famDY m c) 28 (by decide))) $$ [FdY]
  · iexact FdY
  icases Hs with ⟨Hd, FdY⟩
  ihave Hx := (Entails.of_eq (famXY_at m c 28 (by decide))) $$ [Hx]
  · iexact Hx
  ihave #HI1 := (Prep.inv_ys m K c 28) $$ HI
  ihave #HI2 := (Prep.inv_yr m K (yp c) 28) $$ HI
  ihave #HR1 := (Prep.reached_ys (F := F) c 28) $$ HR
  ihave #HR2 := (Prep.reached_yr (F := F) (yp c) 28) $$ HR
  iapply (wp_ysend m c _ (dev31_eq c) 28 _ (yDst_eq c 28) (K (c, some (0, 28))) (K (yp c, some (1, 28))) (owedF c 0 + owedY c 28) (owedF c 0 + owedY c 29)
      (by rw [owedY_succ' c 28 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 28 (by decide)) $$ [AccCYS Hc]
  · isplitl [AccCYS]; · iexact AccCYS
    iexact Hc
  -- step 32: send k0_dev32 src=arg0[(k0_off2 d0 1856#32)] dst=arg1[(k0_off1 d0 1856#32)] ssem=arg2[29] rsem=arg3[29]
  first | sl_exec | skip
  ihave Hs := (Entails.of_eq (take_step (famTYS (F := F) c) 29 (by decide))) $$ [FtYS]
  · iexact FtYS
  icases Hs with ⟨Ht1, FtYS⟩
  ihave Hs := (Entails.of_eq (take_step (famTYRP (F := F) c) 29 (by decide))) $$ [FtYRP]
  · iexact FtYRP
  icases Hs with ⟨Ht2, FtYRP⟩
  ihave Hs := (Entails.of_eq (take_step (famXY m c) 29 (by decide))) $$ [FxY]
  · iexact FxY
  icases Hs with ⟨Hx, FxY⟩
  ihave Hs := (Entails.of_eq (take_step (famDY m c) 29 (by decide))) $$ [FdY]
  · iexact FdY
  icases Hs with ⟨Hd, FdY⟩
  ihave Hx := (Entails.of_eq (famXY_at m c 29 (by decide))) $$ [Hx]
  · iexact Hx
  ihave #HI1 := (Prep.inv_ys m K c 29) $$ HI
  ihave #HI2 := (Prep.inv_yr m K (yp c) 29) $$ HI
  ihave #HR1 := (Prep.reached_ys (F := F) c 29) $$ HR
  ihave #HR2 := (Prep.reached_yr (F := F) (yp c) 29) $$ HR
  iapply (wp_ysend m c _ (dev32_eq c) 29 _ (yDst_eq c 29) (K (c, some (0, 29))) (K (yp c, some (1, 29))) (owedF c 0 + owedY c 29) (owedF c 0 + owedY c 30)
      (by rw [owedY_succ' c 29 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 29 (by decide)) $$ [AccCYS Hc]
  · isplitl [AccCYS]; · iexact AccCYS
    iexact Hc
  -- step 33: send k0_dev33 src=arg0[(k0_off2 d0 1920#32)] dst=arg1[(k0_off1 d0 1920#32)] ssem=arg2[30] rsem=arg3[30]
  first | sl_exec | skip
  ihave Hs := (Entails.of_eq (take_step (famTYS (F := F) c) 30 (by decide))) $$ [FtYS]
  · iexact FtYS
  icases Hs with ⟨Ht1, FtYS⟩
  ihave Hs := (Entails.of_eq (take_step (famTYRP (F := F) c) 30 (by decide))) $$ [FtYRP]
  · iexact FtYRP
  icases Hs with ⟨Ht2, FtYRP⟩
  ihave Hs := (Entails.of_eq (take_step (famXY m c) 30 (by decide))) $$ [FxY]
  · iexact FxY
  icases Hs with ⟨Hx, FxY⟩
  ihave Hs := (Entails.of_eq (take_step (famDY m c) 30 (by decide))) $$ [FdY]
  · iexact FdY
  icases Hs with ⟨Hd, FdY⟩
  ihave Hx := (Entails.of_eq (famXY_at m c 30 (by decide))) $$ [Hx]
  · iexact Hx
  ihave #HI1 := (Prep.inv_ys m K c 30) $$ HI
  ihave #HI2 := (Prep.inv_yr m K (yp c) 30) $$ HI
  ihave #HR1 := (Prep.reached_ys (F := F) c 30) $$ HR
  ihave #HR2 := (Prep.reached_yr (F := F) (yp c) 30) $$ HR
  iapply (wp_ysend m c _ (dev33_eq c) 30 _ (yDst_eq c 30) (K (c, some (0, 30))) (K (yp c, some (1, 30))) (owedF c 0 + owedY c 30) (owedF c 0 + owedY c 31)
      (by rw [owedY_succ' c 30 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 30 (by decide)) $$ [AccCYS Hc]
  · isplitl [AccCYS]; · iexact AccCYS
    iexact Hc
  -- step 34: send k0_dev34 src=arg0[(k0_off2 d0 1984#32)] dst=arg1[(k0_off1 d0 1984#32)] ssem=arg2[31] rsem=arg3[31]
  first | sl_exec | skip
  ihave Hs := (Entails.of_eq (take_step (famTYS (F := F) c) 31 (by decide))) $$ [FtYS]
  · iexact FtYS
  icases Hs with ⟨Ht1, FtYS⟩
  ihave Hs := (Entails.of_eq (take_step (famTYRP (F := F) c) 31 (by decide))) $$ [FtYRP]
  · iexact FtYRP
  icases Hs with ⟨Ht2, FtYRP⟩
  ihave Hs := (Entails.of_eq (take_step (famXY m c) 31 (by decide))) $$ [FxY]
  · iexact FxY
  icases Hs with ⟨Hx, FxY⟩
  ihave Hs := (Entails.of_eq (take_step (famDY m c) 31 (by decide))) $$ [FdY]
  · iexact FdY
  icases Hs with ⟨Hd, FdY⟩
  ihave Hx := (Entails.of_eq (famXY_at m c 31 (by decide))) $$ [Hx]
  · iexact Hx
  ihave #HI1 := (Prep.inv_ys m K c 31) $$ HI
  ihave #HI2 := (Prep.inv_yr m K (yp c) 31) $$ HI
  ihave #HR1 := (Prep.reached_ys (F := F) c 31) $$ HR
  ihave #HR2 := (Prep.reached_yr (F := F) (yp c) 31) $$ HR
  iapply (wp_ysend m c _ (dev34_eq c) 31 _ (yDst_eq c 31) (K (c, some (0, 31))) (K (yp c, some (1, 31))) (owedF c 0 + owedY c 31) (owedF c 0 + owedY c 32)
      (by rw [owedY_succ' c 31 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 31 (by decide)) $$ [AccCYS Hc]
  · isplitl [AccCYS]; · iexact AccCYS
    iexact Hc
  -- step 35: send k0_dev35 src=arg0[(k0_off2 d0 2048#32)] dst=arg1[(k0_off1 d0 2048#32)] ssem=arg2[32] rsem=arg3[32]
  first | sl_exec | skip
  ihave Hs := (Entails.of_eq (take_step (famTYS (F := F) c) 32 (by decide))) $$ [FtYS]
  · iexact FtYS
  icases Hs with ⟨Ht1, FtYS⟩
  ihave Hs := (Entails.of_eq (take_step (famTYRP (F := F) c) 32 (by decide))) $$ [FtYRP]
  · iexact FtYRP
  icases Hs with ⟨Ht2, FtYRP⟩
  ihave Hs := (Entails.of_eq (take_step (famXY m c) 32 (by decide))) $$ [FxY]
  · iexact FxY
  icases Hs with ⟨Hx, FxY⟩
  ihave Hs := (Entails.of_eq (take_step (famDY m c) 32 (by decide))) $$ [FdY]
  · iexact FdY
  icases Hs with ⟨Hd, FdY⟩
  ihave Hx := (Entails.of_eq (famXY_at m c 32 (by decide))) $$ [Hx]
  · iexact Hx
  ihave #HI1 := (Prep.inv_ys m K c 32) $$ HI
  ihave #HI2 := (Prep.inv_yr m K (yp c) 32) $$ HI
  ihave #HR1 := (Prep.reached_ys (F := F) c 32) $$ HR
  ihave #HR2 := (Prep.reached_yr (F := F) (yp c) 32) $$ HR
  iapply (wp_ysend m c _ (dev35_eq c) 32 _ (yDst_eq c 32) (K (c, some (0, 32))) (K (yp c, some (1, 32))) (owedF c 0 + owedY c 32) (owedF c 0 + owedY c 33)
      (by rw [owedY_succ' c 32 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 32 (by decide)) $$ [AccCYS Hc]
  · isplitl [AccCYS]; · iexact AccCYS
    iexact Hc
  -- step 36: send k0_dev36 src=arg0[(k0_off2 d0 2112#32)] dst=arg1[(k0_off1 d0 2112#32)] ssem=arg2[33] rsem=arg3[33]
  first | sl_exec | skip
  ihave Hs := (Entails.of_eq (take_step (famTYS (F := F) c) 33 (by decide))) $$ [FtYS]
  · iexact FtYS
  icases Hs with ⟨Ht1, FtYS⟩
  ihave Hs := (Entails.of_eq (take_step (famTYRP (F := F) c) 33 (by decide))) $$ [FtYRP]
  · iexact FtYRP
  icases Hs with ⟨Ht2, FtYRP⟩
  ihave Hs := (Entails.of_eq (take_step (famXY m c) 33 (by decide))) $$ [FxY]
  · iexact FxY
  icases Hs with ⟨Hx, FxY⟩
  ihave Hs := (Entails.of_eq (take_step (famDY m c) 33 (by decide))) $$ [FdY]
  · iexact FdY
  icases Hs with ⟨Hd, FdY⟩
  ihave Hx := (Entails.of_eq (famXY_at m c 33 (by decide))) $$ [Hx]
  · iexact Hx
  ihave #HI1 := (Prep.inv_ys m K c 33) $$ HI
  ihave #HI2 := (Prep.inv_yr m K (yp c) 33) $$ HI
  ihave #HR1 := (Prep.reached_ys (F := F) c 33) $$ HR
  ihave #HR2 := (Prep.reached_yr (F := F) (yp c) 33) $$ HR
  iapply (wp_ysend m c _ (dev36_eq c) 33 _ (yDst_eq c 33) (K (c, some (0, 33))) (K (yp c, some (1, 33))) (owedF c 0 + owedY c 33) (owedF c 0 + owedY c 34)
      (by rw [owedY_succ' c 33 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 33 (by decide)) $$ [AccCYS Hc]
  · isplitl [AccCYS]; · iexact AccCYS
    iexact Hc
  -- step 37: send k0_dev37 src=arg0[(k0_off2 d0 2176#32)] dst=arg1[(k0_off1 d0 2176#32)] ssem=arg2[34] rsem=arg3[34]
  first | sl_exec | skip
  ihave Hs := (Entails.of_eq (take_step (famTYS (F := F) c) 34 (by decide))) $$ [FtYS]
  · iexact FtYS
  icases Hs with ⟨Ht1, FtYS⟩
  ihave Hs := (Entails.of_eq (take_step (famTYRP (F := F) c) 34 (by decide))) $$ [FtYRP]
  · iexact FtYRP
  icases Hs with ⟨Ht2, FtYRP⟩
  ihave Hs := (Entails.of_eq (take_step (famXY m c) 34 (by decide))) $$ [FxY]
  · iexact FxY
  icases Hs with ⟨Hx, FxY⟩
  ihave Hs := (Entails.of_eq (take_step (famDY m c) 34 (by decide))) $$ [FdY]
  · iexact FdY
  icases Hs with ⟨Hd, FdY⟩
  ihave Hx := (Entails.of_eq (famXY_at m c 34 (by decide))) $$ [Hx]
  · iexact Hx
  ihave #HI1 := (Prep.inv_ys m K c 34) $$ HI
  ihave #HI2 := (Prep.inv_yr m K (yp c) 34) $$ HI
  ihave #HR1 := (Prep.reached_ys (F := F) c 34) $$ HR
  ihave #HR2 := (Prep.reached_yr (F := F) (yp c) 34) $$ HR
  iapply (wp_ysend m c _ (dev37_eq c) 34 _ (yDst_eq c 34) (K (c, some (0, 34))) (K (yp c, some (1, 34))) (owedF c 0 + owedY c 34) (owedF c 0 + owedY c 35)
      (by rw [owedY_succ' c 34 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 34 (by decide)) $$ [AccCYS Hc]
  · isplitl [AccCYS]; · iexact AccCYS
    iexact Hc
  -- step 38: send k0_dev38 src=arg0[(k0_off2 d0 2240#32)] dst=arg1[(k0_off1 d0 2240#32)] ssem=arg2[35] rsem=arg3[35]
  first | sl_exec | skip
  ihave Hs := (Entails.of_eq (take_step (famTYS (F := F) c) 35 (by decide))) $$ [FtYS]
  · iexact FtYS
  icases Hs with ⟨Ht1, FtYS⟩
  ihave Hs := (Entails.of_eq (take_step (famTYRP (F := F) c) 35 (by decide))) $$ [FtYRP]
  · iexact FtYRP
  icases Hs with ⟨Ht2, FtYRP⟩
  ihave Hs := (Entails.of_eq (take_step (famXY m c) 35 (by decide))) $$ [FxY]
  · iexact FxY
  icases Hs with ⟨Hx, FxY⟩
  ihave Hs := (Entails.of_eq (take_step (famDY m c) 35 (by decide))) $$ [FdY]
  · iexact FdY
  icases Hs with ⟨Hd, FdY⟩
  ihave Hx := (Entails.of_eq (famXY_at m c 35 (by decide))) $$ [Hx]
  · iexact Hx
  ihave #HI1 := (Prep.inv_ys m K c 35) $$ HI
  ihave #HI2 := (Prep.inv_yr m K (yp c) 35) $$ HI
  ihave #HR1 := (Prep.reached_ys (F := F) c 35) $$ HR
  ihave #HR2 := (Prep.reached_yr (F := F) (yp c) 35) $$ HR
  iapply (wp_ysend m c _ (dev38_eq c) 35 _ (yDst_eq c 35) (K (c, some (0, 35))) (K (yp c, some (1, 35))) (owedF c 0 + owedY c 35) (owedF c 0 + owedY c 36)
      (by rw [owedY_succ' c 35 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 35 (by decide)) $$ [AccCYS Hc]
  · isplitl [AccCYS]; · iexact AccCYS
    iexact Hc
  -- step 39: send k0_dev39 src=arg0[(k0_off2 d0 2304#32)] dst=arg1[(k0_off1 d0 2304#32)] ssem=arg2[36] rsem=arg3[36]
  first | sl_exec | skip
  ihave Hs := (Entails.of_eq (take_step (famTYS (F := F) c) 36 (by decide))) $$ [FtYS]
  · iexact FtYS
  icases Hs with ⟨Ht1, FtYS⟩
  ihave Hs := (Entails.of_eq (take_step (famTYRP (F := F) c) 36 (by decide))) $$ [FtYRP]
  · iexact FtYRP
  icases Hs with ⟨Ht2, FtYRP⟩
  ihave Hs := (Entails.of_eq (take_step (famXY m c) 36 (by decide))) $$ [FxY]
  · iexact FxY
  icases Hs with ⟨Hx, FxY⟩
  ihave Hs := (Entails.of_eq (take_step (famDY m c) 36 (by decide))) $$ [FdY]
  · iexact FdY
  icases Hs with ⟨Hd, FdY⟩
  ihave Hx := (Entails.of_eq (famXY_at m c 36 (by decide))) $$ [Hx]
  · iexact Hx
  ihave #HI1 := (Prep.inv_ys m K c 36) $$ HI
  ihave #HI2 := (Prep.inv_yr m K (yp c) 36) $$ HI
  ihave #HR1 := (Prep.reached_ys (F := F) c 36) $$ HR
  ihave #HR2 := (Prep.reached_yr (F := F) (yp c) 36) $$ HR
  iapply (wp_ysend m c _ (dev39_eq c) 36 _ (yDst_eq c 36) (K (c, some (0, 36))) (K (yp c, some (1, 36))) (owedF c 0 + owedY c 36) (owedF c 0 + owedY c 37)
      (by rw [owedY_succ' c 36 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 36 (by decide)) $$ [AccCYS Hc]
  · isplitl [AccCYS]; · iexact AccCYS
    iexact Hc
  -- step 40: send k0_dev40 src=arg0[(k0_off2 d0 2368#32)] dst=arg1[(k0_off1 d0 2368#32)] ssem=arg2[37] rsem=arg3[37]
  first | sl_exec | skip
  ihave Hs := (Entails.of_eq (take_step (famTYS (F := F) c) 37 (by decide))) $$ [FtYS]
  · iexact FtYS
  icases Hs with ⟨Ht1, FtYS⟩
  ihave Hs := (Entails.of_eq (take_step (famTYRP (F := F) c) 37 (by decide))) $$ [FtYRP]
  · iexact FtYRP
  icases Hs with ⟨Ht2, FtYRP⟩
  ihave Hs := (Entails.of_eq (take_step (famXY m c) 37 (by decide))) $$ [FxY]
  · iexact FxY
  icases Hs with ⟨Hx, FxY⟩
  ihave Hs := (Entails.of_eq (take_step (famDY m c) 37 (by decide))) $$ [FdY]
  · iexact FdY
  icases Hs with ⟨Hd, FdY⟩
  ihave Hx := (Entails.of_eq (famXY_at m c 37 (by decide))) $$ [Hx]
  · iexact Hx
  ihave #HI1 := (Prep.inv_ys m K c 37) $$ HI
  ihave #HI2 := (Prep.inv_yr m K (yp c) 37) $$ HI
  ihave #HR1 := (Prep.reached_ys (F := F) c 37) $$ HR
  ihave #HR2 := (Prep.reached_yr (F := F) (yp c) 37) $$ HR
  iapply (wp_ysend m c _ (dev40_eq c) 37 _ (yDst_eq c 37) (K (c, some (0, 37))) (K (yp c, some (1, 37))) (owedF c 0 + owedY c 37) (owedF c 0 + owedY c 38)
      (by rw [owedY_succ' c 37 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 37 (by decide)) $$ [AccCYS Hc]
  · isplitl [AccCYS]; · iexact AccCYS
    iexact Hc
  -- step 41: send k0_dev41 src=arg0[(k0_off2 d0 2432#32)] dst=arg1[(k0_off1 d0 2432#32)] ssem=arg2[38] rsem=arg3[38]
  first | sl_exec | skip
  ihave Hs := (Entails.of_eq (take_step (famTYS (F := F) c) 38 (by decide))) $$ [FtYS]
  · iexact FtYS
  icases Hs with ⟨Ht1, FtYS⟩
  ihave Hs := (Entails.of_eq (take_step (famTYRP (F := F) c) 38 (by decide))) $$ [FtYRP]
  · iexact FtYRP
  icases Hs with ⟨Ht2, FtYRP⟩
  ihave Hs := (Entails.of_eq (take_step (famXY m c) 38 (by decide))) $$ [FxY]
  · iexact FxY
  icases Hs with ⟨Hx, FxY⟩
  ihave Hs := (Entails.of_eq (take_step (famDY m c) 38 (by decide))) $$ [FdY]
  · iexact FdY
  icases Hs with ⟨Hd, FdY⟩
  ihave Hx := (Entails.of_eq (famXY_at m c 38 (by decide))) $$ [Hx]
  · iexact Hx
  ihave #HI1 := (Prep.inv_ys m K c 38) $$ HI
  ihave #HI2 := (Prep.inv_yr m K (yp c) 38) $$ HI
  ihave #HR1 := (Prep.reached_ys (F := F) c 38) $$ HR
  ihave #HR2 := (Prep.reached_yr (F := F) (yp c) 38) $$ HR
  iapply (wp_ysend m c _ (dev41_eq c) 38 _ (yDst_eq c 38) (K (c, some (0, 38))) (K (yp c, some (1, 38))) (owedF c 0 + owedY c 38) (owedF c 0 + owedY c 39)
      (by rw [owedY_succ' c 38 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 38 (by decide)) $$ [AccCYS Hc]
  · isplitl [AccCYS]; · iexact AccCYS
    iexact Hc
  -- step 42: send k0_dev42 src=arg0[(k0_off2 d0 2496#32)] dst=arg1[(k0_off1 d0 2496#32)] ssem=arg2[39] rsem=arg3[39]
  first | sl_exec | skip
  ihave Hs := (Entails.of_eq (take_step (famTYS (F := F) c) 39 (by decide))) $$ [FtYS]
  · iexact FtYS
  icases Hs with ⟨Ht1, FtYS⟩
  ihave Hs := (Entails.of_eq (take_step (famTYRP (F := F) c) 39 (by decide))) $$ [FtYRP]
  · iexact FtYRP
  icases Hs with ⟨Ht2, FtYRP⟩
  ihave Hs := (Entails.of_eq (take_step (famXY m c) 39 (by decide))) $$ [FxY]
  · iexact FxY
  icases Hs with ⟨Hx, FxY⟩
  ihave Hs := (Entails.of_eq (take_step (famDY m c) 39 (by decide))) $$ [FdY]
  · iexact FdY
  icases Hs with ⟨Hd, FdY⟩
  ihave Hx := (Entails.of_eq (famXY_at m c 39 (by decide))) $$ [Hx]
  · iexact Hx
  ihave #HI1 := (Prep.inv_ys m K c 39) $$ HI
  ihave #HI2 := (Prep.inv_yr m K (yp c) 39) $$ HI
  ihave #HR1 := (Prep.reached_ys (F := F) c 39) $$ HR
  ihave #HR2 := (Prep.reached_yr (F := F) (yp c) 39) $$ HR
  iapply (wp_ysend m c _ (dev42_eq c) 39 _ (yDst_eq c 39) (K (c, some (0, 39))) (K (yp c, some (1, 39))) (owedF c 0 + owedY c 39) (owedF c 0 + owedY c 40)
      (by rw [owedY_succ' c 39 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 39 (by decide)) $$ [AccCYS Hc]
  · isplitl [AccCYS]; · iexact AccCYS
    iexact Hc
  -- step 43: send k0_dev43 src=arg0[(k0_off2 d0 2560#32)] dst=arg1[(k0_off1 d0 2560#32)] ssem=arg2[40] rsem=arg3[40]
  first | sl_exec | skip
  ihave Hs := (Entails.of_eq (take_step (famTYS (F := F) c) 40 (by decide))) $$ [FtYS]
  · iexact FtYS
  icases Hs with ⟨Ht1, FtYS⟩
  ihave Hs := (Entails.of_eq (take_step (famTYRP (F := F) c) 40 (by decide))) $$ [FtYRP]
  · iexact FtYRP
  icases Hs with ⟨Ht2, FtYRP⟩
  ihave Hs := (Entails.of_eq (take_step (famXY m c) 40 (by decide))) $$ [FxY]
  · iexact FxY
  icases Hs with ⟨Hx, FxY⟩
  ihave Hs := (Entails.of_eq (take_step (famDY m c) 40 (by decide))) $$ [FdY]
  · iexact FdY
  icases Hs with ⟨Hd, FdY⟩
  ihave Hx := (Entails.of_eq (famXY_at m c 40 (by decide))) $$ [Hx]
  · iexact Hx
  ihave #HI1 := (Prep.inv_ys m K c 40) $$ HI
  ihave #HI2 := (Prep.inv_yr m K (yp c) 40) $$ HI
  ihave #HR1 := (Prep.reached_ys (F := F) c 40) $$ HR
  ihave #HR2 := (Prep.reached_yr (F := F) (yp c) 40) $$ HR
  iapply (wp_ysend m c _ (dev43_eq c) 40 _ (yDst_eq c 40) (K (c, some (0, 40))) (K (yp c, some (1, 40))) (owedF c 0 + owedY c 40) (owedF c 0 + owedY c 41)
      (by rw [owedY_succ' c 40 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 40 (by decide)) $$ [AccCYS Hc]
  · isplitl [AccCYS]; · iexact AccCYS
    iexact Hc
  -- step 44: send k0_dev44 src=arg0[(k0_off2 d0 2624#32)] dst=arg1[(k0_off1 d0 2624#32)] ssem=arg2[41] rsem=arg3[41]
  first | sl_exec | skip
  ihave Hs := (Entails.of_eq (take_step (famTYS (F := F) c) 41 (by decide))) $$ [FtYS]
  · iexact FtYS
  icases Hs with ⟨Ht1, FtYS⟩
  ihave Hs := (Entails.of_eq (take_step (famTYRP (F := F) c) 41 (by decide))) $$ [FtYRP]
  · iexact FtYRP
  icases Hs with ⟨Ht2, FtYRP⟩
  ihave Hs := (Entails.of_eq (take_step (famXY m c) 41 (by decide))) $$ [FxY]
  · iexact FxY
  icases Hs with ⟨Hx, FxY⟩
  ihave Hs := (Entails.of_eq (take_step (famDY m c) 41 (by decide))) $$ [FdY]
  · iexact FdY
  icases Hs with ⟨Hd, FdY⟩
  ihave Hx := (Entails.of_eq (famXY_at m c 41 (by decide))) $$ [Hx]
  · iexact Hx
  ihave #HI1 := (Prep.inv_ys m K c 41) $$ HI
  ihave #HI2 := (Prep.inv_yr m K (yp c) 41) $$ HI
  ihave #HR1 := (Prep.reached_ys (F := F) c 41) $$ HR
  ihave #HR2 := (Prep.reached_yr (F := F) (yp c) 41) $$ HR
  iapply (wp_ysend m c _ (dev44_eq c) 41 _ (yDst_eq c 41) (K (c, some (0, 41))) (K (yp c, some (1, 41))) (owedF c 0 + owedY c 41) (owedF c 0 + owedY c 42)
      (by rw [owedY_succ' c 41 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 41 (by decide)) $$ [AccCYS Hc]
  · isplitl [AccCYS]; · iexact AccCYS
    iexact Hc
  -- step 45: send k0_dev45 src=arg0[(k0_off2 d0 2688#32)] dst=arg1[(k0_off1 d0 2688#32)] ssem=arg2[42] rsem=arg3[42]
  first | sl_exec | skip
  ihave Hs := (Entails.of_eq (take_step (famTYS (F := F) c) 42 (by decide))) $$ [FtYS]
  · iexact FtYS
  icases Hs with ⟨Ht1, FtYS⟩
  ihave Hs := (Entails.of_eq (take_step (famTYRP (F := F) c) 42 (by decide))) $$ [FtYRP]
  · iexact FtYRP
  icases Hs with ⟨Ht2, FtYRP⟩
  ihave Hs := (Entails.of_eq (take_step (famXY m c) 42 (by decide))) $$ [FxY]
  · iexact FxY
  icases Hs with ⟨Hx, FxY⟩
  ihave Hs := (Entails.of_eq (take_step (famDY m c) 42 (by decide))) $$ [FdY]
  · iexact FdY
  icases Hs with ⟨Hd, FdY⟩
  ihave Hx := (Entails.of_eq (famXY_at m c 42 (by decide))) $$ [Hx]
  · iexact Hx
  ihave #HI1 := (Prep.inv_ys m K c 42) $$ HI
  ihave #HI2 := (Prep.inv_yr m K (yp c) 42) $$ HI
  ihave #HR1 := (Prep.reached_ys (F := F) c 42) $$ HR
  ihave #HR2 := (Prep.reached_yr (F := F) (yp c) 42) $$ HR
  iapply (wp_ysend m c _ (dev45_eq c) 42 _ (yDst_eq c 42) (K (c, some (0, 42))) (K (yp c, some (1, 42))) (owedF c 0 + owedY c 42) (owedF c 0 + owedY c 43)
      (by rw [owedY_succ' c 42 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 42 (by decide)) $$ [AccCYS Hc]
  · isplitl [AccCYS]; · iexact AccCYS
    iexact Hc
  -- step 46: send k0_dev46 src=arg0[(k0_off2 d0 2752#32)] dst=arg1[(k0_off1 d0 2752#32)] ssem=arg2[43] rsem=arg3[43]
  first | sl_exec | skip
  ihave Hs := (Entails.of_eq (take_step (famTYS (F := F) c) 43 (by decide))) $$ [FtYS]
  · iexact FtYS
  icases Hs with ⟨Ht1, FtYS⟩
  ihave Hs := (Entails.of_eq (take_step (famTYRP (F := F) c) 43 (by decide))) $$ [FtYRP]
  · iexact FtYRP
  icases Hs with ⟨Ht2, FtYRP⟩
  ihave Hs := (Entails.of_eq (take_step (famXY m c) 43 (by decide))) $$ [FxY]
  · iexact FxY
  icases Hs with ⟨Hx, FxY⟩
  ihave Hs := (Entails.of_eq (take_step (famDY m c) 43 (by decide))) $$ [FdY]
  · iexact FdY
  icases Hs with ⟨Hd, FdY⟩
  ihave Hx := (Entails.of_eq (famXY_at m c 43 (by decide))) $$ [Hx]
  · iexact Hx
  ihave #HI1 := (Prep.inv_ys m K c 43) $$ HI
  ihave #HI2 := (Prep.inv_yr m K (yp c) 43) $$ HI
  ihave #HR1 := (Prep.reached_ys (F := F) c 43) $$ HR
  ihave #HR2 := (Prep.reached_yr (F := F) (yp c) 43) $$ HR
  iapply (wp_ysend m c _ (dev46_eq c) 43 _ (yDst_eq c 43) (K (c, some (0, 43))) (K (yp c, some (1, 43))) (owedF c 0 + owedY c 43) (owedF c 0 + owedY c 44)
      (by rw [owedY_succ' c 43 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 43 (by decide)) $$ [AccCYS Hc]
  · isplitl [AccCYS]; · iexact AccCYS
    iexact Hc
  -- step 47: send k0_dev47 src=arg0[(k0_off2 d0 2816#32)] dst=arg1[(k0_off1 d0 2816#32)] ssem=arg2[44] rsem=arg3[44]
  first | sl_exec | skip
  ihave Hs := (Entails.of_eq (take_step (famTYS (F := F) c) 44 (by decide))) $$ [FtYS]
  · iexact FtYS
  icases Hs with ⟨Ht1, FtYS⟩
  ihave Hs := (Entails.of_eq (take_step (famTYRP (F := F) c) 44 (by decide))) $$ [FtYRP]
  · iexact FtYRP
  icases Hs with ⟨Ht2, FtYRP⟩
  ihave Hs := (Entails.of_eq (take_step (famXY m c) 44 (by decide))) $$ [FxY]
  · iexact FxY
  icases Hs with ⟨Hx, FxY⟩
  ihave Hs := (Entails.of_eq (take_step (famDY m c) 44 (by decide))) $$ [FdY]
  · iexact FdY
  icases Hs with ⟨Hd, FdY⟩
  ihave Hx := (Entails.of_eq (famXY_at m c 44 (by decide))) $$ [Hx]
  · iexact Hx
  ihave #HI1 := (Prep.inv_ys m K c 44) $$ HI
  ihave #HI2 := (Prep.inv_yr m K (yp c) 44) $$ HI
  ihave #HR1 := (Prep.reached_ys (F := F) c 44) $$ HR
  ihave #HR2 := (Prep.reached_yr (F := F) (yp c) 44) $$ HR
  iapply (wp_ysend m c _ (dev47_eq c) 44 _ (yDst_eq c 44) (K (c, some (0, 44))) (K (yp c, some (1, 44))) (owedF c 0 + owedY c 44) (owedF c 0 + owedY c 45)
      (by rw [owedY_succ' c 44 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 44 (by decide)) $$ [AccCYS Hc]
  · isplitl [AccCYS]; · iexact AccCYS
    iexact Hc
  -- step 48: send k0_dev48 src=arg0[(k0_off2 d0 2880#32)] dst=arg1[(k0_off1 d0 2880#32)] ssem=arg2[45] rsem=arg3[45]
  first | sl_exec | skip
  ihave Hs := (Entails.of_eq (take_step (famTYS (F := F) c) 45 (by decide))) $$ [FtYS]
  · iexact FtYS
  icases Hs with ⟨Ht1, FtYS⟩
  ihave Hs := (Entails.of_eq (take_step (famTYRP (F := F) c) 45 (by decide))) $$ [FtYRP]
  · iexact FtYRP
  icases Hs with ⟨Ht2, FtYRP⟩
  ihave Hs := (Entails.of_eq (take_step (famXY m c) 45 (by decide))) $$ [FxY]
  · iexact FxY
  icases Hs with ⟨Hx, FxY⟩
  ihave Hs := (Entails.of_eq (take_step (famDY m c) 45 (by decide))) $$ [FdY]
  · iexact FdY
  icases Hs with ⟨Hd, FdY⟩
  ihave Hx := (Entails.of_eq (famXY_at m c 45 (by decide))) $$ [Hx]
  · iexact Hx
  ihave #HI1 := (Prep.inv_ys m K c 45) $$ HI
  ihave #HI2 := (Prep.inv_yr m K (yp c) 45) $$ HI
  ihave #HR1 := (Prep.reached_ys (F := F) c 45) $$ HR
  ihave #HR2 := (Prep.reached_yr (F := F) (yp c) 45) $$ HR
  iapply (wp_ysend m c _ (dev48_eq c) 45 _ (yDst_eq c 45) (K (c, some (0, 45))) (K (yp c, some (1, 45))) (owedF c 0 + owedY c 45) (owedF c 0 + owedY c 46)
      (by rw [owedY_succ' c 45 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 45 (by decide)) $$ [AccCYS Hc]
  · isplitl [AccCYS]; · iexact AccCYS
    iexact Hc
  -- step 49: send k0_dev49 src=arg0[(k0_off2 d0 2944#32)] dst=arg1[(k0_off1 d0 2944#32)] ssem=arg2[46] rsem=arg3[46]
  first | sl_exec | skip
  ihave Hs := (Entails.of_eq (take_step (famTYS (F := F) c) 46 (by decide))) $$ [FtYS]
  · iexact FtYS
  icases Hs with ⟨Ht1, FtYS⟩
  ihave Hs := (Entails.of_eq (take_step (famTYRP (F := F) c) 46 (by decide))) $$ [FtYRP]
  · iexact FtYRP
  icases Hs with ⟨Ht2, FtYRP⟩
  ihave Hs := (Entails.of_eq (take_step (famXY m c) 46 (by decide))) $$ [FxY]
  · iexact FxY
  icases Hs with ⟨Hx, FxY⟩
  ihave Hs := (Entails.of_eq (take_step (famDY m c) 46 (by decide))) $$ [FdY]
  · iexact FdY
  icases Hs with ⟨Hd, FdY⟩
  ihave Hx := (Entails.of_eq (famXY_at m c 46 (by decide))) $$ [Hx]
  · iexact Hx
  ihave #HI1 := (Prep.inv_ys m K c 46) $$ HI
  ihave #HI2 := (Prep.inv_yr m K (yp c) 46) $$ HI
  ihave #HR1 := (Prep.reached_ys (F := F) c 46) $$ HR
  ihave #HR2 := (Prep.reached_yr (F := F) (yp c) 46) $$ HR
  iapply (wp_ysend m c _ (dev49_eq c) 46 _ (yDst_eq c 46) (K (c, some (0, 46))) (K (yp c, some (1, 46))) (owedF c 0 + owedY c 46) (owedF c 0 + owedY c 47)
      (by rw [owedY_succ' c 46 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 46 (by decide)) $$ [AccCYS Hc]
  · isplitl [AccCYS]; · iexact AccCYS
    iexact Hc
  -- step 50: send k0_dev50 src=arg0[(k0_off2 d0 3008#32)] dst=arg1[(k0_off1 d0 3008#32)] ssem=arg2[47] rsem=arg3[47]
  first | sl_exec | skip
  ihave Hs := (Entails.of_eq (take_step (famTYS (F := F) c) 47 (by decide))) $$ [FtYS]
  · iexact FtYS
  icases Hs with ⟨Ht1, FtYS⟩
  ihave Hs := (Entails.of_eq (take_step (famTYRP (F := F) c) 47 (by decide))) $$ [FtYRP]
  · iexact FtYRP
  icases Hs with ⟨Ht2, FtYRP⟩
  ihave Hs := (Entails.of_eq (take_step (famXY m c) 47 (by decide))) $$ [FxY]
  · iexact FxY
  icases Hs with ⟨Hx, FxY⟩
  ihave Hs := (Entails.of_eq (take_step (famDY m c) 47 (by decide))) $$ [FdY]
  · iexact FdY
  icases Hs with ⟨Hd, FdY⟩
  ihave Hx := (Entails.of_eq (famXY_at m c 47 (by decide))) $$ [Hx]
  · iexact Hx
  ihave #HI1 := (Prep.inv_ys m K c 47) $$ HI
  ihave #HI2 := (Prep.inv_yr m K (yp c) 47) $$ HI
  ihave #HR1 := (Prep.reached_ys (F := F) c 47) $$ HR
  ihave #HR2 := (Prep.reached_yr (F := F) (yp c) 47) $$ HR
  iapply (wp_ysend m c _ (dev50_eq c) 47 _ (yDst_eq c 47) (K (c, some (0, 47))) (K (yp c, some (1, 47))) (owedF c 0 + owedY c 47) (owedF c 0 + owedY c 48)
      (by rw [owedY_succ' c 47 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 47 (by decide)) $$ [AccCYS Hc]
  · isplitl [AccCYS]; · iexact AccCYS
    iexact Hc
  -- step 51: send k0_dev51 src=arg0[(k0_off2 d0 3072#32)] dst=arg1[(k0_off1 d0 3072#32)] ssem=arg2[48] rsem=arg3[48]
  first | sl_exec | skip
  ihave Hs := (Entails.of_eq (take_step (famTYS (F := F) c) 48 (by decide))) $$ [FtYS]
  · iexact FtYS
  icases Hs with ⟨Ht1, FtYS⟩
  ihave Hs := (Entails.of_eq (take_step (famTYRP (F := F) c) 48 (by decide))) $$ [FtYRP]
  · iexact FtYRP
  icases Hs with ⟨Ht2, FtYRP⟩
  ihave Hs := (Entails.of_eq (take_step (famXY m c) 48 (by decide))) $$ [FxY]
  · iexact FxY
  icases Hs with ⟨Hx, FxY⟩
  ihave Hs := (Entails.of_eq (take_step (famDY m c) 48 (by decide))) $$ [FdY]
  · iexact FdY
  icases Hs with ⟨Hd, FdY⟩
  ihave Hx := (Entails.of_eq (famXY_at m c 48 (by decide))) $$ [Hx]
  · iexact Hx
  ihave #HI1 := (Prep.inv_ys m K c 48) $$ HI
  ihave #HI2 := (Prep.inv_yr m K (yp c) 48) $$ HI
  ihave #HR1 := (Prep.reached_ys (F := F) c 48) $$ HR
  ihave #HR2 := (Prep.reached_yr (F := F) (yp c) 48) $$ HR
  iapply (wp_ysend m c _ (dev51_eq c) 48 _ (yDst_eq c 48) (K (c, some (0, 48))) (K (yp c, some (1, 48))) (owedF c 0 + owedY c 48) (owedF c 0 + owedY c 49)
      (by rw [owedY_succ' c 48 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 48 (by decide)) $$ [AccCYS Hc]
  · isplitl [AccCYS]; · iexact AccCYS
    iexact Hc
  -- step 52: send k0_dev52 src=arg0[(k0_off2 d0 3136#32)] dst=arg1[(k0_off1 d0 3136#32)] ssem=arg2[49] rsem=arg3[49]
  first | sl_exec | skip
  ihave Hs := (Entails.of_eq (take_step (famTYS (F := F) c) 49 (by decide))) $$ [FtYS]
  · iexact FtYS
  icases Hs with ⟨Ht1, FtYS⟩
  ihave Hs := (Entails.of_eq (take_step (famTYRP (F := F) c) 49 (by decide))) $$ [FtYRP]
  · iexact FtYRP
  icases Hs with ⟨Ht2, FtYRP⟩
  ihave Hs := (Entails.of_eq (take_step (famXY m c) 49 (by decide))) $$ [FxY]
  · iexact FxY
  icases Hs with ⟨Hx, FxY⟩
  ihave Hs := (Entails.of_eq (take_step (famDY m c) 49 (by decide))) $$ [FdY]
  · iexact FdY
  icases Hs with ⟨Hd, FdY⟩
  ihave Hx := (Entails.of_eq (famXY_at m c 49 (by decide))) $$ [Hx]
  · iexact Hx
  ihave #HI1 := (Prep.inv_ys m K c 49) $$ HI
  ihave #HI2 := (Prep.inv_yr m K (yp c) 49) $$ HI
  ihave #HR1 := (Prep.reached_ys (F := F) c 49) $$ HR
  ihave #HR2 := (Prep.reached_yr (F := F) (yp c) 49) $$ HR
  iapply (wp_ysend m c _ (dev52_eq c) 49 _ (yDst_eq c 49) (K (c, some (0, 49))) (K (yp c, some (1, 49))) (owedF c 0 + owedY c 49) (owedF c 0 + owedY c 50)
      (by rw [owedY_succ' c 49 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 49 (by decide)) $$ [AccCYS Hc]
  · isplitl [AccCYS]; · iexact AccCYS
    iexact Hc
  -- step 53: send k0_dev53 src=arg0[(k0_off2 d0 3200#32)] dst=arg1[(k0_off1 d0 3200#32)] ssem=arg2[50] rsem=arg3[50]
  first | sl_exec | skip
  ihave Hs := (Entails.of_eq (take_step (famTYS (F := F) c) 50 (by decide))) $$ [FtYS]
  · iexact FtYS
  icases Hs with ⟨Ht1, FtYS⟩
  ihave Hs := (Entails.of_eq (take_step (famTYRP (F := F) c) 50 (by decide))) $$ [FtYRP]
  · iexact FtYRP
  icases Hs with ⟨Ht2, FtYRP⟩
  ihave Hs := (Entails.of_eq (take_step (famXY m c) 50 (by decide))) $$ [FxY]
  · iexact FxY
  icases Hs with ⟨Hx, FxY⟩
  ihave Hs := (Entails.of_eq (take_step (famDY m c) 50 (by decide))) $$ [FdY]
  · iexact FdY
  icases Hs with ⟨Hd, FdY⟩
  ihave Hx := (Entails.of_eq (famXY_at m c 50 (by decide))) $$ [Hx]
  · iexact Hx
  ihave #HI1 := (Prep.inv_ys m K c 50) $$ HI
  ihave #HI2 := (Prep.inv_yr m K (yp c) 50) $$ HI
  ihave #HR1 := (Prep.reached_ys (F := F) c 50) $$ HR
  ihave #HR2 := (Prep.reached_yr (F := F) (yp c) 50) $$ HR
  iapply (wp_ysend m c _ (dev53_eq c) 50 _ (yDst_eq c 50) (K (c, some (0, 50))) (K (yp c, some (1, 50))) (owedF c 0 + owedY c 50) (owedF c 0 + owedY c 51)
      (by rw [owedY_succ' c 50 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 50 (by decide)) $$ [AccCYS Hc]
  · isplitl [AccCYS]; · iexact AccCYS
    iexact Hc
  -- step 54: send k0_dev54 src=arg0[(k0_off2 d0 3264#32)] dst=arg1[(k0_off1 d0 3264#32)] ssem=arg2[51] rsem=arg3[51]
  first | sl_exec | skip
  ihave Hs := (Entails.of_eq (take_step (famTYS (F := F) c) 51 (by decide))) $$ [FtYS]
  · iexact FtYS
  icases Hs with ⟨Ht1, FtYS⟩
  ihave Hs := (Entails.of_eq (take_step (famTYRP (F := F) c) 51 (by decide))) $$ [FtYRP]
  · iexact FtYRP
  icases Hs with ⟨Ht2, FtYRP⟩
  ihave Hs := (Entails.of_eq (take_step (famXY m c) 51 (by decide))) $$ [FxY]
  · iexact FxY
  icases Hs with ⟨Hx, FxY⟩
  ihave Hs := (Entails.of_eq (take_step (famDY m c) 51 (by decide))) $$ [FdY]
  · iexact FdY
  icases Hs with ⟨Hd, FdY⟩
  ihave Hx := (Entails.of_eq (famXY_at m c 51 (by decide))) $$ [Hx]
  · iexact Hx
  ihave #HI1 := (Prep.inv_ys m K c 51) $$ HI
  ihave #HI2 := (Prep.inv_yr m K (yp c) 51) $$ HI
  ihave #HR1 := (Prep.reached_ys (F := F) c 51) $$ HR
  ihave #HR2 := (Prep.reached_yr (F := F) (yp c) 51) $$ HR
  iapply (wp_ysend m c _ (dev54_eq c) 51 _ (yDst_eq c 51) (K (c, some (0, 51))) (K (yp c, some (1, 51))) (owedF c 0 + owedY c 51) (owedF c 0 + owedY c 52)
      (by rw [owedY_succ' c 51 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 51 (by decide)) $$ [AccCYS Hc]
  · isplitl [AccCYS]; · iexact AccCYS
    iexact Hc
  -- step 55: send k0_dev55 src=arg0[(k0_off2 d0 3328#32)] dst=arg1[(k0_off1 d0 3328#32)] ssem=arg2[52] rsem=arg3[52]
  first | sl_exec | skip
  ihave Hs := (Entails.of_eq (take_step (famTYS (F := F) c) 52 (by decide))) $$ [FtYS]
  · iexact FtYS
  icases Hs with ⟨Ht1, FtYS⟩
  ihave Hs := (Entails.of_eq (take_step (famTYRP (F := F) c) 52 (by decide))) $$ [FtYRP]
  · iexact FtYRP
  icases Hs with ⟨Ht2, FtYRP⟩
  ihave Hs := (Entails.of_eq (take_step (famXY m c) 52 (by decide))) $$ [FxY]
  · iexact FxY
  icases Hs with ⟨Hx, FxY⟩
  ihave Hs := (Entails.of_eq (take_step (famDY m c) 52 (by decide))) $$ [FdY]
  · iexact FdY
  icases Hs with ⟨Hd, FdY⟩
  ihave Hx := (Entails.of_eq (famXY_at m c 52 (by decide))) $$ [Hx]
  · iexact Hx
  ihave #HI1 := (Prep.inv_ys m K c 52) $$ HI
  ihave #HI2 := (Prep.inv_yr m K (yp c) 52) $$ HI
  ihave #HR1 := (Prep.reached_ys (F := F) c 52) $$ HR
  ihave #HR2 := (Prep.reached_yr (F := F) (yp c) 52) $$ HR
  iapply (wp_ysend m c _ (dev55_eq c) 52 _ (yDst_eq c 52) (K (c, some (0, 52))) (K (yp c, some (1, 52))) (owedF c 0 + owedY c 52) (owedF c 0 + owedY c 53)
      (by rw [owedY_succ' c 52 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 52 (by decide)) $$ [AccCYS Hc]
  · isplitl [AccCYS]; · iexact AccCYS
    iexact Hc
  -- step 56: send k0_dev56 src=arg0[(k0_off2 d0 3392#32)] dst=arg1[(k0_off1 d0 3392#32)] ssem=arg2[53] rsem=arg3[53]
  first | sl_exec | skip
  ihave Hs := (Entails.of_eq (take_step (famTYS (F := F) c) 53 (by decide))) $$ [FtYS]
  · iexact FtYS
  icases Hs with ⟨Ht1, FtYS⟩
  ihave Hs := (Entails.of_eq (take_step (famTYRP (F := F) c) 53 (by decide))) $$ [FtYRP]
  · iexact FtYRP
  icases Hs with ⟨Ht2, FtYRP⟩
  ihave Hs := (Entails.of_eq (take_step (famXY m c) 53 (by decide))) $$ [FxY]
  · iexact FxY
  icases Hs with ⟨Hx, FxY⟩
  ihave Hs := (Entails.of_eq (take_step (famDY m c) 53 (by decide))) $$ [FdY]
  · iexact FdY
  icases Hs with ⟨Hd, FdY⟩
  ihave Hx := (Entails.of_eq (famXY_at m c 53 (by decide))) $$ [Hx]
  · iexact Hx
  ihave #HI1 := (Prep.inv_ys m K c 53) $$ HI
  ihave #HI2 := (Prep.inv_yr m K (yp c) 53) $$ HI
  ihave #HR1 := (Prep.reached_ys (F := F) c 53) $$ HR
  ihave #HR2 := (Prep.reached_yr (F := F) (yp c) 53) $$ HR
  iapply (wp_ysend m c _ (dev56_eq c) 53 _ (yDst_eq c 53) (K (c, some (0, 53))) (K (yp c, some (1, 53))) (owedF c 0 + owedY c 53) (owedF c 0 + owedY c 54)
      (by rw [owedY_succ' c 53 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 53 (by decide)) $$ [AccCYS Hc]
  · isplitl [AccCYS]; · iexact AccCYS
    iexact Hc
  -- step 57: send k0_dev57 src=arg0[(k0_off2 d0 3456#32)] dst=arg1[(k0_off1 d0 3456#32)] ssem=arg2[54] rsem=arg3[54]
  first | sl_exec | skip
  ihave Hs := (Entails.of_eq (take_step (famTYS (F := F) c) 54 (by decide))) $$ [FtYS]
  · iexact FtYS
  icases Hs with ⟨Ht1, FtYS⟩
  ihave Hs := (Entails.of_eq (take_step (famTYRP (F := F) c) 54 (by decide))) $$ [FtYRP]
  · iexact FtYRP
  icases Hs with ⟨Ht2, FtYRP⟩
  ihave Hs := (Entails.of_eq (take_step (famXY m c) 54 (by decide))) $$ [FxY]
  · iexact FxY
  icases Hs with ⟨Hx, FxY⟩
  ihave Hs := (Entails.of_eq (take_step (famDY m c) 54 (by decide))) $$ [FdY]
  · iexact FdY
  icases Hs with ⟨Hd, FdY⟩
  ihave Hx := (Entails.of_eq (famXY_at m c 54 (by decide))) $$ [Hx]
  · iexact Hx
  ihave #HI1 := (Prep.inv_ys m K c 54) $$ HI
  ihave #HI2 := (Prep.inv_yr m K (yp c) 54) $$ HI
  ihave #HR1 := (Prep.reached_ys (F := F) c 54) $$ HR
  ihave #HR2 := (Prep.reached_yr (F := F) (yp c) 54) $$ HR
  iapply (wp_ysend m c _ (dev57_eq c) 54 _ (yDst_eq c 54) (K (c, some (0, 54))) (K (yp c, some (1, 54))) (owedF c 0 + owedY c 54) (owedF c 0 + owedY c 55)
      (by rw [owedY_succ' c 54 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 54 (by decide)) $$ [AccCYS Hc]
  · isplitl [AccCYS]; · iexact AccCYS
    iexact Hc
  -- step 58: send k0_dev58 src=arg0[(k0_off2 d0 3520#32)] dst=arg1[(k0_off1 d0 3520#32)] ssem=arg2[55] rsem=arg3[55]
  first | sl_exec | skip
  ihave Hs := (Entails.of_eq (take_step (famTYS (F := F) c) 55 (by decide))) $$ [FtYS]
  · iexact FtYS
  icases Hs with ⟨Ht1, FtYS⟩
  ihave Hs := (Entails.of_eq (take_step (famTYRP (F := F) c) 55 (by decide))) $$ [FtYRP]
  · iexact FtYRP
  icases Hs with ⟨Ht2, FtYRP⟩
  ihave Hs := (Entails.of_eq (take_step (famXY m c) 55 (by decide))) $$ [FxY]
  · iexact FxY
  icases Hs with ⟨Hx, FxY⟩
  ihave Hs := (Entails.of_eq (take_step (famDY m c) 55 (by decide))) $$ [FdY]
  · iexact FdY
  icases Hs with ⟨Hd, FdY⟩
  ihave Hx := (Entails.of_eq (famXY_at m c 55 (by decide))) $$ [Hx]
  · iexact Hx
  ihave #HI1 := (Prep.inv_ys m K c 55) $$ HI
  ihave #HI2 := (Prep.inv_yr m K (yp c) 55) $$ HI
  ihave #HR1 := (Prep.reached_ys (F := F) c 55) $$ HR
  ihave #HR2 := (Prep.reached_yr (F := F) (yp c) 55) $$ HR
  iapply (wp_ysend m c _ (dev58_eq c) 55 _ (yDst_eq c 55) (K (c, some (0, 55))) (K (yp c, some (1, 55))) (owedF c 0 + owedY c 55) (owedF c 0 + owedY c 56)
      (by rw [owedY_succ' c 55 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 55 (by decide)) $$ [AccCYS Hc]
  · isplitl [AccCYS]; · iexact AccCYS
    iexact Hc
  -- step 59: send k0_dev59 src=arg0[(k0_off2 d0 3584#32)] dst=arg1[(k0_off1 d0 3584#32)] ssem=arg2[56] rsem=arg3[56]
  first | sl_exec | skip
  ihave Hs := (Entails.of_eq (take_step (famTYS (F := F) c) 56 (by decide))) $$ [FtYS]
  · iexact FtYS
  icases Hs with ⟨Ht1, FtYS⟩
  ihave Hs := (Entails.of_eq (take_step (famTYRP (F := F) c) 56 (by decide))) $$ [FtYRP]
  · iexact FtYRP
  icases Hs with ⟨Ht2, FtYRP⟩
  ihave Hs := (Entails.of_eq (take_step (famXY m c) 56 (by decide))) $$ [FxY]
  · iexact FxY
  icases Hs with ⟨Hx, FxY⟩
  ihave Hs := (Entails.of_eq (take_step (famDY m c) 56 (by decide))) $$ [FdY]
  · iexact FdY
  icases Hs with ⟨Hd, FdY⟩
  ihave Hx := (Entails.of_eq (famXY_at m c 56 (by decide))) $$ [Hx]
  · iexact Hx
  ihave #HI1 := (Prep.inv_ys m K c 56) $$ HI
  ihave #HI2 := (Prep.inv_yr m K (yp c) 56) $$ HI
  ihave #HR1 := (Prep.reached_ys (F := F) c 56) $$ HR
  ihave #HR2 := (Prep.reached_yr (F := F) (yp c) 56) $$ HR
  iapply (wp_ysend m c _ (dev59_eq c) 56 _ (yDst_eq c 56) (K (c, some (0, 56))) (K (yp c, some (1, 56))) (owedF c 0 + owedY c 56) (owedF c 0 + owedY c 57)
      (by rw [owedY_succ' c 56 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 56 (by decide)) $$ [AccCYS Hc]
  · isplitl [AccCYS]; · iexact AccCYS
    iexact Hc
  -- step 60: send k0_dev60 src=arg0[(k0_off2 d0 3648#32)] dst=arg1[(k0_off1 d0 3648#32)] ssem=arg2[57] rsem=arg3[57]
  first | sl_exec | skip
  ihave Hs := (Entails.of_eq (take_step (famTYS (F := F) c) 57 (by decide))) $$ [FtYS]
  · iexact FtYS
  icases Hs with ⟨Ht1, FtYS⟩
  ihave Hs := (Entails.of_eq (take_step (famTYRP (F := F) c) 57 (by decide))) $$ [FtYRP]
  · iexact FtYRP
  icases Hs with ⟨Ht2, FtYRP⟩
  ihave Hs := (Entails.of_eq (take_step (famXY m c) 57 (by decide))) $$ [FxY]
  · iexact FxY
  icases Hs with ⟨Hx, FxY⟩
  ihave Hs := (Entails.of_eq (take_step (famDY m c) 57 (by decide))) $$ [FdY]
  · iexact FdY
  icases Hs with ⟨Hd, FdY⟩
  ihave Hx := (Entails.of_eq (famXY_at m c 57 (by decide))) $$ [Hx]
  · iexact Hx
  ihave #HI1 := (Prep.inv_ys m K c 57) $$ HI
  ihave #HI2 := (Prep.inv_yr m K (yp c) 57) $$ HI
  ihave #HR1 := (Prep.reached_ys (F := F) c 57) $$ HR
  ihave #HR2 := (Prep.reached_yr (F := F) (yp c) 57) $$ HR
  iapply (wp_ysend m c _ (dev60_eq c) 57 _ (yDst_eq c 57) (K (c, some (0, 57))) (K (yp c, some (1, 57))) (owedF c 0 + owedY c 57) (owedF c 0 + owedY c 58)
      (by rw [owedY_succ' c 57 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 57 (by decide)) $$ [AccCYS Hc]
  · isplitl [AccCYS]; · iexact AccCYS
    iexact Hc
  -- step 61: send k0_dev61 src=arg0[(k0_off2 d0 3712#32)] dst=arg1[(k0_off1 d0 3712#32)] ssem=arg2[58] rsem=arg3[58]
  first | sl_exec | skip
  ihave Hs := (Entails.of_eq (take_step (famTYS (F := F) c) 58 (by decide))) $$ [FtYS]
  · iexact FtYS
  icases Hs with ⟨Ht1, FtYS⟩
  ihave Hs := (Entails.of_eq (take_step (famTYRP (F := F) c) 58 (by decide))) $$ [FtYRP]
  · iexact FtYRP
  icases Hs with ⟨Ht2, FtYRP⟩
  ihave Hs := (Entails.of_eq (take_step (famXY m c) 58 (by decide))) $$ [FxY]
  · iexact FxY
  icases Hs with ⟨Hx, FxY⟩
  ihave Hs := (Entails.of_eq (take_step (famDY m c) 58 (by decide))) $$ [FdY]
  · iexact FdY
  icases Hs with ⟨Hd, FdY⟩
  ihave Hx := (Entails.of_eq (famXY_at m c 58 (by decide))) $$ [Hx]
  · iexact Hx
  ihave #HI1 := (Prep.inv_ys m K c 58) $$ HI
  ihave #HI2 := (Prep.inv_yr m K (yp c) 58) $$ HI
  ihave #HR1 := (Prep.reached_ys (F := F) c 58) $$ HR
  ihave #HR2 := (Prep.reached_yr (F := F) (yp c) 58) $$ HR
  iapply (wp_ysend m c _ (dev61_eq c) 58 _ (yDst_eq c 58) (K (c, some (0, 58))) (K (yp c, some (1, 58))) (owedF c 0 + owedY c 58) (owedF c 0 + owedY c 59)
      (by rw [owedY_succ' c 58 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 58 (by decide)) $$ [AccCYS Hc]
  · isplitl [AccCYS]; · iexact AccCYS
    iexact Hc
  -- step 62: send k0_dev62 src=arg0[(k0_off2 d0 3776#32)] dst=arg1[(k0_off1 d0 3776#32)] ssem=arg2[59] rsem=arg3[59]
  first | sl_exec | skip
  ihave Hs := (Entails.of_eq (take_step (famTYS (F := F) c) 59 (by decide))) $$ [FtYS]
  · iexact FtYS
  icases Hs with ⟨Ht1, FtYS⟩
  ihave Hs := (Entails.of_eq (take_step (famTYRP (F := F) c) 59 (by decide))) $$ [FtYRP]
  · iexact FtYRP
  icases Hs with ⟨Ht2, FtYRP⟩
  ihave Hs := (Entails.of_eq (take_step (famXY m c) 59 (by decide))) $$ [FxY]
  · iexact FxY
  icases Hs with ⟨Hx, FxY⟩
  ihave Hs := (Entails.of_eq (take_step (famDY m c) 59 (by decide))) $$ [FdY]
  · iexact FdY
  icases Hs with ⟨Hd, FdY⟩
  ihave Hx := (Entails.of_eq (famXY_at m c 59 (by decide))) $$ [Hx]
  · iexact Hx
  ihave #HI1 := (Prep.inv_ys m K c 59) $$ HI
  ihave #HI2 := (Prep.inv_yr m K (yp c) 59) $$ HI
  ihave #HR1 := (Prep.reached_ys (F := F) c 59) $$ HR
  ihave #HR2 := (Prep.reached_yr (F := F) (yp c) 59) $$ HR
  iapply (wp_ysend m c _ (dev62_eq c) 59 _ (yDst_eq c 59) (K (c, some (0, 59))) (K (yp c, some (1, 59))) (owedF c 0 + owedY c 59) (owedF c 0 + owedY c 60)
      (by rw [owedY_succ' c 59 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 59 (by decide)) $$ [AccCYS Hc]
  · isplitl [AccCYS]; · iexact AccCYS
    iexact Hc
  -- step 63: send k0_dev63 src=arg0[(k0_off2 d0 3840#32)] dst=arg1[(k0_off1 d0 3840#32)] ssem=arg2[60] rsem=arg3[60]
  first | sl_exec | skip
  ihave Hs := (Entails.of_eq (take_step (famTYS (F := F) c) 60 (by decide))) $$ [FtYS]
  · iexact FtYS
  icases Hs with ⟨Ht1, FtYS⟩
  ihave Hs := (Entails.of_eq (take_step (famTYRP (F := F) c) 60 (by decide))) $$ [FtYRP]
  · iexact FtYRP
  icases Hs with ⟨Ht2, FtYRP⟩
  ihave Hs := (Entails.of_eq (take_step (famXY m c) 60 (by decide))) $$ [FxY]
  · iexact FxY
  icases Hs with ⟨Hx, FxY⟩
  ihave Hs := (Entails.of_eq (take_step (famDY m c) 60 (by decide))) $$ [FdY]
  · iexact FdY
  icases Hs with ⟨Hd, FdY⟩
  ihave Hx := (Entails.of_eq (famXY_at m c 60 (by decide))) $$ [Hx]
  · iexact Hx
  ihave #HI1 := (Prep.inv_ys m K c 60) $$ HI
  ihave #HI2 := (Prep.inv_yr m K (yp c) 60) $$ HI
  ihave #HR1 := (Prep.reached_ys (F := F) c 60) $$ HR
  ihave #HR2 := (Prep.reached_yr (F := F) (yp c) 60) $$ HR
  iapply (wp_ysend m c _ (dev63_eq c) 60 _ (yDst_eq c 60) (K (c, some (0, 60))) (K (yp c, some (1, 60))) (owedF c 0 + owedY c 60) (owedF c 0 + owedY c 61)
      (by rw [owedY_succ' c 60 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 60 (by decide)) $$ [AccCYS Hc]
  · isplitl [AccCYS]; · iexact AccCYS
    iexact Hc
  -- step 64: send k0_dev64 src=arg0[(k0_off2 d0 3904#32)] dst=arg1[(k0_off1 d0 3904#32)] ssem=arg2[61] rsem=arg3[61]
  first | sl_exec | skip
  ihave Hs := (Entails.of_eq (take_step (famTYS (F := F) c) 61 (by decide))) $$ [FtYS]
  · iexact FtYS
  icases Hs with ⟨Ht1, FtYS⟩
  ihave Hs := (Entails.of_eq (take_step (famTYRP (F := F) c) 61 (by decide))) $$ [FtYRP]
  · iexact FtYRP
  icases Hs with ⟨Ht2, FtYRP⟩
  ihave Hs := (Entails.of_eq (take_step (famXY m c) 61 (by decide))) $$ [FxY]
  · iexact FxY
  icases Hs with ⟨Hx, FxY⟩
  ihave Hs := (Entails.of_eq (take_step (famDY m c) 61 (by decide))) $$ [FdY]
  · iexact FdY
  icases Hs with ⟨Hd, FdY⟩
  ihave Hx := (Entails.of_eq (famXY_at m c 61 (by decide))) $$ [Hx]
  · iexact Hx
  ihave #HI1 := (Prep.inv_ys m K c 61) $$ HI
  ihave #HI2 := (Prep.inv_yr m K (yp c) 61) $$ HI
  ihave #HR1 := (Prep.reached_ys (F := F) c 61) $$ HR
  ihave #HR2 := (Prep.reached_yr (F := F) (yp c) 61) $$ HR
  iapply (wp_ysend m c _ (dev64_eq c) 61 _ (yDst_eq c 61) (K (c, some (0, 61))) (K (yp c, some (1, 61))) (owedF c 0 + owedY c 61) (owedF c 0 + owedY c 62)
      (by rw [owedY_succ' c 61 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 61 (by decide)) $$ [AccCYS Hc]
  · isplitl [AccCYS]; · iexact AccCYS
    iexact Hc
  -- step 65: send k0_dev65 src=arg0[(k0_off2 d0 3968#32)] dst=arg1[(k0_off1 d0 3968#32)] ssem=arg2[62] rsem=arg3[62]
  first | sl_exec | skip
  ihave Hs := (Entails.of_eq (take_step (famTYS (F := F) c) 62 (by decide))) $$ [FtYS]
  · iexact FtYS
  icases Hs with ⟨Ht1, FtYS⟩
  ihave Hs := (Entails.of_eq (take_step (famTYRP (F := F) c) 62 (by decide))) $$ [FtYRP]
  · iexact FtYRP
  icases Hs with ⟨Ht2, FtYRP⟩
  ihave Hs := (Entails.of_eq (take_step (famXY m c) 62 (by decide))) $$ [FxY]
  · iexact FxY
  icases Hs with ⟨Hx, FxY⟩
  ihave Hs := (Entails.of_eq (take_step (famDY m c) 62 (by decide))) $$ [FdY]
  · iexact FdY
  icases Hs with ⟨Hd, FdY⟩
  ihave Hx := (Entails.of_eq (famXY_at m c 62 (by decide))) $$ [Hx]
  · iexact Hx
  ihave #HI1 := (Prep.inv_ys m K c 62) $$ HI
  ihave #HI2 := (Prep.inv_yr m K (yp c) 62) $$ HI
  ihave #HR1 := (Prep.reached_ys (F := F) c 62) $$ HR
  ihave #HR2 := (Prep.reached_yr (F := F) (yp c) 62) $$ HR
  iapply (wp_ysend m c _ (dev65_eq c) 62 _ (yDst_eq c 62) (K (c, some (0, 62))) (K (yp c, some (1, 62))) (owedF c 0 + owedY c 62) (owedF c 0 + owedY c 63)
      (by rw [owedY_succ' c 62 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 62 (by decide)) $$ [AccCYS Hc]
  · isplitl [AccCYS]; · iexact AccCYS
    iexact Hc
  -- step 66: send k0_dev66 src=arg0[(k0_off2 d0 4032#32)] dst=arg1[(k0_off1 d0 4032#32)] ssem=arg2[63] rsem=arg3[63]
  first | sl_exec | skip
  ihave Hs := (Entails.of_eq (take_step (famTYS (F := F) c) 63 (by decide))) $$ [FtYS]
  · iexact FtYS
  icases Hs with ⟨Ht1, FtYS⟩
  ihave Hs := (Entails.of_eq (take_step (famTYRP (F := F) c) 63 (by decide))) $$ [FtYRP]
  · iexact FtYRP
  icases Hs with ⟨Ht2, FtYRP⟩
  ihave Hs := (Entails.of_eq (take_step (famXY m c) 63 (by decide))) $$ [FxY]
  · iexact FxY
  icases Hs with ⟨Hx, FxY⟩
  ihave Hs := (Entails.of_eq (take_step (famDY m c) 63 (by decide))) $$ [FdY]
  · iexact FdY
  icases Hs with ⟨Hd, FdY⟩
  ihave Hx := (Entails.of_eq (famXY_at m c 63 (by decide))) $$ [Hx]
  · iexact Hx
  ihave #HI1 := (Prep.inv_ys m K c 63) $$ HI
  ihave #HI2 := (Prep.inv_yr m K (yp c) 63) $$ HI
  ihave #HR1 := (Prep.reached_ys (F := F) c 63) $$ HR
  ihave #HR2 := (Prep.reached_yr (F := F) (yp c) 63) $$ HR
  iapply (wp_ysend m c _ (dev66_eq c) 63 _ (yDst_eq c 63) (K (c, some (0, 63))) (K (yp c, some (1, 63))) (owedF c 0 + owedY c 63) (owedF c 0 + owedY c 64)
      (by rw [owedY_succ' c 63 (by decide), ← add_assoc]; rfl) W1) $$ [Hx Hd HO Ht1 Ht2]
  · isplitr; · iexact HI1
    isplitr; · iexact HI2
    isplitl [Hx]; · iexact Hx
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCYS := (acc_step (famCYS (F := F) c) 63 (by decide)) $$ [AccCYS Hc]
  · isplitl [AccCYS]; · iexact AccCYS
    iexact Hc
  ihave HO := (Entails.of_eq (congrArg (fun O => owes (c : Thread nD τ) O W1) (show owedF c 0 + owedY c 64 = owedF c 0 by rw [owedY_top, add_zero]))) $$ HO
  -- step 67: wait arg3[0] (arg0[(k0_off2 d0 0#32)], arg1[(k0_off1 d0 0#32)])
  first | sl_exec | skip
  ihave Hs := (Entails.of_eq (take_zero (famCYR (F := F) c) (by decide))) $$ [FcYR]
  · iexact FcYR
  icases Hs with ⟨Hc, FcYR⟩
  ihave Hs := (Entails.of_eq (take_zero (famAtYR (F := F) c) (by decide))) $$ [FatYR]
  · iexact FatYR
  icases Hs with ⟨Hat, FatYR⟩
  ihave #HIw := (Prep.inv_yr m K c 0) $$ HI
  iapply (Rounds.wp_wait_rest_token 𝒱₀ ER (rd m) (c : Thread nD τ) none (κ := K (c, some (1, 0))) (sm := .dma (yrS 0))
      (wpE_waitDma2_eq 𝒱₀ (c : Thread nD τ) none Set.univ (src := ySrc c 0) (dst := yDst c 0)) (Set.mem_univ _) () (O := owedF c 0) (W := W1) (R := 0) (m := 0) (T := ∅)
      (by rw [Nat.zero_add]; exact (expect_yr m c 0).symm)) $$ [Hc HO Hat]
  · isplitr; · iexact HIw
    isplitl [Hc]; · iexact Hc
    isplitl [HO]; · iexact HO
    isplitr
    · iapply (mayWait_of_above c (.dma (yrS 0)) _ (by rw [show lv ((c : Thread nD τ), SemLoc.dma (yrS 0)) () = 2 from lv_yr c 0]; exact above_owedF c 0 (by decide)))
      iexact Hlev
    iexact Hat
  iclear HIw
  iintro ⟨HO, Hat, -, Hpay⟩
  ihave HYk := (Entails.of_eq (rest_yr' m c 0)) $$ Hpay
  ihave #HIx := (Prep.inv_yr m K c 0) $$ HI
  imod (Rounds.cell_close ER (rd m) (Set.mem_univ (K (c, some (1, 0)))) (fun h => h) (R := 0 + 1) (duties_yr_later m c 0)) $$ [Hat] with Hz
  · isplitr; · iexact HIx
    iexact Hat
  iclear HIx
  ihave AccZyr := (acc_one (famZyr (F := F) c) (by decide)) $$ [Hz]
  · iexact Hz
  ihave HOe : iprop(∃ W' : Waits sig Unit, owes (c : Thread nD τ) _ W') $$ [HO]
  · iexists _; iexact HO
  icases HOe with ⟨%W2, HO⟩
  -- step 68: send k0_dev67 src=arg1[(k0_off3 d0 0#32)] dst=arg1[(k0_off3 d0 0#32)] ssem=arg4[0] rsem=arg5[0]
  first | sl_exec | skip
  ihave Hs := (Entails.of_eq (take_zero (famTFS (F := F) c) (by decide))) $$ [FtFS]
  · iexact FtFS
  icases Hs with ⟨Ht1, FtFS⟩
  ihave Hs := (Entails.of_eq (take_zero (famTFRP (F := F) c) (by decide))) $$ [FtFRP]
  · iexact FtFRP
  icases Hs with ⟨Ht2, FtFRP⟩
  ihave Hs := (Entails.of_eq (take_zero (famDF m c) (by decide))) $$ [FdF]
  · iexact FdF
  icases Hs with ⟨Hd, FdF⟩
  ihave #HI1 := (Prep.inv_fs m K c 0) $$ HI
  ihave #HI2 := (Prep.inv_fr m K (xp c) 0) $$ HI
  ihave #HR1 := (Prep.reached_fs (F := F) c 0) $$ HR
  ihave #HR2 := (Prep.reached_fr (F := F) (xp c) 0) $$ HR
  iapply (wp_fsend m c _ (dev67_eq c) 0 (K (c, some (2, 0))) (K (xp c, some (3, 0))) (owedF c 0) (owedF c 1)
      (by rw [owedF_succ' c 0 (by decide)]; rfl) W2) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_one (famCFS (F := F) c) (by decide)) $$ [Hc]
  · iexact Hc
  -- step 69: copy src=arg0[(k0_off4 d0)] dst=arg6[![0, 0, 0]] sem=arg7[0]
  first | sl_exec | skip
  ihave Hs := (Entails.of_eq (take_zero (famXL m c) (by decide))) $$ [FxL]
  · iexact FxL
  icases Hs with ⟨Hxl, FxL⟩
  ihave #HIl := (Prep.inv_ls m KL c 0) $$ HIL
  iapply (Rounds.wp_copy_pointsTo 𝒱₀ ER (rd m) (c : Thread nD τ) none (src := lSrc c 0) (dst := vSlot 0) (sem := .dma (lsS 0)) (q := fullShare) (fs := xC m c) (fd := fv)
      (r := 0) (d := false) (κ := KL (c, 0)) (by rw [duties_ls m c 0 0 (by decide)]; exact Finset.mem_singleton_self _) () NV rfl (amount_ld m c 0 0 false)
      (by rw [payload_ls, vLand_pts m c 0 0 (fv)]; exact BI.Entails.refl _)) $$ [Hxl Hv0 Htl0_0]
  · isplitr; · iexact HIl
    isplitl [Hxl]; · iexact Hxl
    isplitl [Hv0]; · iexact Hv0
    isplitl [Htl0_0]; · iexact Htl0_0
    iexact HRl0
  iclear HIl
  iintro Hc_l0
  -- step 70: wait arg7[0] (arg0[(k0_off4 d0)], arg6[![0, 0, 0]])
  first | sl_exec | skip
  ihave #HIw := (Prep.inv_ls m KL c 0) $$ HIL
  iapply (Rounds.wp_wait_rest_token 𝒱₀ ER (rd m) (c : Thread nD τ) none (κ := KL (c, 0)) (sm := .dma (lsS 0))
      (wpE_waitDma2_eq 𝒱₀ (c : Thread nD τ) none Set.univ (src := lSrc c 0) (dst := vSlot 0)) (Set.mem_univ _) () (O := owedF c 1) (W := W2) (R := 0) (m := 0) (T := ∅)
      (by rw [Nat.zero_add]; exact (expect_ld m c 0 0 (by decide)).symm)) $$ [Hc_l0 HO Hat_l0]
  · isplitr; · iexact HIw
    isplitl [Hc_l0]; · iexact Hc_l0
    isplitl [HO]; · iexact HO
    isplitr
    · iapply (mayWait_of_above c (.dma (lsS 0)) _ (by rw [show lv ((c : Thread nD τ), SemLoc.dma (lsS 0)) () = 0 from lv_ls c 0]; exact above_owedF c 1 (by decide)))
      iexact Hlev
    iexact Hat_l0
  iclear HIw
  iclear HRl0
  iintro ⟨HO, Hat_l0, #HRl0, Hpay⟩
  ihave Hp := (Entails.of_eq (rest_ld0 m c 0 (by decide))) $$ Hpay
  icases Hp with ⟨Hv0, Hxlq⟩
  ihave AccXL := (acc_one (famXL m c) (by decide)) $$ [Hxlq]
  · iexact Hxlq
  ihave HOe : iprop(∃ W' : Waits sig Unit, owes (c : Thread nD τ) _ W') $$ [HO]
  · iexists _; iexact HO
  icases HOe with ⟨%W3, HO⟩
  -- step 71: copy src=arg6[![0, 0, 0]] dst=arg1[(k0_off5 d0 0#32)] sem=arg7[2]
  first | sl_exec | skip
  ihave Hs := (Entails.of_eq (take_zero (famOL0 m c) (by decide))) $$ [FoL]
  · iexact FoL
  icases Hs with ⟨Hol, FoL⟩
  ihave #HIl := (Prep.inv_ls m KL c 2) $$ HIL
  iapply (Rounds.wp_copy_pointsTo 𝒱₀ ER (rd m) (c : Thread nD τ) none (src := vSlot 0) (dst := lDst c 0) (sem := .dma (lsS 2)) (q := fullShare) (fs := VC m c 0) (fd := o0 m c)
      (r := 0) (d := false) (κ := KL (c, 2)) (by rw [duties_ls m c 2 0 (by decide)]; exact Finset.mem_singleton_self _) () NO rfl (amount_st m c 0 0 false)
      (by rw [payload_ls, lLandV_pts m c 0 0 (o0 m c)]; exact BI.Entails.refl _)) $$ [Hv0 Hol Htl2_0]
  · isplitr; · iexact HIl
    isplitl [Hv0]; · iexact Hv0
    isplitl [Hol]; · iexact Hol
    isplitl [Htl2_0]; · iexact Htl2_0
    iexact HRl2
  iclear HIl
  iintro Hc_l2
  -- step 72: wait arg3[1] (arg0[(k0_off2 d0 64#32)], arg1[(k0_off1 d0 64#32)])
  first | sl_exec | skip
  ihave Hs := (Entails.of_eq (take_step (famCYR (F := F) c) 1 (by decide))) $$ [FcYR]
  · iexact FcYR
  icases Hs with ⟨Hc, FcYR⟩
  ihave Hs := (Entails.of_eq (take_step (famAtYR (F := F) c) 1 (by decide))) $$ [FatYR]
  · iexact FatYR
  icases Hs with ⟨Hat, FatYR⟩
  ihave #HIw := (Prep.inv_yr m K c 1) $$ HI
  iapply (Rounds.wp_wait_rest_token 𝒱₀ ER (rd m) (c : Thread nD τ) none (κ := K (c, some (1, 1))) (sm := .dma (yrS 1))
      (wpE_waitDma2_eq 𝒱₀ (c : Thread nD τ) none Set.univ (src := ySrc c 1) (dst := yDst c 1)) (Set.mem_univ _) () (O := owedF c 1) (W := W3) (R := 0) (m := 0) (T := ∅)
      (by rw [Nat.zero_add]; exact (expect_yr m c 1).symm)) $$ [Hc HO Hat]
  · isplitr; · iexact HIw
    isplitl [Hc]; · iexact Hc
    isplitl [HO]; · iexact HO
    isplitr
    · iapply (mayWait_of_above c (.dma (yrS 1)) _ (by rw [show lv ((c : Thread nD τ), SemLoc.dma (yrS 1)) () = 2 from lv_yr c 1]; exact above_owedF c 1 (by decide)))
      iexact Hlev
    iexact Hat
  iclear HIw
  iintro ⟨HO, Hat, -, Hpay⟩
  ihave HYk := (Entails.of_eq (rest_yr' m c 1)) $$ Hpay
  ihave #HIx := (Prep.inv_yr m K c 1) $$ HI
  imod (Rounds.cell_close ER (rd m) (Set.mem_univ (K (c, some (1, 1)))) (fun h => h) (R := 0 + 1) (duties_yr_later m c 1)) $$ [Hat] with Hz
  · isplitr; · iexact HIx
    iexact Hat
  iclear HIx
  ihave AccZyr := (acc_step (famZyr (F := F) c) 1 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W4, HO⟩
  -- step 73: send k0_dev68 src=arg1[(k0_off3 d0 64#32)] dst=arg1[(k0_off3 d0 64#32)] ssem=arg4[1] rsem=arg5[1]
  first | sl_exec | skip
  ihave Hs := (Entails.of_eq (take_step (famTFS (F := F) c) 1 (by decide))) $$ [FtFS]
  · iexact FtFS
  icases Hs with ⟨Ht1, FtFS⟩
  ihave Hs := (Entails.of_eq (take_step (famTFRP (F := F) c) 1 (by decide))) $$ [FtFRP]
  · iexact FtFRP
  icases Hs with ⟨Ht2, FtFRP⟩
  ihave Hs := (Entails.of_eq (take_step (famDF m c) 1 (by decide))) $$ [FdF]
  · iexact FdF
  icases Hs with ⟨Hd, FdF⟩
  ihave #HI1 := (Prep.inv_fs m K c 1) $$ HI
  ihave #HI2 := (Prep.inv_fr m K (xp c) 1) $$ HI
  ihave #HR1 := (Prep.reached_fs (F := F) c 1) $$ HR
  ihave #HR2 := (Prep.reached_fr (F := F) (xp c) 1) $$ HR
  iapply (wp_fsend m c _ (dev68_eq c) 1 (K (c, some (2, 1))) (K (xp c, some (3, 1))) (owedF c 1) (owedF c 2)
      (by rw [owedF_succ' c 1 (by decide)]; rfl) W4) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 1 (by decide)) $$ [AccCFS Hc]
  · isplitl [AccCFS]; · iexact AccCFS
    iexact Hc
  -- step 74: wait arg3[2] (arg0[(k0_off2 d0 128#32)], arg1[(k0_off1 d0 128#32)])
  first | sl_exec | skip
  ihave Hs := (Entails.of_eq (take_step (famCYR (F := F) c) 2 (by decide))) $$ [FcYR]
  · iexact FcYR
  icases Hs with ⟨Hc, FcYR⟩
  ihave Hs := (Entails.of_eq (take_step (famAtYR (F := F) c) 2 (by decide))) $$ [FatYR]
  · iexact FatYR
  icases Hs with ⟨Hat, FatYR⟩
  ihave #HIw := (Prep.inv_yr m K c 2) $$ HI
  iapply (Rounds.wp_wait_rest_token 𝒱₀ ER (rd m) (c : Thread nD τ) none (κ := K (c, some (1, 2))) (sm := .dma (yrS 2))
      (wpE_waitDma2_eq 𝒱₀ (c : Thread nD τ) none Set.univ (src := ySrc c 2) (dst := yDst c 2)) (Set.mem_univ _) () (O := owedF c 2) (W := W4) (R := 0) (m := 0) (T := ∅)
      (by rw [Nat.zero_add]; exact (expect_yr m c 2).symm)) $$ [Hc HO Hat]
  · isplitr; · iexact HIw
    isplitl [Hc]; · iexact Hc
    isplitl [HO]; · iexact HO
    isplitr
    · iapply (mayWait_of_above c (.dma (yrS 2)) _ (by rw [show lv ((c : Thread nD τ), SemLoc.dma (yrS 2)) () = 2 from lv_yr c 2]; exact above_owedF c 2 (by decide)))
      iexact Hlev
    iexact Hat
  iclear HIw
  iintro ⟨HO, Hat, -, Hpay⟩
  ihave HYk := (Entails.of_eq (rest_yr' m c 2)) $$ Hpay
  ihave #HIx := (Prep.inv_yr m K c 2) $$ HI
  imod (Rounds.cell_close ER (rd m) (Set.mem_univ (K (c, some (1, 2)))) (fun h => h) (R := 0 + 1) (duties_yr_later m c 2)) $$ [Hat] with Hz
  · isplitr; · iexact HIx
    iexact Hat
  iclear HIx
  ihave AccZyr := (acc_step (famZyr (F := F) c) 2 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W5, HO⟩
  -- step 75: send k0_dev69 src=arg1[(k0_off3 d0 128#32)] dst=arg1[(k0_off3 d0 128#32)] ssem=arg4[2] rsem=arg5[2]
  first | sl_exec | skip
  ihave Hs := (Entails.of_eq (take_step (famTFS (F := F) c) 2 (by decide))) $$ [FtFS]
  · iexact FtFS
  icases Hs with ⟨Ht1, FtFS⟩
  ihave Hs := (Entails.of_eq (take_step (famTFRP (F := F) c) 2 (by decide))) $$ [FtFRP]
  · iexact FtFRP
  icases Hs with ⟨Ht2, FtFRP⟩
  ihave Hs := (Entails.of_eq (take_step (famDF m c) 2 (by decide))) $$ [FdF]
  · iexact FdF
  icases Hs with ⟨Hd, FdF⟩
  ihave #HI1 := (Prep.inv_fs m K c 2) $$ HI
  ihave #HI2 := (Prep.inv_fr m K (xp c) 2) $$ HI
  ihave #HR1 := (Prep.reached_fs (F := F) c 2) $$ HR
  ihave #HR2 := (Prep.reached_fr (F := F) (xp c) 2) $$ HR
  iapply (wp_fsend m c _ (dev69_eq c) 2 (K (c, some (2, 2))) (K (xp c, some (3, 2))) (owedF c 2) (owedF c 3)
      (by rw [owedF_succ' c 2 (by decide)]; rfl) W5) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 2 (by decide)) $$ [AccCFS Hc]
  · isplitl [AccCFS]; · iexact AccCFS
    iexact Hc
  -- step 76: wait arg3[3] (arg0[(k0_off2 d0 192#32)], arg1[(k0_off1 d0 192#32)])
  first | sl_exec | skip
  ihave Hs := (Entails.of_eq (take_step (famCYR (F := F) c) 3 (by decide))) $$ [FcYR]
  · iexact FcYR
  icases Hs with ⟨Hc, FcYR⟩
  ihave Hs := (Entails.of_eq (take_step (famAtYR (F := F) c) 3 (by decide))) $$ [FatYR]
  · iexact FatYR
  icases Hs with ⟨Hat, FatYR⟩
  ihave #HIw := (Prep.inv_yr m K c 3) $$ HI
  iapply (Rounds.wp_wait_rest_token 𝒱₀ ER (rd m) (c : Thread nD τ) none (κ := K (c, some (1, 3))) (sm := .dma (yrS 3))
      (wpE_waitDma2_eq 𝒱₀ (c : Thread nD τ) none Set.univ (src := ySrc c 3) (dst := yDst c 3)) (Set.mem_univ _) () (O := owedF c 3) (W := W5) (R := 0) (m := 0) (T := ∅)
      (by rw [Nat.zero_add]; exact (expect_yr m c 3).symm)) $$ [Hc HO Hat]
  · isplitr; · iexact HIw
    isplitl [Hc]; · iexact Hc
    isplitl [HO]; · iexact HO
    isplitr
    · iapply (mayWait_of_above c (.dma (yrS 3)) _ (by rw [show lv ((c : Thread nD τ), SemLoc.dma (yrS 3)) () = 2 from lv_yr c 3]; exact above_owedF c 3 (by decide)))
      iexact Hlev
    iexact Hat
  iclear HIw
  iintro ⟨HO, Hat, -, Hpay⟩
  ihave HYk := (Entails.of_eq (rest_yr' m c 3)) $$ Hpay
  ihave #HIx := (Prep.inv_yr m K c 3) $$ HI
  imod (Rounds.cell_close ER (rd m) (Set.mem_univ (K (c, some (1, 3)))) (fun h => h) (R := 0 + 1) (duties_yr_later m c 3)) $$ [Hat] with Hz
  · isplitr; · iexact HIx
    iexact Hat
  iclear HIx
  ihave AccZyr := (acc_step (famZyr (F := F) c) 3 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W6, HO⟩
  -- step 77: send k0_dev70 src=arg1[(k0_off3 d0 192#32)] dst=arg1[(k0_off3 d0 192#32)] ssem=arg4[3] rsem=arg5[3]
  first | sl_exec | skip
  ihave Hs := (Entails.of_eq (take_step (famTFS (F := F) c) 3 (by decide))) $$ [FtFS]
  · iexact FtFS
  icases Hs with ⟨Ht1, FtFS⟩
  ihave Hs := (Entails.of_eq (take_step (famTFRP (F := F) c) 3 (by decide))) $$ [FtFRP]
  · iexact FtFRP
  icases Hs with ⟨Ht2, FtFRP⟩
  ihave Hs := (Entails.of_eq (take_step (famDF m c) 3 (by decide))) $$ [FdF]
  · iexact FdF
  icases Hs with ⟨Hd, FdF⟩
  ihave #HI1 := (Prep.inv_fs m K c 3) $$ HI
  ihave #HI2 := (Prep.inv_fr m K (xp c) 3) $$ HI
  ihave #HR1 := (Prep.reached_fs (F := F) c 3) $$ HR
  ihave #HR2 := (Prep.reached_fr (F := F) (xp c) 3) $$ HR
  iapply (wp_fsend m c _ (dev70_eq c) 3 (K (c, some (2, 3))) (K (xp c, some (3, 3))) (owedF c 3) (owedF c 4)
      (by rw [owedF_succ' c 3 (by decide)]; rfl) W6) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 3 (by decide)) $$ [AccCFS Hc]
  · isplitl [AccCFS]; · iexact AccCFS
    iexact Hc
  -- step 78: wait arg3[4] (arg0[(k0_off2 d0 256#32)], arg1[(k0_off1 d0 256#32)])
  first | sl_exec | skip
  ihave Hs := (Entails.of_eq (take_step (famCYR (F := F) c) 4 (by decide))) $$ [FcYR]
  · iexact FcYR
  icases Hs with ⟨Hc, FcYR⟩
  ihave Hs := (Entails.of_eq (take_step (famAtYR (F := F) c) 4 (by decide))) $$ [FatYR]
  · iexact FatYR
  icases Hs with ⟨Hat, FatYR⟩
  ihave #HIw := (Prep.inv_yr m K c 4) $$ HI
  iapply (Rounds.wp_wait_rest_token 𝒱₀ ER (rd m) (c : Thread nD τ) none (κ := K (c, some (1, 4))) (sm := .dma (yrS 4))
      (wpE_waitDma2_eq 𝒱₀ (c : Thread nD τ) none Set.univ (src := ySrc c 4) (dst := yDst c 4)) (Set.mem_univ _) () (O := owedF c 4) (W := W6) (R := 0) (m := 0) (T := ∅)
      (by rw [Nat.zero_add]; exact (expect_yr m c 4).symm)) $$ [Hc HO Hat]
  · isplitr; · iexact HIw
    isplitl [Hc]; · iexact Hc
    isplitl [HO]; · iexact HO
    isplitr
    · iapply (mayWait_of_above c (.dma (yrS 4)) _ (by rw [show lv ((c : Thread nD τ), SemLoc.dma (yrS 4)) () = 2 from lv_yr c 4]; exact above_owedF c 4 (by decide)))
      iexact Hlev
    iexact Hat
  iclear HIw
  iintro ⟨HO, Hat, -, Hpay⟩
  ihave HYk := (Entails.of_eq (rest_yr' m c 4)) $$ Hpay
  ihave #HIx := (Prep.inv_yr m K c 4) $$ HI
  imod (Rounds.cell_close ER (rd m) (Set.mem_univ (K (c, some (1, 4)))) (fun h => h) (R := 0 + 1) (duties_yr_later m c 4)) $$ [Hat] with Hz
  · isplitr; · iexact HIx
    iexact Hat
  iclear HIx
  ihave AccZyr := (acc_step (famZyr (F := F) c) 4 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W7, HO⟩
  -- step 79: send k0_dev71 src=arg1[(k0_off3 d0 256#32)] dst=arg1[(k0_off3 d0 256#32)] ssem=arg4[4] rsem=arg5[4]
  first | sl_exec | skip
  ihave Hs := (Entails.of_eq (take_step (famTFS (F := F) c) 4 (by decide))) $$ [FtFS]
  · iexact FtFS
  icases Hs with ⟨Ht1, FtFS⟩
  ihave Hs := (Entails.of_eq (take_step (famTFRP (F := F) c) 4 (by decide))) $$ [FtFRP]
  · iexact FtFRP
  icases Hs with ⟨Ht2, FtFRP⟩
  ihave Hs := (Entails.of_eq (take_step (famDF m c) 4 (by decide))) $$ [FdF]
  · iexact FdF
  icases Hs with ⟨Hd, FdF⟩
  ihave #HI1 := (Prep.inv_fs m K c 4) $$ HI
  ihave #HI2 := (Prep.inv_fr m K (xp c) 4) $$ HI
  ihave #HR1 := (Prep.reached_fs (F := F) c 4) $$ HR
  ihave #HR2 := (Prep.reached_fr (F := F) (xp c) 4) $$ HR
  iapply (wp_fsend m c _ (dev71_eq c) 4 (K (c, some (2, 4))) (K (xp c, some (3, 4))) (owedF c 4) (owedF c 5)
      (by rw [owedF_succ' c 4 (by decide)]; rfl) W7) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 4 (by decide)) $$ [AccCFS Hc]
  · isplitl [AccCFS]; · iexact AccCFS
    iexact Hc
  -- step 80: copy src=arg0[(k0_off6 d0)] dst=arg6[![1, 0, 0]] sem=arg7[1]
  first | sl_exec | skip
  ihave Hs := (Entails.of_eq (take_step (famXL m c) 1 (by decide))) $$ [FxL]
  · iexact FxL
  icases Hs with ⟨Hxl, FxL⟩
  ihave #HIl := (Prep.inv_ls m KL c 1) $$ HIL
  iapply (Rounds.wp_copy_pointsTo 𝒱₀ ER (rd m) (c : Thread nD τ) none (src := lSrc c 1) (dst := vSlot 1) (sem := .dma (lsS 1)) (q := fullShare) (fs := xC m c) (fd := fv)
      (r := 0) (d := false) (κ := KL (c, 1)) (by rw [duties_ls m c 1 0 (by decide)]; exact Finset.mem_singleton_self _) () NV rfl (amount_ld m c 1 0 false)
      (by rw [payload_ls, vLand_pts m c 1 1 (fv)]; exact BI.Entails.refl _)) $$ [Hxl Hv1 Htl1_0]
  · isplitr; · iexact HIl
    isplitl [Hxl]; · iexact Hxl
    isplitl [Hv1]; · iexact Hv1
    isplitl [Htl1_0]; · iexact Htl1_0
    iexact HRl1
  iclear HIl
  iintro Hc_l1
  -- step 81: wait arg7[1] (arg0[(k0_off6 d0)], arg6[![1, 0, 0]])
  first | sl_exec | skip
  ihave #HIw := (Prep.inv_ls m KL c 1) $$ HIL
  iapply (Rounds.wp_wait_rest_token 𝒱₀ ER (rd m) (c : Thread nD τ) none (κ := KL (c, 1)) (sm := .dma (lsS 1))
      (wpE_waitDma2_eq 𝒱₀ (c : Thread nD τ) none Set.univ (src := lSrc c 1) (dst := vSlot 1)) (Set.mem_univ _) () (O := owedF c 5) (W := W7) (R := 0) (m := 0) (T := ∅)
      (by rw [Nat.zero_add]; exact (expect_ld m c 1 0 (by decide)).symm)) $$ [Hc_l1 HO Hat_l1]
  · isplitr; · iexact HIw
    isplitl [Hc_l1]; · iexact Hc_l1
    isplitl [HO]; · iexact HO
    isplitr
    · iapply (mayWait_of_above c (.dma (lsS 1)) _ (by rw [show lv ((c : Thread nD τ), SemLoc.dma (lsS 1)) () = 0 from lv_ls c 1]; exact above_owedF c 5 (by decide)))
      iexact Hlev
    iexact Hat_l1
  iclear HIw
  iclear HRl1
  iintro ⟨HO, Hat_l1, #HRl1, Hpay⟩
  ihave Hp := (Entails.of_eq (rest_ld1 m c 0 (by decide))) $$ Hpay
  icases Hp with ⟨Hv1, Hxlq⟩
  ihave AccXL := (acc_step (famXL m c) 1 (by decide)) $$ [AccXL Hxlq]
  · isplitl [AccXL]; · iexact AccXL
    iexact Hxlq
  ihave HOe : iprop(∃ W' : Waits sig Unit, owes (c : Thread nD τ) _ W') $$ [HO]
  · iexists _; iexact HO
  icases HOe with ⟨%W8, HO⟩
  -- step 82: copy src=arg6[![1, 0, 0]] dst=arg1[(k0_off5 d0 512#32)] sem=arg7[3]
  first | sl_exec | skip
  ihave Hs := (Entails.of_eq (take_step (famOL0 m c) 1 (by decide))) $$ [FoL]
  · iexact FoL
  icases Hs with ⟨Hol, FoL⟩
  ihave #HIl := (Prep.inv_ls m KL c 3) $$ HIL
  iapply (Rounds.wp_copy_pointsTo 𝒱₀ ER (rd m) (c : Thread nD τ) none (src := vSlot 1) (dst := lDst c 1) (sem := .dma (lsS 3)) (q := fullShare) (fs := VC m c 1) (fd := o0 m c)
      (r := 0) (d := false) (κ := KL (c, 3)) (by rw [duties_ls m c 3 0 (by decide)]; exact Finset.mem_singleton_self _) () NO rfl (amount_st m c 1 0 false)
      (by rw [payload_ls, lLandV_pts m c 1 1 (o0 m c)]; exact BI.Entails.refl _)) $$ [Hv1 Hol Htl3_0]
  · isplitr; · iexact HIl
    isplitl [Hv1]; · iexact Hv1
    isplitl [Hol]; · iexact Hol
    isplitl [Htl3_0]; · iexact Htl3_0
    iexact HRl3
  iclear HIl
  iintro Hc_l3
  -- step 83: wait arg3[5] (arg0[(k0_off2 d0 320#32)], arg1[(k0_off1 d0 320#32)])
  first | sl_exec | skip
  ihave Hs := (Entails.of_eq (take_step (famCYR (F := F) c) 5 (by decide))) $$ [FcYR]
  · iexact FcYR
  icases Hs with ⟨Hc, FcYR⟩
  ihave Hs := (Entails.of_eq (take_step (famAtYR (F := F) c) 5 (by decide))) $$ [FatYR]
  · iexact FatYR
  icases Hs with ⟨Hat, FatYR⟩
  ihave #HIw := (Prep.inv_yr m K c 5) $$ HI
  iapply (Rounds.wp_wait_rest_token 𝒱₀ ER (rd m) (c : Thread nD τ) none (κ := K (c, some (1, 5))) (sm := .dma (yrS 5))
      (wpE_waitDma2_eq 𝒱₀ (c : Thread nD τ) none Set.univ (src := ySrc c 5) (dst := yDst c 5)) (Set.mem_univ _) () (O := owedF c 5) (W := W8) (R := 0) (m := 0) (T := ∅)
      (by rw [Nat.zero_add]; exact (expect_yr m c 5).symm)) $$ [Hc HO Hat]
  · isplitr; · iexact HIw
    isplitl [Hc]; · iexact Hc
    isplitl [HO]; · iexact HO
    isplitr
    · iapply (mayWait_of_above c (.dma (yrS 5)) _ (by rw [show lv ((c : Thread nD τ), SemLoc.dma (yrS 5)) () = 2 from lv_yr c 5]; exact above_owedF c 5 (by decide)))
      iexact Hlev
    iexact Hat
  iclear HIw
  iintro ⟨HO, Hat, -, Hpay⟩
  ihave HYk := (Entails.of_eq (rest_yr' m c 5)) $$ Hpay
  ihave #HIx := (Prep.inv_yr m K c 5) $$ HI
  imod (Rounds.cell_close ER (rd m) (Set.mem_univ (K (c, some (1, 5)))) (fun h => h) (R := 0 + 1) (duties_yr_later m c 5)) $$ [Hat] with Hz
  · isplitr; · iexact HIx
    iexact Hat
  iclear HIx
  ihave AccZyr := (acc_step (famZyr (F := F) c) 5 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W9, HO⟩
  -- step 84: send k0_dev72 src=arg1[(k0_off3 d0 320#32)] dst=arg1[(k0_off3 d0 320#32)] ssem=arg4[5] rsem=arg5[5]
  first | sl_exec | skip
  ihave Hs := (Entails.of_eq (take_step (famTFS (F := F) c) 5 (by decide))) $$ [FtFS]
  · iexact FtFS
  icases Hs with ⟨Ht1, FtFS⟩
  ihave Hs := (Entails.of_eq (take_step (famTFRP (F := F) c) 5 (by decide))) $$ [FtFRP]
  · iexact FtFRP
  icases Hs with ⟨Ht2, FtFRP⟩
  ihave Hs := (Entails.of_eq (take_step (famDF m c) 5 (by decide))) $$ [FdF]
  · iexact FdF
  icases Hs with ⟨Hd, FdF⟩
  ihave #HI1 := (Prep.inv_fs m K c 5) $$ HI
  ihave #HI2 := (Prep.inv_fr m K (xp c) 5) $$ HI
  ihave #HR1 := (Prep.reached_fs (F := F) c 5) $$ HR
  ihave #HR2 := (Prep.reached_fr (F := F) (xp c) 5) $$ HR
  iapply (wp_fsend m c _ (dev72_eq c) 5 (K (c, some (2, 5))) (K (xp c, some (3, 5))) (owedF c 5) (owedF c 6)
      (by rw [owedF_succ' c 5 (by decide)]; rfl) W9) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 5 (by decide)) $$ [AccCFS Hc]
  · isplitl [AccCFS]; · iexact AccCFS
    iexact Hc
  -- step 85: wait arg3[6] (arg0[(k0_off2 d0 384#32)], arg1[(k0_off1 d0 384#32)])
  first | sl_exec | skip
  ihave Hs := (Entails.of_eq (take_step (famCYR (F := F) c) 6 (by decide))) $$ [FcYR]
  · iexact FcYR
  icases Hs with ⟨Hc, FcYR⟩
  ihave Hs := (Entails.of_eq (take_step (famAtYR (F := F) c) 6 (by decide))) $$ [FatYR]
  · iexact FatYR
  icases Hs with ⟨Hat, FatYR⟩
  ihave #HIw := (Prep.inv_yr m K c 6) $$ HI
  iapply (Rounds.wp_wait_rest_token 𝒱₀ ER (rd m) (c : Thread nD τ) none (κ := K (c, some (1, 6))) (sm := .dma (yrS 6))
      (wpE_waitDma2_eq 𝒱₀ (c : Thread nD τ) none Set.univ (src := ySrc c 6) (dst := yDst c 6)) (Set.mem_univ _) () (O := owedF c 6) (W := W9) (R := 0) (m := 0) (T := ∅)
      (by rw [Nat.zero_add]; exact (expect_yr m c 6).symm)) $$ [Hc HO Hat]
  · isplitr; · iexact HIw
    isplitl [Hc]; · iexact Hc
    isplitl [HO]; · iexact HO
    isplitr
    · iapply (mayWait_of_above c (.dma (yrS 6)) _ (by rw [show lv ((c : Thread nD τ), SemLoc.dma (yrS 6)) () = 2 from lv_yr c 6]; exact above_owedF c 6 (by decide)))
      iexact Hlev
    iexact Hat
  iclear HIw
  iintro ⟨HO, Hat, -, Hpay⟩
  ihave HYk := (Entails.of_eq (rest_yr' m c 6)) $$ Hpay
  ihave #HIx := (Prep.inv_yr m K c 6) $$ HI
  imod (Rounds.cell_close ER (rd m) (Set.mem_univ (K (c, some (1, 6)))) (fun h => h) (R := 0 + 1) (duties_yr_later m c 6)) $$ [Hat] with Hz
  · isplitr; · iexact HIx
    iexact Hat
  iclear HIx
  ihave AccZyr := (acc_step (famZyr (F := F) c) 6 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W10, HO⟩
  -- step 86: send k0_dev73 src=arg1[(k0_off3 d0 384#32)] dst=arg1[(k0_off3 d0 384#32)] ssem=arg4[6] rsem=arg5[6]
  first | sl_exec | skip
  ihave Hs := (Entails.of_eq (take_step (famTFS (F := F) c) 6 (by decide))) $$ [FtFS]
  · iexact FtFS
  icases Hs with ⟨Ht1, FtFS⟩
  ihave Hs := (Entails.of_eq (take_step (famTFRP (F := F) c) 6 (by decide))) $$ [FtFRP]
  · iexact FtFRP
  icases Hs with ⟨Ht2, FtFRP⟩
  ihave Hs := (Entails.of_eq (take_step (famDF m c) 6 (by decide))) $$ [FdF]
  · iexact FdF
  icases Hs with ⟨Hd, FdF⟩
  ihave #HI1 := (Prep.inv_fs m K c 6) $$ HI
  ihave #HI2 := (Prep.inv_fr m K (xp c) 6) $$ HI
  ihave #HR1 := (Prep.reached_fs (F := F) c 6) $$ HR
  ihave #HR2 := (Prep.reached_fr (F := F) (xp c) 6) $$ HR
  iapply (wp_fsend m c _ (dev73_eq c) 6 (K (c, some (2, 6))) (K (xp c, some (3, 6))) (owedF c 6) (owedF c 7)
      (by rw [owedF_succ' c 6 (by decide)]; rfl) W10) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 6 (by decide)) $$ [AccCFS Hc]
  · isplitl [AccCFS]; · iexact AccCFS
    iexact Hc
  -- step 87: wait arg3[7] (arg0[(k0_off2 d0 448#32)], arg1[(k0_off1 d0 448#32)])
  first | sl_exec | skip
  ihave Hs := (Entails.of_eq (take_step (famCYR (F := F) c) 7 (by decide))) $$ [FcYR]
  · iexact FcYR
  icases Hs with ⟨Hc, FcYR⟩
  ihave Hs := (Entails.of_eq (take_step (famAtYR (F := F) c) 7 (by decide))) $$ [FatYR]
  · iexact FatYR
  icases Hs with ⟨Hat, FatYR⟩
  ihave #HIw := (Prep.inv_yr m K c 7) $$ HI
  iapply (Rounds.wp_wait_rest_token 𝒱₀ ER (rd m) (c : Thread nD τ) none (κ := K (c, some (1, 7))) (sm := .dma (yrS 7))
      (wpE_waitDma2_eq 𝒱₀ (c : Thread nD τ) none Set.univ (src := ySrc c 7) (dst := yDst c 7)) (Set.mem_univ _) () (O := owedF c 7) (W := W10) (R := 0) (m := 0) (T := ∅)
      (by rw [Nat.zero_add]; exact (expect_yr m c 7).symm)) $$ [Hc HO Hat]
  · isplitr; · iexact HIw
    isplitl [Hc]; · iexact Hc
    isplitl [HO]; · iexact HO
    isplitr
    · iapply (mayWait_of_above c (.dma (yrS 7)) _ (by rw [show lv ((c : Thread nD τ), SemLoc.dma (yrS 7)) () = 2 from lv_yr c 7]; exact above_owedF c 7 (by decide)))
      iexact Hlev
    iexact Hat
  iclear HIw
  iintro ⟨HO, Hat, -, Hpay⟩
  ihave HYk := (Entails.of_eq (rest_yr' m c 7)) $$ Hpay
  ihave #HIx := (Prep.inv_yr m K c 7) $$ HI
  imod (Rounds.cell_close ER (rd m) (Set.mem_univ (K (c, some (1, 7)))) (fun h => h) (R := 0 + 1) (duties_yr_later m c 7)) $$ [Hat] with Hz
  · isplitr; · iexact HIx
    iexact Hat
  iclear HIx
  ihave AccZyr := (acc_step (famZyr (F := F) c) 7 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W11, HO⟩
  -- step 88: send k0_dev74 src=arg1[(k0_off3 d0 448#32)] dst=arg1[(k0_off3 d0 448#32)] ssem=arg4[7] rsem=arg5[7]
  first | sl_exec | skip
  ihave Hs := (Entails.of_eq (take_step (famTFS (F := F) c) 7 (by decide))) $$ [FtFS]
  · iexact FtFS
  icases Hs with ⟨Ht1, FtFS⟩
  ihave Hs := (Entails.of_eq (take_step (famTFRP (F := F) c) 7 (by decide))) $$ [FtFRP]
  · iexact FtFRP
  icases Hs with ⟨Ht2, FtFRP⟩
  ihave Hs := (Entails.of_eq (take_step (famDF m c) 7 (by decide))) $$ [FdF]
  · iexact FdF
  icases Hs with ⟨Hd, FdF⟩
  ihave #HI1 := (Prep.inv_fs m K c 7) $$ HI
  ihave #HI2 := (Prep.inv_fr m K (xp c) 7) $$ HI
  ihave #HR1 := (Prep.reached_fs (F := F) c 7) $$ HR
  ihave #HR2 := (Prep.reached_fr (F := F) (xp c) 7) $$ HR
  iapply (wp_fsend m c _ (dev74_eq c) 7 (K (c, some (2, 7))) (K (xp c, some (3, 7))) (owedF c 7) (owedF c 8)
      (by rw [owedF_succ' c 7 (by decide)]; rfl) W11) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 7 (by decide)) $$ [AccCFS Hc]
  · isplitl [AccCFS]; · iexact AccCFS
    iexact Hc
  -- step 89: wait arg3[8] (arg0[(k0_off2 d0 512#32)], arg1[(k0_off1 d0 512#32)])
  first | sl_exec | skip
  ihave Hs := (Entails.of_eq (take_step (famCYR (F := F) c) 8 (by decide))) $$ [FcYR]
  · iexact FcYR
  icases Hs with ⟨Hc, FcYR⟩
  ihave Hs := (Entails.of_eq (take_step (famAtYR (F := F) c) 8 (by decide))) $$ [FatYR]
  · iexact FatYR
  icases Hs with ⟨Hat, FatYR⟩
  ihave #HIw := (Prep.inv_yr m K c 8) $$ HI
  iapply (Rounds.wp_wait_rest_token 𝒱₀ ER (rd m) (c : Thread nD τ) none (κ := K (c, some (1, 8))) (sm := .dma (yrS 8))
      (wpE_waitDma2_eq 𝒱₀ (c : Thread nD τ) none Set.univ (src := ySrc c 8) (dst := yDst c 8)) (Set.mem_univ _) () (O := owedF c 8) (W := W11) (R := 0) (m := 0) (T := ∅)
      (by rw [Nat.zero_add]; exact (expect_yr m c 8).symm)) $$ [Hc HO Hat]
  · isplitr; · iexact HIw
    isplitl [Hc]; · iexact Hc
    isplitl [HO]; · iexact HO
    isplitr
    · iapply (mayWait_of_above c (.dma (yrS 8)) _ (by rw [show lv ((c : Thread nD τ), SemLoc.dma (yrS 8)) () = 2 from lv_yr c 8]; exact above_owedF c 8 (by decide)))
      iexact Hlev
    iexact Hat
  iclear HIw
  iintro ⟨HO, Hat, -, Hpay⟩
  ihave HYk := (Entails.of_eq (rest_yr' m c 8)) $$ Hpay
  ihave #HIx := (Prep.inv_yr m K c 8) $$ HI
  imod (Rounds.cell_close ER (rd m) (Set.mem_univ (K (c, some (1, 8)))) (fun h => h) (R := 0 + 1) (duties_yr_later m c 8)) $$ [Hat] with Hz
  · isplitr; · iexact HIx
    iexact Hat
  iclear HIx
  ihave AccZyr := (acc_step (famZyr (F := F) c) 8 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W12, HO⟩
  -- step 90: send k0_dev75 src=arg1[(k0_off3 d0 512#32)] dst=arg1[(k0_off3 d0 512#32)] ssem=arg4[8] rsem=arg5[8]
  first | sl_exec | skip
  ihave Hs := (Entails.of_eq (take_step (famTFS (F := F) c) 8 (by decide))) $$ [FtFS]
  · iexact FtFS
  icases Hs with ⟨Ht1, FtFS⟩
  ihave Hs := (Entails.of_eq (take_step (famTFRP (F := F) c) 8 (by decide))) $$ [FtFRP]
  · iexact FtFRP
  icases Hs with ⟨Ht2, FtFRP⟩
  ihave Hs := (Entails.of_eq (take_step (famDF m c) 8 (by decide))) $$ [FdF]
  · iexact FdF
  icases Hs with ⟨Hd, FdF⟩
  ihave #HI1 := (Prep.inv_fs m K c 8) $$ HI
  ihave #HI2 := (Prep.inv_fr m K (xp c) 8) $$ HI
  ihave #HR1 := (Prep.reached_fs (F := F) c 8) $$ HR
  ihave #HR2 := (Prep.reached_fr (F := F) (xp c) 8) $$ HR
  iapply (wp_fsend m c _ (dev75_eq c) 8 (K (c, some (2, 8))) (K (xp c, some (3, 8))) (owedF c 8) (owedF c 9)
      (by rw [owedF_succ' c 8 (by decide)]; rfl) W12) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 8 (by decide)) $$ [AccCFS Hc]
  · isplitl [AccCFS]; · iexact AccCFS
    iexact Hc
  -- step 91: wait arg7[2] (arg6[![0, 0, 0]], arg1[(k0_off5 d0 0#32)])
  first | sl_exec | skip
  ihave #HIw := (Prep.inv_ls m KL c 2) $$ HIL
  iapply (Rounds.wp_wait_rest_token 𝒱₀ ER (rd m) (c : Thread nD τ) none (κ := KL (c, 2)) (sm := .dma (lsS 2))
      (wpE_waitDma2_eq 𝒱₀ (c : Thread nD τ) none Set.univ (src := vSlot 0) (dst := lDst c 0)) (Set.mem_univ _) () (O := owedF c 9) (W := W12) (R := 0) (m := 0) (T := ∅)
      (by rw [Nat.zero_add]; exact (expect_st m c 0 0 (by decide)).symm)) $$ [Hc_l2 HO Hat_l2]
  · isplitr; · iexact HIw
    isplitl [Hc_l2]; · iexact Hc_l2
    isplitl [HO]; · iexact HO
    isplitr
    · iapply (mayWait_of_above c (.dma (lsS 2)) _ (by rw [show lv ((c : Thread nD τ), SemLoc.dma (lsS 2)) () = 0 from lv_ls c 2]; exact above_owedF c 9 (by decide)))
      iexact Hlev
    iexact Hat_l2
  iclear HIw
  iclear HRl2
  iintro ⟨HO, Hat_l2, #HRl2, Hpay⟩
  ihave Hp := (Entails.of_eq (rest_st0 m c 0 (by decide))) $$ Hpay
  icases Hp with ⟨Holq, Hv0⟩
  ihave AccOL := (acc_one (famOL m c) (by decide)) $$ [Holq]
  · iexact Holq
  ihave HOe : iprop(∃ W' : Waits sig Unit, owes (c : Thread nD τ) _ W') $$ [HO]
  · iexists _; iexact HO
  icases HOe with ⟨%W13, HO⟩
  -- step 92: copy src=arg0[(k0_off7 d0)] dst=arg6[![0, 0, 0]] sem=arg7[0]
  first | sl_exec | skip
  ihave Hs := (Entails.of_eq (take_step (famXL m c) 2 (by decide))) $$ [FxL]
  · iexact FxL
  icases Hs with ⟨Hxl, FxL⟩
  ihave #HIl := (Prep.inv_ls m KL c 0) $$ HIL
  iapply (Rounds.wp_copy_pointsTo 𝒱₀ ER (rd m) (c : Thread nD τ) none (src := lSrc c 2) (dst := vSlot 0) (sem := .dma (lsS 0)) (q := fullShare) (fs := xC m c) (fd := VC m c 0)
      (r := 1) (d := false) (κ := KL (c, 0)) (by rw [duties_ls m c 0 1 (by decide)]; exact Finset.mem_singleton_self _) () NV rfl (amount_ld m c 0 1 false)
      (by rw [payload_ls, vLand_pts m c 2 0 (VC m c 0)]; exact BI.Entails.refl _)) $$ [Hxl Hv0 Htl0_1]
  · isplitr; · iexact HIl
    isplitl [Hxl]; · iexact Hxl
    isplitl [Hv0]; · iexact Hv0
    isplitl [Htl0_1]; · iexact Htl0_1
    iexact HRl0
  iclear HIl
  iintro Hc_l0
  -- step 93: wait arg7[0] (arg0[(k0_off7 d0)], arg6[![0, 0, 0]])
  first | sl_exec | skip
  ihave #HIw := (Prep.inv_ls m KL c 0) $$ HIL
  iapply (Rounds.wp_wait_rest_token 𝒱₀ ER (rd m) (c : Thread nD τ) none (κ := KL (c, 0)) (sm := .dma (lsS 0))
      (wpE_waitDma2_eq 𝒱₀ (c : Thread nD τ) none Set.univ (src := lSrc c 2) (dst := vSlot 0)) (Set.mem_univ _) () (O := owedF c 9) (W := W13) (R := 1) (m := 0) (T := ∅)
      (by rw [Nat.zero_add]; exact (expect_ld m c 0 1 (by decide)).symm)) $$ [Hc_l0 HO Hat_l0]
  · isplitr; · iexact HIw
    isplitl [Hc_l0]; · iexact Hc_l0
    isplitl [HO]; · iexact HO
    isplitr
    · iapply (mayWait_of_above c (.dma (lsS 0)) _ (by rw [show lv ((c : Thread nD τ), SemLoc.dma (lsS 0)) () = 0 from lv_ls c 0]; exact above_owedF c 9 (by decide)))
      iexact Hlev
    iexact Hat_l0
  iclear HIw
  iclear HRl0
  iintro ⟨HO, Hat_l0, #HRl0, Hpay⟩
  ihave Hp := (Entails.of_eq (rest_ld0 m c 1 (by decide))) $$ Hpay
  icases Hp with ⟨Hv0, Hxlq⟩
  ihave AccXL := (acc_step (famXL m c) 2 (by decide)) $$ [AccXL Hxlq]
  · isplitl [AccXL]; · iexact AccXL
    iexact Hxlq
  ihave HOe : iprop(∃ W' : Waits sig Unit, owes (c : Thread nD τ) _ W') $$ [HO]
  · iexists _; iexact HO
  icases HOe with ⟨%W14, HO⟩
  -- step 94: copy src=arg6[![0, 0, 0]] dst=arg1[(k0_off5 d0 1024#32)] sem=arg7[2]
  first | sl_exec | skip
  ihave Hs := (Entails.of_eq (take_step (famOL0 m c) 2 (by decide))) $$ [FoL]
  · iexact FoL
  icases Hs with ⟨Hol, FoL⟩
  ihave #HIl := (Prep.inv_ls m KL c 2) $$ HIL
  iapply (Rounds.wp_copy_pointsTo 𝒱₀ ER (rd m) (c : Thread nD τ) none (src := vSlot 0) (dst := lDst c 2) (sem := .dma (lsS 2)) (q := fullShare) (fs := VC m c 2) (fd := o0 m c)
      (r := 1) (d := false) (κ := KL (c, 2)) (by rw [duties_ls m c 2 1 (by decide)]; exact Finset.mem_singleton_self _) () NO rfl (amount_st m c 0 1 false)
      (by rw [payload_ls, lLandV_pts m c 2 0 (o0 m c)]; exact BI.Entails.refl _)) $$ [Hv0 Hol Htl2_1]
  · isplitr; · iexact HIl
    isplitl [Hv0]; · iexact Hv0
    isplitl [Hol]; · iexact Hol
    isplitl [Htl2_1]; · iexact Htl2_1
    iexact HRl2
  iclear HIl
  iintro Hc_l2
  -- step 95: wait arg3[9] (arg0[(k0_off2 d0 576#32)], arg1[(k0_off1 d0 576#32)])
  first | sl_exec | skip
  ihave Hs := (Entails.of_eq (take_step (famCYR (F := F) c) 9 (by decide))) $$ [FcYR]
  · iexact FcYR
  icases Hs with ⟨Hc, FcYR⟩
  ihave Hs := (Entails.of_eq (take_step (famAtYR (F := F) c) 9 (by decide))) $$ [FatYR]
  · iexact FatYR
  icases Hs with ⟨Hat, FatYR⟩
  ihave #HIw := (Prep.inv_yr m K c 9) $$ HI
  iapply (Rounds.wp_wait_rest_token 𝒱₀ ER (rd m) (c : Thread nD τ) none (κ := K (c, some (1, 9))) (sm := .dma (yrS 9))
      (wpE_waitDma2_eq 𝒱₀ (c : Thread nD τ) none Set.univ (src := ySrc c 9) (dst := yDst c 9)) (Set.mem_univ _) () (O := owedF c 9) (W := W14) (R := 0) (m := 0) (T := ∅)
      (by rw [Nat.zero_add]; exact (expect_yr m c 9).symm)) $$ [Hc HO Hat]
  · isplitr; · iexact HIw
    isplitl [Hc]; · iexact Hc
    isplitl [HO]; · iexact HO
    isplitr
    · iapply (mayWait_of_above c (.dma (yrS 9)) _ (by rw [show lv ((c : Thread nD τ), SemLoc.dma (yrS 9)) () = 2 from lv_yr c 9]; exact above_owedF c 9 (by decide)))
      iexact Hlev
    iexact Hat
  iclear HIw
  iintro ⟨HO, Hat, -, Hpay⟩
  ihave HYk := (Entails.of_eq (rest_yr' m c 9)) $$ Hpay
  ihave #HIx := (Prep.inv_yr m K c 9) $$ HI
  imod (Rounds.cell_close ER (rd m) (Set.mem_univ (K (c, some (1, 9)))) (fun h => h) (R := 0 + 1) (duties_yr_later m c 9)) $$ [Hat] with Hz
  · isplitr; · iexact HIx
    iexact Hat
  iclear HIx
  ihave AccZyr := (acc_step (famZyr (F := F) c) 9 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W15, HO⟩
  -- step 96: send k0_dev76 src=arg1[(k0_off3 d0 576#32)] dst=arg1[(k0_off3 d0 576#32)] ssem=arg4[9] rsem=arg5[9]
  first | sl_exec | skip
  ihave Hs := (Entails.of_eq (take_step (famTFS (F := F) c) 9 (by decide))) $$ [FtFS]
  · iexact FtFS
  icases Hs with ⟨Ht1, FtFS⟩
  ihave Hs := (Entails.of_eq (take_step (famTFRP (F := F) c) 9 (by decide))) $$ [FtFRP]
  · iexact FtFRP
  icases Hs with ⟨Ht2, FtFRP⟩
  ihave Hs := (Entails.of_eq (take_step (famDF m c) 9 (by decide))) $$ [FdF]
  · iexact FdF
  icases Hs with ⟨Hd, FdF⟩
  ihave #HI1 := (Prep.inv_fs m K c 9) $$ HI
  ihave #HI2 := (Prep.inv_fr m K (xp c) 9) $$ HI
  ihave #HR1 := (Prep.reached_fs (F := F) c 9) $$ HR
  ihave #HR2 := (Prep.reached_fr (F := F) (xp c) 9) $$ HR
  iapply (wp_fsend m c _ (dev76_eq c) 9 (K (c, some (2, 9))) (K (xp c, some (3, 9))) (owedF c 9) (owedF c 10)
      (by rw [owedF_succ' c 9 (by decide)]; rfl) W15) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 9 (by decide)) $$ [AccCFS Hc]
  · isplitl [AccCFS]; · iexact AccCFS
    iexact Hc
  -- step 97: wait arg3[10] (arg0[(k0_off2 d0 640#32)], arg1[(k0_off1 d0 640#32)])
  first | sl_exec | skip
  ihave Hs := (Entails.of_eq (take_step (famCYR (F := F) c) 10 (by decide))) $$ [FcYR]
  · iexact FcYR
  icases Hs with ⟨Hc, FcYR⟩
  ihave Hs := (Entails.of_eq (take_step (famAtYR (F := F) c) 10 (by decide))) $$ [FatYR]
  · iexact FatYR
  icases Hs with ⟨Hat, FatYR⟩
  ihave #HIw := (Prep.inv_yr m K c 10) $$ HI
  iapply (Rounds.wp_wait_rest_token 𝒱₀ ER (rd m) (c : Thread nD τ) none (κ := K (c, some (1, 10))) (sm := .dma (yrS 10))
      (wpE_waitDma2_eq 𝒱₀ (c : Thread nD τ) none Set.univ (src := ySrc c 10) (dst := yDst c 10)) (Set.mem_univ _) () (O := owedF c 10) (W := W15) (R := 0) (m := 0) (T := ∅)
      (by rw [Nat.zero_add]; exact (expect_yr m c 10).symm)) $$ [Hc HO Hat]
  · isplitr; · iexact HIw
    isplitl [Hc]; · iexact Hc
    isplitl [HO]; · iexact HO
    isplitr
    · iapply (mayWait_of_above c (.dma (yrS 10)) _ (by rw [show lv ((c : Thread nD τ), SemLoc.dma (yrS 10)) () = 2 from lv_yr c 10]; exact above_owedF c 10 (by decide)))
      iexact Hlev
    iexact Hat
  iclear HIw
  iintro ⟨HO, Hat, -, Hpay⟩
  ihave HYk := (Entails.of_eq (rest_yr' m c 10)) $$ Hpay
  ihave #HIx := (Prep.inv_yr m K c 10) $$ HI
  imod (Rounds.cell_close ER (rd m) (Set.mem_univ (K (c, some (1, 10)))) (fun h => h) (R := 0 + 1) (duties_yr_later m c 10)) $$ [Hat] with Hz
  · isplitr; · iexact HIx
    iexact Hat
  iclear HIx
  ihave AccZyr := (acc_step (famZyr (F := F) c) 10 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W16, HO⟩
  -- step 98: send k0_dev77 src=arg1[(k0_off3 d0 640#32)] dst=arg1[(k0_off3 d0 640#32)] ssem=arg4[10] rsem=arg5[10]
  first | sl_exec | skip
  ihave Hs := (Entails.of_eq (take_step (famTFS (F := F) c) 10 (by decide))) $$ [FtFS]
  · iexact FtFS
  icases Hs with ⟨Ht1, FtFS⟩
  ihave Hs := (Entails.of_eq (take_step (famTFRP (F := F) c) 10 (by decide))) $$ [FtFRP]
  · iexact FtFRP
  icases Hs with ⟨Ht2, FtFRP⟩
  ihave Hs := (Entails.of_eq (take_step (famDF m c) 10 (by decide))) $$ [FdF]
  · iexact FdF
  icases Hs with ⟨Hd, FdF⟩
  ihave #HI1 := (Prep.inv_fs m K c 10) $$ HI
  ihave #HI2 := (Prep.inv_fr m K (xp c) 10) $$ HI
  ihave #HR1 := (Prep.reached_fs (F := F) c 10) $$ HR
  ihave #HR2 := (Prep.reached_fr (F := F) (xp c) 10) $$ HR
  iapply (wp_fsend m c _ (dev77_eq c) 10 (K (c, some (2, 10))) (K (xp c, some (3, 10))) (owedF c 10) (owedF c 11)
      (by rw [owedF_succ' c 10 (by decide)]; rfl) W16) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 10 (by decide)) $$ [AccCFS Hc]
  · isplitl [AccCFS]; · iexact AccCFS
    iexact Hc
  -- step 99: wait arg3[11] (arg0[(k0_off2 d0 704#32)], arg1[(k0_off1 d0 704#32)])
  first | sl_exec | skip
  ihave Hs := (Entails.of_eq (take_step (famCYR (F := F) c) 11 (by decide))) $$ [FcYR]
  · iexact FcYR
  icases Hs with ⟨Hc, FcYR⟩
  ihave Hs := (Entails.of_eq (take_step (famAtYR (F := F) c) 11 (by decide))) $$ [FatYR]
  · iexact FatYR
  icases Hs with ⟨Hat, FatYR⟩
  ihave #HIw := (Prep.inv_yr m K c 11) $$ HI
  iapply (Rounds.wp_wait_rest_token 𝒱₀ ER (rd m) (c : Thread nD τ) none (κ := K (c, some (1, 11))) (sm := .dma (yrS 11))
      (wpE_waitDma2_eq 𝒱₀ (c : Thread nD τ) none Set.univ (src := ySrc c 11) (dst := yDst c 11)) (Set.mem_univ _) () (O := owedF c 11) (W := W16) (R := 0) (m := 0) (T := ∅)
      (by rw [Nat.zero_add]; exact (expect_yr m c 11).symm)) $$ [Hc HO Hat]
  · isplitr; · iexact HIw
    isplitl [Hc]; · iexact Hc
    isplitl [HO]; · iexact HO
    isplitr
    · iapply (mayWait_of_above c (.dma (yrS 11)) _ (by rw [show lv ((c : Thread nD τ), SemLoc.dma (yrS 11)) () = 2 from lv_yr c 11]; exact above_owedF c 11 (by decide)))
      iexact Hlev
    iexact Hat
  iclear HIw
  iintro ⟨HO, Hat, -, Hpay⟩
  ihave HYk := (Entails.of_eq (rest_yr' m c 11)) $$ Hpay
  ihave #HIx := (Prep.inv_yr m K c 11) $$ HI
  imod (Rounds.cell_close ER (rd m) (Set.mem_univ (K (c, some (1, 11)))) (fun h => h) (R := 0 + 1) (duties_yr_later m c 11)) $$ [Hat] with Hz
  · isplitr; · iexact HIx
    iexact Hat
  iclear HIx
  ihave AccZyr := (acc_step (famZyr (F := F) c) 11 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W17, HO⟩
  -- step 100: send k0_dev78 src=arg1[(k0_off3 d0 704#32)] dst=arg1[(k0_off3 d0 704#32)] ssem=arg4[11] rsem=arg5[11]
  first | sl_exec | skip
  ihave Hs := (Entails.of_eq (take_step (famTFS (F := F) c) 11 (by decide))) $$ [FtFS]
  · iexact FtFS
  icases Hs with ⟨Ht1, FtFS⟩
  ihave Hs := (Entails.of_eq (take_step (famTFRP (F := F) c) 11 (by decide))) $$ [FtFRP]
  · iexact FtFRP
  icases Hs with ⟨Ht2, FtFRP⟩
  ihave Hs := (Entails.of_eq (take_step (famDF m c) 11 (by decide))) $$ [FdF]
  · iexact FdF
  icases Hs with ⟨Hd, FdF⟩
  ihave #HI1 := (Prep.inv_fs m K c 11) $$ HI
  ihave #HI2 := (Prep.inv_fr m K (xp c) 11) $$ HI
  ihave #HR1 := (Prep.reached_fs (F := F) c 11) $$ HR
  ihave #HR2 := (Prep.reached_fr (F := F) (xp c) 11) $$ HR
  iapply (wp_fsend m c _ (dev78_eq c) 11 (K (c, some (2, 11))) (K (xp c, some (3, 11))) (owedF c 11) (owedF c 12)
      (by rw [owedF_succ' c 11 (by decide)]; rfl) W17) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 11 (by decide)) $$ [AccCFS Hc]
  · isplitl [AccCFS]; · iexact AccCFS
    iexact Hc
  -- step 101: wait arg3[12] (arg0[(k0_off2 d0 768#32)], arg1[(k0_off1 d0 768#32)])
  first | sl_exec | skip
  ihave Hs := (Entails.of_eq (take_step (famCYR (F := F) c) 12 (by decide))) $$ [FcYR]
  · iexact FcYR
  icases Hs with ⟨Hc, FcYR⟩
  ihave Hs := (Entails.of_eq (take_step (famAtYR (F := F) c) 12 (by decide))) $$ [FatYR]
  · iexact FatYR
  icases Hs with ⟨Hat, FatYR⟩
  ihave #HIw := (Prep.inv_yr m K c 12) $$ HI
  iapply (Rounds.wp_wait_rest_token 𝒱₀ ER (rd m) (c : Thread nD τ) none (κ := K (c, some (1, 12))) (sm := .dma (yrS 12))
      (wpE_waitDma2_eq 𝒱₀ (c : Thread nD τ) none Set.univ (src := ySrc c 12) (dst := yDst c 12)) (Set.mem_univ _) () (O := owedF c 12) (W := W17) (R := 0) (m := 0) (T := ∅)
      (by rw [Nat.zero_add]; exact (expect_yr m c 12).symm)) $$ [Hc HO Hat]
  · isplitr; · iexact HIw
    isplitl [Hc]; · iexact Hc
    isplitl [HO]; · iexact HO
    isplitr
    · iapply (mayWait_of_above c (.dma (yrS 12)) _ (by rw [show lv ((c : Thread nD τ), SemLoc.dma (yrS 12)) () = 2 from lv_yr c 12]; exact above_owedF c 12 (by decide)))
      iexact Hlev
    iexact Hat
  iclear HIw
  iintro ⟨HO, Hat, -, Hpay⟩
  ihave HYk := (Entails.of_eq (rest_yr' m c 12)) $$ Hpay
  ihave #HIx := (Prep.inv_yr m K c 12) $$ HI
  imod (Rounds.cell_close ER (rd m) (Set.mem_univ (K (c, some (1, 12)))) (fun h => h) (R := 0 + 1) (duties_yr_later m c 12)) $$ [Hat] with Hz
  · isplitr; · iexact HIx
    iexact Hat
  iclear HIx
  ihave AccZyr := (acc_step (famZyr (F := F) c) 12 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W18, HO⟩
  -- step 102: send k0_dev79 src=arg1[(k0_off3 d0 768#32)] dst=arg1[(k0_off3 d0 768#32)] ssem=arg4[12] rsem=arg5[12]
  first | sl_exec | skip
  ihave Hs := (Entails.of_eq (take_step (famTFS (F := F) c) 12 (by decide))) $$ [FtFS]
  · iexact FtFS
  icases Hs with ⟨Ht1, FtFS⟩
  ihave Hs := (Entails.of_eq (take_step (famTFRP (F := F) c) 12 (by decide))) $$ [FtFRP]
  · iexact FtFRP
  icases Hs with ⟨Ht2, FtFRP⟩
  ihave Hs := (Entails.of_eq (take_step (famDF m c) 12 (by decide))) $$ [FdF]
  · iexact FdF
  icases Hs with ⟨Hd, FdF⟩
  ihave #HI1 := (Prep.inv_fs m K c 12) $$ HI
  ihave #HI2 := (Prep.inv_fr m K (xp c) 12) $$ HI
  ihave #HR1 := (Prep.reached_fs (F := F) c 12) $$ HR
  ihave #HR2 := (Prep.reached_fr (F := F) (xp c) 12) $$ HR
  iapply (wp_fsend m c _ (dev79_eq c) 12 (K (c, some (2, 12))) (K (xp c, some (3, 12))) (owedF c 12) (owedF c 13)
      (by rw [owedF_succ' c 12 (by decide)]; rfl) W18) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 12 (by decide)) $$ [AccCFS Hc]
  · isplitl [AccCFS]; · iexact AccCFS
    iexact Hc
  -- step 103: wait arg7[3] (arg6[![1, 0, 0]], arg1[(k0_off5 d0 512#32)])
  first | sl_exec | skip
  ihave #HIw := (Prep.inv_ls m KL c 3) $$ HIL
  iapply (Rounds.wp_wait_rest_token 𝒱₀ ER (rd m) (c : Thread nD τ) none (κ := KL (c, 3)) (sm := .dma (lsS 3))
      (wpE_waitDma2_eq 𝒱₀ (c : Thread nD τ) none Set.univ (src := vSlot 1) (dst := lDst c 1)) (Set.mem_univ _) () (O := owedF c 13) (W := W18) (R := 0) (m := 0) (T := ∅)
      (by rw [Nat.zero_add]; exact (expect_st m c 1 0 (by decide)).symm)) $$ [Hc_l3 HO Hat_l3]
  · isplitr; · iexact HIw
    isplitl [Hc_l3]; · iexact Hc_l3
    isplitl [HO]; · iexact HO
    isplitr
    · iapply (mayWait_of_above c (.dma (lsS 3)) _ (by rw [show lv ((c : Thread nD τ), SemLoc.dma (lsS 3)) () = 0 from lv_ls c 3]; exact above_owedF c 13 (by decide)))
      iexact Hlev
    iexact Hat_l3
  iclear HIw
  iclear HRl3
  iintro ⟨HO, Hat_l3, #HRl3, Hpay⟩
  ihave Hp := (Entails.of_eq (rest_st1 m c 0 (by decide))) $$ Hpay
  icases Hp with ⟨Holq, Hv1⟩
  ihave AccOL := (acc_step (famOL m c) 1 (by decide)) $$ [AccOL Holq]
  · isplitl [AccOL]; · iexact AccOL
    iexact Holq
  ihave HOe : iprop(∃ W' : Waits sig Unit, owes (c : Thread nD τ) _ W') $$ [HO]
  · iexists _; iexact HO
  icases HOe with ⟨%W19, HO⟩
  -- step 104: copy src=arg0[(k0_off8 d0)] dst=arg6[![1, 0, 0]] sem=arg7[1]
  first | sl_exec | skip
  ihave Hs := (Entails.of_eq (take_step (famXL m c) 3 (by decide))) $$ [FxL]
  · iexact FxL
  icases Hs with ⟨Hxl, FxL⟩
  ihave #HIl := (Prep.inv_ls m KL c 1) $$ HIL
  iapply (Rounds.wp_copy_pointsTo 𝒱₀ ER (rd m) (c : Thread nD τ) none (src := lSrc c 3) (dst := vSlot 1) (sem := .dma (lsS 1)) (q := fullShare) (fs := xC m c) (fd := VC m c 1)
      (r := 1) (d := false) (κ := KL (c, 1)) (by rw [duties_ls m c 1 1 (by decide)]; exact Finset.mem_singleton_self _) () NV rfl (amount_ld m c 1 1 false)
      (by rw [payload_ls, vLand_pts m c 3 1 (VC m c 1)]; exact BI.Entails.refl _)) $$ [Hxl Hv1 Htl1_1]
  · isplitr; · iexact HIl
    isplitl [Hxl]; · iexact Hxl
    isplitl [Hv1]; · iexact Hv1
    isplitl [Htl1_1]; · iexact Htl1_1
    iexact HRl1
  iclear HIl
  iintro Hc_l1
  -- step 105: wait arg7[1] (arg0[(k0_off8 d0)], arg6[![1, 0, 0]])
  first | sl_exec | skip
  ihave #HIw := (Prep.inv_ls m KL c 1) $$ HIL
  iapply (Rounds.wp_wait_rest_token 𝒱₀ ER (rd m) (c : Thread nD τ) none (κ := KL (c, 1)) (sm := .dma (lsS 1))
      (wpE_waitDma2_eq 𝒱₀ (c : Thread nD τ) none Set.univ (src := lSrc c 3) (dst := vSlot 1)) (Set.mem_univ _) () (O := owedF c 13) (W := W19) (R := 1) (m := 0) (T := ∅)
      (by rw [Nat.zero_add]; exact (expect_ld m c 1 1 (by decide)).symm)) $$ [Hc_l1 HO Hat_l1]
  · isplitr; · iexact HIw
    isplitl [Hc_l1]; · iexact Hc_l1
    isplitl [HO]; · iexact HO
    isplitr
    · iapply (mayWait_of_above c (.dma (lsS 1)) _ (by rw [show lv ((c : Thread nD τ), SemLoc.dma (lsS 1)) () = 0 from lv_ls c 1]; exact above_owedF c 13 (by decide)))
      iexact Hlev
    iexact Hat_l1
  iclear HIw
  iclear HRl1
  iintro ⟨HO, Hat_l1, #HRl1, Hpay⟩
  ihave Hp := (Entails.of_eq (rest_ld1 m c 1 (by decide))) $$ Hpay
  icases Hp with ⟨Hv1, Hxlq⟩
  ihave AccXL := (acc_step (famXL m c) 3 (by decide)) $$ [AccXL Hxlq]
  · isplitl [AccXL]; · iexact AccXL
    iexact Hxlq
  ihave HOe : iprop(∃ W' : Waits sig Unit, owes (c : Thread nD τ) _ W') $$ [HO]
  · iexists _; iexact HO
  icases HOe with ⟨%W20, HO⟩
  -- step 106: copy src=arg6[![1, 0, 0]] dst=arg1[(k0_off5 d0 1536#32)] sem=arg7[3]
  first | sl_exec | skip
  ihave Hs := (Entails.of_eq (take_step (famOL0 m c) 3 (by decide))) $$ [FoL]
  · iexact FoL
  icases Hs with ⟨Hol, FoL⟩
  ihave #HIl := (Prep.inv_ls m KL c 3) $$ HIL
  iapply (Rounds.wp_copy_pointsTo 𝒱₀ ER (rd m) (c : Thread nD τ) none (src := vSlot 1) (dst := lDst c 3) (sem := .dma (lsS 3)) (q := fullShare) (fs := VC m c 3) (fd := o0 m c)
      (r := 1) (d := false) (κ := KL (c, 3)) (by rw [duties_ls m c 3 1 (by decide)]; exact Finset.mem_singleton_self _) () NO rfl (amount_st m c 1 1 false)
      (by rw [payload_ls, lLandV_pts m c 3 1 (o0 m c)]; exact BI.Entails.refl _)) $$ [Hv1 Hol Htl3_1]
  · isplitr; · iexact HIl
    isplitl [Hv1]; · iexact Hv1
    isplitl [Hol]; · iexact Hol
    isplitl [Htl3_1]; · iexact Htl3_1
    iexact HRl3
  iclear HIl
  iintro Hc_l3
  -- step 107: wait arg3[13] (arg0[(k0_off2 d0 832#32)], arg1[(k0_off1 d0 832#32)])
  first | sl_exec | skip
  ihave Hs := (Entails.of_eq (take_step (famCYR (F := F) c) 13 (by decide))) $$ [FcYR]
  · iexact FcYR
  icases Hs with ⟨Hc, FcYR⟩
  ihave Hs := (Entails.of_eq (take_step (famAtYR (F := F) c) 13 (by decide))) $$ [FatYR]
  · iexact FatYR
  icases Hs with ⟨Hat, FatYR⟩
  ihave #HIw := (Prep.inv_yr m K c 13) $$ HI
  iapply (Rounds.wp_wait_rest_token 𝒱₀ ER (rd m) (c : Thread nD τ) none (κ := K (c, some (1, 13))) (sm := .dma (yrS 13))
      (wpE_waitDma2_eq 𝒱₀ (c : Thread nD τ) none Set.univ (src := ySrc c 13) (dst := yDst c 13)) (Set.mem_univ _) () (O := owedF c 13) (W := W20) (R := 0) (m := 0) (T := ∅)
      (by rw [Nat.zero_add]; exact (expect_yr m c 13).symm)) $$ [Hc HO Hat]
  · isplitr; · iexact HIw
    isplitl [Hc]; · iexact Hc
    isplitl [HO]; · iexact HO
    isplitr
    · iapply (mayWait_of_above c (.dma (yrS 13)) _ (by rw [show lv ((c : Thread nD τ), SemLoc.dma (yrS 13)) () = 2 from lv_yr c 13]; exact above_owedF c 13 (by decide)))
      iexact Hlev
    iexact Hat
  iclear HIw
  iintro ⟨HO, Hat, -, Hpay⟩
  ihave HYk := (Entails.of_eq (rest_yr' m c 13)) $$ Hpay
  ihave #HIx := (Prep.inv_yr m K c 13) $$ HI
  imod (Rounds.cell_close ER (rd m) (Set.mem_univ (K (c, some (1, 13)))) (fun h => h) (R := 0 + 1) (duties_yr_later m c 13)) $$ [Hat] with Hz
  · isplitr; · iexact HIx
    iexact Hat
  iclear HIx
  ihave AccZyr := (acc_step (famZyr (F := F) c) 13 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W21, HO⟩
  -- step 108: send k0_dev80 src=arg1[(k0_off3 d0 832#32)] dst=arg1[(k0_off3 d0 832#32)] ssem=arg4[13] rsem=arg5[13]
  first | sl_exec | skip
  ihave Hs := (Entails.of_eq (take_step (famTFS (F := F) c) 13 (by decide))) $$ [FtFS]
  · iexact FtFS
  icases Hs with ⟨Ht1, FtFS⟩
  ihave Hs := (Entails.of_eq (take_step (famTFRP (F := F) c) 13 (by decide))) $$ [FtFRP]
  · iexact FtFRP
  icases Hs with ⟨Ht2, FtFRP⟩
  ihave Hs := (Entails.of_eq (take_step (famDF m c) 13 (by decide))) $$ [FdF]
  · iexact FdF
  icases Hs with ⟨Hd, FdF⟩
  ihave #HI1 := (Prep.inv_fs m K c 13) $$ HI
  ihave #HI2 := (Prep.inv_fr m K (xp c) 13) $$ HI
  ihave #HR1 := (Prep.reached_fs (F := F) c 13) $$ HR
  ihave #HR2 := (Prep.reached_fr (F := F) (xp c) 13) $$ HR
  iapply (wp_fsend m c _ (dev80_eq c) 13 (K (c, some (2, 13))) (K (xp c, some (3, 13))) (owedF c 13) (owedF c 14)
      (by rw [owedF_succ' c 13 (by decide)]; rfl) W21) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 13 (by decide)) $$ [AccCFS Hc]
  · isplitl [AccCFS]; · iexact AccCFS
    iexact Hc
  -- step 109: wait arg3[14] (arg0[(k0_off2 d0 896#32)], arg1[(k0_off1 d0 896#32)])
  first | sl_exec | skip
  ihave Hs := (Entails.of_eq (take_step (famCYR (F := F) c) 14 (by decide))) $$ [FcYR]
  · iexact FcYR
  icases Hs with ⟨Hc, FcYR⟩
  ihave Hs := (Entails.of_eq (take_step (famAtYR (F := F) c) 14 (by decide))) $$ [FatYR]
  · iexact FatYR
  icases Hs with ⟨Hat, FatYR⟩
  ihave #HIw := (Prep.inv_yr m K c 14) $$ HI
  iapply (Rounds.wp_wait_rest_token 𝒱₀ ER (rd m) (c : Thread nD τ) none (κ := K (c, some (1, 14))) (sm := .dma (yrS 14))
      (wpE_waitDma2_eq 𝒱₀ (c : Thread nD τ) none Set.univ (src := ySrc c 14) (dst := yDst c 14)) (Set.mem_univ _) () (O := owedF c 14) (W := W21) (R := 0) (m := 0) (T := ∅)
      (by rw [Nat.zero_add]; exact (expect_yr m c 14).symm)) $$ [Hc HO Hat]
  · isplitr; · iexact HIw
    isplitl [Hc]; · iexact Hc
    isplitl [HO]; · iexact HO
    isplitr
    · iapply (mayWait_of_above c (.dma (yrS 14)) _ (by rw [show lv ((c : Thread nD τ), SemLoc.dma (yrS 14)) () = 2 from lv_yr c 14]; exact above_owedF c 14 (by decide)))
      iexact Hlev
    iexact Hat
  iclear HIw
  iintro ⟨HO, Hat, -, Hpay⟩
  ihave HYk := (Entails.of_eq (rest_yr' m c 14)) $$ Hpay
  ihave #HIx := (Prep.inv_yr m K c 14) $$ HI
  imod (Rounds.cell_close ER (rd m) (Set.mem_univ (K (c, some (1, 14)))) (fun h => h) (R := 0 + 1) (duties_yr_later m c 14)) $$ [Hat] with Hz
  · isplitr; · iexact HIx
    iexact Hat
  iclear HIx
  ihave AccZyr := (acc_step (famZyr (F := F) c) 14 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W22, HO⟩
  -- step 110: send k0_dev81 src=arg1[(k0_off3 d0 896#32)] dst=arg1[(k0_off3 d0 896#32)] ssem=arg4[14] rsem=arg5[14]
  first | sl_exec | skip
  ihave Hs := (Entails.of_eq (take_step (famTFS (F := F) c) 14 (by decide))) $$ [FtFS]
  · iexact FtFS
  icases Hs with ⟨Ht1, FtFS⟩
  ihave Hs := (Entails.of_eq (take_step (famTFRP (F := F) c) 14 (by decide))) $$ [FtFRP]
  · iexact FtFRP
  icases Hs with ⟨Ht2, FtFRP⟩
  ihave Hs := (Entails.of_eq (take_step (famDF m c) 14 (by decide))) $$ [FdF]
  · iexact FdF
  icases Hs with ⟨Hd, FdF⟩
  ihave #HI1 := (Prep.inv_fs m K c 14) $$ HI
  ihave #HI2 := (Prep.inv_fr m K (xp c) 14) $$ HI
  ihave #HR1 := (Prep.reached_fs (F := F) c 14) $$ HR
  ihave #HR2 := (Prep.reached_fr (F := F) (xp c) 14) $$ HR
  iapply (wp_fsend m c _ (dev81_eq c) 14 (K (c, some (2, 14))) (K (xp c, some (3, 14))) (owedF c 14) (owedF c 15)
      (by rw [owedF_succ' c 14 (by decide)]; rfl) W22) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 14 (by decide)) $$ [AccCFS Hc]
  · isplitl [AccCFS]; · iexact AccCFS
    iexact Hc
  -- step 111: wait arg3[15] (arg0[(k0_off2 d0 960#32)], arg1[(k0_off1 d0 960#32)])
  first | sl_exec | skip
  ihave Hs := (Entails.of_eq (take_step (famCYR (F := F) c) 15 (by decide))) $$ [FcYR]
  · iexact FcYR
  icases Hs with ⟨Hc, FcYR⟩
  ihave Hs := (Entails.of_eq (take_step (famAtYR (F := F) c) 15 (by decide))) $$ [FatYR]
  · iexact FatYR
  icases Hs with ⟨Hat, FatYR⟩
  ihave #HIw := (Prep.inv_yr m K c 15) $$ HI
  iapply (Rounds.wp_wait_rest_token 𝒱₀ ER (rd m) (c : Thread nD τ) none (κ := K (c, some (1, 15))) (sm := .dma (yrS 15))
      (wpE_waitDma2_eq 𝒱₀ (c : Thread nD τ) none Set.univ (src := ySrc c 15) (dst := yDst c 15)) (Set.mem_univ _) () (O := owedF c 15) (W := W22) (R := 0) (m := 0) (T := ∅)
      (by rw [Nat.zero_add]; exact (expect_yr m c 15).symm)) $$ [Hc HO Hat]
  · isplitr; · iexact HIw
    isplitl [Hc]; · iexact Hc
    isplitl [HO]; · iexact HO
    isplitr
    · iapply (mayWait_of_above c (.dma (yrS 15)) _ (by rw [show lv ((c : Thread nD τ), SemLoc.dma (yrS 15)) () = 2 from lv_yr c 15]; exact above_owedF c 15 (by decide)))
      iexact Hlev
    iexact Hat
  iclear HIw
  iintro ⟨HO, Hat, -, Hpay⟩
  ihave HYk := (Entails.of_eq (rest_yr' m c 15)) $$ Hpay
  ihave #HIx := (Prep.inv_yr m K c 15) $$ HI
  imod (Rounds.cell_close ER (rd m) (Set.mem_univ (K (c, some (1, 15)))) (fun h => h) (R := 0 + 1) (duties_yr_later m c 15)) $$ [Hat] with Hz
  · isplitr; · iexact HIx
    iexact Hat
  iclear HIx
  ihave AccZyr := (acc_step (famZyr (F := F) c) 15 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W23, HO⟩
  -- step 112: send k0_dev82 src=arg1[(k0_off3 d0 960#32)] dst=arg1[(k0_off3 d0 960#32)] ssem=arg4[15] rsem=arg5[15]
  first | sl_exec | skip
  ihave Hs := (Entails.of_eq (take_step (famTFS (F := F) c) 15 (by decide))) $$ [FtFS]
  · iexact FtFS
  icases Hs with ⟨Ht1, FtFS⟩
  ihave Hs := (Entails.of_eq (take_step (famTFRP (F := F) c) 15 (by decide))) $$ [FtFRP]
  · iexact FtFRP
  icases Hs with ⟨Ht2, FtFRP⟩
  ihave Hs := (Entails.of_eq (take_step (famDF m c) 15 (by decide))) $$ [FdF]
  · iexact FdF
  icases Hs with ⟨Hd, FdF⟩
  ihave #HI1 := (Prep.inv_fs m K c 15) $$ HI
  ihave #HI2 := (Prep.inv_fr m K (xp c) 15) $$ HI
  ihave #HR1 := (Prep.reached_fs (F := F) c 15) $$ HR
  ihave #HR2 := (Prep.reached_fr (F := F) (xp c) 15) $$ HR
  iapply (wp_fsend m c _ (dev82_eq c) 15 (K (c, some (2, 15))) (K (xp c, some (3, 15))) (owedF c 15) (owedF c 16)
      (by rw [owedF_succ' c 15 (by decide)]; rfl) W23) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 15 (by decide)) $$ [AccCFS Hc]
  · isplitl [AccCFS]; · iexact AccCFS
    iexact Hc
  -- step 113: wait arg3[16] (arg0[(k0_off2 d0 1024#32)], arg1[(k0_off1 d0 1024#32)])
  first | sl_exec | skip
  ihave Hs := (Entails.of_eq (take_step (famCYR (F := F) c) 16 (by decide))) $$ [FcYR]
  · iexact FcYR
  icases Hs with ⟨Hc, FcYR⟩
  ihave Hs := (Entails.of_eq (take_step (famAtYR (F := F) c) 16 (by decide))) $$ [FatYR]
  · iexact FatYR
  icases Hs with ⟨Hat, FatYR⟩
  ihave #HIw := (Prep.inv_yr m K c 16) $$ HI
  iapply (Rounds.wp_wait_rest_token 𝒱₀ ER (rd m) (c : Thread nD τ) none (κ := K (c, some (1, 16))) (sm := .dma (yrS 16))
      (wpE_waitDma2_eq 𝒱₀ (c : Thread nD τ) none Set.univ (src := ySrc c 16) (dst := yDst c 16)) (Set.mem_univ _) () (O := owedF c 16) (W := W23) (R := 0) (m := 0) (T := ∅)
      (by rw [Nat.zero_add]; exact (expect_yr m c 16).symm)) $$ [Hc HO Hat]
  · isplitr; · iexact HIw
    isplitl [Hc]; · iexact Hc
    isplitl [HO]; · iexact HO
    isplitr
    · iapply (mayWait_of_above c (.dma (yrS 16)) _ (by rw [show lv ((c : Thread nD τ), SemLoc.dma (yrS 16)) () = 2 from lv_yr c 16]; exact above_owedF c 16 (by decide)))
      iexact Hlev
    iexact Hat
  iclear HIw
  iintro ⟨HO, Hat, -, Hpay⟩
  ihave HYk := (Entails.of_eq (rest_yr' m c 16)) $$ Hpay
  ihave #HIx := (Prep.inv_yr m K c 16) $$ HI
  imod (Rounds.cell_close ER (rd m) (Set.mem_univ (K (c, some (1, 16)))) (fun h => h) (R := 0 + 1) (duties_yr_later m c 16)) $$ [Hat] with Hz
  · isplitr; · iexact HIx
    iexact Hat
  iclear HIx
  ihave AccZyr := (acc_step (famZyr (F := F) c) 16 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W24, HO⟩
  -- step 114: send k0_dev83 src=arg1[(k0_off3 d0 1024#32)] dst=arg1[(k0_off3 d0 1024#32)] ssem=arg4[16] rsem=arg5[16]
  first | sl_exec | skip
  ihave Hs := (Entails.of_eq (take_step (famTFS (F := F) c) 16 (by decide))) $$ [FtFS]
  · iexact FtFS
  icases Hs with ⟨Ht1, FtFS⟩
  ihave Hs := (Entails.of_eq (take_step (famTFRP (F := F) c) 16 (by decide))) $$ [FtFRP]
  · iexact FtFRP
  icases Hs with ⟨Ht2, FtFRP⟩
  ihave Hs := (Entails.of_eq (take_step (famDF m c) 16 (by decide))) $$ [FdF]
  · iexact FdF
  icases Hs with ⟨Hd, FdF⟩
  ihave #HI1 := (Prep.inv_fs m K c 16) $$ HI
  ihave #HI2 := (Prep.inv_fr m K (xp c) 16) $$ HI
  ihave #HR1 := (Prep.reached_fs (F := F) c 16) $$ HR
  ihave #HR2 := (Prep.reached_fr (F := F) (xp c) 16) $$ HR
  iapply (wp_fsend m c _ (dev83_eq c) 16 (K (c, some (2, 16))) (K (xp c, some (3, 16))) (owedF c 16) (owedF c 17)
      (by rw [owedF_succ' c 16 (by decide)]; rfl) W24) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 16 (by decide)) $$ [AccCFS Hc]
  · isplitl [AccCFS]; · iexact AccCFS
    iexact Hc
  -- step 115: wait arg7[2] (arg6[![0, 0, 0]], arg1[(k0_off5 d0 1024#32)])
  first | sl_exec | skip
  ihave #HIw := (Prep.inv_ls m KL c 2) $$ HIL
  iapply (Rounds.wp_wait_rest_token 𝒱₀ ER (rd m) (c : Thread nD τ) none (κ := KL (c, 2)) (sm := .dma (lsS 2))
      (wpE_waitDma2_eq 𝒱₀ (c : Thread nD τ) none Set.univ (src := vSlot 0) (dst := lDst c 2)) (Set.mem_univ _) () (O := owedF c 17) (W := W24) (R := 1) (m := 0) (T := ∅)
      (by rw [Nat.zero_add]; exact (expect_st m c 0 1 (by decide)).symm)) $$ [Hc_l2 HO Hat_l2]
  · isplitr; · iexact HIw
    isplitl [Hc_l2]; · iexact Hc_l2
    isplitl [HO]; · iexact HO
    isplitr
    · iapply (mayWait_of_above c (.dma (lsS 2)) _ (by rw [show lv ((c : Thread nD τ), SemLoc.dma (lsS 2)) () = 0 from lv_ls c 2]; exact above_owedF c 17 (by decide)))
      iexact Hlev
    iexact Hat_l2
  iclear HIw
  iclear HRl2
  iintro ⟨HO, Hat_l2, #HRl2, Hpay⟩
  ihave Hp := (Entails.of_eq (rest_st0 m c 1 (by decide))) $$ Hpay
  icases Hp with ⟨Holq, Hv0⟩
  ihave AccOL := (acc_step (famOL m c) 2 (by decide)) $$ [AccOL Holq]
  · isplitl [AccOL]; · iexact AccOL
    iexact Holq
  ihave HOe : iprop(∃ W' : Waits sig Unit, owes (c : Thread nD τ) _ W') $$ [HO]
  · iexists _; iexact HO
  icases HOe with ⟨%W25, HO⟩
  -- step 116: copy src=arg0[(k0_off9 d0)] dst=arg6[![0, 0, 0]] sem=arg7[0]
  first | sl_exec | skip
  ihave Hs := (Entails.of_eq (take_step (famXL m c) 4 (by decide))) $$ [FxL]
  · iexact FxL
  icases Hs with ⟨Hxl, FxL⟩
  ihave #HIl := (Prep.inv_ls m KL c 0) $$ HIL
  iapply (Rounds.wp_copy_pointsTo 𝒱₀ ER (rd m) (c : Thread nD τ) none (src := lSrc c 4) (dst := vSlot 0) (sem := .dma (lsS 0)) (q := fullShare) (fs := xC m c) (fd := VC m c 2)
      (r := 2) (d := false) (κ := KL (c, 0)) (by rw [duties_ls m c 0 2 (by decide)]; exact Finset.mem_singleton_self _) () NV rfl (amount_ld m c 0 2 false)
      (by rw [payload_ls, vLand_pts m c 4 0 (VC m c 2)]; exact BI.Entails.refl _)) $$ [Hxl Hv0 Htl0_2]
  · isplitr; · iexact HIl
    isplitl [Hxl]; · iexact Hxl
    isplitl [Hv0]; · iexact Hv0
    isplitl [Htl0_2]; · iexact Htl0_2
    iexact HRl0
  iclear HIl
  iintro Hc_l0
  -- step 117: wait arg7[0] (arg0[(k0_off9 d0)], arg6[![0, 0, 0]])
  first | sl_exec | skip
  ihave #HIw := (Prep.inv_ls m KL c 0) $$ HIL
  iapply (Rounds.wp_wait_rest_token 𝒱₀ ER (rd m) (c : Thread nD τ) none (κ := KL (c, 0)) (sm := .dma (lsS 0))
      (wpE_waitDma2_eq 𝒱₀ (c : Thread nD τ) none Set.univ (src := lSrc c 4) (dst := vSlot 0)) (Set.mem_univ _) () (O := owedF c 17) (W := W25) (R := 2) (m := 0) (T := ∅)
      (by rw [Nat.zero_add]; exact (expect_ld m c 0 2 (by decide)).symm)) $$ [Hc_l0 HO Hat_l0]
  · isplitr; · iexact HIw
    isplitl [Hc_l0]; · iexact Hc_l0
    isplitl [HO]; · iexact HO
    isplitr
    · iapply (mayWait_of_above c (.dma (lsS 0)) _ (by rw [show lv ((c : Thread nD τ), SemLoc.dma (lsS 0)) () = 0 from lv_ls c 0]; exact above_owedF c 17 (by decide)))
      iexact Hlev
    iexact Hat_l0
  iclear HIw
  iclear HRl0
  iintro ⟨HO, Hat_l0, #HRl0, Hpay⟩
  ihave Hp := (Entails.of_eq (rest_ld0 m c 2 (by decide))) $$ Hpay
  icases Hp with ⟨Hv0, Hxlq⟩
  ihave AccXL := (acc_step (famXL m c) 4 (by decide)) $$ [AccXL Hxlq]
  · isplitl [AccXL]; · iexact AccXL
    iexact Hxlq
  ihave HOe : iprop(∃ W' : Waits sig Unit, owes (c : Thread nD τ) _ W') $$ [HO]
  · iexists _; iexact HO
  icases HOe with ⟨%W26, HO⟩
  -- step 118: copy src=arg6[![0, 0, 0]] dst=arg1[(k0_off5 d0 2048#32)] sem=arg7[2]
  first | sl_exec | skip
  ihave Hs := (Entails.of_eq (take_step (famOL0 m c) 4 (by decide))) $$ [FoL]
  · iexact FoL
  icases Hs with ⟨Hol, FoL⟩
  ihave #HIl := (Prep.inv_ls m KL c 2) $$ HIL
  iapply (Rounds.wp_copy_pointsTo 𝒱₀ ER (rd m) (c : Thread nD τ) none (src := vSlot 0) (dst := lDst c 4) (sem := .dma (lsS 2)) (q := fullShare) (fs := VC m c 4) (fd := o0 m c)
      (r := 2) (d := false) (κ := KL (c, 2)) (by rw [duties_ls m c 2 2 (by decide)]; exact Finset.mem_singleton_self _) () NO rfl (amount_st m c 0 2 false)
      (by rw [payload_ls, lLandV_pts m c 4 0 (o0 m c)]; exact BI.Entails.refl _)) $$ [Hv0 Hol Htl2_2]
  · isplitr; · iexact HIl
    isplitl [Hv0]; · iexact Hv0
    isplitl [Hol]; · iexact Hol
    isplitl [Htl2_2]; · iexact Htl2_2
    iexact HRl2
  iclear HIl
  iintro Hc_l2
  -- step 119: wait arg3[17] (arg0[(k0_off2 d0 1088#32)], arg1[(k0_off1 d0 1088#32)])
  first | sl_exec | skip
  ihave Hs := (Entails.of_eq (take_step (famCYR (F := F) c) 17 (by decide))) $$ [FcYR]
  · iexact FcYR
  icases Hs with ⟨Hc, FcYR⟩
  ihave Hs := (Entails.of_eq (take_step (famAtYR (F := F) c) 17 (by decide))) $$ [FatYR]
  · iexact FatYR
  icases Hs with ⟨Hat, FatYR⟩
  ihave #HIw := (Prep.inv_yr m K c 17) $$ HI
  iapply (Rounds.wp_wait_rest_token 𝒱₀ ER (rd m) (c : Thread nD τ) none (κ := K (c, some (1, 17))) (sm := .dma (yrS 17))
      (wpE_waitDma2_eq 𝒱₀ (c : Thread nD τ) none Set.univ (src := ySrc c 17) (dst := yDst c 17)) (Set.mem_univ _) () (O := owedF c 17) (W := W26) (R := 0) (m := 0) (T := ∅)
      (by rw [Nat.zero_add]; exact (expect_yr m c 17).symm)) $$ [Hc HO Hat]
  · isplitr; · iexact HIw
    isplitl [Hc]; · iexact Hc
    isplitl [HO]; · iexact HO
    isplitr
    · iapply (mayWait_of_above c (.dma (yrS 17)) _ (by rw [show lv ((c : Thread nD τ), SemLoc.dma (yrS 17)) () = 2 from lv_yr c 17]; exact above_owedF c 17 (by decide)))
      iexact Hlev
    iexact Hat
  iclear HIw
  iintro ⟨HO, Hat, -, Hpay⟩
  ihave HYk := (Entails.of_eq (rest_yr' m c 17)) $$ Hpay
  ihave #HIx := (Prep.inv_yr m K c 17) $$ HI
  imod (Rounds.cell_close ER (rd m) (Set.mem_univ (K (c, some (1, 17)))) (fun h => h) (R := 0 + 1) (duties_yr_later m c 17)) $$ [Hat] with Hz
  · isplitr; · iexact HIx
    iexact Hat
  iclear HIx
  ihave AccZyr := (acc_step (famZyr (F := F) c) 17 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W27, HO⟩
  -- step 120: send k0_dev84 src=arg1[(k0_off3 d0 1088#32)] dst=arg1[(k0_off3 d0 1088#32)] ssem=arg4[17] rsem=arg5[17]
  first | sl_exec | skip
  ihave Hs := (Entails.of_eq (take_step (famTFS (F := F) c) 17 (by decide))) $$ [FtFS]
  · iexact FtFS
  icases Hs with ⟨Ht1, FtFS⟩
  ihave Hs := (Entails.of_eq (take_step (famTFRP (F := F) c) 17 (by decide))) $$ [FtFRP]
  · iexact FtFRP
  icases Hs with ⟨Ht2, FtFRP⟩
  ihave Hs := (Entails.of_eq (take_step (famDF m c) 17 (by decide))) $$ [FdF]
  · iexact FdF
  icases Hs with ⟨Hd, FdF⟩
  ihave #HI1 := (Prep.inv_fs m K c 17) $$ HI
  ihave #HI2 := (Prep.inv_fr m K (xp c) 17) $$ HI
  ihave #HR1 := (Prep.reached_fs (F := F) c 17) $$ HR
  ihave #HR2 := (Prep.reached_fr (F := F) (xp c) 17) $$ HR
  iapply (wp_fsend m c _ (dev84_eq c) 17 (K (c, some (2, 17))) (K (xp c, some (3, 17))) (owedF c 17) (owedF c 18)
      (by rw [owedF_succ' c 17 (by decide)]; rfl) W27) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 17 (by decide)) $$ [AccCFS Hc]
  · isplitl [AccCFS]; · iexact AccCFS
    iexact Hc
  -- step 121: wait arg3[18] (arg0[(k0_off2 d0 1152#32)], arg1[(k0_off1 d0 1152#32)])
  first | sl_exec | skip
  ihave Hs := (Entails.of_eq (take_step (famCYR (F := F) c) 18 (by decide))) $$ [FcYR]
  · iexact FcYR
  icases Hs with ⟨Hc, FcYR⟩
  ihave Hs := (Entails.of_eq (take_step (famAtYR (F := F) c) 18 (by decide))) $$ [FatYR]
  · iexact FatYR
  icases Hs with ⟨Hat, FatYR⟩
  ihave #HIw := (Prep.inv_yr m K c 18) $$ HI
  iapply (Rounds.wp_wait_rest_token 𝒱₀ ER (rd m) (c : Thread nD τ) none (κ := K (c, some (1, 18))) (sm := .dma (yrS 18))
      (wpE_waitDma2_eq 𝒱₀ (c : Thread nD τ) none Set.univ (src := ySrc c 18) (dst := yDst c 18)) (Set.mem_univ _) () (O := owedF c 18) (W := W27) (R := 0) (m := 0) (T := ∅)
      (by rw [Nat.zero_add]; exact (expect_yr m c 18).symm)) $$ [Hc HO Hat]
  · isplitr; · iexact HIw
    isplitl [Hc]; · iexact Hc
    isplitl [HO]; · iexact HO
    isplitr
    · iapply (mayWait_of_above c (.dma (yrS 18)) _ (by rw [show lv ((c : Thread nD τ), SemLoc.dma (yrS 18)) () = 2 from lv_yr c 18]; exact above_owedF c 18 (by decide)))
      iexact Hlev
    iexact Hat
  iclear HIw
  iintro ⟨HO, Hat, -, Hpay⟩
  ihave HYk := (Entails.of_eq (rest_yr' m c 18)) $$ Hpay
  ihave #HIx := (Prep.inv_yr m K c 18) $$ HI
  imod (Rounds.cell_close ER (rd m) (Set.mem_univ (K (c, some (1, 18)))) (fun h => h) (R := 0 + 1) (duties_yr_later m c 18)) $$ [Hat] with Hz
  · isplitr; · iexact HIx
    iexact Hat
  iclear HIx
  ihave AccZyr := (acc_step (famZyr (F := F) c) 18 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W28, HO⟩
  -- step 122: send k0_dev85 src=arg1[(k0_off3 d0 1152#32)] dst=arg1[(k0_off3 d0 1152#32)] ssem=arg4[18] rsem=arg5[18]
  first | sl_exec | skip
  ihave Hs := (Entails.of_eq (take_step (famTFS (F := F) c) 18 (by decide))) $$ [FtFS]
  · iexact FtFS
  icases Hs with ⟨Ht1, FtFS⟩
  ihave Hs := (Entails.of_eq (take_step (famTFRP (F := F) c) 18 (by decide))) $$ [FtFRP]
  · iexact FtFRP
  icases Hs with ⟨Ht2, FtFRP⟩
  ihave Hs := (Entails.of_eq (take_step (famDF m c) 18 (by decide))) $$ [FdF]
  · iexact FdF
  icases Hs with ⟨Hd, FdF⟩
  ihave #HI1 := (Prep.inv_fs m K c 18) $$ HI
  ihave #HI2 := (Prep.inv_fr m K (xp c) 18) $$ HI
  ihave #HR1 := (Prep.reached_fs (F := F) c 18) $$ HR
  ihave #HR2 := (Prep.reached_fr (F := F) (xp c) 18) $$ HR
  iapply (wp_fsend m c _ (dev85_eq c) 18 (K (c, some (2, 18))) (K (xp c, some (3, 18))) (owedF c 18) (owedF c 19)
      (by rw [owedF_succ' c 18 (by decide)]; rfl) W28) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 18 (by decide)) $$ [AccCFS Hc]
  · isplitl [AccCFS]; · iexact AccCFS
    iexact Hc
  -- step 123: wait arg3[19] (arg0[(k0_off2 d0 1216#32)], arg1[(k0_off1 d0 1216#32)])
  first | sl_exec | skip
  ihave Hs := (Entails.of_eq (take_step (famCYR (F := F) c) 19 (by decide))) $$ [FcYR]
  · iexact FcYR
  icases Hs with ⟨Hc, FcYR⟩
  ihave Hs := (Entails.of_eq (take_step (famAtYR (F := F) c) 19 (by decide))) $$ [FatYR]
  · iexact FatYR
  icases Hs with ⟨Hat, FatYR⟩
  ihave #HIw := (Prep.inv_yr m K c 19) $$ HI
  iapply (Rounds.wp_wait_rest_token 𝒱₀ ER (rd m) (c : Thread nD τ) none (κ := K (c, some (1, 19))) (sm := .dma (yrS 19))
      (wpE_waitDma2_eq 𝒱₀ (c : Thread nD τ) none Set.univ (src := ySrc c 19) (dst := yDst c 19)) (Set.mem_univ _) () (O := owedF c 19) (W := W28) (R := 0) (m := 0) (T := ∅)
      (by rw [Nat.zero_add]; exact (expect_yr m c 19).symm)) $$ [Hc HO Hat]
  · isplitr; · iexact HIw
    isplitl [Hc]; · iexact Hc
    isplitl [HO]; · iexact HO
    isplitr
    · iapply (mayWait_of_above c (.dma (yrS 19)) _ (by rw [show lv ((c : Thread nD τ), SemLoc.dma (yrS 19)) () = 2 from lv_yr c 19]; exact above_owedF c 19 (by decide)))
      iexact Hlev
    iexact Hat
  iclear HIw
  iintro ⟨HO, Hat, -, Hpay⟩
  ihave HYk := (Entails.of_eq (rest_yr' m c 19)) $$ Hpay
  ihave #HIx := (Prep.inv_yr m K c 19) $$ HI
  imod (Rounds.cell_close ER (rd m) (Set.mem_univ (K (c, some (1, 19)))) (fun h => h) (R := 0 + 1) (duties_yr_later m c 19)) $$ [Hat] with Hz
  · isplitr; · iexact HIx
    iexact Hat
  iclear HIx
  ihave AccZyr := (acc_step (famZyr (F := F) c) 19 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W29, HO⟩
  -- step 124: send k0_dev86 src=arg1[(k0_off3 d0 1216#32)] dst=arg1[(k0_off3 d0 1216#32)] ssem=arg4[19] rsem=arg5[19]
  first | sl_exec | skip
  ihave Hs := (Entails.of_eq (take_step (famTFS (F := F) c) 19 (by decide))) $$ [FtFS]
  · iexact FtFS
  icases Hs with ⟨Ht1, FtFS⟩
  ihave Hs := (Entails.of_eq (take_step (famTFRP (F := F) c) 19 (by decide))) $$ [FtFRP]
  · iexact FtFRP
  icases Hs with ⟨Ht2, FtFRP⟩
  ihave Hs := (Entails.of_eq (take_step (famDF m c) 19 (by decide))) $$ [FdF]
  · iexact FdF
  icases Hs with ⟨Hd, FdF⟩
  ihave #HI1 := (Prep.inv_fs m K c 19) $$ HI
  ihave #HI2 := (Prep.inv_fr m K (xp c) 19) $$ HI
  ihave #HR1 := (Prep.reached_fs (F := F) c 19) $$ HR
  ihave #HR2 := (Prep.reached_fr (F := F) (xp c) 19) $$ HR
  iapply (wp_fsend m c _ (dev86_eq c) 19 (K (c, some (2, 19))) (K (xp c, some (3, 19))) (owedF c 19) (owedF c 20)
      (by rw [owedF_succ' c 19 (by decide)]; rfl) W29) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 19 (by decide)) $$ [AccCFS Hc]
  · isplitl [AccCFS]; · iexact AccCFS
    iexact Hc
  -- step 125: wait arg3[20] (arg0[(k0_off2 d0 1280#32)], arg1[(k0_off1 d0 1280#32)])
  first | sl_exec | skip
  ihave Hs := (Entails.of_eq (take_step (famCYR (F := F) c) 20 (by decide))) $$ [FcYR]
  · iexact FcYR
  icases Hs with ⟨Hc, FcYR⟩
  ihave Hs := (Entails.of_eq (take_step (famAtYR (F := F) c) 20 (by decide))) $$ [FatYR]
  · iexact FatYR
  icases Hs with ⟨Hat, FatYR⟩
  ihave #HIw := (Prep.inv_yr m K c 20) $$ HI
  iapply (Rounds.wp_wait_rest_token 𝒱₀ ER (rd m) (c : Thread nD τ) none (κ := K (c, some (1, 20))) (sm := .dma (yrS 20))
      (wpE_waitDma2_eq 𝒱₀ (c : Thread nD τ) none Set.univ (src := ySrc c 20) (dst := yDst c 20)) (Set.mem_univ _) () (O := owedF c 20) (W := W29) (R := 0) (m := 0) (T := ∅)
      (by rw [Nat.zero_add]; exact (expect_yr m c 20).symm)) $$ [Hc HO Hat]
  · isplitr; · iexact HIw
    isplitl [Hc]; · iexact Hc
    isplitl [HO]; · iexact HO
    isplitr
    · iapply (mayWait_of_above c (.dma (yrS 20)) _ (by rw [show lv ((c : Thread nD τ), SemLoc.dma (yrS 20)) () = 2 from lv_yr c 20]; exact above_owedF c 20 (by decide)))
      iexact Hlev
    iexact Hat
  iclear HIw
  iintro ⟨HO, Hat, -, Hpay⟩
  ihave HYk := (Entails.of_eq (rest_yr' m c 20)) $$ Hpay
  ihave #HIx := (Prep.inv_yr m K c 20) $$ HI
  imod (Rounds.cell_close ER (rd m) (Set.mem_univ (K (c, some (1, 20)))) (fun h => h) (R := 0 + 1) (duties_yr_later m c 20)) $$ [Hat] with Hz
  · isplitr; · iexact HIx
    iexact Hat
  iclear HIx
  ihave AccZyr := (acc_step (famZyr (F := F) c) 20 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W30, HO⟩
  -- step 126: send k0_dev87 src=arg1[(k0_off3 d0 1280#32)] dst=arg1[(k0_off3 d0 1280#32)] ssem=arg4[20] rsem=arg5[20]
  first | sl_exec | skip
  ihave Hs := (Entails.of_eq (take_step (famTFS (F := F) c) 20 (by decide))) $$ [FtFS]
  · iexact FtFS
  icases Hs with ⟨Ht1, FtFS⟩
  ihave Hs := (Entails.of_eq (take_step (famTFRP (F := F) c) 20 (by decide))) $$ [FtFRP]
  · iexact FtFRP
  icases Hs with ⟨Ht2, FtFRP⟩
  ihave Hs := (Entails.of_eq (take_step (famDF m c) 20 (by decide))) $$ [FdF]
  · iexact FdF
  icases Hs with ⟨Hd, FdF⟩
  ihave #HI1 := (Prep.inv_fs m K c 20) $$ HI
  ihave #HI2 := (Prep.inv_fr m K (xp c) 20) $$ HI
  ihave #HR1 := (Prep.reached_fs (F := F) c 20) $$ HR
  ihave #HR2 := (Prep.reached_fr (F := F) (xp c) 20) $$ HR
  iapply (wp_fsend m c _ (dev87_eq c) 20 (K (c, some (2, 20))) (K (xp c, some (3, 20))) (owedF c 20) (owedF c 21)
      (by rw [owedF_succ' c 20 (by decide)]; rfl) W30) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 20 (by decide)) $$ [AccCFS Hc]
  · isplitl [AccCFS]; · iexact AccCFS
    iexact Hc
  -- step 127: wait arg7[3] (arg6[![1, 0, 0]], arg1[(k0_off5 d0 1536#32)])
  first | sl_exec | skip
  ihave #HIw := (Prep.inv_ls m KL c 3) $$ HIL
  iapply (Rounds.wp_wait_rest_token 𝒱₀ ER (rd m) (c : Thread nD τ) none (κ := KL (c, 3)) (sm := .dma (lsS 3))
      (wpE_waitDma2_eq 𝒱₀ (c : Thread nD τ) none Set.univ (src := vSlot 1) (dst := lDst c 3)) (Set.mem_univ _) () (O := owedF c 21) (W := W30) (R := 1) (m := 0) (T := ∅)
      (by rw [Nat.zero_add]; exact (expect_st m c 1 1 (by decide)).symm)) $$ [Hc_l3 HO Hat_l3]
  · isplitr; · iexact HIw
    isplitl [Hc_l3]; · iexact Hc_l3
    isplitl [HO]; · iexact HO
    isplitr
    · iapply (mayWait_of_above c (.dma (lsS 3)) _ (by rw [show lv ((c : Thread nD τ), SemLoc.dma (lsS 3)) () = 0 from lv_ls c 3]; exact above_owedF c 21 (by decide)))
      iexact Hlev
    iexact Hat_l3
  iclear HIw
  iclear HRl3
  iintro ⟨HO, Hat_l3, #HRl3, Hpay⟩
  ihave Hp := (Entails.of_eq (rest_st1 m c 1 (by decide))) $$ Hpay
  icases Hp with ⟨Holq, Hv1⟩
  ihave AccOL := (acc_step (famOL m c) 3 (by decide)) $$ [AccOL Holq]
  · isplitl [AccOL]; · iexact AccOL
    iexact Holq
  ihave HOe : iprop(∃ W' : Waits sig Unit, owes (c : Thread nD τ) _ W') $$ [HO]
  · iexists _; iexact HO
  icases HOe with ⟨%W31, HO⟩
  -- step 128: copy src=arg0[(k0_off10 d0)] dst=arg6[![1, 0, 0]] sem=arg7[1]
  first | sl_exec | skip
  ihave Hs := (Entails.of_eq (take_step (famXL m c) 5 (by decide))) $$ [FxL]
  · iexact FxL
  icases Hs with ⟨Hxl, FxL⟩
  ihave #HIl := (Prep.inv_ls m KL c 1) $$ HIL
  iapply (Rounds.wp_copy_pointsTo 𝒱₀ ER (rd m) (c : Thread nD τ) none (src := lSrc c 5) (dst := vSlot 1) (sem := .dma (lsS 1)) (q := fullShare) (fs := xC m c) (fd := VC m c 3)
      (r := 2) (d := false) (κ := KL (c, 1)) (by rw [duties_ls m c 1 2 (by decide)]; exact Finset.mem_singleton_self _) () NV rfl (amount_ld m c 1 2 false)
      (by rw [payload_ls, vLand_pts m c 5 1 (VC m c 3)]; exact BI.Entails.refl _)) $$ [Hxl Hv1 Htl1_2]
  · isplitr; · iexact HIl
    isplitl [Hxl]; · iexact Hxl
    isplitl [Hv1]; · iexact Hv1
    isplitl [Htl1_2]; · iexact Htl1_2
    iexact HRl1
  iclear HIl
  iintro Hc_l1
  -- step 129: wait arg7[1] (arg0[(k0_off10 d0)], arg6[![1, 0, 0]])
  first | sl_exec | skip
  ihave #HIw := (Prep.inv_ls m KL c 1) $$ HIL
  iapply (Rounds.wp_wait_rest_token 𝒱₀ ER (rd m) (c : Thread nD τ) none (κ := KL (c, 1)) (sm := .dma (lsS 1))
      (wpE_waitDma2_eq 𝒱₀ (c : Thread nD τ) none Set.univ (src := lSrc c 5) (dst := vSlot 1)) (Set.mem_univ _) () (O := owedF c 21) (W := W31) (R := 2) (m := 0) (T := ∅)
      (by rw [Nat.zero_add]; exact (expect_ld m c 1 2 (by decide)).symm)) $$ [Hc_l1 HO Hat_l1]
  · isplitr; · iexact HIw
    isplitl [Hc_l1]; · iexact Hc_l1
    isplitl [HO]; · iexact HO
    isplitr
    · iapply (mayWait_of_above c (.dma (lsS 1)) _ (by rw [show lv ((c : Thread nD τ), SemLoc.dma (lsS 1)) () = 0 from lv_ls c 1]; exact above_owedF c 21 (by decide)))
      iexact Hlev
    iexact Hat_l1
  iclear HIw
  iclear HRl1
  iintro ⟨HO, Hat_l1, #HRl1, Hpay⟩
  ihave Hp := (Entails.of_eq (rest_ld1 m c 2 (by decide))) $$ Hpay
  icases Hp with ⟨Hv1, Hxlq⟩
  ihave AccXL := (acc_step (famXL m c) 5 (by decide)) $$ [AccXL Hxlq]
  · isplitl [AccXL]; · iexact AccXL
    iexact Hxlq
  ihave HOe : iprop(∃ W' : Waits sig Unit, owes (c : Thread nD τ) _ W') $$ [HO]
  · iexists _; iexact HO
  icases HOe with ⟨%W32, HO⟩
  -- step 130: copy src=arg6[![1, 0, 0]] dst=arg1[(k0_off5 d0 2560#32)] sem=arg7[3]
  first | sl_exec | skip
  ihave Hs := (Entails.of_eq (take_step (famOL0 m c) 5 (by decide))) $$ [FoL]
  · iexact FoL
  icases Hs with ⟨Hol, FoL⟩
  ihave #HIl := (Prep.inv_ls m KL c 3) $$ HIL
  iapply (Rounds.wp_copy_pointsTo 𝒱₀ ER (rd m) (c : Thread nD τ) none (src := vSlot 1) (dst := lDst c 5) (sem := .dma (lsS 3)) (q := fullShare) (fs := VC m c 5) (fd := o0 m c)
      (r := 2) (d := false) (κ := KL (c, 3)) (by rw [duties_ls m c 3 2 (by decide)]; exact Finset.mem_singleton_self _) () NO rfl (amount_st m c 1 2 false)
      (by rw [payload_ls, lLandV_pts m c 5 1 (o0 m c)]; exact BI.Entails.refl _)) $$ [Hv1 Hol Htl3_2]
  · isplitr; · iexact HIl
    isplitl [Hv1]; · iexact Hv1
    isplitl [Hol]; · iexact Hol
    isplitl [Htl3_2]; · iexact Htl3_2
    iexact HRl3
  iclear HIl
  iintro Hc_l3
  -- step 131: wait arg3[21] (arg0[(k0_off2 d0 1344#32)], arg1[(k0_off1 d0 1344#32)])
  first | sl_exec | skip
  ihave Hs := (Entails.of_eq (take_step (famCYR (F := F) c) 21 (by decide))) $$ [FcYR]
  · iexact FcYR
  icases Hs with ⟨Hc, FcYR⟩
  ihave Hs := (Entails.of_eq (take_step (famAtYR (F := F) c) 21 (by decide))) $$ [FatYR]
  · iexact FatYR
  icases Hs with ⟨Hat, FatYR⟩
  ihave #HIw := (Prep.inv_yr m K c 21) $$ HI
  iapply (Rounds.wp_wait_rest_token 𝒱₀ ER (rd m) (c : Thread nD τ) none (κ := K (c, some (1, 21))) (sm := .dma (yrS 21))
      (wpE_waitDma2_eq 𝒱₀ (c : Thread nD τ) none Set.univ (src := ySrc c 21) (dst := yDst c 21)) (Set.mem_univ _) () (O := owedF c 21) (W := W32) (R := 0) (m := 0) (T := ∅)
      (by rw [Nat.zero_add]; exact (expect_yr m c 21).symm)) $$ [Hc HO Hat]
  · isplitr; · iexact HIw
    isplitl [Hc]; · iexact Hc
    isplitl [HO]; · iexact HO
    isplitr
    · iapply (mayWait_of_above c (.dma (yrS 21)) _ (by rw [show lv ((c : Thread nD τ), SemLoc.dma (yrS 21)) () = 2 from lv_yr c 21]; exact above_owedF c 21 (by decide)))
      iexact Hlev
    iexact Hat
  iclear HIw
  iintro ⟨HO, Hat, -, Hpay⟩
  ihave HYk := (Entails.of_eq (rest_yr' m c 21)) $$ Hpay
  ihave #HIx := (Prep.inv_yr m K c 21) $$ HI
  imod (Rounds.cell_close ER (rd m) (Set.mem_univ (K (c, some (1, 21)))) (fun h => h) (R := 0 + 1) (duties_yr_later m c 21)) $$ [Hat] with Hz
  · isplitr; · iexact HIx
    iexact Hat
  iclear HIx
  ihave AccZyr := (acc_step (famZyr (F := F) c) 21 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W33, HO⟩
  -- step 132: send k0_dev88 src=arg1[(k0_off3 d0 1344#32)] dst=arg1[(k0_off3 d0 1344#32)] ssem=arg4[21] rsem=arg5[21]
  first | sl_exec | skip
  ihave Hs := (Entails.of_eq (take_step (famTFS (F := F) c) 21 (by decide))) $$ [FtFS]
  · iexact FtFS
  icases Hs with ⟨Ht1, FtFS⟩
  ihave Hs := (Entails.of_eq (take_step (famTFRP (F := F) c) 21 (by decide))) $$ [FtFRP]
  · iexact FtFRP
  icases Hs with ⟨Ht2, FtFRP⟩
  ihave Hs := (Entails.of_eq (take_step (famDF m c) 21 (by decide))) $$ [FdF]
  · iexact FdF
  icases Hs with ⟨Hd, FdF⟩
  ihave #HI1 := (Prep.inv_fs m K c 21) $$ HI
  ihave #HI2 := (Prep.inv_fr m K (xp c) 21) $$ HI
  ihave #HR1 := (Prep.reached_fs (F := F) c 21) $$ HR
  ihave #HR2 := (Prep.reached_fr (F := F) (xp c) 21) $$ HR
  iapply (wp_fsend m c _ (dev88_eq c) 21 (K (c, some (2, 21))) (K (xp c, some (3, 21))) (owedF c 21) (owedF c 22)
      (by rw [owedF_succ' c 21 (by decide)]; rfl) W33) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 21 (by decide)) $$ [AccCFS Hc]
  · isplitl [AccCFS]; · iexact AccCFS
    iexact Hc
  -- step 133: wait arg3[22] (arg0[(k0_off2 d0 1408#32)], arg1[(k0_off1 d0 1408#32)])
  first | sl_exec | skip
  ihave Hs := (Entails.of_eq (take_step (famCYR (F := F) c) 22 (by decide))) $$ [FcYR]
  · iexact FcYR
  icases Hs with ⟨Hc, FcYR⟩
  ihave Hs := (Entails.of_eq (take_step (famAtYR (F := F) c) 22 (by decide))) $$ [FatYR]
  · iexact FatYR
  icases Hs with ⟨Hat, FatYR⟩
  ihave #HIw := (Prep.inv_yr m K c 22) $$ HI
  iapply (Rounds.wp_wait_rest_token 𝒱₀ ER (rd m) (c : Thread nD τ) none (κ := K (c, some (1, 22))) (sm := .dma (yrS 22))
      (wpE_waitDma2_eq 𝒱₀ (c : Thread nD τ) none Set.univ (src := ySrc c 22) (dst := yDst c 22)) (Set.mem_univ _) () (O := owedF c 22) (W := W33) (R := 0) (m := 0) (T := ∅)
      (by rw [Nat.zero_add]; exact (expect_yr m c 22).symm)) $$ [Hc HO Hat]
  · isplitr; · iexact HIw
    isplitl [Hc]; · iexact Hc
    isplitl [HO]; · iexact HO
    isplitr
    · iapply (mayWait_of_above c (.dma (yrS 22)) _ (by rw [show lv ((c : Thread nD τ), SemLoc.dma (yrS 22)) () = 2 from lv_yr c 22]; exact above_owedF c 22 (by decide)))
      iexact Hlev
    iexact Hat
  iclear HIw
  iintro ⟨HO, Hat, -, Hpay⟩
  ihave HYk := (Entails.of_eq (rest_yr' m c 22)) $$ Hpay
  ihave #HIx := (Prep.inv_yr m K c 22) $$ HI
  imod (Rounds.cell_close ER (rd m) (Set.mem_univ (K (c, some (1, 22)))) (fun h => h) (R := 0 + 1) (duties_yr_later m c 22)) $$ [Hat] with Hz
  · isplitr; · iexact HIx
    iexact Hat
  iclear HIx
  ihave AccZyr := (acc_step (famZyr (F := F) c) 22 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W34, HO⟩
  -- step 134: send k0_dev89 src=arg1[(k0_off3 d0 1408#32)] dst=arg1[(k0_off3 d0 1408#32)] ssem=arg4[22] rsem=arg5[22]
  first | sl_exec | skip
  ihave Hs := (Entails.of_eq (take_step (famTFS (F := F) c) 22 (by decide))) $$ [FtFS]
  · iexact FtFS
  icases Hs with ⟨Ht1, FtFS⟩
  ihave Hs := (Entails.of_eq (take_step (famTFRP (F := F) c) 22 (by decide))) $$ [FtFRP]
  · iexact FtFRP
  icases Hs with ⟨Ht2, FtFRP⟩
  ihave Hs := (Entails.of_eq (take_step (famDF m c) 22 (by decide))) $$ [FdF]
  · iexact FdF
  icases Hs with ⟨Hd, FdF⟩
  ihave #HI1 := (Prep.inv_fs m K c 22) $$ HI
  ihave #HI2 := (Prep.inv_fr m K (xp c) 22) $$ HI
  ihave #HR1 := (Prep.reached_fs (F := F) c 22) $$ HR
  ihave #HR2 := (Prep.reached_fr (F := F) (xp c) 22) $$ HR
  iapply (wp_fsend m c _ (dev89_eq c) 22 (K (c, some (2, 22))) (K (xp c, some (3, 22))) (owedF c 22) (owedF c 23)
      (by rw [owedF_succ' c 22 (by decide)]; rfl) W34) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 22 (by decide)) $$ [AccCFS Hc]
  · isplitl [AccCFS]; · iexact AccCFS
    iexact Hc
  -- step 135: wait arg3[23] (arg0[(k0_off2 d0 1472#32)], arg1[(k0_off1 d0 1472#32)])
  first | sl_exec | skip
  ihave Hs := (Entails.of_eq (take_step (famCYR (F := F) c) 23 (by decide))) $$ [FcYR]
  · iexact FcYR
  icases Hs with ⟨Hc, FcYR⟩
  ihave Hs := (Entails.of_eq (take_step (famAtYR (F := F) c) 23 (by decide))) $$ [FatYR]
  · iexact FatYR
  icases Hs with ⟨Hat, FatYR⟩
  ihave #HIw := (Prep.inv_yr m K c 23) $$ HI
  iapply (Rounds.wp_wait_rest_token 𝒱₀ ER (rd m) (c : Thread nD τ) none (κ := K (c, some (1, 23))) (sm := .dma (yrS 23))
      (wpE_waitDma2_eq 𝒱₀ (c : Thread nD τ) none Set.univ (src := ySrc c 23) (dst := yDst c 23)) (Set.mem_univ _) () (O := owedF c 23) (W := W34) (R := 0) (m := 0) (T := ∅)
      (by rw [Nat.zero_add]; exact (expect_yr m c 23).symm)) $$ [Hc HO Hat]
  · isplitr; · iexact HIw
    isplitl [Hc]; · iexact Hc
    isplitl [HO]; · iexact HO
    isplitr
    · iapply (mayWait_of_above c (.dma (yrS 23)) _ (by rw [show lv ((c : Thread nD τ), SemLoc.dma (yrS 23)) () = 2 from lv_yr c 23]; exact above_owedF c 23 (by decide)))
      iexact Hlev
    iexact Hat
  iclear HIw
  iintro ⟨HO, Hat, -, Hpay⟩
  ihave HYk := (Entails.of_eq (rest_yr' m c 23)) $$ Hpay
  ihave #HIx := (Prep.inv_yr m K c 23) $$ HI
  imod (Rounds.cell_close ER (rd m) (Set.mem_univ (K (c, some (1, 23)))) (fun h => h) (R := 0 + 1) (duties_yr_later m c 23)) $$ [Hat] with Hz
  · isplitr; · iexact HIx
    iexact Hat
  iclear HIx
  ihave AccZyr := (acc_step (famZyr (F := F) c) 23 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W35, HO⟩
  -- step 136: send k0_dev90 src=arg1[(k0_off3 d0 1472#32)] dst=arg1[(k0_off3 d0 1472#32)] ssem=arg4[23] rsem=arg5[23]
  first | sl_exec | skip
  ihave Hs := (Entails.of_eq (take_step (famTFS (F := F) c) 23 (by decide))) $$ [FtFS]
  · iexact FtFS
  icases Hs with ⟨Ht1, FtFS⟩
  ihave Hs := (Entails.of_eq (take_step (famTFRP (F := F) c) 23 (by decide))) $$ [FtFRP]
  · iexact FtFRP
  icases Hs with ⟨Ht2, FtFRP⟩
  ihave Hs := (Entails.of_eq (take_step (famDF m c) 23 (by decide))) $$ [FdF]
  · iexact FdF
  icases Hs with ⟨Hd, FdF⟩
  ihave #HI1 := (Prep.inv_fs m K c 23) $$ HI
  ihave #HI2 := (Prep.inv_fr m K (xp c) 23) $$ HI
  ihave #HR1 := (Prep.reached_fs (F := F) c 23) $$ HR
  ihave #HR2 := (Prep.reached_fr (F := F) (xp c) 23) $$ HR
  iapply (wp_fsend m c _ (dev90_eq c) 23 (K (c, some (2, 23))) (K (xp c, some (3, 23))) (owedF c 23) (owedF c 24)
      (by rw [owedF_succ' c 23 (by decide)]; rfl) W35) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 23 (by decide)) $$ [AccCFS Hc]
  · isplitl [AccCFS]; · iexact AccCFS
    iexact Hc
  -- step 137: wait arg3[24] (arg0[(k0_off2 d0 1536#32)], arg1[(k0_off1 d0 1536#32)])
  first | sl_exec | skip
  ihave Hs := (Entails.of_eq (take_step (famCYR (F := F) c) 24 (by decide))) $$ [FcYR]
  · iexact FcYR
  icases Hs with ⟨Hc, FcYR⟩
  ihave Hs := (Entails.of_eq (take_step (famAtYR (F := F) c) 24 (by decide))) $$ [FatYR]
  · iexact FatYR
  icases Hs with ⟨Hat, FatYR⟩
  ihave #HIw := (Prep.inv_yr m K c 24) $$ HI
  iapply (Rounds.wp_wait_rest_token 𝒱₀ ER (rd m) (c : Thread nD τ) none (κ := K (c, some (1, 24))) (sm := .dma (yrS 24))
      (wpE_waitDma2_eq 𝒱₀ (c : Thread nD τ) none Set.univ (src := ySrc c 24) (dst := yDst c 24)) (Set.mem_univ _) () (O := owedF c 24) (W := W35) (R := 0) (m := 0) (T := ∅)
      (by rw [Nat.zero_add]; exact (expect_yr m c 24).symm)) $$ [Hc HO Hat]
  · isplitr; · iexact HIw
    isplitl [Hc]; · iexact Hc
    isplitl [HO]; · iexact HO
    isplitr
    · iapply (mayWait_of_above c (.dma (yrS 24)) _ (by rw [show lv ((c : Thread nD τ), SemLoc.dma (yrS 24)) () = 2 from lv_yr c 24]; exact above_owedF c 24 (by decide)))
      iexact Hlev
    iexact Hat
  iclear HIw
  iintro ⟨HO, Hat, -, Hpay⟩
  ihave HYk := (Entails.of_eq (rest_yr' m c 24)) $$ Hpay
  ihave #HIx := (Prep.inv_yr m K c 24) $$ HI
  imod (Rounds.cell_close ER (rd m) (Set.mem_univ (K (c, some (1, 24)))) (fun h => h) (R := 0 + 1) (duties_yr_later m c 24)) $$ [Hat] with Hz
  · isplitr; · iexact HIx
    iexact Hat
  iclear HIx
  ihave AccZyr := (acc_step (famZyr (F := F) c) 24 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W36, HO⟩
  -- step 138: send k0_dev91 src=arg1[(k0_off3 d0 1536#32)] dst=arg1[(k0_off3 d0 1536#32)] ssem=arg4[24] rsem=arg5[24]
  first | sl_exec | skip
  ihave Hs := (Entails.of_eq (take_step (famTFS (F := F) c) 24 (by decide))) $$ [FtFS]
  · iexact FtFS
  icases Hs with ⟨Ht1, FtFS⟩
  ihave Hs := (Entails.of_eq (take_step (famTFRP (F := F) c) 24 (by decide))) $$ [FtFRP]
  · iexact FtFRP
  icases Hs with ⟨Ht2, FtFRP⟩
  ihave Hs := (Entails.of_eq (take_step (famDF m c) 24 (by decide))) $$ [FdF]
  · iexact FdF
  icases Hs with ⟨Hd, FdF⟩
  ihave #HI1 := (Prep.inv_fs m K c 24) $$ HI
  ihave #HI2 := (Prep.inv_fr m K (xp c) 24) $$ HI
  ihave #HR1 := (Prep.reached_fs (F := F) c 24) $$ HR
  ihave #HR2 := (Prep.reached_fr (F := F) (xp c) 24) $$ HR
  iapply (wp_fsend m c _ (dev91_eq c) 24 (K (c, some (2, 24))) (K (xp c, some (3, 24))) (owedF c 24) (owedF c 25)
      (by rw [owedF_succ' c 24 (by decide)]; rfl) W36) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 24 (by decide)) $$ [AccCFS Hc]
  · isplitl [AccCFS]; · iexact AccCFS
    iexact Hc
  -- step 139: wait arg7[2] (arg6[![0, 0, 0]], arg1[(k0_off5 d0 2048#32)])
  first | sl_exec | skip
  ihave #HIw := (Prep.inv_ls m KL c 2) $$ HIL
  iapply (Rounds.wp_wait_rest_token 𝒱₀ ER (rd m) (c : Thread nD τ) none (κ := KL (c, 2)) (sm := .dma (lsS 2))
      (wpE_waitDma2_eq 𝒱₀ (c : Thread nD τ) none Set.univ (src := vSlot 0) (dst := lDst c 4)) (Set.mem_univ _) () (O := owedF c 25) (W := W36) (R := 2) (m := 0) (T := ∅)
      (by rw [Nat.zero_add]; exact (expect_st m c 0 2 (by decide)).symm)) $$ [Hc_l2 HO Hat_l2]
  · isplitr; · iexact HIw
    isplitl [Hc_l2]; · iexact Hc_l2
    isplitl [HO]; · iexact HO
    isplitr
    · iapply (mayWait_of_above c (.dma (lsS 2)) _ (by rw [show lv ((c : Thread nD τ), SemLoc.dma (lsS 2)) () = 0 from lv_ls c 2]; exact above_owedF c 25 (by decide)))
      iexact Hlev
    iexact Hat_l2
  iclear HIw
  iclear HRl2
  iintro ⟨HO, Hat_l2, #HRl2, Hpay⟩
  ihave Hp := (Entails.of_eq (rest_st0 m c 2 (by decide))) $$ Hpay
  icases Hp with ⟨Holq, Hv0⟩
  ihave AccOL := (acc_step (famOL m c) 4 (by decide)) $$ [AccOL Holq]
  · isplitl [AccOL]; · iexact AccOL
    iexact Holq
  ihave HOe : iprop(∃ W' : Waits sig Unit, owes (c : Thread nD τ) _ W') $$ [HO]
  · iexists _; iexact HO
  icases HOe with ⟨%W37, HO⟩
  -- step 140: copy src=arg0[(k0_off11 d0)] dst=arg6[![0, 0, 0]] sem=arg7[0]
  first | sl_exec | skip
  ihave Hs := (Entails.of_eq (take_step (famXL m c) 6 (by decide))) $$ [FxL]
  · iexact FxL
  icases Hs with ⟨Hxl, FxL⟩
  ihave #HIl := (Prep.inv_ls m KL c 0) $$ HIL
  iapply (Rounds.wp_copy_pointsTo 𝒱₀ ER (rd m) (c : Thread nD τ) none (src := lSrc c 6) (dst := vSlot 0) (sem := .dma (lsS 0)) (q := fullShare) (fs := xC m c) (fd := VC m c 4)
      (r := 3) (d := false) (κ := KL (c, 0)) (by rw [duties_ls m c 0 3 (by decide)]; exact Finset.mem_singleton_self _) () NV rfl (amount_ld m c 0 3 false)
      (by rw [payload_ls, vLand_pts m c 6 0 (VC m c 4)]; exact BI.Entails.refl _)) $$ [Hxl Hv0 Htl0_3]
  · isplitr; · iexact HIl
    isplitl [Hxl]; · iexact Hxl
    isplitl [Hv0]; · iexact Hv0
    isplitl [Htl0_3]; · iexact Htl0_3
    iexact HRl0
  iclear HIl
  iintro Hc_l0
  -- step 141: wait arg7[0] (arg0[(k0_off11 d0)], arg6[![0, 0, 0]])
  first | sl_exec | skip
  ihave #HIw := (Prep.inv_ls m KL c 0) $$ HIL
  iapply (Rounds.wp_wait_rest_token 𝒱₀ ER (rd m) (c : Thread nD τ) none (κ := KL (c, 0)) (sm := .dma (lsS 0))
      (wpE_waitDma2_eq 𝒱₀ (c : Thread nD τ) none Set.univ (src := lSrc c 6) (dst := vSlot 0)) (Set.mem_univ _) () (O := owedF c 25) (W := W37) (R := 3) (m := 0) (T := ∅)
      (by rw [Nat.zero_add]; exact (expect_ld m c 0 3 (by decide)).symm)) $$ [Hc_l0 HO Hat_l0]
  · isplitr; · iexact HIw
    isplitl [Hc_l0]; · iexact Hc_l0
    isplitl [HO]; · iexact HO
    isplitr
    · iapply (mayWait_of_above c (.dma (lsS 0)) _ (by rw [show lv ((c : Thread nD τ), SemLoc.dma (lsS 0)) () = 0 from lv_ls c 0]; exact above_owedF c 25 (by decide)))
      iexact Hlev
    iexact Hat_l0
  iclear HIw
  iclear HRl0
  iintro ⟨HO, Hat_l0, #HRl0, Hpay⟩
  ihave Hp := (Entails.of_eq (rest_ld0 m c 3 (by decide))) $$ Hpay
  icases Hp with ⟨Hv0, Hxlq⟩
  ihave AccXL := (acc_step (famXL m c) 6 (by decide)) $$ [AccXL Hxlq]
  · isplitl [AccXL]; · iexact AccXL
    iexact Hxlq
  ihave HOe : iprop(∃ W' : Waits sig Unit, owes (c : Thread nD τ) _ W') $$ [HO]
  · iexists _; iexact HO
  icases HOe with ⟨%W38, HO⟩
  -- step 142: copy src=arg6[![0, 0, 0]] dst=arg1[(k0_off5 d0 3072#32)] sem=arg7[2]
  first | sl_exec | skip
  ihave Hs := (Entails.of_eq (take_step (famOL0 m c) 6 (by decide))) $$ [FoL]
  · iexact FoL
  icases Hs with ⟨Hol, FoL⟩
  ihave #HIl := (Prep.inv_ls m KL c 2) $$ HIL
  iapply (Rounds.wp_copy_pointsTo 𝒱₀ ER (rd m) (c : Thread nD τ) none (src := vSlot 0) (dst := lDst c 6) (sem := .dma (lsS 2)) (q := fullShare) (fs := VC m c 6) (fd := o0 m c)
      (r := 3) (d := false) (κ := KL (c, 2)) (by rw [duties_ls m c 2 3 (by decide)]; exact Finset.mem_singleton_self _) () NO rfl (amount_st m c 0 3 false)
      (by rw [payload_ls, lLandV_pts m c 6 0 (o0 m c)]; exact BI.Entails.refl _)) $$ [Hv0 Hol Htl2_3]
  · isplitr; · iexact HIl
    isplitl [Hv0]; · iexact Hv0
    isplitl [Hol]; · iexact Hol
    isplitl [Htl2_3]; · iexact Htl2_3
    iexact HRl2
  iclear HIl
  iintro Hc_l2
  -- step 143: wait arg3[25] (arg0[(k0_off2 d0 1600#32)], arg1[(k0_off1 d0 1600#32)])
  first | sl_exec | skip
  ihave Hs := (Entails.of_eq (take_step (famCYR (F := F) c) 25 (by decide))) $$ [FcYR]
  · iexact FcYR
  icases Hs with ⟨Hc, FcYR⟩
  ihave Hs := (Entails.of_eq (take_step (famAtYR (F := F) c) 25 (by decide))) $$ [FatYR]
  · iexact FatYR
  icases Hs with ⟨Hat, FatYR⟩
  ihave #HIw := (Prep.inv_yr m K c 25) $$ HI
  iapply (Rounds.wp_wait_rest_token 𝒱₀ ER (rd m) (c : Thread nD τ) none (κ := K (c, some (1, 25))) (sm := .dma (yrS 25))
      (wpE_waitDma2_eq 𝒱₀ (c : Thread nD τ) none Set.univ (src := ySrc c 25) (dst := yDst c 25)) (Set.mem_univ _) () (O := owedF c 25) (W := W38) (R := 0) (m := 0) (T := ∅)
      (by rw [Nat.zero_add]; exact (expect_yr m c 25).symm)) $$ [Hc HO Hat]
  · isplitr; · iexact HIw
    isplitl [Hc]; · iexact Hc
    isplitl [HO]; · iexact HO
    isplitr
    · iapply (mayWait_of_above c (.dma (yrS 25)) _ (by rw [show lv ((c : Thread nD τ), SemLoc.dma (yrS 25)) () = 2 from lv_yr c 25]; exact above_owedF c 25 (by decide)))
      iexact Hlev
    iexact Hat
  iclear HIw
  iintro ⟨HO, Hat, -, Hpay⟩
  ihave HYk := (Entails.of_eq (rest_yr' m c 25)) $$ Hpay
  ihave #HIx := (Prep.inv_yr m K c 25) $$ HI
  imod (Rounds.cell_close ER (rd m) (Set.mem_univ (K (c, some (1, 25)))) (fun h => h) (R := 0 + 1) (duties_yr_later m c 25)) $$ [Hat] with Hz
  · isplitr; · iexact HIx
    iexact Hat
  iclear HIx
  ihave AccZyr := (acc_step (famZyr (F := F) c) 25 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W39, HO⟩
  -- step 144: send k0_dev92 src=arg1[(k0_off3 d0 1600#32)] dst=arg1[(k0_off3 d0 1600#32)] ssem=arg4[25] rsem=arg5[25]
  first | sl_exec | skip
  ihave Hs := (Entails.of_eq (take_step (famTFS (F := F) c) 25 (by decide))) $$ [FtFS]
  · iexact FtFS
  icases Hs with ⟨Ht1, FtFS⟩
  ihave Hs := (Entails.of_eq (take_step (famTFRP (F := F) c) 25 (by decide))) $$ [FtFRP]
  · iexact FtFRP
  icases Hs with ⟨Ht2, FtFRP⟩
  ihave Hs := (Entails.of_eq (take_step (famDF m c) 25 (by decide))) $$ [FdF]
  · iexact FdF
  icases Hs with ⟨Hd, FdF⟩
  ihave #HI1 := (Prep.inv_fs m K c 25) $$ HI
  ihave #HI2 := (Prep.inv_fr m K (xp c) 25) $$ HI
  ihave #HR1 := (Prep.reached_fs (F := F) c 25) $$ HR
  ihave #HR2 := (Prep.reached_fr (F := F) (xp c) 25) $$ HR
  iapply (wp_fsend m c _ (dev92_eq c) 25 (K (c, some (2, 25))) (K (xp c, some (3, 25))) (owedF c 25) (owedF c 26)
      (by rw [owedF_succ' c 25 (by decide)]; rfl) W39) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 25 (by decide)) $$ [AccCFS Hc]
  · isplitl [AccCFS]; · iexact AccCFS
    iexact Hc
  -- step 145: wait arg3[26] (arg0[(k0_off2 d0 1664#32)], arg1[(k0_off1 d0 1664#32)])
  first | sl_exec | skip
  ihave Hs := (Entails.of_eq (take_step (famCYR (F := F) c) 26 (by decide))) $$ [FcYR]
  · iexact FcYR
  icases Hs with ⟨Hc, FcYR⟩
  ihave Hs := (Entails.of_eq (take_step (famAtYR (F := F) c) 26 (by decide))) $$ [FatYR]
  · iexact FatYR
  icases Hs with ⟨Hat, FatYR⟩
  ihave #HIw := (Prep.inv_yr m K c 26) $$ HI
  iapply (Rounds.wp_wait_rest_token 𝒱₀ ER (rd m) (c : Thread nD τ) none (κ := K (c, some (1, 26))) (sm := .dma (yrS 26))
      (wpE_waitDma2_eq 𝒱₀ (c : Thread nD τ) none Set.univ (src := ySrc c 26) (dst := yDst c 26)) (Set.mem_univ _) () (O := owedF c 26) (W := W39) (R := 0) (m := 0) (T := ∅)
      (by rw [Nat.zero_add]; exact (expect_yr m c 26).symm)) $$ [Hc HO Hat]
  · isplitr; · iexact HIw
    isplitl [Hc]; · iexact Hc
    isplitl [HO]; · iexact HO
    isplitr
    · iapply (mayWait_of_above c (.dma (yrS 26)) _ (by rw [show lv ((c : Thread nD τ), SemLoc.dma (yrS 26)) () = 2 from lv_yr c 26]; exact above_owedF c 26 (by decide)))
      iexact Hlev
    iexact Hat
  iclear HIw
  iintro ⟨HO, Hat, -, Hpay⟩
  ihave HYk := (Entails.of_eq (rest_yr' m c 26)) $$ Hpay
  ihave #HIx := (Prep.inv_yr m K c 26) $$ HI
  imod (Rounds.cell_close ER (rd m) (Set.mem_univ (K (c, some (1, 26)))) (fun h => h) (R := 0 + 1) (duties_yr_later m c 26)) $$ [Hat] with Hz
  · isplitr; · iexact HIx
    iexact Hat
  iclear HIx
  ihave AccZyr := (acc_step (famZyr (F := F) c) 26 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W40, HO⟩
  -- step 146: send k0_dev93 src=arg1[(k0_off3 d0 1664#32)] dst=arg1[(k0_off3 d0 1664#32)] ssem=arg4[26] rsem=arg5[26]
  first | sl_exec | skip
  ihave Hs := (Entails.of_eq (take_step (famTFS (F := F) c) 26 (by decide))) $$ [FtFS]
  · iexact FtFS
  icases Hs with ⟨Ht1, FtFS⟩
  ihave Hs := (Entails.of_eq (take_step (famTFRP (F := F) c) 26 (by decide))) $$ [FtFRP]
  · iexact FtFRP
  icases Hs with ⟨Ht2, FtFRP⟩
  ihave Hs := (Entails.of_eq (take_step (famDF m c) 26 (by decide))) $$ [FdF]
  · iexact FdF
  icases Hs with ⟨Hd, FdF⟩
  ihave #HI1 := (Prep.inv_fs m K c 26) $$ HI
  ihave #HI2 := (Prep.inv_fr m K (xp c) 26) $$ HI
  ihave #HR1 := (Prep.reached_fs (F := F) c 26) $$ HR
  ihave #HR2 := (Prep.reached_fr (F := F) (xp c) 26) $$ HR
  iapply (wp_fsend m c _ (dev93_eq c) 26 (K (c, some (2, 26))) (K (xp c, some (3, 26))) (owedF c 26) (owedF c 27)
      (by rw [owedF_succ' c 26 (by decide)]; rfl) W40) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 26 (by decide)) $$ [AccCFS Hc]
  · isplitl [AccCFS]; · iexact AccCFS
    iexact Hc
  -- step 147: wait arg3[27] (arg0[(k0_off2 d0 1728#32)], arg1[(k0_off1 d0 1728#32)])
  first | sl_exec | skip
  ihave Hs := (Entails.of_eq (take_step (famCYR (F := F) c) 27 (by decide))) $$ [FcYR]
  · iexact FcYR
  icases Hs with ⟨Hc, FcYR⟩
  ihave Hs := (Entails.of_eq (take_step (famAtYR (F := F) c) 27 (by decide))) $$ [FatYR]
  · iexact FatYR
  icases Hs with ⟨Hat, FatYR⟩
  ihave #HIw := (Prep.inv_yr m K c 27) $$ HI
  iapply (Rounds.wp_wait_rest_token 𝒱₀ ER (rd m) (c : Thread nD τ) none (κ := K (c, some (1, 27))) (sm := .dma (yrS 27))
      (wpE_waitDma2_eq 𝒱₀ (c : Thread nD τ) none Set.univ (src := ySrc c 27) (dst := yDst c 27)) (Set.mem_univ _) () (O := owedF c 27) (W := W40) (R := 0) (m := 0) (T := ∅)
      (by rw [Nat.zero_add]; exact (expect_yr m c 27).symm)) $$ [Hc HO Hat]
  · isplitr; · iexact HIw
    isplitl [Hc]; · iexact Hc
    isplitl [HO]; · iexact HO
    isplitr
    · iapply (mayWait_of_above c (.dma (yrS 27)) _ (by rw [show lv ((c : Thread nD τ), SemLoc.dma (yrS 27)) () = 2 from lv_yr c 27]; exact above_owedF c 27 (by decide)))
      iexact Hlev
    iexact Hat
  iclear HIw
  iintro ⟨HO, Hat, -, Hpay⟩
  ihave HYk := (Entails.of_eq (rest_yr' m c 27)) $$ Hpay
  ihave #HIx := (Prep.inv_yr m K c 27) $$ HI
  imod (Rounds.cell_close ER (rd m) (Set.mem_univ (K (c, some (1, 27)))) (fun h => h) (R := 0 + 1) (duties_yr_later m c 27)) $$ [Hat] with Hz
  · isplitr; · iexact HIx
    iexact Hat
  iclear HIx
  ihave AccZyr := (acc_step (famZyr (F := F) c) 27 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W41, HO⟩
  -- step 148: send k0_dev94 src=arg1[(k0_off3 d0 1728#32)] dst=arg1[(k0_off3 d0 1728#32)] ssem=arg4[27] rsem=arg5[27]
  first | sl_exec | skip
  ihave Hs := (Entails.of_eq (take_step (famTFS (F := F) c) 27 (by decide))) $$ [FtFS]
  · iexact FtFS
  icases Hs with ⟨Ht1, FtFS⟩
  ihave Hs := (Entails.of_eq (take_step (famTFRP (F := F) c) 27 (by decide))) $$ [FtFRP]
  · iexact FtFRP
  icases Hs with ⟨Ht2, FtFRP⟩
  ihave Hs := (Entails.of_eq (take_step (famDF m c) 27 (by decide))) $$ [FdF]
  · iexact FdF
  icases Hs with ⟨Hd, FdF⟩
  ihave #HI1 := (Prep.inv_fs m K c 27) $$ HI
  ihave #HI2 := (Prep.inv_fr m K (xp c) 27) $$ HI
  ihave #HR1 := (Prep.reached_fs (F := F) c 27) $$ HR
  ihave #HR2 := (Prep.reached_fr (F := F) (xp c) 27) $$ HR
  iapply (wp_fsend m c _ (dev94_eq c) 27 (K (c, some (2, 27))) (K (xp c, some (3, 27))) (owedF c 27) (owedF c 28)
      (by rw [owedF_succ' c 27 (by decide)]; rfl) W41) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 27 (by decide)) $$ [AccCFS Hc]
  · isplitl [AccCFS]; · iexact AccCFS
    iexact Hc
  -- step 149: wait arg3[28] (arg0[(k0_off2 d0 1792#32)], arg1[(k0_off1 d0 1792#32)])
  first | sl_exec | skip
  ihave Hs := (Entails.of_eq (take_step (famCYR (F := F) c) 28 (by decide))) $$ [FcYR]
  · iexact FcYR
  icases Hs with ⟨Hc, FcYR⟩
  ihave Hs := (Entails.of_eq (take_step (famAtYR (F := F) c) 28 (by decide))) $$ [FatYR]
  · iexact FatYR
  icases Hs with ⟨Hat, FatYR⟩
  ihave #HIw := (Prep.inv_yr m K c 28) $$ HI
  iapply (Rounds.wp_wait_rest_token 𝒱₀ ER (rd m) (c : Thread nD τ) none (κ := K (c, some (1, 28))) (sm := .dma (yrS 28))
      (wpE_waitDma2_eq 𝒱₀ (c : Thread nD τ) none Set.univ (src := ySrc c 28) (dst := yDst c 28)) (Set.mem_univ _) () (O := owedF c 28) (W := W41) (R := 0) (m := 0) (T := ∅)
      (by rw [Nat.zero_add]; exact (expect_yr m c 28).symm)) $$ [Hc HO Hat]
  · isplitr; · iexact HIw
    isplitl [Hc]; · iexact Hc
    isplitl [HO]; · iexact HO
    isplitr
    · iapply (mayWait_of_above c (.dma (yrS 28)) _ (by rw [show lv ((c : Thread nD τ), SemLoc.dma (yrS 28)) () = 2 from lv_yr c 28]; exact above_owedF c 28 (by decide)))
      iexact Hlev
    iexact Hat
  iclear HIw
  iintro ⟨HO, Hat, -, Hpay⟩
  ihave HYk := (Entails.of_eq (rest_yr' m c 28)) $$ Hpay
  ihave #HIx := (Prep.inv_yr m K c 28) $$ HI
  imod (Rounds.cell_close ER (rd m) (Set.mem_univ (K (c, some (1, 28)))) (fun h => h) (R := 0 + 1) (duties_yr_later m c 28)) $$ [Hat] with Hz
  · isplitr; · iexact HIx
    iexact Hat
  iclear HIx
  ihave AccZyr := (acc_step (famZyr (F := F) c) 28 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W42, HO⟩
  -- step 150: send k0_dev95 src=arg1[(k0_off3 d0 1792#32)] dst=arg1[(k0_off3 d0 1792#32)] ssem=arg4[28] rsem=arg5[28]
  first | sl_exec | skip
  ihave Hs := (Entails.of_eq (take_step (famTFS (F := F) c) 28 (by decide))) $$ [FtFS]
  · iexact FtFS
  icases Hs with ⟨Ht1, FtFS⟩
  ihave Hs := (Entails.of_eq (take_step (famTFRP (F := F) c) 28 (by decide))) $$ [FtFRP]
  · iexact FtFRP
  icases Hs with ⟨Ht2, FtFRP⟩
  ihave Hs := (Entails.of_eq (take_step (famDF m c) 28 (by decide))) $$ [FdF]
  · iexact FdF
  icases Hs with ⟨Hd, FdF⟩
  ihave #HI1 := (Prep.inv_fs m K c 28) $$ HI
  ihave #HI2 := (Prep.inv_fr m K (xp c) 28) $$ HI
  ihave #HR1 := (Prep.reached_fs (F := F) c 28) $$ HR
  ihave #HR2 := (Prep.reached_fr (F := F) (xp c) 28) $$ HR
  iapply (wp_fsend m c _ (dev95_eq c) 28 (K (c, some (2, 28))) (K (xp c, some (3, 28))) (owedF c 28) (owedF c 29)
      (by rw [owedF_succ' c 28 (by decide)]; rfl) W42) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 28 (by decide)) $$ [AccCFS Hc]
  · isplitl [AccCFS]; · iexact AccCFS
    iexact Hc
  -- step 151: wait arg7[3] (arg6[![1, 0, 0]], arg1[(k0_off5 d0 2560#32)])
  first | sl_exec | skip
  ihave #HIw := (Prep.inv_ls m KL c 3) $$ HIL
  iapply (Rounds.wp_wait_rest_token 𝒱₀ ER (rd m) (c : Thread nD τ) none (κ := KL (c, 3)) (sm := .dma (lsS 3))
      (wpE_waitDma2_eq 𝒱₀ (c : Thread nD τ) none Set.univ (src := vSlot 1) (dst := lDst c 5)) (Set.mem_univ _) () (O := owedF c 29) (W := W42) (R := 2) (m := 0) (T := ∅)
      (by rw [Nat.zero_add]; exact (expect_st m c 1 2 (by decide)).symm)) $$ [Hc_l3 HO Hat_l3]
  · isplitr; · iexact HIw
    isplitl [Hc_l3]; · iexact Hc_l3
    isplitl [HO]; · iexact HO
    isplitr
    · iapply (mayWait_of_above c (.dma (lsS 3)) _ (by rw [show lv ((c : Thread nD τ), SemLoc.dma (lsS 3)) () = 0 from lv_ls c 3]; exact above_owedF c 29 (by decide)))
      iexact Hlev
    iexact Hat_l3
  iclear HIw
  iclear HRl3
  iintro ⟨HO, Hat_l3, #HRl3, Hpay⟩
  ihave Hp := (Entails.of_eq (rest_st1 m c 2 (by decide))) $$ Hpay
  icases Hp with ⟨Holq, Hv1⟩
  ihave AccOL := (acc_step (famOL m c) 5 (by decide)) $$ [AccOL Holq]
  · isplitl [AccOL]; · iexact AccOL
    iexact Holq
  ihave HOe : iprop(∃ W' : Waits sig Unit, owes (c : Thread nD τ) _ W') $$ [HO]
  · iexists _; iexact HO
  icases HOe with ⟨%W43, HO⟩
  -- step 152: copy src=arg0[(k0_off12 d0)] dst=arg6[![1, 0, 0]] sem=arg7[1]
  first | sl_exec | skip
  ihave Hs := (Entails.of_eq (take_step (famXL m c) 7 (by decide))) $$ [FxL]
  · iexact FxL
  icases Hs with ⟨Hxl, FxL⟩
  ihave #HIl := (Prep.inv_ls m KL c 1) $$ HIL
  iapply (Rounds.wp_copy_pointsTo 𝒱₀ ER (rd m) (c : Thread nD τ) none (src := lSrc c 7) (dst := vSlot 1) (sem := .dma (lsS 1)) (q := fullShare) (fs := xC m c) (fd := VC m c 5)
      (r := 3) (d := false) (κ := KL (c, 1)) (by rw [duties_ls m c 1 3 (by decide)]; exact Finset.mem_singleton_self _) () NV rfl (amount_ld m c 1 3 false)
      (by rw [payload_ls, vLand_pts m c 7 1 (VC m c 5)]; exact BI.Entails.refl _)) $$ [Hxl Hv1 Htl1_3]
  · isplitr; · iexact HIl
    isplitl [Hxl]; · iexact Hxl
    isplitl [Hv1]; · iexact Hv1
    isplitl [Htl1_3]; · iexact Htl1_3
    iexact HRl1
  iclear HIl
  iintro Hc_l1
  -- step 153: wait arg7[1] (arg0[(k0_off12 d0)], arg6[![1, 0, 0]])
  first | sl_exec | skip
  ihave #HIw := (Prep.inv_ls m KL c 1) $$ HIL
  iapply (Rounds.wp_wait_rest_token 𝒱₀ ER (rd m) (c : Thread nD τ) none (κ := KL (c, 1)) (sm := .dma (lsS 1))
      (wpE_waitDma2_eq 𝒱₀ (c : Thread nD τ) none Set.univ (src := lSrc c 7) (dst := vSlot 1)) (Set.mem_univ _) () (O := owedF c 29) (W := W43) (R := 3) (m := 0) (T := ∅)
      (by rw [Nat.zero_add]; exact (expect_ld m c 1 3 (by decide)).symm)) $$ [Hc_l1 HO Hat_l1]
  · isplitr; · iexact HIw
    isplitl [Hc_l1]; · iexact Hc_l1
    isplitl [HO]; · iexact HO
    isplitr
    · iapply (mayWait_of_above c (.dma (lsS 1)) _ (by rw [show lv ((c : Thread nD τ), SemLoc.dma (lsS 1)) () = 0 from lv_ls c 1]; exact above_owedF c 29 (by decide)))
      iexact Hlev
    iexact Hat_l1
  iclear HIw
  iclear HRl1
  iintro ⟨HO, Hat_l1, #HRl1, Hpay⟩
  ihave Hp := (Entails.of_eq (rest_ld1 m c 3 (by decide))) $$ Hpay
  icases Hp with ⟨Hv1, Hxlq⟩
  ihave AccXL := (acc_step (famXL m c) 7 (by decide)) $$ [AccXL Hxlq]
  · isplitl [AccXL]; · iexact AccXL
    iexact Hxlq
  ihave HOe : iprop(∃ W' : Waits sig Unit, owes (c : Thread nD τ) _ W') $$ [HO]
  · iexists _; iexact HO
  icases HOe with ⟨%W44, HO⟩
  -- step 154: copy src=arg6[![1, 0, 0]] dst=arg1[(k0_off5 d0 3584#32)] sem=arg7[3]
  first | sl_exec | skip
  ihave Hs := (Entails.of_eq (take_step (famOL0 m c) 7 (by decide))) $$ [FoL]
  · iexact FoL
  icases Hs with ⟨Hol, FoL⟩
  ihave #HIl := (Prep.inv_ls m KL c 3) $$ HIL
  iapply (Rounds.wp_copy_pointsTo 𝒱₀ ER (rd m) (c : Thread nD τ) none (src := vSlot 1) (dst := lDst c 7) (sem := .dma (lsS 3)) (q := fullShare) (fs := VC m c 7) (fd := o0 m c)
      (r := 3) (d := false) (κ := KL (c, 3)) (by rw [duties_ls m c 3 3 (by decide)]; exact Finset.mem_singleton_self _) () NO rfl (amount_st m c 1 3 false)
      (by rw [payload_ls, lLandV_pts m c 7 1 (o0 m c)]; exact BI.Entails.refl _)) $$ [Hv1 Hol Htl3_3]
  · isplitr; · iexact HIl
    isplitl [Hv1]; · iexact Hv1
    isplitl [Hol]; · iexact Hol
    isplitl [Htl3_3]; · iexact Htl3_3
    iexact HRl3
  iclear HIl
  iintro Hc_l3
  -- step 155: wait arg3[29] (arg0[(k0_off2 d0 1856#32)], arg1[(k0_off1 d0 1856#32)])
  first | sl_exec | skip
  ihave Hs := (Entails.of_eq (take_step (famCYR (F := F) c) 29 (by decide))) $$ [FcYR]
  · iexact FcYR
  icases Hs with ⟨Hc, FcYR⟩
  ihave Hs := (Entails.of_eq (take_step (famAtYR (F := F) c) 29 (by decide))) $$ [FatYR]
  · iexact FatYR
  icases Hs with ⟨Hat, FatYR⟩
  ihave #HIw := (Prep.inv_yr m K c 29) $$ HI
  iapply (Rounds.wp_wait_rest_token 𝒱₀ ER (rd m) (c : Thread nD τ) none (κ := K (c, some (1, 29))) (sm := .dma (yrS 29))
      (wpE_waitDma2_eq 𝒱₀ (c : Thread nD τ) none Set.univ (src := ySrc c 29) (dst := yDst c 29)) (Set.mem_univ _) () (O := owedF c 29) (W := W44) (R := 0) (m := 0) (T := ∅)
      (by rw [Nat.zero_add]; exact (expect_yr m c 29).symm)) $$ [Hc HO Hat]
  · isplitr; · iexact HIw
    isplitl [Hc]; · iexact Hc
    isplitl [HO]; · iexact HO
    isplitr
    · iapply (mayWait_of_above c (.dma (yrS 29)) _ (by rw [show lv ((c : Thread nD τ), SemLoc.dma (yrS 29)) () = 2 from lv_yr c 29]; exact above_owedF c 29 (by decide)))
      iexact Hlev
    iexact Hat
  iclear HIw
  iintro ⟨HO, Hat, -, Hpay⟩
  ihave HYk := (Entails.of_eq (rest_yr' m c 29)) $$ Hpay
  ihave #HIx := (Prep.inv_yr m K c 29) $$ HI
  imod (Rounds.cell_close ER (rd m) (Set.mem_univ (K (c, some (1, 29)))) (fun h => h) (R := 0 + 1) (duties_yr_later m c 29)) $$ [Hat] with Hz
  · isplitr; · iexact HIx
    iexact Hat
  iclear HIx
  ihave AccZyr := (acc_step (famZyr (F := F) c) 29 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W45, HO⟩
  -- step 156: send k0_dev96 src=arg1[(k0_off3 d0 1856#32)] dst=arg1[(k0_off3 d0 1856#32)] ssem=arg4[29] rsem=arg5[29]
  first | sl_exec | skip
  ihave Hs := (Entails.of_eq (take_step (famTFS (F := F) c) 29 (by decide))) $$ [FtFS]
  · iexact FtFS
  icases Hs with ⟨Ht1, FtFS⟩
  ihave Hs := (Entails.of_eq (take_step (famTFRP (F := F) c) 29 (by decide))) $$ [FtFRP]
  · iexact FtFRP
  icases Hs with ⟨Ht2, FtFRP⟩
  ihave Hs := (Entails.of_eq (take_step (famDF m c) 29 (by decide))) $$ [FdF]
  · iexact FdF
  icases Hs with ⟨Hd, FdF⟩
  ihave #HI1 := (Prep.inv_fs m K c 29) $$ HI
  ihave #HI2 := (Prep.inv_fr m K (xp c) 29) $$ HI
  ihave #HR1 := (Prep.reached_fs (F := F) c 29) $$ HR
  ihave #HR2 := (Prep.reached_fr (F := F) (xp c) 29) $$ HR
  iapply (wp_fsend m c _ (dev96_eq c) 29 (K (c, some (2, 29))) (K (xp c, some (3, 29))) (owedF c 29) (owedF c 30)
      (by rw [owedF_succ' c 29 (by decide)]; rfl) W45) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 29 (by decide)) $$ [AccCFS Hc]
  · isplitl [AccCFS]; · iexact AccCFS
    iexact Hc
  -- step 157: wait arg3[30] (arg0[(k0_off2 d0 1920#32)], arg1[(k0_off1 d0 1920#32)])
  first | sl_exec | skip
  ihave Hs := (Entails.of_eq (take_step (famCYR (F := F) c) 30 (by decide))) $$ [FcYR]
  · iexact FcYR
  icases Hs with ⟨Hc, FcYR⟩
  ihave Hs := (Entails.of_eq (take_step (famAtYR (F := F) c) 30 (by decide))) $$ [FatYR]
  · iexact FatYR
  icases Hs with ⟨Hat, FatYR⟩
  ihave #HIw := (Prep.inv_yr m K c 30) $$ HI
  iapply (Rounds.wp_wait_rest_token 𝒱₀ ER (rd m) (c : Thread nD τ) none (κ := K (c, some (1, 30))) (sm := .dma (yrS 30))
      (wpE_waitDma2_eq 𝒱₀ (c : Thread nD τ) none Set.univ (src := ySrc c 30) (dst := yDst c 30)) (Set.mem_univ _) () (O := owedF c 30) (W := W45) (R := 0) (m := 0) (T := ∅)
      (by rw [Nat.zero_add]; exact (expect_yr m c 30).symm)) $$ [Hc HO Hat]
  · isplitr; · iexact HIw
    isplitl [Hc]; · iexact Hc
    isplitl [HO]; · iexact HO
    isplitr
    · iapply (mayWait_of_above c (.dma (yrS 30)) _ (by rw [show lv ((c : Thread nD τ), SemLoc.dma (yrS 30)) () = 2 from lv_yr c 30]; exact above_owedF c 30 (by decide)))
      iexact Hlev
    iexact Hat
  iclear HIw
  iintro ⟨HO, Hat, -, Hpay⟩
  ihave HYk := (Entails.of_eq (rest_yr' m c 30)) $$ Hpay
  ihave #HIx := (Prep.inv_yr m K c 30) $$ HI
  imod (Rounds.cell_close ER (rd m) (Set.mem_univ (K (c, some (1, 30)))) (fun h => h) (R := 0 + 1) (duties_yr_later m c 30)) $$ [Hat] with Hz
  · isplitr; · iexact HIx
    iexact Hat
  iclear HIx
  ihave AccZyr := (acc_step (famZyr (F := F) c) 30 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W46, HO⟩
  -- step 158: send k0_dev97 src=arg1[(k0_off3 d0 1920#32)] dst=arg1[(k0_off3 d0 1920#32)] ssem=arg4[30] rsem=arg5[30]
  first | sl_exec | skip
  ihave Hs := (Entails.of_eq (take_step (famTFS (F := F) c) 30 (by decide))) $$ [FtFS]
  · iexact FtFS
  icases Hs with ⟨Ht1, FtFS⟩
  ihave Hs := (Entails.of_eq (take_step (famTFRP (F := F) c) 30 (by decide))) $$ [FtFRP]
  · iexact FtFRP
  icases Hs with ⟨Ht2, FtFRP⟩
  ihave Hs := (Entails.of_eq (take_step (famDF m c) 30 (by decide))) $$ [FdF]
  · iexact FdF
  icases Hs with ⟨Hd, FdF⟩
  ihave #HI1 := (Prep.inv_fs m K c 30) $$ HI
  ihave #HI2 := (Prep.inv_fr m K (xp c) 30) $$ HI
  ihave #HR1 := (Prep.reached_fs (F := F) c 30) $$ HR
  ihave #HR2 := (Prep.reached_fr (F := F) (xp c) 30) $$ HR
  iapply (wp_fsend m c _ (dev97_eq c) 30 (K (c, some (2, 30))) (K (xp c, some (3, 30))) (owedF c 30) (owedF c 31)
      (by rw [owedF_succ' c 30 (by decide)]; rfl) W46) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 30 (by decide)) $$ [AccCFS Hc]
  · isplitl [AccCFS]; · iexact AccCFS
    iexact Hc
  -- step 159: wait arg3[31] (arg0[(k0_off2 d0 1984#32)], arg1[(k0_off1 d0 1984#32)])
  first | sl_exec | skip
  ihave Hs := (Entails.of_eq (take_step (famCYR (F := F) c) 31 (by decide))) $$ [FcYR]
  · iexact FcYR
  icases Hs with ⟨Hc, FcYR⟩
  ihave Hs := (Entails.of_eq (take_step (famAtYR (F := F) c) 31 (by decide))) $$ [FatYR]
  · iexact FatYR
  icases Hs with ⟨Hat, FatYR⟩
  ihave #HIw := (Prep.inv_yr m K c 31) $$ HI
  iapply (Rounds.wp_wait_rest_token 𝒱₀ ER (rd m) (c : Thread nD τ) none (κ := K (c, some (1, 31))) (sm := .dma (yrS 31))
      (wpE_waitDma2_eq 𝒱₀ (c : Thread nD τ) none Set.univ (src := ySrc c 31) (dst := yDst c 31)) (Set.mem_univ _) () (O := owedF c 31) (W := W46) (R := 0) (m := 0) (T := ∅)
      (by rw [Nat.zero_add]; exact (expect_yr m c 31).symm)) $$ [Hc HO Hat]
  · isplitr; · iexact HIw
    isplitl [Hc]; · iexact Hc
    isplitl [HO]; · iexact HO
    isplitr
    · iapply (mayWait_of_above c (.dma (yrS 31)) _ (by rw [show lv ((c : Thread nD τ), SemLoc.dma (yrS 31)) () = 2 from lv_yr c 31]; exact above_owedF c 31 (by decide)))
      iexact Hlev
    iexact Hat
  iclear HIw
  iintro ⟨HO, Hat, -, Hpay⟩
  ihave HYk := (Entails.of_eq (rest_yr' m c 31)) $$ Hpay
  ihave #HIx := (Prep.inv_yr m K c 31) $$ HI
  imod (Rounds.cell_close ER (rd m) (Set.mem_univ (K (c, some (1, 31)))) (fun h => h) (R := 0 + 1) (duties_yr_later m c 31)) $$ [Hat] with Hz
  · isplitr; · iexact HIx
    iexact Hat
  iclear HIx
  ihave AccZyr := (acc_step (famZyr (F := F) c) 31 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W47, HO⟩
  -- step 160: send k0_dev98 src=arg1[(k0_off3 d0 1984#32)] dst=arg1[(k0_off3 d0 1984#32)] ssem=arg4[31] rsem=arg5[31]
  first | sl_exec | skip
  ihave Hs := (Entails.of_eq (take_step (famTFS (F := F) c) 31 (by decide))) $$ [FtFS]
  · iexact FtFS
  icases Hs with ⟨Ht1, FtFS⟩
  ihave Hs := (Entails.of_eq (take_step (famTFRP (F := F) c) 31 (by decide))) $$ [FtFRP]
  · iexact FtFRP
  icases Hs with ⟨Ht2, FtFRP⟩
  ihave Hs := (Entails.of_eq (take_step (famDF m c) 31 (by decide))) $$ [FdF]
  · iexact FdF
  icases Hs with ⟨Hd, FdF⟩
  ihave #HI1 := (Prep.inv_fs m K c 31) $$ HI
  ihave #HI2 := (Prep.inv_fr m K (xp c) 31) $$ HI
  ihave #HR1 := (Prep.reached_fs (F := F) c 31) $$ HR
  ihave #HR2 := (Prep.reached_fr (F := F) (xp c) 31) $$ HR
  iapply (wp_fsend m c _ (dev98_eq c) 31 (K (c, some (2, 31))) (K (xp c, some (3, 31))) (owedF c 31) (owedF c 32)
      (by rw [owedF_succ' c 31 (by decide)]; rfl) W47) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 31 (by decide)) $$ [AccCFS Hc]
  · isplitl [AccCFS]; · iexact AccCFS
    iexact Hc
  -- step 161: wait arg3[32] (arg0[(k0_off2 d0 2048#32)], arg1[(k0_off1 d0 2048#32)])
  first | sl_exec | skip
  ihave Hs := (Entails.of_eq (take_step (famCYR (F := F) c) 32 (by decide))) $$ [FcYR]
  · iexact FcYR
  icases Hs with ⟨Hc, FcYR⟩
  ihave Hs := (Entails.of_eq (take_step (famAtYR (F := F) c) 32 (by decide))) $$ [FatYR]
  · iexact FatYR
  icases Hs with ⟨Hat, FatYR⟩
  ihave #HIw := (Prep.inv_yr m K c 32) $$ HI
  iapply (Rounds.wp_wait_rest_token 𝒱₀ ER (rd m) (c : Thread nD τ) none (κ := K (c, some (1, 32))) (sm := .dma (yrS 32))
      (wpE_waitDma2_eq 𝒱₀ (c : Thread nD τ) none Set.univ (src := ySrc c 32) (dst := yDst c 32)) (Set.mem_univ _) () (O := owedF c 32) (W := W47) (R := 0) (m := 0) (T := ∅)
      (by rw [Nat.zero_add]; exact (expect_yr m c 32).symm)) $$ [Hc HO Hat]
  · isplitr; · iexact HIw
    isplitl [Hc]; · iexact Hc
    isplitl [HO]; · iexact HO
    isplitr
    · iapply (mayWait_of_above c (.dma (yrS 32)) _ (by rw [show lv ((c : Thread nD τ), SemLoc.dma (yrS 32)) () = 2 from lv_yr c 32]; exact above_owedF c 32 (by decide)))
      iexact Hlev
    iexact Hat
  iclear HIw
  iintro ⟨HO, Hat, -, Hpay⟩
  ihave HYk := (Entails.of_eq (rest_yr' m c 32)) $$ Hpay
  ihave #HIx := (Prep.inv_yr m K c 32) $$ HI
  imod (Rounds.cell_close ER (rd m) (Set.mem_univ (K (c, some (1, 32)))) (fun h => h) (R := 0 + 1) (duties_yr_later m c 32)) $$ [Hat] with Hz
  · isplitr; · iexact HIx
    iexact Hat
  iclear HIx
  ihave AccZyr := (acc_step (famZyr (F := F) c) 32 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W48, HO⟩
  -- step 162: send k0_dev99 src=arg1[(k0_off3 d0 2048#32)] dst=arg1[(k0_off3 d0 2048#32)] ssem=arg4[32] rsem=arg5[32]
  first | sl_exec | skip
  ihave Hs := (Entails.of_eq (take_step (famTFS (F := F) c) 32 (by decide))) $$ [FtFS]
  · iexact FtFS
  icases Hs with ⟨Ht1, FtFS⟩
  ihave Hs := (Entails.of_eq (take_step (famTFRP (F := F) c) 32 (by decide))) $$ [FtFRP]
  · iexact FtFRP
  icases Hs with ⟨Ht2, FtFRP⟩
  ihave Hs := (Entails.of_eq (take_step (famDF m c) 32 (by decide))) $$ [FdF]
  · iexact FdF
  icases Hs with ⟨Hd, FdF⟩
  ihave #HI1 := (Prep.inv_fs m K c 32) $$ HI
  ihave #HI2 := (Prep.inv_fr m K (xp c) 32) $$ HI
  ihave #HR1 := (Prep.reached_fs (F := F) c 32) $$ HR
  ihave #HR2 := (Prep.reached_fr (F := F) (xp c) 32) $$ HR
  iapply (wp_fsend m c _ (dev99_eq c) 32 (K (c, some (2, 32))) (K (xp c, some (3, 32))) (owedF c 32) (owedF c 33)
      (by rw [owedF_succ' c 32 (by decide)]; rfl) W48) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 32 (by decide)) $$ [AccCFS Hc]
  · isplitl [AccCFS]; · iexact AccCFS
    iexact Hc
  -- step 163: wait arg7[2] (arg6[![0, 0, 0]], arg1[(k0_off5 d0 3072#32)])
  first | sl_exec | skip
  ihave #HIw := (Prep.inv_ls m KL c 2) $$ HIL
  iapply (Rounds.wp_wait_rest_token 𝒱₀ ER (rd m) (c : Thread nD τ) none (κ := KL (c, 2)) (sm := .dma (lsS 2))
      (wpE_waitDma2_eq 𝒱₀ (c : Thread nD τ) none Set.univ (src := vSlot 0) (dst := lDst c 6)) (Set.mem_univ _) () (O := owedF c 33) (W := W48) (R := 3) (m := 0) (T := ∅)
      (by rw [Nat.zero_add]; exact (expect_st m c 0 3 (by decide)).symm)) $$ [Hc_l2 HO Hat_l2]
  · isplitr; · iexact HIw
    isplitl [Hc_l2]; · iexact Hc_l2
    isplitl [HO]; · iexact HO
    isplitr
    · iapply (mayWait_of_above c (.dma (lsS 2)) _ (by rw [show lv ((c : Thread nD τ), SemLoc.dma (lsS 2)) () = 0 from lv_ls c 2]; exact above_owedF c 33 (by decide)))
      iexact Hlev
    iexact Hat_l2
  iclear HIw
  iclear HRl2
  iintro ⟨HO, Hat_l2, #HRl2, Hpay⟩
  ihave Hp := (Entails.of_eq (rest_st0 m c 3 (by decide))) $$ Hpay
  icases Hp with ⟨Holq, Hv0⟩
  ihave AccOL := (acc_step (famOL m c) 6 (by decide)) $$ [AccOL Holq]
  · isplitl [AccOL]; · iexact AccOL
    iexact Holq
  ihave HOe : iprop(∃ W' : Waits sig Unit, owes (c : Thread nD τ) _ W') $$ [HO]
  · iexists _; iexact HO
  icases HOe with ⟨%W49, HO⟩
  -- step 164: copy src=arg0[(k0_off13 d0)] dst=arg6[![0, 0, 0]] sem=arg7[0]
  first | sl_exec | skip
  ihave Hs := (Entails.of_eq (take_step (famXL m c) 8 (by decide))) $$ [FxL]
  · iexact FxL
  icases Hs with ⟨Hxl, FxL⟩
  ihave #HIl := (Prep.inv_ls m KL c 0) $$ HIL
  iapply (Rounds.wp_copy_pointsTo 𝒱₀ ER (rd m) (c : Thread nD τ) none (src := lSrc c 8) (dst := vSlot 0) (sem := .dma (lsS 0)) (q := fullShare) (fs := xC m c) (fd := VC m c 6)
      (r := 4) (d := false) (κ := KL (c, 0)) (by rw [duties_ls m c 0 4 (by decide)]; exact Finset.mem_singleton_self _) () NV rfl (amount_ld m c 0 4 false)
      (by rw [payload_ls, vLand_pts m c 8 0 (VC m c 6)]; exact BI.Entails.refl _)) $$ [Hxl Hv0 Htl0_4]
  · isplitr; · iexact HIl
    isplitl [Hxl]; · iexact Hxl
    isplitl [Hv0]; · iexact Hv0
    isplitl [Htl0_4]; · iexact Htl0_4
    iexact HRl0
  iclear HIl
  iintro Hc_l0
  -- step 165: wait arg7[0] (arg0[(k0_off13 d0)], arg6[![0, 0, 0]])
  first | sl_exec | skip
  ihave #HIw := (Prep.inv_ls m KL c 0) $$ HIL
  iapply (Rounds.wp_wait_rest_token 𝒱₀ ER (rd m) (c : Thread nD τ) none (κ := KL (c, 0)) (sm := .dma (lsS 0))
      (wpE_waitDma2_eq 𝒱₀ (c : Thread nD τ) none Set.univ (src := lSrc c 8) (dst := vSlot 0)) (Set.mem_univ _) () (O := owedF c 33) (W := W49) (R := 4) (m := 0) (T := ∅)
      (by rw [Nat.zero_add]; exact (expect_ld m c 0 4 (by decide)).symm)) $$ [Hc_l0 HO Hat_l0]
  · isplitr; · iexact HIw
    isplitl [Hc_l0]; · iexact Hc_l0
    isplitl [HO]; · iexact HO
    isplitr
    · iapply (mayWait_of_above c (.dma (lsS 0)) _ (by rw [show lv ((c : Thread nD τ), SemLoc.dma (lsS 0)) () = 0 from lv_ls c 0]; exact above_owedF c 33 (by decide)))
      iexact Hlev
    iexact Hat_l0
  iclear HIw
  iclear HRl0
  iintro ⟨HO, Hat_l0, #HRl0, Hpay⟩
  ihave Hp := (Entails.of_eq (rest_ld0 m c 4 (by decide))) $$ Hpay
  icases Hp with ⟨Hv0, Hxlq⟩
  ihave AccXL := (acc_step (famXL m c) 8 (by decide)) $$ [AccXL Hxlq]
  · isplitl [AccXL]; · iexact AccXL
    iexact Hxlq
  ihave HOe : iprop(∃ W' : Waits sig Unit, owes (c : Thread nD τ) _ W') $$ [HO]
  · iexists _; iexact HO
  icases HOe with ⟨%W50, HO⟩
  -- step 166: copy src=arg6[![0, 0, 0]] dst=arg1[(k0_off5 d0 4096#32)] sem=arg7[2]
  first | sl_exec | skip
  ihave Hs := (Entails.of_eq (take_step (famOL0 m c) 8 (by decide))) $$ [FoL]
  · iexact FoL
  icases Hs with ⟨Hol, FoL⟩
  ihave #HIl := (Prep.inv_ls m KL c 2) $$ HIL
  iapply (Rounds.wp_copy_pointsTo 𝒱₀ ER (rd m) (c : Thread nD τ) none (src := vSlot 0) (dst := lDst c 8) (sem := .dma (lsS 2)) (q := fullShare) (fs := VC m c 8) (fd := o0 m c)
      (r := 4) (d := false) (κ := KL (c, 2)) (by rw [duties_ls m c 2 4 (by decide)]; exact Finset.mem_singleton_self _) () NO rfl (amount_st m c 0 4 false)
      (by rw [payload_ls, lLandV_pts m c 8 0 (o0 m c)]; exact BI.Entails.refl _)) $$ [Hv0 Hol Htl2_4]
  · isplitr; · iexact HIl
    isplitl [Hv0]; · iexact Hv0
    isplitl [Hol]; · iexact Hol
    isplitl [Htl2_4]; · iexact Htl2_4
    iexact HRl2
  iclear HIl
  iintro Hc_l2
  -- step 167: wait arg3[33] (arg0[(k0_off2 d0 2112#32)], arg1[(k0_off1 d0 2112#32)])
  first | sl_exec | skip
  ihave Hs := (Entails.of_eq (take_step (famCYR (F := F) c) 33 (by decide))) $$ [FcYR]
  · iexact FcYR
  icases Hs with ⟨Hc, FcYR⟩
  ihave Hs := (Entails.of_eq (take_step (famAtYR (F := F) c) 33 (by decide))) $$ [FatYR]
  · iexact FatYR
  icases Hs with ⟨Hat, FatYR⟩
  ihave #HIw := (Prep.inv_yr m K c 33) $$ HI
  iapply (Rounds.wp_wait_rest_token 𝒱₀ ER (rd m) (c : Thread nD τ) none (κ := K (c, some (1, 33))) (sm := .dma (yrS 33))
      (wpE_waitDma2_eq 𝒱₀ (c : Thread nD τ) none Set.univ (src := ySrc c 33) (dst := yDst c 33)) (Set.mem_univ _) () (O := owedF c 33) (W := W50) (R := 0) (m := 0) (T := ∅)
      (by rw [Nat.zero_add]; exact (expect_yr m c 33).symm)) $$ [Hc HO Hat]
  · isplitr; · iexact HIw
    isplitl [Hc]; · iexact Hc
    isplitl [HO]; · iexact HO
    isplitr
    · iapply (mayWait_of_above c (.dma (yrS 33)) _ (by rw [show lv ((c : Thread nD τ), SemLoc.dma (yrS 33)) () = 2 from lv_yr c 33]; exact above_owedF c 33 (by decide)))
      iexact Hlev
    iexact Hat
  iclear HIw
  iintro ⟨HO, Hat, -, Hpay⟩
  ihave HYk := (Entails.of_eq (rest_yr' m c 33)) $$ Hpay
  ihave #HIx := (Prep.inv_yr m K c 33) $$ HI
  imod (Rounds.cell_close ER (rd m) (Set.mem_univ (K (c, some (1, 33)))) (fun h => h) (R := 0 + 1) (duties_yr_later m c 33)) $$ [Hat] with Hz
  · isplitr; · iexact HIx
    iexact Hat
  iclear HIx
  ihave AccZyr := (acc_step (famZyr (F := F) c) 33 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W51, HO⟩
  -- step 168: send k0_dev100 src=arg1[(k0_off3 d0 2112#32)] dst=arg1[(k0_off3 d0 2112#32)] ssem=arg4[33] rsem=arg5[33]
  first | sl_exec | skip
  ihave Hs := (Entails.of_eq (take_step (famTFS (F := F) c) 33 (by decide))) $$ [FtFS]
  · iexact FtFS
  icases Hs with ⟨Ht1, FtFS⟩
  ihave Hs := (Entails.of_eq (take_step (famTFRP (F := F) c) 33 (by decide))) $$ [FtFRP]
  · iexact FtFRP
  icases Hs with ⟨Ht2, FtFRP⟩
  ihave Hs := (Entails.of_eq (take_step (famDF m c) 33 (by decide))) $$ [FdF]
  · iexact FdF
  icases Hs with ⟨Hd, FdF⟩
  ihave #HI1 := (Prep.inv_fs m K c 33) $$ HI
  ihave #HI2 := (Prep.inv_fr m K (xp c) 33) $$ HI
  ihave #HR1 := (Prep.reached_fs (F := F) c 33) $$ HR
  ihave #HR2 := (Prep.reached_fr (F := F) (xp c) 33) $$ HR
  iapply (wp_fsend m c _ (dev100_eq c) 33 (K (c, some (2, 33))) (K (xp c, some (3, 33))) (owedF c 33) (owedF c 34)
      (by rw [owedF_succ' c 33 (by decide)]; rfl) W51) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 33 (by decide)) $$ [AccCFS Hc]
  · isplitl [AccCFS]; · iexact AccCFS
    iexact Hc
  -- step 169: wait arg3[34] (arg0[(k0_off2 d0 2176#32)], arg1[(k0_off1 d0 2176#32)])
  first | sl_exec | skip
  ihave Hs := (Entails.of_eq (take_step (famCYR (F := F) c) 34 (by decide))) $$ [FcYR]
  · iexact FcYR
  icases Hs with ⟨Hc, FcYR⟩
  ihave Hs := (Entails.of_eq (take_step (famAtYR (F := F) c) 34 (by decide))) $$ [FatYR]
  · iexact FatYR
  icases Hs with ⟨Hat, FatYR⟩
  ihave #HIw := (Prep.inv_yr m K c 34) $$ HI
  iapply (Rounds.wp_wait_rest_token 𝒱₀ ER (rd m) (c : Thread nD τ) none (κ := K (c, some (1, 34))) (sm := .dma (yrS 34))
      (wpE_waitDma2_eq 𝒱₀ (c : Thread nD τ) none Set.univ (src := ySrc c 34) (dst := yDst c 34)) (Set.mem_univ _) () (O := owedF c 34) (W := W51) (R := 0) (m := 0) (T := ∅)
      (by rw [Nat.zero_add]; exact (expect_yr m c 34).symm)) $$ [Hc HO Hat]
  · isplitr; · iexact HIw
    isplitl [Hc]; · iexact Hc
    isplitl [HO]; · iexact HO
    isplitr
    · iapply (mayWait_of_above c (.dma (yrS 34)) _ (by rw [show lv ((c : Thread nD τ), SemLoc.dma (yrS 34)) () = 2 from lv_yr c 34]; exact above_owedF c 34 (by decide)))
      iexact Hlev
    iexact Hat
  iclear HIw
  iintro ⟨HO, Hat, -, Hpay⟩
  ihave HYk := (Entails.of_eq (rest_yr' m c 34)) $$ Hpay
  ihave #HIx := (Prep.inv_yr m K c 34) $$ HI
  imod (Rounds.cell_close ER (rd m) (Set.mem_univ (K (c, some (1, 34)))) (fun h => h) (R := 0 + 1) (duties_yr_later m c 34)) $$ [Hat] with Hz
  · isplitr; · iexact HIx
    iexact Hat
  iclear HIx
  ihave AccZyr := (acc_step (famZyr (F := F) c) 34 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W52, HO⟩
  -- step 170: send k0_dev101 src=arg1[(k0_off3 d0 2176#32)] dst=arg1[(k0_off3 d0 2176#32)] ssem=arg4[34] rsem=arg5[34]
  first | sl_exec | skip
  ihave Hs := (Entails.of_eq (take_step (famTFS (F := F) c) 34 (by decide))) $$ [FtFS]
  · iexact FtFS
  icases Hs with ⟨Ht1, FtFS⟩
  ihave Hs := (Entails.of_eq (take_step (famTFRP (F := F) c) 34 (by decide))) $$ [FtFRP]
  · iexact FtFRP
  icases Hs with ⟨Ht2, FtFRP⟩
  ihave Hs := (Entails.of_eq (take_step (famDF m c) 34 (by decide))) $$ [FdF]
  · iexact FdF
  icases Hs with ⟨Hd, FdF⟩
  ihave #HI1 := (Prep.inv_fs m K c 34) $$ HI
  ihave #HI2 := (Prep.inv_fr m K (xp c) 34) $$ HI
  ihave #HR1 := (Prep.reached_fs (F := F) c 34) $$ HR
  ihave #HR2 := (Prep.reached_fr (F := F) (xp c) 34) $$ HR
  iapply (wp_fsend m c _ (dev101_eq c) 34 (K (c, some (2, 34))) (K (xp c, some (3, 34))) (owedF c 34) (owedF c 35)
      (by rw [owedF_succ' c 34 (by decide)]; rfl) W52) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 34 (by decide)) $$ [AccCFS Hc]
  · isplitl [AccCFS]; · iexact AccCFS
    iexact Hc
  -- step 171: wait arg3[35] (arg0[(k0_off2 d0 2240#32)], arg1[(k0_off1 d0 2240#32)])
  first | sl_exec | skip
  ihave Hs := (Entails.of_eq (take_step (famCYR (F := F) c) 35 (by decide))) $$ [FcYR]
  · iexact FcYR
  icases Hs with ⟨Hc, FcYR⟩
  ihave Hs := (Entails.of_eq (take_step (famAtYR (F := F) c) 35 (by decide))) $$ [FatYR]
  · iexact FatYR
  icases Hs with ⟨Hat, FatYR⟩
  ihave #HIw := (Prep.inv_yr m K c 35) $$ HI
  iapply (Rounds.wp_wait_rest_token 𝒱₀ ER (rd m) (c : Thread nD τ) none (κ := K (c, some (1, 35))) (sm := .dma (yrS 35))
      (wpE_waitDma2_eq 𝒱₀ (c : Thread nD τ) none Set.univ (src := ySrc c 35) (dst := yDst c 35)) (Set.mem_univ _) () (O := owedF c 35) (W := W52) (R := 0) (m := 0) (T := ∅)
      (by rw [Nat.zero_add]; exact (expect_yr m c 35).symm)) $$ [Hc HO Hat]
  · isplitr; · iexact HIw
    isplitl [Hc]; · iexact Hc
    isplitl [HO]; · iexact HO
    isplitr
    · iapply (mayWait_of_above c (.dma (yrS 35)) _ (by rw [show lv ((c : Thread nD τ), SemLoc.dma (yrS 35)) () = 2 from lv_yr c 35]; exact above_owedF c 35 (by decide)))
      iexact Hlev
    iexact Hat
  iclear HIw
  iintro ⟨HO, Hat, -, Hpay⟩
  ihave HYk := (Entails.of_eq (rest_yr' m c 35)) $$ Hpay
  ihave #HIx := (Prep.inv_yr m K c 35) $$ HI
  imod (Rounds.cell_close ER (rd m) (Set.mem_univ (K (c, some (1, 35)))) (fun h => h) (R := 0 + 1) (duties_yr_later m c 35)) $$ [Hat] with Hz
  · isplitr; · iexact HIx
    iexact Hat
  iclear HIx
  ihave AccZyr := (acc_step (famZyr (F := F) c) 35 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W53, HO⟩
  -- step 172: send k0_dev102 src=arg1[(k0_off3 d0 2240#32)] dst=arg1[(k0_off3 d0 2240#32)] ssem=arg4[35] rsem=arg5[35]
  first | sl_exec | skip
  ihave Hs := (Entails.of_eq (take_step (famTFS (F := F) c) 35 (by decide))) $$ [FtFS]
  · iexact FtFS
  icases Hs with ⟨Ht1, FtFS⟩
  ihave Hs := (Entails.of_eq (take_step (famTFRP (F := F) c) 35 (by decide))) $$ [FtFRP]
  · iexact FtFRP
  icases Hs with ⟨Ht2, FtFRP⟩
  ihave Hs := (Entails.of_eq (take_step (famDF m c) 35 (by decide))) $$ [FdF]
  · iexact FdF
  icases Hs with ⟨Hd, FdF⟩
  ihave #HI1 := (Prep.inv_fs m K c 35) $$ HI
  ihave #HI2 := (Prep.inv_fr m K (xp c) 35) $$ HI
  ihave #HR1 := (Prep.reached_fs (F := F) c 35) $$ HR
  ihave #HR2 := (Prep.reached_fr (F := F) (xp c) 35) $$ HR
  iapply (wp_fsend m c _ (dev102_eq c) 35 (K (c, some (2, 35))) (K (xp c, some (3, 35))) (owedF c 35) (owedF c 36)
      (by rw [owedF_succ' c 35 (by decide)]; rfl) W53) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 35 (by decide)) $$ [AccCFS Hc]
  · isplitl [AccCFS]; · iexact AccCFS
    iexact Hc
  -- step 173: wait arg3[36] (arg0[(k0_off2 d0 2304#32)], arg1[(k0_off1 d0 2304#32)])
  first | sl_exec | skip
  ihave Hs := (Entails.of_eq (take_step (famCYR (F := F) c) 36 (by decide))) $$ [FcYR]
  · iexact FcYR
  icases Hs with ⟨Hc, FcYR⟩
  ihave Hs := (Entails.of_eq (take_step (famAtYR (F := F) c) 36 (by decide))) $$ [FatYR]
  · iexact FatYR
  icases Hs with ⟨Hat, FatYR⟩
  ihave #HIw := (Prep.inv_yr m K c 36) $$ HI
  iapply (Rounds.wp_wait_rest_token 𝒱₀ ER (rd m) (c : Thread nD τ) none (κ := K (c, some (1, 36))) (sm := .dma (yrS 36))
      (wpE_waitDma2_eq 𝒱₀ (c : Thread nD τ) none Set.univ (src := ySrc c 36) (dst := yDst c 36)) (Set.mem_univ _) () (O := owedF c 36) (W := W53) (R := 0) (m := 0) (T := ∅)
      (by rw [Nat.zero_add]; exact (expect_yr m c 36).symm)) $$ [Hc HO Hat]
  · isplitr; · iexact HIw
    isplitl [Hc]; · iexact Hc
    isplitl [HO]; · iexact HO
    isplitr
    · iapply (mayWait_of_above c (.dma (yrS 36)) _ (by rw [show lv ((c : Thread nD τ), SemLoc.dma (yrS 36)) () = 2 from lv_yr c 36]; exact above_owedF c 36 (by decide)))
      iexact Hlev
    iexact Hat
  iclear HIw
  iintro ⟨HO, Hat, -, Hpay⟩
  ihave HYk := (Entails.of_eq (rest_yr' m c 36)) $$ Hpay
  ihave #HIx := (Prep.inv_yr m K c 36) $$ HI
  imod (Rounds.cell_close ER (rd m) (Set.mem_univ (K (c, some (1, 36)))) (fun h => h) (R := 0 + 1) (duties_yr_later m c 36)) $$ [Hat] with Hz
  · isplitr; · iexact HIx
    iexact Hat
  iclear HIx
  ihave AccZyr := (acc_step (famZyr (F := F) c) 36 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W54, HO⟩
  -- step 174: send k0_dev103 src=arg1[(k0_off3 d0 2304#32)] dst=arg1[(k0_off3 d0 2304#32)] ssem=arg4[36] rsem=arg5[36]
  first | sl_exec | skip
  ihave Hs := (Entails.of_eq (take_step (famTFS (F := F) c) 36 (by decide))) $$ [FtFS]
  · iexact FtFS
  icases Hs with ⟨Ht1, FtFS⟩
  ihave Hs := (Entails.of_eq (take_step (famTFRP (F := F) c) 36 (by decide))) $$ [FtFRP]
  · iexact FtFRP
  icases Hs with ⟨Ht2, FtFRP⟩
  ihave Hs := (Entails.of_eq (take_step (famDF m c) 36 (by decide))) $$ [FdF]
  · iexact FdF
  icases Hs with ⟨Hd, FdF⟩
  ihave #HI1 := (Prep.inv_fs m K c 36) $$ HI
  ihave #HI2 := (Prep.inv_fr m K (xp c) 36) $$ HI
  ihave #HR1 := (Prep.reached_fs (F := F) c 36) $$ HR
  ihave #HR2 := (Prep.reached_fr (F := F) (xp c) 36) $$ HR
  iapply (wp_fsend m c _ (dev103_eq c) 36 (K (c, some (2, 36))) (K (xp c, some (3, 36))) (owedF c 36) (owedF c 37)
      (by rw [owedF_succ' c 36 (by decide)]; rfl) W54) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 36 (by decide)) $$ [AccCFS Hc]
  · isplitl [AccCFS]; · iexact AccCFS
    iexact Hc
  -- step 175: wait arg7[3] (arg6[![1, 0, 0]], arg1[(k0_off5 d0 3584#32)])
  first | sl_exec | skip
  ihave #HIw := (Prep.inv_ls m KL c 3) $$ HIL
  iapply (Rounds.wp_wait_rest_token 𝒱₀ ER (rd m) (c : Thread nD τ) none (κ := KL (c, 3)) (sm := .dma (lsS 3))
      (wpE_waitDma2_eq 𝒱₀ (c : Thread nD τ) none Set.univ (src := vSlot 1) (dst := lDst c 7)) (Set.mem_univ _) () (O := owedF c 37) (W := W54) (R := 3) (m := 0) (T := ∅)
      (by rw [Nat.zero_add]; exact (expect_st m c 1 3 (by decide)).symm)) $$ [Hc_l3 HO Hat_l3]
  · isplitr; · iexact HIw
    isplitl [Hc_l3]; · iexact Hc_l3
    isplitl [HO]; · iexact HO
    isplitr
    · iapply (mayWait_of_above c (.dma (lsS 3)) _ (by rw [show lv ((c : Thread nD τ), SemLoc.dma (lsS 3)) () = 0 from lv_ls c 3]; exact above_owedF c 37 (by decide)))
      iexact Hlev
    iexact Hat_l3
  iclear HIw
  iclear HRl3
  iintro ⟨HO, Hat_l3, #HRl3, Hpay⟩
  ihave Hp := (Entails.of_eq (rest_st1 m c 3 (by decide))) $$ Hpay
  icases Hp with ⟨Holq, Hv1⟩
  ihave AccOL := (acc_step (famOL m c) 7 (by decide)) $$ [AccOL Holq]
  · isplitl [AccOL]; · iexact AccOL
    iexact Holq
  ihave HOe : iprop(∃ W' : Waits sig Unit, owes (c : Thread nD τ) _ W') $$ [HO]
  · iexists _; iexact HO
  icases HOe with ⟨%W55, HO⟩
  -- step 176: copy src=arg0[(k0_off14 d0)] dst=arg6[![1, 0, 0]] sem=arg7[1]
  first | sl_exec | skip
  ihave Hs := (Entails.of_eq (take_step (famXL m c) 9 (by decide))) $$ [FxL]
  · iexact FxL
  icases Hs with ⟨Hxl, FxL⟩
  ihave #HIl := (Prep.inv_ls m KL c 1) $$ HIL
  iapply (Rounds.wp_copy_pointsTo 𝒱₀ ER (rd m) (c : Thread nD τ) none (src := lSrc c 9) (dst := vSlot 1) (sem := .dma (lsS 1)) (q := fullShare) (fs := xC m c) (fd := VC m c 7)
      (r := 4) (d := false) (κ := KL (c, 1)) (by rw [duties_ls m c 1 4 (by decide)]; exact Finset.mem_singleton_self _) () NV rfl (amount_ld m c 1 4 false)
      (by rw [payload_ls, vLand_pts m c 9 1 (VC m c 7)]; exact BI.Entails.refl _)) $$ [Hxl Hv1 Htl1_4]
  · isplitr; · iexact HIl
    isplitl [Hxl]; · iexact Hxl
    isplitl [Hv1]; · iexact Hv1
    isplitl [Htl1_4]; · iexact Htl1_4
    iexact HRl1
  iclear HIl
  iintro Hc_l1
  -- step 177: wait arg7[1] (arg0[(k0_off14 d0)], arg6[![1, 0, 0]])
  first | sl_exec | skip
  ihave #HIw := (Prep.inv_ls m KL c 1) $$ HIL
  iapply (Rounds.wp_wait_rest_token 𝒱₀ ER (rd m) (c : Thread nD τ) none (κ := KL (c, 1)) (sm := .dma (lsS 1))
      (wpE_waitDma2_eq 𝒱₀ (c : Thread nD τ) none Set.univ (src := lSrc c 9) (dst := vSlot 1)) (Set.mem_univ _) () (O := owedF c 37) (W := W55) (R := 4) (m := 0) (T := ∅)
      (by rw [Nat.zero_add]; exact (expect_ld m c 1 4 (by decide)).symm)) $$ [Hc_l1 HO Hat_l1]
  · isplitr; · iexact HIw
    isplitl [Hc_l1]; · iexact Hc_l1
    isplitl [HO]; · iexact HO
    isplitr
    · iapply (mayWait_of_above c (.dma (lsS 1)) _ (by rw [show lv ((c : Thread nD τ), SemLoc.dma (lsS 1)) () = 0 from lv_ls c 1]; exact above_owedF c 37 (by decide)))
      iexact Hlev
    iexact Hat_l1
  iclear HIw
  iclear HRl1
  iintro ⟨HO, Hat_l1, #HRl1, Hpay⟩
  ihave Hp := (Entails.of_eq (rest_ld1 m c 4 (by decide))) $$ Hpay
  icases Hp with ⟨Hv1, Hxlq⟩
  ihave AccXL := (acc_step (famXL m c) 9 (by decide)) $$ [AccXL Hxlq]
  · isplitl [AccXL]; · iexact AccXL
    iexact Hxlq
  ihave HOe : iprop(∃ W' : Waits sig Unit, owes (c : Thread nD τ) _ W') $$ [HO]
  · iexists _; iexact HO
  icases HOe with ⟨%W56, HO⟩
  -- step 178: copy src=arg6[![1, 0, 0]] dst=arg1[(k0_off5 d0 4608#32)] sem=arg7[3]
  first | sl_exec | skip
  ihave Hs := (Entails.of_eq (take_step (famOL0 m c) 9 (by decide))) $$ [FoL]
  · iexact FoL
  icases Hs with ⟨Hol, FoL⟩
  ihave #HIl := (Prep.inv_ls m KL c 3) $$ HIL
  iapply (Rounds.wp_copy_pointsTo 𝒱₀ ER (rd m) (c : Thread nD τ) none (src := vSlot 1) (dst := lDst c 9) (sem := .dma (lsS 3)) (q := fullShare) (fs := VC m c 9) (fd := o0 m c)
      (r := 4) (d := false) (κ := KL (c, 3)) (by rw [duties_ls m c 3 4 (by decide)]; exact Finset.mem_singleton_self _) () NO rfl (amount_st m c 1 4 false)
      (by rw [payload_ls, lLandV_pts m c 9 1 (o0 m c)]; exact BI.Entails.refl _)) $$ [Hv1 Hol Htl3_4]
  · isplitr; · iexact HIl
    isplitl [Hv1]; · iexact Hv1
    isplitl [Hol]; · iexact Hol
    isplitl [Htl3_4]; · iexact Htl3_4
    iexact HRl3
  iclear HIl
  iintro Hc_l3
  -- step 179: wait arg3[37] (arg0[(k0_off2 d0 2368#32)], arg1[(k0_off1 d0 2368#32)])
  first | sl_exec | skip
  ihave Hs := (Entails.of_eq (take_step (famCYR (F := F) c) 37 (by decide))) $$ [FcYR]
  · iexact FcYR
  icases Hs with ⟨Hc, FcYR⟩
  ihave Hs := (Entails.of_eq (take_step (famAtYR (F := F) c) 37 (by decide))) $$ [FatYR]
  · iexact FatYR
  icases Hs with ⟨Hat, FatYR⟩
  ihave #HIw := (Prep.inv_yr m K c 37) $$ HI
  iapply (Rounds.wp_wait_rest_token 𝒱₀ ER (rd m) (c : Thread nD τ) none (κ := K (c, some (1, 37))) (sm := .dma (yrS 37))
      (wpE_waitDma2_eq 𝒱₀ (c : Thread nD τ) none Set.univ (src := ySrc c 37) (dst := yDst c 37)) (Set.mem_univ _) () (O := owedF c 37) (W := W56) (R := 0) (m := 0) (T := ∅)
      (by rw [Nat.zero_add]; exact (expect_yr m c 37).symm)) $$ [Hc HO Hat]
  · isplitr; · iexact HIw
    isplitl [Hc]; · iexact Hc
    isplitl [HO]; · iexact HO
    isplitr
    · iapply (mayWait_of_above c (.dma (yrS 37)) _ (by rw [show lv ((c : Thread nD τ), SemLoc.dma (yrS 37)) () = 2 from lv_yr c 37]; exact above_owedF c 37 (by decide)))
      iexact Hlev
    iexact Hat
  iclear HIw
  iintro ⟨HO, Hat, -, Hpay⟩
  ihave HYk := (Entails.of_eq (rest_yr' m c 37)) $$ Hpay
  ihave #HIx := (Prep.inv_yr m K c 37) $$ HI
  imod (Rounds.cell_close ER (rd m) (Set.mem_univ (K (c, some (1, 37)))) (fun h => h) (R := 0 + 1) (duties_yr_later m c 37)) $$ [Hat] with Hz
  · isplitr; · iexact HIx
    iexact Hat
  iclear HIx
  ihave AccZyr := (acc_step (famZyr (F := F) c) 37 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W57, HO⟩
  -- step 180: send k0_dev104 src=arg1[(k0_off3 d0 2368#32)] dst=arg1[(k0_off3 d0 2368#32)] ssem=arg4[37] rsem=arg5[37]
  first | sl_exec | skip
  ihave Hs := (Entails.of_eq (take_step (famTFS (F := F) c) 37 (by decide))) $$ [FtFS]
  · iexact FtFS
  icases Hs with ⟨Ht1, FtFS⟩
  ihave Hs := (Entails.of_eq (take_step (famTFRP (F := F) c) 37 (by decide))) $$ [FtFRP]
  · iexact FtFRP
  icases Hs with ⟨Ht2, FtFRP⟩
  ihave Hs := (Entails.of_eq (take_step (famDF m c) 37 (by decide))) $$ [FdF]
  · iexact FdF
  icases Hs with ⟨Hd, FdF⟩
  ihave #HI1 := (Prep.inv_fs m K c 37) $$ HI
  ihave #HI2 := (Prep.inv_fr m K (xp c) 37) $$ HI
  ihave #HR1 := (Prep.reached_fs (F := F) c 37) $$ HR
  ihave #HR2 := (Prep.reached_fr (F := F) (xp c) 37) $$ HR
  iapply (wp_fsend m c _ (dev104_eq c) 37 (K (c, some (2, 37))) (K (xp c, some (3, 37))) (owedF c 37) (owedF c 38)
      (by rw [owedF_succ' c 37 (by decide)]; rfl) W57) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 37 (by decide)) $$ [AccCFS Hc]
  · isplitl [AccCFS]; · iexact AccCFS
    iexact Hc
  -- step 181: wait arg3[38] (arg0[(k0_off2 d0 2432#32)], arg1[(k0_off1 d0 2432#32)])
  first | sl_exec | skip
  ihave Hs := (Entails.of_eq (take_step (famCYR (F := F) c) 38 (by decide))) $$ [FcYR]
  · iexact FcYR
  icases Hs with ⟨Hc, FcYR⟩
  ihave Hs := (Entails.of_eq (take_step (famAtYR (F := F) c) 38 (by decide))) $$ [FatYR]
  · iexact FatYR
  icases Hs with ⟨Hat, FatYR⟩
  ihave #HIw := (Prep.inv_yr m K c 38) $$ HI
  iapply (Rounds.wp_wait_rest_token 𝒱₀ ER (rd m) (c : Thread nD τ) none (κ := K (c, some (1, 38))) (sm := .dma (yrS 38))
      (wpE_waitDma2_eq 𝒱₀ (c : Thread nD τ) none Set.univ (src := ySrc c 38) (dst := yDst c 38)) (Set.mem_univ _) () (O := owedF c 38) (W := W57) (R := 0) (m := 0) (T := ∅)
      (by rw [Nat.zero_add]; exact (expect_yr m c 38).symm)) $$ [Hc HO Hat]
  · isplitr; · iexact HIw
    isplitl [Hc]; · iexact Hc
    isplitl [HO]; · iexact HO
    isplitr
    · iapply (mayWait_of_above c (.dma (yrS 38)) _ (by rw [show lv ((c : Thread nD τ), SemLoc.dma (yrS 38)) () = 2 from lv_yr c 38]; exact above_owedF c 38 (by decide)))
      iexact Hlev
    iexact Hat
  iclear HIw
  iintro ⟨HO, Hat, -, Hpay⟩
  ihave HYk := (Entails.of_eq (rest_yr' m c 38)) $$ Hpay
  ihave #HIx := (Prep.inv_yr m K c 38) $$ HI
  imod (Rounds.cell_close ER (rd m) (Set.mem_univ (K (c, some (1, 38)))) (fun h => h) (R := 0 + 1) (duties_yr_later m c 38)) $$ [Hat] with Hz
  · isplitr; · iexact HIx
    iexact Hat
  iclear HIx
  ihave AccZyr := (acc_step (famZyr (F := F) c) 38 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W58, HO⟩
  -- step 182: send k0_dev105 src=arg1[(k0_off3 d0 2432#32)] dst=arg1[(k0_off3 d0 2432#32)] ssem=arg4[38] rsem=arg5[38]
  first | sl_exec | skip
  ihave Hs := (Entails.of_eq (take_step (famTFS (F := F) c) 38 (by decide))) $$ [FtFS]
  · iexact FtFS
  icases Hs with ⟨Ht1, FtFS⟩
  ihave Hs := (Entails.of_eq (take_step (famTFRP (F := F) c) 38 (by decide))) $$ [FtFRP]
  · iexact FtFRP
  icases Hs with ⟨Ht2, FtFRP⟩
  ihave Hs := (Entails.of_eq (take_step (famDF m c) 38 (by decide))) $$ [FdF]
  · iexact FdF
  icases Hs with ⟨Hd, FdF⟩
  ihave #HI1 := (Prep.inv_fs m K c 38) $$ HI
  ihave #HI2 := (Prep.inv_fr m K (xp c) 38) $$ HI
  ihave #HR1 := (Prep.reached_fs (F := F) c 38) $$ HR
  ihave #HR2 := (Prep.reached_fr (F := F) (xp c) 38) $$ HR
  iapply (wp_fsend m c _ (dev105_eq c) 38 (K (c, some (2, 38))) (K (xp c, some (3, 38))) (owedF c 38) (owedF c 39)
      (by rw [owedF_succ' c 38 (by decide)]; rfl) W58) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 38 (by decide)) $$ [AccCFS Hc]
  · isplitl [AccCFS]; · iexact AccCFS
    iexact Hc
  -- step 183: wait arg3[39] (arg0[(k0_off2 d0 2496#32)], arg1[(k0_off1 d0 2496#32)])
  first | sl_exec | skip
  ihave Hs := (Entails.of_eq (take_step (famCYR (F := F) c) 39 (by decide))) $$ [FcYR]
  · iexact FcYR
  icases Hs with ⟨Hc, FcYR⟩
  ihave Hs := (Entails.of_eq (take_step (famAtYR (F := F) c) 39 (by decide))) $$ [FatYR]
  · iexact FatYR
  icases Hs with ⟨Hat, FatYR⟩
  ihave #HIw := (Prep.inv_yr m K c 39) $$ HI
  iapply (Rounds.wp_wait_rest_token 𝒱₀ ER (rd m) (c : Thread nD τ) none (κ := K (c, some (1, 39))) (sm := .dma (yrS 39))
      (wpE_waitDma2_eq 𝒱₀ (c : Thread nD τ) none Set.univ (src := ySrc c 39) (dst := yDst c 39)) (Set.mem_univ _) () (O := owedF c 39) (W := W58) (R := 0) (m := 0) (T := ∅)
      (by rw [Nat.zero_add]; exact (expect_yr m c 39).symm)) $$ [Hc HO Hat]
  · isplitr; · iexact HIw
    isplitl [Hc]; · iexact Hc
    isplitl [HO]; · iexact HO
    isplitr
    · iapply (mayWait_of_above c (.dma (yrS 39)) _ (by rw [show lv ((c : Thread nD τ), SemLoc.dma (yrS 39)) () = 2 from lv_yr c 39]; exact above_owedF c 39 (by decide)))
      iexact Hlev
    iexact Hat
  iclear HIw
  iintro ⟨HO, Hat, -, Hpay⟩
  ihave HYk := (Entails.of_eq (rest_yr' m c 39)) $$ Hpay
  ihave #HIx := (Prep.inv_yr m K c 39) $$ HI
  imod (Rounds.cell_close ER (rd m) (Set.mem_univ (K (c, some (1, 39)))) (fun h => h) (R := 0 + 1) (duties_yr_later m c 39)) $$ [Hat] with Hz
  · isplitr; · iexact HIx
    iexact Hat
  iclear HIx
  ihave AccZyr := (acc_step (famZyr (F := F) c) 39 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W59, HO⟩
  -- step 184: send k0_dev106 src=arg1[(k0_off3 d0 2496#32)] dst=arg1[(k0_off3 d0 2496#32)] ssem=arg4[39] rsem=arg5[39]
  first | sl_exec | skip
  ihave Hs := (Entails.of_eq (take_step (famTFS (F := F) c) 39 (by decide))) $$ [FtFS]
  · iexact FtFS
  icases Hs with ⟨Ht1, FtFS⟩
  ihave Hs := (Entails.of_eq (take_step (famTFRP (F := F) c) 39 (by decide))) $$ [FtFRP]
  · iexact FtFRP
  icases Hs with ⟨Ht2, FtFRP⟩
  ihave Hs := (Entails.of_eq (take_step (famDF m c) 39 (by decide))) $$ [FdF]
  · iexact FdF
  icases Hs with ⟨Hd, FdF⟩
  ihave #HI1 := (Prep.inv_fs m K c 39) $$ HI
  ihave #HI2 := (Prep.inv_fr m K (xp c) 39) $$ HI
  ihave #HR1 := (Prep.reached_fs (F := F) c 39) $$ HR
  ihave #HR2 := (Prep.reached_fr (F := F) (xp c) 39) $$ HR
  iapply (wp_fsend m c _ (dev106_eq c) 39 (K (c, some (2, 39))) (K (xp c, some (3, 39))) (owedF c 39) (owedF c 40)
      (by rw [owedF_succ' c 39 (by decide)]; rfl) W59) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 39 (by decide)) $$ [AccCFS Hc]
  · isplitl [AccCFS]; · iexact AccCFS
    iexact Hc
  -- step 185: wait arg3[40] (arg0[(k0_off2 d0 2560#32)], arg1[(k0_off1 d0 2560#32)])
  first | sl_exec | skip
  ihave Hs := (Entails.of_eq (take_step (famCYR (F := F) c) 40 (by decide))) $$ [FcYR]
  · iexact FcYR
  icases Hs with ⟨Hc, FcYR⟩
  ihave Hs := (Entails.of_eq (take_step (famAtYR (F := F) c) 40 (by decide))) $$ [FatYR]
  · iexact FatYR
  icases Hs with ⟨Hat, FatYR⟩
  ihave #HIw := (Prep.inv_yr m K c 40) $$ HI
  iapply (Rounds.wp_wait_rest_token 𝒱₀ ER (rd m) (c : Thread nD τ) none (κ := K (c, some (1, 40))) (sm := .dma (yrS 40))
      (wpE_waitDma2_eq 𝒱₀ (c : Thread nD τ) none Set.univ (src := ySrc c 40) (dst := yDst c 40)) (Set.mem_univ _) () (O := owedF c 40) (W := W59) (R := 0) (m := 0) (T := ∅)
      (by rw [Nat.zero_add]; exact (expect_yr m c 40).symm)) $$ [Hc HO Hat]
  · isplitr; · iexact HIw
    isplitl [Hc]; · iexact Hc
    isplitl [HO]; · iexact HO
    isplitr
    · iapply (mayWait_of_above c (.dma (yrS 40)) _ (by rw [show lv ((c : Thread nD τ), SemLoc.dma (yrS 40)) () = 2 from lv_yr c 40]; exact above_owedF c 40 (by decide)))
      iexact Hlev
    iexact Hat
  iclear HIw
  iintro ⟨HO, Hat, -, Hpay⟩
  ihave HYk := (Entails.of_eq (rest_yr' m c 40)) $$ Hpay
  ihave #HIx := (Prep.inv_yr m K c 40) $$ HI
  imod (Rounds.cell_close ER (rd m) (Set.mem_univ (K (c, some (1, 40)))) (fun h => h) (R := 0 + 1) (duties_yr_later m c 40)) $$ [Hat] with Hz
  · isplitr; · iexact HIx
    iexact Hat
  iclear HIx
  ihave AccZyr := (acc_step (famZyr (F := F) c) 40 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W60, HO⟩
  -- step 186: send k0_dev107 src=arg1[(k0_off3 d0 2560#32)] dst=arg1[(k0_off3 d0 2560#32)] ssem=arg4[40] rsem=arg5[40]
  first | sl_exec | skip
  ihave Hs := (Entails.of_eq (take_step (famTFS (F := F) c) 40 (by decide))) $$ [FtFS]
  · iexact FtFS
  icases Hs with ⟨Ht1, FtFS⟩
  ihave Hs := (Entails.of_eq (take_step (famTFRP (F := F) c) 40 (by decide))) $$ [FtFRP]
  · iexact FtFRP
  icases Hs with ⟨Ht2, FtFRP⟩
  ihave Hs := (Entails.of_eq (take_step (famDF m c) 40 (by decide))) $$ [FdF]
  · iexact FdF
  icases Hs with ⟨Hd, FdF⟩
  ihave #HI1 := (Prep.inv_fs m K c 40) $$ HI
  ihave #HI2 := (Prep.inv_fr m K (xp c) 40) $$ HI
  ihave #HR1 := (Prep.reached_fs (F := F) c 40) $$ HR
  ihave #HR2 := (Prep.reached_fr (F := F) (xp c) 40) $$ HR
  iapply (wp_fsend m c _ (dev107_eq c) 40 (K (c, some (2, 40))) (K (xp c, some (3, 40))) (owedF c 40) (owedF c 41)
      (by rw [owedF_succ' c 40 (by decide)]; rfl) W60) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 40 (by decide)) $$ [AccCFS Hc]
  · isplitl [AccCFS]; · iexact AccCFS
    iexact Hc
  -- step 187: wait arg7[2] (arg6[![0, 0, 0]], arg1[(k0_off5 d0 4096#32)])
  first | sl_exec | skip
  ihave #HIw := (Prep.inv_ls m KL c 2) $$ HIL
  iapply (Rounds.wp_wait_rest_token 𝒱₀ ER (rd m) (c : Thread nD τ) none (κ := KL (c, 2)) (sm := .dma (lsS 2))
      (wpE_waitDma2_eq 𝒱₀ (c : Thread nD τ) none Set.univ (src := vSlot 0) (dst := lDst c 8)) (Set.mem_univ _) () (O := owedF c 41) (W := W60) (R := 4) (m := 0) (T := ∅)
      (by rw [Nat.zero_add]; exact (expect_st m c 0 4 (by decide)).symm)) $$ [Hc_l2 HO Hat_l2]
  · isplitr; · iexact HIw
    isplitl [Hc_l2]; · iexact Hc_l2
    isplitl [HO]; · iexact HO
    isplitr
    · iapply (mayWait_of_above c (.dma (lsS 2)) _ (by rw [show lv ((c : Thread nD τ), SemLoc.dma (lsS 2)) () = 0 from lv_ls c 2]; exact above_owedF c 41 (by decide)))
      iexact Hlev
    iexact Hat_l2
  iclear HIw
  iclear HRl2
  iintro ⟨HO, Hat_l2, #HRl2, Hpay⟩
  ihave Hp := (Entails.of_eq (rest_st0 m c 4 (by decide))) $$ Hpay
  icases Hp with ⟨Holq, Hv0⟩
  ihave AccOL := (acc_step (famOL m c) 8 (by decide)) $$ [AccOL Holq]
  · isplitl [AccOL]; · iexact AccOL
    iexact Holq
  ihave HOe : iprop(∃ W' : Waits sig Unit, owes (c : Thread nD τ) _ W') $$ [HO]
  · iexists _; iexact HO
  icases HOe with ⟨%W61, HO⟩
  -- step 188: copy src=arg0[(k0_off15 d0)] dst=arg6[![0, 0, 0]] sem=arg7[0]
  first | sl_exec | skip
  ihave Hs := (Entails.of_eq (take_step (famXL m c) 10 (by decide))) $$ [FxL]
  · iexact FxL
  icases Hs with ⟨Hxl, FxL⟩
  ihave #HIl := (Prep.inv_ls m KL c 0) $$ HIL
  iapply (Rounds.wp_copy_pointsTo 𝒱₀ ER (rd m) (c : Thread nD τ) none (src := lSrc c 10) (dst := vSlot 0) (sem := .dma (lsS 0)) (q := fullShare) (fs := xC m c) (fd := VC m c 8)
      (r := 5) (d := false) (κ := KL (c, 0)) (by rw [duties_ls m c 0 5 (by decide)]; exact Finset.mem_singleton_self _) () NV rfl (amount_ld m c 0 5 false)
      (by rw [payload_ls, vLand_pts m c 10 0 (VC m c 8)]; exact BI.Entails.refl _)) $$ [Hxl Hv0 Htl0_5]
  · isplitr; · iexact HIl
    isplitl [Hxl]; · iexact Hxl
    isplitl [Hv0]; · iexact Hv0
    isplitl [Htl0_5]; · iexact Htl0_5
    iexact HRl0
  iclear HIl
  iintro Hc_l0
  -- step 189: wait arg7[0] (arg0[(k0_off15 d0)], arg6[![0, 0, 0]])
  first | sl_exec | skip
  ihave #HIw := (Prep.inv_ls m KL c 0) $$ HIL
  iapply (Rounds.wp_wait_rest_token 𝒱₀ ER (rd m) (c : Thread nD τ) none (κ := KL (c, 0)) (sm := .dma (lsS 0))
      (wpE_waitDma2_eq 𝒱₀ (c : Thread nD τ) none Set.univ (src := lSrc c 10) (dst := vSlot 0)) (Set.mem_univ _) () (O := owedF c 41) (W := W61) (R := 5) (m := 0) (T := ∅)
      (by rw [Nat.zero_add]; exact (expect_ld m c 0 5 (by decide)).symm)) $$ [Hc_l0 HO Hat_l0]
  · isplitr; · iexact HIw
    isplitl [Hc_l0]; · iexact Hc_l0
    isplitl [HO]; · iexact HO
    isplitr
    · iapply (mayWait_of_above c (.dma (lsS 0)) _ (by rw [show lv ((c : Thread nD τ), SemLoc.dma (lsS 0)) () = 0 from lv_ls c 0]; exact above_owedF c 41 (by decide)))
      iexact Hlev
    iexact Hat_l0
  iclear HIw
  iclear HRl0
  iintro ⟨HO, Hat_l0, #HRl0, Hpay⟩
  ihave Hp := (Entails.of_eq (rest_ld0 m c 5 (by decide))) $$ Hpay
  icases Hp with ⟨Hv0, Hxlq⟩
  ihave AccXL := (acc_step (famXL m c) 10 (by decide)) $$ [AccXL Hxlq]
  · isplitl [AccXL]; · iexact AccXL
    iexact Hxlq
  ihave HOe : iprop(∃ W' : Waits sig Unit, owes (c : Thread nD τ) _ W') $$ [HO]
  · iexists _; iexact HO
  icases HOe with ⟨%W62, HO⟩
  -- step 190: copy src=arg6[![0, 0, 0]] dst=arg1[(k0_off5 d0 5120#32)] sem=arg7[2]
  first | sl_exec | skip
  ihave Hs := (Entails.of_eq (take_step (famOL0 m c) 10 (by decide))) $$ [FoL]
  · iexact FoL
  icases Hs with ⟨Hol, FoL⟩
  ihave #HIl := (Prep.inv_ls m KL c 2) $$ HIL
  iapply (Rounds.wp_copy_pointsTo 𝒱₀ ER (rd m) (c : Thread nD τ) none (src := vSlot 0) (dst := lDst c 10) (sem := .dma (lsS 2)) (q := fullShare) (fs := VC m c 10) (fd := o0 m c)
      (r := 5) (d := false) (κ := KL (c, 2)) (by rw [duties_ls m c 2 5 (by decide)]; exact Finset.mem_singleton_self _) () NO rfl (amount_st m c 0 5 false)
      (by rw [payload_ls, lLandV_pts m c 10 0 (o0 m c)]; exact BI.Entails.refl _)) $$ [Hv0 Hol Htl2_5]
  · isplitr; · iexact HIl
    isplitl [Hv0]; · iexact Hv0
    isplitl [Hol]; · iexact Hol
    isplitl [Htl2_5]; · iexact Htl2_5
    iexact HRl2
  iclear HIl
  iintro Hc_l2
  -- step 191: wait arg3[41] (arg0[(k0_off2 d0 2624#32)], arg1[(k0_off1 d0 2624#32)])
  first | sl_exec | skip
  ihave Hs := (Entails.of_eq (take_step (famCYR (F := F) c) 41 (by decide))) $$ [FcYR]
  · iexact FcYR
  icases Hs with ⟨Hc, FcYR⟩
  ihave Hs := (Entails.of_eq (take_step (famAtYR (F := F) c) 41 (by decide))) $$ [FatYR]
  · iexact FatYR
  icases Hs with ⟨Hat, FatYR⟩
  ihave #HIw := (Prep.inv_yr m K c 41) $$ HI
  iapply (Rounds.wp_wait_rest_token 𝒱₀ ER (rd m) (c : Thread nD τ) none (κ := K (c, some (1, 41))) (sm := .dma (yrS 41))
      (wpE_waitDma2_eq 𝒱₀ (c : Thread nD τ) none Set.univ (src := ySrc c 41) (dst := yDst c 41)) (Set.mem_univ _) () (O := owedF c 41) (W := W62) (R := 0) (m := 0) (T := ∅)
      (by rw [Nat.zero_add]; exact (expect_yr m c 41).symm)) $$ [Hc HO Hat]
  · isplitr; · iexact HIw
    isplitl [Hc]; · iexact Hc
    isplitl [HO]; · iexact HO
    isplitr
    · iapply (mayWait_of_above c (.dma (yrS 41)) _ (by rw [show lv ((c : Thread nD τ), SemLoc.dma (yrS 41)) () = 2 from lv_yr c 41]; exact above_owedF c 41 (by decide)))
      iexact Hlev
    iexact Hat
  iclear HIw
  iintro ⟨HO, Hat, -, Hpay⟩
  ihave HYk := (Entails.of_eq (rest_yr' m c 41)) $$ Hpay
  ihave #HIx := (Prep.inv_yr m K c 41) $$ HI
  imod (Rounds.cell_close ER (rd m) (Set.mem_univ (K (c, some (1, 41)))) (fun h => h) (R := 0 + 1) (duties_yr_later m c 41)) $$ [Hat] with Hz
  · isplitr; · iexact HIx
    iexact Hat
  iclear HIx
  ihave AccZyr := (acc_step (famZyr (F := F) c) 41 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W63, HO⟩
  -- step 192: send k0_dev108 src=arg1[(k0_off3 d0 2624#32)] dst=arg1[(k0_off3 d0 2624#32)] ssem=arg4[41] rsem=arg5[41]
  first | sl_exec | skip
  ihave Hs := (Entails.of_eq (take_step (famTFS (F := F) c) 41 (by decide))) $$ [FtFS]
  · iexact FtFS
  icases Hs with ⟨Ht1, FtFS⟩
  ihave Hs := (Entails.of_eq (take_step (famTFRP (F := F) c) 41 (by decide))) $$ [FtFRP]
  · iexact FtFRP
  icases Hs with ⟨Ht2, FtFRP⟩
  ihave Hs := (Entails.of_eq (take_step (famDF m c) 41 (by decide))) $$ [FdF]
  · iexact FdF
  icases Hs with ⟨Hd, FdF⟩
  ihave #HI1 := (Prep.inv_fs m K c 41) $$ HI
  ihave #HI2 := (Prep.inv_fr m K (xp c) 41) $$ HI
  ihave #HR1 := (Prep.reached_fs (F := F) c 41) $$ HR
  ihave #HR2 := (Prep.reached_fr (F := F) (xp c) 41) $$ HR
  iapply (wp_fsend m c _ (dev108_eq c) 41 (K (c, some (2, 41))) (K (xp c, some (3, 41))) (owedF c 41) (owedF c 42)
      (by rw [owedF_succ' c 41 (by decide)]; rfl) W63) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 41 (by decide)) $$ [AccCFS Hc]
  · isplitl [AccCFS]; · iexact AccCFS
    iexact Hc
  -- step 193: wait arg3[42] (arg0[(k0_off2 d0 2688#32)], arg1[(k0_off1 d0 2688#32)])
  first | sl_exec | skip
  ihave Hs := (Entails.of_eq (take_step (famCYR (F := F) c) 42 (by decide))) $$ [FcYR]
  · iexact FcYR
  icases Hs with ⟨Hc, FcYR⟩
  ihave Hs := (Entails.of_eq (take_step (famAtYR (F := F) c) 42 (by decide))) $$ [FatYR]
  · iexact FatYR
  icases Hs with ⟨Hat, FatYR⟩
  ihave #HIw := (Prep.inv_yr m K c 42) $$ HI
  iapply (Rounds.wp_wait_rest_token 𝒱₀ ER (rd m) (c : Thread nD τ) none (κ := K (c, some (1, 42))) (sm := .dma (yrS 42))
      (wpE_waitDma2_eq 𝒱₀ (c : Thread nD τ) none Set.univ (src := ySrc c 42) (dst := yDst c 42)) (Set.mem_univ _) () (O := owedF c 42) (W := W63) (R := 0) (m := 0) (T := ∅)
      (by rw [Nat.zero_add]; exact (expect_yr m c 42).symm)) $$ [Hc HO Hat]
  · isplitr; · iexact HIw
    isplitl [Hc]; · iexact Hc
    isplitl [HO]; · iexact HO
    isplitr
    · iapply (mayWait_of_above c (.dma (yrS 42)) _ (by rw [show lv ((c : Thread nD τ), SemLoc.dma (yrS 42)) () = 2 from lv_yr c 42]; exact above_owedF c 42 (by decide)))
      iexact Hlev
    iexact Hat
  iclear HIw
  iintro ⟨HO, Hat, -, Hpay⟩
  ihave HYk := (Entails.of_eq (rest_yr' m c 42)) $$ Hpay
  ihave #HIx := (Prep.inv_yr m K c 42) $$ HI
  imod (Rounds.cell_close ER (rd m) (Set.mem_univ (K (c, some (1, 42)))) (fun h => h) (R := 0 + 1) (duties_yr_later m c 42)) $$ [Hat] with Hz
  · isplitr; · iexact HIx
    iexact Hat
  iclear HIx
  ihave AccZyr := (acc_step (famZyr (F := F) c) 42 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W64, HO⟩
  -- step 194: send k0_dev109 src=arg1[(k0_off3 d0 2688#32)] dst=arg1[(k0_off3 d0 2688#32)] ssem=arg4[42] rsem=arg5[42]
  first | sl_exec | skip
  ihave Hs := (Entails.of_eq (take_step (famTFS (F := F) c) 42 (by decide))) $$ [FtFS]
  · iexact FtFS
  icases Hs with ⟨Ht1, FtFS⟩
  ihave Hs := (Entails.of_eq (take_step (famTFRP (F := F) c) 42 (by decide))) $$ [FtFRP]
  · iexact FtFRP
  icases Hs with ⟨Ht2, FtFRP⟩
  ihave Hs := (Entails.of_eq (take_step (famDF m c) 42 (by decide))) $$ [FdF]
  · iexact FdF
  icases Hs with ⟨Hd, FdF⟩
  ihave #HI1 := (Prep.inv_fs m K c 42) $$ HI
  ihave #HI2 := (Prep.inv_fr m K (xp c) 42) $$ HI
  ihave #HR1 := (Prep.reached_fs (F := F) c 42) $$ HR
  ihave #HR2 := (Prep.reached_fr (F := F) (xp c) 42) $$ HR
  iapply (wp_fsend m c _ (dev109_eq c) 42 (K (c, some (2, 42))) (K (xp c, some (3, 42))) (owedF c 42) (owedF c 43)
      (by rw [owedF_succ' c 42 (by decide)]; rfl) W64) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 42 (by decide)) $$ [AccCFS Hc]
  · isplitl [AccCFS]; · iexact AccCFS
    iexact Hc
  -- step 195: wait arg3[43] (arg0[(k0_off2 d0 2752#32)], arg1[(k0_off1 d0 2752#32)])
  first | sl_exec | skip
  ihave Hs := (Entails.of_eq (take_step (famCYR (F := F) c) 43 (by decide))) $$ [FcYR]
  · iexact FcYR
  icases Hs with ⟨Hc, FcYR⟩
  ihave Hs := (Entails.of_eq (take_step (famAtYR (F := F) c) 43 (by decide))) $$ [FatYR]
  · iexact FatYR
  icases Hs with ⟨Hat, FatYR⟩
  ihave #HIw := (Prep.inv_yr m K c 43) $$ HI
  iapply (Rounds.wp_wait_rest_token 𝒱₀ ER (rd m) (c : Thread nD τ) none (κ := K (c, some (1, 43))) (sm := .dma (yrS 43))
      (wpE_waitDma2_eq 𝒱₀ (c : Thread nD τ) none Set.univ (src := ySrc c 43) (dst := yDst c 43)) (Set.mem_univ _) () (O := owedF c 43) (W := W64) (R := 0) (m := 0) (T := ∅)
      (by rw [Nat.zero_add]; exact (expect_yr m c 43).symm)) $$ [Hc HO Hat]
  · isplitr; · iexact HIw
    isplitl [Hc]; · iexact Hc
    isplitl [HO]; · iexact HO
    isplitr
    · iapply (mayWait_of_above c (.dma (yrS 43)) _ (by rw [show lv ((c : Thread nD τ), SemLoc.dma (yrS 43)) () = 2 from lv_yr c 43]; exact above_owedF c 43 (by decide)))
      iexact Hlev
    iexact Hat
  iclear HIw
  iintro ⟨HO, Hat, -, Hpay⟩
  ihave HYk := (Entails.of_eq (rest_yr' m c 43)) $$ Hpay
  ihave #HIx := (Prep.inv_yr m K c 43) $$ HI
  imod (Rounds.cell_close ER (rd m) (Set.mem_univ (K (c, some (1, 43)))) (fun h => h) (R := 0 + 1) (duties_yr_later m c 43)) $$ [Hat] with Hz
  · isplitr; · iexact HIx
    iexact Hat
  iclear HIx
  ihave AccZyr := (acc_step (famZyr (F := F) c) 43 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W65, HO⟩
  -- step 196: send k0_dev110 src=arg1[(k0_off3 d0 2752#32)] dst=arg1[(k0_off3 d0 2752#32)] ssem=arg4[43] rsem=arg5[43]
  first | sl_exec | skip
  ihave Hs := (Entails.of_eq (take_step (famTFS (F := F) c) 43 (by decide))) $$ [FtFS]
  · iexact FtFS
  icases Hs with ⟨Ht1, FtFS⟩
  ihave Hs := (Entails.of_eq (take_step (famTFRP (F := F) c) 43 (by decide))) $$ [FtFRP]
  · iexact FtFRP
  icases Hs with ⟨Ht2, FtFRP⟩
  ihave Hs := (Entails.of_eq (take_step (famDF m c) 43 (by decide))) $$ [FdF]
  · iexact FdF
  icases Hs with ⟨Hd, FdF⟩
  ihave #HI1 := (Prep.inv_fs m K c 43) $$ HI
  ihave #HI2 := (Prep.inv_fr m K (xp c) 43) $$ HI
  ihave #HR1 := (Prep.reached_fs (F := F) c 43) $$ HR
  ihave #HR2 := (Prep.reached_fr (F := F) (xp c) 43) $$ HR
  iapply (wp_fsend m c _ (dev110_eq c) 43 (K (c, some (2, 43))) (K (xp c, some (3, 43))) (owedF c 43) (owedF c 44)
      (by rw [owedF_succ' c 43 (by decide)]; rfl) W65) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 43 (by decide)) $$ [AccCFS Hc]
  · isplitl [AccCFS]; · iexact AccCFS
    iexact Hc
  -- step 197: wait arg3[44] (arg0[(k0_off2 d0 2816#32)], arg1[(k0_off1 d0 2816#32)])
  first | sl_exec | skip
  ihave Hs := (Entails.of_eq (take_step (famCYR (F := F) c) 44 (by decide))) $$ [FcYR]
  · iexact FcYR
  icases Hs with ⟨Hc, FcYR⟩
  ihave Hs := (Entails.of_eq (take_step (famAtYR (F := F) c) 44 (by decide))) $$ [FatYR]
  · iexact FatYR
  icases Hs with ⟨Hat, FatYR⟩
  ihave #HIw := (Prep.inv_yr m K c 44) $$ HI
  iapply (Rounds.wp_wait_rest_token 𝒱₀ ER (rd m) (c : Thread nD τ) none (κ := K (c, some (1, 44))) (sm := .dma (yrS 44))
      (wpE_waitDma2_eq 𝒱₀ (c : Thread nD τ) none Set.univ (src := ySrc c 44) (dst := yDst c 44)) (Set.mem_univ _) () (O := owedF c 44) (W := W65) (R := 0) (m := 0) (T := ∅)
      (by rw [Nat.zero_add]; exact (expect_yr m c 44).symm)) $$ [Hc HO Hat]
  · isplitr; · iexact HIw
    isplitl [Hc]; · iexact Hc
    isplitl [HO]; · iexact HO
    isplitr
    · iapply (mayWait_of_above c (.dma (yrS 44)) _ (by rw [show lv ((c : Thread nD τ), SemLoc.dma (yrS 44)) () = 2 from lv_yr c 44]; exact above_owedF c 44 (by decide)))
      iexact Hlev
    iexact Hat
  iclear HIw
  iintro ⟨HO, Hat, -, Hpay⟩
  ihave HYk := (Entails.of_eq (rest_yr' m c 44)) $$ Hpay
  ihave #HIx := (Prep.inv_yr m K c 44) $$ HI
  imod (Rounds.cell_close ER (rd m) (Set.mem_univ (K (c, some (1, 44)))) (fun h => h) (R := 0 + 1) (duties_yr_later m c 44)) $$ [Hat] with Hz
  · isplitr; · iexact HIx
    iexact Hat
  iclear HIx
  ihave AccZyr := (acc_step (famZyr (F := F) c) 44 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W66, HO⟩
  -- step 198: send k0_dev111 src=arg1[(k0_off3 d0 2816#32)] dst=arg1[(k0_off3 d0 2816#32)] ssem=arg4[44] rsem=arg5[44]
  first | sl_exec | skip
  ihave Hs := (Entails.of_eq (take_step (famTFS (F := F) c) 44 (by decide))) $$ [FtFS]
  · iexact FtFS
  icases Hs with ⟨Ht1, FtFS⟩
  ihave Hs := (Entails.of_eq (take_step (famTFRP (F := F) c) 44 (by decide))) $$ [FtFRP]
  · iexact FtFRP
  icases Hs with ⟨Ht2, FtFRP⟩
  ihave Hs := (Entails.of_eq (take_step (famDF m c) 44 (by decide))) $$ [FdF]
  · iexact FdF
  icases Hs with ⟨Hd, FdF⟩
  ihave #HI1 := (Prep.inv_fs m K c 44) $$ HI
  ihave #HI2 := (Prep.inv_fr m K (xp c) 44) $$ HI
  ihave #HR1 := (Prep.reached_fs (F := F) c 44) $$ HR
  ihave #HR2 := (Prep.reached_fr (F := F) (xp c) 44) $$ HR
  iapply (wp_fsend m c _ (dev111_eq c) 44 (K (c, some (2, 44))) (K (xp c, some (3, 44))) (owedF c 44) (owedF c 45)
      (by rw [owedF_succ' c 44 (by decide)]; rfl) W66) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 44 (by decide)) $$ [AccCFS Hc]
  · isplitl [AccCFS]; · iexact AccCFS
    iexact Hc
  -- step 199: wait arg7[3] (arg6[![1, 0, 0]], arg1[(k0_off5 d0 4608#32)])
  first | sl_exec | skip
  ihave #HIw := (Prep.inv_ls m KL c 3) $$ HIL
  iapply (Rounds.wp_wait_rest_token 𝒱₀ ER (rd m) (c : Thread nD τ) none (κ := KL (c, 3)) (sm := .dma (lsS 3))
      (wpE_waitDma2_eq 𝒱₀ (c : Thread nD τ) none Set.univ (src := vSlot 1) (dst := lDst c 9)) (Set.mem_univ _) () (O := owedF c 45) (W := W66) (R := 4) (m := 0) (T := ∅)
      (by rw [Nat.zero_add]; exact (expect_st m c 1 4 (by decide)).symm)) $$ [Hc_l3 HO Hat_l3]
  · isplitr; · iexact HIw
    isplitl [Hc_l3]; · iexact Hc_l3
    isplitl [HO]; · iexact HO
    isplitr
    · iapply (mayWait_of_above c (.dma (lsS 3)) _ (by rw [show lv ((c : Thread nD τ), SemLoc.dma (lsS 3)) () = 0 from lv_ls c 3]; exact above_owedF c 45 (by decide)))
      iexact Hlev
    iexact Hat_l3
  iclear HIw
  iclear HRl3
  iintro ⟨HO, Hat_l3, #HRl3, Hpay⟩
  ihave Hp := (Entails.of_eq (rest_st1 m c 4 (by decide))) $$ Hpay
  icases Hp with ⟨Holq, Hv1⟩
  ihave AccOL := (acc_step (famOL m c) 9 (by decide)) $$ [AccOL Holq]
  · isplitl [AccOL]; · iexact AccOL
    iexact Holq
  ihave HOe : iprop(∃ W' : Waits sig Unit, owes (c : Thread nD τ) _ W') $$ [HO]
  · iexists _; iexact HO
  icases HOe with ⟨%W67, HO⟩
  -- step 200: copy src=arg0[(k0_off16 d0)] dst=arg6[![1, 0, 0]] sem=arg7[1]
  first | sl_exec | skip
  ihave Hs := (Entails.of_eq (take_step (famXL m c) 11 (by decide))) $$ [FxL]
  · iexact FxL
  icases Hs with ⟨Hxl, FxL⟩
  ihave #HIl := (Prep.inv_ls m KL c 1) $$ HIL
  iapply (Rounds.wp_copy_pointsTo 𝒱₀ ER (rd m) (c : Thread nD τ) none (src := lSrc c 11) (dst := vSlot 1) (sem := .dma (lsS 1)) (q := fullShare) (fs := xC m c) (fd := VC m c 9)
      (r := 5) (d := false) (κ := KL (c, 1)) (by rw [duties_ls m c 1 5 (by decide)]; exact Finset.mem_singleton_self _) () NV rfl (amount_ld m c 1 5 false)
      (by rw [payload_ls, vLand_pts m c 11 1 (VC m c 9)]; exact BI.Entails.refl _)) $$ [Hxl Hv1 Htl1_5]
  · isplitr; · iexact HIl
    isplitl [Hxl]; · iexact Hxl
    isplitl [Hv1]; · iexact Hv1
    isplitl [Htl1_5]; · iexact Htl1_5
    iexact HRl1
  iclear HIl
  iintro Hc_l1
  -- step 201: wait arg7[1] (arg0[(k0_off16 d0)], arg6[![1, 0, 0]])
  first | sl_exec | skip
  ihave #HIw := (Prep.inv_ls m KL c 1) $$ HIL
  iapply (Rounds.wp_wait_rest_token 𝒱₀ ER (rd m) (c : Thread nD τ) none (κ := KL (c, 1)) (sm := .dma (lsS 1))
      (wpE_waitDma2_eq 𝒱₀ (c : Thread nD τ) none Set.univ (src := lSrc c 11) (dst := vSlot 1)) (Set.mem_univ _) () (O := owedF c 45) (W := W67) (R := 5) (m := 0) (T := ∅)
      (by rw [Nat.zero_add]; exact (expect_ld m c 1 5 (by decide)).symm)) $$ [Hc_l1 HO Hat_l1]
  · isplitr; · iexact HIw
    isplitl [Hc_l1]; · iexact Hc_l1
    isplitl [HO]; · iexact HO
    isplitr
    · iapply (mayWait_of_above c (.dma (lsS 1)) _ (by rw [show lv ((c : Thread nD τ), SemLoc.dma (lsS 1)) () = 0 from lv_ls c 1]; exact above_owedF c 45 (by decide)))
      iexact Hlev
    iexact Hat_l1
  iclear HIw
  iclear HRl1
  iintro ⟨HO, Hat_l1, #HRl1, Hpay⟩
  ihave Hp := (Entails.of_eq (rest_ld1 m c 5 (by decide))) $$ Hpay
  icases Hp with ⟨Hv1, Hxlq⟩
  ihave AccXL := (acc_step (famXL m c) 11 (by decide)) $$ [AccXL Hxlq]
  · isplitl [AccXL]; · iexact AccXL
    iexact Hxlq
  ihave HOe : iprop(∃ W' : Waits sig Unit, owes (c : Thread nD τ) _ W') $$ [HO]
  · iexists _; iexact HO
  icases HOe with ⟨%W68, HO⟩
  -- step 202: copy src=arg6[![1, 0, 0]] dst=arg1[(k0_off5 d0 5632#32)] sem=arg7[3]
  first | sl_exec | skip
  ihave Hs := (Entails.of_eq (take_step (famOL0 m c) 11 (by decide))) $$ [FoL]
  · iexact FoL
  icases Hs with ⟨Hol, FoL⟩
  ihave #HIl := (Prep.inv_ls m KL c 3) $$ HIL
  iapply (Rounds.wp_copy_pointsTo 𝒱₀ ER (rd m) (c : Thread nD τ) none (src := vSlot 1) (dst := lDst c 11) (sem := .dma (lsS 3)) (q := fullShare) (fs := VC m c 11) (fd := o0 m c)
      (r := 5) (d := false) (κ := KL (c, 3)) (by rw [duties_ls m c 3 5 (by decide)]; exact Finset.mem_singleton_self _) () NO rfl (amount_st m c 1 5 false)
      (by rw [payload_ls, lLandV_pts m c 11 1 (o0 m c)]; exact BI.Entails.refl _)) $$ [Hv1 Hol Htl3_5]
  · isplitr; · iexact HIl
    isplitl [Hv1]; · iexact Hv1
    isplitl [Hol]; · iexact Hol
    isplitl [Htl3_5]; · iexact Htl3_5
    iexact HRl3
  iclear HIl
  iintro Hc_l3
  -- step 203: wait arg3[45] (arg0[(k0_off2 d0 2880#32)], arg1[(k0_off1 d0 2880#32)])
  first | sl_exec | skip
  ihave Hs := (Entails.of_eq (take_step (famCYR (F := F) c) 45 (by decide))) $$ [FcYR]
  · iexact FcYR
  icases Hs with ⟨Hc, FcYR⟩
  ihave Hs := (Entails.of_eq (take_step (famAtYR (F := F) c) 45 (by decide))) $$ [FatYR]
  · iexact FatYR
  icases Hs with ⟨Hat, FatYR⟩
  ihave #HIw := (Prep.inv_yr m K c 45) $$ HI
  iapply (Rounds.wp_wait_rest_token 𝒱₀ ER (rd m) (c : Thread nD τ) none (κ := K (c, some (1, 45))) (sm := .dma (yrS 45))
      (wpE_waitDma2_eq 𝒱₀ (c : Thread nD τ) none Set.univ (src := ySrc c 45) (dst := yDst c 45)) (Set.mem_univ _) () (O := owedF c 45) (W := W68) (R := 0) (m := 0) (T := ∅)
      (by rw [Nat.zero_add]; exact (expect_yr m c 45).symm)) $$ [Hc HO Hat]
  · isplitr; · iexact HIw
    isplitl [Hc]; · iexact Hc
    isplitl [HO]; · iexact HO
    isplitr
    · iapply (mayWait_of_above c (.dma (yrS 45)) _ (by rw [show lv ((c : Thread nD τ), SemLoc.dma (yrS 45)) () = 2 from lv_yr c 45]; exact above_owedF c 45 (by decide)))
      iexact Hlev
    iexact Hat
  iclear HIw
  iintro ⟨HO, Hat, -, Hpay⟩
  ihave HYk := (Entails.of_eq (rest_yr' m c 45)) $$ Hpay
  ihave #HIx := (Prep.inv_yr m K c 45) $$ HI
  imod (Rounds.cell_close ER (rd m) (Set.mem_univ (K (c, some (1, 45)))) (fun h => h) (R := 0 + 1) (duties_yr_later m c 45)) $$ [Hat] with Hz
  · isplitr; · iexact HIx
    iexact Hat
  iclear HIx
  ihave AccZyr := (acc_step (famZyr (F := F) c) 45 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W69, HO⟩
  -- step 204: send k0_dev112 src=arg1[(k0_off3 d0 2880#32)] dst=arg1[(k0_off3 d0 2880#32)] ssem=arg4[45] rsem=arg5[45]
  first | sl_exec | skip
  ihave Hs := (Entails.of_eq (take_step (famTFS (F := F) c) 45 (by decide))) $$ [FtFS]
  · iexact FtFS
  icases Hs with ⟨Ht1, FtFS⟩
  ihave Hs := (Entails.of_eq (take_step (famTFRP (F := F) c) 45 (by decide))) $$ [FtFRP]
  · iexact FtFRP
  icases Hs with ⟨Ht2, FtFRP⟩
  ihave Hs := (Entails.of_eq (take_step (famDF m c) 45 (by decide))) $$ [FdF]
  · iexact FdF
  icases Hs with ⟨Hd, FdF⟩
  ihave #HI1 := (Prep.inv_fs m K c 45) $$ HI
  ihave #HI2 := (Prep.inv_fr m K (xp c) 45) $$ HI
  ihave #HR1 := (Prep.reached_fs (F := F) c 45) $$ HR
  ihave #HR2 := (Prep.reached_fr (F := F) (xp c) 45) $$ HR
  iapply (wp_fsend m c _ (dev112_eq c) 45 (K (c, some (2, 45))) (K (xp c, some (3, 45))) (owedF c 45) (owedF c 46)
      (by rw [owedF_succ' c 45 (by decide)]; rfl) W69) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 45 (by decide)) $$ [AccCFS Hc]
  · isplitl [AccCFS]; · iexact AccCFS
    iexact Hc
  -- step 205: wait arg3[46] (arg0[(k0_off2 d0 2944#32)], arg1[(k0_off1 d0 2944#32)])
  first | sl_exec | skip
  ihave Hs := (Entails.of_eq (take_step (famCYR (F := F) c) 46 (by decide))) $$ [FcYR]
  · iexact FcYR
  icases Hs with ⟨Hc, FcYR⟩
  ihave Hs := (Entails.of_eq (take_step (famAtYR (F := F) c) 46 (by decide))) $$ [FatYR]
  · iexact FatYR
  icases Hs with ⟨Hat, FatYR⟩
  ihave #HIw := (Prep.inv_yr m K c 46) $$ HI
  iapply (Rounds.wp_wait_rest_token 𝒱₀ ER (rd m) (c : Thread nD τ) none (κ := K (c, some (1, 46))) (sm := .dma (yrS 46))
      (wpE_waitDma2_eq 𝒱₀ (c : Thread nD τ) none Set.univ (src := ySrc c 46) (dst := yDst c 46)) (Set.mem_univ _) () (O := owedF c 46) (W := W69) (R := 0) (m := 0) (T := ∅)
      (by rw [Nat.zero_add]; exact (expect_yr m c 46).symm)) $$ [Hc HO Hat]
  · isplitr; · iexact HIw
    isplitl [Hc]; · iexact Hc
    isplitl [HO]; · iexact HO
    isplitr
    · iapply (mayWait_of_above c (.dma (yrS 46)) _ (by rw [show lv ((c : Thread nD τ), SemLoc.dma (yrS 46)) () = 2 from lv_yr c 46]; exact above_owedF c 46 (by decide)))
      iexact Hlev
    iexact Hat
  iclear HIw
  iintro ⟨HO, Hat, -, Hpay⟩
  ihave HYk := (Entails.of_eq (rest_yr' m c 46)) $$ Hpay
  ihave #HIx := (Prep.inv_yr m K c 46) $$ HI
  imod (Rounds.cell_close ER (rd m) (Set.mem_univ (K (c, some (1, 46)))) (fun h => h) (R := 0 + 1) (duties_yr_later m c 46)) $$ [Hat] with Hz
  · isplitr; · iexact HIx
    iexact Hat
  iclear HIx
  ihave AccZyr := (acc_step (famZyr (F := F) c) 46 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W70, HO⟩
  -- step 206: send k0_dev113 src=arg1[(k0_off3 d0 2944#32)] dst=arg1[(k0_off3 d0 2944#32)] ssem=arg4[46] rsem=arg5[46]
  first | sl_exec | skip
  ihave Hs := (Entails.of_eq (take_step (famTFS (F := F) c) 46 (by decide))) $$ [FtFS]
  · iexact FtFS
  icases Hs with ⟨Ht1, FtFS⟩
  ihave Hs := (Entails.of_eq (take_step (famTFRP (F := F) c) 46 (by decide))) $$ [FtFRP]
  · iexact FtFRP
  icases Hs with ⟨Ht2, FtFRP⟩
  ihave Hs := (Entails.of_eq (take_step (famDF m c) 46 (by decide))) $$ [FdF]
  · iexact FdF
  icases Hs with ⟨Hd, FdF⟩
  ihave #HI1 := (Prep.inv_fs m K c 46) $$ HI
  ihave #HI2 := (Prep.inv_fr m K (xp c) 46) $$ HI
  ihave #HR1 := (Prep.reached_fs (F := F) c 46) $$ HR
  ihave #HR2 := (Prep.reached_fr (F := F) (xp c) 46) $$ HR
  iapply (wp_fsend m c _ (dev113_eq c) 46 (K (c, some (2, 46))) (K (xp c, some (3, 46))) (owedF c 46) (owedF c 47)
      (by rw [owedF_succ' c 46 (by decide)]; rfl) W70) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 46 (by decide)) $$ [AccCFS Hc]
  · isplitl [AccCFS]; · iexact AccCFS
    iexact Hc
  -- step 207: wait arg3[47] (arg0[(k0_off2 d0 3008#32)], arg1[(k0_off1 d0 3008#32)])
  first | sl_exec | skip
  ihave Hs := (Entails.of_eq (take_step (famCYR (F := F) c) 47 (by decide))) $$ [FcYR]
  · iexact FcYR
  icases Hs with ⟨Hc, FcYR⟩
  ihave Hs := (Entails.of_eq (take_step (famAtYR (F := F) c) 47 (by decide))) $$ [FatYR]
  · iexact FatYR
  icases Hs with ⟨Hat, FatYR⟩
  ihave #HIw := (Prep.inv_yr m K c 47) $$ HI
  iapply (Rounds.wp_wait_rest_token 𝒱₀ ER (rd m) (c : Thread nD τ) none (κ := K (c, some (1, 47))) (sm := .dma (yrS 47))
      (wpE_waitDma2_eq 𝒱₀ (c : Thread nD τ) none Set.univ (src := ySrc c 47) (dst := yDst c 47)) (Set.mem_univ _) () (O := owedF c 47) (W := W70) (R := 0) (m := 0) (T := ∅)
      (by rw [Nat.zero_add]; exact (expect_yr m c 47).symm)) $$ [Hc HO Hat]
  · isplitr; · iexact HIw
    isplitl [Hc]; · iexact Hc
    isplitl [HO]; · iexact HO
    isplitr
    · iapply (mayWait_of_above c (.dma (yrS 47)) _ (by rw [show lv ((c : Thread nD τ), SemLoc.dma (yrS 47)) () = 2 from lv_yr c 47]; exact above_owedF c 47 (by decide)))
      iexact Hlev
    iexact Hat
  iclear HIw
  iintro ⟨HO, Hat, -, Hpay⟩
  ihave HYk := (Entails.of_eq (rest_yr' m c 47)) $$ Hpay
  ihave #HIx := (Prep.inv_yr m K c 47) $$ HI
  imod (Rounds.cell_close ER (rd m) (Set.mem_univ (K (c, some (1, 47)))) (fun h => h) (R := 0 + 1) (duties_yr_later m c 47)) $$ [Hat] with Hz
  · isplitr; · iexact HIx
    iexact Hat
  iclear HIx
  ihave AccZyr := (acc_step (famZyr (F := F) c) 47 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W71, HO⟩
  -- step 208: send k0_dev114 src=arg1[(k0_off3 d0 3008#32)] dst=arg1[(k0_off3 d0 3008#32)] ssem=arg4[47] rsem=arg5[47]
  first | sl_exec | skip
  ihave Hs := (Entails.of_eq (take_step (famTFS (F := F) c) 47 (by decide))) $$ [FtFS]
  · iexact FtFS
  icases Hs with ⟨Ht1, FtFS⟩
  ihave Hs := (Entails.of_eq (take_step (famTFRP (F := F) c) 47 (by decide))) $$ [FtFRP]
  · iexact FtFRP
  icases Hs with ⟨Ht2, FtFRP⟩
  ihave Hs := (Entails.of_eq (take_step (famDF m c) 47 (by decide))) $$ [FdF]
  · iexact FdF
  icases Hs with ⟨Hd, FdF⟩
  ihave #HI1 := (Prep.inv_fs m K c 47) $$ HI
  ihave #HI2 := (Prep.inv_fr m K (xp c) 47) $$ HI
  ihave #HR1 := (Prep.reached_fs (F := F) c 47) $$ HR
  ihave #HR2 := (Prep.reached_fr (F := F) (xp c) 47) $$ HR
  iapply (wp_fsend m c _ (dev114_eq c) 47 (K (c, some (2, 47))) (K (xp c, some (3, 47))) (owedF c 47) (owedF c 48)
      (by rw [owedF_succ' c 47 (by decide)]; rfl) W71) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 47 (by decide)) $$ [AccCFS Hc]
  · isplitl [AccCFS]; · iexact AccCFS
    iexact Hc
  -- step 209: wait arg3[48] (arg0[(k0_off2 d0 3072#32)], arg1[(k0_off1 d0 3072#32)])
  first | sl_exec | skip
  ihave Hs := (Entails.of_eq (take_step (famCYR (F := F) c) 48 (by decide))) $$ [FcYR]
  · iexact FcYR
  icases Hs with ⟨Hc, FcYR⟩
  ihave Hs := (Entails.of_eq (take_step (famAtYR (F := F) c) 48 (by decide))) $$ [FatYR]
  · iexact FatYR
  icases Hs with ⟨Hat, FatYR⟩
  ihave #HIw := (Prep.inv_yr m K c 48) $$ HI
  iapply (Rounds.wp_wait_rest_token 𝒱₀ ER (rd m) (c : Thread nD τ) none (κ := K (c, some (1, 48))) (sm := .dma (yrS 48))
      (wpE_waitDma2_eq 𝒱₀ (c : Thread nD τ) none Set.univ (src := ySrc c 48) (dst := yDst c 48)) (Set.mem_univ _) () (O := owedF c 48) (W := W71) (R := 0) (m := 0) (T := ∅)
      (by rw [Nat.zero_add]; exact (expect_yr m c 48).symm)) $$ [Hc HO Hat]
  · isplitr; · iexact HIw
    isplitl [Hc]; · iexact Hc
    isplitl [HO]; · iexact HO
    isplitr
    · iapply (mayWait_of_above c (.dma (yrS 48)) _ (by rw [show lv ((c : Thread nD τ), SemLoc.dma (yrS 48)) () = 2 from lv_yr c 48]; exact above_owedF c 48 (by decide)))
      iexact Hlev
    iexact Hat
  iclear HIw
  iintro ⟨HO, Hat, -, Hpay⟩
  ihave HYk := (Entails.of_eq (rest_yr' m c 48)) $$ Hpay
  ihave #HIx := (Prep.inv_yr m K c 48) $$ HI
  imod (Rounds.cell_close ER (rd m) (Set.mem_univ (K (c, some (1, 48)))) (fun h => h) (R := 0 + 1) (duties_yr_later m c 48)) $$ [Hat] with Hz
  · isplitr; · iexact HIx
    iexact Hat
  iclear HIx
  ihave AccZyr := (acc_step (famZyr (F := F) c) 48 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W72, HO⟩
  -- step 210: send k0_dev115 src=arg1[(k0_off3 d0 3072#32)] dst=arg1[(k0_off3 d0 3072#32)] ssem=arg4[48] rsem=arg5[48]
  first | sl_exec | skip
  ihave Hs := (Entails.of_eq (take_step (famTFS (F := F) c) 48 (by decide))) $$ [FtFS]
  · iexact FtFS
  icases Hs with ⟨Ht1, FtFS⟩
  ihave Hs := (Entails.of_eq (take_step (famTFRP (F := F) c) 48 (by decide))) $$ [FtFRP]
  · iexact FtFRP
  icases Hs with ⟨Ht2, FtFRP⟩
  ihave Hs := (Entails.of_eq (take_step (famDF m c) 48 (by decide))) $$ [FdF]
  · iexact FdF
  icases Hs with ⟨Hd, FdF⟩
  ihave #HI1 := (Prep.inv_fs m K c 48) $$ HI
  ihave #HI2 := (Prep.inv_fr m K (xp c) 48) $$ HI
  ihave #HR1 := (Prep.reached_fs (F := F) c 48) $$ HR
  ihave #HR2 := (Prep.reached_fr (F := F) (xp c) 48) $$ HR
  iapply (wp_fsend m c _ (dev115_eq c) 48 (K (c, some (2, 48))) (K (xp c, some (3, 48))) (owedF c 48) (owedF c 49)
      (by rw [owedF_succ' c 48 (by decide)]; rfl) W72) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 48 (by decide)) $$ [AccCFS Hc]
  · isplitl [AccCFS]; · iexact AccCFS
    iexact Hc
  -- step 211: wait arg7[2] (arg6[![0, 0, 0]], arg1[(k0_off5 d0 5120#32)])
  first | sl_exec | skip
  ihave #HIw := (Prep.inv_ls m KL c 2) $$ HIL
  iapply (Rounds.wp_wait_rest_token 𝒱₀ ER (rd m) (c : Thread nD τ) none (κ := KL (c, 2)) (sm := .dma (lsS 2))
      (wpE_waitDma2_eq 𝒱₀ (c : Thread nD τ) none Set.univ (src := vSlot 0) (dst := lDst c 10)) (Set.mem_univ _) () (O := owedF c 49) (W := W72) (R := 5) (m := 0) (T := ∅)
      (by rw [Nat.zero_add]; exact (expect_st m c 0 5 (by decide)).symm)) $$ [Hc_l2 HO Hat_l2]
  · isplitr; · iexact HIw
    isplitl [Hc_l2]; · iexact Hc_l2
    isplitl [HO]; · iexact HO
    isplitr
    · iapply (mayWait_of_above c (.dma (lsS 2)) _ (by rw [show lv ((c : Thread nD τ), SemLoc.dma (lsS 2)) () = 0 from lv_ls c 2]; exact above_owedF c 49 (by decide)))
      iexact Hlev
    iexact Hat_l2
  iclear HIw
  iclear HRl2
  iintro ⟨HO, Hat_l2, #HRl2, Hpay⟩
  ihave Hp := (Entails.of_eq (rest_st0 m c 5 (by decide))) $$ Hpay
  icases Hp with ⟨Holq, Hv0⟩
  ihave AccOL := (acc_step (famOL m c) 10 (by decide)) $$ [AccOL Holq]
  · isplitl [AccOL]; · iexact AccOL
    iexact Holq
  ihave HOe : iprop(∃ W' : Waits sig Unit, owes (c : Thread nD τ) _ W') $$ [HO]
  · iexists _; iexact HO
  icases HOe with ⟨%W73, HO⟩
  -- step 212: copy src=arg0[(k0_off17 d0)] dst=arg6[![0, 0, 0]] sem=arg7[0]
  first | sl_exec | skip
  ihave Hs := (Entails.of_eq (take_step (famXL m c) 12 (by decide))) $$ [FxL]
  · iexact FxL
  icases Hs with ⟨Hxl, FxL⟩
  ihave #HIl := (Prep.inv_ls m KL c 0) $$ HIL
  iapply (Rounds.wp_copy_pointsTo 𝒱₀ ER (rd m) (c : Thread nD τ) none (src := lSrc c 12) (dst := vSlot 0) (sem := .dma (lsS 0)) (q := fullShare) (fs := xC m c) (fd := VC m c 10)
      (r := 6) (d := false) (κ := KL (c, 0)) (by rw [duties_ls m c 0 6 (by decide)]; exact Finset.mem_singleton_self _) () NV rfl (amount_ld m c 0 6 false)
      (by rw [payload_ls, vLand_pts m c 12 0 (VC m c 10)]; exact BI.Entails.refl _)) $$ [Hxl Hv0 Htl0_6]
  · isplitr; · iexact HIl
    isplitl [Hxl]; · iexact Hxl
    isplitl [Hv0]; · iexact Hv0
    isplitl [Htl0_6]; · iexact Htl0_6
    iexact HRl0
  iclear HIl
  iintro Hc_l0
  -- step 213: wait arg7[0] (arg0[(k0_off17 d0)], arg6[![0, 0, 0]])
  first | sl_exec | skip
  ihave #HIw := (Prep.inv_ls m KL c 0) $$ HIL
  iapply (Rounds.wp_wait_rest_token 𝒱₀ ER (rd m) (c : Thread nD τ) none (κ := KL (c, 0)) (sm := .dma (lsS 0))
      (wpE_waitDma2_eq 𝒱₀ (c : Thread nD τ) none Set.univ (src := lSrc c 12) (dst := vSlot 0)) (Set.mem_univ _) () (O := owedF c 49) (W := W73) (R := 6) (m := 0) (T := ∅)
      (by rw [Nat.zero_add]; exact (expect_ld m c 0 6 (by decide)).symm)) $$ [Hc_l0 HO Hat_l0]
  · isplitr; · iexact HIw
    isplitl [Hc_l0]; · iexact Hc_l0
    isplitl [HO]; · iexact HO
    isplitr
    · iapply (mayWait_of_above c (.dma (lsS 0)) _ (by rw [show lv ((c : Thread nD τ), SemLoc.dma (lsS 0)) () = 0 from lv_ls c 0]; exact above_owedF c 49 (by decide)))
      iexact Hlev
    iexact Hat_l0
  iclear HIw
  iclear HRl0
  iintro ⟨HO, Hat_l0, #HRl0, Hpay⟩
  ihave Hp := (Entails.of_eq (rest_ld0 m c 6 (by decide))) $$ Hpay
  icases Hp with ⟨Hv0, Hxlq⟩
  ihave AccXL := (acc_step (famXL m c) 12 (by decide)) $$ [AccXL Hxlq]
  · isplitl [AccXL]; · iexact AccXL
    iexact Hxlq
  ihave HOe : iprop(∃ W' : Waits sig Unit, owes (c : Thread nD τ) _ W') $$ [HO]
  · iexists _; iexact HO
  icases HOe with ⟨%W74, HO⟩
  -- step 214: copy src=arg6[![0, 0, 0]] dst=arg1[(k0_off5 d0 6144#32)] sem=arg7[2]
  first | sl_exec | skip
  ihave Hs := (Entails.of_eq (take_step (famOL0 m c) 12 (by decide))) $$ [FoL]
  · iexact FoL
  icases Hs with ⟨Hol, FoL⟩
  ihave #HIl := (Prep.inv_ls m KL c 2) $$ HIL
  iapply (Rounds.wp_copy_pointsTo 𝒱₀ ER (rd m) (c : Thread nD τ) none (src := vSlot 0) (dst := lDst c 12) (sem := .dma (lsS 2)) (q := fullShare) (fs := VC m c 12) (fd := o0 m c)
      (r := 6) (d := false) (κ := KL (c, 2)) (by rw [duties_ls m c 2 6 (by decide)]; exact Finset.mem_singleton_self _) () NO rfl (amount_st m c 0 6 false)
      (by rw [payload_ls, lLandV_pts m c 12 0 (o0 m c)]; exact BI.Entails.refl _)) $$ [Hv0 Hol Htl2_6]
  · isplitr; · iexact HIl
    isplitl [Hv0]; · iexact Hv0
    isplitl [Hol]; · iexact Hol
    isplitl [Htl2_6]; · iexact Htl2_6
    iexact HRl2
  iclear HIl
  iintro Hc_l2
  -- step 215: wait arg3[49] (arg0[(k0_off2 d0 3136#32)], arg1[(k0_off1 d0 3136#32)])
  first | sl_exec | skip
  ihave Hs := (Entails.of_eq (take_step (famCYR (F := F) c) 49 (by decide))) $$ [FcYR]
  · iexact FcYR
  icases Hs with ⟨Hc, FcYR⟩
  ihave Hs := (Entails.of_eq (take_step (famAtYR (F := F) c) 49 (by decide))) $$ [FatYR]
  · iexact FatYR
  icases Hs with ⟨Hat, FatYR⟩
  ihave #HIw := (Prep.inv_yr m K c 49) $$ HI
  iapply (Rounds.wp_wait_rest_token 𝒱₀ ER (rd m) (c : Thread nD τ) none (κ := K (c, some (1, 49))) (sm := .dma (yrS 49))
      (wpE_waitDma2_eq 𝒱₀ (c : Thread nD τ) none Set.univ (src := ySrc c 49) (dst := yDst c 49)) (Set.mem_univ _) () (O := owedF c 49) (W := W74) (R := 0) (m := 0) (T := ∅)
      (by rw [Nat.zero_add]; exact (expect_yr m c 49).symm)) $$ [Hc HO Hat]
  · isplitr; · iexact HIw
    isplitl [Hc]; · iexact Hc
    isplitl [HO]; · iexact HO
    isplitr
    · iapply (mayWait_of_above c (.dma (yrS 49)) _ (by rw [show lv ((c : Thread nD τ), SemLoc.dma (yrS 49)) () = 2 from lv_yr c 49]; exact above_owedF c 49 (by decide)))
      iexact Hlev
    iexact Hat
  iclear HIw
  iintro ⟨HO, Hat, -, Hpay⟩
  ihave HYk := (Entails.of_eq (rest_yr' m c 49)) $$ Hpay
  ihave #HIx := (Prep.inv_yr m K c 49) $$ HI
  imod (Rounds.cell_close ER (rd m) (Set.mem_univ (K (c, some (1, 49)))) (fun h => h) (R := 0 + 1) (duties_yr_later m c 49)) $$ [Hat] with Hz
  · isplitr; · iexact HIx
    iexact Hat
  iclear HIx
  ihave AccZyr := (acc_step (famZyr (F := F) c) 49 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W75, HO⟩
  -- step 216: send k0_dev116 src=arg1[(k0_off3 d0 3136#32)] dst=arg1[(k0_off3 d0 3136#32)] ssem=arg4[49] rsem=arg5[49]
  first | sl_exec | skip
  ihave Hs := (Entails.of_eq (take_step (famTFS (F := F) c) 49 (by decide))) $$ [FtFS]
  · iexact FtFS
  icases Hs with ⟨Ht1, FtFS⟩
  ihave Hs := (Entails.of_eq (take_step (famTFRP (F := F) c) 49 (by decide))) $$ [FtFRP]
  · iexact FtFRP
  icases Hs with ⟨Ht2, FtFRP⟩
  ihave Hs := (Entails.of_eq (take_step (famDF m c) 49 (by decide))) $$ [FdF]
  · iexact FdF
  icases Hs with ⟨Hd, FdF⟩
  ihave #HI1 := (Prep.inv_fs m K c 49) $$ HI
  ihave #HI2 := (Prep.inv_fr m K (xp c) 49) $$ HI
  ihave #HR1 := (Prep.reached_fs (F := F) c 49) $$ HR
  ihave #HR2 := (Prep.reached_fr (F := F) (xp c) 49) $$ HR
  iapply (wp_fsend m c _ (dev116_eq c) 49 (K (c, some (2, 49))) (K (xp c, some (3, 49))) (owedF c 49) (owedF c 50)
      (by rw [owedF_succ' c 49 (by decide)]; rfl) W75) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 49 (by decide)) $$ [AccCFS Hc]
  · isplitl [AccCFS]; · iexact AccCFS
    iexact Hc
  -- step 217: wait arg3[50] (arg0[(k0_off2 d0 3200#32)], arg1[(k0_off1 d0 3200#32)])
  first | sl_exec | skip
  ihave Hs := (Entails.of_eq (take_step (famCYR (F := F) c) 50 (by decide))) $$ [FcYR]
  · iexact FcYR
  icases Hs with ⟨Hc, FcYR⟩
  ihave Hs := (Entails.of_eq (take_step (famAtYR (F := F) c) 50 (by decide))) $$ [FatYR]
  · iexact FatYR
  icases Hs with ⟨Hat, FatYR⟩
  ihave #HIw := (Prep.inv_yr m K c 50) $$ HI
  iapply (Rounds.wp_wait_rest_token 𝒱₀ ER (rd m) (c : Thread nD τ) none (κ := K (c, some (1, 50))) (sm := .dma (yrS 50))
      (wpE_waitDma2_eq 𝒱₀ (c : Thread nD τ) none Set.univ (src := ySrc c 50) (dst := yDst c 50)) (Set.mem_univ _) () (O := owedF c 50) (W := W75) (R := 0) (m := 0) (T := ∅)
      (by rw [Nat.zero_add]; exact (expect_yr m c 50).symm)) $$ [Hc HO Hat]
  · isplitr; · iexact HIw
    isplitl [Hc]; · iexact Hc
    isplitl [HO]; · iexact HO
    isplitr
    · iapply (mayWait_of_above c (.dma (yrS 50)) _ (by rw [show lv ((c : Thread nD τ), SemLoc.dma (yrS 50)) () = 2 from lv_yr c 50]; exact above_owedF c 50 (by decide)))
      iexact Hlev
    iexact Hat
  iclear HIw
  iintro ⟨HO, Hat, -, Hpay⟩
  ihave HYk := (Entails.of_eq (rest_yr' m c 50)) $$ Hpay
  ihave #HIx := (Prep.inv_yr m K c 50) $$ HI
  imod (Rounds.cell_close ER (rd m) (Set.mem_univ (K (c, some (1, 50)))) (fun h => h) (R := 0 + 1) (duties_yr_later m c 50)) $$ [Hat] with Hz
  · isplitr; · iexact HIx
    iexact Hat
  iclear HIx
  ihave AccZyr := (acc_step (famZyr (F := F) c) 50 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W76, HO⟩
  -- step 218: send k0_dev117 src=arg1[(k0_off3 d0 3200#32)] dst=arg1[(k0_off3 d0 3200#32)] ssem=arg4[50] rsem=arg5[50]
  first | sl_exec | skip
  ihave Hs := (Entails.of_eq (take_step (famTFS (F := F) c) 50 (by decide))) $$ [FtFS]
  · iexact FtFS
  icases Hs with ⟨Ht1, FtFS⟩
  ihave Hs := (Entails.of_eq (take_step (famTFRP (F := F) c) 50 (by decide))) $$ [FtFRP]
  · iexact FtFRP
  icases Hs with ⟨Ht2, FtFRP⟩
  ihave Hs := (Entails.of_eq (take_step (famDF m c) 50 (by decide))) $$ [FdF]
  · iexact FdF
  icases Hs with ⟨Hd, FdF⟩
  ihave #HI1 := (Prep.inv_fs m K c 50) $$ HI
  ihave #HI2 := (Prep.inv_fr m K (xp c) 50) $$ HI
  ihave #HR1 := (Prep.reached_fs (F := F) c 50) $$ HR
  ihave #HR2 := (Prep.reached_fr (F := F) (xp c) 50) $$ HR
  iapply (wp_fsend m c _ (dev117_eq c) 50 (K (c, some (2, 50))) (K (xp c, some (3, 50))) (owedF c 50) (owedF c 51)
      (by rw [owedF_succ' c 50 (by decide)]; rfl) W76) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 50 (by decide)) $$ [AccCFS Hc]
  · isplitl [AccCFS]; · iexact AccCFS
    iexact Hc
  -- step 219: wait arg3[51] (arg0[(k0_off2 d0 3264#32)], arg1[(k0_off1 d0 3264#32)])
  first | sl_exec | skip
  ihave Hs := (Entails.of_eq (take_step (famCYR (F := F) c) 51 (by decide))) $$ [FcYR]
  · iexact FcYR
  icases Hs with ⟨Hc, FcYR⟩
  ihave Hs := (Entails.of_eq (take_step (famAtYR (F := F) c) 51 (by decide))) $$ [FatYR]
  · iexact FatYR
  icases Hs with ⟨Hat, FatYR⟩
  ihave #HIw := (Prep.inv_yr m K c 51) $$ HI
  iapply (Rounds.wp_wait_rest_token 𝒱₀ ER (rd m) (c : Thread nD τ) none (κ := K (c, some (1, 51))) (sm := .dma (yrS 51))
      (wpE_waitDma2_eq 𝒱₀ (c : Thread nD τ) none Set.univ (src := ySrc c 51) (dst := yDst c 51)) (Set.mem_univ _) () (O := owedF c 51) (W := W76) (R := 0) (m := 0) (T := ∅)
      (by rw [Nat.zero_add]; exact (expect_yr m c 51).symm)) $$ [Hc HO Hat]
  · isplitr; · iexact HIw
    isplitl [Hc]; · iexact Hc
    isplitl [HO]; · iexact HO
    isplitr
    · iapply (mayWait_of_above c (.dma (yrS 51)) _ (by rw [show lv ((c : Thread nD τ), SemLoc.dma (yrS 51)) () = 2 from lv_yr c 51]; exact above_owedF c 51 (by decide)))
      iexact Hlev
    iexact Hat
  iclear HIw
  iintro ⟨HO, Hat, -, Hpay⟩
  ihave HYk := (Entails.of_eq (rest_yr' m c 51)) $$ Hpay
  ihave #HIx := (Prep.inv_yr m K c 51) $$ HI
  imod (Rounds.cell_close ER (rd m) (Set.mem_univ (K (c, some (1, 51)))) (fun h => h) (R := 0 + 1) (duties_yr_later m c 51)) $$ [Hat] with Hz
  · isplitr; · iexact HIx
    iexact Hat
  iclear HIx
  ihave AccZyr := (acc_step (famZyr (F := F) c) 51 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W77, HO⟩
  -- step 220: send k0_dev118 src=arg1[(k0_off3 d0 3264#32)] dst=arg1[(k0_off3 d0 3264#32)] ssem=arg4[51] rsem=arg5[51]
  first | sl_exec | skip
  ihave Hs := (Entails.of_eq (take_step (famTFS (F := F) c) 51 (by decide))) $$ [FtFS]
  · iexact FtFS
  icases Hs with ⟨Ht1, FtFS⟩
  ihave Hs := (Entails.of_eq (take_step (famTFRP (F := F) c) 51 (by decide))) $$ [FtFRP]
  · iexact FtFRP
  icases Hs with ⟨Ht2, FtFRP⟩
  ihave Hs := (Entails.of_eq (take_step (famDF m c) 51 (by decide))) $$ [FdF]
  · iexact FdF
  icases Hs with ⟨Hd, FdF⟩
  ihave #HI1 := (Prep.inv_fs m K c 51) $$ HI
  ihave #HI2 := (Prep.inv_fr m K (xp c) 51) $$ HI
  ihave #HR1 := (Prep.reached_fs (F := F) c 51) $$ HR
  ihave #HR2 := (Prep.reached_fr (F := F) (xp c) 51) $$ HR
  iapply (wp_fsend m c _ (dev118_eq c) 51 (K (c, some (2, 51))) (K (xp c, some (3, 51))) (owedF c 51) (owedF c 52)
      (by rw [owedF_succ' c 51 (by decide)]; rfl) W77) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 51 (by decide)) $$ [AccCFS Hc]
  · isplitl [AccCFS]; · iexact AccCFS
    iexact Hc
  -- step 221: wait arg3[52] (arg0[(k0_off2 d0 3328#32)], arg1[(k0_off1 d0 3328#32)])
  first | sl_exec | skip
  ihave Hs := (Entails.of_eq (take_step (famCYR (F := F) c) 52 (by decide))) $$ [FcYR]
  · iexact FcYR
  icases Hs with ⟨Hc, FcYR⟩
  ihave Hs := (Entails.of_eq (take_step (famAtYR (F := F) c) 52 (by decide))) $$ [FatYR]
  · iexact FatYR
  icases Hs with ⟨Hat, FatYR⟩
  ihave #HIw := (Prep.inv_yr m K c 52) $$ HI
  iapply (Rounds.wp_wait_rest_token 𝒱₀ ER (rd m) (c : Thread nD τ) none (κ := K (c, some (1, 52))) (sm := .dma (yrS 52))
      (wpE_waitDma2_eq 𝒱₀ (c : Thread nD τ) none Set.univ (src := ySrc c 52) (dst := yDst c 52)) (Set.mem_univ _) () (O := owedF c 52) (W := W77) (R := 0) (m := 0) (T := ∅)
      (by rw [Nat.zero_add]; exact (expect_yr m c 52).symm)) $$ [Hc HO Hat]
  · isplitr; · iexact HIw
    isplitl [Hc]; · iexact Hc
    isplitl [HO]; · iexact HO
    isplitr
    · iapply (mayWait_of_above c (.dma (yrS 52)) _ (by rw [show lv ((c : Thread nD τ), SemLoc.dma (yrS 52)) () = 2 from lv_yr c 52]; exact above_owedF c 52 (by decide)))
      iexact Hlev
    iexact Hat
  iclear HIw
  iintro ⟨HO, Hat, -, Hpay⟩
  ihave HYk := (Entails.of_eq (rest_yr' m c 52)) $$ Hpay
  ihave #HIx := (Prep.inv_yr m K c 52) $$ HI
  imod (Rounds.cell_close ER (rd m) (Set.mem_univ (K (c, some (1, 52)))) (fun h => h) (R := 0 + 1) (duties_yr_later m c 52)) $$ [Hat] with Hz
  · isplitr; · iexact HIx
    iexact Hat
  iclear HIx
  ihave AccZyr := (acc_step (famZyr (F := F) c) 52 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W78, HO⟩
  -- step 222: send k0_dev119 src=arg1[(k0_off3 d0 3328#32)] dst=arg1[(k0_off3 d0 3328#32)] ssem=arg4[52] rsem=arg5[52]
  first | sl_exec | skip
  ihave Hs := (Entails.of_eq (take_step (famTFS (F := F) c) 52 (by decide))) $$ [FtFS]
  · iexact FtFS
  icases Hs with ⟨Ht1, FtFS⟩
  ihave Hs := (Entails.of_eq (take_step (famTFRP (F := F) c) 52 (by decide))) $$ [FtFRP]
  · iexact FtFRP
  icases Hs with ⟨Ht2, FtFRP⟩
  ihave Hs := (Entails.of_eq (take_step (famDF m c) 52 (by decide))) $$ [FdF]
  · iexact FdF
  icases Hs with ⟨Hd, FdF⟩
  ihave #HI1 := (Prep.inv_fs m K c 52) $$ HI
  ihave #HI2 := (Prep.inv_fr m K (xp c) 52) $$ HI
  ihave #HR1 := (Prep.reached_fs (F := F) c 52) $$ HR
  ihave #HR2 := (Prep.reached_fr (F := F) (xp c) 52) $$ HR
  iapply (wp_fsend m c _ (dev119_eq c) 52 (K (c, some (2, 52))) (K (xp c, some (3, 52))) (owedF c 52) (owedF c 53)
      (by rw [owedF_succ' c 52 (by decide)]; rfl) W78) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 52 (by decide)) $$ [AccCFS Hc]
  · isplitl [AccCFS]; · iexact AccCFS
    iexact Hc
  -- step 223: wait arg7[3] (arg6[![1, 0, 0]], arg1[(k0_off5 d0 5632#32)])
  first | sl_exec | skip
  ihave #HIw := (Prep.inv_ls m KL c 3) $$ HIL
  iapply (Rounds.wp_wait_rest_token 𝒱₀ ER (rd m) (c : Thread nD τ) none (κ := KL (c, 3)) (sm := .dma (lsS 3))
      (wpE_waitDma2_eq 𝒱₀ (c : Thread nD τ) none Set.univ (src := vSlot 1) (dst := lDst c 11)) (Set.mem_univ _) () (O := owedF c 53) (W := W78) (R := 5) (m := 0) (T := ∅)
      (by rw [Nat.zero_add]; exact (expect_st m c 1 5 (by decide)).symm)) $$ [Hc_l3 HO Hat_l3]
  · isplitr; · iexact HIw
    isplitl [Hc_l3]; · iexact Hc_l3
    isplitl [HO]; · iexact HO
    isplitr
    · iapply (mayWait_of_above c (.dma (lsS 3)) _ (by rw [show lv ((c : Thread nD τ), SemLoc.dma (lsS 3)) () = 0 from lv_ls c 3]; exact above_owedF c 53 (by decide)))
      iexact Hlev
    iexact Hat_l3
  iclear HIw
  iclear HRl3
  iintro ⟨HO, Hat_l3, #HRl3, Hpay⟩
  ihave Hp := (Entails.of_eq (rest_st1 m c 5 (by decide))) $$ Hpay
  icases Hp with ⟨Holq, Hv1⟩
  ihave AccOL := (acc_step (famOL m c) 11 (by decide)) $$ [AccOL Holq]
  · isplitl [AccOL]; · iexact AccOL
    iexact Holq
  ihave HOe : iprop(∃ W' : Waits sig Unit, owes (c : Thread nD τ) _ W') $$ [HO]
  · iexists _; iexact HO
  icases HOe with ⟨%W79, HO⟩
  -- step 224: copy src=arg0[(k0_off18 d0)] dst=arg6[![1, 0, 0]] sem=arg7[1]
  first | sl_exec | skip
  ihave Hs := (Entails.of_eq (take_step (famXL m c) 13 (by decide))) $$ [FxL]
  · iexact FxL
  icases Hs with ⟨Hxl, FxL⟩
  ihave #HIl := (Prep.inv_ls m KL c 1) $$ HIL
  iapply (Rounds.wp_copy_pointsTo 𝒱₀ ER (rd m) (c : Thread nD τ) none (src := lSrc c 13) (dst := vSlot 1) (sem := .dma (lsS 1)) (q := fullShare) (fs := xC m c) (fd := VC m c 11)
      (r := 6) (d := false) (κ := KL (c, 1)) (by rw [duties_ls m c 1 6 (by decide)]; exact Finset.mem_singleton_self _) () NV rfl (amount_ld m c 1 6 false)
      (by rw [payload_ls, vLand_pts m c 13 1 (VC m c 11)]; exact BI.Entails.refl _)) $$ [Hxl Hv1 Htl1_6]
  · isplitr; · iexact HIl
    isplitl [Hxl]; · iexact Hxl
    isplitl [Hv1]; · iexact Hv1
    isplitl [Htl1_6]; · iexact Htl1_6
    iexact HRl1
  iclear HIl
  iintro Hc_l1
  -- step 225: wait arg7[1] (arg0[(k0_off18 d0)], arg6[![1, 0, 0]])
  first | sl_exec | skip
  ihave #HIw := (Prep.inv_ls m KL c 1) $$ HIL
  iapply (Rounds.wp_wait_rest_token 𝒱₀ ER (rd m) (c : Thread nD τ) none (κ := KL (c, 1)) (sm := .dma (lsS 1))
      (wpE_waitDma2_eq 𝒱₀ (c : Thread nD τ) none Set.univ (src := lSrc c 13) (dst := vSlot 1)) (Set.mem_univ _) () (O := owedF c 53) (W := W79) (R := 6) (m := 0) (T := ∅)
      (by rw [Nat.zero_add]; exact (expect_ld m c 1 6 (by decide)).symm)) $$ [Hc_l1 HO Hat_l1]
  · isplitr; · iexact HIw
    isplitl [Hc_l1]; · iexact Hc_l1
    isplitl [HO]; · iexact HO
    isplitr
    · iapply (mayWait_of_above c (.dma (lsS 1)) _ (by rw [show lv ((c : Thread nD τ), SemLoc.dma (lsS 1)) () = 0 from lv_ls c 1]; exact above_owedF c 53 (by decide)))
      iexact Hlev
    iexact Hat_l1
  iclear HIw
  iclear HRl1
  iintro ⟨HO, Hat_l1, #HRl1, Hpay⟩
  ihave Hp := (Entails.of_eq (rest_ld1 m c 6 (by decide))) $$ Hpay
  icases Hp with ⟨Hv1, Hxlq⟩
  ihave AccXL := (acc_step (famXL m c) 13 (by decide)) $$ [AccXL Hxlq]
  · isplitl [AccXL]; · iexact AccXL
    iexact Hxlq
  ihave HOe : iprop(∃ W' : Waits sig Unit, owes (c : Thread nD τ) _ W') $$ [HO]
  · iexists _; iexact HO
  icases HOe with ⟨%W80, HO⟩
  -- step 226: copy src=arg6[![1, 0, 0]] dst=arg1[(k0_off5 d0 6656#32)] sem=arg7[3]
  first | sl_exec | skip
  ihave Hs := (Entails.of_eq (take_step (famOL0 m c) 13 (by decide))) $$ [FoL]
  · iexact FoL
  icases Hs with ⟨Hol, FoL⟩
  ihave #HIl := (Prep.inv_ls m KL c 3) $$ HIL
  iapply (Rounds.wp_copy_pointsTo 𝒱₀ ER (rd m) (c : Thread nD τ) none (src := vSlot 1) (dst := lDst c 13) (sem := .dma (lsS 3)) (q := fullShare) (fs := VC m c 13) (fd := o0 m c)
      (r := 6) (d := false) (κ := KL (c, 3)) (by rw [duties_ls m c 3 6 (by decide)]; exact Finset.mem_singleton_self _) () NO rfl (amount_st m c 1 6 false)
      (by rw [payload_ls, lLandV_pts m c 13 1 (o0 m c)]; exact BI.Entails.refl _)) $$ [Hv1 Hol Htl3_6]
  · isplitr; · iexact HIl
    isplitl [Hv1]; · iexact Hv1
    isplitl [Hol]; · iexact Hol
    isplitl [Htl3_6]; · iexact Htl3_6
    iexact HRl3
  iclear HIl
  iintro Hc_l3
  -- step 227: wait arg3[53] (arg0[(k0_off2 d0 3392#32)], arg1[(k0_off1 d0 3392#32)])
  first | sl_exec | skip
  ihave Hs := (Entails.of_eq (take_step (famCYR (F := F) c) 53 (by decide))) $$ [FcYR]
  · iexact FcYR
  icases Hs with ⟨Hc, FcYR⟩
  ihave Hs := (Entails.of_eq (take_step (famAtYR (F := F) c) 53 (by decide))) $$ [FatYR]
  · iexact FatYR
  icases Hs with ⟨Hat, FatYR⟩
  ihave #HIw := (Prep.inv_yr m K c 53) $$ HI
  iapply (Rounds.wp_wait_rest_token 𝒱₀ ER (rd m) (c : Thread nD τ) none (κ := K (c, some (1, 53))) (sm := .dma (yrS 53))
      (wpE_waitDma2_eq 𝒱₀ (c : Thread nD τ) none Set.univ (src := ySrc c 53) (dst := yDst c 53)) (Set.mem_univ _) () (O := owedF c 53) (W := W80) (R := 0) (m := 0) (T := ∅)
      (by rw [Nat.zero_add]; exact (expect_yr m c 53).symm)) $$ [Hc HO Hat]
  · isplitr; · iexact HIw
    isplitl [Hc]; · iexact Hc
    isplitl [HO]; · iexact HO
    isplitr
    · iapply (mayWait_of_above c (.dma (yrS 53)) _ (by rw [show lv ((c : Thread nD τ), SemLoc.dma (yrS 53)) () = 2 from lv_yr c 53]; exact above_owedF c 53 (by decide)))
      iexact Hlev
    iexact Hat
  iclear HIw
  iintro ⟨HO, Hat, -, Hpay⟩
  ihave HYk := (Entails.of_eq (rest_yr' m c 53)) $$ Hpay
  ihave #HIx := (Prep.inv_yr m K c 53) $$ HI
  imod (Rounds.cell_close ER (rd m) (Set.mem_univ (K (c, some (1, 53)))) (fun h => h) (R := 0 + 1) (duties_yr_later m c 53)) $$ [Hat] with Hz
  · isplitr; · iexact HIx
    iexact Hat
  iclear HIx
  ihave AccZyr := (acc_step (famZyr (F := F) c) 53 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W81, HO⟩
  -- step 228: send k0_dev120 src=arg1[(k0_off3 d0 3392#32)] dst=arg1[(k0_off3 d0 3392#32)] ssem=arg4[53] rsem=arg5[53]
  first | sl_exec | skip
  ihave Hs := (Entails.of_eq (take_step (famTFS (F := F) c) 53 (by decide))) $$ [FtFS]
  · iexact FtFS
  icases Hs with ⟨Ht1, FtFS⟩
  ihave Hs := (Entails.of_eq (take_step (famTFRP (F := F) c) 53 (by decide))) $$ [FtFRP]
  · iexact FtFRP
  icases Hs with ⟨Ht2, FtFRP⟩
  ihave Hs := (Entails.of_eq (take_step (famDF m c) 53 (by decide))) $$ [FdF]
  · iexact FdF
  icases Hs with ⟨Hd, FdF⟩
  ihave #HI1 := (Prep.inv_fs m K c 53) $$ HI
  ihave #HI2 := (Prep.inv_fr m K (xp c) 53) $$ HI
  ihave #HR1 := (Prep.reached_fs (F := F) c 53) $$ HR
  ihave #HR2 := (Prep.reached_fr (F := F) (xp c) 53) $$ HR
  iapply (wp_fsend m c _ (dev120_eq c) 53 (K (c, some (2, 53))) (K (xp c, some (3, 53))) (owedF c 53) (owedF c 54)
      (by rw [owedF_succ' c 53 (by decide)]; rfl) W81) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 53 (by decide)) $$ [AccCFS Hc]
  · isplitl [AccCFS]; · iexact AccCFS
    iexact Hc
  -- step 229: wait arg3[54] (arg0[(k0_off2 d0 3456#32)], arg1[(k0_off1 d0 3456#32)])
  first | sl_exec | skip
  ihave Hs := (Entails.of_eq (take_step (famCYR (F := F) c) 54 (by decide))) $$ [FcYR]
  · iexact FcYR
  icases Hs with ⟨Hc, FcYR⟩
  ihave Hs := (Entails.of_eq (take_step (famAtYR (F := F) c) 54 (by decide))) $$ [FatYR]
  · iexact FatYR
  icases Hs with ⟨Hat, FatYR⟩
  ihave #HIw := (Prep.inv_yr m K c 54) $$ HI
  iapply (Rounds.wp_wait_rest_token 𝒱₀ ER (rd m) (c : Thread nD τ) none (κ := K (c, some (1, 54))) (sm := .dma (yrS 54))
      (wpE_waitDma2_eq 𝒱₀ (c : Thread nD τ) none Set.univ (src := ySrc c 54) (dst := yDst c 54)) (Set.mem_univ _) () (O := owedF c 54) (W := W81) (R := 0) (m := 0) (T := ∅)
      (by rw [Nat.zero_add]; exact (expect_yr m c 54).symm)) $$ [Hc HO Hat]
  · isplitr; · iexact HIw
    isplitl [Hc]; · iexact Hc
    isplitl [HO]; · iexact HO
    isplitr
    · iapply (mayWait_of_above c (.dma (yrS 54)) _ (by rw [show lv ((c : Thread nD τ), SemLoc.dma (yrS 54)) () = 2 from lv_yr c 54]; exact above_owedF c 54 (by decide)))
      iexact Hlev
    iexact Hat
  iclear HIw
  iintro ⟨HO, Hat, -, Hpay⟩
  ihave HYk := (Entails.of_eq (rest_yr' m c 54)) $$ Hpay
  ihave #HIx := (Prep.inv_yr m K c 54) $$ HI
  imod (Rounds.cell_close ER (rd m) (Set.mem_univ (K (c, some (1, 54)))) (fun h => h) (R := 0 + 1) (duties_yr_later m c 54)) $$ [Hat] with Hz
  · isplitr; · iexact HIx
    iexact Hat
  iclear HIx
  ihave AccZyr := (acc_step (famZyr (F := F) c) 54 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W82, HO⟩
  -- step 230: send k0_dev121 src=arg1[(k0_off3 d0 3456#32)] dst=arg1[(k0_off3 d0 3456#32)] ssem=arg4[54] rsem=arg5[54]
  first | sl_exec | skip
  ihave Hs := (Entails.of_eq (take_step (famTFS (F := F) c) 54 (by decide))) $$ [FtFS]
  · iexact FtFS
  icases Hs with ⟨Ht1, FtFS⟩
  ihave Hs := (Entails.of_eq (take_step (famTFRP (F := F) c) 54 (by decide))) $$ [FtFRP]
  · iexact FtFRP
  icases Hs with ⟨Ht2, FtFRP⟩
  ihave Hs := (Entails.of_eq (take_step (famDF m c) 54 (by decide))) $$ [FdF]
  · iexact FdF
  icases Hs with ⟨Hd, FdF⟩
  ihave #HI1 := (Prep.inv_fs m K c 54) $$ HI
  ihave #HI2 := (Prep.inv_fr m K (xp c) 54) $$ HI
  ihave #HR1 := (Prep.reached_fs (F := F) c 54) $$ HR
  ihave #HR2 := (Prep.reached_fr (F := F) (xp c) 54) $$ HR
  iapply (wp_fsend m c _ (dev121_eq c) 54 (K (c, some (2, 54))) (K (xp c, some (3, 54))) (owedF c 54) (owedF c 55)
      (by rw [owedF_succ' c 54 (by decide)]; rfl) W82) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 54 (by decide)) $$ [AccCFS Hc]
  · isplitl [AccCFS]; · iexact AccCFS
    iexact Hc
  -- step 231: wait arg3[55] (arg0[(k0_off2 d0 3520#32)], arg1[(k0_off1 d0 3520#32)])
  first | sl_exec | skip
  ihave Hs := (Entails.of_eq (take_step (famCYR (F := F) c) 55 (by decide))) $$ [FcYR]
  · iexact FcYR
  icases Hs with ⟨Hc, FcYR⟩
  ihave Hs := (Entails.of_eq (take_step (famAtYR (F := F) c) 55 (by decide))) $$ [FatYR]
  · iexact FatYR
  icases Hs with ⟨Hat, FatYR⟩
  ihave #HIw := (Prep.inv_yr m K c 55) $$ HI
  iapply (Rounds.wp_wait_rest_token 𝒱₀ ER (rd m) (c : Thread nD τ) none (κ := K (c, some (1, 55))) (sm := .dma (yrS 55))
      (wpE_waitDma2_eq 𝒱₀ (c : Thread nD τ) none Set.univ (src := ySrc c 55) (dst := yDst c 55)) (Set.mem_univ _) () (O := owedF c 55) (W := W82) (R := 0) (m := 0) (T := ∅)
      (by rw [Nat.zero_add]; exact (expect_yr m c 55).symm)) $$ [Hc HO Hat]
  · isplitr; · iexact HIw
    isplitl [Hc]; · iexact Hc
    isplitl [HO]; · iexact HO
    isplitr
    · iapply (mayWait_of_above c (.dma (yrS 55)) _ (by rw [show lv ((c : Thread nD τ), SemLoc.dma (yrS 55)) () = 2 from lv_yr c 55]; exact above_owedF c 55 (by decide)))
      iexact Hlev
    iexact Hat
  iclear HIw
  iintro ⟨HO, Hat, -, Hpay⟩
  ihave HYk := (Entails.of_eq (rest_yr' m c 55)) $$ Hpay
  ihave #HIx := (Prep.inv_yr m K c 55) $$ HI
  imod (Rounds.cell_close ER (rd m) (Set.mem_univ (K (c, some (1, 55)))) (fun h => h) (R := 0 + 1) (duties_yr_later m c 55)) $$ [Hat] with Hz
  · isplitr; · iexact HIx
    iexact Hat
  iclear HIx
  ihave AccZyr := (acc_step (famZyr (F := F) c) 55 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W83, HO⟩
  -- step 232: send k0_dev122 src=arg1[(k0_off3 d0 3520#32)] dst=arg1[(k0_off3 d0 3520#32)] ssem=arg4[55] rsem=arg5[55]
  first | sl_exec | skip
  ihave Hs := (Entails.of_eq (take_step (famTFS (F := F) c) 55 (by decide))) $$ [FtFS]
  · iexact FtFS
  icases Hs with ⟨Ht1, FtFS⟩
  ihave Hs := (Entails.of_eq (take_step (famTFRP (F := F) c) 55 (by decide))) $$ [FtFRP]
  · iexact FtFRP
  icases Hs with ⟨Ht2, FtFRP⟩
  ihave Hs := (Entails.of_eq (take_step (famDF m c) 55 (by decide))) $$ [FdF]
  · iexact FdF
  icases Hs with ⟨Hd, FdF⟩
  ihave #HI1 := (Prep.inv_fs m K c 55) $$ HI
  ihave #HI2 := (Prep.inv_fr m K (xp c) 55) $$ HI
  ihave #HR1 := (Prep.reached_fs (F := F) c 55) $$ HR
  ihave #HR2 := (Prep.reached_fr (F := F) (xp c) 55) $$ HR
  iapply (wp_fsend m c _ (dev122_eq c) 55 (K (c, some (2, 55))) (K (xp c, some (3, 55))) (owedF c 55) (owedF c 56)
      (by rw [owedF_succ' c 55 (by decide)]; rfl) W83) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 55 (by decide)) $$ [AccCFS Hc]
  · isplitl [AccCFS]; · iexact AccCFS
    iexact Hc
  -- step 233: wait arg3[56] (arg0[(k0_off2 d0 3584#32)], arg1[(k0_off1 d0 3584#32)])
  first | sl_exec | skip
  ihave Hs := (Entails.of_eq (take_step (famCYR (F := F) c) 56 (by decide))) $$ [FcYR]
  · iexact FcYR
  icases Hs with ⟨Hc, FcYR⟩
  ihave Hs := (Entails.of_eq (take_step (famAtYR (F := F) c) 56 (by decide))) $$ [FatYR]
  · iexact FatYR
  icases Hs with ⟨Hat, FatYR⟩
  ihave #HIw := (Prep.inv_yr m K c 56) $$ HI
  iapply (Rounds.wp_wait_rest_token 𝒱₀ ER (rd m) (c : Thread nD τ) none (κ := K (c, some (1, 56))) (sm := .dma (yrS 56))
      (wpE_waitDma2_eq 𝒱₀ (c : Thread nD τ) none Set.univ (src := ySrc c 56) (dst := yDst c 56)) (Set.mem_univ _) () (O := owedF c 56) (W := W83) (R := 0) (m := 0) (T := ∅)
      (by rw [Nat.zero_add]; exact (expect_yr m c 56).symm)) $$ [Hc HO Hat]
  · isplitr; · iexact HIw
    isplitl [Hc]; · iexact Hc
    isplitl [HO]; · iexact HO
    isplitr
    · iapply (mayWait_of_above c (.dma (yrS 56)) _ (by rw [show lv ((c : Thread nD τ), SemLoc.dma (yrS 56)) () = 2 from lv_yr c 56]; exact above_owedF c 56 (by decide)))
      iexact Hlev
    iexact Hat
  iclear HIw
  iintro ⟨HO, Hat, -, Hpay⟩
  ihave HYk := (Entails.of_eq (rest_yr' m c 56)) $$ Hpay
  ihave #HIx := (Prep.inv_yr m K c 56) $$ HI
  imod (Rounds.cell_close ER (rd m) (Set.mem_univ (K (c, some (1, 56)))) (fun h => h) (R := 0 + 1) (duties_yr_later m c 56)) $$ [Hat] with Hz
  · isplitr; · iexact HIx
    iexact Hat
  iclear HIx
  ihave AccZyr := (acc_step (famZyr (F := F) c) 56 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W84, HO⟩
  -- step 234: send k0_dev123 src=arg1[(k0_off3 d0 3584#32)] dst=arg1[(k0_off3 d0 3584#32)] ssem=arg4[56] rsem=arg5[56]
  first | sl_exec | skip
  ihave Hs := (Entails.of_eq (take_step (famTFS (F := F) c) 56 (by decide))) $$ [FtFS]
  · iexact FtFS
  icases Hs with ⟨Ht1, FtFS⟩
  ihave Hs := (Entails.of_eq (take_step (famTFRP (F := F) c) 56 (by decide))) $$ [FtFRP]
  · iexact FtFRP
  icases Hs with ⟨Ht2, FtFRP⟩
  ihave Hs := (Entails.of_eq (take_step (famDF m c) 56 (by decide))) $$ [FdF]
  · iexact FdF
  icases Hs with ⟨Hd, FdF⟩
  ihave #HI1 := (Prep.inv_fs m K c 56) $$ HI
  ihave #HI2 := (Prep.inv_fr m K (xp c) 56) $$ HI
  ihave #HR1 := (Prep.reached_fs (F := F) c 56) $$ HR
  ihave #HR2 := (Prep.reached_fr (F := F) (xp c) 56) $$ HR
  iapply (wp_fsend m c _ (dev123_eq c) 56 (K (c, some (2, 56))) (K (xp c, some (3, 56))) (owedF c 56) (owedF c 57)
      (by rw [owedF_succ' c 56 (by decide)]; rfl) W84) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 56 (by decide)) $$ [AccCFS Hc]
  · isplitl [AccCFS]; · iexact AccCFS
    iexact Hc
  -- step 235: wait arg7[2] (arg6[![0, 0, 0]], arg1[(k0_off5 d0 6144#32)])
  first | sl_exec | skip
  ihave #HIw := (Prep.inv_ls m KL c 2) $$ HIL
  iapply (Rounds.wp_wait_rest_token 𝒱₀ ER (rd m) (c : Thread nD τ) none (κ := KL (c, 2)) (sm := .dma (lsS 2))
      (wpE_waitDma2_eq 𝒱₀ (c : Thread nD τ) none Set.univ (src := vSlot 0) (dst := lDst c 12)) (Set.mem_univ _) () (O := owedF c 57) (W := W84) (R := 6) (m := 0) (T := ∅)
      (by rw [Nat.zero_add]; exact (expect_st m c 0 6 (by decide)).symm)) $$ [Hc_l2 HO Hat_l2]
  · isplitr; · iexact HIw
    isplitl [Hc_l2]; · iexact Hc_l2
    isplitl [HO]; · iexact HO
    isplitr
    · iapply (mayWait_of_above c (.dma (lsS 2)) _ (by rw [show lv ((c : Thread nD τ), SemLoc.dma (lsS 2)) () = 0 from lv_ls c 2]; exact above_owedF c 57 (by decide)))
      iexact Hlev
    iexact Hat_l2
  iclear HIw
  iclear HRl2
  iintro ⟨HO, Hat_l2, #HRl2, Hpay⟩
  ihave Hp := (Entails.of_eq (rest_st0 m c 6 (by decide))) $$ Hpay
  icases Hp with ⟨Holq, Hv0⟩
  ihave AccOL := (acc_step (famOL m c) 12 (by decide)) $$ [AccOL Holq]
  · isplitl [AccOL]; · iexact AccOL
    iexact Holq
  ihave HOe : iprop(∃ W' : Waits sig Unit, owes (c : Thread nD τ) _ W') $$ [HO]
  · iexists _; iexact HO
  icases HOe with ⟨%W85, HO⟩
  -- step 236: copy src=arg0[(k0_off19 d0)] dst=arg6[![0, 0, 0]] sem=arg7[0]
  first | sl_exec | skip
  ihave Hs := (Entails.of_eq (take_step (famXL m c) 14 (by decide))) $$ [FxL]
  · iexact FxL
  icases Hs with ⟨Hxl, FxL⟩
  ihave #HIl := (Prep.inv_ls m KL c 0) $$ HIL
  iapply (Rounds.wp_copy_pointsTo 𝒱₀ ER (rd m) (c : Thread nD τ) none (src := lSrc c 14) (dst := vSlot 0) (sem := .dma (lsS 0)) (q := fullShare) (fs := xC m c) (fd := VC m c 12)
      (r := 7) (d := false) (κ := KL (c, 0)) (by rw [duties_ls m c 0 7 (by decide)]; exact Finset.mem_singleton_self _) () NV rfl (amount_ld m c 0 7 false)
      (by rw [payload_ls, vLand_pts m c 14 0 (VC m c 12)]; exact BI.Entails.refl _)) $$ [Hxl Hv0 Htl0_7]
  · isplitr; · iexact HIl
    isplitl [Hxl]; · iexact Hxl
    isplitl [Hv0]; · iexact Hv0
    isplitl [Htl0_7]; · iexact Htl0_7
    iexact HRl0
  iclear HIl
  iintro Hc_l0
  -- step 237: wait arg7[0] (arg0[(k0_off19 d0)], arg6[![0, 0, 0]])
  first | sl_exec | skip
  ihave #HIw := (Prep.inv_ls m KL c 0) $$ HIL
  iapply (Rounds.wp_wait_rest_token 𝒱₀ ER (rd m) (c : Thread nD τ) none (κ := KL (c, 0)) (sm := .dma (lsS 0))
      (wpE_waitDma2_eq 𝒱₀ (c : Thread nD τ) none Set.univ (src := lSrc c 14) (dst := vSlot 0)) (Set.mem_univ _) () (O := owedF c 57) (W := W85) (R := 7) (m := 0) (T := ∅)
      (by rw [Nat.zero_add]; exact (expect_ld m c 0 7 (by decide)).symm)) $$ [Hc_l0 HO Hat_l0]
  · isplitr; · iexact HIw
    isplitl [Hc_l0]; · iexact Hc_l0
    isplitl [HO]; · iexact HO
    isplitr
    · iapply (mayWait_of_above c (.dma (lsS 0)) _ (by rw [show lv ((c : Thread nD τ), SemLoc.dma (lsS 0)) () = 0 from lv_ls c 0]; exact above_owedF c 57 (by decide)))
      iexact Hlev
    iexact Hat_l0
  iclear HIw
  iclear HRl0
  iintro ⟨HO, Hat_l0, #HRl0, Hpay⟩
  ihave Hp := (Entails.of_eq (rest_ld0 m c 7 (by decide))) $$ Hpay
  icases Hp with ⟨Hv0, Hxlq⟩
  ihave AccXL := (acc_step (famXL m c) 14 (by decide)) $$ [AccXL Hxlq]
  · isplitl [AccXL]; · iexact AccXL
    iexact Hxlq
  ihave HOe : iprop(∃ W' : Waits sig Unit, owes (c : Thread nD τ) _ W') $$ [HO]
  · iexists _; iexact HO
  icases HOe with ⟨%W86, HO⟩
  -- step 238: copy src=arg6[![0, 0, 0]] dst=arg1[(k0_off5 d0 7168#32)] sem=arg7[2]
  first | sl_exec | skip
  ihave Hs := (Entails.of_eq (take_step (famOL0 m c) 14 (by decide))) $$ [FoL]
  · iexact FoL
  icases Hs with ⟨Hol, FoL⟩
  ihave #HIl := (Prep.inv_ls m KL c 2) $$ HIL
  iapply (Rounds.wp_copy_pointsTo 𝒱₀ ER (rd m) (c : Thread nD τ) none (src := vSlot 0) (dst := lDst c 14) (sem := .dma (lsS 2)) (q := fullShare) (fs := VC m c 14) (fd := o0 m c)
      (r := 7) (d := false) (κ := KL (c, 2)) (by rw [duties_ls m c 2 7 (by decide)]; exact Finset.mem_singleton_self _) () NO rfl (amount_st m c 0 7 false)
      (by rw [payload_ls, lLandV_pts m c 14 0 (o0 m c)]; exact BI.Entails.refl _)) $$ [Hv0 Hol Htl2_7]
  · isplitr; · iexact HIl
    isplitl [Hv0]; · iexact Hv0
    isplitl [Hol]; · iexact Hol
    isplitl [Htl2_7]; · iexact Htl2_7
    iexact HRl2
  iclear HIl
  iintro Hc_l2
  -- step 239: wait arg3[57] (arg0[(k0_off2 d0 3648#32)], arg1[(k0_off1 d0 3648#32)])
  first | sl_exec | skip
  ihave Hs := (Entails.of_eq (take_step (famCYR (F := F) c) 57 (by decide))) $$ [FcYR]
  · iexact FcYR
  icases Hs with ⟨Hc, FcYR⟩
  ihave Hs := (Entails.of_eq (take_step (famAtYR (F := F) c) 57 (by decide))) $$ [FatYR]
  · iexact FatYR
  icases Hs with ⟨Hat, FatYR⟩
  ihave #HIw := (Prep.inv_yr m K c 57) $$ HI
  iapply (Rounds.wp_wait_rest_token 𝒱₀ ER (rd m) (c : Thread nD τ) none (κ := K (c, some (1, 57))) (sm := .dma (yrS 57))
      (wpE_waitDma2_eq 𝒱₀ (c : Thread nD τ) none Set.univ (src := ySrc c 57) (dst := yDst c 57)) (Set.mem_univ _) () (O := owedF c 57) (W := W86) (R := 0) (m := 0) (T := ∅)
      (by rw [Nat.zero_add]; exact (expect_yr m c 57).symm)) $$ [Hc HO Hat]
  · isplitr; · iexact HIw
    isplitl [Hc]; · iexact Hc
    isplitl [HO]; · iexact HO
    isplitr
    · iapply (mayWait_of_above c (.dma (yrS 57)) _ (by rw [show lv ((c : Thread nD τ), SemLoc.dma (yrS 57)) () = 2 from lv_yr c 57]; exact above_owedF c 57 (by decide)))
      iexact Hlev
    iexact Hat
  iclear HIw
  iintro ⟨HO, Hat, -, Hpay⟩
  ihave HYk := (Entails.of_eq (rest_yr' m c 57)) $$ Hpay
  ihave #HIx := (Prep.inv_yr m K c 57) $$ HI
  imod (Rounds.cell_close ER (rd m) (Set.mem_univ (K (c, some (1, 57)))) (fun h => h) (R := 0 + 1) (duties_yr_later m c 57)) $$ [Hat] with Hz
  · isplitr; · iexact HIx
    iexact Hat
  iclear HIx
  ihave AccZyr := (acc_step (famZyr (F := F) c) 57 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W87, HO⟩
  -- step 240: send k0_dev124 src=arg1[(k0_off3 d0 3648#32)] dst=arg1[(k0_off3 d0 3648#32)] ssem=arg4[57] rsem=arg5[57]
  first | sl_exec | skip
  ihave Hs := (Entails.of_eq (take_step (famTFS (F := F) c) 57 (by decide))) $$ [FtFS]
  · iexact FtFS
  icases Hs with ⟨Ht1, FtFS⟩
  ihave Hs := (Entails.of_eq (take_step (famTFRP (F := F) c) 57 (by decide))) $$ [FtFRP]
  · iexact FtFRP
  icases Hs with ⟨Ht2, FtFRP⟩
  ihave Hs := (Entails.of_eq (take_step (famDF m c) 57 (by decide))) $$ [FdF]
  · iexact FdF
  icases Hs with ⟨Hd, FdF⟩
  ihave #HI1 := (Prep.inv_fs m K c 57) $$ HI
  ihave #HI2 := (Prep.inv_fr m K (xp c) 57) $$ HI
  ihave #HR1 := (Prep.reached_fs (F := F) c 57) $$ HR
  ihave #HR2 := (Prep.reached_fr (F := F) (xp c) 57) $$ HR
  iapply (wp_fsend m c _ (dev124_eq c) 57 (K (c, some (2, 57))) (K (xp c, some (3, 57))) (owedF c 57) (owedF c 58)
      (by rw [owedF_succ' c 57 (by decide)]; rfl) W87) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 57 (by decide)) $$ [AccCFS Hc]
  · isplitl [AccCFS]; · iexact AccCFS
    iexact Hc
  -- step 241: wait arg3[58] (arg0[(k0_off2 d0 3712#32)], arg1[(k0_off1 d0 3712#32)])
  first | sl_exec | skip
  ihave Hs := (Entails.of_eq (take_step (famCYR (F := F) c) 58 (by decide))) $$ [FcYR]
  · iexact FcYR
  icases Hs with ⟨Hc, FcYR⟩
  ihave Hs := (Entails.of_eq (take_step (famAtYR (F := F) c) 58 (by decide))) $$ [FatYR]
  · iexact FatYR
  icases Hs with ⟨Hat, FatYR⟩
  ihave #HIw := (Prep.inv_yr m K c 58) $$ HI
  iapply (Rounds.wp_wait_rest_token 𝒱₀ ER (rd m) (c : Thread nD τ) none (κ := K (c, some (1, 58))) (sm := .dma (yrS 58))
      (wpE_waitDma2_eq 𝒱₀ (c : Thread nD τ) none Set.univ (src := ySrc c 58) (dst := yDst c 58)) (Set.mem_univ _) () (O := owedF c 58) (W := W87) (R := 0) (m := 0) (T := ∅)
      (by rw [Nat.zero_add]; exact (expect_yr m c 58).symm)) $$ [Hc HO Hat]
  · isplitr; · iexact HIw
    isplitl [Hc]; · iexact Hc
    isplitl [HO]; · iexact HO
    isplitr
    · iapply (mayWait_of_above c (.dma (yrS 58)) _ (by rw [show lv ((c : Thread nD τ), SemLoc.dma (yrS 58)) () = 2 from lv_yr c 58]; exact above_owedF c 58 (by decide)))
      iexact Hlev
    iexact Hat
  iclear HIw
  iintro ⟨HO, Hat, -, Hpay⟩
  ihave HYk := (Entails.of_eq (rest_yr' m c 58)) $$ Hpay
  ihave #HIx := (Prep.inv_yr m K c 58) $$ HI
  imod (Rounds.cell_close ER (rd m) (Set.mem_univ (K (c, some (1, 58)))) (fun h => h) (R := 0 + 1) (duties_yr_later m c 58)) $$ [Hat] with Hz
  · isplitr; · iexact HIx
    iexact Hat
  iclear HIx
  ihave AccZyr := (acc_step (famZyr (F := F) c) 58 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W88, HO⟩
  -- step 242: send k0_dev125 src=arg1[(k0_off3 d0 3712#32)] dst=arg1[(k0_off3 d0 3712#32)] ssem=arg4[58] rsem=arg5[58]
  first | sl_exec | skip
  ihave Hs := (Entails.of_eq (take_step (famTFS (F := F) c) 58 (by decide))) $$ [FtFS]
  · iexact FtFS
  icases Hs with ⟨Ht1, FtFS⟩
  ihave Hs := (Entails.of_eq (take_step (famTFRP (F := F) c) 58 (by decide))) $$ [FtFRP]
  · iexact FtFRP
  icases Hs with ⟨Ht2, FtFRP⟩
  ihave Hs := (Entails.of_eq (take_step (famDF m c) 58 (by decide))) $$ [FdF]
  · iexact FdF
  icases Hs with ⟨Hd, FdF⟩
  ihave #HI1 := (Prep.inv_fs m K c 58) $$ HI
  ihave #HI2 := (Prep.inv_fr m K (xp c) 58) $$ HI
  ihave #HR1 := (Prep.reached_fs (F := F) c 58) $$ HR
  ihave #HR2 := (Prep.reached_fr (F := F) (xp c) 58) $$ HR
  iapply (wp_fsend m c _ (dev125_eq c) 58 (K (c, some (2, 58))) (K (xp c, some (3, 58))) (owedF c 58) (owedF c 59)
      (by rw [owedF_succ' c 58 (by decide)]; rfl) W88) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 58 (by decide)) $$ [AccCFS Hc]
  · isplitl [AccCFS]; · iexact AccCFS
    iexact Hc
  -- step 243: wait arg3[59] (arg0[(k0_off2 d0 3776#32)], arg1[(k0_off1 d0 3776#32)])
  first | sl_exec | skip
  ihave Hs := (Entails.of_eq (take_step (famCYR (F := F) c) 59 (by decide))) $$ [FcYR]
  · iexact FcYR
  icases Hs with ⟨Hc, FcYR⟩
  ihave Hs := (Entails.of_eq (take_step (famAtYR (F := F) c) 59 (by decide))) $$ [FatYR]
  · iexact FatYR
  icases Hs with ⟨Hat, FatYR⟩
  ihave #HIw := (Prep.inv_yr m K c 59) $$ HI
  iapply (Rounds.wp_wait_rest_token 𝒱₀ ER (rd m) (c : Thread nD τ) none (κ := K (c, some (1, 59))) (sm := .dma (yrS 59))
      (wpE_waitDma2_eq 𝒱₀ (c : Thread nD τ) none Set.univ (src := ySrc c 59) (dst := yDst c 59)) (Set.mem_univ _) () (O := owedF c 59) (W := W88) (R := 0) (m := 0) (T := ∅)
      (by rw [Nat.zero_add]; exact (expect_yr m c 59).symm)) $$ [Hc HO Hat]
  · isplitr; · iexact HIw
    isplitl [Hc]; · iexact Hc
    isplitl [HO]; · iexact HO
    isplitr
    · iapply (mayWait_of_above c (.dma (yrS 59)) _ (by rw [show lv ((c : Thread nD τ), SemLoc.dma (yrS 59)) () = 2 from lv_yr c 59]; exact above_owedF c 59 (by decide)))
      iexact Hlev
    iexact Hat
  iclear HIw
  iintro ⟨HO, Hat, -, Hpay⟩
  ihave HYk := (Entails.of_eq (rest_yr' m c 59)) $$ Hpay
  ihave #HIx := (Prep.inv_yr m K c 59) $$ HI
  imod (Rounds.cell_close ER (rd m) (Set.mem_univ (K (c, some (1, 59)))) (fun h => h) (R := 0 + 1) (duties_yr_later m c 59)) $$ [Hat] with Hz
  · isplitr; · iexact HIx
    iexact Hat
  iclear HIx
  ihave AccZyr := (acc_step (famZyr (F := F) c) 59 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W89, HO⟩
  -- step 244: send k0_dev126 src=arg1[(k0_off3 d0 3776#32)] dst=arg1[(k0_off3 d0 3776#32)] ssem=arg4[59] rsem=arg5[59]
  first | sl_exec | skip
  ihave Hs := (Entails.of_eq (take_step (famTFS (F := F) c) 59 (by decide))) $$ [FtFS]
  · iexact FtFS
  icases Hs with ⟨Ht1, FtFS⟩
  ihave Hs := (Entails.of_eq (take_step (famTFRP (F := F) c) 59 (by decide))) $$ [FtFRP]
  · iexact FtFRP
  icases Hs with ⟨Ht2, FtFRP⟩
  ihave Hs := (Entails.of_eq (take_step (famDF m c) 59 (by decide))) $$ [FdF]
  · iexact FdF
  icases Hs with ⟨Hd, FdF⟩
  ihave #HI1 := (Prep.inv_fs m K c 59) $$ HI
  ihave #HI2 := (Prep.inv_fr m K (xp c) 59) $$ HI
  ihave #HR1 := (Prep.reached_fs (F := F) c 59) $$ HR
  ihave #HR2 := (Prep.reached_fr (F := F) (xp c) 59) $$ HR
  iapply (wp_fsend m c _ (dev126_eq c) 59 (K (c, some (2, 59))) (K (xp c, some (3, 59))) (owedF c 59) (owedF c 60)
      (by rw [owedF_succ' c 59 (by decide)]; rfl) W89) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 59 (by decide)) $$ [AccCFS Hc]
  · isplitl [AccCFS]; · iexact AccCFS
    iexact Hc
  -- step 245: wait arg3[60] (arg0[(k0_off2 d0 3840#32)], arg1[(k0_off1 d0 3840#32)])
  first | sl_exec | skip
  ihave Hs := (Entails.of_eq (take_step (famCYR (F := F) c) 60 (by decide))) $$ [FcYR]
  · iexact FcYR
  icases Hs with ⟨Hc, FcYR⟩
  ihave Hs := (Entails.of_eq (take_step (famAtYR (F := F) c) 60 (by decide))) $$ [FatYR]
  · iexact FatYR
  icases Hs with ⟨Hat, FatYR⟩
  ihave #HIw := (Prep.inv_yr m K c 60) $$ HI
  iapply (Rounds.wp_wait_rest_token 𝒱₀ ER (rd m) (c : Thread nD τ) none (κ := K (c, some (1, 60))) (sm := .dma (yrS 60))
      (wpE_waitDma2_eq 𝒱₀ (c : Thread nD τ) none Set.univ (src := ySrc c 60) (dst := yDst c 60)) (Set.mem_univ _) () (O := owedF c 60) (W := W89) (R := 0) (m := 0) (T := ∅)
      (by rw [Nat.zero_add]; exact (expect_yr m c 60).symm)) $$ [Hc HO Hat]
  · isplitr; · iexact HIw
    isplitl [Hc]; · iexact Hc
    isplitl [HO]; · iexact HO
    isplitr
    · iapply (mayWait_of_above c (.dma (yrS 60)) _ (by rw [show lv ((c : Thread nD τ), SemLoc.dma (yrS 60)) () = 2 from lv_yr c 60]; exact above_owedF c 60 (by decide)))
      iexact Hlev
    iexact Hat
  iclear HIw
  iintro ⟨HO, Hat, -, Hpay⟩
  ihave HYk := (Entails.of_eq (rest_yr' m c 60)) $$ Hpay
  ihave #HIx := (Prep.inv_yr m K c 60) $$ HI
  imod (Rounds.cell_close ER (rd m) (Set.mem_univ (K (c, some (1, 60)))) (fun h => h) (R := 0 + 1) (duties_yr_later m c 60)) $$ [Hat] with Hz
  · isplitr; · iexact HIx
    iexact Hat
  iclear HIx
  ihave AccZyr := (acc_step (famZyr (F := F) c) 60 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W90, HO⟩
  -- step 246: send k0_dev127 src=arg1[(k0_off3 d0 3840#32)] dst=arg1[(k0_off3 d0 3840#32)] ssem=arg4[60] rsem=arg5[60]
  first | sl_exec | skip
  ihave Hs := (Entails.of_eq (take_step (famTFS (F := F) c) 60 (by decide))) $$ [FtFS]
  · iexact FtFS
  icases Hs with ⟨Ht1, FtFS⟩
  ihave Hs := (Entails.of_eq (take_step (famTFRP (F := F) c) 60 (by decide))) $$ [FtFRP]
  · iexact FtFRP
  icases Hs with ⟨Ht2, FtFRP⟩
  ihave Hs := (Entails.of_eq (take_step (famDF m c) 60 (by decide))) $$ [FdF]
  · iexact FdF
  icases Hs with ⟨Hd, FdF⟩
  ihave #HI1 := (Prep.inv_fs m K c 60) $$ HI
  ihave #HI2 := (Prep.inv_fr m K (xp c) 60) $$ HI
  ihave #HR1 := (Prep.reached_fs (F := F) c 60) $$ HR
  ihave #HR2 := (Prep.reached_fr (F := F) (xp c) 60) $$ HR
  iapply (wp_fsend m c _ (dev127_eq c) 60 (K (c, some (2, 60))) (K (xp c, some (3, 60))) (owedF c 60) (owedF c 61)
      (by rw [owedF_succ' c 60 (by decide)]; rfl) W90) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 60 (by decide)) $$ [AccCFS Hc]
  · isplitl [AccCFS]; · iexact AccCFS
    iexact Hc
  -- step 247: wait arg7[3] (arg6[![1, 0, 0]], arg1[(k0_off5 d0 6656#32)])
  first | sl_exec | skip
  ihave #HIw := (Prep.inv_ls m KL c 3) $$ HIL
  iapply (Rounds.wp_wait_rest_token 𝒱₀ ER (rd m) (c : Thread nD τ) none (κ := KL (c, 3)) (sm := .dma (lsS 3))
      (wpE_waitDma2_eq 𝒱₀ (c : Thread nD τ) none Set.univ (src := vSlot 1) (dst := lDst c 13)) (Set.mem_univ _) () (O := owedF c 61) (W := W90) (R := 6) (m := 0) (T := ∅)
      (by rw [Nat.zero_add]; exact (expect_st m c 1 6 (by decide)).symm)) $$ [Hc_l3 HO Hat_l3]
  · isplitr; · iexact HIw
    isplitl [Hc_l3]; · iexact Hc_l3
    isplitl [HO]; · iexact HO
    isplitr
    · iapply (mayWait_of_above c (.dma (lsS 3)) _ (by rw [show lv ((c : Thread nD τ), SemLoc.dma (lsS 3)) () = 0 from lv_ls c 3]; exact above_owedF c 61 (by decide)))
      iexact Hlev
    iexact Hat_l3
  iclear HIw
  iclear HRl3
  iintro ⟨HO, Hat_l3, #HRl3, Hpay⟩
  ihave Hp := (Entails.of_eq (rest_st1 m c 6 (by decide))) $$ Hpay
  icases Hp with ⟨Holq, Hv1⟩
  ihave AccOL := (acc_step (famOL m c) 13 (by decide)) $$ [AccOL Holq]
  · isplitl [AccOL]; · iexact AccOL
    iexact Holq
  ihave HOe : iprop(∃ W' : Waits sig Unit, owes (c : Thread nD τ) _ W') $$ [HO]
  · iexists _; iexact HO
  icases HOe with ⟨%W91, HO⟩
  -- step 248: copy src=arg0[(k0_off20 d0)] dst=arg6[![1, 0, 0]] sem=arg7[1]
  first | sl_exec | skip
  ihave Hs := (Entails.of_eq (take_step (famXL m c) 15 (by decide))) $$ [FxL]
  · iexact FxL
  icases Hs with ⟨Hxl, FxL⟩
  ihave #HIl := (Prep.inv_ls m KL c 1) $$ HIL
  iapply (Rounds.wp_copy_pointsTo 𝒱₀ ER (rd m) (c : Thread nD τ) none (src := lSrc c 15) (dst := vSlot 1) (sem := .dma (lsS 1)) (q := fullShare) (fs := xC m c) (fd := VC m c 13)
      (r := 7) (d := false) (κ := KL (c, 1)) (by rw [duties_ls m c 1 7 (by decide)]; exact Finset.mem_singleton_self _) () NV rfl (amount_ld m c 1 7 false)
      (by rw [payload_ls, vLand_pts m c 15 1 (VC m c 13)]; exact BI.Entails.refl _)) $$ [Hxl Hv1 Htl1_7]
  · isplitr; · iexact HIl
    isplitl [Hxl]; · iexact Hxl
    isplitl [Hv1]; · iexact Hv1
    isplitl [Htl1_7]; · iexact Htl1_7
    iexact HRl1
  iclear HIl
  iintro Hc_l1
  -- step 249: wait arg7[1] (arg0[(k0_off20 d0)], arg6[![1, 0, 0]])
  first | sl_exec | skip
  ihave #HIw := (Prep.inv_ls m KL c 1) $$ HIL
  iapply (Rounds.wp_wait_rest_token 𝒱₀ ER (rd m) (c : Thread nD τ) none (κ := KL (c, 1)) (sm := .dma (lsS 1))
      (wpE_waitDma2_eq 𝒱₀ (c : Thread nD τ) none Set.univ (src := lSrc c 15) (dst := vSlot 1)) (Set.mem_univ _) () (O := owedF c 61) (W := W91) (R := 7) (m := 0) (T := ∅)
      (by rw [Nat.zero_add]; exact (expect_ld m c 1 7 (by decide)).symm)) $$ [Hc_l1 HO Hat_l1]
  · isplitr; · iexact HIw
    isplitl [Hc_l1]; · iexact Hc_l1
    isplitl [HO]; · iexact HO
    isplitr
    · iapply (mayWait_of_above c (.dma (lsS 1)) _ (by rw [show lv ((c : Thread nD τ), SemLoc.dma (lsS 1)) () = 0 from lv_ls c 1]; exact above_owedF c 61 (by decide)))
      iexact Hlev
    iexact Hat_l1
  iclear HIw
  iclear HRl1
  iintro ⟨HO, Hat_l1, #HRl1, Hpay⟩
  ihave Hp := (Entails.of_eq (rest_ld1 m c 7 (by decide))) $$ Hpay
  icases Hp with ⟨Hv1, Hxlq⟩
  ihave AccXL := (acc_step (famXL m c) 15 (by decide)) $$ [AccXL Hxlq]
  · isplitl [AccXL]; · iexact AccXL
    iexact Hxlq
  ihave HOe : iprop(∃ W' : Waits sig Unit, owes (c : Thread nD τ) _ W') $$ [HO]
  · iexists _; iexact HO
  icases HOe with ⟨%W92, HO⟩
  -- step 250: copy src=arg6[![1, 0, 0]] dst=arg1[(k0_off5 d0 7680#32)] sem=arg7[3]
  first | sl_exec | skip
  ihave Hs := (Entails.of_eq (take_step (famOL0 m c) 15 (by decide))) $$ [FoL]
  · iexact FoL
  icases Hs with ⟨Hol, FoL⟩
  ihave #HIl := (Prep.inv_ls m KL c 3) $$ HIL
  iapply (Rounds.wp_copy_pointsTo 𝒱₀ ER (rd m) (c : Thread nD τ) none (src := vSlot 1) (dst := lDst c 15) (sem := .dma (lsS 3)) (q := fullShare) (fs := VC m c 15) (fd := o0 m c)
      (r := 7) (d := false) (κ := KL (c, 3)) (by rw [duties_ls m c 3 7 (by decide)]; exact Finset.mem_singleton_self _) () NO rfl (amount_st m c 1 7 false)
      (by rw [payload_ls, lLandV_pts m c 15 1 (o0 m c)]; exact BI.Entails.refl _)) $$ [Hv1 Hol Htl3_7]
  · isplitr; · iexact HIl
    isplitl [Hv1]; · iexact Hv1
    isplitl [Hol]; · iexact Hol
    isplitl [Htl3_7]; · iexact Htl3_7
    iexact HRl3
  iclear HIl
  iintro Hc_l3
  -- step 251: wait arg3[61] (arg0[(k0_off2 d0 3904#32)], arg1[(k0_off1 d0 3904#32)])
  first | sl_exec | skip
  ihave Hs := (Entails.of_eq (take_step (famCYR (F := F) c) 61 (by decide))) $$ [FcYR]
  · iexact FcYR
  icases Hs with ⟨Hc, FcYR⟩
  ihave Hs := (Entails.of_eq (take_step (famAtYR (F := F) c) 61 (by decide))) $$ [FatYR]
  · iexact FatYR
  icases Hs with ⟨Hat, FatYR⟩
  ihave #HIw := (Prep.inv_yr m K c 61) $$ HI
  iapply (Rounds.wp_wait_rest_token 𝒱₀ ER (rd m) (c : Thread nD τ) none (κ := K (c, some (1, 61))) (sm := .dma (yrS 61))
      (wpE_waitDma2_eq 𝒱₀ (c : Thread nD τ) none Set.univ (src := ySrc c 61) (dst := yDst c 61)) (Set.mem_univ _) () (O := owedF c 61) (W := W92) (R := 0) (m := 0) (T := ∅)
      (by rw [Nat.zero_add]; exact (expect_yr m c 61).symm)) $$ [Hc HO Hat]
  · isplitr; · iexact HIw
    isplitl [Hc]; · iexact Hc
    isplitl [HO]; · iexact HO
    isplitr
    · iapply (mayWait_of_above c (.dma (yrS 61)) _ (by rw [show lv ((c : Thread nD τ), SemLoc.dma (yrS 61)) () = 2 from lv_yr c 61]; exact above_owedF c 61 (by decide)))
      iexact Hlev
    iexact Hat
  iclear HIw
  iintro ⟨HO, Hat, -, Hpay⟩
  ihave HYk := (Entails.of_eq (rest_yr' m c 61)) $$ Hpay
  ihave #HIx := (Prep.inv_yr m K c 61) $$ HI
  imod (Rounds.cell_close ER (rd m) (Set.mem_univ (K (c, some (1, 61)))) (fun h => h) (R := 0 + 1) (duties_yr_later m c 61)) $$ [Hat] with Hz
  · isplitr; · iexact HIx
    iexact Hat
  iclear HIx
  ihave AccZyr := (acc_step (famZyr (F := F) c) 61 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W93, HO⟩
  -- step 252: send k0_dev128 src=arg1[(k0_off3 d0 3904#32)] dst=arg1[(k0_off3 d0 3904#32)] ssem=arg4[61] rsem=arg5[61]
  first | sl_exec | skip
  ihave Hs := (Entails.of_eq (take_step (famTFS (F := F) c) 61 (by decide))) $$ [FtFS]
  · iexact FtFS
  icases Hs with ⟨Ht1, FtFS⟩
  ihave Hs := (Entails.of_eq (take_step (famTFRP (F := F) c) 61 (by decide))) $$ [FtFRP]
  · iexact FtFRP
  icases Hs with ⟨Ht2, FtFRP⟩
  ihave Hs := (Entails.of_eq (take_step (famDF m c) 61 (by decide))) $$ [FdF]
  · iexact FdF
  icases Hs with ⟨Hd, FdF⟩
  ihave #HI1 := (Prep.inv_fs m K c 61) $$ HI
  ihave #HI2 := (Prep.inv_fr m K (xp c) 61) $$ HI
  ihave #HR1 := (Prep.reached_fs (F := F) c 61) $$ HR
  ihave #HR2 := (Prep.reached_fr (F := F) (xp c) 61) $$ HR
  iapply (wp_fsend m c _ (dev128_eq c) 61 (K (c, some (2, 61))) (K (xp c, some (3, 61))) (owedF c 61) (owedF c 62)
      (by rw [owedF_succ' c 61 (by decide)]; rfl) W93) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 61 (by decide)) $$ [AccCFS Hc]
  · isplitl [AccCFS]; · iexact AccCFS
    iexact Hc
  -- step 253: wait arg3[62] (arg0[(k0_off2 d0 3968#32)], arg1[(k0_off1 d0 3968#32)])
  first | sl_exec | skip
  ihave Hs := (Entails.of_eq (take_step (famCYR (F := F) c) 62 (by decide))) $$ [FcYR]
  · iexact FcYR
  icases Hs with ⟨Hc, FcYR⟩
  ihave Hs := (Entails.of_eq (take_step (famAtYR (F := F) c) 62 (by decide))) $$ [FatYR]
  · iexact FatYR
  icases Hs with ⟨Hat, FatYR⟩
  ihave #HIw := (Prep.inv_yr m K c 62) $$ HI
  iapply (Rounds.wp_wait_rest_token 𝒱₀ ER (rd m) (c : Thread nD τ) none (κ := K (c, some (1, 62))) (sm := .dma (yrS 62))
      (wpE_waitDma2_eq 𝒱₀ (c : Thread nD τ) none Set.univ (src := ySrc c 62) (dst := yDst c 62)) (Set.mem_univ _) () (O := owedF c 62) (W := W93) (R := 0) (m := 0) (T := ∅)
      (by rw [Nat.zero_add]; exact (expect_yr m c 62).symm)) $$ [Hc HO Hat]
  · isplitr; · iexact HIw
    isplitl [Hc]; · iexact Hc
    isplitl [HO]; · iexact HO
    isplitr
    · iapply (mayWait_of_above c (.dma (yrS 62)) _ (by rw [show lv ((c : Thread nD τ), SemLoc.dma (yrS 62)) () = 2 from lv_yr c 62]; exact above_owedF c 62 (by decide)))
      iexact Hlev
    iexact Hat
  iclear HIw
  iintro ⟨HO, Hat, -, Hpay⟩
  ihave HYk := (Entails.of_eq (rest_yr' m c 62)) $$ Hpay
  ihave #HIx := (Prep.inv_yr m K c 62) $$ HI
  imod (Rounds.cell_close ER (rd m) (Set.mem_univ (K (c, some (1, 62)))) (fun h => h) (R := 0 + 1) (duties_yr_later m c 62)) $$ [Hat] with Hz
  · isplitr; · iexact HIx
    iexact Hat
  iclear HIx
  ihave AccZyr := (acc_step (famZyr (F := F) c) 62 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W94, HO⟩
  -- step 254: send k0_dev129 src=arg1[(k0_off3 d0 3968#32)] dst=arg1[(k0_off3 d0 3968#32)] ssem=arg4[62] rsem=arg5[62]
  first | sl_exec | skip
  ihave Hs := (Entails.of_eq (take_step (famTFS (F := F) c) 62 (by decide))) $$ [FtFS]
  · iexact FtFS
  icases Hs with ⟨Ht1, FtFS⟩
  ihave Hs := (Entails.of_eq (take_step (famTFRP (F := F) c) 62 (by decide))) $$ [FtFRP]
  · iexact FtFRP
  icases Hs with ⟨Ht2, FtFRP⟩
  ihave Hs := (Entails.of_eq (take_step (famDF m c) 62 (by decide))) $$ [FdF]
  · iexact FdF
  icases Hs with ⟨Hd, FdF⟩
  ihave #HI1 := (Prep.inv_fs m K c 62) $$ HI
  ihave #HI2 := (Prep.inv_fr m K (xp c) 62) $$ HI
  ihave #HR1 := (Prep.reached_fs (F := F) c 62) $$ HR
  ihave #HR2 := (Prep.reached_fr (F := F) (xp c) 62) $$ HR
  iapply (wp_fsend m c _ (dev129_eq c) 62 (K (c, some (2, 62))) (K (xp c, some (3, 62))) (owedF c 62) (owedF c 63)
      (by rw [owedF_succ' c 62 (by decide)]; rfl) W94) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 62 (by decide)) $$ [AccCFS Hc]
  · isplitl [AccCFS]; · iexact AccCFS
    iexact Hc
  -- step 255: wait arg3[63] (arg0[(k0_off2 d0 4032#32)], arg1[(k0_off1 d0 4032#32)])
  first | sl_exec | skip
  ihave Hs := (Entails.of_eq (take_step (famCYR (F := F) c) 63 (by decide))) $$ [FcYR]
  · iexact FcYR
  icases Hs with ⟨Hc, FcYR⟩
  ihave Hs := (Entails.of_eq (take_step (famAtYR (F := F) c) 63 (by decide))) $$ [FatYR]
  · iexact FatYR
  icases Hs with ⟨Hat, FatYR⟩
  ihave #HIw := (Prep.inv_yr m K c 63) $$ HI
  iapply (Rounds.wp_wait_rest_token 𝒱₀ ER (rd m) (c : Thread nD τ) none (κ := K (c, some (1, 63))) (sm := .dma (yrS 63))
      (wpE_waitDma2_eq 𝒱₀ (c : Thread nD τ) none Set.univ (src := ySrc c 63) (dst := yDst c 63)) (Set.mem_univ _) () (O := owedF c 63) (W := W94) (R := 0) (m := 0) (T := ∅)
      (by rw [Nat.zero_add]; exact (expect_yr m c 63).symm)) $$ [Hc HO Hat]
  · isplitr; · iexact HIw
    isplitl [Hc]; · iexact Hc
    isplitl [HO]; · iexact HO
    isplitr
    · iapply (mayWait_of_above c (.dma (yrS 63)) _ (by rw [show lv ((c : Thread nD τ), SemLoc.dma (yrS 63)) () = 2 from lv_yr c 63]; exact above_owedF c 63 (by decide)))
      iexact Hlev
    iexact Hat
  iclear HIw
  iintro ⟨HO, Hat, -, Hpay⟩
  ihave HYk := (Entails.of_eq (rest_yr' m c 63)) $$ Hpay
  ihave #HIx := (Prep.inv_yr m K c 63) $$ HI
  imod (Rounds.cell_close ER (rd m) (Set.mem_univ (K (c, some (1, 63)))) (fun h => h) (R := 0 + 1) (duties_yr_later m c 63)) $$ [Hat] with Hz
  · isplitr; · iexact HIx
    iexact Hat
  iclear HIx
  ihave AccZyr := (acc_step (famZyr (F := F) c) 63 (by decide)) $$ [AccZyr Hz]
  · isplitl [AccZyr]; · iexact AccZyr
    iexact Hz
  ihave HOe : iprop(∃ W' : Waits sig Unit, owes (c : Thread nD τ) _ W') $$ [HO]
  · iexists _; iexact HO
  icases HOe with ⟨%W95, HO⟩
  -- step 256: send k0_dev130 src=arg1[(k0_off3 d0 4032#32)] dst=arg1[(k0_off3 d0 4032#32)] ssem=arg4[63] rsem=arg5[63]
  first | sl_exec | skip
  ihave Hs := (Entails.of_eq (take_step (famTFS (F := F) c) 63 (by decide))) $$ [FtFS]
  · iexact FtFS
  icases Hs with ⟨Ht1, FtFS⟩
  ihave Hs := (Entails.of_eq (take_step (famTFRP (F := F) c) 63 (by decide))) $$ [FtFRP]
  · iexact FtFRP
  icases Hs with ⟨Ht2, FtFRP⟩
  ihave Hs := (Entails.of_eq (take_step (famDF m c) 63 (by decide))) $$ [FdF]
  · iexact FdF
  icases Hs with ⟨Hd, FdF⟩
  ihave #HI1 := (Prep.inv_fs m K c 63) $$ HI
  ihave #HI2 := (Prep.inv_fr m K (xp c) 63) $$ HI
  ihave #HR1 := (Prep.reached_fs (F := F) c 63) $$ HR
  ihave #HR2 := (Prep.reached_fr (F := F) (xp c) 63) $$ HR
  iapply (wp_fsend m c _ (dev130_eq c) 63 (K (c, some (2, 63))) (K (xp c, some (3, 63))) (owedF c 63) (owedF c 64)
      (by rw [owedF_succ' c 63 (by decide)]; rfl) W95) $$ [HYk Hd HO Ht1 Ht2]
  · isplitr; · iexact HI1
    isplitr; · iexact HI2
    isplitl [HYk]; · iexact HYk
    isplitl [Hd]; · iexact Hd
    isplitl [HO]; · iexact HO
    isplitl [Ht1]; · iexact Ht1
    isplitr; · iexact HR1
    isplitl [Ht2]; · iexact Ht2
    iexact HR2
  iclear HI1; iclear HI2; iclear HR1; iclear HR2
  iintro ⟨Hc, HO⟩
  ihave AccCFS := (acc_step (famCFS (F := F) c) 63 (by decide)) $$ [AccCFS Hc]
  · isplitl [AccCFS]; · iexact AccCFS
    iexact Hc
  ihave HO := (Entails.of_eq (congrArg (fun O => owes (c : Thread nD τ) O W95) (owedF_top c))) $$ HO
  -- step 257: wait arg2[0] (arg1[(k0_off1 d0 0#32)], arg0[(k0_off2 d0 0#32)])
  first | sl_exec | skip
  ihave FcYS := (Entails.of_eq (acc_full (famCYS (F := F) c))) $$ [AccCYS]
  · iexact AccCYS
  ihave FcFS := (Entails.of_eq (acc_full (famCFS (F := F) c))) $$ [AccCFS]
  · iexact AccCFS
  ihave Hs := (Entails.of_eq (take_zero (famCYS (F := F) c) (by decide))) $$ [FcYS]
  · iexact FcYS
  icases Hs with ⟨Hc, FcYS⟩
  ihave Hs := (Entails.of_eq (take_zero (famAtYS (F := F) c) (by decide))) $$ [FatYS]
  · iexact FatYS
  icases Hs with ⟨Hat, FatYS⟩
  ihave #HIw := (Prep.inv_ys m K c 0) $$ HI
  iapply (Rounds.wp_wait_rest_token 𝒱₀ ER (rd m) (c : Thread nD τ) none (κ := K (c, some (0, 0))) (sm := .dma (ysS 0))
      (wpE_waitDma2_eq 𝒱₀ (c : Thread nD τ) none Set.univ (src := yDst c 0) (dst := ySrc c 0)) (Set.mem_univ _) () (O := 0) (W := W95) (R := 0) (m := 0) (T := ∅)
      (by rw [Nat.zero_add]; exact (expect_ys m c 0).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 0)) $$ Hpay
  ihave AccXY := (acc_one (famXY m c) (by decide)) $$ [Hxy]
  · iexact Hxy
  ihave #HIx := (Prep.inv_ys m K c 0) $$ HI
  imod (Rounds.cell_close ER (rd m) (Set.mem_univ (K (c, some (0, 0)))) (fun h => h) (R := 0 + 1) (duties_ys_later m c 0)) $$ [Hat] with Hz
  · isplitr; · iexact HIx
    iexact Hat
  iclear HIx
  ihave AccZys := (acc_one (famZys (F := F) c) (by decide)) $$ [Hz]
  · iexact Hz
  ihave HOe : iprop(∃ W' : Waits sig Unit, owes (c : Thread nD τ) _ W') $$ [HO]
  · iexists _; iexact HO
  icases HOe with ⟨%W96, HO⟩
  -- step 258: wait arg4[0] (arg1[(k0_off3 d0 0#32)], arg1[(k0_off3 d0 0#32)])
  first | sl_exec | skip
  ihave Hs := (Entails.of_eq (take_zero (famCFS (F := F) c) (by decide))) $$ [FcFS]
  · iexact FcFS
  icases Hs with ⟨Hc, FcFS⟩
  ihave Hs := (Entails.of_eq (take_zero (famAtFS (F := F) c) (by decide))) $$ [FatFS]
  · iexact FatFS
  icases Hs with ⟨Hat, FatFS⟩
  ihave #HIw := (Prep.inv_fs m K c 0) $$ HI
  iapply (Rounds.wp_wait_rest_token 𝒱₀ ER (rd m) (c : Thread nD τ) none (κ := K (c, some (2, 0))) (sm := .dma (fsS 0))
      (wpE_waitDma2_eq 𝒱₀ (c : Thread nD τ) none Set.univ (src := fSl c 0) (dst := fSl c 0)) (Set.mem_univ _) () (O := 0) (W := W96) (R := 0) (m := 0) (T := ∅)
      (by rw [Nat.zero_add]; exact (expect_fs m c 0).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 0)) $$ Hpay
  ihave AccY := (acc_one (famY m c) (by decide)) $$ [HYk]
  · iexact HYk
  ihave #HIx := (Prep.inv_fs m K c 0) $$ HI
  imod (Rounds.cell_close ER (rd m) (Set.mem_univ (K (c, some (2, 0)))) (fun h => h) (R := 0 + 1) (duties_fs_later m c 0)) $$ [Hat] with Hz
  · isplitr; · iexact HIx
    iexact Hat
  iclear HIx
  ihave AccZfs := (acc_one (famZfs (F := F) c) (by decide)) $$ [Hz]
  · iexact Hz
  ihave HOe : iprop(∃ W' : Waits sig Unit, owes (c : Thread nD τ) _ W') $$ [HO]
  · iexists _; iexact HO
  icases HOe with ⟨%W97, HO⟩
  -- step 259: wait arg5[0] (arg1[(k0_off3 d0 0#32)], arg1[(k0_off3 d0 0#32)])
  first | sl_exec | skip
  ihave Hs := (Entails.of_eq (take_zero (famCFR (F := F) c) (by decide))) $$ [FcFR]
  · iexact FcFR
  icases Hs with ⟨Hc, FcFR⟩
  ihave Hs := (Entails.of_eq (take_zero (famAtFR (F := F) c) (by decide))) $$ [FatFR]
  · iexact FatFR
  icases Hs with ⟨Hat, FatFR⟩
  ihave #HIw := (Prep.inv_fr m K c 0) $$ HI
  iapply (Rounds.wp_wait_rest_token 𝒱₀ ER (rd m) (c : Thread nD τ) none (κ := K (c, some (3, 0))) (sm := .dma (frS 0))
      (wpE_waitDma2_eq 𝒱₀ (c : Thread nD τ) none Set.univ (src := fSl c 0) (dst := fSl c 0)) (Set.mem_univ _) () (O := 0) (W := W97) (R := 0) (m := 0) (T := ∅)
      (by rw [Nat.zero_add]; exact (expect_fr m c 0).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 0)) $$ Hpay
  ihave AccF := (acc_one (famF m c) (by decide)) $$ [HFk]
  · iexact HFk
  ihave #HIx := (Prep.inv_fr m K c 0) $$ HI
  imod (Rounds.cell_close ER (rd m) (Set.mem_univ (K (c, some (3, 0)))) (fun h => h) (R := 0 + 1) (duties_fr_later m c 0)) $$ [Hat] with Hz
  · isplitr; · iexact HIx
    iexact Hat
  iclear HIx
  ihave AccZfr := (acc_one (famZfr (F := F) c) (by decide)) $$ [Hz]
  · iexact Hz
  ihave HOe : iprop(∃ W' : Waits sig Unit, owes (c : Thread nD τ) _ W') $$ [HO]
  · iexists _; iexact HO
  icases HOe with ⟨%W98, HO⟩
  -- step 260: wait arg2[1] (arg1[(k0_off1 d0 64#32)], arg0[(k0_off2 d0 64#32)])
  first | sl_exec | skip
  ihave Hs := (Entails.of_eq (take_step (famCYS (F := F) c) 1 (by decide))) $$ [FcYS]
  · iexact FcYS
  icases Hs with ⟨Hc, FcYS⟩
  ihave Hs := (Entails.of_eq (take_step (famAtYS (F := F) c) 1 (by decide))) $$ [FatYS]
  · iexact FatYS
  icases Hs with ⟨Hat, FatYS⟩
  ihave #HIw := (Prep.inv_ys m K c 1) $$ HI
  iapply (Rounds.wp_wait_rest_token 𝒱₀ ER (rd m) (c : Thread nD τ) none (κ := K (c, some (0, 1))) (sm := .dma (ysS 1))
      (wpE_waitDma2_eq 𝒱₀ (c : Thread nD τ) none Set.univ (src := yDst c 1) (dst := ySrc c 1)) (Set.mem_univ _) () (O := 0) (W := W98) (R := 0) (m := 0) (T := ∅)
      (by rw [Nat.zero_add]; exact (expect_ys m c 1).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 1)) $$ Hpay
  ihave AccXY := (acc_step (famXY m c) 1 (by decide)) $$ [AccXY Hxy]
  · isplitl [AccXY]; · iexact AccXY
    iexact Hxy
  ihave #HIx := (Prep.inv_ys m K c 1) $$ HI
  imod (Rounds.cell_close ER (rd m) (Set.mem_univ (K (c, some (0, 1)))) (fun h => h) (R := 0 + 1) (duties_ys_later m c 1)) $$ [Hat] with Hz
  · isplitr; · iexact HIx
    iexact Hat
  iclear HIx
  ihave AccZys := (acc_step (famZys (F := F) c) 1 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W99, HO⟩
  -- step 261: wait arg4[1] (arg1[(k0_off3 d0 64#32)], arg1[(k0_off3 d0 64#32)])
  first | sl_exec | skip
  ihave Hs := (Entails.of_eq (take_step (famCFS (F := F) c) 1 (by decide))) $$ [FcFS]
  · iexact FcFS
  icases Hs with ⟨Hc, FcFS⟩
  ihave Hs := (Entails.of_eq (take_step (famAtFS (F := F) c) 1 (by decide))) $$ [FatFS]
  · iexact FatFS
  icases Hs with ⟨Hat, FatFS⟩
  ihave #HIw := (Prep.inv_fs m K c 1) $$ HI
  iapply (Rounds.wp_wait_rest_token 𝒱₀ ER (rd m) (c : Thread nD τ) none (κ := K (c, some (2, 1))) (sm := .dma (fsS 1))
      (wpE_waitDma2_eq 𝒱₀ (c : Thread nD τ) none Set.univ (src := fSl c 1) (dst := fSl c 1)) (Set.mem_univ _) () (O := 0) (W := W99) (R := 0) (m := 0) (T := ∅)
      (by rw [Nat.zero_add]; exact (expect_fs m c 1).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 1)) $$ Hpay
  ihave AccY := (acc_step (famY m c) 1 (by decide)) $$ [AccY HYk]
  · isplitl [AccY]; · iexact AccY
    iexact HYk
  ihave #HIx := (Prep.inv_fs m K c 1) $$ HI
  imod (Rounds.cell_close ER (rd m) (Set.mem_univ (K (c, some (2, 1)))) (fun h => h) (R := 0 + 1) (duties_fs_later m c 1)) $$ [Hat] with Hz
  · isplitr; · iexact HIx
    iexact Hat
  iclear HIx
  ihave AccZfs := (acc_step (famZfs (F := F) c) 1 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W100, HO⟩
  -- step 262: wait arg5[1] (arg1[(k0_off3 d0 64#32)], arg1[(k0_off3 d0 64#32)])
  first | sl_exec | skip
  ihave Hs := (Entails.of_eq (take_step (famCFR (F := F) c) 1 (by decide))) $$ [FcFR]
  · iexact FcFR
  icases Hs with ⟨Hc, FcFR⟩
  ihave Hs := (Entails.of_eq (take_step (famAtFR (F := F) c) 1 (by decide))) $$ [FatFR]
  · iexact FatFR
  icases Hs with ⟨Hat, FatFR⟩
  ihave #HIw := (Prep.inv_fr m K c 1) $$ HI
  iapply (Rounds.wp_wait_rest_token 𝒱₀ ER (rd m) (c : Thread nD τ) none (κ := K (c, some (3, 1))) (sm := .dma (frS 1))
      (wpE_waitDma2_eq 𝒱₀ (c : Thread nD τ) none Set.univ (src := fSl c 1) (dst := fSl c 1)) (Set.mem_univ _) () (O := 0) (W := W100) (R := 0) (m := 0) (T := ∅)
      (by rw [Nat.zero_add]; exact (expect_fr m c 1).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 1)) $$ Hpay
  ihave AccF := (acc_step (famF m c) 1 (by decide)) $$ [AccF HFk]
  · isplitl [AccF]; · iexact AccF
    iexact HFk
  ihave #HIx := (Prep.inv_fr m K c 1) $$ HI
  imod (Rounds.cell_close ER (rd m) (Set.mem_univ (K (c, some (3, 1)))) (fun h => h) (R := 0 + 1) (duties_fr_later m c 1)) $$ [Hat] with Hz
  · isplitr; · iexact HIx
    iexact Hat
  iclear HIx
  ihave AccZfr := (acc_step (famZfr (F := F) c) 1 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W101, HO⟩
  -- step 263: wait arg2[2] (arg1[(k0_off1 d0 128#32)], arg0[(k0_off2 d0 128#32)])
  first | sl_exec | skip
  ihave Hs := (Entails.of_eq (take_step (famCYS (F := F) c) 2 (by decide))) $$ [FcYS]
  · iexact FcYS
  icases Hs with ⟨Hc, FcYS⟩
  ihave Hs := (Entails.of_eq (take_step (famAtYS (F := F) c) 2 (by decide))) $$ [FatYS]
  · iexact FatYS
  icases Hs with ⟨Hat, FatYS⟩
  ihave #HIw := (Prep.inv_ys m K c 2) $$ HI
  iapply (Rounds.wp_wait_rest_token 𝒱₀ ER (rd m) (c : Thread nD τ) none (κ := K (c, some (0, 2))) (sm := .dma (ysS 2))
      (wpE_waitDma2_eq 𝒱₀ (c : Thread nD τ) none Set.univ (src := yDst c 2) (dst := ySrc c 2)) (Set.mem_univ _) () (O := 0) (W := W101) (R := 0) (m := 0) (T := ∅)
      (by rw [Nat.zero_add]; exact (expect_ys m c 2).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 2)) $$ Hpay
  ihave AccXY := (acc_step (famXY m c) 2 (by decide)) $$ [AccXY Hxy]
  · isplitl [AccXY]; · iexact AccXY
    iexact Hxy
  ihave #HIx := (Prep.inv_ys m K c 2) $$ HI
  imod (Rounds.cell_close ER (rd m) (Set.mem_univ (K (c, some (0, 2)))) (fun h => h) (R := 0 + 1) (duties_ys_later m c 2)) $$ [Hat] with Hz
  · isplitr; · iexact HIx
    iexact Hat
  iclear HIx
  ihave AccZys := (acc_step (famZys (F := F) c) 2 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W102, HO⟩
  -- step 264: wait arg4[2] (arg1[(k0_off3 d0 128#32)], arg1[(k0_off3 d0 128#32)])
  first | sl_exec | skip
  ihave Hs := (Entails.of_eq (take_step (famCFS (F := F) c) 2 (by decide))) $$ [FcFS]
  · iexact FcFS
  icases Hs with ⟨Hc, FcFS⟩
  ihave Hs := (Entails.of_eq (take_step (famAtFS (F := F) c) 2 (by decide))) $$ [FatFS]
  · iexact FatFS
  icases Hs with ⟨Hat, FatFS⟩
  ihave #HIw := (Prep.inv_fs m K c 2) $$ HI
  iapply (Rounds.wp_wait_rest_token 𝒱₀ ER (rd m) (c : Thread nD τ) none (κ := K (c, some (2, 2))) (sm := .dma (fsS 2))
      (wpE_waitDma2_eq 𝒱₀ (c : Thread nD τ) none Set.univ (src := fSl c 2) (dst := fSl c 2)) (Set.mem_univ _) () (O := 0) (W := W102) (R := 0) (m := 0) (T := ∅)
      (by rw [Nat.zero_add]; exact (expect_fs m c 2).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 2)) $$ Hpay
  ihave AccY := (acc_step (famY m c) 2 (by decide)) $$ [AccY HYk]
  · isplitl [AccY]; · iexact AccY
    iexact HYk
  ihave #HIx := (Prep.inv_fs m K c 2) $$ HI
  imod (Rounds.cell_close ER (rd m) (Set.mem_univ (K (c, some (2, 2)))) (fun h => h) (R := 0 + 1) (duties_fs_later m c 2)) $$ [Hat] with Hz
  · isplitr; · iexact HIx
    iexact Hat
  iclear HIx
  ihave AccZfs := (acc_step (famZfs (F := F) c) 2 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W103, HO⟩
  -- step 265: wait arg5[2] (arg1[(k0_off3 d0 128#32)], arg1[(k0_off3 d0 128#32)])
  first | sl_exec | skip
  ihave Hs := (Entails.of_eq (take_step (famCFR (F := F) c) 2 (by decide))) $$ [FcFR]
  · iexact FcFR
  icases Hs with ⟨Hc, FcFR⟩
  ihave Hs := (Entails.of_eq (take_step (famAtFR (F := F) c) 2 (by decide))) $$ [FatFR]
  · iexact FatFR
  icases Hs with ⟨Hat, FatFR⟩
  ihave #HIw := (Prep.inv_fr m K c 2) $$ HI
  iapply (Rounds.wp_wait_rest_token 𝒱₀ ER (rd m) (c : Thread nD τ) none (κ := K (c, some (3, 2))) (sm := .dma (frS 2))
      (wpE_waitDma2_eq 𝒱₀ (c : Thread nD τ) none Set.univ (src := fSl c 2) (dst := fSl c 2)) (Set.mem_univ _) () (O := 0) (W := W103) (R := 0) (m := 0) (T := ∅)
      (by rw [Nat.zero_add]; exact (expect_fr m c 2).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 2)) $$ Hpay
  ihave AccF := (acc_step (famF m c) 2 (by decide)) $$ [AccF HFk]
  · isplitl [AccF]; · iexact AccF
    iexact HFk
  ihave #HIx := (Prep.inv_fr m K c 2) $$ HI
  imod (Rounds.cell_close ER (rd m) (Set.mem_univ (K (c, some (3, 2)))) (fun h => h) (R := 0 + 1) (duties_fr_later m c 2)) $$ [Hat] with Hz
  · isplitr; · iexact HIx
    iexact Hat
  iclear HIx
  ihave AccZfr := (acc_step (famZfr (F := F) c) 2 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W104, HO⟩
  -- step 266: wait arg2[3] (arg1[(k0_off1 d0 192#32)], arg0[(k0_off2 d0 192#32)])
  first | sl_exec | skip
  ihave Hs := (Entails.of_eq (take_step (famCYS (F := F) c) 3 (by decide))) $$ [FcYS]
  · iexact FcYS
  icases Hs with ⟨Hc, FcYS⟩
  ihave Hs := (Entails.of_eq (take_step (famAtYS (F := F) c) 3 (by decide))) $$ [FatYS]
  · iexact FatYS
  icases Hs with ⟨Hat, FatYS⟩
  ihave #HIw := (Prep.inv_ys m K c 3) $$ HI
  iapply (Rounds.wp_wait_rest_token 𝒱₀ ER (rd m) (c : Thread nD τ) none (κ := K (c, some (0, 3))) (sm := .dma (ysS 3))
      (wpE_waitDma2_eq 𝒱₀ (c : Thread nD τ) none Set.univ (src := yDst c 3) (dst := ySrc c 3)) (Set.mem_univ _) () (O := 0) (W := W104) (R := 0) (m := 0) (T := ∅)
      (by rw [Nat.zero_add]; exact (expect_ys m c 3).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 3)) $$ Hpay
  ihave AccXY := (acc_step (famXY m c) 3 (by decide)) $$ [AccXY Hxy]
  · isplitl [AccXY]; · iexact AccXY
    iexact Hxy
  ihave #HIx := (Prep.inv_ys m K c 3) $$ HI
  imod (Rounds.cell_close ER (rd m) (Set.mem_univ (K (c, some (0, 3)))) (fun h => h) (R := 0 + 1) (duties_ys_later m c 3)) $$ [Hat] with Hz
  · isplitr; · iexact HIx
    iexact Hat
  iclear HIx
  ihave AccZys := (acc_step (famZys (F := F) c) 3 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W105, HO⟩
  -- step 267: wait arg4[3] (arg1[(k0_off3 d0 192#32)], arg1[(k0_off3 d0 192#32)])
  first | sl_exec | skip
  ihave Hs := (Entails.of_eq (take_step (famCFS (F := F) c) 3 (by decide))) $$ [FcFS]
  · iexact FcFS
  icases Hs with ⟨Hc, FcFS⟩
  ihave Hs := (Entails.of_eq (take_step (famAtFS (F := F) c) 3 (by decide))) $$ [FatFS]
  · iexact FatFS
  icases Hs with ⟨Hat, FatFS⟩
  ihave #HIw := (Prep.inv_fs m K c 3) $$ HI
  iapply (Rounds.wp_wait_rest_token 𝒱₀ ER (rd m) (c : Thread nD τ) none (κ := K (c, some (2, 3))) (sm := .dma (fsS 3))
      (wpE_waitDma2_eq 𝒱₀ (c : Thread nD τ) none Set.univ (src := fSl c 3) (dst := fSl c 3)) (Set.mem_univ _) () (O := 0) (W := W105) (R := 0) (m := 0) (T := ∅)
      (by rw [Nat.zero_add]; exact (expect_fs m c 3).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 3)) $$ Hpay
  ihave AccY := (acc_step (famY m c) 3 (by decide)) $$ [AccY HYk]
  · isplitl [AccY]; · iexact AccY
    iexact HYk
  ihave #HIx := (Prep.inv_fs m K c 3) $$ HI
  imod (Rounds.cell_close ER (rd m) (Set.mem_univ (K (c, some (2, 3)))) (fun h => h) (R := 0 + 1) (duties_fs_later m c 3)) $$ [Hat] with Hz
  · isplitr; · iexact HIx
    iexact Hat
  iclear HIx
  ihave AccZfs := (acc_step (famZfs (F := F) c) 3 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W106, HO⟩
  -- step 268: wait arg5[3] (arg1[(k0_off3 d0 192#32)], arg1[(k0_off3 d0 192#32)])
  first | sl_exec | skip
  ihave Hs := (Entails.of_eq (take_step (famCFR (F := F) c) 3 (by decide))) $$ [FcFR]
  · iexact FcFR
  icases Hs with ⟨Hc, FcFR⟩
  ihave Hs := (Entails.of_eq (take_step (famAtFR (F := F) c) 3 (by decide))) $$ [FatFR]
  · iexact FatFR
  icases Hs with ⟨Hat, FatFR⟩
  ihave #HIw := (Prep.inv_fr m K c 3) $$ HI
  iapply (Rounds.wp_wait_rest_token 𝒱₀ ER (rd m) (c : Thread nD τ) none (κ := K (c, some (3, 3))) (sm := .dma (frS 3))
      (wpE_waitDma2_eq 𝒱₀ (c : Thread nD τ) none Set.univ (src := fSl c 3) (dst := fSl c 3)) (Set.mem_univ _) () (O := 0) (W := W106) (R := 0) (m := 0) (T := ∅)
      (by rw [Nat.zero_add]; exact (expect_fr m c 3).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 3)) $$ Hpay
  ihave AccF := (acc_step (famF m c) 3 (by decide)) $$ [AccF HFk]
  · isplitl [AccF]; · iexact AccF
    iexact HFk
  ihave #HIx := (Prep.inv_fr m K c 3) $$ HI
  imod (Rounds.cell_close ER (rd m) (Set.mem_univ (K (c, some (3, 3)))) (fun h => h) (R := 0 + 1) (duties_fr_later m c 3)) $$ [Hat] with Hz
  · isplitr; · iexact HIx
    iexact Hat
  iclear HIx
  ihave AccZfr := (acc_step (famZfr (F := F) c) 3 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W107, HO⟩
  -- step 269: wait arg2[4] (arg1[(k0_off1 d0 256#32)], arg0[(k0_off2 d0 256#32)])
  first | sl_exec | skip
  ihave Hs := (Entails.of_eq (take_step (famCYS (F := F) c) 4 (by decide))) $$ [FcYS]
  · iexact FcYS
  icases Hs with ⟨Hc, FcYS⟩
  ihave Hs := (Entails.of_eq (take_step (famAtYS (F := F) c) 4 (by decide))) $$ [FatYS]
  · iexact FatYS
  icases Hs with ⟨Hat, FatYS⟩
  ihave #HIw := (Prep.inv_ys m K c 4) $$ HI
  iapply (Rounds.wp_wait_rest_token 𝒱₀ ER (rd m) (c : Thread nD τ) none (κ := K (c, some (0, 4))) (sm := .dma (ysS 4))
      (wpE_waitDma2_eq 𝒱₀ (c : Thread nD τ) none Set.univ (src := yDst c 4) (dst := ySrc c 4)) (Set.mem_univ _) () (O := 0) (W := W107) (R := 0) (m := 0) (T := ∅)
      (by rw [Nat.zero_add]; exact (expect_ys m c 4).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 4)) $$ Hpay
  ihave AccXY := (acc_step (famXY m c) 4 (by decide)) $$ [AccXY Hxy]
  · isplitl [AccXY]; · iexact AccXY
    iexact Hxy
  ihave #HIx := (Prep.inv_ys m K c 4) $$ HI
  imod (Rounds.cell_close ER (rd m) (Set.mem_univ (K (c, some (0, 4)))) (fun h => h) (R := 0 + 1) (duties_ys_later m c 4)) $$ [Hat] with Hz
  · isplitr; · iexact HIx
    iexact Hat
  iclear HIx
  ihave AccZys := (acc_step (famZys (F := F) c) 4 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W108, HO⟩
  -- step 270: wait arg4[4] (arg1[(k0_off3 d0 256#32)], arg1[(k0_off3 d0 256#32)])
  first | sl_exec | skip
  ihave Hs := (Entails.of_eq (take_step (famCFS (F := F) c) 4 (by decide))) $$ [FcFS]
  · iexact FcFS
  icases Hs with ⟨Hc, FcFS⟩
  ihave Hs := (Entails.of_eq (take_step (famAtFS (F := F) c) 4 (by decide))) $$ [FatFS]
  · iexact FatFS
  icases Hs with ⟨Hat, FatFS⟩
  ihave #HIw := (Prep.inv_fs m K c 4) $$ HI
  iapply (Rounds.wp_wait_rest_token 𝒱₀ ER (rd m) (c : Thread nD τ) none (κ := K (c, some (2, 4))) (sm := .dma (fsS 4))
      (wpE_waitDma2_eq 𝒱₀ (c : Thread nD τ) none Set.univ (src := fSl c 4) (dst := fSl c 4)) (Set.mem_univ _) () (O := 0) (W := W108) (R := 0) (m := 0) (T := ∅)
      (by rw [Nat.zero_add]; exact (expect_fs m c 4).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 4)) $$ Hpay
  ihave AccY := (acc_step (famY m c) 4 (by decide)) $$ [AccY HYk]
  · isplitl [AccY]; · iexact AccY
    iexact HYk
  ihave #HIx := (Prep.inv_fs m K c 4) $$ HI
  imod (Rounds.cell_close ER (rd m) (Set.mem_univ (K (c, some (2, 4)))) (fun h => h) (R := 0 + 1) (duties_fs_later m c 4)) $$ [Hat] with Hz
  · isplitr; · iexact HIx
    iexact Hat
  iclear HIx
  ihave AccZfs := (acc_step (famZfs (F := F) c) 4 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W109, HO⟩
  -- step 271: wait arg5[4] (arg1[(k0_off3 d0 256#32)], arg1[(k0_off3 d0 256#32)])
  first | sl_exec | skip
  ihave Hs := (Entails.of_eq (take_step (famCFR (F := F) c) 4 (by decide))) $$ [FcFR]
  · iexact FcFR
  icases Hs with ⟨Hc, FcFR⟩
  ihave Hs := (Entails.of_eq (take_step (famAtFR (F := F) c) 4 (by decide))) $$ [FatFR]
  · iexact FatFR
  icases Hs with ⟨Hat, FatFR⟩
  ihave #HIw := (Prep.inv_fr m K c 4) $$ HI
  iapply (Rounds.wp_wait_rest_token 𝒱₀ ER (rd m) (c : Thread nD τ) none (κ := K (c, some (3, 4))) (sm := .dma (frS 4))
      (wpE_waitDma2_eq 𝒱₀ (c : Thread nD τ) none Set.univ (src := fSl c 4) (dst := fSl c 4)) (Set.mem_univ _) () (O := 0) (W := W109) (R := 0) (m := 0) (T := ∅)
      (by rw [Nat.zero_add]; exact (expect_fr m c 4).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 4)) $$ Hpay
  ihave AccF := (acc_step (famF m c) 4 (by decide)) $$ [AccF HFk]
  · isplitl [AccF]; · iexact AccF
    iexact HFk
  ihave #HIx := (Prep.inv_fr m K c 4) $$ HI
  imod (Rounds.cell_close ER (rd m) (Set.mem_univ (K (c, some (3, 4)))) (fun h => h) (R := 0 + 1) (duties_fr_later m c 4)) $$ [Hat] with Hz
  · isplitr; · iexact HIx
    iexact Hat
  iclear HIx
  ihave AccZfr := (acc_step (famZfr (F := F) c) 4 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W110, HO⟩
  -- step 272: wait arg2[5] (arg1[(k0_off1 d0 320#32)], arg0[(k0_off2 d0 320#32)])
  first | sl_exec | skip
  ihave Hs := (Entails.of_eq (take_step (famCYS (F := F) c) 5 (by decide))) $$ [FcYS]
  · iexact FcYS
  icases Hs with ⟨Hc, FcYS⟩
  ihave Hs := (Entails.of_eq (take_step (famAtYS (F := F) c) 5 (by decide))) $$ [FatYS]
  · iexact FatYS
  icases Hs with ⟨Hat, FatYS⟩
  ihave #HIw := (Prep.inv_ys m K c 5) $$ HI
  iapply (Rounds.wp_wait_rest_token 𝒱₀ ER (rd m) (c : Thread nD τ) none (κ := K (c, some (0, 5))) (sm := .dma (ysS 5))
      (wpE_waitDma2_eq 𝒱₀ (c : Thread nD τ) none Set.univ (src := yDst c 5) (dst := ySrc c 5)) (Set.mem_univ _) () (O := 0) (W := W110) (R := 0) (m := 0) (T := ∅)
      (by rw [Nat.zero_add]; exact (expect_ys m c 5).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 5)) $$ Hpay
  ihave AccXY := (acc_step (famXY m c) 5 (by decide)) $$ [AccXY Hxy]
  · isplitl [AccXY]; · iexact AccXY
    iexact Hxy
  ihave #HIx := (Prep.inv_ys m K c 5) $$ HI
  imod (Rounds.cell_close ER (rd m) (Set.mem_univ (K (c, some (0, 5)))) (fun h => h) (R := 0 + 1) (duties_ys_later m c 5)) $$ [Hat] with Hz
  · isplitr; · iexact HIx
    iexact Hat
  iclear HIx
  ihave AccZys := (acc_step (famZys (F := F) c) 5 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W111, HO⟩
  -- step 273: wait arg4[5] (arg1[(k0_off3 d0 320#32)], arg1[(k0_off3 d0 320#32)])
  first | sl_exec | skip
  ihave Hs := (Entails.of_eq (take_step (famCFS (F := F) c) 5 (by decide))) $$ [FcFS]
  · iexact FcFS
  icases Hs with ⟨Hc, FcFS⟩
  ihave Hs := (Entails.of_eq (take_step (famAtFS (F := F) c) 5 (by decide))) $$ [FatFS]
  · iexact FatFS
  icases Hs with ⟨Hat, FatFS⟩
  ihave #HIw := (Prep.inv_fs m K c 5) $$ HI
  iapply (Rounds.wp_wait_rest_token 𝒱₀ ER (rd m) (c : Thread nD τ) none (κ := K (c, some (2, 5))) (sm := .dma (fsS 5))
      (wpE_waitDma2_eq 𝒱₀ (c : Thread nD τ) none Set.univ (src := fSl c 5) (dst := fSl c 5)) (Set.mem_univ _) () (O := 0) (W := W111) (R := 0) (m := 0) (T := ∅)
      (by rw [Nat.zero_add]; exact (expect_fs m c 5).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 5)) $$ Hpay
  ihave AccY := (acc_step (famY m c) 5 (by decide)) $$ [AccY HYk]
  · isplitl [AccY]; · iexact AccY
    iexact HYk
  ihave #HIx := (Prep.inv_fs m K c 5) $$ HI
  imod (Rounds.cell_close ER (rd m) (Set.mem_univ (K (c, some (2, 5)))) (fun h => h) (R := 0 + 1) (duties_fs_later m c 5)) $$ [Hat] with Hz
  · isplitr; · iexact HIx
    iexact Hat
  iclear HIx
  ihave AccZfs := (acc_step (famZfs (F := F) c) 5 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W112, HO⟩
  -- step 274: wait arg5[5] (arg1[(k0_off3 d0 320#32)], arg1[(k0_off3 d0 320#32)])
  first | sl_exec | skip
  ihave Hs := (Entails.of_eq (take_step (famCFR (F := F) c) 5 (by decide))) $$ [FcFR]
  · iexact FcFR
  icases Hs with ⟨Hc, FcFR⟩
  ihave Hs := (Entails.of_eq (take_step (famAtFR (F := F) c) 5 (by decide))) $$ [FatFR]
  · iexact FatFR
  icases Hs with ⟨Hat, FatFR⟩
  ihave #HIw := (Prep.inv_fr m K c 5) $$ HI
  iapply (Rounds.wp_wait_rest_token 𝒱₀ ER (rd m) (c : Thread nD τ) none (κ := K (c, some (3, 5))) (sm := .dma (frS 5))
      (wpE_waitDma2_eq 𝒱₀ (c : Thread nD τ) none Set.univ (src := fSl c 5) (dst := fSl c 5)) (Set.mem_univ _) () (O := 0) (W := W112) (R := 0) (m := 0) (T := ∅)
      (by rw [Nat.zero_add]; exact (expect_fr m c 5).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 5)) $$ Hpay
  ihave AccF := (acc_step (famF m c) 5 (by decide)) $$ [AccF HFk]
  · isplitl [AccF]; · iexact AccF
    iexact HFk
  ihave #HIx := (Prep.inv_fr m K c 5) $$ HI
  imod (Rounds.cell_close ER (rd m) (Set.mem_univ (K (c, some (3, 5)))) (fun h => h) (R := 0 + 1) (duties_fr_later m c 5)) $$ [Hat] with Hz
  · isplitr; · iexact HIx
    iexact Hat
  iclear HIx
  ihave AccZfr := (acc_step (famZfr (F := F) c) 5 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W113, HO⟩
  -- step 275: wait arg2[6] (arg1[(k0_off1 d0 384#32)], arg0[(k0_off2 d0 384#32)])
  first | sl_exec | skip
  ihave Hs := (Entails.of_eq (take_step (famCYS (F := F) c) 6 (by decide))) $$ [FcYS]
  · iexact FcYS
  icases Hs with ⟨Hc, FcYS⟩
  ihave Hs := (Entails.of_eq (take_step (famAtYS (F := F) c) 6 (by decide))) $$ [FatYS]
  · iexact FatYS
  icases Hs with ⟨Hat, FatYS⟩
  ihave #HIw := (Prep.inv_ys m K c 6) $$ HI
  iapply (Rounds.wp_wait_rest_token 𝒱₀ ER (rd m) (c : Thread nD τ) none (κ := K (c, some (0, 6))) (sm := .dma (ysS 6))
      (wpE_waitDma2_eq 𝒱₀ (c : Thread nD τ) none Set.univ (src := yDst c 6) (dst := ySrc c 6)) (Set.mem_univ _) () (O := 0) (W := W113) (R := 0) (m := 0) (T := ∅)
      (by rw [Nat.zero_add]; exact (expect_ys m c 6).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 6)) $$ Hpay
  ihave AccXY := (acc_step (famXY m c) 6 (by decide)) $$ [AccXY Hxy]
  · isplitl [AccXY]; · iexact AccXY
    iexact Hxy
  ihave #HIx := (Prep.inv_ys m K c 6) $$ HI
  imod (Rounds.cell_close ER (rd m) (Set.mem_univ (K (c, some (0, 6)))) (fun h => h) (R := 0 + 1) (duties_ys_later m c 6)) $$ [Hat] with Hz
  · isplitr; · iexact HIx
    iexact Hat
  iclear HIx
  ihave AccZys := (acc_step (famZys (F := F) c) 6 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W114, HO⟩
  -- step 276: wait arg4[6] (arg1[(k0_off3 d0 384#32)], arg1[(k0_off3 d0 384#32)])
  first | sl_exec | skip
  ihave Hs := (Entails.of_eq (take_step (famCFS (F := F) c) 6 (by decide))) $$ [FcFS]
  · iexact FcFS
  icases Hs with ⟨Hc, FcFS⟩
  ihave Hs := (Entails.of_eq (take_step (famAtFS (F := F) c) 6 (by decide))) $$ [FatFS]
  · iexact FatFS
  icases Hs with ⟨Hat, FatFS⟩
  ihave #HIw := (Prep.inv_fs m K c 6) $$ HI
  iapply (Rounds.wp_wait_rest_token 𝒱₀ ER (rd m) (c : Thread nD τ) none (κ := K (c, some (2, 6))) (sm := .dma (fsS 6))
      (wpE_waitDma2_eq 𝒱₀ (c : Thread nD τ) none Set.univ (src := fSl c 6) (dst := fSl c 6)) (Set.mem_univ _) () (O := 0) (W := W114) (R := 0) (m := 0) (T := ∅)
      (by rw [Nat.zero_add]; exact (expect_fs m c 6).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 6)) $$ Hpay
  ihave AccY := (acc_step (famY m c) 6 (by decide)) $$ [AccY HYk]
  · isplitl [AccY]; · iexact AccY
    iexact HYk
  ihave #HIx := (Prep.inv_fs m K c 6) $$ HI
  imod (Rounds.cell_close ER (rd m) (Set.mem_univ (K (c, some (2, 6)))) (fun h => h) (R := 0 + 1) (duties_fs_later m c 6)) $$ [Hat] with Hz
  · isplitr; · iexact HIx
    iexact Hat
  iclear HIx
  ihave AccZfs := (acc_step (famZfs (F := F) c) 6 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W115, HO⟩
  -- step 277: wait arg5[6] (arg1[(k0_off3 d0 384#32)], arg1[(k0_off3 d0 384#32)])
  first | sl_exec | skip
  ihave Hs := (Entails.of_eq (take_step (famCFR (F := F) c) 6 (by decide))) $$ [FcFR]
  · iexact FcFR
  icases Hs with ⟨Hc, FcFR⟩
  ihave Hs := (Entails.of_eq (take_step (famAtFR (F := F) c) 6 (by decide))) $$ [FatFR]
  · iexact FatFR
  icases Hs with ⟨Hat, FatFR⟩
  ihave #HIw := (Prep.inv_fr m K c 6) $$ HI
  iapply (Rounds.wp_wait_rest_token 𝒱₀ ER (rd m) (c : Thread nD τ) none (κ := K (c, some (3, 6))) (sm := .dma (frS 6))
      (wpE_waitDma2_eq 𝒱₀ (c : Thread nD τ) none Set.univ (src := fSl c 6) (dst := fSl c 6)) (Set.mem_univ _) () (O := 0) (W := W115) (R := 0) (m := 0) (T := ∅)
      (by rw [Nat.zero_add]; exact (expect_fr m c 6).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 6)) $$ Hpay
  ihave AccF := (acc_step (famF m c) 6 (by decide)) $$ [AccF HFk]
  · isplitl [AccF]; · iexact AccF
    iexact HFk
  ihave #HIx := (Prep.inv_fr m K c 6) $$ HI
  imod (Rounds.cell_close ER (rd m) (Set.mem_univ (K (c, some (3, 6)))) (fun h => h) (R := 0 + 1) (duties_fr_later m c 6)) $$ [Hat] with Hz
  · isplitr; · iexact HIx
    iexact Hat
  iclear HIx
  ihave AccZfr := (acc_step (famZfr (F := F) c) 6 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W116, HO⟩
  -- step 278: wait arg2[7] (arg1[(k0_off1 d0 448#32)], arg0[(k0_off2 d0 448#32)])
  first | sl_exec | skip
  ihave Hs := (Entails.of_eq (take_step (famCYS (F := F) c) 7 (by decide))) $$ [FcYS]
  · iexact FcYS
  icases Hs with ⟨Hc, FcYS⟩
  ihave Hs := (Entails.of_eq (take_step (famAtYS (F := F) c) 7 (by decide))) $$ [FatYS]
  · iexact FatYS
  icases Hs with ⟨Hat, FatYS⟩
  ihave #HIw := (Prep.inv_ys m K c 7) $$ HI
  iapply (Rounds.wp_wait_rest_token 𝒱₀ ER (rd m) (c : Thread nD τ) none (κ := K (c, some (0, 7))) (sm := .dma (ysS 7))
      (wpE_waitDma2_eq 𝒱₀ (c : Thread nD τ) none Set.univ (src := yDst c 7) (dst := ySrc c 7)) (Set.mem_univ _) () (O := 0) (W := W116) (R := 0) (m := 0) (T := ∅)
      (by rw [Nat.zero_add]; exact (expect_ys m c 7).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 7)) $$ Hpay
  ihave AccXY := (acc_step (famXY m c) 7 (by decide)) $$ [AccXY Hxy]
  · isplitl [AccXY]; · iexact AccXY
    iexact Hxy
  ihave #HIx := (Prep.inv_ys m K c 7) $$ HI
  imod (Rounds.cell_close ER (rd m) (Set.mem_univ (K (c, some (0, 7)))) (fun h => h) (R := 0 + 1) (duties_ys_later m c 7)) $$ [Hat] with Hz
  · isplitr; · iexact HIx
    iexact Hat
  iclear HIx
  ihave AccZys := (acc_step (famZys (F := F) c) 7 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W117, HO⟩
  -- step 279: wait arg4[7] (arg1[(k0_off3 d0 448#32)], arg1[(k0_off3 d0 448#32)])
  first | sl_exec | skip
  ihave Hs := (Entails.of_eq (take_step (famCFS (F := F) c) 7 (by decide))) $$ [FcFS]
  · iexact FcFS
  icases Hs with ⟨Hc, FcFS⟩
  ihave Hs := (Entails.of_eq (take_step (famAtFS (F := F) c) 7 (by decide))) $$ [FatFS]
  · iexact FatFS
  icases Hs with ⟨Hat, FatFS⟩
  ihave #HIw := (Prep.inv_fs m K c 7) $$ HI
  iapply (Rounds.wp_wait_rest_token 𝒱₀ ER (rd m) (c : Thread nD τ) none (κ := K (c, some (2, 7))) (sm := .dma (fsS 7))
      (wpE_waitDma2_eq 𝒱₀ (c : Thread nD τ) none Set.univ (src := fSl c 7) (dst := fSl c 7)) (Set.mem_univ _) () (O := 0) (W := W117) (R := 0) (m := 0) (T := ∅)
      (by rw [Nat.zero_add]; exact (expect_fs m c 7).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 7)) $$ Hpay
  ihave AccY := (acc_step (famY m c) 7 (by decide)) $$ [AccY HYk]
  · isplitl [AccY]; · iexact AccY
    iexact HYk
  ihave #HIx := (Prep.inv_fs m K c 7) $$ HI
  imod (Rounds.cell_close ER (rd m) (Set.mem_univ (K (c, some (2, 7)))) (fun h => h) (R := 0 + 1) (duties_fs_later m c 7)) $$ [Hat] with Hz
  · isplitr; · iexact HIx
    iexact Hat
  iclear HIx
  ihave AccZfs := (acc_step (famZfs (F := F) c) 7 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W118, HO⟩
  -- step 280: wait arg5[7] (arg1[(k0_off3 d0 448#32)], arg1[(k0_off3 d0 448#32)])
  first | sl_exec | skip
  ihave Hs := (Entails.of_eq (take_step (famCFR (F := F) c) 7 (by decide))) $$ [FcFR]
  · iexact FcFR
  icases Hs with ⟨Hc, FcFR⟩
  ihave Hs := (Entails.of_eq (take_step (famAtFR (F := F) c) 7 (by decide))) $$ [FatFR]
  · iexact FatFR
  icases Hs with ⟨Hat, FatFR⟩
  ihave #HIw := (Prep.inv_fr m K c 7) $$ HI
  iapply (Rounds.wp_wait_rest_token 𝒱₀ ER (rd m) (c : Thread nD τ) none (κ := K (c, some (3, 7))) (sm := .dma (frS 7))
      (wpE_waitDma2_eq 𝒱₀ (c : Thread nD τ) none Set.univ (src := fSl c 7) (dst := fSl c 7)) (Set.mem_univ _) () (O := 0) (W := W118) (R := 0) (m := 0) (T := ∅)
      (by rw [Nat.zero_add]; exact (expect_fr m c 7).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 7)) $$ Hpay
  ihave AccF := (acc_step (famF m c) 7 (by decide)) $$ [AccF HFk]
  · isplitl [AccF]; · iexact AccF
    iexact HFk
  ihave #HIx := (Prep.inv_fr m K c 7) $$ HI
  imod (Rounds.cell_close ER (rd m) (Set.mem_univ (K (c, some (3, 7)))) (fun h => h) (R := 0 + 1) (duties_fr_later m c 7)) $$ [Hat] with Hz
  · isplitr; · iexact HIx
    iexact Hat
  iclear HIx
  ihave AccZfr := (acc_step (famZfr (F := F) c) 7 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W119, HO⟩
  -- step 281: wait arg2[8] (arg1[(k0_off1 d0 512#32)], arg0[(k0_off2 d0 512#32)])
  first | sl_exec | skip
  ihave Hs := (Entails.of_eq (take_step (famCYS (F := F) c) 8 (by decide))) $$ [FcYS]
  · iexact FcYS
  icases Hs with ⟨Hc, FcYS⟩
  ihave Hs := (Entails.of_eq (take_step (famAtYS (F := F) c) 8 (by decide))) $$ [FatYS]
  · iexact FatYS
  icases Hs with ⟨Hat, FatYS⟩
  ihave #HIw := (Prep.inv_ys m K c 8) $$ HI
  iapply (Rounds.wp_wait_rest_token 𝒱₀ ER (rd m) (c : Thread nD τ) none (κ := K (c, some (0, 8))) (sm := .dma (ysS 8))
      (wpE_waitDma2_eq 𝒱₀ (c : Thread nD τ) none Set.univ (src := yDst c 8) (dst := ySrc c 8)) (Set.mem_univ _) () (O := 0) (W := W119) (R := 0) (m := 0) (T := ∅)
      (by rw [Nat.zero_add]; exact (expect_ys m c 8).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 8)) $$ Hpay
  ihave AccXY := (acc_step (famXY m c) 8 (by decide)) $$ [AccXY Hxy]
  · isplitl [AccXY]; · iexact AccXY
    iexact Hxy
  ihave #HIx := (Prep.inv_ys m K c 8) $$ HI
  imod (Rounds.cell_close ER (rd m) (Set.mem_univ (K (c, some (0, 8)))) (fun h => h) (R := 0 + 1) (duties_ys_later m c 8)) $$ [Hat] with Hz
  · isplitr; · iexact HIx
    iexact Hat
  iclear HIx
  ihave AccZys := (acc_step (famZys (F := F) c) 8 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W120, HO⟩
  -- step 282: wait arg4[8] (arg1[(k0_off3 d0 512#32)], arg1[(k0_off3 d0 512#32)])
  first | sl_exec | skip
  ihave Hs := (Entails.of_eq (take_step (famCFS (F := F) c) 8 (by decide))) $$ [FcFS]
  · iexact FcFS
  icases Hs with ⟨Hc, FcFS⟩
  ihave Hs := (Entails.of_eq (take_step (famAtFS (F := F) c) 8 (by decide))) $$ [FatFS]
  · iexact FatFS
  icases Hs with ⟨Hat, FatFS⟩
  ihave #HIw := (Prep.inv_fs m K c 8) $$ HI
  iapply (Rounds.wp_wait_rest_token 𝒱₀ ER (rd m) (c : Thread nD τ) none (κ := K (c, some (2, 8))) (sm := .dma (fsS 8))
      (wpE_waitDma2_eq 𝒱₀ (c : Thread nD τ) none Set.univ (src := fSl c 8) (dst := fSl c 8)) (Set.mem_univ _) () (O := 0) (W := W120) (R := 0) (m := 0) (T := ∅)
      (by rw [Nat.zero_add]; exact (expect_fs m c 8).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 8)) $$ Hpay
  ihave AccY := (acc_step (famY m c) 8 (by decide)) $$ [AccY HYk]
  · isplitl [AccY]; · iexact AccY
    iexact HYk
  ihave #HIx := (Prep.inv_fs m K c 8) $$ HI
  imod (Rounds.cell_close ER (rd m) (Set.mem_univ (K (c, some (2, 8)))) (fun h => h) (R := 0 + 1) (duties_fs_later m c 8)) $$ [Hat] with Hz
  · isplitr; · iexact HIx
    iexact Hat
  iclear HIx
  ihave AccZfs := (acc_step (famZfs (F := F) c) 8 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W121, HO⟩
  -- step 283: wait arg5[8] (arg1[(k0_off3 d0 512#32)], arg1[(k0_off3 d0 512#32)])
  first | sl_exec | skip
  ihave Hs := (Entails.of_eq (take_step (famCFR (F := F) c) 8 (by decide))) $$ [FcFR]
  · iexact FcFR
  icases Hs with ⟨Hc, FcFR⟩
  ihave Hs := (Entails.of_eq (take_step (famAtFR (F := F) c) 8 (by decide))) $$ [FatFR]
  · iexact FatFR
  icases Hs with ⟨Hat, FatFR⟩
  ihave #HIw := (Prep.inv_fr m K c 8) $$ HI
  iapply (Rounds.wp_wait_rest_token 𝒱₀ ER (rd m) (c : Thread nD τ) none (κ := K (c, some (3, 8))) (sm := .dma (frS 8))
      (wpE_waitDma2_eq 𝒱₀ (c : Thread nD τ) none Set.univ (src := fSl c 8) (dst := fSl c 8)) (Set.mem_univ _) () (O := 0) (W := W121) (R := 0) (m := 0) (T := ∅)
      (by rw [Nat.zero_add]; exact (expect_fr m c 8).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 8)) $$ Hpay
  ihave AccF := (acc_step (famF m c) 8 (by decide)) $$ [AccF HFk]
  · isplitl [AccF]; · iexact AccF
    iexact HFk
  ihave #HIx := (Prep.inv_fr m K c 8) $$ HI
  imod (Rounds.cell_close ER (rd m) (Set.mem_univ (K (c, some (3, 8)))) (fun h => h) (R := 0 + 1) (duties_fr_later m c 8)) $$ [Hat] with Hz
  · isplitr; · iexact HIx
    iexact Hat
  iclear HIx
  ihave AccZfr := (acc_step (famZfr (F := F) c) 8 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W122, HO⟩
  -- step 284: wait arg2[9] (arg1[(k0_off1 d0 576#32)], arg0[(k0_off2 d0 576#32)])
  first | sl_exec | skip
  ihave Hs := (Entails.of_eq (take_step (famCYS (F := F) c) 9 (by decide))) $$ [FcYS]
  · iexact FcYS
  icases Hs with ⟨Hc, FcYS⟩
  ihave Hs := (Entails.of_eq (take_step (famAtYS (F := F) c) 9 (by decide))) $$ [FatYS]
  · iexact FatYS
  icases Hs with ⟨Hat, FatYS⟩
  ihave #HIw := (Prep.inv_ys m K c 9) $$ HI
  iapply (Rounds.wp_wait_rest_token 𝒱₀ ER (rd m) (c : Thread nD τ) none (κ := K (c, some (0, 9))) (sm := .dma (ysS 9))
      (wpE_waitDma2_eq 𝒱₀ (c : Thread nD τ) none Set.univ (src := yDst c 9) (dst := ySrc c 9)) (Set.mem_univ _) () (O := 0) (W := W122) (R := 0) (m := 0) (T := ∅)
      (by rw [Nat.zero_add]; exact (expect_ys m c 9).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 9)) $$ Hpay
  ihave AccXY := (acc_step (famXY m c) 9 (by decide)) $$ [AccXY Hxy]
  · isplitl [AccXY]; · iexact AccXY
    iexact Hxy
  ihave #HIx := (Prep.inv_ys m K c 9) $$ HI
  imod (Rounds.cell_close ER (rd m) (Set.mem_univ (K (c, some (0, 9)))) (fun h => h) (R := 0 + 1) (duties_ys_later m c 9)) $$ [Hat] with Hz
  · isplitr; · iexact HIx
    iexact Hat
  iclear HIx
  ihave AccZys := (acc_step (famZys (F := F) c) 9 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W123, HO⟩
  -- step 285: wait arg4[9] (arg1[(k0_off3 d0 576#32)], arg1[(k0_off3 d0 576#32)])
  first | sl_exec | skip
  ihave Hs := (Entails.of_eq (take_step (famCFS (F := F) c) 9 (by decide))) $$ [FcFS]
  · iexact FcFS
  icases Hs with ⟨Hc, FcFS⟩
  ihave Hs := (Entails.of_eq (take_step (famAtFS (F := F) c) 9 (by decide))) $$ [FatFS]
  · iexact FatFS
  icases Hs with ⟨Hat, FatFS⟩
  ihave #HIw := (Prep.inv_fs m K c 9) $$ HI
  iapply (Rounds.wp_wait_rest_token 𝒱₀ ER (rd m) (c : Thread nD τ) none (κ := K (c, some (2, 9))) (sm := .dma (fsS 9))
      (wpE_waitDma2_eq 𝒱₀ (c : Thread nD τ) none Set.univ (src := fSl c 9) (dst := fSl c 9)) (Set.mem_univ _) () (O := 0) (W := W123) (R := 0) (m := 0) (T := ∅)
      (by rw [Nat.zero_add]; exact (expect_fs m c 9).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 9)) $$ Hpay
  ihave AccY := (acc_step (famY m c) 9 (by decide)) $$ [AccY HYk]
  · isplitl [AccY]; · iexact AccY
    iexact HYk
  ihave #HIx := (Prep.inv_fs m K c 9) $$ HI
  imod (Rounds.cell_close ER (rd m) (Set.mem_univ (K (c, some (2, 9)))) (fun h => h) (R := 0 + 1) (duties_fs_later m c 9)) $$ [Hat] with Hz
  · isplitr; · iexact HIx
    iexact Hat
  iclear HIx
  ihave AccZfs := (acc_step (famZfs (F := F) c) 9 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W124, HO⟩
  -- step 286: wait arg5[9] (arg1[(k0_off3 d0 576#32)], arg1[(k0_off3 d0 576#32)])
  first | sl_exec | skip
  ihave Hs := (Entails.of_eq (take_step (famCFR (F := F) c) 9 (by decide))) $$ [FcFR]
  · iexact FcFR
  icases Hs with ⟨Hc, FcFR⟩
  ihave Hs := (Entails.of_eq (take_step (famAtFR (F := F) c) 9 (by decide))) $$ [FatFR]
  · iexact FatFR
  icases Hs with ⟨Hat, FatFR⟩
  ihave #HIw := (Prep.inv_fr m K c 9) $$ HI
  iapply (Rounds.wp_wait_rest_token 𝒱₀ ER (rd m) (c : Thread nD τ) none (κ := K (c, some (3, 9))) (sm := .dma (frS 9))
      (wpE_waitDma2_eq 𝒱₀ (c : Thread nD τ) none Set.univ (src := fSl c 9) (dst := fSl c 9)) (Set.mem_univ _) () (O := 0) (W := W124) (R := 0) (m := 0) (T := ∅)
      (by rw [Nat.zero_add]; exact (expect_fr m c 9).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 9)) $$ Hpay
  ihave AccF := (acc_step (famF m c) 9 (by decide)) $$ [AccF HFk]
  · isplitl [AccF]; · iexact AccF
    iexact HFk
  ihave #HIx := (Prep.inv_fr m K c 9) $$ HI
  imod (Rounds.cell_close ER (rd m) (Set.mem_univ (K (c, some (3, 9)))) (fun h => h) (R := 0 + 1) (duties_fr_later m c 9)) $$ [Hat] with Hz
  · isplitr; · iexact HIx
    iexact Hat
  iclear HIx
  ihave AccZfr := (acc_step (famZfr (F := F) c) 9 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W125, HO⟩
  -- step 287: wait arg2[10] (arg1[(k0_off1 d0 640#32)], arg0[(k0_off2 d0 640#32)])
  first | sl_exec | skip
  ihave Hs := (Entails.of_eq (take_step (famCYS (F := F) c) 10 (by decide))) $$ [FcYS]
  · iexact FcYS
  icases Hs with ⟨Hc, FcYS⟩
  ihave Hs := (Entails.of_eq (take_step (famAtYS (F := F) c) 10 (by decide))) $$ [FatYS]
  · iexact FatYS
  icases Hs with ⟨Hat, FatYS⟩
  ihave #HIw := (Prep.inv_ys m K c 10) $$ HI
  iapply (Rounds.wp_wait_rest_token 𝒱₀ ER (rd m) (c : Thread nD τ) none (κ := K (c, some (0, 10))) (sm := .dma (ysS 10))
      (wpE_waitDma2_eq 𝒱₀ (c : Thread nD τ) none Set.univ (src := yDst c 10) (dst := ySrc c 10)) (Set.mem_univ _) () (O := 0) (W := W125) (R := 0) (m := 0) (T := ∅)
      (by rw [Nat.zero_add]; exact (expect_ys m c 10).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 10)) $$ Hpay
  ihave AccXY := (acc_step (famXY m c) 10 (by decide)) $$ [AccXY Hxy]
  · isplitl [AccXY]; · iexact AccXY
    iexact Hxy
  ihave #HIx := (Prep.inv_ys m K c 10) $$ HI
  imod (Rounds.cell_close ER (rd m) (Set.mem_univ (K (c, some (0, 10)))) (fun h => h) (R := 0 + 1) (duties_ys_later m c 10)) $$ [Hat] with Hz
  · isplitr; · iexact HIx
    iexact Hat
  iclear HIx
  ihave AccZys := (acc_step (famZys (F := F) c) 10 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W126, HO⟩
  -- step 288: wait arg4[10] (arg1[(k0_off3 d0 640#32)], arg1[(k0_off3 d0 640#32)])
  first | sl_exec | skip
  ihave Hs := (Entails.of_eq (take_step (famCFS (F := F) c) 10 (by decide))) $$ [FcFS]
  · iexact FcFS
  icases Hs with ⟨Hc, FcFS⟩
  ihave Hs := (Entails.of_eq (take_step (famAtFS (F := F) c) 10 (by decide))) $$ [FatFS]
  · iexact FatFS
  icases Hs with ⟨Hat, FatFS⟩
  ihave #HIw := (Prep.inv_fs m K c 10) $$ HI
  iapply (Rounds.wp_wait_rest_token 𝒱₀ ER (rd m) (c : Thread nD τ) none (κ := K (c, some (2, 10))) (sm := .dma (fsS 10))
      (wpE_waitDma2_eq 𝒱₀ (c : Thread nD τ) none Set.univ (src := fSl c 10) (dst := fSl c 10)) (Set.mem_univ _) () (O := 0) (W := W126) (R := 0) (m := 0) (T := ∅)
      (by rw [Nat.zero_add]; exact (expect_fs m c 10).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 10)) $$ Hpay
  ihave AccY := (acc_step (famY m c) 10 (by decide)) $$ [AccY HYk]
  · isplitl [AccY]; · iexact AccY
    iexact HYk
  ihave #HIx := (Prep.inv_fs m K c 10) $$ HI
  imod (Rounds.cell_close ER (rd m) (Set.mem_univ (K (c, some (2, 10)))) (fun h => h) (R := 0 + 1) (duties_fs_later m c 10)) $$ [Hat] with Hz
  · isplitr; · iexact HIx
    iexact Hat
  iclear HIx
  ihave AccZfs := (acc_step (famZfs (F := F) c) 10 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W127, HO⟩
  -- step 289: wait arg5[10] (arg1[(k0_off3 d0 640#32)], arg1[(k0_off3 d0 640#32)])
  first | sl_exec | skip
  ihave Hs := (Entails.of_eq (take_step (famCFR (F := F) c) 10 (by decide))) $$ [FcFR]
  · iexact FcFR
  icases Hs with ⟨Hc, FcFR⟩
  ihave Hs := (Entails.of_eq (take_step (famAtFR (F := F) c) 10 (by decide))) $$ [FatFR]
  · iexact FatFR
  icases Hs with ⟨Hat, FatFR⟩
  ihave #HIw := (Prep.inv_fr m K c 10) $$ HI
  iapply (Rounds.wp_wait_rest_token 𝒱₀ ER (rd m) (c : Thread nD τ) none (κ := K (c, some (3, 10))) (sm := .dma (frS 10))
      (wpE_waitDma2_eq 𝒱₀ (c : Thread nD τ) none Set.univ (src := fSl c 10) (dst := fSl c 10)) (Set.mem_univ _) () (O := 0) (W := W127) (R := 0) (m := 0) (T := ∅)
      (by rw [Nat.zero_add]; exact (expect_fr m c 10).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 10)) $$ Hpay
  ihave AccF := (acc_step (famF m c) 10 (by decide)) $$ [AccF HFk]
  · isplitl [AccF]; · iexact AccF
    iexact HFk
  ihave #HIx := (Prep.inv_fr m K c 10) $$ HI
  imod (Rounds.cell_close ER (rd m) (Set.mem_univ (K (c, some (3, 10)))) (fun h => h) (R := 0 + 1) (duties_fr_later m c 10)) $$ [Hat] with Hz
  · isplitr; · iexact HIx
    iexact Hat
  iclear HIx
  ihave AccZfr := (acc_step (famZfr (F := F) c) 10 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W128, HO⟩
  -- step 290: wait arg2[11] (arg1[(k0_off1 d0 704#32)], arg0[(k0_off2 d0 704#32)])
  first | sl_exec | skip
  ihave Hs := (Entails.of_eq (take_step (famCYS (F := F) c) 11 (by decide))) $$ [FcYS]
  · iexact FcYS
  icases Hs with ⟨Hc, FcYS⟩
  ihave Hs := (Entails.of_eq (take_step (famAtYS (F := F) c) 11 (by decide))) $$ [FatYS]
  · iexact FatYS
  icases Hs with ⟨Hat, FatYS⟩
  ihave #HIw := (Prep.inv_ys m K c 11) $$ HI
  iapply (Rounds.wp_wait_rest_token 𝒱₀ ER (rd m) (c : Thread nD τ) none (κ := K (c, some (0, 11))) (sm := .dma (ysS 11))
      (wpE_waitDma2_eq 𝒱₀ (c : Thread nD τ) none Set.univ (src := yDst c 11) (dst := ySrc c 11)) (Set.mem_univ _) () (O := 0) (W := W128) (R := 0) (m := 0) (T := ∅)
      (by rw [Nat.zero_add]; exact (expect_ys m c 11).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 11)) $$ Hpay
  ihave AccXY := (acc_step (famXY m c) 11 (by decide)) $$ [AccXY Hxy]
  · isplitl [AccXY]; · iexact AccXY
    iexact Hxy
  ihave #HIx := (Prep.inv_ys m K c 11) $$ HI
  imod (Rounds.cell_close ER (rd m) (Set.mem_univ (K (c, some (0, 11)))) (fun h => h) (R := 0 + 1) (duties_ys_later m c 11)) $$ [Hat] with Hz
  · isplitr; · iexact HIx
    iexact Hat
  iclear HIx
  ihave AccZys := (acc_step (famZys (F := F) c) 11 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W129, HO⟩
  -- step 291: wait arg4[11] (arg1[(k0_off3 d0 704#32)], arg1[(k0_off3 d0 704#32)])
  first | sl_exec | skip
  ihave Hs := (Entails.of_eq (take_step (famCFS (F := F) c) 11 (by decide))) $$ [FcFS]
  · iexact FcFS
  icases Hs with ⟨Hc, FcFS⟩
  ihave Hs := (Entails.of_eq (take_step (famAtFS (F := F) c) 11 (by decide))) $$ [FatFS]
  · iexact FatFS
  icases Hs with ⟨Hat, FatFS⟩
  ihave #HIw := (Prep.inv_fs m K c 11) $$ HI
  iapply (Rounds.wp_wait_rest_token 𝒱₀ ER (rd m) (c : Thread nD τ) none (κ := K (c, some (2, 11))) (sm := .dma (fsS 11))
      (wpE_waitDma2_eq 𝒱₀ (c : Thread nD τ) none Set.univ (src := fSl c 11) (dst := fSl c 11)) (Set.mem_univ _) () (O := 0) (W := W129) (R := 0) (m := 0) (T := ∅)
      (by rw [Nat.zero_add]; exact (expect_fs m c 11).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 11)) $$ Hpay
  ihave AccY := (acc_step (famY m c) 11 (by decide)) $$ [AccY HYk]
  · isplitl [AccY]; · iexact AccY
    iexact HYk
  ihave #HIx := (Prep.inv_fs m K c 11) $$ HI
  imod (Rounds.cell_close ER (rd m) (Set.mem_univ (K (c, some (2, 11)))) (fun h => h) (R := 0 + 1) (duties_fs_later m c 11)) $$ [Hat] with Hz
  · isplitr; · iexact HIx
    iexact Hat
  iclear HIx
  ihave AccZfs := (acc_step (famZfs (F := F) c) 11 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W130, HO⟩
  -- step 292: wait arg5[11] (arg1[(k0_off3 d0 704#32)], arg1[(k0_off3 d0 704#32)])
  first | sl_exec | skip
  ihave Hs := (Entails.of_eq (take_step (famCFR (F := F) c) 11 (by decide))) $$ [FcFR]
  · iexact FcFR
  icases Hs with ⟨Hc, FcFR⟩
  ihave Hs := (Entails.of_eq (take_step (famAtFR (F := F) c) 11 (by decide))) $$ [FatFR]
  · iexact FatFR
  icases Hs with ⟨Hat, FatFR⟩
  ihave #HIw := (Prep.inv_fr m K c 11) $$ HI
  iapply (Rounds.wp_wait_rest_token 𝒱₀ ER (rd m) (c : Thread nD τ) none (κ := K (c, some (3, 11))) (sm := .dma (frS 11))
      (wpE_waitDma2_eq 𝒱₀ (c : Thread nD τ) none Set.univ (src := fSl c 11) (dst := fSl c 11)) (Set.mem_univ _) () (O := 0) (W := W130) (R := 0) (m := 0) (T := ∅)
      (by rw [Nat.zero_add]; exact (expect_fr m c 11).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 11)) $$ Hpay
  ihave AccF := (acc_step (famF m c) 11 (by decide)) $$ [AccF HFk]
  · isplitl [AccF]; · iexact AccF
    iexact HFk
  ihave #HIx := (Prep.inv_fr m K c 11) $$ HI
  imod (Rounds.cell_close ER (rd m) (Set.mem_univ (K (c, some (3, 11)))) (fun h => h) (R := 0 + 1) (duties_fr_later m c 11)) $$ [Hat] with Hz
  · isplitr; · iexact HIx
    iexact Hat
  iclear HIx
  ihave AccZfr := (acc_step (famZfr (F := F) c) 11 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W131, HO⟩
  -- step 293: wait arg2[12] (arg1[(k0_off1 d0 768#32)], arg0[(k0_off2 d0 768#32)])
  first | sl_exec | skip
  ihave Hs := (Entails.of_eq (take_step (famCYS (F := F) c) 12 (by decide))) $$ [FcYS]
  · iexact FcYS
  icases Hs with ⟨Hc, FcYS⟩
  ihave Hs := (Entails.of_eq (take_step (famAtYS (F := F) c) 12 (by decide))) $$ [FatYS]
  · iexact FatYS
  icases Hs with ⟨Hat, FatYS⟩
  ihave #HIw := (Prep.inv_ys m K c 12) $$ HI
  iapply (Rounds.wp_wait_rest_token 𝒱₀ ER (rd m) (c : Thread nD τ) none (κ := K (c, some (0, 12))) (sm := .dma (ysS 12))
      (wpE_waitDma2_eq 𝒱₀ (c : Thread nD τ) none Set.univ (src := yDst c 12) (dst := ySrc c 12)) (Set.mem_univ _) () (O := 0) (W := W131) (R := 0) (m := 0) (T := ∅)
      (by rw [Nat.zero_add]; exact (expect_ys m c 12).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 12)) $$ Hpay
  ihave AccXY := (acc_step (famXY m c) 12 (by decide)) $$ [AccXY Hxy]
  · isplitl [AccXY]; · iexact AccXY
    iexact Hxy
  ihave #HIx := (Prep.inv_ys m K c 12) $$ HI
  imod (Rounds.cell_close ER (rd m) (Set.mem_univ (K (c, some (0, 12)))) (fun h => h) (R := 0 + 1) (duties_ys_later m c 12)) $$ [Hat] with Hz
  · isplitr; · iexact HIx
    iexact Hat
  iclear HIx
  ihave AccZys := (acc_step (famZys (F := F) c) 12 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W132, HO⟩
  -- step 294: wait arg4[12] (arg1[(k0_off3 d0 768#32)], arg1[(k0_off3 d0 768#32)])
  first | sl_exec | skip
  ihave Hs := (Entails.of_eq (take_step (famCFS (F := F) c) 12 (by decide))) $$ [FcFS]
  · iexact FcFS
  icases Hs with ⟨Hc, FcFS⟩
  ihave Hs := (Entails.of_eq (take_step (famAtFS (F := F) c) 12 (by decide))) $$ [FatFS]
  · iexact FatFS
  icases Hs with ⟨Hat, FatFS⟩
  ihave #HIw := (Prep.inv_fs m K c 12) $$ HI
  iapply (Rounds.wp_wait_rest_token 𝒱₀ ER (rd m) (c : Thread nD τ) none (κ := K (c, some (2, 12))) (sm := .dma (fsS 12))
      (wpE_waitDma2_eq 𝒱₀ (c : Thread nD τ) none Set.univ (src := fSl c 12) (dst := fSl c 12)) (Set.mem_univ _) () (O := 0) (W := W132) (R := 0) (m := 0) (T := ∅)
      (by rw [Nat.zero_add]; exact (expect_fs m c 12).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 12)) $$ Hpay
  ihave AccY := (acc_step (famY m c) 12 (by decide)) $$ [AccY HYk]
  · isplitl [AccY]; · iexact AccY
    iexact HYk
  ihave #HIx := (Prep.inv_fs m K c 12) $$ HI
  imod (Rounds.cell_close ER (rd m) (Set.mem_univ (K (c, some (2, 12)))) (fun h => h) (R := 0 + 1) (duties_fs_later m c 12)) $$ [Hat] with Hz
  · isplitr; · iexact HIx
    iexact Hat
  iclear HIx
  ihave AccZfs := (acc_step (famZfs (F := F) c) 12 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W133, HO⟩
  -- step 295: wait arg5[12] (arg1[(k0_off3 d0 768#32)], arg1[(k0_off3 d0 768#32)])
  first | sl_exec | skip
  ihave Hs := (Entails.of_eq (take_step (famCFR (F := F) c) 12 (by decide))) $$ [FcFR]
  · iexact FcFR
  icases Hs with ⟨Hc, FcFR⟩
  ihave Hs := (Entails.of_eq (take_step (famAtFR (F := F) c) 12 (by decide))) $$ [FatFR]
  · iexact FatFR
  icases Hs with ⟨Hat, FatFR⟩
  ihave #HIw := (Prep.inv_fr m K c 12) $$ HI
  iapply (Rounds.wp_wait_rest_token 𝒱₀ ER (rd m) (c : Thread nD τ) none (κ := K (c, some (3, 12))) (sm := .dma (frS 12))
      (wpE_waitDma2_eq 𝒱₀ (c : Thread nD τ) none Set.univ (src := fSl c 12) (dst := fSl c 12)) (Set.mem_univ _) () (O := 0) (W := W133) (R := 0) (m := 0) (T := ∅)
      (by rw [Nat.zero_add]; exact (expect_fr m c 12).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 12)) $$ Hpay
  ihave AccF := (acc_step (famF m c) 12 (by decide)) $$ [AccF HFk]
  · isplitl [AccF]; · iexact AccF
    iexact HFk
  ihave #HIx := (Prep.inv_fr m K c 12) $$ HI
  imod (Rounds.cell_close ER (rd m) (Set.mem_univ (K (c, some (3, 12)))) (fun h => h) (R := 0 + 1) (duties_fr_later m c 12)) $$ [Hat] with Hz
  · isplitr; · iexact HIx
    iexact Hat
  iclear HIx
  ihave AccZfr := (acc_step (famZfr (F := F) c) 12 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W134, HO⟩
  -- step 296: wait arg2[13] (arg1[(k0_off1 d0 832#32)], arg0[(k0_off2 d0 832#32)])
  first | sl_exec | skip
  ihave Hs := (Entails.of_eq (take_step (famCYS (F := F) c) 13 (by decide))) $$ [FcYS]
  · iexact FcYS
  icases Hs with ⟨Hc, FcYS⟩
  ihave Hs := (Entails.of_eq (take_step (famAtYS (F := F) c) 13 (by decide))) $$ [FatYS]
  · iexact FatYS
  icases Hs with ⟨Hat, FatYS⟩
  ihave #HIw := (Prep.inv_ys m K c 13) $$ HI
  iapply (Rounds.wp_wait_rest_token 𝒱₀ ER (rd m) (c : Thread nD τ) none (κ := K (c, some (0, 13))) (sm := .dma (ysS 13))
      (wpE_waitDma2_eq 𝒱₀ (c : Thread nD τ) none Set.univ (src := yDst c 13) (dst := ySrc c 13)) (Set.mem_univ _) () (O := 0) (W := W134) (R := 0) (m := 0) (T := ∅)
      (by rw [Nat.zero_add]; exact (expect_ys m c 13).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 13)) $$ Hpay
  ihave AccXY := (acc_step (famXY m c) 13 (by decide)) $$ [AccXY Hxy]
  · isplitl [AccXY]; · iexact AccXY
    iexact Hxy
  ihave #HIx := (Prep.inv_ys m K c 13) $$ HI
  imod (Rounds.cell_close ER (rd m) (Set.mem_univ (K (c, some (0, 13)))) (fun h => h) (R := 0 + 1) (duties_ys_later m c 13)) $$ [Hat] with Hz
  · isplitr; · iexact HIx
    iexact Hat
  iclear HIx
  ihave AccZys := (acc_step (famZys (F := F) c) 13 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W135, HO⟩
  -- step 297: wait arg4[13] (arg1[(k0_off3 d0 832#32)], arg1[(k0_off3 d0 832#32)])
  first | sl_exec | skip
  ihave Hs := (Entails.of_eq (take_step (famCFS (F := F) c) 13 (by decide))) $$ [FcFS]
  · iexact FcFS
  icases Hs with ⟨Hc, FcFS⟩
  ihave Hs := (Entails.of_eq (take_step (famAtFS (F := F) c) 13 (by decide))) $$ [FatFS]
  · iexact FatFS
  icases Hs with ⟨Hat, FatFS⟩
  ihave #HIw := (Prep.inv_fs m K c 13) $$ HI
  iapply (Rounds.wp_wait_rest_token 𝒱₀ ER (rd m) (c : Thread nD τ) none (κ := K (c, some (2, 13))) (sm := .dma (fsS 13))
      (wpE_waitDma2_eq 𝒱₀ (c : Thread nD τ) none Set.univ (src := fSl c 13) (dst := fSl c 13)) (Set.mem_univ _) () (O := 0) (W := W135) (R := 0) (m := 0) (T := ∅)
      (by rw [Nat.zero_add]; exact (expect_fs m c 13).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 13)) $$ Hpay
  ihave AccY := (acc_step (famY m c) 13 (by decide)) $$ [AccY HYk]
  · isplitl [AccY]; · iexact AccY
    iexact HYk
  ihave #HIx := (Prep.inv_fs m K c 13) $$ HI
  imod (Rounds.cell_close ER (rd m) (Set.mem_univ (K (c, some (2, 13)))) (fun h => h) (R := 0 + 1) (duties_fs_later m c 13)) $$ [Hat] with Hz
  · isplitr; · iexact HIx
    iexact Hat
  iclear HIx
  ihave AccZfs := (acc_step (famZfs (F := F) c) 13 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W136, HO⟩
  -- step 298: wait arg5[13] (arg1[(k0_off3 d0 832#32)], arg1[(k0_off3 d0 832#32)])
  first | sl_exec | skip
  ihave Hs := (Entails.of_eq (take_step (famCFR (F := F) c) 13 (by decide))) $$ [FcFR]
  · iexact FcFR
  icases Hs with ⟨Hc, FcFR⟩
  ihave Hs := (Entails.of_eq (take_step (famAtFR (F := F) c) 13 (by decide))) $$ [FatFR]
  · iexact FatFR
  icases Hs with ⟨Hat, FatFR⟩
  ihave #HIw := (Prep.inv_fr m K c 13) $$ HI
  iapply (Rounds.wp_wait_rest_token 𝒱₀ ER (rd m) (c : Thread nD τ) none (κ := K (c, some (3, 13))) (sm := .dma (frS 13))
      (wpE_waitDma2_eq 𝒱₀ (c : Thread nD τ) none Set.univ (src := fSl c 13) (dst := fSl c 13)) (Set.mem_univ _) () (O := 0) (W := W136) (R := 0) (m := 0) (T := ∅)
      (by rw [Nat.zero_add]; exact (expect_fr m c 13).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 13)) $$ Hpay
  ihave AccF := (acc_step (famF m c) 13 (by decide)) $$ [AccF HFk]
  · isplitl [AccF]; · iexact AccF
    iexact HFk
  ihave #HIx := (Prep.inv_fr m K c 13) $$ HI
  imod (Rounds.cell_close ER (rd m) (Set.mem_univ (K (c, some (3, 13)))) (fun h => h) (R := 0 + 1) (duties_fr_later m c 13)) $$ [Hat] with Hz
  · isplitr; · iexact HIx
    iexact Hat
  iclear HIx
  ihave AccZfr := (acc_step (famZfr (F := F) c) 13 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W137, HO⟩
  -- step 299: wait arg2[14] (arg1[(k0_off1 d0 896#32)], arg0[(k0_off2 d0 896#32)])
  first | sl_exec | skip
  ihave Hs := (Entails.of_eq (take_step (famCYS (F := F) c) 14 (by decide))) $$ [FcYS]
  · iexact FcYS
  icases Hs with ⟨Hc, FcYS⟩
  ihave Hs := (Entails.of_eq (take_step (famAtYS (F := F) c) 14 (by decide))) $$ [FatYS]
  · iexact FatYS
  icases Hs with ⟨Hat, FatYS⟩
  ihave #HIw := (Prep.inv_ys m K c 14) $$ HI
  iapply (Rounds.wp_wait_rest_token 𝒱₀ ER (rd m) (c : Thread nD τ) none (κ := K (c, some (0, 14))) (sm := .dma (ysS 14))
      (wpE_waitDma2_eq 𝒱₀ (c : Thread nD τ) none Set.univ (src := yDst c 14) (dst := ySrc c 14)) (Set.mem_univ _) () (O := 0) (W := W137) (R := 0) (m := 0) (T := ∅)
      (by rw [Nat.zero_add]; exact (expect_ys m c 14).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 14)) $$ Hpay
  ihave AccXY := (acc_step (famXY m c) 14 (by decide)) $$ [AccXY Hxy]
  · isplitl [AccXY]; · iexact AccXY
    iexact Hxy
  ihave #HIx := (Prep.inv_ys m K c 14) $$ HI
  imod (Rounds.cell_close ER (rd m) (Set.mem_univ (K (c, some (0, 14)))) (fun h => h) (R := 0 + 1) (duties_ys_later m c 14)) $$ [Hat] with Hz
  · isplitr; · iexact HIx
    iexact Hat
  iclear HIx
  ihave AccZys := (acc_step (famZys (F := F) c) 14 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W138, HO⟩
  -- step 300: wait arg4[14] (arg1[(k0_off3 d0 896#32)], arg1[(k0_off3 d0 896#32)])
  first | sl_exec | skip
  ihave Hs := (Entails.of_eq (take_step (famCFS (F := F) c) 14 (by decide))) $$ [FcFS]
  · iexact FcFS
  icases Hs with ⟨Hc, FcFS⟩
  ihave Hs := (Entails.of_eq (take_step (famAtFS (F := F) c) 14 (by decide))) $$ [FatFS]
  · iexact FatFS
  icases Hs with ⟨Hat, FatFS⟩
  ihave #HIw := (Prep.inv_fs m K c 14) $$ HI
  iapply (Rounds.wp_wait_rest_token 𝒱₀ ER (rd m) (c : Thread nD τ) none (κ := K (c, some (2, 14))) (sm := .dma (fsS 14))
      (wpE_waitDma2_eq 𝒱₀ (c : Thread nD τ) none Set.univ (src := fSl c 14) (dst := fSl c 14)) (Set.mem_univ _) () (O := 0) (W := W138) (R := 0) (m := 0) (T := ∅)
      (by rw [Nat.zero_add]; exact (expect_fs m c 14).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 14)) $$ Hpay
  ihave AccY := (acc_step (famY m c) 14 (by decide)) $$ [AccY HYk]
  · isplitl [AccY]; · iexact AccY
    iexact HYk
  ihave #HIx := (Prep.inv_fs m K c 14) $$ HI
  imod (Rounds.cell_close ER (rd m) (Set.mem_univ (K (c, some (2, 14)))) (fun h => h) (R := 0 + 1) (duties_fs_later m c 14)) $$ [Hat] with Hz
  · isplitr; · iexact HIx
    iexact Hat
  iclear HIx
  ihave AccZfs := (acc_step (famZfs (F := F) c) 14 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W139, HO⟩
  -- step 301: wait arg5[14] (arg1[(k0_off3 d0 896#32)], arg1[(k0_off3 d0 896#32)])
  first | sl_exec | skip
  ihave Hs := (Entails.of_eq (take_step (famCFR (F := F) c) 14 (by decide))) $$ [FcFR]
  · iexact FcFR
  icases Hs with ⟨Hc, FcFR⟩
  ihave Hs := (Entails.of_eq (take_step (famAtFR (F := F) c) 14 (by decide))) $$ [FatFR]
  · iexact FatFR
  icases Hs with ⟨Hat, FatFR⟩
  ihave #HIw := (Prep.inv_fr m K c 14) $$ HI
  iapply (Rounds.wp_wait_rest_token 𝒱₀ ER (rd m) (c : Thread nD τ) none (κ := K (c, some (3, 14))) (sm := .dma (frS 14))
      (wpE_waitDma2_eq 𝒱₀ (c : Thread nD τ) none Set.univ (src := fSl c 14) (dst := fSl c 14)) (Set.mem_univ _) () (O := 0) (W := W139) (R := 0) (m := 0) (T := ∅)
      (by rw [Nat.zero_add]; exact (expect_fr m c 14).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 14)) $$ Hpay
  ihave AccF := (acc_step (famF m c) 14 (by decide)) $$ [AccF HFk]
  · isplitl [AccF]; · iexact AccF
    iexact HFk
  ihave #HIx := (Prep.inv_fr m K c 14) $$ HI
  imod (Rounds.cell_close ER (rd m) (Set.mem_univ (K (c, some (3, 14)))) (fun h => h) (R := 0 + 1) (duties_fr_later m c 14)) $$ [Hat] with Hz
  · isplitr; · iexact HIx
    iexact Hat
  iclear HIx
  ihave AccZfr := (acc_step (famZfr (F := F) c) 14 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W140, HO⟩
  -- step 302: wait arg2[15] (arg1[(k0_off1 d0 960#32)], arg0[(k0_off2 d0 960#32)])
  first | sl_exec | skip
  ihave Hs := (Entails.of_eq (take_step (famCYS (F := F) c) 15 (by decide))) $$ [FcYS]
  · iexact FcYS
  icases Hs with ⟨Hc, FcYS⟩
  ihave Hs := (Entails.of_eq (take_step (famAtYS (F := F) c) 15 (by decide))) $$ [FatYS]
  · iexact FatYS
  icases Hs with ⟨Hat, FatYS⟩
  ihave #HIw := (Prep.inv_ys m K c 15) $$ HI
  iapply (Rounds.wp_wait_rest_token 𝒱₀ ER (rd m) (c : Thread nD τ) none (κ := K (c, some (0, 15))) (sm := .dma (ysS 15))
      (wpE_waitDma2_eq 𝒱₀ (c : Thread nD τ) none Set.univ (src := yDst c 15) (dst := ySrc c 15)) (Set.mem_univ _) () (O := 0) (W := W140) (R := 0) (m := 0) (T := ∅)
      (by rw [Nat.zero_add]; exact (expect_ys m c 15).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 15)) $$ Hpay
  ihave AccXY := (acc_step (famXY m c) 15 (by decide)) $$ [AccXY Hxy]
  · isplitl [AccXY]; · iexact AccXY
    iexact Hxy
  ihave #HIx := (Prep.inv_ys m K c 15) $$ HI
  imod (Rounds.cell_close ER (rd m) (Set.mem_univ (K (c, some (0, 15)))) (fun h => h) (R := 0 + 1) (duties_ys_later m c 15)) $$ [Hat] with Hz
  · isplitr; · iexact HIx
    iexact Hat
  iclear HIx
  ihave AccZys := (acc_step (famZys (F := F) c) 15 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W141, HO⟩
  -- step 303: wait arg4[15] (arg1[(k0_off3 d0 960#32)], arg1[(k0_off3 d0 960#32)])
  first | sl_exec | skip
  ihave Hs := (Entails.of_eq (take_step (famCFS (F := F) c) 15 (by decide))) $$ [FcFS]
  · iexact FcFS
  icases Hs with ⟨Hc, FcFS⟩
  ihave Hs := (Entails.of_eq (take_step (famAtFS (F := F) c) 15 (by decide))) $$ [FatFS]
  · iexact FatFS
  icases Hs with ⟨Hat, FatFS⟩
  ihave #HIw := (Prep.inv_fs m K c 15) $$ HI
  iapply (Rounds.wp_wait_rest_token 𝒱₀ ER (rd m) (c : Thread nD τ) none (κ := K (c, some (2, 15))) (sm := .dma (fsS 15))
      (wpE_waitDma2_eq 𝒱₀ (c : Thread nD τ) none Set.univ (src := fSl c 15) (dst := fSl c 15)) (Set.mem_univ _) () (O := 0) (W := W141) (R := 0) (m := 0) (T := ∅)
      (by rw [Nat.zero_add]; exact (expect_fs m c 15).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 15)) $$ Hpay
  ihave AccY := (acc_step (famY m c) 15 (by decide)) $$ [AccY HYk]
  · isplitl [AccY]; · iexact AccY
    iexact HYk
  ihave #HIx := (Prep.inv_fs m K c 15) $$ HI
  imod (Rounds.cell_close ER (rd m) (Set.mem_univ (K (c, some (2, 15)))) (fun h => h) (R := 0 + 1) (duties_fs_later m c 15)) $$ [Hat] with Hz
  · isplitr; · iexact HIx
    iexact Hat
  iclear HIx
  ihave AccZfs := (acc_step (famZfs (F := F) c) 15 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W142, HO⟩
  -- step 304: wait arg5[15] (arg1[(k0_off3 d0 960#32)], arg1[(k0_off3 d0 960#32)])
  first | sl_exec | skip
  ihave Hs := (Entails.of_eq (take_step (famCFR (F := F) c) 15 (by decide))) $$ [FcFR]
  · iexact FcFR
  icases Hs with ⟨Hc, FcFR⟩
  ihave Hs := (Entails.of_eq (take_step (famAtFR (F := F) c) 15 (by decide))) $$ [FatFR]
  · iexact FatFR
  icases Hs with ⟨Hat, FatFR⟩
  ihave #HIw := (Prep.inv_fr m K c 15) $$ HI
  iapply (Rounds.wp_wait_rest_token 𝒱₀ ER (rd m) (c : Thread nD τ) none (κ := K (c, some (3, 15))) (sm := .dma (frS 15))
      (wpE_waitDma2_eq 𝒱₀ (c : Thread nD τ) none Set.univ (src := fSl c 15) (dst := fSl c 15)) (Set.mem_univ _) () (O := 0) (W := W142) (R := 0) (m := 0) (T := ∅)
      (by rw [Nat.zero_add]; exact (expect_fr m c 15).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 15)) $$ Hpay
  ihave AccF := (acc_step (famF m c) 15 (by decide)) $$ [AccF HFk]
  · isplitl [AccF]; · iexact AccF
    iexact HFk
  ihave #HIx := (Prep.inv_fr m K c 15) $$ HI
  imod (Rounds.cell_close ER (rd m) (Set.mem_univ (K (c, some (3, 15)))) (fun h => h) (R := 0 + 1) (duties_fr_later m c 15)) $$ [Hat] with Hz
  · isplitr; · iexact HIx
    iexact Hat
  iclear HIx
  ihave AccZfr := (acc_step (famZfr (F := F) c) 15 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W143, HO⟩
  -- step 305: wait arg2[16] (arg1[(k0_off1 d0 1024#32)], arg0[(k0_off2 d0 1024#32)])
  first | sl_exec | skip
  ihave Hs := (Entails.of_eq (take_step (famCYS (F := F) c) 16 (by decide))) $$ [FcYS]
  · iexact FcYS
  icases Hs with ⟨Hc, FcYS⟩
  ihave Hs := (Entails.of_eq (take_step (famAtYS (F := F) c) 16 (by decide))) $$ [FatYS]
  · iexact FatYS
  icases Hs with ⟨Hat, FatYS⟩
  ihave #HIw := (Prep.inv_ys m K c 16) $$ HI
  iapply (Rounds.wp_wait_rest_token 𝒱₀ ER (rd m) (c : Thread nD τ) none (κ := K (c, some (0, 16))) (sm := .dma (ysS 16))
      (wpE_waitDma2_eq 𝒱₀ (c : Thread nD τ) none Set.univ (src := yDst c 16) (dst := ySrc c 16)) (Set.mem_univ _) () (O := 0) (W := W143) (R := 0) (m := 0) (T := ∅)
      (by rw [Nat.zero_add]; exact (expect_ys m c 16).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 16)) $$ Hpay
  ihave AccXY := (acc_step (famXY m c) 16 (by decide)) $$ [AccXY Hxy]
  · isplitl [AccXY]; · iexact AccXY
    iexact Hxy
  ihave #HIx := (Prep.inv_ys m K c 16) $$ HI
  imod (Rounds.cell_close ER (rd m) (Set.mem_univ (K (c, some (0, 16)))) (fun h => h) (R := 0 + 1) (duties_ys_later m c 16)) $$ [Hat] with Hz
  · isplitr; · iexact HIx
    iexact Hat
  iclear HIx
  ihave AccZys := (acc_step (famZys (F := F) c) 16 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W144, HO⟩
  -- step 306: wait arg4[16] (arg1[(k0_off3 d0 1024#32)], arg1[(k0_off3 d0 1024#32)])
  first | sl_exec | skip
  ihave Hs := (Entails.of_eq (take_step (famCFS (F := F) c) 16 (by decide))) $$ [FcFS]
  · iexact FcFS
  icases Hs with ⟨Hc, FcFS⟩
  ihave Hs := (Entails.of_eq (take_step (famAtFS (F := F) c) 16 (by decide))) $$ [FatFS]
  · iexact FatFS
  icases Hs with ⟨Hat, FatFS⟩
  ihave #HIw := (Prep.inv_fs m K c 16) $$ HI
  iapply (Rounds.wp_wait_rest_token 𝒱₀ ER (rd m) (c : Thread nD τ) none (κ := K (c, some (2, 16))) (sm := .dma (fsS 16))
      (wpE_waitDma2_eq 𝒱₀ (c : Thread nD τ) none Set.univ (src := fSl c 16) (dst := fSl c 16)) (Set.mem_univ _) () (O := 0) (W := W144) (R := 0) (m := 0) (T := ∅)
      (by rw [Nat.zero_add]; exact (expect_fs m c 16).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 16)) $$ Hpay
  ihave AccY := (acc_step (famY m c) 16 (by decide)) $$ [AccY HYk]
  · isplitl [AccY]; · iexact AccY
    iexact HYk
  ihave #HIx := (Prep.inv_fs m K c 16) $$ HI
  imod (Rounds.cell_close ER (rd m) (Set.mem_univ (K (c, some (2, 16)))) (fun h => h) (R := 0 + 1) (duties_fs_later m c 16)) $$ [Hat] with Hz
  · isplitr; · iexact HIx
    iexact Hat
  iclear HIx
  ihave AccZfs := (acc_step (famZfs (F := F) c) 16 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W145, HO⟩
  -- step 307: wait arg5[16] (arg1[(k0_off3 d0 1024#32)], arg1[(k0_off3 d0 1024#32)])
  first | sl_exec | skip
  ihave Hs := (Entails.of_eq (take_step (famCFR (F := F) c) 16 (by decide))) $$ [FcFR]
  · iexact FcFR
  icases Hs with ⟨Hc, FcFR⟩
  ihave Hs := (Entails.of_eq (take_step (famAtFR (F := F) c) 16 (by decide))) $$ [FatFR]
  · iexact FatFR
  icases Hs with ⟨Hat, FatFR⟩
  ihave #HIw := (Prep.inv_fr m K c 16) $$ HI
  iapply (Rounds.wp_wait_rest_token 𝒱₀ ER (rd m) (c : Thread nD τ) none (κ := K (c, some (3, 16))) (sm := .dma (frS 16))
      (wpE_waitDma2_eq 𝒱₀ (c : Thread nD τ) none Set.univ (src := fSl c 16) (dst := fSl c 16)) (Set.mem_univ _) () (O := 0) (W := W145) (R := 0) (m := 0) (T := ∅)
      (by rw [Nat.zero_add]; exact (expect_fr m c 16).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 16)) $$ Hpay
  ihave AccF := (acc_step (famF m c) 16 (by decide)) $$ [AccF HFk]
  · isplitl [AccF]; · iexact AccF
    iexact HFk
  ihave #HIx := (Prep.inv_fr m K c 16) $$ HI
  imod (Rounds.cell_close ER (rd m) (Set.mem_univ (K (c, some (3, 16)))) (fun h => h) (R := 0 + 1) (duties_fr_later m c 16)) $$ [Hat] with Hz
  · isplitr; · iexact HIx
    iexact Hat
  iclear HIx
  ihave AccZfr := (acc_step (famZfr (F := F) c) 16 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W146, HO⟩
  -- step 308: wait arg2[17] (arg1[(k0_off1 d0 1088#32)], arg0[(k0_off2 d0 1088#32)])
  first | sl_exec | skip
  ihave Hs := (Entails.of_eq (take_step (famCYS (F := F) c) 17 (by decide))) $$ [FcYS]
  · iexact FcYS
  icases Hs with ⟨Hc, FcYS⟩
  ihave Hs := (Entails.of_eq (take_step (famAtYS (F := F) c) 17 (by decide))) $$ [FatYS]
  · iexact FatYS
  icases Hs with ⟨Hat, FatYS⟩
  ihave #HIw := (Prep.inv_ys m K c 17) $$ HI
  iapply (Rounds.wp_wait_rest_token 𝒱₀ ER (rd m) (c : Thread nD τ) none (κ := K (c, some (0, 17))) (sm := .dma (ysS 17))
      (wpE_waitDma2_eq 𝒱₀ (c : Thread nD τ) none Set.univ (src := yDst c 17) (dst := ySrc c 17)) (Set.mem_univ _) () (O := 0) (W := W146) (R := 0) (m := 0) (T := ∅)
      (by rw [Nat.zero_add]; exact (expect_ys m c 17).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 17)) $$ Hpay
  ihave AccXY := (acc_step (famXY m c) 17 (by decide)) $$ [AccXY Hxy]
  · isplitl [AccXY]; · iexact AccXY
    iexact Hxy
  ihave #HIx := (Prep.inv_ys m K c 17) $$ HI
  imod (Rounds.cell_close ER (rd m) (Set.mem_univ (K (c, some (0, 17)))) (fun h => h) (R := 0 + 1) (duties_ys_later m c 17)) $$ [Hat] with Hz
  · isplitr; · iexact HIx
    iexact Hat
  iclear HIx
  ihave AccZys := (acc_step (famZys (F := F) c) 17 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W147, HO⟩
  -- step 309: wait arg4[17] (arg1[(k0_off3 d0 1088#32)], arg1[(k0_off3 d0 1088#32)])
  first | sl_exec | skip
  ihave Hs := (Entails.of_eq (take_step (famCFS (F := F) c) 17 (by decide))) $$ [FcFS]
  · iexact FcFS
  icases Hs with ⟨Hc, FcFS⟩
  ihave Hs := (Entails.of_eq (take_step (famAtFS (F := F) c) 17 (by decide))) $$ [FatFS]
  · iexact FatFS
  icases Hs with ⟨Hat, FatFS⟩
  ihave #HIw := (Prep.inv_fs m K c 17) $$ HI
  iapply (Rounds.wp_wait_rest_token 𝒱₀ ER (rd m) (c : Thread nD τ) none (κ := K (c, some (2, 17))) (sm := .dma (fsS 17))
      (wpE_waitDma2_eq 𝒱₀ (c : Thread nD τ) none Set.univ (src := fSl c 17) (dst := fSl c 17)) (Set.mem_univ _) () (O := 0) (W := W147) (R := 0) (m := 0) (T := ∅)
      (by rw [Nat.zero_add]; exact (expect_fs m c 17).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 17)) $$ Hpay
  ihave AccY := (acc_step (famY m c) 17 (by decide)) $$ [AccY HYk]
  · isplitl [AccY]; · iexact AccY
    iexact HYk
  ihave #HIx := (Prep.inv_fs m K c 17) $$ HI
  imod (Rounds.cell_close ER (rd m) (Set.mem_univ (K (c, some (2, 17)))) (fun h => h) (R := 0 + 1) (duties_fs_later m c 17)) $$ [Hat] with Hz
  · isplitr; · iexact HIx
    iexact Hat
  iclear HIx
  ihave AccZfs := (acc_step (famZfs (F := F) c) 17 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W148, HO⟩
  -- step 310: wait arg5[17] (arg1[(k0_off3 d0 1088#32)], arg1[(k0_off3 d0 1088#32)])
  first | sl_exec | skip
  ihave Hs := (Entails.of_eq (take_step (famCFR (F := F) c) 17 (by decide))) $$ [FcFR]
  · iexact FcFR
  icases Hs with ⟨Hc, FcFR⟩
  ihave Hs := (Entails.of_eq (take_step (famAtFR (F := F) c) 17 (by decide))) $$ [FatFR]
  · iexact FatFR
  icases Hs with ⟨Hat, FatFR⟩
  ihave #HIw := (Prep.inv_fr m K c 17) $$ HI
  iapply (Rounds.wp_wait_rest_token 𝒱₀ ER (rd m) (c : Thread nD τ) none (κ := K (c, some (3, 17))) (sm := .dma (frS 17))
      (wpE_waitDma2_eq 𝒱₀ (c : Thread nD τ) none Set.univ (src := fSl c 17) (dst := fSl c 17)) (Set.mem_univ _) () (O := 0) (W := W148) (R := 0) (m := 0) (T := ∅)
      (by rw [Nat.zero_add]; exact (expect_fr m c 17).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 17)) $$ Hpay
  ihave AccF := (acc_step (famF m c) 17 (by decide)) $$ [AccF HFk]
  · isplitl [AccF]; · iexact AccF
    iexact HFk
  ihave #HIx := (Prep.inv_fr m K c 17) $$ HI
  imod (Rounds.cell_close ER (rd m) (Set.mem_univ (K (c, some (3, 17)))) (fun h => h) (R := 0 + 1) (duties_fr_later m c 17)) $$ [Hat] with Hz
  · isplitr; · iexact HIx
    iexact Hat
  iclear HIx
  ihave AccZfr := (acc_step (famZfr (F := F) c) 17 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W149, HO⟩
  -- step 311: wait arg2[18] (arg1[(k0_off1 d0 1152#32)], arg0[(k0_off2 d0 1152#32)])
  first | sl_exec | skip
  ihave Hs := (Entails.of_eq (take_step (famCYS (F := F) c) 18 (by decide))) $$ [FcYS]
  · iexact FcYS
  icases Hs with ⟨Hc, FcYS⟩
  ihave Hs := (Entails.of_eq (take_step (famAtYS (F := F) c) 18 (by decide))) $$ [FatYS]
  · iexact FatYS
  icases Hs with ⟨Hat, FatYS⟩
  ihave #HIw := (Prep.inv_ys m K c 18) $$ HI
  iapply (Rounds.wp_wait_rest_token 𝒱₀ ER (rd m) (c : Thread nD τ) none (κ := K (c, some (0, 18))) (sm := .dma (ysS 18))
      (wpE_waitDma2_eq 𝒱₀ (c : Thread nD τ) none Set.univ (src := yDst c 18) (dst := ySrc c 18)) (Set.mem_univ _) () (O := 0) (W := W149) (R := 0) (m := 0) (T := ∅)
      (by rw [Nat.zero_add]; exact (expect_ys m c 18).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 18)) $$ Hpay
  ihave AccXY := (acc_step (famXY m c) 18 (by decide)) $$ [AccXY Hxy]
  · isplitl [AccXY]; · iexact AccXY
    iexact Hxy
  ihave #HIx := (Prep.inv_ys m K c 18) $$ HI
  imod (Rounds.cell_close ER (rd m) (Set.mem_univ (K (c, some (0, 18)))) (fun h => h) (R := 0 + 1) (duties_ys_later m c 18)) $$ [Hat] with Hz
  · isplitr; · iexact HIx
    iexact Hat
  iclear HIx
  ihave AccZys := (acc_step (famZys (F := F) c) 18 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W150, HO⟩
  -- step 312: wait arg4[18] (arg1[(k0_off3 d0 1152#32)], arg1[(k0_off3 d0 1152#32)])
  first | sl_exec | skip
  ihave Hs := (Entails.of_eq (take_step (famCFS (F := F) c) 18 (by decide))) $$ [FcFS]
  · iexact FcFS
  icases Hs with ⟨Hc, FcFS⟩
  ihave Hs := (Entails.of_eq (take_step (famAtFS (F := F) c) 18 (by decide))) $$ [FatFS]
  · iexact FatFS
  icases Hs with ⟨Hat, FatFS⟩
  ihave #HIw := (Prep.inv_fs m K c 18) $$ HI
  iapply (Rounds.wp_wait_rest_token 𝒱₀ ER (rd m) (c : Thread nD τ) none (κ := K (c, some (2, 18))) (sm := .dma (fsS 18))
      (wpE_waitDma2_eq 𝒱₀ (c : Thread nD τ) none Set.univ (src := fSl c 18) (dst := fSl c 18)) (Set.mem_univ _) () (O := 0) (W := W150) (R := 0) (m := 0) (T := ∅)
      (by rw [Nat.zero_add]; exact (expect_fs m c 18).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 18)) $$ Hpay
  ihave AccY := (acc_step (famY m c) 18 (by decide)) $$ [AccY HYk]
  · isplitl [AccY]; · iexact AccY
    iexact HYk
  ihave #HIx := (Prep.inv_fs m K c 18) $$ HI
  imod (Rounds.cell_close ER (rd m) (Set.mem_univ (K (c, some (2, 18)))) (fun h => h) (R := 0 + 1) (duties_fs_later m c 18)) $$ [Hat] with Hz
  · isplitr; · iexact HIx
    iexact Hat
  iclear HIx
  ihave AccZfs := (acc_step (famZfs (F := F) c) 18 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W151, HO⟩
  -- step 313: wait arg5[18] (arg1[(k0_off3 d0 1152#32)], arg1[(k0_off3 d0 1152#32)])
  first | sl_exec | skip
  ihave Hs := (Entails.of_eq (take_step (famCFR (F := F) c) 18 (by decide))) $$ [FcFR]
  · iexact FcFR
  icases Hs with ⟨Hc, FcFR⟩
  ihave Hs := (Entails.of_eq (take_step (famAtFR (F := F) c) 18 (by decide))) $$ [FatFR]
  · iexact FatFR
  icases Hs with ⟨Hat, FatFR⟩
  ihave #HIw := (Prep.inv_fr m K c 18) $$ HI
  iapply (Rounds.wp_wait_rest_token 𝒱₀ ER (rd m) (c : Thread nD τ) none (κ := K (c, some (3, 18))) (sm := .dma (frS 18))
      (wpE_waitDma2_eq 𝒱₀ (c : Thread nD τ) none Set.univ (src := fSl c 18) (dst := fSl c 18)) (Set.mem_univ _) () (O := 0) (W := W151) (R := 0) (m := 0) (T := ∅)
      (by rw [Nat.zero_add]; exact (expect_fr m c 18).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 18)) $$ Hpay
  ihave AccF := (acc_step (famF m c) 18 (by decide)) $$ [AccF HFk]
  · isplitl [AccF]; · iexact AccF
    iexact HFk
  ihave #HIx := (Prep.inv_fr m K c 18) $$ HI
  imod (Rounds.cell_close ER (rd m) (Set.mem_univ (K (c, some (3, 18)))) (fun h => h) (R := 0 + 1) (duties_fr_later m c 18)) $$ [Hat] with Hz
  · isplitr; · iexact HIx
    iexact Hat
  iclear HIx
  ihave AccZfr := (acc_step (famZfr (F := F) c) 18 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W152, HO⟩
  -- step 314: wait arg2[19] (arg1[(k0_off1 d0 1216#32)], arg0[(k0_off2 d0 1216#32)])
  first | sl_exec | skip
  ihave Hs := (Entails.of_eq (take_step (famCYS (F := F) c) 19 (by decide))) $$ [FcYS]
  · iexact FcYS
  icases Hs with ⟨Hc, FcYS⟩
  ihave Hs := (Entails.of_eq (take_step (famAtYS (F := F) c) 19 (by decide))) $$ [FatYS]
  · iexact FatYS
  icases Hs with ⟨Hat, FatYS⟩
  ihave #HIw := (Prep.inv_ys m K c 19) $$ HI
  iapply (Rounds.wp_wait_rest_token 𝒱₀ ER (rd m) (c : Thread nD τ) none (κ := K (c, some (0, 19))) (sm := .dma (ysS 19))
      (wpE_waitDma2_eq 𝒱₀ (c : Thread nD τ) none Set.univ (src := yDst c 19) (dst := ySrc c 19)) (Set.mem_univ _) () (O := 0) (W := W152) (R := 0) (m := 0) (T := ∅)
      (by rw [Nat.zero_add]; exact (expect_ys m c 19).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 19)) $$ Hpay
  ihave AccXY := (acc_step (famXY m c) 19 (by decide)) $$ [AccXY Hxy]
  · isplitl [AccXY]; · iexact AccXY
    iexact Hxy
  ihave #HIx := (Prep.inv_ys m K c 19) $$ HI
  imod (Rounds.cell_close ER (rd m) (Set.mem_univ (K (c, some (0, 19)))) (fun h => h) (R := 0 + 1) (duties_ys_later m c 19)) $$ [Hat] with Hz
  · isplitr; · iexact HIx
    iexact Hat
  iclear HIx
  ihave AccZys := (acc_step (famZys (F := F) c) 19 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W153, HO⟩
  -- step 315: wait arg4[19] (arg1[(k0_off3 d0 1216#32)], arg1[(k0_off3 d0 1216#32)])
  first | sl_exec | skip
  ihave Hs := (Entails.of_eq (take_step (famCFS (F := F) c) 19 (by decide))) $$ [FcFS]
  · iexact FcFS
  icases Hs with ⟨Hc, FcFS⟩
  ihave Hs := (Entails.of_eq (take_step (famAtFS (F := F) c) 19 (by decide))) $$ [FatFS]
  · iexact FatFS
  icases Hs with ⟨Hat, FatFS⟩
  ihave #HIw := (Prep.inv_fs m K c 19) $$ HI
  iapply (Rounds.wp_wait_rest_token 𝒱₀ ER (rd m) (c : Thread nD τ) none (κ := K (c, some (2, 19))) (sm := .dma (fsS 19))
      (wpE_waitDma2_eq 𝒱₀ (c : Thread nD τ) none Set.univ (src := fSl c 19) (dst := fSl c 19)) (Set.mem_univ _) () (O := 0) (W := W153) (R := 0) (m := 0) (T := ∅)
      (by rw [Nat.zero_add]; exact (expect_fs m c 19).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 19)) $$ Hpay
  ihave AccY := (acc_step (famY m c) 19 (by decide)) $$ [AccY HYk]
  · isplitl [AccY]; · iexact AccY
    iexact HYk
  ihave #HIx := (Prep.inv_fs m K c 19) $$ HI
  imod (Rounds.cell_close ER (rd m) (Set.mem_univ (K (c, some (2, 19)))) (fun h => h) (R := 0 + 1) (duties_fs_later m c 19)) $$ [Hat] with Hz
  · isplitr; · iexact HIx
    iexact Hat
  iclear HIx
  ihave AccZfs := (acc_step (famZfs (F := F) c) 19 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W154, HO⟩
  -- step 316: wait arg5[19] (arg1[(k0_off3 d0 1216#32)], arg1[(k0_off3 d0 1216#32)])
  first | sl_exec | skip
  ihave Hs := (Entails.of_eq (take_step (famCFR (F := F) c) 19 (by decide))) $$ [FcFR]
  · iexact FcFR
  icases Hs with ⟨Hc, FcFR⟩
  ihave Hs := (Entails.of_eq (take_step (famAtFR (F := F) c) 19 (by decide))) $$ [FatFR]
  · iexact FatFR
  icases Hs with ⟨Hat, FatFR⟩
  ihave #HIw := (Prep.inv_fr m K c 19) $$ HI
  iapply (Rounds.wp_wait_rest_token 𝒱₀ ER (rd m) (c : Thread nD τ) none (κ := K (c, some (3, 19))) (sm := .dma (frS 19))
      (wpE_waitDma2_eq 𝒱₀ (c : Thread nD τ) none Set.univ (src := fSl c 19) (dst := fSl c 19)) (Set.mem_univ _) () (O := 0) (W := W154) (R := 0) (m := 0) (T := ∅)
      (by rw [Nat.zero_add]; exact (expect_fr m c 19).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 19)) $$ Hpay
  ihave AccF := (acc_step (famF m c) 19 (by decide)) $$ [AccF HFk]
  · isplitl [AccF]; · iexact AccF
    iexact HFk
  ihave #HIx := (Prep.inv_fr m K c 19) $$ HI
  imod (Rounds.cell_close ER (rd m) (Set.mem_univ (K (c, some (3, 19)))) (fun h => h) (R := 0 + 1) (duties_fr_later m c 19)) $$ [Hat] with Hz
  · isplitr; · iexact HIx
    iexact Hat
  iclear HIx
  ihave AccZfr := (acc_step (famZfr (F := F) c) 19 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W155, HO⟩
  -- step 317: wait arg2[20] (arg1[(k0_off1 d0 1280#32)], arg0[(k0_off2 d0 1280#32)])
  first | sl_exec | skip
  ihave Hs := (Entails.of_eq (take_step (famCYS (F := F) c) 20 (by decide))) $$ [FcYS]
  · iexact FcYS
  icases Hs with ⟨Hc, FcYS⟩
  ihave Hs := (Entails.of_eq (take_step (famAtYS (F := F) c) 20 (by decide))) $$ [FatYS]
  · iexact FatYS
  icases Hs with ⟨Hat, FatYS⟩
  ihave #HIw := (Prep.inv_ys m K c 20) $$ HI
  iapply (Rounds.wp_wait_rest_token 𝒱₀ ER (rd m) (c : Thread nD τ) none (κ := K (c, some (0, 20))) (sm := .dma (ysS 20))
      (wpE_waitDma2_eq 𝒱₀ (c : Thread nD τ) none Set.univ (src := yDst c 20) (dst := ySrc c 20)) (Set.mem_univ _) () (O := 0) (W := W155) (R := 0) (m := 0) (T := ∅)
      (by rw [Nat.zero_add]; exact (expect_ys m c 20).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 20)) $$ Hpay
  ihave AccXY := (acc_step (famXY m c) 20 (by decide)) $$ [AccXY Hxy]
  · isplitl [AccXY]; · iexact AccXY
    iexact Hxy
  ihave #HIx := (Prep.inv_ys m K c 20) $$ HI
  imod (Rounds.cell_close ER (rd m) (Set.mem_univ (K (c, some (0, 20)))) (fun h => h) (R := 0 + 1) (duties_ys_later m c 20)) $$ [Hat] with Hz
  · isplitr; · iexact HIx
    iexact Hat
  iclear HIx
  ihave AccZys := (acc_step (famZys (F := F) c) 20 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W156, HO⟩
  -- step 318: wait arg4[20] (arg1[(k0_off3 d0 1280#32)], arg1[(k0_off3 d0 1280#32)])
  first | sl_exec | skip
  ihave Hs := (Entails.of_eq (take_step (famCFS (F := F) c) 20 (by decide))) $$ [FcFS]
  · iexact FcFS
  icases Hs with ⟨Hc, FcFS⟩
  ihave Hs := (Entails.of_eq (take_step (famAtFS (F := F) c) 20 (by decide))) $$ [FatFS]
  · iexact FatFS
  icases Hs with ⟨Hat, FatFS⟩
  ihave #HIw := (Prep.inv_fs m K c 20) $$ HI
  iapply (Rounds.wp_wait_rest_token 𝒱₀ ER (rd m) (c : Thread nD τ) none (κ := K (c, some (2, 20))) (sm := .dma (fsS 20))
      (wpE_waitDma2_eq 𝒱₀ (c : Thread nD τ) none Set.univ (src := fSl c 20) (dst := fSl c 20)) (Set.mem_univ _) () (O := 0) (W := W156) (R := 0) (m := 0) (T := ∅)
      (by rw [Nat.zero_add]; exact (expect_fs m c 20).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 20)) $$ Hpay
  ihave AccY := (acc_step (famY m c) 20 (by decide)) $$ [AccY HYk]
  · isplitl [AccY]; · iexact AccY
    iexact HYk
  ihave #HIx := (Prep.inv_fs m K c 20) $$ HI
  imod (Rounds.cell_close ER (rd m) (Set.mem_univ (K (c, some (2, 20)))) (fun h => h) (R := 0 + 1) (duties_fs_later m c 20)) $$ [Hat] with Hz
  · isplitr; · iexact HIx
    iexact Hat
  iclear HIx
  ihave AccZfs := (acc_step (famZfs (F := F) c) 20 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W157, HO⟩
  -- step 319: wait arg5[20] (arg1[(k0_off3 d0 1280#32)], arg1[(k0_off3 d0 1280#32)])
  first | sl_exec | skip
  ihave Hs := (Entails.of_eq (take_step (famCFR (F := F) c) 20 (by decide))) $$ [FcFR]
  · iexact FcFR
  icases Hs with ⟨Hc, FcFR⟩
  ihave Hs := (Entails.of_eq (take_step (famAtFR (F := F) c) 20 (by decide))) $$ [FatFR]
  · iexact FatFR
  icases Hs with ⟨Hat, FatFR⟩
  ihave #HIw := (Prep.inv_fr m K c 20) $$ HI
  iapply (Rounds.wp_wait_rest_token 𝒱₀ ER (rd m) (c : Thread nD τ) none (κ := K (c, some (3, 20))) (sm := .dma (frS 20))
      (wpE_waitDma2_eq 𝒱₀ (c : Thread nD τ) none Set.univ (src := fSl c 20) (dst := fSl c 20)) (Set.mem_univ _) () (O := 0) (W := W157) (R := 0) (m := 0) (T := ∅)
      (by rw [Nat.zero_add]; exact (expect_fr m c 20).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 20)) $$ Hpay
  ihave AccF := (acc_step (famF m c) 20 (by decide)) $$ [AccF HFk]
  · isplitl [AccF]; · iexact AccF
    iexact HFk
  ihave #HIx := (Prep.inv_fr m K c 20) $$ HI
  imod (Rounds.cell_close ER (rd m) (Set.mem_univ (K (c, some (3, 20)))) (fun h => h) (R := 0 + 1) (duties_fr_later m c 20)) $$ [Hat] with Hz
  · isplitr; · iexact HIx
    iexact Hat
  iclear HIx
  ihave AccZfr := (acc_step (famZfr (F := F) c) 20 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W158, HO⟩
  -- step 320: wait arg2[21] (arg1[(k0_off1 d0 1344#32)], arg0[(k0_off2 d0 1344#32)])
  first | sl_exec | skip
  ihave Hs := (Entails.of_eq (take_step (famCYS (F := F) c) 21 (by decide))) $$ [FcYS]
  · iexact FcYS
  icases Hs with ⟨Hc, FcYS⟩
  ihave Hs := (Entails.of_eq (take_step (famAtYS (F := F) c) 21 (by decide))) $$ [FatYS]
  · iexact FatYS
  icases Hs with ⟨Hat, FatYS⟩
  ihave #HIw := (Prep.inv_ys m K c 21) $$ HI
  iapply (Rounds.wp_wait_rest_token 𝒱₀ ER (rd m) (c : Thread nD τ) none (κ := K (c, some (0, 21))) (sm := .dma (ysS 21))
      (wpE_waitDma2_eq 𝒱₀ (c : Thread nD τ) none Set.univ (src := yDst c 21) (dst := ySrc c 21)) (Set.mem_univ _) () (O := 0) (W := W158) (R := 0) (m := 0) (T := ∅)
      (by rw [Nat.zero_add]; exact (expect_ys m c 21).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 21)) $$ Hpay
  ihave AccXY := (acc_step (famXY m c) 21 (by decide)) $$ [AccXY Hxy]
  · isplitl [AccXY]; · iexact AccXY
    iexact Hxy
  ihave #HIx := (Prep.inv_ys m K c 21) $$ HI
  imod (Rounds.cell_close ER (rd m) (Set.mem_univ (K (c, some (0, 21)))) (fun h => h) (R := 0 + 1) (duties_ys_later m c 21)) $$ [Hat] with Hz
  · isplitr; · iexact HIx
    iexact Hat
  iclear HIx
  ihave AccZys := (acc_step (famZys (F := F) c) 21 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W159, HO⟩
  -- step 321: wait arg4[21] (arg1[(k0_off3 d0 1344#32)], arg1[(k0_off3 d0 1344#32)])
  first | sl_exec | skip
  ihave Hs := (Entails.of_eq (take_step (famCFS (F := F) c) 21 (by decide))) $$ [FcFS]
  · iexact FcFS
  icases Hs with ⟨Hc, FcFS⟩
  ihave Hs := (Entails.of_eq (take_step (famAtFS (F := F) c) 21 (by decide))) $$ [FatFS]
  · iexact FatFS
  icases Hs with ⟨Hat, FatFS⟩
  ihave #HIw := (Prep.inv_fs m K c 21) $$ HI
  iapply (Rounds.wp_wait_rest_token 𝒱₀ ER (rd m) (c : Thread nD τ) none (κ := K (c, some (2, 21))) (sm := .dma (fsS 21))
      (wpE_waitDma2_eq 𝒱₀ (c : Thread nD τ) none Set.univ (src := fSl c 21) (dst := fSl c 21)) (Set.mem_univ _) () (O := 0) (W := W159) (R := 0) (m := 0) (T := ∅)
      (by rw [Nat.zero_add]; exact (expect_fs m c 21).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 21)) $$ Hpay
  ihave AccY := (acc_step (famY m c) 21 (by decide)) $$ [AccY HYk]
  · isplitl [AccY]; · iexact AccY
    iexact HYk
  ihave #HIx := (Prep.inv_fs m K c 21) $$ HI
  imod (Rounds.cell_close ER (rd m) (Set.mem_univ (K (c, some (2, 21)))) (fun h => h) (R := 0 + 1) (duties_fs_later m c 21)) $$ [Hat] with Hz
  · isplitr; · iexact HIx
    iexact Hat
  iclear HIx
  ihave AccZfs := (acc_step (famZfs (F := F) c) 21 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W160, HO⟩
  -- step 322: wait arg5[21] (arg1[(k0_off3 d0 1344#32)], arg1[(k0_off3 d0 1344#32)])
  first | sl_exec | skip
  ihave Hs := (Entails.of_eq (take_step (famCFR (F := F) c) 21 (by decide))) $$ [FcFR]
  · iexact FcFR
  icases Hs with ⟨Hc, FcFR⟩
  ihave Hs := (Entails.of_eq (take_step (famAtFR (F := F) c) 21 (by decide))) $$ [FatFR]
  · iexact FatFR
  icases Hs with ⟨Hat, FatFR⟩
  ihave #HIw := (Prep.inv_fr m K c 21) $$ HI
  iapply (Rounds.wp_wait_rest_token 𝒱₀ ER (rd m) (c : Thread nD τ) none (κ := K (c, some (3, 21))) (sm := .dma (frS 21))
      (wpE_waitDma2_eq 𝒱₀ (c : Thread nD τ) none Set.univ (src := fSl c 21) (dst := fSl c 21)) (Set.mem_univ _) () (O := 0) (W := W160) (R := 0) (m := 0) (T := ∅)
      (by rw [Nat.zero_add]; exact (expect_fr m c 21).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 21)) $$ Hpay
  ihave AccF := (acc_step (famF m c) 21 (by decide)) $$ [AccF HFk]
  · isplitl [AccF]; · iexact AccF
    iexact HFk
  ihave #HIx := (Prep.inv_fr m K c 21) $$ HI
  imod (Rounds.cell_close ER (rd m) (Set.mem_univ (K (c, some (3, 21)))) (fun h => h) (R := 0 + 1) (duties_fr_later m c 21)) $$ [Hat] with Hz
  · isplitr; · iexact HIx
    iexact Hat
  iclear HIx
  ihave AccZfr := (acc_step (famZfr (F := F) c) 21 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W161, HO⟩
  -- step 323: wait arg2[22] (arg1[(k0_off1 d0 1408#32)], arg0[(k0_off2 d0 1408#32)])
  first | sl_exec | skip
  ihave Hs := (Entails.of_eq (take_step (famCYS (F := F) c) 22 (by decide))) $$ [FcYS]
  · iexact FcYS
  icases Hs with ⟨Hc, FcYS⟩
  ihave Hs := (Entails.of_eq (take_step (famAtYS (F := F) c) 22 (by decide))) $$ [FatYS]
  · iexact FatYS
  icases Hs with ⟨Hat, FatYS⟩
  ihave #HIw := (Prep.inv_ys m K c 22) $$ HI
  iapply (Rounds.wp_wait_rest_token 𝒱₀ ER (rd m) (c : Thread nD τ) none (κ := K (c, some (0, 22))) (sm := .dma (ysS 22))
      (wpE_waitDma2_eq 𝒱₀ (c : Thread nD τ) none Set.univ (src := yDst c 22) (dst := ySrc c 22)) (Set.mem_univ _) () (O := 0) (W := W161) (R := 0) (m := 0) (T := ∅)
      (by rw [Nat.zero_add]; exact (expect_ys m c 22).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 22)) $$ Hpay
  ihave AccXY := (acc_step (famXY m c) 22 (by decide)) $$ [AccXY Hxy]
  · isplitl [AccXY]; · iexact AccXY
    iexact Hxy
  ihave #HIx := (Prep.inv_ys m K c 22) $$ HI
  imod (Rounds.cell_close ER (rd m) (Set.mem_univ (K (c, some (0, 22)))) (fun h => h) (R := 0 + 1) (duties_ys_later m c 22)) $$ [Hat] with Hz
  · isplitr; · iexact HIx
    iexact Hat
  iclear HIx
  ihave AccZys := (acc_step (famZys (F := F) c) 22 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W162, HO⟩
  -- step 324: wait arg4[22] (arg1[(k0_off3 d0 1408#32)], arg1[(k0_off3 d0 1408#32)])
  first | sl_exec | skip
  ihave Hs := (Entails.of_eq (take_step (famCFS (F := F) c) 22 (by decide))) $$ [FcFS]
  · iexact FcFS
  icases Hs with ⟨Hc, FcFS⟩
  ihave Hs := (Entails.of_eq (take_step (famAtFS (F := F) c) 22 (by decide))) $$ [FatFS]
  · iexact FatFS
  icases Hs with ⟨Hat, FatFS⟩
  ihave #HIw := (Prep.inv_fs m K c 22) $$ HI
  iapply (Rounds.wp_wait_rest_token 𝒱₀ ER (rd m) (c : Thread nD τ) none (κ := K (c, some (2, 22))) (sm := .dma (fsS 22))
      (wpE_waitDma2_eq 𝒱₀ (c : Thread nD τ) none Set.univ (src := fSl c 22) (dst := fSl c 22)) (Set.mem_univ _) () (O := 0) (W := W162) (R := 0) (m := 0) (T := ∅)
      (by rw [Nat.zero_add]; exact (expect_fs m c 22).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 22)) $$ Hpay
  ihave AccY := (acc_step (famY m c) 22 (by decide)) $$ [AccY HYk]
  · isplitl [AccY]; · iexact AccY
    iexact HYk
  ihave #HIx := (Prep.inv_fs m K c 22) $$ HI
  imod (Rounds.cell_close ER (rd m) (Set.mem_univ (K (c, some (2, 22)))) (fun h => h) (R := 0 + 1) (duties_fs_later m c 22)) $$ [Hat] with Hz
  · isplitr; · iexact HIx
    iexact Hat
  iclear HIx
  ihave AccZfs := (acc_step (famZfs (F := F) c) 22 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W163, HO⟩
  -- step 325: wait arg5[22] (arg1[(k0_off3 d0 1408#32)], arg1[(k0_off3 d0 1408#32)])
  first | sl_exec | skip
  ihave Hs := (Entails.of_eq (take_step (famCFR (F := F) c) 22 (by decide))) $$ [FcFR]
  · iexact FcFR
  icases Hs with ⟨Hc, FcFR⟩
  ihave Hs := (Entails.of_eq (take_step (famAtFR (F := F) c) 22 (by decide))) $$ [FatFR]
  · iexact FatFR
  icases Hs with ⟨Hat, FatFR⟩
  ihave #HIw := (Prep.inv_fr m K c 22) $$ HI
  iapply (Rounds.wp_wait_rest_token 𝒱₀ ER (rd m) (c : Thread nD τ) none (κ := K (c, some (3, 22))) (sm := .dma (frS 22))
      (wpE_waitDma2_eq 𝒱₀ (c : Thread nD τ) none Set.univ (src := fSl c 22) (dst := fSl c 22)) (Set.mem_univ _) () (O := 0) (W := W163) (R := 0) (m := 0) (T := ∅)
      (by rw [Nat.zero_add]; exact (expect_fr m c 22).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 22)) $$ Hpay
  ihave AccF := (acc_step (famF m c) 22 (by decide)) $$ [AccF HFk]
  · isplitl [AccF]; · iexact AccF
    iexact HFk
  ihave #HIx := (Prep.inv_fr m K c 22) $$ HI
  imod (Rounds.cell_close ER (rd m) (Set.mem_univ (K (c, some (3, 22)))) (fun h => h) (R := 0 + 1) (duties_fr_later m c 22)) $$ [Hat] with Hz
  · isplitr; · iexact HIx
    iexact Hat
  iclear HIx
  ihave AccZfr := (acc_step (famZfr (F := F) c) 22 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W164, HO⟩
  -- step 326: wait arg2[23] (arg1[(k0_off1 d0 1472#32)], arg0[(k0_off2 d0 1472#32)])
  first | sl_exec | skip
  ihave Hs := (Entails.of_eq (take_step (famCYS (F := F) c) 23 (by decide))) $$ [FcYS]
  · iexact FcYS
  icases Hs with ⟨Hc, FcYS⟩
  ihave Hs := (Entails.of_eq (take_step (famAtYS (F := F) c) 23 (by decide))) $$ [FatYS]
  · iexact FatYS
  icases Hs with ⟨Hat, FatYS⟩
  ihave #HIw := (Prep.inv_ys m K c 23) $$ HI
  iapply (Rounds.wp_wait_rest_token 𝒱₀ ER (rd m) (c : Thread nD τ) none (κ := K (c, some (0, 23))) (sm := .dma (ysS 23))
      (wpE_waitDma2_eq 𝒱₀ (c : Thread nD τ) none Set.univ (src := yDst c 23) (dst := ySrc c 23)) (Set.mem_univ _) () (O := 0) (W := W164) (R := 0) (m := 0) (T := ∅)
      (by rw [Nat.zero_add]; exact (expect_ys m c 23).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 23)) $$ Hpay
  ihave AccXY := (acc_step (famXY m c) 23 (by decide)) $$ [AccXY Hxy]
  · isplitl [AccXY]; · iexact AccXY
    iexact Hxy
  ihave #HIx := (Prep.inv_ys m K c 23) $$ HI
  imod (Rounds.cell_close ER (rd m) (Set.mem_univ (K (c, some (0, 23)))) (fun h => h) (R := 0 + 1) (duties_ys_later m c 23)) $$ [Hat] with Hz
  · isplitr; · iexact HIx
    iexact Hat
  iclear HIx
  ihave AccZys := (acc_step (famZys (F := F) c) 23 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W165, HO⟩
  -- step 327: wait arg4[23] (arg1[(k0_off3 d0 1472#32)], arg1[(k0_off3 d0 1472#32)])
  first | sl_exec | skip
  ihave Hs := (Entails.of_eq (take_step (famCFS (F := F) c) 23 (by decide))) $$ [FcFS]
  · iexact FcFS
  icases Hs with ⟨Hc, FcFS⟩
  ihave Hs := (Entails.of_eq (take_step (famAtFS (F := F) c) 23 (by decide))) $$ [FatFS]
  · iexact FatFS
  icases Hs with ⟨Hat, FatFS⟩
  ihave #HIw := (Prep.inv_fs m K c 23) $$ HI
  iapply (Rounds.wp_wait_rest_token 𝒱₀ ER (rd m) (c : Thread nD τ) none (κ := K (c, some (2, 23))) (sm := .dma (fsS 23))
      (wpE_waitDma2_eq 𝒱₀ (c : Thread nD τ) none Set.univ (src := fSl c 23) (dst := fSl c 23)) (Set.mem_univ _) () (O := 0) (W := W165) (R := 0) (m := 0) (T := ∅)
      (by rw [Nat.zero_add]; exact (expect_fs m c 23).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 23)) $$ Hpay
  ihave AccY := (acc_step (famY m c) 23 (by decide)) $$ [AccY HYk]
  · isplitl [AccY]; · iexact AccY
    iexact HYk
  ihave #HIx := (Prep.inv_fs m K c 23) $$ HI
  imod (Rounds.cell_close ER (rd m) (Set.mem_univ (K (c, some (2, 23)))) (fun h => h) (R := 0 + 1) (duties_fs_later m c 23)) $$ [Hat] with Hz
  · isplitr; · iexact HIx
    iexact Hat
  iclear HIx
  ihave AccZfs := (acc_step (famZfs (F := F) c) 23 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W166, HO⟩
  -- step 328: wait arg5[23] (arg1[(k0_off3 d0 1472#32)], arg1[(k0_off3 d0 1472#32)])
  first | sl_exec | skip
  ihave Hs := (Entails.of_eq (take_step (famCFR (F := F) c) 23 (by decide))) $$ [FcFR]
  · iexact FcFR
  icases Hs with ⟨Hc, FcFR⟩
  ihave Hs := (Entails.of_eq (take_step (famAtFR (F := F) c) 23 (by decide))) $$ [FatFR]
  · iexact FatFR
  icases Hs with ⟨Hat, FatFR⟩
  ihave #HIw := (Prep.inv_fr m K c 23) $$ HI
  iapply (Rounds.wp_wait_rest_token 𝒱₀ ER (rd m) (c : Thread nD τ) none (κ := K (c, some (3, 23))) (sm := .dma (frS 23))
      (wpE_waitDma2_eq 𝒱₀ (c : Thread nD τ) none Set.univ (src := fSl c 23) (dst := fSl c 23)) (Set.mem_univ _) () (O := 0) (W := W166) (R := 0) (m := 0) (T := ∅)
      (by rw [Nat.zero_add]; exact (expect_fr m c 23).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 23)) $$ Hpay
  ihave AccF := (acc_step (famF m c) 23 (by decide)) $$ [AccF HFk]
  · isplitl [AccF]; · iexact AccF
    iexact HFk
  ihave #HIx := (Prep.inv_fr m K c 23) $$ HI
  imod (Rounds.cell_close ER (rd m) (Set.mem_univ (K (c, some (3, 23)))) (fun h => h) (R := 0 + 1) (duties_fr_later m c 23)) $$ [Hat] with Hz
  · isplitr; · iexact HIx
    iexact Hat
  iclear HIx
  ihave AccZfr := (acc_step (famZfr (F := F) c) 23 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W167, HO⟩
  -- step 329: wait arg2[24] (arg1[(k0_off1 d0 1536#32)], arg0[(k0_off2 d0 1536#32)])
  first | sl_exec | skip
  ihave Hs := (Entails.of_eq (take_step (famCYS (F := F) c) 24 (by decide))) $$ [FcYS]
  · iexact FcYS
  icases Hs with ⟨Hc, FcYS⟩
  ihave Hs := (Entails.of_eq (take_step (famAtYS (F := F) c) 24 (by decide))) $$ [FatYS]
  · iexact FatYS
  icases Hs with ⟨Hat, FatYS⟩
  ihave #HIw := (Prep.inv_ys m K c 24) $$ HI
  iapply (Rounds.wp_wait_rest_token 𝒱₀ ER (rd m) (c : Thread nD τ) none (κ := K (c, some (0, 24))) (sm := .dma (ysS 24))
      (wpE_waitDma2_eq 𝒱₀ (c : Thread nD τ) none Set.univ (src := yDst c 24) (dst := ySrc c 24)) (Set.mem_univ _) () (O := 0) (W := W167) (R := 0) (m := 0) (T := ∅)
      (by rw [Nat.zero_add]; exact (expect_ys m c 24).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 24)) $$ Hpay
  ihave AccXY := (acc_step (famXY m c) 24 (by decide)) $$ [AccXY Hxy]
  · isplitl [AccXY]; · iexact AccXY
    iexact Hxy
  ihave #HIx := (Prep.inv_ys m K c 24) $$ HI
  imod (Rounds.cell_close ER (rd m) (Set.mem_univ (K (c, some (0, 24)))) (fun h => h) (R := 0 + 1) (duties_ys_later m c 24)) $$ [Hat] with Hz
  · isplitr; · iexact HIx
    iexact Hat
  iclear HIx
  ihave AccZys := (acc_step (famZys (F := F) c) 24 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W168, HO⟩
  -- step 330: wait arg4[24] (arg1[(k0_off3 d0 1536#32)], arg1[(k0_off3 d0 1536#32)])
  first | sl_exec | skip
  ihave Hs := (Entails.of_eq (take_step (famCFS (F := F) c) 24 (by decide))) $$ [FcFS]
  · iexact FcFS
  icases Hs with ⟨Hc, FcFS⟩
  ihave Hs := (Entails.of_eq (take_step (famAtFS (F := F) c) 24 (by decide))) $$ [FatFS]
  · iexact FatFS
  icases Hs with ⟨Hat, FatFS⟩
  ihave #HIw := (Prep.inv_fs m K c 24) $$ HI
  iapply (Rounds.wp_wait_rest_token 𝒱₀ ER (rd m) (c : Thread nD τ) none (κ := K (c, some (2, 24))) (sm := .dma (fsS 24))
      (wpE_waitDma2_eq 𝒱₀ (c : Thread nD τ) none Set.univ (src := fSl c 24) (dst := fSl c 24)) (Set.mem_univ _) () (O := 0) (W := W168) (R := 0) (m := 0) (T := ∅)
      (by rw [Nat.zero_add]; exact (expect_fs m c 24).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 24)) $$ Hpay
  ihave AccY := (acc_step (famY m c) 24 (by decide)) $$ [AccY HYk]
  · isplitl [AccY]; · iexact AccY
    iexact HYk
  ihave #HIx := (Prep.inv_fs m K c 24) $$ HI
  imod (Rounds.cell_close ER (rd m) (Set.mem_univ (K (c, some (2, 24)))) (fun h => h) (R := 0 + 1) (duties_fs_later m c 24)) $$ [Hat] with Hz
  · isplitr; · iexact HIx
    iexact Hat
  iclear HIx
  ihave AccZfs := (acc_step (famZfs (F := F) c) 24 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W169, HO⟩
  -- step 331: wait arg5[24] (arg1[(k0_off3 d0 1536#32)], arg1[(k0_off3 d0 1536#32)])
  first | sl_exec | skip
  ihave Hs := (Entails.of_eq (take_step (famCFR (F := F) c) 24 (by decide))) $$ [FcFR]
  · iexact FcFR
  icases Hs with ⟨Hc, FcFR⟩
  ihave Hs := (Entails.of_eq (take_step (famAtFR (F := F) c) 24 (by decide))) $$ [FatFR]
  · iexact FatFR
  icases Hs with ⟨Hat, FatFR⟩
  ihave #HIw := (Prep.inv_fr m K c 24) $$ HI
  iapply (Rounds.wp_wait_rest_token 𝒱₀ ER (rd m) (c : Thread nD τ) none (κ := K (c, some (3, 24))) (sm := .dma (frS 24))
      (wpE_waitDma2_eq 𝒱₀ (c : Thread nD τ) none Set.univ (src := fSl c 24) (dst := fSl c 24)) (Set.mem_univ _) () (O := 0) (W := W169) (R := 0) (m := 0) (T := ∅)
      (by rw [Nat.zero_add]; exact (expect_fr m c 24).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 24)) $$ Hpay
  ihave AccF := (acc_step (famF m c) 24 (by decide)) $$ [AccF HFk]
  · isplitl [AccF]; · iexact AccF
    iexact HFk
  ihave #HIx := (Prep.inv_fr m K c 24) $$ HI
  imod (Rounds.cell_close ER (rd m) (Set.mem_univ (K (c, some (3, 24)))) (fun h => h) (R := 0 + 1) (duties_fr_later m c 24)) $$ [Hat] with Hz
  · isplitr; · iexact HIx
    iexact Hat
  iclear HIx
  ihave AccZfr := (acc_step (famZfr (F := F) c) 24 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W170, HO⟩
  -- step 332: wait arg2[25] (arg1[(k0_off1 d0 1600#32)], arg0[(k0_off2 d0 1600#32)])
  first | sl_exec | skip
  ihave Hs := (Entails.of_eq (take_step (famCYS (F := F) c) 25 (by decide))) $$ [FcYS]
  · iexact FcYS
  icases Hs with ⟨Hc, FcYS⟩
  ihave Hs := (Entails.of_eq (take_step (famAtYS (F := F) c) 25 (by decide))) $$ [FatYS]
  · iexact FatYS
  icases Hs with ⟨Hat, FatYS⟩
  ihave #HIw := (Prep.inv_ys m K c 25) $$ HI
  iapply (Rounds.wp_wait_rest_token 𝒱₀ ER (rd m) (c : Thread nD τ) none (κ := K (c, some (0, 25))) (sm := .dma (ysS 25))
      (wpE_waitDma2_eq 𝒱₀ (c : Thread nD τ) none Set.univ (src := yDst c 25) (dst := ySrc c 25)) (Set.mem_univ _) () (O := 0) (W := W170) (R := 0) (m := 0) (T := ∅)
      (by rw [Nat.zero_add]; exact (expect_ys m c 25).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 25)) $$ Hpay
  ihave AccXY := (acc_step (famXY m c) 25 (by decide)) $$ [AccXY Hxy]
  · isplitl [AccXY]; · iexact AccXY
    iexact Hxy
  ihave #HIx := (Prep.inv_ys m K c 25) $$ HI
  imod (Rounds.cell_close ER (rd m) (Set.mem_univ (K (c, some (0, 25)))) (fun h => h) (R := 0 + 1) (duties_ys_later m c 25)) $$ [Hat] with Hz
  · isplitr; · iexact HIx
    iexact Hat
  iclear HIx
  ihave AccZys := (acc_step (famZys (F := F) c) 25 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W171, HO⟩
  -- step 333: wait arg4[25] (arg1[(k0_off3 d0 1600#32)], arg1[(k0_off3 d0 1600#32)])
  first | sl_exec | skip
  ihave Hs := (Entails.of_eq (take_step (famCFS (F := F) c) 25 (by decide))) $$ [FcFS]
  · iexact FcFS
  icases Hs with ⟨Hc, FcFS⟩
  ihave Hs := (Entails.of_eq (take_step (famAtFS (F := F) c) 25 (by decide))) $$ [FatFS]
  · iexact FatFS
  icases Hs with ⟨Hat, FatFS⟩
  ihave #HIw := (Prep.inv_fs m K c 25) $$ HI
  iapply (Rounds.wp_wait_rest_token 𝒱₀ ER (rd m) (c : Thread nD τ) none (κ := K (c, some (2, 25))) (sm := .dma (fsS 25))
      (wpE_waitDma2_eq 𝒱₀ (c : Thread nD τ) none Set.univ (src := fSl c 25) (dst := fSl c 25)) (Set.mem_univ _) () (O := 0) (W := W171) (R := 0) (m := 0) (T := ∅)
      (by rw [Nat.zero_add]; exact (expect_fs m c 25).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 25)) $$ Hpay
  ihave AccY := (acc_step (famY m c) 25 (by decide)) $$ [AccY HYk]
  · isplitl [AccY]; · iexact AccY
    iexact HYk
  ihave #HIx := (Prep.inv_fs m K c 25) $$ HI
  imod (Rounds.cell_close ER (rd m) (Set.mem_univ (K (c, some (2, 25)))) (fun h => h) (R := 0 + 1) (duties_fs_later m c 25)) $$ [Hat] with Hz
  · isplitr; · iexact HIx
    iexact Hat
  iclear HIx
  ihave AccZfs := (acc_step (famZfs (F := F) c) 25 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W172, HO⟩
  -- step 334: wait arg5[25] (arg1[(k0_off3 d0 1600#32)], arg1[(k0_off3 d0 1600#32)])
  first | sl_exec | skip
  ihave Hs := (Entails.of_eq (take_step (famCFR (F := F) c) 25 (by decide))) $$ [FcFR]
  · iexact FcFR
  icases Hs with ⟨Hc, FcFR⟩
  ihave Hs := (Entails.of_eq (take_step (famAtFR (F := F) c) 25 (by decide))) $$ [FatFR]
  · iexact FatFR
  icases Hs with ⟨Hat, FatFR⟩
  ihave #HIw := (Prep.inv_fr m K c 25) $$ HI
  iapply (Rounds.wp_wait_rest_token 𝒱₀ ER (rd m) (c : Thread nD τ) none (κ := K (c, some (3, 25))) (sm := .dma (frS 25))
      (wpE_waitDma2_eq 𝒱₀ (c : Thread nD τ) none Set.univ (src := fSl c 25) (dst := fSl c 25)) (Set.mem_univ _) () (O := 0) (W := W172) (R := 0) (m := 0) (T := ∅)
      (by rw [Nat.zero_add]; exact (expect_fr m c 25).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 25)) $$ Hpay
  ihave AccF := (acc_step (famF m c) 25 (by decide)) $$ [AccF HFk]
  · isplitl [AccF]; · iexact AccF
    iexact HFk
  ihave #HIx := (Prep.inv_fr m K c 25) $$ HI
  imod (Rounds.cell_close ER (rd m) (Set.mem_univ (K (c, some (3, 25)))) (fun h => h) (R := 0 + 1) (duties_fr_later m c 25)) $$ [Hat] with Hz
  · isplitr; · iexact HIx
    iexact Hat
  iclear HIx
  ihave AccZfr := (acc_step (famZfr (F := F) c) 25 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W173, HO⟩
  -- step 335: wait arg2[26] (arg1[(k0_off1 d0 1664#32)], arg0[(k0_off2 d0 1664#32)])
  first | sl_exec | skip
  ihave Hs := (Entails.of_eq (take_step (famCYS (F := F) c) 26 (by decide))) $$ [FcYS]
  · iexact FcYS
  icases Hs with ⟨Hc, FcYS⟩
  ihave Hs := (Entails.of_eq (take_step (famAtYS (F := F) c) 26 (by decide))) $$ [FatYS]
  · iexact FatYS
  icases Hs with ⟨Hat, FatYS⟩
  ihave #HIw := (Prep.inv_ys m K c 26) $$ HI
  iapply (Rounds.wp_wait_rest_token 𝒱₀ ER (rd m) (c : Thread nD τ) none (κ := K (c, some (0, 26))) (sm := .dma (ysS 26))
      (wpE_waitDma2_eq 𝒱₀ (c : Thread nD τ) none Set.univ (src := yDst c 26) (dst := ySrc c 26)) (Set.mem_univ _) () (O := 0) (W := W173) (R := 0) (m := 0) (T := ∅)
      (by rw [Nat.zero_add]; exact (expect_ys m c 26).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 26)) $$ Hpay
  ihave AccXY := (acc_step (famXY m c) 26 (by decide)) $$ [AccXY Hxy]
  · isplitl [AccXY]; · iexact AccXY
    iexact Hxy
  ihave #HIx := (Prep.inv_ys m K c 26) $$ HI
  imod (Rounds.cell_close ER (rd m) (Set.mem_univ (K (c, some (0, 26)))) (fun h => h) (R := 0 + 1) (duties_ys_later m c 26)) $$ [Hat] with Hz
  · isplitr; · iexact HIx
    iexact Hat
  iclear HIx
  ihave AccZys := (acc_step (famZys (F := F) c) 26 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W174, HO⟩
  -- step 336: wait arg4[26] (arg1[(k0_off3 d0 1664#32)], arg1[(k0_off3 d0 1664#32)])
  first | sl_exec | skip
  ihave Hs := (Entails.of_eq (take_step (famCFS (F := F) c) 26 (by decide))) $$ [FcFS]
  · iexact FcFS
  icases Hs with ⟨Hc, FcFS⟩
  ihave Hs := (Entails.of_eq (take_step (famAtFS (F := F) c) 26 (by decide))) $$ [FatFS]
  · iexact FatFS
  icases Hs with ⟨Hat, FatFS⟩
  ihave #HIw := (Prep.inv_fs m K c 26) $$ HI
  iapply (Rounds.wp_wait_rest_token 𝒱₀ ER (rd m) (c : Thread nD τ) none (κ := K (c, some (2, 26))) (sm := .dma (fsS 26))
      (wpE_waitDma2_eq 𝒱₀ (c : Thread nD τ) none Set.univ (src := fSl c 26) (dst := fSl c 26)) (Set.mem_univ _) () (O := 0) (W := W174) (R := 0) (m := 0) (T := ∅)
      (by rw [Nat.zero_add]; exact (expect_fs m c 26).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 26)) $$ Hpay
  ihave AccY := (acc_step (famY m c) 26 (by decide)) $$ [AccY HYk]
  · isplitl [AccY]; · iexact AccY
    iexact HYk
  ihave #HIx := (Prep.inv_fs m K c 26) $$ HI
  imod (Rounds.cell_close ER (rd m) (Set.mem_univ (K (c, some (2, 26)))) (fun h => h) (R := 0 + 1) (duties_fs_later m c 26)) $$ [Hat] with Hz
  · isplitr; · iexact HIx
    iexact Hat
  iclear HIx
  ihave AccZfs := (acc_step (famZfs (F := F) c) 26 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W175, HO⟩
  -- step 337: wait arg5[26] (arg1[(k0_off3 d0 1664#32)], arg1[(k0_off3 d0 1664#32)])
  first | sl_exec | skip
  ihave Hs := (Entails.of_eq (take_step (famCFR (F := F) c) 26 (by decide))) $$ [FcFR]
  · iexact FcFR
  icases Hs with ⟨Hc, FcFR⟩
  ihave Hs := (Entails.of_eq (take_step (famAtFR (F := F) c) 26 (by decide))) $$ [FatFR]
  · iexact FatFR
  icases Hs with ⟨Hat, FatFR⟩
  ihave #HIw := (Prep.inv_fr m K c 26) $$ HI
  iapply (Rounds.wp_wait_rest_token 𝒱₀ ER (rd m) (c : Thread nD τ) none (κ := K (c, some (3, 26))) (sm := .dma (frS 26))
      (wpE_waitDma2_eq 𝒱₀ (c : Thread nD τ) none Set.univ (src := fSl c 26) (dst := fSl c 26)) (Set.mem_univ _) () (O := 0) (W := W175) (R := 0) (m := 0) (T := ∅)
      (by rw [Nat.zero_add]; exact (expect_fr m c 26).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 26)) $$ Hpay
  ihave AccF := (acc_step (famF m c) 26 (by decide)) $$ [AccF HFk]
  · isplitl [AccF]; · iexact AccF
    iexact HFk
  ihave #HIx := (Prep.inv_fr m K c 26) $$ HI
  imod (Rounds.cell_close ER (rd m) (Set.mem_univ (K (c, some (3, 26)))) (fun h => h) (R := 0 + 1) (duties_fr_later m c 26)) $$ [Hat] with Hz
  · isplitr; · iexact HIx
    iexact Hat
  iclear HIx
  ihave AccZfr := (acc_step (famZfr (F := F) c) 26 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W176, HO⟩
  -- step 338: wait arg2[27] (arg1[(k0_off1 d0 1728#32)], arg0[(k0_off2 d0 1728#32)])
  first | sl_exec | skip
  ihave Hs := (Entails.of_eq (take_step (famCYS (F := F) c) 27 (by decide))) $$ [FcYS]
  · iexact FcYS
  icases Hs with ⟨Hc, FcYS⟩
  ihave Hs := (Entails.of_eq (take_step (famAtYS (F := F) c) 27 (by decide))) $$ [FatYS]
  · iexact FatYS
  icases Hs with ⟨Hat, FatYS⟩
  ihave #HIw := (Prep.inv_ys m K c 27) $$ HI
  iapply (Rounds.wp_wait_rest_token 𝒱₀ ER (rd m) (c : Thread nD τ) none (κ := K (c, some (0, 27))) (sm := .dma (ysS 27))
      (wpE_waitDma2_eq 𝒱₀ (c : Thread nD τ) none Set.univ (src := yDst c 27) (dst := ySrc c 27)) (Set.mem_univ _) () (O := 0) (W := W176) (R := 0) (m := 0) (T := ∅)
      (by rw [Nat.zero_add]; exact (expect_ys m c 27).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 27)) $$ Hpay
  ihave AccXY := (acc_step (famXY m c) 27 (by decide)) $$ [AccXY Hxy]
  · isplitl [AccXY]; · iexact AccXY
    iexact Hxy
  ihave #HIx := (Prep.inv_ys m K c 27) $$ HI
  imod (Rounds.cell_close ER (rd m) (Set.mem_univ (K (c, some (0, 27)))) (fun h => h) (R := 0 + 1) (duties_ys_later m c 27)) $$ [Hat] with Hz
  · isplitr; · iexact HIx
    iexact Hat
  iclear HIx
  ihave AccZys := (acc_step (famZys (F := F) c) 27 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W177, HO⟩
  -- step 339: wait arg4[27] (arg1[(k0_off3 d0 1728#32)], arg1[(k0_off3 d0 1728#32)])
  first | sl_exec | skip
  ihave Hs := (Entails.of_eq (take_step (famCFS (F := F) c) 27 (by decide))) $$ [FcFS]
  · iexact FcFS
  icases Hs with ⟨Hc, FcFS⟩
  ihave Hs := (Entails.of_eq (take_step (famAtFS (F := F) c) 27 (by decide))) $$ [FatFS]
  · iexact FatFS
  icases Hs with ⟨Hat, FatFS⟩
  ihave #HIw := (Prep.inv_fs m K c 27) $$ HI
  iapply (Rounds.wp_wait_rest_token 𝒱₀ ER (rd m) (c : Thread nD τ) none (κ := K (c, some (2, 27))) (sm := .dma (fsS 27))
      (wpE_waitDma2_eq 𝒱₀ (c : Thread nD τ) none Set.univ (src := fSl c 27) (dst := fSl c 27)) (Set.mem_univ _) () (O := 0) (W := W177) (R := 0) (m := 0) (T := ∅)
      (by rw [Nat.zero_add]; exact (expect_fs m c 27).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 27)) $$ Hpay
  ihave AccY := (acc_step (famY m c) 27 (by decide)) $$ [AccY HYk]
  · isplitl [AccY]; · iexact AccY
    iexact HYk
  ihave #HIx := (Prep.inv_fs m K c 27) $$ HI
  imod (Rounds.cell_close ER (rd m) (Set.mem_univ (K (c, some (2, 27)))) (fun h => h) (R := 0 + 1) (duties_fs_later m c 27)) $$ [Hat] with Hz
  · isplitr; · iexact HIx
    iexact Hat
  iclear HIx
  ihave AccZfs := (acc_step (famZfs (F := F) c) 27 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W178, HO⟩
  -- step 340: wait arg5[27] (arg1[(k0_off3 d0 1728#32)], arg1[(k0_off3 d0 1728#32)])
  first | sl_exec | skip
  ihave Hs := (Entails.of_eq (take_step (famCFR (F := F) c) 27 (by decide))) $$ [FcFR]
  · iexact FcFR
  icases Hs with ⟨Hc, FcFR⟩
  ihave Hs := (Entails.of_eq (take_step (famAtFR (F := F) c) 27 (by decide))) $$ [FatFR]
  · iexact FatFR
  icases Hs with ⟨Hat, FatFR⟩
  ihave #HIw := (Prep.inv_fr m K c 27) $$ HI
  iapply (Rounds.wp_wait_rest_token 𝒱₀ ER (rd m) (c : Thread nD τ) none (κ := K (c, some (3, 27))) (sm := .dma (frS 27))
      (wpE_waitDma2_eq 𝒱₀ (c : Thread nD τ) none Set.univ (src := fSl c 27) (dst := fSl c 27)) (Set.mem_univ _) () (O := 0) (W := W178) (R := 0) (m := 0) (T := ∅)
      (by rw [Nat.zero_add]; exact (expect_fr m c 27).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 27)) $$ Hpay
  ihave AccF := (acc_step (famF m c) 27 (by decide)) $$ [AccF HFk]
  · isplitl [AccF]; · iexact AccF
    iexact HFk
  ihave #HIx := (Prep.inv_fr m K c 27) $$ HI
  imod (Rounds.cell_close ER (rd m) (Set.mem_univ (K (c, some (3, 27)))) (fun h => h) (R := 0 + 1) (duties_fr_later m c 27)) $$ [Hat] with Hz
  · isplitr; · iexact HIx
    iexact Hat
  iclear HIx
  ihave AccZfr := (acc_step (famZfr (F := F) c) 27 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W179, HO⟩
  -- step 341: wait arg2[28] (arg1[(k0_off1 d0 1792#32)], arg0[(k0_off2 d0 1792#32)])
  first | sl_exec | skip
  ihave Hs := (Entails.of_eq (take_step (famCYS (F := F) c) 28 (by decide))) $$ [FcYS]
  · iexact FcYS
  icases Hs with ⟨Hc, FcYS⟩
  ihave Hs := (Entails.of_eq (take_step (famAtYS (F := F) c) 28 (by decide))) $$ [FatYS]
  · iexact FatYS
  icases Hs with ⟨Hat, FatYS⟩
  ihave #HIw := (Prep.inv_ys m K c 28) $$ HI
  iapply (Rounds.wp_wait_rest_token 𝒱₀ ER (rd m) (c : Thread nD τ) none (κ := K (c, some (0, 28))) (sm := .dma (ysS 28))
      (wpE_waitDma2_eq 𝒱₀ (c : Thread nD τ) none Set.univ (src := yDst c 28) (dst := ySrc c 28)) (Set.mem_univ _) () (O := 0) (W := W179) (R := 0) (m := 0) (T := ∅)
      (by rw [Nat.zero_add]; exact (expect_ys m c 28).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 28)) $$ Hpay
  ihave AccXY := (acc_step (famXY m c) 28 (by decide)) $$ [AccXY Hxy]
  · isplitl [AccXY]; · iexact AccXY
    iexact Hxy
  ihave #HIx := (Prep.inv_ys m K c 28) $$ HI
  imod (Rounds.cell_close ER (rd m) (Set.mem_univ (K (c, some (0, 28)))) (fun h => h) (R := 0 + 1) (duties_ys_later m c 28)) $$ [Hat] with Hz
  · isplitr; · iexact HIx
    iexact Hat
  iclear HIx
  ihave AccZys := (acc_step (famZys (F := F) c) 28 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W180, HO⟩
  -- step 342: wait arg4[28] (arg1[(k0_off3 d0 1792#32)], arg1[(k0_off3 d0 1792#32)])
  first | sl_exec | skip
  ihave Hs := (Entails.of_eq (take_step (famCFS (F := F) c) 28 (by decide))) $$ [FcFS]
  · iexact FcFS
  icases Hs with ⟨Hc, FcFS⟩
  ihave Hs := (Entails.of_eq (take_step (famAtFS (F := F) c) 28 (by decide))) $$ [FatFS]
  · iexact FatFS
  icases Hs with ⟨Hat, FatFS⟩
  ihave #HIw := (Prep.inv_fs m K c 28) $$ HI
  iapply (Rounds.wp_wait_rest_token 𝒱₀ ER (rd m) (c : Thread nD τ) none (κ := K (c, some (2, 28))) (sm := .dma (fsS 28))
      (wpE_waitDma2_eq 𝒱₀ (c : Thread nD τ) none Set.univ (src := fSl c 28) (dst := fSl c 28)) (Set.mem_univ _) () (O := 0) (W := W180) (R := 0) (m := 0) (T := ∅)
      (by rw [Nat.zero_add]; exact (expect_fs m c 28).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 28)) $$ Hpay
  ihave AccY := (acc_step (famY m c) 28 (by decide)) $$ [AccY HYk]
  · isplitl [AccY]; · iexact AccY
    iexact HYk
  ihave #HIx := (Prep.inv_fs m K c 28) $$ HI
  imod (Rounds.cell_close ER (rd m) (Set.mem_univ (K (c, some (2, 28)))) (fun h => h) (R := 0 + 1) (duties_fs_later m c 28)) $$ [Hat] with Hz
  · isplitr; · iexact HIx
    iexact Hat
  iclear HIx
  ihave AccZfs := (acc_step (famZfs (F := F) c) 28 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W181, HO⟩
  -- step 343: wait arg5[28] (arg1[(k0_off3 d0 1792#32)], arg1[(k0_off3 d0 1792#32)])
  first | sl_exec | skip
  ihave Hs := (Entails.of_eq (take_step (famCFR (F := F) c) 28 (by decide))) $$ [FcFR]
  · iexact FcFR
  icases Hs with ⟨Hc, FcFR⟩
  ihave Hs := (Entails.of_eq (take_step (famAtFR (F := F) c) 28 (by decide))) $$ [FatFR]
  · iexact FatFR
  icases Hs with ⟨Hat, FatFR⟩
  ihave #HIw := (Prep.inv_fr m K c 28) $$ HI
  iapply (Rounds.wp_wait_rest_token 𝒱₀ ER (rd m) (c : Thread nD τ) none (κ := K (c, some (3, 28))) (sm := .dma (frS 28))
      (wpE_waitDma2_eq 𝒱₀ (c : Thread nD τ) none Set.univ (src := fSl c 28) (dst := fSl c 28)) (Set.mem_univ _) () (O := 0) (W := W181) (R := 0) (m := 0) (T := ∅)
      (by rw [Nat.zero_add]; exact (expect_fr m c 28).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 28)) $$ Hpay
  ihave AccF := (acc_step (famF m c) 28 (by decide)) $$ [AccF HFk]
  · isplitl [AccF]; · iexact AccF
    iexact HFk
  ihave #HIx := (Prep.inv_fr m K c 28) $$ HI
  imod (Rounds.cell_close ER (rd m) (Set.mem_univ (K (c, some (3, 28)))) (fun h => h) (R := 0 + 1) (duties_fr_later m c 28)) $$ [Hat] with Hz
  · isplitr; · iexact HIx
    iexact Hat
  iclear HIx
  ihave AccZfr := (acc_step (famZfr (F := F) c) 28 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W182, HO⟩
  -- step 344: wait arg2[29] (arg1[(k0_off1 d0 1856#32)], arg0[(k0_off2 d0 1856#32)])
  first | sl_exec | skip
  ihave Hs := (Entails.of_eq (take_step (famCYS (F := F) c) 29 (by decide))) $$ [FcYS]
  · iexact FcYS
  icases Hs with ⟨Hc, FcYS⟩
  ihave Hs := (Entails.of_eq (take_step (famAtYS (F := F) c) 29 (by decide))) $$ [FatYS]
  · iexact FatYS
  icases Hs with ⟨Hat, FatYS⟩
  ihave #HIw := (Prep.inv_ys m K c 29) $$ HI
  iapply (Rounds.wp_wait_rest_token 𝒱₀ ER (rd m) (c : Thread nD τ) none (κ := K (c, some (0, 29))) (sm := .dma (ysS 29))
      (wpE_waitDma2_eq 𝒱₀ (c : Thread nD τ) none Set.univ (src := yDst c 29) (dst := ySrc c 29)) (Set.mem_univ _) () (O := 0) (W := W182) (R := 0) (m := 0) (T := ∅)
      (by rw [Nat.zero_add]; exact (expect_ys m c 29).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 29)) $$ Hpay
  ihave AccXY := (acc_step (famXY m c) 29 (by decide)) $$ [AccXY Hxy]
  · isplitl [AccXY]; · iexact AccXY
    iexact Hxy
  ihave #HIx := (Prep.inv_ys m K c 29) $$ HI
  imod (Rounds.cell_close ER (rd m) (Set.mem_univ (K (c, some (0, 29)))) (fun h => h) (R := 0 + 1) (duties_ys_later m c 29)) $$ [Hat] with Hz
  · isplitr; · iexact HIx
    iexact Hat
  iclear HIx
  ihave AccZys := (acc_step (famZys (F := F) c) 29 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W183, HO⟩
  -- step 345: wait arg4[29] (arg1[(k0_off3 d0 1856#32)], arg1[(k0_off3 d0 1856#32)])
  first | sl_exec | skip
  ihave Hs := (Entails.of_eq (take_step (famCFS (F := F) c) 29 (by decide))) $$ [FcFS]
  · iexact FcFS
  icases Hs with ⟨Hc, FcFS⟩
  ihave Hs := (Entails.of_eq (take_step (famAtFS (F := F) c) 29 (by decide))) $$ [FatFS]
  · iexact FatFS
  icases Hs with ⟨Hat, FatFS⟩
  ihave #HIw := (Prep.inv_fs m K c 29) $$ HI
  iapply (Rounds.wp_wait_rest_token 𝒱₀ ER (rd m) (c : Thread nD τ) none (κ := K (c, some (2, 29))) (sm := .dma (fsS 29))
      (wpE_waitDma2_eq 𝒱₀ (c : Thread nD τ) none Set.univ (src := fSl c 29) (dst := fSl c 29)) (Set.mem_univ _) () (O := 0) (W := W183) (R := 0) (m := 0) (T := ∅)
      (by rw [Nat.zero_add]; exact (expect_fs m c 29).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 29)) $$ Hpay
  ihave AccY := (acc_step (famY m c) 29 (by decide)) $$ [AccY HYk]
  · isplitl [AccY]; · iexact AccY
    iexact HYk
  ihave #HIx := (Prep.inv_fs m K c 29) $$ HI
  imod (Rounds.cell_close ER (rd m) (Set.mem_univ (K (c, some (2, 29)))) (fun h => h) (R := 0 + 1) (duties_fs_later m c 29)) $$ [Hat] with Hz
  · isplitr; · iexact HIx
    iexact Hat
  iclear HIx
  ihave AccZfs := (acc_step (famZfs (F := F) c) 29 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W184, HO⟩
  -- step 346: wait arg5[29] (arg1[(k0_off3 d0 1856#32)], arg1[(k0_off3 d0 1856#32)])
  first | sl_exec | skip
  ihave Hs := (Entails.of_eq (take_step (famCFR (F := F) c) 29 (by decide))) $$ [FcFR]
  · iexact FcFR
  icases Hs with ⟨Hc, FcFR⟩
  ihave Hs := (Entails.of_eq (take_step (famAtFR (F := F) c) 29 (by decide))) $$ [FatFR]
  · iexact FatFR
  icases Hs with ⟨Hat, FatFR⟩
  ihave #HIw := (Prep.inv_fr m K c 29) $$ HI
  iapply (Rounds.wp_wait_rest_token 𝒱₀ ER (rd m) (c : Thread nD τ) none (κ := K (c, some (3, 29))) (sm := .dma (frS 29))
      (wpE_waitDma2_eq 𝒱₀ (c : Thread nD τ) none Set.univ (src := fSl c 29) (dst := fSl c 29)) (Set.mem_univ _) () (O := 0) (W := W184) (R := 0) (m := 0) (T := ∅)
      (by rw [Nat.zero_add]; exact (expect_fr m c 29).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 29)) $$ Hpay
  ihave AccF := (acc_step (famF m c) 29 (by decide)) $$ [AccF HFk]
  · isplitl [AccF]; · iexact AccF
    iexact HFk
  ihave #HIx := (Prep.inv_fr m K c 29) $$ HI
  imod (Rounds.cell_close ER (rd m) (Set.mem_univ (K (c, some (3, 29)))) (fun h => h) (R := 0 + 1) (duties_fr_later m c 29)) $$ [Hat] with Hz
  · isplitr; · iexact HIx
    iexact Hat
  iclear HIx
  ihave AccZfr := (acc_step (famZfr (F := F) c) 29 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W185, HO⟩
  -- step 347: wait arg2[30] (arg1[(k0_off1 d0 1920#32)], arg0[(k0_off2 d0 1920#32)])
  first | sl_exec | skip
  ihave Hs := (Entails.of_eq (take_step (famCYS (F := F) c) 30 (by decide))) $$ [FcYS]
  · iexact FcYS
  icases Hs with ⟨Hc, FcYS⟩
  ihave Hs := (Entails.of_eq (take_step (famAtYS (F := F) c) 30 (by decide))) $$ [FatYS]
  · iexact FatYS
  icases Hs with ⟨Hat, FatYS⟩
  ihave #HIw := (Prep.inv_ys m K c 30) $$ HI
  iapply (Rounds.wp_wait_rest_token 𝒱₀ ER (rd m) (c : Thread nD τ) none (κ := K (c, some (0, 30))) (sm := .dma (ysS 30))
      (wpE_waitDma2_eq 𝒱₀ (c : Thread nD τ) none Set.univ (src := yDst c 30) (dst := ySrc c 30)) (Set.mem_univ _) () (O := 0) (W := W185) (R := 0) (m := 0) (T := ∅)
      (by rw [Nat.zero_add]; exact (expect_ys m c 30).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 30)) $$ Hpay
  ihave AccXY := (acc_step (famXY m c) 30 (by decide)) $$ [AccXY Hxy]
  · isplitl [AccXY]; · iexact AccXY
    iexact Hxy
  ihave #HIx := (Prep.inv_ys m K c 30) $$ HI
  imod (Rounds.cell_close ER (rd m) (Set.mem_univ (K (c, some (0, 30)))) (fun h => h) (R := 0 + 1) (duties_ys_later m c 30)) $$ [Hat] with Hz
  · isplitr; · iexact HIx
    iexact Hat
  iclear HIx
  ihave AccZys := (acc_step (famZys (F := F) c) 30 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W186, HO⟩
  -- step 348: wait arg4[30] (arg1[(k0_off3 d0 1920#32)], arg1[(k0_off3 d0 1920#32)])
  first | sl_exec | skip
  ihave Hs := (Entails.of_eq (take_step (famCFS (F := F) c) 30 (by decide))) $$ [FcFS]
  · iexact FcFS
  icases Hs with ⟨Hc, FcFS⟩
  ihave Hs := (Entails.of_eq (take_step (famAtFS (F := F) c) 30 (by decide))) $$ [FatFS]
  · iexact FatFS
  icases Hs with ⟨Hat, FatFS⟩
  ihave #HIw := (Prep.inv_fs m K c 30) $$ HI
  iapply (Rounds.wp_wait_rest_token 𝒱₀ ER (rd m) (c : Thread nD τ) none (κ := K (c, some (2, 30))) (sm := .dma (fsS 30))
      (wpE_waitDma2_eq 𝒱₀ (c : Thread nD τ) none Set.univ (src := fSl c 30) (dst := fSl c 30)) (Set.mem_univ _) () (O := 0) (W := W186) (R := 0) (m := 0) (T := ∅)
      (by rw [Nat.zero_add]; exact (expect_fs m c 30).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 30)) $$ Hpay
  ihave AccY := (acc_step (famY m c) 30 (by decide)) $$ [AccY HYk]
  · isplitl [AccY]; · iexact AccY
    iexact HYk
  ihave #HIx := (Prep.inv_fs m K c 30) $$ HI
  imod (Rounds.cell_close ER (rd m) (Set.mem_univ (K (c, some (2, 30)))) (fun h => h) (R := 0 + 1) (duties_fs_later m c 30)) $$ [Hat] with Hz
  · isplitr; · iexact HIx
    iexact Hat
  iclear HIx
  ihave AccZfs := (acc_step (famZfs (F := F) c) 30 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W187, HO⟩
  -- step 349: wait arg5[30] (arg1[(k0_off3 d0 1920#32)], arg1[(k0_off3 d0 1920#32)])
  first | sl_exec | skip
  ihave Hs := (Entails.of_eq (take_step (famCFR (F := F) c) 30 (by decide))) $$ [FcFR]
  · iexact FcFR
  icases Hs with ⟨Hc, FcFR⟩
  ihave Hs := (Entails.of_eq (take_step (famAtFR (F := F) c) 30 (by decide))) $$ [FatFR]
  · iexact FatFR
  icases Hs with ⟨Hat, FatFR⟩
  ihave #HIw := (Prep.inv_fr m K c 30) $$ HI
  iapply (Rounds.wp_wait_rest_token 𝒱₀ ER (rd m) (c : Thread nD τ) none (κ := K (c, some (3, 30))) (sm := .dma (frS 30))
      (wpE_waitDma2_eq 𝒱₀ (c : Thread nD τ) none Set.univ (src := fSl c 30) (dst := fSl c 30)) (Set.mem_univ _) () (O := 0) (W := W187) (R := 0) (m := 0) (T := ∅)
      (by rw [Nat.zero_add]; exact (expect_fr m c 30).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 30)) $$ Hpay
  ihave AccF := (acc_step (famF m c) 30 (by decide)) $$ [AccF HFk]
  · isplitl [AccF]; · iexact AccF
    iexact HFk
  ihave #HIx := (Prep.inv_fr m K c 30) $$ HI
  imod (Rounds.cell_close ER (rd m) (Set.mem_univ (K (c, some (3, 30)))) (fun h => h) (R := 0 + 1) (duties_fr_later m c 30)) $$ [Hat] with Hz
  · isplitr; · iexact HIx
    iexact Hat
  iclear HIx
  ihave AccZfr := (acc_step (famZfr (F := F) c) 30 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W188, HO⟩
  -- step 350: wait arg2[31] (arg1[(k0_off1 d0 1984#32)], arg0[(k0_off2 d0 1984#32)])
  first | sl_exec | skip
  ihave Hs := (Entails.of_eq (take_step (famCYS (F := F) c) 31 (by decide))) $$ [FcYS]
  · iexact FcYS
  icases Hs with ⟨Hc, FcYS⟩
  ihave Hs := (Entails.of_eq (take_step (famAtYS (F := F) c) 31 (by decide))) $$ [FatYS]
  · iexact FatYS
  icases Hs with ⟨Hat, FatYS⟩
  ihave #HIw := (Prep.inv_ys m K c 31) $$ HI
  iapply (Rounds.wp_wait_rest_token 𝒱₀ ER (rd m) (c : Thread nD τ) none (κ := K (c, some (0, 31))) (sm := .dma (ysS 31))
      (wpE_waitDma2_eq 𝒱₀ (c : Thread nD τ) none Set.univ (src := yDst c 31) (dst := ySrc c 31)) (Set.mem_univ _) () (O := 0) (W := W188) (R := 0) (m := 0) (T := ∅)
      (by rw [Nat.zero_add]; exact (expect_ys m c 31).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 31)) $$ Hpay
  ihave AccXY := (acc_step (famXY m c) 31 (by decide)) $$ [AccXY Hxy]
  · isplitl [AccXY]; · iexact AccXY
    iexact Hxy
  ihave #HIx := (Prep.inv_ys m K c 31) $$ HI
  imod (Rounds.cell_close ER (rd m) (Set.mem_univ (K (c, some (0, 31)))) (fun h => h) (R := 0 + 1) (duties_ys_later m c 31)) $$ [Hat] with Hz
  · isplitr; · iexact HIx
    iexact Hat
  iclear HIx
  ihave AccZys := (acc_step (famZys (F := F) c) 31 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W189, HO⟩
  -- step 351: wait arg4[31] (arg1[(k0_off3 d0 1984#32)], arg1[(k0_off3 d0 1984#32)])
  first | sl_exec | skip
  ihave Hs := (Entails.of_eq (take_step (famCFS (F := F) c) 31 (by decide))) $$ [FcFS]
  · iexact FcFS
  icases Hs with ⟨Hc, FcFS⟩
  ihave Hs := (Entails.of_eq (take_step (famAtFS (F := F) c) 31 (by decide))) $$ [FatFS]
  · iexact FatFS
  icases Hs with ⟨Hat, FatFS⟩
  ihave #HIw := (Prep.inv_fs m K c 31) $$ HI
  iapply (Rounds.wp_wait_rest_token 𝒱₀ ER (rd m) (c : Thread nD τ) none (κ := K (c, some (2, 31))) (sm := .dma (fsS 31))
      (wpE_waitDma2_eq 𝒱₀ (c : Thread nD τ) none Set.univ (src := fSl c 31) (dst := fSl c 31)) (Set.mem_univ _) () (O := 0) (W := W189) (R := 0) (m := 0) (T := ∅)
      (by rw [Nat.zero_add]; exact (expect_fs m c 31).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 31)) $$ Hpay
  ihave AccY := (acc_step (famY m c) 31 (by decide)) $$ [AccY HYk]
  · isplitl [AccY]; · iexact AccY
    iexact HYk
  ihave #HIx := (Prep.inv_fs m K c 31) $$ HI
  imod (Rounds.cell_close ER (rd m) (Set.mem_univ (K (c, some (2, 31)))) (fun h => h) (R := 0 + 1) (duties_fs_later m c 31)) $$ [Hat] with Hz
  · isplitr; · iexact HIx
    iexact Hat
  iclear HIx
  ihave AccZfs := (acc_step (famZfs (F := F) c) 31 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W190, HO⟩
  -- step 352: wait arg5[31] (arg1[(k0_off3 d0 1984#32)], arg1[(k0_off3 d0 1984#32)])
  first | sl_exec | skip
  ihave Hs := (Entails.of_eq (take_step (famCFR (F := F) c) 31 (by decide))) $$ [FcFR]
  · iexact FcFR
  icases Hs with ⟨Hc, FcFR⟩
  ihave Hs := (Entails.of_eq (take_step (famAtFR (F := F) c) 31 (by decide))) $$ [FatFR]
  · iexact FatFR
  icases Hs with ⟨Hat, FatFR⟩
  ihave #HIw := (Prep.inv_fr m K c 31) $$ HI
  iapply (Rounds.wp_wait_rest_token 𝒱₀ ER (rd m) (c : Thread nD τ) none (κ := K (c, some (3, 31))) (sm := .dma (frS 31))
      (wpE_waitDma2_eq 𝒱₀ (c : Thread nD τ) none Set.univ (src := fSl c 31) (dst := fSl c 31)) (Set.mem_univ _) () (O := 0) (W := W190) (R := 0) (m := 0) (T := ∅)
      (by rw [Nat.zero_add]; exact (expect_fr m c 31).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 31)) $$ Hpay
  ihave AccF := (acc_step (famF m c) 31 (by decide)) $$ [AccF HFk]
  · isplitl [AccF]; · iexact AccF
    iexact HFk
  ihave #HIx := (Prep.inv_fr m K c 31) $$ HI
  imod (Rounds.cell_close ER (rd m) (Set.mem_univ (K (c, some (3, 31)))) (fun h => h) (R := 0 + 1) (duties_fr_later m c 31)) $$ [Hat] with Hz
  · isplitr; · iexact HIx
    iexact Hat
  iclear HIx
  ihave AccZfr := (acc_step (famZfr (F := F) c) 31 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W191, HO⟩
  -- step 353: wait arg2[32] (arg1[(k0_off1 d0 2048#32)], arg0[(k0_off2 d0 2048#32)])
  first | sl_exec | skip
  ihave Hs := (Entails.of_eq (take_step (famCYS (F := F) c) 32 (by decide))) $$ [FcYS]
  · iexact FcYS
  icases Hs with ⟨Hc, FcYS⟩
  ihave Hs := (Entails.of_eq (take_step (famAtYS (F := F) c) 32 (by decide))) $$ [FatYS]
  · iexact FatYS
  icases Hs with ⟨Hat, FatYS⟩
  ihave #HIw := (Prep.inv_ys m K c 32) $$ HI
  iapply (Rounds.wp_wait_rest_token 𝒱₀ ER (rd m) (c : Thread nD τ) none (κ := K (c, some (0, 32))) (sm := .dma (ysS 32))
      (wpE_waitDma2_eq 𝒱₀ (c : Thread nD τ) none Set.univ (src := yDst c 32) (dst := ySrc c 32)) (Set.mem_univ _) () (O := 0) (W := W191) (R := 0) (m := 0) (T := ∅)
      (by rw [Nat.zero_add]; exact (expect_ys m c 32).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 32)) $$ Hpay
  ihave AccXY := (acc_step (famXY m c) 32 (by decide)) $$ [AccXY Hxy]
  · isplitl [AccXY]; · iexact AccXY
    iexact Hxy
  ihave #HIx := (Prep.inv_ys m K c 32) $$ HI
  imod (Rounds.cell_close ER (rd m) (Set.mem_univ (K (c, some (0, 32)))) (fun h => h) (R := 0 + 1) (duties_ys_later m c 32)) $$ [Hat] with Hz
  · isplitr; · iexact HIx
    iexact Hat
  iclear HIx
  ihave AccZys := (acc_step (famZys (F := F) c) 32 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W192, HO⟩
  -- step 354: wait arg4[32] (arg1[(k0_off3 d0 2048#32)], arg1[(k0_off3 d0 2048#32)])
  first | sl_exec | skip
  ihave Hs := (Entails.of_eq (take_step (famCFS (F := F) c) 32 (by decide))) $$ [FcFS]
  · iexact FcFS
  icases Hs with ⟨Hc, FcFS⟩
  ihave Hs := (Entails.of_eq (take_step (famAtFS (F := F) c) 32 (by decide))) $$ [FatFS]
  · iexact FatFS
  icases Hs with ⟨Hat, FatFS⟩
  ihave #HIw := (Prep.inv_fs m K c 32) $$ HI
  iapply (Rounds.wp_wait_rest_token 𝒱₀ ER (rd m) (c : Thread nD τ) none (κ := K (c, some (2, 32))) (sm := .dma (fsS 32))
      (wpE_waitDma2_eq 𝒱₀ (c : Thread nD τ) none Set.univ (src := fSl c 32) (dst := fSl c 32)) (Set.mem_univ _) () (O := 0) (W := W192) (R := 0) (m := 0) (T := ∅)
      (by rw [Nat.zero_add]; exact (expect_fs m c 32).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 32)) $$ Hpay
  ihave AccY := (acc_step (famY m c) 32 (by decide)) $$ [AccY HYk]
  · isplitl [AccY]; · iexact AccY
    iexact HYk
  ihave #HIx := (Prep.inv_fs m K c 32) $$ HI
  imod (Rounds.cell_close ER (rd m) (Set.mem_univ (K (c, some (2, 32)))) (fun h => h) (R := 0 + 1) (duties_fs_later m c 32)) $$ [Hat] with Hz
  · isplitr; · iexact HIx
    iexact Hat
  iclear HIx
  ihave AccZfs := (acc_step (famZfs (F := F) c) 32 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W193, HO⟩
  -- step 355: wait arg5[32] (arg1[(k0_off3 d0 2048#32)], arg1[(k0_off3 d0 2048#32)])
  first | sl_exec | skip
  ihave Hs := (Entails.of_eq (take_step (famCFR (F := F) c) 32 (by decide))) $$ [FcFR]
  · iexact FcFR
  icases Hs with ⟨Hc, FcFR⟩
  ihave Hs := (Entails.of_eq (take_step (famAtFR (F := F) c) 32 (by decide))) $$ [FatFR]
  · iexact FatFR
  icases Hs with ⟨Hat, FatFR⟩
  ihave #HIw := (Prep.inv_fr m K c 32) $$ HI
  iapply (Rounds.wp_wait_rest_token 𝒱₀ ER (rd m) (c : Thread nD τ) none (κ := K (c, some (3, 32))) (sm := .dma (frS 32))
      (wpE_waitDma2_eq 𝒱₀ (c : Thread nD τ) none Set.univ (src := fSl c 32) (dst := fSl c 32)) (Set.mem_univ _) () (O := 0) (W := W193) (R := 0) (m := 0) (T := ∅)
      (by rw [Nat.zero_add]; exact (expect_fr m c 32).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 32)) $$ Hpay
  ihave AccF := (acc_step (famF m c) 32 (by decide)) $$ [AccF HFk]
  · isplitl [AccF]; · iexact AccF
    iexact HFk
  ihave #HIx := (Prep.inv_fr m K c 32) $$ HI
  imod (Rounds.cell_close ER (rd m) (Set.mem_univ (K (c, some (3, 32)))) (fun h => h) (R := 0 + 1) (duties_fr_later m c 32)) $$ [Hat] with Hz
  · isplitr; · iexact HIx
    iexact Hat
  iclear HIx
  ihave AccZfr := (acc_step (famZfr (F := F) c) 32 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W194, HO⟩
  -- step 356: wait arg2[33] (arg1[(k0_off1 d0 2112#32)], arg0[(k0_off2 d0 2112#32)])
  first | sl_exec | skip
  ihave Hs := (Entails.of_eq (take_step (famCYS (F := F) c) 33 (by decide))) $$ [FcYS]
  · iexact FcYS
  icases Hs with ⟨Hc, FcYS⟩
  ihave Hs := (Entails.of_eq (take_step (famAtYS (F := F) c) 33 (by decide))) $$ [FatYS]
  · iexact FatYS
  icases Hs with ⟨Hat, FatYS⟩
  ihave #HIw := (Prep.inv_ys m K c 33) $$ HI
  iapply (Rounds.wp_wait_rest_token 𝒱₀ ER (rd m) (c : Thread nD τ) none (κ := K (c, some (0, 33))) (sm := .dma (ysS 33))
      (wpE_waitDma2_eq 𝒱₀ (c : Thread nD τ) none Set.univ (src := yDst c 33) (dst := ySrc c 33)) (Set.mem_univ _) () (O := 0) (W := W194) (R := 0) (m := 0) (T := ∅)
      (by rw [Nat.zero_add]; exact (expect_ys m c 33).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 33)) $$ Hpay
  ihave AccXY := (acc_step (famXY m c) 33 (by decide)) $$ [AccXY Hxy]
  · isplitl [AccXY]; · iexact AccXY
    iexact Hxy
  ihave #HIx := (Prep.inv_ys m K c 33) $$ HI
  imod (Rounds.cell_close ER (rd m) (Set.mem_univ (K (c, some (0, 33)))) (fun h => h) (R := 0 + 1) (duties_ys_later m c 33)) $$ [Hat] with Hz
  · isplitr; · iexact HIx
    iexact Hat
  iclear HIx
  ihave AccZys := (acc_step (famZys (F := F) c) 33 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W195, HO⟩
  -- step 357: wait arg4[33] (arg1[(k0_off3 d0 2112#32)], arg1[(k0_off3 d0 2112#32)])
  first | sl_exec | skip
  ihave Hs := (Entails.of_eq (take_step (famCFS (F := F) c) 33 (by decide))) $$ [FcFS]
  · iexact FcFS
  icases Hs with ⟨Hc, FcFS⟩
  ihave Hs := (Entails.of_eq (take_step (famAtFS (F := F) c) 33 (by decide))) $$ [FatFS]
  · iexact FatFS
  icases Hs with ⟨Hat, FatFS⟩
  ihave #HIw := (Prep.inv_fs m K c 33) $$ HI
  iapply (Rounds.wp_wait_rest_token 𝒱₀ ER (rd m) (c : Thread nD τ) none (κ := K (c, some (2, 33))) (sm := .dma (fsS 33))
      (wpE_waitDma2_eq 𝒱₀ (c : Thread nD τ) none Set.univ (src := fSl c 33) (dst := fSl c 33)) (Set.mem_univ _) () (O := 0) (W := W195) (R := 0) (m := 0) (T := ∅)
      (by rw [Nat.zero_add]; exact (expect_fs m c 33).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 33)) $$ Hpay
  ihave AccY := (acc_step (famY m c) 33 (by decide)) $$ [AccY HYk]
  · isplitl [AccY]; · iexact AccY
    iexact HYk
  ihave #HIx := (Prep.inv_fs m K c 33) $$ HI
  imod (Rounds.cell_close ER (rd m) (Set.mem_univ (K (c, some (2, 33)))) (fun h => h) (R := 0 + 1) (duties_fs_later m c 33)) $$ [Hat] with Hz
  · isplitr; · iexact HIx
    iexact Hat
  iclear HIx
  ihave AccZfs := (acc_step (famZfs (F := F) c) 33 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W196, HO⟩
  -- step 358: wait arg5[33] (arg1[(k0_off3 d0 2112#32)], arg1[(k0_off3 d0 2112#32)])
  first | sl_exec | skip
  ihave Hs := (Entails.of_eq (take_step (famCFR (F := F) c) 33 (by decide))) $$ [FcFR]
  · iexact FcFR
  icases Hs with ⟨Hc, FcFR⟩
  ihave Hs := (Entails.of_eq (take_step (famAtFR (F := F) c) 33 (by decide))) $$ [FatFR]
  · iexact FatFR
  icases Hs with ⟨Hat, FatFR⟩
  ihave #HIw := (Prep.inv_fr m K c 33) $$ HI
  iapply (Rounds.wp_wait_rest_token 𝒱₀ ER (rd m) (c : Thread nD τ) none (κ := K (c, some (3, 33))) (sm := .dma (frS 33))
      (wpE_waitDma2_eq 𝒱₀ (c : Thread nD τ) none Set.univ (src := fSl c 33) (dst := fSl c 33)) (Set.mem_univ _) () (O := 0) (W := W196) (R := 0) (m := 0) (T := ∅)
      (by rw [Nat.zero_add]; exact (expect_fr m c 33).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 33)) $$ Hpay
  ihave AccF := (acc_step (famF m c) 33 (by decide)) $$ [AccF HFk]
  · isplitl [AccF]; · iexact AccF
    iexact HFk
  ihave #HIx := (Prep.inv_fr m K c 33) $$ HI
  imod (Rounds.cell_close ER (rd m) (Set.mem_univ (K (c, some (3, 33)))) (fun h => h) (R := 0 + 1) (duties_fr_later m c 33)) $$ [Hat] with Hz
  · isplitr; · iexact HIx
    iexact Hat
  iclear HIx
  ihave AccZfr := (acc_step (famZfr (F := F) c) 33 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W197, HO⟩
  -- step 359: wait arg2[34] (arg1[(k0_off1 d0 2176#32)], arg0[(k0_off2 d0 2176#32)])
  first | sl_exec | skip
  ihave Hs := (Entails.of_eq (take_step (famCYS (F := F) c) 34 (by decide))) $$ [FcYS]
  · iexact FcYS
  icases Hs with ⟨Hc, FcYS⟩
  ihave Hs := (Entails.of_eq (take_step (famAtYS (F := F) c) 34 (by decide))) $$ [FatYS]
  · iexact FatYS
  icases Hs with ⟨Hat, FatYS⟩
  ihave #HIw := (Prep.inv_ys m K c 34) $$ HI
  iapply (Rounds.wp_wait_rest_token 𝒱₀ ER (rd m) (c : Thread nD τ) none (κ := K (c, some (0, 34))) (sm := .dma (ysS 34))
      (wpE_waitDma2_eq 𝒱₀ (c : Thread nD τ) none Set.univ (src := yDst c 34) (dst := ySrc c 34)) (Set.mem_univ _) () (O := 0) (W := W197) (R := 0) (m := 0) (T := ∅)
      (by rw [Nat.zero_add]; exact (expect_ys m c 34).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 34)) $$ Hpay
  ihave AccXY := (acc_step (famXY m c) 34 (by decide)) $$ [AccXY Hxy]
  · isplitl [AccXY]; · iexact AccXY
    iexact Hxy
  ihave #HIx := (Prep.inv_ys m K c 34) $$ HI
  imod (Rounds.cell_close ER (rd m) (Set.mem_univ (K (c, some (0, 34)))) (fun h => h) (R := 0 + 1) (duties_ys_later m c 34)) $$ [Hat] with Hz
  · isplitr; · iexact HIx
    iexact Hat
  iclear HIx
  ihave AccZys := (acc_step (famZys (F := F) c) 34 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W198, HO⟩
  -- step 360: wait arg4[34] (arg1[(k0_off3 d0 2176#32)], arg1[(k0_off3 d0 2176#32)])
  first | sl_exec | skip
  ihave Hs := (Entails.of_eq (take_step (famCFS (F := F) c) 34 (by decide))) $$ [FcFS]
  · iexact FcFS
  icases Hs with ⟨Hc, FcFS⟩
  ihave Hs := (Entails.of_eq (take_step (famAtFS (F := F) c) 34 (by decide))) $$ [FatFS]
  · iexact FatFS
  icases Hs with ⟨Hat, FatFS⟩
  ihave #HIw := (Prep.inv_fs m K c 34) $$ HI
  iapply (Rounds.wp_wait_rest_token 𝒱₀ ER (rd m) (c : Thread nD τ) none (κ := K (c, some (2, 34))) (sm := .dma (fsS 34))
      (wpE_waitDma2_eq 𝒱₀ (c : Thread nD τ) none Set.univ (src := fSl c 34) (dst := fSl c 34)) (Set.mem_univ _) () (O := 0) (W := W198) (R := 0) (m := 0) (T := ∅)
      (by rw [Nat.zero_add]; exact (expect_fs m c 34).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 34)) $$ Hpay
  ihave AccY := (acc_step (famY m c) 34 (by decide)) $$ [AccY HYk]
  · isplitl [AccY]; · iexact AccY
    iexact HYk
  ihave #HIx := (Prep.inv_fs m K c 34) $$ HI
  imod (Rounds.cell_close ER (rd m) (Set.mem_univ (K (c, some (2, 34)))) (fun h => h) (R := 0 + 1) (duties_fs_later m c 34)) $$ [Hat] with Hz
  · isplitr; · iexact HIx
    iexact Hat
  iclear HIx
  ihave AccZfs := (acc_step (famZfs (F := F) c) 34 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W199, HO⟩
  -- step 361: wait arg5[34] (arg1[(k0_off3 d0 2176#32)], arg1[(k0_off3 d0 2176#32)])
  first | sl_exec | skip
  ihave Hs := (Entails.of_eq (take_step (famCFR (F := F) c) 34 (by decide))) $$ [FcFR]
  · iexact FcFR
  icases Hs with ⟨Hc, FcFR⟩
  ihave Hs := (Entails.of_eq (take_step (famAtFR (F := F) c) 34 (by decide))) $$ [FatFR]
  · iexact FatFR
  icases Hs with ⟨Hat, FatFR⟩
  ihave #HIw := (Prep.inv_fr m K c 34) $$ HI
  iapply (Rounds.wp_wait_rest_token 𝒱₀ ER (rd m) (c : Thread nD τ) none (κ := K (c, some (3, 34))) (sm := .dma (frS 34))
      (wpE_waitDma2_eq 𝒱₀ (c : Thread nD τ) none Set.univ (src := fSl c 34) (dst := fSl c 34)) (Set.mem_univ _) () (O := 0) (W := W199) (R := 0) (m := 0) (T := ∅)
      (by rw [Nat.zero_add]; exact (expect_fr m c 34).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 34)) $$ Hpay
  ihave AccF := (acc_step (famF m c) 34 (by decide)) $$ [AccF HFk]
  · isplitl [AccF]; · iexact AccF
    iexact HFk
  ihave #HIx := (Prep.inv_fr m K c 34) $$ HI
  imod (Rounds.cell_close ER (rd m) (Set.mem_univ (K (c, some (3, 34)))) (fun h => h) (R := 0 + 1) (duties_fr_later m c 34)) $$ [Hat] with Hz
  · isplitr; · iexact HIx
    iexact Hat
  iclear HIx
  ihave AccZfr := (acc_step (famZfr (F := F) c) 34 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W200, HO⟩
  -- step 362: wait arg2[35] (arg1[(k0_off1 d0 2240#32)], arg0[(k0_off2 d0 2240#32)])
  first | sl_exec | skip
  ihave Hs := (Entails.of_eq (take_step (famCYS (F := F) c) 35 (by decide))) $$ [FcYS]
  · iexact FcYS
  icases Hs with ⟨Hc, FcYS⟩
  ihave Hs := (Entails.of_eq (take_step (famAtYS (F := F) c) 35 (by decide))) $$ [FatYS]
  · iexact FatYS
  icases Hs with ⟨Hat, FatYS⟩
  ihave #HIw := (Prep.inv_ys m K c 35) $$ HI
  iapply (Rounds.wp_wait_rest_token 𝒱₀ ER (rd m) (c : Thread nD τ) none (κ := K (c, some (0, 35))) (sm := .dma (ysS 35))
      (wpE_waitDma2_eq 𝒱₀ (c : Thread nD τ) none Set.univ (src := yDst c 35) (dst := ySrc c 35)) (Set.mem_univ _) () (O := 0) (W := W200) (R := 0) (m := 0) (T := ∅)
      (by rw [Nat.zero_add]; exact (expect_ys m c 35).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 35)) $$ Hpay
  ihave AccXY := (acc_step (famXY m c) 35 (by decide)) $$ [AccXY Hxy]
  · isplitl [AccXY]; · iexact AccXY
    iexact Hxy
  ihave #HIx := (Prep.inv_ys m K c 35) $$ HI
  imod (Rounds.cell_close ER (rd m) (Set.mem_univ (K (c, some (0, 35)))) (fun h => h) (R := 0 + 1) (duties_ys_later m c 35)) $$ [Hat] with Hz
  · isplitr; · iexact HIx
    iexact Hat
  iclear HIx
  ihave AccZys := (acc_step (famZys (F := F) c) 35 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W201, HO⟩
  -- step 363: wait arg4[35] (arg1[(k0_off3 d0 2240#32)], arg1[(k0_off3 d0 2240#32)])
  first | sl_exec | skip
  ihave Hs := (Entails.of_eq (take_step (famCFS (F := F) c) 35 (by decide))) $$ [FcFS]
  · iexact FcFS
  icases Hs with ⟨Hc, FcFS⟩
  ihave Hs := (Entails.of_eq (take_step (famAtFS (F := F) c) 35 (by decide))) $$ [FatFS]
  · iexact FatFS
  icases Hs with ⟨Hat, FatFS⟩
  ihave #HIw := (Prep.inv_fs m K c 35) $$ HI
  iapply (Rounds.wp_wait_rest_token 𝒱₀ ER (rd m) (c : Thread nD τ) none (κ := K (c, some (2, 35))) (sm := .dma (fsS 35))
      (wpE_waitDma2_eq 𝒱₀ (c : Thread nD τ) none Set.univ (src := fSl c 35) (dst := fSl c 35)) (Set.mem_univ _) () (O := 0) (W := W201) (R := 0) (m := 0) (T := ∅)
      (by rw [Nat.zero_add]; exact (expect_fs m c 35).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 35)) $$ Hpay
  ihave AccY := (acc_step (famY m c) 35 (by decide)) $$ [AccY HYk]
  · isplitl [AccY]; · iexact AccY
    iexact HYk
  ihave #HIx := (Prep.inv_fs m K c 35) $$ HI
  imod (Rounds.cell_close ER (rd m) (Set.mem_univ (K (c, some (2, 35)))) (fun h => h) (R := 0 + 1) (duties_fs_later m c 35)) $$ [Hat] with Hz
  · isplitr; · iexact HIx
    iexact Hat
  iclear HIx
  ihave AccZfs := (acc_step (famZfs (F := F) c) 35 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W202, HO⟩
  -- step 364: wait arg5[35] (arg1[(k0_off3 d0 2240#32)], arg1[(k0_off3 d0 2240#32)])
  first | sl_exec | skip
  ihave Hs := (Entails.of_eq (take_step (famCFR (F := F) c) 35 (by decide))) $$ [FcFR]
  · iexact FcFR
  icases Hs with ⟨Hc, FcFR⟩
  ihave Hs := (Entails.of_eq (take_step (famAtFR (F := F) c) 35 (by decide))) $$ [FatFR]
  · iexact FatFR
  icases Hs with ⟨Hat, FatFR⟩
  ihave #HIw := (Prep.inv_fr m K c 35) $$ HI
  iapply (Rounds.wp_wait_rest_token 𝒱₀ ER (rd m) (c : Thread nD τ) none (κ := K (c, some (3, 35))) (sm := .dma (frS 35))
      (wpE_waitDma2_eq 𝒱₀ (c : Thread nD τ) none Set.univ (src := fSl c 35) (dst := fSl c 35)) (Set.mem_univ _) () (O := 0) (W := W202) (R := 0) (m := 0) (T := ∅)
      (by rw [Nat.zero_add]; exact (expect_fr m c 35).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 35)) $$ Hpay
  ihave AccF := (acc_step (famF m c) 35 (by decide)) $$ [AccF HFk]
  · isplitl [AccF]; · iexact AccF
    iexact HFk
  ihave #HIx := (Prep.inv_fr m K c 35) $$ HI
  imod (Rounds.cell_close ER (rd m) (Set.mem_univ (K (c, some (3, 35)))) (fun h => h) (R := 0 + 1) (duties_fr_later m c 35)) $$ [Hat] with Hz
  · isplitr; · iexact HIx
    iexact Hat
  iclear HIx
  ihave AccZfr := (acc_step (famZfr (F := F) c) 35 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W203, HO⟩
  -- step 365: wait arg2[36] (arg1[(k0_off1 d0 2304#32)], arg0[(k0_off2 d0 2304#32)])
  first | sl_exec | skip
  ihave Hs := (Entails.of_eq (take_step (famCYS (F := F) c) 36 (by decide))) $$ [FcYS]
  · iexact FcYS
  icases Hs with ⟨Hc, FcYS⟩
  ihave Hs := (Entails.of_eq (take_step (famAtYS (F := F) c) 36 (by decide))) $$ [FatYS]
  · iexact FatYS
  icases Hs with ⟨Hat, FatYS⟩
  ihave #HIw := (Prep.inv_ys m K c 36) $$ HI
  iapply (Rounds.wp_wait_rest_token 𝒱₀ ER (rd m) (c : Thread nD τ) none (κ := K (c, some (0, 36))) (sm := .dma (ysS 36))
      (wpE_waitDma2_eq 𝒱₀ (c : Thread nD τ) none Set.univ (src := yDst c 36) (dst := ySrc c 36)) (Set.mem_univ _) () (O := 0) (W := W203) (R := 0) (m := 0) (T := ∅)
      (by rw [Nat.zero_add]; exact (expect_ys m c 36).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 36)) $$ Hpay
  ihave AccXY := (acc_step (famXY m c) 36 (by decide)) $$ [AccXY Hxy]
  · isplitl [AccXY]; · iexact AccXY
    iexact Hxy
  ihave #HIx := (Prep.inv_ys m K c 36) $$ HI
  imod (Rounds.cell_close ER (rd m) (Set.mem_univ (K (c, some (0, 36)))) (fun h => h) (R := 0 + 1) (duties_ys_later m c 36)) $$ [Hat] with Hz
  · isplitr; · iexact HIx
    iexact Hat
  iclear HIx
  ihave AccZys := (acc_step (famZys (F := F) c) 36 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W204, HO⟩
  -- step 366: wait arg4[36] (arg1[(k0_off3 d0 2304#32)], arg1[(k0_off3 d0 2304#32)])
  first | sl_exec | skip
  ihave Hs := (Entails.of_eq (take_step (famCFS (F := F) c) 36 (by decide))) $$ [FcFS]
  · iexact FcFS
  icases Hs with ⟨Hc, FcFS⟩
  ihave Hs := (Entails.of_eq (take_step (famAtFS (F := F) c) 36 (by decide))) $$ [FatFS]
  · iexact FatFS
  icases Hs with ⟨Hat, FatFS⟩
  ihave #HIw := (Prep.inv_fs m K c 36) $$ HI
  iapply (Rounds.wp_wait_rest_token 𝒱₀ ER (rd m) (c : Thread nD τ) none (κ := K (c, some (2, 36))) (sm := .dma (fsS 36))
      (wpE_waitDma2_eq 𝒱₀ (c : Thread nD τ) none Set.univ (src := fSl c 36) (dst := fSl c 36)) (Set.mem_univ _) () (O := 0) (W := W204) (R := 0) (m := 0) (T := ∅)
      (by rw [Nat.zero_add]; exact (expect_fs m c 36).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 36)) $$ Hpay
  ihave AccY := (acc_step (famY m c) 36 (by decide)) $$ [AccY HYk]
  · isplitl [AccY]; · iexact AccY
    iexact HYk
  ihave #HIx := (Prep.inv_fs m K c 36) $$ HI
  imod (Rounds.cell_close ER (rd m) (Set.mem_univ (K (c, some (2, 36)))) (fun h => h) (R := 0 + 1) (duties_fs_later m c 36)) $$ [Hat] with Hz
  · isplitr; · iexact HIx
    iexact Hat
  iclear HIx
  ihave AccZfs := (acc_step (famZfs (F := F) c) 36 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W205, HO⟩
  -- step 367: wait arg5[36] (arg1[(k0_off3 d0 2304#32)], arg1[(k0_off3 d0 2304#32)])
  first | sl_exec | skip
  ihave Hs := (Entails.of_eq (take_step (famCFR (F := F) c) 36 (by decide))) $$ [FcFR]
  · iexact FcFR
  icases Hs with ⟨Hc, FcFR⟩
  ihave Hs := (Entails.of_eq (take_step (famAtFR (F := F) c) 36 (by decide))) $$ [FatFR]
  · iexact FatFR
  icases Hs with ⟨Hat, FatFR⟩
  ihave #HIw := (Prep.inv_fr m K c 36) $$ HI
  iapply (Rounds.wp_wait_rest_token 𝒱₀ ER (rd m) (c : Thread nD τ) none (κ := K (c, some (3, 36))) (sm := .dma (frS 36))
      (wpE_waitDma2_eq 𝒱₀ (c : Thread nD τ) none Set.univ (src := fSl c 36) (dst := fSl c 36)) (Set.mem_univ _) () (O := 0) (W := W205) (R := 0) (m := 0) (T := ∅)
      (by rw [Nat.zero_add]; exact (expect_fr m c 36).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 36)) $$ Hpay
  ihave AccF := (acc_step (famF m c) 36 (by decide)) $$ [AccF HFk]
  · isplitl [AccF]; · iexact AccF
    iexact HFk
  ihave #HIx := (Prep.inv_fr m K c 36) $$ HI
  imod (Rounds.cell_close ER (rd m) (Set.mem_univ (K (c, some (3, 36)))) (fun h => h) (R := 0 + 1) (duties_fr_later m c 36)) $$ [Hat] with Hz
  · isplitr; · iexact HIx
    iexact Hat
  iclear HIx
  ihave AccZfr := (acc_step (famZfr (F := F) c) 36 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W206, HO⟩
  -- step 368: wait arg2[37] (arg1[(k0_off1 d0 2368#32)], arg0[(k0_off2 d0 2368#32)])
  first | sl_exec | skip
  ihave Hs := (Entails.of_eq (take_step (famCYS (F := F) c) 37 (by decide))) $$ [FcYS]
  · iexact FcYS
  icases Hs with ⟨Hc, FcYS⟩
  ihave Hs := (Entails.of_eq (take_step (famAtYS (F := F) c) 37 (by decide))) $$ [FatYS]
  · iexact FatYS
  icases Hs with ⟨Hat, FatYS⟩
  ihave #HIw := (Prep.inv_ys m K c 37) $$ HI
  iapply (Rounds.wp_wait_rest_token 𝒱₀ ER (rd m) (c : Thread nD τ) none (κ := K (c, some (0, 37))) (sm := .dma (ysS 37))
      (wpE_waitDma2_eq 𝒱₀ (c : Thread nD τ) none Set.univ (src := yDst c 37) (dst := ySrc c 37)) (Set.mem_univ _) () (O := 0) (W := W206) (R := 0) (m := 0) (T := ∅)
      (by rw [Nat.zero_add]; exact (expect_ys m c 37).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 37)) $$ Hpay
  ihave AccXY := (acc_step (famXY m c) 37 (by decide)) $$ [AccXY Hxy]
  · isplitl [AccXY]; · iexact AccXY
    iexact Hxy
  ihave #HIx := (Prep.inv_ys m K c 37) $$ HI
  imod (Rounds.cell_close ER (rd m) (Set.mem_univ (K (c, some (0, 37)))) (fun h => h) (R := 0 + 1) (duties_ys_later m c 37)) $$ [Hat] with Hz
  · isplitr; · iexact HIx
    iexact Hat
  iclear HIx
  ihave AccZys := (acc_step (famZys (F := F) c) 37 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W207, HO⟩
  -- step 369: wait arg4[37] (arg1[(k0_off3 d0 2368#32)], arg1[(k0_off3 d0 2368#32)])
  first | sl_exec | skip
  ihave Hs := (Entails.of_eq (take_step (famCFS (F := F) c) 37 (by decide))) $$ [FcFS]
  · iexact FcFS
  icases Hs with ⟨Hc, FcFS⟩
  ihave Hs := (Entails.of_eq (take_step (famAtFS (F := F) c) 37 (by decide))) $$ [FatFS]
  · iexact FatFS
  icases Hs with ⟨Hat, FatFS⟩
  ihave #HIw := (Prep.inv_fs m K c 37) $$ HI
  iapply (Rounds.wp_wait_rest_token 𝒱₀ ER (rd m) (c : Thread nD τ) none (κ := K (c, some (2, 37))) (sm := .dma (fsS 37))
      (wpE_waitDma2_eq 𝒱₀ (c : Thread nD τ) none Set.univ (src := fSl c 37) (dst := fSl c 37)) (Set.mem_univ _) () (O := 0) (W := W207) (R := 0) (m := 0) (T := ∅)
      (by rw [Nat.zero_add]; exact (expect_fs m c 37).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 37)) $$ Hpay
  ihave AccY := (acc_step (famY m c) 37 (by decide)) $$ [AccY HYk]
  · isplitl [AccY]; · iexact AccY
    iexact HYk
  ihave #HIx := (Prep.inv_fs m K c 37) $$ HI
  imod (Rounds.cell_close ER (rd m) (Set.mem_univ (K (c, some (2, 37)))) (fun h => h) (R := 0 + 1) (duties_fs_later m c 37)) $$ [Hat] with Hz
  · isplitr; · iexact HIx
    iexact Hat
  iclear HIx
  ihave AccZfs := (acc_step (famZfs (F := F) c) 37 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W208, HO⟩
  -- step 370: wait arg5[37] (arg1[(k0_off3 d0 2368#32)], arg1[(k0_off3 d0 2368#32)])
  first | sl_exec | skip
  ihave Hs := (Entails.of_eq (take_step (famCFR (F := F) c) 37 (by decide))) $$ [FcFR]
  · iexact FcFR
  icases Hs with ⟨Hc, FcFR⟩
  ihave Hs := (Entails.of_eq (take_step (famAtFR (F := F) c) 37 (by decide))) $$ [FatFR]
  · iexact FatFR
  icases Hs with ⟨Hat, FatFR⟩
  ihave #HIw := (Prep.inv_fr m K c 37) $$ HI
  iapply (Rounds.wp_wait_rest_token 𝒱₀ ER (rd m) (c : Thread nD τ) none (κ := K (c, some (3, 37))) (sm := .dma (frS 37))
      (wpE_waitDma2_eq 𝒱₀ (c : Thread nD τ) none Set.univ (src := fSl c 37) (dst := fSl c 37)) (Set.mem_univ _) () (O := 0) (W := W208) (R := 0) (m := 0) (T := ∅)
      (by rw [Nat.zero_add]; exact (expect_fr m c 37).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 37)) $$ Hpay
  ihave AccF := (acc_step (famF m c) 37 (by decide)) $$ [AccF HFk]
  · isplitl [AccF]; · iexact AccF
    iexact HFk
  ihave #HIx := (Prep.inv_fr m K c 37) $$ HI
  imod (Rounds.cell_close ER (rd m) (Set.mem_univ (K (c, some (3, 37)))) (fun h => h) (R := 0 + 1) (duties_fr_later m c 37)) $$ [Hat] with Hz
  · isplitr; · iexact HIx
    iexact Hat
  iclear HIx
  ihave AccZfr := (acc_step (famZfr (F := F) c) 37 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W209, HO⟩
  -- step 371: wait arg2[38] (arg1[(k0_off1 d0 2432#32)], arg0[(k0_off2 d0 2432#32)])
  first | sl_exec | skip
  ihave Hs := (Entails.of_eq (take_step (famCYS (F := F) c) 38 (by decide))) $$ [FcYS]
  · iexact FcYS
  icases Hs with ⟨Hc, FcYS⟩
  ihave Hs := (Entails.of_eq (take_step (famAtYS (F := F) c) 38 (by decide))) $$ [FatYS]
  · iexact FatYS
  icases Hs with ⟨Hat, FatYS⟩
  ihave #HIw := (Prep.inv_ys m K c 38) $$ HI
  iapply (Rounds.wp_wait_rest_token 𝒱₀ ER (rd m) (c : Thread nD τ) none (κ := K (c, some (0, 38))) (sm := .dma (ysS 38))
      (wpE_waitDma2_eq 𝒱₀ (c : Thread nD τ) none Set.univ (src := yDst c 38) (dst := ySrc c 38)) (Set.mem_univ _) () (O := 0) (W := W209) (R := 0) (m := 0) (T := ∅)
      (by rw [Nat.zero_add]; exact (expect_ys m c 38).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 38)) $$ Hpay
  ihave AccXY := (acc_step (famXY m c) 38 (by decide)) $$ [AccXY Hxy]
  · isplitl [AccXY]; · iexact AccXY
    iexact Hxy
  ihave #HIx := (Prep.inv_ys m K c 38) $$ HI
  imod (Rounds.cell_close ER (rd m) (Set.mem_univ (K (c, some (0, 38)))) (fun h => h) (R := 0 + 1) (duties_ys_later m c 38)) $$ [Hat] with Hz
  · isplitr; · iexact HIx
    iexact Hat
  iclear HIx
  ihave AccZys := (acc_step (famZys (F := F) c) 38 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W210, HO⟩
  -- step 372: wait arg4[38] (arg1[(k0_off3 d0 2432#32)], arg1[(k0_off3 d0 2432#32)])
  first | sl_exec | skip
  ihave Hs := (Entails.of_eq (take_step (famCFS (F := F) c) 38 (by decide))) $$ [FcFS]
  · iexact FcFS
  icases Hs with ⟨Hc, FcFS⟩
  ihave Hs := (Entails.of_eq (take_step (famAtFS (F := F) c) 38 (by decide))) $$ [FatFS]
  · iexact FatFS
  icases Hs with ⟨Hat, FatFS⟩
  ihave #HIw := (Prep.inv_fs m K c 38) $$ HI
  iapply (Rounds.wp_wait_rest_token 𝒱₀ ER (rd m) (c : Thread nD τ) none (κ := K (c, some (2, 38))) (sm := .dma (fsS 38))
      (wpE_waitDma2_eq 𝒱₀ (c : Thread nD τ) none Set.univ (src := fSl c 38) (dst := fSl c 38)) (Set.mem_univ _) () (O := 0) (W := W210) (R := 0) (m := 0) (T := ∅)
      (by rw [Nat.zero_add]; exact (expect_fs m c 38).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 38)) $$ Hpay
  ihave AccY := (acc_step (famY m c) 38 (by decide)) $$ [AccY HYk]
  · isplitl [AccY]; · iexact AccY
    iexact HYk
  ihave #HIx := (Prep.inv_fs m K c 38) $$ HI
  imod (Rounds.cell_close ER (rd m) (Set.mem_univ (K (c, some (2, 38)))) (fun h => h) (R := 0 + 1) (duties_fs_later m c 38)) $$ [Hat] with Hz
  · isplitr; · iexact HIx
    iexact Hat
  iclear HIx
  ihave AccZfs := (acc_step (famZfs (F := F) c) 38 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W211, HO⟩
  -- step 373: wait arg5[38] (arg1[(k0_off3 d0 2432#32)], arg1[(k0_off3 d0 2432#32)])
  first | sl_exec | skip
  ihave Hs := (Entails.of_eq (take_step (famCFR (F := F) c) 38 (by decide))) $$ [FcFR]
  · iexact FcFR
  icases Hs with ⟨Hc, FcFR⟩
  ihave Hs := (Entails.of_eq (take_step (famAtFR (F := F) c) 38 (by decide))) $$ [FatFR]
  · iexact FatFR
  icases Hs with ⟨Hat, FatFR⟩
  ihave #HIw := (Prep.inv_fr m K c 38) $$ HI
  iapply (Rounds.wp_wait_rest_token 𝒱₀ ER (rd m) (c : Thread nD τ) none (κ := K (c, some (3, 38))) (sm := .dma (frS 38))
      (wpE_waitDma2_eq 𝒱₀ (c : Thread nD τ) none Set.univ (src := fSl c 38) (dst := fSl c 38)) (Set.mem_univ _) () (O := 0) (W := W211) (R := 0) (m := 0) (T := ∅)
      (by rw [Nat.zero_add]; exact (expect_fr m c 38).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 38)) $$ Hpay
  ihave AccF := (acc_step (famF m c) 38 (by decide)) $$ [AccF HFk]
  · isplitl [AccF]; · iexact AccF
    iexact HFk
  ihave #HIx := (Prep.inv_fr m K c 38) $$ HI
  imod (Rounds.cell_close ER (rd m) (Set.mem_univ (K (c, some (3, 38)))) (fun h => h) (R := 0 + 1) (duties_fr_later m c 38)) $$ [Hat] with Hz
  · isplitr; · iexact HIx
    iexact Hat
  iclear HIx
  ihave AccZfr := (acc_step (famZfr (F := F) c) 38 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W212, HO⟩
  -- step 374: wait arg2[39] (arg1[(k0_off1 d0 2496#32)], arg0[(k0_off2 d0 2496#32)])
  first | sl_exec | skip
  ihave Hs := (Entails.of_eq (take_step (famCYS (F := F) c) 39 (by decide))) $$ [FcYS]
  · iexact FcYS
  icases Hs with ⟨Hc, FcYS⟩
  ihave Hs := (Entails.of_eq (take_step (famAtYS (F := F) c) 39 (by decide))) $$ [FatYS]
  · iexact FatYS
  icases Hs with ⟨Hat, FatYS⟩
  ihave #HIw := (Prep.inv_ys m K c 39) $$ HI
  iapply (Rounds.wp_wait_rest_token 𝒱₀ ER (rd m) (c : Thread nD τ) none (κ := K (c, some (0, 39))) (sm := .dma (ysS 39))
      (wpE_waitDma2_eq 𝒱₀ (c : Thread nD τ) none Set.univ (src := yDst c 39) (dst := ySrc c 39)) (Set.mem_univ _) () (O := 0) (W := W212) (R := 0) (m := 0) (T := ∅)
      (by rw [Nat.zero_add]; exact (expect_ys m c 39).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 39)) $$ Hpay
  ihave AccXY := (acc_step (famXY m c) 39 (by decide)) $$ [AccXY Hxy]
  · isplitl [AccXY]; · iexact AccXY
    iexact Hxy
  ihave #HIx := (Prep.inv_ys m K c 39) $$ HI
  imod (Rounds.cell_close ER (rd m) (Set.mem_univ (K (c, some (0, 39)))) (fun h => h) (R := 0 + 1) (duties_ys_later m c 39)) $$ [Hat] with Hz
  · isplitr; · iexact HIx
    iexact Hat
  iclear HIx
  ihave AccZys := (acc_step (famZys (F := F) c) 39 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W213, HO⟩
  -- step 375: wait arg4[39] (arg1[(k0_off3 d0 2496#32)], arg1[(k0_off3 d0 2496#32)])
  first | sl_exec | skip
  ihave Hs := (Entails.of_eq (take_step (famCFS (F := F) c) 39 (by decide))) $$ [FcFS]
  · iexact FcFS
  icases Hs with ⟨Hc, FcFS⟩
  ihave Hs := (Entails.of_eq (take_step (famAtFS (F := F) c) 39 (by decide))) $$ [FatFS]
  · iexact FatFS
  icases Hs with ⟨Hat, FatFS⟩
  ihave #HIw := (Prep.inv_fs m K c 39) $$ HI
  iapply (Rounds.wp_wait_rest_token 𝒱₀ ER (rd m) (c : Thread nD τ) none (κ := K (c, some (2, 39))) (sm := .dma (fsS 39))
      (wpE_waitDma2_eq 𝒱₀ (c : Thread nD τ) none Set.univ (src := fSl c 39) (dst := fSl c 39)) (Set.mem_univ _) () (O := 0) (W := W213) (R := 0) (m := 0) (T := ∅)
      (by rw [Nat.zero_add]; exact (expect_fs m c 39).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 39)) $$ Hpay
  ihave AccY := (acc_step (famY m c) 39 (by decide)) $$ [AccY HYk]
  · isplitl [AccY]; · iexact AccY
    iexact HYk
  ihave #HIx := (Prep.inv_fs m K c 39) $$ HI
  imod (Rounds.cell_close ER (rd m) (Set.mem_univ (K (c, some (2, 39)))) (fun h => h) (R := 0 + 1) (duties_fs_later m c 39)) $$ [Hat] with Hz
  · isplitr; · iexact HIx
    iexact Hat
  iclear HIx
  ihave AccZfs := (acc_step (famZfs (F := F) c) 39 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W214, HO⟩
  -- step 376: wait arg5[39] (arg1[(k0_off3 d0 2496#32)], arg1[(k0_off3 d0 2496#32)])
  first | sl_exec | skip
  ihave Hs := (Entails.of_eq (take_step (famCFR (F := F) c) 39 (by decide))) $$ [FcFR]
  · iexact FcFR
  icases Hs with ⟨Hc, FcFR⟩
  ihave Hs := (Entails.of_eq (take_step (famAtFR (F := F) c) 39 (by decide))) $$ [FatFR]
  · iexact FatFR
  icases Hs with ⟨Hat, FatFR⟩
  ihave #HIw := (Prep.inv_fr m K c 39) $$ HI
  iapply (Rounds.wp_wait_rest_token 𝒱₀ ER (rd m) (c : Thread nD τ) none (κ := K (c, some (3, 39))) (sm := .dma (frS 39))
      (wpE_waitDma2_eq 𝒱₀ (c : Thread nD τ) none Set.univ (src := fSl c 39) (dst := fSl c 39)) (Set.mem_univ _) () (O := 0) (W := W214) (R := 0) (m := 0) (T := ∅)
      (by rw [Nat.zero_add]; exact (expect_fr m c 39).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 39)) $$ Hpay
  ihave AccF := (acc_step (famF m c) 39 (by decide)) $$ [AccF HFk]
  · isplitl [AccF]; · iexact AccF
    iexact HFk
  ihave #HIx := (Prep.inv_fr m K c 39) $$ HI
  imod (Rounds.cell_close ER (rd m) (Set.mem_univ (K (c, some (3, 39)))) (fun h => h) (R := 0 + 1) (duties_fr_later m c 39)) $$ [Hat] with Hz
  · isplitr; · iexact HIx
    iexact Hat
  iclear HIx
  ihave AccZfr := (acc_step (famZfr (F := F) c) 39 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W215, HO⟩
  -- step 377: wait arg2[40] (arg1[(k0_off1 d0 2560#32)], arg0[(k0_off2 d0 2560#32)])
  first | sl_exec | skip
  ihave Hs := (Entails.of_eq (take_step (famCYS (F := F) c) 40 (by decide))) $$ [FcYS]
  · iexact FcYS
  icases Hs with ⟨Hc, FcYS⟩
  ihave Hs := (Entails.of_eq (take_step (famAtYS (F := F) c) 40 (by decide))) $$ [FatYS]
  · iexact FatYS
  icases Hs with ⟨Hat, FatYS⟩
  ihave #HIw := (Prep.inv_ys m K c 40) $$ HI
  iapply (Rounds.wp_wait_rest_token 𝒱₀ ER (rd m) (c : Thread nD τ) none (κ := K (c, some (0, 40))) (sm := .dma (ysS 40))
      (wpE_waitDma2_eq 𝒱₀ (c : Thread nD τ) none Set.univ (src := yDst c 40) (dst := ySrc c 40)) (Set.mem_univ _) () (O := 0) (W := W215) (R := 0) (m := 0) (T := ∅)
      (by rw [Nat.zero_add]; exact (expect_ys m c 40).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 40)) $$ Hpay
  ihave AccXY := (acc_step (famXY m c) 40 (by decide)) $$ [AccXY Hxy]
  · isplitl [AccXY]; · iexact AccXY
    iexact Hxy
  ihave #HIx := (Prep.inv_ys m K c 40) $$ HI
  imod (Rounds.cell_close ER (rd m) (Set.mem_univ (K (c, some (0, 40)))) (fun h => h) (R := 0 + 1) (duties_ys_later m c 40)) $$ [Hat] with Hz
  · isplitr; · iexact HIx
    iexact Hat
  iclear HIx
  ihave AccZys := (acc_step (famZys (F := F) c) 40 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W216, HO⟩
  -- step 378: wait arg4[40] (arg1[(k0_off3 d0 2560#32)], arg1[(k0_off3 d0 2560#32)])
  first | sl_exec | skip
  ihave Hs := (Entails.of_eq (take_step (famCFS (F := F) c) 40 (by decide))) $$ [FcFS]
  · iexact FcFS
  icases Hs with ⟨Hc, FcFS⟩
  ihave Hs := (Entails.of_eq (take_step (famAtFS (F := F) c) 40 (by decide))) $$ [FatFS]
  · iexact FatFS
  icases Hs with ⟨Hat, FatFS⟩
  ihave #HIw := (Prep.inv_fs m K c 40) $$ HI
  iapply (Rounds.wp_wait_rest_token 𝒱₀ ER (rd m) (c : Thread nD τ) none (κ := K (c, some (2, 40))) (sm := .dma (fsS 40))
      (wpE_waitDma2_eq 𝒱₀ (c : Thread nD τ) none Set.univ (src := fSl c 40) (dst := fSl c 40)) (Set.mem_univ _) () (O := 0) (W := W216) (R := 0) (m := 0) (T := ∅)
      (by rw [Nat.zero_add]; exact (expect_fs m c 40).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 40)) $$ Hpay
  ihave AccY := (acc_step (famY m c) 40 (by decide)) $$ [AccY HYk]
  · isplitl [AccY]; · iexact AccY
    iexact HYk
  ihave #HIx := (Prep.inv_fs m K c 40) $$ HI
  imod (Rounds.cell_close ER (rd m) (Set.mem_univ (K (c, some (2, 40)))) (fun h => h) (R := 0 + 1) (duties_fs_later m c 40)) $$ [Hat] with Hz
  · isplitr; · iexact HIx
    iexact Hat
  iclear HIx
  ihave AccZfs := (acc_step (famZfs (F := F) c) 40 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W217, HO⟩
  -- step 379: wait arg5[40] (arg1[(k0_off3 d0 2560#32)], arg1[(k0_off3 d0 2560#32)])
  first | sl_exec | skip
  ihave Hs := (Entails.of_eq (take_step (famCFR (F := F) c) 40 (by decide))) $$ [FcFR]
  · iexact FcFR
  icases Hs with ⟨Hc, FcFR⟩
  ihave Hs := (Entails.of_eq (take_step (famAtFR (F := F) c) 40 (by decide))) $$ [FatFR]
  · iexact FatFR
  icases Hs with ⟨Hat, FatFR⟩
  ihave #HIw := (Prep.inv_fr m K c 40) $$ HI
  iapply (Rounds.wp_wait_rest_token 𝒱₀ ER (rd m) (c : Thread nD τ) none (κ := K (c, some (3, 40))) (sm := .dma (frS 40))
      (wpE_waitDma2_eq 𝒱₀ (c : Thread nD τ) none Set.univ (src := fSl c 40) (dst := fSl c 40)) (Set.mem_univ _) () (O := 0) (W := W217) (R := 0) (m := 0) (T := ∅)
      (by rw [Nat.zero_add]; exact (expect_fr m c 40).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 40)) $$ Hpay
  ihave AccF := (acc_step (famF m c) 40 (by decide)) $$ [AccF HFk]
  · isplitl [AccF]; · iexact AccF
    iexact HFk
  ihave #HIx := (Prep.inv_fr m K c 40) $$ HI
  imod (Rounds.cell_close ER (rd m) (Set.mem_univ (K (c, some (3, 40)))) (fun h => h) (R := 0 + 1) (duties_fr_later m c 40)) $$ [Hat] with Hz
  · isplitr; · iexact HIx
    iexact Hat
  iclear HIx
  ihave AccZfr := (acc_step (famZfr (F := F) c) 40 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W218, HO⟩
  -- step 380: wait arg2[41] (arg1[(k0_off1 d0 2624#32)], arg0[(k0_off2 d0 2624#32)])
  first | sl_exec | skip
  ihave Hs := (Entails.of_eq (take_step (famCYS (F := F) c) 41 (by decide))) $$ [FcYS]
  · iexact FcYS
  icases Hs with ⟨Hc, FcYS⟩
  ihave Hs := (Entails.of_eq (take_step (famAtYS (F := F) c) 41 (by decide))) $$ [FatYS]
  · iexact FatYS
  icases Hs with ⟨Hat, FatYS⟩
  ihave #HIw := (Prep.inv_ys m K c 41) $$ HI
  iapply (Rounds.wp_wait_rest_token 𝒱₀ ER (rd m) (c : Thread nD τ) none (κ := K (c, some (0, 41))) (sm := .dma (ysS 41))
      (wpE_waitDma2_eq 𝒱₀ (c : Thread nD τ) none Set.univ (src := yDst c 41) (dst := ySrc c 41)) (Set.mem_univ _) () (O := 0) (W := W218) (R := 0) (m := 0) (T := ∅)
      (by rw [Nat.zero_add]; exact (expect_ys m c 41).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 41)) $$ Hpay
  ihave AccXY := (acc_step (famXY m c) 41 (by decide)) $$ [AccXY Hxy]
  · isplitl [AccXY]; · iexact AccXY
    iexact Hxy
  ihave #HIx := (Prep.inv_ys m K c 41) $$ HI
  imod (Rounds.cell_close ER (rd m) (Set.mem_univ (K (c, some (0, 41)))) (fun h => h) (R := 0 + 1) (duties_ys_later m c 41)) $$ [Hat] with Hz
  · isplitr; · iexact HIx
    iexact Hat
  iclear HIx
  ihave AccZys := (acc_step (famZys (F := F) c) 41 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W219, HO⟩
  -- step 381: wait arg4[41] (arg1[(k0_off3 d0 2624#32)], arg1[(k0_off3 d0 2624#32)])
  first | sl_exec | skip
  ihave Hs := (Entails.of_eq (take_step (famCFS (F := F) c) 41 (by decide))) $$ [FcFS]
  · iexact FcFS
  icases Hs with ⟨Hc, FcFS⟩
  ihave Hs := (Entails.of_eq (take_step (famAtFS (F := F) c) 41 (by decide))) $$ [FatFS]
  · iexact FatFS
  icases Hs with ⟨Hat, FatFS⟩
  ihave #HIw := (Prep.inv_fs m K c 41) $$ HI
  iapply (Rounds.wp_wait_rest_token 𝒱₀ ER (rd m) (c : Thread nD τ) none (κ := K (c, some (2, 41))) (sm := .dma (fsS 41))
      (wpE_waitDma2_eq 𝒱₀ (c : Thread nD τ) none Set.univ (src := fSl c 41) (dst := fSl c 41)) (Set.mem_univ _) () (O := 0) (W := W219) (R := 0) (m := 0) (T := ∅)
      (by rw [Nat.zero_add]; exact (expect_fs m c 41).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 41)) $$ Hpay
  ihave AccY := (acc_step (famY m c) 41 (by decide)) $$ [AccY HYk]
  · isplitl [AccY]; · iexact AccY
    iexact HYk
  ihave #HIx := (Prep.inv_fs m K c 41) $$ HI
  imod (Rounds.cell_close ER (rd m) (Set.mem_univ (K (c, some (2, 41)))) (fun h => h) (R := 0 + 1) (duties_fs_later m c 41)) $$ [Hat] with Hz
  · isplitr; · iexact HIx
    iexact Hat
  iclear HIx
  ihave AccZfs := (acc_step (famZfs (F := F) c) 41 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W220, HO⟩
  -- step 382: wait arg5[41] (arg1[(k0_off3 d0 2624#32)], arg1[(k0_off3 d0 2624#32)])
  first | sl_exec | skip
  ihave Hs := (Entails.of_eq (take_step (famCFR (F := F) c) 41 (by decide))) $$ [FcFR]
  · iexact FcFR
  icases Hs with ⟨Hc, FcFR⟩
  ihave Hs := (Entails.of_eq (take_step (famAtFR (F := F) c) 41 (by decide))) $$ [FatFR]
  · iexact FatFR
  icases Hs with ⟨Hat, FatFR⟩
  ihave #HIw := (Prep.inv_fr m K c 41) $$ HI
  iapply (Rounds.wp_wait_rest_token 𝒱₀ ER (rd m) (c : Thread nD τ) none (κ := K (c, some (3, 41))) (sm := .dma (frS 41))
      (wpE_waitDma2_eq 𝒱₀ (c : Thread nD τ) none Set.univ (src := fSl c 41) (dst := fSl c 41)) (Set.mem_univ _) () (O := 0) (W := W220) (R := 0) (m := 0) (T := ∅)
      (by rw [Nat.zero_add]; exact (expect_fr m c 41).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 41)) $$ Hpay
  ihave AccF := (acc_step (famF m c) 41 (by decide)) $$ [AccF HFk]
  · isplitl [AccF]; · iexact AccF
    iexact HFk
  ihave #HIx := (Prep.inv_fr m K c 41) $$ HI
  imod (Rounds.cell_close ER (rd m) (Set.mem_univ (K (c, some (3, 41)))) (fun h => h) (R := 0 + 1) (duties_fr_later m c 41)) $$ [Hat] with Hz
  · isplitr; · iexact HIx
    iexact Hat
  iclear HIx
  ihave AccZfr := (acc_step (famZfr (F := F) c) 41 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W221, HO⟩
  -- step 383: wait arg2[42] (arg1[(k0_off1 d0 2688#32)], arg0[(k0_off2 d0 2688#32)])
  first | sl_exec | skip
  ihave Hs := (Entails.of_eq (take_step (famCYS (F := F) c) 42 (by decide))) $$ [FcYS]
  · iexact FcYS
  icases Hs with ⟨Hc, FcYS⟩
  ihave Hs := (Entails.of_eq (take_step (famAtYS (F := F) c) 42 (by decide))) $$ [FatYS]
  · iexact FatYS
  icases Hs with ⟨Hat, FatYS⟩
  ihave #HIw := (Prep.inv_ys m K c 42) $$ HI
  iapply (Rounds.wp_wait_rest_token 𝒱₀ ER (rd m) (c : Thread nD τ) none (κ := K (c, some (0, 42))) (sm := .dma (ysS 42))
      (wpE_waitDma2_eq 𝒱₀ (c : Thread nD τ) none Set.univ (src := yDst c 42) (dst := ySrc c 42)) (Set.mem_univ _) () (O := 0) (W := W221) (R := 0) (m := 0) (T := ∅)
      (by rw [Nat.zero_add]; exact (expect_ys m c 42).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 42)) $$ Hpay
  ihave AccXY := (acc_step (famXY m c) 42 (by decide)) $$ [AccXY Hxy]
  · isplitl [AccXY]; · iexact AccXY
    iexact Hxy
  ihave #HIx := (Prep.inv_ys m K c 42) $$ HI
  imod (Rounds.cell_close ER (rd m) (Set.mem_univ (K (c, some (0, 42)))) (fun h => h) (R := 0 + 1) (duties_ys_later m c 42)) $$ [Hat] with Hz
  · isplitr; · iexact HIx
    iexact Hat
  iclear HIx
  ihave AccZys := (acc_step (famZys (F := F) c) 42 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W222, HO⟩
  -- step 384: wait arg4[42] (arg1[(k0_off3 d0 2688#32)], arg1[(k0_off3 d0 2688#32)])
  first | sl_exec | skip
  ihave Hs := (Entails.of_eq (take_step (famCFS (F := F) c) 42 (by decide))) $$ [FcFS]
  · iexact FcFS
  icases Hs with ⟨Hc, FcFS⟩
  ihave Hs := (Entails.of_eq (take_step (famAtFS (F := F) c) 42 (by decide))) $$ [FatFS]
  · iexact FatFS
  icases Hs with ⟨Hat, FatFS⟩
  ihave #HIw := (Prep.inv_fs m K c 42) $$ HI
  iapply (Rounds.wp_wait_rest_token 𝒱₀ ER (rd m) (c : Thread nD τ) none (κ := K (c, some (2, 42))) (sm := .dma (fsS 42))
      (wpE_waitDma2_eq 𝒱₀ (c : Thread nD τ) none Set.univ (src := fSl c 42) (dst := fSl c 42)) (Set.mem_univ _) () (O := 0) (W := W222) (R := 0) (m := 0) (T := ∅)
      (by rw [Nat.zero_add]; exact (expect_fs m c 42).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 42)) $$ Hpay
  ihave AccY := (acc_step (famY m c) 42 (by decide)) $$ [AccY HYk]
  · isplitl [AccY]; · iexact AccY
    iexact HYk
  ihave #HIx := (Prep.inv_fs m K c 42) $$ HI
  imod (Rounds.cell_close ER (rd m) (Set.mem_univ (K (c, some (2, 42)))) (fun h => h) (R := 0 + 1) (duties_fs_later m c 42)) $$ [Hat] with Hz
  · isplitr; · iexact HIx
    iexact Hat
  iclear HIx
  ihave AccZfs := (acc_step (famZfs (F := F) c) 42 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W223, HO⟩
  -- step 385: wait arg5[42] (arg1[(k0_off3 d0 2688#32)], arg1[(k0_off3 d0 2688#32)])
  first | sl_exec | skip
  ihave Hs := (Entails.of_eq (take_step (famCFR (F := F) c) 42 (by decide))) $$ [FcFR]
  · iexact FcFR
  icases Hs with ⟨Hc, FcFR⟩
  ihave Hs := (Entails.of_eq (take_step (famAtFR (F := F) c) 42 (by decide))) $$ [FatFR]
  · iexact FatFR
  icases Hs with ⟨Hat, FatFR⟩
  ihave #HIw := (Prep.inv_fr m K c 42) $$ HI
  iapply (Rounds.wp_wait_rest_token 𝒱₀ ER (rd m) (c : Thread nD τ) none (κ := K (c, some (3, 42))) (sm := .dma (frS 42))
      (wpE_waitDma2_eq 𝒱₀ (c : Thread nD τ) none Set.univ (src := fSl c 42) (dst := fSl c 42)) (Set.mem_univ _) () (O := 0) (W := W223) (R := 0) (m := 0) (T := ∅)
      (by rw [Nat.zero_add]; exact (expect_fr m c 42).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 42)) $$ Hpay
  ihave AccF := (acc_step (famF m c) 42 (by decide)) $$ [AccF HFk]
  · isplitl [AccF]; · iexact AccF
    iexact HFk
  ihave #HIx := (Prep.inv_fr m K c 42) $$ HI
  imod (Rounds.cell_close ER (rd m) (Set.mem_univ (K (c, some (3, 42)))) (fun h => h) (R := 0 + 1) (duties_fr_later m c 42)) $$ [Hat] with Hz
  · isplitr; · iexact HIx
    iexact Hat
  iclear HIx
  ihave AccZfr := (acc_step (famZfr (F := F) c) 42 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W224, HO⟩
  -- step 386: wait arg2[43] (arg1[(k0_off1 d0 2752#32)], arg0[(k0_off2 d0 2752#32)])
  first | sl_exec | skip
  ihave Hs := (Entails.of_eq (take_step (famCYS (F := F) c) 43 (by decide))) $$ [FcYS]
  · iexact FcYS
  icases Hs with ⟨Hc, FcYS⟩
  ihave Hs := (Entails.of_eq (take_step (famAtYS (F := F) c) 43 (by decide))) $$ [FatYS]
  · iexact FatYS
  icases Hs with ⟨Hat, FatYS⟩
  ihave #HIw := (Prep.inv_ys m K c 43) $$ HI
  iapply (Rounds.wp_wait_rest_token 𝒱₀ ER (rd m) (c : Thread nD τ) none (κ := K (c, some (0, 43))) (sm := .dma (ysS 43))
      (wpE_waitDma2_eq 𝒱₀ (c : Thread nD τ) none Set.univ (src := yDst c 43) (dst := ySrc c 43)) (Set.mem_univ _) () (O := 0) (W := W224) (R := 0) (m := 0) (T := ∅)
      (by rw [Nat.zero_add]; exact (expect_ys m c 43).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 43)) $$ Hpay
  ihave AccXY := (acc_step (famXY m c) 43 (by decide)) $$ [AccXY Hxy]
  · isplitl [AccXY]; · iexact AccXY
    iexact Hxy
  ihave #HIx := (Prep.inv_ys m K c 43) $$ HI
  imod (Rounds.cell_close ER (rd m) (Set.mem_univ (K (c, some (0, 43)))) (fun h => h) (R := 0 + 1) (duties_ys_later m c 43)) $$ [Hat] with Hz
  · isplitr; · iexact HIx
    iexact Hat
  iclear HIx
  ihave AccZys := (acc_step (famZys (F := F) c) 43 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W225, HO⟩
  -- step 387: wait arg4[43] (arg1[(k0_off3 d0 2752#32)], arg1[(k0_off3 d0 2752#32)])
  first | sl_exec | skip
  ihave Hs := (Entails.of_eq (take_step (famCFS (F := F) c) 43 (by decide))) $$ [FcFS]
  · iexact FcFS
  icases Hs with ⟨Hc, FcFS⟩
  ihave Hs := (Entails.of_eq (take_step (famAtFS (F := F) c) 43 (by decide))) $$ [FatFS]
  · iexact FatFS
  icases Hs with ⟨Hat, FatFS⟩
  ihave #HIw := (Prep.inv_fs m K c 43) $$ HI
  iapply (Rounds.wp_wait_rest_token 𝒱₀ ER (rd m) (c : Thread nD τ) none (κ := K (c, some (2, 43))) (sm := .dma (fsS 43))
      (wpE_waitDma2_eq 𝒱₀ (c : Thread nD τ) none Set.univ (src := fSl c 43) (dst := fSl c 43)) (Set.mem_univ _) () (O := 0) (W := W225) (R := 0) (m := 0) (T := ∅)
      (by rw [Nat.zero_add]; exact (expect_fs m c 43).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 43)) $$ Hpay
  ihave AccY := (acc_step (famY m c) 43 (by decide)) $$ [AccY HYk]
  · isplitl [AccY]; · iexact AccY
    iexact HYk
  ihave #HIx := (Prep.inv_fs m K c 43) $$ HI
  imod (Rounds.cell_close ER (rd m) (Set.mem_univ (K (c, some (2, 43)))) (fun h => h) (R := 0 + 1) (duties_fs_later m c 43)) $$ [Hat] with Hz
  · isplitr; · iexact HIx
    iexact Hat
  iclear HIx
  ihave AccZfs := (acc_step (famZfs (F := F) c) 43 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W226, HO⟩
  -- step 388: wait arg5[43] (arg1[(k0_off3 d0 2752#32)], arg1[(k0_off3 d0 2752#32)])
  first | sl_exec | skip
  ihave Hs := (Entails.of_eq (take_step (famCFR (F := F) c) 43 (by decide))) $$ [FcFR]
  · iexact FcFR
  icases Hs with ⟨Hc, FcFR⟩
  ihave Hs := (Entails.of_eq (take_step (famAtFR (F := F) c) 43 (by decide))) $$ [FatFR]
  · iexact FatFR
  icases Hs with ⟨Hat, FatFR⟩
  ihave #HIw := (Prep.inv_fr m K c 43) $$ HI
  iapply (Rounds.wp_wait_rest_token 𝒱₀ ER (rd m) (c : Thread nD τ) none (κ := K (c, some (3, 43))) (sm := .dma (frS 43))
      (wpE_waitDma2_eq 𝒱₀ (c : Thread nD τ) none Set.univ (src := fSl c 43) (dst := fSl c 43)) (Set.mem_univ _) () (O := 0) (W := W226) (R := 0) (m := 0) (T := ∅)
      (by rw [Nat.zero_add]; exact (expect_fr m c 43).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 43)) $$ Hpay
  ihave AccF := (acc_step (famF m c) 43 (by decide)) $$ [AccF HFk]
  · isplitl [AccF]; · iexact AccF
    iexact HFk
  ihave #HIx := (Prep.inv_fr m K c 43) $$ HI
  imod (Rounds.cell_close ER (rd m) (Set.mem_univ (K (c, some (3, 43)))) (fun h => h) (R := 0 + 1) (duties_fr_later m c 43)) $$ [Hat] with Hz
  · isplitr; · iexact HIx
    iexact Hat
  iclear HIx
  ihave AccZfr := (acc_step (famZfr (F := F) c) 43 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W227, HO⟩
  -- step 389: wait arg2[44] (arg1[(k0_off1 d0 2816#32)], arg0[(k0_off2 d0 2816#32)])
  first | sl_exec | skip
  ihave Hs := (Entails.of_eq (take_step (famCYS (F := F) c) 44 (by decide))) $$ [FcYS]
  · iexact FcYS
  icases Hs with ⟨Hc, FcYS⟩
  ihave Hs := (Entails.of_eq (take_step (famAtYS (F := F) c) 44 (by decide))) $$ [FatYS]
  · iexact FatYS
  icases Hs with ⟨Hat, FatYS⟩
  ihave #HIw := (Prep.inv_ys m K c 44) $$ HI
  iapply (Rounds.wp_wait_rest_token 𝒱₀ ER (rd m) (c : Thread nD τ) none (κ := K (c, some (0, 44))) (sm := .dma (ysS 44))
      (wpE_waitDma2_eq 𝒱₀ (c : Thread nD τ) none Set.univ (src := yDst c 44) (dst := ySrc c 44)) (Set.mem_univ _) () (O := 0) (W := W227) (R := 0) (m := 0) (T := ∅)
      (by rw [Nat.zero_add]; exact (expect_ys m c 44).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 44)) $$ Hpay
  ihave AccXY := (acc_step (famXY m c) 44 (by decide)) $$ [AccXY Hxy]
  · isplitl [AccXY]; · iexact AccXY
    iexact Hxy
  ihave #HIx := (Prep.inv_ys m K c 44) $$ HI
  imod (Rounds.cell_close ER (rd m) (Set.mem_univ (K (c, some (0, 44)))) (fun h => h) (R := 0 + 1) (duties_ys_later m c 44)) $$ [Hat] with Hz
  · isplitr; · iexact HIx
    iexact Hat
  iclear HIx
  ihave AccZys := (acc_step (famZys (F := F) c) 44 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W228, HO⟩
  -- step 390: wait arg4[44] (arg1[(k0_off3 d0 2816#32)], arg1[(k0_off3 d0 2816#32)])
  first | sl_exec | skip
  ihave Hs := (Entails.of_eq (take_step (famCFS (F := F) c) 44 (by decide))) $$ [FcFS]
  · iexact FcFS
  icases Hs with ⟨Hc, FcFS⟩
  ihave Hs := (Entails.of_eq (take_step (famAtFS (F := F) c) 44 (by decide))) $$ [FatFS]
  · iexact FatFS
  icases Hs with ⟨Hat, FatFS⟩
  ihave #HIw := (Prep.inv_fs m K c 44) $$ HI
  iapply (Rounds.wp_wait_rest_token 𝒱₀ ER (rd m) (c : Thread nD τ) none (κ := K (c, some (2, 44))) (sm := .dma (fsS 44))
      (wpE_waitDma2_eq 𝒱₀ (c : Thread nD τ) none Set.univ (src := fSl c 44) (dst := fSl c 44)) (Set.mem_univ _) () (O := 0) (W := W228) (R := 0) (m := 0) (T := ∅)
      (by rw [Nat.zero_add]; exact (expect_fs m c 44).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 44)) $$ Hpay
  ihave AccY := (acc_step (famY m c) 44 (by decide)) $$ [AccY HYk]
  · isplitl [AccY]; · iexact AccY
    iexact HYk
  ihave #HIx := (Prep.inv_fs m K c 44) $$ HI
  imod (Rounds.cell_close ER (rd m) (Set.mem_univ (K (c, some (2, 44)))) (fun h => h) (R := 0 + 1) (duties_fs_later m c 44)) $$ [Hat] with Hz
  · isplitr; · iexact HIx
    iexact Hat
  iclear HIx
  ihave AccZfs := (acc_step (famZfs (F := F) c) 44 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W229, HO⟩
  -- step 391: wait arg5[44] (arg1[(k0_off3 d0 2816#32)], arg1[(k0_off3 d0 2816#32)])
  first | sl_exec | skip
  ihave Hs := (Entails.of_eq (take_step (famCFR (F := F) c) 44 (by decide))) $$ [FcFR]
  · iexact FcFR
  icases Hs with ⟨Hc, FcFR⟩
  ihave Hs := (Entails.of_eq (take_step (famAtFR (F := F) c) 44 (by decide))) $$ [FatFR]
  · iexact FatFR
  icases Hs with ⟨Hat, FatFR⟩
  ihave #HIw := (Prep.inv_fr m K c 44) $$ HI
  iapply (Rounds.wp_wait_rest_token 𝒱₀ ER (rd m) (c : Thread nD τ) none (κ := K (c, some (3, 44))) (sm := .dma (frS 44))
      (wpE_waitDma2_eq 𝒱₀ (c : Thread nD τ) none Set.univ (src := fSl c 44) (dst := fSl c 44)) (Set.mem_univ _) () (O := 0) (W := W229) (R := 0) (m := 0) (T := ∅)
      (by rw [Nat.zero_add]; exact (expect_fr m c 44).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 44)) $$ Hpay
  ihave AccF := (acc_step (famF m c) 44 (by decide)) $$ [AccF HFk]
  · isplitl [AccF]; · iexact AccF
    iexact HFk
  ihave #HIx := (Prep.inv_fr m K c 44) $$ HI
  imod (Rounds.cell_close ER (rd m) (Set.mem_univ (K (c, some (3, 44)))) (fun h => h) (R := 0 + 1) (duties_fr_later m c 44)) $$ [Hat] with Hz
  · isplitr; · iexact HIx
    iexact Hat
  iclear HIx
  ihave AccZfr := (acc_step (famZfr (F := F) c) 44 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W230, HO⟩
  -- step 392: wait arg2[45] (arg1[(k0_off1 d0 2880#32)], arg0[(k0_off2 d0 2880#32)])
  first | sl_exec | skip
  ihave Hs := (Entails.of_eq (take_step (famCYS (F := F) c) 45 (by decide))) $$ [FcYS]
  · iexact FcYS
  icases Hs with ⟨Hc, FcYS⟩
  ihave Hs := (Entails.of_eq (take_step (famAtYS (F := F) c) 45 (by decide))) $$ [FatYS]
  · iexact FatYS
  icases Hs with ⟨Hat, FatYS⟩
  ihave #HIw := (Prep.inv_ys m K c 45) $$ HI
  iapply (Rounds.wp_wait_rest_token 𝒱₀ ER (rd m) (c : Thread nD τ) none (κ := K (c, some (0, 45))) (sm := .dma (ysS 45))
      (wpE_waitDma2_eq 𝒱₀ (c : Thread nD τ) none Set.univ (src := yDst c 45) (dst := ySrc c 45)) (Set.mem_univ _) () (O := 0) (W := W230) (R := 0) (m := 0) (T := ∅)
      (by rw [Nat.zero_add]; exact (expect_ys m c 45).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 45)) $$ Hpay
  ihave AccXY := (acc_step (famXY m c) 45 (by decide)) $$ [AccXY Hxy]
  · isplitl [AccXY]; · iexact AccXY
    iexact Hxy
  ihave #HIx := (Prep.inv_ys m K c 45) $$ HI
  imod (Rounds.cell_close ER (rd m) (Set.mem_univ (K (c, some (0, 45)))) (fun h => h) (R := 0 + 1) (duties_ys_later m c 45)) $$ [Hat] with Hz
  · isplitr; · iexact HIx
    iexact Hat
  iclear HIx
  ihave AccZys := (acc_step (famZys (F := F) c) 45 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W231, HO⟩
  -- step 393: wait arg4[45] (arg1[(k0_off3 d0 2880#32)], arg1[(k0_off3 d0 2880#32)])
  first | sl_exec | skip
  ihave Hs := (Entails.of_eq (take_step (famCFS (F := F) c) 45 (by decide))) $$ [FcFS]
  · iexact FcFS
  icases Hs with ⟨Hc, FcFS⟩
  ihave Hs := (Entails.of_eq (take_step (famAtFS (F := F) c) 45 (by decide))) $$ [FatFS]
  · iexact FatFS
  icases Hs with ⟨Hat, FatFS⟩
  ihave #HIw := (Prep.inv_fs m K c 45) $$ HI
  iapply (Rounds.wp_wait_rest_token 𝒱₀ ER (rd m) (c : Thread nD τ) none (κ := K (c, some (2, 45))) (sm := .dma (fsS 45))
      (wpE_waitDma2_eq 𝒱₀ (c : Thread nD τ) none Set.univ (src := fSl c 45) (dst := fSl c 45)) (Set.mem_univ _) () (O := 0) (W := W231) (R := 0) (m := 0) (T := ∅)
      (by rw [Nat.zero_add]; exact (expect_fs m c 45).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 45)) $$ Hpay
  ihave AccY := (acc_step (famY m c) 45 (by decide)) $$ [AccY HYk]
  · isplitl [AccY]; · iexact AccY
    iexact HYk
  ihave #HIx := (Prep.inv_fs m K c 45) $$ HI
  imod (Rounds.cell_close ER (rd m) (Set.mem_univ (K (c, some (2, 45)))) (fun h => h) (R := 0 + 1) (duties_fs_later m c 45)) $$ [Hat] with Hz
  · isplitr; · iexact HIx
    iexact Hat
  iclear HIx
  ihave AccZfs := (acc_step (famZfs (F := F) c) 45 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W232, HO⟩
  -- step 394: wait arg5[45] (arg1[(k0_off3 d0 2880#32)], arg1[(k0_off3 d0 2880#32)])
  first | sl_exec | skip
  ihave Hs := (Entails.of_eq (take_step (famCFR (F := F) c) 45 (by decide))) $$ [FcFR]
  · iexact FcFR
  icases Hs with ⟨Hc, FcFR⟩
  ihave Hs := (Entails.of_eq (take_step (famAtFR (F := F) c) 45 (by decide))) $$ [FatFR]
  · iexact FatFR
  icases Hs with ⟨Hat, FatFR⟩
  ihave #HIw := (Prep.inv_fr m K c 45) $$ HI
  iapply (Rounds.wp_wait_rest_token 𝒱₀ ER (rd m) (c : Thread nD τ) none (κ := K (c, some (3, 45))) (sm := .dma (frS 45))
      (wpE_waitDma2_eq 𝒱₀ (c : Thread nD τ) none Set.univ (src := fSl c 45) (dst := fSl c 45)) (Set.mem_univ _) () (O := 0) (W := W232) (R := 0) (m := 0) (T := ∅)
      (by rw [Nat.zero_add]; exact (expect_fr m c 45).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 45)) $$ Hpay
  ihave AccF := (acc_step (famF m c) 45 (by decide)) $$ [AccF HFk]
  · isplitl [AccF]; · iexact AccF
    iexact HFk
  ihave #HIx := (Prep.inv_fr m K c 45) $$ HI
  imod (Rounds.cell_close ER (rd m) (Set.mem_univ (K (c, some (3, 45)))) (fun h => h) (R := 0 + 1) (duties_fr_later m c 45)) $$ [Hat] with Hz
  · isplitr; · iexact HIx
    iexact Hat
  iclear HIx
  ihave AccZfr := (acc_step (famZfr (F := F) c) 45 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W233, HO⟩
  -- step 395: wait arg2[46] (arg1[(k0_off1 d0 2944#32)], arg0[(k0_off2 d0 2944#32)])
  first | sl_exec | skip
  ihave Hs := (Entails.of_eq (take_step (famCYS (F := F) c) 46 (by decide))) $$ [FcYS]
  · iexact FcYS
  icases Hs with ⟨Hc, FcYS⟩
  ihave Hs := (Entails.of_eq (take_step (famAtYS (F := F) c) 46 (by decide))) $$ [FatYS]
  · iexact FatYS
  icases Hs with ⟨Hat, FatYS⟩
  ihave #HIw := (Prep.inv_ys m K c 46) $$ HI
  iapply (Rounds.wp_wait_rest_token 𝒱₀ ER (rd m) (c : Thread nD τ) none (κ := K (c, some (0, 46))) (sm := .dma (ysS 46))
      (wpE_waitDma2_eq 𝒱₀ (c : Thread nD τ) none Set.univ (src := yDst c 46) (dst := ySrc c 46)) (Set.mem_univ _) () (O := 0) (W := W233) (R := 0) (m := 0) (T := ∅)
      (by rw [Nat.zero_add]; exact (expect_ys m c 46).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 46)) $$ Hpay
  ihave AccXY := (acc_step (famXY m c) 46 (by decide)) $$ [AccXY Hxy]
  · isplitl [AccXY]; · iexact AccXY
    iexact Hxy
  ihave #HIx := (Prep.inv_ys m K c 46) $$ HI
  imod (Rounds.cell_close ER (rd m) (Set.mem_univ (K (c, some (0, 46)))) (fun h => h) (R := 0 + 1) (duties_ys_later m c 46)) $$ [Hat] with Hz
  · isplitr; · iexact HIx
    iexact Hat
  iclear HIx
  ihave AccZys := (acc_step (famZys (F := F) c) 46 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W234, HO⟩
  -- step 396: wait arg4[46] (arg1[(k0_off3 d0 2944#32)], arg1[(k0_off3 d0 2944#32)])
  first | sl_exec | skip
  ihave Hs := (Entails.of_eq (take_step (famCFS (F := F) c) 46 (by decide))) $$ [FcFS]
  · iexact FcFS
  icases Hs with ⟨Hc, FcFS⟩
  ihave Hs := (Entails.of_eq (take_step (famAtFS (F := F) c) 46 (by decide))) $$ [FatFS]
  · iexact FatFS
  icases Hs with ⟨Hat, FatFS⟩
  ihave #HIw := (Prep.inv_fs m K c 46) $$ HI
  iapply (Rounds.wp_wait_rest_token 𝒱₀ ER (rd m) (c : Thread nD τ) none (κ := K (c, some (2, 46))) (sm := .dma (fsS 46))
      (wpE_waitDma2_eq 𝒱₀ (c : Thread nD τ) none Set.univ (src := fSl c 46) (dst := fSl c 46)) (Set.mem_univ _) () (O := 0) (W := W234) (R := 0) (m := 0) (T := ∅)
      (by rw [Nat.zero_add]; exact (expect_fs m c 46).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 46)) $$ Hpay
  ihave AccY := (acc_step (famY m c) 46 (by decide)) $$ [AccY HYk]
  · isplitl [AccY]; · iexact AccY
    iexact HYk
  ihave #HIx := (Prep.inv_fs m K c 46) $$ HI
  imod (Rounds.cell_close ER (rd m) (Set.mem_univ (K (c, some (2, 46)))) (fun h => h) (R := 0 + 1) (duties_fs_later m c 46)) $$ [Hat] with Hz
  · isplitr; · iexact HIx
    iexact Hat
  iclear HIx
  ihave AccZfs := (acc_step (famZfs (F := F) c) 46 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W235, HO⟩
  -- step 397: wait arg5[46] (arg1[(k0_off3 d0 2944#32)], arg1[(k0_off3 d0 2944#32)])
  first | sl_exec | skip
  ihave Hs := (Entails.of_eq (take_step (famCFR (F := F) c) 46 (by decide))) $$ [FcFR]
  · iexact FcFR
  icases Hs with ⟨Hc, FcFR⟩
  ihave Hs := (Entails.of_eq (take_step (famAtFR (F := F) c) 46 (by decide))) $$ [FatFR]
  · iexact FatFR
  icases Hs with ⟨Hat, FatFR⟩
  ihave #HIw := (Prep.inv_fr m K c 46) $$ HI
  iapply (Rounds.wp_wait_rest_token 𝒱₀ ER (rd m) (c : Thread nD τ) none (κ := K (c, some (3, 46))) (sm := .dma (frS 46))
      (wpE_waitDma2_eq 𝒱₀ (c : Thread nD τ) none Set.univ (src := fSl c 46) (dst := fSl c 46)) (Set.mem_univ _) () (O := 0) (W := W235) (R := 0) (m := 0) (T := ∅)
      (by rw [Nat.zero_add]; exact (expect_fr m c 46).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 46)) $$ Hpay
  ihave AccF := (acc_step (famF m c) 46 (by decide)) $$ [AccF HFk]
  · isplitl [AccF]; · iexact AccF
    iexact HFk
  ihave #HIx := (Prep.inv_fr m K c 46) $$ HI
  imod (Rounds.cell_close ER (rd m) (Set.mem_univ (K (c, some (3, 46)))) (fun h => h) (R := 0 + 1) (duties_fr_later m c 46)) $$ [Hat] with Hz
  · isplitr; · iexact HIx
    iexact Hat
  iclear HIx
  ihave AccZfr := (acc_step (famZfr (F := F) c) 46 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W236, HO⟩
  -- step 398: wait arg2[47] (arg1[(k0_off1 d0 3008#32)], arg0[(k0_off2 d0 3008#32)])
  first | sl_exec | skip
  ihave Hs := (Entails.of_eq (take_step (famCYS (F := F) c) 47 (by decide))) $$ [FcYS]
  · iexact FcYS
  icases Hs with ⟨Hc, FcYS⟩
  ihave Hs := (Entails.of_eq (take_step (famAtYS (F := F) c) 47 (by decide))) $$ [FatYS]
  · iexact FatYS
  icases Hs with ⟨Hat, FatYS⟩
  ihave #HIw := (Prep.inv_ys m K c 47) $$ HI
  iapply (Rounds.wp_wait_rest_token 𝒱₀ ER (rd m) (c : Thread nD τ) none (κ := K (c, some (0, 47))) (sm := .dma (ysS 47))
      (wpE_waitDma2_eq 𝒱₀ (c : Thread nD τ) none Set.univ (src := yDst c 47) (dst := ySrc c 47)) (Set.mem_univ _) () (O := 0) (W := W236) (R := 0) (m := 0) (T := ∅)
      (by rw [Nat.zero_add]; exact (expect_ys m c 47).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 47)) $$ Hpay
  ihave AccXY := (acc_step (famXY m c) 47 (by decide)) $$ [AccXY Hxy]
  · isplitl [AccXY]; · iexact AccXY
    iexact Hxy
  ihave #HIx := (Prep.inv_ys m K c 47) $$ HI
  imod (Rounds.cell_close ER (rd m) (Set.mem_univ (K (c, some (0, 47)))) (fun h => h) (R := 0 + 1) (duties_ys_later m c 47)) $$ [Hat] with Hz
  · isplitr; · iexact HIx
    iexact Hat
  iclear HIx
  ihave AccZys := (acc_step (famZys (F := F) c) 47 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W237, HO⟩
  -- step 399: wait arg4[47] (arg1[(k0_off3 d0 3008#32)], arg1[(k0_off3 d0 3008#32)])
  first | sl_exec | skip
  ihave Hs := (Entails.of_eq (take_step (famCFS (F := F) c) 47 (by decide))) $$ [FcFS]
  · iexact FcFS
  icases Hs with ⟨Hc, FcFS⟩
  ihave Hs := (Entails.of_eq (take_step (famAtFS (F := F) c) 47 (by decide))) $$ [FatFS]
  · iexact FatFS
  icases Hs with ⟨Hat, FatFS⟩
  ihave #HIw := (Prep.inv_fs m K c 47) $$ HI
  iapply (Rounds.wp_wait_rest_token 𝒱₀ ER (rd m) (c : Thread nD τ) none (κ := K (c, some (2, 47))) (sm := .dma (fsS 47))
      (wpE_waitDma2_eq 𝒱₀ (c : Thread nD τ) none Set.univ (src := fSl c 47) (dst := fSl c 47)) (Set.mem_univ _) () (O := 0) (W := W237) (R := 0) (m := 0) (T := ∅)
      (by rw [Nat.zero_add]; exact (expect_fs m c 47).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 47)) $$ Hpay
  ihave AccY := (acc_step (famY m c) 47 (by decide)) $$ [AccY HYk]
  · isplitl [AccY]; · iexact AccY
    iexact HYk
  ihave #HIx := (Prep.inv_fs m K c 47) $$ HI
  imod (Rounds.cell_close ER (rd m) (Set.mem_univ (K (c, some (2, 47)))) (fun h => h) (R := 0 + 1) (duties_fs_later m c 47)) $$ [Hat] with Hz
  · isplitr; · iexact HIx
    iexact Hat
  iclear HIx
  ihave AccZfs := (acc_step (famZfs (F := F) c) 47 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W238, HO⟩
  -- step 400: wait arg5[47] (arg1[(k0_off3 d0 3008#32)], arg1[(k0_off3 d0 3008#32)])
  first | sl_exec | skip
  ihave Hs := (Entails.of_eq (take_step (famCFR (F := F) c) 47 (by decide))) $$ [FcFR]
  · iexact FcFR
  icases Hs with ⟨Hc, FcFR⟩
  ihave Hs := (Entails.of_eq (take_step (famAtFR (F := F) c) 47 (by decide))) $$ [FatFR]
  · iexact FatFR
  icases Hs with ⟨Hat, FatFR⟩
  ihave #HIw := (Prep.inv_fr m K c 47) $$ HI
  iapply (Rounds.wp_wait_rest_token 𝒱₀ ER (rd m) (c : Thread nD τ) none (κ := K (c, some (3, 47))) (sm := .dma (frS 47))
      (wpE_waitDma2_eq 𝒱₀ (c : Thread nD τ) none Set.univ (src := fSl c 47) (dst := fSl c 47)) (Set.mem_univ _) () (O := 0) (W := W238) (R := 0) (m := 0) (T := ∅)
      (by rw [Nat.zero_add]; exact (expect_fr m c 47).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 47)) $$ Hpay
  ihave AccF := (acc_step (famF m c) 47 (by decide)) $$ [AccF HFk]
  · isplitl [AccF]; · iexact AccF
    iexact HFk
  ihave #HIx := (Prep.inv_fr m K c 47) $$ HI
  imod (Rounds.cell_close ER (rd m) (Set.mem_univ (K (c, some (3, 47)))) (fun h => h) (R := 0 + 1) (duties_fr_later m c 47)) $$ [Hat] with Hz
  · isplitr; · iexact HIx
    iexact Hat
  iclear HIx
  ihave AccZfr := (acc_step (famZfr (F := F) c) 47 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W239, HO⟩
  -- step 401: wait arg2[48] (arg1[(k0_off1 d0 3072#32)], arg0[(k0_off2 d0 3072#32)])
  first | sl_exec | skip
  ihave Hs := (Entails.of_eq (take_step (famCYS (F := F) c) 48 (by decide))) $$ [FcYS]
  · iexact FcYS
  icases Hs with ⟨Hc, FcYS⟩
  ihave Hs := (Entails.of_eq (take_step (famAtYS (F := F) c) 48 (by decide))) $$ [FatYS]
  · iexact FatYS
  icases Hs with ⟨Hat, FatYS⟩
  ihave #HIw := (Prep.inv_ys m K c 48) $$ HI
  iapply (Rounds.wp_wait_rest_token 𝒱₀ ER (rd m) (c : Thread nD τ) none (κ := K (c, some (0, 48))) (sm := .dma (ysS 48))
      (wpE_waitDma2_eq 𝒱₀ (c : Thread nD τ) none Set.univ (src := yDst c 48) (dst := ySrc c 48)) (Set.mem_univ _) () (O := 0) (W := W239) (R := 0) (m := 0) (T := ∅)
      (by rw [Nat.zero_add]; exact (expect_ys m c 48).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 48)) $$ Hpay
  ihave AccXY := (acc_step (famXY m c) 48 (by decide)) $$ [AccXY Hxy]
  · isplitl [AccXY]; · iexact AccXY
    iexact Hxy
  ihave #HIx := (Prep.inv_ys m K c 48) $$ HI
  imod (Rounds.cell_close ER (rd m) (Set.mem_univ (K (c, some (0, 48)))) (fun h => h) (R := 0 + 1) (duties_ys_later m c 48)) $$ [Hat] with Hz
  · isplitr; · iexact HIx
    iexact Hat
  iclear HIx
  ihave AccZys := (acc_step (famZys (F := F) c) 48 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W240, HO⟩
  -- step 402: wait arg4[48] (arg1[(k0_off3 d0 3072#32)], arg1[(k0_off3 d0 3072#32)])
  first | sl_exec | skip
  ihave Hs := (Entails.of_eq (take_step (famCFS (F := F) c) 48 (by decide))) $$ [FcFS]
  · iexact FcFS
  icases Hs with ⟨Hc, FcFS⟩
  ihave Hs := (Entails.of_eq (take_step (famAtFS (F := F) c) 48 (by decide))) $$ [FatFS]
  · iexact FatFS
  icases Hs with ⟨Hat, FatFS⟩
  ihave #HIw := (Prep.inv_fs m K c 48) $$ HI
  iapply (Rounds.wp_wait_rest_token 𝒱₀ ER (rd m) (c : Thread nD τ) none (κ := K (c, some (2, 48))) (sm := .dma (fsS 48))
      (wpE_waitDma2_eq 𝒱₀ (c : Thread nD τ) none Set.univ (src := fSl c 48) (dst := fSl c 48)) (Set.mem_univ _) () (O := 0) (W := W240) (R := 0) (m := 0) (T := ∅)
      (by rw [Nat.zero_add]; exact (expect_fs m c 48).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 48)) $$ Hpay
  ihave AccY := (acc_step (famY m c) 48 (by decide)) $$ [AccY HYk]
  · isplitl [AccY]; · iexact AccY
    iexact HYk
  ihave #HIx := (Prep.inv_fs m K c 48) $$ HI
  imod (Rounds.cell_close ER (rd m) (Set.mem_univ (K (c, some (2, 48)))) (fun h => h) (R := 0 + 1) (duties_fs_later m c 48)) $$ [Hat] with Hz
  · isplitr; · iexact HIx
    iexact Hat
  iclear HIx
  ihave AccZfs := (acc_step (famZfs (F := F) c) 48 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W241, HO⟩
  -- step 403: wait arg5[48] (arg1[(k0_off3 d0 3072#32)], arg1[(k0_off3 d0 3072#32)])
  first | sl_exec | skip
  ihave Hs := (Entails.of_eq (take_step (famCFR (F := F) c) 48 (by decide))) $$ [FcFR]
  · iexact FcFR
  icases Hs with ⟨Hc, FcFR⟩
  ihave Hs := (Entails.of_eq (take_step (famAtFR (F := F) c) 48 (by decide))) $$ [FatFR]
  · iexact FatFR
  icases Hs with ⟨Hat, FatFR⟩
  ihave #HIw := (Prep.inv_fr m K c 48) $$ HI
  iapply (Rounds.wp_wait_rest_token 𝒱₀ ER (rd m) (c : Thread nD τ) none (κ := K (c, some (3, 48))) (sm := .dma (frS 48))
      (wpE_waitDma2_eq 𝒱₀ (c : Thread nD τ) none Set.univ (src := fSl c 48) (dst := fSl c 48)) (Set.mem_univ _) () (O := 0) (W := W241) (R := 0) (m := 0) (T := ∅)
      (by rw [Nat.zero_add]; exact (expect_fr m c 48).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 48)) $$ Hpay
  ihave AccF := (acc_step (famF m c) 48 (by decide)) $$ [AccF HFk]
  · isplitl [AccF]; · iexact AccF
    iexact HFk
  ihave #HIx := (Prep.inv_fr m K c 48) $$ HI
  imod (Rounds.cell_close ER (rd m) (Set.mem_univ (K (c, some (3, 48)))) (fun h => h) (R := 0 + 1) (duties_fr_later m c 48)) $$ [Hat] with Hz
  · isplitr; · iexact HIx
    iexact Hat
  iclear HIx
  ihave AccZfr := (acc_step (famZfr (F := F) c) 48 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W242, HO⟩
  -- step 404: wait arg2[49] (arg1[(k0_off1 d0 3136#32)], arg0[(k0_off2 d0 3136#32)])
  first | sl_exec | skip
  ihave Hs := (Entails.of_eq (take_step (famCYS (F := F) c) 49 (by decide))) $$ [FcYS]
  · iexact FcYS
  icases Hs with ⟨Hc, FcYS⟩
  ihave Hs := (Entails.of_eq (take_step (famAtYS (F := F) c) 49 (by decide))) $$ [FatYS]
  · iexact FatYS
  icases Hs with ⟨Hat, FatYS⟩
  ihave #HIw := (Prep.inv_ys m K c 49) $$ HI
  iapply (Rounds.wp_wait_rest_token 𝒱₀ ER (rd m) (c : Thread nD τ) none (κ := K (c, some (0, 49))) (sm := .dma (ysS 49))
      (wpE_waitDma2_eq 𝒱₀ (c : Thread nD τ) none Set.univ (src := yDst c 49) (dst := ySrc c 49)) (Set.mem_univ _) () (O := 0) (W := W242) (R := 0) (m := 0) (T := ∅)
      (by rw [Nat.zero_add]; exact (expect_ys m c 49).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 49)) $$ Hpay
  ihave AccXY := (acc_step (famXY m c) 49 (by decide)) $$ [AccXY Hxy]
  · isplitl [AccXY]; · iexact AccXY
    iexact Hxy
  ihave #HIx := (Prep.inv_ys m K c 49) $$ HI
  imod (Rounds.cell_close ER (rd m) (Set.mem_univ (K (c, some (0, 49)))) (fun h => h) (R := 0 + 1) (duties_ys_later m c 49)) $$ [Hat] with Hz
  · isplitr; · iexact HIx
    iexact Hat
  iclear HIx
  ihave AccZys := (acc_step (famZys (F := F) c) 49 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W243, HO⟩
  -- step 405: wait arg4[49] (arg1[(k0_off3 d0 3136#32)], arg1[(k0_off3 d0 3136#32)])
  first | sl_exec | skip
  ihave Hs := (Entails.of_eq (take_step (famCFS (F := F) c) 49 (by decide))) $$ [FcFS]
  · iexact FcFS
  icases Hs with ⟨Hc, FcFS⟩
  ihave Hs := (Entails.of_eq (take_step (famAtFS (F := F) c) 49 (by decide))) $$ [FatFS]
  · iexact FatFS
  icases Hs with ⟨Hat, FatFS⟩
  ihave #HIw := (Prep.inv_fs m K c 49) $$ HI
  iapply (Rounds.wp_wait_rest_token 𝒱₀ ER (rd m) (c : Thread nD τ) none (κ := K (c, some (2, 49))) (sm := .dma (fsS 49))
      (wpE_waitDma2_eq 𝒱₀ (c : Thread nD τ) none Set.univ (src := fSl c 49) (dst := fSl c 49)) (Set.mem_univ _) () (O := 0) (W := W243) (R := 0) (m := 0) (T := ∅)
      (by rw [Nat.zero_add]; exact (expect_fs m c 49).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 49)) $$ Hpay
  ihave AccY := (acc_step (famY m c) 49 (by decide)) $$ [AccY HYk]
  · isplitl [AccY]; · iexact AccY
    iexact HYk
  ihave #HIx := (Prep.inv_fs m K c 49) $$ HI
  imod (Rounds.cell_close ER (rd m) (Set.mem_univ (K (c, some (2, 49)))) (fun h => h) (R := 0 + 1) (duties_fs_later m c 49)) $$ [Hat] with Hz
  · isplitr; · iexact HIx
    iexact Hat
  iclear HIx
  ihave AccZfs := (acc_step (famZfs (F := F) c) 49 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W244, HO⟩
  -- step 406: wait arg5[49] (arg1[(k0_off3 d0 3136#32)], arg1[(k0_off3 d0 3136#32)])
  first | sl_exec | skip
  ihave Hs := (Entails.of_eq (take_step (famCFR (F := F) c) 49 (by decide))) $$ [FcFR]
  · iexact FcFR
  icases Hs with ⟨Hc, FcFR⟩
  ihave Hs := (Entails.of_eq (take_step (famAtFR (F := F) c) 49 (by decide))) $$ [FatFR]
  · iexact FatFR
  icases Hs with ⟨Hat, FatFR⟩
  ihave #HIw := (Prep.inv_fr m K c 49) $$ HI
  iapply (Rounds.wp_wait_rest_token 𝒱₀ ER (rd m) (c : Thread nD τ) none (κ := K (c, some (3, 49))) (sm := .dma (frS 49))
      (wpE_waitDma2_eq 𝒱₀ (c : Thread nD τ) none Set.univ (src := fSl c 49) (dst := fSl c 49)) (Set.mem_univ _) () (O := 0) (W := W244) (R := 0) (m := 0) (T := ∅)
      (by rw [Nat.zero_add]; exact (expect_fr m c 49).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 49)) $$ Hpay
  ihave AccF := (acc_step (famF m c) 49 (by decide)) $$ [AccF HFk]
  · isplitl [AccF]; · iexact AccF
    iexact HFk
  ihave #HIx := (Prep.inv_fr m K c 49) $$ HI
  imod (Rounds.cell_close ER (rd m) (Set.mem_univ (K (c, some (3, 49)))) (fun h => h) (R := 0 + 1) (duties_fr_later m c 49)) $$ [Hat] with Hz
  · isplitr; · iexact HIx
    iexact Hat
  iclear HIx
  ihave AccZfr := (acc_step (famZfr (F := F) c) 49 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W245, HO⟩
  -- step 407: wait arg2[50] (arg1[(k0_off1 d0 3200#32)], arg0[(k0_off2 d0 3200#32)])
  first | sl_exec | skip
  ihave Hs := (Entails.of_eq (take_step (famCYS (F := F) c) 50 (by decide))) $$ [FcYS]
  · iexact FcYS
  icases Hs with ⟨Hc, FcYS⟩
  ihave Hs := (Entails.of_eq (take_step (famAtYS (F := F) c) 50 (by decide))) $$ [FatYS]
  · iexact FatYS
  icases Hs with ⟨Hat, FatYS⟩
  ihave #HIw := (Prep.inv_ys m K c 50) $$ HI
  iapply (Rounds.wp_wait_rest_token 𝒱₀ ER (rd m) (c : Thread nD τ) none (κ := K (c, some (0, 50))) (sm := .dma (ysS 50))
      (wpE_waitDma2_eq 𝒱₀ (c : Thread nD τ) none Set.univ (src := yDst c 50) (dst := ySrc c 50)) (Set.mem_univ _) () (O := 0) (W := W245) (R := 0) (m := 0) (T := ∅)
      (by rw [Nat.zero_add]; exact (expect_ys m c 50).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 50)) $$ Hpay
  ihave AccXY := (acc_step (famXY m c) 50 (by decide)) $$ [AccXY Hxy]
  · isplitl [AccXY]; · iexact AccXY
    iexact Hxy
  ihave #HIx := (Prep.inv_ys m K c 50) $$ HI
  imod (Rounds.cell_close ER (rd m) (Set.mem_univ (K (c, some (0, 50)))) (fun h => h) (R := 0 + 1) (duties_ys_later m c 50)) $$ [Hat] with Hz
  · isplitr; · iexact HIx
    iexact Hat
  iclear HIx
  ihave AccZys := (acc_step (famZys (F := F) c) 50 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W246, HO⟩
  -- step 408: wait arg4[50] (arg1[(k0_off3 d0 3200#32)], arg1[(k0_off3 d0 3200#32)])
  first | sl_exec | skip
  ihave Hs := (Entails.of_eq (take_step (famCFS (F := F) c) 50 (by decide))) $$ [FcFS]
  · iexact FcFS
  icases Hs with ⟨Hc, FcFS⟩
  ihave Hs := (Entails.of_eq (take_step (famAtFS (F := F) c) 50 (by decide))) $$ [FatFS]
  · iexact FatFS
  icases Hs with ⟨Hat, FatFS⟩
  ihave #HIw := (Prep.inv_fs m K c 50) $$ HI
  iapply (Rounds.wp_wait_rest_token 𝒱₀ ER (rd m) (c : Thread nD τ) none (κ := K (c, some (2, 50))) (sm := .dma (fsS 50))
      (wpE_waitDma2_eq 𝒱₀ (c : Thread nD τ) none Set.univ (src := fSl c 50) (dst := fSl c 50)) (Set.mem_univ _) () (O := 0) (W := W246) (R := 0) (m := 0) (T := ∅)
      (by rw [Nat.zero_add]; exact (expect_fs m c 50).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 50)) $$ Hpay
  ihave AccY := (acc_step (famY m c) 50 (by decide)) $$ [AccY HYk]
  · isplitl [AccY]; · iexact AccY
    iexact HYk
  ihave #HIx := (Prep.inv_fs m K c 50) $$ HI
  imod (Rounds.cell_close ER (rd m) (Set.mem_univ (K (c, some (2, 50)))) (fun h => h) (R := 0 + 1) (duties_fs_later m c 50)) $$ [Hat] with Hz
  · isplitr; · iexact HIx
    iexact Hat
  iclear HIx
  ihave AccZfs := (acc_step (famZfs (F := F) c) 50 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W247, HO⟩
  -- step 409: wait arg5[50] (arg1[(k0_off3 d0 3200#32)], arg1[(k0_off3 d0 3200#32)])
  first | sl_exec | skip
  ihave Hs := (Entails.of_eq (take_step (famCFR (F := F) c) 50 (by decide))) $$ [FcFR]
  · iexact FcFR
  icases Hs with ⟨Hc, FcFR⟩
  ihave Hs := (Entails.of_eq (take_step (famAtFR (F := F) c) 50 (by decide))) $$ [FatFR]
  · iexact FatFR
  icases Hs with ⟨Hat, FatFR⟩
  ihave #HIw := (Prep.inv_fr m K c 50) $$ HI
  iapply (Rounds.wp_wait_rest_token 𝒱₀ ER (rd m) (c : Thread nD τ) none (κ := K (c, some (3, 50))) (sm := .dma (frS 50))
      (wpE_waitDma2_eq 𝒱₀ (c : Thread nD τ) none Set.univ (src := fSl c 50) (dst := fSl c 50)) (Set.mem_univ _) () (O := 0) (W := W247) (R := 0) (m := 0) (T := ∅)
      (by rw [Nat.zero_add]; exact (expect_fr m c 50).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 50)) $$ Hpay
  ihave AccF := (acc_step (famF m c) 50 (by decide)) $$ [AccF HFk]
  · isplitl [AccF]; · iexact AccF
    iexact HFk
  ihave #HIx := (Prep.inv_fr m K c 50) $$ HI
  imod (Rounds.cell_close ER (rd m) (Set.mem_univ (K (c, some (3, 50)))) (fun h => h) (R := 0 + 1) (duties_fr_later m c 50)) $$ [Hat] with Hz
  · isplitr; · iexact HIx
    iexact Hat
  iclear HIx
  ihave AccZfr := (acc_step (famZfr (F := F) c) 50 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W248, HO⟩
  -- step 410: wait arg2[51] (arg1[(k0_off1 d0 3264#32)], arg0[(k0_off2 d0 3264#32)])
  first | sl_exec | skip
  ihave Hs := (Entails.of_eq (take_step (famCYS (F := F) c) 51 (by decide))) $$ [FcYS]
  · iexact FcYS
  icases Hs with ⟨Hc, FcYS⟩
  ihave Hs := (Entails.of_eq (take_step (famAtYS (F := F) c) 51 (by decide))) $$ [FatYS]
  · iexact FatYS
  icases Hs with ⟨Hat, FatYS⟩
  ihave #HIw := (Prep.inv_ys m K c 51) $$ HI
  iapply (Rounds.wp_wait_rest_token 𝒱₀ ER (rd m) (c : Thread nD τ) none (κ := K (c, some (0, 51))) (sm := .dma (ysS 51))
      (wpE_waitDma2_eq 𝒱₀ (c : Thread nD τ) none Set.univ (src := yDst c 51) (dst := ySrc c 51)) (Set.mem_univ _) () (O := 0) (W := W248) (R := 0) (m := 0) (T := ∅)
      (by rw [Nat.zero_add]; exact (expect_ys m c 51).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 51)) $$ Hpay
  ihave AccXY := (acc_step (famXY m c) 51 (by decide)) $$ [AccXY Hxy]
  · isplitl [AccXY]; · iexact AccXY
    iexact Hxy
  ihave #HIx := (Prep.inv_ys m K c 51) $$ HI
  imod (Rounds.cell_close ER (rd m) (Set.mem_univ (K (c, some (0, 51)))) (fun h => h) (R := 0 + 1) (duties_ys_later m c 51)) $$ [Hat] with Hz
  · isplitr; · iexact HIx
    iexact Hat
  iclear HIx
  ihave AccZys := (acc_step (famZys (F := F) c) 51 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W249, HO⟩
  -- step 411: wait arg4[51] (arg1[(k0_off3 d0 3264#32)], arg1[(k0_off3 d0 3264#32)])
  first | sl_exec | skip
  ihave Hs := (Entails.of_eq (take_step (famCFS (F := F) c) 51 (by decide))) $$ [FcFS]
  · iexact FcFS
  icases Hs with ⟨Hc, FcFS⟩
  ihave Hs := (Entails.of_eq (take_step (famAtFS (F := F) c) 51 (by decide))) $$ [FatFS]
  · iexact FatFS
  icases Hs with ⟨Hat, FatFS⟩
  ihave #HIw := (Prep.inv_fs m K c 51) $$ HI
  iapply (Rounds.wp_wait_rest_token 𝒱₀ ER (rd m) (c : Thread nD τ) none (κ := K (c, some (2, 51))) (sm := .dma (fsS 51))
      (wpE_waitDma2_eq 𝒱₀ (c : Thread nD τ) none Set.univ (src := fSl c 51) (dst := fSl c 51)) (Set.mem_univ _) () (O := 0) (W := W249) (R := 0) (m := 0) (T := ∅)
      (by rw [Nat.zero_add]; exact (expect_fs m c 51).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 51)) $$ Hpay
  ihave AccY := (acc_step (famY m c) 51 (by decide)) $$ [AccY HYk]
  · isplitl [AccY]; · iexact AccY
    iexact HYk
  ihave #HIx := (Prep.inv_fs m K c 51) $$ HI
  imod (Rounds.cell_close ER (rd m) (Set.mem_univ (K (c, some (2, 51)))) (fun h => h) (R := 0 + 1) (duties_fs_later m c 51)) $$ [Hat] with Hz
  · isplitr; · iexact HIx
    iexact Hat
  iclear HIx
  ihave AccZfs := (acc_step (famZfs (F := F) c) 51 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W250, HO⟩
  -- step 412: wait arg5[51] (arg1[(k0_off3 d0 3264#32)], arg1[(k0_off3 d0 3264#32)])
  first | sl_exec | skip
  ihave Hs := (Entails.of_eq (take_step (famCFR (F := F) c) 51 (by decide))) $$ [FcFR]
  · iexact FcFR
  icases Hs with ⟨Hc, FcFR⟩
  ihave Hs := (Entails.of_eq (take_step (famAtFR (F := F) c) 51 (by decide))) $$ [FatFR]
  · iexact FatFR
  icases Hs with ⟨Hat, FatFR⟩
  ihave #HIw := (Prep.inv_fr m K c 51) $$ HI
  iapply (Rounds.wp_wait_rest_token 𝒱₀ ER (rd m) (c : Thread nD τ) none (κ := K (c, some (3, 51))) (sm := .dma (frS 51))
      (wpE_waitDma2_eq 𝒱₀ (c : Thread nD τ) none Set.univ (src := fSl c 51) (dst := fSl c 51)) (Set.mem_univ _) () (O := 0) (W := W250) (R := 0) (m := 0) (T := ∅)
      (by rw [Nat.zero_add]; exact (expect_fr m c 51).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 51)) $$ Hpay
  ihave AccF := (acc_step (famF m c) 51 (by decide)) $$ [AccF HFk]
  · isplitl [AccF]; · iexact AccF
    iexact HFk
  ihave #HIx := (Prep.inv_fr m K c 51) $$ HI
  imod (Rounds.cell_close ER (rd m) (Set.mem_univ (K (c, some (3, 51)))) (fun h => h) (R := 0 + 1) (duties_fr_later m c 51)) $$ [Hat] with Hz
  · isplitr; · iexact HIx
    iexact Hat
  iclear HIx
  ihave AccZfr := (acc_step (famZfr (F := F) c) 51 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W251, HO⟩
  -- step 413: wait arg2[52] (arg1[(k0_off1 d0 3328#32)], arg0[(k0_off2 d0 3328#32)])
  first | sl_exec | skip
  ihave Hs := (Entails.of_eq (take_step (famCYS (F := F) c) 52 (by decide))) $$ [FcYS]
  · iexact FcYS
  icases Hs with ⟨Hc, FcYS⟩
  ihave Hs := (Entails.of_eq (take_step (famAtYS (F := F) c) 52 (by decide))) $$ [FatYS]
  · iexact FatYS
  icases Hs with ⟨Hat, FatYS⟩
  ihave #HIw := (Prep.inv_ys m K c 52) $$ HI
  iapply (Rounds.wp_wait_rest_token 𝒱₀ ER (rd m) (c : Thread nD τ) none (κ := K (c, some (0, 52))) (sm := .dma (ysS 52))
      (wpE_waitDma2_eq 𝒱₀ (c : Thread nD τ) none Set.univ (src := yDst c 52) (dst := ySrc c 52)) (Set.mem_univ _) () (O := 0) (W := W251) (R := 0) (m := 0) (T := ∅)
      (by rw [Nat.zero_add]; exact (expect_ys m c 52).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 52)) $$ Hpay
  ihave AccXY := (acc_step (famXY m c) 52 (by decide)) $$ [AccXY Hxy]
  · isplitl [AccXY]; · iexact AccXY
    iexact Hxy
  ihave #HIx := (Prep.inv_ys m K c 52) $$ HI
  imod (Rounds.cell_close ER (rd m) (Set.mem_univ (K (c, some (0, 52)))) (fun h => h) (R := 0 + 1) (duties_ys_later m c 52)) $$ [Hat] with Hz
  · isplitr; · iexact HIx
    iexact Hat
  iclear HIx
  ihave AccZys := (acc_step (famZys (F := F) c) 52 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W252, HO⟩
  -- step 414: wait arg4[52] (arg1[(k0_off3 d0 3328#32)], arg1[(k0_off3 d0 3328#32)])
  first | sl_exec | skip
  ihave Hs := (Entails.of_eq (take_step (famCFS (F := F) c) 52 (by decide))) $$ [FcFS]
  · iexact FcFS
  icases Hs with ⟨Hc, FcFS⟩
  ihave Hs := (Entails.of_eq (take_step (famAtFS (F := F) c) 52 (by decide))) $$ [FatFS]
  · iexact FatFS
  icases Hs with ⟨Hat, FatFS⟩
  ihave #HIw := (Prep.inv_fs m K c 52) $$ HI
  iapply (Rounds.wp_wait_rest_token 𝒱₀ ER (rd m) (c : Thread nD τ) none (κ := K (c, some (2, 52))) (sm := .dma (fsS 52))
      (wpE_waitDma2_eq 𝒱₀ (c : Thread nD τ) none Set.univ (src := fSl c 52) (dst := fSl c 52)) (Set.mem_univ _) () (O := 0) (W := W252) (R := 0) (m := 0) (T := ∅)
      (by rw [Nat.zero_add]; exact (expect_fs m c 52).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 52)) $$ Hpay
  ihave AccY := (acc_step (famY m c) 52 (by decide)) $$ [AccY HYk]
  · isplitl [AccY]; · iexact AccY
    iexact HYk
  ihave #HIx := (Prep.inv_fs m K c 52) $$ HI
  imod (Rounds.cell_close ER (rd m) (Set.mem_univ (K (c, some (2, 52)))) (fun h => h) (R := 0 + 1) (duties_fs_later m c 52)) $$ [Hat] with Hz
  · isplitr; · iexact HIx
    iexact Hat
  iclear HIx
  ihave AccZfs := (acc_step (famZfs (F := F) c) 52 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W253, HO⟩
  -- step 415: wait arg5[52] (arg1[(k0_off3 d0 3328#32)], arg1[(k0_off3 d0 3328#32)])
  first | sl_exec | skip
  ihave Hs := (Entails.of_eq (take_step (famCFR (F := F) c) 52 (by decide))) $$ [FcFR]
  · iexact FcFR
  icases Hs with ⟨Hc, FcFR⟩
  ihave Hs := (Entails.of_eq (take_step (famAtFR (F := F) c) 52 (by decide))) $$ [FatFR]
  · iexact FatFR
  icases Hs with ⟨Hat, FatFR⟩
  ihave #HIw := (Prep.inv_fr m K c 52) $$ HI
  iapply (Rounds.wp_wait_rest_token 𝒱₀ ER (rd m) (c : Thread nD τ) none (κ := K (c, some (3, 52))) (sm := .dma (frS 52))
      (wpE_waitDma2_eq 𝒱₀ (c : Thread nD τ) none Set.univ (src := fSl c 52) (dst := fSl c 52)) (Set.mem_univ _) () (O := 0) (W := W253) (R := 0) (m := 0) (T := ∅)
      (by rw [Nat.zero_add]; exact (expect_fr m c 52).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 52)) $$ Hpay
  ihave AccF := (acc_step (famF m c) 52 (by decide)) $$ [AccF HFk]
  · isplitl [AccF]; · iexact AccF
    iexact HFk
  ihave #HIx := (Prep.inv_fr m K c 52) $$ HI
  imod (Rounds.cell_close ER (rd m) (Set.mem_univ (K (c, some (3, 52)))) (fun h => h) (R := 0 + 1) (duties_fr_later m c 52)) $$ [Hat] with Hz
  · isplitr; · iexact HIx
    iexact Hat
  iclear HIx
  ihave AccZfr := (acc_step (famZfr (F := F) c) 52 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W254, HO⟩
  -- step 416: wait arg2[53] (arg1[(k0_off1 d0 3392#32)], arg0[(k0_off2 d0 3392#32)])
  first | sl_exec | skip
  ihave Hs := (Entails.of_eq (take_step (famCYS (F := F) c) 53 (by decide))) $$ [FcYS]
  · iexact FcYS
  icases Hs with ⟨Hc, FcYS⟩
  ihave Hs := (Entails.of_eq (take_step (famAtYS (F := F) c) 53 (by decide))) $$ [FatYS]
  · iexact FatYS
  icases Hs with ⟨Hat, FatYS⟩
  ihave #HIw := (Prep.inv_ys m K c 53) $$ HI
  iapply (Rounds.wp_wait_rest_token 𝒱₀ ER (rd m) (c : Thread nD τ) none (κ := K (c, some (0, 53))) (sm := .dma (ysS 53))
      (wpE_waitDma2_eq 𝒱₀ (c : Thread nD τ) none Set.univ (src := yDst c 53) (dst := ySrc c 53)) (Set.mem_univ _) () (O := 0) (W := W254) (R := 0) (m := 0) (T := ∅)
      (by rw [Nat.zero_add]; exact (expect_ys m c 53).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 53)) $$ Hpay
  ihave AccXY := (acc_step (famXY m c) 53 (by decide)) $$ [AccXY Hxy]
  · isplitl [AccXY]; · iexact AccXY
    iexact Hxy
  ihave #HIx := (Prep.inv_ys m K c 53) $$ HI
  imod (Rounds.cell_close ER (rd m) (Set.mem_univ (K (c, some (0, 53)))) (fun h => h) (R := 0 + 1) (duties_ys_later m c 53)) $$ [Hat] with Hz
  · isplitr; · iexact HIx
    iexact Hat
  iclear HIx
  ihave AccZys := (acc_step (famZys (F := F) c) 53 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W255, HO⟩
  -- step 417: wait arg4[53] (arg1[(k0_off3 d0 3392#32)], arg1[(k0_off3 d0 3392#32)])
  first | sl_exec | skip
  ihave Hs := (Entails.of_eq (take_step (famCFS (F := F) c) 53 (by decide))) $$ [FcFS]
  · iexact FcFS
  icases Hs with ⟨Hc, FcFS⟩
  ihave Hs := (Entails.of_eq (take_step (famAtFS (F := F) c) 53 (by decide))) $$ [FatFS]
  · iexact FatFS
  icases Hs with ⟨Hat, FatFS⟩
  ihave #HIw := (Prep.inv_fs m K c 53) $$ HI
  iapply (Rounds.wp_wait_rest_token 𝒱₀ ER (rd m) (c : Thread nD τ) none (κ := K (c, some (2, 53))) (sm := .dma (fsS 53))
      (wpE_waitDma2_eq 𝒱₀ (c : Thread nD τ) none Set.univ (src := fSl c 53) (dst := fSl c 53)) (Set.mem_univ _) () (O := 0) (W := W255) (R := 0) (m := 0) (T := ∅)
      (by rw [Nat.zero_add]; exact (expect_fs m c 53).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 53)) $$ Hpay
  ihave AccY := (acc_step (famY m c) 53 (by decide)) $$ [AccY HYk]
  · isplitl [AccY]; · iexact AccY
    iexact HYk
  ihave #HIx := (Prep.inv_fs m K c 53) $$ HI
  imod (Rounds.cell_close ER (rd m) (Set.mem_univ (K (c, some (2, 53)))) (fun h => h) (R := 0 + 1) (duties_fs_later m c 53)) $$ [Hat] with Hz
  · isplitr; · iexact HIx
    iexact Hat
  iclear HIx
  ihave AccZfs := (acc_step (famZfs (F := F) c) 53 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W256, HO⟩
  -- step 418: wait arg5[53] (arg1[(k0_off3 d0 3392#32)], arg1[(k0_off3 d0 3392#32)])
  first | sl_exec | skip
  ihave Hs := (Entails.of_eq (take_step (famCFR (F := F) c) 53 (by decide))) $$ [FcFR]
  · iexact FcFR
  icases Hs with ⟨Hc, FcFR⟩
  ihave Hs := (Entails.of_eq (take_step (famAtFR (F := F) c) 53 (by decide))) $$ [FatFR]
  · iexact FatFR
  icases Hs with ⟨Hat, FatFR⟩
  ihave #HIw := (Prep.inv_fr m K c 53) $$ HI
  iapply (Rounds.wp_wait_rest_token 𝒱₀ ER (rd m) (c : Thread nD τ) none (κ := K (c, some (3, 53))) (sm := .dma (frS 53))
      (wpE_waitDma2_eq 𝒱₀ (c : Thread nD τ) none Set.univ (src := fSl c 53) (dst := fSl c 53)) (Set.mem_univ _) () (O := 0) (W := W256) (R := 0) (m := 0) (T := ∅)
      (by rw [Nat.zero_add]; exact (expect_fr m c 53).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 53)) $$ Hpay
  ihave AccF := (acc_step (famF m c) 53 (by decide)) $$ [AccF HFk]
  · isplitl [AccF]; · iexact AccF
    iexact HFk
  ihave #HIx := (Prep.inv_fr m K c 53) $$ HI
  imod (Rounds.cell_close ER (rd m) (Set.mem_univ (K (c, some (3, 53)))) (fun h => h) (R := 0 + 1) (duties_fr_later m c 53)) $$ [Hat] with Hz
  · isplitr; · iexact HIx
    iexact Hat
  iclear HIx
  ihave AccZfr := (acc_step (famZfr (F := F) c) 53 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W257, HO⟩
  -- step 419: wait arg2[54] (arg1[(k0_off1 d0 3456#32)], arg0[(k0_off2 d0 3456#32)])
  first | sl_exec | skip
  ihave Hs := (Entails.of_eq (take_step (famCYS (F := F) c) 54 (by decide))) $$ [FcYS]
  · iexact FcYS
  icases Hs with ⟨Hc, FcYS⟩
  ihave Hs := (Entails.of_eq (take_step (famAtYS (F := F) c) 54 (by decide))) $$ [FatYS]
  · iexact FatYS
  icases Hs with ⟨Hat, FatYS⟩
  ihave #HIw := (Prep.inv_ys m K c 54) $$ HI
  iapply (Rounds.wp_wait_rest_token 𝒱₀ ER (rd m) (c : Thread nD τ) none (κ := K (c, some (0, 54))) (sm := .dma (ysS 54))
      (wpE_waitDma2_eq 𝒱₀ (c : Thread nD τ) none Set.univ (src := yDst c 54) (dst := ySrc c 54)) (Set.mem_univ _) () (O := 0) (W := W257) (R := 0) (m := 0) (T := ∅)
      (by rw [Nat.zero_add]; exact (expect_ys m c 54).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 54)) $$ Hpay
  ihave AccXY := (acc_step (famXY m c) 54 (by decide)) $$ [AccXY Hxy]
  · isplitl [AccXY]; · iexact AccXY
    iexact Hxy
  ihave #HIx := (Prep.inv_ys m K c 54) $$ HI
  imod (Rounds.cell_close ER (rd m) (Set.mem_univ (K (c, some (0, 54)))) (fun h => h) (R := 0 + 1) (duties_ys_later m c 54)) $$ [Hat] with Hz
  · isplitr; · iexact HIx
    iexact Hat
  iclear HIx
  ihave AccZys := (acc_step (famZys (F := F) c) 54 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W258, HO⟩
  -- step 420: wait arg4[54] (arg1[(k0_off3 d0 3456#32)], arg1[(k0_off3 d0 3456#32)])
  first | sl_exec | skip
  ihave Hs := (Entails.of_eq (take_step (famCFS (F := F) c) 54 (by decide))) $$ [FcFS]
  · iexact FcFS
  icases Hs with ⟨Hc, FcFS⟩
  ihave Hs := (Entails.of_eq (take_step (famAtFS (F := F) c) 54 (by decide))) $$ [FatFS]
  · iexact FatFS
  icases Hs with ⟨Hat, FatFS⟩
  ihave #HIw := (Prep.inv_fs m K c 54) $$ HI
  iapply (Rounds.wp_wait_rest_token 𝒱₀ ER (rd m) (c : Thread nD τ) none (κ := K (c, some (2, 54))) (sm := .dma (fsS 54))
      (wpE_waitDma2_eq 𝒱₀ (c : Thread nD τ) none Set.univ (src := fSl c 54) (dst := fSl c 54)) (Set.mem_univ _) () (O := 0) (W := W258) (R := 0) (m := 0) (T := ∅)
      (by rw [Nat.zero_add]; exact (expect_fs m c 54).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 54)) $$ Hpay
  ihave AccY := (acc_step (famY m c) 54 (by decide)) $$ [AccY HYk]
  · isplitl [AccY]; · iexact AccY
    iexact HYk
  ihave #HIx := (Prep.inv_fs m K c 54) $$ HI
  imod (Rounds.cell_close ER (rd m) (Set.mem_univ (K (c, some (2, 54)))) (fun h => h) (R := 0 + 1) (duties_fs_later m c 54)) $$ [Hat] with Hz
  · isplitr; · iexact HIx
    iexact Hat
  iclear HIx
  ihave AccZfs := (acc_step (famZfs (F := F) c) 54 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W259, HO⟩
  -- step 421: wait arg5[54] (arg1[(k0_off3 d0 3456#32)], arg1[(k0_off3 d0 3456#32)])
  first | sl_exec | skip
  ihave Hs := (Entails.of_eq (take_step (famCFR (F := F) c) 54 (by decide))) $$ [FcFR]
  · iexact FcFR
  icases Hs with ⟨Hc, FcFR⟩
  ihave Hs := (Entails.of_eq (take_step (famAtFR (F := F) c) 54 (by decide))) $$ [FatFR]
  · iexact FatFR
  icases Hs with ⟨Hat, FatFR⟩
  ihave #HIw := (Prep.inv_fr m K c 54) $$ HI
  iapply (Rounds.wp_wait_rest_token 𝒱₀ ER (rd m) (c : Thread nD τ) none (κ := K (c, some (3, 54))) (sm := .dma (frS 54))
      (wpE_waitDma2_eq 𝒱₀ (c : Thread nD τ) none Set.univ (src := fSl c 54) (dst := fSl c 54)) (Set.mem_univ _) () (O := 0) (W := W259) (R := 0) (m := 0) (T := ∅)
      (by rw [Nat.zero_add]; exact (expect_fr m c 54).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 54)) $$ Hpay
  ihave AccF := (acc_step (famF m c) 54 (by decide)) $$ [AccF HFk]
  · isplitl [AccF]; · iexact AccF
    iexact HFk
  ihave #HIx := (Prep.inv_fr m K c 54) $$ HI
  imod (Rounds.cell_close ER (rd m) (Set.mem_univ (K (c, some (3, 54)))) (fun h => h) (R := 0 + 1) (duties_fr_later m c 54)) $$ [Hat] with Hz
  · isplitr; · iexact HIx
    iexact Hat
  iclear HIx
  ihave AccZfr := (acc_step (famZfr (F := F) c) 54 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W260, HO⟩
  -- step 422: wait arg2[55] (arg1[(k0_off1 d0 3520#32)], arg0[(k0_off2 d0 3520#32)])
  first | sl_exec | skip
  ihave Hs := (Entails.of_eq (take_step (famCYS (F := F) c) 55 (by decide))) $$ [FcYS]
  · iexact FcYS
  icases Hs with ⟨Hc, FcYS⟩
  ihave Hs := (Entails.of_eq (take_step (famAtYS (F := F) c) 55 (by decide))) $$ [FatYS]
  · iexact FatYS
  icases Hs with ⟨Hat, FatYS⟩
  ihave #HIw := (Prep.inv_ys m K c 55) $$ HI
  iapply (Rounds.wp_wait_rest_token 𝒱₀ ER (rd m) (c : Thread nD τ) none (κ := K (c, some (0, 55))) (sm := .dma (ysS 55))
      (wpE_waitDma2_eq 𝒱₀ (c : Thread nD τ) none Set.univ (src := yDst c 55) (dst := ySrc c 55)) (Set.mem_univ _) () (O := 0) (W := W260) (R := 0) (m := 0) (T := ∅)
      (by rw [Nat.zero_add]; exact (expect_ys m c 55).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 55)) $$ Hpay
  ihave AccXY := (acc_step (famXY m c) 55 (by decide)) $$ [AccXY Hxy]
  · isplitl [AccXY]; · iexact AccXY
    iexact Hxy
  ihave #HIx := (Prep.inv_ys m K c 55) $$ HI
  imod (Rounds.cell_close ER (rd m) (Set.mem_univ (K (c, some (0, 55)))) (fun h => h) (R := 0 + 1) (duties_ys_later m c 55)) $$ [Hat] with Hz
  · isplitr; · iexact HIx
    iexact Hat
  iclear HIx
  ihave AccZys := (acc_step (famZys (F := F) c) 55 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W261, HO⟩
  -- step 423: wait arg4[55] (arg1[(k0_off3 d0 3520#32)], arg1[(k0_off3 d0 3520#32)])
  first | sl_exec | skip
  ihave Hs := (Entails.of_eq (take_step (famCFS (F := F) c) 55 (by decide))) $$ [FcFS]
  · iexact FcFS
  icases Hs with ⟨Hc, FcFS⟩
  ihave Hs := (Entails.of_eq (take_step (famAtFS (F := F) c) 55 (by decide))) $$ [FatFS]
  · iexact FatFS
  icases Hs with ⟨Hat, FatFS⟩
  ihave #HIw := (Prep.inv_fs m K c 55) $$ HI
  iapply (Rounds.wp_wait_rest_token 𝒱₀ ER (rd m) (c : Thread nD τ) none (κ := K (c, some (2, 55))) (sm := .dma (fsS 55))
      (wpE_waitDma2_eq 𝒱₀ (c : Thread nD τ) none Set.univ (src := fSl c 55) (dst := fSl c 55)) (Set.mem_univ _) () (O := 0) (W := W261) (R := 0) (m := 0) (T := ∅)
      (by rw [Nat.zero_add]; exact (expect_fs m c 55).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 55)) $$ Hpay
  ihave AccY := (acc_step (famY m c) 55 (by decide)) $$ [AccY HYk]
  · isplitl [AccY]; · iexact AccY
    iexact HYk
  ihave #HIx := (Prep.inv_fs m K c 55) $$ HI
  imod (Rounds.cell_close ER (rd m) (Set.mem_univ (K (c, some (2, 55)))) (fun h => h) (R := 0 + 1) (duties_fs_later m c 55)) $$ [Hat] with Hz
  · isplitr; · iexact HIx
    iexact Hat
  iclear HIx
  ihave AccZfs := (acc_step (famZfs (F := F) c) 55 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W262, HO⟩
  -- step 424: wait arg5[55] (arg1[(k0_off3 d0 3520#32)], arg1[(k0_off3 d0 3520#32)])
  first | sl_exec | skip
  ihave Hs := (Entails.of_eq (take_step (famCFR (F := F) c) 55 (by decide))) $$ [FcFR]
  · iexact FcFR
  icases Hs with ⟨Hc, FcFR⟩
  ihave Hs := (Entails.of_eq (take_step (famAtFR (F := F) c) 55 (by decide))) $$ [FatFR]
  · iexact FatFR
  icases Hs with ⟨Hat, FatFR⟩
  ihave #HIw := (Prep.inv_fr m K c 55) $$ HI
  iapply (Rounds.wp_wait_rest_token 𝒱₀ ER (rd m) (c : Thread nD τ) none (κ := K (c, some (3, 55))) (sm := .dma (frS 55))
      (wpE_waitDma2_eq 𝒱₀ (c : Thread nD τ) none Set.univ (src := fSl c 55) (dst := fSl c 55)) (Set.mem_univ _) () (O := 0) (W := W262) (R := 0) (m := 0) (T := ∅)
      (by rw [Nat.zero_add]; exact (expect_fr m c 55).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 55)) $$ Hpay
  ihave AccF := (acc_step (famF m c) 55 (by decide)) $$ [AccF HFk]
  · isplitl [AccF]; · iexact AccF
    iexact HFk
  ihave #HIx := (Prep.inv_fr m K c 55) $$ HI
  imod (Rounds.cell_close ER (rd m) (Set.mem_univ (K (c, some (3, 55)))) (fun h => h) (R := 0 + 1) (duties_fr_later m c 55)) $$ [Hat] with Hz
  · isplitr; · iexact HIx
    iexact Hat
  iclear HIx
  ihave AccZfr := (acc_step (famZfr (F := F) c) 55 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W263, HO⟩
  -- step 425: wait arg2[56] (arg1[(k0_off1 d0 3584#32)], arg0[(k0_off2 d0 3584#32)])
  first | sl_exec | skip
  ihave Hs := (Entails.of_eq (take_step (famCYS (F := F) c) 56 (by decide))) $$ [FcYS]
  · iexact FcYS
  icases Hs with ⟨Hc, FcYS⟩
  ihave Hs := (Entails.of_eq (take_step (famAtYS (F := F) c) 56 (by decide))) $$ [FatYS]
  · iexact FatYS
  icases Hs with ⟨Hat, FatYS⟩
  ihave #HIw := (Prep.inv_ys m K c 56) $$ HI
  iapply (Rounds.wp_wait_rest_token 𝒱₀ ER (rd m) (c : Thread nD τ) none (κ := K (c, some (0, 56))) (sm := .dma (ysS 56))
      (wpE_waitDma2_eq 𝒱₀ (c : Thread nD τ) none Set.univ (src := yDst c 56) (dst := ySrc c 56)) (Set.mem_univ _) () (O := 0) (W := W263) (R := 0) (m := 0) (T := ∅)
      (by rw [Nat.zero_add]; exact (expect_ys m c 56).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 56)) $$ Hpay
  ihave AccXY := (acc_step (famXY m c) 56 (by decide)) $$ [AccXY Hxy]
  · isplitl [AccXY]; · iexact AccXY
    iexact Hxy
  ihave #HIx := (Prep.inv_ys m K c 56) $$ HI
  imod (Rounds.cell_close ER (rd m) (Set.mem_univ (K (c, some (0, 56)))) (fun h => h) (R := 0 + 1) (duties_ys_later m c 56)) $$ [Hat] with Hz
  · isplitr; · iexact HIx
    iexact Hat
  iclear HIx
  ihave AccZys := (acc_step (famZys (F := F) c) 56 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W264, HO⟩
  -- step 426: wait arg4[56] (arg1[(k0_off3 d0 3584#32)], arg1[(k0_off3 d0 3584#32)])
  first | sl_exec | skip
  ihave Hs := (Entails.of_eq (take_step (famCFS (F := F) c) 56 (by decide))) $$ [FcFS]
  · iexact FcFS
  icases Hs with ⟨Hc, FcFS⟩
  ihave Hs := (Entails.of_eq (take_step (famAtFS (F := F) c) 56 (by decide))) $$ [FatFS]
  · iexact FatFS
  icases Hs with ⟨Hat, FatFS⟩
  ihave #HIw := (Prep.inv_fs m K c 56) $$ HI
  iapply (Rounds.wp_wait_rest_token 𝒱₀ ER (rd m) (c : Thread nD τ) none (κ := K (c, some (2, 56))) (sm := .dma (fsS 56))
      (wpE_waitDma2_eq 𝒱₀ (c : Thread nD τ) none Set.univ (src := fSl c 56) (dst := fSl c 56)) (Set.mem_univ _) () (O := 0) (W := W264) (R := 0) (m := 0) (T := ∅)
      (by rw [Nat.zero_add]; exact (expect_fs m c 56).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 56)) $$ Hpay
  ihave AccY := (acc_step (famY m c) 56 (by decide)) $$ [AccY HYk]
  · isplitl [AccY]; · iexact AccY
    iexact HYk
  ihave #HIx := (Prep.inv_fs m K c 56) $$ HI
  imod (Rounds.cell_close ER (rd m) (Set.mem_univ (K (c, some (2, 56)))) (fun h => h) (R := 0 + 1) (duties_fs_later m c 56)) $$ [Hat] with Hz
  · isplitr; · iexact HIx
    iexact Hat
  iclear HIx
  ihave AccZfs := (acc_step (famZfs (F := F) c) 56 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W265, HO⟩
  -- step 427: wait arg5[56] (arg1[(k0_off3 d0 3584#32)], arg1[(k0_off3 d0 3584#32)])
  first | sl_exec | skip
  ihave Hs := (Entails.of_eq (take_step (famCFR (F := F) c) 56 (by decide))) $$ [FcFR]
  · iexact FcFR
  icases Hs with ⟨Hc, FcFR⟩
  ihave Hs := (Entails.of_eq (take_step (famAtFR (F := F) c) 56 (by decide))) $$ [FatFR]
  · iexact FatFR
  icases Hs with ⟨Hat, FatFR⟩
  ihave #HIw := (Prep.inv_fr m K c 56) $$ HI
  iapply (Rounds.wp_wait_rest_token 𝒱₀ ER (rd m) (c : Thread nD τ) none (κ := K (c, some (3, 56))) (sm := .dma (frS 56))
      (wpE_waitDma2_eq 𝒱₀ (c : Thread nD τ) none Set.univ (src := fSl c 56) (dst := fSl c 56)) (Set.mem_univ _) () (O := 0) (W := W265) (R := 0) (m := 0) (T := ∅)
      (by rw [Nat.zero_add]; exact (expect_fr m c 56).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 56)) $$ Hpay
  ihave AccF := (acc_step (famF m c) 56 (by decide)) $$ [AccF HFk]
  · isplitl [AccF]; · iexact AccF
    iexact HFk
  ihave #HIx := (Prep.inv_fr m K c 56) $$ HI
  imod (Rounds.cell_close ER (rd m) (Set.mem_univ (K (c, some (3, 56)))) (fun h => h) (R := 0 + 1) (duties_fr_later m c 56)) $$ [Hat] with Hz
  · isplitr; · iexact HIx
    iexact Hat
  iclear HIx
  ihave AccZfr := (acc_step (famZfr (F := F) c) 56 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W266, HO⟩
  -- step 428: wait arg2[57] (arg1[(k0_off1 d0 3648#32)], arg0[(k0_off2 d0 3648#32)])
  first | sl_exec | skip
  ihave Hs := (Entails.of_eq (take_step (famCYS (F := F) c) 57 (by decide))) $$ [FcYS]
  · iexact FcYS
  icases Hs with ⟨Hc, FcYS⟩
  ihave Hs := (Entails.of_eq (take_step (famAtYS (F := F) c) 57 (by decide))) $$ [FatYS]
  · iexact FatYS
  icases Hs with ⟨Hat, FatYS⟩
  ihave #HIw := (Prep.inv_ys m K c 57) $$ HI
  iapply (Rounds.wp_wait_rest_token 𝒱₀ ER (rd m) (c : Thread nD τ) none (κ := K (c, some (0, 57))) (sm := .dma (ysS 57))
      (wpE_waitDma2_eq 𝒱₀ (c : Thread nD τ) none Set.univ (src := yDst c 57) (dst := ySrc c 57)) (Set.mem_univ _) () (O := 0) (W := W266) (R := 0) (m := 0) (T := ∅)
      (by rw [Nat.zero_add]; exact (expect_ys m c 57).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 57)) $$ Hpay
  ihave AccXY := (acc_step (famXY m c) 57 (by decide)) $$ [AccXY Hxy]
  · isplitl [AccXY]; · iexact AccXY
    iexact Hxy
  ihave #HIx := (Prep.inv_ys m K c 57) $$ HI
  imod (Rounds.cell_close ER (rd m) (Set.mem_univ (K (c, some (0, 57)))) (fun h => h) (R := 0 + 1) (duties_ys_later m c 57)) $$ [Hat] with Hz
  · isplitr; · iexact HIx
    iexact Hat
  iclear HIx
  ihave AccZys := (acc_step (famZys (F := F) c) 57 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W267, HO⟩
  -- step 429: wait arg4[57] (arg1[(k0_off3 d0 3648#32)], arg1[(k0_off3 d0 3648#32)])
  first | sl_exec | skip
  ihave Hs := (Entails.of_eq (take_step (famCFS (F := F) c) 57 (by decide))) $$ [FcFS]
  · iexact FcFS
  icases Hs with ⟨Hc, FcFS⟩
  ihave Hs := (Entails.of_eq (take_step (famAtFS (F := F) c) 57 (by decide))) $$ [FatFS]
  · iexact FatFS
  icases Hs with ⟨Hat, FatFS⟩
  ihave #HIw := (Prep.inv_fs m K c 57) $$ HI
  iapply (Rounds.wp_wait_rest_token 𝒱₀ ER (rd m) (c : Thread nD τ) none (κ := K (c, some (2, 57))) (sm := .dma (fsS 57))
      (wpE_waitDma2_eq 𝒱₀ (c : Thread nD τ) none Set.univ (src := fSl c 57) (dst := fSl c 57)) (Set.mem_univ _) () (O := 0) (W := W267) (R := 0) (m := 0) (T := ∅)
      (by rw [Nat.zero_add]; exact (expect_fs m c 57).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 57)) $$ Hpay
  ihave AccY := (acc_step (famY m c) 57 (by decide)) $$ [AccY HYk]
  · isplitl [AccY]; · iexact AccY
    iexact HYk
  ihave #HIx := (Prep.inv_fs m K c 57) $$ HI
  imod (Rounds.cell_close ER (rd m) (Set.mem_univ (K (c, some (2, 57)))) (fun h => h) (R := 0 + 1) (duties_fs_later m c 57)) $$ [Hat] with Hz
  · isplitr; · iexact HIx
    iexact Hat
  iclear HIx
  ihave AccZfs := (acc_step (famZfs (F := F) c) 57 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W268, HO⟩
  -- step 430: wait arg5[57] (arg1[(k0_off3 d0 3648#32)], arg1[(k0_off3 d0 3648#32)])
  first | sl_exec | skip
  ihave Hs := (Entails.of_eq (take_step (famCFR (F := F) c) 57 (by decide))) $$ [FcFR]
  · iexact FcFR
  icases Hs with ⟨Hc, FcFR⟩
  ihave Hs := (Entails.of_eq (take_step (famAtFR (F := F) c) 57 (by decide))) $$ [FatFR]
  · iexact FatFR
  icases Hs with ⟨Hat, FatFR⟩
  ihave #HIw := (Prep.inv_fr m K c 57) $$ HI
  iapply (Rounds.wp_wait_rest_token 𝒱₀ ER (rd m) (c : Thread nD τ) none (κ := K (c, some (3, 57))) (sm := .dma (frS 57))
      (wpE_waitDma2_eq 𝒱₀ (c : Thread nD τ) none Set.univ (src := fSl c 57) (dst := fSl c 57)) (Set.mem_univ _) () (O := 0) (W := W268) (R := 0) (m := 0) (T := ∅)
      (by rw [Nat.zero_add]; exact (expect_fr m c 57).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 57)) $$ Hpay
  ihave AccF := (acc_step (famF m c) 57 (by decide)) $$ [AccF HFk]
  · isplitl [AccF]; · iexact AccF
    iexact HFk
  ihave #HIx := (Prep.inv_fr m K c 57) $$ HI
  imod (Rounds.cell_close ER (rd m) (Set.mem_univ (K (c, some (3, 57)))) (fun h => h) (R := 0 + 1) (duties_fr_later m c 57)) $$ [Hat] with Hz
  · isplitr; · iexact HIx
    iexact Hat
  iclear HIx
  ihave AccZfr := (acc_step (famZfr (F := F) c) 57 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W269, HO⟩
  -- step 431: wait arg2[58] (arg1[(k0_off1 d0 3712#32)], arg0[(k0_off2 d0 3712#32)])
  first | sl_exec | skip
  ihave Hs := (Entails.of_eq (take_step (famCYS (F := F) c) 58 (by decide))) $$ [FcYS]
  · iexact FcYS
  icases Hs with ⟨Hc, FcYS⟩
  ihave Hs := (Entails.of_eq (take_step (famAtYS (F := F) c) 58 (by decide))) $$ [FatYS]
  · iexact FatYS
  icases Hs with ⟨Hat, FatYS⟩
  ihave #HIw := (Prep.inv_ys m K c 58) $$ HI
  iapply (Rounds.wp_wait_rest_token 𝒱₀ ER (rd m) (c : Thread nD τ) none (κ := K (c, some (0, 58))) (sm := .dma (ysS 58))
      (wpE_waitDma2_eq 𝒱₀ (c : Thread nD τ) none Set.univ (src := yDst c 58) (dst := ySrc c 58)) (Set.mem_univ _) () (O := 0) (W := W269) (R := 0) (m := 0) (T := ∅)
      (by rw [Nat.zero_add]; exact (expect_ys m c 58).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 58)) $$ Hpay
  ihave AccXY := (acc_step (famXY m c) 58 (by decide)) $$ [AccXY Hxy]
  · isplitl [AccXY]; · iexact AccXY
    iexact Hxy
  ihave #HIx := (Prep.inv_ys m K c 58) $$ HI
  imod (Rounds.cell_close ER (rd m) (Set.mem_univ (K (c, some (0, 58)))) (fun h => h) (R := 0 + 1) (duties_ys_later m c 58)) $$ [Hat] with Hz
  · isplitr; · iexact HIx
    iexact Hat
  iclear HIx
  ihave AccZys := (acc_step (famZys (F := F) c) 58 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W270, HO⟩
  -- step 432: wait arg4[58] (arg1[(k0_off3 d0 3712#32)], arg1[(k0_off3 d0 3712#32)])
  first | sl_exec | skip
  ihave Hs := (Entails.of_eq (take_step (famCFS (F := F) c) 58 (by decide))) $$ [FcFS]
  · iexact FcFS
  icases Hs with ⟨Hc, FcFS⟩
  ihave Hs := (Entails.of_eq (take_step (famAtFS (F := F) c) 58 (by decide))) $$ [FatFS]
  · iexact FatFS
  icases Hs with ⟨Hat, FatFS⟩
  ihave #HIw := (Prep.inv_fs m K c 58) $$ HI
  iapply (Rounds.wp_wait_rest_token 𝒱₀ ER (rd m) (c : Thread nD τ) none (κ := K (c, some (2, 58))) (sm := .dma (fsS 58))
      (wpE_waitDma2_eq 𝒱₀ (c : Thread nD τ) none Set.univ (src := fSl c 58) (dst := fSl c 58)) (Set.mem_univ _) () (O := 0) (W := W270) (R := 0) (m := 0) (T := ∅)
      (by rw [Nat.zero_add]; exact (expect_fs m c 58).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 58)) $$ Hpay
  ihave AccY := (acc_step (famY m c) 58 (by decide)) $$ [AccY HYk]
  · isplitl [AccY]; · iexact AccY
    iexact HYk
  ihave #HIx := (Prep.inv_fs m K c 58) $$ HI
  imod (Rounds.cell_close ER (rd m) (Set.mem_univ (K (c, some (2, 58)))) (fun h => h) (R := 0 + 1) (duties_fs_later m c 58)) $$ [Hat] with Hz
  · isplitr; · iexact HIx
    iexact Hat
  iclear HIx
  ihave AccZfs := (acc_step (famZfs (F := F) c) 58 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W271, HO⟩
  -- step 433: wait arg5[58] (arg1[(k0_off3 d0 3712#32)], arg1[(k0_off3 d0 3712#32)])
  first | sl_exec | skip
  ihave Hs := (Entails.of_eq (take_step (famCFR (F := F) c) 58 (by decide))) $$ [FcFR]
  · iexact FcFR
  icases Hs with ⟨Hc, FcFR⟩
  ihave Hs := (Entails.of_eq (take_step (famAtFR (F := F) c) 58 (by decide))) $$ [FatFR]
  · iexact FatFR
  icases Hs with ⟨Hat, FatFR⟩
  ihave #HIw := (Prep.inv_fr m K c 58) $$ HI
  iapply (Rounds.wp_wait_rest_token 𝒱₀ ER (rd m) (c : Thread nD τ) none (κ := K (c, some (3, 58))) (sm := .dma (frS 58))
      (wpE_waitDma2_eq 𝒱₀ (c : Thread nD τ) none Set.univ (src := fSl c 58) (dst := fSl c 58)) (Set.mem_univ _) () (O := 0) (W := W271) (R := 0) (m := 0) (T := ∅)
      (by rw [Nat.zero_add]; exact (expect_fr m c 58).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 58)) $$ Hpay
  ihave AccF := (acc_step (famF m c) 58 (by decide)) $$ [AccF HFk]
  · isplitl [AccF]; · iexact AccF
    iexact HFk
  ihave #HIx := (Prep.inv_fr m K c 58) $$ HI
  imod (Rounds.cell_close ER (rd m) (Set.mem_univ (K (c, some (3, 58)))) (fun h => h) (R := 0 + 1) (duties_fr_later m c 58)) $$ [Hat] with Hz
  · isplitr; · iexact HIx
    iexact Hat
  iclear HIx
  ihave AccZfr := (acc_step (famZfr (F := F) c) 58 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W272, HO⟩
  -- step 434: wait arg2[59] (arg1[(k0_off1 d0 3776#32)], arg0[(k0_off2 d0 3776#32)])
  first | sl_exec | skip
  ihave Hs := (Entails.of_eq (take_step (famCYS (F := F) c) 59 (by decide))) $$ [FcYS]
  · iexact FcYS
  icases Hs with ⟨Hc, FcYS⟩
  ihave Hs := (Entails.of_eq (take_step (famAtYS (F := F) c) 59 (by decide))) $$ [FatYS]
  · iexact FatYS
  icases Hs with ⟨Hat, FatYS⟩
  ihave #HIw := (Prep.inv_ys m K c 59) $$ HI
  iapply (Rounds.wp_wait_rest_token 𝒱₀ ER (rd m) (c : Thread nD τ) none (κ := K (c, some (0, 59))) (sm := .dma (ysS 59))
      (wpE_waitDma2_eq 𝒱₀ (c : Thread nD τ) none Set.univ (src := yDst c 59) (dst := ySrc c 59)) (Set.mem_univ _) () (O := 0) (W := W272) (R := 0) (m := 0) (T := ∅)
      (by rw [Nat.zero_add]; exact (expect_ys m c 59).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 59)) $$ Hpay
  ihave AccXY := (acc_step (famXY m c) 59 (by decide)) $$ [AccXY Hxy]
  · isplitl [AccXY]; · iexact AccXY
    iexact Hxy
  ihave #HIx := (Prep.inv_ys m K c 59) $$ HI
  imod (Rounds.cell_close ER (rd m) (Set.mem_univ (K (c, some (0, 59)))) (fun h => h) (R := 0 + 1) (duties_ys_later m c 59)) $$ [Hat] with Hz
  · isplitr; · iexact HIx
    iexact Hat
  iclear HIx
  ihave AccZys := (acc_step (famZys (F := F) c) 59 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W273, HO⟩
  -- step 435: wait arg4[59] (arg1[(k0_off3 d0 3776#32)], arg1[(k0_off3 d0 3776#32)])
  first | sl_exec | skip
  ihave Hs := (Entails.of_eq (take_step (famCFS (F := F) c) 59 (by decide))) $$ [FcFS]
  · iexact FcFS
  icases Hs with ⟨Hc, FcFS⟩
  ihave Hs := (Entails.of_eq (take_step (famAtFS (F := F) c) 59 (by decide))) $$ [FatFS]
  · iexact FatFS
  icases Hs with ⟨Hat, FatFS⟩
  ihave #HIw := (Prep.inv_fs m K c 59) $$ HI
  iapply (Rounds.wp_wait_rest_token 𝒱₀ ER (rd m) (c : Thread nD τ) none (κ := K (c, some (2, 59))) (sm := .dma (fsS 59))
      (wpE_waitDma2_eq 𝒱₀ (c : Thread nD τ) none Set.univ (src := fSl c 59) (dst := fSl c 59)) (Set.mem_univ _) () (O := 0) (W := W273) (R := 0) (m := 0) (T := ∅)
      (by rw [Nat.zero_add]; exact (expect_fs m c 59).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 59)) $$ Hpay
  ihave AccY := (acc_step (famY m c) 59 (by decide)) $$ [AccY HYk]
  · isplitl [AccY]; · iexact AccY
    iexact HYk
  ihave #HIx := (Prep.inv_fs m K c 59) $$ HI
  imod (Rounds.cell_close ER (rd m) (Set.mem_univ (K (c, some (2, 59)))) (fun h => h) (R := 0 + 1) (duties_fs_later m c 59)) $$ [Hat] with Hz
  · isplitr; · iexact HIx
    iexact Hat
  iclear HIx
  ihave AccZfs := (acc_step (famZfs (F := F) c) 59 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W274, HO⟩
  -- step 436: wait arg5[59] (arg1[(k0_off3 d0 3776#32)], arg1[(k0_off3 d0 3776#32)])
  first | sl_exec | skip
  ihave Hs := (Entails.of_eq (take_step (famCFR (F := F) c) 59 (by decide))) $$ [FcFR]
  · iexact FcFR
  icases Hs with ⟨Hc, FcFR⟩
  ihave Hs := (Entails.of_eq (take_step (famAtFR (F := F) c) 59 (by decide))) $$ [FatFR]
  · iexact FatFR
  icases Hs with ⟨Hat, FatFR⟩
  ihave #HIw := (Prep.inv_fr m K c 59) $$ HI
  iapply (Rounds.wp_wait_rest_token 𝒱₀ ER (rd m) (c : Thread nD τ) none (κ := K (c, some (3, 59))) (sm := .dma (frS 59))
      (wpE_waitDma2_eq 𝒱₀ (c : Thread nD τ) none Set.univ (src := fSl c 59) (dst := fSl c 59)) (Set.mem_univ _) () (O := 0) (W := W274) (R := 0) (m := 0) (T := ∅)
      (by rw [Nat.zero_add]; exact (expect_fr m c 59).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 59)) $$ Hpay
  ihave AccF := (acc_step (famF m c) 59 (by decide)) $$ [AccF HFk]
  · isplitl [AccF]; · iexact AccF
    iexact HFk
  ihave #HIx := (Prep.inv_fr m K c 59) $$ HI
  imod (Rounds.cell_close ER (rd m) (Set.mem_univ (K (c, some (3, 59)))) (fun h => h) (R := 0 + 1) (duties_fr_later m c 59)) $$ [Hat] with Hz
  · isplitr; · iexact HIx
    iexact Hat
  iclear HIx
  ihave AccZfr := (acc_step (famZfr (F := F) c) 59 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W275, HO⟩
  -- step 437: wait arg2[60] (arg1[(k0_off1 d0 3840#32)], arg0[(k0_off2 d0 3840#32)])
  first | sl_exec | skip
  ihave Hs := (Entails.of_eq (take_step (famCYS (F := F) c) 60 (by decide))) $$ [FcYS]
  · iexact FcYS
  icases Hs with ⟨Hc, FcYS⟩
  ihave Hs := (Entails.of_eq (take_step (famAtYS (F := F) c) 60 (by decide))) $$ [FatYS]
  · iexact FatYS
  icases Hs with ⟨Hat, FatYS⟩
  ihave #HIw := (Prep.inv_ys m K c 60) $$ HI
  iapply (Rounds.wp_wait_rest_token 𝒱₀ ER (rd m) (c : Thread nD τ) none (κ := K (c, some (0, 60))) (sm := .dma (ysS 60))
      (wpE_waitDma2_eq 𝒱₀ (c : Thread nD τ) none Set.univ (src := yDst c 60) (dst := ySrc c 60)) (Set.mem_univ _) () (O := 0) (W := W275) (R := 0) (m := 0) (T := ∅)
      (by rw [Nat.zero_add]; exact (expect_ys m c 60).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 60)) $$ Hpay
  ihave AccXY := (acc_step (famXY m c) 60 (by decide)) $$ [AccXY Hxy]
  · isplitl [AccXY]; · iexact AccXY
    iexact Hxy
  ihave #HIx := (Prep.inv_ys m K c 60) $$ HI
  imod (Rounds.cell_close ER (rd m) (Set.mem_univ (K (c, some (0, 60)))) (fun h => h) (R := 0 + 1) (duties_ys_later m c 60)) $$ [Hat] with Hz
  · isplitr; · iexact HIx
    iexact Hat
  iclear HIx
  ihave AccZys := (acc_step (famZys (F := F) c) 60 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W276, HO⟩
  -- step 438: wait arg4[60] (arg1[(k0_off3 d0 3840#32)], arg1[(k0_off3 d0 3840#32)])
  first | sl_exec | skip
  ihave Hs := (Entails.of_eq (take_step (famCFS (F := F) c) 60 (by decide))) $$ [FcFS]
  · iexact FcFS
  icases Hs with ⟨Hc, FcFS⟩
  ihave Hs := (Entails.of_eq (take_step (famAtFS (F := F) c) 60 (by decide))) $$ [FatFS]
  · iexact FatFS
  icases Hs with ⟨Hat, FatFS⟩
  ihave #HIw := (Prep.inv_fs m K c 60) $$ HI
  iapply (Rounds.wp_wait_rest_token 𝒱₀ ER (rd m) (c : Thread nD τ) none (κ := K (c, some (2, 60))) (sm := .dma (fsS 60))
      (wpE_waitDma2_eq 𝒱₀ (c : Thread nD τ) none Set.univ (src := fSl c 60) (dst := fSl c 60)) (Set.mem_univ _) () (O := 0) (W := W276) (R := 0) (m := 0) (T := ∅)
      (by rw [Nat.zero_add]; exact (expect_fs m c 60).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 60)) $$ Hpay
  ihave AccY := (acc_step (famY m c) 60 (by decide)) $$ [AccY HYk]
  · isplitl [AccY]; · iexact AccY
    iexact HYk
  ihave #HIx := (Prep.inv_fs m K c 60) $$ HI
  imod (Rounds.cell_close ER (rd m) (Set.mem_univ (K (c, some (2, 60)))) (fun h => h) (R := 0 + 1) (duties_fs_later m c 60)) $$ [Hat] with Hz
  · isplitr; · iexact HIx
    iexact Hat
  iclear HIx
  ihave AccZfs := (acc_step (famZfs (F := F) c) 60 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W277, HO⟩
  -- step 439: wait arg5[60] (arg1[(k0_off3 d0 3840#32)], arg1[(k0_off3 d0 3840#32)])
  first | sl_exec | skip
  ihave Hs := (Entails.of_eq (take_step (famCFR (F := F) c) 60 (by decide))) $$ [FcFR]
  · iexact FcFR
  icases Hs with ⟨Hc, FcFR⟩
  ihave Hs := (Entails.of_eq (take_step (famAtFR (F := F) c) 60 (by decide))) $$ [FatFR]
  · iexact FatFR
  icases Hs with ⟨Hat, FatFR⟩
  ihave #HIw := (Prep.inv_fr m K c 60) $$ HI
  iapply (Rounds.wp_wait_rest_token 𝒱₀ ER (rd m) (c : Thread nD τ) none (κ := K (c, some (3, 60))) (sm := .dma (frS 60))
      (wpE_waitDma2_eq 𝒱₀ (c : Thread nD τ) none Set.univ (src := fSl c 60) (dst := fSl c 60)) (Set.mem_univ _) () (O := 0) (W := W277) (R := 0) (m := 0) (T := ∅)
      (by rw [Nat.zero_add]; exact (expect_fr m c 60).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 60)) $$ Hpay
  ihave AccF := (acc_step (famF m c) 60 (by decide)) $$ [AccF HFk]
  · isplitl [AccF]; · iexact AccF
    iexact HFk
  ihave #HIx := (Prep.inv_fr m K c 60) $$ HI
  imod (Rounds.cell_close ER (rd m) (Set.mem_univ (K (c, some (3, 60)))) (fun h => h) (R := 0 + 1) (duties_fr_later m c 60)) $$ [Hat] with Hz
  · isplitr; · iexact HIx
    iexact Hat
  iclear HIx
  ihave AccZfr := (acc_step (famZfr (F := F) c) 60 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W278, HO⟩
  -- step 440: wait arg2[61] (arg1[(k0_off1 d0 3904#32)], arg0[(k0_off2 d0 3904#32)])
  first | sl_exec | skip
  ihave Hs := (Entails.of_eq (take_step (famCYS (F := F) c) 61 (by decide))) $$ [FcYS]
  · iexact FcYS
  icases Hs with ⟨Hc, FcYS⟩
  ihave Hs := (Entails.of_eq (take_step (famAtYS (F := F) c) 61 (by decide))) $$ [FatYS]
  · iexact FatYS
  icases Hs with ⟨Hat, FatYS⟩
  ihave #HIw := (Prep.inv_ys m K c 61) $$ HI
  iapply (Rounds.wp_wait_rest_token 𝒱₀ ER (rd m) (c : Thread nD τ) none (κ := K (c, some (0, 61))) (sm := .dma (ysS 61))
      (wpE_waitDma2_eq 𝒱₀ (c : Thread nD τ) none Set.univ (src := yDst c 61) (dst := ySrc c 61)) (Set.mem_univ _) () (O := 0) (W := W278) (R := 0) (m := 0) (T := ∅)
      (by rw [Nat.zero_add]; exact (expect_ys m c 61).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 61)) $$ Hpay
  ihave AccXY := (acc_step (famXY m c) 61 (by decide)) $$ [AccXY Hxy]
  · isplitl [AccXY]; · iexact AccXY
    iexact Hxy
  ihave #HIx := (Prep.inv_ys m K c 61) $$ HI
  imod (Rounds.cell_close ER (rd m) (Set.mem_univ (K (c, some (0, 61)))) (fun h => h) (R := 0 + 1) (duties_ys_later m c 61)) $$ [Hat] with Hz
  · isplitr; · iexact HIx
    iexact Hat
  iclear HIx
  ihave AccZys := (acc_step (famZys (F := F) c) 61 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W279, HO⟩
  -- step 441: wait arg4[61] (arg1[(k0_off3 d0 3904#32)], arg1[(k0_off3 d0 3904#32)])
  first | sl_exec | skip
  ihave Hs := (Entails.of_eq (take_step (famCFS (F := F) c) 61 (by decide))) $$ [FcFS]
  · iexact FcFS
  icases Hs with ⟨Hc, FcFS⟩
  ihave Hs := (Entails.of_eq (take_step (famAtFS (F := F) c) 61 (by decide))) $$ [FatFS]
  · iexact FatFS
  icases Hs with ⟨Hat, FatFS⟩
  ihave #HIw := (Prep.inv_fs m K c 61) $$ HI
  iapply (Rounds.wp_wait_rest_token 𝒱₀ ER (rd m) (c : Thread nD τ) none (κ := K (c, some (2, 61))) (sm := .dma (fsS 61))
      (wpE_waitDma2_eq 𝒱₀ (c : Thread nD τ) none Set.univ (src := fSl c 61) (dst := fSl c 61)) (Set.mem_univ _) () (O := 0) (W := W279) (R := 0) (m := 0) (T := ∅)
      (by rw [Nat.zero_add]; exact (expect_fs m c 61).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 61)) $$ Hpay
  ihave AccY := (acc_step (famY m c) 61 (by decide)) $$ [AccY HYk]
  · isplitl [AccY]; · iexact AccY
    iexact HYk
  ihave #HIx := (Prep.inv_fs m K c 61) $$ HI
  imod (Rounds.cell_close ER (rd m) (Set.mem_univ (K (c, some (2, 61)))) (fun h => h) (R := 0 + 1) (duties_fs_later m c 61)) $$ [Hat] with Hz
  · isplitr; · iexact HIx
    iexact Hat
  iclear HIx
  ihave AccZfs := (acc_step (famZfs (F := F) c) 61 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W280, HO⟩
  -- step 442: wait arg5[61] (arg1[(k0_off3 d0 3904#32)], arg1[(k0_off3 d0 3904#32)])
  first | sl_exec | skip
  ihave Hs := (Entails.of_eq (take_step (famCFR (F := F) c) 61 (by decide))) $$ [FcFR]
  · iexact FcFR
  icases Hs with ⟨Hc, FcFR⟩
  ihave Hs := (Entails.of_eq (take_step (famAtFR (F := F) c) 61 (by decide))) $$ [FatFR]
  · iexact FatFR
  icases Hs with ⟨Hat, FatFR⟩
  ihave #HIw := (Prep.inv_fr m K c 61) $$ HI
  iapply (Rounds.wp_wait_rest_token 𝒱₀ ER (rd m) (c : Thread nD τ) none (κ := K (c, some (3, 61))) (sm := .dma (frS 61))
      (wpE_waitDma2_eq 𝒱₀ (c : Thread nD τ) none Set.univ (src := fSl c 61) (dst := fSl c 61)) (Set.mem_univ _) () (O := 0) (W := W280) (R := 0) (m := 0) (T := ∅)
      (by rw [Nat.zero_add]; exact (expect_fr m c 61).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 61)) $$ Hpay
  ihave AccF := (acc_step (famF m c) 61 (by decide)) $$ [AccF HFk]
  · isplitl [AccF]; · iexact AccF
    iexact HFk
  ihave #HIx := (Prep.inv_fr m K c 61) $$ HI
  imod (Rounds.cell_close ER (rd m) (Set.mem_univ (K (c, some (3, 61)))) (fun h => h) (R := 0 + 1) (duties_fr_later m c 61)) $$ [Hat] with Hz
  · isplitr; · iexact HIx
    iexact Hat
  iclear HIx
  ihave AccZfr := (acc_step (famZfr (F := F) c) 61 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W281, HO⟩
  -- step 443: wait arg2[62] (arg1[(k0_off1 d0 3968#32)], arg0[(k0_off2 d0 3968#32)])
  first | sl_exec | skip
  ihave Hs := (Entails.of_eq (take_step (famCYS (F := F) c) 62 (by decide))) $$ [FcYS]
  · iexact FcYS
  icases Hs with ⟨Hc, FcYS⟩
  ihave Hs := (Entails.of_eq (take_step (famAtYS (F := F) c) 62 (by decide))) $$ [FatYS]
  · iexact FatYS
  icases Hs with ⟨Hat, FatYS⟩
  ihave #HIw := (Prep.inv_ys m K c 62) $$ HI
  iapply (Rounds.wp_wait_rest_token 𝒱₀ ER (rd m) (c : Thread nD τ) none (κ := K (c, some (0, 62))) (sm := .dma (ysS 62))
      (wpE_waitDma2_eq 𝒱₀ (c : Thread nD τ) none Set.univ (src := yDst c 62) (dst := ySrc c 62)) (Set.mem_univ _) () (O := 0) (W := W281) (R := 0) (m := 0) (T := ∅)
      (by rw [Nat.zero_add]; exact (expect_ys m c 62).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 62)) $$ Hpay
  ihave AccXY := (acc_step (famXY m c) 62 (by decide)) $$ [AccXY Hxy]
  · isplitl [AccXY]; · iexact AccXY
    iexact Hxy
  ihave #HIx := (Prep.inv_ys m K c 62) $$ HI
  imod (Rounds.cell_close ER (rd m) (Set.mem_univ (K (c, some (0, 62)))) (fun h => h) (R := 0 + 1) (duties_ys_later m c 62)) $$ [Hat] with Hz
  · isplitr; · iexact HIx
    iexact Hat
  iclear HIx
  ihave AccZys := (acc_step (famZys (F := F) c) 62 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W282, HO⟩
  -- step 444: wait arg4[62] (arg1[(k0_off3 d0 3968#32)], arg1[(k0_off3 d0 3968#32)])
  first | sl_exec | skip
  ihave Hs := (Entails.of_eq (take_step (famCFS (F := F) c) 62 (by decide))) $$ [FcFS]
  · iexact FcFS
  icases Hs with ⟨Hc, FcFS⟩
  ihave Hs := (Entails.of_eq (take_step (famAtFS (F := F) c) 62 (by decide))) $$ [FatFS]
  · iexact FatFS
  icases Hs with ⟨Hat, FatFS⟩
  ihave #HIw := (Prep.inv_fs m K c 62) $$ HI
  iapply (Rounds.wp_wait_rest_token 𝒱₀ ER (rd m) (c : Thread nD τ) none (κ := K (c, some (2, 62))) (sm := .dma (fsS 62))
      (wpE_waitDma2_eq 𝒱₀ (c : Thread nD τ) none Set.univ (src := fSl c 62) (dst := fSl c 62)) (Set.mem_univ _) () (O := 0) (W := W282) (R := 0) (m := 0) (T := ∅)
      (by rw [Nat.zero_add]; exact (expect_fs m c 62).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 62)) $$ Hpay
  ihave AccY := (acc_step (famY m c) 62 (by decide)) $$ [AccY HYk]
  · isplitl [AccY]; · iexact AccY
    iexact HYk
  ihave #HIx := (Prep.inv_fs m K c 62) $$ HI
  imod (Rounds.cell_close ER (rd m) (Set.mem_univ (K (c, some (2, 62)))) (fun h => h) (R := 0 + 1) (duties_fs_later m c 62)) $$ [Hat] with Hz
  · isplitr; · iexact HIx
    iexact Hat
  iclear HIx
  ihave AccZfs := (acc_step (famZfs (F := F) c) 62 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W283, HO⟩
  -- step 445: wait arg5[62] (arg1[(k0_off3 d0 3968#32)], arg1[(k0_off3 d0 3968#32)])
  first | sl_exec | skip
  ihave Hs := (Entails.of_eq (take_step (famCFR (F := F) c) 62 (by decide))) $$ [FcFR]
  · iexact FcFR
  icases Hs with ⟨Hc, FcFR⟩
  ihave Hs := (Entails.of_eq (take_step (famAtFR (F := F) c) 62 (by decide))) $$ [FatFR]
  · iexact FatFR
  icases Hs with ⟨Hat, FatFR⟩
  ihave #HIw := (Prep.inv_fr m K c 62) $$ HI
  iapply (Rounds.wp_wait_rest_token 𝒱₀ ER (rd m) (c : Thread nD τ) none (κ := K (c, some (3, 62))) (sm := .dma (frS 62))
      (wpE_waitDma2_eq 𝒱₀ (c : Thread nD τ) none Set.univ (src := fSl c 62) (dst := fSl c 62)) (Set.mem_univ _) () (O := 0) (W := W283) (R := 0) (m := 0) (T := ∅)
      (by rw [Nat.zero_add]; exact (expect_fr m c 62).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 62)) $$ Hpay
  ihave AccF := (acc_step (famF m c) 62 (by decide)) $$ [AccF HFk]
  · isplitl [AccF]; · iexact AccF
    iexact HFk
  ihave #HIx := (Prep.inv_fr m K c 62) $$ HI
  imod (Rounds.cell_close ER (rd m) (Set.mem_univ (K (c, some (3, 62)))) (fun h => h) (R := 0 + 1) (duties_fr_later m c 62)) $$ [Hat] with Hz
  · isplitr; · iexact HIx
    iexact Hat
  iclear HIx
  ihave AccZfr := (acc_step (famZfr (F := F) c) 62 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W284, HO⟩
  -- step 446: wait arg2[63] (arg1[(k0_off1 d0 4032#32)], arg0[(k0_off2 d0 4032#32)])
  first | sl_exec | skip
  ihave Hs := (Entails.of_eq (take_step (famCYS (F := F) c) 63 (by decide))) $$ [FcYS]
  · iexact FcYS
  icases Hs with ⟨Hc, FcYS⟩
  ihave Hs := (Entails.of_eq (take_step (famAtYS (F := F) c) 63 (by decide))) $$ [FatYS]
  · iexact FatYS
  icases Hs with ⟨Hat, FatYS⟩
  ihave #HIw := (Prep.inv_ys m K c 63) $$ HI
  iapply (Rounds.wp_wait_rest_token 𝒱₀ ER (rd m) (c : Thread nD τ) none (κ := K (c, some (0, 63))) (sm := .dma (ysS 63))
      (wpE_waitDma2_eq 𝒱₀ (c : Thread nD τ) none Set.univ (src := yDst c 63) (dst := ySrc c 63)) (Set.mem_univ _) () (O := 0) (W := W284) (R := 0) (m := 0) (T := ∅)
      (by rw [Nat.zero_add]; exact (expect_ys m c 63).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave Hxy := (Entails.of_eq (rest_ys m c 63)) $$ Hpay
  ihave AccXY := (acc_step (famXY m c) 63 (by decide)) $$ [AccXY Hxy]
  · isplitl [AccXY]; · iexact AccXY
    iexact Hxy
  ihave #HIx := (Prep.inv_ys m K c 63) $$ HI
  imod (Rounds.cell_close ER (rd m) (Set.mem_univ (K (c, some (0, 63)))) (fun h => h) (R := 0 + 1) (duties_ys_later m c 63)) $$ [Hat] with Hz
  · isplitr; · iexact HIx
    iexact Hat
  iclear HIx
  ihave AccZys := (acc_step (famZys (F := F) c) 63 (by decide)) $$ [AccZys Hz]
  · isplitl [AccZys]; · iexact AccZys
    iexact Hz
  ihave HOe : iprop(∃ W' : Waits sig Unit, owes (c : Thread nD τ) _ W') $$ [HO]
  · iexists _; iexact HO
  icases HOe with ⟨%W285, HO⟩
  -- step 447: wait arg4[63] (arg1[(k0_off3 d0 4032#32)], arg1[(k0_off3 d0 4032#32)])
  first | sl_exec | skip
  ihave Hs := (Entails.of_eq (take_step (famCFS (F := F) c) 63 (by decide))) $$ [FcFS]
  · iexact FcFS
  icases Hs with ⟨Hc, FcFS⟩
  ihave Hs := (Entails.of_eq (take_step (famAtFS (F := F) c) 63 (by decide))) $$ [FatFS]
  · iexact FatFS
  icases Hs with ⟨Hat, FatFS⟩
  ihave #HIw := (Prep.inv_fs m K c 63) $$ HI
  iapply (Rounds.wp_wait_rest_token 𝒱₀ ER (rd m) (c : Thread nD τ) none (κ := K (c, some (2, 63))) (sm := .dma (fsS 63))
      (wpE_waitDma2_eq 𝒱₀ (c : Thread nD τ) none Set.univ (src := fSl c 63) (dst := fSl c 63)) (Set.mem_univ _) () (O := 0) (W := W285) (R := 0) (m := 0) (T := ∅)
      (by rw [Nat.zero_add]; exact (expect_fs m c 63).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HYk := (Entails.of_eq (rest_fs' m c 63)) $$ Hpay
  ihave AccY := (acc_step (famY m c) 63 (by decide)) $$ [AccY HYk]
  · isplitl [AccY]; · iexact AccY
    iexact HYk
  ihave #HIx := (Prep.inv_fs m K c 63) $$ HI
  imod (Rounds.cell_close ER (rd m) (Set.mem_univ (K (c, some (2, 63)))) (fun h => h) (R := 0 + 1) (duties_fs_later m c 63)) $$ [Hat] with Hz
  · isplitr; · iexact HIx
    iexact Hat
  iclear HIx
  ihave AccZfs := (acc_step (famZfs (F := F) c) 63 (by decide)) $$ [AccZfs Hz]
  · isplitl [AccZfs]; · iexact AccZfs
    iexact Hz
  ihave HOe : iprop(∃ W' : Waits sig Unit, owes (c : Thread nD τ) _ W') $$ [HO]
  · iexists _; iexact HO
  icases HOe with ⟨%W286, HO⟩
  -- step 448: wait arg5[63] (arg1[(k0_off3 d0 4032#32)], arg1[(k0_off3 d0 4032#32)])
  first | sl_exec | skip
  ihave Hs := (Entails.of_eq (take_step (famCFR (F := F) c) 63 (by decide))) $$ [FcFR]
  · iexact FcFR
  icases Hs with ⟨Hc, FcFR⟩
  ihave Hs := (Entails.of_eq (take_step (famAtFR (F := F) c) 63 (by decide))) $$ [FatFR]
  · iexact FatFR
  icases Hs with ⟨Hat, FatFR⟩
  ihave #HIw := (Prep.inv_fr m K c 63) $$ HI
  iapply (Rounds.wp_wait_rest_token 𝒱₀ ER (rd m) (c : Thread nD τ) none (κ := K (c, some (3, 63))) (sm := .dma (frS 63))
      (wpE_waitDma2_eq 𝒱₀ (c : Thread nD τ) none Set.univ (src := fSl c 63) (dst := fSl c 63)) (Set.mem_univ _) () (O := 0) (W := W286) (R := 0) (m := 0) (T := ∅)
      (by rw [Nat.zero_add]; exact (expect_fr m c 63).symm)) $$ [Hc HO Hat]
  · isplitr; · iexact HIw
    isplitl [Hc]; · iexact Hc
    isplitl [HO]; · iexact HO
    isplitr
    · rw [MayWait_zero]; iempintro
    iexact Hat
  iclear HIw
  iintro ⟨HO, Hat, -, Hpay⟩
  ihave HFk := (Entails.of_eq (rest_fr' m c 63)) $$ Hpay
  ihave AccF := (acc_step (famF m c) 63 (by decide)) $$ [AccF HFk]
  · isplitl [AccF]; · iexact AccF
    iexact HFk
  ihave #HIx := (Prep.inv_fr m K c 63) $$ HI
  imod (Rounds.cell_close ER (rd m) (Set.mem_univ (K (c, some (3, 63)))) (fun h => h) (R := 0 + 1) (duties_fr_later m c 63)) $$ [Hat] with Hz
  · isplitr; · iexact HIx
    iexact Hat
  iclear HIx
  ihave AccZfr := (acc_step (famZfr (F := F) c) 63 (by decide)) $$ [AccZfr Hz]
  · isplitl [AccZfr]; · iexact AccZfr
    iexact Hz
  ihave HOe : iprop(∃ W' : Waits sig Unit, owes (c : Thread nD τ) _ W') $$ [HO]
  · iexists _; iexact HO
  icases HOe with ⟨%W287, HO⟩
  -- step 449: wait arg7[2] (arg6[![0, 0, 0]], arg1[(k0_off5 d0 7168#32)])
  first | sl_exec | skip
  ihave #HIw := (Prep.inv_ls m KL c 2) $$ HIL
  iapply (Rounds.wp_wait_rest_token 𝒱₀ ER (rd m) (c : Thread nD τ) none (κ := KL (c, 2)) (sm := .dma (lsS 2))
      (wpE_waitDma2_eq 𝒱₀ (c : Thread nD τ) none Set.univ (src := vSlot 0) (dst := lDst c 14)) (Set.mem_univ _) () (O := 0) (W := W287) (R := 7) (m := 0) (T := ∅)
      (by rw [Nat.zero_add]; exact (expect_st m c 0 7 (by decide)).symm)) $$ [Hc_l2 HO Hat_l2]
  · isplitr; · iexact HIw
    isplitl [Hc_l2]; · iexact Hc_l2
    isplitl [HO]; · iexact HO
    isplitr
    · rw [MayWait_zero]; iempintro
    iexact Hat_l2
  iclear HIw
  iclear HRl2
  iintro ⟨HO, Hat_l2, #HRl2, Hpay⟩
  ihave Hp := (Entails.of_eq (rest_st0 m c 7 (by decide))) $$ Hpay
  icases Hp with ⟨Holq, Hv0⟩
  ihave AccOL := (acc_step (famOL m c) 14 (by decide)) $$ [AccOL Holq]
  · isplitl [AccOL]; · iexact AccOL
    iexact Holq
  ihave HOe : iprop(∃ W' : Waits sig Unit, owes (c : Thread nD τ) _ W') $$ [HO]
  · iexists _; iexact HO
  icases HOe with ⟨%W288, HO⟩
  -- step 450: wait arg7[3] (arg6[![1, 0, 0]], arg1[(k0_off5 d0 7680#32)])
  first | sl_exec | skip
  ihave #HIw := (Prep.inv_ls m KL c 3) $$ HIL
  iapply (Rounds.wp_wait_rest_token 𝒱₀ ER (rd m) (c : Thread nD τ) none (κ := KL (c, 3)) (sm := .dma (lsS 3))
      (wpE_waitDma2_eq 𝒱₀ (c : Thread nD τ) none Set.univ (src := vSlot 1) (dst := lDst c 15)) (Set.mem_univ _) () (O := 0) (W := W288) (R := 7) (m := 0) (T := ∅)
      (by rw [Nat.zero_add]; exact (expect_st m c 1 7 (by decide)).symm)) $$ [Hc_l3 HO Hat_l3]
  · isplitr; · iexact HIw
    isplitl [Hc_l3]; · iexact Hc_l3
    isplitl [HO]; · iexact HO
    isplitr
    · rw [MayWait_zero]; iempintro
    iexact Hat_l3
  iclear HIw
  iclear HRl3
  iintro ⟨HO, Hat_l3, #HRl3, Hpay⟩
  ihave Hp := (Entails.of_eq (rest_st1 m c 7 (by decide))) $$ Hpay
  icases Hp with ⟨Holq, Hv1⟩
  ihave AccOL := (acc_step (famOL m c) 15 (by decide)) $$ [AccOL Holq]
  · isplitl [AccOL]; · iexact AccOL
    iexact Holq
  ihave HOe : iprop(∃ W' : Waits sig Unit, owes (c : Thread nD τ) _ W') $$ [HO]
  · iexists _; iexact HO
  icases HOe with ⟨%W289, HO⟩
  -- the return: the local copies' cells closed, then the post from the collected pieces
  first | sl_exec | skip
  ihave #HIx := (Prep.inv_ls m KL c 0) $$ HIL
  imod (Rounds.cell_close ER (rd m) (Set.mem_univ (KL (c, 0))) (fun h => h) (R := 7 + 1) (duties_ls_later m c 0)) $$ [Hat_l0] with Hz_l0
  · isplitr; · iexact HIx
    iexact Hat_l0
  iclear HIx
  ihave #HIx := (Prep.inv_ls m KL c 1) $$ HIL
  imod (Rounds.cell_close ER (rd m) (Set.mem_univ (KL (c, 1))) (fun h => h) (R := 7 + 1) (duties_ls_later m c 1)) $$ [Hat_l1] with Hz_l1
  · isplitr; · iexact HIx
    iexact Hat_l1
  iclear HIx
  ihave #HIx := (Prep.inv_ls m KL c 2) $$ HIL
  imod (Rounds.cell_close ER (rd m) (Set.mem_univ (KL (c, 2))) (fun h => h) (R := 7 + 1) (duties_ls_later m c 2)) $$ [Hat_l2] with Hz_l2
  · isplitr; · iexact HIx
    iexact Hat_l2
  iclear HIx
  ihave #HIx := (Prep.inv_ls m KL c 3) $$ HIL
  imod (Rounds.cell_close ER (rd m) (Set.mem_univ (KL (c, 3))) (fun h => h) (R := 7 + 1) (duties_ls_later m c 3)) $$ [Hat_l3] with Hz_l3
  · isplitr; · iexact HIx
    iexact Hat_l3
  iclear HIx
  first | simp only [Prog.bind, Prog.pure_eq_ret] | skip
  sl_step
  iapply Hk
  iapply (post_intro' m c W289 (VC m c 14) (VC m c 15))
  isplitl [AccXY AccXL HxR]
  · isplitl [AccXY]; · iexact AccXY
    isplitl [AccXL]; · iexact AccXL
    iexact HxR
  isplitl [AccOL AccY AccF]
  · isplitl [AccOL]; · iexact AccOL
    isplitl [AccY]; · iexact AccY
    iexact AccF
  isplitl [Hv0 Hv1]
  · isplitl [Hv0]; · iexact Hv0
    iexact Hv1
  isplitl [Hz_l0 Hz_l1 Hz_l2 Hz_l3]
  · isplitl [Hz_l0]; · iexact Hz_l0
    isplitl [Hz_l1]; · iexact Hz_l1
    isplitl [Hz_l2]; · iexact Hz_l2
    iexact Hz_l3
  isplitl [AccZys AccZyr AccZfs AccZfr]
  · isplitl [AccZys]; · iexact AccZys
    isplitl [AccZyr]; · iexact AccZyr
    isplitl [AccZfs]; · iexact AccZfs
    iexact AccZfr
  iexact HO

end Cert.KernelProof

end
-- ==== Proof.lean ====
/-
  The two-hop exchange on the 2 × 2 mesh is the identity on the whole array.

  Every device ends holding its column block of the whole array: its own row block copied locally, the other row block
  brought in by a transfer from its y-neighbour and a forwarded copy from its x-neighbour.  The kernel's run (both
  instances) is the launch of the per-device body proved against the protocol's schedule; the reference returns its
  argument.  The frames drop the value from the runs; the idealization rewrote nothing.
-/
import proofs.«900037_g7700000000000038_dist_a2a_v7x_xy2x2_y_m8192_n1024_f32_1_alg».proof.Defs
import proofs.«900037_g7700000000000038_dist_a2a_v7x_xy2x2_y_m8192_n1024_f32_1_alg».proof.Proof.Gen.Kernel
import proofs.«900037_g7700000000000038_dist_a2a_v7x_xy2x2_y_m8192_n1024_f32_1_alg».proof.Proof.Gen.KernelIdeal
import proofs.«900037_g7700000000000038_dist_a2a_v7x_xy2x2_y_m8192_n1024_f32_1_alg».proof.Proof.Gen.ReferenceIdeal
import proofs.«900037_g7700000000000038_dist_a2a_v7x_xy2x2_y_m8192_n1024_f32_1_alg».proof.Proof.Gen.Pre_finite_inputs_Kernel
import proofs.«900037_g7700000000000038_dist_a2a_v7x_xy2x2_y_m8192_n1024_f32_1_alg».proof.Proof.Gen.Pre_finite_inputs_ReferenceIdeal
import proofs.«900037_g7700000000000038_dist_a2a_v7x_xy2x2_y_m8192_n1024_f32_1_alg».proof.Proof.RefRun
import proofs.«900037_g7700000000000038_dist_a2a_v7x_xy2x2_y_m8192_n1024_f32_1_alg».proof.Proof.Launch
import proofs.«900037_g7700000000000038_dist_a2a_v7x_xy2x2_y_m8192_n1024_f32_1_alg».proof.Proof.Body
import proofs.«900037_g7700000000000038_dist_a2a_v7x_xy2x2_y_m8192_n1024_f32_1_alg».proof.Proof.KLaunch
import proofs.«900037_g7700000000000038_dist_a2a_v7x_xy2x2_y_m8192_n1024_f32_1_alg».proof.Proof.KBody
import Idealize.ShloMosaic.Adequacy
import Idealize.ShloMosaic.Init

noncomputable section

namespace Cert.Proof

open Idealize.ShloMosaic Idealize.SL.Sem

/-- The word-level kernel runs and leaves x as it was. -/
theorem frame_k : Cert.frame_Kernel (hKernel := Cert.Kernel.Gen.facts) (hPre_finite_inputs_Kernel := Cert.Pre_finite_inputs_Kernel.Gen.facts) :=
  fun m ρ _ => (θ_run (Cert.Kernel.defs (F := Bits)) _ _).mono (fun _ h c => (h c).2)
    (Cert.KernelProof.run_main (F := Bits) m ρ (Cert.KernelProof.sound_body m))

/-- The idealized kernel runs and leaves x as it was. -/
theorem frame_ki : Cert.frame_KernelIdeal (hKernelIdeal := Cert.KernelIdeal.Gen.facts) (hPre_finite_inputs_Kernel := Cert.Pre_finite_inputs_Kernel.Gen.facts) :=
  fun m ρ _ => (θ_run (Cert.KernelIdeal.defs (F := Ideal)) _ _).mono (fun _ h c => (h c).2)
    (Cert.KernelIdealProof.run_main (F := Ideal) m ρ (Cert.KernelIdealProof.sound_body m))

/-- Each device's result is its column block of the reference's result, which is the whole array x itself. -/
theorem algebraic : Cert.algebraic_KernelIdeal_ReferenceIdeal (hKernelIdeal := Cert.KernelIdeal.Gen.facts) (hReferenceIdeal := Cert.ReferenceIdeal.Gen.facts)
    (hPre_finite_inputs_Kernel := Cert.Pre_finite_inputs_Kernel.Gen.facts) := by
  intro m g m' g' _ hagree
  refine ⟨m' (((0 : Dev Cert.ReferenceIdeal.nD).tc : Thread Cert.ReferenceIdeal.nD Cert.ReferenceIdeal.τ).loc Cert.ReferenceIdeal.main_arg0), ?_, ?_⟩
  · exact (θ_run (Cert.KernelIdeal.defs (F := Ideal)) _ _).mono
      (fun _ h c => ⟨(h c).1.trans (Cert.Spec.outFinal_eq_block m _ hagree c), (h c).2⟩)
      (Cert.KernelIdealProof.run_main (F := Ideal) m g (Cert.KernelIdealProof.sound_body m))
  · exact (θ_run (Cert.ReferenceIdeal.defs (F := Ideal)) _ _).mono (fun _ h => ⟨h _, h _⟩) (Cert.RefRun.ref_run m' g')

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_k, frame_ki, Cert.RefRun.frame_ref, trivial, algebraic⟩

end Cert.Proof

end
